-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v691)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v691) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v963) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S9x128x128 : Shape := ⟨3, ![9, 128, 128]⟩
abbrev S9x128 : Shape := ⟨2, ![9, 128]⟩
abbrev S128x16 : Shape := ⟨2, ![128, 16]⟩
abbrev S16 : Shape := ⟨1, ![16]⟩
abbrev S9x2x400000 : Shape := ⟨3, ![9, 2, 400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S9x128x128 : S_.BroadcastsInDim S9x128x128 (![] : Fin 0 → Fin S9x128x128.rank)
  reducesTo_S9x128x128_S_d0_1_2 : S9x128x128.ReducesTo [0, 1, 2] S_
  bcast_S_S9x128 : S_.BroadcastsInDim S9x128 (![] : Fin 0 → Fin S9x128.rank)
  reducesTo_S9x128_S_d0_1 : S9x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S128x16 .f32) (main_arg8 : FVec F S16 .f32) (main_v33 : IVec S_ 1) : IVec S_ 1 :=
  let main_v34 : FVec F S128x16 .f32 := Host.absf main_arg7
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S9x128 .f32) (main_arg5 : FVec F S9x128x128 .f32) (main_arg6 : FVec F S9x128 .f32) (main_arg7 : FVec F S128x16 .f32) (main_arg8 : FVec F S16 .f32) (main_v13 : IVec S_ 1) (main_v16 : IVec S9x128x128 1) : IVec S_ 1 :=
  let main_c_5 : IVec S_ 1 := constantI S_ 1 1#1
  let main_v17 : IVec S_ 1 := (fun x v => Host.reduce IntOp.andi x v reducesTo_S9x128x128_S_d0_1_2 h_S_) main_v16 main_c_5
  let main_v18 : IVec S_ 1 := andi main_v13 main_v17
  let main_v19 : FVec F S9x128 .f32 := Host.absf main_arg4
  let main_cst_6 : FVec F S_ .f32 := constant S_ .f32 0x7F800000#32
  let main_v20 : FVec F S9x128 .f32 := broadcastInDim S9x128 ![] bcast_S_S9x128 main_cst_6
  let main_v21 : IVec S9x128 1 := cmpf .olt main_v19 main_v20
  let main_c_7 : IVec S_ 1 := constantI S_ 1 1#1
  let main_v22 : IVec S_ 1 := (fun x v => Host.reduce IntOp.andi x v reducesTo_S9x128_S_d0_1 h_S_) main_v21 main_c_7
  let main_v23 : IVec S_ 1 := andi main_v18 main_v22
  let main_v24 : FVec F S9x128x128 .f32 := Host.absf main_arg5
  let main_cst_8 : FVec F S_ .f32 := constant S_ .f32 0x7F800000#32
  let main_v25 : FVec F S9x128x128 .f32 := broadcastInDim S9x128x128 ![] bcast_S_S9x128x128 main_cst_8
  let main_v26 : IVec S9x128x128 1 := cmpf .olt main_v24 main_v25
  let main_c_9 : IVec S_ 1 := constantI S_ 1 1#1
  let main_v27 : IVec S_ 1 := (fun x v => Host.reduce IntOp.andi x v reducesTo_S9x128x128_S_d0_1_2 h_S_) main_v26 main_c_9
  let main_v28 : IVec S_ 1 := andi main_v23 main_v27
  let main_v29 : FVec F S9x128 .f32 := Host.absf main_arg6
  let main_cst_10 : FVec F S_ .f32 := constant S_ .f32 0x7F800000#32
  let main_v30 : FVec F S9x128 .f32 := broadcastInDim S9x128 ![] bcast_S_S9x128 main_cst_10
  let main_v31 : IVec S9x128 1 := cmpf .olt main_v29 main_v30
  let main_c_11 : IVec S_ 1 := constantI S_ 1 1#1
  let main_v32 : IVec S_ 1 := (fun x v => Host.reduce IntOp.andi x v reducesTo_S9x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S50000x128 .f32) (main_arg2 : FVec F S50000x128 .f32) (main_arg3 : FVec F S9x128x128 .f32) (main_arg4 : FVec F S9x128 .f32) (main_arg5 : FVec F S9x128x128 .f32) (main_arg6 : FVec F S9x128 .f32) (main_arg7 : FVec F S128x16 .f32) (main_arg8 : FVec F S16 .f32) (main_arg9 : IVec S9x2x400000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S9x128x128 .f32 := Host.absf main_arg3
  let main_cst_4 : FVec F S_ .f32 := constant S_ .f32 0x7F800000#32
  let main_v15 : FVec F S9x128x128 .f32 := broadcastInDim S9x128x128 ![] bcast_S_S9x128x128 main_cst_4
  let main_v16 : IVec S9x128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S9x128x128 : Shape := ⟨3, ![9, 128, 128]⟩
abbrev S9x128 : Shape := ⟨2, ![9, 128]⟩
abbrev S128x16 : Shape := ⟨2, ![128, 16]⟩
abbrev S16 : Shape := ⟨1, ![16]⟩
abbrev S9x2x400000 : Shape := ⟨3, ![9, 2, 400000]⟩
abbrev S_ : Shape := ⟨0, ![]⟩
abbrev S400000 : Shape := ⟨1, ![400000]⟩
abbrev S1x1x400000 : Shape := ⟨3, ![1, 1, 400000]⟩
abbrev S50000 : Shape := ⟨1, ![50000]⟩
abbrev S400000x1 : Shape := ⟨2, ![400000, 1]⟩
abbrev S1x50000 : Shape := ⟨2, ![1, 50000]⟩
abbrev S9x50000 : Shape := ⟨2, ![9, 50000]⟩
abbrev S50000x1 : Shape := ⟨2, ![50000, 1]⟩
abbrev S400000x128 : Shape := ⟨2, ![400000, 128]⟩
abbrev S1x50000x128 : Shape := ⟨3, ![1, 50000, 128]⟩
abbrev S9x50000x128 : Shape := ⟨3, ![9, 50000, 128]⟩
abbrev S9x50000x1 : Shape := ⟨3, ![9, 50000, 1]⟩
abbrev S9x1x128 : Shape := ⟨3, ![9, 1, 128]⟩
abbrev S1x5000x128 : Shape := ⟨3, ![1, 5000, 128]⟩
abbrev S1x5000x1 : Shape := ⟨3, ![1, 5000, 1]⟩
abbrev S1x128x128 : Shape := ⟨3, ![1, 128, 128]⟩
abbrev S1x1x128 : Shape := ⟨3, ![1, 1, 128]⟩
abbrev S5000x128 : Shape := ⟨2, ![5000, 128]⟩
abbrev S5000x1 : Shape := ⟨2, ![5000, 1]⟩
abbrev S128x128 : Shape := ⟨2, ![128, 128]⟩
abbrev S1x128 : Shape := ⟨2, ![1, 128]⟩
abbrev S3x50000x128 : Shape := ⟨3, ![3, 50000, 128]⟩
abbrev S1x16 : Shape := ⟨2, ![1, 16]⟩
abbrev S3x50000x16 : Shape := ⟨3, ![3, 50000, 16]⟩
abbrev S1x5000x16 : Shape := ⟨3, ![1, 5000, 16]⟩
abbrev S5000x16 : Shape := ⟨2, ![5000, 16]⟩

abbrev nBuf : Space → Nat
  | .hbm => 949
  | .vmem => 26
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S9x128x128, .f32⟩
  | 4 => ⟨S9x128, .f32⟩
  | 5 => ⟨S9x128x128, .f32⟩
  | 6 => ⟨S9x128, .f32⟩
  | 7 => ⟨S128x16, .f32⟩
  | 8 => ⟨S16, .f32⟩
  | 9 => ⟨S9x2x400000, .i32⟩
  | 10 => ⟨S_, .f32⟩
  | 11 => ⟨S400000, .f32⟩
  | 12 => ⟨S1x1x400000, .i32⟩
  | 13 => ⟨S400000, .i32⟩
  | 14 => ⟨S1x1x400000, .i32⟩
  | 15 => ⟨S400000, .i32⟩
  | 16 => ⟨S_, .f32⟩
  | 17 => ⟨S50000, .f32⟩
  | 18 => ⟨S400000x1, .i32⟩
  | 19 => ⟨S50000, .f32⟩
  | 20 => ⟨S_, .f32⟩
  | 21 => ⟨S50000, .f32⟩
  | 22 => ⟨S400000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .i1⟩
  | 37 => ⟨S_, .f32⟩
  | 38 => ⟨S_, .f32⟩
  | 39 => ⟨S50000, .f32⟩
  | 40 => ⟨S50000, .f32⟩
  | 41 => ⟨S_, .f32⟩
  | 42 => ⟨S50000, .f32⟩
  | 43 => ⟨S50000, .i1⟩
  | 44 => ⟨S_, .f32⟩
  | 45 => ⟨S_, .f32⟩
  | 46 => ⟨S50000, .f32⟩
  | 47 => ⟨S50000, .f32⟩
  | 48 => ⟨S_, .f32⟩
  | 49 => ⟨S50000, .f32⟩
  | 50 => ⟨S50000, .f32⟩
  | 51 => ⟨S_, .f32⟩
  | 52 => ⟨S50000, .f32⟩
  | 53 => ⟨S50000, .i1⟩
  | 54 => ⟨S_, .f32⟩
  | 55 => ⟨S_, .f32⟩
  | 56 => ⟨S50000, .f32⟩
  | 57 => ⟨S50000, .f32⟩
  | 58 => ⟨S1x1x400000, .i32⟩
  | 59 => ⟨S400000, .i32⟩
  | 60 => ⟨S1x1x400000, .i32⟩
  | 61 => ⟨S400000, .i32⟩
  | 62 => ⟨S_, .f32⟩
  | 63 => ⟨S50000, .f32⟩
  | 64 => ⟨S400000x1, .i32⟩
  | 65 => ⟨S50000, .f32⟩
  | 66 => ⟨S_, .f32⟩
  | 67 => ⟨S50000, .f32⟩
  | 68 => ⟨S400000x1, .i32⟩
  | 69 => ⟨S50000, .f32⟩
  | 70 => ⟨S_, .f32⟩
  | 71 => ⟨S50000, .f32⟩
  | 72 => ⟨S50000, .i1⟩
  | 73 => ⟨S_, .f32⟩
  | 74 => ⟨S_, .f32⟩
  | 75 => ⟨S50000, .f32⟩
  | 76 => ⟨S50000, .f32⟩
  | 77 => ⟨S_, .f32⟩
  | 78 => ⟨S50000, .f32⟩
  | 79 => ⟨S50000, .f32⟩
  | 80 => ⟨S_, .f32⟩
  | 81 => ⟨S50000, .f32⟩
  | 82 => ⟨S50000, .i1⟩
  | 83 => ⟨S_, .f32⟩
  | 84 => ⟨S_, .f32⟩
  | 85 => ⟨S50000, .f32⟩
  | 86 => ⟨S50000, .f32⟩
  | 87 => ⟨S_, .f32⟩
  | 88 => ⟨S50000, .f32⟩
  | 89 => ⟨S50000, .i1⟩
  | 90 => ⟨S_, .f32⟩
  | 91 => ⟨S_, .f32⟩
  | 92 => ⟨S50000, .f32⟩
  | 93 => ⟨S50000, .f32⟩
  | 94 => ⟨S_, .f32⟩
  | 95 => ⟨S50000, .f32⟩
  | 96 => ⟨S50000, .f32⟩
  | 97 => ⟨S_, .f32⟩
  | 98 => ⟨S50000, .f32⟩
  | 99 => ⟨S50000, .i1⟩
  | 100 => ⟨S_, .f32⟩
  | 101 => ⟨S_, .f32⟩
  | 102 => ⟨S50000, .f32⟩
  | 103 => ⟨S50000, .f32⟩
  | 104 => ⟨S1x1x400000, .i32⟩
  | 105 => ⟨S400000, .i32⟩
  | 106 => ⟨S1x1x400000, .i32⟩
  | 107 => ⟨S400000, .i32⟩
  | 108 => ⟨S_, .f32⟩
  | 109 => ⟨S50000, .f32⟩
  | 110 => ⟨S400000x1, .i32⟩
  | 111 => ⟨S50000, .f32⟩
  | 112 => ⟨S_, .f32⟩
  | 113 => ⟨S50000, .f32⟩
  | 114 => ⟨S400000x1, .i32⟩
  | 115 => ⟨S50000, .f32⟩
  | 116 => ⟨S_, .f32⟩
  | 117 => ⟨S50000, .f32⟩
  | 118 => ⟨S50000, .i1⟩
  | 119 => ⟨S_, .f32⟩
  | 120 => ⟨S_, .f32⟩
  | 121 => ⟨S50000, .f32⟩
  | 122 => ⟨S50000, .f32⟩
  | 123 => ⟨S_, .f32⟩
  | 124 => ⟨S50000, .f32⟩
  | 125 => ⟨S50000, .f32⟩
  | 126 => ⟨S_, .f32⟩
  | 127 => ⟨S50000, .f32⟩
  | _ => ⟨S50000x128, .f32⟩

abbrev hbmTy0_1 (i : Nat) : BufTy := match i % 128 with
  | 0 => ⟨S50000, .i1⟩
  | 1 => ⟨S_, .f32⟩
  | 2 => ⟨S_, .f32⟩
  | 3 => ⟨S50000, .f32⟩
  | 4 => ⟨S50000, .f32⟩
  | 5 => ⟨S_, .f32⟩
  | 6 => ⟨S50000, .f32⟩
  | 7 => ⟨S50000, .i1⟩
  | 8 => ⟨S_, .f32⟩
  | 9 => ⟨S_, .f32⟩
  | 10 => ⟨S50000, .f32⟩
  | 11 => ⟨S50000, .f32⟩
  | 12 => ⟨S_, .f32⟩
  | 13 => ⟨S50000, .f32⟩
  | 14 => ⟨S50000, .f32⟩
  | 15 => ⟨S_, .f32⟩
  | 16 => ⟨S50000, .f32⟩
  | 17 => ⟨S50000, .i1⟩
  | 18 => ⟨S_, .f32⟩
  | 19 => ⟨S_, .f32⟩
  | 20 => ⟨S50000, .f32⟩
  | 21 => ⟨S50000, .f32⟩
  | 22 => ⟨S1x1x400000, .i32⟩
  | 23 => ⟨S400000, .i32⟩
  | 24 => ⟨S1x1x400000, .i32⟩
  | 25 => ⟨S400000, .i32⟩
  | 26 => ⟨S_, .f32⟩
  | 27 => ⟨S50000, .f32⟩
  | 28 => ⟨S400000x1, .i32⟩
  | 29 => ⟨S50000, .f32⟩
  | 30 => ⟨S_, .f32⟩
  | 31 => ⟨S50000, .f32⟩
  | 32 => ⟨S400000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S_, .f32⟩
  | 39 => ⟨S50000, .f32⟩
  | 40 => ⟨S50000, .f32⟩
  | 41 => ⟨S_, .f32⟩
  | 42 => ⟨S50000, .f32⟩
  | 43 => ⟨S50000, .f32⟩
  | 44 => ⟨S_, .f32⟩
  | 45 => ⟨S50000, .f32⟩
  | 46 => ⟨S50000, .i1⟩
  | 47 => ⟨S_, .f32⟩
  | 48 => ⟨S_, .f32⟩
  | 49 => ⟨S50000, .f32⟩
  | 50 => ⟨S50000, .f32⟩
  | 51 => ⟨S_, .f32⟩
  | 52 => ⟨S50000, .f32⟩
  | 53 => ⟨S50000, .i1⟩
  | 54 => ⟨S_, .f32⟩
  | 55 => ⟨S_, .f32⟩
  | 56 => ⟨S50000, .f32⟩
  | 57 => ⟨S50000, .f32⟩
  | 58 => ⟨S_, .f32⟩
  | 59 => ⟨S50000, .f32⟩
  | 60 => ⟨S50000, .f32⟩
  | 61 => ⟨S_, .f32⟩
  | 62 => ⟨S50000, .f32⟩
  | 63 => ⟨S50000, .i1⟩
  | 64 => ⟨S_, .f32⟩
  | 65 => ⟨S_, .f32⟩
  | 66 => ⟨S50000, .f32⟩
  | 67 => ⟨S50000, .f32⟩
  | 68 => ⟨S1x1x400000, .i32⟩
  | 69 => ⟨S400000, .i32⟩
  | 70 => ⟨S1x1x400000, .i32⟩
  | 71 => ⟨S400000, .i32⟩
  | 72 => ⟨S_, .f32⟩
  | 73 => ⟨S50000, .f32⟩
  | 74 => ⟨S400000x1, .i32⟩
  | 75 => ⟨S50000, .f32⟩
  | 76 => ⟨S_, .f32⟩
  | 77 => ⟨S50000, .f32⟩
  | 78 => ⟨S400000x1, .i32⟩
  | 79 => ⟨S50000, .f32⟩
  | 80 => ⟨S_, .f32⟩
  | 81 => ⟨S50000, .f32⟩
  | 82 => ⟨S50000, .i1⟩
  | 83 => ⟨S_, .f32⟩
  | 84 => ⟨S_, .f32⟩
  | 85 => ⟨S50000, .f32⟩
  | 86 => ⟨S50000, .f32⟩
  | 87 => ⟨S_, .f32⟩
  | 88 => ⟨S50000, .f32⟩
  | 89 => ⟨S50000, .f32⟩
  | 90 => ⟨S_, .f32⟩
  | 91 => ⟨S50000, .f32⟩
  | 92 => ⟨S50000, .i1⟩
  | 93 => ⟨S_, .f32⟩
  | 94 => ⟨S_, .f32⟩
  | 95 => ⟨S50000, .f32⟩
  | 96 => ⟨S50000, .f32⟩
  | 97 => ⟨S_, .f32⟩
  | 98 => ⟨S50000, .f32⟩
  | 99 => ⟨S50000, .i1⟩
  | 100 => ⟨S_, .f32⟩
  | 101 => ⟨S_, .f32⟩
  | 102 => ⟨S50000, .f32⟩
  | 103 => ⟨S50000, .f32⟩
  | 104 => ⟨S_, .f32⟩
  | 105 => ⟨S50000, .f32⟩
  | 106 => ⟨S50000, .f32⟩
  | 107 => ⟨S_, .f32⟩
  | 108 => ⟨S50000, .f32⟩
  | 109 => ⟨S50000, .i1⟩
  | 110 => ⟨S_, .f32⟩
  | 111 => ⟨S_, .f32⟩
  | 112 => ⟨S50000, .f32⟩
  | 113 => ⟨S50000, .f32⟩
  | 114 => ⟨S1x1x400000, .i32⟩
  | 115 => ⟨S400000, .i32⟩
  | 116 => ⟨S1x1x400000, .i32⟩
  | 117 => ⟨S400000, .i32⟩
  | 118 => ⟨S_, .f32⟩
  | 119 => ⟨S50000, .f32⟩
  | 120 => ⟨S400000x1, .i32⟩
  | 121 => ⟨S50000, .f32⟩
  | 122 => ⟨S_, .f32⟩
  | 123 => ⟨S50000, .f32⟩
  | 124 => ⟨S400000x1, .i32⟩
  | 125 => ⟨S50000, .f32⟩
  | 126 => ⟨S_, .f32⟩
  | 127 => ⟨S50000, .f32⟩
  | _ => ⟨S50000x128, .f32⟩

abbrev hbmTy0_2 (i : Nat) : BufTy := match i % 128 with
  | 0 => ⟨S50000, .i1⟩
  | 1 => ⟨S_, .f32⟩
  | 2 => ⟨S_, .f32⟩
  | 3 => ⟨S50000, .f32⟩
  | 4 => ⟨S50000, .f32⟩
  | 5 => ⟨S_, .f32⟩
  | 6 => ⟨S50000, .f32⟩
  | 7 => ⟨S50000, .f32⟩
  | 8 => ⟨S_, .f32⟩
  | 9 => ⟨S50000, .f32⟩
  | 10 => ⟨S50000, .i1⟩
  | 11 => ⟨S_, .f32⟩
  | 12 => ⟨S_, .f32⟩
  | 13 => ⟨S50000, .f32⟩
  | 14 => ⟨S50000, .f32⟩
  | 15 => ⟨S_, .f32⟩
  | 16 => ⟨S50000, .f32⟩
  | 17 => ⟨S50000, .i1⟩
  | 18 => ⟨S_, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .i1⟩
  | 28 => ⟨S_, .f32⟩
  | 29 => ⟨S_, .f32⟩
  | 30 => ⟨S50000, .f32⟩
  | 31 => ⟨S50000, .f32⟩
  | 32 => ⟨S1x1x400000, .i32⟩
  | 33 => ⟨S400000, .i32⟩
  | 34 => ⟨S1x1x400000, .i32⟩
  | 35 => ⟨S400000, .i32⟩
  | 36 => ⟨S_, .f32⟩
  | 37 => ⟨S50000, .f32⟩
  | 38 => ⟨S400000x1, .i32⟩
  | 39 => ⟨S50000, .f32⟩
  | 40 => ⟨S_, .f32⟩
  | 41 => ⟨S50000, .f32⟩
  | 42 => ⟨S400000x1, .i32⟩
  | 43 => ⟨S50000, .f32⟩
  | 44 => ⟨S_, .f32⟩
  | 45 => ⟨S50000, .f32⟩
  | 46 => ⟨S50000, .i1⟩
  | 47 => ⟨S_, .f32⟩
  | 48 => ⟨S_, .f32⟩
  | 49 => ⟨S50000, .f32⟩
  | 50 => ⟨S50000, .f32⟩
  | 51 => ⟨S_, .f32⟩
  | 52 => ⟨S50000, .f32⟩
  | 53 => ⟨S50000, .f32⟩
  | 54 => ⟨S_, .f32⟩
  | 55 => ⟨S50000, .f32⟩
  | 56 => ⟨S50000, .i1⟩
  | 57 => ⟨S_, .f32⟩
  | 58 => ⟨S_, .f32⟩
  | 59 => ⟨S50000, .f32⟩
  | 60 => ⟨S50000, .f32⟩
  | 61 => ⟨S_, .f32⟩
  | 62 => ⟨S50000, .f32⟩
  | 63 => ⟨S50000, .i1⟩
  | 64 => ⟨S_, .f32⟩
  | 65 => ⟨S_, .f32⟩
  | 66 => ⟨S50000, .f32⟩
  | 67 => ⟨S50000, .f32⟩
  | 68 => ⟨S_, .f32⟩
  | 69 => ⟨S50000, .f32⟩
  | 70 => ⟨S50000, .f32⟩
  | 71 => ⟨S_, .f32⟩
  | 72 => ⟨S50000, .f32⟩
  | 73 => ⟨S50000, .i1⟩
  | 74 => ⟨S_, .f32⟩
  | 75 => ⟨S_, .f32⟩
  | 76 => ⟨S50000, .f32⟩
  | 77 => ⟨S50000, .f32⟩
  | 78 => ⟨S1x1x400000, .i32⟩
  | 79 => ⟨S400000, .i32⟩
  | 80 => ⟨S1x1x400000, .i32⟩
  | 81 => ⟨S400000, .i32⟩
  | 82 => ⟨S_, .f32⟩
  | 83 => ⟨S50000, .f32⟩
  | 84 => ⟨S400000x1, .i32⟩
  | 85 => ⟨S50000, .f32⟩
  | 86 => ⟨S_, .f32⟩
  | 87 => ⟨S50000, .f32⟩
  | 88 => ⟨S400000x1, .i32⟩
  | 89 => ⟨S50000, .f32⟩
  | 90 => ⟨S_, .f32⟩
  | 91 => ⟨S50000, .f32⟩
  | 92 => ⟨S50000, .i1⟩
  | 93 => ⟨S_, .f32⟩
  | 94 => ⟨S_, .f32⟩
  | 95 => ⟨S50000, .f32⟩
  | 96 => ⟨S50000, .f32⟩
  | 97 => ⟨S_, .f32⟩
  | 98 => ⟨S50000, .f32⟩
  | 99 => ⟨S50000, .f32⟩
  | 100 => ⟨S_, .f32⟩
  | 101 => ⟨S50000, .f32⟩
  | 102 => ⟨S50000, .i1⟩
  | 103 => ⟨S_, .f32⟩
  | 104 => ⟨S_, .f32⟩
  | 105 => ⟨S50000, .f32⟩
  | 106 => ⟨S50000, .f32⟩
  | 107 => ⟨S_, .f32⟩
  | 108 => ⟨S50000, .f32⟩
  | 109 => ⟨S50000, .i1⟩
  | 110 => ⟨S_, .f32⟩
  | 111 => ⟨S_, .f32⟩
  | 112 => ⟨S50000, .f32⟩
  | 113 => ⟨S50000, .f32⟩
  | 114 => ⟨S_, .f32⟩
  | 115 => ⟨S50000, .f32⟩
  | 116 => ⟨S50000, .f32⟩
  | 117 => ⟨S_, .f32⟩
  | 118 => ⟨S50000, .f32⟩
  | 119 => ⟨S50000, .i1⟩
  | 120 => ⟨S_, .f32⟩
  | 121 => ⟨S_, .f32⟩
  | 122 => ⟨S50000, .f32⟩
  | 123 => ⟨S50000, .f32⟩
  | 124 => ⟨S1x1x400000, .i32⟩
  | 125 => ⟨S400000, .i32⟩
  | 126 => ⟨S1x1x400000, .i32⟩
  | 127 => ⟨S400000, .i32⟩
  | _ => ⟨S50000x128, .f32⟩

abbrev hbmTy0_3 (i : Nat) : BufTy := match i % 128 with
  | 0 => ⟨S_, .f32⟩
  | 1 => ⟨S50000, .f32⟩
  | 2 => ⟨S400000x1, .i32⟩
  | 3 => ⟨S50000, .f32⟩
  | 4 => ⟨S_, .f32⟩
  | 5 => ⟨S50000, .f32⟩
  | 6 => ⟨S400000x1, .i32⟩
  | 7 => ⟨S50000, .f32⟩
  | 8 => ⟨S_, .f32⟩
  | 9 => ⟨S50000, .f32⟩
  | 10 => ⟨S50000, .i1⟩
  | 11 => ⟨S_, .f32⟩
  | 12 => ⟨S_, .f32⟩
  | 13 => ⟨S50000, .f32⟩
  | 14 => ⟨S50000, .f32⟩
  | 15 => ⟨S_, .f32⟩
  | 16 => ⟨S50000, .f32⟩
  | 17 => ⟨S50000, .f32⟩
  | 18 => ⟨S_, .f32⟩
  | 19 => ⟨S50000, .f32⟩
  | 20 => ⟨S50000, .i1⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .i1⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .i1⟩
  | 38 => ⟨S_, .f32⟩
  | 39 => ⟨S_, .f32⟩
  | 40 => ⟨S50000, .f32⟩
  | 41 => ⟨S50000, .f32⟩
  | 42 => ⟨S1x50000, .f32⟩
  | 43 => ⟨S1x50000, .f32⟩
  | 44 => ⟨S1x50000, .f32⟩
  | 45 => ⟨S1x50000, .f32⟩
  | 46 => ⟨S1x50000, .f32⟩
  | 47 => ⟨S1x50000, .f32⟩
  | 48 => ⟨S1x50000, .f32⟩
  | 49 => ⟨S1x50000, .f32⟩
  | 50 => ⟨S1x50000, .f32⟩
  | 51 => ⟨S9x50000, .f32⟩
  | 52 => ⟨S1x50000, .f32⟩
  | 53 => ⟨S1x50000, .f32⟩
  | 54 => ⟨S1x50000, .f32⟩
  | 55 => ⟨S1x50000, .f32⟩
  | 56 => ⟨S1x50000, .f32⟩
  | 57 => ⟨S1x50000, .f32⟩
  | 58 => ⟨S1x50000, .f32⟩
  | 59 => ⟨S1x50000, .f32⟩
  | 60 => ⟨S1x50000, .f32⟩
  | 61 => ⟨S9x50000, .f32⟩
  | 62 => ⟨S1x50000, .f32⟩
  | 63 => ⟨S50000, .f32⟩
  | 64 => ⟨S50000x1, .f32⟩
  | 65 => ⟨S50000x128, .f32⟩
  | 66 => ⟨S50000x128, .f32⟩
  | 67 => ⟨S1x1x400000, .i32⟩
  | 68 => ⟨S400000, .i32⟩
  | 69 => ⟨S_, .i32⟩
  | 70 => ⟨S400000, .i32⟩
  | 71 => ⟨S400000, .i1⟩
  | 72 => ⟨S_, .i32⟩
  | 73 => ⟨S400000, .i32⟩
  | 74 => ⟨S400000, .i32⟩
  | 75 => ⟨S400000, .i32⟩
  | 76 => ⟨S400000x1, .i32⟩
  | 77 => ⟨S400000x128, .f32⟩
  | 78 => ⟨S1x1x400000, .i32⟩
  | 79 => ⟨S400000, .i32⟩
  | 80 => ⟨S_, .f32⟩
  | 81 => ⟨S50000x128, .f32⟩
  | 82 => ⟨S400000x1, .i32⟩
  | 83 => ⟨S50000x128, .f32⟩
  | 84 => ⟨S1x50000, .f32⟩
  | 85 => ⟨S50000, .f32⟩
  | 86 => ⟨S50000x1, .f32⟩
  | 87 => ⟨S50000x128, .f32⟩
  | 88 => ⟨S50000x128, .f32⟩
  | 89 => ⟨S1x1x400000, .i32⟩
  | 90 => ⟨S400000, .i32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000x128, .f32⟩
  | 100 => ⟨S1x1x400000, .i32⟩
  | 101 => ⟨S400000, .i32⟩
  | 102 => ⟨S_, .f32⟩
  | 103 => ⟨S50000x128, .f32⟩
  | 104 => ⟨S400000x1, .i32⟩
  | 105 => ⟨S50000x128, .f32⟩
  | 106 => ⟨S1x50000, .f32⟩
  | 107 => ⟨S50000, .f32⟩
  | 108 => ⟨S50000x1, .f32⟩
  | 109 => ⟨S50000x128, .f32⟩
  | 110 => ⟨S50000x128, .f32⟩
  | 111 => ⟨S1x1x400000, .i32⟩
  | 112 => ⟨S400000, .i32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x128, .f32⟩
  | 122 => ⟨S1x1x400000, .i32⟩
  | 123 => ⟨S400000, .i32⟩
  | 124 => ⟨S_, .f32⟩
  | 125 => ⟨S50000x128, .f32⟩
  | 126 => ⟨S400000x1, .i32⟩
  | 127 => ⟨S50000x128, .f32⟩
  | _ => ⟨S50000x128, .f32⟩

abbrev hbmTy0_4 (i : Nat) : BufTy := match i % 128 with
  | 0 => ⟨S1x50000, .f32⟩
  | 1 => ⟨S50000, .f32⟩
  | 2 => ⟨S50000x1, .f32⟩
  | 3 => ⟨S50000x128, .f32⟩
  | 4 => ⟨S50000x128, .f32⟩
  | 5 => ⟨S1x1x400000, .i32⟩
  | 6 => ⟨S400000, .i32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S400000x128, .f32⟩
  | 16 => ⟨S1x1x400000, .i32⟩
  | 17 => ⟨S400000, .i32⟩
  | 18 => ⟨S_, .f32⟩
  | 19 => ⟨S50000x128, .f32⟩
  | 20 => ⟨S400000x1, .i32⟩
  | 21 => ⟨S50000x128, .f32⟩
  | 22 => ⟨S1x50000, .f32⟩
  | 23 => ⟨S50000, .f32⟩
  | 24 => ⟨S50000x1, .f32⟩
  | 25 => ⟨S50000x128, .f32⟩
  | 26 => ⟨S50000x128, .f32⟩
  | 27 => ⟨S1x1x400000, .i32⟩
  | 28 => ⟨S400000, .i32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S1x1x400000, .i32⟩
  | 39 => ⟨S400000, .i32⟩
  | 40 => ⟨S_, .f32⟩
  | 41 => ⟨S50000x128, .f32⟩
  | 42 => ⟨S400000x1, .i32⟩
  | 43 => ⟨S50000x128, .f32⟩
  | 44 => ⟨S1x50000, .f32⟩
  | 45 => ⟨S50000, .f32⟩
  | 46 => ⟨S50000x1, .f32⟩
  | 47 => ⟨S50000x128, .f32⟩
  | 48 => ⟨S50000x128, .f32⟩
  | 49 => ⟨S1x1x400000, .i32⟩
  | 50 => ⟨S400000, .i32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .f32⟩
  | 60 => ⟨S1x1x400000, .i32⟩
  | 61 => ⟨S400000, .i32⟩
  | 62 => ⟨S_, .f32⟩
  | 63 => ⟨S50000x128, .f32⟩
  | 64 => ⟨S400000x1, .i32⟩
  | 65 => ⟨S50000x128, .f32⟩
  | 66 => ⟨S1x50000, .f32⟩
  | 67 => ⟨S50000, .f32⟩
  | 68 => ⟨S50000x1, .f32⟩
  | 69 => ⟨S50000x128, .f32⟩
  | 70 => ⟨S50000x128, .f32⟩
  | 71 => ⟨S1x1x400000, .i32⟩
  | 72 => ⟨S400000, .i32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x128, .f32⟩
  | 82 => ⟨S1x1x400000, .i32⟩
  | 83 => ⟨S400000, .i32⟩
  | 84 => ⟨S_, .f32⟩
  | 85 => ⟨S50000x128, .f32⟩
  | 86 => ⟨S400000x1, .i32⟩
  | 87 => ⟨S50000x128, .f32⟩
  | 88 => ⟨S1x50000, .f32⟩
  | 89 => ⟨S50000, .f32⟩
  | 90 => ⟨S50000x1, .f32⟩
  | 91 => ⟨S50000x128, .f32⟩
  | 92 => ⟨S50000x128, .f32⟩
  | 93 => ⟨S1x1x400000, .i32⟩
  | 94 => ⟨S400000, .i32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x128, .f32⟩
  | 104 => ⟨S1x1x400000, .i32⟩
  | 105 => ⟨S400000, .i32⟩
  | 106 => ⟨S_, .f32⟩
  | 107 => ⟨S50000x128, .f32⟩
  | 108 => ⟨S400000x1, .i32⟩
  | 109 => ⟨S50000x128, .f32⟩
  | 110 => ⟨S1x50000, .f32⟩
  | 111 => ⟨S50000, .f32⟩
  | 112 => ⟨S50000x1, .f32⟩
  | 113 => ⟨S50000x128, .f32⟩
  | 114 => ⟨S50000x128, .f32⟩
  | 115 => ⟨S1x1x400000, .i32⟩
  | 116 => ⟨S400000, .i32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S1x1x400000, .i32⟩
  | 127 => ⟨S400000, .i32⟩
  | _ => ⟨S50000x128, .f32⟩

abbrev hbmTy0_5 (i : Nat) : BufTy := match i % 128 with
  | 0 => ⟨S_, .f32⟩
  | 1 => ⟨S50000x128, .f32⟩
  | 2 => ⟨S400000x1, .i32⟩
  | 3 => ⟨S50000x128, .f32⟩
  | 4 => ⟨S1x50000x128, .f32⟩
  | 5 => ⟨S1x50000x128, .f32⟩
  | 6 => ⟨S1x50000x128, .f32⟩
  | 7 => ⟨S1x50000x128, .f32⟩
  | 8 => ⟨S1x50000x128, .f32⟩
  | 9 => ⟨S1x50000x128, .f32⟩
  | 10 => ⟨S1x50000x128, .f32⟩
  | 11 => ⟨S1x50000x128, .f32⟩
  | 12 => ⟨S1x50000x128, .f32⟩
  | 13 => ⟨S9x50000x128, .f32⟩
  | 14 => ⟨S9x50000x1, .f32⟩
  | 15 => ⟨S9x1x128, .f32⟩
  | 16 => ⟨S9x50000x128, .f32⟩
  | 17 => ⟨S_, .f32⟩
  | 18 => ⟨S50000x128, .f32⟩
  | 19 => ⟨S_, .f32⟩
  | 20 => ⟨S50000x128, .f32⟩
  | 21 => ⟨S_, .f32⟩
  | 22 => ⟨S50000x128, .f32⟩
  | 23 => ⟨S1x50000x128, .f32⟩
  | 24 => ⟨S50000x128, .f32⟩
  | 25 => ⟨S50000x128, .f32⟩
  | 26 => ⟨S1x50000x128, .f32⟩
  | 27 => ⟨S50000x128, .f32⟩
  | 28 => ⟨S50000x128, .f32⟩
  | 29 => ⟨S1x50000x128, .f32⟩
  | 30 => ⟨S50000x128, .f32⟩
  | 31 => ⟨S50000x128, .f32⟩
  | 32 => ⟨S1x50000x128, .f32⟩
  | 33 => ⟨S50000x128, .f32⟩
  | 34 => ⟨S50000x128, .f32⟩
  | 35 => ⟨S1x50000x128, .f32⟩
  | 36 => ⟨S50000x128, .f32⟩
  | 37 => ⟨S50000x128, .f32⟩
  | 38 => ⟨S1x50000x128, .f32⟩
  | 39 => ⟨S50000x128, .f32⟩
  | 40 => ⟨S50000x128, .f32⟩
  | 41 => ⟨S1x50000x128, .f32⟩
  | 42 => ⟨S50000x128, .f32⟩
  | 43 => ⟨S50000x128, .f32⟩
  | 44 => ⟨S1x50000x128, .f32⟩
  | 45 => ⟨S50000x128, .f32⟩
  | 46 => ⟨S50000x128, .f32⟩
  | 47 => ⟨S1x50000x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S1x50000, .f32⟩
  | 60 => ⟨S50000, .f32⟩
  | 61 => ⟨S50000x1, .f32⟩
  | 62 => ⟨S50000x128, .f32⟩
  | 63 => ⟨S50000x128, .f32⟩
  | 64 => ⟨S1x1x400000, .i32⟩
  | 65 => ⟨S400000, .i32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x128, .f32⟩
  | 75 => ⟨S1x1x400000, .i32⟩
  | 76 => ⟨S400000, .i32⟩
  | 77 => ⟨S_, .f32⟩
  | 78 => ⟨S50000x128, .f32⟩
  | 79 => ⟨S400000x1, .i32⟩
  | 80 => ⟨S50000x128, .f32⟩
  | 81 => ⟨S1x50000, .f32⟩
  | 82 => ⟨S50000, .f32⟩
  | 83 => ⟨S50000x1, .f32⟩
  | 84 => ⟨S50000x128, .f32⟩
  | 85 => ⟨S50000x128, .f32⟩
  | 86 => ⟨S1x1x400000, .i32⟩
  | 87 => ⟨S400000, .i32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S400000x128, .f32⟩
  | 97 => ⟨S1x1x400000, .i32⟩
  | 98 => ⟨S400000, .i32⟩
  | 99 => ⟨S_, .f32⟩
  | 100 => ⟨S50000x128, .f32⟩
  | 101 => ⟨S400000x1, .i32⟩
  | 102 => ⟨S50000x128, .f32⟩
  | 103 => ⟨S1x50000, .f32⟩
  | 104 => ⟨S50000, .f32⟩
  | 105 => ⟨S50000x1, .f32⟩
  | 106 => ⟨S50000x128, .f32⟩
  | 107 => ⟨S50000x128, .f32⟩
  | 108 => ⟨S1x1x400000, .i32⟩
  | 109 => ⟨S400000, .i32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S400000x128, .f32⟩
  | 119 => ⟨S1x1x400000, .i32⟩
  | 120 => ⟨S400000, .i32⟩
  | 121 => ⟨S_, .f32⟩
  | 122 => ⟨S50000x128, .f32⟩
  | 123 => ⟨S400000x1, .i32⟩
  | 124 => ⟨S50000x128, .f32⟩
  | 125 => ⟨S1x50000, .f32⟩
  | 126 => ⟨S50000, .f32⟩
  | 127 => ⟨S50000x1, .f32⟩
  | _ => ⟨S50000x128, .f32⟩

abbrev hbmTy0_6 (i : Nat) : BufTy := match i % 128 with
  | 0 => ⟨S50000x128, .f32⟩
  | 1 => ⟨S50000x128, .f32⟩
  | 2 => ⟨S1x1x400000, .i32⟩
  | 3 => ⟨S400000, .i32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x128, .f32⟩
  | 13 => ⟨S1x1x400000, .i32⟩
  | 14 => ⟨S400000, .i32⟩
  | 15 => ⟨S_, .f32⟩
  | 16 => ⟨S50000x128, .f32⟩
  | 17 => ⟨S400000x1, .i32⟩
  | 18 => ⟨S50000x128, .f32⟩
  | 19 => ⟨S1x50000, .f32⟩
  | 20 => ⟨S50000, .f32⟩
  | 21 => ⟨S50000x1, .f32⟩
  | 22 => ⟨S50000x128, .f32⟩
  | 23 => ⟨S50000x128, .f32⟩
  | 24 => ⟨S1x1x400000, .i32⟩
  | 25 => ⟨S400000, .i32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x128, .f32⟩
  | 35 => ⟨S1x1x400000, .i32⟩
  | 36 => ⟨S400000, .i32⟩
  | 37 => ⟨S_, .f32⟩
  | 38 => ⟨S50000x128, .f32⟩
  | 39 => ⟨S400000x1, .i32⟩
  | 40 => ⟨S50000x128, .f32⟩
  | 41 => ⟨S1x50000, .f32⟩
  | 42 => ⟨S50000, .f32⟩
  | 43 => ⟨S50000x1, .f32⟩
  | 44 => ⟨S50000x128, .f32⟩
  | 45 => ⟨S50000x128, .f32⟩
  | 46 => ⟨S1x1x400000, .i32⟩
  | 47 => ⟨S400000, .i32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x128, .f32⟩
  | 57 => ⟨S1x1x400000, .i32⟩
  | 58 => ⟨S400000, .i32⟩
  | 59 => ⟨S_, .f32⟩
  | 60 => ⟨S50000x128, .f32⟩
  | 61 => ⟨S400000x1, .i32⟩
  | 62 => ⟨S50000x128, .f32⟩
  | 63 => ⟨S1x50000, .f32⟩
  | 64 => ⟨S50000, .f32⟩
  | 65 => ⟨S50000x1, .f32⟩
  | 66 => ⟨S50000x128, .f32⟩
  | 67 => ⟨S50000x128, .f32⟩
  | 68 => ⟨S1x1x400000, .i32⟩
  | 69 => ⟨S400000, .i32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000x128, .f32⟩
  | 79 => ⟨S1x1x400000, .i32⟩
  | 80 => ⟨S400000, .i32⟩
  | 81 => ⟨S_, .f32⟩
  | 82 => ⟨S50000x128, .f32⟩
  | 83 => ⟨S400000x1, .i32⟩
  | 84 => ⟨S50000x128, .f32⟩
  | 85 => ⟨S1x50000, .f32⟩
  | 86 => ⟨S50000, .f32⟩
  | 87 => ⟨S50000x1, .f32⟩
  | 88 => ⟨S50000x128, .f32⟩
  | 89 => ⟨S50000x128, .f32⟩
  | 90 => ⟨S1x1x400000, .i32⟩
  | 91 => ⟨S400000, .i32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000x128, .f32⟩
  | 101 => ⟨S1x1x400000, .i32⟩
  | 102 => ⟨S400000, .i32⟩
  | 103 => ⟨S_, .f32⟩
  | 104 => ⟨S50000x128, .f32⟩
  | 105 => ⟨S400000x1, .i32⟩
  | 106 => ⟨S50000x128, .f32⟩
  | 107 => ⟨S1x50000, .f32⟩
  | 108 => ⟨S50000, .f32⟩
  | 109 => ⟨S50000x1, .f32⟩
  | 110 => ⟨S50000x128, .f32⟩
  | 111 => ⟨S50000x128, .f32⟩
  | 112 => ⟨S1x1x400000, .i32⟩
  | 113 => ⟨S400000, .i32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x128, .f32⟩
  | 123 => ⟨S1x1x400000, .i32⟩
  | 124 => ⟨S400000, .i32⟩
  | 125 => ⟨S_, .f32⟩
  | 126 => ⟨S50000x128, .f32⟩
  | 127 => ⟨S400000x1, .i32⟩
  | _ => ⟨S50000x128, .f32⟩

abbrev hbmTy0_7 (i : Nat) : BufTy := match i % 128 with
  | 0 => ⟨S50000x128, .f32⟩
  | 1 => ⟨S1x50000x128, .f32⟩
  | 2 => ⟨S1x50000x128, .f32⟩
  | 3 => ⟨S1x50000x128, .f32⟩
  | 4 => ⟨S1x50000x128, .f32⟩
  | 5 => ⟨S1x50000x128, .f32⟩
  | 6 => ⟨S1x50000x128, .f32⟩
  | 7 => ⟨S1x50000x128, .f32⟩
  | 8 => ⟨S1x50000x128, .f32⟩
  | 9 => ⟨S1x50000x128, .f32⟩
  | 10 => ⟨S9x50000x128, .f32⟩
  | 11 => ⟨S9x50000x1, .f32⟩
  | 12 => ⟨S9x1x128, .f32⟩
  | 13 => ⟨S9x50000x128, .f32⟩
  | 14 => ⟨S_, .f32⟩
  | 15 => ⟨S50000x128, .f32⟩
  | 16 => ⟨S_, .f32⟩
  | 17 => ⟨S50000x128, .f32⟩
  | 18 => ⟨S_, .f32⟩
  | 19 => ⟨S50000x128, .f32⟩
  | 20 => ⟨S1x50000x128, .f32⟩
  | 21 => ⟨S50000x128, .f32⟩
  | 22 => ⟨S50000x128, .f32⟩
  | 23 => ⟨S1x50000x128, .f32⟩
  | 24 => ⟨S50000x128, .f32⟩
  | 25 => ⟨S50000x128, .f32⟩
  | 26 => ⟨S1x50000x128, .f32⟩
  | 27 => ⟨S50000x128, .f32⟩
  | 28 => ⟨S50000x128, .f32⟩
  | 29 => ⟨S1x50000x128, .f32⟩
  | 30 => ⟨S50000x128, .f32⟩
  | 31 => ⟨S50000x128, .f32⟩
  | 32 => ⟨S1x50000x128, .f32⟩
  | 33 => ⟨S50000x128, .f32⟩
  | 34 => ⟨S50000x128, .f32⟩
  | 35 => ⟨S1x50000x128, .f32⟩
  | 36 => ⟨S50000x128, .f32⟩
  | 37 => ⟨S50000x128, .f32⟩
  | 38 => ⟨S1x50000x128, .f32⟩
  | 39 => ⟨S50000x128, .f32⟩
  | 40 => ⟨S50000x128, .f32⟩
  | 41 => ⟨S1x50000x128, .f32⟩
  | 42 => ⟨S50000x128, .f32⟩
  | 43 => ⟨S50000x128, .f32⟩
  | 44 => ⟨S1x50000x128, .f32⟩
  | 45 => ⟨S50000x128, .f32⟩
  | 46 => ⟨S50000x128, .f32⟩
  | 47 => ⟨S1x50000x128, .f32⟩
  | 48 => ⟨S1x50000x128, .f32⟩
  | 49 => ⟨S1x50000x128, .f32⟩
  | 50 => ⟨S3x50000x128, .f32⟩
  | 51 => ⟨S1x16, .f32⟩
  | 52 => ⟨S3x50000x16, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S50000x128, .f32⟩

abbrev bufTy : (tb : Table) → Fin (tcTables nBuf tb) → BufTy
  | .hbm, ⟨i, _⟩ => hbmTy i
  | .local _ .vmem, ⟨0, _⟩ => ⟨S1x5000x128, .f32⟩
  | .local _ .vmem, ⟨1, _⟩ => ⟨S1x5000x128, .f32⟩
  | .local _ .vmem, ⟨2, _⟩ => ⟨S1x5000x1, .f32⟩
  | .local _ .vmem, ⟨3, _⟩ => ⟨S1x5000x1, .f32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S1x5000x128, .f32⟩
  | .local _ .vmem, ⟨9, _⟩ => ⟨S1x5000x128, .f32⟩
  | .local _ .vmem, ⟨10, _⟩ => ⟨S1x5000x128, .f32⟩
  | .local _ .vmem, ⟨11, _⟩ => ⟨S1x5000x128, .f32⟩
  | .local _ .vmem, ⟨12, _⟩ => ⟨S1x5000x1, .f32⟩
  | .local _ .vmem, ⟨13, _⟩ => ⟨S1x5000x1, .f32⟩
  | .local _ .vmem, ⟨14, _⟩ => ⟨S1x128x128, .f32⟩
  | .local _ .vmem, ⟨15, _⟩ => ⟨S1x128x128, .f32⟩
  | .local _ .vmem, ⟨16, _⟩ => ⟨S1x1x128, .f32⟩
  | .local _ .vmem, ⟨17, _⟩ => ⟨S1x1x128, .f32⟩
  | .local _ .vmem, ⟨18, _⟩ => ⟨S1x5000x128, .f32⟩
  | .local _ .vmem, ⟨19, _⟩ => ⟨S1x5000x128, .f32⟩
  | .local _ .vmem, ⟨20, _⟩ => ⟨S1x5000x128, .f32⟩
  | .local _ .vmem, ⟨21, _⟩ => ⟨S1x5000x128, .f32⟩
  | .local _ .vmem, ⟨22, _⟩ => ⟨S128x16, .f32⟩
  | .local _ .vmem, ⟨23, _⟩ => ⟨S1x16, .f32⟩
  | .local _ .vmem, ⟨24, _⟩ => ⟨S1x5000x16, .f32⟩
  | .local _ .vmem, ⟨25, _⟩ => ⟨S1x5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_cst_7 : Ref sig .tc := ⟨.hbm, 41, rfl⟩
abbrev main_v19 : Ref sig .tc := ⟨.hbm, 42, rfl⟩
abbrev main_v20 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_v21 : Ref sig .tc := ⟨.hbm, 47, rfl⟩
abbrev main_cst_9 : Ref sig .tc := ⟨.hbm, 48, rfl⟩
abbrev main_v22 : Ref sig .tc := ⟨.hbm, 49, rfl⟩
abbrev main_v23 : Ref sig .tc := ⟨.hbm, 50, rfl⟩
abbrev main_cst_10 : Ref sig .tc := ⟨.hbm, 51, rfl⟩
abbrev main_v24 : Ref sig .tc := ⟨.hbm, 52, rfl⟩
abbrev main_v25 : Ref sig .tc := ⟨.hbm, 53, rfl⟩
abbrev main_cst_11 : Ref sig .tc := ⟨.hbm, 54, rfl⟩
abbrev main_call3_v0 : Ref sig .tc := ⟨.hbm, 55, rfl⟩
abbrev main_call3_v1 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_12 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_13 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_14 : Ref sig .tc := ⟨.hbm, 70, rfl⟩
abbrev main_v37 : Ref sig .tc := ⟨.hbm, 71, rfl⟩
abbrev main_v38 : Ref sig .tc := ⟨.hbm, 72, rfl⟩
abbrev main_cst_15 : Ref sig .tc := ⟨.hbm, 73, rfl⟩
abbrev main_call4_v0 : Ref sig .tc := ⟨.hbm, 74, rfl⟩
abbrev main_call4_v1 : Ref sig .tc := ⟨.hbm, 75, rfl⟩
abbrev main_v39 : Ref sig .tc := ⟨.hbm, 76, rfl⟩
abbrev main_cst_16 : Ref sig .tc := ⟨.hbm, 77, rfl⟩
abbrev main_v40 : Ref sig .tc := ⟨.hbm, 78, rfl⟩
abbrev main_v41 : Ref sig .tc := ⟨.hbm, 79, rfl⟩
abbrev main_cst_17 : Ref sig .tc := ⟨.hbm, 80, rfl⟩
abbrev main_v42 : Ref sig .tc := ⟨.hbm, 81, rfl⟩
abbrev main_v43 : Ref sig .tc := ⟨.hbm, 82, rfl⟩
abbrev main_cst_18 : Ref sig .tc := ⟨.hbm, 83, rfl⟩
abbrev main_call5_v0 : Ref sig .tc := ⟨.hbm, 84, rfl⟩
abbrev main_call5_v1 : Ref sig .tc := ⟨.hbm, 85, rfl⟩
abbrev main_v44 : Ref sig .tc := ⟨.hbm, 86, rfl⟩
abbrev main_cst_19 : Ref sig .tc := ⟨.hbm, 87, rfl⟩
abbrev main_v45 : Ref sig .tc := ⟨.hbm, 88, rfl⟩
abbrev main_v46 : Ref sig .tc := ⟨.hbm, 89, rfl⟩
abbrev main_cst_20 : Ref sig .tc := ⟨.hbm, 90, rfl⟩
abbrev main_call6_v0 : Ref sig .tc := ⟨.hbm, 91, rfl⟩
abbrev main_call6_v1 : Ref sig .tc := ⟨.hbm, 92, rfl⟩
abbrev main_v47 : Ref sig .tc := ⟨.hbm, 93, rfl⟩
abbrev main_cst_21 : Ref sig .tc := ⟨.hbm, 94, rfl⟩
abbrev main_v48 : Ref sig .tc := ⟨.hbm, 95, rfl⟩
abbrev main_v49 : Ref sig .tc := ⟨.hbm, 96, rfl⟩
abbrev main_cst_22 : Ref sig .tc := ⟨.hbm, 97, rfl⟩
abbrev main_v50 : Ref sig .tc := ⟨.hbm, 98, rfl⟩
abbrev main_v51 : Ref sig .tc := ⟨.hbm, 99, rfl⟩
abbrev main_cst_23 : Ref sig .tc := ⟨.hbm, 100, rfl⟩
abbrev main_call7_v0 : Ref sig .tc := ⟨.hbm, 101, rfl⟩
abbrev main_call7_v1 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_24 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_25 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_26 : Ref sig .tc := ⟨.hbm, 116, rfl⟩
abbrev main_v63 : Ref sig .tc := ⟨.hbm, 117, rfl⟩
abbrev main_v64 : Ref sig .tc := ⟨.hbm, 118, rfl⟩
abbrev main_cst_27 : Ref sig .tc := ⟨.hbm, 119, rfl⟩
abbrev main_call8_v0 : Ref sig .tc := ⟨.hbm, 120, rfl⟩
abbrev main_call8_v1 : Ref sig .tc := ⟨.hbm, 121, rfl⟩
abbrev main_v65 : Ref sig .tc := ⟨.hbm, 122, rfl⟩
abbrev main_cst_28 : Ref sig .tc := ⟨.hbm, 123, rfl⟩
abbrev main_v66 : Ref sig .tc := ⟨.hbm, 124, rfl⟩
abbrev main_v67 : Ref sig .tc := ⟨.hbm, 125, rfl⟩
abbrev main_cst_29 : Ref sig .tc := ⟨.hbm, 126, rfl⟩
abbrev main_v68 : Ref sig .tc := ⟨.hbm, 127, rfl⟩
abbrev main_v69 : Ref sig .tc := ⟨.hbm, 128, rfl⟩
abbrev main_cst_30 : Ref sig .tc := ⟨.hbm, 129, rfl⟩
abbrev main_call9_v0 : Ref sig .tc := ⟨.hbm, 130, rfl⟩
abbrev main_call9_v1 : Ref sig .tc := ⟨.hbm, 131, rfl⟩
abbrev main_v70 : Ref sig .tc := ⟨.hbm, 132, rfl⟩
abbrev main_cst_31 : Ref sig .tc := ⟨.hbm, 133, rfl⟩
abbrev main_v71 : Ref sig .tc := ⟨.hbm, 134, rfl⟩
abbrev main_v72 : Ref sig .tc := ⟨.hbm, 135, rfl⟩
abbrev main_cst_32 : Ref sig .tc := ⟨.hbm, 136, rfl⟩
abbrev main_call10_v0 : Ref sig .tc := ⟨.hbm, 137, rfl⟩
abbrev main_call10_v1 : Ref sig .tc := ⟨.hbm, 138, rfl⟩
abbrev main_v73 : Ref sig .tc := ⟨.hbm, 139, rfl⟩
abbrev main_cst_33 : Ref sig .tc := ⟨.hbm, 140, rfl⟩
abbrev main_v74 : Ref sig .tc := ⟨.hbm, 141, rfl⟩
abbrev main_v75 : Ref sig .tc := ⟨.hbm, 142, rfl⟩
abbrev main_cst_34 : Ref sig .tc := ⟨.hbm, 143, rfl⟩
abbrev main_v76 : Ref sig .tc := ⟨.hbm, 144, rfl⟩
abbrev main_v77 : Ref sig .tc := ⟨.hbm, 145, rfl⟩
abbrev main_cst_35 : Ref sig .tc := ⟨.hbm, 146, rfl⟩
abbrev main_call11_v0 : Ref sig .tc := ⟨.hbm, 147, rfl⟩
abbrev main_call11_v1 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_36 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_37 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_cst_38 : Ref sig .tc := ⟨.hbm, 162, rfl⟩
abbrev main_v89 : Ref sig .tc := ⟨.hbm, 163, rfl⟩
abbrev main_v90 : Ref sig .tc := ⟨.hbm, 164, rfl⟩
abbrev main_cst_39 : Ref sig .tc := ⟨.hbm, 165, rfl⟩
abbrev main_call12_v0 : Ref sig .tc := ⟨.hbm, 166, rfl⟩
abbrev main_call12_v1 : Ref sig .tc := ⟨.hbm, 167, rfl⟩
abbrev main_v91 : Ref sig .tc := ⟨.hbm, 168, rfl⟩
abbrev main_cst_40 : Ref sig .tc := ⟨.hbm, 169, rfl⟩
abbrev main_v92 : Ref sig .tc := ⟨.hbm, 170, rfl⟩
abbrev main_v93 : Ref sig .tc := ⟨.hbm, 171, rfl⟩
abbrev main_cst_41 : Ref sig .tc := ⟨.hbm, 172, rfl⟩
abbrev main_v94 : Ref sig .tc := ⟨.hbm, 173, rfl⟩
abbrev main_v95 : Ref sig .tc := ⟨.hbm, 174, rfl⟩
abbrev main_cst_42 : Ref sig .tc := ⟨.hbm, 175, rfl⟩
abbrev main_call13_v0 : Ref sig .tc := ⟨.hbm, 176, rfl⟩
abbrev main_call13_v1 : Ref sig .tc := ⟨.hbm, 177, rfl⟩
abbrev main_v96 : Ref sig .tc := ⟨.hbm, 178, rfl⟩
abbrev main_cst_43 : Ref sig .tc := ⟨.hbm, 179, rfl⟩
abbrev main_v97 : Ref sig .tc := ⟨.hbm, 180, rfl⟩
abbrev main_v98 : Ref sig .tc := ⟨.hbm, 181, rfl⟩
abbrev main_cst_44 : Ref sig .tc := ⟨.hbm, 182, rfl⟩
abbrev main_call14_v0 : Ref sig .tc := ⟨.hbm, 183, rfl⟩
abbrev main_call14_v1 : Ref sig .tc := ⟨.hbm, 184, rfl⟩
abbrev main_v99 : Ref sig .tc := ⟨.hbm, 185, rfl⟩
abbrev main_cst_45 : Ref sig .tc := ⟨.hbm, 186, rfl⟩
abbrev main_v100 : Ref sig .tc := ⟨.hbm, 187, rfl⟩
abbrev main_v101 : Ref sig .tc := ⟨.hbm, 188, rfl⟩
abbrev main_cst_46 : Ref sig .tc := ⟨.hbm, 189, rfl⟩
abbrev main_v102 : Ref sig .tc := ⟨.hbm, 190, rfl⟩
abbrev main_v103 : Ref sig .tc := ⟨.hbm, 191, rfl⟩
abbrev main_cst_47 : Ref sig .tc := ⟨.hbm, 192, rfl⟩
abbrev main_call15_v0 : Ref sig .tc := ⟨.hbm, 193, rfl⟩
abbrev main_call15_v1 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_cst_48 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_cst_49 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_cst_50 : Ref sig .tc := ⟨.hbm, 208, rfl⟩
abbrev main_v115 : Ref sig .tc := ⟨.hbm, 209, rfl⟩
abbrev main_v116 : Ref sig .tc := ⟨.hbm, 210, rfl⟩
abbrev main_cst_51 : Ref sig .tc := ⟨.hbm, 211, rfl⟩
abbrev main_call16_v0 : Ref sig .tc := ⟨.hbm, 212, rfl⟩
abbrev main_call16_v1 : Ref sig .tc := ⟨.hbm, 213, rfl⟩
abbrev main_v117 : Ref sig .tc := ⟨.hbm, 214, rfl⟩
abbrev main_cst_52 : Ref sig .tc := ⟨.hbm, 215, rfl⟩
abbrev main_v118 : Ref sig .tc := ⟨.hbm, 216, rfl⟩
abbrev main_v119 : Ref sig .tc := ⟨.hbm, 217, rfl⟩
abbrev main_cst_53 : Ref sig .tc := ⟨.hbm, 218, rfl⟩
abbrev main_v120 : Ref sig .tc := ⟨.hbm, 219, rfl⟩
abbrev main_v121 : Ref sig .tc := ⟨.hbm, 220, rfl⟩
abbrev main_cst_54 : Ref sig .tc := ⟨.hbm, 221, rfl⟩
abbrev main_call17_v0 : Ref sig .tc := ⟨.hbm, 222, rfl⟩
abbrev main_call17_v1 : Ref sig .tc := ⟨.hbm, 223, rfl⟩
abbrev main_v122 : Ref sig .tc := ⟨.hbm, 224, rfl⟩
abbrev main_cst_55 : Ref sig .tc := ⟨.hbm, 225, rfl⟩
abbrev main_v123 : Ref sig .tc := ⟨.hbm, 226, rfl⟩
abbrev main_v124 : Ref sig .tc := ⟨.hbm, 227, rfl⟩
abbrev main_cst_56 : Ref sig .tc := ⟨.hbm, 228, rfl⟩
abbrev main_call18_v0 : Ref sig .tc := ⟨.hbm, 229, rfl⟩
abbrev main_call18_v1 : Ref sig .tc := ⟨.hbm, 230, rfl⟩
abbrev main_v125 : Ref sig .tc := ⟨.hbm, 231, rfl⟩
abbrev main_cst_57 : Ref sig .tc := ⟨.hbm, 232, rfl⟩
abbrev main_v126 : Ref sig .tc := ⟨.hbm, 233, rfl⟩
abbrev main_v127 : Ref sig .tc := ⟨.hbm, 234, rfl⟩
abbrev main_cst_58 : Ref sig .tc := ⟨.hbm, 235, rfl⟩
abbrev main_v128 : Ref sig .tc := ⟨.hbm, 236, rfl⟩
abbrev main_v129 : Ref sig .tc := ⟨.hbm, 237, rfl⟩
abbrev main_cst_59 : Ref sig .tc := ⟨.hbm, 238, rfl⟩
abbrev main_call19_v0 : Ref sig .tc := ⟨.hbm, 239, rfl⟩
abbrev main_call19_v1 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_cst_60 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_cst_61 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_cst_62 : Ref sig .tc := ⟨.hbm, 254, rfl⟩
abbrev main_v141 : Ref sig .tc := ⟨.hbm, 255, rfl⟩
abbrev main_v142 : Ref sig .tc := ⟨.hbm, 256, rfl⟩
abbrev main_cst_63 : Ref sig .tc := ⟨.hbm, 257, rfl⟩
abbrev main_call20_v0 : Ref sig .tc := ⟨.hbm, 258, rfl⟩
abbrev main_call20_v1 : Ref sig .tc := ⟨.hbm, 259, rfl⟩
abbrev main_v143 : Ref sig .tc := ⟨.hbm, 260, rfl⟩
abbrev main_cst_64 : Ref sig .tc := ⟨.hbm, 261, rfl⟩
abbrev main_v144 : Ref sig .tc := ⟨.hbm, 262, rfl⟩
abbrev main_v145 : Ref sig .tc := ⟨.hbm, 263, rfl⟩
abbrev main_cst_65 : Ref sig .tc := ⟨.hbm, 264, rfl⟩
abbrev main_v146 : Ref sig .tc := ⟨.hbm, 265, rfl⟩
abbrev main_v147 : Ref sig .tc := ⟨.hbm, 266, rfl⟩
abbrev main_cst_66 : Ref sig .tc := ⟨.hbm, 267, rfl⟩
abbrev main_call21_v0 : Ref sig .tc := ⟨.hbm, 268, rfl⟩
abbrev main_call21_v1 : Ref sig .tc := ⟨.hbm, 269, rfl⟩
abbrev main_v148 : Ref sig .tc := ⟨.hbm, 270, rfl⟩
abbrev main_cst_67 : Ref sig .tc := ⟨.hbm, 271, rfl⟩
abbrev main_v149 : Ref sig .tc := ⟨.hbm, 272, rfl⟩
abbrev main_v150 : Ref sig .tc := ⟨.hbm, 273, rfl⟩
abbrev main_cst_68 : Ref sig .tc := ⟨.hbm, 274, rfl⟩
abbrev main_call22_v0 : Ref sig .tc := ⟨.hbm, 275, rfl⟩
abbrev main_call22_v1 : Ref sig .tc := ⟨.hbm, 276, rfl⟩
abbrev main_v151 : Ref sig .tc := ⟨.hbm, 277, rfl⟩
abbrev main_cst_69 : Ref sig .tc := ⟨.hbm, 278, rfl⟩
abbrev main_v152 : Ref sig .tc := ⟨.hbm, 279, rfl⟩
abbrev main_v153 : Ref sig .tc := ⟨.hbm, 280, rfl⟩
abbrev main_cst_70 : Ref sig .tc := ⟨.hbm, 281, rfl⟩
abbrev main_v154 : Ref sig .tc := ⟨.hbm, 282, rfl⟩
abbrev main_v155 : Ref sig .tc := ⟨.hbm, 283, rfl⟩
abbrev main_cst_71 : Ref sig .tc := ⟨.hbm, 284, rfl⟩
abbrev main_call23_v0 : Ref sig .tc := ⟨.hbm, 285, rfl⟩
abbrev main_call23_v1 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_cst_72 : Ref sig .tc := ⟨.hbm, 292, rfl⟩
abbrev main_v161 : Ref sig .tc := ⟨.hbm, 293, rfl⟩
abbrev main_v162 : Ref sig .tc := ⟨.hbm, 294, rfl⟩
abbrev main_v163 : Ref sig .tc := ⟨.hbm, 295, rfl⟩
abbrev main_cst_73 : Ref sig .tc := ⟨.hbm, 296, rfl⟩
abbrev main_v164 : Ref sig .tc := ⟨.hbm, 297, rfl⟩
abbrev main_v165 : Ref sig .tc := ⟨.hbm, 298, rfl⟩
abbrev main_v166 : Ref sig .tc := ⟨.hbm, 299, rfl⟩
abbrev main_cst_74 : Ref sig .tc := ⟨.hbm, 300, rfl⟩
abbrev main_v167 : Ref sig .tc := ⟨.hbm, 301, rfl⟩
abbrev main_v168 : Ref sig .tc := ⟨.hbm, 302, rfl⟩
abbrev main_cst_75 : Ref sig .tc := ⟨.hbm, 303, rfl⟩
abbrev main_call24_v0 : Ref sig .tc := ⟨.hbm, 304, rfl⟩
abbrev main_call24_v1 : Ref sig .tc := ⟨.hbm, 305, rfl⟩
abbrev main_v169 : Ref sig .tc := ⟨.hbm, 306, rfl⟩
abbrev main_cst_76 : Ref sig .tc := ⟨.hbm, 307, rfl⟩
abbrev main_v170 : Ref sig .tc := ⟨.hbm, 308, rfl⟩
abbrev main_v171 : Ref sig .tc := ⟨.hbm, 309, rfl⟩
abbrev main_cst_77 : Ref sig .tc := ⟨.hbm, 310, rfl⟩
abbrev main_v172 : Ref sig .tc := ⟨.hbm, 311, rfl⟩
abbrev main_v173 : Ref sig .tc := ⟨.hbm, 312, rfl⟩
abbrev main_cst_78 : Ref sig .tc := ⟨.hbm, 313, rfl⟩
abbrev main_call25_v0 : Ref sig .tc := ⟨.hbm, 314, rfl⟩
abbrev main_call25_v1 : Ref sig .tc := ⟨.hbm, 315, rfl⟩
abbrev main_v174 : Ref sig .tc := ⟨.hbm, 316, rfl⟩
abbrev main_cst_79 : Ref sig .tc := ⟨.hbm, 317, rfl⟩
abbrev main_v175 : Ref sig .tc := ⟨.hbm, 318, rfl⟩
abbrev main_v176 : Ref sig .tc := ⟨.hbm, 319, rfl⟩
abbrev main_cst_80 : Ref sig .tc := ⟨.hbm, 320, rfl⟩
abbrev main_call26_v0 : Ref sig .tc := ⟨.hbm, 321, rfl⟩
abbrev main_call26_v1 : Ref sig .tc := ⟨.hbm, 322, rfl⟩
abbrev main_v177 : Ref sig .tc := ⟨.hbm, 323, rfl⟩
abbrev main_cst_81 : Ref sig .tc := ⟨.hbm, 324, rfl⟩
abbrev main_v178 : Ref sig .tc := ⟨.hbm, 325, rfl⟩
abbrev main_v179 : Ref sig .tc := ⟨.hbm, 326, rfl⟩
abbrev main_cst_82 : Ref sig .tc := ⟨.hbm, 327, rfl⟩
abbrev main_v180 : Ref sig .tc := ⟨.hbm, 328, rfl⟩
abbrev main_v181 : Ref sig .tc := ⟨.hbm, 329, rfl⟩
abbrev main_cst_83 : Ref sig .tc := ⟨.hbm, 330, rfl⟩
abbrev main_call27_v0 : Ref sig .tc := ⟨.hbm, 331, rfl⟩
abbrev main_call27_v1 : Ref sig .tc := ⟨.hbm, 332, rfl⟩
abbrev main_v182 : Ref sig .tc := ⟨.hbm, 333, rfl⟩
abbrev main_v183 : Ref sig .tc := ⟨.hbm, 334, rfl⟩
abbrev main_v184 : Ref sig .tc := ⟨.hbm, 335, rfl⟩
abbrev main_v185 : Ref sig .tc := ⟨.hbm, 336, rfl⟩
abbrev main_v186 : Ref sig .tc := ⟨.hbm, 337, rfl⟩
abbrev main_cst_84 : Ref sig .tc := ⟨.hbm, 338, rfl⟩
abbrev main_v187 : Ref sig .tc := ⟨.hbm, 339, rfl⟩
abbrev main_v188 : Ref sig .tc := ⟨.hbm, 340, rfl⟩
abbrev main_v189 : Ref sig .tc := ⟨.hbm, 341, rfl⟩
abbrev main_cst_85 : Ref sig .tc := ⟨.hbm, 342, rfl⟩
abbrev main_v190 : Ref sig .tc := ⟨.hbm, 343, rfl⟩
abbrev main_v191 : Ref sig .tc := ⟨.hbm, 344, rfl⟩
abbrev main_v192 : Ref sig .tc := ⟨.hbm, 345, rfl⟩
abbrev main_cst_86 : Ref sig .tc := ⟨.hbm, 346, rfl⟩
abbrev main_v193 : Ref sig .tc := ⟨.hbm, 347, rfl⟩
abbrev main_v194 : Ref sig .tc := ⟨.hbm, 348, rfl⟩
abbrev main_cst_87 : Ref sig .tc := ⟨.hbm, 349, rfl⟩
abbrev main_call28_v0 : Ref sig .tc := ⟨.hbm, 350, rfl⟩
abbrev main_call28_v1 : Ref sig .tc := ⟨.hbm, 351, rfl⟩
abbrev main_v195 : Ref sig .tc := ⟨.hbm, 352, rfl⟩
abbrev main_cst_88 : Ref sig .tc := ⟨.hbm, 353, rfl⟩
abbrev main_v196 : Ref sig .tc := ⟨.hbm, 354, rfl⟩
abbrev main_v197 : Ref sig .tc := ⟨.hbm, 355, rfl⟩
abbrev main_cst_89 : Ref sig .tc := ⟨.hbm, 356, rfl⟩
abbrev main_v198 : Ref sig .tc := ⟨.hbm, 357, rfl⟩
abbrev main_v199 : Ref sig .tc := ⟨.hbm, 358, rfl⟩
abbrev main_cst_90 : Ref sig .tc := ⟨.hbm, 359, rfl⟩
abbrev main_call29_v0 : Ref sig .tc := ⟨.hbm, 360, rfl⟩
abbrev main_call29_v1 : Ref sig .tc := ⟨.hbm, 361, rfl⟩
abbrev main_v200 : Ref sig .tc := ⟨.hbm, 362, rfl⟩
abbrev main_cst_91 : Ref sig .tc := ⟨.hbm, 363, rfl⟩
abbrev main_v201 : Ref sig .tc := ⟨.hbm, 364, rfl⟩
abbrev main_v202 : Ref sig .tc := ⟨.hbm, 365, rfl⟩
abbrev main_cst_92 : Ref sig .tc := ⟨.hbm, 366, rfl⟩
abbrev main_call30_v0 : Ref sig .tc := ⟨.hbm, 367, rfl⟩
abbrev main_call30_v1 : Ref sig .tc := ⟨.hbm, 368, rfl⟩
abbrev main_v203 : Ref sig .tc := ⟨.hbm, 369, rfl⟩
abbrev main_cst_93 : Ref sig .tc := ⟨.hbm, 370, rfl⟩
abbrev main_v204 : Ref sig .tc := ⟨.hbm, 371, rfl⟩
abbrev main_v205 : Ref sig .tc := ⟨.hbm, 372, rfl⟩
abbrev main_cst_94 : Ref sig .tc := ⟨.hbm, 373, rfl⟩
abbrev main_v206 : Ref sig .tc := ⟨.hbm, 374, rfl⟩
abbrev main_v207 : Ref sig .tc := ⟨.hbm, 375, rfl⟩
abbrev main_cst_95 : Ref sig .tc := ⟨.hbm, 376, rfl⟩
abbrev main_call31_v0 : Ref sig .tc := ⟨.hbm, 377, rfl⟩
abbrev main_call31_v1 : Ref sig .tc := ⟨.hbm, 378, rfl⟩
abbrev main_v208 : Ref sig .tc := ⟨.hbm, 379, rfl⟩
abbrev main_v209 : Ref sig .tc := ⟨.hbm, 380, rfl⟩
abbrev main_v210 : Ref sig .tc := ⟨.hbm, 381, rfl⟩
abbrev main_v211 : Ref sig .tc := ⟨.hbm, 382, rfl⟩
abbrev main_v212 : Ref sig .tc := ⟨.hbm, 383, rfl⟩
abbrev main_cst_96 : Ref sig .tc := ⟨.hbm, 384, rfl⟩
abbrev main_v213 : Ref sig .tc := ⟨.hbm, 385, rfl⟩
abbrev main_v214 : Ref sig .tc := ⟨.hbm, 386, rfl⟩
abbrev main_v215 : Ref sig .tc := ⟨.hbm, 387, rfl⟩
abbrev main_cst_97 : Ref sig .tc := ⟨.hbm, 388, rfl⟩
abbrev main_v216 : Ref sig .tc := ⟨.hbm, 389, rfl⟩
abbrev main_v217 : Ref sig .tc := ⟨.hbm, 390, rfl⟩
abbrev main_v218 : Ref sig .tc := ⟨.hbm, 391, rfl⟩
abbrev main_cst_98 : Ref sig .tc := ⟨.hbm, 392, rfl⟩
abbrev main_v219 : Ref sig .tc := ⟨.hbm, 393, rfl⟩
abbrev main_v220 : Ref sig .tc := ⟨.hbm, 394, rfl⟩
abbrev main_cst_99 : Ref sig .tc := ⟨.hbm, 395, rfl⟩
abbrev main_call32_v0 : Ref sig .tc := ⟨.hbm, 396, rfl⟩
abbrev main_call32_v1 : Ref sig .tc := ⟨.hbm, 397, rfl⟩
abbrev main_v221 : Ref sig .tc := ⟨.hbm, 398, rfl⟩
abbrev main_cst_100 : Ref sig .tc := ⟨.hbm, 399, rfl⟩
abbrev main_v222 : Ref sig .tc := ⟨.hbm, 400, rfl⟩
abbrev main_v223 : Ref sig .tc := ⟨.hbm, 401, rfl⟩
abbrev main_cst_101 : Ref sig .tc := ⟨.hbm, 402, rfl⟩
abbrev main_v224 : Ref sig .tc := ⟨.hbm, 403, rfl⟩
abbrev main_v225 : Ref sig .tc := ⟨.hbm, 404, rfl⟩
abbrev main_cst_102 : Ref sig .tc := ⟨.hbm, 405, rfl⟩
abbrev main_call33_v0 : Ref sig .tc := ⟨.hbm, 406, rfl⟩
abbrev main_call33_v1 : Ref sig .tc := ⟨.hbm, 407, rfl⟩
abbrev main_v226 : Ref sig .tc := ⟨.hbm, 408, rfl⟩
abbrev main_cst_103 : Ref sig .tc := ⟨.hbm, 409, rfl⟩
abbrev main_v227 : Ref sig .tc := ⟨.hbm, 410, rfl⟩
abbrev main_v228 : Ref sig .tc := ⟨.hbm, 411, rfl⟩
abbrev main_cst_104 : Ref sig .tc := ⟨.hbm, 412, rfl⟩
abbrev main_call34_v0 : Ref sig .tc := ⟨.hbm, 413, rfl⟩
abbrev main_call34_v1 : Ref sig .tc := ⟨.hbm, 414, rfl⟩
abbrev main_v229 : Ref sig .tc := ⟨.hbm, 415, rfl⟩
abbrev main_cst_105 : Ref sig .tc := ⟨.hbm, 416, rfl⟩
abbrev main_v230 : Ref sig .tc := ⟨.hbm, 417, rfl⟩
abbrev main_v231 : Ref sig .tc := ⟨.hbm, 418, rfl⟩
abbrev main_cst_106 : Ref sig .tc := ⟨.hbm, 419, rfl⟩
abbrev main_v232 : Ref sig .tc := ⟨.hbm, 420, rfl⟩
abbrev main_v233 : Ref sig .tc := ⟨.hbm, 421, rfl⟩
abbrev main_cst_107 : Ref sig .tc := ⟨.hbm, 422, rfl⟩
abbrev main_call35_v0 : Ref sig .tc := ⟨.hbm, 423, rfl⟩
abbrev main_call35_v1 : Ref sig .tc := ⟨.hbm, 424, rfl⟩
abbrev main_v234 : Ref sig .tc := ⟨.hbm, 425, rfl⟩
abbrev main_v235 : Ref sig .tc := ⟨.hbm, 426, rfl⟩
abbrev main_v236 : Ref sig .tc := ⟨.hbm, 427, rfl⟩
abbrev main_v237 : Ref sig .tc := ⟨.hbm, 428, rfl⟩
abbrev main_v238 : Ref sig .tc := ⟨.hbm, 429, rfl⟩
abbrev main_v239 : Ref sig .tc := ⟨.hbm, 430, rfl⟩
abbrev main_v240 : Ref sig .tc := ⟨.hbm, 431, rfl⟩
abbrev main_v241 : Ref sig .tc := ⟨.hbm, 432, rfl⟩
abbrev main_v242 : Ref sig .tc := ⟨.hbm, 433, rfl⟩
abbrev main_v243 : Ref sig .tc := ⟨.hbm, 434, rfl⟩
abbrev main_v244 : Ref sig .tc := ⟨.hbm, 435, rfl⟩
abbrev main_v245 : Ref sig .tc := ⟨.hbm, 436, rfl⟩
abbrev main_v246 : Ref sig .tc := ⟨.hbm, 437, rfl⟩
abbrev main_v247 : Ref sig .tc := ⟨.hbm, 438, rfl⟩
abbrev main_v248 : Ref sig .tc := ⟨.hbm, 439, rfl⟩
abbrev main_v249 : Ref sig .tc := ⟨.hbm, 440, rfl⟩
abbrev main_v250 : Ref sig .tc := ⟨.hbm, 441, rfl⟩
abbrev main_v251 : Ref sig .tc := ⟨.hbm, 442, rfl⟩
abbrev main_v252 : Ref sig .tc := ⟨.hbm, 443, rfl⟩
abbrev main_v253 : Ref sig .tc := ⟨.hbm, 444, rfl⟩
abbrev main_v254 : Ref sig .tc := ⟨.hbm, 445, rfl⟩
abbrev main_v255 : Ref sig .tc := ⟨.hbm, 446, rfl⟩
abbrev main_v256 : Ref sig .tc := ⟨.hbm, 447, rfl⟩
abbrev main_v257 : Ref sig .tc := ⟨.hbm, 448, rfl⟩
abbrev main_v258 : Ref sig .tc := ⟨.hbm, 449, rfl⟩
abbrev main_v259 : Ref sig .tc := ⟨.hbm, 450, rfl⟩
abbrev main_v260 : Ref sig .tc := ⟨.hbm, 451, rfl⟩
abbrev main_v261 : Ref sig .tc := ⟨.hbm, 452, rfl⟩
abbrev main_c : Ref sig .tc := ⟨.hbm, 453, rfl⟩
abbrev main_v262 : Ref sig .tc := ⟨.hbm, 454, rfl⟩
abbrev main_v263 : Ref sig .tc := ⟨.hbm, 455, rfl⟩
abbrev main_c_108 : Ref sig .tc := ⟨.hbm, 456, rfl⟩
abbrev main_v264 : Ref sig .tc := ⟨.hbm, 457, rfl⟩
abbrev main_v265 : Ref sig .tc := ⟨.hbm, 458, rfl⟩
abbrev main_v266 : Ref sig .tc := ⟨.hbm, 459, rfl⟩
abbrev main_v267 : Ref sig .tc := ⟨.hbm, 460, rfl⟩
abbrev main_v268 : Ref sig .tc := ⟨.hbm, 461, rfl⟩
abbrev main_v269 : Ref sig .tc := ⟨.hbm, 462, rfl⟩
abbrev main_v270 : Ref sig .tc := ⟨.hbm, 463, rfl⟩
abbrev main_cst_109 : Ref sig .tc := ⟨.hbm, 464, rfl⟩
abbrev main_v271 : Ref sig .tc := ⟨.hbm, 465, rfl⟩
abbrev main_v272 : Ref sig .tc := ⟨.hbm, 466, rfl⟩
abbrev main_v273 : Ref sig .tc := ⟨.hbm, 467, rfl⟩
abbrev main_v274 : Ref sig .tc := ⟨.hbm, 468, rfl⟩
abbrev main_v275 : Ref sig .tc := ⟨.hbm, 469, rfl⟩
abbrev main_v276 : Ref sig .tc := ⟨.hbm, 470, rfl⟩
abbrev main_v277 : Ref sig .tc := ⟨.hbm, 471, rfl⟩
abbrev main_v278 : Ref sig .tc := ⟨.hbm, 472, rfl⟩
abbrev main_v279 : Ref sig .tc := ⟨.hbm, 473, rfl⟩
abbrev main_v280 : Ref sig .tc := ⟨.hbm, 474, rfl⟩
abbrev main_c_110 : Ref sig .tc := ⟨.hbm, 475, rfl⟩
abbrev main_v281 : Ref sig .tc := ⟨.hbm, 476, rfl⟩
abbrev main_v282 : Ref sig .tc := ⟨.hbm, 477, rfl⟩
abbrev main_c_111 : Ref sig .tc := ⟨.hbm, 478, rfl⟩
abbrev main_v283 : Ref sig .tc := ⟨.hbm, 479, rfl⟩
abbrev main_v284 : Ref sig .tc := ⟨.hbm, 480, rfl⟩
abbrev main_v285 : Ref sig .tc := ⟨.hbm, 481, rfl⟩
abbrev main_v286 : Ref sig .tc := ⟨.hbm, 482, rfl⟩
abbrev main_v287 : Ref sig .tc := ⟨.hbm, 483, rfl⟩
abbrev main_v288 : Ref sig .tc := ⟨.hbm, 484, rfl⟩
abbrev main_v289 : Ref sig .tc := ⟨.hbm, 485, rfl⟩
abbrev main_cst_112 : Ref sig .tc := ⟨.hbm, 486, rfl⟩
abbrev main_v290 : Ref sig .tc := ⟨.hbm, 487, rfl⟩
abbrev main_v291 : Ref sig .tc := ⟨.hbm, 488, rfl⟩
abbrev main_v292 : Ref sig .tc := ⟨.hbm, 489, rfl⟩
abbrev main_v293 : Ref sig .tc := ⟨.hbm, 490, rfl⟩
abbrev main_v294 : Ref sig .tc := ⟨.hbm, 491, rfl⟩
abbrev main_v295 : Ref sig .tc := ⟨.hbm, 492, rfl⟩
abbrev main_v296 : Ref sig .tc := ⟨.hbm, 493, rfl⟩
abbrev main_v297 : Ref sig .tc := ⟨.hbm, 494, rfl⟩
abbrev main_v298 : Ref sig .tc := ⟨.hbm, 495, rfl⟩
abbrev main_v299 : Ref sig .tc := ⟨.hbm, 496, rfl⟩
abbrev main_c_113 : Ref sig .tc := ⟨.hbm, 497, rfl⟩
abbrev main_v300 : Ref sig .tc := ⟨.hbm, 498, rfl⟩
abbrev main_v301 : Ref sig .tc := ⟨.hbm, 499, rfl⟩
abbrev main_c_114 : Ref sig .tc := ⟨.hbm, 500, rfl⟩
abbrev main_v302 : Ref sig .tc := ⟨.hbm, 501, rfl⟩
abbrev main_v303 : Ref sig .tc := ⟨.hbm, 502, rfl⟩
abbrev main_v304 : Ref sig .tc := ⟨.hbm, 503, rfl⟩
abbrev main_v305 : Ref sig .tc := ⟨.hbm, 504, rfl⟩
abbrev main_v306 : Ref sig .tc := ⟨.hbm, 505, rfl⟩
abbrev main_v307 : Ref sig .tc := ⟨.hbm, 506, rfl⟩
abbrev main_v308 : Ref sig .tc := ⟨.hbm, 507, rfl⟩
abbrev main_cst_115 : Ref sig .tc := ⟨.hbm, 508, rfl⟩
abbrev main_v309 : Ref sig .tc := ⟨.hbm, 509, rfl⟩
abbrev main_v310 : Ref sig .tc := ⟨.hbm, 510, rfl⟩
abbrev main_v311 : Ref sig .tc := ⟨.hbm, 511, rfl⟩
abbrev main_v312 : Ref sig .tc := ⟨.hbm, 512, rfl⟩
abbrev main_v313 : Ref sig .tc := ⟨.hbm, 513, rfl⟩
abbrev main_v314 : Ref sig .tc := ⟨.hbm, 514, rfl⟩
abbrev main_v315 : Ref sig .tc := ⟨.hbm, 515, rfl⟩
abbrev main_v316 : Ref sig .tc := ⟨.hbm, 516, rfl⟩
abbrev main_v317 : Ref sig .tc := ⟨.hbm, 517, rfl⟩
abbrev main_v318 : Ref sig .tc := ⟨.hbm, 518, rfl⟩
abbrev main_c_116 : Ref sig .tc := ⟨.hbm, 519, rfl⟩
abbrev main_v319 : Ref sig .tc := ⟨.hbm, 520, rfl⟩
abbrev main_v320 : Ref sig .tc := ⟨.hbm, 521, rfl⟩
abbrev main_c_117 : Ref sig .tc := ⟨.hbm, 522, rfl⟩
abbrev main_v321 : Ref sig .tc := ⟨.hbm, 523, rfl⟩
abbrev main_v322 : Ref sig .tc := ⟨.hbm, 524, rfl⟩
abbrev main_v323 : Ref sig .tc := ⟨.hbm, 525, rfl⟩
abbrev main_v324 : Ref sig .tc := ⟨.hbm, 526, rfl⟩
abbrev main_v325 : Ref sig .tc := ⟨.hbm, 527, rfl⟩
abbrev main_v326 : Ref sig .tc := ⟨.hbm, 528, rfl⟩
abbrev main_v327 : Ref sig .tc := ⟨.hbm, 529, rfl⟩
abbrev main_cst_118 : Ref sig .tc := ⟨.hbm, 530, rfl⟩
abbrev main_v328 : Ref sig .tc := ⟨.hbm, 531, rfl⟩
abbrev main_v329 : Ref sig .tc := ⟨.hbm, 532, rfl⟩
abbrev main_v330 : Ref sig .tc := ⟨.hbm, 533, rfl⟩
abbrev main_v331 : Ref sig .tc := ⟨.hbm, 534, rfl⟩
abbrev main_v332 : Ref sig .tc := ⟨.hbm, 535, rfl⟩
abbrev main_v333 : Ref sig .tc := ⟨.hbm, 536, rfl⟩
abbrev main_v334 : Ref sig .tc := ⟨.hbm, 537, rfl⟩
abbrev main_v335 : Ref sig .tc := ⟨.hbm, 538, rfl⟩
abbrev main_v336 : Ref sig .tc := ⟨.hbm, 539, rfl⟩
abbrev main_v337 : Ref sig .tc := ⟨.hbm, 540, rfl⟩
abbrev main_c_119 : Ref sig .tc := ⟨.hbm, 541, rfl⟩
abbrev main_v338 : Ref sig .tc := ⟨.hbm, 542, rfl⟩
abbrev main_v339 : Ref sig .tc := ⟨.hbm, 543, rfl⟩
abbrev main_c_120 : Ref sig .tc := ⟨.hbm, 544, rfl⟩
abbrev main_v340 : Ref sig .tc := ⟨.hbm, 545, rfl⟩
abbrev main_v341 : Ref sig .tc := ⟨.hbm, 546, rfl⟩
abbrev main_v342 : Ref sig .tc := ⟨.hbm, 547, rfl⟩
abbrev main_v343 : Ref sig .tc := ⟨.hbm, 548, rfl⟩
abbrev main_v344 : Ref sig .tc := ⟨.hbm, 549, rfl⟩
abbrev main_v345 : Ref sig .tc := ⟨.hbm, 550, rfl⟩
abbrev main_v346 : Ref sig .tc := ⟨.hbm, 551, rfl⟩
abbrev main_cst_121 : Ref sig .tc := ⟨.hbm, 552, rfl⟩
abbrev main_v347 : Ref sig .tc := ⟨.hbm, 553, rfl⟩
abbrev main_v348 : Ref sig .tc := ⟨.hbm, 554, rfl⟩
abbrev main_v349 : Ref sig .tc := ⟨.hbm, 555, rfl⟩
abbrev main_v350 : Ref sig .tc := ⟨.hbm, 556, rfl⟩
abbrev main_v351 : Ref sig .tc := ⟨.hbm, 557, rfl⟩
abbrev main_v352 : Ref sig .tc := ⟨.hbm, 558, rfl⟩
abbrev main_v353 : Ref sig .tc := ⟨.hbm, 559, rfl⟩
abbrev main_v354 : Ref sig .tc := ⟨.hbm, 560, rfl⟩
abbrev main_v355 : Ref sig .tc := ⟨.hbm, 561, rfl⟩
abbrev main_v356 : Ref sig .tc := ⟨.hbm, 562, rfl⟩
abbrev main_c_122 : Ref sig .tc := ⟨.hbm, 563, rfl⟩
abbrev main_v357 : Ref sig .tc := ⟨.hbm, 564, rfl⟩
abbrev main_v358 : Ref sig .tc := ⟨.hbm, 565, rfl⟩
abbrev main_c_123 : Ref sig .tc := ⟨.hbm, 566, rfl⟩
abbrev main_v359 : Ref sig .tc := ⟨.hbm, 567, rfl⟩
abbrev main_v360 : Ref sig .tc := ⟨.hbm, 568, rfl⟩
abbrev main_v361 : Ref sig .tc := ⟨.hbm, 569, rfl⟩
abbrev main_v362 : Ref sig .tc := ⟨.hbm, 570, rfl⟩
abbrev main_v363 : Ref sig .tc := ⟨.hbm, 571, rfl⟩
abbrev main_v364 : Ref sig .tc := ⟨.hbm, 572, rfl⟩
abbrev main_v365 : Ref sig .tc := ⟨.hbm, 573, rfl⟩
abbrev main_cst_124 : Ref sig .tc := ⟨.hbm, 574, rfl⟩
abbrev main_v366 : Ref sig .tc := ⟨.hbm, 575, rfl⟩
abbrev main_v367 : Ref sig .tc := ⟨.hbm, 576, rfl⟩
abbrev main_v368 : Ref sig .tc := ⟨.hbm, 577, rfl⟩
abbrev main_v369 : Ref sig .tc := ⟨.hbm, 578, rfl⟩
abbrev main_v370 : Ref sig .tc := ⟨.hbm, 579, rfl⟩
abbrev main_v371 : Ref sig .tc := ⟨.hbm, 580, rfl⟩
abbrev main_v372 : Ref sig .tc := ⟨.hbm, 581, rfl⟩
abbrev main_v373 : Ref sig .tc := ⟨.hbm, 582, rfl⟩
abbrev main_v374 : Ref sig .tc := ⟨.hbm, 583, rfl⟩
abbrev main_v375 : Ref sig .tc := ⟨.hbm, 584, rfl⟩
abbrev main_c_125 : Ref sig .tc := ⟨.hbm, 585, rfl⟩
abbrev main_v376 : Ref sig .tc := ⟨.hbm, 586, rfl⟩
abbrev main_v377 : Ref sig .tc := ⟨.hbm, 587, rfl⟩
abbrev main_c_126 : Ref sig .tc := ⟨.hbm, 588, rfl⟩
abbrev main_v378 : Ref sig .tc := ⟨.hbm, 589, rfl⟩
abbrev main_v379 : Ref sig .tc := ⟨.hbm, 590, rfl⟩
abbrev main_v380 : Ref sig .tc := ⟨.hbm, 591, rfl⟩
abbrev main_v381 : Ref sig .tc := ⟨.hbm, 592, rfl⟩
abbrev main_v382 : Ref sig .tc := ⟨.hbm, 593, rfl⟩
abbrev main_v383 : Ref sig .tc := ⟨.hbm, 594, rfl⟩
abbrev main_v384 : Ref sig .tc := ⟨.hbm, 595, rfl⟩
abbrev main_cst_127 : Ref sig .tc := ⟨.hbm, 596, rfl⟩
abbrev main_v385 : Ref sig .tc := ⟨.hbm, 597, rfl⟩
abbrev main_v386 : Ref sig .tc := ⟨.hbm, 598, rfl⟩
abbrev main_v387 : Ref sig .tc := ⟨.hbm, 599, rfl⟩
abbrev main_v388 : Ref sig .tc := ⟨.hbm, 600, rfl⟩
abbrev main_v389 : Ref sig .tc := ⟨.hbm, 601, rfl⟩
abbrev main_v390 : Ref sig .tc := ⟨.hbm, 602, rfl⟩
abbrev main_v391 : Ref sig .tc := ⟨.hbm, 603, rfl⟩
abbrev main_v392 : Ref sig .tc := ⟨.hbm, 604, rfl⟩
abbrev main_v393 : Ref sig .tc := ⟨.hbm, 605, rfl⟩
abbrev main_v394 : Ref sig .tc := ⟨.hbm, 606, rfl⟩
abbrev main_c_128 : Ref sig .tc := ⟨.hbm, 607, rfl⟩
abbrev main_v395 : Ref sig .tc := ⟨.hbm, 608, rfl⟩
abbrev main_v396 : Ref sig .tc := ⟨.hbm, 609, rfl⟩
abbrev main_c_129 : Ref sig .tc := ⟨.hbm, 610, rfl⟩
abbrev main_v397 : Ref sig .tc := ⟨.hbm, 611, rfl⟩
abbrev main_v398 : Ref sig .tc := ⟨.hbm, 612, rfl⟩
abbrev main_v399 : Ref sig .tc := ⟨.hbm, 613, rfl⟩
abbrev main_v400 : Ref sig .tc := ⟨.hbm, 614, rfl⟩
abbrev main_v401 : Ref sig .tc := ⟨.hbm, 615, rfl⟩
abbrev main_v402 : Ref sig .tc := ⟨.hbm, 616, rfl⟩
abbrev main_v403 : Ref sig .tc := ⟨.hbm, 617, rfl⟩
abbrev main_cst_130 : Ref sig .tc := ⟨.hbm, 618, rfl⟩
abbrev main_v404 : Ref sig .tc := ⟨.hbm, 619, rfl⟩
abbrev main_v405 : Ref sig .tc := ⟨.hbm, 620, rfl⟩
abbrev main_v406 : Ref sig .tc := ⟨.hbm, 621, rfl⟩
abbrev main_v407 : Ref sig .tc := ⟨.hbm, 622, rfl⟩
abbrev main_v408 : Ref sig .tc := ⟨.hbm, 623, rfl⟩
abbrev main_v409 : Ref sig .tc := ⟨.hbm, 624, rfl⟩
abbrev main_v410 : Ref sig .tc := ⟨.hbm, 625, rfl⟩
abbrev main_v411 : Ref sig .tc := ⟨.hbm, 626, rfl⟩
abbrev main_v412 : Ref sig .tc := ⟨.hbm, 627, rfl⟩
abbrev main_v413 : Ref sig .tc := ⟨.hbm, 628, rfl⟩
abbrev main_c_131 : Ref sig .tc := ⟨.hbm, 629, rfl⟩
abbrev main_v414 : Ref sig .tc := ⟨.hbm, 630, rfl⟩
abbrev main_v415 : Ref sig .tc := ⟨.hbm, 631, rfl⟩
abbrev main_c_132 : Ref sig .tc := ⟨.hbm, 632, rfl⟩
abbrev main_v416 : Ref sig .tc := ⟨.hbm, 633, rfl⟩
abbrev main_v417 : Ref sig .tc := ⟨.hbm, 634, rfl⟩
abbrev main_v418 : Ref sig .tc := ⟨.hbm, 635, rfl⟩
abbrev main_v419 : Ref sig .tc := ⟨.hbm, 636, rfl⟩
abbrev main_v420 : Ref sig .tc := ⟨.hbm, 637, rfl⟩
abbrev main_v421 : Ref sig .tc := ⟨.hbm, 638, rfl⟩
abbrev main_v422 : Ref sig .tc := ⟨.hbm, 639, rfl⟩
abbrev main_cst_133 : Ref sig .tc := ⟨.hbm, 640, rfl⟩
abbrev main_v423 : Ref sig .tc := ⟨.hbm, 641, rfl⟩
abbrev main_v424 : Ref sig .tc := ⟨.hbm, 642, rfl⟩
abbrev main_v425 : Ref sig .tc := ⟨.hbm, 643, rfl⟩
abbrev main_v426 : Ref sig .tc := ⟨.hbm, 644, rfl⟩
abbrev main_v427 : Ref sig .tc := ⟨.hbm, 645, rfl⟩
abbrev main_v428 : Ref sig .tc := ⟨.hbm, 646, rfl⟩
abbrev main_v429 : Ref sig .tc := ⟨.hbm, 647, rfl⟩
abbrev main_v430 : Ref sig .tc := ⟨.hbm, 648, rfl⟩
abbrev main_v431 : Ref sig .tc := ⟨.hbm, 649, rfl⟩
abbrev main_v432 : Ref sig .tc := ⟨.hbm, 650, rfl⟩
abbrev main_v433 : Ref sig .tc := ⟨.hbm, 651, rfl⟩
abbrev main_v434 : Ref sig .tc := ⟨.hbm, 652, rfl⟩
abbrev main_v435 : Ref sig .tc := ⟨.hbm, 653, rfl⟩
abbrev main_v436 : Ref sig .tc := ⟨.hbm, 654, rfl⟩
abbrev main_v437 : Ref sig .tc := ⟨.hbm, 655, rfl⟩
abbrev main_v438 : Ref sig .tc := ⟨.hbm, 656, rfl⟩
abbrev main_cst_134 : Ref sig .tc := ⟨.hbm, 657, rfl⟩
abbrev main_v439 : Ref sig .tc := ⟨.hbm, 658, rfl⟩
abbrev main_cst_135 : Ref sig .tc := ⟨.hbm, 659, rfl⟩
abbrev main_v440 : Ref sig .tc := ⟨.hbm, 660, rfl⟩
abbrev main_cst_136 : Ref sig .tc := ⟨.hbm, 661, rfl⟩
abbrev main_v441 : Ref sig .tc := ⟨.hbm, 662, rfl⟩
abbrev main_v442 : Ref sig .tc := ⟨.hbm, 663, rfl⟩
abbrev main_v443 : Ref sig .tc := ⟨.hbm, 664, rfl⟩
abbrev main_v444 : Ref sig .tc := ⟨.hbm, 665, rfl⟩
abbrev main_v445 : Ref sig .tc := ⟨.hbm, 666, rfl⟩
abbrev main_v446 : Ref sig .tc := ⟨.hbm, 667, rfl⟩
abbrev main_v447 : Ref sig .tc := ⟨.hbm, 668, rfl⟩
abbrev main_v448 : Ref sig .tc := ⟨.hbm, 669, rfl⟩
abbrev main_v449 : Ref sig .tc := ⟨.hbm, 670, rfl⟩
abbrev main_v450 : Ref sig .tc := ⟨.hbm, 671, rfl⟩
abbrev main_v451 : Ref sig .tc := ⟨.hbm, 672, rfl⟩
abbrev main_v452 : Ref sig .tc := ⟨.hbm, 673, rfl⟩
abbrev main_v453 : Ref sig .tc := ⟨.hbm, 674, rfl⟩
abbrev main_v454 : Ref sig .tc := ⟨.hbm, 675, rfl⟩
abbrev main_v455 : Ref sig .tc := ⟨.hbm, 676, rfl⟩
abbrev main_v456 : Ref sig .tc := ⟨.hbm, 677, rfl⟩
abbrev main_v457 : Ref sig .tc := ⟨.hbm, 678, rfl⟩
abbrev main_v458 : Ref sig .tc := ⟨.hbm, 679, rfl⟩
abbrev main_v459 : Ref sig .tc := ⟨.hbm, 680, rfl⟩
abbrev main_v460 : Ref sig .tc := ⟨.hbm, 681, rfl⟩
abbrev main_v461 : Ref sig .tc := ⟨.hbm, 682, rfl⟩
abbrev main_v462 : Ref sig .tc := ⟨.hbm, 683, rfl⟩
abbrev main_v463 : Ref sig .tc := ⟨.hbm, 684, rfl⟩
abbrev main_v464 : Ref sig .tc := ⟨.hbm, 685, rfl⟩
abbrev main_v465 : Ref sig .tc := ⟨.hbm, 686, rfl⟩
abbrev main_v466 : Ref sig .tc := ⟨.hbm, 687, rfl⟩
abbrev main_v467 : Ref sig .tc := ⟨.hbm, 688, rfl⟩
abbrev main_v468 : Ref sig .tc := ⟨.hbm, 689, rfl⟩
abbrev main_call36_cst : Ref sig .tc := ⟨.hbm, 690, rfl⟩
abbrev main_call36_v0 : Ref sig .tc := ⟨.hbm, 691, rfl⟩
abbrev main_v469 : Ref sig .tc := ⟨.hbm, 692, rfl⟩
abbrev main_call37_cst : Ref sig .tc := ⟨.hbm, 693, rfl⟩
abbrev main_call37_v0 : Ref sig .tc := ⟨.hbm, 694, rfl⟩
abbrev main_v470 : Ref sig .tc := ⟨.hbm, 695, rfl⟩
abbrev main_call38_cst : Ref sig .tc := ⟨.hbm, 696, rfl⟩
abbrev main_call38_v0 : Ref sig .tc := ⟨.hbm, 697, rfl⟩
abbrev main_v471 : Ref sig .tc := ⟨.hbm, 698, rfl⟩
abbrev main_v472 : Ref sig .tc := ⟨.hbm, 699, rfl⟩
abbrev main_v473 : Ref sig .tc := ⟨.hbm, 700, rfl⟩
abbrev main_v474 : Ref sig .tc := ⟨.hbm, 701, rfl⟩
abbrev main_v475 : Ref sig .tc := ⟨.hbm, 702, rfl⟩
abbrev main_v476 : Ref sig .tc := ⟨.hbm, 703, rfl⟩
abbrev main_v477 : Ref sig .tc := ⟨.hbm, 704, rfl⟩
abbrev main_v478 : Ref sig .tc := ⟨.hbm, 705, rfl⟩
abbrev main_c_137 : Ref sig .tc := ⟨.hbm, 706, rfl⟩
abbrev main_v479 : Ref sig .tc := ⟨.hbm, 707, rfl⟩
abbrev main_v480 : Ref sig .tc := ⟨.hbm, 708, rfl⟩
abbrev main_c_138 : Ref sig .tc := ⟨.hbm, 709, rfl⟩
abbrev main_v481 : Ref sig .tc := ⟨.hbm, 710, rfl⟩
abbrev main_v482 : Ref sig .tc := ⟨.hbm, 711, rfl⟩
abbrev main_v483 : Ref sig .tc := ⟨.hbm, 712, rfl⟩
abbrev main_v484 : Ref sig .tc := ⟨.hbm, 713, rfl⟩
abbrev main_v485 : Ref sig .tc := ⟨.hbm, 714, rfl⟩
abbrev main_v486 : Ref sig .tc := ⟨.hbm, 715, rfl⟩
abbrev main_v487 : Ref sig .tc := ⟨.hbm, 716, rfl⟩
abbrev main_cst_139 : Ref sig .tc := ⟨.hbm, 717, rfl⟩
abbrev main_v488 : Ref sig .tc := ⟨.hbm, 718, rfl⟩
abbrev main_v489 : Ref sig .tc := ⟨.hbm, 719, rfl⟩
abbrev main_v490 : Ref sig .tc := ⟨.hbm, 720, rfl⟩
abbrev main_v491 : Ref sig .tc := ⟨.hbm, 721, rfl⟩
abbrev main_v492 : Ref sig .tc := ⟨.hbm, 722, rfl⟩
abbrev main_v493 : Ref sig .tc := ⟨.hbm, 723, rfl⟩
abbrev main_v494 : Ref sig .tc := ⟨.hbm, 724, rfl⟩
abbrev main_v495 : Ref sig .tc := ⟨.hbm, 725, rfl⟩
abbrev main_v496 : Ref sig .tc := ⟨.hbm, 726, rfl⟩
abbrev main_v497 : Ref sig .tc := ⟨.hbm, 727, rfl⟩
abbrev main_c_140 : Ref sig .tc := ⟨.hbm, 728, rfl⟩
abbrev main_v498 : Ref sig .tc := ⟨.hbm, 729, rfl⟩
abbrev main_v499 : Ref sig .tc := ⟨.hbm, 730, rfl⟩
abbrev main_c_141 : Ref sig .tc := ⟨.hbm, 731, rfl⟩
abbrev main_v500 : Ref sig .tc := ⟨.hbm, 732, rfl⟩
abbrev main_v501 : Ref sig .tc := ⟨.hbm, 733, rfl⟩
abbrev main_v502 : Ref sig .tc := ⟨.hbm, 734, rfl⟩
abbrev main_v503 : Ref sig .tc := ⟨.hbm, 735, rfl⟩
abbrev main_v504 : Ref sig .tc := ⟨.hbm, 736, rfl⟩
abbrev main_v505 : Ref sig .tc := ⟨.hbm, 737, rfl⟩
abbrev main_v506 : Ref sig .tc := ⟨.hbm, 738, rfl⟩
abbrev main_cst_142 : Ref sig .tc := ⟨.hbm, 739, rfl⟩
abbrev main_v507 : Ref sig .tc := ⟨.hbm, 740, rfl⟩
abbrev main_v508 : Ref sig .tc := ⟨.hbm, 741, rfl⟩
abbrev main_v509 : Ref sig .tc := ⟨.hbm, 742, rfl⟩
abbrev main_v510 : Ref sig .tc := ⟨.hbm, 743, rfl⟩
abbrev main_v511 : Ref sig .tc := ⟨.hbm, 744, rfl⟩
abbrev main_v512 : Ref sig .tc := ⟨.hbm, 745, rfl⟩
abbrev main_v513 : Ref sig .tc := ⟨.hbm, 746, rfl⟩
abbrev main_v514 : Ref sig .tc := ⟨.hbm, 747, rfl⟩
abbrev main_v515 : Ref sig .tc := ⟨.hbm, 748, rfl⟩
abbrev main_v516 : Ref sig .tc := ⟨.hbm, 749, rfl⟩
abbrev main_c_143 : Ref sig .tc := ⟨.hbm, 750, rfl⟩
abbrev main_v517 : Ref sig .tc := ⟨.hbm, 751, rfl⟩
abbrev main_v518 : Ref sig .tc := ⟨.hbm, 752, rfl⟩
abbrev main_c_144 : Ref sig .tc := ⟨.hbm, 753, rfl⟩
abbrev main_v519 : Ref sig .tc := ⟨.hbm, 754, rfl⟩
abbrev main_v520 : Ref sig .tc := ⟨.hbm, 755, rfl⟩
abbrev main_v521 : Ref sig .tc := ⟨.hbm, 756, rfl⟩
abbrev main_v522 : Ref sig .tc := ⟨.hbm, 757, rfl⟩
abbrev main_v523 : Ref sig .tc := ⟨.hbm, 758, rfl⟩
abbrev main_v524 : Ref sig .tc := ⟨.hbm, 759, rfl⟩
abbrev main_v525 : Ref sig .tc := ⟨.hbm, 760, rfl⟩
abbrev main_cst_145 : Ref sig .tc := ⟨.hbm, 761, rfl⟩
abbrev main_v526 : Ref sig .tc := ⟨.hbm, 762, rfl⟩
abbrev main_v527 : Ref sig .tc := ⟨.hbm, 763, rfl⟩
abbrev main_v528 : Ref sig .tc := ⟨.hbm, 764, rfl⟩
abbrev main_v529 : Ref sig .tc := ⟨.hbm, 765, rfl⟩
abbrev main_v530 : Ref sig .tc := ⟨.hbm, 766, rfl⟩
abbrev main_v531 : Ref sig .tc := ⟨.hbm, 767, rfl⟩
abbrev main_v532 : Ref sig .tc := ⟨.hbm, 768, rfl⟩
abbrev main_v533 : Ref sig .tc := ⟨.hbm, 769, rfl⟩
abbrev main_v534 : Ref sig .tc := ⟨.hbm, 770, rfl⟩
abbrev main_v535 : Ref sig .tc := ⟨.hbm, 771, rfl⟩
abbrev main_c_146 : Ref sig .tc := ⟨.hbm, 772, rfl⟩
abbrev main_v536 : Ref sig .tc := ⟨.hbm, 773, rfl⟩
abbrev main_v537 : Ref sig .tc := ⟨.hbm, 774, rfl⟩
abbrev main_c_147 : Ref sig .tc := ⟨.hbm, 775, rfl⟩
abbrev main_v538 : Ref sig .tc := ⟨.hbm, 776, rfl⟩
abbrev main_v539 : Ref sig .tc := ⟨.hbm, 777, rfl⟩
abbrev main_v540 : Ref sig .tc := ⟨.hbm, 778, rfl⟩
abbrev main_v541 : Ref sig .tc := ⟨.hbm, 779, rfl⟩
abbrev main_v542 : Ref sig .tc := ⟨.hbm, 780, rfl⟩
abbrev main_v543 : Ref sig .tc := ⟨.hbm, 781, rfl⟩
abbrev main_v544 : Ref sig .tc := ⟨.hbm, 782, rfl⟩
abbrev main_cst_148 : Ref sig .tc := ⟨.hbm, 783, rfl⟩
abbrev main_v545 : Ref sig .tc := ⟨.hbm, 784, rfl⟩
abbrev main_v546 : Ref sig .tc := ⟨.hbm, 785, rfl⟩
abbrev main_v547 : Ref sig .tc := ⟨.hbm, 786, rfl⟩
abbrev main_v548 : Ref sig .tc := ⟨.hbm, 787, rfl⟩
abbrev main_v549 : Ref sig .tc := ⟨.hbm, 788, rfl⟩
abbrev main_v550 : Ref sig .tc := ⟨.hbm, 789, rfl⟩
abbrev main_v551 : Ref sig .tc := ⟨.hbm, 790, rfl⟩
abbrev main_v552 : Ref sig .tc := ⟨.hbm, 791, rfl⟩
abbrev main_v553 : Ref sig .tc := ⟨.hbm, 792, rfl⟩
abbrev main_v554 : Ref sig .tc := ⟨.hbm, 793, rfl⟩
abbrev main_c_149 : Ref sig .tc := ⟨.hbm, 794, rfl⟩
abbrev main_v555 : Ref sig .tc := ⟨.hbm, 795, rfl⟩
abbrev main_v556 : Ref sig .tc := ⟨.hbm, 796, rfl⟩
abbrev main_c_150 : Ref sig .tc := ⟨.hbm, 797, rfl⟩
abbrev main_v557 : Ref sig .tc := ⟨.hbm, 798, rfl⟩
abbrev main_v558 : Ref sig .tc := ⟨.hbm, 799, rfl⟩
abbrev main_v559 : Ref sig .tc := ⟨.hbm, 800, rfl⟩
abbrev main_v560 : Ref sig .tc := ⟨.hbm, 801, rfl⟩
abbrev main_v561 : Ref sig .tc := ⟨.hbm, 802, rfl⟩
abbrev main_v562 : Ref sig .tc := ⟨.hbm, 803, rfl⟩
abbrev main_v563 : Ref sig .tc := ⟨.hbm, 804, rfl⟩
abbrev main_cst_151 : Ref sig .tc := ⟨.hbm, 805, rfl⟩
abbrev main_v564 : Ref sig .tc := ⟨.hbm, 806, rfl⟩
abbrev main_v565 : Ref sig .tc := ⟨.hbm, 807, rfl⟩
abbrev main_v566 : Ref sig .tc := ⟨.hbm, 808, rfl⟩
abbrev main_v567 : Ref sig .tc := ⟨.hbm, 809, rfl⟩
abbrev main_v568 : Ref sig .tc := ⟨.hbm, 810, rfl⟩
abbrev main_v569 : Ref sig .tc := ⟨.hbm, 811, rfl⟩
abbrev main_v570 : Ref sig .tc := ⟨.hbm, 812, rfl⟩
abbrev main_v571 : Ref sig .tc := ⟨.hbm, 813, rfl⟩
abbrev main_v572 : Ref sig .tc := ⟨.hbm, 814, rfl⟩
abbrev main_v573 : Ref sig .tc := ⟨.hbm, 815, rfl⟩
abbrev main_c_152 : Ref sig .tc := ⟨.hbm, 816, rfl⟩
abbrev main_v574 : Ref sig .tc := ⟨.hbm, 817, rfl⟩
abbrev main_v575 : Ref sig .tc := ⟨.hbm, 818, rfl⟩
abbrev main_c_153 : Ref sig .tc := ⟨.hbm, 819, rfl⟩
abbrev main_v576 : Ref sig .tc := ⟨.hbm, 820, rfl⟩
abbrev main_v577 : Ref sig .tc := ⟨.hbm, 821, rfl⟩
abbrev main_v578 : Ref sig .tc := ⟨.hbm, 822, rfl⟩
abbrev main_v579 : Ref sig .tc := ⟨.hbm, 823, rfl⟩
abbrev main_v580 : Ref sig .tc := ⟨.hbm, 824, rfl⟩
abbrev main_v581 : Ref sig .tc := ⟨.hbm, 825, rfl⟩
abbrev main_v582 : Ref sig .tc := ⟨.hbm, 826, rfl⟩
abbrev main_cst_154 : Ref sig .tc := ⟨.hbm, 827, rfl⟩
abbrev main_v583 : Ref sig .tc := ⟨.hbm, 828, rfl⟩
abbrev main_v584 : Ref sig .tc := ⟨.hbm, 829, rfl⟩
abbrev main_v585 : Ref sig .tc := ⟨.hbm, 830, rfl⟩
abbrev main_v586 : Ref sig .tc := ⟨.hbm, 831, rfl⟩
abbrev main_v587 : Ref sig .tc := ⟨.hbm, 832, rfl⟩
abbrev main_v588 : Ref sig .tc := ⟨.hbm, 833, rfl⟩
abbrev main_v589 : Ref sig .tc := ⟨.hbm, 834, rfl⟩
abbrev main_v590 : Ref sig .tc := ⟨.hbm, 835, rfl⟩
abbrev main_v591 : Ref sig .tc := ⟨.hbm, 836, rfl⟩
abbrev main_v592 : Ref sig .tc := ⟨.hbm, 837, rfl⟩
abbrev main_c_155 : Ref sig .tc := ⟨.hbm, 838, rfl⟩
abbrev main_v593 : Ref sig .tc := ⟨.hbm, 839, rfl⟩
abbrev main_v594 : Ref sig .tc := ⟨.hbm, 840, rfl⟩
abbrev main_c_156 : Ref sig .tc := ⟨.hbm, 841, rfl⟩
abbrev main_v595 : Ref sig .tc := ⟨.hbm, 842, rfl⟩
abbrev main_v596 : Ref sig .tc := ⟨.hbm, 843, rfl⟩
abbrev main_v597 : Ref sig .tc := ⟨.hbm, 844, rfl⟩
abbrev main_v598 : Ref sig .tc := ⟨.hbm, 845, rfl⟩
abbrev main_v599 : Ref sig .tc := ⟨.hbm, 846, rfl⟩
abbrev main_v600 : Ref sig .tc := ⟨.hbm, 847, rfl⟩
abbrev main_v601 : Ref sig .tc := ⟨.hbm, 848, rfl⟩
abbrev main_cst_157 : Ref sig .tc := ⟨.hbm, 849, rfl⟩
abbrev main_v602 : Ref sig .tc := ⟨.hbm, 850, rfl⟩
abbrev main_v603 : Ref sig .tc := ⟨.hbm, 851, rfl⟩
abbrev main_v604 : Ref sig .tc := ⟨.hbm, 852, rfl⟩
abbrev main_v605 : Ref sig .tc := ⟨.hbm, 853, rfl⟩
abbrev main_v606 : Ref sig .tc := ⟨.hbm, 854, rfl⟩
abbrev main_v607 : Ref sig .tc := ⟨.hbm, 855, rfl⟩
abbrev main_v608 : Ref sig .tc := ⟨.hbm, 856, rfl⟩
abbrev main_v609 : Ref sig .tc := ⟨.hbm, 857, rfl⟩
abbrev main_v610 : Ref sig .tc := ⟨.hbm, 858, rfl⟩
abbrev main_v611 : Ref sig .tc := ⟨.hbm, 859, rfl⟩
abbrev main_c_158 : Ref sig .tc := ⟨.hbm, 860, rfl⟩
abbrev main_v612 : Ref sig .tc := ⟨.hbm, 861, rfl⟩
abbrev main_v613 : Ref sig .tc := ⟨.hbm, 862, rfl⟩
abbrev main_c_159 : Ref sig .tc := ⟨.hbm, 863, rfl⟩
abbrev main_v614 : Ref sig .tc := ⟨.hbm, 864, rfl⟩
abbrev main_v615 : Ref sig .tc := ⟨.hbm, 865, rfl⟩
abbrev main_v616 : Ref sig .tc := ⟨.hbm, 866, rfl⟩
abbrev main_v617 : Ref sig .tc := ⟨.hbm, 867, rfl⟩
abbrev main_v618 : Ref sig .tc := ⟨.hbm, 868, rfl⟩
abbrev main_v619 : Ref sig .tc := ⟨.hbm, 869, rfl⟩
abbrev main_v620 : Ref sig .tc := ⟨.hbm, 870, rfl⟩
abbrev main_cst_160 : Ref sig .tc := ⟨.hbm, 871, rfl⟩
abbrev main_v621 : Ref sig .tc := ⟨.hbm, 872, rfl⟩
abbrev main_v622 : Ref sig .tc := ⟨.hbm, 873, rfl⟩
abbrev main_v623 : Ref sig .tc := ⟨.hbm, 874, rfl⟩
abbrev main_v624 : Ref sig .tc := ⟨.hbm, 875, rfl⟩
abbrev main_v625 : Ref sig .tc := ⟨.hbm, 876, rfl⟩
abbrev main_v626 : Ref sig .tc := ⟨.hbm, 877, rfl⟩
abbrev main_v627 : Ref sig .tc := ⟨.hbm, 878, rfl⟩
abbrev main_v628 : Ref sig .tc := ⟨.hbm, 879, rfl⟩
abbrev main_v629 : Ref sig .tc := ⟨.hbm, 880, rfl⟩
abbrev main_v630 : Ref sig .tc := ⟨.hbm, 881, rfl⟩
abbrev main_c_161 : Ref sig .tc := ⟨.hbm, 882, rfl⟩
abbrev main_v631 : Ref sig .tc := ⟨.hbm, 883, rfl⟩
abbrev main_v632 : Ref sig .tc := ⟨.hbm, 884, rfl⟩
abbrev main_c_162 : Ref sig .tc := ⟨.hbm, 885, rfl⟩
abbrev main_v633 : Ref sig .tc := ⟨.hbm, 886, rfl⟩
abbrev main_v634 : Ref sig .tc := ⟨.hbm, 887, rfl⟩
abbrev main_v635 : Ref sig .tc := ⟨.hbm, 888, rfl⟩
abbrev main_v636 : Ref sig .tc := ⟨.hbm, 889, rfl⟩
abbrev main_v637 : Ref sig .tc := ⟨.hbm, 890, rfl⟩
abbrev main_v638 : Ref sig .tc := ⟨.hbm, 891, rfl⟩
abbrev main_v639 : Ref sig .tc := ⟨.hbm, 892, rfl⟩
abbrev main_cst_163 : Ref sig .tc := ⟨.hbm, 893, rfl⟩
abbrev main_v640 : Ref sig .tc := ⟨.hbm, 894, rfl⟩
abbrev main_v641 : Ref sig .tc := ⟨.hbm, 895, rfl⟩
abbrev main_v642 : Ref sig .tc := ⟨.hbm, 896, rfl⟩
abbrev main_v643 : Ref sig .tc := ⟨.hbm, 897, rfl⟩
abbrev main_v644 : Ref sig .tc := ⟨.hbm, 898, rfl⟩
abbrev main_v645 : Ref sig .tc := ⟨.hbm, 899, rfl⟩
abbrev main_v646 : Ref sig .tc := ⟨.hbm, 900, rfl⟩
abbrev main_v647 : Ref sig .tc := ⟨.hbm, 901, rfl⟩
abbrev main_v648 : Ref sig .tc := ⟨.hbm, 902, rfl⟩
abbrev main_v649 : Ref sig .tc := ⟨.hbm, 903, rfl⟩
abbrev main_v650 : Ref sig .tc := ⟨.hbm, 904, rfl⟩
abbrev main_v651 : Ref sig .tc := ⟨.hbm, 905, rfl⟩
abbrev main_v652 : Ref sig .tc := ⟨.hbm, 906, rfl⟩
abbrev main_v653 : Ref sig .tc := ⟨.hbm, 907, rfl⟩
abbrev main_v654 : Ref sig .tc := ⟨.hbm, 908, rfl⟩
abbrev main_v655 : Ref sig .tc := ⟨.hbm, 909, rfl⟩
abbrev main_cst_164 : Ref sig .tc := ⟨.hbm, 910, rfl⟩
abbrev main_v656 : Ref sig .tc := ⟨.hbm, 911, rfl⟩
abbrev main_cst_165 : Ref sig .tc := ⟨.hbm, 912, rfl⟩
abbrev main_v657 : Ref sig .tc := ⟨.hbm, 913, rfl⟩
abbrev main_cst_166 : Ref sig .tc := ⟨.hbm, 914, rfl⟩
abbrev main_v658 : Ref sig .tc := ⟨.hbm, 915, rfl⟩
abbrev main_v659 : Ref sig .tc := ⟨.hbm, 916, rfl⟩
abbrev main_v660 : Ref sig .tc := ⟨.hbm, 917, rfl⟩
abbrev main_v661 : Ref sig .tc := ⟨.hbm, 918, rfl⟩
abbrev main_v662 : Ref sig .tc := ⟨.hbm, 919, rfl⟩
abbrev main_v663 : Ref sig .tc := ⟨.hbm, 920, rfl⟩
abbrev main_v664 : Ref sig .tc := ⟨.hbm, 921, rfl⟩
abbrev main_v665 : Ref sig .tc := ⟨.hbm, 922, rfl⟩
abbrev main_v666 : Ref sig .tc := ⟨.hbm, 923, rfl⟩
abbrev main_v667 : Ref sig .tc := ⟨.hbm, 924, rfl⟩
abbrev main_v668 : Ref sig .tc := ⟨.hbm, 925, rfl⟩
abbrev main_v669 : Ref sig .tc := ⟨.hbm, 926, rfl⟩
abbrev main_v670 : Ref sig .tc := ⟨.hbm, 927, rfl⟩
abbrev main_v671 : Ref sig .tc := ⟨.hbm, 928, rfl⟩
abbrev main_v672 : Ref sig .tc := ⟨.hbm, 929, rfl⟩
abbrev main_v673 : Ref sig .tc := ⟨.hbm, 930, rfl⟩
abbrev main_v674 : Ref sig .tc := ⟨.hbm, 931, rfl⟩
abbrev main_v675 : Ref sig .tc := ⟨.hbm, 932, rfl⟩
abbrev main_v676 : Ref sig .tc := ⟨.hbm, 933, rfl⟩
abbrev main_v677 : Ref sig .tc := ⟨.hbm, 934, rfl⟩
abbrev main_v678 : Ref sig .tc := ⟨.hbm, 935, rfl⟩
abbrev main_v679 : Ref sig .tc := ⟨.hbm, 936, rfl⟩
abbrev main_v680 : Ref sig .tc := ⟨.hbm, 937, rfl⟩
abbrev main_v681 : Ref sig .tc := ⟨.hbm, 938, rfl⟩
abbrev main_v682 : Ref sig .tc := ⟨.hbm, 939, rfl⟩
abbrev main_v683 : Ref sig .tc := ⟨.hbm, 940, rfl⟩
abbrev main_v684 : Ref sig .tc := ⟨.hbm, 941, rfl⟩
abbrev main_v685 : Ref sig .tc := ⟨.hbm, 942, rfl⟩
abbrev main_v686 : Ref sig .tc := ⟨.hbm, 943, rfl⟩
abbrev main_v687 : Ref sig .tc := ⟨.hbm, 944, rfl⟩
abbrev main_v688 : Ref sig .tc := ⟨.hbm, 945, rfl⟩
abbrev main_v689 : Ref sig .tc := ⟨.hbm, 946, rfl⟩
abbrev main_v690 : Ref sig .tc := ⟨.hbm, 947, rfl⟩
abbrev main_v691 : Ref sig .tc := ⟨.hbm, 948, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![9, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![9, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![3, 10], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bcast_S_S400000 : S_.BroadcastsInDim S400000 (![] : Fin 0 → Fin S400000.rank)
  slices_S9x2x400000_S1x1x400000_0_0_0 : S9x2x400000.Slices ![0, 0, 0] S1x1x400000
  shapeCasts_S1x1x400000_S400000 : S1x1x400000.ShapeCasts S400000
  slices_S9x2x400000_S1x1x400000_0_1_0 : S9x2x400000.Slices ![0, 1, 0] S1x1x400000
  bcast_S_S50000 : S_.BroadcastsInDim S50000 (![] : Fin 0 → Fin S50000.rank)
  bcast_S400000_S400000x1_0 : S400000.BroadcastsInDim S400000x1 (![0] : Fin 1 → Fin S400000x1.rank)
  slices_S9x2x400000_S1x1x400000_1_0_0 : S9x2x400000.Slices ![1, 0, 0] S1x1x400000
  slices_S9x2x400000_S1x1x400000_1_1_0 : S9x2x400000.Slices ![1, 1, 0] S1x1x400000
  slices_S9x2x400000_S1x1x400000_2_0_0 : S9x2x400000.Slices ![2, 0, 0] S1x1x400000
  slices_S9x2x400000_S1x1x400000_2_1_0 : S9x2x400000.Slices ![2, 1, 0] S1x1x400000
  slices_S9x2x400000_S1x1x400000_3_0_0 : S9x2x400000.Slices ![3, 0, 0] S1x1x400000
  slices_S9x2x400000_S1x1x400000_3_1_0 : S9x2x400000.Slices ![3, 1, 0] S1x1x400000
  slices_S9x2x400000_S1x1x400000_4_0_0 : S9x2x400000.Slices ![4, 0, 0] S1x1x400000
  slices_S9x2x400000_S1x1x400000_4_1_0 : S9x2x400000.Slices ![4, 1, 0] S1x1x400000
  slices_S9x2x400000_S1x1x400000_5_0_0 : S9x2x400000.Slices ![5, 0, 0] S1x1x400000
  slices_S9x2x400000_S1x1x400000_5_1_0 : S9x2x400000.Slices ![5, 1, 0] S1x1x400000
  slices_S9x2x400000_S1x1x400000_6_0_0 : S9x2x400000.Slices ![6, 0, 0] S1x1x400000
  slices_S9x2x400000_S1x1x400000_6_1_0 : S9x2x400000.Slices ![6, 1, 0] S1x1x400000
  slices_S9x2x400000_S1x1x400000_7_0_0 : S9x2x400000.Slices ![7, 0, 0] S1x1x400000
  slices_S9x2x400000_S1x1x400000_7_1_0 : S9x2x400000.Slices ![7, 1, 0] S1x1x400000
  slices_S9x2x400000_S1x1x400000_8_0_0 : S9x2x400000.Slices ![8, 0, 0] S1x1x400000
  slices_S9x2x400000_S1x1x400000_8_1_0 : S9x2x400000.Slices ![8, 1, 0] S1x1x400000
  bcast_S50000_S1x50000_1 : S50000.BroadcastsInDim S1x50000 (![1] : Fin 1 → Fin S1x50000.rank)
  concatenates_S1x50000_S1x50000_S1x50000_S1x50000_S1x50000_S1x50000_S1x50000_S1x50000_S1x50000_S9x50000_d0 : Shape.Concatenates [S1x50000, S1x50000, S1x50000, S1x50000, S1x50000, S1x50000, S1x50000, S1x50000, S1x50000] S9x50000 0
  slices_S9x50000_S1x50000_0_0 : S9x50000.Slices ![0, 0] S1x50000
  shapeCasts_S1x50000_S50000 : S1x50000.ShapeCasts S50000
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S9x50000_S1x50000_1_0 : S9x50000.Slices ![1, 0] S1x50000
  slices_S9x50000_S1x50000_2_0 : S9x50000.Slices ![2, 0] S1x50000
  slices_S9x50000_S1x50000_3_0 : S9x50000.Slices ![3, 0] S1x50000
  slices_S9x50000_S1x50000_4_0 : S9x50000.Slices ![4, 0] S1x50000
  slices_S9x50000_S1x50000_5_0 : S9x50000.Slices ![5, 0] S1x50000
  slices_S9x50000_S1x50000_6_0 : S9x50000.Slices ![6, 0] S1x50000
  slices_S9x50000_S1x50000_7_0 : S9x50000.Slices ![7, 0] S1x50000
  slices_S9x50000_S1x50000_8_0 : S9x50000.Slices ![8, 0] S1x50000
  bcast_S50000x128_S1x50000x128_1_2 : S50000x128.BroadcastsInDim S1x50000x128 (![1, 2] : Fin 2 → Fin S1x50000x128.rank)
  concatenates_S1x50000x128_S1x50000x128_S1x50000x128_S1x50000x128_S1x50000x128_S1x50000x128_S1x50000x128_S1x50000x128_S1x50000x128_S9x50000x128_d0 : Shape.Concatenates [S1x50000x128, S1x50000x128, S1x50000x128, S1x50000x128, S1x50000x128, S1x50000x128, S1x50000x128, S1x50000x128, S1x50000x128] S9x50000x128 0
  bcast_S9x50000_S9x50000x1_0_1 : S9x50000.BroadcastsInDim S9x50000x1 (![0, 1] : Fin 2 → Fin S9x50000x1.rank)
  bcast_S9x128_S9x1x128_0_2 : S9x128.BroadcastsInDim S9x1x128 (![0, 2] : Fin 2 → Fin S9x1x128.rank)
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  broadcasts_S5000x1_S5000x128 : S5000x1.Broadcasts S5000x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S5000x128 : S1x128.Broadcasts S5000x128
  shapeCasts_S5000x128_S1x5000x128 : S5000x128.ShapeCasts S1x5000x128
  slices_S9x50000x128_S1x50000x128_0_0_0 : S9x50000x128.Slices ![0, 0, 0] S1x50000x128
  shapeCasts_S1x50000x128_S50000x128 : S1x50000x128.ShapeCasts S50000x128
  slices_S9x50000x128_S1x50000x128_1_0_0 : S9x50000x128.Slices ![1, 0, 0] S1x50000x128
  slices_S9x50000x128_S1x50000x128_2_0_0 : S9x50000x128.Slices ![2, 0, 0] S1x50000x128
  slices_S9x50000x128_S1x50000x128_3_0_0 : S9x50000x128.Slices ![3, 0, 0] S1x50000x128
  slices_S9x50000x128_S1x50000x128_4_0_0 : S9x50000x128.Slices ![4, 0, 0] S1x50000x128
  slices_S9x50000x128_S1x50000x128_5_0_0 : S9x50000x128.Slices ![5, 0, 0] S1x50000x128
  slices_S9x50000x128_S1x50000x128_6_0_0 : S9x50000x128.Slices ![6, 0, 0] S1x50000x128
  slices_S9x50000x128_S1x50000x128_7_0_0 : S9x50000x128.Slices ![7, 0, 0] S1x50000x128
  slices_S9x50000x128_S1x50000x128_8_0_0 : S9x50000x128.Slices ![8, 0, 0] S1x50000x128
  concatenates_S1x50000x128_S1x50000x128_S1x50000x128_S3x50000x128_d0 : Shape.Concatenates [S1x50000x128, S1x50000x128, S1x50000x128] S3x50000x128 0
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S1x5000x16_S1x5000x16_0_0_0 : ∀ a, (![0, 0, 0] : Fin 3 → Nat) a + S1x5000x16.size a ≤ S1x5000x16.size a
  h_S1x5000x16 : 0 < S1x5000x16.numel
  shapeCasts_S1x5000x16_S5000x16 : S1x5000x16.ShapeCasts S5000x16
  shapeCasts_S5000x16_S1x5000x16 : S5000x16.ShapeCasts S1x5000x16
  scatter_S50000_S400000x1_S400000_n_0_0_1_wf : ScatterDims.WF S50000 S400000x1 S400000 [] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S9x50000x128.size a
  hwx0_0 : ∀ i : grid0.Coords, EltTy.bits .f32 = 32 ∨ (Rect.block (s := S9x50000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x1.size a ≤ S9x50000x1.size a
  hwx0_1 : ∀ i : grid0.Coords, EltTy.bits .f32 = 32 ∨ (Rect.block (s := S9x50000x1) S1x5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S9x128x128.size a
  hwx0_2 : ∀ i : grid0.Coords, EltTy.bits .f32 = 32 ∨ (Rect.block (s := S9x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S9x1x128.size a
  hwx0_3 : ∀ i : grid0.Coords, EltTy.bits .f32 = 32 ∨ (Rect.block (s := S9x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5000x128.size a ≤ S9x50000x128.size a
  hwx0_4 : ∀ i : grid0.Coords, EltTy.bits .f32 = 32 ∨ (Rect.block (s := S9x50000x128) S1x5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5000x128.size a ≤ S9x50000x128.size a
  hwx1_0 : ∀ i : grid1.Coords, EltTy.bits .f32 = 32 ∨ (Rect.block (s := S9x50000x128) S1x5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x5000x1.size a ≤ S9x50000x1.size a
  hwx1_1 : ∀ i : grid1.Coords, EltTy.bits .f32 = 32 ∨ (Rect.block (s := S9x50000x1) S1x5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S9x128x128.size a
  hwx1_2 : ∀ i : grid1.Coords, EltTy.bits .f32 = 32 ∨ (Rect.block (s := S9x128x128) S1x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S9x1x128.size a
  hwx1_3 : ∀ i : grid1.Coords, EltTy.bits .f32 = 32 ∨ (Rect.block (s := S9x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x5000x128.size a ≤ S9x50000x128.size a
  hwx1_4 : ∀ i : grid1.Coords, EltTy.bits .f32 = 32 ∨ (Rect.block (s := S9x50000x128) S1x5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x5000x128.size a ≤ S3x50000x128.size a
  hwx2_0 : ∀ i : grid2.Coords, EltTy.bits .f32 = 32 ∨ (Rect.block (s := S3x50000x128) S1x5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x5000x16.size a ≤ S3x50000x16.size a
  hwx2_3 : ∀ i : grid2.Coords, EltTy.bits .f32 = 32 ∨ (Rect.block (s := S3x50000x16) S1x5000x16.size (cc2_transform_3 i) (hinb2_3 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v435) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v436) S1x5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v437) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v438) S1x5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v652) S1x5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v653) S1x5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v654) S1x1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v655) S1x5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v689) S1x5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v690) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v691) S1x5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S9x128x128 : Shape := ⟨3, ![9, 128, 128]⟩
abbrev S9x128 : Shape := ⟨2, ![9, 128]⟩
abbrev S128x16 : Shape := ⟨2, ![128, 16]⟩
abbrev S16 : Shape := ⟨1, ![16]⟩
abbrev S9x2x400000 : Shape := ⟨3, ![9, 2, 400000]⟩
abbrev S_ : Shape := ⟨0, ![]⟩
abbrev S1x1x400000 : Shape := ⟨3, ![1, 1, 400000]⟩
abbrev S400000 : Shape := ⟨1, ![400000]⟩
abbrev S50000 : Shape := ⟨1, ![50000]⟩
abbrev S400000x1 : Shape := ⟨2, ![400000, 1]⟩
abbrev S50000x1 : Shape := ⟨2, ![50000, 1]⟩
abbrev S1x128x128 : Shape := ⟨3, ![1, 128, 128]⟩
abbrev S128x128 : Shape := ⟨2, ![128, 128]⟩
abbrev S400000x128 : Shape := ⟨2, ![400000, 128]⟩
abbrev S1x128 : Shape := ⟨2, ![1, 128]⟩
abbrev S128 : Shape := ⟨1, ![128]⟩
abbrev S50000x16 : Shape := ⟨2, ![50000, 16]⟩
abbrev S1x16 : Shape := ⟨2, ![1, 16]⟩
abbrev S1x50000x16 : Shape := ⟨3, ![1, 50000, 16]⟩
abbrev S3x50000x16 : Shape := ⟨3, ![3, 50000, 16]⟩

abbrev nBuf : Space → Nat
  | .hbm => 1424
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S9x128x128, .f32⟩
  | 4 => ⟨S9x128, .f32⟩
  | 5 => ⟨S9x128x128, .f32⟩
  | 6 => ⟨S9x128, .f32⟩
  | 7 => ⟨S128x16, .f32⟩
  | 8 => ⟨S16, .f32⟩
  | 9 => ⟨S9x2x400000, .i32⟩
  | 10 => ⟨S_, .f32⟩
  | 11 => ⟨S50000x128, .f32⟩
  | 12 => ⟨S_, .f32⟩
  | 13 => ⟨S50000x128, .f32⟩
  | 14 => ⟨S_, .f32⟩
  | 15 => ⟨S50000x128, .f32⟩
  | 16 => ⟨S1x1x400000, .i32⟩
  | 17 => ⟨S400000, .i32⟩
  | 18 => ⟨S1x1x400000, .i32⟩
  | 19 => ⟨S400000, .i32⟩
  | 20 => ⟨S_, .f32⟩
  | 21 => ⟨S400000, .f32⟩
  | 22 => ⟨S_, .f32⟩
  | 23 => ⟨S50000, .f32⟩
  | 24 => ⟨S400000x1, .i32⟩
  | 25 => ⟨S50000, .f32⟩
  | 26 => ⟨S_, .f32⟩
  | 27 => ⟨S50000, .f32⟩
  | 28 => ⟨S400000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .i1⟩
  | 43 => ⟨S_, .f32⟩
  | 44 => ⟨S_, .f32⟩
  | 45 => ⟨S50000, .f32⟩
  | 46 => ⟨S50000, .f32⟩
  | 47 => ⟨S_, .f32⟩
  | 48 => ⟨S50000, .f32⟩
  | 49 => ⟨S50000, .i1⟩
  | 50 => ⟨S_, .f32⟩
  | 51 => ⟨S_, .f32⟩
  | 52 => ⟨S50000, .f32⟩
  | 53 => ⟨S50000, .f32⟩
  | 54 => ⟨S_, .f32⟩
  | 55 => ⟨S50000, .f32⟩
  | 56 => ⟨S50000, .f32⟩
  | 57 => ⟨S_, .f32⟩
  | 58 => ⟨S50000, .f32⟩
  | 59 => ⟨S50000, .i1⟩
  | 60 => ⟨S_, .f32⟩
  | 61 => ⟨S_, .f32⟩
  | 62 => ⟨S50000, .f32⟩
  | 63 => ⟨S50000, .f32⟩
  | 64 => ⟨S50000x1, .f32⟩
  | 65 => ⟨S50000x128, .f32⟩
  | 66 => ⟨S50000x128, .f32⟩
  | 67 => ⟨S1x128x128, .f32⟩
  | 68 => ⟨S128x128, .f32⟩
  | 69 => ⟨S50000x128, .f32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000x128, .f32⟩
  | 79 => ⟨S_, .f32⟩
  | 80 => ⟨S50000x128, .f32⟩
  | 81 => ⟨S400000x1, .i32⟩
  | 82 => ⟨S50000x128, .f32⟩
  | 83 => ⟨S50000x1, .f32⟩
  | 84 => ⟨S50000x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S1x1x400000, .i32⟩
  | 93 => ⟨S400000, .i32⟩
  | 94 => ⟨S1x1x400000, .i32⟩
  | 95 => ⟨S400000, .i32⟩
  | 96 => ⟨S_, .f32⟩
  | 97 => ⟨S400000, .f32⟩
  | 98 => ⟨S_, .f32⟩
  | 99 => ⟨S50000, .f32⟩
  | 100 => ⟨S400000x1, .i32⟩
  | 101 => ⟨S50000, .f32⟩
  | 102 => ⟨S_, .f32⟩
  | 103 => ⟨S50000, .f32⟩
  | 104 => ⟨S400000x1, .i32⟩
  | 105 => ⟨S50000, .f32⟩
  | 106 => ⟨S_, .f32⟩
  | 107 => ⟨S50000, .f32⟩
  | 108 => ⟨S50000, .i1⟩
  | 109 => ⟨S_, .f32⟩
  | 110 => ⟨S_, .f32⟩
  | 111 => ⟨S50000, .f32⟩
  | 112 => ⟨S50000, .f32⟩
  | 113 => ⟨S_, .f32⟩
  | 114 => ⟨S50000, .f32⟩
  | 115 => ⟨S50000, .f32⟩
  | 116 => ⟨S_, .f32⟩
  | 117 => ⟨S50000, .f32⟩
  | 118 => ⟨S50000, .i1⟩
  | 119 => ⟨S_, .f32⟩
  | 120 => ⟨S_, .f32⟩
  | 121 => ⟨S50000, .f32⟩
  | 122 => ⟨S50000, .f32⟩
  | 123 => ⟨S_, .f32⟩
  | 124 => ⟨S50000, .f32⟩
  | 125 => ⟨S50000, .i1⟩
  | 126 => ⟨S_, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S_, .f32⟩
  | 3 => ⟨S50000, .f32⟩
  | 4 => ⟨S50000, .f32⟩
  | 5 => ⟨S_, .f32⟩
  | 6 => ⟨S50000, .f32⟩
  | 7 => ⟨S50000, .i1⟩
  | 8 => ⟨S_, .f32⟩
  | 9 => ⟨S_, .f32⟩
  | 10 => ⟨S50000, .f32⟩
  | 11 => ⟨S50000, .f32⟩
  | 12 => ⟨S50000x1, .f32⟩
  | 13 => ⟨S50000x128, .f32⟩
  | 14 => ⟨S50000x128, .f32⟩
  | 15 => ⟨S1x128x128, .f32⟩
  | 16 => ⟨S128x128, .f32⟩
  | 17 => ⟨S50000x128, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .f32⟩
  | 27 => ⟨S_, .f32⟩
  | 28 => ⟨S50000x128, .f32⟩
  | 29 => ⟨S400000x1, .i32⟩
  | 30 => ⟨S50000x128, .f32⟩
  | 31 => ⟨S50000x1, .f32⟩
  | 32 => ⟨S50000x128, .f32⟩
  | 33 => ⟨S50000x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x1x400000, .i32⟩
  | 41 => ⟨S400000, .i32⟩
  | 42 => ⟨S1x1x400000, .i32⟩
  | 43 => ⟨S400000, .i32⟩
  | 44 => ⟨S_, .f32⟩
  | 45 => ⟨S400000, .f32⟩
  | 46 => ⟨S_, .f32⟩
  | 47 => ⟨S50000, .f32⟩
  | 48 => ⟨S400000x1, .i32⟩
  | 49 => ⟨S50000, .f32⟩
  | 50 => ⟨S_, .f32⟩
  | 51 => ⟨S50000, .f32⟩
  | 52 => ⟨S400000x1, .i32⟩
  | 53 => ⟨S50000, .f32⟩
  | 54 => ⟨S_, .f32⟩
  | 55 => ⟨S50000, .f32⟩
  | 56 => ⟨S50000, .i1⟩
  | 57 => ⟨S_, .f32⟩
  | 58 => ⟨S_, .f32⟩
  | 59 => ⟨S50000, .f32⟩
  | 60 => ⟨S50000, .f32⟩
  | 61 => ⟨S_, .f32⟩
  | 62 => ⟨S50000, .f32⟩
  | 63 => ⟨S50000, .f32⟩
  | 64 => ⟨S_, .f32⟩
  | 65 => ⟨S50000, .f32⟩
  | 66 => ⟨S50000, .i1⟩
  | 67 => ⟨S_, .f32⟩
  | 68 => ⟨S_, .f32⟩
  | 69 => ⟨S50000, .f32⟩
  | 70 => ⟨S50000, .f32⟩
  | 71 => ⟨S_, .f32⟩
  | 72 => ⟨S50000, .f32⟩
  | 73 => ⟨S50000, .i1⟩
  | 74 => ⟨S_, .f32⟩
  | 75 => ⟨S_, .f32⟩
  | 76 => ⟨S50000, .f32⟩
  | 77 => ⟨S50000, .f32⟩
  | 78 => ⟨S_, .f32⟩
  | 79 => ⟨S50000, .f32⟩
  | 80 => ⟨S50000, .f32⟩
  | 81 => ⟨S_, .f32⟩
  | 82 => ⟨S50000, .f32⟩
  | 83 => ⟨S50000, .i1⟩
  | 84 => ⟨S_, .f32⟩
  | 85 => ⟨S_, .f32⟩
  | 86 => ⟨S50000, .f32⟩
  | 87 => ⟨S50000, .f32⟩
  | 88 => ⟨S50000x1, .f32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S_, .i32⟩
  | 95 => ⟨S400000, .i32⟩
  | 96 => ⟨S400000, .i1⟩
  | 97 => ⟨S_, .i32⟩
  | 98 => ⟨S400000, .i32⟩
  | 99 => ⟨S400000, .i32⟩
  | 100 => ⟨S400000, .i32⟩
  | 101 => ⟨S400000x1, .i32⟩
  | 102 => ⟨S400000x128, .f32⟩
  | 103 => ⟨S_, .f32⟩
  | 104 => ⟨S50000x128, .f32⟩
  | 105 => ⟨S400000x1, .i32⟩
  | 106 => ⟨S50000x128, .f32⟩
  | 107 => ⟨S50000x1, .f32⟩
  | 108 => ⟨S50000x128, .f32⟩
  | 109 => ⟨S50000x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S1x1x400000, .i32⟩
  | 117 => ⟨S400000, .i32⟩
  | 118 => ⟨S1x1x400000, .i32⟩
  | 119 => ⟨S400000, .i32⟩
  | 120 => ⟨S_, .f32⟩
  | 121 => ⟨S400000, .f32⟩
  | 122 => ⟨S_, .f32⟩
  | 123 => ⟨S50000, .f32⟩
  | 124 => ⟨S400000x1, .i32⟩
  | 125 => ⟨S50000, .f32⟩
  | 126 => ⟨S_, .f32⟩
  | 127 => ⟨S50000, .f32⟩
  | _ => ⟨S50000x128, .f32⟩

abbrev hbmTy0_2 (i : Nat) : BufTy := match i % 128 with
  | 0 => ⟨S400000x1, .i32⟩
  | 1 => ⟨S50000, .f32⟩
  | 2 => ⟨S_, .f32⟩
  | 3 => ⟨S50000, .f32⟩
  | 4 => ⟨S50000, .i1⟩
  | 5 => ⟨S_, .f32⟩
  | 6 => ⟨S_, .f32⟩
  | 7 => ⟨S50000, .f32⟩
  | 8 => ⟨S50000, .f32⟩
  | 9 => ⟨S_, .f32⟩
  | 10 => ⟨S50000, .f32⟩
  | 11 => ⟨S50000, .f32⟩
  | 12 => ⟨S_, .f32⟩
  | 13 => ⟨S50000, .f32⟩
  | 14 => ⟨S50000, .i1⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .i1⟩
  | 22 => ⟨S_, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x128, .f32⟩
  | 51 => ⟨S_, .f32⟩
  | 52 => ⟨S50000x128, .f32⟩
  | 53 => ⟨S400000x1, .i32⟩
  | 54 => ⟨S50000x128, .f32⟩
  | 55 => ⟨S50000x1, .f32⟩
  | 56 => ⟨S50000x128, .f32⟩
  | 57 => ⟨S50000x128, .f32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S1x1x400000, .i32⟩
  | 65 => ⟨S400000, .i32⟩
  | 66 => ⟨S1x1x400000, .i32⟩
  | 67 => ⟨S400000, .i32⟩
  | 68 => ⟨S_, .f32⟩
  | 69 => ⟨S400000, .f32⟩
  | 70 => ⟨S_, .f32⟩
  | 71 => ⟨S50000, .f32⟩
  | 72 => ⟨S400000x1, .i32⟩
  | 73 => ⟨S50000, .f32⟩
  | 74 => ⟨S_, .f32⟩
  | 75 => ⟨S50000, .f32⟩
  | 76 => ⟨S400000x1, .i32⟩
  | 77 => ⟨S50000, .f32⟩
  | 78 => ⟨S_, .f32⟩
  | 79 => ⟨S50000, .f32⟩
  | 80 => ⟨S50000, .i1⟩
  | 81 => ⟨S_, .f32⟩
  | 82 => ⟨S_, .f32⟩
  | 83 => ⟨S50000, .f32⟩
  | 84 => ⟨S50000, .f32⟩
  | 85 => ⟨S_, .f32⟩
  | 86 => ⟨S50000, .f32⟩
  | 87 => ⟨S50000, .f32⟩
  | 88 => ⟨S_, .f32⟩
  | 89 => ⟨S50000, .f32⟩
  | 90 => ⟨S50000, .i1⟩
  | 91 => ⟨S_, .f32⟩
  | 92 => ⟨S_, .f32⟩
  | 93 => ⟨S50000, .f32⟩
  | 94 => ⟨S50000, .f32⟩
  | 95 => ⟨S_, .f32⟩
  | 96 => ⟨S50000, .f32⟩
  | 97 => ⟨S50000, .i1⟩
  | 98 => ⟨S_, .f32⟩
  | 99 => ⟨S_, .f32⟩
  | 100 => ⟨S50000, .f32⟩
  | 101 => ⟨S50000, .f32⟩
  | 102 => ⟨S_, .f32⟩
  | 103 => ⟨S50000, .f32⟩
  | 104 => ⟨S50000, .f32⟩
  | 105 => ⟨S_, .f32⟩
  | 106 => ⟨S50000, .f32⟩
  | 107 => ⟨S50000, .i1⟩
  | 108 => ⟨S_, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S1x128x128, .f32⟩
  | 116 => ⟨S128x128, .f32⟩
  | 117 => ⟨S50000x128, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x128, .f32⟩
  | 127 => ⟨S_, .f32⟩
  | _ => ⟨S50000x128, .f32⟩

abbrev hbmTy0_3 (i : Nat) : BufTy := match i % 128 with
  | 0 => ⟨S50000x128, .f32⟩
  | 1 => ⟨S400000x1, .i32⟩
  | 2 => ⟨S50000x128, .f32⟩
  | 3 => ⟨S50000x1, .f32⟩
  | 4 => ⟨S50000x128, .f32⟩
  | 5 => ⟨S50000x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S1x1x400000, .i32⟩
  | 13 => ⟨S400000, .i32⟩
  | 14 => ⟨S1x1x400000, .i32⟩
  | 15 => ⟨S400000, .i32⟩
  | 16 => ⟨S_, .f32⟩
  | 17 => ⟨S400000, .f32⟩
  | 18 => ⟨S_, .f32⟩
  | 19 => ⟨S50000, .f32⟩
  | 20 => ⟨S400000x1, .i32⟩
  | 21 => ⟨S50000, .f32⟩
  | 22 => ⟨S_, .f32⟩
  | 23 => ⟨S50000, .f32⟩
  | 24 => ⟨S400000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .i1⟩
  | 39 => ⟨S_, .f32⟩
  | 40 => ⟨S_, .f32⟩
  | 41 => ⟨S50000, .f32⟩
  | 42 => ⟨S50000, .f32⟩
  | 43 => ⟨S_, .f32⟩
  | 44 => ⟨S50000, .f32⟩
  | 45 => ⟨S50000, .i1⟩
  | 46 => ⟨S_, .f32⟩
  | 47 => ⟨S_, .f32⟩
  | 48 => ⟨S50000, .f32⟩
  | 49 => ⟨S50000, .f32⟩
  | 50 => ⟨S_, .f32⟩
  | 51 => ⟨S50000, .f32⟩
  | 52 => ⟨S50000, .f32⟩
  | 53 => ⟨S_, .f32⟩
  | 54 => ⟨S50000, .f32⟩
  | 55 => ⟨S50000, .i1⟩
  | 56 => ⟨S_, .f32⟩
  | 57 => ⟨S_, .f32⟩
  | 58 => ⟨S50000, .f32⟩
  | 59 => ⟨S50000, .f32⟩
  | 60 => ⟨S50000x1, .f32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x128, .f32⟩
  | 75 => ⟨S_, .f32⟩
  | 76 => ⟨S50000x128, .f32⟩
  | 77 => ⟨S400000x1, .i32⟩
  | 78 => ⟨S50000x128, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S1x1x400000, .i32⟩
  | 89 => ⟨S400000, .i32⟩
  | 90 => ⟨S1x1x400000, .i32⟩
  | 91 => ⟨S400000, .i32⟩
  | 92 => ⟨S_, .f32⟩
  | 93 => ⟨S400000, .f32⟩
  | 94 => ⟨S_, .f32⟩
  | 95 => ⟨S50000, .f32⟩
  | 96 => ⟨S400000x1, .i32⟩
  | 97 => ⟨S50000, .f32⟩
  | 98 => ⟨S_, .f32⟩
  | 99 => ⟨S50000, .f32⟩
  | 100 => ⟨S400000x1, .i32⟩
  | 101 => ⟨S50000, .f32⟩
  | 102 => ⟨S_, .f32⟩
  | 103 => ⟨S50000, .f32⟩
  | 104 => ⟨S50000, .i1⟩
  | 105 => ⟨S_, .f32⟩
  | 106 => ⟨S_, .f32⟩
  | 107 => ⟨S50000, .f32⟩
  | 108 => ⟨S50000, .f32⟩
  | 109 => ⟨S_, .f32⟩
  | 110 => ⟨S50000, .f32⟩
  | 111 => ⟨S50000, .f32⟩
  | 112 => ⟨S_, .f32⟩
  | 113 => ⟨S50000, .f32⟩
  | 114 => ⟨S50000, .i1⟩
  | 115 => ⟨S_, .f32⟩
  | 116 => ⟨S_, .f32⟩
  | 117 => ⟨S50000, .f32⟩
  | 118 => ⟨S50000, .f32⟩
  | 119 => ⟨S_, .f32⟩
  | 120 => ⟨S50000, .f32⟩
  | 121 => ⟨S50000, .i1⟩
  | 122 => ⟨S_, .f32⟩
  | 123 => ⟨S_, .f32⟩
  | 124 => ⟨S50000, .f32⟩
  | 125 => ⟨S50000, .f32⟩
  | 126 => ⟨S_, .f32⟩
  | 127 => ⟨S50000, .f32⟩
  | _ => ⟨S50000x128, .f32⟩

abbrev hbmTy0_4 (i : Nat) : BufTy := match i % 128 with
  | 0 => ⟨S50000, .f32⟩
  | 1 => ⟨S_, .f32⟩
  | 2 => ⟨S50000, .f32⟩
  | 3 => ⟨S50000, .i1⟩
  | 4 => ⟨S_, .f32⟩
  | 5 => ⟨S_, .f32⟩
  | 6 => ⟨S50000, .f32⟩
  | 7 => ⟨S50000, .f32⟩
  | 8 => ⟨S50000x1, .f32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x128, .f32⟩
  | 23 => ⟨S_, .f32⟩
  | 24 => ⟨S50000x128, .f32⟩
  | 25 => ⟨S400000x1, .i32⟩
  | 26 => ⟨S50000x128, .f32⟩
  | 27 => ⟨S50000x1, .f32⟩
  | 28 => ⟨S50000x128, .f32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S1x1x400000, .i32⟩
  | 37 => ⟨S400000, .i32⟩
  | 38 => ⟨S1x1x400000, .i32⟩
  | 39 => ⟨S400000, .i32⟩
  | 40 => ⟨S_, .f32⟩
  | 41 => ⟨S400000, .f32⟩
  | 42 => ⟨S_, .f32⟩
  | 43 => ⟨S50000, .f32⟩
  | 44 => ⟨S400000x1, .i32⟩
  | 45 => ⟨S50000, .f32⟩
  | 46 => ⟨S_, .f32⟩
  | 47 => ⟨S50000, .f32⟩
  | 48 => ⟨S400000x1, .i32⟩
  | 49 => ⟨S50000, .f32⟩
  | 50 => ⟨S_, .f32⟩
  | 51 => ⟨S50000, .f32⟩
  | 52 => ⟨S50000, .i1⟩
  | 53 => ⟨S_, .f32⟩
  | 54 => ⟨S_, .f32⟩
  | 55 => ⟨S50000, .f32⟩
  | 56 => ⟨S50000, .f32⟩
  | 57 => ⟨S_, .f32⟩
  | 58 => ⟨S50000, .f32⟩
  | 59 => ⟨S50000, .f32⟩
  | 60 => ⟨S_, .f32⟩
  | 61 => ⟨S50000, .f32⟩
  | 62 => ⟨S50000, .i1⟩
  | 63 => ⟨S_, .f32⟩
  | 64 => ⟨S_, .f32⟩
  | 65 => ⟨S50000, .f32⟩
  | 66 => ⟨S50000, .f32⟩
  | 67 => ⟨S_, .f32⟩
  | 68 => ⟨S50000, .f32⟩
  | 69 => ⟨S50000, .i1⟩
  | 70 => ⟨S_, .f32⟩
  | 71 => ⟨S_, .f32⟩
  | 72 => ⟨S50000, .f32⟩
  | 73 => ⟨S50000, .f32⟩
  | 74 => ⟨S_, .f32⟩
  | 75 => ⟨S50000, .f32⟩
  | 76 => ⟨S50000, .f32⟩
  | 77 => ⟨S_, .f32⟩
  | 78 => ⟨S50000, .f32⟩
  | 79 => ⟨S50000, .i1⟩
  | 80 => ⟨S_, .f32⟩
  | 81 => ⟨S_, .f32⟩
  | 82 => ⟨S50000, .f32⟩
  | 83 => ⟨S50000, .f32⟩
  | 84 => ⟨S50000x1, .f32⟩
  | 85 => ⟨S50000x128, .f32⟩
  | 86 => ⟨S50000x128, .f32⟩
  | 87 => ⟨S1x128x128, .f32⟩
  | 88 => ⟨S128x128, .f32⟩
  | 89 => ⟨S50000x128, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x128, .f32⟩
  | 99 => ⟨S_, .f32⟩
  | 100 => ⟨S50000x128, .f32⟩
  | 101 => ⟨S400000x1, .i32⟩
  | 102 => ⟨S50000x128, .f32⟩
  | 103 => ⟨S50000x1, .f32⟩
  | 104 => ⟨S50000x128, .f32⟩
  | 105 => ⟨S50000x128, .f32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S1x1x400000, .i32⟩
  | 113 => ⟨S400000, .i32⟩
  | 114 => ⟨S1x1x400000, .i32⟩
  | 115 => ⟨S400000, .i32⟩
  | 116 => ⟨S_, .f32⟩
  | 117 => ⟨S400000, .f32⟩
  | 118 => ⟨S_, .f32⟩
  | 119 => ⟨S50000, .f32⟩
  | 120 => ⟨S400000x1, .i32⟩
  | 121 => ⟨S50000, .f32⟩
  | 122 => ⟨S_, .f32⟩
  | 123 => ⟨S50000, .f32⟩
  | 124 => ⟨S400000x1, .i32⟩
  | 125 => ⟨S50000, .f32⟩
  | 126 => ⟨S_, .f32⟩
  | 127 => ⟨S50000, .f32⟩
  | _ => ⟨S50000x128, .f32⟩

abbrev hbmTy0_5 (i : Nat) : BufTy := match i % 128 with
  | 0 => ⟨S50000, .i1⟩
  | 1 => ⟨S_, .f32⟩
  | 2 => ⟨S_, .f32⟩
  | 3 => ⟨S50000, .f32⟩
  | 4 => ⟨S50000, .f32⟩
  | 5 => ⟨S_, .f32⟩
  | 6 => ⟨S50000, .f32⟩
  | 7 => ⟨S50000, .f32⟩
  | 8 => ⟨S_, .f32⟩
  | 9 => ⟨S50000, .f32⟩
  | 10 => ⟨S50000, .i1⟩
  | 11 => ⟨S_, .f32⟩
  | 12 => ⟨S_, .f32⟩
  | 13 => ⟨S50000, .f32⟩
  | 14 => ⟨S50000, .f32⟩
  | 15 => ⟨S_, .f32⟩
  | 16 => ⟨S50000, .f32⟩
  | 17 => ⟨S50000, .i1⟩
  | 18 => ⟨S_, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .i1⟩
  | 28 => ⟨S_, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x128, .f32⟩
  | 47 => ⟨S_, .f32⟩
  | 48 => ⟨S50000x128, .f32⟩
  | 49 => ⟨S400000x1, .i32⟩
  | 50 => ⟨S50000x128, .f32⟩
  | 51 => ⟨S50000x1, .f32⟩
  | 52 => ⟨S50000x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .f32⟩
  | 70 => ⟨S50000x128, .f32⟩
  | 71 => ⟨S_, .f32⟩
  | 72 => ⟨S50000x128, .f32⟩
  | 73 => ⟨S_, .f32⟩
  | 74 => ⟨S50000x128, .f32⟩
  | 75 => ⟨S1x1x400000, .i32⟩
  | 76 => ⟨S400000, .i32⟩
  | 77 => ⟨S1x1x400000, .i32⟩
  | 78 => ⟨S400000, .i32⟩
  | 79 => ⟨S_, .f32⟩
  | 80 => ⟨S400000, .f32⟩
  | 81 => ⟨S_, .f32⟩
  | 82 => ⟨S50000, .f32⟩
  | 83 => ⟨S400000x1, .i32⟩
  | 84 => ⟨S50000, .f32⟩
  | 85 => ⟨S_, .f32⟩
  | 86 => ⟨S50000, .f32⟩
  | 87 => ⟨S400000x1, .i32⟩
  | 88 => ⟨S50000, .f32⟩
  | 89 => ⟨S_, .f32⟩
  | 90 => ⟨S50000, .f32⟩
  | 91 => ⟨S50000, .i1⟩
  | 92 => ⟨S_, .f32⟩
  | 93 => ⟨S_, .f32⟩
  | 94 => ⟨S50000, .f32⟩
  | 95 => ⟨S50000, .f32⟩
  | 96 => ⟨S_, .f32⟩
  | 97 => ⟨S50000, .f32⟩
  | 98 => ⟨S50000, .f32⟩
  | 99 => ⟨S_, .f32⟩
  | 100 => ⟨S50000, .f32⟩
  | 101 => ⟨S50000, .i1⟩
  | 102 => ⟨S_, .f32⟩
  | 103 => ⟨S_, .f32⟩
  | 104 => ⟨S50000, .f32⟩
  | 105 => ⟨S50000, .f32⟩
  | 106 => ⟨S_, .f32⟩
  | 107 => ⟨S50000, .f32⟩
  | 108 => ⟨S50000, .i1⟩
  | 109 => ⟨S_, .f32⟩
  | 110 => ⟨S_, .f32⟩
  | 111 => ⟨S50000, .f32⟩
  | 112 => ⟨S50000, .f32⟩
  | 113 => ⟨S_, .f32⟩
  | 114 => ⟨S50000, .f32⟩
  | 115 => ⟨S50000, .f32⟩
  | 116 => ⟨S_, .f32⟩
  | 117 => ⟨S50000, .f32⟩
  | 118 => ⟨S50000, .i1⟩
  | 119 => ⟨S_, .f32⟩
  | 120 => ⟨S_, .f32⟩
  | 121 => ⟨S50000, .f32⟩
  | 122 => ⟨S50000, .f32⟩
  | 123 => ⟨S50000x1, .f32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_6 (i : Nat) : BufTy := match i % 128 with
  | 0 => ⟨S50000x128, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x128, .f32⟩
  | 10 => ⟨S_, .f32⟩
  | 11 => ⟨S50000x128, .f32⟩
  | 12 => ⟨S400000x1, .i32⟩
  | 13 => ⟨S50000x128, .f32⟩
  | 14 => ⟨S50000x1, .f32⟩
  | 15 => ⟨S50000x128, .f32⟩
  | 16 => ⟨S50000x128, .f32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S50000x128, .f32⟩
  | 23 => ⟨S1x1x400000, .i32⟩
  | 24 => ⟨S400000, .i32⟩
  | 25 => ⟨S1x1x400000, .i32⟩
  | 26 => ⟨S400000, .i32⟩
  | 27 => ⟨S_, .f32⟩
  | 28 => ⟨S400000, .f32⟩
  | 29 => ⟨S_, .f32⟩
  | 30 => ⟨S50000, .f32⟩
  | 31 => ⟨S400000x1, .i32⟩
  | 32 => ⟨S50000, .f32⟩
  | 33 => ⟨S_, .f32⟩
  | 34 => ⟨S50000, .f32⟩
  | 35 => ⟨S400000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S_, .f32⟩
  | 42 => ⟨S50000, .f32⟩
  | 43 => ⟨S50000, .f32⟩
  | 44 => ⟨S_, .f32⟩
  | 45 => ⟨S50000, .f32⟩
  | 46 => ⟨S50000, .f32⟩
  | 47 => ⟨S_, .f32⟩
  | 48 => ⟨S50000, .f32⟩
  | 49 => ⟨S50000, .i1⟩
  | 50 => ⟨S_, .f32⟩
  | 51 => ⟨S_, .f32⟩
  | 52 => ⟨S50000, .f32⟩
  | 53 => ⟨S50000, .f32⟩
  | 54 => ⟨S_, .f32⟩
  | 55 => ⟨S50000, .f32⟩
  | 56 => ⟨S50000, .i1⟩
  | 57 => ⟨S_, .f32⟩
  | 58 => ⟨S_, .f32⟩
  | 59 => ⟨S50000, .f32⟩
  | 60 => ⟨S50000, .f32⟩
  | 61 => ⟨S_, .f32⟩
  | 62 => ⟨S50000, .f32⟩
  | 63 => ⟨S50000, .f32⟩
  | 64 => ⟨S_, .f32⟩
  | 65 => ⟨S50000, .f32⟩
  | 66 => ⟨S50000, .i1⟩
  | 67 => ⟨S_, .f32⟩
  | 68 => ⟨S_, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x128, .f32⟩
  | 86 => ⟨S_, .f32⟩
  | 87 => ⟨S50000x128, .f32⟩
  | 88 => ⟨S400000x1, .i32⟩
  | 89 => ⟨S50000x128, .f32⟩
  | 90 => ⟨S50000x1, .f32⟩
  | 91 => ⟨S50000x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S1x1x400000, .i32⟩
  | 100 => ⟨S400000, .i32⟩
  | 101 => ⟨S1x1x400000, .i32⟩
  | 102 => ⟨S400000, .i32⟩
  | 103 => ⟨S_, .f32⟩
  | 104 => ⟨S400000, .f32⟩
  | 105 => ⟨S_, .f32⟩
  | 106 => ⟨S50000, .f32⟩
  | 107 => ⟨S400000x1, .i32⟩
  | 108 => ⟨S50000, .f32⟩
  | 109 => ⟨S_, .f32⟩
  | 110 => ⟨S50000, .f32⟩
  | 111 => ⟨S400000x1, .i32⟩
  | 112 => ⟨S50000, .f32⟩
  | 113 => ⟨S_, .f32⟩
  | 114 => ⟨S50000, .f32⟩
  | 115 => ⟨S50000, .i1⟩
  | 116 => ⟨S_, .f32⟩
  | 117 => ⟨S_, .f32⟩
  | 118 => ⟨S50000, .f32⟩
  | 119 => ⟨S50000, .f32⟩
  | 120 => ⟨S_, .f32⟩
  | 121 => ⟨S50000, .f32⟩
  | 122 => ⟨S50000, .f32⟩
  | 123 => ⟨S_, .f32⟩
  | 124 => ⟨S50000, .f32⟩
  | 125 => ⟨S50000, .i1⟩
  | 126 => ⟨S_, .f32⟩
  | 127 => ⟨S_, .f32⟩
  | _ => ⟨S50000x128, .f32⟩

abbrev hbmTy0_7 (i : Nat) : BufTy := match i % 128 with
  | 0 => ⟨S50000, .f32⟩
  | 1 => ⟨S50000, .f32⟩
  | 2 => ⟨S_, .f32⟩
  | 3 => ⟨S50000, .f32⟩
  | 4 => ⟨S50000, .i1⟩
  | 5 => ⟨S_, .f32⟩
  | 6 => ⟨S_, .f32⟩
  | 7 => ⟨S50000, .f32⟩
  | 8 => ⟨S50000, .f32⟩
  | 9 => ⟨S_, .f32⟩
  | 10 => ⟨S50000, .f32⟩
  | 11 => ⟨S50000, .f32⟩
  | 12 => ⟨S_, .f32⟩
  | 13 => ⟨S50000, .f32⟩
  | 14 => ⟨S50000, .i1⟩
  | 15 => ⟨S_, .f32⟩
  | 16 => ⟨S_, .f32⟩
  | 17 => ⟨S50000, .f32⟩
  | 18 => ⟨S50000, .f32⟩
  | 19 => ⟨S50000x1, .f32⟩
  | 20 => ⟨S50000x128, .f32⟩
  | 21 => ⟨S50000x128, .f32⟩
  | 22 => ⟨S1x128x128, .f32⟩
  | 23 => ⟨S128x128, .f32⟩
  | 24 => ⟨S50000x128, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .f32⟩
  | 34 => ⟨S_, .f32⟩
  | 35 => ⟨S50000x128, .f32⟩
  | 36 => ⟨S400000x1, .i32⟩
  | 37 => ⟨S50000x128, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x1x400000, .i32⟩
  | 48 => ⟨S400000, .i32⟩
  | 49 => ⟨S1x1x400000, .i32⟩
  | 50 => ⟨S400000, .i32⟩
  | 51 => ⟨S_, .f32⟩
  | 52 => ⟨S400000, .f32⟩
  | 53 => ⟨S_, .f32⟩
  | 54 => ⟨S50000, .f32⟩
  | 55 => ⟨S400000x1, .i32⟩
  | 56 => ⟨S50000, .f32⟩
  | 57 => ⟨S_, .f32⟩
  | 58 => ⟨S50000, .f32⟩
  | 59 => ⟨S400000x1, .i32⟩
  | 60 => ⟨S50000, .f32⟩
  | 61 => ⟨S_, .f32⟩
  | 62 => ⟨S50000, .f32⟩
  | 63 => ⟨S50000, .i1⟩
  | 64 => ⟨S_, .f32⟩
  | 65 => ⟨S_, .f32⟩
  | 66 => ⟨S50000, .f32⟩
  | 67 => ⟨S50000, .f32⟩
  | 68 => ⟨S_, .f32⟩
  | 69 => ⟨S50000, .f32⟩
  | 70 => ⟨S50000, .f32⟩
  | 71 => ⟨S_, .f32⟩
  | 72 => ⟨S50000, .f32⟩
  | 73 => ⟨S50000, .i1⟩
  | 74 => ⟨S_, .f32⟩
  | 75 => ⟨S_, .f32⟩
  | 76 => ⟨S50000, .f32⟩
  | 77 => ⟨S50000, .f32⟩
  | 78 => ⟨S_, .f32⟩
  | 79 => ⟨S50000, .f32⟩
  | 80 => ⟨S50000, .i1⟩
  | 81 => ⟨S_, .f32⟩
  | 82 => ⟨S_, .f32⟩
  | 83 => ⟨S50000, .f32⟩
  | 84 => ⟨S50000, .f32⟩
  | 85 => ⟨S_, .f32⟩
  | 86 => ⟨S50000, .f32⟩
  | 87 => ⟨S50000, .f32⟩
  | 88 => ⟨S_, .f32⟩
  | 89 => ⟨S50000, .f32⟩
  | 90 => ⟨S50000, .i1⟩
  | 91 => ⟨S_, .f32⟩
  | 92 => ⟨S_, .f32⟩
  | 93 => ⟨S50000, .f32⟩
  | 94 => ⟨S50000, .f32⟩
  | 95 => ⟨S50000x1, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x128, .f32⟩
  | 110 => ⟨S_, .f32⟩
  | 111 => ⟨S50000x128, .f32⟩
  | 112 => ⟨S400000x1, .i32⟩
  | 113 => ⟨S50000x128, .f32⟩
  | 114 => ⟨S50000x1, .f32⟩
  | 115 => ⟨S50000x128, .f32⟩
  | 116 => ⟨S50000x128, .f32⟩
  | 117 => ⟨S50000x128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S1x1x400000, .i32⟩
  | 124 => ⟨S400000, .i32⟩
  | 125 => ⟨S1x1x400000, .i32⟩
  | 126 => ⟨S400000, .i32⟩
  | 127 => ⟨S_, .f32⟩
  | _ => ⟨S50000x128, .f32⟩

abbrev hbmTy0_8 (i : Nat) : BufTy := match i % 128 with
  | 0 => ⟨S400000, .f32⟩
  | 1 => ⟨S_, .f32⟩
  | 2 => ⟨S50000, .f32⟩
  | 3 => ⟨S400000x1, .i32⟩
  | 4 => ⟨S50000, .f32⟩
  | 5 => ⟨S_, .f32⟩
  | 6 => ⟨S50000, .f32⟩
  | 7 => ⟨S400000x1, .i32⟩
  | 8 => ⟨S50000, .f32⟩
  | 9 => ⟨S_, .f32⟩
  | 10 => ⟨S50000, .f32⟩
  | 11 => ⟨S50000, .i1⟩
  | 12 => ⟨S_, .f32⟩
  | 13 => ⟨S_, .f32⟩
  | 14 => ⟨S50000, .f32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .i1⟩
  | 22 => ⟨S_, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .i1⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .i1⟩
  | 39 => ⟨S_, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x128, .f32⟩
  | 58 => ⟨S_, .f32⟩
  | 59 => ⟨S50000x128, .f32⟩
  | 60 => ⟨S400000x1, .i32⟩
  | 61 => ⟨S50000x128, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S1x1x400000, .i32⟩
  | 72 => ⟨S400000, .i32⟩
  | 73 => ⟨S1x1x400000, .i32⟩
  | 74 => ⟨S400000, .i32⟩
  | 75 => ⟨S_, .f32⟩
  | 76 => ⟨S400000, .f32⟩
  | 77 => ⟨S_, .f32⟩
  | 78 => ⟨S50000, .f32⟩
  | 79 => ⟨S400000x1, .i32⟩
  | 80 => ⟨S50000, .f32⟩
  | 81 => ⟨S_, .f32⟩
  | 82 => ⟨S50000, .f32⟩
  | 83 => ⟨S400000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S_, .f32⟩
  | 90 => ⟨S50000, .f32⟩
  | 91 => ⟨S50000, .f32⟩
  | 92 => ⟨S_, .f32⟩
  | 93 => ⟨S50000, .f32⟩
  | 94 => ⟨S50000, .f32⟩
  | 95 => ⟨S_, .f32⟩
  | 96 => ⟨S50000, .f32⟩
  | 97 => ⟨S50000, .i1⟩
  | 98 => ⟨S_, .f32⟩
  | 99 => ⟨S_, .f32⟩
  | 100 => ⟨S50000, .f32⟩
  | 101 => ⟨S50000, .f32⟩
  | 102 => ⟨S_, .f32⟩
  | 103 => ⟨S50000, .f32⟩
  | 104 => ⟨S50000, .i1⟩
  | 105 => ⟨S_, .f32⟩
  | 106 => ⟨S_, .f32⟩
  | 107 => ⟨S50000, .f32⟩
  | 108 => ⟨S50000, .f32⟩
  | 109 => ⟨S_, .f32⟩
  | 110 => ⟨S50000, .f32⟩
  | 111 => ⟨S50000, .f32⟩
  | 112 => ⟨S_, .f32⟩
  | 113 => ⟨S50000, .f32⟩
  | 114 => ⟨S50000, .i1⟩
  | 115 => ⟨S_, .f32⟩
  | 116 => ⟨S_, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S_, .i32⟩
  | 126 => ⟨S400000, .i32⟩
  | 127 => ⟨S400000, .i1⟩
  | _ => ⟨S50000x128, .f32⟩

abbrev hbmTy0_9 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S400000x128, .f32⟩
  | 6 => ⟨S_, .f32⟩
  | 7 => ⟨S50000x128, .f32⟩
  | 8 => ⟨S400000x1, .i32⟩
  | 9 => ⟨S50000x128, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S1x1x400000, .i32⟩
  | 20 => ⟨S400000, .i32⟩
  | 21 => ⟨S1x1x400000, .i32⟩
  | 22 => ⟨S400000, .i32⟩
  | 23 => ⟨S_, .f32⟩
  | 24 => ⟨S400000, .f32⟩
  | 25 => ⟨S_, .f32⟩
  | 26 => ⟨S50000, .f32⟩
  | 27 => ⟨S400000x1, .i32⟩
  | 28 => ⟨S50000, .f32⟩
  | 29 => ⟨S_, .f32⟩
  | 30 => ⟨S50000, .f32⟩
  | 31 => ⟨S400000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .f32⟩
  | 43 => ⟨S_, .f32⟩
  | 44 => ⟨S50000, .f32⟩
  | 45 => ⟨S50000, .i1⟩
  | 46 => ⟨S_, .f32⟩
  | 47 => ⟨S_, .f32⟩
  | 48 => ⟨S50000, .f32⟩
  | 49 => ⟨S50000, .f32⟩
  | 50 => ⟨S_, .f32⟩
  | 51 => ⟨S50000, .f32⟩
  | 52 => ⟨S50000, .i1⟩
  | 53 => ⟨S_, .f32⟩
  | 54 => ⟨S_, .f32⟩
  | 55 => ⟨S50000, .f32⟩
  | 56 => ⟨S50000, .f32⟩
  | 57 => ⟨S_, .f32⟩
  | 58 => ⟨S50000, .f32⟩
  | 59 => ⟨S50000, .f32⟩
  | 60 => ⟨S_, .f32⟩
  | 61 => ⟨S50000, .f32⟩
  | 62 => ⟨S50000, .i1⟩
  | 63 => ⟨S_, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S1x128x128, .f32⟩
  | 71 => ⟨S128x128, .f32⟩
  | 72 => ⟨S50000x128, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x128, .f32⟩
  | 82 => ⟨S_, .f32⟩
  | 83 => ⟨S50000x128, .f32⟩
  | 84 => ⟨S400000x1, .i32⟩
  | 85 => ⟨S50000x128, .f32⟩
  | 86 => ⟨S50000x1, .f32⟩
  | 87 => ⟨S50000x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S1x1x400000, .i32⟩
  | 96 => ⟨S400000, .i32⟩
  | 97 => ⟨S1x1x400000, .i32⟩
  | 98 => ⟨S400000, .i32⟩
  | 99 => ⟨S_, .f32⟩
  | 100 => ⟨S400000, .f32⟩
  | 101 => ⟨S_, .f32⟩
  | 102 => ⟨S50000, .f32⟩
  | 103 => ⟨S400000x1, .i32⟩
  | 104 => ⟨S50000, .f32⟩
  | 105 => ⟨S_, .f32⟩
  | 106 => ⟨S50000, .f32⟩
  | 107 => ⟨S400000x1, .i32⟩
  | 108 => ⟨S50000, .f32⟩
  | 109 => ⟨S_, .f32⟩
  | 110 => ⟨S50000, .f32⟩
  | 111 => ⟨S50000, .i1⟩
  | 112 => ⟨S_, .f32⟩
  | 113 => ⟨S_, .f32⟩
  | 114 => ⟨S50000, .f32⟩
  | 115 => ⟨S50000, .f32⟩
  | 116 => ⟨S_, .f32⟩
  | 117 => ⟨S50000, .f32⟩
  | 118 => ⟨S50000, .f32⟩
  | 119 => ⟨S_, .f32⟩
  | 120 => ⟨S50000, .f32⟩
  | 121 => ⟨S50000, .i1⟩
  | 122 => ⟨S_, .f32⟩
  | 123 => ⟨S_, .f32⟩
  | 124 => ⟨S50000, .f32⟩
  | 125 => ⟨S50000, .f32⟩
  | 126 => ⟨S_, .f32⟩
  | 127 => ⟨S50000, .f32⟩
  | _ => ⟨S50000x128, .f32⟩

abbrev hbmTy0_10 (i : Nat) : BufTy := match i % 128 with
  | 0 => ⟨S50000, .i1⟩
  | 1 => ⟨S_, .f32⟩
  | 2 => ⟨S_, .f32⟩
  | 3 => ⟨S50000, .f32⟩
  | 4 => ⟨S50000, .f32⟩
  | 5 => ⟨S_, .f32⟩
  | 6 => ⟨S50000, .f32⟩
  | 7 => ⟨S50000, .f32⟩
  | 8 => ⟨S_, .f32⟩
  | 9 => ⟨S50000, .f32⟩
  | 10 => ⟨S50000, .i1⟩
  | 11 => ⟨S_, .f32⟩
  | 12 => ⟨S_, .f32⟩
  | 13 => ⟨S50000, .f32⟩
  | 14 => ⟨S50000, .f32⟩
  | 15 => ⟨S50000x1, .f32⟩
  | 16 => ⟨S50000x128, .f32⟩
  | 17 => ⟨S50000x128, .f32⟩
  | 18 => ⟨S1x128x128, .f32⟩
  | 19 => ⟨S128x128, .f32⟩
  | 20 => ⟨S50000x128, .f32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x128, .f32⟩
  | 30 => ⟨S_, .f32⟩
  | 31 => ⟨S50000x128, .f32⟩
  | 32 => ⟨S400000x1, .i32⟩
  | 33 => ⟨S50000x128, .f32⟩
  | 34 => ⟨S50000x1, .f32⟩
  | 35 => ⟨S50000x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S1x1x400000, .i32⟩
  | 44 => ⟨S400000, .i32⟩
  | 45 => ⟨S1x1x400000, .i32⟩
  | 46 => ⟨S400000, .i32⟩
  | 47 => ⟨S_, .f32⟩
  | 48 => ⟨S400000, .f32⟩
  | 49 => ⟨S_, .f32⟩
  | 50 => ⟨S50000, .f32⟩
  | 51 => ⟨S400000x1, .i32⟩
  | 52 => ⟨S50000, .f32⟩
  | 53 => ⟨S_, .f32⟩
  | 54 => ⟨S50000, .f32⟩
  | 55 => ⟨S400000x1, .i32⟩
  | 56 => ⟨S50000, .f32⟩
  | 57 => ⟨S_, .f32⟩
  | 58 => ⟨S50000, .f32⟩
  | 59 => ⟨S50000, .i1⟩
  | 60 => ⟨S_, .f32⟩
  | 61 => ⟨S_, .f32⟩
  | 62 => ⟨S50000, .f32⟩
  | 63 => ⟨S50000, .f32⟩
  | 64 => ⟨S_, .f32⟩
  | 65 => ⟨S50000, .f32⟩
  | 66 => ⟨S50000, .f32⟩
  | 67 => ⟨S_, .f32⟩
  | 68 => ⟨S50000, .f32⟩
  | 69 => ⟨S50000, .i1⟩
  | 70 => ⟨S_, .f32⟩
  | 71 => ⟨S_, .f32⟩
  | 72 => ⟨S50000, .f32⟩
  | 73 => ⟨S50000, .f32⟩
  | 74 => ⟨S_, .f32⟩
  | 75 => ⟨S50000, .f32⟩
  | 76 => ⟨S50000, .i1⟩
  | 77 => ⟨S_, .f32⟩
  | 78 => ⟨S_, .f32⟩
  | 79 => ⟨S50000, .f32⟩
  | 80 => ⟨S50000, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .i1⟩
  | 87 => ⟨S_, .f32⟩
  | 88 => ⟨S_, .f32⟩
  | 89 => ⟨S50000, .f32⟩
  | 90 => ⟨S50000, .f32⟩
  | 91 => ⟨S50000x1, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x128, .f32⟩
  | 106 => ⟨S_, .f32⟩
  | 107 => ⟨S50000x128, .f32⟩
  | 108 => ⟨S400000x1, .i32⟩
  | 109 => ⟨S50000x128, .f32⟩
  | 110 => ⟨S50000x1, .f32⟩
  | 111 => ⟨S50000x128, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_11 (i : Nat) : BufTy := match i % 128 with
  | 0 => ⟨S50000x16, .f32⟩
  | 1 => ⟨S1x16, .f32⟩
  | 2 => ⟨S50000x16, .f32⟩
  | 3 => ⟨S50000x16, .f32⟩
  | 4 => ⟨S50000x16, .f32⟩
  | 5 => ⟨S1x16, .f32⟩
  | 6 => ⟨S50000x16, .f32⟩
  | 7 => ⟨S50000x16, .f32⟩
  | 8 => ⟨S50000x16, .f32⟩
  | 9 => ⟨S1x16, .f32⟩
  | 10 => ⟨S50000x16, .f32⟩
  | 11 => ⟨S50000x16, .f32⟩
  | 12 => ⟨S1x50000x16, .f32⟩
  | 13 => ⟨S1x50000x16, .f32⟩
  | 14 => ⟨S1x50000x16, .f32⟩
  | 15 => ⟨S3x50000x16, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_cst_6 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_cst_7 : Ref sig .tc := ⟨.hbm, 37, rfl⟩
abbrev main_v17 : Ref sig .tc := ⟨.hbm, 38, rfl⟩
abbrev main_v18 : Ref sig .tc := ⟨.hbm, 39, rfl⟩
abbrev main_cst_8 : Ref sig .tc := ⟨.hbm, 40, rfl⟩
abbrev main_v19 : Ref sig .tc := ⟨.hbm, 41, rfl⟩
abbrev main_v20 : Ref sig .tc := ⟨.hbm, 42, rfl⟩
abbrev main_cst_9 : Ref sig .tc := ⟨.hbm, 43, rfl⟩
abbrev main_call1_v0 : Ref sig .tc := ⟨.hbm, 44, rfl⟩
abbrev main_call1_v1 : Ref sig .tc := ⟨.hbm, 45, rfl⟩
abbrev main_v21 : Ref sig .tc := ⟨.hbm, 46, rfl⟩
abbrev main_cst_10 : Ref sig .tc := ⟨.hbm, 47, rfl⟩
abbrev main_v22 : Ref sig .tc := ⟨.hbm, 48, rfl⟩
abbrev main_v23 : Ref sig .tc := ⟨.hbm, 49, rfl⟩
abbrev main_cst_11 : Ref sig .tc := ⟨.hbm, 50, rfl⟩
abbrev main_call2_v0 : Ref sig .tc := ⟨.hbm, 51, rfl⟩
abbrev main_call2_v1 : Ref sig .tc := ⟨.hbm, 52, rfl⟩
abbrev main_v24 : Ref sig .tc := ⟨.hbm, 53, rfl⟩
abbrev main_cst_12 : Ref sig .tc := ⟨.hbm, 54, rfl⟩
abbrev main_v25 : Ref sig .tc := ⟨.hbm, 55, rfl⟩
abbrev main_v26 : Ref sig .tc := ⟨.hbm, 56, rfl⟩
abbrev main_cst_13 : Ref sig .tc := ⟨.hbm, 57, rfl⟩
abbrev main_v27 : Ref sig .tc := ⟨.hbm, 58, rfl⟩
abbrev main_v28 : Ref sig .tc := ⟨.hbm, 59, rfl⟩
abbrev main_cst_14 : Ref sig .tc := ⟨.hbm, 60, rfl⟩
abbrev main_call3_v0 : Ref sig .tc := ⟨.hbm, 61, rfl⟩
abbrev main_call3_v1 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c : Ref sig .tc := ⟨.hbm, 70, rfl⟩
abbrev main_v36 : Ref sig .tc := ⟨.hbm, 71, rfl⟩
abbrev main_v37 : Ref sig .tc := ⟨.hbm, 72, rfl⟩
abbrev main_c_15 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_16 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_cst_18 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_19 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_20 : Ref sig .tc := ⟨.hbm, 106, rfl⟩
abbrev main_v66 : Ref sig .tc := ⟨.hbm, 107, rfl⟩
abbrev main_v67 : Ref sig .tc := ⟨.hbm, 108, rfl⟩
abbrev main_cst_21 : Ref sig .tc := ⟨.hbm, 109, rfl⟩
abbrev main_call4_v0 : Ref sig .tc := ⟨.hbm, 110, rfl⟩
abbrev main_call4_v1 : Ref sig .tc := ⟨.hbm, 111, rfl⟩
abbrev main_v68 : Ref sig .tc := ⟨.hbm, 112, rfl⟩
abbrev main_cst_22 : Ref sig .tc := ⟨.hbm, 113, rfl⟩
abbrev main_v69 : Ref sig .tc := ⟨.hbm, 114, rfl⟩
abbrev main_v70 : Ref sig .tc := ⟨.hbm, 115, rfl⟩
abbrev main_cst_23 : Ref sig .tc := ⟨.hbm, 116, rfl⟩
abbrev main_v71 : Ref sig .tc := ⟨.hbm, 117, rfl⟩
abbrev main_v72 : Ref sig .tc := ⟨.hbm, 118, rfl⟩
abbrev main_cst_24 : Ref sig .tc := ⟨.hbm, 119, rfl⟩
abbrev main_call5_v0 : Ref sig .tc := ⟨.hbm, 120, rfl⟩
abbrev main_call5_v1 : Ref sig .tc := ⟨.hbm, 121, rfl⟩
abbrev main_v73 : Ref sig .tc := ⟨.hbm, 122, rfl⟩
abbrev main_cst_25 : Ref sig .tc := ⟨.hbm, 123, rfl⟩
abbrev main_v74 : Ref sig .tc := ⟨.hbm, 124, rfl⟩
abbrev main_v75 : Ref sig .tc := ⟨.hbm, 125, rfl⟩
abbrev main_cst_26 : Ref sig .tc := ⟨.hbm, 126, rfl⟩
abbrev main_call6_v0 : Ref sig .tc := ⟨.hbm, 127, rfl⟩
abbrev main_call6_v1 : Ref sig .tc := ⟨.hbm, 128, rfl⟩
abbrev main_v76 : Ref sig .tc := ⟨.hbm, 129, rfl⟩
abbrev main_cst_27 : Ref sig .tc := ⟨.hbm, 130, rfl⟩
abbrev main_v77 : Ref sig .tc := ⟨.hbm, 131, rfl⟩
abbrev main_v78 : Ref sig .tc := ⟨.hbm, 132, rfl⟩
abbrev main_cst_28 : Ref sig .tc := ⟨.hbm, 133, rfl⟩
abbrev main_v79 : Ref sig .tc := ⟨.hbm, 134, rfl⟩
abbrev main_v80 : Ref sig .tc := ⟨.hbm, 135, rfl⟩
abbrev main_cst_29 : Ref sig .tc := ⟨.hbm, 136, rfl⟩
abbrev main_call7_v0 : Ref sig .tc := ⟨.hbm, 137, rfl⟩
abbrev main_call7_v1 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_c_30 : Ref sig .tc := ⟨.hbm, 146, rfl⟩
abbrev main_v88 : Ref sig .tc := ⟨.hbm, 147, rfl⟩
abbrev main_v89 : Ref sig .tc := ⟨.hbm, 148, rfl⟩
abbrev main_c_31 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_cst_32 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_33 : Ref sig .tc := ⟨.hbm, 172, rfl⟩
abbrev main_v111 : Ref sig .tc := ⟨.hbm, 173, rfl⟩
abbrev main_cst_34 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_35 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_36 : Ref sig .tc := ⟨.hbm, 182, rfl⟩
abbrev main_v118 : Ref sig .tc := ⟨.hbm, 183, rfl⟩
abbrev main_v119 : Ref sig .tc := ⟨.hbm, 184, rfl⟩
abbrev main_cst_37 : Ref sig .tc := ⟨.hbm, 185, rfl⟩
abbrev main_call8_v0 : Ref sig .tc := ⟨.hbm, 186, rfl⟩
abbrev main_call8_v1 : Ref sig .tc := ⟨.hbm, 187, rfl⟩
abbrev main_v120 : Ref sig .tc := ⟨.hbm, 188, rfl⟩
abbrev main_cst_38 : Ref sig .tc := ⟨.hbm, 189, rfl⟩
abbrev main_v121 : Ref sig .tc := ⟨.hbm, 190, rfl⟩
abbrev main_v122 : Ref sig .tc := ⟨.hbm, 191, rfl⟩
abbrev main_cst_39 : Ref sig .tc := ⟨.hbm, 192, rfl⟩
abbrev main_v123 : Ref sig .tc := ⟨.hbm, 193, rfl⟩
abbrev main_v124 : Ref sig .tc := ⟨.hbm, 194, rfl⟩
abbrev main_cst_40 : Ref sig .tc := ⟨.hbm, 195, rfl⟩
abbrev main_call9_v0 : Ref sig .tc := ⟨.hbm, 196, rfl⟩
abbrev main_call9_v1 : Ref sig .tc := ⟨.hbm, 197, rfl⟩
abbrev main_v125 : Ref sig .tc := ⟨.hbm, 198, rfl⟩
abbrev main_cst_41 : Ref sig .tc := ⟨.hbm, 199, rfl⟩
abbrev main_v126 : Ref sig .tc := ⟨.hbm, 200, rfl⟩
abbrev main_v127 : Ref sig .tc := ⟨.hbm, 201, rfl⟩
abbrev main_cst_42 : Ref sig .tc := ⟨.hbm, 202, rfl⟩
abbrev main_call10_v0 : Ref sig .tc := ⟨.hbm, 203, rfl⟩
abbrev main_call10_v1 : Ref sig .tc := ⟨.hbm, 204, rfl⟩
abbrev main_v128 : Ref sig .tc := ⟨.hbm, 205, rfl⟩
abbrev main_cst_43 : Ref sig .tc := ⟨.hbm, 206, rfl⟩
abbrev main_v129 : Ref sig .tc := ⟨.hbm, 207, rfl⟩
abbrev main_v130 : Ref sig .tc := ⟨.hbm, 208, rfl⟩
abbrev main_cst_44 : Ref sig .tc := ⟨.hbm, 209, rfl⟩
abbrev main_v131 : Ref sig .tc := ⟨.hbm, 210, rfl⟩
abbrev main_v132 : Ref sig .tc := ⟨.hbm, 211, rfl⟩
abbrev main_cst_45 : Ref sig .tc := ⟨.hbm, 212, rfl⟩
abbrev main_call11_v0 : Ref sig .tc := ⟨.hbm, 213, rfl⟩
abbrev main_call11_v1 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_c_46 : Ref sig .tc := ⟨.hbm, 222, rfl⟩
abbrev main_v140 : Ref sig .tc := ⟨.hbm, 223, rfl⟩
abbrev main_v141 : Ref sig .tc := ⟨.hbm, 224, rfl⟩
abbrev main_c_47 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_cst_48 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_cst_49 : Ref sig .tc := ⟨.hbm, 248, rfl⟩
abbrev main_v163 : Ref sig .tc := ⟨.hbm, 249, rfl⟩
abbrev main_cst_50 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_cst_51 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_cst_52 : Ref sig .tc := ⟨.hbm, 258, rfl⟩
abbrev main_v170 : Ref sig .tc := ⟨.hbm, 259, rfl⟩
abbrev main_v171 : Ref sig .tc := ⟨.hbm, 260, rfl⟩
abbrev main_cst_53 : Ref sig .tc := ⟨.hbm, 261, rfl⟩
abbrev main_call12_v0 : Ref sig .tc := ⟨.hbm, 262, rfl⟩
abbrev main_call12_v1 : Ref sig .tc := ⟨.hbm, 263, rfl⟩
abbrev main_v172 : Ref sig .tc := ⟨.hbm, 264, rfl⟩
abbrev main_cst_54 : Ref sig .tc := ⟨.hbm, 265, rfl⟩
abbrev main_v173 : Ref sig .tc := ⟨.hbm, 266, rfl⟩
abbrev main_v174 : Ref sig .tc := ⟨.hbm, 267, rfl⟩
abbrev main_cst_55 : Ref sig .tc := ⟨.hbm, 268, rfl⟩
abbrev main_v175 : Ref sig .tc := ⟨.hbm, 269, rfl⟩
abbrev main_v176 : Ref sig .tc := ⟨.hbm, 270, rfl⟩
abbrev main_cst_56 : Ref sig .tc := ⟨.hbm, 271, rfl⟩
abbrev main_call13_v0 : Ref sig .tc := ⟨.hbm, 272, rfl⟩
abbrev main_call13_v1 : Ref sig .tc := ⟨.hbm, 273, rfl⟩
abbrev main_v177 : Ref sig .tc := ⟨.hbm, 274, rfl⟩
abbrev main_cst_57 : Ref sig .tc := ⟨.hbm, 275, rfl⟩
abbrev main_v178 : Ref sig .tc := ⟨.hbm, 276, rfl⟩
abbrev main_v179 : Ref sig .tc := ⟨.hbm, 277, rfl⟩
abbrev main_cst_58 : Ref sig .tc := ⟨.hbm, 278, rfl⟩
abbrev main_call14_v0 : Ref sig .tc := ⟨.hbm, 279, rfl⟩
abbrev main_call14_v1 : Ref sig .tc := ⟨.hbm, 280, rfl⟩
abbrev main_v180 : Ref sig .tc := ⟨.hbm, 281, rfl⟩
abbrev main_cst_59 : Ref sig .tc := ⟨.hbm, 282, rfl⟩
abbrev main_v181 : Ref sig .tc := ⟨.hbm, 283, rfl⟩
abbrev main_v182 : Ref sig .tc := ⟨.hbm, 284, rfl⟩
abbrev main_cst_60 : Ref sig .tc := ⟨.hbm, 285, rfl⟩
abbrev main_v183 : Ref sig .tc := ⟨.hbm, 286, rfl⟩
abbrev main_v184 : Ref sig .tc := ⟨.hbm, 287, rfl⟩
abbrev main_cst_61 : Ref sig .tc := ⟨.hbm, 288, rfl⟩
abbrev main_call15_v0 : Ref sig .tc := ⟨.hbm, 289, rfl⟩
abbrev main_call15_v1 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_c_62 : Ref sig .tc := ⟨.hbm, 298, rfl⟩
abbrev main_v192 : Ref sig .tc := ⟨.hbm, 299, rfl⟩
abbrev main_v193 : Ref sig .tc := ⟨.hbm, 300, rfl⟩
abbrev main_c_63 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_cst_64 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_cst_65 : Ref sig .tc := ⟨.hbm, 324, rfl⟩
abbrev main_v215 : Ref sig .tc := ⟨.hbm, 325, rfl⟩
abbrev main_cst_66 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_cst_67 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_cst_68 : Ref sig .tc := ⟨.hbm, 334, rfl⟩
abbrev main_v222 : Ref sig .tc := ⟨.hbm, 335, rfl⟩
abbrev main_v223 : Ref sig .tc := ⟨.hbm, 336, rfl⟩
abbrev main_cst_69 : Ref sig .tc := ⟨.hbm, 337, rfl⟩
abbrev main_call16_v0 : Ref sig .tc := ⟨.hbm, 338, rfl⟩
abbrev main_call16_v1 : Ref sig .tc := ⟨.hbm, 339, rfl⟩
abbrev main_v224 : Ref sig .tc := ⟨.hbm, 340, rfl⟩
abbrev main_cst_70 : Ref sig .tc := ⟨.hbm, 341, rfl⟩
abbrev main_v225 : Ref sig .tc := ⟨.hbm, 342, rfl⟩
abbrev main_v226 : Ref sig .tc := ⟨.hbm, 343, rfl⟩
abbrev main_cst_71 : Ref sig .tc := ⟨.hbm, 344, rfl⟩
abbrev main_v227 : Ref sig .tc := ⟨.hbm, 345, rfl⟩
abbrev main_v228 : Ref sig .tc := ⟨.hbm, 346, rfl⟩
abbrev main_cst_72 : Ref sig .tc := ⟨.hbm, 347, rfl⟩
abbrev main_call17_v0 : Ref sig .tc := ⟨.hbm, 348, rfl⟩
abbrev main_call17_v1 : Ref sig .tc := ⟨.hbm, 349, rfl⟩
abbrev main_v229 : Ref sig .tc := ⟨.hbm, 350, rfl⟩
abbrev main_cst_73 : Ref sig .tc := ⟨.hbm, 351, rfl⟩
abbrev main_v230 : Ref sig .tc := ⟨.hbm, 352, rfl⟩
abbrev main_v231 : Ref sig .tc := ⟨.hbm, 353, rfl⟩
abbrev main_cst_74 : Ref sig .tc := ⟨.hbm, 354, rfl⟩
abbrev main_call18_v0 : Ref sig .tc := ⟨.hbm, 355, rfl⟩
abbrev main_call18_v1 : Ref sig .tc := ⟨.hbm, 356, rfl⟩
abbrev main_v232 : Ref sig .tc := ⟨.hbm, 357, rfl⟩
abbrev main_cst_75 : Ref sig .tc := ⟨.hbm, 358, rfl⟩
abbrev main_v233 : Ref sig .tc := ⟨.hbm, 359, rfl⟩
abbrev main_v234 : Ref sig .tc := ⟨.hbm, 360, rfl⟩
abbrev main_cst_76 : Ref sig .tc := ⟨.hbm, 361, rfl⟩
abbrev main_v235 : Ref sig .tc := ⟨.hbm, 362, rfl⟩
abbrev main_v236 : Ref sig .tc := ⟨.hbm, 363, rfl⟩
abbrev main_cst_77 : Ref sig .tc := ⟨.hbm, 364, rfl⟩
abbrev main_call19_v0 : Ref sig .tc := ⟨.hbm, 365, rfl⟩
abbrev main_call19_v1 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_c_78 : Ref sig .tc := ⟨.hbm, 374, rfl⟩
abbrev main_v244 : Ref sig .tc := ⟨.hbm, 375, rfl⟩
abbrev main_v245 : Ref sig .tc := ⟨.hbm, 376, rfl⟩
abbrev main_c_79 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_v249 : Ref sig .tc := ⟨.hbm, 381, rfl⟩
abbrev main_v250 : Ref sig .tc := ⟨.hbm, 382, rfl⟩
abbrev main_cst_80 : Ref sig .tc := ⟨.hbm, 383, rfl⟩
abbrev main_v251 : Ref sig .tc := ⟨.hbm, 384, rfl⟩
abbrev main_v252 : Ref sig .tc := ⟨.hbm, 385, rfl⟩
abbrev main_v253 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_v265 : Ref sig .tc := ⟨.hbm, 398, rfl⟩
abbrev main_v266 : Ref sig .tc := ⟨.hbm, 399, rfl⟩
abbrev main_cst_81 : Ref sig .tc := ⟨.hbm, 400, rfl⟩
abbrev main_v267 : Ref sig .tc := ⟨.hbm, 401, rfl⟩
abbrev main_cst_82 : Ref sig .tc := ⟨.hbm, 402, rfl⟩
abbrev main_v268 : Ref sig .tc := ⟨.hbm, 403, rfl⟩
abbrev main_v269 : Ref sig .tc := ⟨.hbm, 404, rfl⟩
abbrev main_v270 : Ref sig .tc := ⟨.hbm, 405, rfl⟩
abbrev main_cst_83 : Ref sig .tc := ⟨.hbm, 406, rfl⟩
abbrev main_v271 : Ref sig .tc := ⟨.hbm, 407, rfl⟩
abbrev main_v272 : Ref sig .tc := ⟨.hbm, 408, rfl⟩
abbrev main_v273 : Ref sig .tc := ⟨.hbm, 409, rfl⟩
abbrev main_cst_84 : Ref sig .tc := ⟨.hbm, 410, rfl⟩
abbrev main_v274 : Ref sig .tc := ⟨.hbm, 411, rfl⟩
abbrev main_v275 : Ref sig .tc := ⟨.hbm, 412, rfl⟩
abbrev main_cst_85 : Ref sig .tc := ⟨.hbm, 413, rfl⟩
abbrev main_call20_v0 : Ref sig .tc := ⟨.hbm, 414, rfl⟩
abbrev main_call20_v1 : Ref sig .tc := ⟨.hbm, 415, rfl⟩
abbrev main_v276 : Ref sig .tc := ⟨.hbm, 416, rfl⟩
abbrev main_cst_86 : Ref sig .tc := ⟨.hbm, 417, rfl⟩
abbrev main_v277 : Ref sig .tc := ⟨.hbm, 418, rfl⟩
abbrev main_v278 : Ref sig .tc := ⟨.hbm, 419, rfl⟩
abbrev main_cst_87 : Ref sig .tc := ⟨.hbm, 420, rfl⟩
abbrev main_v279 : Ref sig .tc := ⟨.hbm, 421, rfl⟩
abbrev main_v280 : Ref sig .tc := ⟨.hbm, 422, rfl⟩
abbrev main_cst_88 : Ref sig .tc := ⟨.hbm, 423, rfl⟩
abbrev main_call21_v0 : Ref sig .tc := ⟨.hbm, 424, rfl⟩
abbrev main_call21_v1 : Ref sig .tc := ⟨.hbm, 425, rfl⟩
abbrev main_v281 : Ref sig .tc := ⟨.hbm, 426, rfl⟩
abbrev main_cst_89 : Ref sig .tc := ⟨.hbm, 427, rfl⟩
abbrev main_v282 : Ref sig .tc := ⟨.hbm, 428, rfl⟩
abbrev main_v283 : Ref sig .tc := ⟨.hbm, 429, rfl⟩
abbrev main_cst_90 : Ref sig .tc := ⟨.hbm, 430, rfl⟩
abbrev main_call22_v0 : Ref sig .tc := ⟨.hbm, 431, rfl⟩
abbrev main_call22_v1 : Ref sig .tc := ⟨.hbm, 432, rfl⟩
abbrev main_v284 : Ref sig .tc := ⟨.hbm, 433, rfl⟩
abbrev main_cst_91 : Ref sig .tc := ⟨.hbm, 434, rfl⟩
abbrev main_v285 : Ref sig .tc := ⟨.hbm, 435, rfl⟩
abbrev main_v286 : Ref sig .tc := ⟨.hbm, 436, rfl⟩
abbrev main_cst_92 : Ref sig .tc := ⟨.hbm, 437, rfl⟩
abbrev main_v287 : Ref sig .tc := ⟨.hbm, 438, rfl⟩
abbrev main_v288 : Ref sig .tc := ⟨.hbm, 439, rfl⟩
abbrev main_cst_93 : Ref sig .tc := ⟨.hbm, 440, rfl⟩
abbrev main_call23_v0 : Ref sig .tc := ⟨.hbm, 441, rfl⟩
abbrev main_call23_v1 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_c_94 : Ref sig .tc := ⟨.hbm, 450, rfl⟩
abbrev main_v296 : Ref sig .tc := ⟨.hbm, 451, rfl⟩
abbrev main_v297 : Ref sig .tc := ⟨.hbm, 452, rfl⟩
abbrev main_c_95 : Ref sig .tc := ⟨.hbm, 453, rfl⟩
abbrev main_v298 : Ref sig .tc := ⟨.hbm, 454, rfl⟩
abbrev main_v299 : Ref sig .tc := ⟨.hbm, 455, rfl⟩
abbrev main_v300 : Ref sig .tc := ⟨.hbm, 456, rfl⟩
abbrev main_v301 : Ref sig .tc := ⟨.hbm, 457, rfl⟩
abbrev main_v302 : Ref sig .tc := ⟨.hbm, 458, rfl⟩
abbrev main_cst_96 : Ref sig .tc := ⟨.hbm, 459, rfl⟩
abbrev main_v303 : Ref sig .tc := ⟨.hbm, 460, rfl⟩
abbrev main_v304 : Ref sig .tc := ⟨.hbm, 461, rfl⟩
abbrev main_v305 : Ref sig .tc := ⟨.hbm, 462, rfl⟩
abbrev main_v306 : Ref sig .tc := ⟨.hbm, 463, rfl⟩
abbrev main_v307 : Ref sig .tc := ⟨.hbm, 464, rfl⟩
abbrev main_v308 : Ref sig .tc := ⟨.hbm, 465, rfl⟩
abbrev main_v309 : Ref sig .tc := ⟨.hbm, 466, rfl⟩
abbrev main_v310 : Ref sig .tc := ⟨.hbm, 467, rfl⟩
abbrev main_v311 : Ref sig .tc := ⟨.hbm, 468, rfl⟩
abbrev main_v312 : Ref sig .tc := ⟨.hbm, 469, rfl⟩
abbrev main_v313 : Ref sig .tc := ⟨.hbm, 470, rfl⟩
abbrev main_v314 : Ref sig .tc := ⟨.hbm, 471, rfl⟩
abbrev main_v315 : Ref sig .tc := ⟨.hbm, 472, rfl⟩
abbrev main_v316 : Ref sig .tc := ⟨.hbm, 473, rfl⟩
abbrev main_v317 : Ref sig .tc := ⟨.hbm, 474, rfl⟩
abbrev main_v318 : Ref sig .tc := ⟨.hbm, 475, rfl⟩
abbrev main_cst_97 : Ref sig .tc := ⟨.hbm, 476, rfl⟩
abbrev main_v319 : Ref sig .tc := ⟨.hbm, 477, rfl⟩
abbrev main_cst_98 : Ref sig .tc := ⟨.hbm, 478, rfl⟩
abbrev main_v320 : Ref sig .tc := ⟨.hbm, 479, rfl⟩
abbrev main_v321 : Ref sig .tc := ⟨.hbm, 480, rfl⟩
abbrev main_v322 : Ref sig .tc := ⟨.hbm, 481, rfl⟩
abbrev main_cst_99 : Ref sig .tc := ⟨.hbm, 482, rfl⟩
abbrev main_v323 : Ref sig .tc := ⟨.hbm, 483, rfl⟩
abbrev main_v324 : Ref sig .tc := ⟨.hbm, 484, rfl⟩
abbrev main_v325 : Ref sig .tc := ⟨.hbm, 485, rfl⟩
abbrev main_cst_100 : Ref sig .tc := ⟨.hbm, 486, rfl⟩
abbrev main_v326 : Ref sig .tc := ⟨.hbm, 487, rfl⟩
abbrev main_v327 : Ref sig .tc := ⟨.hbm, 488, rfl⟩
abbrev main_cst_101 : Ref sig .tc := ⟨.hbm, 489, rfl⟩
abbrev main_call24_v0 : Ref sig .tc := ⟨.hbm, 490, rfl⟩
abbrev main_call24_v1 : Ref sig .tc := ⟨.hbm, 491, rfl⟩
abbrev main_v328 : Ref sig .tc := ⟨.hbm, 492, rfl⟩
abbrev main_cst_102 : Ref sig .tc := ⟨.hbm, 493, rfl⟩
abbrev main_v329 : Ref sig .tc := ⟨.hbm, 494, rfl⟩
abbrev main_v330 : Ref sig .tc := ⟨.hbm, 495, rfl⟩
abbrev main_cst_103 : Ref sig .tc := ⟨.hbm, 496, rfl⟩
abbrev main_v331 : Ref sig .tc := ⟨.hbm, 497, rfl⟩
abbrev main_v332 : Ref sig .tc := ⟨.hbm, 498, rfl⟩
abbrev main_cst_104 : Ref sig .tc := ⟨.hbm, 499, rfl⟩
abbrev main_call25_v0 : Ref sig .tc := ⟨.hbm, 500, rfl⟩
abbrev main_call25_v1 : Ref sig .tc := ⟨.hbm, 501, rfl⟩
abbrev main_v333 : Ref sig .tc := ⟨.hbm, 502, rfl⟩
abbrev main_cst_105 : Ref sig .tc := ⟨.hbm, 503, rfl⟩
abbrev main_v334 : Ref sig .tc := ⟨.hbm, 504, rfl⟩
abbrev main_v335 : Ref sig .tc := ⟨.hbm, 505, rfl⟩
abbrev main_cst_106 : Ref sig .tc := ⟨.hbm, 506, rfl⟩
abbrev main_call26_v0 : Ref sig .tc := ⟨.hbm, 507, rfl⟩
abbrev main_call26_v1 : Ref sig .tc := ⟨.hbm, 508, rfl⟩
abbrev main_v336 : Ref sig .tc := ⟨.hbm, 509, rfl⟩
abbrev main_cst_107 : Ref sig .tc := ⟨.hbm, 510, rfl⟩
abbrev main_v337 : Ref sig .tc := ⟨.hbm, 511, rfl⟩
abbrev main_v338 : Ref sig .tc := ⟨.hbm, 512, rfl⟩
abbrev main_cst_108 : Ref sig .tc := ⟨.hbm, 513, rfl⟩
abbrev main_v339 : Ref sig .tc := ⟨.hbm, 514, rfl⟩
abbrev main_v340 : Ref sig .tc := ⟨.hbm, 515, rfl⟩
abbrev main_cst_109 : Ref sig .tc := ⟨.hbm, 516, rfl⟩
abbrev main_call27_v0 : Ref sig .tc := ⟨.hbm, 517, rfl⟩
abbrev main_call27_v1 : Ref sig .tc := ⟨.hbm, 518, rfl⟩
abbrev main_v341 : Ref sig .tc := ⟨.hbm, 519, rfl⟩
abbrev main_v342 : Ref sig .tc := ⟨.hbm, 520, rfl⟩
abbrev main_v343 : Ref sig .tc := ⟨.hbm, 521, rfl⟩
abbrev main_v344 : Ref sig .tc := ⟨.hbm, 522, rfl⟩
abbrev main_v345 : Ref sig .tc := ⟨.hbm, 523, rfl⟩
abbrev main_v346 : Ref sig .tc := ⟨.hbm, 524, rfl⟩
abbrev main_v347 : Ref sig .tc := ⟨.hbm, 525, rfl⟩
abbrev main_c_110 : Ref sig .tc := ⟨.hbm, 526, rfl⟩
abbrev main_v348 : Ref sig .tc := ⟨.hbm, 527, rfl⟩
abbrev main_v349 : Ref sig .tc := ⟨.hbm, 528, rfl⟩
abbrev main_c_111 : Ref sig .tc := ⟨.hbm, 529, rfl⟩
abbrev main_v350 : Ref sig .tc := ⟨.hbm, 530, rfl⟩
abbrev main_v351 : Ref sig .tc := ⟨.hbm, 531, rfl⟩
abbrev main_v352 : Ref sig .tc := ⟨.hbm, 532, rfl⟩
abbrev main_v353 : Ref sig .tc := ⟨.hbm, 533, rfl⟩
abbrev main_v354 : Ref sig .tc := ⟨.hbm, 534, rfl⟩
abbrev main_cst_112 : Ref sig .tc := ⟨.hbm, 535, rfl⟩
abbrev main_v355 : Ref sig .tc := ⟨.hbm, 536, rfl⟩
abbrev main_v356 : Ref sig .tc := ⟨.hbm, 537, rfl⟩
abbrev main_v357 : Ref sig .tc := ⟨.hbm, 538, rfl⟩
abbrev main_v358 : Ref sig .tc := ⟨.hbm, 539, rfl⟩
abbrev main_v359 : Ref sig .tc := ⟨.hbm, 540, rfl⟩
abbrev main_v360 : Ref sig .tc := ⟨.hbm, 541, rfl⟩
abbrev main_v361 : Ref sig .tc := ⟨.hbm, 542, rfl⟩
abbrev main_v362 : Ref sig .tc := ⟨.hbm, 543, rfl⟩
abbrev main_v363 : Ref sig .tc := ⟨.hbm, 544, rfl⟩
abbrev main_v364 : Ref sig .tc := ⟨.hbm, 545, rfl⟩
abbrev main_v365 : Ref sig .tc := ⟨.hbm, 546, rfl⟩
abbrev main_v366 : Ref sig .tc := ⟨.hbm, 547, rfl⟩
abbrev main_v367 : Ref sig .tc := ⟨.hbm, 548, rfl⟩
abbrev main_v368 : Ref sig .tc := ⟨.hbm, 549, rfl⟩
abbrev main_v369 : Ref sig .tc := ⟨.hbm, 550, rfl⟩
abbrev main_v370 : Ref sig .tc := ⟨.hbm, 551, rfl⟩
abbrev main_cst_113 : Ref sig .tc := ⟨.hbm, 552, rfl⟩
abbrev main_v371 : Ref sig .tc := ⟨.hbm, 553, rfl⟩
abbrev main_cst_114 : Ref sig .tc := ⟨.hbm, 554, rfl⟩
abbrev main_v372 : Ref sig .tc := ⟨.hbm, 555, rfl⟩
abbrev main_v373 : Ref sig .tc := ⟨.hbm, 556, rfl⟩
abbrev main_v374 : Ref sig .tc := ⟨.hbm, 557, rfl⟩
abbrev main_cst_115 : Ref sig .tc := ⟨.hbm, 558, rfl⟩
abbrev main_v375 : Ref sig .tc := ⟨.hbm, 559, rfl⟩
abbrev main_v376 : Ref sig .tc := ⟨.hbm, 560, rfl⟩
abbrev main_v377 : Ref sig .tc := ⟨.hbm, 561, rfl⟩
abbrev main_cst_116 : Ref sig .tc := ⟨.hbm, 562, rfl⟩
abbrev main_v378 : Ref sig .tc := ⟨.hbm, 563, rfl⟩
abbrev main_v379 : Ref sig .tc := ⟨.hbm, 564, rfl⟩
abbrev main_cst_117 : Ref sig .tc := ⟨.hbm, 565, rfl⟩
abbrev main_call28_v0 : Ref sig .tc := ⟨.hbm, 566, rfl⟩
abbrev main_call28_v1 : Ref sig .tc := ⟨.hbm, 567, rfl⟩
abbrev main_v380 : Ref sig .tc := ⟨.hbm, 568, rfl⟩
abbrev main_cst_118 : Ref sig .tc := ⟨.hbm, 569, rfl⟩
abbrev main_v381 : Ref sig .tc := ⟨.hbm, 570, rfl⟩
abbrev main_v382 : Ref sig .tc := ⟨.hbm, 571, rfl⟩
abbrev main_cst_119 : Ref sig .tc := ⟨.hbm, 572, rfl⟩
abbrev main_v383 : Ref sig .tc := ⟨.hbm, 573, rfl⟩
abbrev main_v384 : Ref sig .tc := ⟨.hbm, 574, rfl⟩
abbrev main_cst_120 : Ref sig .tc := ⟨.hbm, 575, rfl⟩
abbrev main_call29_v0 : Ref sig .tc := ⟨.hbm, 576, rfl⟩
abbrev main_call29_v1 : Ref sig .tc := ⟨.hbm, 577, rfl⟩
abbrev main_v385 : Ref sig .tc := ⟨.hbm, 578, rfl⟩
abbrev main_cst_121 : Ref sig .tc := ⟨.hbm, 579, rfl⟩
abbrev main_v386 : Ref sig .tc := ⟨.hbm, 580, rfl⟩
abbrev main_v387 : Ref sig .tc := ⟨.hbm, 581, rfl⟩
abbrev main_cst_122 : Ref sig .tc := ⟨.hbm, 582, rfl⟩
abbrev main_call30_v0 : Ref sig .tc := ⟨.hbm, 583, rfl⟩
abbrev main_call30_v1 : Ref sig .tc := ⟨.hbm, 584, rfl⟩
abbrev main_v388 : Ref sig .tc := ⟨.hbm, 585, rfl⟩
abbrev main_cst_123 : Ref sig .tc := ⟨.hbm, 586, rfl⟩
abbrev main_v389 : Ref sig .tc := ⟨.hbm, 587, rfl⟩
abbrev main_v390 : Ref sig .tc := ⟨.hbm, 588, rfl⟩
abbrev main_cst_124 : Ref sig .tc := ⟨.hbm, 589, rfl⟩
abbrev main_v391 : Ref sig .tc := ⟨.hbm, 590, rfl⟩
abbrev main_v392 : Ref sig .tc := ⟨.hbm, 591, rfl⟩
abbrev main_cst_125 : Ref sig .tc := ⟨.hbm, 592, rfl⟩
abbrev main_call31_v0 : Ref sig .tc := ⟨.hbm, 593, rfl⟩
abbrev main_call31_v1 : Ref sig .tc := ⟨.hbm, 594, rfl⟩
abbrev main_v393 : Ref sig .tc := ⟨.hbm, 595, rfl⟩
abbrev main_v394 : Ref sig .tc := ⟨.hbm, 596, rfl⟩
abbrev main_v395 : Ref sig .tc := ⟨.hbm, 597, rfl⟩
abbrev main_v396 : Ref sig .tc := ⟨.hbm, 598, rfl⟩
abbrev main_v397 : Ref sig .tc := ⟨.hbm, 599, rfl⟩
abbrev main_v398 : Ref sig .tc := ⟨.hbm, 600, rfl⟩
abbrev main_v399 : Ref sig .tc := ⟨.hbm, 601, rfl⟩
abbrev main_c_126 : Ref sig .tc := ⟨.hbm, 602, rfl⟩
abbrev main_v400 : Ref sig .tc := ⟨.hbm, 603, rfl⟩
abbrev main_v401 : Ref sig .tc := ⟨.hbm, 604, rfl⟩
abbrev main_c_127 : Ref sig .tc := ⟨.hbm, 605, rfl⟩
abbrev main_v402 : Ref sig .tc := ⟨.hbm, 606, rfl⟩
abbrev main_v403 : Ref sig .tc := ⟨.hbm, 607, rfl⟩
abbrev main_v404 : Ref sig .tc := ⟨.hbm, 608, rfl⟩
abbrev main_v405 : Ref sig .tc := ⟨.hbm, 609, rfl⟩
abbrev main_v406 : Ref sig .tc := ⟨.hbm, 610, rfl⟩
abbrev main_cst_128 : Ref sig .tc := ⟨.hbm, 611, rfl⟩
abbrev main_v407 : Ref sig .tc := ⟨.hbm, 612, rfl⟩
abbrev main_v408 : Ref sig .tc := ⟨.hbm, 613, rfl⟩
abbrev main_v409 : Ref sig .tc := ⟨.hbm, 614, rfl⟩
abbrev main_v410 : Ref sig .tc := ⟨.hbm, 615, rfl⟩
abbrev main_v411 : Ref sig .tc := ⟨.hbm, 616, rfl⟩
abbrev main_v412 : Ref sig .tc := ⟨.hbm, 617, rfl⟩
abbrev main_v413 : Ref sig .tc := ⟨.hbm, 618, rfl⟩
abbrev main_v414 : Ref sig .tc := ⟨.hbm, 619, rfl⟩
abbrev main_v415 : Ref sig .tc := ⟨.hbm, 620, rfl⟩
abbrev main_v416 : Ref sig .tc := ⟨.hbm, 621, rfl⟩
abbrev main_v417 : Ref sig .tc := ⟨.hbm, 622, rfl⟩
abbrev main_v418 : Ref sig .tc := ⟨.hbm, 623, rfl⟩
abbrev main_v419 : Ref sig .tc := ⟨.hbm, 624, rfl⟩
abbrev main_v420 : Ref sig .tc := ⟨.hbm, 625, rfl⟩
abbrev main_v421 : Ref sig .tc := ⟨.hbm, 626, rfl⟩
abbrev main_v422 : Ref sig .tc := ⟨.hbm, 627, rfl⟩
abbrev main_cst_129 : Ref sig .tc := ⟨.hbm, 628, rfl⟩
abbrev main_v423 : Ref sig .tc := ⟨.hbm, 629, rfl⟩
abbrev main_cst_130 : Ref sig .tc := ⟨.hbm, 630, rfl⟩
abbrev main_v424 : Ref sig .tc := ⟨.hbm, 631, rfl⟩
abbrev main_v425 : Ref sig .tc := ⟨.hbm, 632, rfl⟩
abbrev main_v426 : Ref sig .tc := ⟨.hbm, 633, rfl⟩
abbrev main_cst_131 : Ref sig .tc := ⟨.hbm, 634, rfl⟩
abbrev main_v427 : Ref sig .tc := ⟨.hbm, 635, rfl⟩
abbrev main_v428 : Ref sig .tc := ⟨.hbm, 636, rfl⟩
abbrev main_v429 : Ref sig .tc := ⟨.hbm, 637, rfl⟩
abbrev main_cst_132 : Ref sig .tc := ⟨.hbm, 638, rfl⟩
abbrev main_v430 : Ref sig .tc := ⟨.hbm, 639, rfl⟩
abbrev main_v431 : Ref sig .tc := ⟨.hbm, 640, rfl⟩
abbrev main_cst_133 : Ref sig .tc := ⟨.hbm, 641, rfl⟩
abbrev main_call32_v0 : Ref sig .tc := ⟨.hbm, 642, rfl⟩
abbrev main_call32_v1 : Ref sig .tc := ⟨.hbm, 643, rfl⟩
abbrev main_v432 : Ref sig .tc := ⟨.hbm, 644, rfl⟩
abbrev main_cst_134 : Ref sig .tc := ⟨.hbm, 645, rfl⟩
abbrev main_v433 : Ref sig .tc := ⟨.hbm, 646, rfl⟩
abbrev main_v434 : Ref sig .tc := ⟨.hbm, 647, rfl⟩
abbrev main_cst_135 : Ref sig .tc := ⟨.hbm, 648, rfl⟩
abbrev main_v435 : Ref sig .tc := ⟨.hbm, 649, rfl⟩
abbrev main_v436 : Ref sig .tc := ⟨.hbm, 650, rfl⟩
abbrev main_cst_136 : Ref sig .tc := ⟨.hbm, 651, rfl⟩
abbrev main_call33_v0 : Ref sig .tc := ⟨.hbm, 652, rfl⟩
abbrev main_call33_v1 : Ref sig .tc := ⟨.hbm, 653, rfl⟩
abbrev main_v437 : Ref sig .tc := ⟨.hbm, 654, rfl⟩
abbrev main_cst_137 : Ref sig .tc := ⟨.hbm, 655, rfl⟩
abbrev main_v438 : Ref sig .tc := ⟨.hbm, 656, rfl⟩
abbrev main_v439 : Ref sig .tc := ⟨.hbm, 657, rfl⟩
abbrev main_cst_138 : Ref sig .tc := ⟨.hbm, 658, rfl⟩
abbrev main_call34_v0 : Ref sig .tc := ⟨.hbm, 659, rfl⟩
abbrev main_call34_v1 : Ref sig .tc := ⟨.hbm, 660, rfl⟩
abbrev main_v440 : Ref sig .tc := ⟨.hbm, 661, rfl⟩
abbrev main_cst_139 : Ref sig .tc := ⟨.hbm, 662, rfl⟩
abbrev main_v441 : Ref sig .tc := ⟨.hbm, 663, rfl⟩
abbrev main_v442 : Ref sig .tc := ⟨.hbm, 664, rfl⟩
abbrev main_cst_140 : Ref sig .tc := ⟨.hbm, 665, rfl⟩
abbrev main_v443 : Ref sig .tc := ⟨.hbm, 666, rfl⟩
abbrev main_v444 : Ref sig .tc := ⟨.hbm, 667, rfl⟩
abbrev main_cst_141 : Ref sig .tc := ⟨.hbm, 668, rfl⟩
abbrev main_call35_v0 : Ref sig .tc := ⟨.hbm, 669, rfl⟩
abbrev main_call35_v1 : Ref sig .tc := ⟨.hbm, 670, rfl⟩
abbrev main_v445 : Ref sig .tc := ⟨.hbm, 671, rfl⟩
abbrev main_v446 : Ref sig .tc := ⟨.hbm, 672, rfl⟩
abbrev main_v447 : Ref sig .tc := ⟨.hbm, 673, rfl⟩
abbrev main_v448 : Ref sig .tc := ⟨.hbm, 674, rfl⟩
abbrev main_v449 : Ref sig .tc := ⟨.hbm, 675, rfl⟩
abbrev main_v450 : Ref sig .tc := ⟨.hbm, 676, rfl⟩
abbrev main_v451 : Ref sig .tc := ⟨.hbm, 677, rfl⟩
abbrev main_c_142 : Ref sig .tc := ⟨.hbm, 678, rfl⟩
abbrev main_v452 : Ref sig .tc := ⟨.hbm, 679, rfl⟩
abbrev main_v453 : Ref sig .tc := ⟨.hbm, 680, rfl⟩
abbrev main_c_143 : Ref sig .tc := ⟨.hbm, 681, rfl⟩
abbrev main_v454 : Ref sig .tc := ⟨.hbm, 682, rfl⟩
abbrev main_v455 : Ref sig .tc := ⟨.hbm, 683, rfl⟩
abbrev main_v456 : Ref sig .tc := ⟨.hbm, 684, rfl⟩
abbrev main_v457 : Ref sig .tc := ⟨.hbm, 685, rfl⟩
abbrev main_v458 : Ref sig .tc := ⟨.hbm, 686, rfl⟩
abbrev main_cst_144 : Ref sig .tc := ⟨.hbm, 687, rfl⟩
abbrev main_v459 : Ref sig .tc := ⟨.hbm, 688, rfl⟩
abbrev main_v460 : Ref sig .tc := ⟨.hbm, 689, rfl⟩
abbrev main_v461 : Ref sig .tc := ⟨.hbm, 690, rfl⟩
abbrev main_v462 : Ref sig .tc := ⟨.hbm, 691, rfl⟩
abbrev main_v463 : Ref sig .tc := ⟨.hbm, 692, rfl⟩
abbrev main_v464 : Ref sig .tc := ⟨.hbm, 693, rfl⟩
abbrev main_v465 : Ref sig .tc := ⟨.hbm, 694, rfl⟩
abbrev main_v466 : Ref sig .tc := ⟨.hbm, 695, rfl⟩
abbrev main_v467 : Ref sig .tc := ⟨.hbm, 696, rfl⟩
abbrev main_v468 : Ref sig .tc := ⟨.hbm, 697, rfl⟩
abbrev main_v469 : Ref sig .tc := ⟨.hbm, 698, rfl⟩
abbrev main_v470 : Ref sig .tc := ⟨.hbm, 699, rfl⟩
abbrev main_call36_cst : Ref sig .tc := ⟨.hbm, 700, rfl⟩
abbrev main_call36_v0 : Ref sig .tc := ⟨.hbm, 701, rfl⟩
abbrev main_v471 : Ref sig .tc := ⟨.hbm, 702, rfl⟩
abbrev main_call37_cst : Ref sig .tc := ⟨.hbm, 703, rfl⟩
abbrev main_call37_v0 : Ref sig .tc := ⟨.hbm, 704, rfl⟩
abbrev main_v472 : Ref sig .tc := ⟨.hbm, 705, rfl⟩
abbrev main_call38_cst : Ref sig .tc := ⟨.hbm, 706, rfl⟩
abbrev main_call38_v0 : Ref sig .tc := ⟨.hbm, 707, rfl⟩
abbrev main_v473 : Ref sig .tc := ⟨.hbm, 708, rfl⟩
abbrev main_cst_145 : Ref sig .tc := ⟨.hbm, 709, rfl⟩
abbrev main_v474 : Ref sig .tc := ⟨.hbm, 710, rfl⟩
abbrev main_cst_146 : Ref sig .tc := ⟨.hbm, 711, rfl⟩
abbrev main_v475 : Ref sig .tc := ⟨.hbm, 712, rfl⟩
abbrev main_cst_147 : Ref sig .tc := ⟨.hbm, 713, rfl⟩
abbrev main_v476 : Ref sig .tc := ⟨.hbm, 714, rfl⟩
abbrev main_v477 : Ref sig .tc := ⟨.hbm, 715, rfl⟩
abbrev main_v478 : Ref sig .tc := ⟨.hbm, 716, rfl⟩
abbrev main_v479 : Ref sig .tc := ⟨.hbm, 717, rfl⟩
abbrev main_v480 : Ref sig .tc := ⟨.hbm, 718, rfl⟩
abbrev main_cst_148 : Ref sig .tc := ⟨.hbm, 719, rfl⟩
abbrev main_v481 : Ref sig .tc := ⟨.hbm, 720, rfl⟩
abbrev main_cst_149 : Ref sig .tc := ⟨.hbm, 721, rfl⟩
abbrev main_v482 : Ref sig .tc := ⟨.hbm, 722, rfl⟩
abbrev main_v483 : Ref sig .tc := ⟨.hbm, 723, rfl⟩
abbrev main_v484 : Ref sig .tc := ⟨.hbm, 724, rfl⟩
abbrev main_cst_150 : Ref sig .tc := ⟨.hbm, 725, rfl⟩
abbrev main_v485 : Ref sig .tc := ⟨.hbm, 726, rfl⟩
abbrev main_v486 : Ref sig .tc := ⟨.hbm, 727, rfl⟩
abbrev main_v487 : Ref sig .tc := ⟨.hbm, 728, rfl⟩
abbrev main_cst_151 : Ref sig .tc := ⟨.hbm, 729, rfl⟩
abbrev main_v488 : Ref sig .tc := ⟨.hbm, 730, rfl⟩
abbrev main_v489 : Ref sig .tc := ⟨.hbm, 731, rfl⟩
abbrev main_cst_152 : Ref sig .tc := ⟨.hbm, 732, rfl⟩
abbrev main_call39_v0 : Ref sig .tc := ⟨.hbm, 733, rfl⟩
abbrev main_call39_v1 : Ref sig .tc := ⟨.hbm, 734, rfl⟩
abbrev main_v490 : Ref sig .tc := ⟨.hbm, 735, rfl⟩
abbrev main_cst_153 : Ref sig .tc := ⟨.hbm, 736, rfl⟩
abbrev main_v491 : Ref sig .tc := ⟨.hbm, 737, rfl⟩
abbrev main_v492 : Ref sig .tc := ⟨.hbm, 738, rfl⟩
abbrev main_cst_154 : Ref sig .tc := ⟨.hbm, 739, rfl⟩
abbrev main_v493 : Ref sig .tc := ⟨.hbm, 740, rfl⟩
abbrev main_v494 : Ref sig .tc := ⟨.hbm, 741, rfl⟩
abbrev main_cst_155 : Ref sig .tc := ⟨.hbm, 742, rfl⟩
abbrev main_call40_v0 : Ref sig .tc := ⟨.hbm, 743, rfl⟩
abbrev main_call40_v1 : Ref sig .tc := ⟨.hbm, 744, rfl⟩
abbrev main_v495 : Ref sig .tc := ⟨.hbm, 745, rfl⟩
abbrev main_cst_156 : Ref sig .tc := ⟨.hbm, 746, rfl⟩
abbrev main_v496 : Ref sig .tc := ⟨.hbm, 747, rfl⟩
abbrev main_v497 : Ref sig .tc := ⟨.hbm, 748, rfl⟩
abbrev main_cst_157 : Ref sig .tc := ⟨.hbm, 749, rfl⟩
abbrev main_call41_v0 : Ref sig .tc := ⟨.hbm, 750, rfl⟩
abbrev main_call41_v1 : Ref sig .tc := ⟨.hbm, 751, rfl⟩
abbrev main_v498 : Ref sig .tc := ⟨.hbm, 752, rfl⟩
abbrev main_cst_158 : Ref sig .tc := ⟨.hbm, 753, rfl⟩
abbrev main_v499 : Ref sig .tc := ⟨.hbm, 754, rfl⟩
abbrev main_v500 : Ref sig .tc := ⟨.hbm, 755, rfl⟩
abbrev main_cst_159 : Ref sig .tc := ⟨.hbm, 756, rfl⟩
abbrev main_v501 : Ref sig .tc := ⟨.hbm, 757, rfl⟩
abbrev main_v502 : Ref sig .tc := ⟨.hbm, 758, rfl⟩
abbrev main_cst_160 : Ref sig .tc := ⟨.hbm, 759, rfl⟩
abbrev main_call42_v0 : Ref sig .tc := ⟨.hbm, 760, rfl⟩
abbrev main_call42_v1 : Ref sig .tc := ⟨.hbm, 761, rfl⟩
abbrev main_v503 : Ref sig .tc := ⟨.hbm, 762, rfl⟩
abbrev main_v504 : Ref sig .tc := ⟨.hbm, 763, rfl⟩
abbrev main_v505 : Ref sig .tc := ⟨.hbm, 764, rfl⟩
abbrev main_v506 : Ref sig .tc := ⟨.hbm, 765, rfl⟩
abbrev main_v507 : Ref sig .tc := ⟨.hbm, 766, rfl⟩
abbrev main_v508 : Ref sig .tc := ⟨.hbm, 767, rfl⟩
abbrev main_v509 : Ref sig .tc := ⟨.hbm, 768, rfl⟩
abbrev main_c_161 : Ref sig .tc := ⟨.hbm, 769, rfl⟩
abbrev main_v510 : Ref sig .tc := ⟨.hbm, 770, rfl⟩
abbrev main_v511 : Ref sig .tc := ⟨.hbm, 771, rfl⟩
abbrev main_c_162 : Ref sig .tc := ⟨.hbm, 772, rfl⟩
abbrev main_v512 : Ref sig .tc := ⟨.hbm, 773, rfl⟩
abbrev main_v513 : Ref sig .tc := ⟨.hbm, 774, rfl⟩
abbrev main_v514 : Ref sig .tc := ⟨.hbm, 775, rfl⟩
abbrev main_v515 : Ref sig .tc := ⟨.hbm, 776, rfl⟩
abbrev main_v516 : Ref sig .tc := ⟨.hbm, 777, rfl⟩
abbrev main_cst_163 : Ref sig .tc := ⟨.hbm, 778, rfl⟩
abbrev main_v517 : Ref sig .tc := ⟨.hbm, 779, rfl⟩
abbrev main_v518 : Ref sig .tc := ⟨.hbm, 780, rfl⟩
abbrev main_v519 : Ref sig .tc := ⟨.hbm, 781, rfl⟩
abbrev main_v520 : Ref sig .tc := ⟨.hbm, 782, rfl⟩
abbrev main_v521 : Ref sig .tc := ⟨.hbm, 783, rfl⟩
abbrev main_v522 : Ref sig .tc := ⟨.hbm, 784, rfl⟩
abbrev main_v523 : Ref sig .tc := ⟨.hbm, 785, rfl⟩
abbrev main_v524 : Ref sig .tc := ⟨.hbm, 786, rfl⟩
abbrev main_v525 : Ref sig .tc := ⟨.hbm, 787, rfl⟩
abbrev main_v526 : Ref sig .tc := ⟨.hbm, 788, rfl⟩
abbrev main_v527 : Ref sig .tc := ⟨.hbm, 789, rfl⟩
abbrev main_v528 : Ref sig .tc := ⟨.hbm, 790, rfl⟩
abbrev main_v529 : Ref sig .tc := ⟨.hbm, 791, rfl⟩
abbrev main_v530 : Ref sig .tc := ⟨.hbm, 792, rfl⟩
abbrev main_v531 : Ref sig .tc := ⟨.hbm, 793, rfl⟩
abbrev main_v532 : Ref sig .tc := ⟨.hbm, 794, rfl⟩
abbrev main_cst_164 : Ref sig .tc := ⟨.hbm, 795, rfl⟩
abbrev main_v533 : Ref sig .tc := ⟨.hbm, 796, rfl⟩
abbrev main_cst_165 : Ref sig .tc := ⟨.hbm, 797, rfl⟩
abbrev main_v534 : Ref sig .tc := ⟨.hbm, 798, rfl⟩
abbrev main_v535 : Ref sig .tc := ⟨.hbm, 799, rfl⟩
abbrev main_v536 : Ref sig .tc := ⟨.hbm, 800, rfl⟩
abbrev main_cst_166 : Ref sig .tc := ⟨.hbm, 801, rfl⟩
abbrev main_v537 : Ref sig .tc := ⟨.hbm, 802, rfl⟩
abbrev main_v538 : Ref sig .tc := ⟨.hbm, 803, rfl⟩
abbrev main_v539 : Ref sig .tc := ⟨.hbm, 804, rfl⟩
abbrev main_cst_167 : Ref sig .tc := ⟨.hbm, 805, rfl⟩
abbrev main_v540 : Ref sig .tc := ⟨.hbm, 806, rfl⟩
abbrev main_v541 : Ref sig .tc := ⟨.hbm, 807, rfl⟩
abbrev main_cst_168 : Ref sig .tc := ⟨.hbm, 808, rfl⟩
abbrev main_call43_v0 : Ref sig .tc := ⟨.hbm, 809, rfl⟩
abbrev main_call43_v1 : Ref sig .tc := ⟨.hbm, 810, rfl⟩
abbrev main_v542 : Ref sig .tc := ⟨.hbm, 811, rfl⟩
abbrev main_cst_169 : Ref sig .tc := ⟨.hbm, 812, rfl⟩
abbrev main_v543 : Ref sig .tc := ⟨.hbm, 813, rfl⟩
abbrev main_v544 : Ref sig .tc := ⟨.hbm, 814, rfl⟩
abbrev main_cst_170 : Ref sig .tc := ⟨.hbm, 815, rfl⟩
abbrev main_v545 : Ref sig .tc := ⟨.hbm, 816, rfl⟩
abbrev main_v546 : Ref sig .tc := ⟨.hbm, 817, rfl⟩
abbrev main_cst_171 : Ref sig .tc := ⟨.hbm, 818, rfl⟩
abbrev main_call44_v0 : Ref sig .tc := ⟨.hbm, 819, rfl⟩
abbrev main_call44_v1 : Ref sig .tc := ⟨.hbm, 820, rfl⟩
abbrev main_v547 : Ref sig .tc := ⟨.hbm, 821, rfl⟩
abbrev main_cst_172 : Ref sig .tc := ⟨.hbm, 822, rfl⟩
abbrev main_v548 : Ref sig .tc := ⟨.hbm, 823, rfl⟩
abbrev main_v549 : Ref sig .tc := ⟨.hbm, 824, rfl⟩
abbrev main_cst_173 : Ref sig .tc := ⟨.hbm, 825, rfl⟩
abbrev main_call45_v0 : Ref sig .tc := ⟨.hbm, 826, rfl⟩
abbrev main_call45_v1 : Ref sig .tc := ⟨.hbm, 827, rfl⟩
abbrev main_v550 : Ref sig .tc := ⟨.hbm, 828, rfl⟩
abbrev main_cst_174 : Ref sig .tc := ⟨.hbm, 829, rfl⟩
abbrev main_v551 : Ref sig .tc := ⟨.hbm, 830, rfl⟩
abbrev main_v552 : Ref sig .tc := ⟨.hbm, 831, rfl⟩
abbrev main_cst_175 : Ref sig .tc := ⟨.hbm, 832, rfl⟩
abbrev main_v553 : Ref sig .tc := ⟨.hbm, 833, rfl⟩
abbrev main_v554 : Ref sig .tc := ⟨.hbm, 834, rfl⟩
abbrev main_cst_176 : Ref sig .tc := ⟨.hbm, 835, rfl⟩
abbrev main_call46_v0 : Ref sig .tc := ⟨.hbm, 836, rfl⟩
abbrev main_call46_v1 : Ref sig .tc := ⟨.hbm, 837, rfl⟩
abbrev main_v555 : Ref sig .tc := ⟨.hbm, 838, rfl⟩
abbrev main_v556 : Ref sig .tc := ⟨.hbm, 839, rfl⟩
abbrev main_v557 : Ref sig .tc := ⟨.hbm, 840, rfl⟩
abbrev main_v558 : Ref sig .tc := ⟨.hbm, 841, rfl⟩
abbrev main_v559 : Ref sig .tc := ⟨.hbm, 842, rfl⟩
abbrev main_v560 : Ref sig .tc := ⟨.hbm, 843, rfl⟩
abbrev main_v561 : Ref sig .tc := ⟨.hbm, 844, rfl⟩
abbrev main_c_177 : Ref sig .tc := ⟨.hbm, 845, rfl⟩
abbrev main_v562 : Ref sig .tc := ⟨.hbm, 846, rfl⟩
abbrev main_v563 : Ref sig .tc := ⟨.hbm, 847, rfl⟩
abbrev main_c_178 : Ref sig .tc := ⟨.hbm, 848, rfl⟩
abbrev main_v564 : Ref sig .tc := ⟨.hbm, 849, rfl⟩
abbrev main_v565 : Ref sig .tc := ⟨.hbm, 850, rfl⟩
abbrev main_v566 : Ref sig .tc := ⟨.hbm, 851, rfl⟩
abbrev main_v567 : Ref sig .tc := ⟨.hbm, 852, rfl⟩
abbrev main_v568 : Ref sig .tc := ⟨.hbm, 853, rfl⟩
abbrev main_cst_179 : Ref sig .tc := ⟨.hbm, 854, rfl⟩
abbrev main_v569 : Ref sig .tc := ⟨.hbm, 855, rfl⟩
abbrev main_v570 : Ref sig .tc := ⟨.hbm, 856, rfl⟩
abbrev main_v571 : Ref sig .tc := ⟨.hbm, 857, rfl⟩
abbrev main_v572 : Ref sig .tc := ⟨.hbm, 858, rfl⟩
abbrev main_v573 : Ref sig .tc := ⟨.hbm, 859, rfl⟩
abbrev main_v574 : Ref sig .tc := ⟨.hbm, 860, rfl⟩
abbrev main_v575 : Ref sig .tc := ⟨.hbm, 861, rfl⟩
abbrev main_v576 : Ref sig .tc := ⟨.hbm, 862, rfl⟩
abbrev main_v577 : Ref sig .tc := ⟨.hbm, 863, rfl⟩
abbrev main_v578 : Ref sig .tc := ⟨.hbm, 864, rfl⟩
abbrev main_v579 : Ref sig .tc := ⟨.hbm, 865, rfl⟩
abbrev main_v580 : Ref sig .tc := ⟨.hbm, 866, rfl⟩
abbrev main_v581 : Ref sig .tc := ⟨.hbm, 867, rfl⟩
abbrev main_v582 : Ref sig .tc := ⟨.hbm, 868, rfl⟩
abbrev main_v583 : Ref sig .tc := ⟨.hbm, 869, rfl⟩
abbrev main_v584 : Ref sig .tc := ⟨.hbm, 870, rfl⟩
abbrev main_cst_180 : Ref sig .tc := ⟨.hbm, 871, rfl⟩
abbrev main_v585 : Ref sig .tc := ⟨.hbm, 872, rfl⟩
abbrev main_cst_181 : Ref sig .tc := ⟨.hbm, 873, rfl⟩
abbrev main_v586 : Ref sig .tc := ⟨.hbm, 874, rfl⟩
abbrev main_v587 : Ref sig .tc := ⟨.hbm, 875, rfl⟩
abbrev main_v588 : Ref sig .tc := ⟨.hbm, 876, rfl⟩
abbrev main_cst_182 : Ref sig .tc := ⟨.hbm, 877, rfl⟩
abbrev main_v589 : Ref sig .tc := ⟨.hbm, 878, rfl⟩
abbrev main_v590 : Ref sig .tc := ⟨.hbm, 879, rfl⟩
abbrev main_v591 : Ref sig .tc := ⟨.hbm, 880, rfl⟩
abbrev main_cst_183 : Ref sig .tc := ⟨.hbm, 881, rfl⟩
abbrev main_v592 : Ref sig .tc := ⟨.hbm, 882, rfl⟩
abbrev main_v593 : Ref sig .tc := ⟨.hbm, 883, rfl⟩
abbrev main_cst_184 : Ref sig .tc := ⟨.hbm, 884, rfl⟩
abbrev main_call47_v0 : Ref sig .tc := ⟨.hbm, 885, rfl⟩
abbrev main_call47_v1 : Ref sig .tc := ⟨.hbm, 886, rfl⟩
abbrev main_v594 : Ref sig .tc := ⟨.hbm, 887, rfl⟩
abbrev main_cst_185 : Ref sig .tc := ⟨.hbm, 888, rfl⟩
abbrev main_v595 : Ref sig .tc := ⟨.hbm, 889, rfl⟩
abbrev main_v596 : Ref sig .tc := ⟨.hbm, 890, rfl⟩
abbrev main_cst_186 : Ref sig .tc := ⟨.hbm, 891, rfl⟩
abbrev main_v597 : Ref sig .tc := ⟨.hbm, 892, rfl⟩
abbrev main_v598 : Ref sig .tc := ⟨.hbm, 893, rfl⟩
abbrev main_cst_187 : Ref sig .tc := ⟨.hbm, 894, rfl⟩
abbrev main_call48_v0 : Ref sig .tc := ⟨.hbm, 895, rfl⟩
abbrev main_call48_v1 : Ref sig .tc := ⟨.hbm, 896, rfl⟩
abbrev main_v599 : Ref sig .tc := ⟨.hbm, 897, rfl⟩
abbrev main_cst_188 : Ref sig .tc := ⟨.hbm, 898, rfl⟩
abbrev main_v600 : Ref sig .tc := ⟨.hbm, 899, rfl⟩
abbrev main_v601 : Ref sig .tc := ⟨.hbm, 900, rfl⟩
abbrev main_cst_189 : Ref sig .tc := ⟨.hbm, 901, rfl⟩
abbrev main_call49_v0 : Ref sig .tc := ⟨.hbm, 902, rfl⟩
abbrev main_call49_v1 : Ref sig .tc := ⟨.hbm, 903, rfl⟩
abbrev main_v602 : Ref sig .tc := ⟨.hbm, 904, rfl⟩
abbrev main_cst_190 : Ref sig .tc := ⟨.hbm, 905, rfl⟩
abbrev main_v603 : Ref sig .tc := ⟨.hbm, 906, rfl⟩
abbrev main_v604 : Ref sig .tc := ⟨.hbm, 907, rfl⟩
abbrev main_cst_191 : Ref sig .tc := ⟨.hbm, 908, rfl⟩
abbrev main_v605 : Ref sig .tc := ⟨.hbm, 909, rfl⟩
abbrev main_v606 : Ref sig .tc := ⟨.hbm, 910, rfl⟩
abbrev main_cst_192 : Ref sig .tc := ⟨.hbm, 911, rfl⟩
abbrev main_call50_v0 : Ref sig .tc := ⟨.hbm, 912, rfl⟩
abbrev main_call50_v1 : Ref sig .tc := ⟨.hbm, 913, rfl⟩
abbrev main_v607 : Ref sig .tc := ⟨.hbm, 914, rfl⟩
abbrev main_v608 : Ref sig .tc := ⟨.hbm, 915, rfl⟩
abbrev main_v609 : Ref sig .tc := ⟨.hbm, 916, rfl⟩
abbrev main_v610 : Ref sig .tc := ⟨.hbm, 917, rfl⟩
abbrev main_v611 : Ref sig .tc := ⟨.hbm, 918, rfl⟩
abbrev main_v612 : Ref sig .tc := ⟨.hbm, 919, rfl⟩
abbrev main_v613 : Ref sig .tc := ⟨.hbm, 920, rfl⟩
abbrev main_c_193 : Ref sig .tc := ⟨.hbm, 921, rfl⟩
abbrev main_v614 : Ref sig .tc := ⟨.hbm, 922, rfl⟩
abbrev main_v615 : Ref sig .tc := ⟨.hbm, 923, rfl⟩
abbrev main_c_194 : Ref sig .tc := ⟨.hbm, 924, rfl⟩
abbrev main_v616 : Ref sig .tc := ⟨.hbm, 925, rfl⟩
abbrev main_v617 : Ref sig .tc := ⟨.hbm, 926, rfl⟩
abbrev main_v618 : Ref sig .tc := ⟨.hbm, 927, rfl⟩
abbrev main_v619 : Ref sig .tc := ⟨.hbm, 928, rfl⟩
abbrev main_v620 : Ref sig .tc := ⟨.hbm, 929, rfl⟩
abbrev main_cst_195 : Ref sig .tc := ⟨.hbm, 930, rfl⟩
abbrev main_v621 : Ref sig .tc := ⟨.hbm, 931, rfl⟩
abbrev main_v622 : Ref sig .tc := ⟨.hbm, 932, rfl⟩
abbrev main_v623 : Ref sig .tc := ⟨.hbm, 933, rfl⟩
abbrev main_v624 : Ref sig .tc := ⟨.hbm, 934, rfl⟩
abbrev main_v625 : Ref sig .tc := ⟨.hbm, 935, rfl⟩
abbrev main_v626 : Ref sig .tc := ⟨.hbm, 936, rfl⟩
abbrev main_v627 : Ref sig .tc := ⟨.hbm, 937, rfl⟩
abbrev main_v628 : Ref sig .tc := ⟨.hbm, 938, rfl⟩
abbrev main_v629 : Ref sig .tc := ⟨.hbm, 939, rfl⟩
abbrev main_v630 : Ref sig .tc := ⟨.hbm, 940, rfl⟩
abbrev main_v631 : Ref sig .tc := ⟨.hbm, 941, rfl⟩
abbrev main_v632 : Ref sig .tc := ⟨.hbm, 942, rfl⟩
abbrev main_v633 : Ref sig .tc := ⟨.hbm, 943, rfl⟩
abbrev main_v634 : Ref sig .tc := ⟨.hbm, 944, rfl⟩
abbrev main_v635 : Ref sig .tc := ⟨.hbm, 945, rfl⟩
abbrev main_v636 : Ref sig .tc := ⟨.hbm, 946, rfl⟩
abbrev main_cst_196 : Ref sig .tc := ⟨.hbm, 947, rfl⟩
abbrev main_v637 : Ref sig .tc := ⟨.hbm, 948, rfl⟩
abbrev main_cst_197 : Ref sig .tc := ⟨.hbm, 949, rfl⟩
abbrev main_v638 : Ref sig .tc := ⟨.hbm, 950, rfl⟩
abbrev main_v639 : Ref sig .tc := ⟨.hbm, 951, rfl⟩
abbrev main_v640 : Ref sig .tc := ⟨.hbm, 952, rfl⟩
abbrev main_cst_198 : Ref sig .tc := ⟨.hbm, 953, rfl⟩
abbrev main_v641 : Ref sig .tc := ⟨.hbm, 954, rfl⟩
abbrev main_v642 : Ref sig .tc := ⟨.hbm, 955, rfl⟩
abbrev main_v643 : Ref sig .tc := ⟨.hbm, 956, rfl⟩
abbrev main_cst_199 : Ref sig .tc := ⟨.hbm, 957, rfl⟩
abbrev main_v644 : Ref sig .tc := ⟨.hbm, 958, rfl⟩
abbrev main_v645 : Ref sig .tc := ⟨.hbm, 959, rfl⟩
abbrev main_cst_200 : Ref sig .tc := ⟨.hbm, 960, rfl⟩
abbrev main_call51_v0 : Ref sig .tc := ⟨.hbm, 961, rfl⟩
abbrev main_call51_v1 : Ref sig .tc := ⟨.hbm, 962, rfl⟩
abbrev main_v646 : Ref sig .tc := ⟨.hbm, 963, rfl⟩
abbrev main_cst_201 : Ref sig .tc := ⟨.hbm, 964, rfl⟩
abbrev main_v647 : Ref sig .tc := ⟨.hbm, 965, rfl⟩
abbrev main_v648 : Ref sig .tc := ⟨.hbm, 966, rfl⟩
abbrev main_cst_202 : Ref sig .tc := ⟨.hbm, 967, rfl⟩
abbrev main_v649 : Ref sig .tc := ⟨.hbm, 968, rfl⟩
abbrev main_v650 : Ref sig .tc := ⟨.hbm, 969, rfl⟩
abbrev main_cst_203 : Ref sig .tc := ⟨.hbm, 970, rfl⟩
abbrev main_call52_v0 : Ref sig .tc := ⟨.hbm, 971, rfl⟩
abbrev main_call52_v1 : Ref sig .tc := ⟨.hbm, 972, rfl⟩
abbrev main_v651 : Ref sig .tc := ⟨.hbm, 973, rfl⟩
abbrev main_cst_204 : Ref sig .tc := ⟨.hbm, 974, rfl⟩
abbrev main_v652 : Ref sig .tc := ⟨.hbm, 975, rfl⟩
abbrev main_v653 : Ref sig .tc := ⟨.hbm, 976, rfl⟩
abbrev main_cst_205 : Ref sig .tc := ⟨.hbm, 977, rfl⟩
abbrev main_call53_v0 : Ref sig .tc := ⟨.hbm, 978, rfl⟩
abbrev main_call53_v1 : Ref sig .tc := ⟨.hbm, 979, rfl⟩
abbrev main_v654 : Ref sig .tc := ⟨.hbm, 980, rfl⟩
abbrev main_cst_206 : Ref sig .tc := ⟨.hbm, 981, rfl⟩
abbrev main_v655 : Ref sig .tc := ⟨.hbm, 982, rfl⟩
abbrev main_v656 : Ref sig .tc := ⟨.hbm, 983, rfl⟩
abbrev main_cst_207 : Ref sig .tc := ⟨.hbm, 984, rfl⟩
abbrev main_v657 : Ref sig .tc := ⟨.hbm, 985, rfl⟩
abbrev main_v658 : Ref sig .tc := ⟨.hbm, 986, rfl⟩
abbrev main_cst_208 : Ref sig .tc := ⟨.hbm, 987, rfl⟩
abbrev main_call54_v0 : Ref sig .tc := ⟨.hbm, 988, rfl⟩
abbrev main_call54_v1 : Ref sig .tc := ⟨.hbm, 989, rfl⟩
abbrev main_v659 : Ref sig .tc := ⟨.hbm, 990, rfl⟩
abbrev main_v660 : Ref sig .tc := ⟨.hbm, 991, rfl⟩
abbrev main_v661 : Ref sig .tc := ⟨.hbm, 992, rfl⟩
abbrev main_v662 : Ref sig .tc := ⟨.hbm, 993, rfl⟩
abbrev main_v663 : Ref sig .tc := ⟨.hbm, 994, rfl⟩
abbrev main_v664 : Ref sig .tc := ⟨.hbm, 995, rfl⟩
abbrev main_v665 : Ref sig .tc := ⟨.hbm, 996, rfl⟩
abbrev main_c_209 : Ref sig .tc := ⟨.hbm, 997, rfl⟩
abbrev main_v666 : Ref sig .tc := ⟨.hbm, 998, rfl⟩
abbrev main_v667 : Ref sig .tc := ⟨.hbm, 999, rfl⟩
abbrev main_c_210 : Ref sig .tc := ⟨.hbm, 1000, rfl⟩
abbrev main_v668 : Ref sig .tc := ⟨.hbm, 1001, rfl⟩
abbrev main_v669 : Ref sig .tc := ⟨.hbm, 1002, rfl⟩
abbrev main_v670 : Ref sig .tc := ⟨.hbm, 1003, rfl⟩
abbrev main_v671 : Ref sig .tc := ⟨.hbm, 1004, rfl⟩
abbrev main_v672 : Ref sig .tc := ⟨.hbm, 1005, rfl⟩
abbrev main_cst_211 : Ref sig .tc := ⟨.hbm, 1006, rfl⟩
abbrev main_v673 : Ref sig .tc := ⟨.hbm, 1007, rfl⟩
abbrev main_v674 : Ref sig .tc := ⟨.hbm, 1008, rfl⟩
abbrev main_v675 : Ref sig .tc := ⟨.hbm, 1009, rfl⟩
abbrev main_v676 : Ref sig .tc := ⟨.hbm, 1010, rfl⟩
abbrev main_v677 : Ref sig .tc := ⟨.hbm, 1011, rfl⟩
abbrev main_v678 : Ref sig .tc := ⟨.hbm, 1012, rfl⟩
abbrev main_v679 : Ref sig .tc := ⟨.hbm, 1013, rfl⟩
abbrev main_v680 : Ref sig .tc := ⟨.hbm, 1014, rfl⟩
abbrev main_v681 : Ref sig .tc := ⟨.hbm, 1015, rfl⟩
abbrev main_v682 : Ref sig .tc := ⟨.hbm, 1016, rfl⟩
abbrev main_v683 : Ref sig .tc := ⟨.hbm, 1017, rfl⟩
abbrev main_v684 : Ref sig .tc := ⟨.hbm, 1018, rfl⟩
abbrev main_v685 : Ref sig .tc := ⟨.hbm, 1019, rfl⟩
abbrev main_v686 : Ref sig .tc := ⟨.hbm, 1020, rfl⟩
abbrev main_v687 : Ref sig .tc := ⟨.hbm, 1021, rfl⟩
abbrev main_v688 : Ref sig .tc := ⟨.hbm, 1022, rfl⟩
abbrev main_cst_212 : Ref sig .tc := ⟨.hbm, 1023, rfl⟩
abbrev main_v689 : Ref sig .tc := ⟨.hbm, 1024, rfl⟩
abbrev main_cst_213 : Ref sig .tc := ⟨.hbm, 1025, rfl⟩
abbrev main_v690 : Ref sig .tc := ⟨.hbm, 1026, rfl⟩
abbrev main_v691 : Ref sig .tc := ⟨.hbm, 1027, rfl⟩
abbrev main_v692 : Ref sig .tc := ⟨.hbm, 1028, rfl⟩
abbrev main_cst_214 : Ref sig .tc := ⟨.hbm, 1029, rfl⟩
abbrev main_v693 : Ref sig .tc := ⟨.hbm, 1030, rfl⟩
abbrev main_v694 : Ref sig .tc := ⟨.hbm, 1031, rfl⟩
abbrev main_v695 : Ref sig .tc := ⟨.hbm, 1032, rfl⟩
abbrev main_cst_215 : Ref sig .tc := ⟨.hbm, 1033, rfl⟩
abbrev main_v696 : Ref sig .tc := ⟨.hbm, 1034, rfl⟩
abbrev main_v697 : Ref sig .tc := ⟨.hbm, 1035, rfl⟩
abbrev main_cst_216 : Ref sig .tc := ⟨.hbm, 1036, rfl⟩
abbrev main_call55_v0 : Ref sig .tc := ⟨.hbm, 1037, rfl⟩
abbrev main_call55_v1 : Ref sig .tc := ⟨.hbm, 1038, rfl⟩
abbrev main_v698 : Ref sig .tc := ⟨.hbm, 1039, rfl⟩
abbrev main_cst_217 : Ref sig .tc := ⟨.hbm, 1040, rfl⟩
abbrev main_v699 : Ref sig .tc := ⟨.hbm, 1041, rfl⟩
abbrev main_v700 : Ref sig .tc := ⟨.hbm, 1042, rfl⟩
abbrev main_cst_218 : Ref sig .tc := ⟨.hbm, 1043, rfl⟩
abbrev main_v701 : Ref sig .tc := ⟨.hbm, 1044, rfl⟩
abbrev main_v702 : Ref sig .tc := ⟨.hbm, 1045, rfl⟩
abbrev main_cst_219 : Ref sig .tc := ⟨.hbm, 1046, rfl⟩
abbrev main_call56_v0 : Ref sig .tc := ⟨.hbm, 1047, rfl⟩
abbrev main_call56_v1 : Ref sig .tc := ⟨.hbm, 1048, rfl⟩
abbrev main_v703 : Ref sig .tc := ⟨.hbm, 1049, rfl⟩
abbrev main_cst_220 : Ref sig .tc := ⟨.hbm, 1050, rfl⟩
abbrev main_v704 : Ref sig .tc := ⟨.hbm, 1051, rfl⟩
abbrev main_v705 : Ref sig .tc := ⟨.hbm, 1052, rfl⟩
abbrev main_cst_221 : Ref sig .tc := ⟨.hbm, 1053, rfl⟩
abbrev main_call57_v0 : Ref sig .tc := ⟨.hbm, 1054, rfl⟩
abbrev main_call57_v1 : Ref sig .tc := ⟨.hbm, 1055, rfl⟩
abbrev main_v706 : Ref sig .tc := ⟨.hbm, 1056, rfl⟩
abbrev main_cst_222 : Ref sig .tc := ⟨.hbm, 1057, rfl⟩
abbrev main_v707 : Ref sig .tc := ⟨.hbm, 1058, rfl⟩
abbrev main_v708 : Ref sig .tc := ⟨.hbm, 1059, rfl⟩
abbrev main_cst_223 : Ref sig .tc := ⟨.hbm, 1060, rfl⟩
abbrev main_v709 : Ref sig .tc := ⟨.hbm, 1061, rfl⟩
abbrev main_v710 : Ref sig .tc := ⟨.hbm, 1062, rfl⟩
abbrev main_cst_224 : Ref sig .tc := ⟨.hbm, 1063, rfl⟩
abbrev main_call58_v0 : Ref sig .tc := ⟨.hbm, 1064, rfl⟩
abbrev main_call58_v1 : Ref sig .tc := ⟨.hbm, 1065, rfl⟩
abbrev main_v711 : Ref sig .tc := ⟨.hbm, 1066, rfl⟩
abbrev main_v712 : Ref sig .tc := ⟨.hbm, 1067, rfl⟩
abbrev main_v713 : Ref sig .tc := ⟨.hbm, 1068, rfl⟩
abbrev main_v714 : Ref sig .tc := ⟨.hbm, 1069, rfl⟩
abbrev main_v715 : Ref sig .tc := ⟨.hbm, 1070, rfl⟩
abbrev main_v716 : Ref sig .tc := ⟨.hbm, 1071, rfl⟩
abbrev main_v717 : Ref sig .tc := ⟨.hbm, 1072, rfl⟩
abbrev main_c_225 : Ref sig .tc := ⟨.hbm, 1073, rfl⟩
abbrev main_v718 : Ref sig .tc := ⟨.hbm, 1074, rfl⟩
abbrev main_v719 : Ref sig .tc := ⟨.hbm, 1075, rfl⟩
abbrev main_c_226 : Ref sig .tc := ⟨.hbm, 1076, rfl⟩
abbrev main_v720 : Ref sig .tc := ⟨.hbm, 1077, rfl⟩
abbrev main_v721 : Ref sig .tc := ⟨.hbm, 1078, rfl⟩
abbrev main_v722 : Ref sig .tc := ⟨.hbm, 1079, rfl⟩
abbrev main_v723 : Ref sig .tc := ⟨.hbm, 1080, rfl⟩
abbrev main_v724 : Ref sig .tc := ⟨.hbm, 1081, rfl⟩
abbrev main_cst_227 : Ref sig .tc := ⟨.hbm, 1082, rfl⟩
abbrev main_v725 : Ref sig .tc := ⟨.hbm, 1083, rfl⟩
abbrev main_v726 : Ref sig .tc := ⟨.hbm, 1084, rfl⟩
abbrev main_v727 : Ref sig .tc := ⟨.hbm, 1085, rfl⟩
abbrev main_v728 : Ref sig .tc := ⟨.hbm, 1086, rfl⟩
abbrev main_v729 : Ref sig .tc := ⟨.hbm, 1087, rfl⟩
abbrev main_v730 : Ref sig .tc := ⟨.hbm, 1088, rfl⟩
abbrev main_v731 : Ref sig .tc := ⟨.hbm, 1089, rfl⟩
abbrev main_v732 : Ref sig .tc := ⟨.hbm, 1090, rfl⟩
abbrev main_v733 : Ref sig .tc := ⟨.hbm, 1091, rfl⟩
abbrev main_v734 : Ref sig .tc := ⟨.hbm, 1092, rfl⟩
abbrev main_v735 : Ref sig .tc := ⟨.hbm, 1093, rfl⟩
abbrev main_v736 : Ref sig .tc := ⟨.hbm, 1094, rfl⟩
abbrev main_v737 : Ref sig .tc := ⟨.hbm, 1095, rfl⟩
abbrev main_v738 : Ref sig .tc := ⟨.hbm, 1096, rfl⟩
abbrev main_v739 : Ref sig .tc := ⟨.hbm, 1097, rfl⟩
abbrev main_v740 : Ref sig .tc := ⟨.hbm, 1098, rfl⟩
abbrev main_cst_228 : Ref sig .tc := ⟨.hbm, 1099, rfl⟩
abbrev main_v741 : Ref sig .tc := ⟨.hbm, 1100, rfl⟩
abbrev main_cst_229 : Ref sig .tc := ⟨.hbm, 1101, rfl⟩
abbrev main_v742 : Ref sig .tc := ⟨.hbm, 1102, rfl⟩
abbrev main_v743 : Ref sig .tc := ⟨.hbm, 1103, rfl⟩
abbrev main_v744 : Ref sig .tc := ⟨.hbm, 1104, rfl⟩
abbrev main_cst_230 : Ref sig .tc := ⟨.hbm, 1105, rfl⟩
abbrev main_v745 : Ref sig .tc := ⟨.hbm, 1106, rfl⟩
abbrev main_v746 : Ref sig .tc := ⟨.hbm, 1107, rfl⟩
abbrev main_v747 : Ref sig .tc := ⟨.hbm, 1108, rfl⟩
abbrev main_cst_231 : Ref sig .tc := ⟨.hbm, 1109, rfl⟩
abbrev main_v748 : Ref sig .tc := ⟨.hbm, 1110, rfl⟩
abbrev main_v749 : Ref sig .tc := ⟨.hbm, 1111, rfl⟩
abbrev main_cst_232 : Ref sig .tc := ⟨.hbm, 1112, rfl⟩
abbrev main_call59_v0 : Ref sig .tc := ⟨.hbm, 1113, rfl⟩
abbrev main_call59_v1 : Ref sig .tc := ⟨.hbm, 1114, rfl⟩
abbrev main_v750 : Ref sig .tc := ⟨.hbm, 1115, rfl⟩
abbrev main_cst_233 : Ref sig .tc := ⟨.hbm, 1116, rfl⟩
abbrev main_v751 : Ref sig .tc := ⟨.hbm, 1117, rfl⟩
abbrev main_v752 : Ref sig .tc := ⟨.hbm, 1118, rfl⟩
abbrev main_cst_234 : Ref sig .tc := ⟨.hbm, 1119, rfl⟩
abbrev main_v753 : Ref sig .tc := ⟨.hbm, 1120, rfl⟩
abbrev main_v754 : Ref sig .tc := ⟨.hbm, 1121, rfl⟩
abbrev main_cst_235 : Ref sig .tc := ⟨.hbm, 1122, rfl⟩
abbrev main_call60_v0 : Ref sig .tc := ⟨.hbm, 1123, rfl⟩
abbrev main_call60_v1 : Ref sig .tc := ⟨.hbm, 1124, rfl⟩
abbrev main_v755 : Ref sig .tc := ⟨.hbm, 1125, rfl⟩
abbrev main_cst_236 : Ref sig .tc := ⟨.hbm, 1126, rfl⟩
abbrev main_v756 : Ref sig .tc := ⟨.hbm, 1127, rfl⟩
abbrev main_v757 : Ref sig .tc := ⟨.hbm, 1128, rfl⟩
abbrev main_cst_237 : Ref sig .tc := ⟨.hbm, 1129, rfl⟩
abbrev main_call61_v0 : Ref sig .tc := ⟨.hbm, 1130, rfl⟩
abbrev main_call61_v1 : Ref sig .tc := ⟨.hbm, 1131, rfl⟩
abbrev main_v758 : Ref sig .tc := ⟨.hbm, 1132, rfl⟩
abbrev main_cst_238 : Ref sig .tc := ⟨.hbm, 1133, rfl⟩
abbrev main_v759 : Ref sig .tc := ⟨.hbm, 1134, rfl⟩
abbrev main_v760 : Ref sig .tc := ⟨.hbm, 1135, rfl⟩
abbrev main_cst_239 : Ref sig .tc := ⟨.hbm, 1136, rfl⟩
abbrev main_v761 : Ref sig .tc := ⟨.hbm, 1137, rfl⟩
abbrev main_v762 : Ref sig .tc := ⟨.hbm, 1138, rfl⟩
abbrev main_cst_240 : Ref sig .tc := ⟨.hbm, 1139, rfl⟩
abbrev main_call62_v0 : Ref sig .tc := ⟨.hbm, 1140, rfl⟩
abbrev main_call62_v1 : Ref sig .tc := ⟨.hbm, 1141, rfl⟩
abbrev main_v763 : Ref sig .tc := ⟨.hbm, 1142, rfl⟩
abbrev main_v764 : Ref sig .tc := ⟨.hbm, 1143, rfl⟩
abbrev main_v765 : Ref sig .tc := ⟨.hbm, 1144, rfl⟩
abbrev main_v766 : Ref sig .tc := ⟨.hbm, 1145, rfl⟩
abbrev main_v767 : Ref sig .tc := ⟨.hbm, 1146, rfl⟩
abbrev main_v768 : Ref sig .tc := ⟨.hbm, 1147, rfl⟩
abbrev main_v769 : Ref sig .tc := ⟨.hbm, 1148, rfl⟩
abbrev main_c_241 : Ref sig .tc := ⟨.hbm, 1149, rfl⟩
abbrev main_v770 : Ref sig .tc := ⟨.hbm, 1150, rfl⟩
abbrev main_v771 : Ref sig .tc := ⟨.hbm, 1151, rfl⟩
abbrev main_c_242 : Ref sig .tc := ⟨.hbm, 1152, rfl⟩
abbrev main_v772 : Ref sig .tc := ⟨.hbm, 1153, rfl⟩
abbrev main_v773 : Ref sig .tc := ⟨.hbm, 1154, rfl⟩
abbrev main_v774 : Ref sig .tc := ⟨.hbm, 1155, rfl⟩
abbrev main_v775 : Ref sig .tc := ⟨.hbm, 1156, rfl⟩
abbrev main_v776 : Ref sig .tc := ⟨.hbm, 1157, rfl⟩
abbrev main_cst_243 : Ref sig .tc := ⟨.hbm, 1158, rfl⟩
abbrev main_v777 : Ref sig .tc := ⟨.hbm, 1159, rfl⟩
abbrev main_v778 : Ref sig .tc := ⟨.hbm, 1160, rfl⟩
abbrev main_v779 : Ref sig .tc := ⟨.hbm, 1161, rfl⟩
abbrev main_v780 : Ref sig .tc := ⟨.hbm, 1162, rfl⟩
abbrev main_v781 : Ref sig .tc := ⟨.hbm, 1163, rfl⟩
abbrev main_v782 : Ref sig .tc := ⟨.hbm, 1164, rfl⟩
abbrev main_v783 : Ref sig .tc := ⟨.hbm, 1165, rfl⟩
abbrev main_v784 : Ref sig .tc := ⟨.hbm, 1166, rfl⟩
abbrev main_v785 : Ref sig .tc := ⟨.hbm, 1167, rfl⟩
abbrev main_v786 : Ref sig .tc := ⟨.hbm, 1168, rfl⟩
abbrev main_v787 : Ref sig .tc := ⟨.hbm, 1169, rfl⟩
abbrev main_v788 : Ref sig .tc := ⟨.hbm, 1170, rfl⟩
abbrev main_v789 : Ref sig .tc := ⟨.hbm, 1171, rfl⟩
abbrev main_v790 : Ref sig .tc := ⟨.hbm, 1172, rfl⟩
abbrev main_v791 : Ref sig .tc := ⟨.hbm, 1173, rfl⟩
abbrev main_v792 : Ref sig .tc := ⟨.hbm, 1174, rfl⟩
abbrev main_cst_244 : Ref sig .tc := ⟨.hbm, 1175, rfl⟩
abbrev main_v793 : Ref sig .tc := ⟨.hbm, 1176, rfl⟩
abbrev main_cst_245 : Ref sig .tc := ⟨.hbm, 1177, rfl⟩
abbrev main_v794 : Ref sig .tc := ⟨.hbm, 1178, rfl⟩
abbrev main_v795 : Ref sig .tc := ⟨.hbm, 1179, rfl⟩
abbrev main_v796 : Ref sig .tc := ⟨.hbm, 1180, rfl⟩
abbrev main_cst_246 : Ref sig .tc := ⟨.hbm, 1181, rfl⟩
abbrev main_v797 : Ref sig .tc := ⟨.hbm, 1182, rfl⟩
abbrev main_v798 : Ref sig .tc := ⟨.hbm, 1183, rfl⟩
abbrev main_v799 : Ref sig .tc := ⟨.hbm, 1184, rfl⟩
abbrev main_cst_247 : Ref sig .tc := ⟨.hbm, 1185, rfl⟩
abbrev main_v800 : Ref sig .tc := ⟨.hbm, 1186, rfl⟩
abbrev main_v801 : Ref sig .tc := ⟨.hbm, 1187, rfl⟩
abbrev main_cst_248 : Ref sig .tc := ⟨.hbm, 1188, rfl⟩
abbrev main_call63_v0 : Ref sig .tc := ⟨.hbm, 1189, rfl⟩
abbrev main_call63_v1 : Ref sig .tc := ⟨.hbm, 1190, rfl⟩
abbrev main_v802 : Ref sig .tc := ⟨.hbm, 1191, rfl⟩
abbrev main_cst_249 : Ref sig .tc := ⟨.hbm, 1192, rfl⟩
abbrev main_v803 : Ref sig .tc := ⟨.hbm, 1193, rfl⟩
abbrev main_v804 : Ref sig .tc := ⟨.hbm, 1194, rfl⟩
abbrev main_cst_250 : Ref sig .tc := ⟨.hbm, 1195, rfl⟩
abbrev main_v805 : Ref sig .tc := ⟨.hbm, 1196, rfl⟩
abbrev main_v806 : Ref sig .tc := ⟨.hbm, 1197, rfl⟩
abbrev main_cst_251 : Ref sig .tc := ⟨.hbm, 1198, rfl⟩
abbrev main_call64_v0 : Ref sig .tc := ⟨.hbm, 1199, rfl⟩
abbrev main_call64_v1 : Ref sig .tc := ⟨.hbm, 1200, rfl⟩
abbrev main_v807 : Ref sig .tc := ⟨.hbm, 1201, rfl⟩
abbrev main_cst_252 : Ref sig .tc := ⟨.hbm, 1202, rfl⟩
abbrev main_v808 : Ref sig .tc := ⟨.hbm, 1203, rfl⟩
abbrev main_v809 : Ref sig .tc := ⟨.hbm, 1204, rfl⟩
abbrev main_cst_253 : Ref sig .tc := ⟨.hbm, 1205, rfl⟩
abbrev main_call65_v0 : Ref sig .tc := ⟨.hbm, 1206, rfl⟩
abbrev main_call65_v1 : Ref sig .tc := ⟨.hbm, 1207, rfl⟩
abbrev main_v810 : Ref sig .tc := ⟨.hbm, 1208, rfl⟩
abbrev main_cst_254 : Ref sig .tc := ⟨.hbm, 1209, rfl⟩
abbrev main_v811 : Ref sig .tc := ⟨.hbm, 1210, rfl⟩
abbrev main_v812 : Ref sig .tc := ⟨.hbm, 1211, rfl⟩
abbrev main_cst_255 : Ref sig .tc := ⟨.hbm, 1212, rfl⟩
abbrev main_v813 : Ref sig .tc := ⟨.hbm, 1213, rfl⟩
abbrev main_v814 : Ref sig .tc := ⟨.hbm, 1214, rfl⟩
abbrev main_cst_256 : Ref sig .tc := ⟨.hbm, 1215, rfl⟩
abbrev main_call66_v0 : Ref sig .tc := ⟨.hbm, 1216, rfl⟩
abbrev main_call66_v1 : Ref sig .tc := ⟨.hbm, 1217, rfl⟩
abbrev main_v815 : Ref sig .tc := ⟨.hbm, 1218, rfl⟩
abbrev main_v816 : Ref sig .tc := ⟨.hbm, 1219, rfl⟩
abbrev main_v817 : Ref sig .tc := ⟨.hbm, 1220, rfl⟩
abbrev main_v818 : Ref sig .tc := ⟨.hbm, 1221, rfl⟩
abbrev main_v819 : Ref sig .tc := ⟨.hbm, 1222, rfl⟩
abbrev main_v820 : Ref sig .tc := ⟨.hbm, 1223, rfl⟩
abbrev main_v821 : Ref sig .tc := ⟨.hbm, 1224, rfl⟩
abbrev main_c_257 : Ref sig .tc := ⟨.hbm, 1225, rfl⟩
abbrev main_v822 : Ref sig .tc := ⟨.hbm, 1226, rfl⟩
abbrev main_v823 : Ref sig .tc := ⟨.hbm, 1227, rfl⟩
abbrev main_c_258 : Ref sig .tc := ⟨.hbm, 1228, rfl⟩
abbrev main_v824 : Ref sig .tc := ⟨.hbm, 1229, rfl⟩
abbrev main_v825 : Ref sig .tc := ⟨.hbm, 1230, rfl⟩
abbrev main_v826 : Ref sig .tc := ⟨.hbm, 1231, rfl⟩
abbrev main_v827 : Ref sig .tc := ⟨.hbm, 1232, rfl⟩
abbrev main_v828 : Ref sig .tc := ⟨.hbm, 1233, rfl⟩
abbrev main_cst_259 : Ref sig .tc := ⟨.hbm, 1234, rfl⟩
abbrev main_v829 : Ref sig .tc := ⟨.hbm, 1235, rfl⟩
abbrev main_v830 : Ref sig .tc := ⟨.hbm, 1236, rfl⟩
abbrev main_v831 : Ref sig .tc := ⟨.hbm, 1237, rfl⟩
abbrev main_v832 : Ref sig .tc := ⟨.hbm, 1238, rfl⟩
abbrev main_v833 : Ref sig .tc := ⟨.hbm, 1239, rfl⟩
abbrev main_v834 : Ref sig .tc := ⟨.hbm, 1240, rfl⟩
abbrev main_v835 : Ref sig .tc := ⟨.hbm, 1241, rfl⟩
abbrev main_v836 : Ref sig .tc := ⟨.hbm, 1242, rfl⟩
abbrev main_v837 : Ref sig .tc := ⟨.hbm, 1243, rfl⟩
abbrev main_v838 : Ref sig .tc := ⟨.hbm, 1244, rfl⟩
abbrev main_v839 : Ref sig .tc := ⟨.hbm, 1245, rfl⟩
abbrev main_v840 : Ref sig .tc := ⟨.hbm, 1246, rfl⟩
abbrev main_v841 : Ref sig .tc := ⟨.hbm, 1247, rfl⟩
abbrev main_v842 : Ref sig .tc := ⟨.hbm, 1248, rfl⟩
abbrev main_v843 : Ref sig .tc := ⟨.hbm, 1249, rfl⟩
abbrev main_v844 : Ref sig .tc := ⟨.hbm, 1250, rfl⟩
abbrev main_cst_260 : Ref sig .tc := ⟨.hbm, 1251, rfl⟩
abbrev main_v845 : Ref sig .tc := ⟨.hbm, 1252, rfl⟩
abbrev main_cst_261 : Ref sig .tc := ⟨.hbm, 1253, rfl⟩
abbrev main_v846 : Ref sig .tc := ⟨.hbm, 1254, rfl⟩
abbrev main_v847 : Ref sig .tc := ⟨.hbm, 1255, rfl⟩
abbrev main_v848 : Ref sig .tc := ⟨.hbm, 1256, rfl⟩
abbrev main_cst_262 : Ref sig .tc := ⟨.hbm, 1257, rfl⟩
abbrev main_v849 : Ref sig .tc := ⟨.hbm, 1258, rfl⟩
abbrev main_v850 : Ref sig .tc := ⟨.hbm, 1259, rfl⟩
abbrev main_v851 : Ref sig .tc := ⟨.hbm, 1260, rfl⟩
abbrev main_cst_263 : Ref sig .tc := ⟨.hbm, 1261, rfl⟩
abbrev main_v852 : Ref sig .tc := ⟨.hbm, 1262, rfl⟩
abbrev main_v853 : Ref sig .tc := ⟨.hbm, 1263, rfl⟩
abbrev main_cst_264 : Ref sig .tc := ⟨.hbm, 1264, rfl⟩
abbrev main_call67_v0 : Ref sig .tc := ⟨.hbm, 1265, rfl⟩
abbrev main_call67_v1 : Ref sig .tc := ⟨.hbm, 1266, rfl⟩
abbrev main_v854 : Ref sig .tc := ⟨.hbm, 1267, rfl⟩
abbrev main_cst_265 : Ref sig .tc := ⟨.hbm, 1268, rfl⟩
abbrev main_v855 : Ref sig .tc := ⟨.hbm, 1269, rfl⟩
abbrev main_v856 : Ref sig .tc := ⟨.hbm, 1270, rfl⟩
abbrev main_cst_266 : Ref sig .tc := ⟨.hbm, 1271, rfl⟩
abbrev main_v857 : Ref sig .tc := ⟨.hbm, 1272, rfl⟩
abbrev main_v858 : Ref sig .tc := ⟨.hbm, 1273, rfl⟩
abbrev main_cst_267 : Ref sig .tc := ⟨.hbm, 1274, rfl⟩
abbrev main_call68_v0 : Ref sig .tc := ⟨.hbm, 1275, rfl⟩
abbrev main_call68_v1 : Ref sig .tc := ⟨.hbm, 1276, rfl⟩
abbrev main_v859 : Ref sig .tc := ⟨.hbm, 1277, rfl⟩
abbrev main_cst_268 : Ref sig .tc := ⟨.hbm, 1278, rfl⟩
abbrev main_v860 : Ref sig .tc := ⟨.hbm, 1279, rfl⟩
abbrev main_v861 : Ref sig .tc := ⟨.hbm, 1280, rfl⟩
abbrev main_cst_269 : Ref sig .tc := ⟨.hbm, 1281, rfl⟩
abbrev main_call69_v0 : Ref sig .tc := ⟨.hbm, 1282, rfl⟩
abbrev main_call69_v1 : Ref sig .tc := ⟨.hbm, 1283, rfl⟩
abbrev main_v862 : Ref sig .tc := ⟨.hbm, 1284, rfl⟩
abbrev main_cst_270 : Ref sig .tc := ⟨.hbm, 1285, rfl⟩
abbrev main_v863 : Ref sig .tc := ⟨.hbm, 1286, rfl⟩
abbrev main_v864 : Ref sig .tc := ⟨.hbm, 1287, rfl⟩
abbrev main_cst_271 : Ref sig .tc := ⟨.hbm, 1288, rfl⟩
abbrev main_v865 : Ref sig .tc := ⟨.hbm, 1289, rfl⟩
abbrev main_v866 : Ref sig .tc := ⟨.hbm, 1290, rfl⟩
abbrev main_cst_272 : Ref sig .tc := ⟨.hbm, 1291, rfl⟩
abbrev main_call70_v0 : Ref sig .tc := ⟨.hbm, 1292, rfl⟩
abbrev main_call70_v1 : Ref sig .tc := ⟨.hbm, 1293, rfl⟩
abbrev main_v867 : Ref sig .tc := ⟨.hbm, 1294, rfl⟩
abbrev main_v868 : Ref sig .tc := ⟨.hbm, 1295, rfl⟩
abbrev main_v869 : Ref sig .tc := ⟨.hbm, 1296, rfl⟩
abbrev main_v870 : Ref sig .tc := ⟨.hbm, 1297, rfl⟩
abbrev main_v871 : Ref sig .tc := ⟨.hbm, 1298, rfl⟩
abbrev main_v872 : Ref sig .tc := ⟨.hbm, 1299, rfl⟩
abbrev main_v873 : Ref sig .tc := ⟨.hbm, 1300, rfl⟩
abbrev main_c_273 : Ref sig .tc := ⟨.hbm, 1301, rfl⟩
abbrev main_v874 : Ref sig .tc := ⟨.hbm, 1302, rfl⟩
abbrev main_v875 : Ref sig .tc := ⟨.hbm, 1303, rfl⟩
abbrev main_c_274 : Ref sig .tc := ⟨.hbm, 1304, rfl⟩
abbrev main_v876 : Ref sig .tc := ⟨.hbm, 1305, rfl⟩
abbrev main_v877 : Ref sig .tc := ⟨.hbm, 1306, rfl⟩
abbrev main_v878 : Ref sig .tc := ⟨.hbm, 1307, rfl⟩
abbrev main_v879 : Ref sig .tc := ⟨.hbm, 1308, rfl⟩
abbrev main_v880 : Ref sig .tc := ⟨.hbm, 1309, rfl⟩
abbrev main_cst_275 : Ref sig .tc := ⟨.hbm, 1310, rfl⟩
abbrev main_v881 : Ref sig .tc := ⟨.hbm, 1311, rfl⟩
abbrev main_v882 : Ref sig .tc := ⟨.hbm, 1312, rfl⟩
abbrev main_v883 : Ref sig .tc := ⟨.hbm, 1313, rfl⟩
abbrev main_v884 : Ref sig .tc := ⟨.hbm, 1314, rfl⟩
abbrev main_v885 : Ref sig .tc := ⟨.hbm, 1315, rfl⟩
abbrev main_v886 : Ref sig .tc := ⟨.hbm, 1316, rfl⟩
abbrev main_v887 : Ref sig .tc := ⟨.hbm, 1317, rfl⟩
abbrev main_v888 : Ref sig .tc := ⟨.hbm, 1318, rfl⟩
abbrev main_v889 : Ref sig .tc := ⟨.hbm, 1319, rfl⟩
abbrev main_v890 : Ref sig .tc := ⟨.hbm, 1320, rfl⟩
abbrev main_v891 : Ref sig .tc := ⟨.hbm, 1321, rfl⟩
abbrev main_v892 : Ref sig .tc := ⟨.hbm, 1322, rfl⟩
abbrev main_v893 : Ref sig .tc := ⟨.hbm, 1323, rfl⟩
abbrev main_v894 : Ref sig .tc := ⟨.hbm, 1324, rfl⟩
abbrev main_v895 : Ref sig .tc := ⟨.hbm, 1325, rfl⟩
abbrev main_v896 : Ref sig .tc := ⟨.hbm, 1326, rfl⟩
abbrev main_cst_276 : Ref sig .tc := ⟨.hbm, 1327, rfl⟩
abbrev main_v897 : Ref sig .tc := ⟨.hbm, 1328, rfl⟩
abbrev main_cst_277 : Ref sig .tc := ⟨.hbm, 1329, rfl⟩
abbrev main_v898 : Ref sig .tc := ⟨.hbm, 1330, rfl⟩
abbrev main_v899 : Ref sig .tc := ⟨.hbm, 1331, rfl⟩
abbrev main_v900 : Ref sig .tc := ⟨.hbm, 1332, rfl⟩
abbrev main_cst_278 : Ref sig .tc := ⟨.hbm, 1333, rfl⟩
abbrev main_v901 : Ref sig .tc := ⟨.hbm, 1334, rfl⟩
abbrev main_v902 : Ref sig .tc := ⟨.hbm, 1335, rfl⟩
abbrev main_v903 : Ref sig .tc := ⟨.hbm, 1336, rfl⟩
abbrev main_cst_279 : Ref sig .tc := ⟨.hbm, 1337, rfl⟩
abbrev main_v904 : Ref sig .tc := ⟨.hbm, 1338, rfl⟩
abbrev main_v905 : Ref sig .tc := ⟨.hbm, 1339, rfl⟩
abbrev main_cst_280 : Ref sig .tc := ⟨.hbm, 1340, rfl⟩
abbrev main_call71_v0 : Ref sig .tc := ⟨.hbm, 1341, rfl⟩
abbrev main_call71_v1 : Ref sig .tc := ⟨.hbm, 1342, rfl⟩
abbrev main_v906 : Ref sig .tc := ⟨.hbm, 1343, rfl⟩
abbrev main_cst_281 : Ref sig .tc := ⟨.hbm, 1344, rfl⟩
abbrev main_v907 : Ref sig .tc := ⟨.hbm, 1345, rfl⟩
abbrev main_v908 : Ref sig .tc := ⟨.hbm, 1346, rfl⟩
abbrev main_cst_282 : Ref sig .tc := ⟨.hbm, 1347, rfl⟩
abbrev main_v909 : Ref sig .tc := ⟨.hbm, 1348, rfl⟩
abbrev main_v910 : Ref sig .tc := ⟨.hbm, 1349, rfl⟩
abbrev main_cst_283 : Ref sig .tc := ⟨.hbm, 1350, rfl⟩
abbrev main_call72_v0 : Ref sig .tc := ⟨.hbm, 1351, rfl⟩
abbrev main_call72_v1 : Ref sig .tc := ⟨.hbm, 1352, rfl⟩
abbrev main_v911 : Ref sig .tc := ⟨.hbm, 1353, rfl⟩
abbrev main_cst_284 : Ref sig .tc := ⟨.hbm, 1354, rfl⟩
abbrev main_v912 : Ref sig .tc := ⟨.hbm, 1355, rfl⟩
abbrev main_v913 : Ref sig .tc := ⟨.hbm, 1356, rfl⟩
abbrev main_cst_285 : Ref sig .tc := ⟨.hbm, 1357, rfl⟩
abbrev main_call73_v0 : Ref sig .tc := ⟨.hbm, 1358, rfl⟩
abbrev main_call73_v1 : Ref sig .tc := ⟨.hbm, 1359, rfl⟩
abbrev main_v914 : Ref sig .tc := ⟨.hbm, 1360, rfl⟩
abbrev main_cst_286 : Ref sig .tc := ⟨.hbm, 1361, rfl⟩
abbrev main_v915 : Ref sig .tc := ⟨.hbm, 1362, rfl⟩
abbrev main_v916 : Ref sig .tc := ⟨.hbm, 1363, rfl⟩
abbrev main_cst_287 : Ref sig .tc := ⟨.hbm, 1364, rfl⟩
abbrev main_v917 : Ref sig .tc := ⟨.hbm, 1365, rfl⟩
abbrev main_v918 : Ref sig .tc := ⟨.hbm, 1366, rfl⟩
abbrev main_cst_288 : Ref sig .tc := ⟨.hbm, 1367, rfl⟩
abbrev main_call74_v0 : Ref sig .tc := ⟨.hbm, 1368, rfl⟩
abbrev main_call74_v1 : Ref sig .tc := ⟨.hbm, 1369, rfl⟩
abbrev main_v919 : Ref sig .tc := ⟨.hbm, 1370, rfl⟩
abbrev main_v920 : Ref sig .tc := ⟨.hbm, 1371, rfl⟩
abbrev main_v921 : Ref sig .tc := ⟨.hbm, 1372, rfl⟩
abbrev main_v922 : Ref sig .tc := ⟨.hbm, 1373, rfl⟩
abbrev main_v923 : Ref sig .tc := ⟨.hbm, 1374, rfl⟩
abbrev main_v924 : Ref sig .tc := ⟨.hbm, 1375, rfl⟩
abbrev main_v925 : Ref sig .tc := ⟨.hbm, 1376, rfl⟩
abbrev main_c_289 : Ref sig .tc := ⟨.hbm, 1377, rfl⟩
abbrev main_v926 : Ref sig .tc := ⟨.hbm, 1378, rfl⟩
abbrev main_v927 : Ref sig .tc := ⟨.hbm, 1379, rfl⟩
abbrev main_c_290 : Ref sig .tc := ⟨.hbm, 1380, rfl⟩
abbrev main_v928 : Ref sig .tc := ⟨.hbm, 1381, rfl⟩
abbrev main_v929 : Ref sig .tc := ⟨.hbm, 1382, rfl⟩
abbrev main_v930 : Ref sig .tc := ⟨.hbm, 1383, rfl⟩
abbrev main_v931 : Ref sig .tc := ⟨.hbm, 1384, rfl⟩
abbrev main_v932 : Ref sig .tc := ⟨.hbm, 1385, rfl⟩
abbrev main_cst_291 : Ref sig .tc := ⟨.hbm, 1386, rfl⟩
abbrev main_v933 : Ref sig .tc := ⟨.hbm, 1387, rfl⟩
abbrev main_v934 : Ref sig .tc := ⟨.hbm, 1388, rfl⟩
abbrev main_v935 : Ref sig .tc := ⟨.hbm, 1389, rfl⟩
abbrev main_v936 : Ref sig .tc := ⟨.hbm, 1390, rfl⟩
abbrev main_v937 : Ref sig .tc := ⟨.hbm, 1391, rfl⟩
abbrev main_v938 : Ref sig .tc := ⟨.hbm, 1392, rfl⟩
abbrev main_v939 : Ref sig .tc := ⟨.hbm, 1393, rfl⟩
abbrev main_v940 : Ref sig .tc := ⟨.hbm, 1394, rfl⟩
abbrev main_v941 : Ref sig .tc := ⟨.hbm, 1395, rfl⟩
abbrev main_v942 : Ref sig .tc := ⟨.hbm, 1396, rfl⟩
abbrev main_v943 : Ref sig .tc := ⟨.hbm, 1397, rfl⟩
abbrev main_v944 : Ref sig .tc := ⟨.hbm, 1398, rfl⟩
abbrev main_call75_cst : Ref sig .tc := ⟨.hbm, 1399, rfl⟩
abbrev main_call75_v0 : Ref sig .tc := ⟨.hbm, 1400, rfl⟩
abbrev main_v945 : Ref sig .tc := ⟨.hbm, 1401, rfl⟩
abbrev main_call76_cst : Ref sig .tc := ⟨.hbm, 1402, rfl⟩
abbrev main_call76_v0 : Ref sig .tc := ⟨.hbm, 1403, rfl⟩
abbrev main_v946 : Ref sig .tc := ⟨.hbm, 1404, rfl⟩
abbrev main_call77_cst : Ref sig .tc := ⟨.hbm, 1405, rfl⟩
abbrev main_call77_v0 : Ref sig .tc := ⟨.hbm, 1406, rfl⟩
abbrev main_v947 : Ref sig .tc := ⟨.hbm, 1407, rfl⟩
abbrev main_v948 : Ref sig .tc := ⟨.hbm, 1408, rfl⟩
abbrev main_v949 : Ref sig .tc := ⟨.hbm, 1409, rfl⟩
abbrev main_v950 : Ref sig .tc := ⟨.hbm, 1410, rfl⟩
abbrev main_v951 : Ref sig .tc := ⟨.hbm, 1411, rfl⟩
abbrev main_v952 : Ref sig .tc := ⟨.hbm, 1412, rfl⟩
abbrev main_v953 : Ref sig .tc := ⟨.hbm, 1413, rfl⟩
abbrev main_v954 : Ref sig .tc := ⟨.hbm, 1414, rfl⟩
abbrev main_v955 : Ref sig .tc := ⟨.hbm, 1415, rfl⟩
abbrev main_v956 : Ref sig .tc := ⟨.hbm, 1416, rfl⟩
abbrev main_v957 : Ref sig .tc := ⟨.hbm, 1417, rfl⟩
abbrev main_v958 : Ref sig .tc := ⟨.hbm, 1418, rfl⟩
abbrev main_v959 : Ref sig .tc := ⟨.hbm, 1419, rfl⟩
abbrev main_v960 : Ref sig .tc := ⟨.hbm, 1420, rfl⟩
abbrev main_v961 : Ref sig .tc := ⟨.hbm, 1421, rfl⟩
abbrev main_v962 : Ref sig .tc := ⟨.hbm, 1422, rfl⟩
abbrev main_v963 : Ref sig .tc := ⟨.hbm, 1423, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S9x2x400000_S1x1x400000_0_0_0 : S9x2x400000.Slices ![0, 0, 0] S1x1x400000
  shapeCasts_S1x1x400000_S400000 : S1x1x400000.ShapeCasts S400000
  slices_S9x2x400000_S1x1x400000_0_1_0 : S9x2x400000.Slices ![0, 1, 0] S1x1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S9x128x128_S1x128x128_0_0_0 : S9x128x128.Slices ![0, 0, 0] S1x128x128
  shapeCasts_S1x128x128_S128x128 : S1x128x128.ShapeCasts S128x128
  slices_S9x128_S1x128_0_0 : S9x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S9x2x400000_S1x1x400000_1_0_0 : S9x2x400000.Slices ![1, 0, 0] S1x1x400000
  slices_S9x2x400000_S1x1x400000_1_1_0 : S9x2x400000.Slices ![1, 1, 0] S1x1x400000
  slices_S9x128x128_S1x128x128_1_0_0 : S9x128x128.Slices ![1, 0, 0] S1x128x128
  slices_S9x128_S1x128_1_0 : S9x128.Slices ![1, 0] S1x128
  slices_S9x2x400000_S1x1x400000_2_0_0 : S9x2x400000.Slices ![2, 0, 0] S1x1x400000
  slices_S9x2x400000_S1x1x400000_2_1_0 : S9x2x400000.Slices ![2, 1, 0] S1x1x400000
  slices_S9x128x128_S1x128x128_2_0_0 : S9x128x128.Slices ![2, 0, 0] S1x128x128
  slices_S9x128_S1x128_2_0 : S9x128.Slices ![2, 0] S1x128
  slices_S9x2x400000_S1x1x400000_3_0_0 : S9x2x400000.Slices ![3, 0, 0] S1x1x400000
  slices_S9x2x400000_S1x1x400000_3_1_0 : S9x2x400000.Slices ![3, 1, 0] S1x1x400000
  slices_S9x128x128_S1x128x128_3_0_0 : S9x128x128.Slices ![3, 0, 0] S1x128x128
  slices_S9x128_S1x128_3_0 : S9x128.Slices ![3, 0] S1x128
  slices_S9x2x400000_S1x1x400000_4_0_0 : S9x2x400000.Slices ![4, 0, 0] S1x1x400000
  slices_S9x2x400000_S1x1x400000_4_1_0 : S9x2x400000.Slices ![4, 1, 0] S1x1x400000
  slices_S9x128x128_S1x128x128_4_0_0 : S9x128x128.Slices ![4, 0, 0] S1x128x128
  slices_S9x128_S1x128_4_0 : S9x128.Slices ![4, 0] S1x128
  slices_S9x2x400000_S1x1x400000_5_0_0 : S9x2x400000.Slices ![5, 0, 0] S1x1x400000
  slices_S9x2x400000_S1x1x400000_5_1_0 : S9x2x400000.Slices ![5, 1, 0] S1x1x400000
  slices_S9x128x128_S1x128x128_5_0_0 : S9x128x128.Slices ![5, 0, 0] S1x128x128
  slices_S9x128_S1x128_5_0 : S9x128.Slices ![5, 0] S1x128
  slices_S9x2x400000_S1x1x400000_6_0_0 : S9x2x400000.Slices ![6, 0, 0] S1x1x400000
  slices_S9x2x400000_S1x1x400000_6_1_0 : S9x2x400000.Slices ![6, 1, 0] S1x1x400000
  slices_S9x128x128_S1x128x128_6_0_0 : S9x128x128.Slices ![6, 0, 0] S1x128x128
  slices_S9x128_S1x128_6_0 : S9x128.Slices ![6, 0] S1x128
  slices_S9x2x400000_S1x1x400000_7_0_0 : S9x2x400000.Slices ![7, 0, 0] S1x1x400000
  slices_S9x2x400000_S1x1x400000_7_1_0 : S9x2x400000.Slices ![7, 1, 0] S1x1x400000
  slices_S9x128x128_S1x128x128_7_0_0 : S9x128x128.Slices ![7, 0, 0] S1x128x128
  slices_S9x128_S1x128_7_0 : S9x128.Slices ![7, 0] S1x128
  slices_S9x2x400000_S1x1x400000_8_0_0 : S9x2x400000.Slices ![8, 0, 0] S1x1x400000
  slices_S9x2x400000_S1x1x400000_8_1_0 : S9x2x400000.Slices ![8, 1, 0] S1x1x400000
  slices_S9x128x128_S1x128x128_8_0_0 : S9x128x128.Slices ![8, 0, 0] S1x128x128
  slices_S9x128_S1x128_8_0 : S9x128.Slices ![8, 0] S1x128
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S50000x16_S1x50000x16_1_2 : S50000x16.BroadcastsInDim S1x50000x16 (![1, 2] : Fin 2 → Fin S1x50000x16.rank)
  concatenates_S1x50000x16_S1x50000x16_S1x50000x16_S3x50000x16_d0 : Shape.Concatenates [S1x50000x16, S1x50000x16, S1x50000x16] S3x50000x16 0
  scatter_S50000_S400000x1_S400000_n_0_0_1_wf : ScatterDims.WF S50000 S400000x1 S400000 [] [0] [0] 1
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S50000x128_S128x16_S50000x16_1_0_0_1_n_n_wf : DotDims.WF S50000x128 S128x16 S50000x16 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.K.Fold.lean ====
/-
  The boundaries of @main's host stretches: no stretch allocates a buffer, and the TensorCore's buffer contents after
  each stretch is the stretch's operations applied to the contents before it. Three runs of stretches: before the first
  pallas_call (from the launch memory), between the first and the second, between the second and the third (each from
  the contents `X` the call before it leaves).
-/
import proofs.«151568_j90031104458821_2_alg».proof.Proof.Gen.Kernel.Launch
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ (UR sig nD τ) ℕ

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps0_65_fresh : (hostOps0_65 : List (HloOp τ sig (Elt F))).Forall fun op => op.fresh = ∅ := by
  simp only [List.Forall]; repeat' constructor
theorem hostOps0_66_fresh : (hostOps0_66 : List (HloOp τ sig (Elt F))).Forall fun op => op.fresh = ∅ := by
  simp only [List.Forall]; repeat' constructor
theorem hostOps0_67_fresh : (hostOps0_67 : List (HloOp τ sig (Elt F))).Forall fun op => op.fresh = ∅ := by
  simp only [List.Forall]; repeat' constructor
theorem hostOps0_68_fresh : (hostOps0_68 : List (HloOp τ sig (Elt F))).Forall fun op => op.fresh = ∅ := by
  simp only [List.Forall]; repeat' constructor
theorem hostOps0_69_fresh : (hostOps0_69 : List (HloOp τ sig (Elt F))).Forall fun op => op.fresh = ∅ := by
  simp only [List.Forall]; repeat' constructor
theorem hostOps0_70_fresh : (hostOps0_70 : List (HloOp τ sig (Elt F))).Forall fun op => op.fresh = ∅ := by
  simp only [List.Forall]; repeat' constructor
theorem hostOps0_71_fresh : (hostOps0_71 : List (HloOp τ sig (Elt F))).Forall fun op => op.fresh = ∅ := by
  simp only [List.Forall]; repeat' constructor
theorem hostOps0_72_fresh : (hostOps0_72 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

variable (m : (ℓ : Loc nD τ sig) → Buf (Elt F) ℓ) (ρ : Dev nD → PrngReg)

/-- Core `c`'s buffers at launch. -/
abbrev WA0 : Dev nD → Valuation τ sig (Elt F) := fun c b => (s₀ m ρ).mem ((c : Dev nD), b)
abbrev WA1 : Dev nD → Valuation τ sig (Elt F) := fun c => StableHlo.after hostOps0 (WA0 m ρ c)
abbrev WA2 : Dev nD → Valuation τ sig (Elt F) := fun c => StableHlo.after hostOps0_1 (WA1 m ρ c)
abbrev WA3 : Dev nD → Valuation τ sig (Elt F) := fun c => StableHlo.after hostOps0_2 (WA2 m ρ c)
abbrev WA4 : Dev nD → Valuation τ sig (Elt F) := fun c => StableHlo.after hostOps0_3 (WA3 m ρ c)
abbrev WA5 : Dev nD → Valuation τ sig (Elt F) := fun c => StableHlo.after hostOps0_4 (WA4 m ρ c)
abbrev WA6 : Dev nD → Valuation τ sig (Elt F) := fun c => StableHlo.after hostOps0_5 (WA5 m ρ c)
abbrev WA7 : Dev nD → Valuation τ sig (Elt F) := fun c => StableHlo.after hostOps0_6 (WA6 m ρ c)
abbrev WA8 : Dev nD → Valuation τ sig (Elt F) := fun c => StableHlo.after hostOps0_7 (WA7 m ρ c)
abbrev WA9 : Dev nD → Valuation τ sig (Elt F) := fun c => StableHlo.after hostOps0_8 (WA8 m ρ c)
abbrev WA10 : Dev nD → Valuation τ sig (Elt F) := fun c => StableHlo.after hostOps0_9 (WA9 m ρ c)
abbrev WA11 : Dev nD → Valuation τ sig (Elt F) := fun c => StableHlo.after hostOps0_10 (WA10 m ρ c)
abbrev WA12 : Dev nD → Valuation τ sig (Elt F) := fun c => StableHlo.after hostOps0_11 (WA11 m ρ c)
abbrev WA13 : Dev nD → Valuation τ sig (Elt F) := fun c => StableHlo.after hostOps0_12 (WA12 m ρ c)
abbrev WA14 : Dev nD → Valuation τ sig (Elt F) := fun c => StableHlo.after hostOps0_13 (WA13 m ρ c)
abbrev WA15 : Dev nD → Valuation τ sig (Elt F) := fun c => StableHlo.after hostOps0_14 (WA14 m ρ c)
abbrev WA16 : Dev nD → Valuation τ sig (Elt F) := fun c => StableHlo.after hostOps0_15 (WA15 m ρ c)
abbrev WA17 : Dev nD → Valuation τ sig (Elt F) := fun c => StableHlo.after hostOps0_16 (WA16 m ρ c)
abbrev WA18 : Dev nD → Valuation τ sig (Elt F) := fun c => StableHlo.after hostOps0_17 (WA17 m ρ c)
abbrev WA19 : Dev nD → Valuation τ sig (Elt F) := fun c => StableHlo.after hostOps0_18 (WA18 m ρ c)
abbrev WA20 : Dev nD → Valuation τ sig (Elt F) := fun c => StableHlo.after hostOps0_19 (WA19 m ρ c)
abbrev WA21 : Dev nD → Valuation τ sig (Elt F) := fun c => StableHlo.after hostOps0_20 (WA20 m ρ c)
abbrev WA22 : Dev nD → Valuation τ sig (Elt F) := fun c => StableHlo.after hostOps0_21 (WA21 m ρ c)
abbrev WA23 : Dev nD → Valuation τ sig (Elt F) := fun c => StableHlo.after hostOps0_22 (WA22 m ρ c)
abbrev WA24 : Dev nD → Valuation τ sig (Elt F) := fun c => StableHlo.after hostOps0_23 (WA23 m ρ c)
abbrev WA25 : Dev nD → Valuation τ sig (Elt F) := fun c => StableHlo.after hostOps0_24 (WA24 m ρ c)
abbrev WA26 : Dev nD → Valuation τ sig (Elt F) := fun c => StableHlo.after hostOps0_25 (WA25 m ρ c)
abbrev WA27 : Dev nD → Valuation τ sig (Elt F) := fun c => StableHlo.after hostOps0_26 (WA26 m ρ c)
abbrev WA28 : Dev nD → Valuation τ sig (Elt F) := fun c => StableHlo.after hostOps0_27 (WA27 m ρ c)
abbrev WA29 : Dev nD → Valuation τ sig (Elt F) := fun c => StableHlo.after hostOps0_28 (WA28 m ρ c)
abbrev WA30 : Dev nD → Valuation τ sig (Elt F) := fun c => StableHlo.after hostOps0_29 (WA29 m ρ c)
abbrev WA31 : Dev nD → Valuation τ sig (Elt F) := fun c => StableHlo.after hostOps0_30 (WA30 m ρ c)
abbrev WA32 : Dev nD → Valuation τ sig (Elt F) := fun c => StableHlo.after hostOps0_31 (WA31 m ρ c)
abbrev WA33 : Dev nD → Valuation τ sig (Elt F) := fun c => StableHlo.after hostOps0_32 (WA32 m ρ c)
abbrev WA34 : Dev nD → Valuation τ sig (Elt F) := fun c => StableHlo.after hostOps0_33 (WA33 m ρ c)
abbrev WA35 : Dev nD → Valuation τ sig (Elt F) := fun c => StableHlo.after hostOps0_34 (WA34 m ρ c)
abbrev WA36 : Dev nD → Valuation τ sig (Elt F) := fun c => StableHlo.after hostOps0_35 (WA35 m ρ c)
abbrev WA37 : Dev nD → Valuation τ sig (Elt F) := fun c => StableHlo.after hostOps0_36 (WA36 m ρ c)
abbrev WA38 : Dev nD → Valuation τ sig (Elt F) := fun c => StableHlo.after hostOps0_37 (WA37 m ρ c)
abbrev WA39 : Dev nD → Valuation τ sig (Elt F) := fun c => StableHlo.after hostOps0_38 (WA38 m ρ c)
abbrev WA40 : Dev nD → Valuation τ sig (Elt F) := fun c => StableHlo.after hostOps0_39 (WA39 m ρ c)
abbrev WA41 : Dev nD → Valuation τ sig (Elt F) := fun c => StableHlo.after hostOps0_40 (WA40 m ρ c)
abbrev WA42 : Dev nD → Valuation τ sig (Elt F) := fun c => StableHlo.after hostOps0_41 (WA41 m ρ c)
abbrev WA43 : Dev nD → Valuation τ sig (Elt F) := fun c => StableHlo.after hostOps0_42 (WA42 m ρ c)
abbrev WA44 : Dev nD → Valuation τ sig (Elt F) := fun c => StableHlo.after hostOps0_43 (WA43 m ρ c)
abbrev WA45 : Dev nD → Valuation τ sig (Elt F) := fun c => StableHlo.after hostOps0_44 (WA44 m ρ c)
abbrev WA46 : Dev nD → Valuation τ sig (Elt F) := fun c => StableHlo.after hostOps0_45 (WA45 m ρ c)
abbrev WA47 : Dev nD → Valuation τ sig (Elt F) := fun c => StableHlo.after hostOps0_46 (WA46 m ρ c)
abbrev WA48 : Dev nD → Valuation τ sig (Elt F) := fun c => StableHlo.after hostOps0_47 (WA47 m ρ c)
abbrev WA49 : Dev nD → Valuation τ sig (Elt F) := fun c => StableHlo.after hostOps0_48 (WA48 m ρ c)
abbrev WA50 : Dev nD → Valuation τ sig (Elt F) := fun c => StableHlo.after hostOps0_49 (WA49 m ρ c)
abbrev WA51 : Dev nD → Valuation τ sig (Elt F) := fun c => StableHlo.after hostOps0_50 (WA50 m ρ c)
abbrev WA52 : Dev nD → Valuation τ sig (Elt F) := fun c => StableHlo.after hostOps0_51 (WA51 m ρ c)
abbrev WA53 : Dev nD → Valuation τ sig (Elt F) := fun c => StableHlo.after hostOps0_52 (WA52 m ρ c)
abbrev WA54 : Dev nD → Valuation τ sig (Elt F) := fun c => StableHlo.after hostOps0_53 (WA53 m ρ c)
abbrev WA55 : Dev nD → Valuation τ sig (Elt F) := fun c => StableHlo.after hostOps0_54 (WA54 m ρ c)
abbrev WA56 : Dev nD → Valuation τ sig (Elt F) := fun c => StableHlo.after hostOps0_55 (WA55 m ρ c)
abbrev WA57 : Dev nD → Valuation τ sig (Elt F) := fun c => StableHlo.after hostOps0_56 (WA56 m ρ c)
abbrev WA58 : Dev nD → Valuation τ sig (Elt F) := fun c => StableHlo.after hostOps0_57 (WA57 m ρ c)
abbrev WA59 : Dev nD → Valuation τ sig (Elt F) := fun c => StableHlo.after hostOps0_58 (WA58 m ρ c)
abbrev WA60 : Dev nD → Valuation τ sig (Elt F) := fun c => StableHlo.after hostOps0_59 (WA59 m ρ c)
abbrev WA61 : Dev nD → Valuation τ sig (Elt F) := fun c => StableHlo.after hostOps0_60 (WA60 m ρ c)
abbrev WA62 : Dev nD → Valuation τ sig (Elt F) := fun c => StableHlo.after hostOps0_61 (WA61 m ρ c)
abbrev WA63 : Dev nD → Valuation τ sig (Elt F) := fun c => StableHlo.after hostOps0_62 (WA62 m ρ c)
abbrev WA64 : Dev nD → Valuation τ sig (Elt F) := fun c => StableHlo.after hostOps0_63 (WA63 m ρ c)
abbrev WA65 : Dev nD → Valuation τ sig (Elt F) := fun c => StableHlo.after hostOps0_64 (WA64 m ρ c)
abbrev WA66 : Dev nD → Valuation τ sig (Elt F) := fun c => StableHlo.after hostOps0_65 (WA65 m ρ c)
abbrev WA67 : Dev nD → Valuation τ sig (Elt F) := fun c => StableHlo.after hostOps0_66 (WA66 m ρ c)
abbrev WA68 : Dev nD → Valuation τ sig (Elt F) := fun c => StableHlo.after hostOps0_67 (WA67 m ρ c)
abbrev WA69 : Dev nD → Valuation τ sig (Elt F) := fun c => StableHlo.after hostOps0_68 (WA68 m ρ c)
abbrev WA70 : Dev nD → Valuation τ sig (Elt F) := fun c => StableHlo.after hostOps0_69 (WA69 m ρ c)
abbrev WA71 : Dev nD → Valuation τ sig (Elt F) := fun c => StableHlo.after hostOps0_70 (WA70 m ρ c)
abbrev WA72 : Dev nD → Valuation τ sig (Elt F) := fun c => StableHlo.after hostOps0_71 (WA71 m ρ c)
abbrev WA73 : Dev nD → Valuation τ sig (Elt F) := fun c => StableHlo.after hostOps0_72 (WA72 m ρ c)

variable (X : Dev nD → Valuation τ sig (Elt F))

abbrev WB0 : Dev nD → Valuation τ sig (Elt F) := X
abbrev WB1 : Dev nD → Valuation τ sig (Elt F) := fun c => StableHlo.after hostOps1 (WB0 X c)
abbrev WB2 : Dev nD → Valuation τ sig (Elt F) := fun c => StableHlo.after hostOps1_1 (WB1 X c)
abbrev WB3 : Dev nD → Valuation τ sig (Elt F) := fun c => StableHlo.after hostOps1_2 (WB2 X c)
abbrev WB4 : Dev nD → Valuation τ sig (Elt F) := fun c => StableHlo.after hostOps1_3 (WB3 X c)
abbrev WB5 : Dev nD → Valuation τ sig (Elt F) := fun c => StableHlo.after hostOps1_4 (WB4 X c)
abbrev WC0 : Dev nD → Valuation τ sig (Elt F) := X
abbrev WC1 : Dev nD → Valuation τ sig (Elt F) := fun c => StableHlo.after hostOps2 (WC0 X c)

end Cert.Kernel.Fr

end
-- ==== Proof.K.ArgsHost.lean ====
/-
  No host operation of @main writes one of @main's ten arguments. Every operation writes exactly one reference, its
  result's, and that reference is none of the ten; so a stretch of host operations leaves each argument's buffer as it
  found it, and so does a run of stretches: at an argument, every boundary valuation of a run agrees with the run's first.
-/
import proofs.«151568_j90031104458821_2_alg».proof.Proof.K.Fold

set_option maxRecDepth 16384

noncomputable section

namespace Cert.Kernel.Fr

open Cert.Kernel Cert.Kernel.Gen
open Idealize.ShloMosaic Idealize.ShloMosaic.TcCoe
open Idealize.SL Idealize.SL.Sem

variable {F : FTy → Type} [FloatOps F]

/-- @main's ten argument references. -/
abbrev argRefs : List (Ref sig .tc) :=
  [main_arg0, main_arg1, main_arg2, main_arg3, main_arg4, main_arg5, main_arg6, main_arg7, main_arg8, main_arg9]

/-- The operation writes none of @main's arguments. -/
def Spares (op : HloOp τ sig (Elt F)) : Prop := ∀ r ∈ argRefs, Proc.devRef (τ := τ) .tc r ∉ op.writes

/-- An operation whose writes are one reference's buffer, that reference no argument, spares the arguments: distinct
    references are distinct buffers. -/
theorem spares_of_writes {op : HloOp τ sig (Elt F)} {y : Ref sig .tc} (hw : op.writes = {Proc.devRef .tc y}) (hy : y ∉ argRefs) :
    Spares op := fun r hr hm => by
  rw [hw, Finset.mem_singleton] at hm
  exact hy (Proc.devRef_injective _ hm ▸ hr)

/-- A line spares the arguments when its first operation and the rest do. -/
theorem spares_cons {op : HloOp τ sig (Elt F)} {ops : List (HloOp τ sig (Elt F))} (h : Spares op) (hs : ops.Forall Spares) :
    (op :: ops).Forall Spares :=
  List.forall_iff_forall_mem.mpr fun o ho => by
    rcases List.mem_cons.mp ho with rfl | ho
    · exact h
    · exact List.forall_iff_forall_mem.mp hs o ho

/-- After a line that spares the arguments an argument's buffer holds what it held before. -/
theorem after_spares (ops : List (HloOp τ sig (Elt F))) (h : ops.Forall Spares) (V : Valuation τ sig (Elt F)) {r : Ref sig .tc}
    (hr : r ∈ argRefs) : StableHlo.after ops V (Proc.devRef .tc r) = V (Proc.devRef .tc r) :=
  StableHlo.after_of_forall_not_mem ops V fun op hop => List.forall_iff_forall_mem.mp h op hop r hr

/-- Operation by operation down a literal line: what the operation writes is its result reference by unfolding the
    builder, and that reference is compared with the ten arguments by evaluation. -/
local macro "spares" : tactic =>
  `(tactic| ((repeat (refine spares_cons (spares_of_writes rfl (by decide)) ?_)); exact trivial))

theorem hostOps0_spares : (hostOps0 : List (HloOp τ sig (Elt F))).Forall Spares := by spares
theorem hostOps0_1_spares : (hostOps0_1 : List (HloOp τ sig (Elt F))).Forall Spares := by spares
theorem hostOps0_2_spares : (hostOps0_2 : List (HloOp τ sig (Elt F))).Forall Spares := by spares
theorem hostOps0_3_spares : (hostOps0_3 : List (HloOp τ sig (Elt F))).Forall Spares := by spares
theorem hostOps0_4_spares : (hostOps0_4 : List (HloOp τ sig (Elt F))).Forall Spares := by spares
theorem hostOps0_5_spares : (hostOps0_5 : List (HloOp τ sig (Elt F))).Forall Spares := by spares
theorem hostOps0_6_spares : (hostOps0_6 : List (HloOp τ sig (Elt F))).Forall Spares := by spares
theorem hostOps0_7_spares : (hostOps0_7 : List (HloOp τ sig (Elt F))).Forall Spares := by spares
theorem hostOps0_8_spares : (hostOps0_8 : List (HloOp τ sig (Elt F))).Forall Spares := by spares
theorem hostOps0_9_spares : (hostOps0_9 : List (HloOp τ sig (Elt F))).Forall Spares := by spares
theorem hostOps0_10_spares : (hostOps0_10 : List (HloOp τ sig (Elt F))).Forall Spares := by spares
theorem hostOps0_11_spares : (hostOps0_11 : List (HloOp τ sig (Elt F))).Forall Spares := by spares
theorem hostOps0_12_spares : (hostOps0_12 : List (HloOp τ sig (Elt F))).Forall Spares := by spares
theorem hostOps0_13_spares : (hostOps0_13 : List (HloOp τ sig (Elt F))).Forall Spares := by spares
theorem hostOps0_14_spares : (hostOps0_14 : List (HloOp τ sig (Elt F))).Forall Spares := by spares
theorem hostOps0_15_spares : (hostOps0_15 : List (HloOp τ sig (Elt F))).Forall Spares := by spares
theorem hostOps0_16_spares : (hostOps0_16 : List (HloOp τ sig (Elt F))).Forall Spares := by spares
theorem hostOps0_17_spares : (hostOps0_17 : List (HloOp τ sig (Elt F))).Forall Spares := by spares
theorem hostOps0_18_spares : (hostOps0_18 : List (HloOp τ sig (Elt F))).Forall Spares := by spares
theorem hostOps0_19_spares : (hostOps0_19 : List (HloOp τ sig (Elt F))).Forall Spares := by spares
theorem hostOps0_20_spares : (hostOps0_20 : List (HloOp τ sig (Elt F))).Forall Spares := by spares
theorem hostOps0_21_spares : (hostOps0_21 : List (HloOp τ sig (Elt F))).Forall Spares := by spares
theorem hostOps0_22_spares : (hostOps0_22 : List (HloOp τ sig (Elt F))).Forall Spares := by spares
theorem hostOps0_23_spares : (hostOps0_23 : List (HloOp τ sig (Elt F))).Forall Spares := by spares
theorem hostOps0_24_spares : (hostOps0_24 : List (HloOp τ sig (Elt F))).Forall Spares := by spares
theorem hostOps0_25_spares : (hostOps0_25 : List (HloOp τ sig (Elt F))).Forall Spares := by spares
theorem hostOps0_26_spares : (hostOps0_26 : List (HloOp τ sig (Elt F))).Forall Spares := by spares
theorem hostOps0_27_spares : (hostOps0_27 : List (HloOp τ sig (Elt F))).Forall Spares := by spares
theorem hostOps0_28_spares : (hostOps0_28 : List (HloOp τ sig (Elt F))).Forall Spares := by spares
theorem hostOps0_29_spares : (hostOps0_29 : List (HloOp τ sig (Elt F))).Forall Spares := by spares
theorem hostOps0_30_spares : (hostOps0_30 : List (HloOp τ sig (Elt F))).Forall Spares := by spares
theorem hostOps0_31_spares : (hostOps0_31 : List (HloOp τ sig (Elt F))).Forall Spares := by spares
theorem hostOps0_32_spares : (hostOps0_32 : List (HloOp τ sig (Elt F))).Forall Spares := by spares
theorem hostOps0_33_spares : (hostOps0_33 : List (HloOp τ sig (Elt F))).Forall Spares := by spares
theorem hostOps0_34_spares : (hostOps0_34 : List (HloOp τ sig (Elt F))).Forall Spares := by spares
theorem hostOps0_35_spares : (hostOps0_35 : List (HloOp τ sig (Elt F))).Forall Spares := by spares
theorem hostOps0_36_spares : (hostOps0_36 : List (HloOp τ sig (Elt F))).Forall Spares := by spares
theorem hostOps0_37_spares : (hostOps0_37 : List (HloOp τ sig (Elt F))).Forall Spares := by spares
theorem hostOps0_38_spares : (hostOps0_38 : List (HloOp τ sig (Elt F))).Forall Spares := by spares
theorem hostOps0_39_spares : (hostOps0_39 : List (HloOp τ sig (Elt F))).Forall Spares := by spares
theorem hostOps0_40_spares : (hostOps0_40 : List (HloOp τ sig (Elt F))).Forall Spares := by spares
theorem hostOps0_41_spares : (hostOps0_41 : List (HloOp τ sig (Elt F))).Forall Spares := by spares
theorem hostOps0_42_spares : (hostOps0_42 : List (HloOp τ sig (Elt F))).Forall Spares := by spares
theorem hostOps0_43_spares : (hostOps0_43 : List (HloOp τ sig (Elt F))).Forall Spares := by spares
theorem hostOps0_44_spares : (hostOps0_44 : List (HloOp τ sig (Elt F))).Forall Spares := by spares
theorem hostOps0_45_spares : (hostOps0_45 : List (HloOp τ sig (Elt F))).Forall Spares := by spares
theorem hostOps0_46_spares : (hostOps0_46 : List (HloOp τ sig (Elt F))).Forall Spares := by spares
theorem hostOps0_47_spares : (hostOps0_47 : List (HloOp τ sig (Elt F))).Forall Spares := by spares
theorem hostOps0_48_spares : (hostOps0_48 : List (HloOp τ sig (Elt F))).Forall Spares := by spares
theorem hostOps0_49_spares : (hostOps0_49 : List (HloOp τ sig (Elt F))).Forall Spares := by spares
theorem hostOps0_50_spares : (hostOps0_50 : List (HloOp τ sig (Elt F))).Forall Spares := by spares
theorem hostOps0_51_spares : (hostOps0_51 : List (HloOp τ sig (Elt F))).Forall Spares := by spares
theorem hostOps0_52_spares : (hostOps0_52 : List (HloOp τ sig (Elt F))).Forall Spares := by spares
theorem hostOps0_53_spares : (hostOps0_53 : List (HloOp τ sig (Elt F))).Forall Spares := by spares
theorem hostOps0_54_spares : (hostOps0_54 : List (HloOp τ sig (Elt F))).Forall Spares := by spares
theorem hostOps0_55_spares : (hostOps0_55 : List (HloOp τ sig (Elt F))).Forall Spares := by spares
theorem hostOps0_56_spares : (hostOps0_56 : List (HloOp τ sig (Elt F))).Forall Spares := by spares
theorem hostOps0_57_spares : (hostOps0_57 : List (HloOp τ sig (Elt F))).Forall Spares := by spares
theorem hostOps0_58_spares : (hostOps0_58 : List (HloOp τ sig (Elt F))).Forall Spares := by spares
theorem hostOps0_59_spares : (hostOps0_59 : List (HloOp τ sig (Elt F))).Forall Spares := by spares
theorem hostOps0_60_spares : (hostOps0_60 : List (HloOp τ sig (Elt F))).Forall Spares := by spares
theorem hostOps0_61_spares : (hostOps0_61 : List (HloOp τ sig (Elt F))).Forall Spares := by spares
theorem hostOps0_62_spares : (hostOps0_62 : List (HloOp τ sig (Elt F))).Forall Spares := by spares
theorem hostOps0_63_spares : (hostOps0_63 : List (HloOp τ sig (Elt F))).Forall Spares := by spares
theorem hostOps0_64_spares : (hostOps0_64 : List (HloOp τ sig (Elt F))).Forall Spares := by spares
theorem hostOps0_65_spares : (hostOps0_65 : List (HloOp τ sig (Elt F))).Forall Spares := by spares
theorem hostOps0_66_spares : (hostOps0_66 : List (HloOp τ sig (Elt F))).Forall Spares := by spares
theorem hostOps0_67_spares : (hostOps0_67 : List (HloOp τ sig (Elt F))).Forall Spares := by spares
theorem hostOps0_68_spares : (hostOps0_68 : List (HloOp τ sig (Elt F))).Forall Spares := by spares
theorem hostOps0_69_spares : (hostOps0_69 : List (HloOp τ sig (Elt F))).Forall Spares := by spares
theorem hostOps0_70_spares : (hostOps0_70 : List (HloOp τ sig (Elt F))).Forall Spares := by spares
theorem hostOps0_71_spares : (hostOps0_71 : List (HloOp τ sig (Elt F))).Forall Spares := by spares
set_option maxHeartbeats 4000000 in
theorem hostOps0_72_spares : (hostOps0_72 : List (HloOp τ sig (Elt F))).Forall Spares := by spares
theorem hostOps1_spares : (hostOps1 : List (HloOp τ sig (Elt F))).Forall Spares := by spares
theorem hostOps1_1_spares : (hostOps1_1 : List (HloOp τ sig (Elt F))).Forall Spares := by spares
theorem hostOps1_2_spares : (hostOps1_2 : List (HloOp τ sig (Elt F))).Forall Spares := by spares
theorem hostOps1_3_spares : (hostOps1_3 : List (HloOp τ sig (Elt F))).Forall Spares := by spares
set_option maxHeartbeats 4000000 in
theorem hostOps1_4_spares : (hostOps1_4 : List (HloOp τ sig (Elt F))).Forall Spares := by spares
theorem hostOps2_spares : (hostOps2 : List (HloOp τ sig (Elt F))).Forall Spares := by spares

variable (m : (ℓ : Loc nD τ sig) → Buf (Elt F) ℓ) (ρ : Dev nD → PrngReg)

/-! ## Before the first pallas_call: every boundary agrees with the launch memory at an argument -/

theorem WA1_arg (c : Dev nD) {r : Ref sig .tc} (hr : r ∈ argRefs) : WA1 m ρ c (Proc.devRef .tc r) = WA0 m ρ c (Proc.devRef .tc r) :=
  after_spares _ hostOps0_spares _ hr
theorem WA2_arg (c : Dev nD) {r : Ref sig .tc} (hr : r ∈ argRefs) : WA2 m ρ c (Proc.devRef .tc r) = WA0 m ρ c (Proc.devRef .tc r) :=
  (after_spares _ hostOps0_1_spares _ hr).trans (WA1_arg m ρ c hr)
theorem WA3_arg (c : Dev nD) {r : Ref sig .tc} (hr : r ∈ argRefs) : WA3 m ρ c (Proc.devRef .tc r) = WA0 m ρ c (Proc.devRef .tc r) :=
  (after_spares _ hostOps0_2_spares _ hr).trans (WA2_arg m ρ c hr)
theorem WA4_arg (c : Dev nD) {r : Ref sig .tc} (hr : r ∈ argRefs) : WA4 m ρ c (Proc.devRef .tc r) = WA0 m ρ c (Proc.devRef .tc r) :=
  (after_spares _ hostOps0_3_spares _ hr).trans (WA3_arg m ρ c hr)
theorem WA5_arg (c : Dev nD) {r : Ref sig .tc} (hr : r ∈ argRefs) : WA5 m ρ c (Proc.devRef .tc r) = WA0 m ρ c (Proc.devRef .tc r) :=
  (after_spares _ hostOps0_4_spares _ hr).trans (WA4_arg m ρ c hr)
theorem WA6_arg (c : Dev nD) {r : Ref sig .tc} (hr : r ∈ argRefs) : WA6 m ρ c (Proc.devRef .tc r) = WA0 m ρ c (Proc.devRef .tc r) :=
  (after_spares _ hostOps0_5_spares _ hr).trans (WA5_arg m ρ c hr)
theorem WA7_arg (c : Dev nD) {r : Ref sig .tc} (hr : r ∈ argRefs) : WA7 m ρ c (Proc.devRef .tc r) = WA0 m ρ c (Proc.devRef .tc r) :=
  (after_spares _ hostOps0_6_spares _ hr).trans (WA6_arg m ρ c hr)
theorem WA8_arg (c : Dev nD) {r : Ref sig .tc} (hr : r ∈ argRefs) : WA8 m ρ c (Proc.devRef .tc r) = WA0 m ρ c (Proc.devRef .tc r) :=
  (after_spares _ hostOps0_7_spares _ hr).trans (WA7_arg m ρ c hr)
theorem WA9_arg (c : Dev nD) {r : Ref sig .tc} (hr : r ∈ argRefs) : WA9 m ρ c (Proc.devRef .tc r) = WA0 m ρ c (Proc.devRef .tc r) :=
  (after_spares _ hostOps0_8_spares _ hr).trans (WA8_arg m ρ c hr)
theorem WA10_arg (c : Dev nD) {r : Ref sig .tc} (hr : r ∈ argRefs) : WA10 m ρ c (Proc.devRef .tc r) = WA0 m ρ c (Proc.devRef .tc r) :=
  (after_spares _ hostOps0_9_spares _ hr).trans (WA9_arg m ρ c hr)
theorem WA11_arg (c : Dev nD) {r : Ref sig .tc} (hr : r ∈ argRefs) : WA11 m ρ c (Proc.devRef .tc r) = WA0 m ρ c (Proc.devRef .tc r) :=
  (after_spares _ hostOps0_10_spares _ hr).trans (WA10_arg m ρ c hr)
theorem WA12_arg (c : Dev nD) {r : Ref sig .tc} (hr : r ∈ argRefs) : WA12 m ρ c (Proc.devRef .tc r) = WA0 m ρ c (Proc.devRef .tc r) :=
  (after_spares _ hostOps0_11_spares _ hr).trans (WA11_arg m ρ c hr)
theorem WA13_arg (c : Dev nD) {r : Ref sig .tc} (hr : r ∈ argRefs) : WA13 m ρ c (Proc.devRef .tc r) = WA0 m ρ c (Proc.devRef .tc r) :=
  (after_spares _ hostOps0_12_spares _ hr).trans (WA12_arg m ρ c hr)
theorem WA14_arg (c : Dev nD) {r : Ref sig .tc} (hr : r ∈ argRefs) : WA14 m ρ c (Proc.devRef .tc r) = WA0 m ρ c (Proc.devRef .tc r) :=
  (after_spares _ hostOps0_13_spares _ hr).trans (WA13_arg m ρ c hr)
theorem WA15_arg (c : Dev nD) {r : Ref sig .tc} (hr : r ∈ argRefs) : WA15 m ρ c (Proc.devRef .tc r) = WA0 m ρ c (Proc.devRef .tc r) :=
  (after_spares _ hostOps0_14_spares _ hr).trans (WA14_arg m ρ c hr)
theorem WA16_arg (c : Dev nD) {r : Ref sig .tc} (hr : r ∈ argRefs) : WA16 m ρ c (Proc.devRef .tc r) = WA0 m ρ c (Proc.devRef .tc r) :=
  (after_spares _ hostOps0_15_spares _ hr).trans (WA15_arg m ρ c hr)
theorem WA17_arg (c : Dev nD) {r : Ref sig .tc} (hr : r ∈ argRefs) : WA17 m ρ c (Proc.devRef .tc r) = WA0 m ρ c (Proc.devRef .tc r) :=
  (after_spares _ hostOps0_16_spares _ hr).trans (WA16_arg m ρ c hr)
theorem WA18_arg (c : Dev nD) {r : Ref sig .tc} (hr : r ∈ argRefs) : WA18 m ρ c (Proc.devRef .tc r) = WA0 m ρ c (Proc.devRef .tc r) :=
  (after_spares _ hostOps0_17_spares _ hr).trans (WA17_arg m ρ c hr)
theorem WA19_arg (c : Dev nD) {r : Ref sig .tc} (hr : r ∈ argRefs) : WA19 m ρ c (Proc.devRef .tc r) = WA0 m ρ c (Proc.devRef .tc r) :=
  (after_spares _ hostOps0_18_spares _ hr).trans (WA18_arg m ρ c hr)
theorem WA20_arg (c : Dev nD) {r : Ref sig .tc} (hr : r ∈ argRefs) : WA20 m ρ c (Proc.devRef .tc r) = WA0 m ρ c (Proc.devRef .tc r) :=
  (after_spares _ hostOps0_19_spares _ hr).trans (WA19_arg m ρ c hr)
theorem WA21_arg (c : Dev nD) {r : Ref sig .tc} (hr : r ∈ argRefs) : WA21 m ρ c (Proc.devRef .tc r) = WA0 m ρ c (Proc.devRef .tc r) :=
  (after_spares _ hostOps0_20_spares _ hr).trans (WA20_arg m ρ c hr)
theorem WA22_arg (c : Dev nD) {r : Ref sig .tc} (hr : r ∈ argRefs) : WA22 m ρ c (Proc.devRef .tc r) = WA0 m ρ c (Proc.devRef .tc r) :=
  (after_spares _ hostOps0_21_spares _ hr).trans (WA21_arg m ρ c hr)
theorem WA23_arg (c : Dev nD) {r : Ref sig .tc} (hr : r ∈ argRefs) : WA23 m ρ c (Proc.devRef .tc r) = WA0 m ρ c (Proc.devRef .tc r) :=
  (after_spares _ hostOps0_22_spares _ hr).trans (WA22_arg m ρ c hr)
theorem WA24_arg (c : Dev nD) {r : Ref sig .tc} (hr : r ∈ argRefs) : WA24 m ρ c (Proc.devRef .tc r) = WA0 m ρ c (Proc.devRef .tc r) :=
  (after_spares _ hostOps0_23_spares _ hr).trans (WA23_arg m ρ c hr)
theorem WA25_arg (c : Dev nD) {r : Ref sig .tc} (hr : r ∈ argRefs) : WA25 m ρ c (Proc.devRef .tc r) = WA0 m ρ c (Proc.devRef .tc r) :=
  (after_spares _ hostOps0_24_spares _ hr).trans (WA24_arg m ρ c hr)
theorem WA26_arg (c : Dev nD) {r : Ref sig .tc} (hr : r ∈ argRefs) : WA26 m ρ c (Proc.devRef .tc r) = WA0 m ρ c (Proc.devRef .tc r) :=
  (after_spares _ hostOps0_25_spares _ hr).trans (WA25_arg m ρ c hr)
theorem WA27_arg (c : Dev nD) {r : Ref sig .tc} (hr : r ∈ argRefs) : WA27 m ρ c (Proc.devRef .tc r) = WA0 m ρ c (Proc.devRef .tc r) :=
  (after_spares _ hostOps0_26_spares _ hr).trans (WA26_arg m ρ c hr)
theorem WA28_arg (c : Dev nD) {r : Ref sig .tc} (hr : r ∈ argRefs) : WA28 m ρ c (Proc.devRef .tc r) = WA0 m ρ c (Proc.devRef .tc r) :=
  (after_spares _ hostOps0_27_spares _ hr).trans (WA27_arg m ρ c hr)
theorem WA29_arg (c : Dev nD) {r : Ref sig .tc} (hr : r ∈ argRefs) : WA29 m ρ c (Proc.devRef .tc r) = WA0 m ρ c (Proc.devRef .tc r) :=
  (after_spares _ hostOps0_28_spares _ hr).trans (WA28_arg m ρ c hr)
theorem WA30_arg (c : Dev nD) {r : Ref sig .tc} (hr : r ∈ argRefs) : WA30 m ρ c (Proc.devRef .tc r) = WA0 m ρ c (Proc.devRef .tc r) :=
  (after_spares _ hostOps0_29_spares _ hr).trans (WA29_arg m ρ c hr)
theorem WA31_arg (c : Dev nD) {r : Ref sig .tc} (hr : r ∈ argRefs) : WA31 m ρ c (Proc.devRef .tc r) = WA0 m ρ c (Proc.devRef .tc r) :=
  (after_spares _ hostOps0_30_spares _ hr).trans (WA30_arg m ρ c hr)
theorem WA32_arg (c : Dev nD) {r : Ref sig .tc} (hr : r ∈ argRefs) : WA32 m ρ c (Proc.devRef .tc r) = WA0 m ρ c (Proc.devRef .tc r) :=
  (after_spares _ hostOps0_31_spares _ hr).trans (WA31_arg m ρ c hr)
theorem WA33_arg (c : Dev nD) {r : Ref sig .tc} (hr : r ∈ argRefs) : WA33 m ρ c (Proc.devRef .tc r) = WA0 m ρ c (Proc.devRef .tc r) :=
  (after_spares _ hostOps0_32_spares _ hr).trans (WA32_arg m ρ c hr)
theorem WA34_arg (c : Dev nD) {r : Ref sig .tc} (hr : r ∈ argRefs) : WA34 m ρ c (Proc.devRef .tc r) = WA0 m ρ c (Proc.devRef .tc r) :=
  (after_spares _ hostOps0_33_spares _ hr).trans (WA33_arg m ρ c hr)
theorem WA35_arg (c : Dev nD) {r : Ref sig .tc} (hr : r ∈ argRefs) : WA35 m ρ c (Proc.devRef .tc r) = WA0 m ρ c (Proc.devRef .tc r) :=
  (after_spares _ hostOps0_34_spares _ hr).trans (WA34_arg m ρ c hr)
theorem WA36_arg (c : Dev nD) {r : Ref sig .tc} (hr : r ∈ argRefs) : WA36 m ρ c (Proc.devRef .tc r) = WA0 m ρ c (Proc.devRef .tc r) :=
  (after_spares _ hostOps0_35_spares _ hr).trans (WA35_arg m ρ c hr)
theorem WA37_arg (c : Dev nD) {r : Ref sig .tc} (hr : r ∈ argRefs) : WA37 m ρ c (Proc.devRef .tc r) = WA0 m ρ c (Proc.devRef .tc r) :=
  (after_spares _ hostOps0_36_spares _ hr).trans (WA36_arg m ρ c hr)
theorem WA38_arg (c : Dev nD) {r : Ref sig .tc} (hr : r ∈ argRefs) : WA38 m ρ c (Proc.devRef .tc r) = WA0 m ρ c (Proc.devRef .tc r) :=
  (after_spares _ hostOps0_37_spares _ hr).trans (WA37_arg m ρ c hr)
theorem WA39_arg (c : Dev nD) {r : Ref sig .tc} (hr : r ∈ argRefs) : WA39 m ρ c (Proc.devRef .tc r) = WA0 m ρ c (Proc.devRef .tc r) :=
  (after_spares _ hostOps0_38_spares _ hr).trans (WA38_arg m ρ c hr)
theorem WA40_arg (c : Dev nD) {r : Ref sig .tc} (hr : r ∈ argRefs) : WA40 m ρ c (Proc.devRef .tc r) = WA0 m ρ c (Proc.devRef .tc r) :=
  (after_spares _ hostOps0_39_spares _ hr).trans (WA39_arg m ρ c hr)
theorem WA41_arg (c : Dev nD) {r : Ref sig .tc} (hr : r ∈ argRefs) : WA41 m ρ c (Proc.devRef .tc r) = WA0 m ρ c (Proc.devRef .tc r) :=
  (after_spares _ hostOps0_40_spares _ hr).trans (WA40_arg m ρ c hr)
theorem WA42_arg (c : Dev nD) {r : Ref sig .tc} (hr : r ∈ argRefs) : WA42 m ρ c (Proc.devRef .tc r) = WA0 m ρ c (Proc.devRef .tc r) :=
  (after_spares _ hostOps0_41_spares _ hr).trans (WA41_arg m ρ c hr)
theorem WA43_arg (c : Dev nD) {r : Ref sig .tc} (hr : r ∈ argRefs) : WA43 m ρ c (Proc.devRef .tc r) = WA0 m ρ c (Proc.devRef .tc r) :=
  (after_spares _ hostOps0_42_spares _ hr).trans (WA42_arg m ρ c hr)
theorem WA44_arg (c : Dev nD) {r : Ref sig .tc} (hr : r ∈ argRefs) : WA44 m ρ c (Proc.devRef .tc r) = WA0 m ρ c (Proc.devRef .tc r) :=
  (after_spares _ hostOps0_43_spares _ hr).trans (WA43_arg m ρ c hr)
theorem WA45_arg (c : Dev nD) {r : Ref sig .tc} (hr : r ∈ argRefs) : WA45 m ρ c (Proc.devRef .tc r) = WA0 m ρ c (Proc.devRef .tc r) :=
  (after_spares _ hostOps0_44_spares _ hr).trans (WA44_arg m ρ c hr)
theorem WA46_arg (c : Dev nD) {r : Ref sig .tc} (hr : r ∈ argRefs) : WA46 m ρ c (Proc.devRef .tc r) = WA0 m ρ c (Proc.devRef .tc r) :=
  (after_spares _ hostOps0_45_spares _ hr).trans (WA45_arg m ρ c hr)
theorem WA47_arg (c : Dev nD) {r : Ref sig .tc} (hr : r ∈ argRefs) : WA47 m ρ c (Proc.devRef .tc r) = WA0 m ρ c (Proc.devRef .tc r) :=
  (after_spares _ hostOps0_46_spares _ hr).trans (WA46_arg m ρ c hr)
theorem WA48_arg (c : Dev nD) {r : Ref sig .tc} (hr : r ∈ argRefs) : WA48 m ρ c (Proc.devRef .tc r) = WA0 m ρ c (Proc.devRef .tc r) :=
  (after_spares _ hostOps0_47_spares _ hr).trans (WA47_arg m ρ c hr)
theorem WA49_arg (c : Dev nD) {r : Ref sig .tc} (hr : r ∈ argRefs) : WA49 m ρ c (Proc.devRef .tc r) = WA0 m ρ c (Proc.devRef .tc r) :=
  (after_spares _ hostOps0_48_spares _ hr).trans (WA48_arg m ρ c hr)
theorem WA50_arg (c : Dev nD) {r : Ref sig .tc} (hr : r ∈ argRefs) : WA50 m ρ c (Proc.devRef .tc r) = WA0 m ρ c (Proc.devRef .tc r) :=
  (after_spares _ hostOps0_49_spares _ hr).trans (WA49_arg m ρ c hr)
theorem WA51_arg (c : Dev nD) {r : Ref sig .tc} (hr : r ∈ argRefs) : WA51 m ρ c (Proc.devRef .tc r) = WA0 m ρ c (Proc.devRef .tc r) :=
  (after_spares _ hostOps0_50_spares _ hr).trans (WA50_arg m ρ c hr)
theorem WA52_arg (c : Dev nD) {r : Ref sig .tc} (hr : r ∈ argRefs) : WA52 m ρ c (Proc.devRef .tc r) = WA0 m ρ c (Proc.devRef .tc r) :=
  (after_spares _ hostOps0_51_spares _ hr).trans (WA51_arg m ρ c hr)
theorem WA53_arg (c : Dev nD) {r : Ref sig .tc} (hr : r ∈ argRefs) : WA53 m ρ c (Proc.devRef .tc r) = WA0 m ρ c (Proc.devRef .tc r) :=
  (after_spares _ hostOps0_52_spares _ hr).trans (WA52_arg m ρ c hr)
theorem WA54_arg (c : Dev nD) {r : Ref sig .tc} (hr : r ∈ argRefs) : WA54 m ρ c (Proc.devRef .tc r) = WA0 m ρ c (Proc.devRef .tc r) :=
  (after_spares _ hostOps0_53_spares _ hr).trans (WA53_arg m ρ c hr)
theorem WA55_arg (c : Dev nD) {r : Ref sig .tc} (hr : r ∈ argRefs) : WA55 m ρ c (Proc.devRef .tc r) = WA0 m ρ c (Proc.devRef .tc r) :=
  (after_spares _ hostOps0_54_spares _ hr).trans (WA54_arg m ρ c hr)
theorem WA56_arg (c : Dev nD) {r : Ref sig .tc} (hr : r ∈ argRefs) : WA56 m ρ c (Proc.devRef .tc r) = WA0 m ρ c (Proc.devRef .tc r) :=
  (after_spares _ hostOps0_55_spares _ hr).trans (WA55_arg m ρ c hr)
theorem WA57_arg (c : Dev nD) {r : Ref sig .tc} (hr : r ∈ argRefs) : WA57 m ρ c (Proc.devRef .tc r) = WA0 m ρ c (Proc.devRef .tc r) :=
  (after_spares _ hostOps0_56_spares _ hr).trans (WA56_arg m ρ c hr)
theorem WA58_arg (c : Dev nD) {r : Ref sig .tc} (hr : r ∈ argRefs) : WA58 m ρ c (Proc.devRef .tc r) = WA0 m ρ c (Proc.devRef .tc r) :=
  (after_spares _ hostOps0_57_spares _ hr).trans (WA57_arg m ρ c hr)
theorem WA59_arg (c : Dev nD) {r : Ref sig .tc} (hr : r ∈ argRefs) : WA59 m ρ c (Proc.devRef .tc r) = WA0 m ρ c (Proc.devRef .tc r) :=
  (after_spares _ hostOps0_58_spares _ hr).trans (WA58_arg m ρ c hr)
theorem WA60_arg (c : Dev nD) {r : Ref sig .tc} (hr : r ∈ argRefs) : WA60 m ρ c (Proc.devRef .tc r) = WA0 m ρ c (Proc.devRef .tc r) :=
  (after_spares _ hostOps0_59_spares _ hr).trans (WA59_arg m ρ c hr)
theorem WA61_arg (c : Dev nD) {r : Ref sig .tc} (hr : r ∈ argRefs) : WA61 m ρ c (Proc.devRef .tc r) = WA0 m ρ c (Proc.devRef .tc r) :=
  (after_spares _ hostOps0_60_spares _ hr).trans (WA60_arg m ρ c hr)
theorem WA62_arg (c : Dev nD) {r : Ref sig .tc} (hr : r ∈ argRefs) : WA62 m ρ c (Proc.devRef .tc r) = WA0 m ρ c (Proc.devRef .tc r) :=
  (after_spares _ hostOps0_61_spares _ hr).trans (WA61_arg m ρ c hr)
theorem WA63_arg (c : Dev nD) {r : Ref sig .tc} (hr : r ∈ argRefs) : WA63 m ρ c (Proc.devRef .tc r) = WA0 m ρ c (Proc.devRef .tc r) :=
  (after_spares _ hostOps0_62_spares _ hr).trans (WA62_arg m ρ c hr)
theorem WA64_arg (c : Dev nD) {r : Ref sig .tc} (hr : r ∈ argRefs) : WA64 m ρ c (Proc.devRef .tc r) = WA0 m ρ c (Proc.devRef .tc r) :=
  (after_spares _ hostOps0_63_spares _ hr).trans (WA63_arg m ρ c hr)
theorem WA65_arg (c : Dev nD) {r : Ref sig .tc} (hr : r ∈ argRefs) : WA65 m ρ c (Proc.devRef .tc r) = WA0 m ρ c (Proc.devRef .tc r) :=
  (after_spares _ hostOps0_64_spares _ hr).trans (WA64_arg m ρ c hr)
theorem WA66_arg (c : Dev nD) {r : Ref sig .tc} (hr : r ∈ argRefs) : WA66 m ρ c (Proc.devRef .tc r) = WA0 m ρ c (Proc.devRef .tc r) :=
  (after_spares _ hostOps0_65_spares _ hr).trans (WA65_arg m ρ c hr)
theorem WA67_arg (c : Dev nD) {r : Ref sig .tc} (hr : r ∈ argRefs) : WA67 m ρ c (Proc.devRef .tc r) = WA0 m ρ c (Proc.devRef .tc r) :=
  (after_spares _ hostOps0_66_spares _ hr).trans (WA66_arg m ρ c hr)
theorem WA68_arg (c : Dev nD) {r : Ref sig .tc} (hr : r ∈ argRefs) : WA68 m ρ c (Proc.devRef .tc r) = WA0 m ρ c (Proc.devRef .tc r) :=
  (after_spares _ hostOps0_67_spares _ hr).trans (WA67_arg m ρ c hr)
theorem WA69_arg (c : Dev nD) {r : Ref sig .tc} (hr : r ∈ argRefs) : WA69 m ρ c (Proc.devRef .tc r) = WA0 m ρ c (Proc.devRef .tc r) :=
  (after_spares _ hostOps0_68_spares _ hr).trans (WA68_arg m ρ c hr)
theorem WA70_arg (c : Dev nD) {r : Ref sig .tc} (hr : r ∈ argRefs) : WA70 m ρ c (Proc.devRef .tc r) = WA0 m ρ c (Proc.devRef .tc r) :=
  (after_spares _ hostOps0_69_spares _ hr).trans (WA69_arg m ρ c hr)
theorem WA71_arg (c : Dev nD) {r : Ref sig .tc} (hr : r ∈ argRefs) : WA71 m ρ c (Proc.devRef .tc r) = WA0 m ρ c (Proc.devRef .tc r) :=
  (after_spares _ hostOps0_70_spares _ hr).trans (WA70_arg m ρ c hr)
theorem WA72_arg (c : Dev nD) {r : Ref sig .tc} (hr : r ∈ argRefs) : WA72 m ρ c (Proc.devRef .tc r) = WA0 m ρ c (Proc.devRef .tc r) :=
  (after_spares _ hostOps0_71_spares _ hr).trans (WA71_arg m ρ c hr)
theorem WA73_arg (c : Dev nD) {r : Ref sig .tc} (hr : r ∈ argRefs) : WA73 m ρ c (Proc.devRef .tc r) = WA0 m ρ c (Proc.devRef .tc r) :=
  (after_spares _ hostOps0_72_spares _ hr).trans (WA72_arg m ρ c hr)

variable (X : Dev nD → Valuation τ sig (Elt F))

/-! ## Between the calls: every boundary agrees with the contents `X` the call before leaves at an argument -/

theorem WB1_arg (c : Dev nD) {r : Ref sig .tc} (hr : r ∈ argRefs) : WB1 X c (Proc.devRef .tc r) = X c (Proc.devRef .tc r) :=
  after_spares _ hostOps1_spares _ hr
theorem WB2_arg (c : Dev nD) {r : Ref sig .tc} (hr : r ∈ argRefs) : WB2 X c (Proc.devRef .tc r) = X c (Proc.devRef .tc r) :=
  (after_spares _ hostOps1_1_spares _ hr).trans (WB1_arg X c hr)
theorem WB3_arg (c : Dev nD) {r : Ref sig .tc} (hr : r ∈ argRefs) : WB3 X c (Proc.devRef .tc r) = X c (Proc.devRef .tc r) :=
  (after_spares _ hostOps1_2_spares _ hr).trans (WB2_arg X c hr)
theorem WB4_arg (c : Dev nD) {r : Ref sig .tc} (hr : r ∈ argRefs) : WB4 X c (Proc.devRef .tc r) = X c (Proc.devRef .tc r) :=
  (after_spares _ hostOps1_3_spares _ hr).trans (WB3_arg X c hr)
theorem WB5_arg (c : Dev nD) {r : Ref sig .tc} (hr : r ∈ argRefs) : WB5 X c (Proc.devRef .tc r) = X c (Proc.devRef .tc r) :=
  (after_spares _ hostOps1_4_spares _ hr).trans (WB4_arg X c hr)
theorem WC1_arg (c : Dev nD) {r : Ref sig .tc} (hr : r ∈ argRefs) : WC1 X c (Proc.devRef .tc r) = X c (Proc.devRef .tc r) :=
  after_spares _ hostOps2_spares _ hr

end Cert.Kernel.Fr

end
-- ==== Proof.K.Reg0.lean ====
/-
  Pallas call 0 (the per-relation projection) read at the contents `V` its arrays hold when it is entered:
  the block of each of its five windows at a grid point, what the body leaves in the output window's buffer —
  the one store's payload over the four input blocks —, the body's triple, the pipeline's proof data and the
  body obligation at every grid point. The grid is (relation, node tile): 9 × 10 points; the weight and bias
  windows move only when the relation changes, and hold their block at the points between.
-/
import proofs.«151568_j90031104458821_2_alg».proof.Proof.Gen.Kernel.Launch
import proofs.«151568_j90031104458821_2_alg».proof.Proof.Gen.Kernel.Skeleton
import proofs.«151568_j90031104458821_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or kept from the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or kept from the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or kept from the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles of the body's loads and of its store. -/
abbrev r0_0 : Rect S1x5000x128 := Rect.unit (s := S1x5000x128) ![0, 0, 0] S1x5000x128.size inb_S1x5000x128_S1x5000x128_0_0_0
abbrev r0_1 : Rect S1x5000x1 := Rect.unit (s := S1x5000x1) ![0, 0, 0] S1x5000x1.size inb_S1x5000x1_S1x5000x1_0_0_0
abbrev r0_2 : Rect S1x128x128 := Rect.unit (s := S1x128x128) ![0, 0, 0] S1x128x128.size inb_S1x128x128_S1x128x128_0_0_0
abbrev r0_3 : Rect S1x1x128 := Rect.unit (s := S1x1x128) ![0, 0, 0] S1x1x128.size inb_S1x1x128_S1x1x128_0_0_0

/-- The output window's buffer after the body: its one store, the payload over the four input blocks. -/
def out0_4 (x0 : Vec F S1x5000x128 .f32) (x1 : Vec F S1x5000x1 .f32) (x2 : Vec F S1x128x128 .f32) (x3 : Vec F S1x1x128 .f32) : Vec F S1x5000x128 .f32 :=
  View.canon [⟨r0_0, k0_pay1 (View.ld x0 r0_0) (View.ld x1 r0_1) (View.ld x2 r0_2) (View.ld x3 r0_3)⟩]

/-- The store is of the whole buffer, so it covers it. -/
theorem cover0_4 (p0 : Vec F S1x5000x128 .f32) (y : S1x5000x128.Idx) :
    ∃ pc ∈ ([⟨r0_0, p0⟩] : List (View.Piece (Elt F) S1x5000x128 .f32)), y ∈ pc.1.set :=
  View.cover_of_tiled [⟨r0_0, p0⟩] S1x5000x128.size (by rfl) y

set_option maxHeartbeats 1000000 in
/-- The body on whole staging memrefs, the inputs' at contents `x0 … x3` and the output's at anything, runs to the
    continuation holding the inputs' as they were and the output's at `out0_4` of them. -/
theorem sound_kernel0 (c : Dev nD) (E : Set ℕ) (i : grid0.Coords)
    (arg2 : Memref sig .tc .vmem S1x5000x128 .f32) (harg2 : arg2.IsWhole) (arg3 : Memref sig .tc .vmem S1x5000x1 .f32) (harg3 : arg3.IsWhole)
    (arg4 : Memref sig .tc .vmem S1x128x128 .f32) (harg4 : arg4.IsWhole) (arg5 : Memref sig .tc .vmem S1x1x128 .f32) (harg5 : arg5.IsWhole)
    (arg6 : Memref sig .tc .vmem S1x5000x128 .f32) (harg6 : arg6.IsWhole)
    (x0 : Vec F S1x5000x128 .f32) (x1 : Vec F S1x5000x1 .f32) (x2 : Vec F S1x128x128 .f32) (x3 : Vec F S1x1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__proj2_kernel_body i arg2 harg2 arg3 harg3 arg4 harg4 arg5 harg5 arg6 harg6) K := by
  simp only [cc0__proj2_kernel_body_eq_skeleton]; unfold cc0__proj2_kernel_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of the call on core `c`: the arrays as the call finds them; after the body at point `t` each input's
    buffer at its block and the output's at `out0_4` of the input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.Reg1.lean ====
/-
  Pallas call 1 (the per-relation projection) read at the contents `V` its arrays hold when it is entered:
  the block of each of its five windows at a grid point, what the body leaves in the output window's buffer —
  the one store's payload over the four input blocks —, the body's triple, the pipeline's proof data and the
  body obligation at every grid point. The grid is (relation, node tile): 9 × 10 points; the weight and bias
  windows move only when the relation changes, and hold their block at the points between.
-/
import proofs.«151568_j90031104458821_2_alg».proof.Proof.Gen.Kernel.Launch
import proofs.«151568_j90031104458821_2_alg».proof.Proof.Gen.Kernel.Skeleton
import proofs.«151568_j90031104458821_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or kept from the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles of the body's loads and of its store. -/
abbrev r1_0 : Rect S1x5000x128 := Rect.unit (s := S1x5000x128) ![0, 0, 0] S1x5000x128.size inb_S1x5000x128_S1x5000x128_0_0_0
abbrev r1_1 : Rect S1x5000x1 := Rect.unit (s := S1x5000x1) ![0, 0, 0] S1x5000x1.size inb_S1x5000x1_S1x5000x1_0_0_0
abbrev r1_2 : Rect S1x128x128 := Rect.unit (s := S1x128x128) ![0, 0, 0] S1x128x128.size inb_S1x128x128_S1x128x128_0_0_0
abbrev r1_3 : Rect S1x1x128 := Rect.unit (s := S1x1x128) ![0, 0, 0] S1x1x128.size inb_S1x1x128_S1x1x128_0_0_0

/-- The output window's buffer after the body: its one store, the payload over the four input blocks. -/
def out1_4 (x0 : Vec F S1x5000x128 .f32) (x1 : Vec F S1x5000x1 .f32) (x2 : Vec F S1x128x128 .f32) (x3 : Vec F S1x1x128 .f32) : Vec F S1x5000x128 .f32 :=
  View.canon [⟨r1_0, k1_pay1 (View.ld x0 r1_0) (View.ld x1 r1_1) (View.ld x2 r1_2) (View.ld x3 r1_3)⟩]

/-- The store is of the whole buffer, so it covers it. -/
theorem cover1_4 (p0 : Vec F S1x5000x128 .f32) (y : S1x5000x128.Idx) :
    ∃ pc ∈ ([⟨r1_0, p0⟩] : List (View.Piece (Elt F) S1x5000x128 .f32)), y ∈ pc.1.set :=
  View.cover_of_tiled [⟨r1_0, p0⟩] S1x5000x128.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg2 : Memref sig .tc .vmem S1x5000x128 .f32) (harg2 : arg2.IsWhole) (arg3 : Memref sig .tc .vmem S1x5000x1 .f32) (harg3 : arg3.IsWhole)
    (arg4 : Memref sig .tc .vmem S1x128x128 .f32) (harg4 : arg4.IsWhole) (arg5 : Memref sig .tc .vmem S1x1x128 .f32) (harg5 : arg5.IsWhole)
    (arg6 : Memref sig .tc .vmem S1x5000x128 .f32) (harg6 : arg6.IsWhole)
    (x0 : Vec F S1x5000x128 .f32) (x1 : Vec F S1x5000x1 .f32) (x2 : Vec F S1x128x128 .f32) (x3 : Vec F S1x1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__proj2_kernel_body i arg2 harg2 arg3 harg3 arg4 harg4 arg5 harg5 arg6 harg6) K := by
  simp only [cc1__proj2_kernel_body_eq_skeleton]; unfold cc1__proj2_kernel_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the call on core `c`: the arrays as the call finds them; after the body at point `t` each input's
    buffer at its block and the output's at `out1_4` of the input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.K.Reg2.lean ====
/-
  Pallas call 2 (the classifier) read at the contents `V` its arrays hold when it is entered: the block of each of
  its four windows at a grid point, what the body leaves in the output window's buffer — the one store's payload over
  the three input blocks —, the body's triple, the pipeline's proof data and the body obligation at every grid point.
  The grid is (node type, node tile): 3 × 10 points; the weight and bias windows are fetched once and hold their block
  at every later point.
-/
import proofs.«151568_j90031104458821_2_alg».proof.Proof.Gen.Kernel.Launch
import proofs.«151568_j90031104458821_2_alg».proof.Proof.Gen.Kernel.Skeleton
import proofs.«151568_j90031104458821_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or kept from an earlier point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or kept from an earlier point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or kept from an earlier point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles of the body's loads and of its store. -/
abbrev r2_0 : Rect S1x5000x128 := Rect.unit (s := S1x5000x128) ![0, 0, 0] S1x5000x128.size inb_S1x5000x128_S1x5000x128_0_0_0
abbrev r2_1 : Rect S128x16 := Rect.unit (s := S128x16) ![0, 0] S128x16.size inb_S128x16_S128x16_0_0
abbrev r2_2 : Rect S1x16 := Rect.unit (s := S1x16) ![0, 0] S1x16.size inb_S1x16_S1x16_0_0
abbrev r2_3 : Rect S1x5000x16 := Rect.unit (s := S1x5000x16) ![0, 0, 0] S1x5000x16.size inb_S1x5000x16_S1x5000x16_0_0_0

/-- The output window's buffer after the body: its one store, the payload over the three input blocks. -/
def out2_3 (x0 : Vec F S1x5000x128 .f32) (x1 : Vec F S128x16 .f32) (x2 : Vec F S1x16 .f32) : Vec F S1x5000x16 .f32 :=
  View.canon [⟨r2_3, k2_pay1 (View.ld x0 r2_0) (View.ld x1 r2_1) (View.ld x2 r2_2)⟩]

/-- The store is of the whole buffer, so it covers it. -/
theorem cover2_3 (p0 : Vec F S1x5000x16 .f32) (y : S1x5000x16.Idx) :
    ∃ pc ∈ ([⟨r2_3, p0⟩] : List (View.Piece (Elt F) S1x5000x16 .f32)), y ∈ pc.1.set :=
  View.cover_of_tiled [⟨r2_3, p0⟩] S1x5000x16.size (by rfl) y

set_option maxHeartbeats 1000000 in
/-- The body on whole staging memrefs, the inputs' at contents `x0 x1 x2` and the output's at anything, runs to the
    continuation holding the inputs' as they were and the output's at `out2_3` of them. -/
theorem sound_kernel2 (c : Dev nD) (E : Set ℕ) (i : grid2.Coords)
    (arg2 : Memref sig .tc .vmem S1x5000x128 .f32) (harg2 : arg2.IsWhole) (arg3 : Memref sig .tc .vmem S128x16 .f32) (harg3 : arg3.IsWhole)
    (arg4 : Memref sig .tc .vmem S1x16 .f32) (harg4 : arg4.IsWhole) (arg5 : Memref sig .tc .vmem S1x5000x16 .f32) (harg5 : arg5.IsWhole)
    (x0 : Vec F S1x5000x128 .f32) (x1 : Vec F S128x16 .f32) (x2 : Vec F S1x16 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__classifier_kernel_body i arg2 harg2 arg3 harg3 arg4 harg4 arg5 harg5) K := by
  simp only [cc2__classifier_kernel_body_eq_skeleton]; unfold cc2__classifier_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the call on core `c`: the arrays as the call finds them; after the body at point `t` each input's
    buffer at its block and the output's at `out2_3` of the input blocks; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.K.Run.lean ====
/-
  The run of @main: its 79 stretches of host operations and its three pallas_calls, as the segments of one launch. The
  thread state between two segments is "every unscoped buffer of the TensorCore at the contents the fold through @main
  gives it there, the generator register at some state, nothing owed"; a host stretch moves the contents by its
  operations, a pallas_call by writing its output window's blocks back into its output array. The conclusion reads the
  last contents off the final state: every unscoped buffer ends at `X2`, the contents call 2 leaves.
-/
import proofs.«151568_j90031104458821_2_alg».proof.Proof.K.Fold
import proofs.«151568_j90031104458821_2_alg».proof.Proof.K.Reg0
import proofs.«151568_j90031104458821_2_alg».proof.Proof.K.Reg1
import proofs.«151568_j90031104458821_2_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the calls' entries and exits -/

/-- What call 0 finds: the launch memory through the 73 stretches before it. -/
abbrev V0e : (c : Dev nD) → (b : Ref sig .tc) → Buf (Elt F) ((c : Thread nD τ).loc b) := fun c b => WA73 m ρ c b

/-- At call 0's exit: its arrays at what the pipeline leaves (the inputs as entered, the output's write-backs folded),
    every other buffer as entered. -/
def X0 (c : Dev nD) : Valuation τ sig (Elt F) :=
  Pipeline.withArrays spec0 c (WA73 m ρ c) fun w => (dat0 (V0e m ρ) c).arrAt w cfg0.N
theorem X0_arr (c : Dev nD) (w : Fin cfg0.W) :
    X0 m ρ c (Proc.devRef .tc (Pipeline.arrRef spec0 w)) = (dat0 (V0e m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = WA73 m ρ c (Proc.devRef .tc b) := by
  unfold X0; exact Pipeline.withArrays_of_ne spec0 c _ _ b hb
/-- The same read at the TensorCore's references. -/
abbrev V0x : (c : Dev nD) → (b : Ref sig .tc) → Buf (Elt F) ((c : Thread nD τ).loc b) := fun c b => X0 m ρ c b
theorem hF0 (c : Dev nD) (w : Fin cfg0.W) : (dat0 (V0e m ρ) c).arrAt w cfg0.N = V0x m ρ c (Pipeline.arrRef spec0 w) :=
  (X0_arr m ρ c w).symm
theorem hrest0 (c : Dev nD) : ∀ b, b ∉ Finset.univ.image (Pipeline.arrRef spec0) → V0x m ρ c b = V0e m ρ c b :=
  fun b hb => X0_of_ne m ρ c b fun w e => hb (Finset.mem_image.mpr ⟨w, Finset.mem_univ _, e⟩)

/-- What call 1 finds: call 0's exit contents through the 5 stretches between them. -/
abbrev V1e : (c : Dev nD) → (b : Ref sig .tc) → Buf (Elt F) ((c : Thread nD τ).loc b) := fun c b => WB5 (X0 m ρ) c b

/-- At call 1's exit: its arrays at what the pipeline leaves (the inputs as entered, the output's write-backs folded),
    every other buffer as entered. -/
def X1 (c : Dev nD) : Valuation τ sig (Elt F) :=
  Pipeline.withArrays spec1 c (WB5 (X0 m ρ) c) fun w => (dat1 (V1e m ρ) c).arrAt w cfg1.N
theorem X1_arr (c : Dev nD) (w : Fin cfg1.W) :
    X1 m ρ c (Proc.devRef .tc (Pipeline.arrRef spec1 w)) = (dat1 (V1e m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = WB5 (X0 m ρ) c (Proc.devRef .tc b) := by
  unfold X1; exact Pipeline.withArrays_of_ne spec1 c _ _ b hb
/-- The same read at the TensorCore's references. -/
abbrev V1x : (c : Dev nD) → (b : Ref sig .tc) → Buf (Elt F) ((c : Thread nD τ).loc b) := fun c b => X1 m ρ c b
theorem hF1 (c : Dev nD) (w : Fin cfg1.W) : (dat1 (V1e m ρ) c).arrAt w cfg1.N = V1x m ρ c (Pipeline.arrRef spec1 w) :=
  (X1_arr m ρ c w).symm
theorem hrest1 (c : Dev nD) : ∀ b, b ∉ Finset.univ.image (Pipeline.arrRef spec1) → V1x m ρ c b = V1e m ρ c b :=
  fun b hb => X1_of_ne m ρ c b fun w e => hb (Finset.mem_image.mpr ⟨w, Finset.mem_univ _, e⟩)

/-- What call 2 finds: call 1's exit contents through the stretch between them. -/
abbrev V2e : (c : Dev nD) → (b : Ref sig .tc) → Buf (Elt F) ((c : Thread nD τ).loc b) := fun c b => WC1 (X1 m ρ) c b

/-- At call 2's exit: its arrays at what the pipeline leaves (the inputs as entered, the output's write-backs folded),
    every other buffer as entered. -/
def X2 (c : Dev nD) : Valuation τ sig (Elt F) :=
  Pipeline.withArrays spec2 c (WC1 (X1 m ρ) c) fun w => (dat2 (V2e m ρ) c).arrAt w cfg2.N
theorem X2_arr (c : Dev nD) (w : Fin cfg2.W) :
    X2 m ρ c (Proc.devRef .tc (Pipeline.arrRef spec2 w)) = (dat2 (V2e m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = WC1 (X1 m ρ) c (Proc.devRef .tc b) := by
  unfold X2; exact Pipeline.withArrays_of_ne spec2 c _ _ b hb
/-- The same read at the TensorCore's references. -/
abbrev V2x : (c : Dev nD) → (b : Ref sig .tc) → Buf (Elt F) ((c : Thread nD τ).loc b) := fun c b => X2 m ρ c b
theorem hF2 (c : Dev nD) (w : Fin cfg2.W) : (dat2 (V2e m ρ) c).arrAt w cfg2.N = V2x m ρ c (Pipeline.arrRef spec2 w) :=
  (X2_arr m ρ c w).symm
theorem hrest2 (c : Dev nD) : ∀ b, b ∉ Finset.univ.image (Pipeline.arrRef spec2) → V2x m ρ c b = V2e m ρ c b :=
  fun b hb => X2_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its call's entry contents: a literal match on the pipeline's number. -/
def pdats : (p : Fin 3) → (c : Dev nD) → Dat τ (Elt F) Unit ℕ (UR sig nD τ) ℕ (Pipeline.pin (pcfgs (F := F)) adm p) c
  | ⟨0, _⟩ => fun c => dat0 (V0e m ρ) c
  | ⟨1, _⟩ => fun c => dat1 (V1e m ρ) c
  | ⟨2, _⟩ => fun c => dat2 (V2e m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's tallies at nothing. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at call 2's exit contents, the generator register at some state. -/
abbrev Tₙ (c : Dev nD) : sProp 𝕄 := iprop(StableHlo.held (c : Thread nD τ) (Pipeline.ucRefs τ sig) (X2 m ρ c) ∗ ∃ r, prngReg c r)

/-! ## The pallas_calls as segments -/

set_option backward.isDefEq.respectTransparency.types false in
/-- Pallas call 0 over the thread state: entered from every unscoped buffer at its entry contents, left at what its
    write-backs make of them. Its arrays are split out of the unscoped buffers and put back at the exit contents; the
    generator register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0e m ρ) c).loose
  hwaits := Pipeline.hwaits_of_owed_zero _ _ _ _ L lv 0 fun _ _ => rfl
  pre c := iprop(StableHlo.held (c : Thread nD τ) (Pipeline.ucRefs τ sig) (WA73 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := UR sig nD τ) (Lvl := ℕ) spec0 c (V0e m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0e m ρ c) (V0x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at its entry contents, left at what its
    write-backs make of them. Its arrays are split out of the unscoped buffers and put back at the exit contents; the
    generator register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1e m ρ) c).loose
  hwaits := Pipeline.hwaits_of_owed_zero _ _ _ _ L lv 1 fun _ _ => rfl
  pre c := iprop(StableHlo.held (c : Thread nD τ) (Pipeline.ucRefs τ sig) (WB5 (X0 m ρ) c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := UR sig nD τ) (Lvl := ℕ) spec1 c (V1e m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1e m ρ c) (V1x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at its entry contents, left at what its
    write-backs make of them. Its arrays are split out of the unscoped buffers and put back at the exit contents; the
    generator register goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2e m ρ) c).loose
  hwaits := Pipeline.hwaits_of_owed_zero _ _ _ _ L lv 2 fun _ _ => rfl
  pre c := iprop(StableHlo.held (c : Thread nD τ) (Pipeline.ucRefs τ sig) (WC1 (X1 m ρ) c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2e m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2e m ρ c) (V2x m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 82 segments in order. -/
abbrev segs : List (Pipeline.Seg (pcfgs (F := F)) adm (pdats m ρ) () defs₀ 𝒱₀ L lv) :=
  [ .host (hseg hostOps0 hostOps0_sub hostOps0_fresh (WA0 m ρ)),
    .host (hseg hostOps0_1 hostOps0_1_sub hostOps0_1_fresh (WA1 m ρ)),
    .host (hseg hostOps0_2 hostOps0_2_sub hostOps0_2_fresh (WA2 m ρ)),
    .host (hseg hostOps0_3 hostOps0_3_sub hostOps0_3_fresh (WA3 m ρ)),
    .host (hseg hostOps0_4 hostOps0_4_sub hostOps0_4_fresh (WA4 m ρ)),
    .host (hseg hostOps0_5 hostOps0_5_sub hostOps0_5_fresh (WA5 m ρ)),
    .host (hseg hostOps0_6 hostOps0_6_sub hostOps0_6_fresh (WA6 m ρ)),
    .host (hseg hostOps0_7 hostOps0_7_sub hostOps0_7_fresh (WA7 m ρ)),
    .host (hseg hostOps0_8 hostOps0_8_sub hostOps0_8_fresh (WA8 m ρ)),
    .host (hseg hostOps0_9 hostOps0_9_sub hostOps0_9_fresh (WA9 m ρ)),
    .host (hseg hostOps0_10 hostOps0_10_sub hostOps0_10_fresh (WA10 m ρ)),
    .host (hseg hostOps0_11 hostOps0_11_sub hostOps0_11_fresh (WA11 m ρ)),
    .host (hseg hostOps0_12 hostOps0_12_sub hostOps0_12_fresh (WA12 m ρ)),
    .host (hseg hostOps0_13 hostOps0_13_sub hostOps0_13_fresh (WA13 m ρ)),
    .host (hseg hostOps0_14 hostOps0_14_sub hostOps0_14_fresh (WA14 m ρ)),
    .host (hseg hostOps0_15 hostOps0_15_sub hostOps0_15_fresh (WA15 m ρ)),
    .host (hseg hostOps0_16 hostOps0_16_sub hostOps0_16_fresh (WA16 m ρ)),
    .host (hseg hostOps0_17 hostOps0_17_sub hostOps0_17_fresh (WA17 m ρ)),
    .host (hseg hostOps0_18 hostOps0_18_sub hostOps0_18_fresh (WA18 m ρ)),
    .host (hseg hostOps0_19 hostOps0_19_sub hostOps0_19_fresh (WA19 m ρ)),
    .host (hseg hostOps0_20 hostOps0_20_sub hostOps0_20_fresh (WA20 m ρ)),
    .host (hseg hostOps0_21 hostOps0_21_sub hostOps0_21_fresh (WA21 m ρ)),
    .host (hseg hostOps0_22 hostOps0_22_sub hostOps0_22_fresh (WA22 m ρ)),
    .host (hseg hostOps0_23 hostOps0_23_sub hostOps0_23_fresh (WA23 m ρ)),
    .host (hseg hostOps0_24 hostOps0_24_sub hostOps0_24_fresh (WA24 m ρ)),
    .host (hseg hostOps0_25 hostOps0_25_sub hostOps0_25_fresh (WA25 m ρ)),
    .host (hseg hostOps0_26 hostOps0_26_sub hostOps0_26_fresh (WA26 m ρ)),
    .host (hseg hostOps0_27 hostOps0_27_sub hostOps0_27_fresh (WA27 m ρ)),
    .host (hseg hostOps0_28 hostOps0_28_sub hostOps0_28_fresh (WA28 m ρ)),
    .host (hseg hostOps0_29 hostOps0_29_sub hostOps0_29_fresh (WA29 m ρ)),
    .host (hseg hostOps0_30 hostOps0_30_sub hostOps0_30_fresh (WA30 m ρ)),
    .host (hseg hostOps0_31 hostOps0_31_sub hostOps0_31_fresh (WA31 m ρ)),
    .host (hseg hostOps0_32 hostOps0_32_sub hostOps0_32_fresh (WA32 m ρ)),
    .host (hseg hostOps0_33 hostOps0_33_sub hostOps0_33_fresh (WA33 m ρ)),
    .host (hseg hostOps0_34 hostOps0_34_sub hostOps0_34_fresh (WA34 m ρ)),
    .host (hseg hostOps0_35 hostOps0_35_sub hostOps0_35_fresh (WA35 m ρ)),
    .host (hseg hostOps0_36 hostOps0_36_sub hostOps0_36_fresh (WA36 m ρ)),
    .host (hseg hostOps0_37 hostOps0_37_sub hostOps0_37_fresh (WA37 m ρ)),
    .host (hseg hostOps0_38 hostOps0_38_sub hostOps0_38_fresh (WA38 m ρ)),
    .host (hseg hostOps0_39 hostOps0_39_sub hostOps0_39_fresh (WA39 m ρ)),
    .host (hseg hostOps0_40 hostOps0_40_sub hostOps0_40_fresh (WA40 m ρ)),
    .host (hseg hostOps0_41 hostOps0_41_sub hostOps0_41_fresh (WA41 m ρ)),
    .host (hseg hostOps0_42 hostOps0_42_sub hostOps0_42_fresh (WA42 m ρ)),
    .host (hseg hostOps0_43 hostOps0_43_sub hostOps0_43_fresh (WA43 m ρ)),
    .host (hseg hostOps0_44 hostOps0_44_sub hostOps0_44_fresh (WA44 m ρ)),
    .host (hseg hostOps0_45 hostOps0_45_sub hostOps0_45_fresh (WA45 m ρ)),
    .host (hseg hostOps0_46 hostOps0_46_sub hostOps0_46_fresh (WA46 m ρ)),
    .host (hseg hostOps0_47 hostOps0_47_sub hostOps0_47_fresh (WA47 m ρ)),
    .host (hseg hostOps0_48 hostOps0_48_sub hostOps0_48_fresh (WA48 m ρ)),
    .host (hseg hostOps0_49 hostOps0_49_sub hostOps0_49_fresh (WA49 m ρ)),
    .host (hseg hostOps0_50 hostOps0_50_sub hostOps0_50_fresh (WA50 m ρ)),
    .host (hseg hostOps0_51 hostOps0_51_sub hostOps0_51_fresh (WA51 m ρ)),
    .host (hseg hostOps0_52 hostOps0_52_sub hostOps0_52_fresh (WA52 m ρ)),
    .host (hseg hostOps0_53 hostOps0_53_sub hostOps0_53_fresh (WA53 m ρ)),
    .host (hseg hostOps0_54 hostOps0_54_sub hostOps0_54_fresh (WA54 m ρ)),
    .host (hseg hostOps0_55 hostOps0_55_sub hostOps0_55_fresh (WA55 m ρ)),
    .host (hseg hostOps0_56 hostOps0_56_sub hostOps0_56_fresh (WA56 m ρ)),
    .host (hseg hostOps0_57 hostOps0_57_sub hostOps0_57_fresh (WA57 m ρ)),
    .host (hseg hostOps0_58 hostOps0_58_sub hostOps0_58_fresh (WA58 m ρ)),
    .host (hseg hostOps0_59 hostOps0_59_sub hostOps0_59_fresh (WA59 m ρ)),
    .host (hseg hostOps0_60 hostOps0_60_sub hostOps0_60_fresh (WA60 m ρ)),
    .host (hseg hostOps0_61 hostOps0_61_sub hostOps0_61_fresh (WA61 m ρ)),
    .host (hseg hostOps0_62 hostOps0_62_sub hostOps0_62_fresh (WA62 m ρ)),
    .host (hseg hostOps0_63 hostOps0_63_sub hostOps0_63_fresh (WA63 m ρ)),
    .host (hseg hostOps0_64 hostOps0_64_sub hostOps0_64_fresh (WA64 m ρ)),
    .host (hseg hostOps0_65 hostOps0_65_sub hostOps0_65_fresh (WA65 m ρ)),
    .host (hseg hostOps0_66 hostOps0_66_sub hostOps0_66_fresh (WA66 m ρ)),
    .host (hseg hostOps0_67 hostOps0_67_sub hostOps0_67_fresh (WA67 m ρ)),
    .host (hseg hostOps0_68 hostOps0_68_sub hostOps0_68_fresh (WA68 m ρ)),
    .host (hseg hostOps0_69 hostOps0_69_sub hostOps0_69_fresh (WA69 m ρ)),
    .host (hseg hostOps0_70 hostOps0_70_sub hostOps0_70_fresh (WA70 m ρ)),
    .host (hseg hostOps0_71 hostOps0_71_sub hostOps0_71_fresh (WA71 m ρ)),
    .host (hseg hostOps0_72 hostOps0_72_sub hostOps0_72_fresh (WA72 m ρ)),
    .region (reg0 m ρ),
    .host (hseg hostOps1 hostOps1_sub hostOps1_fresh (WB0 (X0 m ρ))),
    .host (hseg hostOps1_1 hostOps1_1_sub hostOps1_1_fresh (WB1 (X0 m ρ))),
    .host (hseg hostOps1_2 hostOps1_2_sub hostOps1_2_fresh (WB2 (X0 m ρ))),
    .host (hseg hostOps1_3 hostOps1_3_sub hostOps1_3_fresh (WB3 (X0 m ρ))),
    .host (hseg hostOps1_4 hostOps1_4_sub hostOps1_4_fresh (WB4 (X0 m ρ))),
    .region (reg1 m ρ),
    .host (hseg hostOps2 hostOps2_sub hostOps2_fresh (WC0 (X1 m ρ))),
    .region (reg2 m ρ) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state has each unscoped buffer at call 2's exit contents `X2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WA0 m ρ c)
        from Pipeline.unscopedBufs_held c (WA0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X2 m ρ c b)
    (hfin := fun c s' => by
      iintro ⟨⟨Hh, -⟩, HSI⟩
      unfold StableHlo.held
      imodintro
      iapply (pointsTo_read_all (Pipeline.ucRefs τ sig) (fun b => (((c : Thread nD τ)).1, b)) (X2 m ρ c) s')
      isplitl [Hh] <;> iassumption)
    (hQ := fun s h c => h c)

end Cert.Kernel.Fr

end
-- ==== Proof.K.Args.lean ====
/-
  @main's ten arguments end as launched. The contents call 2 leaves, read at an argument's buffer, walk back to the launch
  memory: a pallas_call that does not have the argument as a window leaves its buffer as entered, one that has it as an
  INPUT window leaves the array as entered (only an output's write-backs change an array), and no host stretch writes an
  argument (the boundary lemmas of the three runs of stretches).
-/
import proofs.«151568_j90031104458821_2_alg».proof.Proof.K.ArgsHost
import proofs.«151568_j90031104458821_2_alg».proof.Proof.K.Run

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Argument 0 ends as launched. No pallas_call has it as a window. -/
theorem X2_main_arg0 (c : Dev nD) : X2 m ρ c (Proc.devRef .tc main_arg0) = m ((c : Thread nD τ).loc main_arg0) :=
  calc X2 m ρ c (Proc.devRef .tc main_arg0)
    _ = WC1 (X1 m ρ) c (Proc.devRef .tc main_arg0) := X2_of_ne m ρ c main_arg0 (by decide)
    _ = X1 m ρ c (Proc.devRef .tc main_arg0) := WC1_arg (X1 m ρ) c (by decide)
    _ = WB5 (X0 m ρ) c (Proc.devRef .tc main_arg0) := X1_of_ne m ρ c main_arg0 (by decide)
    _ = X0 m ρ c (Proc.devRef .tc main_arg0) := WB5_arg (X0 m ρ) c (by decide)
    _ = WA73 m ρ c (Proc.devRef .tc main_arg0) := X0_of_ne m ρ c main_arg0 (by decide)
    _ = WA0 m ρ c (Proc.devRef .tc main_arg0) := WA73_arg m ρ c (by decide)
    _ = m ((c : Thread nD τ).loc main_arg0) := rfl

/-- Argument 1 ends as launched. No pallas_call has it as a window. -/
theorem X2_main_arg1 (c : Dev nD) : X2 m ρ c (Proc.devRef .tc main_arg1) = m ((c : Thread nD τ).loc main_arg1) :=
  calc X2 m ρ c (Proc.devRef .tc main_arg1)
    _ = WC1 (X1 m ρ) c (Proc.devRef .tc main_arg1) := X2_of_ne m ρ c main_arg1 (by decide)
    _ = X1 m ρ c (Proc.devRef .tc main_arg1) := WC1_arg (X1 m ρ) c (by decide)
    _ = WB5 (X0 m ρ) c (Proc.devRef .tc main_arg1) := X1_of_ne m ρ c main_arg1 (by decide)
    _ = X0 m ρ c (Proc.devRef .tc main_arg1) := WB5_arg (X0 m ρ) c (by decide)
    _ = WA73 m ρ c (Proc.devRef .tc main_arg1) := X0_of_ne m ρ c main_arg1 (by decide)
    _ = WA0 m ρ c (Proc.devRef .tc main_arg1) := WA73_arg m ρ c (by decide)
    _ = m ((c : Thread nD τ).loc main_arg1) := rfl

/-- Argument 2 ends as launched. No pallas_call has it as a window. -/
theorem X2_main_arg2 (c : Dev nD) : X2 m ρ c (Proc.devRef .tc main_arg2) = m ((c : Thread nD τ).loc main_arg2) :=
  calc X2 m ρ c (Proc.devRef .tc main_arg2)
    _ = WC1 (X1 m ρ) c (Proc.devRef .tc main_arg2) := X2_of_ne m ρ c main_arg2 (by decide)
    _ = X1 m ρ c (Proc.devRef .tc main_arg2) := WC1_arg (X1 m ρ) c (by decide)
    _ = WB5 (X0 m ρ) c (Proc.devRef .tc main_arg2) := X1_of_ne m ρ c main_arg2 (by decide)
    _ = X0 m ρ c (Proc.devRef .tc main_arg2) := WB5_arg (X0 m ρ) c (by decide)
    _ = WA73 m ρ c (Proc.devRef .tc main_arg2) := X0_of_ne m ρ c main_arg2 (by decide)
    _ = WA0 m ρ c (Proc.devRef .tc main_arg2) := WA73_arg m ρ c (by decide)
    _ = m ((c : Thread nD τ).loc main_arg2) := rfl

/-- Argument 3 ends as launched. An input window (window 2) of call 0, which leaves an input's array as entered; the other two calls do not have it as a window. -/
theorem X2_main_arg3 (c : Dev nD) : X2 m ρ c (Proc.devRef .tc main_arg3) = m ((c : Thread nD τ).loc main_arg3) :=
  calc X2 m ρ c (Proc.devRef .tc main_arg3)
    _ = WC1 (X1 m ρ) c (Proc.devRef .tc main_arg3) := X2_of_ne m ρ c main_arg3 (by decide)
    _ = X1 m ρ c (Proc.devRef .tc main_arg3) := WC1_arg (X1 m ρ) c (by decide)
    _ = WB5 (X0 m ρ) c (Proc.devRef .tc main_arg3) := X1_of_ne m ρ c main_arg3 (by decide)
    _ = X0 m ρ c (Proc.devRef .tc main_arg3) := WB5_arg (X0 m ρ) c (by decide)
    _ = WA73 m ρ c (Proc.devRef .tc main_arg3) := (X0_arr m ρ c 2).trans (((dat0 (V0e m ρ) c).arrAt_in 2 rfl _).trans (A_eq0 (V0e m ρ) c 2))
    _ = WA0 m ρ c (Proc.devRef .tc main_arg3) := WA73_arg m ρ c (by decide)
    _ = m ((c : Thread nD τ).loc main_arg3) := rfl

/-- Argument 4 ends as launched. No pallas_call has it as a window. -/
theorem X2_main_arg4 (c : Dev nD) : X2 m ρ c (Proc.devRef .tc main_arg4) = m ((c : Thread nD τ).loc main_arg4) :=
  calc X2 m ρ c (Proc.devRef .tc main_arg4)
    _ = WC1 (X1 m ρ) c (Proc.devRef .tc main_arg4) := X2_of_ne m ρ c main_arg4 (by decide)
    _ = X1 m ρ c (Proc.devRef .tc main_arg4) := WC1_arg (X1 m ρ) c (by decide)
    _ = WB5 (X0 m ρ) c (Proc.devRef .tc main_arg4) := X1_of_ne m ρ c main_arg4 (by decide)
    _ = X0 m ρ c (Proc.devRef .tc main_arg4) := WB5_arg (X0 m ρ) c (by decide)
    _ = WA73 m ρ c (Proc.devRef .tc main_arg4) := X0_of_ne m ρ c main_arg4 (by decide)
    _ = WA0 m ρ c (Proc.devRef .tc main_arg4) := WA73_arg m ρ c (by decide)
    _ = m ((c : Thread nD τ).loc main_arg4) := rfl

/-- Argument 5 ends as launched. An input window (window 2) of call 1, which leaves an input's array as entered; the other two calls do not have it as a window. -/
theorem X2_main_arg5 (c : Dev nD) : X2 m ρ c (Proc.devRef .tc main_arg5) = m ((c : Thread nD τ).loc main_arg5) :=
  calc X2 m ρ c (Proc.devRef .tc main_arg5)
    _ = WC1 (X1 m ρ) c (Proc.devRef .tc main_arg5) := X2_of_ne m ρ c main_arg5 (by decide)
    _ = X1 m ρ c (Proc.devRef .tc main_arg5) := WC1_arg (X1 m ρ) c (by decide)
    _ = WB5 (X0 m ρ) c (Proc.devRef .tc main_arg5) := (X1_arr m ρ c 2).trans (((dat1 (V1e m ρ) c).arrAt_in 2 rfl _).trans (A_eq1 (V1e m ρ) c 2))
    _ = X0 m ρ c (Proc.devRef .tc main_arg5) := WB5_arg (X0 m ρ) c (by decide)
    _ = WA73 m ρ c (Proc.devRef .tc main_arg5) := X0_of_ne m ρ c main_arg5 (by decide)
    _ = WA0 m ρ c (Proc.devRef .tc main_arg5) := WA73_arg m ρ c (by decide)
    _ = m ((c : Thread nD τ).loc main_arg5) := rfl

/-- Argument 6 ends as launched. No pallas_call has it as a window. -/
theorem X2_main_arg6 (c : Dev nD) : X2 m ρ c (Proc.devRef .tc main_arg6) = m ((c : Thread nD τ).loc main_arg6) :=
  calc X2 m ρ c (Proc.devRef .tc main_arg6)
    _ = WC1 (X1 m ρ) c (Proc.devRef .tc main_arg6) := X2_of_ne m ρ c main_arg6 (by decide)
    _ = X1 m ρ c (Proc.devRef .tc main_arg6) := WC1_arg (X1 m ρ) c (by decide)
    _ = WB5 (X0 m ρ) c (Proc.devRef .tc main_arg6) := X1_of_ne m ρ c main_arg6 (by decide)
    _ = X0 m ρ c (Proc.devRef .tc main_arg6) := WB5_arg (X0 m ρ) c (by decide)
    _ = WA73 m ρ c (Proc.devRef .tc main_arg6) := X0_of_ne m ρ c main_arg6 (by decide)
    _ = WA0 m ρ c (Proc.devRef .tc main_arg6) := WA73_arg m ρ c (by decide)
    _ = m ((c : Thread nD τ).loc main_arg6) := rfl

/-- Argument 7 ends as launched. An input window (window 1) of call 2, which leaves an input's array as entered; the other two calls do not have it as a window. -/
theorem X2_main_arg7 (c : Dev nD) : X2 m ρ c (Proc.devRef .tc main_arg7) = m ((c : Thread nD τ).loc main_arg7) :=
  calc X2 m ρ c (Proc.devRef .tc main_arg7)
    _ = WC1 (X1 m ρ) c (Proc.devRef .tc main_arg7) := (X2_arr m ρ c 1).trans (((dat2 (V2e m ρ) c).arrAt_in 1 rfl _).trans (A_eq2 (V2e m ρ) c 1))
    _ = X1 m ρ c (Proc.devRef .tc main_arg7) := WC1_arg (X1 m ρ) c (by decide)
    _ = WB5 (X0 m ρ) c (Proc.devRef .tc main_arg7) := X1_of_ne m ρ c main_arg7 (by decide)
    _ = X0 m ρ c (Proc.devRef .tc main_arg7) := WB5_arg (X0 m ρ) c (by decide)
    _ = WA73 m ρ c (Proc.devRef .tc main_arg7) := X0_of_ne m ρ c main_arg7 (by decide)
    _ = WA0 m ρ c (Proc.devRef .tc main_arg7) := WA73_arg m ρ c (by decide)
    _ = m ((c : Thread nD τ).loc main_arg7) := rfl

/-- Argument 8 ends as launched. No pallas_call has it as a window. -/
theorem X2_main_arg8 (c : Dev nD) : X2 m ρ c (Proc.devRef .tc main_arg8) = m ((c : Thread nD τ).loc main_arg8) :=
  calc X2 m ρ c (Proc.devRef .tc main_arg8)
    _ = WC1 (X1 m ρ) c (Proc.devRef .tc main_arg8) := X2_of_ne m ρ c main_arg8 (by decide)
    _ = X1 m ρ c (Proc.devRef .tc main_arg8) := WC1_arg (X1 m ρ) c (by decide)
    _ = WB5 (X0 m ρ) c (Proc.devRef .tc main_arg8) := X1_of_ne m ρ c main_arg8 (by decide)
    _ = X0 m ρ c (Proc.devRef .tc main_arg8) := WB5_arg (X0 m ρ) c (by decide)
    _ = WA73 m ρ c (Proc.devRef .tc main_arg8) := X0_of_ne m ρ c main_arg8 (by decide)
    _ = WA0 m ρ c (Proc.devRef .tc main_arg8) := WA73_arg m ρ c (by decide)
    _ = m ((c : Thread nD τ).loc main_arg8) := rfl

/-- Argument 9 ends as launched. No pallas_call has it as a window. -/
theorem X2_main_arg9 (c : Dev nD) : X2 m ρ c (Proc.devRef .tc main_arg9) = m ((c : Thread nD τ).loc main_arg9) :=
  calc X2 m ρ c (Proc.devRef .tc main_arg9)
    _ = WC1 (X1 m ρ) c (Proc.devRef .tc main_arg9) := X2_of_ne m ρ c main_arg9 (by decide)
    _ = X1 m ρ c (Proc.devRef .tc main_arg9) := WC1_arg (X1 m ρ) c (by decide)
    _ = WB5 (X0 m ρ) c (Proc.devRef .tc main_arg9) := X1_of_ne m ρ c main_arg9 (by decide)
    _ = X0 m ρ c (Proc.devRef .tc main_arg9) := WB5_arg (X0 m ρ) c (by decide)
    _ = WA73 m ρ c (Proc.devRef .tc main_arg9) := X0_of_ne m ρ c main_arg9 (by decide)
    _ = WA0 m ρ c (Proc.devRef .tc main_arg9) := WA73_arg m ρ c (by decide)
    _ = m ((c : Thread nD τ).loc main_arg9) := rfl

end Cert.Kernel.Fr

end
-- ==== Proof.K.Frame.lean ====
/-
  The frame claim of the program: from any memory with zero counters every weakly fair execution of @main on the
  TensorCores terminates, nothing faulting, and every final state has the ten argument arrays as launched. The run gives
  every unscoped buffer at the contents call 2 leaves; an argument's buffer is unscoped, and those contents at an
  argument are the launch memory's.
-/
import proofs.«151568_j90031104458821_2_alg».proof.Proof.K.Args

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (X2_main_arg0 m ρ c),
     (h c _ (mem_uc main_arg1 (by decide))).trans (X2_main_arg1 m ρ c),
     (h c _ (mem_uc main_arg2 (by decide))).trans (X2_main_arg2 m ρ c),
     (h c _ (mem_uc main_arg3 (by decide))).trans (X2_main_arg3 m ρ c),
     (h c _ (mem_uc main_arg4 (by decide))).trans (X2_main_arg4 m ρ c),
     (h c _ (mem_uc main_arg5 (by decide))).trans (X2_main_arg5 m ρ c),
     (h c _ (mem_uc main_arg6 (by decide))).trans (X2_main_arg6 m ρ c),
     (h c _ (mem_uc main_arg7 (by decide))).trans (X2_main_arg7 m ρ c),
     (h c _ (mem_uc main_arg8 (by decide))).trans (X2_main_arg8 m ρ c),
     (h c _ (mem_uc main_arg9 (by decide))).trans (X2_main_arg9 m ρ c)⟩)
    (run_all m ρ)

end Cert.Kernel.Fr

end
-- ==== Proof.KI.Fold.lean ====
/-
  The boundaries of @main's host stretches: no stretch allocates a buffer, and the TensorCore's buffer contents after
  each stretch is the stretch's operations applied to the contents before it. Three runs of stretches: before the first
  pallas_call (from the launch memory), between the first and the second, between the second and the third (each from
  the contents `X` the call before it leaves).
-/
import proofs.«151568_j90031104458821_2_alg».proof.Proof.Gen.KernelIdeal.Launch
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ (UR sig nD τ) ℕ

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps0_65_fresh : (hostOps0_65 : List (HloOp τ sig (Elt F))).Forall fun op => op.fresh = ∅ := by
  simp only [List.Forall]; repeat' constructor
theorem hostOps0_66_fresh : (hostOps0_66 : List (HloOp τ sig (Elt F))).Forall fun op => op.fresh = ∅ := by
  simp only [List.Forall]; repeat' constructor
theorem hostOps0_67_fresh : (hostOps0_67 : List (HloOp τ sig (Elt F))).Forall fun op => op.fresh = ∅ := by
  simp only [List.Forall]; repeat' constructor
theorem hostOps0_68_fresh : (hostOps0_68 : List (HloOp τ sig (Elt F))).Forall fun op => op.fresh = ∅ := by
  simp only [List.Forall]; repeat' constructor
theorem hostOps0_69_fresh : (hostOps0_69 : List (HloOp τ sig (Elt F))).Forall fun op => op.fresh = ∅ := by
  simp only [List.Forall]; repeat' constructor
theorem hostOps0_70_fresh : (hostOps0_70 : List (HloOp τ sig (Elt F))).Forall fun op => op.fresh = ∅ := by
  simp only [List.Forall]; repeat' constructor
theorem hostOps0_71_fresh : (hostOps0_71 : List (HloOp τ sig (Elt F))).Forall fun op => op.fresh = ∅ := by
  simp only [List.Forall]; repeat' constructor
theorem hostOps0_72_fresh : (hostOps0_72 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

variable (m : (ℓ : Loc nD τ sig) → Buf (Elt F) ℓ) (ρ : Dev nD → PrngReg)

/-- Core `c`'s buffers at launch. -/
abbrev WA0 : Dev nD → Valuation τ sig (Elt F) := fun c b => (s₀ m ρ).mem ((c : Dev nD), b)
abbrev WA1 : Dev nD → Valuation τ sig (Elt F) := fun c => StableHlo.after hostOps0 (WA0 m ρ c)
abbrev WA2 : Dev nD → Valuation τ sig (Elt F) := fun c => StableHlo.after hostOps0_1 (WA1 m ρ c)
abbrev WA3 : Dev nD → Valuation τ sig (Elt F) := fun c => StableHlo.after hostOps0_2 (WA2 m ρ c)
abbrev WA4 : Dev nD → Valuation τ sig (Elt F) := fun c => StableHlo.after hostOps0_3 (WA3 m ρ c)
abbrev WA5 : Dev nD → Valuation τ sig (Elt F) := fun c => StableHlo.after hostOps0_4 (WA4 m ρ c)
abbrev WA6 : Dev nD → Valuation τ sig (Elt F) := fun c => StableHlo.after hostOps0_5 (WA5 m ρ c)
abbrev WA7 : Dev nD → Valuation τ sig (Elt F) := fun c => StableHlo.after hostOps0_6 (WA6 m ρ c)
abbrev WA8 : Dev nD → Valuation τ sig (Elt F) := fun c => StableHlo.after hostOps0_7 (WA7 m ρ c)
abbrev WA9 : Dev nD → Valuation τ sig (Elt F) := fun c => StableHlo.after hostOps0_8 (WA8 m ρ c)
abbrev WA10 : Dev nD → Valuation τ sig (Elt F) := fun c => StableHlo.after hostOps0_9 (WA9 m ρ c)
abbrev WA11 : Dev nD → Valuation τ sig (Elt F) := fun c => StableHlo.after hostOps0_10 (WA10 m ρ c)
abbrev WA12 : Dev nD → Valuation τ sig (Elt F) := fun c => StableHlo.after hostOps0_11 (WA11 m ρ c)
abbrev WA13 : Dev nD → Valuation τ sig (Elt F) := fun c => StableHlo.after hostOps0_12 (WA12 m ρ c)
abbrev WA14 : Dev nD → Valuation τ sig (Elt F) := fun c => StableHlo.after hostOps0_13 (WA13 m ρ c)
abbrev WA15 : Dev nD → Valuation τ sig (Elt F) := fun c => StableHlo.after hostOps0_14 (WA14 m ρ c)
abbrev WA16 : Dev nD → Valuation τ sig (Elt F) := fun c => StableHlo.after hostOps0_15 (WA15 m ρ c)
abbrev WA17 : Dev nD → Valuation τ sig (Elt F) := fun c => StableHlo.after hostOps0_16 (WA16 m ρ c)
abbrev WA18 : Dev nD → Valuation τ sig (Elt F) := fun c => StableHlo.after hostOps0_17 (WA17 m ρ c)
abbrev WA19 : Dev nD → Valuation τ sig (Elt F) := fun c => StableHlo.after hostOps0_18 (WA18 m ρ c)
abbrev WA20 : Dev nD → Valuation τ sig (Elt F) := fun c => StableHlo.after hostOps0_19 (WA19 m ρ c)
abbrev WA21 : Dev nD → Valuation τ sig (Elt F) := fun c => StableHlo.after hostOps0_20 (WA20 m ρ c)
abbrev WA22 : Dev nD → Valuation τ sig (Elt F) := fun c => StableHlo.after hostOps0_21 (WA21 m ρ c)
abbrev WA23 : Dev nD → Valuation τ sig (Elt F) := fun c => StableHlo.after hostOps0_22 (WA22 m ρ c)
abbrev WA24 : Dev nD → Valuation τ sig (Elt F) := fun c => StableHlo.after hostOps0_23 (WA23 m ρ c)
abbrev WA25 : Dev nD → Valuation τ sig (Elt F) := fun c => StableHlo.after hostOps0_24 (WA24 m ρ c)
abbrev WA26 : Dev nD → Valuation τ sig (Elt F) := fun c => StableHlo.after hostOps0_25 (WA25 m ρ c)
abbrev WA27 : Dev nD → Valuation τ sig (Elt F) := fun c => StableHlo.after hostOps0_26 (WA26 m ρ c)
abbrev WA28 : Dev nD → Valuation τ sig (Elt F) := fun c => StableHlo.after hostOps0_27 (WA27 m ρ c)
abbrev WA29 : Dev nD → Valuation τ sig (Elt F) := fun c => StableHlo.after hostOps0_28 (WA28 m ρ c)
abbrev WA30 : Dev nD → Valuation τ sig (Elt F) := fun c => StableHlo.after hostOps0_29 (WA29 m ρ c)
abbrev WA31 : Dev nD → Valuation τ sig (Elt F) := fun c => StableHlo.after hostOps0_30 (WA30 m ρ c)
abbrev WA32 : Dev nD → Valuation τ sig (Elt F) := fun c => StableHlo.after hostOps0_31 (WA31 m ρ c)
abbrev WA33 : Dev nD → Valuation τ sig (Elt F) := fun c => StableHlo.after hostOps0_32 (WA32 m ρ c)
abbrev WA34 : Dev nD → Valuation τ sig (Elt F) := fun c => StableHlo.after hostOps0_33 (WA33 m ρ c)
abbrev WA35 : Dev nD → Valuation τ sig (Elt F) := fun c => StableHlo.after hostOps0_34 (WA34 m ρ c)
abbrev WA36 : Dev nD → Valuation τ sig (Elt F) := fun c => StableHlo.after hostOps0_35 (WA35 m ρ c)
abbrev WA37 : Dev nD → Valuation τ sig (Elt F) := fun c => StableHlo.after hostOps0_36 (WA36 m ρ c)
abbrev WA38 : Dev nD → Valuation τ sig (Elt F) := fun c => StableHlo.after hostOps0_37 (WA37 m ρ c)
abbrev WA39 : Dev nD → Valuation τ sig (Elt F) := fun c => StableHlo.after hostOps0_38 (WA38 m ρ c)
abbrev WA40 : Dev nD → Valuation τ sig (Elt F) := fun c => StableHlo.after hostOps0_39 (WA39 m ρ c)
abbrev WA41 : Dev nD → Valuation τ sig (Elt F) := fun c => StableHlo.after hostOps0_40 (WA40 m ρ c)
abbrev WA42 : Dev nD → Valuation τ sig (Elt F) := fun c => StableHlo.after hostOps0_41 (WA41 m ρ c)
abbrev WA43 : Dev nD → Valuation τ sig (Elt F) := fun c => StableHlo.after hostOps0_42 (WA42 m ρ c)
abbrev WA44 : Dev nD → Valuation τ sig (Elt F) := fun c => StableHlo.after hostOps0_43 (WA43 m ρ c)
abbrev WA45 : Dev nD → Valuation τ sig (Elt F) := fun c => StableHlo.after hostOps0_44 (WA44 m ρ c)
abbrev WA46 : Dev nD → Valuation τ sig (Elt F) := fun c => StableHlo.after hostOps0_45 (WA45 m ρ c)
abbrev WA47 : Dev nD → Valuation τ sig (Elt F) := fun c => StableHlo.after hostOps0_46 (WA46 m ρ c)
abbrev WA48 : Dev nD → Valuation τ sig (Elt F) := fun c => StableHlo.after hostOps0_47 (WA47 m ρ c)
abbrev WA49 : Dev nD → Valuation τ sig (Elt F) := fun c => StableHlo.after hostOps0_48 (WA48 m ρ c)
abbrev WA50 : Dev nD → Valuation τ sig (Elt F) := fun c => StableHlo.after hostOps0_49 (WA49 m ρ c)
abbrev WA51 : Dev nD → Valuation τ sig (Elt F) := fun c => StableHlo.after hostOps0_50 (WA50 m ρ c)
abbrev WA52 : Dev nD → Valuation τ sig (Elt F) := fun c => StableHlo.after hostOps0_51 (WA51 m ρ c)
abbrev WA53 : Dev nD → Valuation τ sig (Elt F) := fun c => StableHlo.after hostOps0_52 (WA52 m ρ c)
abbrev WA54 : Dev nD → Valuation τ sig (Elt F) := fun c => StableHlo.after hostOps0_53 (WA53 m ρ c)
abbrev WA55 : Dev nD → Valuation τ sig (Elt F) := fun c => StableHlo.after hostOps0_54 (WA54 m ρ c)
abbrev WA56 : Dev nD → Valuation τ sig (Elt F) := fun c => StableHlo.after hostOps0_55 (WA55 m ρ c)
abbrev WA57 : Dev nD → Valuation τ sig (Elt F) := fun c => StableHlo.after hostOps0_56 (WA56 m ρ c)
abbrev WA58 : Dev nD → Valuation τ sig (Elt F) := fun c => StableHlo.after hostOps0_57 (WA57 m ρ c)
abbrev WA59 : Dev nD → Valuation τ sig (Elt F) := fun c => StableHlo.after hostOps0_58 (WA58 m ρ c)
abbrev WA60 : Dev nD → Valuation τ sig (Elt F) := fun c => StableHlo.after hostOps0_59 (WA59 m ρ c)
abbrev WA61 : Dev nD → Valuation τ sig (Elt F) := fun c => StableHlo.after hostOps0_60 (WA60 m ρ c)
abbrev WA62 : Dev nD → Valuation τ sig (Elt F) := fun c => StableHlo.after hostOps0_61 (WA61 m ρ c)
abbrev WA63 : Dev nD → Valuation τ sig (Elt F) := fun c => StableHlo.after hostOps0_62 (WA62 m ρ c)
abbrev WA64 : Dev nD → Valuation τ sig (Elt F) := fun c => StableHlo.after hostOps0_63 (WA63 m ρ c)
abbrev WA65 : Dev nD → Valuation τ sig (Elt F) := fun c => StableHlo.after hostOps0_64 (WA64 m ρ c)
abbrev WA66 : Dev nD → Valuation τ sig (Elt F) := fun c => StableHlo.after hostOps0_65 (WA65 m ρ c)
abbrev WA67 : Dev nD → Valuation τ sig (Elt F) := fun c => StableHlo.after hostOps0_66 (WA66 m ρ c)
abbrev WA68 : Dev nD → Valuation τ sig (Elt F) := fun c => StableHlo.after hostOps0_67 (WA67 m ρ c)
abbrev WA69 : Dev nD → Valuation τ sig (Elt F) := fun c => StableHlo.after hostOps0_68 (WA68 m ρ c)
abbrev WA70 : Dev nD → Valuation τ sig (Elt F) := fun c => StableHlo.after hostOps0_69 (WA69 m ρ c)
abbrev WA71 : Dev nD → Valuation τ sig (Elt F) := fun c => StableHlo.after hostOps0_70 (WA70 m ρ c)
abbrev WA72 : Dev nD → Valuation τ sig (Elt F) := fun c => StableHlo.after hostOps0_71 (WA71 m ρ c)
abbrev WA73 : Dev nD → Valuation τ sig (Elt F) := fun c => StableHlo.after hostOps0_72 (WA72 m ρ c)

variable (X : Dev nD → Valuation τ sig (Elt F))

abbrev WB0 : Dev nD → Valuation τ sig (Elt F) := X
abbrev WB1 : Dev nD → Valuation τ sig (Elt F) := fun c => StableHlo.after hostOps1 (WB0 X c)
abbrev WB2 : Dev nD → Valuation τ sig (Elt F) := fun c => StableHlo.after hostOps1_1 (WB1 X c)
abbrev WB3 : Dev nD → Valuation τ sig (Elt F) := fun c => StableHlo.after hostOps1_2 (WB2 X c)
abbrev WB4 : Dev nD → Valuation τ sig (Elt F) := fun c => StableHlo.after hostOps1_3 (WB3 X c)
abbrev WB5 : Dev nD → Valuation τ sig (Elt F) := fun c => StableHlo.after hostOps1_4 (WB4 X c)
abbrev WC0 : Dev nD → Valuation τ sig (Elt F) := X
abbrev WC1 : Dev nD → Valuation τ sig (Elt F) := fun c => StableHlo.after hostOps2 (WC0 X c)

end Cert.KernelIdeal.Fr

end
-- ==== Proof.KI.ArgsHost.lean ====
/-
  No host operation of @main writes one of @main's ten arguments. Every operation writes exactly one reference, its
  result's, and that reference is none of the ten; so a stretch of host operations leaves each argument's buffer as it
  found it, and so does a run of stretches: at an argument, every boundary valuation of a run agrees with the run's first.
-/
import proofs.«151568_j90031104458821_2_alg».proof.Proof.KI.Fold

set_option maxRecDepth 16384

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]

/-- @main's ten argument references. -/
abbrev argRefs : List (Ref sig .tc) :=
  [main_arg0, main_arg1, main_arg2, main_arg3, main_arg4, main_arg5, main_arg6, main_arg7, main_arg8, main_arg9]

/-- The operation writes none of @main's arguments. -/
def Spares (op : HloOp τ sig (Elt F)) : Prop := ∀ r ∈ argRefs, Proc.devRef (τ := τ) .tc r ∉ op.writes

/-- An operation whose writes are one reference's buffer, that reference no argument, spares the arguments: distinct
    references are distinct buffers. -/
theorem spares_of_writes {op : HloOp τ sig (Elt F)} {y : Ref sig .tc} (hw : op.writes = {Proc.devRef .tc y}) (hy : y ∉ argRefs) :
    Spares op := fun r hr hm => by
  rw [hw, Finset.mem_singleton] at hm
  exact hy (Proc.devRef_injective _ hm ▸ hr)

/-- A line spares the arguments when its first operation and the rest do. -/
theorem spares_cons {op : HloOp τ sig (Elt F)} {ops : List (HloOp τ sig (Elt F))} (h : Spares op) (hs : ops.Forall Spares) :
    (op :: ops).Forall Spares :=
  List.forall_iff_forall_mem.mpr fun o ho => by
    rcases List.mem_cons.mp ho with rfl | ho
    · exact h
    · exact List.forall_iff_forall_mem.mp hs o ho

/-- After a line that spares the arguments an argument's buffer holds what it held before. -/
theorem after_spares (ops : List (HloOp τ sig (Elt F))) (h : ops.Forall Spares) (V : Valuation τ sig (Elt F)) {r : Ref sig .tc}
    (hr : r ∈ argRefs) : StableHlo.after ops V (Proc.devRef .tc r) = V (Proc.devRef .tc r) :=
  StableHlo.after_of_forall_not_mem ops V fun op hop => List.forall_iff_forall_mem.mp h op hop r hr

/-- Operation by operation down a literal line: what the operation writes is its result reference by unfolding the
    builder, and that reference is compared with the ten arguments by evaluation. -/
local macro "spares" : tactic =>
  `(tactic| ((repeat (refine spares_cons (spares_of_writes rfl (by decide)) ?_)); exact trivial))

theorem hostOps0_spares : (hostOps0 : List (HloOp τ sig (Elt F))).Forall Spares := by spares
theorem hostOps0_1_spares : (hostOps0_1 : List (HloOp τ sig (Elt F))).Forall Spares := by spares
theorem hostOps0_2_spares : (hostOps0_2 : List (HloOp τ sig (Elt F))).Forall Spares := by spares
theorem hostOps0_3_spares : (hostOps0_3 : List (HloOp τ sig (Elt F))).Forall Spares := by spares
theorem hostOps0_4_spares : (hostOps0_4 : List (HloOp τ sig (Elt F))).Forall Spares := by spares
theorem hostOps0_5_spares : (hostOps0_5 : List (HloOp τ sig (Elt F))).Forall Spares := by spares
theorem hostOps0_6_spares : (hostOps0_6 : List (HloOp τ sig (Elt F))).Forall Spares := by spares
theorem hostOps0_7_spares : (hostOps0_7 : List (HloOp τ sig (Elt F))).Forall Spares := by spares
theorem hostOps0_8_spares : (hostOps0_8 : List (HloOp τ sig (Elt F))).Forall Spares := by spares
theorem hostOps0_9_spares : (hostOps0_9 : List (HloOp τ sig (Elt F))).Forall Spares := by spares
theorem hostOps0_10_spares : (hostOps0_10 : List (HloOp τ sig (Elt F))).Forall Spares := by spares
theorem hostOps0_11_spares : (hostOps0_11 : List (HloOp τ sig (Elt F))).Forall Spares := by spares
theorem hostOps0_12_spares : (hostOps0_12 : List (HloOp τ sig (Elt F))).Forall Spares := by spares
theorem hostOps0_13_spares : (hostOps0_13 : List (HloOp τ sig (Elt F))).Forall Spares := by spares
theorem hostOps0_14_spares : (hostOps0_14 : List (HloOp τ sig (Elt F))).Forall Spares := by spares
theorem hostOps0_15_spares : (hostOps0_15 : List (HloOp τ sig (Elt F))).Forall Spares := by spares
theorem hostOps0_16_spares : (hostOps0_16 : List (HloOp τ sig (Elt F))).Forall Spares := by spares
theorem hostOps0_17_spares : (hostOps0_17 : List (HloOp τ sig (Elt F))).Forall Spares := by spares
theorem hostOps0_18_spares : (hostOps0_18 : List (HloOp τ sig (Elt F))).Forall Spares := by spares
theorem hostOps0_19_spares : (hostOps0_19 : List (HloOp τ sig (Elt F))).Forall Spares := by spares
theorem hostOps0_20_spares : (hostOps0_20 : List (HloOp τ sig (Elt F))).Forall Spares := by spares
theorem hostOps0_21_spares : (hostOps0_21 : List (HloOp τ sig (Elt F))).Forall Spares := by spares
theorem hostOps0_22_spares : (hostOps0_22 : List (HloOp τ sig (Elt F))).Forall Spares := by spares
theorem hostOps0_23_spares : (hostOps0_23 : List (HloOp τ sig (Elt F))).Forall Spares := by spares
theorem hostOps0_24_spares : (hostOps0_24 : List (HloOp τ sig (Elt F))).Forall Spares := by spares
theorem hostOps0_25_spares : (hostOps0_25 : List (HloOp τ sig (Elt F))).Forall Spares := by spares
theorem hostOps0_26_spares : (hostOps0_26 : List (HloOp τ sig (Elt F))).Forall Spares := by spares
theorem hostOps0_27_spares : (hostOps0_27 : List (HloOp τ sig (Elt F))).Forall Spares := by spares
theorem hostOps0_28_spares : (hostOps0_28 : List (HloOp τ sig (Elt F))).Forall Spares := by spares
theorem hostOps0_29_spares : (hostOps0_29 : List (HloOp τ sig (Elt F))).Forall Spares := by spares
theorem hostOps0_30_spares : (hostOps0_30 : List (HloOp τ sig (Elt F))).Forall Spares := by spares
theorem hostOps0_31_spares : (hostOps0_31 : List (HloOp τ sig (Elt F))).Forall Spares := by spares
theorem hostOps0_32_spares : (hostOps0_32 : List (HloOp τ sig (Elt F))).Forall Spares := by spares
theorem hostOps0_33_spares : (hostOps0_33 : List (HloOp τ sig (Elt F))).Forall Spares := by spares
theorem hostOps0_34_spares : (hostOps0_34 : List (HloOp τ sig (Elt F))).Forall Spares := by spares
theorem hostOps0_35_spares : (hostOps0_35 : List (HloOp τ sig (Elt F))).Forall Spares := by spares
theorem hostOps0_36_spares : (hostOps0_36 : List (HloOp τ sig (Elt F))).Forall Spares := by spares
theorem hostOps0_37_spares : (hostOps0_37 : List (HloOp τ sig (Elt F))).Forall Spares := by spares
theorem hostOps0_38_spares : (hostOps0_38 : List (HloOp τ sig (Elt F))).Forall Spares := by spares
theorem hostOps0_39_spares : (hostOps0_39 : List (HloOp τ sig (Elt F))).Forall Spares := by spares
theorem hostOps0_40_spares : (hostOps0_40 : List (HloOp τ sig (Elt F))).Forall Spares := by spares
theorem hostOps0_41_spares : (hostOps0_41 : List (HloOp τ sig (Elt F))).Forall Spares := by spares
theorem hostOps0_42_spares : (hostOps0_42 : List (HloOp τ sig (Elt F))).Forall Spares := by spares
theorem hostOps0_43_spares : (hostOps0_43 : List (HloOp τ sig (Elt F))).Forall Spares := by spares
theorem hostOps0_44_spares : (hostOps0_44 : List (HloOp τ sig (Elt F))).Forall Spares := by spares
theorem hostOps0_45_spares : (hostOps0_45 : List (HloOp τ sig (Elt F))).Forall Spares := by spares
theorem hostOps0_46_spares : (hostOps0_46 : List (HloOp τ sig (Elt F))).Forall Spares := by spares
theorem hostOps0_47_spares : (hostOps0_47 : List (HloOp τ sig (Elt F))).Forall Spares := by spares
theorem hostOps0_48_spares : (hostOps0_48 : List (HloOp τ sig (Elt F))).Forall Spares := by spares
theorem hostOps0_49_spares : (hostOps0_49 : List (HloOp τ sig (Elt F))).Forall Spares := by spares
theorem hostOps0_50_spares : (hostOps0_50 : List (HloOp τ sig (Elt F))).Forall Spares := by spares
theorem hostOps0_51_spares : (hostOps0_51 : List (HloOp τ sig (Elt F))).Forall Spares := by spares
theorem hostOps0_52_spares : (hostOps0_52 : List (HloOp τ sig (Elt F))).Forall Spares := by spares
theorem hostOps0_53_spares : (hostOps0_53 : List (HloOp τ sig (Elt F))).Forall Spares := by spares
theorem hostOps0_54_spares : (hostOps0_54 : List (HloOp τ sig (Elt F))).Forall Spares := by spares
theorem hostOps0_55_spares : (hostOps0_55 : List (HloOp τ sig (Elt F))).Forall Spares := by spares
theorem hostOps0_56_spares : (hostOps0_56 : List (HloOp τ sig (Elt F))).Forall Spares := by spares
theorem hostOps0_57_spares : (hostOps0_57 : List (HloOp τ sig (Elt F))).Forall Spares := by spares
theorem hostOps0_58_spares : (hostOps0_58 : List (HloOp τ sig (Elt F))).Forall Spares := by spares
theorem hostOps0_59_spares : (hostOps0_59 : List (HloOp τ sig (Elt F))).Forall Spares := by spares
theorem hostOps0_60_spares : (hostOps0_60 : List (HloOp τ sig (Elt F))).Forall Spares := by spares
theorem hostOps0_61_spares : (hostOps0_61 : List (HloOp τ sig (Elt F))).Forall Spares := by spares
theorem hostOps0_62_spares : (hostOps0_62 : List (HloOp τ sig (Elt F))).Forall Spares := by spares
theorem hostOps0_63_spares : (hostOps0_63 : List (HloOp τ sig (Elt F))).Forall Spares := by spares
theorem hostOps0_64_spares : (hostOps0_64 : List (HloOp τ sig (Elt F))).Forall Spares := by spares
theorem hostOps0_65_spares : (hostOps0_65 : List (HloOp τ sig (Elt F))).Forall Spares := by spares
theorem hostOps0_66_spares : (hostOps0_66 : List (HloOp τ sig (Elt F))).Forall Spares := by spares
theorem hostOps0_67_spares : (hostOps0_67 : List (HloOp τ sig (Elt F))).Forall Spares := by spares
theorem hostOps0_68_spares : (hostOps0_68 : List (HloOp τ sig (Elt F))).Forall Spares := by spares
theorem hostOps0_69_spares : (hostOps0_69 : List (HloOp τ sig (Elt F))).Forall Spares := by spares
theorem hostOps0_70_spares : (hostOps0_70 : List (HloOp τ sig (Elt F))).Forall Spares := by spares
theorem hostOps0_71_spares : (hostOps0_71 : List (HloOp τ sig (Elt F))).Forall Spares := by spares
set_option maxHeartbeats 4000000 in
theorem hostOps0_72_spares : (hostOps0_72 : List (HloOp τ sig (Elt F))).Forall Spares := by spares
theorem hostOps1_spares : (hostOps1 : List (HloOp τ sig (Elt F))).Forall Spares := by spares
theorem hostOps1_1_spares : (hostOps1_1 : List (HloOp τ sig (Elt F))).Forall Spares := by spares
theorem hostOps1_2_spares : (hostOps1_2 : List (HloOp τ sig (Elt F))).Forall Spares := by spares
theorem hostOps1_3_spares : (hostOps1_3 : List (HloOp τ sig (Elt F))).Forall Spares := by spares
set_option maxHeartbeats 4000000 in
theorem hostOps1_4_spares : (hostOps1_4 : List (HloOp τ sig (Elt F))).Forall Spares := by spares
theorem hostOps2_spares : (hostOps2 : List (HloOp τ sig (Elt F))).Forall Spares := by spares

variable (m : (ℓ : Loc nD τ sig) → Buf (Elt F) ℓ) (ρ : Dev nD → PrngReg)

/-! ## Before the first pallas_call: every boundary agrees with the launch memory at an argument -/

theorem WA1_arg (c : Dev nD) {r : Ref sig .tc} (hr : r ∈ argRefs) : WA1 m ρ c (Proc.devRef .tc r) = WA0 m ρ c (Proc.devRef .tc r) :=
  after_spares _ hostOps0_spares _ hr
theorem WA2_arg (c : Dev nD) {r : Ref sig .tc} (hr : r ∈ argRefs) : WA2 m ρ c (Proc.devRef .tc r) = WA0 m ρ c (Proc.devRef .tc r) :=
  (after_spares _ hostOps0_1_spares _ hr).trans (WA1_arg m ρ c hr)
theorem WA3_arg (c : Dev nD) {r : Ref sig .tc} (hr : r ∈ argRefs) : WA3 m ρ c (Proc.devRef .tc r) = WA0 m ρ c (Proc.devRef .tc r) :=
  (after_spares _ hostOps0_2_spares _ hr).trans (WA2_arg m ρ c hr)
theorem WA4_arg (c : Dev nD) {r : Ref sig .tc} (hr : r ∈ argRefs) : WA4 m ρ c (Proc.devRef .tc r) = WA0 m ρ c (Proc.devRef .tc r) :=
  (after_spares _ hostOps0_3_spares _ hr).trans (WA3_arg m ρ c hr)
theorem WA5_arg (c : Dev nD) {r : Ref sig .tc} (hr : r ∈ argRefs) : WA5 m ρ c (Proc.devRef .tc r) = WA0 m ρ c (Proc.devRef .tc r) :=
  (after_spares _ hostOps0_4_spares _ hr).trans (WA4_arg m ρ c hr)
theorem WA6_arg (c : Dev nD) {r : Ref sig .tc} (hr : r ∈ argRefs) : WA6 m ρ c (Proc.devRef .tc r) = WA0 m ρ c (Proc.devRef .tc r) :=
  (after_spares _ hostOps0_5_spares _ hr).trans (WA5_arg m ρ c hr)
theorem WA7_arg (c : Dev nD) {r : Ref sig .tc} (hr : r ∈ argRefs) : WA7 m ρ c (Proc.devRef .tc r) = WA0 m ρ c (Proc.devRef .tc r) :=
  (after_spares _ hostOps0_6_spares _ hr).trans (WA6_arg m ρ c hr)
theorem WA8_arg (c : Dev nD) {r : Ref sig .tc} (hr : r ∈ argRefs) : WA8 m ρ c (Proc.devRef .tc r) = WA0 m ρ c (Proc.devRef .tc r) :=
  (after_spares _ hostOps0_7_spares _ hr).trans (WA7_arg m ρ c hr)
theorem WA9_arg (c : Dev nD) {r : Ref sig .tc} (hr : r ∈ argRefs) : WA9 m ρ c (Proc.devRef .tc r) = WA0 m ρ c (Proc.devRef .tc r) :=
  (after_spares _ hostOps0_8_spares _ hr).trans (WA8_arg m ρ c hr)
theorem WA10_arg (c : Dev nD) {r : Ref sig .tc} (hr : r ∈ argRefs) : WA10 m ρ c (Proc.devRef .tc r) = WA0 m ρ c (Proc.devRef .tc r) :=
  (after_spares _ hostOps0_9_spares _ hr).trans (WA9_arg m ρ c hr)
theorem WA11_arg (c : Dev nD) {r : Ref sig .tc} (hr : r ∈ argRefs) : WA11 m ρ c (Proc.devRef .tc r) = WA0 m ρ c (Proc.devRef .tc r) :=
  (after_spares _ hostOps0_10_spares _ hr).trans (WA10_arg m ρ c hr)
theorem WA12_arg (c : Dev nD) {r : Ref sig .tc} (hr : r ∈ argRefs) : WA12 m ρ c (Proc.devRef .tc r) = WA0 m ρ c (Proc.devRef .tc r) :=
  (after_spares _ hostOps0_11_spares _ hr).trans (WA11_arg m ρ c hr)
theorem WA13_arg (c : Dev nD) {r : Ref sig .tc} (hr : r ∈ argRefs) : WA13 m ρ c (Proc.devRef .tc r) = WA0 m ρ c (Proc.devRef .tc r) :=
  (after_spares _ hostOps0_12_spares _ hr).trans (WA12_arg m ρ c hr)
theorem WA14_arg (c : Dev nD) {r : Ref sig .tc} (hr : r ∈ argRefs) : WA14 m ρ c (Proc.devRef .tc r) = WA0 m ρ c (Proc.devRef .tc r) :=
  (after_spares _ hostOps0_13_spares _ hr).trans (WA13_arg m ρ c hr)
theorem WA15_arg (c : Dev nD) {r : Ref sig .tc} (hr : r ∈ argRefs) : WA15 m ρ c (Proc.devRef .tc r) = WA0 m ρ c (Proc.devRef .tc r) :=
  (after_spares _ hostOps0_14_spares _ hr).trans (WA14_arg m ρ c hr)
theorem WA16_arg (c : Dev nD) {r : Ref sig .tc} (hr : r ∈ argRefs) : WA16 m ρ c (Proc.devRef .tc r) = WA0 m ρ c (Proc.devRef .tc r) :=
  (after_spares _ hostOps0_15_spares _ hr).trans (WA15_arg m ρ c hr)
theorem WA17_arg (c : Dev nD) {r : Ref sig .tc} (hr : r ∈ argRefs) : WA17 m ρ c (Proc.devRef .tc r) = WA0 m ρ c (Proc.devRef .tc r) :=
  (after_spares _ hostOps0_16_spares _ hr).trans (WA16_arg m ρ c hr)
theorem WA18_arg (c : Dev nD) {r : Ref sig .tc} (hr : r ∈ argRefs) : WA18 m ρ c (Proc.devRef .tc r) = WA0 m ρ c (Proc.devRef .tc r) :=
  (after_spares _ hostOps0_17_spares _ hr).trans (WA17_arg m ρ c hr)
theorem WA19_arg (c : Dev nD) {r : Ref sig .tc} (hr : r ∈ argRefs) : WA19 m ρ c (Proc.devRef .tc r) = WA0 m ρ c (Proc.devRef .tc r) :=
  (after_spares _ hostOps0_18_spares _ hr).trans (WA18_arg m ρ c hr)
theorem WA20_arg (c : Dev nD) {r : Ref sig .tc} (hr : r ∈ argRefs) : WA20 m ρ c (Proc.devRef .tc r) = WA0 m ρ c (Proc.devRef .tc r) :=
  (after_spares _ hostOps0_19_spares _ hr).trans (WA19_arg m ρ c hr)
theorem WA21_arg (c : Dev nD) {r : Ref sig .tc} (hr : r ∈ argRefs) : WA21 m ρ c (Proc.devRef .tc r) = WA0 m ρ c (Proc.devRef .tc r) :=
  (after_spares _ hostOps0_20_spares _ hr).trans (WA20_arg m ρ c hr)
theorem WA22_arg (c : Dev nD) {r : Ref sig .tc} (hr : r ∈ argRefs) : WA22 m ρ c (Proc.devRef .tc r) = WA0 m ρ c (Proc.devRef .tc r) :=
  (after_spares _ hostOps0_21_spares _ hr).trans (WA21_arg m ρ c hr)
theorem WA23_arg (c : Dev nD) {r : Ref sig .tc} (hr : r ∈ argRefs) : WA23 m ρ c (Proc.devRef .tc r) = WA0 m ρ c (Proc.devRef .tc r) :=
  (after_spares _ hostOps0_22_spares _ hr).trans (WA22_arg m ρ c hr)
theorem WA24_arg (c : Dev nD) {r : Ref sig .tc} (hr : r ∈ argRefs) : WA24 m ρ c (Proc.devRef .tc r) = WA0 m ρ c (Proc.devRef .tc r) :=
  (after_spares _ hostOps0_23_spares _ hr).trans (WA23_arg m ρ c hr)
theorem WA25_arg (c : Dev nD) {r : Ref sig .tc} (hr : r ∈ argRefs) : WA25 m ρ c (Proc.devRef .tc r) = WA0 m ρ c (Proc.devRef .tc r) :=
  (after_spares _ hostOps0_24_spares _ hr).trans (WA24_arg m ρ c hr)
theorem WA26_arg (c : Dev nD) {r : Ref sig .tc} (hr : r ∈ argRefs) : WA26 m ρ c (Proc.devRef .tc r) = WA0 m ρ c (Proc.devRef .tc r) :=
  (after_spares _ hostOps0_25_spares _ hr).trans (WA25_arg m ρ c hr)
theorem WA27_arg (c : Dev nD) {r : Ref sig .tc} (hr : r ∈ argRefs) : WA27 m ρ c (Proc.devRef .tc r) = WA0 m ρ c (Proc.devRef .tc r) :=
  (after_spares _ hostOps0_26_spares _ hr).trans (WA26_arg m ρ c hr)
theorem WA28_arg (c : Dev nD) {r : Ref sig .tc} (hr : r ∈ argRefs) : WA28 m ρ c (Proc.devRef .tc r) = WA0 m ρ c (Proc.devRef .tc r) :=
  (after_spares _ hostOps0_27_spares _ hr).trans (WA27_arg m ρ c hr)
theorem WA29_arg (c : Dev nD) {r : Ref sig .tc} (hr : r ∈ argRefs) : WA29 m ρ c (Proc.devRef .tc r) = WA0 m ρ c (Proc.devRef .tc r) :=
  (after_spares _ hostOps0_28_spares _ hr).trans (WA28_arg m ρ c hr)
theorem WA30_arg (c : Dev nD) {r : Ref sig .tc} (hr : r ∈ argRefs) : WA30 m ρ c (Proc.devRef .tc r) = WA0 m ρ c (Proc.devRef .tc r) :=
  (after_spares _ hostOps0_29_spares _ hr).trans (WA29_arg m ρ c hr)
theorem WA31_arg (c : Dev nD) {r : Ref sig .tc} (hr : r ∈ argRefs) : WA31 m ρ c (Proc.devRef .tc r) = WA0 m ρ c (Proc.devRef .tc r) :=
  (after_spares _ hostOps0_30_spares _ hr).trans (WA30_arg m ρ c hr)
theorem WA32_arg (c : Dev nD) {r : Ref sig .tc} (hr : r ∈ argRefs) : WA32 m ρ c (Proc.devRef .tc r) = WA0 m ρ c (Proc.devRef .tc r) :=
  (after_spares _ hostOps0_31_spares _ hr).trans (WA31_arg m ρ c hr)
theorem WA33_arg (c : Dev nD) {r : Ref sig .tc} (hr : r ∈ argRefs) : WA33 m ρ c (Proc.devRef .tc r) = WA0 m ρ c (Proc.devRef .tc r) :=
  (after_spares _ hostOps0_32_spares _ hr).trans (WA32_arg m ρ c hr)
theorem WA34_arg (c : Dev nD) {r : Ref sig .tc} (hr : r ∈ argRefs) : WA34 m ρ c (Proc.devRef .tc r) = WA0 m ρ c (Proc.devRef .tc r) :=
  (after_spares _ hostOps0_33_spares _ hr).trans (WA33_arg m ρ c hr)
theorem WA35_arg (c : Dev nD) {r : Ref sig .tc} (hr : r ∈ argRefs) : WA35 m ρ c (Proc.devRef .tc r) = WA0 m ρ c (Proc.devRef .tc r) :=
  (after_spares _ hostOps0_34_spares _ hr).trans (WA34_arg m ρ c hr)
theorem WA36_arg (c : Dev nD) {r : Ref sig .tc} (hr : r ∈ argRefs) : WA36 m ρ c (Proc.devRef .tc r) = WA0 m ρ c (Proc.devRef .tc r) :=
  (after_spares _ hostOps0_35_spares _ hr).trans (WA35_arg m ρ c hr)
theorem WA37_arg (c : Dev nD) {r : Ref sig .tc} (hr : r ∈ argRefs) : WA37 m ρ c (Proc.devRef .tc r) = WA0 m ρ c (Proc.devRef .tc r) :=
  (after_spares _ hostOps0_36_spares _ hr).trans (WA36_arg m ρ c hr)
theorem WA38_arg (c : Dev nD) {r : Ref sig .tc} (hr : r ∈ argRefs) : WA38 m ρ c (Proc.devRef .tc r) = WA0 m ρ c (Proc.devRef .tc r) :=
  (after_spares _ hostOps0_37_spares _ hr).trans (WA37_arg m ρ c hr)
theorem WA39_arg (c : Dev nD) {r : Ref sig .tc} (hr : r ∈ argRefs) : WA39 m ρ c (Proc.devRef .tc r) = WA0 m ρ c (Proc.devRef .tc r) :=
  (after_spares _ hostOps0_38_spares _ hr).trans (WA38_arg m ρ c hr)
theorem WA40_arg (c : Dev nD) {r : Ref sig .tc} (hr : r ∈ argRefs) : WA40 m ρ c (Proc.devRef .tc r) = WA0 m ρ c (Proc.devRef .tc r) :=
  (after_spares _ hostOps0_39_spares _ hr).trans (WA39_arg m ρ c hr)
theorem WA41_arg (c : Dev nD) {r : Ref sig .tc} (hr : r ∈ argRefs) : WA41 m ρ c (Proc.devRef .tc r) = WA0 m ρ c (Proc.devRef .tc r) :=
  (after_spares _ hostOps0_40_spares _ hr).trans (WA40_arg m ρ c hr)
theorem WA42_arg (c : Dev nD) {r : Ref sig .tc} (hr : r ∈ argRefs) : WA42 m ρ c (Proc.devRef .tc r) = WA0 m ρ c (Proc.devRef .tc r) :=
  (after_spares _ hostOps0_41_spares _ hr).trans (WA41_arg m ρ c hr)
theorem WA43_arg (c : Dev nD) {r : Ref sig .tc} (hr : r ∈ argRefs) : WA43 m ρ c (Proc.devRef .tc r) = WA0 m ρ c (Proc.devRef .tc r) :=
  (after_spares _ hostOps0_42_spares _ hr).trans (WA42_arg m ρ c hr)
theorem WA44_arg (c : Dev nD) {r : Ref sig .tc} (hr : r ∈ argRefs) : WA44 m ρ c (Proc.devRef .tc r) = WA0 m ρ c (Proc.devRef .tc r) :=
  (after_spares _ hostOps0_43_spares _ hr).trans (WA43_arg m ρ c hr)
theorem WA45_arg (c : Dev nD) {r : Ref sig .tc} (hr : r ∈ argRefs) : WA45 m ρ c (Proc.devRef .tc r) = WA0 m ρ c (Proc.devRef .tc r) :=
  (after_spares _ hostOps0_44_spares _ hr).trans (WA44_arg m ρ c hr)
theorem WA46_arg (c : Dev nD) {r : Ref sig .tc} (hr : r ∈ argRefs) : WA46 m ρ c (Proc.devRef .tc r) = WA0 m ρ c (Proc.devRef .tc r) :=
  (after_spares _ hostOps0_45_spares _ hr).trans (WA45_arg m ρ c hr)
theorem WA47_arg (c : Dev nD) {r : Ref sig .tc} (hr : r ∈ argRefs) : WA47 m ρ c (Proc.devRef .tc r) = WA0 m ρ c (Proc.devRef .tc r) :=
  (after_spares _ hostOps0_46_spares _ hr).trans (WA46_arg m ρ c hr)
theorem WA48_arg (c : Dev nD) {r : Ref sig .tc} (hr : r ∈ argRefs) : WA48 m ρ c (Proc.devRef .tc r) = WA0 m ρ c (Proc.devRef .tc r) :=
  (after_spares _ hostOps0_47_spares _ hr).trans (WA47_arg m ρ c hr)
theorem WA49_arg (c : Dev nD) {r : Ref sig .tc} (hr : r ∈ argRefs) : WA49 m ρ c (Proc.devRef .tc r) = WA0 m ρ c (Proc.devRef .tc r) :=
  (after_spares _ hostOps0_48_spares _ hr).trans (WA48_arg m ρ c hr)
theorem WA50_arg (c : Dev nD) {r : Ref sig .tc} (hr : r ∈ argRefs) : WA50 m ρ c (Proc.devRef .tc r) = WA0 m ρ c (Proc.devRef .tc r) :=
  (after_spares _ hostOps0_49_spares _ hr).trans (WA49_arg m ρ c hr)
theorem WA51_arg (c : Dev nD) {r : Ref sig .tc} (hr : r ∈ argRefs) : WA51 m ρ c (Proc.devRef .tc r) = WA0 m ρ c (Proc.devRef .tc r) :=
  (after_spares _ hostOps0_50_spares _ hr).trans (WA50_arg m ρ c hr)
theorem WA52_arg (c : Dev nD) {r : Ref sig .tc} (hr : r ∈ argRefs) : WA52 m ρ c (Proc.devRef .tc r) = WA0 m ρ c (Proc.devRef .tc r) :=
  (after_spares _ hostOps0_51_spares _ hr).trans (WA51_arg m ρ c hr)
theorem WA53_arg (c : Dev nD) {r : Ref sig .tc} (hr : r ∈ argRefs) : WA53 m ρ c (Proc.devRef .tc r) = WA0 m ρ c (Proc.devRef .tc r) :=
  (after_spares _ hostOps0_52_spares _ hr).trans (WA52_arg m ρ c hr)
theorem WA54_arg (c : Dev nD) {r : Ref sig .tc} (hr : r ∈ argRefs) : WA54 m ρ c (Proc.devRef .tc r) = WA0 m ρ c (Proc.devRef .tc r) :=
  (after_spares _ hostOps0_53_spares _ hr).trans (WA53_arg m ρ c hr)
theorem WA55_arg (c : Dev nD) {r : Ref sig .tc} (hr : r ∈ argRefs) : WA55 m ρ c (Proc.devRef .tc r) = WA0 m ρ c (Proc.devRef .tc r) :=
  (after_spares _ hostOps0_54_spares _ hr).trans (WA54_arg m ρ c hr)
theorem WA56_arg (c : Dev nD) {r : Ref sig .tc} (hr : r ∈ argRefs) : WA56 m ρ c (Proc.devRef .tc r) = WA0 m ρ c (Proc.devRef .tc r) :=
  (after_spares _ hostOps0_55_spares _ hr).trans (WA55_arg m ρ c hr)
theorem WA57_arg (c : Dev nD) {r : Ref sig .tc} (hr : r ∈ argRefs) : WA57 m ρ c (Proc.devRef .tc r) = WA0 m ρ c (Proc.devRef .tc r) :=
  (after_spares _ hostOps0_56_spares _ hr).trans (WA56_arg m ρ c hr)
theorem WA58_arg (c : Dev nD) {r : Ref sig .tc} (hr : r ∈ argRefs) : WA58 m ρ c (Proc.devRef .tc r) = WA0 m ρ c (Proc.devRef .tc r) :=
  (after_spares _ hostOps0_57_spares _ hr).trans (WA57_arg m ρ c hr)
theorem WA59_arg (c : Dev nD) {r : Ref sig .tc} (hr : r ∈ argRefs) : WA59 m ρ c (Proc.devRef .tc r) = WA0 m ρ c (Proc.devRef .tc r) :=
  (after_spares _ hostOps0_58_spares _ hr).trans (WA58_arg m ρ c hr)
theorem WA60_arg (c : Dev nD) {r : Ref sig .tc} (hr : r ∈ argRefs) : WA60 m ρ c (Proc.devRef .tc r) = WA0 m ρ c (Proc.devRef .tc r) :=
  (after_spares _ hostOps0_59_spares _ hr).trans (WA59_arg m ρ c hr)
theorem WA61_arg (c : Dev nD) {r : Ref sig .tc} (hr : r ∈ argRefs) : WA61 m ρ c (Proc.devRef .tc r) = WA0 m ρ c (Proc.devRef .tc r) :=
  (after_spares _ hostOps0_60_spares _ hr).trans (WA60_arg m ρ c hr)
theorem WA62_arg (c : Dev nD) {r : Ref sig .tc} (hr : r ∈ argRefs) : WA62 m ρ c (Proc.devRef .tc r) = WA0 m ρ c (Proc.devRef .tc r) :=
  (after_spares _ hostOps0_61_spares _ hr).trans (WA61_arg m ρ c hr)
theorem WA63_arg (c : Dev nD) {r : Ref sig .tc} (hr : r ∈ argRefs) : WA63 m ρ c (Proc.devRef .tc r) = WA0 m ρ c (Proc.devRef .tc r) :=
  (after_spares _ hostOps0_62_spares _ hr).trans (WA62_arg m ρ c hr)
theorem WA64_arg (c : Dev nD) {r : Ref sig .tc} (hr : r ∈ argRefs) : WA64 m ρ c (Proc.devRef .tc r) = WA0 m ρ c (Proc.devRef .tc r) :=
  (after_spares _ hostOps0_63_spares _ hr).trans (WA63_arg m ρ c hr)
theorem WA65_arg (c : Dev nD) {r : Ref sig .tc} (hr : r ∈ argRefs) : WA65 m ρ c (Proc.devRef .tc r) = WA0 m ρ c (Proc.devRef .tc r) :=
  (after_spares _ hostOps0_64_spares _ hr).trans (WA64_arg m ρ c hr)
theorem WA66_arg (c : Dev nD) {r : Ref sig .tc} (hr : r ∈ argRefs) : WA66 m ρ c (Proc.devRef .tc r) = WA0 m ρ c (Proc.devRef .tc r) :=
  (after_spares _ hostOps0_65_spares _ hr).trans (WA65_arg m ρ c hr)
theorem WA67_arg (c : Dev nD) {r : Ref sig .tc} (hr : r ∈ argRefs) : WA67 m ρ c (Proc.devRef .tc r) = WA0 m ρ c (Proc.devRef .tc r) :=
  (after_spares _ hostOps0_66_spares _ hr).trans (WA66_arg m ρ c hr)
theorem WA68_arg (c : Dev nD) {r : Ref sig .tc} (hr : r ∈ argRefs) : WA68 m ρ c (Proc.devRef .tc r) = WA0 m ρ c (Proc.devRef .tc r) :=
  (after_spares _ hostOps0_67_spares _ hr).trans (WA67_arg m ρ c hr)
theorem WA69_arg (c : Dev nD) {r : Ref sig .tc} (hr : r ∈ argRefs) : WA69 m ρ c (Proc.devRef .tc r) = WA0 m ρ c (Proc.devRef .tc r) :=
  (after_spares _ hostOps0_68_spares _ hr).trans (WA68_arg m ρ c hr)
theorem WA70_arg (c : Dev nD) {r : Ref sig .tc} (hr : r ∈ argRefs) : WA70 m ρ c (Proc.devRef .tc r) = WA0 m ρ c (Proc.devRef .tc r) :=
  (after_spares _ hostOps0_69_spares _ hr).trans (WA69_arg m ρ c hr)
theorem WA71_arg (c : Dev nD) {r : Ref sig .tc} (hr : r ∈ argRefs) : WA71 m ρ c (Proc.devRef .tc r) = WA0 m ρ c (Proc.devRef .tc r) :=
  (after_spares _ hostOps0_70_spares _ hr).trans (WA70_arg m ρ c hr)
theorem WA72_arg (c : Dev nD) {r : Ref sig .tc} (hr : r ∈ argRefs) : WA72 m ρ c (Proc.devRef .tc r) = WA0 m ρ c (Proc.devRef .tc r) :=
  (after_spares _ hostOps0_71_spares _ hr).trans (WA71_arg m ρ c hr)
theorem WA73_arg (c : Dev nD) {r : Ref sig .tc} (hr : r ∈ argRefs) : WA73 m ρ c (Proc.devRef .tc r) = WA0 m ρ c (Proc.devRef .tc r) :=
  (after_spares _ hostOps0_72_spares _ hr).trans (WA72_arg m ρ c hr)

variable (X : Dev nD → Valuation τ sig (Elt F))

/-! ## Between the calls: every boundary agrees with the contents `X` the call before leaves at an argument -/

theorem WB1_arg (c : Dev nD) {r : Ref sig .tc} (hr : r ∈ argRefs) : WB1 X c (Proc.devRef .tc r) = X c (Proc.devRef .tc r) :=
  after_spares _ hostOps1_spares _ hr
theorem WB2_arg (c : Dev nD) {r : Ref sig .tc} (hr : r ∈ argRefs) : WB2 X c (Proc.devRef .tc r) = X c (Proc.devRef .tc r) :=
  (after_spares _ hostOps1_1_spares _ hr).trans (WB1_arg X c hr)
theorem WB3_arg (c : Dev nD) {r : Ref sig .tc} (hr : r ∈ argRefs) : WB3 X c (Proc.devRef .tc r) = X c (Proc.devRef .tc r) :=
  (after_spares _ hostOps1_2_spares _ hr).trans (WB2_arg X c hr)
theorem WB4_arg (c : Dev nD) {r : Ref sig .tc} (hr : r ∈ argRefs) : WB4 X c (Proc.devRef .tc r) = X c (Proc.devRef .tc r) :=
  (after_spares _ hostOps1_3_spares _ hr).trans (WB3_arg X c hr)
theorem WB5_arg (c : Dev nD) {r : Ref sig .tc} (hr : r ∈ argRefs) : WB5 X c (Proc.devRef .tc r) = X c (Proc.devRef .tc r) :=
  (after_spares _ hostOps1_4_spares _ hr).trans (WB4_arg X c hr)
theorem WC1_arg (c : Dev nD) {r : Ref sig .tc} (hr : r ∈ argRefs) : WC1 X c (Proc.devRef .tc r) = X c (Proc.devRef .tc r) :=
  after_spares _ hostOps2_spares _ hr

end Cert.KernelIdeal.Fr

end
-- ==== Proof.KI.Reg0.lean ====
/-
  Pallas call 0 (the per-relation projection) read at the contents `V` its arrays hold when it is entered:
  the block of each of its five windows at a grid point, what the body leaves in the output window's buffer —
  the one store's payload over the four input blocks —, the body's triple, the pipeline's proof data and the
  body obligation at every grid point. The grid is (relation, node tile): 9 × 10 points; the weight and bias
  windows move only when the relation changes, and hold their block at the points between.
-/
import proofs.«151568_j90031104458821_2_alg».proof.Proof.Gen.KernelIdeal.Launch
import proofs.«151568_j90031104458821_2_alg».proof.Proof.Gen.KernelIdeal.Skeleton
import proofs.«151568_j90031104458821_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or kept from the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or kept from the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or kept from the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles of the body's loads and of its store. -/
abbrev r0_0 : Rect S1x5000x128 := Rect.unit (s := S1x5000x128) ![0, 0, 0] S1x5000x128.size inb_S1x5000x128_S1x5000x128_0_0_0
abbrev r0_1 : Rect S1x5000x1 := Rect.unit (s := S1x5000x1) ![0, 0, 0] S1x5000x1.size inb_S1x5000x1_S1x5000x1_0_0_0
abbrev r0_2 : Rect S1x128x128 := Rect.unit (s := S1x128x128) ![0, 0, 0] S1x128x128.size inb_S1x128x128_S1x128x128_0_0_0
abbrev r0_3 : Rect S1x1x128 := Rect.unit (s := S1x1x128) ![0, 0, 0] S1x1x128.size inb_S1x1x128_S1x1x128_0_0_0

/-- The output window's buffer after the body: its one store, the payload over the four input blocks. -/
def out0_4 (x0 : Vec F S1x5000x128 .f32) (x1 : Vec F S1x5000x1 .f32) (x2 : Vec F S1x128x128 .f32) (x3 : Vec F S1x1x128 .f32) : Vec F S1x5000x128 .f32 :=
  View.canon [⟨r0_0, k0_pay1 (View.ld x0 r0_0) (View.ld x1 r0_1) (View.ld x2 r0_2) (View.ld x3 r0_3)⟩]

/-- The store is of the whole buffer, so it covers it. -/
theorem cover0_4 (p0 : Vec F S1x5000x128 .f32) (y : S1x5000x128.Idx) :
    ∃ pc ∈ ([⟨r0_0, p0⟩] : List (View.Piece (Elt F) S1x5000x128 .f32)), y ∈ pc.1.set :=
  View.cover_of_tiled [⟨r0_0, p0⟩] S1x5000x128.size (by rfl) y

set_option maxHeartbeats 1000000 in
/-- The body on whole staging memrefs, the inputs' at contents `x0 … x3` and the output's at anything, runs to the
    continuation holding the inputs' as they were and the output's at `out0_4` of them. -/
theorem sound_kernel0 (c : Dev nD) (E : Set ℕ) (i : grid0.Coords)
    (arg2 : Memref sig .tc .vmem S1x5000x128 .f32) (harg2 : arg2.IsWhole) (arg3 : Memref sig .tc .vmem S1x5000x1 .f32) (harg3 : arg3.IsWhole)
    (arg4 : Memref sig .tc .vmem S1x128x128 .f32) (harg4 : arg4.IsWhole) (arg5 : Memref sig .tc .vmem S1x1x128 .f32) (harg5 : arg5.IsWhole)
    (arg6 : Memref sig .tc .vmem S1x5000x128 .f32) (harg6 : arg6.IsWhole)
    (x0 : Vec F S1x5000x128 .f32) (x1 : Vec F S1x5000x1 .f32) (x2 : Vec F S1x128x128 .f32) (x3 : Vec F S1x1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__proj2_kernel_body i arg2 harg2 arg3 harg3 arg4 harg4 arg5 harg5 arg6 harg6) K := by
  simp only [cc0__proj2_kernel_body_eq_skeleton]; unfold cc0__proj2_kernel_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of the call on core `c`: the arrays as the call finds them; after the body at point `t` each input's
    buffer at its block and the output's at `out0_4` of the input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.Reg1.lean ====
/-
  Pallas call 1 (the per-relation projection) read at the contents `V` its arrays hold when it is entered:
  the block of each of its five windows at a grid point, what the body leaves in the output window's buffer —
  the one store's payload over the four input blocks —, the body's triple, the pipeline's proof data and the
  body obligation at every grid point. The grid is (relation, node tile): 9 × 10 points; the weight and bias
  windows move only when the relation changes, and hold their block at the points between.
-/
import proofs.«151568_j90031104458821_2_alg».proof.Proof.Gen.KernelIdeal.Launch
import proofs.«151568_j90031104458821_2_alg».proof.Proof.Gen.KernelIdeal.Skeleton
import proofs.«151568_j90031104458821_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or kept from the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles of the body's loads and of its store. -/
abbrev r1_0 : Rect S1x5000x128 := Rect.unit (s := S1x5000x128) ![0, 0, 0] S1x5000x128.size inb_S1x5000x128_S1x5000x128_0_0_0
abbrev r1_1 : Rect S1x5000x1 := Rect.unit (s := S1x5000x1) ![0, 0, 0] S1x5000x1.size inb_S1x5000x1_S1x5000x1_0_0_0
abbrev r1_2 : Rect S1x128x128 := Rect.unit (s := S1x128x128) ![0, 0, 0] S1x128x128.size inb_S1x128x128_S1x128x128_0_0_0
abbrev r1_3 : Rect S1x1x128 := Rect.unit (s := S1x1x128) ![0, 0, 0] S1x1x128.size inb_S1x1x128_S1x1x128_0_0_0

/-- The output window's buffer after the body: its one store, the payload over the four input blocks. -/
def out1_4 (x0 : Vec F S1x5000x128 .f32) (x1 : Vec F S1x5000x1 .f32) (x2 : Vec F S1x128x128 .f32) (x3 : Vec F S1x1x128 .f32) : Vec F S1x5000x128 .f32 :=
  View.canon [⟨r1_0, k1_pay1 (View.ld x0 r1_0) (View.ld x1 r1_1) (View.ld x2 r1_2) (View.ld x3 r1_3)⟩]

/-- The store is of the whole buffer, so it covers it. -/
theorem cover1_4 (p0 : Vec F S1x5000x128 .f32) (y : S1x5000x128.Idx) :
    ∃ pc ∈ ([⟨r1_0, p0⟩] : List (View.Piece (Elt F) S1x5000x128 .f32)), y ∈ pc.1.set :=
  View.cover_of_tiled [⟨r1_0, p0⟩] S1x5000x128.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg2 : Memref sig .tc .vmem S1x5000x128 .f32) (harg2 : arg2.IsWhole) (arg3 : Memref sig .tc .vmem S1x5000x1 .f32) (harg3 : arg3.IsWhole)
    (arg4 : Memref sig .tc .vmem S1x128x128 .f32) (harg4 : arg4.IsWhole) (arg5 : Memref sig .tc .vmem S1x1x128 .f32) (harg5 : arg5.IsWhole)
    (arg6 : Memref sig .tc .vmem S1x5000x128 .f32) (harg6 : arg6.IsWhole)
    (x0 : Vec F S1x5000x128 .f32) (x1 : Vec F S1x5000x1 .f32) (x2 : Vec F S1x128x128 .f32) (x3 : Vec F S1x1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__proj2_kernel_body i arg2 harg2 arg3 harg3 arg4 harg4 arg5 harg5 arg6 harg6) K := by
  simp only [cc1__proj2_kernel_body_eq_skeleton]; unfold cc1__proj2_kernel_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the call on core `c`: the arrays as the call finds them; after the body at point `t` each input's
    buffer at its block and the output's at `out1_4` of the input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KI.Reg2.lean ====
/-
  Pallas call 2 (the classifier) read at the contents `V` its arrays hold when it is entered: the block of each of
  its four windows at a grid point, what the body leaves in the output window's buffer — the one store's payload over
  the three input blocks —, the body's triple, the pipeline's proof data and the body obligation at every grid point.
  The grid is (node type, node tile): 3 × 10 points; the weight and bias windows are fetched once and hold their block
  at every later point.
-/
import proofs.«151568_j90031104458821_2_alg».proof.Proof.Gen.KernelIdeal.Launch
import proofs.«151568_j90031104458821_2_alg».proof.Proof.Gen.KernelIdeal.Skeleton
import proofs.«151568_j90031104458821_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or kept from an earlier point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or kept from an earlier point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or kept from an earlier point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles of the body's loads and of its store. -/
abbrev r2_0 : Rect S1x5000x128 := Rect.unit (s := S1x5000x128) ![0, 0, 0] S1x5000x128.size inb_S1x5000x128_S1x5000x128_0_0_0
abbrev r2_1 : Rect S128x16 := Rect.unit (s := S128x16) ![0, 0] S128x16.size inb_S128x16_S128x16_0_0
abbrev r2_2 : Rect S1x16 := Rect.unit (s := S1x16) ![0, 0] S1x16.size inb_S1x16_S1x16_0_0
abbrev r2_3 : Rect S1x5000x16 := Rect.unit (s := S1x5000x16) ![0, 0, 0] S1x5000x16.size inb_S1x5000x16_S1x5000x16_0_0_0

/-- The output window's buffer after the body: its one store, the payload over the three input blocks. -/
def out2_3 (x0 : Vec F S1x5000x128 .f32) (x1 : Vec F S128x16 .f32) (x2 : Vec F S1x16 .f32) : Vec F S1x5000x16 .f32 :=
  View.canon [⟨r2_3, k2_pay1 (View.ld x0 r2_0) (View.ld x1 r2_1) (View.ld x2 r2_2)⟩]

/-- The store is of the whole buffer, so it covers it. -/
theorem cover2_3 (p0 : Vec F S1x5000x16 .f32) (y : S1x5000x16.Idx) :
    ∃ pc ∈ ([⟨r2_3, p0⟩] : List (View.Piece (Elt F) S1x5000x16 .f32)), y ∈ pc.1.set :=
  View.cover_of_tiled [⟨r2_3, p0⟩] S1x5000x16.size (by rfl) y

set_option maxHeartbeats 1000000 in
/-- The body on whole staging memrefs, the inputs' at contents `x0 x1 x2` and the output's at anything, runs to the
    continuation holding the inputs' as they were and the output's at `out2_3` of them. -/
theorem sound_kernel2 (c : Dev nD) (E : Set ℕ) (i : grid2.Coords)
    (arg2 : Memref sig .tc .vmem S1x5000x128 .f32) (harg2 : arg2.IsWhole) (arg3 : Memref sig .tc .vmem S128x16 .f32) (harg3 : arg3.IsWhole)
    (arg4 : Memref sig .tc .vmem S1x16 .f32) (harg4 : arg4.IsWhole) (arg5 : Memref sig .tc .vmem S1x5000x16 .f32) (harg5 : arg5.IsWhole)
    (x0 : Vec F S1x5000x128 .f32) (x1 : Vec F S128x16 .f32) (x2 : Vec F S1x16 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__classifier_kernel_body i arg2 harg2 arg3 harg3 arg4 harg4 arg5 harg5) K := by
  simp only [cc2__classifier_kernel_body_eq_skeleton]; unfold cc2__classifier_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the call on core `c`: the arrays as the call finds them; after the body at point `t` each input's
    buffer at its block and the output's at `out2_3` of the input blocks; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.KI.Run.lean ====
/-
  The run of @main: its 79 stretches of host operations and its three pallas_calls, as the segments of one launch. The
  thread state between two segments is "every unscoped buffer of the TensorCore at the contents the fold through @main
  gives it there, the generator register at some state, nothing owed"; a host stretch moves the contents by its
  operations, a pallas_call by writing its output window's blocks back into its output array. The conclusion reads the
  last contents off the final state: every unscoped buffer ends at `X2`, the contents call 2 leaves.
-/
import proofs.«151568_j90031104458821_2_alg».proof.Proof.KI.Fold
import proofs.«151568_j90031104458821_2_alg».proof.Proof.KI.Reg0
import proofs.«151568_j90031104458821_2_alg».proof.Proof.KI.Reg1
import proofs.«151568_j90031104458821_2_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the calls' entries and exits -/

/-- What call 0 finds: the launch memory through the 73 stretches before it. -/
abbrev V0e : (c : Dev nD) → (b : Ref sig .tc) → Buf (Elt F) ((c : Thread nD τ).loc b) := fun c b => WA73 m ρ c b

/-- At call 0's exit: its arrays at what the pipeline leaves (the inputs as entered, the output's write-backs folded),
    every other buffer as entered. -/
def X0 (c : Dev nD) : Valuation τ sig (Elt F) :=
  Pipeline.withArrays spec0 c (WA73 m ρ c) fun w => (dat0 (V0e m ρ) c).arrAt w cfg0.N
theorem X0_arr (c : Dev nD) (w : Fin cfg0.W) :
    X0 m ρ c (Proc.devRef .tc (Pipeline.arrRef spec0 w)) = (dat0 (V0e m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = WA73 m ρ c (Proc.devRef .tc b) := by
  unfold X0; exact Pipeline.withArrays_of_ne spec0 c _ _ b hb
/-- The same read at the TensorCore's references. -/
abbrev V0x : (c : Dev nD) → (b : Ref sig .tc) → Buf (Elt F) ((c : Thread nD τ).loc b) := fun c b => X0 m ρ c b
theorem hF0 (c : Dev nD) (w : Fin cfg0.W) : (dat0 (V0e m ρ) c).arrAt w cfg0.N = V0x m ρ c (Pipeline.arrRef spec0 w) :=
  (X0_arr m ρ c w).symm
theorem hrest0 (c : Dev nD) : ∀ b, b ∉ Finset.univ.image (Pipeline.arrRef spec0) → V0x m ρ c b = V0e m ρ c b :=
  fun b hb => X0_of_ne m ρ c b fun w e => hb (Finset.mem_image.mpr ⟨w, Finset.mem_univ _, e⟩)

/-- What call 1 finds: call 0's exit contents through the 5 stretches between them. -/
abbrev V1e : (c : Dev nD) → (b : Ref sig .tc) → Buf (Elt F) ((c : Thread nD τ).loc b) := fun c b => WB5 (X0 m ρ) c b

/-- At call 1's exit: its arrays at what the pipeline leaves (the inputs as entered, the output's write-backs folded),
    every other buffer as entered. -/
def X1 (c : Dev nD) : Valuation τ sig (Elt F) :=
  Pipeline.withArrays spec1 c (WB5 (X0 m ρ) c) fun w => (dat1 (V1e m ρ) c).arrAt w cfg1.N
theorem X1_arr (c : Dev nD) (w : Fin cfg1.W) :
    X1 m ρ c (Proc.devRef .tc (Pipeline.arrRef spec1 w)) = (dat1 (V1e m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = WB5 (X0 m ρ) c (Proc.devRef .tc b) := by
  unfold X1; exact Pipeline.withArrays_of_ne spec1 c _ _ b hb
/-- The same read at the TensorCore's references. -/
abbrev V1x : (c : Dev nD) → (b : Ref sig .tc) → Buf (Elt F) ((c : Thread nD τ).loc b) := fun c b => X1 m ρ c b
theorem hF1 (c : Dev nD) (w : Fin cfg1.W) : (dat1 (V1e m ρ) c).arrAt w cfg1.N = V1x m ρ c (Pipeline.arrRef spec1 w) :=
  (X1_arr m ρ c w).symm
theorem hrest1 (c : Dev nD) : ∀ b, b ∉ Finset.univ.image (Pipeline.arrRef spec1) → V1x m ρ c b = V1e m ρ c b :=
  fun b hb => X1_of_ne m ρ c b fun w e => hb (Finset.mem_image.mpr ⟨w, Finset.mem_univ _, e⟩)

/-- What call 2 finds: call 1's exit contents through the stretch between them. -/
abbrev V2e : (c : Dev nD) → (b : Ref sig .tc) → Buf (Elt F) ((c : Thread nD τ).loc b) := fun c b => WC1 (X1 m ρ) c b

/-- At call 2's exit: its arrays at what the pipeline leaves (the inputs as entered, the output's write-backs folded),
    every other buffer as entered. -/
def X2 (c : Dev nD) : Valuation τ sig (Elt F) :=
  Pipeline.withArrays spec2 c (WC1 (X1 m ρ) c) fun w => (dat2 (V2e m ρ) c).arrAt w cfg2.N
theorem X2_arr (c : Dev nD) (w : Fin cfg2.W) :
    X2 m ρ c (Proc.devRef .tc (Pipeline.arrRef spec2 w)) = (dat2 (V2e m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = WC1 (X1 m ρ) c (Proc.devRef .tc b) := by
  unfold X2; exact Pipeline.withArrays_of_ne spec2 c _ _ b hb
/-- The same read at the TensorCore's references. -/
abbrev V2x : (c : Dev nD) → (b : Ref sig .tc) → Buf (Elt F) ((c : Thread nD τ).loc b) := fun c b => X2 m ρ c b
theorem hF2 (c : Dev nD) (w : Fin cfg2.W) : (dat2 (V2e m ρ) c).arrAt w cfg2.N = V2x m ρ c (Pipeline.arrRef spec2 w) :=
  (X2_arr m ρ c w).symm
theorem hrest2 (c : Dev nD) : ∀ b, b ∉ Finset.univ.image (Pipeline.arrRef spec2) → V2x m ρ c b = V2e m ρ c b :=
  fun b hb => X2_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its call's entry contents: a literal match on the pipeline's number. -/
def pdats : (p : Fin 3) → (c : Dev nD) → Dat τ (Elt F) Unit ℕ (UR sig nD τ) ℕ (Pipeline.pin (pcfgs (F := F)) adm p) c
  | ⟨0, _⟩ => fun c => dat0 (V0e m ρ) c
  | ⟨1, _⟩ => fun c => dat1 (V1e m ρ) c
  | ⟨2, _⟩ => fun c => dat2 (V2e m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's tallies at nothing. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at call 2's exit contents, the generator register at some state. -/
abbrev Tₙ (c : Dev nD) : sProp 𝕄 := iprop(StableHlo.held (c : Thread nD τ) (Pipeline.ucRefs τ sig) (X2 m ρ c) ∗ ∃ r, prngReg c r)

/-! ## The pallas_calls as segments -/

set_option backward.isDefEq.respectTransparency.types false in
/-- Pallas call 0 over the thread state: entered from every unscoped buffer at its entry contents, left at what its
    write-backs make of them. Its arrays are split out of the unscoped buffers and put back at the exit contents; the
    generator register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0e m ρ) c).loose
  hwaits := Pipeline.hwaits_of_owed_zero _ _ _ _ L lv 0 fun _ _ => rfl
  pre c := iprop(StableHlo.held (c : Thread nD τ) (Pipeline.ucRefs τ sig) (WA73 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := UR sig nD τ) (Lvl := ℕ) spec0 c (V0e m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0e m ρ c) (V0x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at its entry contents, left at what its
    write-backs make of them. Its arrays are split out of the unscoped buffers and put back at the exit contents; the
    generator register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1e m ρ) c).loose
  hwaits := Pipeline.hwaits_of_owed_zero _ _ _ _ L lv 1 fun _ _ => rfl
  pre c := iprop(StableHlo.held (c : Thread nD τ) (Pipeline.ucRefs τ sig) (WB5 (X0 m ρ) c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := UR sig nD τ) (Lvl := ℕ) spec1 c (V1e m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1e m ρ c) (V1x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at its entry contents, left at what its
    write-backs make of them. Its arrays are split out of the unscoped buffers and put back at the exit contents; the
    generator register goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2e m ρ) c).loose
  hwaits := Pipeline.hwaits_of_owed_zero _ _ _ _ L lv 2 fun _ _ => rfl
  pre c := iprop(StableHlo.held (c : Thread nD τ) (Pipeline.ucRefs τ sig) (WC1 (X1 m ρ) c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2e m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2e m ρ c) (V2x m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 82 segments in order. -/
abbrev segs : List (Pipeline.Seg (pcfgs (F := F)) adm (pdats m ρ) () defs₀ 𝒱₀ L lv) :=
  [ .host (hseg hostOps0 hostOps0_sub hostOps0_fresh (WA0 m ρ)),
    .host (hseg hostOps0_1 hostOps0_1_sub hostOps0_1_fresh (WA1 m ρ)),
    .host (hseg hostOps0_2 hostOps0_2_sub hostOps0_2_fresh (WA2 m ρ)),
    .host (hseg hostOps0_3 hostOps0_3_sub hostOps0_3_fresh (WA3 m ρ)),
    .host (hseg hostOps0_4 hostOps0_4_sub hostOps0_4_fresh (WA4 m ρ)),
    .host (hseg hostOps0_5 hostOps0_5_sub hostOps0_5_fresh (WA5 m ρ)),
    .host (hseg hostOps0_6 hostOps0_6_sub hostOps0_6_fresh (WA6 m ρ)),
    .host (hseg hostOps0_7 hostOps0_7_sub hostOps0_7_fresh (WA7 m ρ)),
    .host (hseg hostOps0_8 hostOps0_8_sub hostOps0_8_fresh (WA8 m ρ)),
    .host (hseg hostOps0_9 hostOps0_9_sub hostOps0_9_fresh (WA9 m ρ)),
    .host (hseg hostOps0_10 hostOps0_10_sub hostOps0_10_fresh (WA10 m ρ)),
    .host (hseg hostOps0_11 hostOps0_11_sub hostOps0_11_fresh (WA11 m ρ)),
    .host (hseg hostOps0_12 hostOps0_12_sub hostOps0_12_fresh (WA12 m ρ)),
    .host (hseg hostOps0_13 hostOps0_13_sub hostOps0_13_fresh (WA13 m ρ)),
    .host (hseg hostOps0_14 hostOps0_14_sub hostOps0_14_fresh (WA14 m ρ)),
    .host (hseg hostOps0_15 hostOps0_15_sub hostOps0_15_fresh (WA15 m ρ)),
    .host (hseg hostOps0_16 hostOps0_16_sub hostOps0_16_fresh (WA16 m ρ)),
    .host (hseg hostOps0_17 hostOps0_17_sub hostOps0_17_fresh (WA17 m ρ)),
    .host (hseg hostOps0_18 hostOps0_18_sub hostOps0_18_fresh (WA18 m ρ)),
    .host (hseg hostOps0_19 hostOps0_19_sub hostOps0_19_fresh (WA19 m ρ)),
    .host (hseg hostOps0_20 hostOps0_20_sub hostOps0_20_fresh (WA20 m ρ)),
    .host (hseg hostOps0_21 hostOps0_21_sub hostOps0_21_fresh (WA21 m ρ)),
    .host (hseg hostOps0_22 hostOps0_22_sub hostOps0_22_fresh (WA22 m ρ)),
    .host (hseg hostOps0_23 hostOps0_23_sub hostOps0_23_fresh (WA23 m ρ)),
    .host (hseg hostOps0_24 hostOps0_24_sub hostOps0_24_fresh (WA24 m ρ)),
    .host (hseg hostOps0_25 hostOps0_25_sub hostOps0_25_fresh (WA25 m ρ)),
    .host (hseg hostOps0_26 hostOps0_26_sub hostOps0_26_fresh (WA26 m ρ)),
    .host (hseg hostOps0_27 hostOps0_27_sub hostOps0_27_fresh (WA27 m ρ)),
    .host (hseg hostOps0_28 hostOps0_28_sub hostOps0_28_fresh (WA28 m ρ)),
    .host (hseg hostOps0_29 hostOps0_29_sub hostOps0_29_fresh (WA29 m ρ)),
    .host (hseg hostOps0_30 hostOps0_30_sub hostOps0_30_fresh (WA30 m ρ)),
    .host (hseg hostOps0_31 hostOps0_31_sub hostOps0_31_fresh (WA31 m ρ)),
    .host (hseg hostOps0_32 hostOps0_32_sub hostOps0_32_fresh (WA32 m ρ)),
    .host (hseg hostOps0_33 hostOps0_33_sub hostOps0_33_fresh (WA33 m ρ)),
    .host (hseg hostOps0_34 hostOps0_34_sub hostOps0_34_fresh (WA34 m ρ)),
    .host (hseg hostOps0_35 hostOps0_35_sub hostOps0_35_fresh (WA35 m ρ)),
    .host (hseg hostOps0_36 hostOps0_36_sub hostOps0_36_fresh (WA36 m ρ)),
    .host (hseg hostOps0_37 hostOps0_37_sub hostOps0_37_fresh (WA37 m ρ)),
    .host (hseg hostOps0_38 hostOps0_38_sub hostOps0_38_fresh (WA38 m ρ)),
    .host (hseg hostOps0_39 hostOps0_39_sub hostOps0_39_fresh (WA39 m ρ)),
    .host (hseg hostOps0_40 hostOps0_40_sub hostOps0_40_fresh (WA40 m ρ)),
    .host (hseg hostOps0_41 hostOps0_41_sub hostOps0_41_fresh (WA41 m ρ)),
    .host (hseg hostOps0_42 hostOps0_42_sub hostOps0_42_fresh (WA42 m ρ)),
    .host (hseg hostOps0_43 hostOps0_43_sub hostOps0_43_fresh (WA43 m ρ)),
    .host (hseg hostOps0_44 hostOps0_44_sub hostOps0_44_fresh (WA44 m ρ)),
    .host (hseg hostOps0_45 hostOps0_45_sub hostOps0_45_fresh (WA45 m ρ)),
    .host (hseg hostOps0_46 hostOps0_46_sub hostOps0_46_fresh (WA46 m ρ)),
    .host (hseg hostOps0_47 hostOps0_47_sub hostOps0_47_fresh (WA47 m ρ)),
    .host (hseg hostOps0_48 hostOps0_48_sub hostOps0_48_fresh (WA48 m ρ)),
    .host (hseg hostOps0_49 hostOps0_49_sub hostOps0_49_fresh (WA49 m ρ)),
    .host (hseg hostOps0_50 hostOps0_50_sub hostOps0_50_fresh (WA50 m ρ)),
    .host (hseg hostOps0_51 hostOps0_51_sub hostOps0_51_fresh (WA51 m ρ)),
    .host (hseg hostOps0_52 hostOps0_52_sub hostOps0_52_fresh (WA52 m ρ)),
    .host (hseg hostOps0_53 hostOps0_53_sub hostOps0_53_fresh (WA53 m ρ)),
    .host (hseg hostOps0_54 hostOps0_54_sub hostOps0_54_fresh (WA54 m ρ)),
    .host (hseg hostOps0_55 hostOps0_55_sub hostOps0_55_fresh (WA55 m ρ)),
    .host (hseg hostOps0_56 hostOps0_56_sub hostOps0_56_fresh (WA56 m ρ)),
    .host (hseg hostOps0_57 hostOps0_57_sub hostOps0_57_fresh (WA57 m ρ)),
    .host (hseg hostOps0_58 hostOps0_58_sub hostOps0_58_fresh (WA58 m ρ)),
    .host (hseg hostOps0_59 hostOps0_59_sub hostOps0_59_fresh (WA59 m ρ)),
    .host (hseg hostOps0_60 hostOps0_60_sub hostOps0_60_fresh (WA60 m ρ)),
    .host (hseg hostOps0_61 hostOps0_61_sub hostOps0_61_fresh (WA61 m ρ)),
    .host (hseg hostOps0_62 hostOps0_62_sub hostOps0_62_fresh (WA62 m ρ)),
    .host (hseg hostOps0_63 hostOps0_63_sub hostOps0_63_fresh (WA63 m ρ)),
    .host (hseg hostOps0_64 hostOps0_64_sub hostOps0_64_fresh (WA64 m ρ)),
    .host (hseg hostOps0_65 hostOps0_65_sub hostOps0_65_fresh (WA65 m ρ)),
    .host (hseg hostOps0_66 hostOps0_66_sub hostOps0_66_fresh (WA66 m ρ)),
    .host (hseg hostOps0_67 hostOps0_67_sub hostOps0_67_fresh (WA67 m ρ)),
    .host (hseg hostOps0_68 hostOps0_68_sub hostOps0_68_fresh (WA68 m ρ)),
    .host (hseg hostOps0_69 hostOps0_69_sub hostOps0_69_fresh (WA69 m ρ)),
    .host (hseg hostOps0_70 hostOps0_70_sub hostOps0_70_fresh (WA70 m ρ)),
    .host (hseg hostOps0_71 hostOps0_71_sub hostOps0_71_fresh (WA71 m ρ)),
    .host (hseg hostOps0_72 hostOps0_72_sub hostOps0_72_fresh (WA72 m ρ)),
    .region (reg0 m ρ),
    .host (hseg hostOps1 hostOps1_sub hostOps1_fresh (WB0 (X0 m ρ))),
    .host (hseg hostOps1_1 hostOps1_1_sub hostOps1_1_fresh (WB1 (X0 m ρ))),
    .host (hseg hostOps1_2 hostOps1_2_sub hostOps1_2_fresh (WB2 (X0 m ρ))),
    .host (hseg hostOps1_3 hostOps1_3_sub hostOps1_3_fresh (WB3 (X0 m ρ))),
    .host (hseg hostOps1_4 hostOps1_4_sub hostOps1_4_fresh (WB4 (X0 m ρ))),
    .region (reg1 m ρ),
    .host (hseg hostOps2 hostOps2_sub hostOps2_fresh (WC0 (X1 m ρ))),
    .region (reg2 m ρ) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state has each unscoped buffer at call 2's exit contents `X2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WA0 m ρ c)
        from Pipeline.unscopedBufs_held c (WA0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X2 m ρ c b)
    (hfin := fun c s' => by
      iintro ⟨⟨Hh, -⟩, HSI⟩
      unfold StableHlo.held
      imodintro
      iapply (pointsTo_read_all (Pipeline.ucRefs τ sig) (fun b => (((c : Thread nD τ)).1, b)) (X2 m ρ c) s')
      isplitl [Hh] <;> iassumption)
    (hQ := fun s h c => h c)

end Cert.KernelIdeal.Fr

end
-- ==== Proof.KI.Args.lean ====
/-
  @main's ten arguments end as launched. The contents call 2 leaves, read at an argument's buffer, walk back to the launch
  memory: a pallas_call that does not have the argument as a window leaves its buffer as entered, one that has it as an
  INPUT window leaves the array as entered (only an output's write-backs change an array), and no host stretch writes an
  argument (the boundary lemmas of the three runs of stretches).
-/
import proofs.«151568_j90031104458821_2_alg».proof.Proof.KI.ArgsHost
import proofs.«151568_j90031104458821_2_alg».proof.Proof.KI.Run

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Argument 0 ends as launched. No pallas_call has it as a window. -/
theorem X2_main_arg0 (c : Dev nD) : X2 m ρ c (Proc.devRef .tc main_arg0) = m ((c : Thread nD τ).loc main_arg0) :=
  calc X2 m ρ c (Proc.devRef .tc main_arg0)
    _ = WC1 (X1 m ρ) c (Proc.devRef .tc main_arg0) := X2_of_ne m ρ c main_arg0 (by decide)
    _ = X1 m ρ c (Proc.devRef .tc main_arg0) := WC1_arg (X1 m ρ) c (by decide)
    _ = WB5 (X0 m ρ) c (Proc.devRef .tc main_arg0) := X1_of_ne m ρ c main_arg0 (by decide)
    _ = X0 m ρ c (Proc.devRef .tc main_arg0) := WB5_arg (X0 m ρ) c (by decide)
    _ = WA73 m ρ c (Proc.devRef .tc main_arg0) := X0_of_ne m ρ c main_arg0 (by decide)
    _ = WA0 m ρ c (Proc.devRef .tc main_arg0) := WA73_arg m ρ c (by decide)
    _ = m ((c : Thread nD τ).loc main_arg0) := rfl

/-- Argument 1 ends as launched. No pallas_call has it as a window. -/
theorem X2_main_arg1 (c : Dev nD) : X2 m ρ c (Proc.devRef .tc main_arg1) = m ((c : Thread nD τ).loc main_arg1) :=
  calc X2 m ρ c (Proc.devRef .tc main_arg1)
    _ = WC1 (X1 m ρ) c (Proc.devRef .tc main_arg1) := X2_of_ne m ρ c main_arg1 (by decide)
    _ = X1 m ρ c (Proc.devRef .tc main_arg1) := WC1_arg (X1 m ρ) c (by decide)
    _ = WB5 (X0 m ρ) c (Proc.devRef .tc main_arg1) := X1_of_ne m ρ c main_arg1 (by decide)
    _ = X0 m ρ c (Proc.devRef .tc main_arg1) := WB5_arg (X0 m ρ) c (by decide)
    _ = WA73 m ρ c (Proc.devRef .tc main_arg1) := X0_of_ne m ρ c main_arg1 (by decide)
    _ = WA0 m ρ c (Proc.devRef .tc main_arg1) := WA73_arg m ρ c (by decide)
    _ = m ((c : Thread nD τ).loc main_arg1) := rfl

/-- Argument 2 ends as launched. No pallas_call has it as a window. -/
theorem X2_main_arg2 (c : Dev nD) : X2 m ρ c (Proc.devRef .tc main_arg2) = m ((c : Thread nD τ).loc main_arg2) :=
  calc X2 m ρ c (Proc.devRef .tc main_arg2)
    _ = WC1 (X1 m ρ) c (Proc.devRef .tc main_arg2) := X2_of_ne m ρ c main_arg2 (by decide)
    _ = X1 m ρ c (Proc.devRef .tc main_arg2) := WC1_arg (X1 m ρ) c (by decide)
    _ = WB5 (X0 m ρ) c (Proc.devRef .tc main_arg2) := X1_of_ne m ρ c main_arg2 (by decide)
    _ = X0 m ρ c (Proc.devRef .tc main_arg2) := WB5_arg (X0 m ρ) c (by decide)
    _ = WA73 m ρ c (Proc.devRef .tc main_arg2) := X0_of_ne m ρ c main_arg2 (by decide)
    _ = WA0 m ρ c (Proc.devRef .tc main_arg2) := WA73_arg m ρ c (by decide)
    _ = m ((c : Thread nD τ).loc main_arg2) := rfl

/-- Argument 3 ends as launched. An input window (window 2) of call 0, which leaves an input's array as entered; the other two calls do not have it as a window. -/
theorem X2_main_arg3 (c : Dev nD) : X2 m ρ c (Proc.devRef .tc main_arg3) = m ((c : Thread nD τ).loc main_arg3) :=
  calc X2 m ρ c (Proc.devRef .tc main_arg3)
    _ = WC1 (X1 m ρ) c (Proc.devRef .tc main_arg3) := X2_of_ne m ρ c main_arg3 (by decide)
    _ = X1 m ρ c (Proc.devRef .tc main_arg3) := WC1_arg (X1 m ρ) c (by decide)
    _ = WB5 (X0 m ρ) c (Proc.devRef .tc main_arg3) := X1_of_ne m ρ c main_arg3 (by decide)
    _ = X0 m ρ c (Proc.devRef .tc main_arg3) := WB5_arg (X0 m ρ) c (by decide)
    _ = WA73 m ρ c (Proc.devRef .tc main_arg3) := (X0_arr m ρ c 2).trans (((dat0 (V0e m ρ) c).arrAt_in 2 rfl _).trans (A_eq0 (V0e m ρ) c 2))
    _ = WA0 m ρ c (Proc.devRef .tc main_arg3) := WA73_arg m ρ c (by decide)
    _ = m ((c : Thread nD τ).loc main_arg3) := rfl

/-- Argument 4 ends as launched. No pallas_call has it as a window. -/
theorem X2_main_arg4 (c : Dev nD) : X2 m ρ c (Proc.devRef .tc main_arg4) = m ((c : Thread nD τ).loc main_arg4) :=
  calc X2 m ρ c (Proc.devRef .tc main_arg4)
    _ = WC1 (X1 m ρ) c (Proc.devRef .tc main_arg4) := X2_of_ne m ρ c main_arg4 (by decide)
    _ = X1 m ρ c (Proc.devRef .tc main_arg4) := WC1_arg (X1 m ρ) c (by decide)
    _ = WB5 (X0 m ρ) c (Proc.devRef .tc main_arg4) := X1_of_ne m ρ c main_arg4 (by decide)
    _ = X0 m ρ c (Proc.devRef .tc main_arg4) := WB5_arg (X0 m ρ) c (by decide)
    _ = WA73 m ρ c (Proc.devRef .tc main_arg4) := X0_of_ne m ρ c main_arg4 (by decide)
    _ = WA0 m ρ c (Proc.devRef .tc main_arg4) := WA73_arg m ρ c (by decide)
    _ = m ((c : Thread nD τ).loc main_arg4) := rfl

/-- Argument 5 ends as launched. An input window (window 2) of call 1, which leaves an input's array as entered; the other two calls do not have it as a window. -/
theorem X2_main_arg5 (c : Dev nD) : X2 m ρ c (Proc.devRef .tc main_arg5) = m ((c : Thread nD τ).loc main_arg5) :=
  calc X2 m ρ c (Proc.devRef .tc main_arg5)
    _ = WC1 (X1 m ρ) c (Proc.devRef .tc main_arg5) := X2_of_ne m ρ c main_arg5 (by decide)
    _ = X1 m ρ c (Proc.devRef .tc main_arg5) := WC1_arg (X1 m ρ) c (by decide)
    _ = WB5 (X0 m ρ) c (Proc.devRef .tc main_arg5) := (X1_arr m ρ c 2).trans (((dat1 (V1e m ρ) c).arrAt_in 2 rfl _).trans (A_eq1 (V1e m ρ) c 2))
    _ = X0 m ρ c (Proc.devRef .tc main_arg5) := WB5_arg (X0 m ρ) c (by decide)
    _ = WA73 m ρ c (Proc.devRef .tc main_arg5) := X0_of_ne m ρ c main_arg5 (by decide)
    _ = WA0 m ρ c (Proc.devRef .tc main_arg5) := WA73_arg m ρ c (by decide)
    _ = m ((c : Thread nD τ).loc main_arg5) := rfl

/-- Argument 6 ends as launched. No pallas_call has it as a window. -/
theorem X2_main_arg6 (c : Dev nD) : X2 m ρ c (Proc.devRef .tc main_arg6) = m ((c : Thread nD τ).loc main_arg6) :=
  calc X2 m ρ c (Proc.devRef .tc main_arg6)
    _ = WC1 (X1 m ρ) c (Proc.devRef .tc main_arg6) := X2_of_ne m ρ c main_arg6 (by decide)
    _ = X1 m ρ c (Proc.devRef .tc main_arg6) := WC1_arg (X1 m ρ) c (by decide)
    _ = WB5 (X0 m ρ) c (Proc.devRef .tc main_arg6) := X1_of_ne m ρ c main_arg6 (by decide)
    _ = X0 m ρ c (Proc.devRef .tc main_arg6) := WB5_arg (X0 m ρ) c (by decide)
    _ = WA73 m ρ c (Proc.devRef .tc main_arg6) := X0_of_ne m ρ c main_arg6 (by decide)
    _ = WA0 m ρ c (Proc.devRef .tc main_arg6) := WA73_arg m ρ c (by decide)
    _ = m ((c : Thread nD τ).loc main_arg6) := rfl

/-- Argument 7 ends as launched. An input window (window 1) of call 2, which leaves an input's array as entered; the other two calls do not have it as a window. -/
theorem X2_main_arg7 (c : Dev nD) : X2 m ρ c (Proc.devRef .tc main_arg7) = m ((c : Thread nD τ).loc main_arg7) :=
  calc X2 m ρ c (Proc.devRef .tc main_arg7)
    _ = WC1 (X1 m ρ) c (Proc.devRef .tc main_arg7) := (X2_arr m ρ c 1).trans (((dat2 (V2e m ρ) c).arrAt_in 1 rfl _).trans (A_eq2 (V2e m ρ) c 1))
    _ = X1 m ρ c (Proc.devRef .tc main_arg7) := WC1_arg (X1 m ρ) c (by decide)
    _ = WB5 (X0 m ρ) c (Proc.devRef .tc main_arg7) := X1_of_ne m ρ c main_arg7 (by decide)
    _ = X0 m ρ c (Proc.devRef .tc main_arg7) := WB5_arg (X0 m ρ) c (by decide)
    _ = WA73 m ρ c (Proc.devRef .tc main_arg7) := X0_of_ne m ρ c main_arg7 (by decide)
    _ = WA0 m ρ c (Proc.devRef .tc main_arg7) := WA73_arg m ρ c (by decide)
    _ = m ((c : Thread nD τ).loc main_arg7) := rfl

/-- Argument 8 ends as launched. No pallas_call has it as a window. -/
theorem X2_main_arg8 (c : Dev nD) : X2 m ρ c (Proc.devRef .tc main_arg8) = m ((c : Thread nD τ).loc main_arg8) :=
  calc X2 m ρ c (Proc.devRef .tc main_arg8)
    _ = WC1 (X1 m ρ) c (Proc.devRef .tc main_arg8) := X2_of_ne m ρ c main_arg8 (by decide)
    _ = X1 m ρ c (Proc.devRef .tc main_arg8) := WC1_arg (X1 m ρ) c (by decide)
    _ = WB5 (X0 m ρ) c (Proc.devRef .tc main_arg8) := X1_of_ne m ρ c main_arg8 (by decide)
    _ = X0 m ρ c (Proc.devRef .tc main_arg8) := WB5_arg (X0 m ρ) c (by decide)
    _ = WA73 m ρ c (Proc.devRef .tc main_arg8) := X0_of_ne m ρ c main_arg8 (by decide)
    _ = WA0 m ρ c (Proc.devRef .tc main_arg8) := WA73_arg m ρ c (by decide)
    _ = m ((c : Thread nD τ).loc main_arg8) := rfl

/-- Argument 9 ends as launched. No pallas_call has it as a window. -/
theorem X2_main_arg9 (c : Dev nD) : X2 m ρ c (Proc.devRef .tc main_arg9) = m ((c : Thread nD τ).loc main_arg9) :=
  calc X2 m ρ c (Proc.devRef .tc main_arg9)
    _ = WC1 (X1 m ρ) c (Proc.devRef .tc main_arg9) := X2_of_ne m ρ c main_arg9 (by decide)
    _ = X1 m ρ c (Proc.devRef .tc main_arg9) := WC1_arg (X1 m ρ) c (by decide)
    _ = WB5 (X0 m ρ) c (Proc.devRef .tc main_arg9) := X1_of_ne m ρ c main_arg9 (by decide)
    _ = X0 m ρ c (Proc.devRef .tc main_arg9) := WB5_arg (X0 m ρ) c (by decide)
    _ = WA73 m ρ c (Proc.devRef .tc main_arg9) := X0_of_ne m ρ c main_arg9 (by decide)
    _ = WA0 m ρ c (Proc.devRef .tc main_arg9) := WA73_arg m ρ c (by decide)
    _ = m ((c : Thread nD τ).loc main_arg9) := rfl

end Cert.KernelIdeal.Fr

end
-- ==== Proof.KI.Frame.lean ====
/-
  The frame claim of the program: from any memory with zero counters every weakly fair execution of @main on the
  TensorCores terminates, nothing faulting, and every final state has the ten argument arrays as launched. The run gives
  every unscoped buffer at the contents call 2 leaves; an argument's buffer is unscoped, and those contents at an
  argument are the launch memory's.
-/
import proofs.«151568_j90031104458821_2_alg».proof.Proof.KI.Args

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (X2_main_arg0 m ρ c),
     (h c _ (mem_uc main_arg1 (by decide))).trans (X2_main_arg1 m ρ c),
     (h c _ (mem_uc main_arg2 (by decide))).trans (X2_main_arg2 m ρ c),
     (h c _ (mem_uc main_arg3 (by decide))).trans (X2_main_arg3 m ρ c),
     (h c _ (mem_uc main_arg4 (by decide))).trans (X2_main_arg4 m ρ c),
     (h c _ (mem_uc main_arg5 (by decide))).trans (X2_main_arg5 m ρ c),
     (h c _ (mem_uc main_arg6 (by decide))).trans (X2_main_arg6 m ρ c),
     (h c _ (mem_uc main_arg7 (by decide))).trans (X2_main_arg7 m ρ c),
     (h c _ (mem_uc main_arg8 (by decide))).trans (X2_main_arg8 m ρ c),
     (h c _ (mem_uc main_arg9 (by decide))).trans (X2_main_arg9 m ρ c)⟩)
    (run_all m ρ)

end Cert.KernelIdeal.Fr

end
-- ==== Proof.Frames.lean ====
/-
  The two frame conjuncts of the claim: the kernel as printed, at the bit-exact instance, and the idealized kernel, at the
  ideal instance. Each says that from any memory with zero counters every weakly fair execution of @main on the
  TensorCores terminates, nothing faulting, with the ten argument arrays as launched. Both are the frame theorem of the
  program's own text, which holds at any float instance; the precondition on the inputs is not used.
-/
import proofs.«151568_j90031104458821_2_alg».proof.Defs
import proofs.«151568_j90031104458821_2_alg».proof.Proof.Gen.Kernel
import proofs.«151568_j90031104458821_2_alg».proof.Proof.Gen.KernelIdeal
import proofs.«151568_j90031104458821_2_alg».proof.Proof.Gen.Pre_finite_inputs
import proofs.«151568_j90031104458821_2_alg».proof.Proof.K.Frame
import proofs.«151568_j90031104458821_2_alg».proof.Proof.KI.Frame

noncomputable section

namespace Cert.Proof.Frames

open Idealize.ShloMosaic Idealize.SL.Sem

/-- The kernel as printed runs and leaves its arguments as launched. -/
theorem frame_k : Cert.frame_Kernel (hKernel := Cert.Kernel.Gen.facts) (hPre_finite_inputs := Cert.Pre_finite_inputs.Gen.facts) :=
  fun m ρ _ => Cert.Kernel.Fr.frame m ρ

/-- The idealized kernel runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

end Cert.Proof.Frames

end
-- ==== Proof.Ref.Live.lean ====
/- What is known of the TensorCore's buffers at each boundary between two windows of the reference program's @main:
   every argument holds its launch contents, and every buffer written before the boundary that an operation after it
   reads (and, at the end, the result) holds its stage function of the arguments. -/
import proofs.«151568_j90031104458821_2_alg».proof.Proof.RefReadP

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffers live at boundary 0 (before window 0), each at its stage function of the arguments. -/
structure Live0 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9

/-- The buffers live at boundary 1 (before window 1), each at its stage function of the arguments. -/
structure Live1 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v0 : W (Proc.devRef .tc main_v0) = val_main_v0 (F := F)
  h_main_v1 : W (Proc.devRef .tc main_v1) = val_main_v1 (F := F)
  h_main_v2 : W (Proc.devRef .tc main_v2) = val_main_v2 (F := F)
  h_main_v6 : W (Proc.devRef .tc main_v6) = val_main_v6 (F := F) x9
  h_main_v29 : W (Proc.devRef .tc main_v29) = val_main_v29 (F := F) x9
  h_main_v35 : W (Proc.devRef .tc main_v35) = val_main_v35 (F := F) x0 x3 x9
  h_main_v41 : W (Proc.devRef .tc main_v41) = val_main_v41 (F := F) x9

/-- The buffers live at boundary 2 (before window 2), each at its stage function of the arguments. -/
structure Live2 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v0 : W (Proc.devRef .tc main_v0) = val_main_v0 (F := F)
  h_main_v1 : W (Proc.devRef .tc main_v1) = val_main_v1 (F := F)
  h_main_v54 : W (Proc.devRef .tc main_v54) = val_main_v54 (F := F) x0 x3 x4 x9
  h_main_v56 : W (Proc.devRef .tc main_v56) = val_main_v56 (F := F) x9
  h_main_v58 : W (Proc.devRef .tc main_v58) = val_main_v58 (F := F) x9
  h_main_v81 : W (Proc.devRef .tc main_v81) = val_main_v81 (F := F) x9
  h_main_v87 : W (Proc.devRef .tc main_v87) = val_main_v87 (F := F) x1 x3 x9

/-- The buffers live at boundary 3 (before window 3), each at its stage function of the arguments. -/
structure Live3 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v0 : W (Proc.devRef .tc main_v0) = val_main_v0 (F := F)
  h_main_v1 : W (Proc.devRef .tc main_v1) = val_main_v1 (F := F)
  h_main_v106 : W (Proc.devRef .tc main_v106) = val_main_v106 (F := F) x0 x1 x3 x4 x9
  h_main_v108 : W (Proc.devRef .tc main_v108) = val_main_v108 (F := F) x9
  h_main_v110 : W (Proc.devRef .tc main_v110) = val_main_v110 (F := F) x9
  h_main_v125 : W (Proc.devRef .tc main_v125) = val_main_v125 (F := F) x9
  h_main_v130 : W (Proc.devRef .tc main_v130) = val_main_v130 (F := F) x9
  h_main_v132 : W (Proc.devRef .tc main_v132) = val_main_v132 (F := F) x9

/-- The buffers live at boundary 4 (before window 4), each at its stage function of the arguments. -/
structure Live4 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v1 : W (Proc.devRef .tc main_v1) = val_main_v1 (F := F)
  h_main_v106 : W (Proc.devRef .tc main_v106) = val_main_v106 (F := F) x0 x1 x3 x4 x9
  h_main_v158 : W (Proc.devRef .tc main_v158) = val_main_v158 (F := F) x1 x3 x4 x9
  h_main_v160 : W (Proc.devRef .tc main_v160) = val_main_v160 (F := F) x9
  h_main_v162 : W (Proc.devRef .tc main_v162) = val_main_v162 (F := F) x9
  h_main_v169 : W (Proc.devRef .tc main_v169) = val_main_v169 (F := F) x9
  h_main_v177 : W (Proc.devRef .tc main_v177) = val_main_v177 (F := F) x9
  h_main_v179 : W (Proc.devRef .tc main_v179) = val_main_v179 (F := F) x9

/-- The buffers live at boundary 5 (before window 5), each at its stage function of the arguments. -/
structure Live5 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v1 : W (Proc.devRef .tc main_v1) = val_main_v1 (F := F)
  h_main_v106 : W (Proc.devRef .tc main_v106) = val_main_v106 (F := F) x0 x1 x3 x4 x9
  h_main_v210 : W (Proc.devRef .tc main_v210) = val_main_v210 (F := F) x0 x1 x3 x4 x9
  h_main_v212 : W (Proc.devRef .tc main_v212) = val_main_v212 (F := F) x9
  h_main_v214 : W (Proc.devRef .tc main_v214) = val_main_v214 (F := F) x9
  h_main_v218 : W (Proc.devRef .tc main_v218) = val_main_v218 (F := F) x9
  h_main_v221 : W (Proc.devRef .tc main_v221) = val_main_v221 (F := F) x9
  h_main_v226 : W (Proc.devRef .tc main_v226) = val_main_v226 (F := F) x9

/-- The buffers live at boundary 6 (before window 6), each at its stage function of the arguments. -/
structure Live6 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v106 : W (Proc.devRef .tc main_v106) = val_main_v106 (F := F) x0 x1 x3 x4 x9
  h_main_v210 : W (Proc.devRef .tc main_v210) = val_main_v210 (F := F) x0 x1 x3 x4 x9
  h_main_v262 : W (Proc.devRef .tc main_v262) = val_main_v262 (F := F) x2 x3 x4 x9
  h_main_v264 : W (Proc.devRef .tc main_v264) = val_main_v264 (F := F) x9
  h_main_v266 : W (Proc.devRef .tc main_v266) = val_main_v266 (F := F) x9
  h_main_v270 : W (Proc.devRef .tc main_v270) = val_main_v270 (F := F) x9
  h_main_v273 : W (Proc.devRef .tc main_v273) = val_main_v273 (F := F) x9

/-- The buffers live at boundary 7 (before window 7), each at its stage function of the arguments. -/
structure Live7 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v106 : W (Proc.devRef .tc main_v106) = val_main_v106 (F := F) x0 x1 x3 x4 x9
  h_main_v262 : W (Proc.devRef .tc main_v262) = val_main_v262 (F := F) x2 x3 x4 x9
  h_main_v314 : W (Proc.devRef .tc main_v314) = val_main_v314 (F := F) x0 x1 x2 x3 x4 x9
  h_main_v316 : W (Proc.devRef .tc main_v316) = val_main_v316 (F := F) x9
  h_main_v318 : W (Proc.devRef .tc main_v318) = val_main_v318 (F := F) x9
  h_main_v319 : W (Proc.devRef .tc main_v319) = val_main_v319 (F := F)

/-- The buffers live at boundary 8 (before window 8), each at its stage function of the arguments. -/
structure Live8 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v106 : W (Proc.devRef .tc main_v106) = val_main_v106 (F := F) x0 x1 x3 x4 x9
  h_main_v262 : W (Proc.devRef .tc main_v262) = val_main_v262 (F := F) x2 x3 x4 x9
  h_main_v361 : W (Proc.devRef .tc main_v361) = val_main_v361 (F := F) x0 x1 x2 x3 x4 x9
  h_main_v364 : W (Proc.devRef .tc main_v364) = val_main_v364 (F := F) x4

/-- The buffers live at boundary 9 (before window 9), each at its stage function of the arguments. -/
structure Live9 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v106 : W (Proc.devRef .tc main_v106) = val_main_v106 (F := F) x0 x1 x3 x4 x9
  h_main_v262 : W (Proc.devRef .tc main_v262) = val_main_v262 (F := F) x2 x3 x4 x9
  h_main_v366 : W (Proc.devRef .tc main_v366) = val_main_v366 (F := F) x0 x1 x2 x3 x4 x9
  h_main_v393 : W (Proc.devRef .tc main_v393) = val_main_v393 (F := F) x9
  h_main_v406 : W (Proc.devRef .tc main_v406) = val_main_v406 (F := F) x2 x3 x9
  h_main_v407 : W (Proc.devRef .tc main_v407) = val_main_v407 (F := F)
  h_main_v408 : W (Proc.devRef .tc main_v408) = val_main_v408 (F := F) x9

/-- The buffers live at boundary 10 (before window 10), each at its stage function of the arguments. -/
structure Live10 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v262 : W (Proc.devRef .tc main_v262) = val_main_v262 (F := F) x2 x3 x4 x9
  h_main_v366 : W (Proc.devRef .tc main_v366) = val_main_v366 (F := F) x0 x1 x2 x3 x4 x9
  h_main_v418 : W (Proc.devRef .tc main_v418) = val_main_v418 (F := F) x0 x1 x2 x3 x4 x9
  h_main_v420 : W (Proc.devRef .tc main_v420) = val_main_v420 (F := F) x9
  h_main_v422 : W (Proc.devRef .tc main_v422) = val_main_v422 (F := F) x9
  h_main_v445 : W (Proc.devRef .tc main_v445) = val_main_v445 (F := F) x9
  h_main_v451 : W (Proc.devRef .tc main_v451) = val_main_v451 (F := F) x1 x3 x9
  h_main_v453 : W (Proc.devRef .tc main_v453) = val_main_v453 (F := F) x9
  h_main_c_143 : W (Proc.devRef .tc main_c_143) = val_main_c_143 (F := F)

/-- The buffers live at boundary 11 (before window 11), each at its stage function of the arguments. -/
structure Live11 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v471 : W (Proc.devRef .tc main_v471) = val_main_v471 (F := F) x0 x1 x2 x3 x4 x9
  h_main_v472 : W (Proc.devRef .tc main_v472) = val_main_v472 (F := F) x1 x2 x3 x4 x9
  h_main_v473 : W (Proc.devRef .tc main_v473) = val_main_v473 (F := F) x0 x1 x2 x3 x4 x9
  h_main_v474 : W (Proc.devRef .tc main_v474) = val_main_v474 (F := F)
  h_main_v475 : W (Proc.devRef .tc main_v475) = val_main_v475 (F := F)
  h_main_v476 : W (Proc.devRef .tc main_v476) = val_main_v476 (F := F)
  h_main_v478 : W (Proc.devRef .tc main_v478) = val_main_v478 (F := F) x9
  h_main_v480 : W (Proc.devRef .tc main_v480) = val_main_v480 (F := F) x9
  h_main_v487 : W (Proc.devRef .tc main_v487) = val_main_v487 (F := F) x9
  h_main_v495 : W (Proc.devRef .tc main_v495) = val_main_v495 (F := F) x9
  h_main_v498 : W (Proc.devRef .tc main_v498) = val_main_v498 (F := F) x9
  h_main_cst_158 : W (Proc.devRef .tc main_cst_158) = val_main_cst_158 (F := F)

/-- The buffers live at boundary 12 (before window 12), each at its stage function of the arguments. -/
structure Live12 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v471 : W (Proc.devRef .tc main_v471) = val_main_v471 (F := F) x0 x1 x2 x3 x4 x9
  h_main_v472 : W (Proc.devRef .tc main_v472) = val_main_v472 (F := F) x1 x2 x3 x4 x9
  h_main_v473 : W (Proc.devRef .tc main_v473) = val_main_v473 (F := F) x0 x1 x2 x3 x4 x9
  h_main_v474 : W (Proc.devRef .tc main_v474) = val_main_v474 (F := F)
  h_main_v475 : W (Proc.devRef .tc main_v475) = val_main_v475 (F := F)
  h_main_v528 : W (Proc.devRef .tc main_v528) = val_main_v528 (F := F) x0 x1 x2 x3 x4 x5 x6 x9
  h_main_v530 : W (Proc.devRef .tc main_v530) = val_main_v530 (F := F) x9
  h_main_v532 : W (Proc.devRef .tc main_v532) = val_main_v532 (F := F) x9
  h_main_v539 : W (Proc.devRef .tc main_v539) = val_main_v539 (F := F) x9
  h_main_v544 : W (Proc.devRef .tc main_v544) = val_main_v544 (F := F) x9
  h_main_v546 : W (Proc.devRef .tc main_v546) = val_main_v546 (F := F) x9

/-- The buffers live at boundary 13 (before window 13), each at its stage function of the arguments. -/
structure Live13 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v471 : W (Proc.devRef .tc main_v471) = val_main_v471 (F := F) x0 x1 x2 x3 x4 x9
  h_main_v472 : W (Proc.devRef .tc main_v472) = val_main_v472 (F := F) x1 x2 x3 x4 x9
  h_main_v473 : W (Proc.devRef .tc main_v473) = val_main_v473 (F := F) x0 x1 x2 x3 x4 x9
  h_main_v474 : W (Proc.devRef .tc main_v474) = val_main_v474 (F := F)
  h_main_v475 : W (Proc.devRef .tc main_v475) = val_main_v475 (F := F)
  h_main_v580 : W (Proc.devRef .tc main_v580) = val_main_v580 (F := F) x0 x1 x2 x3 x4 x5 x6 x9
  h_main_v582 : W (Proc.devRef .tc main_v582) = val_main_v582 (F := F) x9
  h_main_v584 : W (Proc.devRef .tc main_v584) = val_main_v584 (F := F) x9
  h_main_v588 : W (Proc.devRef .tc main_v588) = val_main_v588 (F := F) x9
  h_main_v591 : W (Proc.devRef .tc main_v591) = val_main_v591 (F := F) x9
  h_main_v593 : W (Proc.devRef .tc main_v593) = val_main_v593 (F := F) x9

/-- The buffers live at boundary 14 (before window 14), each at its stage function of the arguments. -/
structure Live14 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v471 : W (Proc.devRef .tc main_v471) = val_main_v471 (F := F) x0 x1 x2 x3 x4 x9
  h_main_v472 : W (Proc.devRef .tc main_v472) = val_main_v472 (F := F) x1 x2 x3 x4 x9
  h_main_v473 : W (Proc.devRef .tc main_v473) = val_main_v473 (F := F) x0 x1 x2 x3 x4 x9
  h_main_v475 : W (Proc.devRef .tc main_v475) = val_main_v475 (F := F)
  h_main_v580 : W (Proc.devRef .tc main_v580) = val_main_v580 (F := F) x0 x1 x2 x3 x4 x5 x6 x9
  h_main_v632 : W (Proc.devRef .tc main_v632) = val_main_v632 (F := F) x1 x2 x3 x4 x5 x6 x9
  h_main_v634 : W (Proc.devRef .tc main_v634) = val_main_v634 (F := F) x9
  h_main_v636 : W (Proc.devRef .tc main_v636) = val_main_v636 (F := F) x9
  h_main_v637 : W (Proc.devRef .tc main_v637) = val_main_v637 (F := F)
  h_main_v638 : W (Proc.devRef .tc main_v638) = val_main_v638 (F := F)
  h_main_v639 : W (Proc.devRef .tc main_v639) = val_main_v639 (F := F) x9

/-- The buffers live at boundary 15 (before window 15), each at its stage function of the arguments. -/
structure Live15 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v471 : W (Proc.devRef .tc main_v471) = val_main_v471 (F := F) x0 x1 x2 x3 x4 x9
  h_main_v472 : W (Proc.devRef .tc main_v472) = val_main_v472 (F := F) x1 x2 x3 x4 x9
  h_main_v473 : W (Proc.devRef .tc main_v473) = val_main_v473 (F := F) x0 x1 x2 x3 x4 x9
  h_main_v475 : W (Proc.devRef .tc main_v475) = val_main_v475 (F := F)
  h_main_v580 : W (Proc.devRef .tc main_v580) = val_main_v580 (F := F) x0 x1 x2 x3 x4 x5 x6 x9
  h_main_v684 : W (Proc.devRef .tc main_v684) = val_main_v684 (F := F) x0 x1 x2 x3 x4 x5 x6 x9
  h_main_v685 : W (Proc.devRef .tc main_v685) = val_main_v685 (F := F) x9

/-- The buffers live at boundary 16 (before window 16), each at its stage function of the arguments. -/
structure Live16 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v471 : W (Proc.devRef .tc main_v471) = val_main_v471 (F := F) x0 x1 x2 x3 x4 x9
  h_main_v472 : W (Proc.devRef .tc main_v472) = val_main_v472 (F := F) x1 x2 x3 x4 x9
  h_main_v473 : W (Proc.devRef .tc main_v473) = val_main_v473 (F := F) x0 x1 x2 x3 x4 x9
  h_main_v475 : W (Proc.devRef .tc main_v475) = val_main_v475 (F := F)
  h_main_v580 : W (Proc.devRef .tc main_v580) = val_main_v580 (F := F) x0 x1 x2 x3 x4 x5 x6 x9
  h_main_v684 : W (Proc.devRef .tc main_v684) = val_main_v684 (F := F) x0 x1 x2 x3 x4 x5 x6 x9
  h_main_v727 : W (Proc.devRef .tc main_v727) = val_main_v727 (F := F) x0 x1 x2 x3 x4 x5 x9
  h_main_v729 : W (Proc.devRef .tc main_v729) = val_main_v729 (F := F) x9

/-- The buffers live at boundary 17 (before window 17), each at its stage function of the arguments. -/
structure Live17 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v471 : W (Proc.devRef .tc main_v471) = val_main_v471 (F := F) x0 x1 x2 x3 x4 x9
  h_main_v472 : W (Proc.devRef .tc main_v472) = val_main_v472 (F := F) x1 x2 x3 x4 x9
  h_main_v473 : W (Proc.devRef .tc main_v473) = val_main_v473 (F := F) x0 x1 x2 x3 x4 x9
  h_main_v580 : W (Proc.devRef .tc main_v580) = val_main_v580 (F := F) x0 x1 x2 x3 x4 x5 x6 x9
  h_main_v684 : W (Proc.devRef .tc main_v684) = val_main_v684 (F := F) x0 x1 x2 x3 x4 x5 x6 x9
  h_main_v736 : W (Proc.devRef .tc main_v736) = val_main_v736 (F := F) x0 x1 x2 x3 x4 x5 x6 x9
  h_main_v740 : W (Proc.devRef .tc main_v740) = val_main_v740 (F := F) x9
  h_main_v763 : W (Proc.devRef .tc main_v763) = val_main_v763 (F := F) x9
  h_main_v769 : W (Proc.devRef .tc main_v769) = val_main_v769 (F := F) x0 x1 x2 x3 x4 x5 x9
  h_main_v774 : W (Proc.devRef .tc main_v774) = val_main_v774 (F := F) x9

/-- The buffers live at boundary 18 (before window 18), each at its stage function of the arguments. -/
structure Live18 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v472 : W (Proc.devRef .tc main_v472) = val_main_v472 (F := F) x1 x2 x3 x4 x9
  h_main_v473 : W (Proc.devRef .tc main_v473) = val_main_v473 (F := F) x0 x1 x2 x3 x4 x9
  h_main_v580 : W (Proc.devRef .tc main_v580) = val_main_v580 (F := F) x0 x1 x2 x3 x4 x5 x6 x9
  h_main_v736 : W (Proc.devRef .tc main_v736) = val_main_v736 (F := F) x0 x1 x2 x3 x4 x5 x6 x9
  h_main_v788 : W (Proc.devRef .tc main_v788) = val_main_v788 (F := F) x0 x1 x2 x3 x4 x5 x6 x9
  h_main_v790 : W (Proc.devRef .tc main_v790) = val_main_v790 (F := F) x9
  h_main_v792 : W (Proc.devRef .tc main_v792) = val_main_v792 (F := F) x9
  h_main_v815 : W (Proc.devRef .tc main_v815) = val_main_v815 (F := F) x9
  h_main_v818 : W (Proc.devRef .tc main_v818) = val_main_v818 (F := F) x0 x1 x2 x3 x4 x9
  h_main_v820 : W (Proc.devRef .tc main_v820) = val_main_v820 (F := F) x5

/-- The buffers live at boundary 19 (before window 19), each at its stage function of the arguments. -/
structure Live19 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v472 : W (Proc.devRef .tc main_v472) = val_main_v472 (F := F) x1 x2 x3 x4 x9
  h_main_v473 : W (Proc.devRef .tc main_v473) = val_main_v473 (F := F) x0 x1 x2 x3 x4 x9
  h_main_v580 : W (Proc.devRef .tc main_v580) = val_main_v580 (F := F) x0 x1 x2 x3 x4 x5 x6 x9
  h_main_v736 : W (Proc.devRef .tc main_v736) = val_main_v736 (F := F) x0 x1 x2 x3 x4 x5 x6 x9
  h_main_v840 : W (Proc.devRef .tc main_v840) = val_main_v840 (F := F) x0 x1 x2 x3 x4 x5 x6 x9
  h_main_v842 : W (Proc.devRef .tc main_v842) = val_main_v842 (F := F) x9
  h_main_v844 : W (Proc.devRef .tc main_v844) = val_main_v844 (F := F) x9
  h_main_v851 : W (Proc.devRef .tc main_v851) = val_main_v851 (F := F) x9
  h_main_v859 : W (Proc.devRef .tc main_v859) = val_main_v859 (F := F) x9
  h_main_v864 : W (Proc.devRef .tc main_v864) = val_main_v864 (F := F) x9
  h_main_v865 : W (Proc.devRef .tc main_v865) = val_main_v865 (F := F)

/-- The buffers live at boundary 20 (before window 20), each at its stage function of the arguments. -/
structure Live20 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v472 : W (Proc.devRef .tc main_v472) = val_main_v472 (F := F) x1 x2 x3 x4 x9
  h_main_v736 : W (Proc.devRef .tc main_v736) = val_main_v736 (F := F) x0 x1 x2 x3 x4 x5 x6 x9
  h_main_v840 : W (Proc.devRef .tc main_v840) = val_main_v840 (F := F) x0 x1 x2 x3 x4 x5 x6 x9
  h_main_v892 : W (Proc.devRef .tc main_v892) = val_main_v892 (F := F) x0 x1 x2 x3 x4 x5 x6 x9
  h_main_v894 : W (Proc.devRef .tc main_v894) = val_main_v894 (F := F) x9
  h_main_v896 : W (Proc.devRef .tc main_v896) = val_main_v896 (F := F) x9
  h_main_v903 : W (Proc.devRef .tc main_v903) = val_main_v903 (F := F) x9
  h_main_v911 : W (Proc.devRef .tc main_v911) = val_main_v911 (F := F) x9
  h_main_v912 : W (Proc.devRef .tc main_v912) = val_main_v912 (F := F)

/-- The arguments and the result after the last window, each at its stage function of the arguments. -/
structure Live21 (W : Valuation τ sig (Elt F)) (x0 : (⟨S50000x128, .f32⟩ : BufTy).Contents (Elt F)) (x1 : (⟨S50000x128, .f32⟩ : BufTy).Contents (Elt F)) (x2 : (⟨S50000x128, .f32⟩ : BufTy).Contents (Elt F)) (x3 : (⟨S9x128x128, .f32⟩ : BufTy).Contents (Elt F)) (x4 : (⟨S9x128, .f32⟩ : BufTy).Contents (Elt F)) (x5 : (⟨S9x128x128, .f32⟩ : BufTy).Contents (Elt F)) (x6 : (⟨S9x128, .f32⟩ : BufTy).Contents (Elt F)) (x7 : (⟨S128x16, .f32⟩ : BufTy).Contents (Elt F)) (x8 : (⟨S16, .f32⟩ : BufTy).Contents (Elt F)) (x9 : (⟨S9x2x400000, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_arg4 : W (Proc.devRef .tc main_arg4) = x4
  h_main_arg5 : W (Proc.devRef .tc main_arg5) = x5
  h_main_arg6 : W (Proc.devRef .tc main_arg6) = x6
  h_main_arg7 : W (Proc.devRef .tc main_arg7) = x7
  h_main_arg8 : W (Proc.devRef .tc main_arg8) = x8
  h_main_arg9 : W (Proc.devRef .tc main_arg9) = x9
  h_main_v963 : W (Proc.devRef .tc main_v963) = val_main_v963 (F := F) x0 x1 x2 x3 x4 x5 x6 x7 x8 x9

end Cert.ReferenceIdeal.RefRun

end
-- ==== Proof.Ref.Ops0.lean ====
/- Operations 1 … 68 of the 1414 operations of the reference program's @main: its printed window
   main_part0 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 68, in order. -/
abbrev ops_part0 : List (HloOp τ sig (Elt F)) :=
  [ nullary main_cst (constant S_ .f32 0x00000000#32),
    unary main_cst main_v0 (broadcastInDim S50000x128 ![] bcast_S_S50000x128 : (⟨S_, .f32⟩ : BufTy).Contents (Elt F) → (⟨S50000x128, .f32⟩ : BufTy).Contents (Elt F)),
    nullary main_cst_0 (constant S_ .f32 0x00000000#32),
    unary main_cst_0 main_v1 (broadcastInDim S50000x128 ![] bcast_S_S50000x128 : (⟨S_, .f32⟩ : BufTy).Contents (Elt F) → (⟨S50000x128, .f32⟩ : BufTy).Contents (Elt F)),
    nullary main_cst_1 (constant S_ .f32 0x00000000#32),
    unary main_cst_1 main_v2 (broadcastInDim S50000x128 ![] bcast_S_S50000x128 : (⟨S_, .f32⟩ : BufTy).Contents (Elt F) → (⟨S50000x128, .f32⟩ : BufTy).Contents (Elt F)),
    unary main_arg9 main_v3 ((extractStridedSlice S1x1x400000 ![0, 0, 0] · slices_S9x2x400000_S1x1x400000_0_0_0) : (⟨S9x2x400000, .i32⟩ : BufTy).Contents (Elt F) → (⟨S1x1x400000, .i32⟩ : BufTy).Contents (Elt F)),
    reshape main_v3 main_v4 rfl shapeCasts_S1x1x400000_S400000,
    unary main_arg9 main_v5 ((extractStridedSlice S1x1x400000 ![0, 1, 0] · slices_S9x2x400000_S1x1x400000_0_1_0) : (⟨S9x2x400000, .i32⟩ : BufTy).Contents (Elt F) → (⟨S1x1x400000, .i32⟩ : BufTy).Contents (Elt F)),
    reshape main_v5 main_v6 rfl shapeCasts_S1x1x400000_S400000,
    nullary main_cst_2 (constant S_ .f32 0x3F800000#32),
    unary main_cst_2 main_v7 (broadcastInDim S400000 ![] bcast_S_S400000 : (⟨S_, .f32⟩ : BufTy).Contents (Elt F) → (⟨S400000, .f32⟩ : BufTy).Contents (Elt F)),
    nullary main_cst_3 (constant S_ .f32 0x00000000#32),
    unary main_cst_3 main_v8 (broadcastInDim S50000 ![] bcast_S_S50000 : (⟨S_, .f32⟩ : BufTy).Contents (Elt F) → (⟨S50000, .f32⟩ : BufTy).Contents (Elt F)),
    unary main_v4 main_v9 (broadcastInDim S400000x1 ![0] bcast_S400000_S400000x1_0 : (⟨S400000, .i32⟩ : BufTy).Contents (Elt F) → (⟨S400000x1, .i32⟩ : BufTy).Contents (Elt F)),
    ternary main_v8 main_v9 main_v7 main_v10 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_4 (constant S_ .f32 0x00000000#32),
    unary main_cst_4 main_v11 (broadcastInDim S50000 ![] bcast_S_S50000 : (⟨S_, .f32⟩ : BufTy).Contents (Elt F) → (⟨S50000, .f32⟩ : BufTy).Contents (Elt F)),
    unary main_v6 main_v12 (broadcastInDim S400000x1 ![0] bcast_S400000_S400000x1_0 : (⟨S400000, .i32⟩ : BufTy).Contents (Elt F) → (⟨S400000x1, .i32⟩ : BufTy).Contents (Elt F)),
    ternary main_v11 main_v12 main_v7 main_v13 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_5 (constant S_ .f32 0x00000000#32),
    unary main_cst_5 main_v14 (broadcastInDim S50000 ![] bcast_S_S50000 : (⟨S_, .f32⟩ : BufTy).Contents (Elt F) → (⟨S50000, .f32⟩ : BufTy).Contents (Elt F)),
    binary main_v10 main_v14 main_v15 (cmpf (F := F) .ogt : (⟨S50000, .f32⟩ : BufTy).Contents (Elt F) → (⟨S50000, .f32⟩ : BufTy).Contents (Elt F) → (⟨S50000, .i1⟩ : BufTy).Contents (Elt F)),
    nullary main_cst_6 (constant S_ .f32 0x3F800000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v15) (TRef.of (T := ⟨S50000, .f32⟩) main_v10) (TRef.of (T := ⟨S50000, .f32⟩) main_call0_v1) (TRef.of (T := ⟨S50000, .f32⟩) main_v16) select,
    nullary main_cst_7 (constant S_ .f32 0xBF000000#32),
    unary main_cst_7 main_v17 (broadcastInDim S50000 ![] bcast_S_S50000 : (⟨S_, .f32⟩ : BufTy).Contents (Elt F) → (⟨S50000, .f32⟩ : BufTy).Contents (Elt F)),
    binary main_v16 main_v17 main_v18 (Host.powf : (⟨S50000, .f32⟩ : BufTy).Contents (Elt F) → (⟨S50000, .f32⟩ : BufTy).Contents (Elt F) → (⟨S50000, .f32⟩ : BufTy).Contents (Elt F)),
    nullary main_cst_8 (constant S_ .f32 0x00000000#32),
    unary main_cst_8 main_v19 (broadcastInDim S50000 ![] bcast_S_S50000 : (⟨S_, .f32⟩ : BufTy).Contents (Elt F) → (⟨S50000, .f32⟩ : BufTy).Contents (Elt F)),
    binary main_v10 main_v19 main_v20 (cmpf (F := F) .ogt : (⟨S50000, .f32⟩ : BufTy).Contents (Elt F) → (⟨S50000, .f32⟩ : BufTy).Contents (Elt F) → (⟨S50000, .i1⟩ : BufTy).Contents (Elt F)),
    nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v20) (TRef.of (T := ⟨S50000, .f32⟩) main_v18) (TRef.of (T := ⟨S50000, .f32⟩) main_call1_v1) (TRef.of (T := ⟨S50000, .f32⟩) main_v21) select,
    nullary main_cst_10 (constant S_ .f32 0x00000000#32),
    unary main_cst_10 main_v22 (broadcastInDim S50000 ![] bcast_S_S50000 : (⟨S_, .f32⟩ : BufTy).Contents (Elt F) → (⟨S50000, .f32⟩ : BufTy).Contents (Elt F)),
    binary main_v13 main_v22 main_v23 (cmpf (F := F) .ogt : (⟨S50000, .f32⟩ : BufTy).Contents (Elt F) → (⟨S50000, .f32⟩ : BufTy).Contents (Elt F) → (⟨S50000, .i1⟩ : BufTy).Contents (Elt F)),
    nullary main_cst_11 (constant S_ .f32 0x3F800000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v23) (TRef.of (T := ⟨S50000, .f32⟩) main_v13) (TRef.of (T := ⟨S50000, .f32⟩) main_call2_v1) (TRef.of (T := ⟨S50000, .f32⟩) main_v24) select,
    nullary main_cst_12 (constant S_ .f32 0xBF000000#32),
    unary main_cst_12 main_v25 (broadcastInDim S50000 ![] bcast_S_S50000 : (⟨S_, .f32⟩ : BufTy).Contents (Elt F) → (⟨S50000, .f32⟩ : BufTy).Contents (Elt F)),
    binary main_v24 main_v25 main_v26 (Host.powf : (⟨S50000, .f32⟩ : BufTy).Contents (Elt F) → (⟨S50000, .f32⟩ : BufTy).Contents (Elt F) → (⟨S50000, .f32⟩ : BufTy).Contents (Elt F)),
    nullary main_cst_13 (constant S_ .f32 0x00000000#32),
    unary main_cst_13 main_v27 (broadcastInDim S50000 ![] bcast_S_S50000 : (⟨S_, .f32⟩ : BufTy).Contents (Elt F) → (⟨S50000, .f32⟩ : BufTy).Contents (Elt F)),
    binary main_v13 main_v27 main_v28 (cmpf (F := F) .ogt : (⟨S50000, .f32⟩ : BufTy).Contents (Elt F) → (⟨S50000, .f32⟩ : BufTy).Contents (Elt F) → (⟨S50000, .i1⟩ : BufTy).Contents (Elt F)),
    nullary main_cst_14 (constant S_ .f32 0x00000000#32),
    TRef.unary (TRef.of (T := ⟨S_, .f32⟩) main_cst_14) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v28) (TRef.of (T := ⟨S50000, .f32⟩) main_v26) (TRef.of (T := ⟨S50000, .f32⟩) main_call3_v1) (TRef.of (T := ⟨S50000, .f32⟩) main_v29) select,
    unary main_v21 main_v30 (broadcastInDim S50000x1 ![0] bcast_S50000_S50000x1_0 : (⟨S50000, .f32⟩ : BufTy).Contents (Elt F) → (⟨S50000x1, .f32⟩ : BufTy).Contents (Elt F)),
    unary main_v30 main_v31 (broadcastInDim S50000x128 ![0, 1] bcast_S50000x1_S50000x128_0_1 : (⟨S50000x1, .f32⟩ : BufTy).Contents (Elt F) → (⟨S50000x128, .f32⟩ : BufTy).Contents (Elt F)),
    binary main_arg0 main_v31 main_v32 (mulf : (⟨S50000x128, .f32⟩ : BufTy).Contents (Elt F) → (⟨S50000x128, .f32⟩ : BufTy).Contents (Elt F) → (⟨S50000x128, .f32⟩ : BufTy).Contents (Elt F)),
    unary main_arg3 main_v33 ((extractStridedSlice S1x128x128 ![0, 0, 0] · slices_S9x128x128_S1x128x128_0_0_0) : (⟨S9x128x128, .f32⟩ : BufTy).Contents (Elt F) → (⟨S1x128x128, .f32⟩ : BufTy).Contents (Elt F)),
    reshape main_v33 main_v34 rfl shapeCasts_S1x128x128_S128x128,
    binary main_v32 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v36 (broadcastInDim S400000 ![] bcast_S_S400000 : (⟨S_, .i32⟩ : BufTy).Contents (Elt F) → (⟨S400000, .i32⟩ : BufTy).Contents (Elt F)),
    binary main_v4 main_v36 main_v37 (cmpi .slt : (⟨S400000, .i32⟩ : BufTy).Contents (Elt F) → (⟨S400000, .i32⟩ : BufTy).Contents (Elt F) → (⟨S400000, .i1⟩ : BufTy).Contents (Elt F)),
    nullary main_c_15 (constantI S_ 32 50000#32),
    unary main_c_15 main_v38 (broadcastInDim S400000 ![] bcast_S_S400000 : (⟨S_, .i32⟩ : BufTy).Contents (Elt F) → (⟨S400000, .i32⟩ : BufTy).Contents (Elt F)),
    binary main_v4 main_v38 main_v39 (addi : (⟨S400000, .i32⟩ : BufTy).Contents (Elt F) → (⟨S400000, .i32⟩ : BufTy).Contents (Elt F) → (⟨S400000, .i32⟩ : BufTy).Contents (Elt F)),
    ternary main_v37 main_v39 main_v4 main_v40 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v40 main_v41 (broadcastInDim S400000x1 ![0] bcast_S400000_S400000x1_0 : (⟨S400000, .i32⟩ : BufTy).Contents (Elt F) → (⟨S400000x1, .i32⟩ : BufTy).Contents (Elt F)) ]

set_option maxRecDepth 8192 in
set_option maxHeartbeats 4000000 in
/-- The window is its operations run in order. -/
theorem main_part0_eq (c : Dev nD) : main_part0 (F := F) c = seq ops_part0 := rfl

set_option maxRecDepth 8192 in
/-- Every operation touches TensorCore buffers only. -/
theorem ops_part0_sub : (ops_part0 : List (HloOp τ sig (Elt F))).Forall fun op => op.bufs ⊆ tcRefs τ sig :=
  ⟨nullary_bufs_sub .., unary_bufs_sub .., nullary_bufs_sub .., unary_bufs_sub .., nullary_bufs_sub .., unary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 8192 in
/-- Every operation determines the contents of what it writes. -/
theorem ops_part0_fresh : ∀ op ∈ (ops_part0 : List (HloOp τ sig (Elt F))), op.fresh = ∅ :=
  List.forall_iff_forall_mem.mp (show (ops_part0 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part0_W : List (Ref sig .tc) := [main_cst, main_v0, main_cst_0, main_v1, main_cst_1, main_v2, main_v3, main_v4, main_v5, main_v6, main_cst_2, main_v7, main_cst_3, main_v8, main_v9, main_v10, main_cst_4, main_v11, main_v12, main_v13, main_cst_5, main_v14, main_v15, main_cst_6, main_call0_v0, main_call0_v1, main_v16, main_cst_7, main_v17, main_v18, main_cst_8, main_v19, main_v20, main_cst_9, main_call1_v0, main_call1_v1, main_v21, main_cst_10, main_v22, main_v23, main_cst_11, main_call2_v0, main_call2_v1, main_v24, main_cst_12, main_v25, main_v26, main_cst_13, main_v27, main_v28, main_cst_14, main_call3_v0, main_call3_v1, main_v29, main_v30, main_v31, main_v32, main_v33, main_v34, main_v35, main_c, main_v36, main_v37, main_c_15, main_v38, main_v39, main_v40, main_v41]

set_option maxRecDepth 8192 in
/-- Each operation writes one of them. -/
theorem ops_part0_writes : (ops_part0 : List (HloOp τ sig (Elt F))).Forall fun op =>
    op.writes ⊆ (ops_part0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val0.lean ====
/- The step across window 0 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops0

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step0 {W : Valuation τ sig (Elt F)} {x0 x1 x2 x3 x4 x5 x6 x7 x8 x9 : _}
    (h : Live0 W x0 x1 x2 x3 x4 x5 x6 x7 x8 x9) : Live1 (after ops_part0 W) x0 x1 x2 x3 x4 x5 x6 x7 x8 x9 where
  h_main_arg0 := (after_of_writes_sub ops_part0 W ops_part0_writes (by decide)).trans h.h_main_arg0
  h_main_arg1 := (after_of_writes_sub ops_part0 W ops_part0_writes (by decide)).trans h.h_main_arg1
  h_main_arg2 := (after_of_writes_sub ops_part0 W ops_part0_writes (by decide)).trans h.h_main_arg2
  h_main_arg3 := (after_of_writes_sub ops_part0 W ops_part0_writes (by decide)).trans h.h_main_arg3
  h_main_arg4 := (after_of_writes_sub ops_part0 W ops_part0_writes (by decide)).trans h.h_main_arg4
  h_main_arg5 := (after_of_writes_sub ops_part0 W ops_part0_writes (by decide)).trans h.h_main_arg5
  h_main_arg6 := (after_of_writes_sub ops_part0 W ops_part0_writes (by decide)).trans h.h_main_arg6
  h_main_arg7 := (after_of_writes_sub ops_part0 W ops_part0_writes (by decide)).trans h.h_main_arg7
  h_main_arg8 := (after_of_writes_sub ops_part0 W ops_part0_writes (by decide)).trans h.h_main_arg8
  h_main_arg9 := (after_of_writes_sub ops_part0 W ops_part0_writes (by decide)).trans h.h_main_arg9
  h_main_v0 := by
    simp only [ops_part0]
    after_results_simp
    skip
    all_goals (try simp only [TRef.ofBuf, TRef.toBuf, cast_eq])
    all_goals rfl
  h_main_v1 := by
    simp only [ops_part0]
    after_results_simp
    skip
    all_goals (try simp only [TRef.ofBuf, TRef.toBuf, cast_eq])
    all_goals rfl
  h_main_v2 := by
    simp only [ops_part0]
    after_results_simp
    skip
    all_goals (try simp only [TRef.ofBuf, TRef.toBuf, cast_eq])
    all_goals rfl
  h_main_v6 := by
    simp only [ops_part0]
    after_results_simp
    all_goals (try simp only [h.h_main_arg9])
    all_goals (try simp only [TRef.ofBuf, TRef.toBuf, cast_eq])
    all_goals rfl
  h_main_v29 := by
    simp only [ops_part0]
    after_results_simp
    all_goals (try simp only [h.h_main_arg9])
    all_goals (try simp only [TRef.ofBuf, TRef.toBuf, cast_eq])
    all_goals rfl
  h_main_v35 := by
    simp only [ops_part0]
    after_results_simp
    all_goals (try simp only [h.h_main_arg3, h.h_main_arg9, h.h_main_arg0])
    all_goals (try simp only [TRef.ofBuf, TRef.toBuf, cast_eq])
    all_goals rfl
  h_main_v41 := by
    simp only [ops_part0]
    after_results_simp
    all_goals (try simp only [h.h_main_arg9])
    all_goals (try simp only [TRef.ofBuf, TRef.toBuf, cast_eq])
    all_goals rfl

end Cert.ReferenceIdeal.RefRun

end
-- ==== Proof.Ref.Ops1.lean ====
/- Operations 69 … 136 of the 1414 operations of the reference program's @main: its printed window
   main_part1 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 69 … 136, in order. -/
abbrev ops_part1 : List (HloOp τ sig (Elt F)) :=
  [ binary main_v35 main_v41 main_v42 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_16 (constant S_ .f32 0x00000000#32),
    unary main_cst_16 main_v43 (broadcastInDim S50000x128 ![] bcast_S_S50000x128 : (⟨S_, .f32⟩ : BufTy).Contents (Elt F) → (⟨S50000x128, .f32⟩ : BufTy).Contents (Elt F)),
    unary main_v6 main_v44 (broadcastInDim S400000x1 ![0] bcast_S400000_S400000x1_0 : (⟨S400000, .i32⟩ : BufTy).Contents (Elt F) → (⟨S400000x1, .i32⟩ : BufTy).Contents (Elt F)),
    ternary main_v43 main_v44 main_v42 main_v45 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v29 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v45 main_v47 main_v48 (mulf : (⟨S50000x128, .f32⟩ : BufTy).Contents (Elt F) → (⟨S50000x128, .f32⟩ : BufTy).Contents (Elt F) → (⟨S50000x128, .f32⟩ : BufTy).Contents (Elt F)),
    binary main_v2 main_v48 main_v49 (addf : (⟨S50000x128, .f32⟩ : BufTy).Contents (Elt F) → (⟨S50000x128, .f32⟩ : BufTy).Contents (Elt F) → (⟨S50000x128, .f32⟩ : BufTy).Contents (Elt F)),
    unary main_arg4 main_v50 ((extractStridedSlice S1x128 ![0, 0] · slices_S9x128_S1x128_0_0) : (⟨S9x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v49 main_v53 main_v54 (addf : (⟨S50000x128, .f32⟩ : BufTy).Contents (Elt F) → (⟨S50000x128, .f32⟩ : BufTy).Contents (Elt F) → (⟨S50000x128, .f32⟩ : BufTy).Contents (Elt F)),
    unary main_arg9 main_v55 ((extractStridedSlice S1x1x400000 ![1, 0, 0] · slices_S9x2x400000_S1x1x400000_1_0_0) : (⟨S9x2x400000, .i32⟩ : BufTy).Contents (Elt F) → (⟨S1x1x400000, .i32⟩ : BufTy).Contents (Elt F)),
    reshape main_v55 main_v56 rfl shapeCasts_S1x1x400000_S400000,
    unary main_arg9 main_v57 ((extractStridedSlice S1x1x400000 ![1, 1, 0] · slices_S9x2x400000_S1x1x400000_1_1_0) : (⟨S9x2x400000, .i32⟩ : BufTy).Contents (Elt F) → (⟨S1x1x400000, .i32⟩ : BufTy).Contents (Elt F)),
    reshape main_v57 main_v58 rfl shapeCasts_S1x1x400000_S400000,
    nullary main_cst_17 (constant S_ .f32 0x3F800000#32),
    unary main_cst_17 main_v59 (broadcastInDim S400000 ![] bcast_S_S400000 : (⟨S_, .f32⟩ : BufTy).Contents (Elt F) → (⟨S400000, .f32⟩ : BufTy).Contents (Elt F)),
    nullary main_cst_18 (constant S_ .f32 0x00000000#32),
    unary main_cst_18 main_v60 (broadcastInDim S50000 ![] bcast_S_S50000 : (⟨S_, .f32⟩ : BufTy).Contents (Elt F) → (⟨S50000, .f32⟩ : BufTy).Contents (Elt F)),
    unary main_v56 main_v61 (broadcastInDim S400000x1 ![0] bcast_S400000_S400000x1_0 : (⟨S400000, .i32⟩ : BufTy).Contents (Elt F) → (⟨S400000x1, .i32⟩ : BufTy).Contents (Elt F)),
    ternary main_v60 main_v61 main_v59 main_v62 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_19 (constant S_ .f32 0x00000000#32),
    unary main_cst_19 main_v63 (broadcastInDim S50000 ![] bcast_S_S50000 : (⟨S_, .f32⟩ : BufTy).Contents (Elt F) → (⟨S50000, .f32⟩ : BufTy).Contents (Elt F)),
    unary main_v58 main_v64 (broadcastInDim S400000x1 ![0] bcast_S400000_S400000x1_0 : (⟨S400000, .i32⟩ : BufTy).Contents (Elt F) → (⟨S400000x1, .i32⟩ : BufTy).Contents (Elt F)),
    ternary main_v63 main_v64 main_v59 main_v65 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_20 (constant S_ .f32 0x00000000#32),
    unary main_cst_20 main_v66 (broadcastInDim S50000 ![] bcast_S_S50000 : (⟨S_, .f32⟩ : BufTy).Contents (Elt F) → (⟨S50000, .f32⟩ : BufTy).Contents (Elt F)),
    binary main_v62 main_v66 main_v67 (cmpf (F := F) .ogt : (⟨S50000, .f32⟩ : BufTy).Contents (Elt F) → (⟨S50000, .f32⟩ : BufTy).Contents (Elt F) → (⟨S50000, .i1⟩ : BufTy).Contents (Elt F)),
    nullary main_cst_21 (constant S_ .f32 0x3F800000#32),
    TRef.unary (TRef.of (T := ⟨S_, .f32⟩) main_cst_21) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v67) (TRef.of (T := ⟨S50000, .f32⟩) main_v62) (TRef.of (T := ⟨S50000, .f32⟩) main_call4_v1) (TRef.of (T := ⟨S50000, .f32⟩) main_v68) select,
    nullary main_cst_22 (constant S_ .f32 0xBF000000#32),
    unary main_cst_22 main_v69 (broadcastInDim S50000 ![] bcast_S_S50000 : (⟨S_, .f32⟩ : BufTy).Contents (Elt F) → (⟨S50000, .f32⟩ : BufTy).Contents (Elt F)),
    binary main_v68 main_v69 main_v70 (Host.powf : (⟨S50000, .f32⟩ : BufTy).Contents (Elt F) → (⟨S50000, .f32⟩ : BufTy).Contents (Elt F) → (⟨S50000, .f32⟩ : BufTy).Contents (Elt F)),
    nullary main_cst_23 (constant S_ .f32 0x00000000#32),
    unary main_cst_23 main_v71 (broadcastInDim S50000 ![] bcast_S_S50000 : (⟨S_, .f32⟩ : BufTy).Contents (Elt F) → (⟨S50000, .f32⟩ : BufTy).Contents (Elt F)),
    binary main_v62 main_v71 main_v72 (cmpf (F := F) .ogt : (⟨S50000, .f32⟩ : BufTy).Contents (Elt F) → (⟨S50000, .f32⟩ : BufTy).Contents (Elt F) → (⟨S50000, .i1⟩ : BufTy).Contents (Elt F)),
    nullary main_cst_24 (constant S_ .f32 0x00000000#32),
    TRef.unary (TRef.of (T := ⟨S_, .f32⟩) main_cst_24) (TRef.of (T := ⟨S_, .f32⟩) main_call5_v0) id,
    TRef.unary (TRef.of (T := ⟨S_, .f32⟩) main_call5_v0) (TRef.of (T := ⟨S50000, .f32⟩) main_call5_v1) (broadcastInDim S50000 ![] bcast_S_S50000),
    TRef.ternary (TRef.of (T := ⟨S50000, .i1⟩) main_v72) (TRef.of (T := ⟨S50000, .f32⟩) main_v70) (TRef.of (T := ⟨S50000, .f32⟩) main_call5_v1) (TRef.of (T := ⟨S50000, .f32⟩) main_v73) select,
    nullary main_cst_25 (constant S_ .f32 0x00000000#32),
    unary main_cst_25 main_v74 (broadcastInDim S50000 ![] bcast_S_S50000 : (⟨S_, .f32⟩ : BufTy).Contents (Elt F) → (⟨S50000, .f32⟩ : BufTy).Contents (Elt F)),
    binary main_v65 main_v74 main_v75 (cmpf (F := F) .ogt : (⟨S50000, .f32⟩ : BufTy).Contents (Elt F) → (⟨S50000, .f32⟩ : BufTy).Contents (Elt F) → (⟨S50000, .i1⟩ : BufTy).Contents (Elt F)),
    nullary main_cst_26 (constant S_ .f32 0x3F800000#32),
    TRef.unary (TRef.of (T := ⟨S_, .f32⟩) main_cst_26) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.ternary (TRef.of (T := ⟨S50000, .i1⟩) main_v75) (TRef.of (T := ⟨S50000, .f32⟩) main_v65) (TRef.of (T := ⟨S50000, .f32⟩) main_call6_v1) (TRef.of (T := ⟨S50000, .f32⟩) main_v76) select,
    nullary main_cst_27 (constant S_ .f32 0xBF000000#32),
    unary main_cst_27 main_v77 (broadcastInDim S50000 ![] bcast_S_S50000 : (⟨S_, .f32⟩ : BufTy).Contents (Elt F) → (⟨S50000, .f32⟩ : BufTy).Contents (Elt F)),
    binary main_v76 main_v77 main_v78 (Host.powf : (⟨S50000, .f32⟩ : BufTy).Contents (Elt F) → (⟨S50000, .f32⟩ : BufTy).Contents (Elt F) → (⟨S50000, .f32⟩ : BufTy).Contents (Elt F)),
    nullary main_cst_28 (constant S_ .f32 0x00000000#32),
    unary main_cst_28 main_v79 (broadcastInDim S50000 ![] bcast_S_S50000 : (⟨S_, .f32⟩ : BufTy).Contents (Elt F) → (⟨S50000, .f32⟩ : BufTy).Contents (Elt F)),
    binary main_v65 main_v79 main_v80 (cmpf (F := F) .ogt : (⟨S50000, .f32⟩ : BufTy).Contents (Elt F) → (⟨S50000, .f32⟩ : BufTy).Contents (Elt F) → (⟨S50000, .i1⟩ : BufTy).Contents (Elt F)),
    nullary main_cst_29 (constant S_ .f32 0x00000000#32),
    TRef.unary (TRef.of (T := ⟨S_, .f32⟩) main_cst_29) (TRef.of (T := ⟨S_, .f32⟩) main_call7_v0) id,
    TRef.unary (TRef.of (T := ⟨S_, .f32⟩) main_call7_v0) (TRef.of (T := ⟨S50000, .f32⟩) main_call7_v1) (broadcastInDim S50000 ![] bcast_S_S50000),
    TRef.ternary (TRef.of (T := ⟨S50000, .i1⟩) main_v80) (TRef.of (T := ⟨S50000, .f32⟩) main_v78) (TRef.of (T := ⟨S50000, .f32⟩) main_call7_v1) (TRef.of (T := ⟨S50000, .f32⟩) main_v81) select,
    unary main_v73 main_v82 (broadcastInDim S50000x1 ![0] bcast_S50000_S50000x1_0 : (⟨S50000, .f32⟩ : BufTy).Contents (Elt F) → (⟨S50000x1, .f32⟩ : BufTy).Contents (Elt F)),
    unary main_v82 main_v83 (broadcastInDim S50000x128 ![0, 1] bcast_S50000x1_S50000x128_0_1 : (⟨S50000x1, .f32⟩ : BufTy).Contents (Elt F) → (⟨S50000x128, .f32⟩ : BufTy).Contents (Elt F)),
    binary main_arg1 main_v83 main_v84 (mulf : (⟨S50000x128, .f32⟩ : BufTy).Contents (Elt F) → (⟨S50000x128, .f32⟩ : BufTy).Contents (Elt F) → (⟨S50000x128, .f32⟩ : BufTy).Contents (Elt F)),
    unary main_arg3 main_v85 ((extractStridedSlice S1x128x128 ![1, 0, 0] · slices_S9x128x128_S1x128x128_1_0_0) : (⟨S9x128x128, .f32⟩ : BufTy).Contents (Elt F) → (⟨S1x128x128, .f32⟩ : BufTy).Contents (Elt F)),
    reshape main_v85 main_v86 rfl shapeCasts_S1x128x128_S128x128,
    binary main_v84 main_v86 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

set_option maxRecDepth 8192 in
set_option maxHeartbeats 4000000 in
/-- The window is its operations run in order. -/
theorem main_part1_eq (c : Dev nD) : main_part1 (F := F) c = seq ops_part1 := rfl

set_option maxRecDepth 8192 in
/-- Every operation touches TensorCore buffers only. -/
theorem ops_part1_sub : (ops_part1 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub ..⟩

set_option maxRecDepth 8192 in
/-- Every operation determines the contents of what it writes. -/
theorem ops_part1_fresh : ∀ op ∈ (ops_part1 : List (HloOp τ sig (Elt F))), op.fresh = ∅ :=
  List.forall_iff_forall_mem.mp (show (ops_part1 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part1_W : List (Ref sig .tc) := [main_v42, main_cst_16, main_v43, main_v44, main_v45, main_v46, main_v47, main_v48, main_v49, main_v50, main_v51, main_v52, main_v53, main_v54, main_v55, main_v56, main_v57, main_v58, main_cst_17, main_v59, main_cst_18, main_v60, main_v61, main_v62, main_cst_19, main_v63, main_v64, main_v65, main_cst_20, main_v66, main_v67, main_cst_21, main_call4_v0, main_call4_v1, main_v68, main_cst_22, main_v69, main_v70, main_cst_23, main_v71, main_v72, main_cst_24, main_call5_v0, main_call5_v1, main_v73, main_cst_25, main_v74, main_v75, main_cst_26, main_call6_v0, main_call6_v1, main_v76, main_cst_27, main_v77, main_v78, main_cst_28, main_v79, main_v80, main_cst_29, main_call7_v0, main_call7_v1, main_v81, main_v82, main_v83, main_v84, main_v85, main_v86, main_v87]

set_option maxRecDepth 8192 in
/-- Each operation writes one of them. -/
theorem ops_part1_writes : (ops_part1 : List (HloOp τ sig (Elt F))).Forall fun op =>
    op.writes ⊆ (ops_part1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val1.lean ====
/- The step across window 1 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops1

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step1 {W : Valuation τ sig (Elt F)} {x0 x1 x2 x3 x4 x5 x6 x7 x8 x9 : _}
    (h : Live1 W x0 x1 x2 x3 x4 x5 x6 x7 x8 x9) : Live2 (after ops_part1 W) x0 x1 x2 x3 x4 x5 x6 x7 x8 x9 where
  h_main_arg0 := (after_of_writes_sub ops_part1 W ops_part1_writes (by decide)).trans h.h_main_arg0
  h_main_arg1 := (after_of_writes_sub ops_part1 W ops_part1_writes (by decide)).trans h.h_main_arg1
  h_main_arg2 := (after_of_writes_sub ops_part1 W ops_part1_writes (by decide)).trans h.h_main_arg2
  h_main_arg3 := (after_of_writes_sub ops_part1 W ops_part1_writes (by decide)).trans h.h_main_arg3
  h_main_arg4 := (after_of_writes_sub ops_part1 W ops_part1_writes (by decide)).trans h.h_main_arg4
  h_main_arg5 := (after_of_writes_sub ops_part1 W ops_part1_writes (by decide)).trans h.h_main_arg5
  h_main_arg6 := (after_of_writes_sub ops_part1 W ops_part1_writes (by decide)).trans h.h_main_arg6
  h_main_arg7 := (after_of_writes_sub ops_part1 W ops_part1_writes (by decide)).trans h.h_main_arg7
  h_main_arg8 := (after_of_writes_sub ops_part1 W ops_part1_writes (by decide)).trans h.h_main_arg8
  h_main_arg9 := (after_of_writes_sub ops_part1 W ops_part1_writes (by decide)).trans h.h_main_arg9
  h_main_v0 := (after_of_writes_sub ops_part1 W ops_part1_writes (by decide)).trans h.h_main_v0
  h_main_v1 := (after_of_writes_sub ops_part1 W ops_part1_writes (by decide)).trans h.h_main_v1
  h_main_v54 := by
    simp only [ops_part1]
    after_results_simp
    all_goals (try simp only [h.h_main_arg4, h.h_main_v29, h.h_main_v41, h.h_main_v35, h.h_main_v6, h.h_main_v2])
    all_goals (try simp only [TRef.ofBuf, TRef.toBuf, cast_eq])
    all_goals rfl
  h_main_v56 := by
    simp only [ops_part1]
    after_results_simp
    all_goals (try simp only [h.h_main_arg9])
    all_goals (try simp only [TRef.ofBuf, TRef.toBuf, cast_eq])
    all_goals rfl
  h_main_v58 := by
    simp only [ops_part1]
    after_results_simp
    all_goals (try simp only [h.h_main_arg9])
    all_goals (try simp only [TRef.ofBuf, TRef.toBuf, cast_eq])
    all_goals rfl
  h_main_v81 := by
    simp only [ops_part1]
    after_results_simp
    all_goals (try simp only [h.h_main_arg9])
    all_goals (try simp only [TRef.ofBuf, TRef.toBuf, cast_eq])
    all_goals rfl
  h_main_v87 := by
    simp only [ops_part1]
    after_results_simp
    all_goals (try simp only [h.h_main_arg3, h.h_main_arg9, h.h_main_arg1])
    all_goals (try simp only [TRef.ofBuf, TRef.toBuf, cast_eq])
    all_goals rfl

end Cert.ReferenceIdeal.RefRun

end
-- ==== Proof.Ref.Ops2.lean ====
/- Operations 137 … 202 of the 1414 operations of the reference program's @main: its printed window
   main_part2 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 137 … 202, in order. -/
abbrev ops_part2 : List (HloOp τ sig (Elt F)) :=
  [ nullary main_c_30 (constantI S_ 32 0#32),
    unary main_c_30 main_v88 (broadcastInDim S400000 ![] bcast_S_S400000 : (⟨S_, .i32⟩ : BufTy).Contents (Elt F) → (⟨S400000, .i32⟩ : BufTy).Contents (Elt F)),
    binary main_v56 main_v88 main_v89 (cmpi .slt : (⟨S400000, .i32⟩ : BufTy).Contents (Elt F) → (⟨S400000, .i32⟩ : BufTy).Contents (Elt F) → (⟨S400000, .i1⟩ : BufTy).Contents (Elt F)),
    nullary main_c_31 (constantI S_ 32 50000#32),
    unary main_c_31 main_v90 (broadcastInDim S400000 ![] bcast_S_S400000 : (⟨S_, .i32⟩ : BufTy).Contents (Elt F) → (⟨S400000, .i32⟩ : BufTy).Contents (Elt F)),
    binary main_v56 main_v90 main_v91 (addi : (⟨S400000, .i32⟩ : BufTy).Contents (Elt F) → (⟨S400000, .i32⟩ : BufTy).Contents (Elt F) → (⟨S400000, .i32⟩ : BufTy).Contents (Elt F)),
    ternary main_v89 main_v91 main_v56 main_v92 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v92 main_v93 (broadcastInDim S400000x1 ![0] bcast_S400000_S400000x1_0 : (⟨S400000, .i32⟩ : BufTy).Contents (Elt F) → (⟨S400000x1, .i32⟩ : BufTy).Contents (Elt F)),
    binary main_v87 main_v93 main_v94 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_32 (constant S_ .f32 0x00000000#32),
    unary main_cst_32 main_v95 (broadcastInDim S50000x128 ![] bcast_S_S50000x128 : (⟨S_, .f32⟩ : BufTy).Contents (Elt F) → (⟨S50000x128, .f32⟩ : BufTy).Contents (Elt F)),
    unary main_v58 main_v96 (broadcastInDim S400000x1 ![0] bcast_S400000_S400000x1_0 : (⟨S400000, .i32⟩ : BufTy).Contents (Elt F) → (⟨S400000x1, .i32⟩ : BufTy).Contents (Elt F)),
    ternary main_v95 main_v96 main_v94 main_v97 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v81 main_v98 (broadcastInDim S50000x1 ![0] bcast_S50000_S50000x1_0 : (⟨S50000, .f32⟩ : BufTy).Contents (Elt F) → (⟨S50000x1, .f32⟩ : BufTy).Contents (Elt F)),
    unary main_v98 main_v99 (broadcastInDim S50000x128 ![0, 1] bcast_S50000x1_S50000x128_0_1 : (⟨S50000x1, .f32⟩ : BufTy).Contents (Elt F) → (⟨S50000x128, .f32⟩ : BufTy).Contents (Elt F)),
    binary main_v97 main_v99 main_v100 (mulf : (⟨S50000x128, .f32⟩ : BufTy).Contents (Elt F) → (⟨S50000x128, .f32⟩ : BufTy).Contents (Elt F) → (⟨S50000x128, .f32⟩ : BufTy).Contents (Elt F)),
    binary main_v54 main_v100 main_v101 (addf : (⟨S50000x128, .f32⟩ : BufTy).Contents (Elt F) → (⟨S50000x128, .f32⟩ : BufTy).Contents (Elt F) → (⟨S50000x128, .f32⟩ : BufTy).Contents (Elt F)),
    unary main_arg4 main_v102 ((extractStridedSlice S1x128 ![1, 0] · slices_S9x128_S1x128_1_0) : (⟨S9x128, .f32⟩ : BufTy).Contents (Elt F) → (⟨S1x128, .f32⟩ : BufTy).Contents (Elt F)),
    reshape main_v102 main_v103 rfl shapeCasts_S1x128_S128,
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v101 main_v105 main_v106 (addf : (⟨S50000x128, .f32⟩ : BufTy).Contents (Elt F) → (⟨S50000x128, .f32⟩ : BufTy).Contents (Elt F) → (⟨S50000x128, .f32⟩ : BufTy).Contents (Elt F)),
    unary main_arg9 main_v107 ((extractStridedSlice S1x1x400000 ![2, 0, 0] · slices_S9x2x400000_S1x1x400000_2_0_0) : (⟨S9x2x400000, .i32⟩ : BufTy).Contents (Elt F) → (⟨S1x1x400000, .i32⟩ : BufTy).Contents (Elt F)),
    reshape main_v107 main_v108 rfl shapeCasts_S1x1x400000_S400000,
    unary main_arg9 main_v109 ((extractStridedSlice S1x1x400000 ![2, 1, 0] · slices_S9x2x400000_S1x1x400000_2_1_0) : (⟨S9x2x400000, .i32⟩ : BufTy).Contents (Elt F) → (⟨S1x1x400000, .i32⟩ : BufTy).Contents (Elt F)),
    reshape main_v109 main_v110 rfl shapeCasts_S1x1x400000_S400000,
    nullary main_cst_33 (constant S_ .f32 0x3F800000#32),
    unary main_cst_33 main_v111 (broadcastInDim S400000 ![] bcast_S_S400000 : (⟨S_, .f32⟩ : BufTy).Contents (Elt F) → (⟨S400000, .f32⟩ : BufTy).Contents (Elt F)),
    nullary main_cst_34 (constant S_ .f32 0x00000000#32),
    unary main_cst_34 main_v112 (broadcastInDim S50000 ![] bcast_S_S50000 : (⟨S_, .f32⟩ : BufTy).Contents (Elt F) → (⟨S50000, .f32⟩ : BufTy).Contents (Elt F)),
    unary main_v108 main_v113 (broadcastInDim S400000x1 ![0] bcast_S400000_S400000x1_0 : (⟨S400000, .i32⟩ : BufTy).Contents (Elt F) → (⟨S400000x1, .i32⟩ : BufTy).Contents (Elt F)),
    ternary main_v112 main_v113 main_v111 main_v114 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_35 (constant S_ .f32 0x00000000#32),
    unary main_cst_35 main_v115 (broadcastInDim S50000 ![] bcast_S_S50000 : (⟨S_, .f32⟩ : BufTy).Contents (Elt F) → (⟨S50000, .f32⟩ : BufTy).Contents (Elt F)),
    unary main_v110 main_v116 (broadcastInDim S400000x1 ![0] bcast_S400000_S400000x1_0 : (⟨S400000, .i32⟩ : BufTy).Contents (Elt F) → (⟨S400000x1, .i32⟩ : BufTy).Contents (Elt F)),
    ternary main_v115 main_v116 main_v111 main_v117 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_36 (constant S_ .f32 0x00000000#32),
    unary main_cst_36 main_v118 (broadcastInDim S50000 ![] bcast_S_S50000 : (⟨S_, .f32⟩ : BufTy).Contents (Elt F) → (⟨S50000, .f32⟩ : BufTy).Contents (Elt F)),
    binary main_v114 main_v118 main_v119 (cmpf (F := F) .ogt : (⟨S50000, .f32⟩ : BufTy).Contents (Elt F) → (⟨S50000, .f32⟩ : BufTy).Contents (Elt F) → (⟨S50000, .i1⟩ : BufTy).Contents (Elt F)),
    nullary main_cst_37 (constant S_ .f32 0x3F800000#32),
    TRef.unary (TRef.of (T := ⟨S_, .f32⟩) main_cst_37) (TRef.of (T := ⟨S_, .f32⟩) main_call8_v0) id,
    TRef.unary (TRef.of (T := ⟨S_, .f32⟩) main_call8_v0) (TRef.of (T := ⟨S50000, .f32⟩) main_call8_v1) (broadcastInDim S50000 ![] bcast_S_S50000),
    TRef.ternary (TRef.of (T := ⟨S50000, .i1⟩) main_v119) (TRef.of (T := ⟨S50000, .f32⟩) main_v114) (TRef.of (T := ⟨S50000, .f32⟩) main_call8_v1) (TRef.of (T := ⟨S50000, .f32⟩) main_v120) select,
    nullary main_cst_38 (constant S_ .f32 0xBF000000#32),
    unary main_cst_38 main_v121 (broadcastInDim S50000 ![] bcast_S_S50000 : (⟨S_, .f32⟩ : BufTy).Contents (Elt F) → (⟨S50000, .f32⟩ : BufTy).Contents (Elt F)),
    binary main_v120 main_v121 main_v122 (Host.powf : (⟨S50000, .f32⟩ : BufTy).Contents (Elt F) → (⟨S50000, .f32⟩ : BufTy).Contents (Elt F) → (⟨S50000, .f32⟩ : BufTy).Contents (Elt F)),
    nullary main_cst_39 (constant S_ .f32 0x00000000#32),
    unary main_cst_39 main_v123 (broadcastInDim S50000 ![] bcast_S_S50000 : (⟨S_, .f32⟩ : BufTy).Contents (Elt F) → (⟨S50000, .f32⟩ : BufTy).Contents (Elt F)),
    binary main_v114 main_v123 main_v124 (cmpf (F := F) .ogt : (⟨S50000, .f32⟩ : BufTy).Contents (Elt F) → (⟨S50000, .f32⟩ : BufTy).Contents (Elt F) → (⟨S50000, .i1⟩ : BufTy).Contents (Elt F)),
    nullary main_cst_40 (constant S_ .f32 0x00000000#32),
    TRef.unary (TRef.of (T := ⟨S_, .f32⟩) main_cst_40) (TRef.of (T := ⟨S_, .f32⟩) main_call9_v0) id,
    TRef.unary (TRef.of (T := ⟨S_, .f32⟩) main_call9_v0) (TRef.of (T := ⟨S50000, .f32⟩) main_call9_v1) (broadcastInDim S50000 ![] bcast_S_S50000),
    TRef.ternary (TRef.of (T := ⟨S50000, .i1⟩) main_v124) (TRef.of (T := ⟨S50000, .f32⟩) main_v122) (TRef.of (T := ⟨S50000, .f32⟩) main_call9_v1) (TRef.of (T := ⟨S50000, .f32⟩) main_v125) select,
    nullary main_cst_41 (constant S_ .f32 0x00000000#32),
    unary main_cst_41 main_v126 (broadcastInDim S50000 ![] bcast_S_S50000 : (⟨S_, .f32⟩ : BufTy).Contents (Elt F) → (⟨S50000, .f32⟩ : BufTy).Contents (Elt F)),
    binary main_v117 main_v126 main_v127 (cmpf (F := F) .ogt : (⟨S50000, .f32⟩ : BufTy).Contents (Elt F) → (⟨S50000, .f32⟩ : BufTy).Contents (Elt F) → (⟨S50000, .i1⟩ : BufTy).Contents (Elt F)),
    nullary main_cst_42 (constant S_ .f32 0x3F800000#32),
    TRef.unary (TRef.of (T := ⟨S_, .f32⟩) main_cst_42) (TRef.of (T := ⟨S_, .f32⟩) main_call10_v0) id,
    TRef.unary (TRef.of (T := ⟨S_, .f32⟩) main_call10_v0) (TRef.of (T := ⟨S50000, .f32⟩) main_call10_v1) (broadcastInDim S50000 ![] bcast_S_S50000),
    TRef.ternary (TRef.of (T := ⟨S50000, .i1⟩) main_v127) (TRef.of (T := ⟨S50000, .f32⟩) main_v117) (TRef.of (T := ⟨S50000, .f32⟩) main_call10_v1) (TRef.of (T := ⟨S50000, .f32⟩) main_v128) select,
    nullary main_cst_43 (constant S_ .f32 0xBF000000#32),
    unary main_cst_43 main_v129 (broadcastInDim S50000 ![] bcast_S_S50000 : (⟨S_, .f32⟩ : BufTy).Contents (Elt F) → (⟨S50000, .f32⟩ : BufTy).Contents (Elt F)),
    binary main_v128 main_v129 main_v130 (Host.powf : (⟨S50000, .f32⟩ : BufTy).Contents (Elt F) → (⟨S50000, .f32⟩ : BufTy).Contents (Elt F) → (⟨S50000, .f32⟩ : BufTy).Contents (Elt F)),
    nullary main_cst_44 (constant S_ .f32 0x00000000#32),
    unary main_cst_44 main_v131 (broadcastInDim S50000 ![] bcast_S_S50000 : (⟨S_, .f32⟩ : BufTy).Contents (Elt F) → (⟨S50000, .f32⟩ : BufTy).Contents (Elt F)),
    binary main_v117 main_v131 main_v132 (cmpf (F := F) .ogt : (⟨S50000, .f32⟩ : BufTy).Contents (Elt F) → (⟨S50000, .f32⟩ : BufTy).Contents (Elt F) → (⟨S50000, .i1⟩ : BufTy).Contents (Elt F)) ]

set_option maxRecDepth 8192 in
set_option maxHeartbeats 4000000 in
/-- The window is its operations run in order. -/
theorem main_part2_eq (c : Dev nD) : main_part2 (F := F) c = seq ops_part2 := rfl

set_option maxRecDepth 8192 in
/-- Every operation touches TensorCore buffers only. -/
theorem ops_part2_sub : (ops_part2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩

set_option maxRecDepth 8192 in
/-- Every operation determines the contents of what it writes. -/
theorem ops_part2_fresh : ∀ op ∈ (ops_part2 : List (HloOp τ sig (Elt F))), op.fresh = ∅ :=
  List.forall_iff_forall_mem.mp (show (ops_part2 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part2_W : List (Ref sig .tc) := [main_c_30, main_v88, main_v89, main_c_31, main_v90, main_v91, main_v92, main_v93, main_v94, main_cst_32, main_v95, main_v96, main_v97, main_v98, main_v99, main_v100, main_v101, main_v102, main_v103, main_v104, main_v105, main_v106, main_v107, main_v108, main_v109, main_v110, main_cst_33, main_v111, main_cst_34, main_v112, main_v113, main_v114, main_cst_35, main_v115, main_v116, main_v117, main_cst_36, main_v118, main_v119, main_cst_37, main_call8_v0, main_call8_v1, main_v120, main_cst_38, main_v121, main_v122, main_cst_39, main_v123, main_v124, main_cst_40, main_call9_v0, main_call9_v1, main_v125, main_cst_41, main_v126, main_v127, main_cst_42, main_call10_v0, main_call10_v1, main_v128, main_cst_43, main_v129, main_v130, main_cst_44, main_v131, main_v132]

set_option maxRecDepth 8192 in
/-- Each operation writes one of them. -/
theorem ops_part2_writes : (ops_part2 : List (HloOp τ sig (Elt F))).Forall fun op =>
    op.writes ⊆ (ops_part2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val2.lean ====
/- The step across window 2 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops2

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step2 {W : Valuation τ sig (Elt F)} {x0 x1 x2 x3 x4 x5 x6 x7 x8 x9 : _}
    (h : Live2 W x0 x1 x2 x3 x4 x5 x6 x7 x8 x9) : Live3 (after ops_part2 W) x0 x1 x2 x3 x4 x5 x6 x7 x8 x9 where
  h_main_arg0 := (after_of_writes_sub ops_part2 W ops_part2_writes (by decide)).trans h.h_main_arg0
  h_main_arg1 := (after_of_writes_sub ops_part2 W ops_part2_writes (by decide)).trans h.h_main_arg1
  h_main_arg2 := (after_of_writes_sub ops_part2 W ops_part2_writes (by decide)).trans h.h_main_arg2
  h_main_arg3 := (after_of_writes_sub ops_part2 W ops_part2_writes (by decide)).trans h.h_main_arg3
  h_main_arg4 := (after_of_writes_sub ops_part2 W ops_part2_writes (by decide)).trans h.h_main_arg4
  h_main_arg5 := (after_of_writes_sub ops_part2 W ops_part2_writes (by decide)).trans h.h_main_arg5
  h_main_arg6 := (after_of_writes_sub ops_part2 W ops_part2_writes (by decide)).trans h.h_main_arg6
  h_main_arg7 := (after_of_writes_sub ops_part2 W ops_part2_writes (by decide)).trans h.h_main_arg7
  h_main_arg8 := (after_of_writes_sub ops_part2 W ops_part2_writes (by decide)).trans h.h_main_arg8
  h_main_arg9 := (after_of_writes_sub ops_part2 W ops_part2_writes (by decide)).trans h.h_main_arg9
  h_main_v0 := (after_of_writes_sub ops_part2 W ops_part2_writes (by decide)).trans h.h_main_v0
  h_main_v1 := (after_of_writes_sub ops_part2 W ops_part2_writes (by decide)).trans h.h_main_v1
  h_main_v106 := by
    simp only [ops_part2]
    after_results_simp
    all_goals (try simp only [h.h_main_arg4, h.h_main_v81, h.h_main_v56, h.h_main_v87, h.h_main_v58, h.h_main_v54])
    all_goals (try simp only [TRef.ofBuf, TRef.toBuf, cast_eq])
    all_goals rfl
  h_main_v108 := by
    simp only [ops_part2]
    after_results_simp
    all_goals (try simp only [h.h_main_arg9])
    all_goals (try simp only [TRef.ofBuf, TRef.toBuf, cast_eq])
    all_goals rfl
  h_main_v110 := by
    simp only [ops_part2]
    after_results_simp
    all_goals (try simp only [h.h_main_arg9])
    all_goals (try simp only [TRef.ofBuf, TRef.toBuf, cast_eq])
    all_goals rfl
  h_main_v125 := by
    simp only [ops_part2]
    after_results_simp
    all_goals (try simp only [h.h_main_arg9])
    all_goals (try simp only [TRef.ofBuf, TRef.toBuf, cast_eq])
    all_goals rfl
  h_main_v130 := by
    simp only [ops_part2]
    after_results_simp
    all_goals (try simp only [h.h_main_arg9])
    all_goals (try simp only [TRef.ofBuf, TRef.toBuf, cast_eq])
    all_goals rfl
  h_main_v132 := by
    simp only [ops_part2]
    after_results_simp
    all_goals (try simp only [h.h_main_arg9])
    all_goals (try simp only [TRef.ofBuf, TRef.toBuf, cast_eq])
    all_goals rfl

end Cert.ReferenceIdeal.RefRun

end
-- ==== Proof.Ref.Ops3.lean ====
/- Operations 203 … 268 of the 1414 operations of the reference program's @main: its printed window
   main_part3 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 203 … 268, in order. -/
abbrev ops_part3 : List (HloOp τ sig (Elt F)) :=
  [ nullary main_cst_45 (constant S_ .f32 0x00000000#32),
    TRef.unary (TRef.of (T := ⟨S_, .f32⟩) main_cst_45) (TRef.of (T := ⟨S_, .f32⟩) main_call11_v0) id,
    TRef.unary (TRef.of (T := ⟨S_, .f32⟩) main_call11_v0) (TRef.of (T := ⟨S50000, .f32⟩) main_call11_v1) (broadcastInDim S50000 ![] bcast_S_S50000),
    TRef.ternary (TRef.of (T := ⟨S50000, .i1⟩) main_v132) (TRef.of (T := ⟨S50000, .f32⟩) main_v130) (TRef.of (T := ⟨S50000, .f32⟩) main_call11_v1) (TRef.of (T := ⟨S50000, .f32⟩) main_v133) select,
    unary main_v125 main_v134 (broadcastInDim S50000x1 ![0] bcast_S50000_S50000x1_0 : (⟨S50000, .f32⟩ : BufTy).Contents (Elt F) → (⟨S50000x1, .f32⟩ : BufTy).Contents (Elt F)),
    unary main_v134 main_v135 (broadcastInDim S50000x128 ![0, 1] bcast_S50000x1_S50000x128_0_1 : (⟨S50000x1, .f32⟩ : BufTy).Contents (Elt F) → (⟨S50000x128, .f32⟩ : BufTy).Contents (Elt F)),
    binary main_arg1 main_v135 main_v136 (mulf : (⟨S50000x128, .f32⟩ : BufTy).Contents (Elt F) → (⟨S50000x128, .f32⟩ : BufTy).Contents (Elt F) → (⟨S50000x128, .f32⟩ : BufTy).Contents (Elt F)),
    unary main_arg3 main_v137 ((extractStridedSlice S1x128x128 ![2, 0, 0] · slices_S9x128x128_S1x128x128_2_0_0) : (⟨S9x128x128, .f32⟩ : BufTy).Contents (Elt F) → (⟨S1x128x128, .f32⟩ : BufTy).Contents (Elt F)),
    reshape main_v137 main_v138 rfl shapeCasts_S1x128x128_S128x128,
    binary main_v136 main_v138 main_v139 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_46 (constantI S_ 32 0#32),
    unary main_c_46 main_v140 (broadcastInDim S400000 ![] bcast_S_S400000 : (⟨S_, .i32⟩ : BufTy).Contents (Elt F) → (⟨S400000, .i32⟩ : BufTy).Contents (Elt F)),
    binary main_v108 main_v140 main_v141 (cmpi .slt : (⟨S400000, .i32⟩ : BufTy).Contents (Elt F) → (⟨S400000, .i32⟩ : BufTy).Contents (Elt F) → (⟨S400000, .i1⟩ : BufTy).Contents (Elt F)),
    nullary main_c_47 (constantI S_ 32 50000#32),
    unary main_c_47 main_v142 (broadcastInDim S400000 ![] bcast_S_S400000 : (⟨S_, .i32⟩ : BufTy).Contents (Elt F) → (⟨S400000, .i32⟩ : BufTy).Contents (Elt F)),
    binary main_v108 main_v142 main_v143 (addi : (⟨S400000, .i32⟩ : BufTy).Contents (Elt F) → (⟨S400000, .i32⟩ : BufTy).Contents (Elt F) → (⟨S400000, .i32⟩ : BufTy).Contents (Elt F)),
    ternary main_v141 main_v143 main_v108 main_v144 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v144 main_v145 (broadcastInDim S400000x1 ![0] bcast_S400000_S400000x1_0 : (⟨S400000, .i32⟩ : BufTy).Contents (Elt F) → (⟨S400000x1, .i32⟩ : BufTy).Contents (Elt F)),
    binary main_v139 main_v145 main_v146 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_48 (constant S_ .f32 0x00000000#32),
    unary main_cst_48 main_v147 (broadcastInDim S50000x128 ![] bcast_S_S50000x128 : (⟨S_, .f32⟩ : BufTy).Contents (Elt F) → (⟨S50000x128, .f32⟩ : BufTy).Contents (Elt F)),
    unary main_v110 main_v148 (broadcastInDim S400000x1 ![0] bcast_S400000_S400000x1_0 : (⟨S400000, .i32⟩ : BufTy).Contents (Elt F) → (⟨S400000x1, .i32⟩ : BufTy).Contents (Elt F)),
    ternary main_v147 main_v148 main_v146 main_v149 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v133 main_v150 (broadcastInDim S50000x1 ![0] bcast_S50000_S50000x1_0 : (⟨S50000, .f32⟩ : BufTy).Contents (Elt F) → (⟨S50000x1, .f32⟩ : BufTy).Contents (Elt F)),
    unary main_v150 main_v151 (broadcastInDim S50000x128 ![0, 1] bcast_S50000x1_S50000x128_0_1 : (⟨S50000x1, .f32⟩ : BufTy).Contents (Elt F) → (⟨S50000x128, .f32⟩ : BufTy).Contents (Elt F)),
    binary main_v149 main_v151 main_v152 (mulf : (⟨S50000x128, .f32⟩ : BufTy).Contents (Elt F) → (⟨S50000x128, .f32⟩ : BufTy).Contents (Elt F) → (⟨S50000x128, .f32⟩ : BufTy).Contents (Elt F)),
    binary main_v0 main_v152 main_v153 (addf : (⟨S50000x128, .f32⟩ : BufTy).Contents (Elt F) → (⟨S50000x128, .f32⟩ : BufTy).Contents (Elt F) → (⟨S50000x128, .f32⟩ : BufTy).Contents (Elt F)),
    unary main_arg4 main_v154 ((extractStridedSlice S1x128 ![2, 0] · slices_S9x128_S1x128_2_0) : (⟨S9x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v153 main_v157 main_v158 (addf : (⟨S50000x128, .f32⟩ : BufTy).Contents (Elt F) → (⟨S50000x128, .f32⟩ : BufTy).Contents (Elt F) → (⟨S50000x128, .f32⟩ : BufTy).Contents (Elt F)),
    unary main_arg9 main_v159 ((extractStridedSlice S1x1x400000 ![3, 0, 0] · slices_S9x2x400000_S1x1x400000_3_0_0) : (⟨S9x2x400000, .i32⟩ : BufTy).Contents (Elt F) → (⟨S1x1x400000, .i32⟩ : BufTy).Contents (Elt F)),
    reshape main_v159 main_v160 rfl shapeCasts_S1x1x400000_S400000,
    unary main_arg9 main_v161 ((extractStridedSlice S1x1x400000 ![3, 1, 0] · slices_S9x2x400000_S1x1x400000_3_1_0) : (⟨S9x2x400000, .i32⟩ : BufTy).Contents (Elt F) → (⟨S1x1x400000, .i32⟩ : BufTy).Contents (Elt F)),
    reshape main_v161 main_v162 rfl shapeCasts_S1x1x400000_S400000,
    nullary main_cst_49 (constant S_ .f32 0x3F800000#32),
    unary main_cst_49 main_v163 (broadcastInDim S400000 ![] bcast_S_S400000 : (⟨S_, .f32⟩ : BufTy).Contents (Elt F) → (⟨S400000, .f32⟩ : BufTy).Contents (Elt F)),
    nullary main_cst_50 (constant S_ .f32 0x00000000#32),
    unary main_cst_50 main_v164 (broadcastInDim S50000 ![] bcast_S_S50000 : (⟨S_, .f32⟩ : BufTy).Contents (Elt F) → (⟨S50000, .f32⟩ : BufTy).Contents (Elt F)),
    unary main_v160 main_v165 (broadcastInDim S400000x1 ![0] bcast_S400000_S400000x1_0 : (⟨S400000, .i32⟩ : BufTy).Contents (Elt F) → (⟨S400000x1, .i32⟩ : BufTy).Contents (Elt F)),
    ternary main_v164 main_v165 main_v163 main_v166 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_51 (constant S_ .f32 0x00000000#32),
    unary main_cst_51 main_v167 (broadcastInDim S50000 ![] bcast_S_S50000 : (⟨S_, .f32⟩ : BufTy).Contents (Elt F) → (⟨S50000, .f32⟩ : BufTy).Contents (Elt F)),
    unary main_v162 main_v168 (broadcastInDim S400000x1 ![0] bcast_S400000_S400000x1_0 : (⟨S400000, .i32⟩ : BufTy).Contents (Elt F) → (⟨S400000x1, .i32⟩ : BufTy).Contents (Elt F)),
    ternary main_v167 main_v168 main_v163 main_v169 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_52 (constant S_ .f32 0x00000000#32),
    unary main_cst_52 main_v170 (broadcastInDim S50000 ![] bcast_S_S50000 : (⟨S_, .f32⟩ : BufTy).Contents (Elt F) → (⟨S50000, .f32⟩ : BufTy).Contents (Elt F)),
    binary main_v166 main_v170 main_v171 (cmpf (F := F) .ogt : (⟨S50000, .f32⟩ : BufTy).Contents (Elt F) → (⟨S50000, .f32⟩ : BufTy).Contents (Elt F) → (⟨S50000, .i1⟩ : BufTy).Contents (Elt F)),
    nullary main_cst_53 (constant S_ .f32 0x3F800000#32),
    TRef.unary (TRef.of (T := ⟨S_, .f32⟩) main_cst_53) (TRef.of (T := ⟨S_, .f32⟩) main_call12_v0) id,
    TRef.unary (TRef.of (T := ⟨S_, .f32⟩) main_call12_v0) (TRef.of (T := ⟨S50000, .f32⟩) main_call12_v1) (broadcastInDim S50000 ![] bcast_S_S50000),
    TRef.ternary (TRef.of (T := ⟨S50000, .i1⟩) main_v171) (TRef.of (T := ⟨S50000, .f32⟩) main_v166) (TRef.of (T := ⟨S50000, .f32⟩) main_call12_v1) (TRef.of (T := ⟨S50000, .f32⟩) main_v172) select,
    nullary main_cst_54 (constant S_ .f32 0xBF000000#32),
    unary main_cst_54 main_v173 (broadcastInDim S50000 ![] bcast_S_S50000 : (⟨S_, .f32⟩ : BufTy).Contents (Elt F) → (⟨S50000, .f32⟩ : BufTy).Contents (Elt F)),
    binary main_v172 main_v173 main_v174 (Host.powf : (⟨S50000, .f32⟩ : BufTy).Contents (Elt F) → (⟨S50000, .f32⟩ : BufTy).Contents (Elt F) → (⟨S50000, .f32⟩ : BufTy).Contents (Elt F)),
    nullary main_cst_55 (constant S_ .f32 0x00000000#32),
    unary main_cst_55 main_v175 (broadcastInDim S50000 ![] bcast_S_S50000 : (⟨S_, .f32⟩ : BufTy).Contents (Elt F) → (⟨S50000, .f32⟩ : BufTy).Contents (Elt F)),
    binary main_v166 main_v175 main_v176 (cmpf (F := F) .ogt : (⟨S50000, .f32⟩ : BufTy).Contents (Elt F) → (⟨S50000, .f32⟩ : BufTy).Contents (Elt F) → (⟨S50000, .i1⟩ : BufTy).Contents (Elt F)),
    nullary main_cst_56 (constant S_ .f32 0x00000000#32),
    TRef.unary (TRef.of (T := ⟨S_, .f32⟩) main_cst_56) (TRef.of (T := ⟨S_, .f32⟩) main_call13_v0) id,
    TRef.unary (TRef.of (T := ⟨S_, .f32⟩) main_call13_v0) (TRef.of (T := ⟨S50000, .f32⟩) main_call13_v1) (broadcastInDim S50000 ![] bcast_S_S50000),
    TRef.ternary (TRef.of (T := ⟨S50000, .i1⟩) main_v176) (TRef.of (T := ⟨S50000, .f32⟩) main_v174) (TRef.of (T := ⟨S50000, .f32⟩) main_call13_v1) (TRef.of (T := ⟨S50000, .f32⟩) main_v177) select,
    nullary main_cst_57 (constant S_ .f32 0x00000000#32),
    unary main_cst_57 main_v178 (broadcastInDim S50000 ![] bcast_S_S50000 : (⟨S_, .f32⟩ : BufTy).Contents (Elt F) → (⟨S50000, .f32⟩ : BufTy).Contents (Elt F)),
    binary main_v169 main_v178 main_v179 (cmpf (F := F) .ogt : (⟨S50000, .f32⟩ : BufTy).Contents (Elt F) → (⟨S50000, .f32⟩ : BufTy).Contents (Elt F) → (⟨S50000, .i1⟩ : BufTy).Contents (Elt F)) ]

set_option maxRecDepth 8192 in
set_option maxHeartbeats 4000000 in
/-- The window is its operations run in order. -/
theorem main_part3_eq (c : Dev nD) : main_part3 (F := F) c = seq ops_part3 := rfl

set_option maxRecDepth 8192 in
/-- Every operation touches TensorCore buffers only. -/
theorem ops_part3_sub : (ops_part3 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub ..⟩

set_option maxRecDepth 8192 in
/-- Every operation determines the contents of what it writes. -/
theorem ops_part3_fresh : ∀ op ∈ (ops_part3 : List (HloOp τ sig (Elt F))), op.fresh = ∅ :=
  List.forall_iff_forall_mem.mp (show (ops_part3 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part3_W : List (Ref sig .tc) := [main_cst_45, main_call11_v0, main_call11_v1, main_v133, main_v134, main_v135, main_v136, main_v137, main_v138, main_v139, main_c_46, main_v140, main_v141, main_c_47, main_v142, main_v143, main_v144, main_v145, main_v146, main_cst_48, main_v147, main_v148, main_v149, main_v150, main_v151, main_v152, main_v153, main_v154, main_v155, main_v156, main_v157, main_v158, main_v159, main_v160, main_v161, main_v162, main_cst_49, main_v163, main_cst_50, main_v164, main_v165, main_v166, main_cst_51, main_v167, main_v168, main_v169, main_cst_52, main_v170, main_v171, main_cst_53, main_call12_v0, main_call12_v1, main_v172, main_cst_54, main_v173, main_v174, main_cst_55, main_v175, main_v176, main_cst_56, main_call13_v0, main_call13_v1, main_v177, main_cst_57, main_v178, main_v179]

set_option maxRecDepth 8192 in
/-- Each operation writes one of them. -/
theorem ops_part3_writes : (ops_part3 : List (HloOp τ sig (Elt F))).Forall fun op =>
    op.writes ⊆ (ops_part3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val3.lean ====
/- The step across window 3 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops3

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step3 {W : Valuation τ sig (Elt F)} {x0 x1 x2 x3 x4 x5 x6 x7 x8 x9 : _}
    (h : Live3 W x0 x1 x2 x3 x4 x5 x6 x7 x8 x9) : Live4 (after ops_part3 W) x0 x1 x2 x3 x4 x5 x6 x7 x8 x9 where
  h_main_arg0 := (after_of_writes_sub ops_part3 W ops_part3_writes (by decide)).trans h.h_main_arg0
  h_main_arg1 := (after_of_writes_sub ops_part3 W ops_part3_writes (by decide)).trans h.h_main_arg1
  h_main_arg2 := (after_of_writes_sub ops_part3 W ops_part3_writes (by decide)).trans h.h_main_arg2
  h_main_arg3 := (after_of_writes_sub ops_part3 W ops_part3_writes (by decide)).trans h.h_main_arg3
  h_main_arg4 := (after_of_writes_sub ops_part3 W ops_part3_writes (by decide)).trans h.h_main_arg4
  h_main_arg5 := (after_of_writes_sub ops_part3 W ops_part3_writes (by decide)).trans h.h_main_arg5
  h_main_arg6 := (after_of_writes_sub ops_part3 W ops_part3_writes (by decide)).trans h.h_main_arg6
  h_main_arg7 := (after_of_writes_sub ops_part3 W ops_part3_writes (by decide)).trans h.h_main_arg7
  h_main_arg8 := (after_of_writes_sub ops_part3 W ops_part3_writes (by decide)).trans h.h_main_arg8
  h_main_arg9 := (after_of_writes_sub ops_part3 W ops_part3_writes (by decide)).trans h.h_main_arg9
  h_main_v1 := (after_of_writes_sub ops_part3 W ops_part3_writes (by decide)).trans h.h_main_v1
  h_main_v106 := (after_of_writes_sub ops_part3 W ops_part3_writes (by decide)).trans h.h_main_v106
  h_main_v158 := by
    simp only [ops_part3]
    after_results_simp
    all_goals (try simp only [h.h_main_arg4, h.h_main_v130, h.h_main_v132, h.h_main_v108, h.h_main_arg3, h.h_main_v125, h.h_main_arg1, h.h_main_v110, h.h_main_v0])
    all_goals (try simp only [TRef.ofBuf, TRef.toBuf, cast_eq])
    all_goals rfl
  h_main_v160 := by
    simp only [ops_part3]
    after_results_simp
    all_goals (try simp only [h.h_main_arg9])
    all_goals (try simp only [TRef.ofBuf, TRef.toBuf, cast_eq])
    all_goals rfl
  h_main_v162 := by
    simp only [ops_part3]
    after_results_simp
    all_goals (try simp only [h.h_main_arg9])
    all_goals (try simp only [TRef.ofBuf, TRef.toBuf, cast_eq])
    all_goals rfl
  h_main_v169 := by
    simp only [ops_part3]
    after_results_simp
    all_goals (try simp only [h.h_main_arg9])
    all_goals (try simp only [TRef.ofBuf, TRef.toBuf, cast_eq])
    all_goals rfl
  h_main_v177 := by
    simp only [ops_part3]
    after_results_simp
    all_goals (try simp only [h.h_main_arg9])
    all_goals (try simp only [TRef.ofBuf, TRef.toBuf, cast_eq])
    all_goals rfl
  h_main_v179 := by
    simp only [ops_part3]
    after_results_simp
    all_goals (try simp only [h.h_main_arg9])
    all_goals (try simp only [TRef.ofBuf, TRef.toBuf, cast_eq])
    all_goals rfl

end Cert.ReferenceIdeal.RefRun

end
-- ==== Proof.Ref.Ops4.lean ====
/- Operations 269 … 334 of the 1414 operations of the reference program's @main: its printed window
   main_part4 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 269 … 334, in order. -/
abbrev ops_part4 : List (HloOp τ sig (Elt F)) :=
  [ nullary main_cst_58 (constant S_ .f32 0x3F800000#32),
    TRef.unary (TRef.of (T := ⟨S_, .f32⟩) main_cst_58) (TRef.of (T := ⟨S_, .f32⟩) main_call14_v0) id,
    TRef.unary (TRef.of (T := ⟨S_, .f32⟩) main_call14_v0) (TRef.of (T := ⟨S50000, .f32⟩) main_call14_v1) (broadcastInDim S50000 ![] bcast_S_S50000),
    TRef.ternary (TRef.of (T := ⟨S50000, .i1⟩) main_v179) (TRef.of (T := ⟨S50000, .f32⟩) main_v169) (TRef.of (T := ⟨S50000, .f32⟩) main_call14_v1) (TRef.of (T := ⟨S50000, .f32⟩) main_v180) select,
    nullary main_cst_59 (constant S_ .f32 0xBF000000#32),
    unary main_cst_59 main_v181 (broadcastInDim S50000 ![] bcast_S_S50000 : (⟨S_, .f32⟩ : BufTy).Contents (Elt F) → (⟨S50000, .f32⟩ : BufTy).Contents (Elt F)),
    binary main_v180 main_v181 main_v182 (Host.powf : (⟨S50000, .f32⟩ : BufTy).Contents (Elt F) → (⟨S50000, .f32⟩ : BufTy).Contents (Elt F) → (⟨S50000, .f32⟩ : BufTy).Contents (Elt F)),
    nullary main_cst_60 (constant S_ .f32 0x00000000#32),
    unary main_cst_60 main_v183 (broadcastInDim S50000 ![] bcast_S_S50000 : (⟨S_, .f32⟩ : BufTy).Contents (Elt F) → (⟨S50000, .f32⟩ : BufTy).Contents (Elt F)),
    binary main_v169 main_v183 main_v184 (cmpf (F := F) .ogt : (⟨S50000, .f32⟩ : BufTy).Contents (Elt F) → (⟨S50000, .f32⟩ : BufTy).Contents (Elt F) → (⟨S50000, .i1⟩ : BufTy).Contents (Elt F)),
    nullary main_cst_61 (constant S_ .f32 0x00000000#32),
    TRef.unary (TRef.of (T := ⟨S_, .f32⟩) main_cst_61) (TRef.of (T := ⟨S_, .f32⟩) main_call15_v0) id,
    TRef.unary (TRef.of (T := ⟨S_, .f32⟩) main_call15_v0) (TRef.of (T := ⟨S50000, .f32⟩) main_call15_v1) (broadcastInDim S50000 ![] bcast_S_S50000),
    TRef.ternary (TRef.of (T := ⟨S50000, .i1⟩) main_v184) (TRef.of (T := ⟨S50000, .f32⟩) main_v182) (TRef.of (T := ⟨S50000, .f32⟩) main_call15_v1) (TRef.of (T := ⟨S50000, .f32⟩) main_v185) select,
    unary main_v177 main_v186 (broadcastInDim S50000x1 ![0] bcast_S50000_S50000x1_0 : (⟨S50000, .f32⟩ : BufTy).Contents (Elt F) → (⟨S50000x1, .f32⟩ : BufTy).Contents (Elt F)),
    unary main_v186 main_v187 (broadcastInDim S50000x128 ![0, 1] bcast_S50000x1_S50000x128_0_1 : (⟨S50000x1, .f32⟩ : BufTy).Contents (Elt F) → (⟨S50000x128, .f32⟩ : BufTy).Contents (Elt F)),
    binary main_arg0 main_v187 main_v188 (mulf : (⟨S50000x128, .f32⟩ : BufTy).Contents (Elt F) → (⟨S50000x128, .f32⟩ : BufTy).Contents (Elt F) → (⟨S50000x128, .f32⟩ : BufTy).Contents (Elt F)),
    unary main_arg3 main_v189 ((extractStridedSlice S1x128x128 ![3, 0, 0] · slices_S9x128x128_S1x128x128_3_0_0) : (⟨S9x128x128, .f32⟩ : BufTy).Contents (Elt F) → (⟨S1x128x128, .f32⟩ : BufTy).Contents (Elt F)),
    reshape main_v189 main_v190 rfl shapeCasts_S1x128x128_S128x128,
    binary main_v188 main_v190 main_v191 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_62 (constantI S_ 32 0#32),
    unary main_c_62 main_v192 (broadcastInDim S400000 ![] bcast_S_S400000 : (⟨S_, .i32⟩ : BufTy).Contents (Elt F) → (⟨S400000, .i32⟩ : BufTy).Contents (Elt F)),
    binary main_v160 main_v192 main_v193 (cmpi .slt : (⟨S400000, .i32⟩ : BufTy).Contents (Elt F) → (⟨S400000, .i32⟩ : BufTy).Contents (Elt F) → (⟨S400000, .i1⟩ : BufTy).Contents (Elt F)),
    nullary main_c_63 (constantI S_ 32 50000#32),
    unary main_c_63 main_v194 (broadcastInDim S400000 ![] bcast_S_S400000 : (⟨S_, .i32⟩ : BufTy).Contents (Elt F) → (⟨S400000, .i32⟩ : BufTy).Contents (Elt F)),
    binary main_v160 main_v194 main_v195 (addi : (⟨S400000, .i32⟩ : BufTy).Contents (Elt F) → (⟨S400000, .i32⟩ : BufTy).Contents (Elt F) → (⟨S400000, .i32⟩ : BufTy).Contents (Elt F)),
    ternary main_v193 main_v195 main_v160 main_v196 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v196 main_v197 (broadcastInDim S400000x1 ![0] bcast_S400000_S400000x1_0 : (⟨S400000, .i32⟩ : BufTy).Contents (Elt F) → (⟨S400000x1, .i32⟩ : BufTy).Contents (Elt F)),
    binary main_v191 main_v197 main_v198 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_64 (constant S_ .f32 0x00000000#32),
    unary main_cst_64 main_v199 (broadcastInDim S50000x128 ![] bcast_S_S50000x128 : (⟨S_, .f32⟩ : BufTy).Contents (Elt F) → (⟨S50000x128, .f32⟩ : BufTy).Contents (Elt F)),
    unary main_v162 main_v200 (broadcastInDim S400000x1 ![0] bcast_S400000_S400000x1_0 : (⟨S400000, .i32⟩ : BufTy).Contents (Elt F) → (⟨S400000x1, .i32⟩ : BufTy).Contents (Elt F)),
    ternary main_v199 main_v200 main_v198 main_v201 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v185 main_v202 (broadcastInDim S50000x1 ![0] bcast_S50000_S50000x1_0 : (⟨S50000, .f32⟩ : BufTy).Contents (Elt F) → (⟨S50000x1, .f32⟩ : BufTy).Contents (Elt F)),
    unary main_v202 main_v203 (broadcastInDim S50000x128 ![0, 1] bcast_S50000x1_S50000x128_0_1 : (⟨S50000x1, .f32⟩ : BufTy).Contents (Elt F) → (⟨S50000x128, .f32⟩ : BufTy).Contents (Elt F)),
    binary main_v201 main_v203 main_v204 (mulf : (⟨S50000x128, .f32⟩ : BufTy).Contents (Elt F) → (⟨S50000x128, .f32⟩ : BufTy).Contents (Elt F) → (⟨S50000x128, .f32⟩ : BufTy).Contents (Elt F)),
    binary main_v158 main_v204 main_v205 (addf : (⟨S50000x128, .f32⟩ : BufTy).Contents (Elt F) → (⟨S50000x128, .f32⟩ : BufTy).Contents (Elt F) → (⟨S50000x128, .f32⟩ : BufTy).Contents (Elt F)),
    unary main_arg4 main_v206 ((extractStridedSlice S1x128 ![3, 0] · slices_S9x128_S1x128_3_0) : (⟨S9x128, .f32⟩ : BufTy).Contents (Elt F) → (⟨S1x128, .f32⟩ : BufTy).Contents (Elt F)),
    reshape main_v206 main_v207 rfl shapeCasts_S1x128_S128,
    unary main_v207 main_v208 (broadcastInDim S1x128 ![1] bcast_S128_S1x128_1 : (⟨S128, .f32⟩ : BufTy).Contents (Elt F) → (⟨S1x128, .f32⟩ : BufTy).Contents (Elt F)),
    unary main_v208 main_v209 (broadcastInDim S50000x128 ![0, 1] bcast_S1x128_S50000x128_0_1 : (⟨S1x128, .f32⟩ : BufTy).Contents (Elt F) → (⟨S50000x128, .f32⟩ : BufTy).Contents (Elt F)),
    binary main_v205 main_v209 main_v210 (addf : (⟨S50000x128, .f32⟩ : BufTy).Contents (Elt F) → (⟨S50000x128, .f32⟩ : BufTy).Contents (Elt F) → (⟨S50000x128, .f32⟩ : BufTy).Contents (Elt F)),
    unary main_arg9 main_v211 ((extractStridedSlice S1x1x400000 ![4, 0, 0] · slices_S9x2x400000_S1x1x400000_4_0_0) : (⟨S9x2x400000, .i32⟩ : BufTy).Contents (Elt F) → (⟨S1x1x400000, .i32⟩ : BufTy).Contents (Elt F)),
    reshape main_v211 main_v212 rfl shapeCasts_S1x1x400000_S400000,
    unary main_arg9 main_v213 ((extractStridedSlice S1x1x400000 ![4, 1, 0] · slices_S9x2x400000_S1x1x400000_4_1_0) : (⟨S9x2x400000, .i32⟩ : BufTy).Contents (Elt F) → (⟨S1x1x400000, .i32⟩ : BufTy).Contents (Elt F)),
    reshape main_v213 main_v214 rfl shapeCasts_S1x1x400000_S400000,
    nullary main_cst_65 (constant S_ .f32 0x3F800000#32),
    unary main_cst_65 main_v215 (broadcastInDim S400000 ![] bcast_S_S400000 : (⟨S_, .f32⟩ : BufTy).Contents (Elt F) → (⟨S400000, .f32⟩ : BufTy).Contents (Elt F)),
    nullary main_cst_66 (constant S_ .f32 0x00000000#32),
    unary main_cst_66 main_v216 (broadcastInDim S50000 ![] bcast_S_S50000 : (⟨S_, .f32⟩ : BufTy).Contents (Elt F) → (⟨S50000, .f32⟩ : BufTy).Contents (Elt F)),
    unary main_v212 main_v217 (broadcastInDim S400000x1 ![0] bcast_S400000_S400000x1_0 : (⟨S400000, .i32⟩ : BufTy).Contents (Elt F) → (⟨S400000x1, .i32⟩ : BufTy).Contents (Elt F)),
    ternary main_v216 main_v217 main_v215 main_v218 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_67 (constant S_ .f32 0x00000000#32),
    unary main_cst_67 main_v219 (broadcastInDim S50000 ![] bcast_S_S50000 : (⟨S_, .f32⟩ : BufTy).Contents (Elt F) → (⟨S50000, .f32⟩ : BufTy).Contents (Elt F)),
    unary main_v214 main_v220 (broadcastInDim S400000x1 ![0] bcast_S400000_S400000x1_0 : (⟨S400000, .i32⟩ : BufTy).Contents (Elt F) → (⟨S400000x1, .i32⟩ : BufTy).Contents (Elt F)),
    ternary main_v219 main_v220 main_v215 main_v221 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_68 (constant S_ .f32 0x00000000#32),
    unary main_cst_68 main_v222 (broadcastInDim S50000 ![] bcast_S_S50000 : (⟨S_, .f32⟩ : BufTy).Contents (Elt F) → (⟨S50000, .f32⟩ : BufTy).Contents (Elt F)),
    binary main_v218 main_v222 main_v223 (cmpf (F := F) .ogt : (⟨S50000, .f32⟩ : BufTy).Contents (Elt F) → (⟨S50000, .f32⟩ : BufTy).Contents (Elt F) → (⟨S50000, .i1⟩ : BufTy).Contents (Elt F)),
    nullary main_cst_69 (constant S_ .f32 0x3F800000#32),
    TRef.unary (TRef.of (T := ⟨S_, .f32⟩) main_cst_69) (TRef.of (T := ⟨S_, .f32⟩) main_call16_v0) id,
    TRef.unary (TRef.of (T := ⟨S_, .f32⟩) main_call16_v0) (TRef.of (T := ⟨S50000, .f32⟩) main_call16_v1) (broadcastInDim S50000 ![] bcast_S_S50000),
    TRef.ternary (TRef.of (T := ⟨S50000, .i1⟩) main_v223) (TRef.of (T := ⟨S50000, .f32⟩) main_v218) (TRef.of (T := ⟨S50000, .f32⟩) main_call16_v1) (TRef.of (T := ⟨S50000, .f32⟩) main_v224) select,
    nullary main_cst_70 (constant S_ .f32 0xBF000000#32),
    unary main_cst_70 main_v225 (broadcastInDim S50000 ![] bcast_S_S50000 : (⟨S_, .f32⟩ : BufTy).Contents (Elt F) → (⟨S50000, .f32⟩ : BufTy).Contents (Elt F)),
    binary main_v224 main_v225 main_v226 (Host.powf : (⟨S50000, .f32⟩ : BufTy).Contents (Elt F) → (⟨S50000, .f32⟩ : BufTy).Contents (Elt F) → (⟨S50000, .f32⟩ : BufTy).Contents (Elt F)) ]

set_option maxRecDepth 8192 in
set_option maxHeartbeats 4000000 in
/-- The window is its operations run in order. -/
theorem main_part4_eq (c : Dev nD) : main_part4 (F := F) c = seq ops_part4 := rfl

set_option maxRecDepth 8192 in
/-- Every operation touches TensorCore buffers only. -/
theorem ops_part4_sub : (ops_part4 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub ..⟩

set_option maxRecDepth 8192 in
/-- Every operation determines the contents of what it writes. -/
theorem ops_part4_fresh : ∀ op ∈ (ops_part4 : List (HloOp τ sig (Elt F))), op.fresh = ∅ :=
  List.forall_iff_forall_mem.mp (show (ops_part4 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part4_W : List (Ref sig .tc) := [main_cst_58, main_call14_v0, main_call14_v1, main_v180, main_cst_59, main_v181, main_v182, main_cst_60, main_v183, main_v184, main_cst_61, main_call15_v0, main_call15_v1, main_v185, main_v186, main_v187, main_v188, main_v189, main_v190, main_v191, main_c_62, main_v192, main_v193, main_c_63, main_v194, main_v195, main_v196, main_v197, main_v198, main_cst_64, main_v199, main_v200, main_v201, main_v202, main_v203, main_v204, main_v205, main_v206, main_v207, main_v208, main_v209, main_v210, main_v211, main_v212, main_v213, main_v214, main_cst_65, main_v215, main_cst_66, main_v216, main_v217, main_v218, main_cst_67, main_v219, main_v220, main_v221, main_cst_68, main_v222, main_v223, main_cst_69, main_call16_v0, main_call16_v1, main_v224, main_cst_70, main_v225, main_v226]

set_option maxRecDepth 8192 in
/-- Each operation writes one of them. -/
theorem ops_part4_writes : (ops_part4 : List (HloOp τ sig (Elt F))).Forall fun op =>
    op.writes ⊆ (ops_part4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val4.lean ====
/- The step across window 4 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops4

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step4 {W : Valuation τ sig (Elt F)} {x0 x1 x2 x3 x4 x5 x6 x7 x8 x9 : _}
    (h : Live4 W x0 x1 x2 x3 x4 x5 x6 x7 x8 x9) : Live5 (after ops_part4 W) x0 x1 x2 x3 x4 x5 x6 x7 x8 x9 where
  h_main_arg0 := (after_of_writes_sub ops_part4 W ops_part4_writes (by decide)).trans h.h_main_arg0
  h_main_arg1 := (after_of_writes_sub ops_part4 W ops_part4_writes (by decide)).trans h.h_main_arg1
  h_main_arg2 := (after_of_writes_sub ops_part4 W ops_part4_writes (by decide)).trans h.h_main_arg2
  h_main_arg3 := (after_of_writes_sub ops_part4 W ops_part4_writes (by decide)).trans h.h_main_arg3
  h_main_arg4 := (after_of_writes_sub ops_part4 W ops_part4_writes (by decide)).trans h.h_main_arg4
  h_main_arg5 := (after_of_writes_sub ops_part4 W ops_part4_writes (by decide)).trans h.h_main_arg5
  h_main_arg6 := (after_of_writes_sub ops_part4 W ops_part4_writes (by decide)).trans h.h_main_arg6
  h_main_arg7 := (after_of_writes_sub ops_part4 W ops_part4_writes (by decide)).trans h.h_main_arg7
  h_main_arg8 := (after_of_writes_sub ops_part4 W ops_part4_writes (by decide)).trans h.h_main_arg8
  h_main_arg9 := (after_of_writes_sub ops_part4 W ops_part4_writes (by decide)).trans h.h_main_arg9
  h_main_v1 := (after_of_writes_sub ops_part4 W ops_part4_writes (by decide)).trans h.h_main_v1
  h_main_v106 := (after_of_writes_sub ops_part4 W ops_part4_writes (by decide)).trans h.h_main_v106
  h_main_v210 := by
    simp only [ops_part4]
    after_results_simp
    all_goals (try simp only [h.h_main_arg4, h.h_main_v169, h.h_main_v179, h.h_main_v160, h.h_main_arg3, h.h_main_v177, h.h_main_arg0, h.h_main_v162, h.h_main_v158])
    all_goals (try simp only [TRef.ofBuf, TRef.toBuf, cast_eq])
    all_goals rfl
  h_main_v212 := by
    simp only [ops_part4]
    after_results_simp
    all_goals (try simp only [h.h_main_arg9])
    all_goals (try simp only [TRef.ofBuf, TRef.toBuf, cast_eq])
    all_goals rfl
  h_main_v214 := by
    simp only [ops_part4]
    after_results_simp
    all_goals (try simp only [h.h_main_arg9])
    all_goals (try simp only [TRef.ofBuf, TRef.toBuf, cast_eq])
    all_goals rfl
  h_main_v218 := by
    simp only [ops_part4]
    after_results_simp
    all_goals (try simp only [h.h_main_arg9])
    all_goals (try simp only [TRef.ofBuf, TRef.toBuf, cast_eq])
    all_goals rfl
  h_main_v221 := by
    simp only [ops_part4]
    after_results_simp
    all_goals (try simp only [h.h_main_arg9])
    all_goals (try simp only [TRef.ofBuf, TRef.toBuf, cast_eq])
    all_goals rfl
  h_main_v226 := by
    simp only [ops_part4]
    after_results_simp
    all_goals (try simp only [h.h_main_arg9])
    all_goals (try simp only [TRef.ofBuf, TRef.toBuf, cast_eq])
    all_goals rfl

end Cert.ReferenceIdeal.RefRun

end
-- ==== Proof.Ref.Ops5.lean ====
/- Operations 335 … 400 of the 1414 operations of the reference program's @main: its printed window
   main_part5 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 335 … 400, in order. -/
abbrev ops_part5 : List (HloOp τ sig (Elt F)) :=
  [ nullary main_cst_71 (constant S_ .f32 0x00000000#32),
    unary main_cst_71 main_v227 (broadcastInDim S50000 ![] bcast_S_S50000 : (⟨S_, .f32⟩ : BufTy).Contents (Elt F) → (⟨S50000, .f32⟩ : BufTy).Contents (Elt F)),
    binary main_v218 main_v227 main_v228 (cmpf (F := F) .ogt : (⟨S50000, .f32⟩ : BufTy).Contents (Elt F) → (⟨S50000, .f32⟩ : BufTy).Contents (Elt F) → (⟨S50000, .i1⟩ : BufTy).Contents (Elt F)),
    nullary main_cst_72 (constant S_ .f32 0x00000000#32),
    TRef.unary (TRef.of (T := ⟨S_, .f32⟩) main_cst_72) (TRef.of (T := ⟨S_, .f32⟩) main_call17_v0) id,
    TRef.unary (TRef.of (T := ⟨S_, .f32⟩) main_call17_v0) (TRef.of (T := ⟨S50000, .f32⟩) main_call17_v1) (broadcastInDim S50000 ![] bcast_S_S50000),
    TRef.ternary (TRef.of (T := ⟨S50000, .i1⟩) main_v228) (TRef.of (T := ⟨S50000, .f32⟩) main_v226) (TRef.of (T := ⟨S50000, .f32⟩) main_call17_v1) (TRef.of (T := ⟨S50000, .f32⟩) main_v229) select,
    nullary main_cst_73 (constant S_ .f32 0x00000000#32),
    unary main_cst_73 main_v230 (broadcastInDim S50000 ![] bcast_S_S50000 : (⟨S_, .f32⟩ : BufTy).Contents (Elt F) → (⟨S50000, .f32⟩ : BufTy).Contents (Elt F)),
    binary main_v221 main_v230 main_v231 (cmpf (F := F) .ogt : (⟨S50000, .f32⟩ : BufTy).Contents (Elt F) → (⟨S50000, .f32⟩ : BufTy).Contents (Elt F) → (⟨S50000, .i1⟩ : BufTy).Contents (Elt F)),
    nullary main_cst_74 (constant S_ .f32 0x3F800000#32),
    TRef.unary (TRef.of (T := ⟨S_, .f32⟩) main_cst_74) (TRef.of (T := ⟨S_, .f32⟩) main_call18_v0) id,
    TRef.unary (TRef.of (T := ⟨S_, .f32⟩) main_call18_v0) (TRef.of (T := ⟨S50000, .f32⟩) main_call18_v1) (broadcastInDim S50000 ![] bcast_S_S50000),
    TRef.ternary (TRef.of (T := ⟨S50000, .i1⟩) main_v231) (TRef.of (T := ⟨S50000, .f32⟩) main_v221) (TRef.of (T := ⟨S50000, .f32⟩) main_call18_v1) (TRef.of (T := ⟨S50000, .f32⟩) main_v232) select,
    nullary main_cst_75 (constant S_ .f32 0xBF000000#32),
    unary main_cst_75 main_v233 (broadcastInDim S50000 ![] bcast_S_S50000 : (⟨S_, .f32⟩ : BufTy).Contents (Elt F) → (⟨S50000, .f32⟩ : BufTy).Contents (Elt F)),
    binary main_v232 main_v233 main_v234 (Host.powf : (⟨S50000, .f32⟩ : BufTy).Contents (Elt F) → (⟨S50000, .f32⟩ : BufTy).Contents (Elt F) → (⟨S50000, .f32⟩ : BufTy).Contents (Elt F)),
    nullary main_cst_76 (constant S_ .f32 0x00000000#32),
    unary main_cst_76 main_v235 (broadcastInDim S50000 ![] bcast_S_S50000 : (⟨S_, .f32⟩ : BufTy).Contents (Elt F) → (⟨S50000, .f32⟩ : BufTy).Contents (Elt F)),
    binary main_v221 main_v235 main_v236 (cmpf (F := F) .ogt : (⟨S50000, .f32⟩ : BufTy).Contents (Elt F) → (⟨S50000, .f32⟩ : BufTy).Contents (Elt F) → (⟨S50000, .i1⟩ : BufTy).Contents (Elt F)),
    nullary main_cst_77 (constant S_ .f32 0x00000000#32),
    TRef.unary (TRef.of (T := ⟨S_, .f32⟩) main_cst_77) (TRef.of (T := ⟨S_, .f32⟩) main_call19_v0) id,
    TRef.unary (TRef.of (T := ⟨S_, .f32⟩) main_call19_v0) (TRef.of (T := ⟨S50000, .f32⟩) main_call19_v1) (broadcastInDim S50000 ![] bcast_S_S50000),
    TRef.ternary (TRef.of (T := ⟨S50000, .i1⟩) main_v236) (TRef.of (T := ⟨S50000, .f32⟩) main_v234) (TRef.of (T := ⟨S50000, .f32⟩) main_call19_v1) (TRef.of (T := ⟨S50000, .f32⟩) main_v237) select,
    unary main_v229 main_v238 (broadcastInDim S50000x1 ![0] bcast_S50000_S50000x1_0 : (⟨S50000, .f32⟩ : BufTy).Contents (Elt F) → (⟨S50000x1, .f32⟩ : BufTy).Contents (Elt F)),
    unary main_v238 main_v239 (broadcastInDim S50000x128 ![0, 1] bcast_S50000x1_S50000x128_0_1 : (⟨S50000x1, .f32⟩ : BufTy).Contents (Elt F) → (⟨S50000x128, .f32⟩ : BufTy).Contents (Elt F)),
    binary main_arg2 main_v239 main_v240 (mulf : (⟨S50000x128, .f32⟩ : BufTy).Contents (Elt F) → (⟨S50000x128, .f32⟩ : BufTy).Contents (Elt F) → (⟨S50000x128, .f32⟩ : BufTy).Contents (Elt F)),
    unary main_arg3 main_v241 ((extractStridedSlice S1x128x128 ![4, 0, 0] · slices_S9x128x128_S1x128x128_4_0_0) : (⟨S9x128x128, .f32⟩ : BufTy).Contents (Elt F) → (⟨S1x128x128, .f32⟩ : BufTy).Contents (Elt F)),
    reshape main_v241 main_v242 rfl shapeCasts_S1x128x128_S128x128,
    binary main_v240 main_v242 main_v243 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_78 (constantI S_ 32 0#32),
    unary main_c_78 main_v244 (broadcastInDim S400000 ![] bcast_S_S400000 : (⟨S_, .i32⟩ : BufTy).Contents (Elt F) → (⟨S400000, .i32⟩ : BufTy).Contents (Elt F)),
    binary main_v212 main_v244 main_v245 (cmpi .slt : (⟨S400000, .i32⟩ : BufTy).Contents (Elt F) → (⟨S400000, .i32⟩ : BufTy).Contents (Elt F) → (⟨S400000, .i1⟩ : BufTy).Contents (Elt F)),
    nullary main_c_79 (constantI S_ 32 50000#32),
    unary main_c_79 main_v246 (broadcastInDim S400000 ![] bcast_S_S400000 : (⟨S_, .i32⟩ : BufTy).Contents (Elt F) → (⟨S400000, .i32⟩ : BufTy).Contents (Elt F)),
    binary main_v212 main_v246 main_v247 (addi : (⟨S400000, .i32⟩ : BufTy).Contents (Elt F) → (⟨S400000, .i32⟩ : BufTy).Contents (Elt F) → (⟨S400000, .i32⟩ : BufTy).Contents (Elt F)),
    ternary main_v245 main_v247 main_v212 main_v248 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v248 main_v249 (broadcastInDim S400000x1 ![0] bcast_S400000_S400000x1_0 : (⟨S400000, .i32⟩ : BufTy).Contents (Elt F) → (⟨S400000x1, .i32⟩ : BufTy).Contents (Elt F)),
    binary main_v243 main_v249 main_v250 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_80 (constant S_ .f32 0x00000000#32),
    unary main_cst_80 main_v251 (broadcastInDim S50000x128 ![] bcast_S_S50000x128 : (⟨S_, .f32⟩ : BufTy).Contents (Elt F) → (⟨S50000x128, .f32⟩ : BufTy).Contents (Elt F)),
    unary main_v214 main_v252 (broadcastInDim S400000x1 ![0] bcast_S400000_S400000x1_0 : (⟨S400000, .i32⟩ : BufTy).Contents (Elt F) → (⟨S400000x1, .i32⟩ : BufTy).Contents (Elt F)),
    ternary main_v251 main_v252 main_v250 main_v253 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v237 main_v254 (broadcastInDim S50000x1 ![0] bcast_S50000_S50000x1_0 : (⟨S50000, .f32⟩ : BufTy).Contents (Elt F) → (⟨S50000x1, .f32⟩ : BufTy).Contents (Elt F)),
    unary main_v254 main_v255 (broadcastInDim S50000x128 ![0, 1] bcast_S50000x1_S50000x128_0_1 : (⟨S50000x1, .f32⟩ : BufTy).Contents (Elt F) → (⟨S50000x128, .f32⟩ : BufTy).Contents (Elt F)),
    binary main_v253 main_v255 main_v256 (mulf : (⟨S50000x128, .f32⟩ : BufTy).Contents (Elt F) → (⟨S50000x128, .f32⟩ : BufTy).Contents (Elt F) → (⟨S50000x128, .f32⟩ : BufTy).Contents (Elt F)),
    binary main_v1 main_v256 main_v257 (addf : (⟨S50000x128, .f32⟩ : BufTy).Contents (Elt F) → (⟨S50000x128, .f32⟩ : BufTy).Contents (Elt F) → (⟨S50000x128, .f32⟩ : BufTy).Contents (Elt F)),
    unary main_arg4 main_v258 ((extractStridedSlice S1x128 ![4, 0] · slices_S9x128_S1x128_4_0) : (⟨S9x128, .f32⟩ : BufTy).Contents (Elt F) → (⟨S1x128, .f32⟩ : BufTy).Contents (Elt F)),
    reshape main_v258 main_v259 rfl shapeCasts_S1x128_S128,
    unary main_v259 main_v260 (broadcastInDim S1x128 ![1] bcast_S128_S1x128_1 : (⟨S128, .f32⟩ : BufTy).Contents (Elt F) → (⟨S1x128, .f32⟩ : BufTy).Contents (Elt F)),
    unary main_v260 main_v261 (broadcastInDim S50000x128 ![0, 1] bcast_S1x128_S50000x128_0_1 : (⟨S1x128, .f32⟩ : BufTy).Contents (Elt F) → (⟨S50000x128, .f32⟩ : BufTy).Contents (Elt F)),
    binary main_v257 main_v261 main_v262 (addf : (⟨S50000x128, .f32⟩ : BufTy).Contents (Elt F) → (⟨S50000x128, .f32⟩ : BufTy).Contents (Elt F) → (⟨S50000x128, .f32⟩ : BufTy).Contents (Elt F)),
    unary main_arg9 main_v263 ((extractStridedSlice S1x1x400000 ![5, 0, 0] · slices_S9x2x400000_S1x1x400000_5_0_0) : (⟨S9x2x400000, .i32⟩ : BufTy).Contents (Elt F) → (⟨S1x1x400000, .i32⟩ : BufTy).Contents (Elt F)),
    reshape main_v263 main_v264 rfl shapeCasts_S1x1x400000_S400000,
    unary main_arg9 main_v265 ((extractStridedSlice S1x1x400000 ![5, 1, 0] · slices_S9x2x400000_S1x1x400000_5_1_0) : (⟨S9x2x400000, .i32⟩ : BufTy).Contents (Elt F) → (⟨S1x1x400000, .i32⟩ : BufTy).Contents (Elt F)),
    reshape main_v265 main_v266 rfl shapeCasts_S1x1x400000_S400000,
    nullary main_cst_81 (constant S_ .f32 0x3F800000#32),
    unary main_cst_81 main_v267 (broadcastInDim S400000 ![] bcast_S_S400000 : (⟨S_, .f32⟩ : BufTy).Contents (Elt F) → (⟨S400000, .f32⟩ : BufTy).Contents (Elt F)),
    nullary main_cst_82 (constant S_ .f32 0x00000000#32),
    unary main_cst_82 main_v268 (broadcastInDim S50000 ![] bcast_S_S50000 : (⟨S_, .f32⟩ : BufTy).Contents (Elt F) → (⟨S50000, .f32⟩ : BufTy).Contents (Elt F)),
    unary main_v264 main_v269 (broadcastInDim S400000x1 ![0] bcast_S400000_S400000x1_0 : (⟨S400000, .i32⟩ : BufTy).Contents (Elt F) → (⟨S400000x1, .i32⟩ : BufTy).Contents (Elt F)),
    ternary main_v268 main_v269 main_v267 main_v270 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_83 (constant S_ .f32 0x00000000#32),
    unary main_cst_83 main_v271 (broadcastInDim S50000 ![] bcast_S_S50000 : (⟨S_, .f32⟩ : BufTy).Contents (Elt F) → (⟨S50000, .f32⟩ : BufTy).Contents (Elt F)),
    unary main_v266 main_v272 (broadcastInDim S400000x1 ![0] bcast_S400000_S400000x1_0 : (⟨S400000, .i32⟩ : BufTy).Contents (Elt F) → (⟨S400000x1, .i32⟩ : BufTy).Contents (Elt F)),
    ternary main_v271 main_v272 main_v267 main_v273 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) ]

set_option maxRecDepth 8192 in
set_option maxHeartbeats 4000000 in
/-- The window is its operations run in order. -/
theorem main_part5_eq (c : Dev nD) : main_part5 (F := F) c = seq ops_part5 := rfl

set_option maxRecDepth 8192 in
/-- Every operation touches TensorCore buffers only. -/
theorem ops_part5_sub : (ops_part5 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub ..⟩

set_option maxRecDepth 8192 in
/-- Every operation determines the contents of what it writes. -/
theorem ops_part5_fresh : ∀ op ∈ (ops_part5 : List (HloOp τ sig (Elt F))), op.fresh = ∅ :=
  List.forall_iff_forall_mem.mp (show (ops_part5 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part5_W : List (Ref sig .tc) := [main_cst_71, main_v227, main_v228, main_cst_72, main_call17_v0, main_call17_v1, main_v229, main_cst_73, main_v230, main_v231, main_cst_74, main_call18_v0, main_call18_v1, main_v232, main_cst_75, main_v233, main_v234, main_cst_76, main_v235, main_v236, main_cst_77, main_call19_v0, main_call19_v1, main_v237, main_v238, main_v239, main_v240, main_v241, main_v242, main_v243, main_c_78, main_v244, main_v245, main_c_79, main_v246, main_v247, main_v248, main_v249, main_v250, main_cst_80, main_v251, main_v252, main_v253, main_v254, main_v255, main_v256, main_v257, main_v258, main_v259, main_v260, main_v261, main_v262, main_v263, main_v264, main_v265, main_v266, main_cst_81, main_v267, main_cst_82, main_v268, main_v269, main_v270, main_cst_83, main_v271, main_v272, main_v273]

set_option maxRecDepth 8192 in
/-- Each operation writes one of them. -/
theorem ops_part5_writes : (ops_part5 : List (HloOp τ sig (Elt F))).Forall fun op =>
    op.writes ⊆ (ops_part5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val5.lean ====
/- The step across window 5 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops5

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step5 {W : Valuation τ sig (Elt F)} {x0 x1 x2 x3 x4 x5 x6 x7 x8 x9 : _}
    (h : Live5 W x0 x1 x2 x3 x4 x5 x6 x7 x8 x9) : Live6 (after ops_part5 W) x0 x1 x2 x3 x4 x5 x6 x7 x8 x9 where
  h_main_arg0 := (after_of_writes_sub ops_part5 W ops_part5_writes (by decide)).trans h.h_main_arg0
  h_main_arg1 := (after_of_writes_sub ops_part5 W ops_part5_writes (by decide)).trans h.h_main_arg1
  h_main_arg2 := (after_of_writes_sub ops_part5 W ops_part5_writes (by decide)).trans h.h_main_arg2
  h_main_arg3 := (after_of_writes_sub ops_part5 W ops_part5_writes (by decide)).trans h.h_main_arg3
  h_main_arg4 := (after_of_writes_sub ops_part5 W ops_part5_writes (by decide)).trans h.h_main_arg4
  h_main_arg5 := (after_of_writes_sub ops_part5 W ops_part5_writes (by decide)).trans h.h_main_arg5
  h_main_arg6 := (after_of_writes_sub ops_part5 W ops_part5_writes (by decide)).trans h.h_main_arg6
  h_main_arg7 := (after_of_writes_sub ops_part5 W ops_part5_writes (by decide)).trans h.h_main_arg7
  h_main_arg8 := (after_of_writes_sub ops_part5 W ops_part5_writes (by decide)).trans h.h_main_arg8
  h_main_arg9 := (after_of_writes_sub ops_part5 W ops_part5_writes (by decide)).trans h.h_main_arg9
  h_main_v106 := (after_of_writes_sub ops_part5 W ops_part5_writes (by decide)).trans h.h_main_v106
  h_main_v210 := (after_of_writes_sub ops_part5 W ops_part5_writes (by decide)).trans h.h_main_v210
  h_main_v262 := by
    simp only [ops_part5]
    after_results_simp
    all_goals (try simp only [h.h_main_arg4, h.h_main_v221, h.h_main_v212, h.h_main_arg3, h.h_main_v226, h.h_main_v218, h.h_main_arg2, h.h_main_v214, h.h_main_v1])
    all_goals (try simp only [TRef.ofBuf, TRef.toBuf, cast_eq])
    all_goals rfl
  h_main_v264 := by
    simp only [ops_part5]
    after_results_simp
    all_goals (try simp only [h.h_main_arg9])
    all_goals (try simp only [TRef.ofBuf, TRef.toBuf, cast_eq])
    all_goals rfl
  h_main_v266 := by
    simp only [ops_part5]
    after_results_simp
    all_goals (try simp only [h.h_main_arg9])
    all_goals (try simp only [TRef.ofBuf, TRef.toBuf, cast_eq])
    all_goals rfl
  h_main_v270 := by
    simp only [ops_part5]
    after_results_simp
    all_goals (try simp only [h.h_main_arg9])
    all_goals (try simp only [TRef.ofBuf, TRef.toBuf, cast_eq])
    all_goals rfl
  h_main_v273 := by
    simp only [ops_part5]
    after_results_simp
    all_goals (try simp only [h.h_main_arg9])
    all_goals (try simp only [TRef.ofBuf, TRef.toBuf, cast_eq])
    all_goals rfl

end Cert.ReferenceIdeal.RefRun

end
-- ==== Proof.Ref.Ops6.lean ====
/- Operations 401 … 468 of the 1414 operations of the reference program's @main: its printed window
   main_part6 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 401 … 468, in order. -/
abbrev ops_part6 : List (HloOp τ sig (Elt F)) :=
  [ nullary main_cst_84 (constant S_ .f32 0x00000000#32),
    unary main_cst_84 main_v274 (broadcastInDim S50000 ![] bcast_S_S50000 : (⟨S_, .f32⟩ : BufTy).Contents (Elt F) → (⟨S50000, .f32⟩ : BufTy).Contents (Elt F)),
    binary main_v270 main_v274 main_v275 (cmpf (F := F) .ogt : (⟨S50000, .f32⟩ : BufTy).Contents (Elt F) → (⟨S50000, .f32⟩ : BufTy).Contents (Elt F) → (⟨S50000, .i1⟩ : BufTy).Contents (Elt F)),
    nullary main_cst_85 (constant S_ .f32 0x3F800000#32),
    TRef.unary (TRef.of (T := ⟨S_, .f32⟩) main_cst_85) (TRef.of (T := ⟨S_, .f32⟩) main_call20_v0) id,
    TRef.unary (TRef.of (T := ⟨S_, .f32⟩) main_call20_v0) (TRef.of (T := ⟨S50000, .f32⟩) main_call20_v1) (broadcastInDim S50000 ![] bcast_S_S50000),
    TRef.ternary (TRef.of (T := ⟨S50000, .i1⟩) main_v275) (TRef.of (T := ⟨S50000, .f32⟩) main_v270) (TRef.of (T := ⟨S50000, .f32⟩) main_call20_v1) (TRef.of (T := ⟨S50000, .f32⟩) main_v276) select,
    nullary main_cst_86 (constant S_ .f32 0xBF000000#32),
    unary main_cst_86 main_v277 (broadcastInDim S50000 ![] bcast_S_S50000 : (⟨S_, .f32⟩ : BufTy).Contents (Elt F) → (⟨S50000, .f32⟩ : BufTy).Contents (Elt F)),
    binary main_v276 main_v277 main_v278 (Host.powf : (⟨S50000, .f32⟩ : BufTy).Contents (Elt F) → (⟨S50000, .f32⟩ : BufTy).Contents (Elt F) → (⟨S50000, .f32⟩ : BufTy).Contents (Elt F)),
    nullary main_cst_87 (constant S_ .f32 0x00000000#32),
    unary main_cst_87 main_v279 (broadcastInDim S50000 ![] bcast_S_S50000 : (⟨S_, .f32⟩ : BufTy).Contents (Elt F) → (⟨S50000, .f32⟩ : BufTy).Contents (Elt F)),
    binary main_v270 main_v279 main_v280 (cmpf (F := F) .ogt : (⟨S50000, .f32⟩ : BufTy).Contents (Elt F) → (⟨S50000, .f32⟩ : BufTy).Contents (Elt F) → (⟨S50000, .i1⟩ : BufTy).Contents (Elt F)),
    nullary main_cst_88 (constant S_ .f32 0x00000000#32),
    TRef.unary (TRef.of (T := ⟨S_, .f32⟩) main_cst_88) (TRef.of (T := ⟨S_, .f32⟩) main_call21_v0) id,
    TRef.unary (TRef.of (T := ⟨S_, .f32⟩) main_call21_v0) (TRef.of (T := ⟨S50000, .f32⟩) main_call21_v1) (broadcastInDim S50000 ![] bcast_S_S50000),
    TRef.ternary (TRef.of (T := ⟨S50000, .i1⟩) main_v280) (TRef.of (T := ⟨S50000, .f32⟩) main_v278) (TRef.of (T := ⟨S50000, .f32⟩) main_call21_v1) (TRef.of (T := ⟨S50000, .f32⟩) main_v281) select,
    nullary main_cst_89 (constant S_ .f32 0x00000000#32),
    unary main_cst_89 main_v282 (broadcastInDim S50000 ![] bcast_S_S50000 : (⟨S_, .f32⟩ : BufTy).Contents (Elt F) → (⟨S50000, .f32⟩ : BufTy).Contents (Elt F)),
    binary main_v273 main_v282 main_v283 (cmpf (F := F) .ogt : (⟨S50000, .f32⟩ : BufTy).Contents (Elt F) → (⟨S50000, .f32⟩ : BufTy).Contents (Elt F) → (⟨S50000, .i1⟩ : BufTy).Contents (Elt F)),
    nullary main_cst_90 (constant S_ .f32 0x3F800000#32),
    TRef.unary (TRef.of (T := ⟨S_, .f32⟩) main_cst_90) (TRef.of (T := ⟨S_, .f32⟩) main_call22_v0) id,
    TRef.unary (TRef.of (T := ⟨S_, .f32⟩) main_call22_v0) (TRef.of (T := ⟨S50000, .f32⟩) main_call22_v1) (broadcastInDim S50000 ![] bcast_S_S50000),
    TRef.ternary (TRef.of (T := ⟨S50000, .i1⟩) main_v283) (TRef.of (T := ⟨S50000, .f32⟩) main_v273) (TRef.of (T := ⟨S50000, .f32⟩) main_call22_v1) (TRef.of (T := ⟨S50000, .f32⟩) main_v284) select,
    nullary main_cst_91 (constant S_ .f32 0xBF000000#32),
    unary main_cst_91 main_v285 (broadcastInDim S50000 ![] bcast_S_S50000 : (⟨S_, .f32⟩ : BufTy).Contents (Elt F) → (⟨S50000, .f32⟩ : BufTy).Contents (Elt F)),
    binary main_v284 main_v285 main_v286 (Host.powf : (⟨S50000, .f32⟩ : BufTy).Contents (Elt F) → (⟨S50000, .f32⟩ : BufTy).Contents (Elt F) → (⟨S50000, .f32⟩ : BufTy).Contents (Elt F)),
    nullary main_cst_92 (constant S_ .f32 0x00000000#32),
    unary main_cst_92 main_v287 (broadcastInDim S50000 ![] bcast_S_S50000 : (⟨S_, .f32⟩ : BufTy).Contents (Elt F) → (⟨S50000, .f32⟩ : BufTy).Contents (Elt F)),
    binary main_v273 main_v287 main_v288 (cmpf (F := F) .ogt : (⟨S50000, .f32⟩ : BufTy).Contents (Elt F) → (⟨S50000, .f32⟩ : BufTy).Contents (Elt F) → (⟨S50000, .i1⟩ : BufTy).Contents (Elt F)),
    nullary main_cst_93 (constant S_ .f32 0x00000000#32),
    TRef.unary (TRef.of (T := ⟨S_, .f32⟩) main_cst_93) (TRef.of (T := ⟨S_, .f32⟩) main_call23_v0) id,
    TRef.unary (TRef.of (T := ⟨S_, .f32⟩) main_call23_v0) (TRef.of (T := ⟨S50000, .f32⟩) main_call23_v1) (broadcastInDim S50000 ![] bcast_S_S50000),
    TRef.ternary (TRef.of (T := ⟨S50000, .i1⟩) main_v288) (TRef.of (T := ⟨S50000, .f32⟩) main_v286) (TRef.of (T := ⟨S50000, .f32⟩) main_call23_v1) (TRef.of (T := ⟨S50000, .f32⟩) main_v289) select,
    unary main_v281 main_v290 (broadcastInDim S50000x1 ![0] bcast_S50000_S50000x1_0 : (⟨S50000, .f32⟩ : BufTy).Contents (Elt F) → (⟨S50000x1, .f32⟩ : BufTy).Contents (Elt F)),
    unary main_v290 main_v291 (broadcastInDim S50000x128 ![0, 1] bcast_S50000x1_S50000x128_0_1 : (⟨S50000x1, .f32⟩ : BufTy).Contents (Elt F) → (⟨S50000x128, .f32⟩ : BufTy).Contents (Elt F)),
    binary main_arg2 main_v291 main_v292 (mulf : (⟨S50000x128, .f32⟩ : BufTy).Contents (Elt F) → (⟨S50000x128, .f32⟩ : BufTy).Contents (Elt F) → (⟨S50000x128, .f32⟩ : BufTy).Contents (Elt F)),
    unary main_arg3 main_v293 ((extractStridedSlice S1x128x128 ![5, 0, 0] · slices_S9x128x128_S1x128x128_5_0_0) : (⟨S9x128x128, .f32⟩ : BufTy).Contents (Elt F) → (⟨S1x128x128, .f32⟩ : BufTy).Contents (Elt F)),
    reshape main_v293 main_v294 rfl shapeCasts_S1x128x128_S128x128,
    binary main_v292 main_v294 main_v295 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_94 (constantI S_ 32 0#32),
    unary main_c_94 main_v296 (broadcastInDim S400000 ![] bcast_S_S400000 : (⟨S_, .i32⟩ : BufTy).Contents (Elt F) → (⟨S400000, .i32⟩ : BufTy).Contents (Elt F)),
    binary main_v264 main_v296 main_v297 (cmpi .slt : (⟨S400000, .i32⟩ : BufTy).Contents (Elt F) → (⟨S400000, .i32⟩ : BufTy).Contents (Elt F) → (⟨S400000, .i1⟩ : BufTy).Contents (Elt F)),
    nullary main_c_95 (constantI S_ 32 50000#32),
    unary main_c_95 main_v298 (broadcastInDim S400000 ![] bcast_S_S400000 : (⟨S_, .i32⟩ : BufTy).Contents (Elt F) → (⟨S400000, .i32⟩ : BufTy).Contents (Elt F)),
    binary main_v264 main_v298 main_v299 (addi : (⟨S400000, .i32⟩ : BufTy).Contents (Elt F) → (⟨S400000, .i32⟩ : BufTy).Contents (Elt F) → (⟨S400000, .i32⟩ : BufTy).Contents (Elt F)),
    ternary main_v297 main_v299 main_v264 main_v300 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v300 main_v301 (broadcastInDim S400000x1 ![0] bcast_S400000_S400000x1_0 : (⟨S400000, .i32⟩ : BufTy).Contents (Elt F) → (⟨S400000x1, .i32⟩ : BufTy).Contents (Elt F)),
    binary main_v295 main_v301 main_v302 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_96 (constant S_ .f32 0x00000000#32),
    unary main_cst_96 main_v303 (broadcastInDim S50000x128 ![] bcast_S_S50000x128 : (⟨S_, .f32⟩ : BufTy).Contents (Elt F) → (⟨S50000x128, .f32⟩ : BufTy).Contents (Elt F)),
    unary main_v266 main_v304 (broadcastInDim S400000x1 ![0] bcast_S400000_S400000x1_0 : (⟨S400000, .i32⟩ : BufTy).Contents (Elt F) → (⟨S400000x1, .i32⟩ : BufTy).Contents (Elt F)),
    ternary main_v303 main_v304 main_v302 main_v305 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v289 main_v306 (broadcastInDim S50000x1 ![0] bcast_S50000_S50000x1_0 : (⟨S50000, .f32⟩ : BufTy).Contents (Elt F) → (⟨S50000x1, .f32⟩ : BufTy).Contents (Elt F)),
    unary main_v306 main_v307 (broadcastInDim S50000x128 ![0, 1] bcast_S50000x1_S50000x128_0_1 : (⟨S50000x1, .f32⟩ : BufTy).Contents (Elt F) → (⟨S50000x128, .f32⟩ : BufTy).Contents (Elt F)),
    binary main_v305 main_v307 main_v308 (mulf : (⟨S50000x128, .f32⟩ : BufTy).Contents (Elt F) → (⟨S50000x128, .f32⟩ : BufTy).Contents (Elt F) → (⟨S50000x128, .f32⟩ : BufTy).Contents (Elt F)),
    binary main_v210 main_v308 main_v309 (addf : (⟨S50000x128, .f32⟩ : BufTy).Contents (Elt F) → (⟨S50000x128, .f32⟩ : BufTy).Contents (Elt F) → (⟨S50000x128, .f32⟩ : BufTy).Contents (Elt F)),
    unary main_arg4 main_v310 ((extractStridedSlice S1x128 ![5, 0] · slices_S9x128_S1x128_5_0) : (⟨S9x128, .f32⟩ : BufTy).Contents (Elt F) → (⟨S1x128, .f32⟩ : BufTy).Contents (Elt F)),
    reshape main_v310 main_v311 rfl shapeCasts_S1x128_S128,
    unary main_v311 main_v312 (broadcastInDim S1x128 ![1] bcast_S128_S1x128_1 : (⟨S128, .f32⟩ : BufTy).Contents (Elt F) → (⟨S1x128, .f32⟩ : BufTy).Contents (Elt F)),
    unary main_v312 main_v313 (broadcastInDim S50000x128 ![0, 1] bcast_S1x128_S50000x128_0_1 : (⟨S1x128, .f32⟩ : BufTy).Contents (Elt F) → (⟨S50000x128, .f32⟩ : BufTy).Contents (Elt F)),
    binary main_v309 main_v313 main_v314 (addf : (⟨S50000x128, .f32⟩ : BufTy).Contents (Elt F) → (⟨S50000x128, .f32⟩ : BufTy).Contents (Elt F) → (⟨S50000x128, .f32⟩ : BufTy).Contents (Elt F)),
    unary main_arg9 main_v315 ((extractStridedSlice S1x1x400000 ![6, 0, 0] · slices_S9x2x400000_S1x1x400000_6_0_0) : (⟨S9x2x400000, .i32⟩ : BufTy).Contents (Elt F) → (⟨S1x1x400000, .i32⟩ : BufTy).Contents (Elt F)),
    reshape main_v315 main_v316 rfl shapeCasts_S1x1x400000_S400000,
    unary main_arg9 main_v317 ((extractStridedSlice S1x1x400000 ![6, 1, 0] · slices_S9x2x400000_S1x1x400000_6_1_0) : (⟨S9x2x400000, .i32⟩ : BufTy).Contents (Elt F) → (⟨S1x1x400000, .i32⟩ : BufTy).Contents (Elt F)),
    reshape main_v317 main_v318 rfl shapeCasts_S1x1x400000_S400000,
    nullary main_cst_97 (constant S_ .f32 0x3F800000#32),
    unary main_cst_97 main_v319 (broadcastInDim S400000 ![] bcast_S_S400000 : (⟨S_, .f32⟩ : BufTy).Contents (Elt F) → (⟨S400000, .f32⟩ : BufTy).Contents (Elt F)) ]

set_option maxRecDepth 8192 in
set_option maxHeartbeats 4000000 in
/-- The window is its operations run in order. -/
theorem main_part6_eq (c : Dev nD) : main_part6 (F := F) c = seq ops_part6 := rfl

set_option maxRecDepth 8192 in
/-- Every operation touches TensorCore buffers only. -/
theorem ops_part6_sub : (ops_part6 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub ..⟩

set_option maxRecDepth 8192 in
/-- Every operation determines the contents of what it writes. -/
theorem ops_part6_fresh : ∀ op ∈ (ops_part6 : List (HloOp τ sig (Elt F))), op.fresh = ∅ :=
  List.forall_iff_forall_mem.mp (show (ops_part6 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part6_W : List (Ref sig .tc) := [main_cst_84, main_v274, main_v275, main_cst_85, main_call20_v0, main_call20_v1, main_v276, main_cst_86, main_v277, main_v278, main_cst_87, main_v279, main_v280, main_cst_88, main_call21_v0, main_call21_v1, main_v281, main_cst_89, main_v282, main_v283, main_cst_90, main_call22_v0, main_call22_v1, main_v284, main_cst_91, main_v285, main_v286, main_cst_92, main_v287, main_v288, main_cst_93, main_call23_v0, main_call23_v1, main_v289, main_v290, main_v291, main_v292, main_v293, main_v294, main_v295, main_c_94, main_v296, main_v297, main_c_95, main_v298, main_v299, main_v300, main_v301, main_v302, main_cst_96, main_v303, main_v304, main_v305, main_v306, main_v307, main_v308, main_v309, main_v310, main_v311, main_v312, main_v313, main_v314, main_v315, main_v316, main_v317, main_v318, main_cst_97, main_v319]

set_option maxRecDepth 8192 in
/-- Each operation writes one of them. -/
theorem ops_part6_writes : (ops_part6 : List (HloOp τ sig (Elt F))).Forall fun op =>
    op.writes ⊆ (ops_part6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val6.lean ====
/- The step across window 6 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops6

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step6 {W : Valuation τ sig (Elt F)} {x0 x1 x2 x3 x4 x5 x6 x7 x8 x9 : _}
    (h : Live6 W x0 x1 x2 x3 x4 x5 x6 x7 x8 x9) : Live7 (after ops_part6 W) x0 x1 x2 x3 x4 x5 x6 x7 x8 x9 where
  h_main_arg0 := (after_of_writes_sub ops_part6 W ops_part6_writes (by decide)).trans h.h_main_arg0
  h_main_arg1 := (after_of_writes_sub ops_part6 W ops_part6_writes (by decide)).trans h.h_main_arg1
  h_main_arg2 := (after_of_writes_sub ops_part6 W ops_part6_writes (by decide)).trans h.h_main_arg2
  h_main_arg3 := (after_of_writes_sub ops_part6 W ops_part6_writes (by decide)).trans h.h_main_arg3
  h_main_arg4 := (after_of_writes_sub ops_part6 W ops_part6_writes (by decide)).trans h.h_main_arg4
  h_main_arg5 := (after_of_writes_sub ops_part6 W ops_part6_writes (by decide)).trans h.h_main_arg5
  h_main_arg6 := (after_of_writes_sub ops_part6 W ops_part6_writes (by decide)).trans h.h_main_arg6
  h_main_arg7 := (after_of_writes_sub ops_part6 W ops_part6_writes (by decide)).trans h.h_main_arg7
  h_main_arg8 := (after_of_writes_sub ops_part6 W ops_part6_writes (by decide)).trans h.h_main_arg8
  h_main_arg9 := (after_of_writes_sub ops_part6 W ops_part6_writes (by decide)).trans h.h_main_arg9
  h_main_v106 := (after_of_writes_sub ops_part6 W ops_part6_writes (by decide)).trans h.h_main_v106
  h_main_v262 := (after_of_writes_sub ops_part6 W ops_part6_writes (by decide)).trans h.h_main_v262
  h_main_v314 := by
    simp only [ops_part6]
    after_results_simp
    all_goals (try simp only [h.h_main_arg4, h.h_main_v273, h.h_main_v264, h.h_main_arg3, h.h_main_v270, h.h_main_arg2, h.h_main_v266, h.h_main_v210])
    all_goals (try simp only [TRef.ofBuf, TRef.toBuf, cast_eq])
    all_goals rfl
  h_main_v316 := by
    simp only [ops_part6]
    after_results_simp
    all_goals (try simp only [h.h_main_arg9])
    all_goals (try simp only [TRef.ofBuf, TRef.toBuf, cast_eq])
    all_goals rfl
  h_main_v318 := by
    simp only [ops_part6]
    after_results_simp
    all_goals (try simp only [h.h_main_arg9])
    all_goals (try simp only [TRef.ofBuf, TRef.toBuf, cast_eq])
    all_goals rfl
  h_main_v319 := by
    simp only [ops_part6]
    after_results_simp
    skip
    all_goals (try simp only [TRef.ofBuf, TRef.toBuf, cast_eq])
    all_goals rfl

end Cert.ReferenceIdeal.RefRun

end
-- ==== Proof.Ref.Ops7.lean ====
/- Operations 469 … 536 of the 1414 operations of the reference program's @main: its printed window
   main_part7 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 469 … 536, in order. -/
abbrev ops_part7 : List (HloOp τ sig (Elt F)) :=
  [ nullary main_cst_98 (constant S_ .f32 0x00000000#32),
    unary main_cst_98 main_v320 (broadcastInDim S50000 ![] bcast_S_S50000 : (⟨S_, .f32⟩ : BufTy).Contents (Elt F) → (⟨S50000, .f32⟩ : BufTy).Contents (Elt F)),
    unary main_v316 main_v321 (broadcastInDim S400000x1 ![0] bcast_S400000_S400000x1_0 : (⟨S400000, .i32⟩ : BufTy).Contents (Elt F) → (⟨S400000x1, .i32⟩ : BufTy).Contents (Elt F)),
    ternary main_v320 main_v321 main_v319 main_v322 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_99 (constant S_ .f32 0x00000000#32),
    unary main_cst_99 main_v323 (broadcastInDim S50000 ![] bcast_S_S50000 : (⟨S_, .f32⟩ : BufTy).Contents (Elt F) → (⟨S50000, .f32⟩ : BufTy).Contents (Elt F)),
    unary main_v318 main_v324 (broadcastInDim S400000x1 ![0] bcast_S400000_S400000x1_0 : (⟨S400000, .i32⟩ : BufTy).Contents (Elt F) → (⟨S400000x1, .i32⟩ : BufTy).Contents (Elt F)),
    ternary main_v323 main_v324 main_v319 main_v325 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_100 (constant S_ .f32 0x00000000#32),
    unary main_cst_100 main_v326 (broadcastInDim S50000 ![] bcast_S_S50000 : (⟨S_, .f32⟩ : BufTy).Contents (Elt F) → (⟨S50000, .f32⟩ : BufTy).Contents (Elt F)),
    binary main_v322 main_v326 main_v327 (cmpf (F := F) .ogt : (⟨S50000, .f32⟩ : BufTy).Contents (Elt F) → (⟨S50000, .f32⟩ : BufTy).Contents (Elt F) → (⟨S50000, .i1⟩ : BufTy).Contents (Elt F)),
    nullary main_cst_101 (constant S_ .f32 0x3F800000#32),
    TRef.unary (TRef.of (T := ⟨S_, .f32⟩) main_cst_101) (TRef.of (T := ⟨S_, .f32⟩) main_call24_v0) id,
    TRef.unary (TRef.of (T := ⟨S_, .f32⟩) main_call24_v0) (TRef.of (T := ⟨S50000, .f32⟩) main_call24_v1) (broadcastInDim S50000 ![] bcast_S_S50000),
    TRef.ternary (TRef.of (T := ⟨S50000, .i1⟩) main_v327) (TRef.of (T := ⟨S50000, .f32⟩) main_v322) (TRef.of (T := ⟨S50000, .f32⟩) main_call24_v1) (TRef.of (T := ⟨S50000, .f32⟩) main_v328) select,
    nullary main_cst_102 (constant S_ .f32 0xBF000000#32),
    unary main_cst_102 main_v329 (broadcastInDim S50000 ![] bcast_S_S50000 : (⟨S_, .f32⟩ : BufTy).Contents (Elt F) → (⟨S50000, .f32⟩ : BufTy).Contents (Elt F)),
    binary main_v328 main_v329 main_v330 (Host.powf : (⟨S50000, .f32⟩ : BufTy).Contents (Elt F) → (⟨S50000, .f32⟩ : BufTy).Contents (Elt F) → (⟨S50000, .f32⟩ : BufTy).Contents (Elt F)),
    nullary main_cst_103 (constant S_ .f32 0x00000000#32),
    unary main_cst_103 main_v331 (broadcastInDim S50000 ![] bcast_S_S50000 : (⟨S_, .f32⟩ : BufTy).Contents (Elt F) → (⟨S50000, .f32⟩ : BufTy).Contents (Elt F)),
    binary main_v322 main_v331 main_v332 (cmpf (F := F) .ogt : (⟨S50000, .f32⟩ : BufTy).Contents (Elt F) → (⟨S50000, .f32⟩ : BufTy).Contents (Elt F) → (⟨S50000, .i1⟩ : BufTy).Contents (Elt F)),
    nullary main_cst_104 (constant S_ .f32 0x00000000#32),
    TRef.unary (TRef.of (T := ⟨S_, .f32⟩) main_cst_104) (TRef.of (T := ⟨S_, .f32⟩) main_call25_v0) id,
    TRef.unary (TRef.of (T := ⟨S_, .f32⟩) main_call25_v0) (TRef.of (T := ⟨S50000, .f32⟩) main_call25_v1) (broadcastInDim S50000 ![] bcast_S_S50000),
    TRef.ternary (TRef.of (T := ⟨S50000, .i1⟩) main_v332) (TRef.of (T := ⟨S50000, .f32⟩) main_v330) (TRef.of (T := ⟨S50000, .f32⟩) main_call25_v1) (TRef.of (T := ⟨S50000, .f32⟩) main_v333) select,
    nullary main_cst_105 (constant S_ .f32 0x00000000#32),
    unary main_cst_105 main_v334 (broadcastInDim S50000 ![] bcast_S_S50000 : (⟨S_, .f32⟩ : BufTy).Contents (Elt F) → (⟨S50000, .f32⟩ : BufTy).Contents (Elt F)),
    binary main_v325 main_v334 main_v335 (cmpf (F := F) .ogt : (⟨S50000, .f32⟩ : BufTy).Contents (Elt F) → (⟨S50000, .f32⟩ : BufTy).Contents (Elt F) → (⟨S50000, .i1⟩ : BufTy).Contents (Elt F)),
    nullary main_cst_106 (constant S_ .f32 0x3F800000#32),
    TRef.unary (TRef.of (T := ⟨S_, .f32⟩) main_cst_106) (TRef.of (T := ⟨S_, .f32⟩) main_call26_v0) id,
    TRef.unary (TRef.of (T := ⟨S_, .f32⟩) main_call26_v0) (TRef.of (T := ⟨S50000, .f32⟩) main_call26_v1) (broadcastInDim S50000 ![] bcast_S_S50000),
    TRef.ternary (TRef.of (T := ⟨S50000, .i1⟩) main_v335) (TRef.of (T := ⟨S50000, .f32⟩) main_v325) (TRef.of (T := ⟨S50000, .f32⟩) main_call26_v1) (TRef.of (T := ⟨S50000, .f32⟩) main_v336) select,
    nullary main_cst_107 (constant S_ .f32 0xBF000000#32),
    unary main_cst_107 main_v337 (broadcastInDim S50000 ![] bcast_S_S50000 : (⟨S_, .f32⟩ : BufTy).Contents (Elt F) → (⟨S50000, .f32⟩ : BufTy).Contents (Elt F)),
    binary main_v336 main_v337 main_v338 (Host.powf : (⟨S50000, .f32⟩ : BufTy).Contents (Elt F) → (⟨S50000, .f32⟩ : BufTy).Contents (Elt F) → (⟨S50000, .f32⟩ : BufTy).Contents (Elt F)),
    nullary main_cst_108 (constant S_ .f32 0x00000000#32),
    unary main_cst_108 main_v339 (broadcastInDim S50000 ![] bcast_S_S50000 : (⟨S_, .f32⟩ : BufTy).Contents (Elt F) → (⟨S50000, .f32⟩ : BufTy).Contents (Elt F)),
    binary main_v325 main_v339 main_v340 (cmpf (F := F) .ogt : (⟨S50000, .f32⟩ : BufTy).Contents (Elt F) → (⟨S50000, .f32⟩ : BufTy).Contents (Elt F) → (⟨S50000, .i1⟩ : BufTy).Contents (Elt F)),
    nullary main_cst_109 (constant S_ .f32 0x00000000#32),
    TRef.unary (TRef.of (T := ⟨S_, .f32⟩) main_cst_109) (TRef.of (T := ⟨S_, .f32⟩) main_call27_v0) id,
    TRef.unary (TRef.of (T := ⟨S_, .f32⟩) main_call27_v0) (TRef.of (T := ⟨S50000, .f32⟩) main_call27_v1) (broadcastInDim S50000 ![] bcast_S_S50000),
    TRef.ternary (TRef.of (T := ⟨S50000, .i1⟩) main_v340) (TRef.of (T := ⟨S50000, .f32⟩) main_v338) (TRef.of (T := ⟨S50000, .f32⟩) main_call27_v1) (TRef.of (T := ⟨S50000, .f32⟩) main_v341) select,
    unary main_v333 main_v342 (broadcastInDim S50000x1 ![0] bcast_S50000_S50000x1_0 : (⟨S50000, .f32⟩ : BufTy).Contents (Elt F) → (⟨S50000x1, .f32⟩ : BufTy).Contents (Elt F)),
    unary main_v342 main_v343 (broadcastInDim S50000x128 ![0, 1] bcast_S50000x1_S50000x128_0_1 : (⟨S50000x1, .f32⟩ : BufTy).Contents (Elt F) → (⟨S50000x128, .f32⟩ : BufTy).Contents (Elt F)),
    binary main_arg0 main_v343 main_v344 (mulf : (⟨S50000x128, .f32⟩ : BufTy).Contents (Elt F) → (⟨S50000x128, .f32⟩ : BufTy).Contents (Elt F) → (⟨S50000x128, .f32⟩ : BufTy).Contents (Elt F)),
    unary main_arg3 main_v345 ((extractStridedSlice S1x128x128 ![6, 0, 0] · slices_S9x128x128_S1x128x128_6_0_0) : (⟨S9x128x128, .f32⟩ : BufTy).Contents (Elt F) → (⟨S1x128x128, .f32⟩ : BufTy).Contents (Elt F)),
    reshape main_v345 main_v346 rfl shapeCasts_S1x128x128_S128x128,
    binary main_v344 main_v346 main_v347 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_110 (constantI S_ 32 0#32),
    unary main_c_110 main_v348 (broadcastInDim S400000 ![] bcast_S_S400000 : (⟨S_, .i32⟩ : BufTy).Contents (Elt F) → (⟨S400000, .i32⟩ : BufTy).Contents (Elt F)),
    binary main_v316 main_v348 main_v349 (cmpi .slt : (⟨S400000, .i32⟩ : BufTy).Contents (Elt F) → (⟨S400000, .i32⟩ : BufTy).Contents (Elt F) → (⟨S400000, .i1⟩ : BufTy).Contents (Elt F)),
    nullary main_c_111 (constantI S_ 32 50000#32),
    unary main_c_111 main_v350 (broadcastInDim S400000 ![] bcast_S_S400000 : (⟨S_, .i32⟩ : BufTy).Contents (Elt F) → (⟨S400000, .i32⟩ : BufTy).Contents (Elt F)),
    binary main_v316 main_v350 main_v351 (addi : (⟨S400000, .i32⟩ : BufTy).Contents (Elt F) → (⟨S400000, .i32⟩ : BufTy).Contents (Elt F) → (⟨S400000, .i32⟩ : BufTy).Contents (Elt F)),
    ternary main_v349 main_v351 main_v316 main_v352 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v352 main_v353 (broadcastInDim S400000x1 ![0] bcast_S400000_S400000x1_0 : (⟨S400000, .i32⟩ : BufTy).Contents (Elt F) → (⟨S400000x1, .i32⟩ : BufTy).Contents (Elt F)),
    binary main_v347 main_v353 main_v354 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_112 (constant S_ .f32 0x00000000#32),
    unary main_cst_112 main_v355 (broadcastInDim S50000x128 ![] bcast_S_S50000x128 : (⟨S_, .f32⟩ : BufTy).Contents (Elt F) → (⟨S50000x128, .f32⟩ : BufTy).Contents (Elt F)),
    unary main_v318 main_v356 (broadcastInDim S400000x1 ![0] bcast_S400000_S400000x1_0 : (⟨S400000, .i32⟩ : BufTy).Contents (Elt F) → (⟨S400000x1, .i32⟩ : BufTy).Contents (Elt F)),
    ternary main_v355 main_v356 main_v354 main_v357 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v341 main_v358 (broadcastInDim S50000x1 ![0] bcast_S50000_S50000x1_0 : (⟨S50000, .f32⟩ : BufTy).Contents (Elt F) → (⟨S50000x1, .f32⟩ : BufTy).Contents (Elt F)),
    unary main_v358 main_v359 (broadcastInDim S50000x128 ![0, 1] bcast_S50000x1_S50000x128_0_1 : (⟨S50000x1, .f32⟩ : BufTy).Contents (Elt F) → (⟨S50000x128, .f32⟩ : BufTy).Contents (Elt F)),
    binary main_v357 main_v359 main_v360 (mulf : (⟨S50000x128, .f32⟩ : BufTy).Contents (Elt F) → (⟨S50000x128, .f32⟩ : BufTy).Contents (Elt F) → (⟨S50000x128, .f32⟩ : BufTy).Contents (Elt F)),
    binary main_v314 main_v360 main_v361 (addf : (⟨S50000x128, .f32⟩ : BufTy).Contents (Elt F) → (⟨S50000x128, .f32⟩ : BufTy).Contents (Elt F) → (⟨S50000x128, .f32⟩ : BufTy).Contents (Elt F)),
    unary main_arg4 main_v362 ((extractStridedSlice S1x128 ![6, 0] · slices_S9x128_S1x128_6_0) : (⟨S9x128, .f32⟩ : BufTy).Contents (Elt F) → (⟨S1x128, .f32⟩ : BufTy).Contents (Elt F)),
    reshape main_v362 main_v363 rfl shapeCasts_S1x128_S128,
    unary main_v363 main_v364 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 4000000 in
/-- The window is its operations run in order. -/
theorem main_part7_eq (c : Dev nD) : main_part7 (F := F) c = seq ops_part7 := rfl

set_option maxRecDepth 8192 in
/-- Every operation touches TensorCore buffers only. -/
theorem ops_part7_sub : (ops_part7 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub ..⟩

set_option maxRecDepth 8192 in
/-- Every operation determines the contents of what it writes. -/
theorem ops_part7_fresh : ∀ op ∈ (ops_part7 : List (HloOp τ sig (Elt F))), op.fresh = ∅ :=
  List.forall_iff_forall_mem.mp (show (ops_part7 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part7_W : List (Ref sig .tc) := [main_cst_98, main_v320, main_v321, main_v322, main_cst_99, main_v323, main_v324, main_v325, main_cst_100, main_v326, main_v327, main_cst_101, main_call24_v0, main_call24_v1, main_v328, main_cst_102, main_v329, main_v330, main_cst_103, main_v331, main_v332, main_cst_104, main_call25_v0, main_call25_v1, main_v333, main_cst_105, main_v334, main_v335, main_cst_106, main_call26_v0, main_call26_v1, main_v336, main_cst_107, main_v337, main_v338, main_cst_108, main_v339, main_v340, main_cst_109, main_call27_v0, main_call27_v1, main_v341, main_v342, main_v343, main_v344, main_v345, main_v346, main_v347, main_c_110, main_v348, main_v349, main_c_111, main_v350, main_v351, main_v352, main_v353, main_v354, main_cst_112, main_v355, main_v356, main_v357, main_v358, main_v359, main_v360, main_v361, main_v362, main_v363, main_v364]

set_option maxRecDepth 8192 in
/-- Each operation writes one of them. -/
theorem ops_part7_writes : (ops_part7 : List (HloOp τ sig (Elt F))).Forall fun op =>
    op.writes ⊆ (ops_part7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val7.lean ====
/- The step across window 7 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops7

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step7 {W : Valuation τ sig (Elt F)} {x0 x1 x2 x3 x4 x5 x6 x7 x8 x9 : _}
    (h : Live7 W x0 x1 x2 x3 x4 x5 x6 x7 x8 x9) : Live8 (after ops_part7 W) x0 x1 x2 x3 x4 x5 x6 x7 x8 x9 where
  h_main_arg0 := (after_of_writes_sub ops_part7 W ops_part7_writes (by decide)).trans h.h_main_arg0
  h_main_arg1 := (after_of_writes_sub ops_part7 W ops_part7_writes (by decide)).trans h.h_main_arg1
  h_main_arg2 := (after_of_writes_sub ops_part7 W ops_part7_writes (by decide)).trans h.h_main_arg2
  h_main_arg3 := (after_of_writes_sub ops_part7 W ops_part7_writes (by decide)).trans h.h_main_arg3
  h_main_arg4 := (after_of_writes_sub ops_part7 W ops_part7_writes (by decide)).trans h.h_main_arg4
  h_main_arg5 := (after_of_writes_sub ops_part7 W ops_part7_writes (by decide)).trans h.h_main_arg5
  h_main_arg6 := (after_of_writes_sub ops_part7 W ops_part7_writes (by decide)).trans h.h_main_arg6
  h_main_arg7 := (after_of_writes_sub ops_part7 W ops_part7_writes (by decide)).trans h.h_main_arg7
  h_main_arg8 := (after_of_writes_sub ops_part7 W ops_part7_writes (by decide)).trans h.h_main_arg8
  h_main_arg9 := (after_of_writes_sub ops_part7 W ops_part7_writes (by decide)).trans h.h_main_arg9
  h_main_v106 := (after_of_writes_sub ops_part7 W ops_part7_writes (by decide)).trans h.h_main_v106
  h_main_v262 := (after_of_writes_sub ops_part7 W ops_part7_writes (by decide)).trans h.h_main_v262
  h_main_v361 := by
    simp only [ops_part7]
    after_results_simp
    all_goals (try simp only [h.h_main_v319, h.h_main_v318, h.h_main_v316, h.h_main_arg3, h.h_main_arg0, h.h_main_v314])
    all_goals (try simp only [TRef.ofBuf, TRef.toBuf, cast_eq])
    all_goals rfl
  h_main_v364 := by
    simp only [ops_part7]
    after_results_simp
    all_goals (try simp only [h.h_main_arg4])
    all_goals (try simp only [TRef.ofBuf, TRef.toBuf, cast_eq])
    all_goals rfl

end Cert.ReferenceIdeal.RefRun

end
-- ==== Proof.Ref.Ops8.lean ====
/- Operations 537 … 604 of the 1414 operations of the reference program's @main: its printed window
   main_part8 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 537 … 604, in order. -/
abbrev ops_part8 : List (HloOp τ sig (Elt F)) :=
  [ unary main_v364 main_v365 (broadcastInDim S50000x128 ![0, 1] bcast_S1x128_S50000x128_0_1 : (⟨S1x128, .f32⟩ : BufTy).Contents (Elt F) → (⟨S50000x128, .f32⟩ : BufTy).Contents (Elt F)),
    binary main_v361 main_v365 main_v366 (addf : (⟨S50000x128, .f32⟩ : BufTy).Contents (Elt F) → (⟨S50000x128, .f32⟩ : BufTy).Contents (Elt F) → (⟨S50000x128, .f32⟩ : BufTy).Contents (Elt F)),
    unary main_arg9 main_v367 ((extractStridedSlice S1x1x400000 ![7, 0, 0] · slices_S9x2x400000_S1x1x400000_7_0_0) : (⟨S9x2x400000, .i32⟩ : BufTy).Contents (Elt F) → (⟨S1x1x400000, .i32⟩ : BufTy).Contents (Elt F)),
    reshape main_v367 main_v368 rfl shapeCasts_S1x1x400000_S400000,
    unary main_arg9 main_v369 ((extractStridedSlice S1x1x400000 ![7, 1, 0] · slices_S9x2x400000_S1x1x400000_7_1_0) : (⟨S9x2x400000, .i32⟩ : BufTy).Contents (Elt F) → (⟨S1x1x400000, .i32⟩ : BufTy).Contents (Elt F)),
    reshape main_v369 main_v370 rfl shapeCasts_S1x1x400000_S400000,
    nullary main_cst_113 (constant S_ .f32 0x3F800000#32),
    unary main_cst_113 main_v371 (broadcastInDim S400000 ![] bcast_S_S400000 : (⟨S_, .f32⟩ : BufTy).Contents (Elt F) → (⟨S400000, .f32⟩ : BufTy).Contents (Elt F)),
    nullary main_cst_114 (constant S_ .f32 0x00000000#32),
    unary main_cst_114 main_v372 (broadcastInDim S50000 ![] bcast_S_S50000 : (⟨S_, .f32⟩ : BufTy).Contents (Elt F) → (⟨S50000, .f32⟩ : BufTy).Contents (Elt F)),
    unary main_v368 main_v373 (broadcastInDim S400000x1 ![0] bcast_S400000_S400000x1_0 : (⟨S400000, .i32⟩ : BufTy).Contents (Elt F) → (⟨S400000x1, .i32⟩ : BufTy).Contents (Elt F)),
    ternary main_v372 main_v373 main_v371 main_v374 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_115 (constant S_ .f32 0x00000000#32),
    unary main_cst_115 main_v375 (broadcastInDim S50000 ![] bcast_S_S50000 : (⟨S_, .f32⟩ : BufTy).Contents (Elt F) → (⟨S50000, .f32⟩ : BufTy).Contents (Elt F)),
    unary main_v370 main_v376 (broadcastInDim S400000x1 ![0] bcast_S400000_S400000x1_0 : (⟨S400000, .i32⟩ : BufTy).Contents (Elt F) → (⟨S400000x1, .i32⟩ : BufTy).Contents (Elt F)),
    ternary main_v375 main_v376 main_v371 main_v377 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_116 (constant S_ .f32 0x00000000#32),
    unary main_cst_116 main_v378 (broadcastInDim S50000 ![] bcast_S_S50000 : (⟨S_, .f32⟩ : BufTy).Contents (Elt F) → (⟨S50000, .f32⟩ : BufTy).Contents (Elt F)),
    binary main_v374 main_v378 main_v379 (cmpf (F := F) .ogt : (⟨S50000, .f32⟩ : BufTy).Contents (Elt F) → (⟨S50000, .f32⟩ : BufTy).Contents (Elt F) → (⟨S50000, .i1⟩ : BufTy).Contents (Elt F)),
    nullary main_cst_117 (constant S_ .f32 0x3F800000#32),
    TRef.unary (TRef.of (T := ⟨S_, .f32⟩) main_cst_117) (TRef.of (T := ⟨S_, .f32⟩) main_call28_v0) id,
    TRef.unary (TRef.of (T := ⟨S_, .f32⟩) main_call28_v0) (TRef.of (T := ⟨S50000, .f32⟩) main_call28_v1) (broadcastInDim S50000 ![] bcast_S_S50000),
    TRef.ternary (TRef.of (T := ⟨S50000, .i1⟩) main_v379) (TRef.of (T := ⟨S50000, .f32⟩) main_v374) (TRef.of (T := ⟨S50000, .f32⟩) main_call28_v1) (TRef.of (T := ⟨S50000, .f32⟩) main_v380) select,
    nullary main_cst_118 (constant S_ .f32 0xBF000000#32),
    unary main_cst_118 main_v381 (broadcastInDim S50000 ![] bcast_S_S50000 : (⟨S_, .f32⟩ : BufTy).Contents (Elt F) → (⟨S50000, .f32⟩ : BufTy).Contents (Elt F)),
    binary main_v380 main_v381 main_v382 (Host.powf : (⟨S50000, .f32⟩ : BufTy).Contents (Elt F) → (⟨S50000, .f32⟩ : BufTy).Contents (Elt F) → (⟨S50000, .f32⟩ : BufTy).Contents (Elt F)),
    nullary main_cst_119 (constant S_ .f32 0x00000000#32),
    unary main_cst_119 main_v383 (broadcastInDim S50000 ![] bcast_S_S50000 : (⟨S_, .f32⟩ : BufTy).Contents (Elt F) → (⟨S50000, .f32⟩ : BufTy).Contents (Elt F)),
    binary main_v374 main_v383 main_v384 (cmpf (F := F) .ogt : (⟨S50000, .f32⟩ : BufTy).Contents (Elt F) → (⟨S50000, .f32⟩ : BufTy).Contents (Elt F) → (⟨S50000, .i1⟩ : BufTy).Contents (Elt F)),
    nullary main_cst_120 (constant S_ .f32 0x00000000#32),
    TRef.unary (TRef.of (T := ⟨S_, .f32⟩) main_cst_120) (TRef.of (T := ⟨S_, .f32⟩) main_call29_v0) id,
    TRef.unary (TRef.of (T := ⟨S_, .f32⟩) main_call29_v0) (TRef.of (T := ⟨S50000, .f32⟩) main_call29_v1) (broadcastInDim S50000 ![] bcast_S_S50000),
    TRef.ternary (TRef.of (T := ⟨S50000, .i1⟩) main_v384) (TRef.of (T := ⟨S50000, .f32⟩) main_v382) (TRef.of (T := ⟨S50000, .f32⟩) main_call29_v1) (TRef.of (T := ⟨S50000, .f32⟩) main_v385) select,
    nullary main_cst_121 (constant S_ .f32 0x00000000#32),
    unary main_cst_121 main_v386 (broadcastInDim S50000 ![] bcast_S_S50000 : (⟨S_, .f32⟩ : BufTy).Contents (Elt F) → (⟨S50000, .f32⟩ : BufTy).Contents (Elt F)),
    binary main_v377 main_v386 main_v387 (cmpf (F := F) .ogt : (⟨S50000, .f32⟩ : BufTy).Contents (Elt F) → (⟨S50000, .f32⟩ : BufTy).Contents (Elt F) → (⟨S50000, .i1⟩ : BufTy).Contents (Elt F)),
    nullary main_cst_122 (constant S_ .f32 0x3F800000#32),
    TRef.unary (TRef.of (T := ⟨S_, .f32⟩) main_cst_122) (TRef.of (T := ⟨S_, .f32⟩) main_call30_v0) id,
    TRef.unary (TRef.of (T := ⟨S_, .f32⟩) main_call30_v0) (TRef.of (T := ⟨S50000, .f32⟩) main_call30_v1) (broadcastInDim S50000 ![] bcast_S_S50000),
    TRef.ternary (TRef.of (T := ⟨S50000, .i1⟩) main_v387) (TRef.of (T := ⟨S50000, .f32⟩) main_v377) (TRef.of (T := ⟨S50000, .f32⟩) main_call30_v1) (TRef.of (T := ⟨S50000, .f32⟩) main_v388) select,
    nullary main_cst_123 (constant S_ .f32 0xBF000000#32),
    unary main_cst_123 main_v389 (broadcastInDim S50000 ![] bcast_S_S50000 : (⟨S_, .f32⟩ : BufTy).Contents (Elt F) → (⟨S50000, .f32⟩ : BufTy).Contents (Elt F)),
    binary main_v388 main_v389 main_v390 (Host.powf : (⟨S50000, .f32⟩ : BufTy).Contents (Elt F) → (⟨S50000, .f32⟩ : BufTy).Contents (Elt F) → (⟨S50000, .f32⟩ : BufTy).Contents (Elt F)),
    nullary main_cst_124 (constant S_ .f32 0x00000000#32),
    unary main_cst_124 main_v391 (broadcastInDim S50000 ![] bcast_S_S50000 : (⟨S_, .f32⟩ : BufTy).Contents (Elt F) → (⟨S50000, .f32⟩ : BufTy).Contents (Elt F)),
    binary main_v377 main_v391 main_v392 (cmpf (F := F) .ogt : (⟨S50000, .f32⟩ : BufTy).Contents (Elt F) → (⟨S50000, .f32⟩ : BufTy).Contents (Elt F) → (⟨S50000, .i1⟩ : BufTy).Contents (Elt F)),
    nullary main_cst_125 (constant S_ .f32 0x00000000#32),
    TRef.unary (TRef.of (T := ⟨S_, .f32⟩) main_cst_125) (TRef.of (T := ⟨S_, .f32⟩) main_call31_v0) id,
    TRef.unary (TRef.of (T := ⟨S_, .f32⟩) main_call31_v0) (TRef.of (T := ⟨S50000, .f32⟩) main_call31_v1) (broadcastInDim S50000 ![] bcast_S_S50000),
    TRef.ternary (TRef.of (T := ⟨S50000, .i1⟩) main_v392) (TRef.of (T := ⟨S50000, .f32⟩) main_v390) (TRef.of (T := ⟨S50000, .f32⟩) main_call31_v1) (TRef.of (T := ⟨S50000, .f32⟩) main_v393) select,
    unary main_v385 main_v394 (broadcastInDim S50000x1 ![0] bcast_S50000_S50000x1_0 : (⟨S50000, .f32⟩ : BufTy).Contents (Elt F) → (⟨S50000x1, .f32⟩ : BufTy).Contents (Elt F)),
    unary main_v394 main_v395 (broadcastInDim S50000x128 ![0, 1] bcast_S50000x1_S50000x128_0_1 : (⟨S50000x1, .f32⟩ : BufTy).Contents (Elt F) → (⟨S50000x128, .f32⟩ : BufTy).Contents (Elt F)),
    binary main_arg2 main_v395 main_v396 (mulf : (⟨S50000x128, .f32⟩ : BufTy).Contents (Elt F) → (⟨S50000x128, .f32⟩ : BufTy).Contents (Elt F) → (⟨S50000x128, .f32⟩ : BufTy).Contents (Elt F)),
    unary main_arg3 main_v397 ((extractStridedSlice S1x128x128 ![7, 0, 0] · slices_S9x128x128_S1x128x128_7_0_0) : (⟨S9x128x128, .f32⟩ : BufTy).Contents (Elt F) → (⟨S1x128x128, .f32⟩ : BufTy).Contents (Elt F)),
    reshape main_v397 main_v398 rfl shapeCasts_S1x128x128_S128x128,
    binary main_v396 main_v398 main_v399 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_126 (constantI S_ 32 0#32),
    unary main_c_126 main_v400 (broadcastInDim S400000 ![] bcast_S_S400000 : (⟨S_, .i32⟩ : BufTy).Contents (Elt F) → (⟨S400000, .i32⟩ : BufTy).Contents (Elt F)),
    binary main_v368 main_v400 main_v401 (cmpi .slt : (⟨S400000, .i32⟩ : BufTy).Contents (Elt F) → (⟨S400000, .i32⟩ : BufTy).Contents (Elt F) → (⟨S400000, .i1⟩ : BufTy).Contents (Elt F)),
    nullary main_c_127 (constantI S_ 32 50000#32),
    unary main_c_127 main_v402 (broadcastInDim S400000 ![] bcast_S_S400000 : (⟨S_, .i32⟩ : BufTy).Contents (Elt F) → (⟨S400000, .i32⟩ : BufTy).Contents (Elt F)),
    binary main_v368 main_v402 main_v403 (addi : (⟨S400000, .i32⟩ : BufTy).Contents (Elt F) → (⟨S400000, .i32⟩ : BufTy).Contents (Elt F) → (⟨S400000, .i32⟩ : BufTy).Contents (Elt F)),
    ternary main_v401 main_v403 main_v368 main_v404 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v404 main_v405 (broadcastInDim S400000x1 ![0] bcast_S400000_S400000x1_0 : (⟨S400000, .i32⟩ : BufTy).Contents (Elt F) → (⟨S400000x1, .i32⟩ : BufTy).Contents (Elt F)),
    binary main_v399 main_v405 main_v406 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_128 (constant S_ .f32 0x00000000#32),
    unary main_cst_128 main_v407 (broadcastInDim S50000x128 ![] bcast_S_S50000x128 : (⟨S_, .f32⟩ : BufTy).Contents (Elt F) → (⟨S50000x128, .f32⟩ : BufTy).Contents (Elt F)),
    unary main_v370 main_v408 (broadcastInDim S400000x1 ![0] bcast_S400000_S400000x1_0 : (⟨S400000, .i32⟩ : BufTy).Contents (Elt F) → (⟨S400000x1, .i32⟩ : BufTy).Contents (Elt F)) ]

set_option maxRecDepth 8192 in
set_option maxHeartbeats 4000000 in
/-- The window is its operations run in order. -/
theorem main_part8_eq (c : Dev nD) : main_part8 (F := F) c = seq ops_part8 := rfl

set_option maxRecDepth 8192 in
/-- Every operation touches TensorCore buffers only. -/
theorem ops_part8_sub : (ops_part8 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

set_option maxRecDepth 8192 in
/-- Every operation determines the contents of what it writes. -/
theorem ops_part8_fresh : ∀ op ∈ (ops_part8 : List (HloOp τ sig (Elt F))), op.fresh = ∅ :=
  List.forall_iff_forall_mem.mp (show (ops_part8 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part8_W : List (Ref sig .tc) := [main_v365, main_v366, main_v367, main_v368, main_v369, main_v370, main_cst_113, main_v371, main_cst_114, main_v372, main_v373, main_v374, main_cst_115, main_v375, main_v376, main_v377, main_cst_116, main_v378, main_v379, main_cst_117, main_call28_v0, main_call28_v1, main_v380, main_cst_118, main_v381, main_v382, main_cst_119, main_v383, main_v384, main_cst_120, main_call29_v0, main_call29_v1, main_v385, main_cst_121, main_v386, main_v387, main_cst_122, main_call30_v0, main_call30_v1, main_v388, main_cst_123, main_v389, main_v390, main_cst_124, main_v391, main_v392, main_cst_125, main_call31_v0, main_call31_v1, main_v393, main_v394, main_v395, main_v396, main_v397, main_v398, main_v399, main_c_126, main_v400, main_v401, main_c_127, main_v402, main_v403, main_v404, main_v405, main_v406, main_cst_128, main_v407, main_v408]

set_option maxRecDepth 8192 in
/-- Each operation writes one of them. -/
theorem ops_part8_writes : (ops_part8 : List (HloOp τ sig (Elt F))).Forall fun op =>
    op.writes ⊆ (ops_part8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val8.lean ====
/- The step across window 8 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops8

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step8 {W : Valuation τ sig (Elt F)} {x0 x1 x2 x3 x4 x5 x6 x7 x8 x9 : _}
    (h : Live8 W x0 x1 x2 x3 x4 x5 x6 x7 x8 x9) : Live9 (after ops_part8 W) x0 x1 x2 x3 x4 x5 x6 x7 x8 x9 where
  h_main_arg0 := (after_of_writes_sub ops_part8 W ops_part8_writes (by decide)).trans h.h_main_arg0
  h_main_arg1 := (after_of_writes_sub ops_part8 W ops_part8_writes (by decide)).trans h.h_main_arg1
  h_main_arg2 := (after_of_writes_sub ops_part8 W ops_part8_writes (by decide)).trans h.h_main_arg2
  h_main_arg3 := (after_of_writes_sub ops_part8 W ops_part8_writes (by decide)).trans h.h_main_arg3
  h_main_arg4 := (after_of_writes_sub ops_part8 W ops_part8_writes (by decide)).trans h.h_main_arg4
  h_main_arg5 := (after_of_writes_sub ops_part8 W ops_part8_writes (by decide)).trans h.h_main_arg5
  h_main_arg6 := (after_of_writes_sub ops_part8 W ops_part8_writes (by decide)).trans h.h_main_arg6
  h_main_arg7 := (after_of_writes_sub ops_part8 W ops_part8_writes (by decide)).trans h.h_main_arg7
  h_main_arg8 := (after_of_writes_sub ops_part8 W ops_part8_writes (by decide)).trans h.h_main_arg8
  h_main_arg9 := (after_of_writes_sub ops_part8 W ops_part8_writes (by decide)).trans h.h_main_arg9
  h_main_v106 := (after_of_writes_sub ops_part8 W ops_part8_writes (by decide)).trans h.h_main_v106
  h_main_v262 := (after_of_writes_sub ops_part8 W ops_part8_writes (by decide)).trans h.h_main_v262
  h_main_v366 := by
    simp only [ops_part8]
    after_results_simp
    all_goals (try simp only [h.h_main_v364, h.h_main_v361])
    all_goals (try simp only [TRef.ofBuf, TRef.toBuf, cast_eq])
    all_goals rfl
  h_main_v393 := by
    simp only [ops_part8]
    after_results_simp
    all_goals (try simp only [h.h_main_arg9])
    all_goals (try simp only [TRef.ofBuf, TRef.toBuf, cast_eq])
    all_goals rfl
  h_main_v406 := by
    simp only [ops_part8]
    after_results_simp
    all_goals (try simp only [h.h_main_arg9, h.h_main_arg3, h.h_main_arg2])
    all_goals (try simp only [TRef.ofBuf, TRef.toBuf, cast_eq])
    all_goals rfl
  h_main_v407 := by
    simp only [ops_part8]
    after_results_simp
    skip
    all_goals (try simp only [TRef.ofBuf, TRef.toBuf, cast_eq])
    all_goals rfl
  h_main_v408 := by
    simp only [ops_part8]
    after_results_simp
    all_goals (try simp only [h.h_main_arg9])
    all_goals (try simp only [TRef.ofBuf, TRef.toBuf, cast_eq])
    all_goals rfl

end Cert.ReferenceIdeal.RefRun

end
-- ==== Proof.Ref.Ops9.lean ====
/- Operations 605 … 672 of the 1414 operations of the reference program's @main: its printed window
   main_part9 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 605 … 672, in order. -/
abbrev ops_part9 : List (HloOp τ sig (Elt F)) :=
  [ ternary main_v407 main_v408 main_v406 main_v409 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v393 main_v410 (broadcastInDim S50000x1 ![0] bcast_S50000_S50000x1_0 : (⟨S50000, .f32⟩ : BufTy).Contents (Elt F) → (⟨S50000x1, .f32⟩ : BufTy).Contents (Elt F)),
    unary main_v410 main_v411 (broadcastInDim S50000x128 ![0, 1] bcast_S50000x1_S50000x128_0_1 : (⟨S50000x1, .f32⟩ : BufTy).Contents (Elt F) → (⟨S50000x128, .f32⟩ : BufTy).Contents (Elt F)),
    binary main_v409 main_v411 main_v412 (mulf : (⟨S50000x128, .f32⟩ : BufTy).Contents (Elt F) → (⟨S50000x128, .f32⟩ : BufTy).Contents (Elt F) → (⟨S50000x128, .f32⟩ : BufTy).Contents (Elt F)),
    binary main_v106 main_v412 main_v413 (addf : (⟨S50000x128, .f32⟩ : BufTy).Contents (Elt F) → (⟨S50000x128, .f32⟩ : BufTy).Contents (Elt F) → (⟨S50000x128, .f32⟩ : BufTy).Contents (Elt F)),
    unary main_arg4 main_v414 ((extractStridedSlice S1x128 ![7, 0] · slices_S9x128_S1x128_7_0) : (⟨S9x128, .f32⟩ : BufTy).Contents (Elt F) → (⟨S1x128, .f32⟩ : BufTy).Contents (Elt F)),
    reshape main_v414 main_v415 rfl shapeCasts_S1x128_S128,
    unary main_v415 main_v416 (broadcastInDim S1x128 ![1] bcast_S128_S1x128_1 : (⟨S128, .f32⟩ : BufTy).Contents (Elt F) → (⟨S1x128, .f32⟩ : BufTy).Contents (Elt F)),
    unary main_v416 main_v417 (broadcastInDim S50000x128 ![0, 1] bcast_S1x128_S50000x128_0_1 : (⟨S1x128, .f32⟩ : BufTy).Contents (Elt F) → (⟨S50000x128, .f32⟩ : BufTy).Contents (Elt F)),
    binary main_v413 main_v417 main_v418 (addf : (⟨S50000x128, .f32⟩ : BufTy).Contents (Elt F) → (⟨S50000x128, .f32⟩ : BufTy).Contents (Elt F) → (⟨S50000x128, .f32⟩ : BufTy).Contents (Elt F)),
    unary main_arg9 main_v419 ((extractStridedSlice S1x1x400000 ![8, 0, 0] · slices_S9x2x400000_S1x1x400000_8_0_0) : (⟨S9x2x400000, .i32⟩ : BufTy).Contents (Elt F) → (⟨S1x1x400000, .i32⟩ : BufTy).Contents (Elt F)),
    reshape main_v419 main_v420 rfl shapeCasts_S1x1x400000_S400000,
    unary main_arg9 main_v421 ((extractStridedSlice S1x1x400000 ![8, 1, 0] · slices_S9x2x400000_S1x1x400000_8_1_0) : (⟨S9x2x400000, .i32⟩ : BufTy).Contents (Elt F) → (⟨S1x1x400000, .i32⟩ : BufTy).Contents (Elt F)),
    reshape main_v421 main_v422 rfl shapeCasts_S1x1x400000_S400000,
    nullary main_cst_129 (constant S_ .f32 0x3F800000#32),
    unary main_cst_129 main_v423 (broadcastInDim S400000 ![] bcast_S_S400000 : (⟨S_, .f32⟩ : BufTy).Contents (Elt F) → (⟨S400000, .f32⟩ : BufTy).Contents (Elt F)),
    nullary main_cst_130 (constant S_ .f32 0x00000000#32),
    unary main_cst_130 main_v424 (broadcastInDim S50000 ![] bcast_S_S50000 : (⟨S_, .f32⟩ : BufTy).Contents (Elt F) → (⟨S50000, .f32⟩ : BufTy).Contents (Elt F)),
    unary main_v420 main_v425 (broadcastInDim S400000x1 ![0] bcast_S400000_S400000x1_0 : (⟨S400000, .i32⟩ : BufTy).Contents (Elt F) → (⟨S400000x1, .i32⟩ : BufTy).Contents (Elt F)),
    ternary main_v424 main_v425 main_v423 main_v426 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_131 (constant S_ .f32 0x00000000#32),
    unary main_cst_131 main_v427 (broadcastInDim S50000 ![] bcast_S_S50000 : (⟨S_, .f32⟩ : BufTy).Contents (Elt F) → (⟨S50000, .f32⟩ : BufTy).Contents (Elt F)),
    unary main_v422 main_v428 (broadcastInDim S400000x1 ![0] bcast_S400000_S400000x1_0 : (⟨S400000, .i32⟩ : BufTy).Contents (Elt F) → (⟨S400000x1, .i32⟩ : BufTy).Contents (Elt F)),
    ternary main_v427 main_v428 main_v423 main_v429 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_132 (constant S_ .f32 0x00000000#32),
    unary main_cst_132 main_v430 (broadcastInDim S50000 ![] bcast_S_S50000 : (⟨S_, .f32⟩ : BufTy).Contents (Elt F) → (⟨S50000, .f32⟩ : BufTy).Contents (Elt F)),
    binary main_v426 main_v430 main_v431 (cmpf (F := F) .ogt : (⟨S50000, .f32⟩ : BufTy).Contents (Elt F) → (⟨S50000, .f32⟩ : BufTy).Contents (Elt F) → (⟨S50000, .i1⟩ : BufTy).Contents (Elt F)),
    nullary main_cst_133 (constant S_ .f32 0x3F800000#32),
    TRef.unary (TRef.of (T := ⟨S_, .f32⟩) main_cst_133) (TRef.of (T := ⟨S_, .f32⟩) main_call32_v0) id,
    TRef.unary (TRef.of (T := ⟨S_, .f32⟩) main_call32_v0) (TRef.of (T := ⟨S50000, .f32⟩) main_call32_v1) (broadcastInDim S50000 ![] bcast_S_S50000),
    TRef.ternary (TRef.of (T := ⟨S50000, .i1⟩) main_v431) (TRef.of (T := ⟨S50000, .f32⟩) main_v426) (TRef.of (T := ⟨S50000, .f32⟩) main_call32_v1) (TRef.of (T := ⟨S50000, .f32⟩) main_v432) select,
    nullary main_cst_134 (constant S_ .f32 0xBF000000#32),
    unary main_cst_134 main_v433 (broadcastInDim S50000 ![] bcast_S_S50000 : (⟨S_, .f32⟩ : BufTy).Contents (Elt F) → (⟨S50000, .f32⟩ : BufTy).Contents (Elt F)),
    binary main_v432 main_v433 main_v434 (Host.powf : (⟨S50000, .f32⟩ : BufTy).Contents (Elt F) → (⟨S50000, .f32⟩ : BufTy).Contents (Elt F) → (⟨S50000, .f32⟩ : BufTy).Contents (Elt F)),
    nullary main_cst_135 (constant S_ .f32 0x00000000#32),
    unary main_cst_135 main_v435 (broadcastInDim S50000 ![] bcast_S_S50000 : (⟨S_, .f32⟩ : BufTy).Contents (Elt F) → (⟨S50000, .f32⟩ : BufTy).Contents (Elt F)),
    binary main_v426 main_v435 main_v436 (cmpf (F := F) .ogt : (⟨S50000, .f32⟩ : BufTy).Contents (Elt F) → (⟨S50000, .f32⟩ : BufTy).Contents (Elt F) → (⟨S50000, .i1⟩ : BufTy).Contents (Elt F)),
    nullary main_cst_136 (constant S_ .f32 0x00000000#32),
    TRef.unary (TRef.of (T := ⟨S_, .f32⟩) main_cst_136) (TRef.of (T := ⟨S_, .f32⟩) main_call33_v0) id,
    TRef.unary (TRef.of (T := ⟨S_, .f32⟩) main_call33_v0) (TRef.of (T := ⟨S50000, .f32⟩) main_call33_v1) (broadcastInDim S50000 ![] bcast_S_S50000),
    TRef.ternary (TRef.of (T := ⟨S50000, .i1⟩) main_v436) (TRef.of (T := ⟨S50000, .f32⟩) main_v434) (TRef.of (T := ⟨S50000, .f32⟩) main_call33_v1) (TRef.of (T := ⟨S50000, .f32⟩) main_v437) select,
    nullary main_cst_137 (constant S_ .f32 0x00000000#32),
    unary main_cst_137 main_v438 (broadcastInDim S50000 ![] bcast_S_S50000 : (⟨S_, .f32⟩ : BufTy).Contents (Elt F) → (⟨S50000, .f32⟩ : BufTy).Contents (Elt F)),
    binary main_v429 main_v438 main_v439 (cmpf (F := F) .ogt : (⟨S50000, .f32⟩ : BufTy).Contents (Elt F) → (⟨S50000, .f32⟩ : BufTy).Contents (Elt F) → (⟨S50000, .i1⟩ : BufTy).Contents (Elt F)),
    nullary main_cst_138 (constant S_ .f32 0x3F800000#32),
    TRef.unary (TRef.of (T := ⟨S_, .f32⟩) main_cst_138) (TRef.of (T := ⟨S_, .f32⟩) main_call34_v0) id,
    TRef.unary (TRef.of (T := ⟨S_, .f32⟩) main_call34_v0) (TRef.of (T := ⟨S50000, .f32⟩) main_call34_v1) (broadcastInDim S50000 ![] bcast_S_S50000),
    TRef.ternary (TRef.of (T := ⟨S50000, .i1⟩) main_v439) (TRef.of (T := ⟨S50000, .f32⟩) main_v429) (TRef.of (T := ⟨S50000, .f32⟩) main_call34_v1) (TRef.of (T := ⟨S50000, .f32⟩) main_v440) select,
    nullary main_cst_139 (constant S_ .f32 0xBF000000#32),
    unary main_cst_139 main_v441 (broadcastInDim S50000 ![] bcast_S_S50000 : (⟨S_, .f32⟩ : BufTy).Contents (Elt F) → (⟨S50000, .f32⟩ : BufTy).Contents (Elt F)),
    binary main_v440 main_v441 main_v442 (Host.powf : (⟨S50000, .f32⟩ : BufTy).Contents (Elt F) → (⟨S50000, .f32⟩ : BufTy).Contents (Elt F) → (⟨S50000, .f32⟩ : BufTy).Contents (Elt F)),
    nullary main_cst_140 (constant S_ .f32 0x00000000#32),
    unary main_cst_140 main_v443 (broadcastInDim S50000 ![] bcast_S_S50000 : (⟨S_, .f32⟩ : BufTy).Contents (Elt F) → (⟨S50000, .f32⟩ : BufTy).Contents (Elt F)),
    binary main_v429 main_v443 main_v444 (cmpf (F := F) .ogt : (⟨S50000, .f32⟩ : BufTy).Contents (Elt F) → (⟨S50000, .f32⟩ : BufTy).Contents (Elt F) → (⟨S50000, .i1⟩ : BufTy).Contents (Elt F)),
    nullary main_cst_141 (constant S_ .f32 0x00000000#32),
    TRef.unary (TRef.of (T := ⟨S_, .f32⟩) main_cst_141) (TRef.of (T := ⟨S_, .f32⟩) main_call35_v0) id,
    TRef.unary (TRef.of (T := ⟨S_, .f32⟩) main_call35_v0) (TRef.of (T := ⟨S50000, .f32⟩) main_call35_v1) (broadcastInDim S50000 ![] bcast_S_S50000),
    TRef.ternary (TRef.of (T := ⟨S50000, .i1⟩) main_v444) (TRef.of (T := ⟨S50000, .f32⟩) main_v442) (TRef.of (T := ⟨S50000, .f32⟩) main_call35_v1) (TRef.of (T := ⟨S50000, .f32⟩) main_v445) select,
    unary main_v437 main_v446 (broadcastInDim S50000x1 ![0] bcast_S50000_S50000x1_0 : (⟨S50000, .f32⟩ : BufTy).Contents (Elt F) → (⟨S50000x1, .f32⟩ : BufTy).Contents (Elt F)),
    unary main_v446 main_v447 (broadcastInDim S50000x128 ![0, 1] bcast_S50000x1_S50000x128_0_1 : (⟨S50000x1, .f32⟩ : BufTy).Contents (Elt F) → (⟨S50000x128, .f32⟩ : BufTy).Contents (Elt F)),
    binary main_arg1 main_v447 main_v448 (mulf : (⟨S50000x128, .f32⟩ : BufTy).Contents (Elt F) → (⟨S50000x128, .f32⟩ : BufTy).Contents (Elt F) → (⟨S50000x128, .f32⟩ : BufTy).Contents (Elt F)),
    unary main_arg3 main_v449 ((extractStridedSlice S1x128x128 ![8, 0, 0] · slices_S9x128x128_S1x128x128_8_0_0) : (⟨S9x128x128, .f32⟩ : BufTy).Contents (Elt F) → (⟨S1x128x128, .f32⟩ : BufTy).Contents (Elt F)),
    reshape main_v449 main_v450 rfl shapeCasts_S1x128x128_S128x128,
    binary main_v448 main_v450 main_v451 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_142 (constantI S_ 32 0#32),
    unary main_c_142 main_v452 (broadcastInDim S400000 ![] bcast_S_S400000 : (⟨S_, .i32⟩ : BufTy).Contents (Elt F) → (⟨S400000, .i32⟩ : BufTy).Contents (Elt F)),
    binary main_v420 main_v452 main_v453 (cmpi .slt : (⟨S400000, .i32⟩ : BufTy).Contents (Elt F) → (⟨S400000, .i32⟩ : BufTy).Contents (Elt F) → (⟨S400000, .i1⟩ : BufTy).Contents (Elt F)),
    nullary main_c_143 (constantI S_ 32 50000#32) ]

set_option maxRecDepth 8192 in
set_option maxHeartbeats 4000000 in
/-- The window is its operations run in order. -/
theorem main_part9_eq (c : Dev nD) : main_part9 (F := F) c = seq ops_part9 := rfl

set_option maxRecDepth 8192 in
/-- Every operation touches TensorCore buffers only. -/
theorem ops_part9_sub : (ops_part9 : List (HloOp τ sig (Elt F))).Forall fun op => op.bufs ⊆ tcRefs τ sig :=
  ⟨ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub ..⟩

set_option maxRecDepth 8192 in
/-- Every operation determines the contents of what it writes. -/
theorem ops_part9_fresh : ∀ op ∈ (ops_part9 : List (HloOp τ sig (Elt F))), op.fresh = ∅ :=
  List.forall_iff_forall_mem.mp (show (ops_part9 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part9_W : List (Ref sig .tc) := [main_v409, main_v410, main_v411, main_v412, main_v413, main_v414, main_v415, main_v416, main_v417, main_v418, main_v419, main_v420, main_v421, main_v422, main_cst_129, main_v423, main_cst_130, main_v424, main_v425, main_v426, main_cst_131, main_v427, main_v428, main_v429, main_cst_132, main_v430, main_v431, main_cst_133, main_call32_v0, main_call32_v1, main_v432, main_cst_134, main_v433, main_v434, main_cst_135, main_v435, main_v436, main_cst_136, main_call33_v0, main_call33_v1, main_v437, main_cst_137, main_v438, main_v439, main_cst_138, main_call34_v0, main_call34_v1, main_v440, main_cst_139, main_v441, main_v442, main_cst_140, main_v443, main_v444, main_cst_141, main_call35_v0, main_call35_v1, main_v445, main_v446, main_v447, main_v448, main_v449, main_v450, main_v451, main_c_142, main_v452, main_v453, main_c_143]

set_option maxRecDepth 8192 in
/-- Each operation writes one of them. -/
theorem ops_part9_writes : (ops_part9 : List (HloOp τ sig (Elt F))).Forall fun op =>
    op.writes ⊆ (ops_part9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val9.lean ====
/- The step across window 9 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops9

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step9 {W : Valuation τ sig (Elt F)} {x0 x1 x2 x3 x4 x5 x6 x7 x8 x9 : _}
    (h : Live9 W x0 x1 x2 x3 x4 x5 x6 x7 x8 x9) : Live10 (after ops_part9 W) x0 x1 x2 x3 x4 x5 x6 x7 x8 x9 where
  h_main_arg0 := (after_of_writes_sub ops_part9 W ops_part9_writes (by decide)).trans h.h_main_arg0
  h_main_arg1 := (after_of_writes_sub ops_part9 W ops_part9_writes (by decide)).trans h.h_main_arg1
  h_main_arg2 := (after_of_writes_sub ops_part9 W ops_part9_writes (by decide)).trans h.h_main_arg2
  h_main_arg3 := (after_of_writes_sub ops_part9 W ops_part9_writes (by decide)).trans h.h_main_arg3
  h_main_arg4 := (after_of_writes_sub ops_part9 W ops_part9_writes (by decide)).trans h.h_main_arg4
  h_main_arg5 := (after_of_writes_sub ops_part9 W ops_part9_writes (by decide)).trans h.h_main_arg5
  h_main_arg6 := (after_of_writes_sub ops_part9 W ops_part9_writes (by decide)).trans h.h_main_arg6
  h_main_arg7 := (after_of_writes_sub ops_part9 W ops_part9_writes (by decide)).trans h.h_main_arg7
  h_main_arg8 := (after_of_writes_sub ops_part9 W ops_part9_writes (by decide)).trans h.h_main_arg8
  h_main_arg9 := (after_of_writes_sub ops_part9 W ops_part9_writes (by decide)).trans h.h_main_arg9
  h_main_v262 := (after_of_writes_sub ops_part9 W ops_part9_writes (by decide)).trans h.h_main_v262
  h_main_v366 := (after_of_writes_sub ops_part9 W ops_part9_writes (by decide)).trans h.h_main_v366
  h_main_v418 := by
    simp only [ops_part9]
    after_results_simp
    all_goals (try simp only [h.h_main_arg4, h.h_main_v393, h.h_main_v406, h.h_main_v408, h.h_main_v407, h.h_main_v106])
    all_goals (try simp only [TRef.ofBuf, TRef.toBuf, cast_eq])
    all_goals rfl
  h_main_v420 := by
    simp only [ops_part9]
    after_results_simp
    all_goals (try simp only [h.h_main_arg9])
    all_goals (try simp only [TRef.ofBuf, TRef.toBuf, cast_eq])
    all_goals rfl
  h_main_v422 := by
    simp only [ops_part9]
    after_results_simp
    all_goals (try simp only [h.h_main_arg9])
    all_goals (try simp only [TRef.ofBuf, TRef.toBuf, cast_eq])
    all_goals rfl
  h_main_v445 := by
    simp only [ops_part9]
    after_results_simp
    all_goals (try simp only [h.h_main_arg9])
    all_goals (try simp only [TRef.ofBuf, TRef.toBuf, cast_eq])
    all_goals rfl
  h_main_v451 := by
    simp only [ops_part9]
    after_results_simp
    all_goals (try simp only [h.h_main_arg3, h.h_main_arg9, h.h_main_arg1])
    all_goals (try simp only [TRef.ofBuf, TRef.toBuf, cast_eq])
    all_goals rfl
  h_main_v453 := by
    simp only [ops_part9]
    after_results_simp
    all_goals (try simp only [h.h_main_arg9])
    all_goals (try simp only [TRef.ofBuf, TRef.toBuf, cast_eq])
    all_goals rfl
  h_main_c_143 := by
    simp only [ops_part9]
    after_results_simp
    skip
    all_goals (try simp only [TRef.ofBuf, TRef.toBuf, cast_eq])
    all_goals rfl

end Cert.ReferenceIdeal.RefRun

end
-- ==== Proof.Ref.Ops10.lean ====
/- Operations 673 … 744 of the 1414 operations of the reference program's @main: its printed window
   main_part10 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 673 … 744, in order. -/
abbrev ops_part10 : List (HloOp τ sig (Elt F)) :=
  [ unary main_c_143 main_v454 (broadcastInDim S400000 ![] bcast_S_S400000 : (⟨S_, .i32⟩ : BufTy).Contents (Elt F) → (⟨S400000, .i32⟩ : BufTy).Contents (Elt F)),
    binary main_v420 main_v454 main_v455 (addi : (⟨S400000, .i32⟩ : BufTy).Contents (Elt F) → (⟨S400000, .i32⟩ : BufTy).Contents (Elt F) → (⟨S400000, .i32⟩ : BufTy).Contents (Elt F)),
    ternary main_v453 main_v455 main_v420 main_v456 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v456 main_v457 (broadcastInDim S400000x1 ![0] bcast_S400000_S400000x1_0 : (⟨S400000, .i32⟩ : BufTy).Contents (Elt F) → (⟨S400000x1, .i32⟩ : BufTy).Contents (Elt F)),
    binary main_v451 main_v457 main_v458 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_144 (constant S_ .f32 0x00000000#32),
    unary main_cst_144 main_v459 (broadcastInDim S50000x128 ![] bcast_S_S50000x128 : (⟨S_, .f32⟩ : BufTy).Contents (Elt F) → (⟨S50000x128, .f32⟩ : BufTy).Contents (Elt F)),
    unary main_v422 main_v460 (broadcastInDim S400000x1 ![0] bcast_S400000_S400000x1_0 : (⟨S400000, .i32⟩ : BufTy).Contents (Elt F) → (⟨S400000x1, .i32⟩ : BufTy).Contents (Elt F)),
    ternary main_v459 main_v460 main_v458 main_v461 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v445 main_v462 (broadcastInDim S50000x1 ![0] bcast_S50000_S50000x1_0 : (⟨S50000, .f32⟩ : BufTy).Contents (Elt F) → (⟨S50000x1, .f32⟩ : BufTy).Contents (Elt F)),
    unary main_v462 main_v463 (broadcastInDim S50000x128 ![0, 1] bcast_S50000x1_S50000x128_0_1 : (⟨S50000x1, .f32⟩ : BufTy).Contents (Elt F) → (⟨S50000x128, .f32⟩ : BufTy).Contents (Elt F)),
    binary main_v461 main_v463 main_v464 (mulf : (⟨S50000x128, .f32⟩ : BufTy).Contents (Elt F) → (⟨S50000x128, .f32⟩ : BufTy).Contents (Elt F) → (⟨S50000x128, .f32⟩ : BufTy).Contents (Elt F)),
    binary main_v262 main_v464 main_v465 (addf : (⟨S50000x128, .f32⟩ : BufTy).Contents (Elt F) → (⟨S50000x128, .f32⟩ : BufTy).Contents (Elt F) → (⟨S50000x128, .f32⟩ : BufTy).Contents (Elt F)),
    unary main_arg4 main_v466 ((extractStridedSlice S1x128 ![8, 0] · slices_S9x128_S1x128_8_0) : (⟨S9x128, .f32⟩ : BufTy).Contents (Elt F) → (⟨S1x128, .f32⟩ : BufTy).Contents (Elt F)),
    reshape main_v466 main_v467 rfl shapeCasts_S1x128_S128,
    unary main_v467 main_v468 (broadcastInDim S1x128 ![1] bcast_S128_S1x128_1 : (⟨S128, .f32⟩ : BufTy).Contents (Elt F) → (⟨S1x128, .f32⟩ : BufTy).Contents (Elt F)),
    unary main_v468 main_v469 (broadcastInDim S50000x128 ![0, 1] bcast_S1x128_S50000x128_0_1 : (⟨S1x128, .f32⟩ : BufTy).Contents (Elt F) → (⟨S50000x128, .f32⟩ : BufTy).Contents (Elt F)),
    binary main_v465 main_v469 main_v470 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call36_cst) (constant S_ .f32 0x00000000#32),
    TRef.unary (TRef.of (T := ⟨S_, .f32⟩) main_call36_cst) (TRef.of (T := ⟨S50000x128, .f32⟩) main_call36_v0) (broadcastInDim S50000x128 ![] bcast_S_S50000x128),
    TRef.binary (TRef.of (T := ⟨S50000x128, .f32⟩) main_v366) (TRef.of (T := ⟨S50000x128, .f32⟩) main_call36_v0) (TRef.of (T := ⟨S50000x128, .f32⟩) main_v471) maximumf,
    TRef.nullary (TRef.of (T := ⟨S_, .f32⟩) main_call37_cst) (constant S_ .f32 0x00000000#32),
    TRef.unary (TRef.of (T := ⟨S_, .f32⟩) main_call37_cst) (TRef.of (T := ⟨S50000x128, .f32⟩) main_call37_v0) (broadcastInDim S50000x128 ![] bcast_S_S50000x128),
    TRef.binary (TRef.of (T := ⟨S50000x128, .f32⟩) main_v470) (TRef.of (T := ⟨S50000x128, .f32⟩) main_call37_v0) (TRef.of (T := ⟨S50000x128, .f32⟩) main_v472) maximumf,
    TRef.nullary (TRef.of (T := ⟨S_, .f32⟩) main_call38_cst) (constant S_ .f32 0x00000000#32),
    TRef.unary (TRef.of (T := ⟨S_, .f32⟩) main_call38_cst) (TRef.of (T := ⟨S50000x128, .f32⟩) main_call38_v0) (broadcastInDim S50000x128 ![] bcast_S_S50000x128),
    TRef.binary (TRef.of (T := ⟨S50000x128, .f32⟩) main_v418) (TRef.of (T := ⟨S50000x128, .f32⟩) main_call38_v0) (TRef.of (T := ⟨S50000x128, .f32⟩) main_v473) maximumf,
    nullary main_cst_145 (constant S_ .f32 0x00000000#32),
    unary main_cst_145 main_v474 (broadcastInDim S50000x128 ![] bcast_S_S50000x128 : (⟨S_, .f32⟩ : BufTy).Contents (Elt F) → (⟨S50000x128, .f32⟩ : BufTy).Contents (Elt F)),
    nullary main_cst_146 (constant S_ .f32 0x00000000#32),
    unary main_cst_146 main_v475 (broadcastInDim S50000x128 ![] bcast_S_S50000x128 : (⟨S_, .f32⟩ : BufTy).Contents (Elt F) → (⟨S50000x128, .f32⟩ : BufTy).Contents (Elt F)),
    nullary main_cst_147 (constant S_ .f32 0x00000000#32),
    unary main_cst_147 main_v476 (broadcastInDim S50000x128 ![] bcast_S_S50000x128 : (⟨S_, .f32⟩ : BufTy).Contents (Elt F) → (⟨S50000x128, .f32⟩ : BufTy).Contents (Elt F)),
    unary main_arg9 main_v477 ((extractStridedSlice S1x1x400000 ![0, 0, 0] · slices_S9x2x400000_S1x1x400000_0_0_0) : (⟨S9x2x400000, .i32⟩ : BufTy).Contents (Elt F) → (⟨S1x1x400000, .i32⟩ : BufTy).Contents (Elt F)),
    reshape main_v477 main_v478 rfl shapeCasts_S1x1x400000_S400000,
    unary main_arg9 main_v479 ((extractStridedSlice S1x1x400000 ![0, 1, 0] · slices_S9x2x400000_S1x1x400000_0_1_0) : (⟨S9x2x400000, .i32⟩ : BufTy).Contents (Elt F) → (⟨S1x1x400000, .i32⟩ : BufTy).Contents (Elt F)),
    reshape main_v479 main_v480 rfl shapeCasts_S1x1x400000_S400000,
    nullary main_cst_148 (constant S_ .f32 0x3F800000#32),
    unary main_cst_148 main_v481 (broadcastInDim S400000 ![] bcast_S_S400000 : (⟨S_, .f32⟩ : BufTy).Contents (Elt F) → (⟨S400000, .f32⟩ : BufTy).Contents (Elt F)),
    nullary main_cst_149 (constant S_ .f32 0x00000000#32),
    unary main_cst_149 main_v482 (broadcastInDim S50000 ![] bcast_S_S50000 : (⟨S_, .f32⟩ : BufTy).Contents (Elt F) → (⟨S50000, .f32⟩ : BufTy).Contents (Elt F)),
    unary main_v478 main_v483 (broadcastInDim S400000x1 ![0] bcast_S400000_S400000x1_0 : (⟨S400000, .i32⟩ : BufTy).Contents (Elt F) → (⟨S400000x1, .i32⟩ : BufTy).Contents (Elt F)),
    ternary main_v482 main_v483 main_v481 main_v484 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_150 (constant S_ .f32 0x00000000#32),
    unary main_cst_150 main_v485 (broadcastInDim S50000 ![] bcast_S_S50000 : (⟨S_, .f32⟩ : BufTy).Contents (Elt F) → (⟨S50000, .f32⟩ : BufTy).Contents (Elt F)),
    unary main_v480 main_v486 (broadcastInDim S400000x1 ![0] bcast_S400000_S400000x1_0 : (⟨S400000, .i32⟩ : BufTy).Contents (Elt F) → (⟨S400000x1, .i32⟩ : BufTy).Contents (Elt F)),
    ternary main_v485 main_v486 main_v481 main_v487 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_151 (constant S_ .f32 0x00000000#32),
    unary main_cst_151 main_v488 (broadcastInDim S50000 ![] bcast_S_S50000 : (⟨S_, .f32⟩ : BufTy).Contents (Elt F) → (⟨S50000, .f32⟩ : BufTy).Contents (Elt F)),
    binary main_v484 main_v488 main_v489 (cmpf (F := F) .ogt : (⟨S50000, .f32⟩ : BufTy).Contents (Elt F) → (⟨S50000, .f32⟩ : BufTy).Contents (Elt F) → (⟨S50000, .i1⟩ : BufTy).Contents (Elt F)),
    nullary main_cst_152 (constant S_ .f32 0x3F800000#32),
    TRef.unary (TRef.of (T := ⟨S_, .f32⟩) main_cst_152) (TRef.of (T := ⟨S_, .f32⟩) main_call39_v0) id,
    TRef.unary (TRef.of (T := ⟨S_, .f32⟩) main_call39_v0) (TRef.of (T := ⟨S50000, .f32⟩) main_call39_v1) (broadcastInDim S50000 ![] bcast_S_S50000),
    TRef.ternary (TRef.of (T := ⟨S50000, .i1⟩) main_v489) (TRef.of (T := ⟨S50000, .f32⟩) main_v484) (TRef.of (T := ⟨S50000, .f32⟩) main_call39_v1) (TRef.of (T := ⟨S50000, .f32⟩) main_v490) select,
    nullary main_cst_153 (constant S_ .f32 0xBF000000#32),
    unary main_cst_153 main_v491 (broadcastInDim S50000 ![] bcast_S_S50000 : (⟨S_, .f32⟩ : BufTy).Contents (Elt F) → (⟨S50000, .f32⟩ : BufTy).Contents (Elt F)),
    binary main_v490 main_v491 main_v492 (Host.powf : (⟨S50000, .f32⟩ : BufTy).Contents (Elt F) → (⟨S50000, .f32⟩ : BufTy).Contents (Elt F) → (⟨S50000, .f32⟩ : BufTy).Contents (Elt F)),
    nullary main_cst_154 (constant S_ .f32 0x00000000#32),
    unary main_cst_154 main_v493 (broadcastInDim S50000 ![] bcast_S_S50000 : (⟨S_, .f32⟩ : BufTy).Contents (Elt F) → (⟨S50000, .f32⟩ : BufTy).Contents (Elt F)),
    binary main_v484 main_v493 main_v494 (cmpf (F := F) .ogt : (⟨S50000, .f32⟩ : BufTy).Contents (Elt F) → (⟨S50000, .f32⟩ : BufTy).Contents (Elt F) → (⟨S50000, .i1⟩ : BufTy).Contents (Elt F)),
    nullary main_cst_155 (constant S_ .f32 0x00000000#32),
    TRef.unary (TRef.of (T := ⟨S_, .f32⟩) main_cst_155) (TRef.of (T := ⟨S_, .f32⟩) main_call40_v0) id,
    TRef.unary (TRef.of (T := ⟨S_, .f32⟩) main_call40_v0) (TRef.of (T := ⟨S50000, .f32⟩) main_call40_v1) (broadcastInDim S50000 ![] bcast_S_S50000),
    TRef.ternary (TRef.of (T := ⟨S50000, .i1⟩) main_v494) (TRef.of (T := ⟨S50000, .f32⟩) main_v492) (TRef.of (T := ⟨S50000, .f32⟩) main_call40_v1) (TRef.of (T := ⟨S50000, .f32⟩) main_v495) select,
    nullary main_cst_156 (constant S_ .f32 0x00000000#32),
    unary main_cst_156 main_v496 (broadcastInDim S50000 ![] bcast_S_S50000 : (⟨S_, .f32⟩ : BufTy).Contents (Elt F) → (⟨S50000, .f32⟩ : BufTy).Contents (Elt F)),
    binary main_v487 main_v496 main_v497 (cmpf (F := F) .ogt : (⟨S50000, .f32⟩ : BufTy).Contents (Elt F) → (⟨S50000, .f32⟩ : BufTy).Contents (Elt F) → (⟨S50000, .i1⟩ : BufTy).Contents (Elt F)),
    nullary main_cst_157 (constant S_ .f32 0x3F800000#32),
    TRef.unary (TRef.of (T := ⟨S_, .f32⟩) main_cst_157) (TRef.of (T := ⟨S_, .f32⟩) main_call41_v0) id,
    TRef.unary (TRef.of (T := ⟨S_, .f32⟩) main_call41_v0) (TRef.of (T := ⟨S50000, .f32⟩) main_call41_v1) (broadcastInDim S50000 ![] bcast_S_S50000),
    TRef.ternary (TRef.of (T := ⟨S50000, .i1⟩) main_v497) (TRef.of (T := ⟨S50000, .f32⟩) main_v487) (TRef.of (T := ⟨S50000, .f32⟩) main_call41_v1) (TRef.of (T := ⟨S50000, .f32⟩) main_v498) select,
    nullary main_cst_158 (constant S_ .f32 0xBF000000#32) ]

set_option maxRecDepth 8192 in
set_option maxHeartbeats 4000000 in
/-- The window is its operations run in order. -/
theorem main_part10_eq (c : Dev nD) : main_part10 (F := F) c = seq ops_part10 := rfl

set_option maxRecDepth 8192 in
/-- Every operation touches TensorCore buffers only. -/
theorem ops_part10_sub : (ops_part10 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub ..⟩

set_option maxRecDepth 8192 in
/-- Every operation determines the contents of what it writes. -/
theorem ops_part10_fresh : ∀ op ∈ (ops_part10 : List (HloOp τ sig (Elt F))), op.fresh = ∅ :=
  List.forall_iff_forall_mem.mp (show (ops_part10 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part10_W : List (Ref sig .tc) := [main_v454, main_v455, main_v456, main_v457, main_v458, main_cst_144, main_v459, main_v460, main_v461, main_v462, main_v463, main_v464, main_v465, main_v466, main_v467, main_v468, main_v469, main_v470, main_call36_cst, main_call36_v0, main_v471, main_call37_cst, main_call37_v0, main_v472, main_call38_cst, main_call38_v0, main_v473, main_cst_145, main_v474, main_cst_146, main_v475, main_cst_147, main_v476, main_v477, main_v478, main_v479, main_v480, main_cst_148, main_v481, main_cst_149, main_v482, main_v483, main_v484, main_cst_150, main_v485, main_v486, main_v487, main_cst_151, main_v488, main_v489, main_cst_152, main_call39_v0, main_call39_v1, main_v490, main_cst_153, main_v491, main_v492, main_cst_154, main_v493, main_v494, main_cst_155, main_call40_v0, main_call40_v1, main_v495, main_cst_156, main_v496, main_v497, main_cst_157, main_call41_v0, main_call41_v1, main_v498, main_cst_158]

set_option maxRecDepth 8192 in
/-- Each operation writes one of them. -/
theorem ops_part10_writes : (ops_part10 : List (HloOp τ sig (Elt F))).Forall fun op =>
    op.writes ⊆ (ops_part10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val10.lean ====
/- The step across window 10 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops10

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step10 {W : Valuation τ sig (Elt F)} {x0 x1 x2 x3 x4 x5 x6 x7 x8 x9 : _}
    (h : Live10 W x0 x1 x2 x3 x4 x5 x6 x7 x8 x9) : Live11 (after ops_part10 W) x0 x1 x2 x3 x4 x5 x6 x7 x8 x9 where
  h_main_arg0 := (after_of_writes_sub ops_part10 W ops_part10_writes (by decide)).trans h.h_main_arg0
  h_main_arg1 := (after_of_writes_sub ops_part10 W ops_part10_writes (by decide)).trans h.h_main_arg1
  h_main_arg2 := (after_of_writes_sub ops_part10 W ops_part10_writes (by decide)).trans h.h_main_arg2
  h_main_arg3 := (after_of_writes_sub ops_part10 W ops_part10_writes (by decide)).trans h.h_main_arg3
  h_main_arg4 := (after_of_writes_sub ops_part10 W ops_part10_writes (by decide)).trans h.h_main_arg4
  h_main_arg5 := (after_of_writes_sub ops_part10 W ops_part10_writes (by decide)).trans h.h_main_arg5
  h_main_arg6 := (after_of_writes_sub ops_part10 W ops_part10_writes (by decide)).trans h.h_main_arg6
  h_main_arg7 := (after_of_writes_sub ops_part10 W ops_part10_writes (by decide)).trans h.h_main_arg7
  h_main_arg8 := (after_of_writes_sub ops_part10 W ops_part10_writes (by decide)).trans h.h_main_arg8
  h_main_arg9 := (after_of_writes_sub ops_part10 W ops_part10_writes (by decide)).trans h.h_main_arg9
  h_main_v471 := by
    simp only [ops_part10]
    after_results_simp
    all_goals (try simp only [h.h_main_v366])
    all_goals (try simp only [TRef.ofBuf, TRef.toBuf, cast_eq])
    all_goals rfl
  h_main_v472 := by
    simp only [ops_part10]
    after_results_simp
    all_goals (try simp only [h.h_main_arg4, h.h_main_v445, h.h_main_v420, h.h_main_c_143, h.h_main_v453, h.h_main_v451, h.h_main_v422, h.h_main_v262])
    all_goals (try simp only [TRef.ofBuf, TRef.toBuf, cast_eq])
    all_goals rfl
  h_main_v473 := by
    simp only [ops_part10]
    after_results_simp
    all_goals (try simp only [h.h_main_v418])
    all_goals (try simp only [TRef.ofBuf, TRef.toBuf, cast_eq])
    all_goals rfl
  h_main_v474 := by
    simp only [ops_part10]
    after_results_simp
    skip
    all_goals (try simp only [TRef.ofBuf, TRef.toBuf, cast_eq])
    all_goals rfl
  h_main_v475 := by
    simp only [ops_part10]
    after_results_simp
    skip
    all_goals (try simp only [TRef.ofBuf, TRef.toBuf, cast_eq])
    all_goals rfl
  h_main_v476 := by
    simp only [ops_part10]
    after_results_simp
    skip
    all_goals (try simp only [TRef.ofBuf, TRef.toBuf, cast_eq])
    all_goals rfl
  h_main_v478 := by
    simp only [ops_part10]
    after_results_simp
    all_goals (try simp only [h.h_main_arg9])
    all_goals (try simp only [TRef.ofBuf, TRef.toBuf, cast_eq])
    all_goals rfl
  h_main_v480 := by
    simp only [ops_part10]
    after_results_simp
    all_goals (try simp only [h.h_main_arg9])
    all_goals (try simp only [TRef.ofBuf, TRef.toBuf, cast_eq])
    all_goals rfl
  h_main_v487 := by
    simp only [ops_part10]
    after_results_simp
    all_goals (try simp only [h.h_main_arg9])
    all_goals (try simp only [TRef.ofBuf, TRef.toBuf, cast_eq])
    all_goals rfl
  h_main_v495 := by
    simp only [ops_part10]
    after_results_simp
    all_goals (try simp only [h.h_main_arg9])
    all_goals (try simp only [TRef.ofBuf, TRef.toBuf, cast_eq])
    all_goals rfl
  h_main_v498 := by
    simp only [ops_part10]
    after_results_simp
    all_goals (try simp only [h.h_main_arg9])
    all_goals (try simp only [TRef.ofBuf, TRef.toBuf, cast_eq])
    all_goals rfl
  h_main_cst_158 := by
    simp only [ops_part10]
    after_results_simp
    skip
    all_goals (try simp only [TRef.ofBuf, TRef.toBuf, cast_eq])
    all_goals rfl

end Cert.ReferenceIdeal.RefRun

end
-- ==== Proof.Ref.Ops11.lean ====
/- Operations 745 … 808 of the 1414 operations of the reference program's @main: its printed window
   main_part11 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 745 … 808, in order. -/
abbrev ops_part11 : List (HloOp τ sig (Elt F)) :=
  [ unary main_cst_158 main_v499 (broadcastInDim S50000 ![] bcast_S_S50000 : (⟨S_, .f32⟩ : BufTy).Contents (Elt F) → (⟨S50000, .f32⟩ : BufTy).Contents (Elt F)),
    binary main_v498 main_v499 main_v500 (Host.powf : (⟨S50000, .f32⟩ : BufTy).Contents (Elt F) → (⟨S50000, .f32⟩ : BufTy).Contents (Elt F) → (⟨S50000, .f32⟩ : BufTy).Contents (Elt F)),
    nullary main_cst_159 (constant S_ .f32 0x00000000#32),
    unary main_cst_159 main_v501 (broadcastInDim S50000 ![] bcast_S_S50000 : (⟨S_, .f32⟩ : BufTy).Contents (Elt F) → (⟨S50000, .f32⟩ : BufTy).Contents (Elt F)),
    binary main_v487 main_v501 main_v502 (cmpf (F := F) .ogt : (⟨S50000, .f32⟩ : BufTy).Contents (Elt F) → (⟨S50000, .f32⟩ : BufTy).Contents (Elt F) → (⟨S50000, .i1⟩ : BufTy).Contents (Elt F)),
    nullary main_cst_160 (constant S_ .f32 0x00000000#32),
    TRef.unary (TRef.of (T := ⟨S_, .f32⟩) main_cst_160) (TRef.of (T := ⟨S_, .f32⟩) main_call42_v0) id,
    TRef.unary (TRef.of (T := ⟨S_, .f32⟩) main_call42_v0) (TRef.of (T := ⟨S50000, .f32⟩) main_call42_v1) (broadcastInDim S50000 ![] bcast_S_S50000),
    TRef.ternary (TRef.of (T := ⟨S50000, .i1⟩) main_v502) (TRef.of (T := ⟨S50000, .f32⟩) main_v500) (TRef.of (T := ⟨S50000, .f32⟩) main_call42_v1) (TRef.of (T := ⟨S50000, .f32⟩) main_v503) select,
    unary main_v495 main_v504 (broadcastInDim S50000x1 ![0] bcast_S50000_S50000x1_0 : (⟨S50000, .f32⟩ : BufTy).Contents (Elt F) → (⟨S50000x1, .f32⟩ : BufTy).Contents (Elt F)),
    unary main_v504 main_v505 (broadcastInDim S50000x128 ![0, 1] bcast_S50000x1_S50000x128_0_1 : (⟨S50000x1, .f32⟩ : BufTy).Contents (Elt F) → (⟨S50000x128, .f32⟩ : BufTy).Contents (Elt F)),
    binary main_v471 main_v505 main_v506 (mulf : (⟨S50000x128, .f32⟩ : BufTy).Contents (Elt F) → (⟨S50000x128, .f32⟩ : BufTy).Contents (Elt F) → (⟨S50000x128, .f32⟩ : BufTy).Contents (Elt F)),
    unary main_arg5 main_v507 ((extractStridedSlice S1x128x128 ![0, 0, 0] · slices_S9x128x128_S1x128x128_0_0_0) : (⟨S9x128x128, .f32⟩ : BufTy).Contents (Elt F) → (⟨S1x128x128, .f32⟩ : BufTy).Contents (Elt F)),
    reshape main_v507 main_v508 rfl shapeCasts_S1x128x128_S128x128,
    binary main_v506 main_v508 main_v509 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_161 (constantI S_ 32 0#32),
    unary main_c_161 main_v510 (broadcastInDim S400000 ![] bcast_S_S400000 : (⟨S_, .i32⟩ : BufTy).Contents (Elt F) → (⟨S400000, .i32⟩ : BufTy).Contents (Elt F)),
    binary main_v478 main_v510 main_v511 (cmpi .slt : (⟨S400000, .i32⟩ : BufTy).Contents (Elt F) → (⟨S400000, .i32⟩ : BufTy).Contents (Elt F) → (⟨S400000, .i1⟩ : BufTy).Contents (Elt F)),
    nullary main_c_162 (constantI S_ 32 50000#32),
    unary main_c_162 main_v512 (broadcastInDim S400000 ![] bcast_S_S400000 : (⟨S_, .i32⟩ : BufTy).Contents (Elt F) → (⟨S400000, .i32⟩ : BufTy).Contents (Elt F)),
    binary main_v478 main_v512 main_v513 (addi : (⟨S400000, .i32⟩ : BufTy).Contents (Elt F) → (⟨S400000, .i32⟩ : BufTy).Contents (Elt F) → (⟨S400000, .i32⟩ : BufTy).Contents (Elt F)),
    ternary main_v511 main_v513 main_v478 main_v514 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v514 main_v515 (broadcastInDim S400000x1 ![0] bcast_S400000_S400000x1_0 : (⟨S400000, .i32⟩ : BufTy).Contents (Elt F) → (⟨S400000x1, .i32⟩ : BufTy).Contents (Elt F)),
    binary main_v509 main_v515 main_v516 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_163 (constant S_ .f32 0x00000000#32),
    unary main_cst_163 main_v517 (broadcastInDim S50000x128 ![] bcast_S_S50000x128 : (⟨S_, .f32⟩ : BufTy).Contents (Elt F) → (⟨S50000x128, .f32⟩ : BufTy).Contents (Elt F)),
    unary main_v480 main_v518 (broadcastInDim S400000x1 ![0] bcast_S400000_S400000x1_0 : (⟨S400000, .i32⟩ : BufTy).Contents (Elt F) → (⟨S400000x1, .i32⟩ : BufTy).Contents (Elt F)),
    ternary main_v517 main_v518 main_v516 main_v519 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v503 main_v520 (broadcastInDim S50000x1 ![0] bcast_S50000_S50000x1_0 : (⟨S50000, .f32⟩ : BufTy).Contents (Elt F) → (⟨S50000x1, .f32⟩ : BufTy).Contents (Elt F)),
    unary main_v520 main_v521 (broadcastInDim S50000x128 ![0, 1] bcast_S50000x1_S50000x128_0_1 : (⟨S50000x1, .f32⟩ : BufTy).Contents (Elt F) → (⟨S50000x128, .f32⟩ : BufTy).Contents (Elt F)),
    binary main_v519 main_v521 main_v522 (mulf : (⟨S50000x128, .f32⟩ : BufTy).Contents (Elt F) → (⟨S50000x128, .f32⟩ : BufTy).Contents (Elt F) → (⟨S50000x128, .f32⟩ : BufTy).Contents (Elt F)),
    binary main_v476 main_v522 main_v523 (addf : (⟨S50000x128, .f32⟩ : BufTy).Contents (Elt F) → (⟨S50000x128, .f32⟩ : BufTy).Contents (Elt F) → (⟨S50000x128, .f32⟩ : BufTy).Contents (Elt F)),
    unary main_arg6 main_v524 ((extractStridedSlice S1x128 ![0, 0] · slices_S9x128_S1x128_0_0) : (⟨S9x128, .f32⟩ : BufTy).Contents (Elt F) → (⟨S1x128, .f32⟩ : BufTy).Contents (Elt F)),
    reshape main_v524 main_v525 rfl shapeCasts_S1x128_S128,
    unary main_v525 main_v526 (broadcastInDim S1x128 ![1] bcast_S128_S1x128_1 : (⟨S128, .f32⟩ : BufTy).Contents (Elt F) → (⟨S1x128, .f32⟩ : BufTy).Contents (Elt F)),
    unary main_v526 main_v527 (broadcastInDim S50000x128 ![0, 1] bcast_S1x128_S50000x128_0_1 : (⟨S1x128, .f32⟩ : BufTy).Contents (Elt F) → (⟨S50000x128, .f32⟩ : BufTy).Contents (Elt F)),
    binary main_v523 main_v527 main_v528 (addf : (⟨S50000x128, .f32⟩ : BufTy).Contents (Elt F) → (⟨S50000x128, .f32⟩ : BufTy).Contents (Elt F) → (⟨S50000x128, .f32⟩ : BufTy).Contents (Elt F)),
    unary main_arg9 main_v529 ((extractStridedSlice S1x1x400000 ![1, 0, 0] · slices_S9x2x400000_S1x1x400000_1_0_0) : (⟨S9x2x400000, .i32⟩ : BufTy).Contents (Elt F) → (⟨S1x1x400000, .i32⟩ : BufTy).Contents (Elt F)),
    reshape main_v529 main_v530 rfl shapeCasts_S1x1x400000_S400000,
    unary main_arg9 main_v531 ((extractStridedSlice S1x1x400000 ![1, 1, 0] · slices_S9x2x400000_S1x1x400000_1_1_0) : (⟨S9x2x400000, .i32⟩ : BufTy).Contents (Elt F) → (⟨S1x1x400000, .i32⟩ : BufTy).Contents (Elt F)),
    reshape main_v531 main_v532 rfl shapeCasts_S1x1x400000_S400000,
    nullary main_cst_164 (constant S_ .f32 0x3F800000#32),
    unary main_cst_164 main_v533 (broadcastInDim S400000 ![] bcast_S_S400000 : (⟨S_, .f32⟩ : BufTy).Contents (Elt F) → (⟨S400000, .f32⟩ : BufTy).Contents (Elt F)),
    nullary main_cst_165 (constant S_ .f32 0x00000000#32),
    unary main_cst_165 main_v534 (broadcastInDim S50000 ![] bcast_S_S50000 : (⟨S_, .f32⟩ : BufTy).Contents (Elt F) → (⟨S50000, .f32⟩ : BufTy).Contents (Elt F)),
    unary main_v530 main_v535 (broadcastInDim S400000x1 ![0] bcast_S400000_S400000x1_0 : (⟨S400000, .i32⟩ : BufTy).Contents (Elt F) → (⟨S400000x1, .i32⟩ : BufTy).Contents (Elt F)),
    ternary main_v534 main_v535 main_v533 main_v536 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_166 (constant S_ .f32 0x00000000#32),
    unary main_cst_166 main_v537 (broadcastInDim S50000 ![] bcast_S_S50000 : (⟨S_, .f32⟩ : BufTy).Contents (Elt F) → (⟨S50000, .f32⟩ : BufTy).Contents (Elt F)),
    unary main_v532 main_v538 (broadcastInDim S400000x1 ![0] bcast_S400000_S400000x1_0 : (⟨S400000, .i32⟩ : BufTy).Contents (Elt F) → (⟨S400000x1, .i32⟩ : BufTy).Contents (Elt F)),
    ternary main_v537 main_v538 main_v533 main_v539 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_167 (constant S_ .f32 0x00000000#32),
    unary main_cst_167 main_v540 (broadcastInDim S50000 ![] bcast_S_S50000 : (⟨S_, .f32⟩ : BufTy).Contents (Elt F) → (⟨S50000, .f32⟩ : BufTy).Contents (Elt F)),
    binary main_v536 main_v540 main_v541 (cmpf (F := F) .ogt : (⟨S50000, .f32⟩ : BufTy).Contents (Elt F) → (⟨S50000, .f32⟩ : BufTy).Contents (Elt F) → (⟨S50000, .i1⟩ : BufTy).Contents (Elt F)),
    nullary main_cst_168 (constant S_ .f32 0x3F800000#32),
    TRef.unary (TRef.of (T := ⟨S_, .f32⟩) main_cst_168) (TRef.of (T := ⟨S_, .f32⟩) main_call43_v0) id,
    TRef.unary (TRef.of (T := ⟨S_, .f32⟩) main_call43_v0) (TRef.of (T := ⟨S50000, .f32⟩) main_call43_v1) (broadcastInDim S50000 ![] bcast_S_S50000),
    TRef.ternary (TRef.of (T := ⟨S50000, .i1⟩) main_v541) (TRef.of (T := ⟨S50000, .f32⟩) main_v536) (TRef.of (T := ⟨S50000, .f32⟩) main_call43_v1) (TRef.of (T := ⟨S50000, .f32⟩) main_v542) select,
    nullary main_cst_169 (constant S_ .f32 0xBF000000#32),
    unary main_cst_169 main_v543 (broadcastInDim S50000 ![] bcast_S_S50000 : (⟨S_, .f32⟩ : BufTy).Contents (Elt F) → (⟨S50000, .f32⟩ : BufTy).Contents (Elt F)),
    binary main_v542 main_v543 main_v544 (Host.powf : (⟨S50000, .f32⟩ : BufTy).Contents (Elt F) → (⟨S50000, .f32⟩ : BufTy).Contents (Elt F) → (⟨S50000, .f32⟩ : BufTy).Contents (Elt F)),
    nullary main_cst_170 (constant S_ .f32 0x00000000#32),
    unary main_cst_170 main_v545 (broadcastInDim S50000 ![] bcast_S_S50000 : (⟨S_, .f32⟩ : BufTy).Contents (Elt F) → (⟨S50000, .f32⟩ : BufTy).Contents (Elt F)),
    binary main_v536 main_v545 main_v546 (cmpf (F := F) .ogt : (⟨S50000, .f32⟩ : BufTy).Contents (Elt F) → (⟨S50000, .f32⟩ : BufTy).Contents (Elt F) → (⟨S50000, .i1⟩ : BufTy).Contents (Elt F)) ]

set_option maxRecDepth 8192 in
set_option maxHeartbeats 4000000 in
/-- The window is its operations run in order. -/
theorem main_part11_eq (c : Dev nD) : main_part11 (F := F) c = seq ops_part11 := rfl

set_option maxRecDepth 8192 in
/-- Every operation touches TensorCore buffers only. -/
theorem ops_part11_sub : (ops_part11 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩

set_option maxRecDepth 8192 in
/-- Every operation determines the contents of what it writes. -/
theorem ops_part11_fresh : ∀ op ∈ (ops_part11 : List (HloOp τ sig (Elt F))), op.fresh = ∅ :=
  List.forall_iff_forall_mem.mp (show (ops_part11 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part11_W : List (Ref sig .tc) := [main_v499, main_v500, main_cst_159, main_v501, main_v502, main_cst_160, main_call42_v0, main_call42_v1, main_v503, main_v504, main_v505, main_v506, main_v507, main_v508, main_v509, main_c_161, main_v510, main_v511, main_c_162, main_v512, main_v513, main_v514, main_v515, main_v516, main_cst_163, main_v517, main_v518, main_v519, main_v520, main_v521, main_v522, main_v523, main_v524, main_v525, main_v526, main_v527, main_v528, main_v529, main_v530, main_v531, main_v532, main_cst_164, main_v533, main_cst_165, main_v534, main_v535, main_v536, main_cst_166, main_v537, main_v538, main_v539, main_cst_167, main_v540, main_v541, main_cst_168, main_call43_v0, main_call43_v1, main_v542, main_cst_169, main_v543, main_v544, main_cst_170, main_v545, main_v546]

set_option maxRecDepth 8192 in
/-- Each operation writes one of them. -/
theorem ops_part11_writes : (ops_part11 : List (HloOp τ sig (Elt F))).Forall fun op =>
    op.writes ⊆ (ops_part11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val11.lean ====
/- The step across window 11 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops11

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step11 {W : Valuation τ sig (Elt F)} {x0 x1 x2 x3 x4 x5 x6 x7 x8 x9 : _}
    (h : Live11 W x0 x1 x2 x3 x4 x5 x6 x7 x8 x9) : Live12 (after ops_part11 W) x0 x1 x2 x3 x4 x5 x6 x7 x8 x9 where
  h_main_arg0 := (after_of_writes_sub ops_part11 W ops_part11_writes (by decide)).trans h.h_main_arg0
  h_main_arg1 := (after_of_writes_sub ops_part11 W ops_part11_writes (by decide)).trans h.h_main_arg1
  h_main_arg2 := (after_of_writes_sub ops_part11 W ops_part11_writes (by decide)).trans h.h_main_arg2
  h_main_arg3 := (after_of_writes_sub ops_part11 W ops_part11_writes (by decide)).trans h.h_main_arg3
  h_main_arg4 := (after_of_writes_sub ops_part11 W ops_part11_writes (by decide)).trans h.h_main_arg4
  h_main_arg5 := (after_of_writes_sub ops_part11 W ops_part11_writes (by decide)).trans h.h_main_arg5
  h_main_arg6 := (after_of_writes_sub ops_part11 W ops_part11_writes (by decide)).trans h.h_main_arg6
  h_main_arg7 := (after_of_writes_sub ops_part11 W ops_part11_writes (by decide)).trans h.h_main_arg7
  h_main_arg8 := (after_of_writes_sub ops_part11 W ops_part11_writes (by decide)).trans h.h_main_arg8
  h_main_arg9 := (after_of_writes_sub ops_part11 W ops_part11_writes (by decide)).trans h.h_main_arg9
  h_main_v471 := (after_of_writes_sub ops_part11 W ops_part11_writes (by decide)).trans h.h_main_v471
  h_main_v472 := (after_of_writes_sub ops_part11 W ops_part11_writes (by decide)).trans h.h_main_v472
  h_main_v473 := (after_of_writes_sub ops_part11 W ops_part11_writes (by decide)).trans h.h_main_v473
  h_main_v474 := (after_of_writes_sub ops_part11 W ops_part11_writes (by decide)).trans h.h_main_v474
  h_main_v475 := (after_of_writes_sub ops_part11 W ops_part11_writes (by decide)).trans h.h_main_v475
  h_main_v528 := by
    simp only [ops_part11]
    after_results_simp
    all_goals (try simp only [h.h_main_arg6, h.h_main_cst_158, h.h_main_v498, h.h_main_v487, h.h_main_v478, h.h_main_arg5, h.h_main_v495, h.h_main_v471, h.h_main_v480, h.h_main_v476])
    all_goals (try simp only [TRef.ofBuf, TRef.toBuf, cast_eq])
    all_goals rfl
  h_main_v530 := by
    simp only [ops_part11]
    after_results_simp
    all_goals (try simp only [h.h_main_arg9])
    all_goals (try simp only [TRef.ofBuf, TRef.toBuf, cast_eq])
    all_goals rfl
  h_main_v532 := by
    simp only [ops_part11]
    after_results_simp
    all_goals (try simp only [h.h_main_arg9])
    all_goals (try simp only [TRef.ofBuf, TRef.toBuf, cast_eq])
    all_goals rfl
  h_main_v539 := by
    simp only [ops_part11]
    after_results_simp
    all_goals (try simp only [h.h_main_arg9])
    all_goals (try simp only [TRef.ofBuf, TRef.toBuf, cast_eq])
    all_goals rfl
  h_main_v544 := by
    simp only [ops_part11]
    after_results_simp
    all_goals (try simp only [h.h_main_arg9])
    all_goals (try simp only [TRef.ofBuf, TRef.toBuf, cast_eq])
    all_goals rfl
  h_main_v546 := by
    simp only [ops_part11]
    after_results_simp
    all_goals (try simp only [h.h_main_arg9])
    all_goals (try simp only [TRef.ofBuf, TRef.toBuf, cast_eq])
    all_goals rfl

end Cert.ReferenceIdeal.RefRun

end
-- ==== Proof.Ref.Ops12.lean ====
/- Operations 809 … 874 of the 1414 operations of the reference program's @main: its printed window
   main_part12 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 809 … 874, in order. -/
abbrev ops_part12 : List (HloOp τ sig (Elt F)) :=
  [ nullary main_cst_171 (constant S_ .f32 0x00000000#32),
    TRef.unary (TRef.of (T := ⟨S_, .f32⟩) main_cst_171) (TRef.of (T := ⟨S_, .f32⟩) main_call44_v0) id,
    TRef.unary (TRef.of (T := ⟨S_, .f32⟩) main_call44_v0) (TRef.of (T := ⟨S50000, .f32⟩) main_call44_v1) (broadcastInDim S50000 ![] bcast_S_S50000),
    TRef.ternary (TRef.of (T := ⟨S50000, .i1⟩) main_v546) (TRef.of (T := ⟨S50000, .f32⟩) main_v544) (TRef.of (T := ⟨S50000, .f32⟩) main_call44_v1) (TRef.of (T := ⟨S50000, .f32⟩) main_v547) select,
    nullary main_cst_172 (constant S_ .f32 0x00000000#32),
    unary main_cst_172 main_v548 (broadcastInDim S50000 ![] bcast_S_S50000 : (⟨S_, .f32⟩ : BufTy).Contents (Elt F) → (⟨S50000, .f32⟩ : BufTy).Contents (Elt F)),
    binary main_v539 main_v548 main_v549 (cmpf (F := F) .ogt : (⟨S50000, .f32⟩ : BufTy).Contents (Elt F) → (⟨S50000, .f32⟩ : BufTy).Contents (Elt F) → (⟨S50000, .i1⟩ : BufTy).Contents (Elt F)),
    nullary main_cst_173 (constant S_ .f32 0x3F800000#32),
    TRef.unary (TRef.of (T := ⟨S_, .f32⟩) main_cst_173) (TRef.of (T := ⟨S_, .f32⟩) main_call45_v0) id,
    TRef.unary (TRef.of (T := ⟨S_, .f32⟩) main_call45_v0) (TRef.of (T := ⟨S50000, .f32⟩) main_call45_v1) (broadcastInDim S50000 ![] bcast_S_S50000),
    TRef.ternary (TRef.of (T := ⟨S50000, .i1⟩) main_v549) (TRef.of (T := ⟨S50000, .f32⟩) main_v539) (TRef.of (T := ⟨S50000, .f32⟩) main_call45_v1) (TRef.of (T := ⟨S50000, .f32⟩) main_v550) select,
    nullary main_cst_174 (constant S_ .f32 0xBF000000#32),
    unary main_cst_174 main_v551 (broadcastInDim S50000 ![] bcast_S_S50000 : (⟨S_, .f32⟩ : BufTy).Contents (Elt F) → (⟨S50000, .f32⟩ : BufTy).Contents (Elt F)),
    binary main_v550 main_v551 main_v552 (Host.powf : (⟨S50000, .f32⟩ : BufTy).Contents (Elt F) → (⟨S50000, .f32⟩ : BufTy).Contents (Elt F) → (⟨S50000, .f32⟩ : BufTy).Contents (Elt F)),
    nullary main_cst_175 (constant S_ .f32 0x00000000#32),
    unary main_cst_175 main_v553 (broadcastInDim S50000 ![] bcast_S_S50000 : (⟨S_, .f32⟩ : BufTy).Contents (Elt F) → (⟨S50000, .f32⟩ : BufTy).Contents (Elt F)),
    binary main_v539 main_v553 main_v554 (cmpf (F := F) .ogt : (⟨S50000, .f32⟩ : BufTy).Contents (Elt F) → (⟨S50000, .f32⟩ : BufTy).Contents (Elt F) → (⟨S50000, .i1⟩ : BufTy).Contents (Elt F)),
    nullary main_cst_176 (constant S_ .f32 0x00000000#32),
    TRef.unary (TRef.of (T := ⟨S_, .f32⟩) main_cst_176) (TRef.of (T := ⟨S_, .f32⟩) main_call46_v0) id,
    TRef.unary (TRef.of (T := ⟨S_, .f32⟩) main_call46_v0) (TRef.of (T := ⟨S50000, .f32⟩) main_call46_v1) (broadcastInDim S50000 ![] bcast_S_S50000),
    TRef.ternary (TRef.of (T := ⟨S50000, .i1⟩) main_v554) (TRef.of (T := ⟨S50000, .f32⟩) main_v552) (TRef.of (T := ⟨S50000, .f32⟩) main_call46_v1) (TRef.of (T := ⟨S50000, .f32⟩) main_v555) select,
    unary main_v547 main_v556 (broadcastInDim S50000x1 ![0] bcast_S50000_S50000x1_0 : (⟨S50000, .f32⟩ : BufTy).Contents (Elt F) → (⟨S50000x1, .f32⟩ : BufTy).Contents (Elt F)),
    unary main_v556 main_v557 (broadcastInDim S50000x128 ![0, 1] bcast_S50000x1_S50000x128_0_1 : (⟨S50000x1, .f32⟩ : BufTy).Contents (Elt F) → (⟨S50000x128, .f32⟩ : BufTy).Contents (Elt F)),
    binary main_v472 main_v557 main_v558 (mulf : (⟨S50000x128, .f32⟩ : BufTy).Contents (Elt F) → (⟨S50000x128, .f32⟩ : BufTy).Contents (Elt F) → (⟨S50000x128, .f32⟩ : BufTy).Contents (Elt F)),
    unary main_arg5 main_v559 ((extractStridedSlice S1x128x128 ![1, 0, 0] · slices_S9x128x128_S1x128x128_1_0_0) : (⟨S9x128x128, .f32⟩ : BufTy).Contents (Elt F) → (⟨S1x128x128, .f32⟩ : BufTy).Contents (Elt F)),
    reshape main_v559 main_v560 rfl shapeCasts_S1x128x128_S128x128,
    binary main_v558 main_v560 main_v561 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_177 (constantI S_ 32 0#32),
    unary main_c_177 main_v562 (broadcastInDim S400000 ![] bcast_S_S400000 : (⟨S_, .i32⟩ : BufTy).Contents (Elt F) → (⟨S400000, .i32⟩ : BufTy).Contents (Elt F)),
    binary main_v530 main_v562 main_v563 (cmpi .slt : (⟨S400000, .i32⟩ : BufTy).Contents (Elt F) → (⟨S400000, .i32⟩ : BufTy).Contents (Elt F) → (⟨S400000, .i1⟩ : BufTy).Contents (Elt F)),
    nullary main_c_178 (constantI S_ 32 50000#32),
    unary main_c_178 main_v564 (broadcastInDim S400000 ![] bcast_S_S400000 : (⟨S_, .i32⟩ : BufTy).Contents (Elt F) → (⟨S400000, .i32⟩ : BufTy).Contents (Elt F)),
    binary main_v530 main_v564 main_v565 (addi : (⟨S400000, .i32⟩ : BufTy).Contents (Elt F) → (⟨S400000, .i32⟩ : BufTy).Contents (Elt F) → (⟨S400000, .i32⟩ : BufTy).Contents (Elt F)),
    ternary main_v563 main_v565 main_v530 main_v566 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v566 main_v567 (broadcastInDim S400000x1 ![0] bcast_S400000_S400000x1_0 : (⟨S400000, .i32⟩ : BufTy).Contents (Elt F) → (⟨S400000x1, .i32⟩ : BufTy).Contents (Elt F)),
    binary main_v561 main_v567 main_v568 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_179 (constant S_ .f32 0x00000000#32),
    unary main_cst_179 main_v569 (broadcastInDim S50000x128 ![] bcast_S_S50000x128 : (⟨S_, .f32⟩ : BufTy).Contents (Elt F) → (⟨S50000x128, .f32⟩ : BufTy).Contents (Elt F)),
    unary main_v532 main_v570 (broadcastInDim S400000x1 ![0] bcast_S400000_S400000x1_0 : (⟨S400000, .i32⟩ : BufTy).Contents (Elt F) → (⟨S400000x1, .i32⟩ : BufTy).Contents (Elt F)),
    ternary main_v569 main_v570 main_v568 main_v571 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v555 main_v572 (broadcastInDim S50000x1 ![0] bcast_S50000_S50000x1_0 : (⟨S50000, .f32⟩ : BufTy).Contents (Elt F) → (⟨S50000x1, .f32⟩ : BufTy).Contents (Elt F)),
    unary main_v572 main_v573 (broadcastInDim S50000x128 ![0, 1] bcast_S50000x1_S50000x128_0_1 : (⟨S50000x1, .f32⟩ : BufTy).Contents (Elt F) → (⟨S50000x128, .f32⟩ : BufTy).Contents (Elt F)),
    binary main_v571 main_v573 main_v574 (mulf : (⟨S50000x128, .f32⟩ : BufTy).Contents (Elt F) → (⟨S50000x128, .f32⟩ : BufTy).Contents (Elt F) → (⟨S50000x128, .f32⟩ : BufTy).Contents (Elt F)),
    binary main_v528 main_v574 main_v575 (addf : (⟨S50000x128, .f32⟩ : BufTy).Contents (Elt F) → (⟨S50000x128, .f32⟩ : BufTy).Contents (Elt F) → (⟨S50000x128, .f32⟩ : BufTy).Contents (Elt F)),
    unary main_arg6 main_v576 ((extractStridedSlice S1x128 ![1, 0] · slices_S9x128_S1x128_1_0) : (⟨S9x128, .f32⟩ : BufTy).Contents (Elt F) → (⟨S1x128, .f32⟩ : BufTy).Contents (Elt F)),
    reshape main_v576 main_v577 rfl shapeCasts_S1x128_S128,
    unary main_v577 main_v578 (broadcastInDim S1x128 ![1] bcast_S128_S1x128_1 : (⟨S128, .f32⟩ : BufTy).Contents (Elt F) → (⟨S1x128, .f32⟩ : BufTy).Contents (Elt F)),
    unary main_v578 main_v579 (broadcastInDim S50000x128 ![0, 1] bcast_S1x128_S50000x128_0_1 : (⟨S1x128, .f32⟩ : BufTy).Contents (Elt F) → (⟨S50000x128, .f32⟩ : BufTy).Contents (Elt F)),
    binary main_v575 main_v579 main_v580 (addf : (⟨S50000x128, .f32⟩ : BufTy).Contents (Elt F) → (⟨S50000x128, .f32⟩ : BufTy).Contents (Elt F) → (⟨S50000x128, .f32⟩ : BufTy).Contents (Elt F)),
    unary main_arg9 main_v581 ((extractStridedSlice S1x1x400000 ![2, 0, 0] · slices_S9x2x400000_S1x1x400000_2_0_0) : (⟨S9x2x400000, .i32⟩ : BufTy).Contents (Elt F) → (⟨S1x1x400000, .i32⟩ : BufTy).Contents (Elt F)),
    reshape main_v581 main_v582 rfl shapeCasts_S1x1x400000_S400000,
    unary main_arg9 main_v583 ((extractStridedSlice S1x1x400000 ![2, 1, 0] · slices_S9x2x400000_S1x1x400000_2_1_0) : (⟨S9x2x400000, .i32⟩ : BufTy).Contents (Elt F) → (⟨S1x1x400000, .i32⟩ : BufTy).Contents (Elt F)),
    reshape main_v583 main_v584 rfl shapeCasts_S1x1x400000_S400000,
    nullary main_cst_180 (constant S_ .f32 0x3F800000#32),
    unary main_cst_180 main_v585 (broadcastInDim S400000 ![] bcast_S_S400000 : (⟨S_, .f32⟩ : BufTy).Contents (Elt F) → (⟨S400000, .f32⟩ : BufTy).Contents (Elt F)),
    nullary main_cst_181 (constant S_ .f32 0x00000000#32),
    unary main_cst_181 main_v586 (broadcastInDim S50000 ![] bcast_S_S50000 : (⟨S_, .f32⟩ : BufTy).Contents (Elt F) → (⟨S50000, .f32⟩ : BufTy).Contents (Elt F)),
    unary main_v582 main_v587 (broadcastInDim S400000x1 ![0] bcast_S400000_S400000x1_0 : (⟨S400000, .i32⟩ : BufTy).Contents (Elt F) → (⟨S400000x1, .i32⟩ : BufTy).Contents (Elt F)),
    ternary main_v586 main_v587 main_v585 main_v588 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_182 (constant S_ .f32 0x00000000#32),
    unary main_cst_182 main_v589 (broadcastInDim S50000 ![] bcast_S_S50000 : (⟨S_, .f32⟩ : BufTy).Contents (Elt F) → (⟨S50000, .f32⟩ : BufTy).Contents (Elt F)),
    unary main_v584 main_v590 (broadcastInDim S400000x1 ![0] bcast_S400000_S400000x1_0 : (⟨S400000, .i32⟩ : BufTy).Contents (Elt F) → (⟨S400000x1, .i32⟩ : BufTy).Contents (Elt F)),
    ternary main_v589 main_v590 main_v585 main_v591 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_183 (constant S_ .f32 0x00000000#32),
    unary main_cst_183 main_v592 (broadcastInDim S50000 ![] bcast_S_S50000 : (⟨S_, .f32⟩ : BufTy).Contents (Elt F) → (⟨S50000, .f32⟩ : BufTy).Contents (Elt F)),
    binary main_v588 main_v592 main_v593 (cmpf (F := F) .ogt : (⟨S50000, .f32⟩ : BufTy).Contents (Elt F) → (⟨S50000, .f32⟩ : BufTy).Contents (Elt F) → (⟨S50000, .i1⟩ : BufTy).Contents (Elt F)) ]

set_option maxRecDepth 8192 in
set_option maxHeartbeats 4000000 in
/-- The window is its operations run in order. -/
theorem main_part12_eq (c : Dev nD) : main_part12 (F := F) c = seq ops_part12 := rfl

set_option maxRecDepth 8192 in
/-- Every operation touches TensorCore buffers only. -/
theorem ops_part12_sub : (ops_part12 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub ..⟩

set_option maxRecDepth 8192 in
/-- Every operation determines the contents of what it writes. -/
theorem ops_part12_fresh : ∀ op ∈ (ops_part12 : List (HloOp τ sig (Elt F))), op.fresh = ∅ :=
  List.forall_iff_forall_mem.mp (show (ops_part12 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part12_W : List (Ref sig .tc) := [main_cst_171, main_call44_v0, main_call44_v1, main_v547, main_cst_172, main_v548, main_v549, main_cst_173, main_call45_v0, main_call45_v1, main_v550, main_cst_174, main_v551, main_v552, main_cst_175, main_v553, main_v554, main_cst_176, main_call46_v0, main_call46_v1, main_v555, main_v556, main_v557, main_v558, main_v559, main_v560, main_v561, main_c_177, main_v562, main_v563, main_c_178, main_v564, main_v565, main_v566, main_v567, main_v568, main_cst_179, main_v569, main_v570, main_v571, main_v572, main_v573, main_v574, main_v575, main_v576, main_v577, main_v578, main_v579, main_v580, main_v581, main_v582, main_v583, main_v584, main_cst_180, main_v585, main_cst_181, main_v586, main_v587, main_v588, main_cst_182, main_v589, main_v590, main_v591, main_cst_183, main_v592, main_v593]

set_option maxRecDepth 8192 in
/-- Each operation writes one of them. -/
theorem ops_part12_writes : (ops_part12 : List (HloOp τ sig (Elt F))).Forall fun op =>
    op.writes ⊆ (ops_part12_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val12.lean ====
/- The step across window 12 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops12

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step12 {W : Valuation τ sig (Elt F)} {x0 x1 x2 x3 x4 x5 x6 x7 x8 x9 : _}
    (h : Live12 W x0 x1 x2 x3 x4 x5 x6 x7 x8 x9) : Live13 (after ops_part12 W) x0 x1 x2 x3 x4 x5 x6 x7 x8 x9 where
  h_main_arg0 := (after_of_writes_sub ops_part12 W ops_part12_writes (by decide)).trans h.h_main_arg0
  h_main_arg1 := (after_of_writes_sub ops_part12 W ops_part12_writes (by decide)).trans h.h_main_arg1
  h_main_arg2 := (after_of_writes_sub ops_part12 W ops_part12_writes (by decide)).trans h.h_main_arg2
  h_main_arg3 := (after_of_writes_sub ops_part12 W ops_part12_writes (by decide)).trans h.h_main_arg3
  h_main_arg4 := (after_of_writes_sub ops_part12 W ops_part12_writes (by decide)).trans h.h_main_arg4
  h_main_arg5 := (after_of_writes_sub ops_part12 W ops_part12_writes (by decide)).trans h.h_main_arg5
  h_main_arg6 := (after_of_writes_sub ops_part12 W ops_part12_writes (by decide)).trans h.h_main_arg6
  h_main_arg7 := (after_of_writes_sub ops_part12 W ops_part12_writes (by decide)).trans h.h_main_arg7
  h_main_arg8 := (after_of_writes_sub ops_part12 W ops_part12_writes (by decide)).trans h.h_main_arg8
  h_main_arg9 := (after_of_writes_sub ops_part12 W ops_part12_writes (by decide)).trans h.h_main_arg9
  h_main_v471 := (after_of_writes_sub ops_part12 W ops_part12_writes (by decide)).trans h.h_main_v471
  h_main_v472 := (after_of_writes_sub ops_part12 W ops_part12_writes (by decide)).trans h.h_main_v472
  h_main_v473 := (after_of_writes_sub ops_part12 W ops_part12_writes (by decide)).trans h.h_main_v473
  h_main_v474 := (after_of_writes_sub ops_part12 W ops_part12_writes (by decide)).trans h.h_main_v474
  h_main_v475 := (after_of_writes_sub ops_part12 W ops_part12_writes (by decide)).trans h.h_main_v475
  h_main_v580 := by
    simp only [ops_part12]
    after_results_simp
    all_goals (try simp only [h.h_main_arg6, h.h_main_v539, h.h_main_v530, h.h_main_arg5, h.h_main_v544, h.h_main_v546, h.h_main_v472, h.h_main_v532, h.h_main_v528])
    all_goals (try simp only [TRef.ofBuf, TRef.toBuf, cast_eq])
    all_goals rfl
  h_main_v582 := by
    simp only [ops_part12]
    after_results_simp
    all_goals (try simp only [h.h_main_arg9])
    all_goals (try simp only [TRef.ofBuf, TRef.toBuf, cast_eq])
    all_goals rfl
  h_main_v584 := by
    simp only [ops_part12]
    after_results_simp
    all_goals (try simp only [h.h_main_arg9])
    all_goals (try simp only [TRef.ofBuf, TRef.toBuf, cast_eq])
    all_goals rfl
  h_main_v588 := by
    simp only [ops_part12]
    after_results_simp
    all_goals (try simp only [h.h_main_arg9])
    all_goals (try simp only [TRef.ofBuf, TRef.toBuf, cast_eq])
    all_goals rfl
  h_main_v591 := by
    simp only [ops_part12]
    after_results_simp
    all_goals (try simp only [h.h_main_arg9])
    all_goals (try simp only [TRef.ofBuf, TRef.toBuf, cast_eq])
    all_goals rfl
  h_main_v593 := by
    simp only [ops_part12]
    after_results_simp
    all_goals (try simp only [h.h_main_arg9])
    all_goals (try simp only [TRef.ofBuf, TRef.toBuf, cast_eq])
    all_goals rfl

end Cert.ReferenceIdeal.RefRun

end
-- ==== Proof.Ref.Ops13.lean ====
/- Operations 875 … 942 of the 1414 operations of the reference program's @main: its printed window
   main_part13 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 875 … 942, in order. -/
abbrev ops_part13 : List (HloOp τ sig (Elt F)) :=
  [ nullary main_cst_184 (constant S_ .f32 0x3F800000#32),
    TRef.unary (TRef.of (T := ⟨S_, .f32⟩) main_cst_184) (TRef.of (T := ⟨S_, .f32⟩) main_call47_v0) id,
    TRef.unary (TRef.of (T := ⟨S_, .f32⟩) main_call47_v0) (TRef.of (T := ⟨S50000, .f32⟩) main_call47_v1) (broadcastInDim S50000 ![] bcast_S_S50000),
    TRef.ternary (TRef.of (T := ⟨S50000, .i1⟩) main_v593) (TRef.of (T := ⟨S50000, .f32⟩) main_v588) (TRef.of (T := ⟨S50000, .f32⟩) main_call47_v1) (TRef.of (T := ⟨S50000, .f32⟩) main_v594) select,
    nullary main_cst_185 (constant S_ .f32 0xBF000000#32),
    unary main_cst_185 main_v595 (broadcastInDim S50000 ![] bcast_S_S50000 : (⟨S_, .f32⟩ : BufTy).Contents (Elt F) → (⟨S50000, .f32⟩ : BufTy).Contents (Elt F)),
    binary main_v594 main_v595 main_v596 (Host.powf : (⟨S50000, .f32⟩ : BufTy).Contents (Elt F) → (⟨S50000, .f32⟩ : BufTy).Contents (Elt F) → (⟨S50000, .f32⟩ : BufTy).Contents (Elt F)),
    nullary main_cst_186 (constant S_ .f32 0x00000000#32),
    unary main_cst_186 main_v597 (broadcastInDim S50000 ![] bcast_S_S50000 : (⟨S_, .f32⟩ : BufTy).Contents (Elt F) → (⟨S50000, .f32⟩ : BufTy).Contents (Elt F)),
    binary main_v588 main_v597 main_v598 (cmpf (F := F) .ogt : (⟨S50000, .f32⟩ : BufTy).Contents (Elt F) → (⟨S50000, .f32⟩ : BufTy).Contents (Elt F) → (⟨S50000, .i1⟩ : BufTy).Contents (Elt F)),
    nullary main_cst_187 (constant S_ .f32 0x00000000#32),
    TRef.unary (TRef.of (T := ⟨S_, .f32⟩) main_cst_187) (TRef.of (T := ⟨S_, .f32⟩) main_call48_v0) id,
    TRef.unary (TRef.of (T := ⟨S_, .f32⟩) main_call48_v0) (TRef.of (T := ⟨S50000, .f32⟩) main_call48_v1) (broadcastInDim S50000 ![] bcast_S_S50000),
    TRef.ternary (TRef.of (T := ⟨S50000, .i1⟩) main_v598) (TRef.of (T := ⟨S50000, .f32⟩) main_v596) (TRef.of (T := ⟨S50000, .f32⟩) main_call48_v1) (TRef.of (T := ⟨S50000, .f32⟩) main_v599) select,
    nullary main_cst_188 (constant S_ .f32 0x00000000#32),
    unary main_cst_188 main_v600 (broadcastInDim S50000 ![] bcast_S_S50000 : (⟨S_, .f32⟩ : BufTy).Contents (Elt F) → (⟨S50000, .f32⟩ : BufTy).Contents (Elt F)),
    binary main_v591 main_v600 main_v601 (cmpf (F := F) .ogt : (⟨S50000, .f32⟩ : BufTy).Contents (Elt F) → (⟨S50000, .f32⟩ : BufTy).Contents (Elt F) → (⟨S50000, .i1⟩ : BufTy).Contents (Elt F)),
    nullary main_cst_189 (constant S_ .f32 0x3F800000#32),
    TRef.unary (TRef.of (T := ⟨S_, .f32⟩) main_cst_189) (TRef.of (T := ⟨S_, .f32⟩) main_call49_v0) id,
    TRef.unary (TRef.of (T := ⟨S_, .f32⟩) main_call49_v0) (TRef.of (T := ⟨S50000, .f32⟩) main_call49_v1) (broadcastInDim S50000 ![] bcast_S_S50000),
    TRef.ternary (TRef.of (T := ⟨S50000, .i1⟩) main_v601) (TRef.of (T := ⟨S50000, .f32⟩) main_v591) (TRef.of (T := ⟨S50000, .f32⟩) main_call49_v1) (TRef.of (T := ⟨S50000, .f32⟩) main_v602) select,
    nullary main_cst_190 (constant S_ .f32 0xBF000000#32),
    unary main_cst_190 main_v603 (broadcastInDim S50000 ![] bcast_S_S50000 : (⟨S_, .f32⟩ : BufTy).Contents (Elt F) → (⟨S50000, .f32⟩ : BufTy).Contents (Elt F)),
    binary main_v602 main_v603 main_v604 (Host.powf : (⟨S50000, .f32⟩ : BufTy).Contents (Elt F) → (⟨S50000, .f32⟩ : BufTy).Contents (Elt F) → (⟨S50000, .f32⟩ : BufTy).Contents (Elt F)),
    nullary main_cst_191 (constant S_ .f32 0x00000000#32),
    unary main_cst_191 main_v605 (broadcastInDim S50000 ![] bcast_S_S50000 : (⟨S_, .f32⟩ : BufTy).Contents (Elt F) → (⟨S50000, .f32⟩ : BufTy).Contents (Elt F)),
    binary main_v591 main_v605 main_v606 (cmpf (F := F) .ogt : (⟨S50000, .f32⟩ : BufTy).Contents (Elt F) → (⟨S50000, .f32⟩ : BufTy).Contents (Elt F) → (⟨S50000, .i1⟩ : BufTy).Contents (Elt F)),
    nullary main_cst_192 (constant S_ .f32 0x00000000#32),
    TRef.unary (TRef.of (T := ⟨S_, .f32⟩) main_cst_192) (TRef.of (T := ⟨S_, .f32⟩) main_call50_v0) id,
    TRef.unary (TRef.of (T := ⟨S_, .f32⟩) main_call50_v0) (TRef.of (T := ⟨S50000, .f32⟩) main_call50_v1) (broadcastInDim S50000 ![] bcast_S_S50000),
    TRef.ternary (TRef.of (T := ⟨S50000, .i1⟩) main_v606) (TRef.of (T := ⟨S50000, .f32⟩) main_v604) (TRef.of (T := ⟨S50000, .f32⟩) main_call50_v1) (TRef.of (T := ⟨S50000, .f32⟩) main_v607) select,
    unary main_v599 main_v608 (broadcastInDim S50000x1 ![0] bcast_S50000_S50000x1_0 : (⟨S50000, .f32⟩ : BufTy).Contents (Elt F) → (⟨S50000x1, .f32⟩ : BufTy).Contents (Elt F)),
    unary main_v608 main_v609 (broadcastInDim S50000x128 ![0, 1] bcast_S50000x1_S50000x128_0_1 : (⟨S50000x1, .f32⟩ : BufTy).Contents (Elt F) → (⟨S50000x128, .f32⟩ : BufTy).Contents (Elt F)),
    binary main_v472 main_v609 main_v610 (mulf : (⟨S50000x128, .f32⟩ : BufTy).Contents (Elt F) → (⟨S50000x128, .f32⟩ : BufTy).Contents (Elt F) → (⟨S50000x128, .f32⟩ : BufTy).Contents (Elt F)),
    unary main_arg5 main_v611 ((extractStridedSlice S1x128x128 ![2, 0, 0] · slices_S9x128x128_S1x128x128_2_0_0) : (⟨S9x128x128, .f32⟩ : BufTy).Contents (Elt F) → (⟨S1x128x128, .f32⟩ : BufTy).Contents (Elt F)),
    reshape main_v611 main_v612 rfl shapeCasts_S1x128x128_S128x128,
    binary main_v610 main_v612 main_v613 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_193 (constantI S_ 32 0#32),
    unary main_c_193 main_v614 (broadcastInDim S400000 ![] bcast_S_S400000 : (⟨S_, .i32⟩ : BufTy).Contents (Elt F) → (⟨S400000, .i32⟩ : BufTy).Contents (Elt F)),
    binary main_v582 main_v614 main_v615 (cmpi .slt : (⟨S400000, .i32⟩ : BufTy).Contents (Elt F) → (⟨S400000, .i32⟩ : BufTy).Contents (Elt F) → (⟨S400000, .i1⟩ : BufTy).Contents (Elt F)),
    nullary main_c_194 (constantI S_ 32 50000#32),
    unary main_c_194 main_v616 (broadcastInDim S400000 ![] bcast_S_S400000 : (⟨S_, .i32⟩ : BufTy).Contents (Elt F) → (⟨S400000, .i32⟩ : BufTy).Contents (Elt F)),
    binary main_v582 main_v616 main_v617 (addi : (⟨S400000, .i32⟩ : BufTy).Contents (Elt F) → (⟨S400000, .i32⟩ : BufTy).Contents (Elt F) → (⟨S400000, .i32⟩ : BufTy).Contents (Elt F)),
    ternary main_v615 main_v617 main_v582 main_v618 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v618 main_v619 (broadcastInDim S400000x1 ![0] bcast_S400000_S400000x1_0 : (⟨S400000, .i32⟩ : BufTy).Contents (Elt F) → (⟨S400000x1, .i32⟩ : BufTy).Contents (Elt F)),
    binary main_v613 main_v619 main_v620 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_195 (constant S_ .f32 0x00000000#32),
    unary main_cst_195 main_v621 (broadcastInDim S50000x128 ![] bcast_S_S50000x128 : (⟨S_, .f32⟩ : BufTy).Contents (Elt F) → (⟨S50000x128, .f32⟩ : BufTy).Contents (Elt F)),
    unary main_v584 main_v622 (broadcastInDim S400000x1 ![0] bcast_S400000_S400000x1_0 : (⟨S400000, .i32⟩ : BufTy).Contents (Elt F) → (⟨S400000x1, .i32⟩ : BufTy).Contents (Elt F)),
    ternary main_v621 main_v622 main_v620 main_v623 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v607 main_v624 (broadcastInDim S50000x1 ![0] bcast_S50000_S50000x1_0 : (⟨S50000, .f32⟩ : BufTy).Contents (Elt F) → (⟨S50000x1, .f32⟩ : BufTy).Contents (Elt F)),
    unary main_v624 main_v625 (broadcastInDim S50000x128 ![0, 1] bcast_S50000x1_S50000x128_0_1 : (⟨S50000x1, .f32⟩ : BufTy).Contents (Elt F) → (⟨S50000x128, .f32⟩ : BufTy).Contents (Elt F)),
    binary main_v623 main_v625 main_v626 (mulf : (⟨S50000x128, .f32⟩ : BufTy).Contents (Elt F) → (⟨S50000x128, .f32⟩ : BufTy).Contents (Elt F) → (⟨S50000x128, .f32⟩ : BufTy).Contents (Elt F)),
    binary main_v474 main_v626 main_v627 (addf : (⟨S50000x128, .f32⟩ : BufTy).Contents (Elt F) → (⟨S50000x128, .f32⟩ : BufTy).Contents (Elt F) → (⟨S50000x128, .f32⟩ : BufTy).Contents (Elt F)),
    unary main_arg6 main_v628 ((extractStridedSlice S1x128 ![2, 0] · slices_S9x128_S1x128_2_0) : (⟨S9x128, .f32⟩ : BufTy).Contents (Elt F) → (⟨S1x128, .f32⟩ : BufTy).Contents (Elt F)),
    reshape main_v628 main_v629 rfl shapeCasts_S1x128_S128,
    unary main_v629 main_v630 (broadcastInDim S1x128 ![1] bcast_S128_S1x128_1 : (⟨S128, .f32⟩ : BufTy).Contents (Elt F) → (⟨S1x128, .f32⟩ : BufTy).Contents (Elt F)),
    unary main_v630 main_v631 (broadcastInDim S50000x128 ![0, 1] bcast_S1x128_S50000x128_0_1 : (⟨S1x128, .f32⟩ : BufTy).Contents (Elt F) → (⟨S50000x128, .f32⟩ : BufTy).Contents (Elt F)),
    binary main_v627 main_v631 main_v632 (addf : (⟨S50000x128, .f32⟩ : BufTy).Contents (Elt F) → (⟨S50000x128, .f32⟩ : BufTy).Contents (Elt F) → (⟨S50000x128, .f32⟩ : BufTy).Contents (Elt F)),
    unary main_arg9 main_v633 ((extractStridedSlice S1x1x400000 ![3, 0, 0] · slices_S9x2x400000_S1x1x400000_3_0_0) : (⟨S9x2x400000, .i32⟩ : BufTy).Contents (Elt F) → (⟨S1x1x400000, .i32⟩ : BufTy).Contents (Elt F)),
    reshape main_v633 main_v634 rfl shapeCasts_S1x1x400000_S400000,
    unary main_arg9 main_v635 ((extractStridedSlice S1x1x400000 ![3, 1, 0] · slices_S9x2x400000_S1x1x400000_3_1_0) : (⟨S9x2x400000, .i32⟩ : BufTy).Contents (Elt F) → (⟨S1x1x400000, .i32⟩ : BufTy).Contents (Elt F)),
    reshape main_v635 main_v636 rfl shapeCasts_S1x1x400000_S400000,
    nullary main_cst_196 (constant S_ .f32 0x3F800000#32),
    unary main_cst_196 main_v637 (broadcastInDim S400000 ![] bcast_S_S400000 : (⟨S_, .f32⟩ : BufTy).Contents (Elt F) → (⟨S400000, .f32⟩ : BufTy).Contents (Elt F)),
    nullary main_cst_197 (constant S_ .f32 0x00000000#32),
    unary main_cst_197 main_v638 (broadcastInDim S50000 ![] bcast_S_S50000 : (⟨S_, .f32⟩ : BufTy).Contents (Elt F) → (⟨S50000, .f32⟩ : BufTy).Contents (Elt F)),
    unary main_v634 main_v639 (broadcastInDim S400000x1 ![0] bcast_S400000_S400000x1_0 : (⟨S400000, .i32⟩ : BufTy).Contents (Elt F) → (⟨S400000x1, .i32⟩ : BufTy).Contents (Elt F)) ]

set_option maxRecDepth 8192 in
set_option maxHeartbeats 4000000 in
/-- The window is its operations run in order. -/
theorem main_part13_eq (c : Dev nD) : main_part13 (F := F) c = seq ops_part13 := rfl

set_option maxRecDepth 8192 in
/-- Every operation touches TensorCore buffers only. -/
theorem ops_part13_sub : (ops_part13 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub ..⟩

set_option maxRecDepth 8192 in
/-- Every operation determines the contents of what it writes. -/
theorem ops_part13_fresh : ∀ op ∈ (ops_part13 : List (HloOp τ sig (Elt F))), op.fresh = ∅ :=
  List.forall_iff_forall_mem.mp (show (ops_part13 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part13_W : List (Ref sig .tc) := [main_cst_184, main_call47_v0, main_call47_v1, main_v594, main_cst_185, main_v595, main_v596, main_cst_186, main_v597, main_v598, main_cst_187, main_call48_v0, main_call48_v1, main_v599, main_cst_188, main_v600, main_v601, main_cst_189, main_call49_v0, main_call49_v1, main_v602, main_cst_190, main_v603, main_v604, main_cst_191, main_v605, main_v606, main_cst_192, main_call50_v0, main_call50_v1, main_v607, main_v608, main_v609, main_v610, main_v611, main_v612, main_v613, main_c_193, main_v614, main_v615, main_c_194, main_v616, main_v617, main_v618, main_v619, main_v620, main_cst_195, main_v621, main_v622, main_v623, main_v624, main_v625, main_v626, main_v627, main_v628, main_v629, main_v630, main_v631, main_v632, main_v633, main_v634, main_v635, main_v636, main_cst_196, main_v637, main_cst_197, main_v638, main_v639]

set_option maxRecDepth 8192 in
/-- Each operation writes one of them. -/
theorem ops_part13_writes : (ops_part13 : List (HloOp τ sig (Elt F))).Forall fun op =>
    op.writes ⊆ (ops_part13_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val13.lean ====
/- The step across window 13 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops13

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step13 {W : Valuation τ sig (Elt F)} {x0 x1 x2 x3 x4 x5 x6 x7 x8 x9 : _}
    (h : Live13 W x0 x1 x2 x3 x4 x5 x6 x7 x8 x9) : Live14 (after ops_part13 W) x0 x1 x2 x3 x4 x5 x6 x7 x8 x9 where
  h_main_arg0 := (after_of_writes_sub ops_part13 W ops_part13_writes (by decide)).trans h.h_main_arg0
  h_main_arg1 := (after_of_writes_sub ops_part13 W ops_part13_writes (by decide)).trans h.h_main_arg1
  h_main_arg2 := (after_of_writes_sub ops_part13 W ops_part13_writes (by decide)).trans h.h_main_arg2
  h_main_arg3 := (after_of_writes_sub ops_part13 W ops_part13_writes (by decide)).trans h.h_main_arg3
  h_main_arg4 := (after_of_writes_sub ops_part13 W ops_part13_writes (by decide)).trans h.h_main_arg4
  h_main_arg5 := (after_of_writes_sub ops_part13 W ops_part13_writes (by decide)).trans h.h_main_arg5
  h_main_arg6 := (after_of_writes_sub ops_part13 W ops_part13_writes (by decide)).trans h.h_main_arg6
  h_main_arg7 := (after_of_writes_sub ops_part13 W ops_part13_writes (by decide)).trans h.h_main_arg7
  h_main_arg8 := (after_of_writes_sub ops_part13 W ops_part13_writes (by decide)).trans h.h_main_arg8
  h_main_arg9 := (after_of_writes_sub ops_part13 W ops_part13_writes (by decide)).trans h.h_main_arg9
  h_main_v471 := (after_of_writes_sub ops_part13 W ops_part13_writes (by decide)).trans h.h_main_v471
  h_main_v472 := (after_of_writes_sub ops_part13 W ops_part13_writes (by decide)).trans h.h_main_v472
  h_main_v473 := (after_of_writes_sub ops_part13 W ops_part13_writes (by decide)).trans h.h_main_v473
  h_main_v475 := (after_of_writes_sub ops_part13 W ops_part13_writes (by decide)).trans h.h_main_v475
  h_main_v580 := (after_of_writes_sub ops_part13 W ops_part13_writes (by decide)).trans h.h_main_v580
  h_main_v632 := by
    simp only [ops_part13]
    after_results_simp
    all_goals (try simp only [h.h_main_arg6, h.h_main_v591, h.h_main_v582, h.h_main_arg5, h.h_main_v588, h.h_main_v593, h.h_main_v472, h.h_main_v584, h.h_main_v474])
    all_goals (try simp only [TRef.ofBuf, TRef.toBuf, cast_eq])
    all_goals rfl
  h_main_v634 := by
    simp only [ops_part13]
    after_results_simp
    all_goals (try simp only [h.h_main_arg9])
    all_goals (try simp only [TRef.ofBuf, TRef.toBuf, cast_eq])
    all_goals rfl
  h_main_v636 := by
    simp only [ops_part13]
    after_results_simp
    all_goals (try simp only [h.h_main_arg9])
    all_goals (try simp only [TRef.ofBuf, TRef.toBuf, cast_eq])
    all_goals rfl
  h_main_v637 := by
    simp only [ops_part13]
    after_results_simp
    skip
    all_goals (try simp only [TRef.ofBuf, TRef.toBuf, cast_eq])
    all_goals rfl
  h_main_v638 := by
    simp only [ops_part13]
    after_results_simp
    skip
    all_goals (try simp only [TRef.ofBuf, TRef.toBuf, cast_eq])
    all_goals rfl
  h_main_v639 := by
    simp only [ops_part13]
    after_results_simp
    all_goals (try simp only [h.h_main_arg9])
    all_goals (try simp only [TRef.ofBuf, TRef.toBuf, cast_eq])
    all_goals rfl

end Cert.ReferenceIdeal.RefRun

end
-- ==== Proof.Ref.Ops14.lean ====
/- Operations 943 … 1010 of the 1414 operations of the reference program's @main: its printed window
   main_part14 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 943 … 1010, in order. -/
abbrev ops_part14 : List (HloOp τ sig (Elt F)) :=
  [ ternary main_v638 main_v639 main_v637 main_v640 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_198 (constant S_ .f32 0x00000000#32),
    unary main_cst_198 main_v641 (broadcastInDim S50000 ![] bcast_S_S50000 : (⟨S_, .f32⟩ : BufTy).Contents (Elt F) → (⟨S50000, .f32⟩ : BufTy).Contents (Elt F)),
    unary main_v636 main_v642 (broadcastInDim S400000x1 ![0] bcast_S400000_S400000x1_0 : (⟨S400000, .i32⟩ : BufTy).Contents (Elt F) → (⟨S400000x1, .i32⟩ : BufTy).Contents (Elt F)),
    ternary main_v641 main_v642 main_v637 main_v643 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_199 (constant S_ .f32 0x00000000#32),
    unary main_cst_199 main_v644 (broadcastInDim S50000 ![] bcast_S_S50000 : (⟨S_, .f32⟩ : BufTy).Contents (Elt F) → (⟨S50000, .f32⟩ : BufTy).Contents (Elt F)),
    binary main_v640 main_v644 main_v645 (cmpf (F := F) .ogt : (⟨S50000, .f32⟩ : BufTy).Contents (Elt F) → (⟨S50000, .f32⟩ : BufTy).Contents (Elt F) → (⟨S50000, .i1⟩ : BufTy).Contents (Elt F)),
    nullary main_cst_200 (constant S_ .f32 0x3F800000#32),
    TRef.unary (TRef.of (T := ⟨S_, .f32⟩) main_cst_200) (TRef.of (T := ⟨S_, .f32⟩) main_call51_v0) id,
    TRef.unary (TRef.of (T := ⟨S_, .f32⟩) main_call51_v0) (TRef.of (T := ⟨S50000, .f32⟩) main_call51_v1) (broadcastInDim S50000 ![] bcast_S_S50000),
    TRef.ternary (TRef.of (T := ⟨S50000, .i1⟩) main_v645) (TRef.of (T := ⟨S50000, .f32⟩) main_v640) (TRef.of (T := ⟨S50000, .f32⟩) main_call51_v1) (TRef.of (T := ⟨S50000, .f32⟩) main_v646) select,
    nullary main_cst_201 (constant S_ .f32 0xBF000000#32),
    unary main_cst_201 main_v647 (broadcastInDim S50000 ![] bcast_S_S50000 : (⟨S_, .f32⟩ : BufTy).Contents (Elt F) → (⟨S50000, .f32⟩ : BufTy).Contents (Elt F)),
    binary main_v646 main_v647 main_v648 (Host.powf : (⟨S50000, .f32⟩ : BufTy).Contents (Elt F) → (⟨S50000, .f32⟩ : BufTy).Contents (Elt F) → (⟨S50000, .f32⟩ : BufTy).Contents (Elt F)),
    nullary main_cst_202 (constant S_ .f32 0x00000000#32),
    unary main_cst_202 main_v649 (broadcastInDim S50000 ![] bcast_S_S50000 : (⟨S_, .f32⟩ : BufTy).Contents (Elt F) → (⟨S50000, .f32⟩ : BufTy).Contents (Elt F)),
    binary main_v640 main_v649 main_v650 (cmpf (F := F) .ogt : (⟨S50000, .f32⟩ : BufTy).Contents (Elt F) → (⟨S50000, .f32⟩ : BufTy).Contents (Elt F) → (⟨S50000, .i1⟩ : BufTy).Contents (Elt F)),
    nullary main_cst_203 (constant S_ .f32 0x00000000#32),
    TRef.unary (TRef.of (T := ⟨S_, .f32⟩) main_cst_203) (TRef.of (T := ⟨S_, .f32⟩) main_call52_v0) id,
    TRef.unary (TRef.of (T := ⟨S_, .f32⟩) main_call52_v0) (TRef.of (T := ⟨S50000, .f32⟩) main_call52_v1) (broadcastInDim S50000 ![] bcast_S_S50000),
    TRef.ternary (TRef.of (T := ⟨S50000, .i1⟩) main_v650) (TRef.of (T := ⟨S50000, .f32⟩) main_v648) (TRef.of (T := ⟨S50000, .f32⟩) main_call52_v1) (TRef.of (T := ⟨S50000, .f32⟩) main_v651) select,
    nullary main_cst_204 (constant S_ .f32 0x00000000#32),
    unary main_cst_204 main_v652 (broadcastInDim S50000 ![] bcast_S_S50000 : (⟨S_, .f32⟩ : BufTy).Contents (Elt F) → (⟨S50000, .f32⟩ : BufTy).Contents (Elt F)),
    binary main_v643 main_v652 main_v653 (cmpf (F := F) .ogt : (⟨S50000, .f32⟩ : BufTy).Contents (Elt F) → (⟨S50000, .f32⟩ : BufTy).Contents (Elt F) → (⟨S50000, .i1⟩ : BufTy).Contents (Elt F)),
    nullary main_cst_205 (constant S_ .f32 0x3F800000#32),
    TRef.unary (TRef.of (T := ⟨S_, .f32⟩) main_cst_205) (TRef.of (T := ⟨S_, .f32⟩) main_call53_v0) id,
    TRef.unary (TRef.of (T := ⟨S_, .f32⟩) main_call53_v0) (TRef.of (T := ⟨S50000, .f32⟩) main_call53_v1) (broadcastInDim S50000 ![] bcast_S_S50000),
    TRef.ternary (TRef.of (T := ⟨S50000, .i1⟩) main_v653) (TRef.of (T := ⟨S50000, .f32⟩) main_v643) (TRef.of (T := ⟨S50000, .f32⟩) main_call53_v1) (TRef.of (T := ⟨S50000, .f32⟩) main_v654) select,
    nullary main_cst_206 (constant S_ .f32 0xBF000000#32),
    unary main_cst_206 main_v655 (broadcastInDim S50000 ![] bcast_S_S50000 : (⟨S_, .f32⟩ : BufTy).Contents (Elt F) → (⟨S50000, .f32⟩ : BufTy).Contents (Elt F)),
    binary main_v654 main_v655 main_v656 (Host.powf : (⟨S50000, .f32⟩ : BufTy).Contents (Elt F) → (⟨S50000, .f32⟩ : BufTy).Contents (Elt F) → (⟨S50000, .f32⟩ : BufTy).Contents (Elt F)),
    nullary main_cst_207 (constant S_ .f32 0x00000000#32),
    unary main_cst_207 main_v657 (broadcastInDim S50000 ![] bcast_S_S50000 : (⟨S_, .f32⟩ : BufTy).Contents (Elt F) → (⟨S50000, .f32⟩ : BufTy).Contents (Elt F)),
    binary main_v643 main_v657 main_v658 (cmpf (F := F) .ogt : (⟨S50000, .f32⟩ : BufTy).Contents (Elt F) → (⟨S50000, .f32⟩ : BufTy).Contents (Elt F) → (⟨S50000, .i1⟩ : BufTy).Contents (Elt F)),
    nullary main_cst_208 (constant S_ .f32 0x00000000#32),
    TRef.unary (TRef.of (T := ⟨S_, .f32⟩) main_cst_208) (TRef.of (T := ⟨S_, .f32⟩) main_call54_v0) id,
    TRef.unary (TRef.of (T := ⟨S_, .f32⟩) main_call54_v0) (TRef.of (T := ⟨S50000, .f32⟩) main_call54_v1) (broadcastInDim S50000 ![] bcast_S_S50000),
    TRef.ternary (TRef.of (T := ⟨S50000, .i1⟩) main_v658) (TRef.of (T := ⟨S50000, .f32⟩) main_v656) (TRef.of (T := ⟨S50000, .f32⟩) main_call54_v1) (TRef.of (T := ⟨S50000, .f32⟩) main_v659) select,
    unary main_v651 main_v660 (broadcastInDim S50000x1 ![0] bcast_S50000_S50000x1_0 : (⟨S50000, .f32⟩ : BufTy).Contents (Elt F) → (⟨S50000x1, .f32⟩ : BufTy).Contents (Elt F)),
    unary main_v660 main_v661 (broadcastInDim S50000x128 ![0, 1] bcast_S50000x1_S50000x128_0_1 : (⟨S50000x1, .f32⟩ : BufTy).Contents (Elt F) → (⟨S50000x128, .f32⟩ : BufTy).Contents (Elt F)),
    binary main_v471 main_v661 main_v662 (mulf : (⟨S50000x128, .f32⟩ : BufTy).Contents (Elt F) → (⟨S50000x128, .f32⟩ : BufTy).Contents (Elt F) → (⟨S50000x128, .f32⟩ : BufTy).Contents (Elt F)),
    unary main_arg5 main_v663 ((extractStridedSlice S1x128x128 ![3, 0, 0] · slices_S9x128x128_S1x128x128_3_0_0) : (⟨S9x128x128, .f32⟩ : BufTy).Contents (Elt F) → (⟨S1x128x128, .f32⟩ : BufTy).Contents (Elt F)),
    reshape main_v663 main_v664 rfl shapeCasts_S1x128x128_S128x128,
    binary main_v662 main_v664 main_v665 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_209 (constantI S_ 32 0#32),
    unary main_c_209 main_v666 (broadcastInDim S400000 ![] bcast_S_S400000 : (⟨S_, .i32⟩ : BufTy).Contents (Elt F) → (⟨S400000, .i32⟩ : BufTy).Contents (Elt F)),
    binary main_v634 main_v666 main_v667 (cmpi .slt : (⟨S400000, .i32⟩ : BufTy).Contents (Elt F) → (⟨S400000, .i32⟩ : BufTy).Contents (Elt F) → (⟨S400000, .i1⟩ : BufTy).Contents (Elt F)),
    nullary main_c_210 (constantI S_ 32 50000#32),
    unary main_c_210 main_v668 (broadcastInDim S400000 ![] bcast_S_S400000 : (⟨S_, .i32⟩ : BufTy).Contents (Elt F) → (⟨S400000, .i32⟩ : BufTy).Contents (Elt F)),
    binary main_v634 main_v668 main_v669 (addi : (⟨S400000, .i32⟩ : BufTy).Contents (Elt F) → (⟨S400000, .i32⟩ : BufTy).Contents (Elt F) → (⟨S400000, .i32⟩ : BufTy).Contents (Elt F)),
    ternary main_v667 main_v669 main_v634 main_v670 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v670 main_v671 (broadcastInDim S400000x1 ![0] bcast_S400000_S400000x1_0 : (⟨S400000, .i32⟩ : BufTy).Contents (Elt F) → (⟨S400000x1, .i32⟩ : BufTy).Contents (Elt F)),
    binary main_v665 main_v671 main_v672 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_211 (constant S_ .f32 0x00000000#32),
    unary main_cst_211 main_v673 (broadcastInDim S50000x128 ![] bcast_S_S50000x128 : (⟨S_, .f32⟩ : BufTy).Contents (Elt F) → (⟨S50000x128, .f32⟩ : BufTy).Contents (Elt F)),
    unary main_v636 main_v674 (broadcastInDim S400000x1 ![0] bcast_S400000_S400000x1_0 : (⟨S400000, .i32⟩ : BufTy).Contents (Elt F) → (⟨S400000x1, .i32⟩ : BufTy).Contents (Elt F)),
    ternary main_v673 main_v674 main_v672 main_v675 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v659 main_v676 (broadcastInDim S50000x1 ![0] bcast_S50000_S50000x1_0 : (⟨S50000, .f32⟩ : BufTy).Contents (Elt F) → (⟨S50000x1, .f32⟩ : BufTy).Contents (Elt F)),
    unary main_v676 main_v677 (broadcastInDim S50000x128 ![0, 1] bcast_S50000x1_S50000x128_0_1 : (⟨S50000x1, .f32⟩ : BufTy).Contents (Elt F) → (⟨S50000x128, .f32⟩ : BufTy).Contents (Elt F)),
    binary main_v675 main_v677 main_v678 (mulf : (⟨S50000x128, .f32⟩ : BufTy).Contents (Elt F) → (⟨S50000x128, .f32⟩ : BufTy).Contents (Elt F) → (⟨S50000x128, .f32⟩ : BufTy).Contents (Elt F)),
    binary main_v632 main_v678 main_v679 (addf : (⟨S50000x128, .f32⟩ : BufTy).Contents (Elt F) → (⟨S50000x128, .f32⟩ : BufTy).Contents (Elt F) → (⟨S50000x128, .f32⟩ : BufTy).Contents (Elt F)),
    unary main_arg6 main_v680 ((extractStridedSlice S1x128 ![3, 0] · slices_S9x128_S1x128_3_0) : (⟨S9x128, .f32⟩ : BufTy).Contents (Elt F) → (⟨S1x128, .f32⟩ : BufTy).Contents (Elt F)),
    reshape main_v680 main_v681 rfl shapeCasts_S1x128_S128,
    unary main_v681 main_v682 (broadcastInDim S1x128 ![1] bcast_S128_S1x128_1 : (⟨S128, .f32⟩ : BufTy).Contents (Elt F) → (⟨S1x128, .f32⟩ : BufTy).Contents (Elt F)),
    unary main_v682 main_v683 (broadcastInDim S50000x128 ![0, 1] bcast_S1x128_S50000x128_0_1 : (⟨S1x128, .f32⟩ : BufTy).Contents (Elt F) → (⟨S50000x128, .f32⟩ : BufTy).Contents (Elt F)),
    binary main_v679 main_v683 main_v684 (addf : (⟨S50000x128, .f32⟩ : BufTy).Contents (Elt F) → (⟨S50000x128, .f32⟩ : BufTy).Contents (Elt F) → (⟨S50000x128, .f32⟩ : BufTy).Contents (Elt F)),
    unary main_arg9 main_v685 ((extractStridedSlice S1x1x400000 ![4, 0, 0] · slices_S9x2x400000_S1x1x400000_4_0_0) : (⟨S9x2x400000, .i32⟩ : BufTy).Contents (Elt F) → (⟨S1x1x400000, .i32⟩ : BufTy).Contents (Elt F)) ]

set_option maxRecDepth 8192 in
set_option maxHeartbeats 4000000 in
/-- The window is its operations run in order. -/
theorem main_part14_eq (c : Dev nD) : main_part14 (F := F) c = seq ops_part14 := rfl

set_option maxRecDepth 8192 in
/-- Every operation touches TensorCore buffers only. -/
theorem ops_part14_sub : (ops_part14 : List (HloOp τ sig (Elt F))).Forall fun op => op.bufs ⊆ tcRefs τ sig :=
  ⟨ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub ..⟩

set_option maxRecDepth 8192 in
/-- Every operation determines the contents of what it writes. -/
theorem ops_part14_fresh : ∀ op ∈ (ops_part14 : List (HloOp τ sig (Elt F))), op.fresh = ∅ :=
  List.forall_iff_forall_mem.mp (show (ops_part14 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part14_W : List (Ref sig .tc) := [main_v640, main_cst_198, main_v641, main_v642, main_v643, main_cst_199, main_v644, main_v645, main_cst_200, main_call51_v0, main_call51_v1, main_v646, main_cst_201, main_v647, main_v648, main_cst_202, main_v649, main_v650, main_cst_203, main_call52_v0, main_call52_v1, main_v651, main_cst_204, main_v652, main_v653, main_cst_205, main_call53_v0, main_call53_v1, main_v654, main_cst_206, main_v655, main_v656, main_cst_207, main_v657, main_v658, main_cst_208, main_call54_v0, main_call54_v1, main_v659, main_v660, main_v661, main_v662, main_v663, main_v664, main_v665, main_c_209, main_v666, main_v667, main_c_210, main_v668, main_v669, main_v670, main_v671, main_v672, main_cst_211, main_v673, main_v674, main_v675, main_v676, main_v677, main_v678, main_v679, main_v680, main_v681, main_v682, main_v683, main_v684, main_v685]

set_option maxRecDepth 8192 in
/-- Each operation writes one of them. -/
theorem ops_part14_writes : (ops_part14 : List (HloOp τ sig (Elt F))).Forall fun op =>
    op.writes ⊆ (ops_part14_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val14.lean ====
/- The step across window 14 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops14

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step14 {W : Valuation τ sig (Elt F)} {x0 x1 x2 x3 x4 x5 x6 x7 x8 x9 : _}
    (h : Live14 W x0 x1 x2 x3 x4 x5 x6 x7 x8 x9) : Live15 (after ops_part14 W) x0 x1 x2 x3 x4 x5 x6 x7 x8 x9 where
  h_main_arg0 := (after_of_writes_sub ops_part14 W ops_part14_writes (by decide)).trans h.h_main_arg0
  h_main_arg1 := (after_of_writes_sub ops_part14 W ops_part14_writes (by decide)).trans h.h_main_arg1
  h_main_arg2 := (after_of_writes_sub ops_part14 W ops_part14_writes (by decide)).trans h.h_main_arg2
  h_main_arg3 := (after_of_writes_sub ops_part14 W ops_part14_writes (by decide)).trans h.h_main_arg3
  h_main_arg4 := (after_of_writes_sub ops_part14 W ops_part14_writes (by decide)).trans h.h_main_arg4
  h_main_arg5 := (after_of_writes_sub ops_part14 W ops_part14_writes (by decide)).trans h.h_main_arg5
  h_main_arg6 := (after_of_writes_sub ops_part14 W ops_part14_writes (by decide)).trans h.h_main_arg6
  h_main_arg7 := (after_of_writes_sub ops_part14 W ops_part14_writes (by decide)).trans h.h_main_arg7
  h_main_arg8 := (after_of_writes_sub ops_part14 W ops_part14_writes (by decide)).trans h.h_main_arg8
  h_main_arg9 := (after_of_writes_sub ops_part14 W ops_part14_writes (by decide)).trans h.h_main_arg9
  h_main_v471 := (after_of_writes_sub ops_part14 W ops_part14_writes (by decide)).trans h.h_main_v471
  h_main_v472 := (after_of_writes_sub ops_part14 W ops_part14_writes (by decide)).trans h.h_main_v472
  h_main_v473 := (after_of_writes_sub ops_part14 W ops_part14_writes (by decide)).trans h.h_main_v473
  h_main_v475 := (after_of_writes_sub ops_part14 W ops_part14_writes (by decide)).trans h.h_main_v475
  h_main_v580 := (after_of_writes_sub ops_part14 W ops_part14_writes (by decide)).trans h.h_main_v580
  h_main_v684 := by
    simp only [ops_part14]
    after_results_simp
    all_goals (try simp only [h.h_main_arg6, h.h_main_v637, h.h_main_v636, h.h_main_v634, h.h_main_arg5, h.h_main_v639, h.h_main_v638, h.h_main_v471, h.h_main_v632])
    all_goals (try simp only [TRef.ofBuf, TRef.toBuf, cast_eq])
    all_goals rfl
  h_main_v685 := by
    simp only [ops_part14]
    after_results_simp
    all_goals (try simp only [h.h_main_arg9])
    all_goals (try simp only [TRef.ofBuf, TRef.toBuf, cast_eq])
    all_goals rfl

end Cert.ReferenceIdeal.RefRun

end
-- ==== Proof.Ref.Ops15.lean ====
/- Operations 1011 … 1078 of the 1414 operations of the reference program's @main: its printed window
   main_part15 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1011 … 1078, in order. -/
abbrev ops_part15 : List (HloOp τ sig (Elt F)) :=
  [ reshape main_v685 main_v686 rfl shapeCasts_S1x1x400000_S400000,
    unary main_arg9 main_v687 ((extractStridedSlice S1x1x400000 ![4, 1, 0] · slices_S9x2x400000_S1x1x400000_4_1_0) : (⟨S9x2x400000, .i32⟩ : BufTy).Contents (Elt F) → (⟨S1x1x400000, .i32⟩ : BufTy).Contents (Elt F)),
    reshape main_v687 main_v688 rfl shapeCasts_S1x1x400000_S400000,
    nullary main_cst_212 (constant S_ .f32 0x3F800000#32),
    unary main_cst_212 main_v689 (broadcastInDim S400000 ![] bcast_S_S400000 : (⟨S_, .f32⟩ : BufTy).Contents (Elt F) → (⟨S400000, .f32⟩ : BufTy).Contents (Elt F)),
    nullary main_cst_213 (constant S_ .f32 0x00000000#32),
    unary main_cst_213 main_v690 (broadcastInDim S50000 ![] bcast_S_S50000 : (⟨S_, .f32⟩ : BufTy).Contents (Elt F) → (⟨S50000, .f32⟩ : BufTy).Contents (Elt F)),
    unary main_v686 main_v691 (broadcastInDim S400000x1 ![0] bcast_S400000_S400000x1_0 : (⟨S400000, .i32⟩ : BufTy).Contents (Elt F) → (⟨S400000x1, .i32⟩ : BufTy).Contents (Elt F)),
    ternary main_v690 main_v691 main_v689 main_v692 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_214 (constant S_ .f32 0x00000000#32),
    unary main_cst_214 main_v693 (broadcastInDim S50000 ![] bcast_S_S50000 : (⟨S_, .f32⟩ : BufTy).Contents (Elt F) → (⟨S50000, .f32⟩ : BufTy).Contents (Elt F)),
    unary main_v688 main_v694 (broadcastInDim S400000x1 ![0] bcast_S400000_S400000x1_0 : (⟨S400000, .i32⟩ : BufTy).Contents (Elt F) → (⟨S400000x1, .i32⟩ : BufTy).Contents (Elt F)),
    ternary main_v693 main_v694 main_v689 main_v695 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_215 (constant S_ .f32 0x00000000#32),
    unary main_cst_215 main_v696 (broadcastInDim S50000 ![] bcast_S_S50000 : (⟨S_, .f32⟩ : BufTy).Contents (Elt F) → (⟨S50000, .f32⟩ : BufTy).Contents (Elt F)),
    binary main_v692 main_v696 main_v697 (cmpf (F := F) .ogt : (⟨S50000, .f32⟩ : BufTy).Contents (Elt F) → (⟨S50000, .f32⟩ : BufTy).Contents (Elt F) → (⟨S50000, .i1⟩ : BufTy).Contents (Elt F)),
    nullary main_cst_216 (constant S_ .f32 0x3F800000#32),
    TRef.unary (TRef.of (T := ⟨S_, .f32⟩) main_cst_216) (TRef.of (T := ⟨S_, .f32⟩) main_call55_v0) id,
    TRef.unary (TRef.of (T := ⟨S_, .f32⟩) main_call55_v0) (TRef.of (T := ⟨S50000, .f32⟩) main_call55_v1) (broadcastInDim S50000 ![] bcast_S_S50000),
    TRef.ternary (TRef.of (T := ⟨S50000, .i1⟩) main_v697) (TRef.of (T := ⟨S50000, .f32⟩) main_v692) (TRef.of (T := ⟨S50000, .f32⟩) main_call55_v1) (TRef.of (T := ⟨S50000, .f32⟩) main_v698) select,
    nullary main_cst_217 (constant S_ .f32 0xBF000000#32),
    unary main_cst_217 main_v699 (broadcastInDim S50000 ![] bcast_S_S50000 : (⟨S_, .f32⟩ : BufTy).Contents (Elt F) → (⟨S50000, .f32⟩ : BufTy).Contents (Elt F)),
    binary main_v698 main_v699 main_v700 (Host.powf : (⟨S50000, .f32⟩ : BufTy).Contents (Elt F) → (⟨S50000, .f32⟩ : BufTy).Contents (Elt F) → (⟨S50000, .f32⟩ : BufTy).Contents (Elt F)),
    nullary main_cst_218 (constant S_ .f32 0x00000000#32),
    unary main_cst_218 main_v701 (broadcastInDim S50000 ![] bcast_S_S50000 : (⟨S_, .f32⟩ : BufTy).Contents (Elt F) → (⟨S50000, .f32⟩ : BufTy).Contents (Elt F)),
    binary main_v692 main_v701 main_v702 (cmpf (F := F) .ogt : (⟨S50000, .f32⟩ : BufTy).Contents (Elt F) → (⟨S50000, .f32⟩ : BufTy).Contents (Elt F) → (⟨S50000, .i1⟩ : BufTy).Contents (Elt F)),
    nullary main_cst_219 (constant S_ .f32 0x00000000#32),
    TRef.unary (TRef.of (T := ⟨S_, .f32⟩) main_cst_219) (TRef.of (T := ⟨S_, .f32⟩) main_call56_v0) id,
    TRef.unary (TRef.of (T := ⟨S_, .f32⟩) main_call56_v0) (TRef.of (T := ⟨S50000, .f32⟩) main_call56_v1) (broadcastInDim S50000 ![] bcast_S_S50000),
    TRef.ternary (TRef.of (T := ⟨S50000, .i1⟩) main_v702) (TRef.of (T := ⟨S50000, .f32⟩) main_v700) (TRef.of (T := ⟨S50000, .f32⟩) main_call56_v1) (TRef.of (T := ⟨S50000, .f32⟩) main_v703) select,
    nullary main_cst_220 (constant S_ .f32 0x00000000#32),
    unary main_cst_220 main_v704 (broadcastInDim S50000 ![] bcast_S_S50000 : (⟨S_, .f32⟩ : BufTy).Contents (Elt F) → (⟨S50000, .f32⟩ : BufTy).Contents (Elt F)),
    binary main_v695 main_v704 main_v705 (cmpf (F := F) .ogt : (⟨S50000, .f32⟩ : BufTy).Contents (Elt F) → (⟨S50000, .f32⟩ : BufTy).Contents (Elt F) → (⟨S50000, .i1⟩ : BufTy).Contents (Elt F)),
    nullary main_cst_221 (constant S_ .f32 0x3F800000#32),
    TRef.unary (TRef.of (T := ⟨S_, .f32⟩) main_cst_221) (TRef.of (T := ⟨S_, .f32⟩) main_call57_v0) id,
    TRef.unary (TRef.of (T := ⟨S_, .f32⟩) main_call57_v0) (TRef.of (T := ⟨S50000, .f32⟩) main_call57_v1) (broadcastInDim S50000 ![] bcast_S_S50000),
    TRef.ternary (TRef.of (T := ⟨S50000, .i1⟩) main_v705) (TRef.of (T := ⟨S50000, .f32⟩) main_v695) (TRef.of (T := ⟨S50000, .f32⟩) main_call57_v1) (TRef.of (T := ⟨S50000, .f32⟩) main_v706) select,
    nullary main_cst_222 (constant S_ .f32 0xBF000000#32),
    unary main_cst_222 main_v707 (broadcastInDim S50000 ![] bcast_S_S50000 : (⟨S_, .f32⟩ : BufTy).Contents (Elt F) → (⟨S50000, .f32⟩ : BufTy).Contents (Elt F)),
    binary main_v706 main_v707 main_v708 (Host.powf : (⟨S50000, .f32⟩ : BufTy).Contents (Elt F) → (⟨S50000, .f32⟩ : BufTy).Contents (Elt F) → (⟨S50000, .f32⟩ : BufTy).Contents (Elt F)),
    nullary main_cst_223 (constant S_ .f32 0x00000000#32),
    unary main_cst_223 main_v709 (broadcastInDim S50000 ![] bcast_S_S50000 : (⟨S_, .f32⟩ : BufTy).Contents (Elt F) → (⟨S50000, .f32⟩ : BufTy).Contents (Elt F)),
    binary main_v695 main_v709 main_v710 (cmpf (F := F) .ogt : (⟨S50000, .f32⟩ : BufTy).Contents (Elt F) → (⟨S50000, .f32⟩ : BufTy).Contents (Elt F) → (⟨S50000, .i1⟩ : BufTy).Contents (Elt F)),
    nullary main_cst_224 (constant S_ .f32 0x00000000#32),
    TRef.unary (TRef.of (T := ⟨S_, .f32⟩) main_cst_224) (TRef.of (T := ⟨S_, .f32⟩) main_call58_v0) id,
    TRef.unary (TRef.of (T := ⟨S_, .f32⟩) main_call58_v0) (TRef.of (T := ⟨S50000, .f32⟩) main_call58_v1) (broadcastInDim S50000 ![] bcast_S_S50000),
    TRef.ternary (TRef.of (T := ⟨S50000, .i1⟩) main_v710) (TRef.of (T := ⟨S50000, .f32⟩) main_v708) (TRef.of (T := ⟨S50000, .f32⟩) main_call58_v1) (TRef.of (T := ⟨S50000, .f32⟩) main_v711) select,
    unary main_v703 main_v712 (broadcastInDim S50000x1 ![0] bcast_S50000_S50000x1_0 : (⟨S50000, .f32⟩ : BufTy).Contents (Elt F) → (⟨S50000x1, .f32⟩ : BufTy).Contents (Elt F)),
    unary main_v712 main_v713 (broadcastInDim S50000x128 ![0, 1] bcast_S50000x1_S50000x128_0_1 : (⟨S50000x1, .f32⟩ : BufTy).Contents (Elt F) → (⟨S50000x128, .f32⟩ : BufTy).Contents (Elt F)),
    binary main_v473 main_v713 main_v714 (mulf : (⟨S50000x128, .f32⟩ : BufTy).Contents (Elt F) → (⟨S50000x128, .f32⟩ : BufTy).Contents (Elt F) → (⟨S50000x128, .f32⟩ : BufTy).Contents (Elt F)),
    unary main_arg5 main_v715 ((extractStridedSlice S1x128x128 ![4, 0, 0] · slices_S9x128x128_S1x128x128_4_0_0) : (⟨S9x128x128, .f32⟩ : BufTy).Contents (Elt F) → (⟨S1x128x128, .f32⟩ : BufTy).Contents (Elt F)),
    reshape main_v715 main_v716 rfl shapeCasts_S1x128x128_S128x128,
    binary main_v714 main_v716 main_v717 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_225 (constantI S_ 32 0#32),
    unary main_c_225 main_v718 (broadcastInDim S400000 ![] bcast_S_S400000 : (⟨S_, .i32⟩ : BufTy).Contents (Elt F) → (⟨S400000, .i32⟩ : BufTy).Contents (Elt F)),
    binary main_v686 main_v718 main_v719 (cmpi .slt : (⟨S400000, .i32⟩ : BufTy).Contents (Elt F) → (⟨S400000, .i32⟩ : BufTy).Contents (Elt F) → (⟨S400000, .i1⟩ : BufTy).Contents (Elt F)),
    nullary main_c_226 (constantI S_ 32 50000#32),
    unary main_c_226 main_v720 (broadcastInDim S400000 ![] bcast_S_S400000 : (⟨S_, .i32⟩ : BufTy).Contents (Elt F) → (⟨S400000, .i32⟩ : BufTy).Contents (Elt F)),
    binary main_v686 main_v720 main_v721 (addi : (⟨S400000, .i32⟩ : BufTy).Contents (Elt F) → (⟨S400000, .i32⟩ : BufTy).Contents (Elt F) → (⟨S400000, .i32⟩ : BufTy).Contents (Elt F)),
    ternary main_v719 main_v721 main_v686 main_v722 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v722 main_v723 (broadcastInDim S400000x1 ![0] bcast_S400000_S400000x1_0 : (⟨S400000, .i32⟩ : BufTy).Contents (Elt F) → (⟨S400000x1, .i32⟩ : BufTy).Contents (Elt F)),
    binary main_v717 main_v723 main_v724 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_227 (constant S_ .f32 0x00000000#32),
    unary main_cst_227 main_v725 (broadcastInDim S50000x128 ![] bcast_S_S50000x128 : (⟨S_, .f32⟩ : BufTy).Contents (Elt F) → (⟨S50000x128, .f32⟩ : BufTy).Contents (Elt F)),
    unary main_v688 main_v726 (broadcastInDim S400000x1 ![0] bcast_S400000_S400000x1_0 : (⟨S400000, .i32⟩ : BufTy).Contents (Elt F) → (⟨S400000x1, .i32⟩ : BufTy).Contents (Elt F)),
    ternary main_v725 main_v726 main_v724 main_v727 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v711 main_v728 (broadcastInDim S50000x1 ![0] bcast_S50000_S50000x1_0 : (⟨S50000, .f32⟩ : BufTy).Contents (Elt F) → (⟨S50000x1, .f32⟩ : BufTy).Contents (Elt F)),
    unary main_v728 main_v729 (broadcastInDim S50000x128 ![0, 1] bcast_S50000x1_S50000x128_0_1 : (⟨S50000x1, .f32⟩ : BufTy).Contents (Elt F) → (⟨S50000x128, .f32⟩ : BufTy).Contents (Elt F)) ]

set_option maxRecDepth 8192 in
set_option maxHeartbeats 4000000 in
/-- The window is its operations run in order. -/
theorem main_part15_eq (c : Dev nD) : main_part15 (F := F) c = seq ops_part15 := rfl

set_option maxRecDepth 8192 in
/-- Every operation touches TensorCore buffers only. -/
theorem ops_part15_sub : (ops_part15 : List (HloOp τ sig (Elt F))).Forall fun op => op.bufs ⊆ tcRefs τ sig :=
  ⟨reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub ..⟩

set_option maxRecDepth 8192 in
/-- Every operation determines the contents of what it writes. -/
theorem ops_part15_fresh : ∀ op ∈ (ops_part15 : List (HloOp τ sig (Elt F))), op.fresh = ∅ :=
  List.forall_iff_forall_mem.mp (show (ops_part15 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part15_W : List (Ref sig .tc) := [main_v686, main_v687, main_v688, main_cst_212, main_v689, main_cst_213, main_v690, main_v691, main_v692, main_cst_214, main_v693, main_v694, main_v695, main_cst_215, main_v696, main_v697, main_cst_216, main_call55_v0, main_call55_v1, main_v698, main_cst_217, main_v699, main_v700, main_cst_218, main_v701, main_v702, main_cst_219, main_call56_v0, main_call56_v1, main_v703, main_cst_220, main_v704, main_v705, main_cst_221, main_call57_v0, main_call57_v1, main_v706, main_cst_222, main_v707, main_v708, main_cst_223, main_v709, main_v710, main_cst_224, main_call58_v0, main_call58_v1, main_v711, main_v712, main_v713, main_v714, main_v715, main_v716, main_v717, main_c_225, main_v718, main_v719, main_c_226, main_v720, main_v721, main_v722, main_v723, main_v724, main_cst_227, main_v725, main_v726, main_v727, main_v728, main_v729]

set_option maxRecDepth 8192 in
/-- Each operation writes one of them. -/
theorem ops_part15_writes : (ops_part15 : List (HloOp τ sig (Elt F))).Forall fun op =>
    op.writes ⊆ (ops_part15_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val15.lean ====
/- The step across window 15 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops15

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step15 {W : Valuation τ sig (Elt F)} {x0 x1 x2 x3 x4 x5 x6 x7 x8 x9 : _}
    (h : Live15 W x0 x1 x2 x3 x4 x5 x6 x7 x8 x9) : Live16 (after ops_part15 W) x0 x1 x2 x3 x4 x5 x6 x7 x8 x9 where
  h_main_arg0 := (after_of_writes_sub ops_part15 W ops_part15_writes (by decide)).trans h.h_main_arg0
  h_main_arg1 := (after_of_writes_sub ops_part15 W ops_part15_writes (by decide)).trans h.h_main_arg1
  h_main_arg2 := (after_of_writes_sub ops_part15 W ops_part15_writes (by decide)).trans h.h_main_arg2
  h_main_arg3 := (after_of_writes_sub ops_part15 W ops_part15_writes (by decide)).trans h.h_main_arg3
  h_main_arg4 := (after_of_writes_sub ops_part15 W ops_part15_writes (by decide)).trans h.h_main_arg4
  h_main_arg5 := (after_of_writes_sub ops_part15 W ops_part15_writes (by decide)).trans h.h_main_arg5
  h_main_arg6 := (after_of_writes_sub ops_part15 W ops_part15_writes (by decide)).trans h.h_main_arg6
  h_main_arg7 := (after_of_writes_sub ops_part15 W ops_part15_writes (by decide)).trans h.h_main_arg7
  h_main_arg8 := (after_of_writes_sub ops_part15 W ops_part15_writes (by decide)).trans h.h_main_arg8
  h_main_arg9 := (after_of_writes_sub ops_part15 W ops_part15_writes (by decide)).trans h.h_main_arg9
  h_main_v471 := (after_of_writes_sub ops_part15 W ops_part15_writes (by decide)).trans h.h_main_v471
  h_main_v472 := (after_of_writes_sub ops_part15 W ops_part15_writes (by decide)).trans h.h_main_v472
  h_main_v473 := (after_of_writes_sub ops_part15 W ops_part15_writes (by decide)).trans h.h_main_v473
  h_main_v475 := (after_of_writes_sub ops_part15 W ops_part15_writes (by decide)).trans h.h_main_v475
  h_main_v580 := (after_of_writes_sub ops_part15 W ops_part15_writes (by decide)).trans h.h_main_v580
  h_main_v684 := (after_of_writes_sub ops_part15 W ops_part15_writes (by decide)).trans h.h_main_v684
  h_main_v727 := by
    simp only [ops_part15]
    after_results_simp
    all_goals (try simp only [h.h_main_v685, h.h_main_arg5, h.h_main_v473, h.h_main_arg9])
    all_goals (try simp only [TRef.ofBuf, TRef.toBuf, cast_eq])
    all_goals rfl
  h_main_v729 := by
    simp only [ops_part15]
    after_results_simp
    all_goals (try simp only [h.h_main_arg9])
    all_goals (try simp only [TRef.ofBuf, TRef.toBuf, cast_eq])
    all_goals rfl

end Cert.ReferenceIdeal.RefRun

end
-- ==== Proof.Ref.Ops16.lean ====
/- Operations 1079 … 1146 of the 1414 operations of the reference program's @main: its printed window
   main_part16 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1079 … 1146, in order. -/
abbrev ops_part16 : List (HloOp τ sig (Elt F)) :=
  [ binary main_v727 main_v729 main_v730 (mulf : (⟨S50000x128, .f32⟩ : BufTy).Contents (Elt F) → (⟨S50000x128, .f32⟩ : BufTy).Contents (Elt F) → (⟨S50000x128, .f32⟩ : BufTy).Contents (Elt F)),
    binary main_v475 main_v730 main_v731 (addf : (⟨S50000x128, .f32⟩ : BufTy).Contents (Elt F) → (⟨S50000x128, .f32⟩ : BufTy).Contents (Elt F) → (⟨S50000x128, .f32⟩ : BufTy).Contents (Elt F)),
    unary main_arg6 main_v732 ((extractStridedSlice S1x128 ![4, 0] · slices_S9x128_S1x128_4_0) : (⟨S9x128, .f32⟩ : BufTy).Contents (Elt F) → (⟨S1x128, .f32⟩ : BufTy).Contents (Elt F)),
    reshape main_v732 main_v733 rfl shapeCasts_S1x128_S128,
    unary main_v733 main_v734 (broadcastInDim S1x128 ![1] bcast_S128_S1x128_1 : (⟨S128, .f32⟩ : BufTy).Contents (Elt F) → (⟨S1x128, .f32⟩ : BufTy).Contents (Elt F)),
    unary main_v734 main_v735 (broadcastInDim S50000x128 ![0, 1] bcast_S1x128_S50000x128_0_1 : (⟨S1x128, .f32⟩ : BufTy).Contents (Elt F) → (⟨S50000x128, .f32⟩ : BufTy).Contents (Elt F)),
    binary main_v731 main_v735 main_v736 (addf : (⟨S50000x128, .f32⟩ : BufTy).Contents (Elt F) → (⟨S50000x128, .f32⟩ : BufTy).Contents (Elt F) → (⟨S50000x128, .f32⟩ : BufTy).Contents (Elt F)),
    unary main_arg9 main_v737 ((extractStridedSlice S1x1x400000 ![5, 0, 0] · slices_S9x2x400000_S1x1x400000_5_0_0) : (⟨S9x2x400000, .i32⟩ : BufTy).Contents (Elt F) → (⟨S1x1x400000, .i32⟩ : BufTy).Contents (Elt F)),
    reshape main_v737 main_v738 rfl shapeCasts_S1x1x400000_S400000,
    unary main_arg9 main_v739 ((extractStridedSlice S1x1x400000 ![5, 1, 0] · slices_S9x2x400000_S1x1x400000_5_1_0) : (⟨S9x2x400000, .i32⟩ : BufTy).Contents (Elt F) → (⟨S1x1x400000, .i32⟩ : BufTy).Contents (Elt F)),
    reshape main_v739 main_v740 rfl shapeCasts_S1x1x400000_S400000,
    nullary main_cst_228 (constant S_ .f32 0x3F800000#32),
    unary main_cst_228 main_v741 (broadcastInDim S400000 ![] bcast_S_S400000 : (⟨S_, .f32⟩ : BufTy).Contents (Elt F) → (⟨S400000, .f32⟩ : BufTy).Contents (Elt F)),
    nullary main_cst_229 (constant S_ .f32 0x00000000#32),
    unary main_cst_229 main_v742 (broadcastInDim S50000 ![] bcast_S_S50000 : (⟨S_, .f32⟩ : BufTy).Contents (Elt F) → (⟨S50000, .f32⟩ : BufTy).Contents (Elt F)),
    unary main_v738 main_v743 (broadcastInDim S400000x1 ![0] bcast_S400000_S400000x1_0 : (⟨S400000, .i32⟩ : BufTy).Contents (Elt F) → (⟨S400000x1, .i32⟩ : BufTy).Contents (Elt F)),
    ternary main_v742 main_v743 main_v741 main_v744 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_230 (constant S_ .f32 0x00000000#32),
    unary main_cst_230 main_v745 (broadcastInDim S50000 ![] bcast_S_S50000 : (⟨S_, .f32⟩ : BufTy).Contents (Elt F) → (⟨S50000, .f32⟩ : BufTy).Contents (Elt F)),
    unary main_v740 main_v746 (broadcastInDim S400000x1 ![0] bcast_S400000_S400000x1_0 : (⟨S400000, .i32⟩ : BufTy).Contents (Elt F) → (⟨S400000x1, .i32⟩ : BufTy).Contents (Elt F)),
    ternary main_v745 main_v746 main_v741 main_v747 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_231 (constant S_ .f32 0x00000000#32),
    unary main_cst_231 main_v748 (broadcastInDim S50000 ![] bcast_S_S50000 : (⟨S_, .f32⟩ : BufTy).Contents (Elt F) → (⟨S50000, .f32⟩ : BufTy).Contents (Elt F)),
    binary main_v744 main_v748 main_v749 (cmpf (F := F) .ogt : (⟨S50000, .f32⟩ : BufTy).Contents (Elt F) → (⟨S50000, .f32⟩ : BufTy).Contents (Elt F) → (⟨S50000, .i1⟩ : BufTy).Contents (Elt F)),
    nullary main_cst_232 (constant S_ .f32 0x3F800000#32),
    TRef.unary (TRef.of (T := ⟨S_, .f32⟩) main_cst_232) (TRef.of (T := ⟨S_, .f32⟩) main_call59_v0) id,
    TRef.unary (TRef.of (T := ⟨S_, .f32⟩) main_call59_v0) (TRef.of (T := ⟨S50000, .f32⟩) main_call59_v1) (broadcastInDim S50000 ![] bcast_S_S50000),
    TRef.ternary (TRef.of (T := ⟨S50000, .i1⟩) main_v749) (TRef.of (T := ⟨S50000, .f32⟩) main_v744) (TRef.of (T := ⟨S50000, .f32⟩) main_call59_v1) (TRef.of (T := ⟨S50000, .f32⟩) main_v750) select,
    nullary main_cst_233 (constant S_ .f32 0xBF000000#32),
    unary main_cst_233 main_v751 (broadcastInDim S50000 ![] bcast_S_S50000 : (⟨S_, .f32⟩ : BufTy).Contents (Elt F) → (⟨S50000, .f32⟩ : BufTy).Contents (Elt F)),
    binary main_v750 main_v751 main_v752 (Host.powf : (⟨S50000, .f32⟩ : BufTy).Contents (Elt F) → (⟨S50000, .f32⟩ : BufTy).Contents (Elt F) → (⟨S50000, .f32⟩ : BufTy).Contents (Elt F)),
    nullary main_cst_234 (constant S_ .f32 0x00000000#32),
    unary main_cst_234 main_v753 (broadcastInDim S50000 ![] bcast_S_S50000 : (⟨S_, .f32⟩ : BufTy).Contents (Elt F) → (⟨S50000, .f32⟩ : BufTy).Contents (Elt F)),
    binary main_v744 main_v753 main_v754 (cmpf (F := F) .ogt : (⟨S50000, .f32⟩ : BufTy).Contents (Elt F) → (⟨S50000, .f32⟩ : BufTy).Contents (Elt F) → (⟨S50000, .i1⟩ : BufTy).Contents (Elt F)),
    nullary main_cst_235 (constant S_ .f32 0x00000000#32),
    TRef.unary (TRef.of (T := ⟨S_, .f32⟩) main_cst_235) (TRef.of (T := ⟨S_, .f32⟩) main_call60_v0) id,
    TRef.unary (TRef.of (T := ⟨S_, .f32⟩) main_call60_v0) (TRef.of (T := ⟨S50000, .f32⟩) main_call60_v1) (broadcastInDim S50000 ![] bcast_S_S50000),
    TRef.ternary (TRef.of (T := ⟨S50000, .i1⟩) main_v754) (TRef.of (T := ⟨S50000, .f32⟩) main_v752) (TRef.of (T := ⟨S50000, .f32⟩) main_call60_v1) (TRef.of (T := ⟨S50000, .f32⟩) main_v755) select,
    nullary main_cst_236 (constant S_ .f32 0x00000000#32),
    unary main_cst_236 main_v756 (broadcastInDim S50000 ![] bcast_S_S50000 : (⟨S_, .f32⟩ : BufTy).Contents (Elt F) → (⟨S50000, .f32⟩ : BufTy).Contents (Elt F)),
    binary main_v747 main_v756 main_v757 (cmpf (F := F) .ogt : (⟨S50000, .f32⟩ : BufTy).Contents (Elt F) → (⟨S50000, .f32⟩ : BufTy).Contents (Elt F) → (⟨S50000, .i1⟩ : BufTy).Contents (Elt F)),
    nullary main_cst_237 (constant S_ .f32 0x3F800000#32),
    TRef.unary (TRef.of (T := ⟨S_, .f32⟩) main_cst_237) (TRef.of (T := ⟨S_, .f32⟩) main_call61_v0) id,
    TRef.unary (TRef.of (T := ⟨S_, .f32⟩) main_call61_v0) (TRef.of (T := ⟨S50000, .f32⟩) main_call61_v1) (broadcastInDim S50000 ![] bcast_S_S50000),
    TRef.ternary (TRef.of (T := ⟨S50000, .i1⟩) main_v757) (TRef.of (T := ⟨S50000, .f32⟩) main_v747) (TRef.of (T := ⟨S50000, .f32⟩) main_call61_v1) (TRef.of (T := ⟨S50000, .f32⟩) main_v758) select,
    nullary main_cst_238 (constant S_ .f32 0xBF000000#32),
    unary main_cst_238 main_v759 (broadcastInDim S50000 ![] bcast_S_S50000 : (⟨S_, .f32⟩ : BufTy).Contents (Elt F) → (⟨S50000, .f32⟩ : BufTy).Contents (Elt F)),
    binary main_v758 main_v759 main_v760 (Host.powf : (⟨S50000, .f32⟩ : BufTy).Contents (Elt F) → (⟨S50000, .f32⟩ : BufTy).Contents (Elt F) → (⟨S50000, .f32⟩ : BufTy).Contents (Elt F)),
    nullary main_cst_239 (constant S_ .f32 0x00000000#32),
    unary main_cst_239 main_v761 (broadcastInDim S50000 ![] bcast_S_S50000 : (⟨S_, .f32⟩ : BufTy).Contents (Elt F) → (⟨S50000, .f32⟩ : BufTy).Contents (Elt F)),
    binary main_v747 main_v761 main_v762 (cmpf (F := F) .ogt : (⟨S50000, .f32⟩ : BufTy).Contents (Elt F) → (⟨S50000, .f32⟩ : BufTy).Contents (Elt F) → (⟨S50000, .i1⟩ : BufTy).Contents (Elt F)),
    nullary main_cst_240 (constant S_ .f32 0x00000000#32),
    TRef.unary (TRef.of (T := ⟨S_, .f32⟩) main_cst_240) (TRef.of (T := ⟨S_, .f32⟩) main_call62_v0) id,
    TRef.unary (TRef.of (T := ⟨S_, .f32⟩) main_call62_v0) (TRef.of (T := ⟨S50000, .f32⟩) main_call62_v1) (broadcastInDim S50000 ![] bcast_S_S50000),
    TRef.ternary (TRef.of (T := ⟨S50000, .i1⟩) main_v762) (TRef.of (T := ⟨S50000, .f32⟩) main_v760) (TRef.of (T := ⟨S50000, .f32⟩) main_call62_v1) (TRef.of (T := ⟨S50000, .f32⟩) main_v763) select,
    unary main_v755 main_v764 (broadcastInDim S50000x1 ![0] bcast_S50000_S50000x1_0 : (⟨S50000, .f32⟩ : BufTy).Contents (Elt F) → (⟨S50000x1, .f32⟩ : BufTy).Contents (Elt F)),
    unary main_v764 main_v765 (broadcastInDim S50000x128 ![0, 1] bcast_S50000x1_S50000x128_0_1 : (⟨S50000x1, .f32⟩ : BufTy).Contents (Elt F) → (⟨S50000x128, .f32⟩ : BufTy).Contents (Elt F)),
    binary main_v473 main_v765 main_v766 (mulf : (⟨S50000x128, .f32⟩ : BufTy).Contents (Elt F) → (⟨S50000x128, .f32⟩ : BufTy).Contents (Elt F) → (⟨S50000x128, .f32⟩ : BufTy).Contents (Elt F)),
    unary main_arg5 main_v767 ((extractStridedSlice S1x128x128 ![5, 0, 0] · slices_S9x128x128_S1x128x128_5_0_0) : (⟨S9x128x128, .f32⟩ : BufTy).Contents (Elt F) → (⟨S1x128x128, .f32⟩ : BufTy).Contents (Elt F)),
    reshape main_v767 main_v768 rfl shapeCasts_S1x128x128_S128x128,
    binary main_v766 main_v768 main_v769 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_241 (constantI S_ 32 0#32),
    unary main_c_241 main_v770 (broadcastInDim S400000 ![] bcast_S_S400000 : (⟨S_, .i32⟩ : BufTy).Contents (Elt F) → (⟨S400000, .i32⟩ : BufTy).Contents (Elt F)),
    binary main_v738 main_v770 main_v771 (cmpi .slt : (⟨S400000, .i32⟩ : BufTy).Contents (Elt F) → (⟨S400000, .i32⟩ : BufTy).Contents (Elt F) → (⟨S400000, .i1⟩ : BufTy).Contents (Elt F)),
    nullary main_c_242 (constantI S_ 32 50000#32),
    unary main_c_242 main_v772 (broadcastInDim S400000 ![] bcast_S_S400000 : (⟨S_, .i32⟩ : BufTy).Contents (Elt F) → (⟨S400000, .i32⟩ : BufTy).Contents (Elt F)),
    binary main_v738 main_v772 main_v773 (addi : (⟨S400000, .i32⟩ : BufTy).Contents (Elt F) → (⟨S400000, .i32⟩ : BufTy).Contents (Elt F) → (⟨S400000, .i32⟩ : BufTy).Contents (Elt F)),
    ternary main_v771 main_v773 main_v738 main_v774 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ]

set_option maxRecDepth 8192 in
set_option maxHeartbeats 4000000 in
/-- The window is its operations run in order. -/
theorem main_part16_eq (c : Dev nD) : main_part16 (F := F) c = seq ops_part16 := rfl

set_option maxRecDepth 8192 in
/-- Every operation touches TensorCore buffers only. -/
theorem ops_part16_sub : (ops_part16 : List (HloOp τ sig (Elt F))).Forall fun op => op.bufs ⊆ tcRefs τ sig :=
  ⟨binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub ..⟩

set_option maxRecDepth 8192 in
/-- Every operation determines the contents of what it writes. -/
theorem ops_part16_fresh : ∀ op ∈ (ops_part16 : List (HloOp τ sig (Elt F))), op.fresh = ∅ :=
  List.forall_iff_forall_mem.mp (show (ops_part16 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part16_W : List (Ref sig .tc) := [main_v730, main_v731, main_v732, main_v733, main_v734, main_v735, main_v736, main_v737, main_v738, main_v739, main_v740, main_cst_228, main_v741, main_cst_229, main_v742, main_v743, main_v744, main_cst_230, main_v745, main_v746, main_v747, main_cst_231, main_v748, main_v749, main_cst_232, main_call59_v0, main_call59_v1, main_v750, main_cst_233, main_v751, main_v752, main_cst_234, main_v753, main_v754, main_cst_235, main_call60_v0, main_call60_v1, main_v755, main_cst_236, main_v756, main_v757, main_cst_237, main_call61_v0, main_call61_v1, main_v758, main_cst_238, main_v759, main_v760, main_cst_239, main_v761, main_v762, main_cst_240, main_call62_v0, main_call62_v1, main_v763, main_v764, main_v765, main_v766, main_v767, main_v768, main_v769, main_c_241, main_v770, main_v771, main_c_242, main_v772, main_v773, main_v774]

set_option maxRecDepth 8192 in
/-- Each operation writes one of them. -/
theorem ops_part16_writes : (ops_part16 : List (HloOp τ sig (Elt F))).Forall fun op =>
    op.writes ⊆ (ops_part16_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val16.lean ====
/- The step across window 16 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops16

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step16 {W : Valuation τ sig (Elt F)} {x0 x1 x2 x3 x4 x5 x6 x7 x8 x9 : _}
    (h : Live16 W x0 x1 x2 x3 x4 x5 x6 x7 x8 x9) : Live17 (after ops_part16 W) x0 x1 x2 x3 x4 x5 x6 x7 x8 x9 where
  h_main_arg0 := (after_of_writes_sub ops_part16 W ops_part16_writes (by decide)).trans h.h_main_arg0
  h_main_arg1 := (after_of_writes_sub ops_part16 W ops_part16_writes (by decide)).trans h.h_main_arg1
  h_main_arg2 := (after_of_writes_sub ops_part16 W ops_part16_writes (by decide)).trans h.h_main_arg2
  h_main_arg3 := (after_of_writes_sub ops_part16 W ops_part16_writes (by decide)).trans h.h_main_arg3
  h_main_arg4 := (after_of_writes_sub ops_part16 W ops_part16_writes (by decide)).trans h.h_main_arg4
  h_main_arg5 := (after_of_writes_sub ops_part16 W ops_part16_writes (by decide)).trans h.h_main_arg5
  h_main_arg6 := (after_of_writes_sub ops_part16 W ops_part16_writes (by decide)).trans h.h_main_arg6
  h_main_arg7 := (after_of_writes_sub ops_part16 W ops_part16_writes (by decide)).trans h.h_main_arg7
  h_main_arg8 := (after_of_writes_sub ops_part16 W ops_part16_writes (by decide)).trans h.h_main_arg8
  h_main_arg9 := (after_of_writes_sub ops_part16 W ops_part16_writes (by decide)).trans h.h_main_arg9
  h_main_v471 := (after_of_writes_sub ops_part16 W ops_part16_writes (by decide)).trans h.h_main_v471
  h_main_v472 := (after_of_writes_sub ops_part16 W ops_part16_writes (by decide)).trans h.h_main_v472
  h_main_v473 := (after_of_writes_sub ops_part16 W ops_part16_writes (by decide)).trans h.h_main_v473
  h_main_v580 := (after_of_writes_sub ops_part16 W ops_part16_writes (by decide)).trans h.h_main_v580
  h_main_v684 := (after_of_writes_sub ops_part16 W ops_part16_writes (by decide)).trans h.h_main_v684
  h_main_v736 := by
    simp only [ops_part16]
    after_results_simp
    all_goals (try simp only [h.h_main_arg6, h.h_main_v729, h.h_main_v727, h.h_main_v475])
    all_goals (try simp only [TRef.ofBuf, TRef.toBuf, cast_eq])
    all_goals rfl
  h_main_v740 := by
    simp only [ops_part16]
    after_results_simp
    all_goals (try simp only [h.h_main_arg9])
    all_goals (try simp only [TRef.ofBuf, TRef.toBuf, cast_eq])
    all_goals rfl
  h_main_v763 := by
    simp only [ops_part16]
    after_results_simp
    all_goals (try simp only [h.h_main_arg9])
    all_goals (try simp only [TRef.ofBuf, TRef.toBuf, cast_eq])
    all_goals rfl
  h_main_v769 := by
    simp only [ops_part16]
    after_results_simp
    all_goals (try simp only [h.h_main_arg5, h.h_main_arg9, h.h_main_v473])
    all_goals (try simp only [TRef.ofBuf, TRef.toBuf, cast_eq])
    all_goals rfl
  h_main_v774 := by
    simp only [ops_part16]
    after_results_simp
    all_goals (try simp only [h.h_main_arg9])
    all_goals (try simp only [TRef.ofBuf, TRef.toBuf, cast_eq])
    all_goals rfl

end Cert.ReferenceIdeal.RefRun

end
-- ==== Proof.Ref.Ops17.lean ====
/- Operations 1147 … 1214 of the 1414 operations of the reference program's @main: its printed window
   main_part17 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1147 … 1214, in order. -/
abbrev ops_part17 : List (HloOp τ sig (Elt F)) :=
  [ unary main_v774 main_v775 (broadcastInDim S400000x1 ![0] bcast_S400000_S400000x1_0 : (⟨S400000, .i32⟩ : BufTy).Contents (Elt F) → (⟨S400000x1, .i32⟩ : BufTy).Contents (Elt F)),
    binary main_v769 main_v775 main_v776 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_243 (constant S_ .f32 0x00000000#32),
    unary main_cst_243 main_v777 (broadcastInDim S50000x128 ![] bcast_S_S50000x128 : (⟨S_, .f32⟩ : BufTy).Contents (Elt F) → (⟨S50000x128, .f32⟩ : BufTy).Contents (Elt F)),
    unary main_v740 main_v778 (broadcastInDim S400000x1 ![0] bcast_S400000_S400000x1_0 : (⟨S400000, .i32⟩ : BufTy).Contents (Elt F) → (⟨S400000x1, .i32⟩ : BufTy).Contents (Elt F)),
    ternary main_v777 main_v778 main_v776 main_v779 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v763 main_v780 (broadcastInDim S50000x1 ![0] bcast_S50000_S50000x1_0 : (⟨S50000, .f32⟩ : BufTy).Contents (Elt F) → (⟨S50000x1, .f32⟩ : BufTy).Contents (Elt F)),
    unary main_v780 main_v781 (broadcastInDim S50000x128 ![0, 1] bcast_S50000x1_S50000x128_0_1 : (⟨S50000x1, .f32⟩ : BufTy).Contents (Elt F) → (⟨S50000x128, .f32⟩ : BufTy).Contents (Elt F)),
    binary main_v779 main_v781 main_v782 (mulf : (⟨S50000x128, .f32⟩ : BufTy).Contents (Elt F) → (⟨S50000x128, .f32⟩ : BufTy).Contents (Elt F) → (⟨S50000x128, .f32⟩ : BufTy).Contents (Elt F)),
    binary main_v684 main_v782 main_v783 (addf : (⟨S50000x128, .f32⟩ : BufTy).Contents (Elt F) → (⟨S50000x128, .f32⟩ : BufTy).Contents (Elt F) → (⟨S50000x128, .f32⟩ : BufTy).Contents (Elt F)),
    unary main_arg6 main_v784 ((extractStridedSlice S1x128 ![5, 0] · slices_S9x128_S1x128_5_0) : (⟨S9x128, .f32⟩ : BufTy).Contents (Elt F) → (⟨S1x128, .f32⟩ : BufTy).Contents (Elt F)),
    reshape main_v784 main_v785 rfl shapeCasts_S1x128_S128,
    unary main_v785 main_v786 (broadcastInDim S1x128 ![1] bcast_S128_S1x128_1 : (⟨S128, .f32⟩ : BufTy).Contents (Elt F) → (⟨S1x128, .f32⟩ : BufTy).Contents (Elt F)),
    unary main_v786 main_v787 (broadcastInDim S50000x128 ![0, 1] bcast_S1x128_S50000x128_0_1 : (⟨S1x128, .f32⟩ : BufTy).Contents (Elt F) → (⟨S50000x128, .f32⟩ : BufTy).Contents (Elt F)),
    binary main_v783 main_v787 main_v788 (addf : (⟨S50000x128, .f32⟩ : BufTy).Contents (Elt F) → (⟨S50000x128, .f32⟩ : BufTy).Contents (Elt F) → (⟨S50000x128, .f32⟩ : BufTy).Contents (Elt F)),
    unary main_arg9 main_v789 ((extractStridedSlice S1x1x400000 ![6, 0, 0] · slices_S9x2x400000_S1x1x400000_6_0_0) : (⟨S9x2x400000, .i32⟩ : BufTy).Contents (Elt F) → (⟨S1x1x400000, .i32⟩ : BufTy).Contents (Elt F)),
    reshape main_v789 main_v790 rfl shapeCasts_S1x1x400000_S400000,
    unary main_arg9 main_v791 ((extractStridedSlice S1x1x400000 ![6, 1, 0] · slices_S9x2x400000_S1x1x400000_6_1_0) : (⟨S9x2x400000, .i32⟩ : BufTy).Contents (Elt F) → (⟨S1x1x400000, .i32⟩ : BufTy).Contents (Elt F)),
    reshape main_v791 main_v792 rfl shapeCasts_S1x1x400000_S400000,
    nullary main_cst_244 (constant S_ .f32 0x3F800000#32),
    unary main_cst_244 main_v793 (broadcastInDim S400000 ![] bcast_S_S400000 : (⟨S_, .f32⟩ : BufTy).Contents (Elt F) → (⟨S400000, .f32⟩ : BufTy).Contents (Elt F)),
    nullary main_cst_245 (constant S_ .f32 0x00000000#32),
    unary main_cst_245 main_v794 (broadcastInDim S50000 ![] bcast_S_S50000 : (⟨S_, .f32⟩ : BufTy).Contents (Elt F) → (⟨S50000, .f32⟩ : BufTy).Contents (Elt F)),
    unary main_v790 main_v795 (broadcastInDim S400000x1 ![0] bcast_S400000_S400000x1_0 : (⟨S400000, .i32⟩ : BufTy).Contents (Elt F) → (⟨S400000x1, .i32⟩ : BufTy).Contents (Elt F)),
    ternary main_v794 main_v795 main_v793 main_v796 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_246 (constant S_ .f32 0x00000000#32),
    unary main_cst_246 main_v797 (broadcastInDim S50000 ![] bcast_S_S50000 : (⟨S_, .f32⟩ : BufTy).Contents (Elt F) → (⟨S50000, .f32⟩ : BufTy).Contents (Elt F)),
    unary main_v792 main_v798 (broadcastInDim S400000x1 ![0] bcast_S400000_S400000x1_0 : (⟨S400000, .i32⟩ : BufTy).Contents (Elt F) → (⟨S400000x1, .i32⟩ : BufTy).Contents (Elt F)),
    ternary main_v797 main_v798 main_v793 main_v799 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_247 (constant S_ .f32 0x00000000#32),
    unary main_cst_247 main_v800 (broadcastInDim S50000 ![] bcast_S_S50000 : (⟨S_, .f32⟩ : BufTy).Contents (Elt F) → (⟨S50000, .f32⟩ : BufTy).Contents (Elt F)),
    binary main_v796 main_v800 main_v801 (cmpf (F := F) .ogt : (⟨S50000, .f32⟩ : BufTy).Contents (Elt F) → (⟨S50000, .f32⟩ : BufTy).Contents (Elt F) → (⟨S50000, .i1⟩ : BufTy).Contents (Elt F)),
    nullary main_cst_248 (constant S_ .f32 0x3F800000#32),
    TRef.unary (TRef.of (T := ⟨S_, .f32⟩) main_cst_248) (TRef.of (T := ⟨S_, .f32⟩) main_call63_v0) id,
    TRef.unary (TRef.of (T := ⟨S_, .f32⟩) main_call63_v0) (TRef.of (T := ⟨S50000, .f32⟩) main_call63_v1) (broadcastInDim S50000 ![] bcast_S_S50000),
    TRef.ternary (TRef.of (T := ⟨S50000, .i1⟩) main_v801) (TRef.of (T := ⟨S50000, .f32⟩) main_v796) (TRef.of (T := ⟨S50000, .f32⟩) main_call63_v1) (TRef.of (T := ⟨S50000, .f32⟩) main_v802) select,
    nullary main_cst_249 (constant S_ .f32 0xBF000000#32),
    unary main_cst_249 main_v803 (broadcastInDim S50000 ![] bcast_S_S50000 : (⟨S_, .f32⟩ : BufTy).Contents (Elt F) → (⟨S50000, .f32⟩ : BufTy).Contents (Elt F)),
    binary main_v802 main_v803 main_v804 (Host.powf : (⟨S50000, .f32⟩ : BufTy).Contents (Elt F) → (⟨S50000, .f32⟩ : BufTy).Contents (Elt F) → (⟨S50000, .f32⟩ : BufTy).Contents (Elt F)),
    nullary main_cst_250 (constant S_ .f32 0x00000000#32),
    unary main_cst_250 main_v805 (broadcastInDim S50000 ![] bcast_S_S50000 : (⟨S_, .f32⟩ : BufTy).Contents (Elt F) → (⟨S50000, .f32⟩ : BufTy).Contents (Elt F)),
    binary main_v796 main_v805 main_v806 (cmpf (F := F) .ogt : (⟨S50000, .f32⟩ : BufTy).Contents (Elt F) → (⟨S50000, .f32⟩ : BufTy).Contents (Elt F) → (⟨S50000, .i1⟩ : BufTy).Contents (Elt F)),
    nullary main_cst_251 (constant S_ .f32 0x00000000#32),
    TRef.unary (TRef.of (T := ⟨S_, .f32⟩) main_cst_251) (TRef.of (T := ⟨S_, .f32⟩) main_call64_v0) id,
    TRef.unary (TRef.of (T := ⟨S_, .f32⟩) main_call64_v0) (TRef.of (T := ⟨S50000, .f32⟩) main_call64_v1) (broadcastInDim S50000 ![] bcast_S_S50000),
    TRef.ternary (TRef.of (T := ⟨S50000, .i1⟩) main_v806) (TRef.of (T := ⟨S50000, .f32⟩) main_v804) (TRef.of (T := ⟨S50000, .f32⟩) main_call64_v1) (TRef.of (T := ⟨S50000, .f32⟩) main_v807) select,
    nullary main_cst_252 (constant S_ .f32 0x00000000#32),
    unary main_cst_252 main_v808 (broadcastInDim S50000 ![] bcast_S_S50000 : (⟨S_, .f32⟩ : BufTy).Contents (Elt F) → (⟨S50000, .f32⟩ : BufTy).Contents (Elt F)),
    binary main_v799 main_v808 main_v809 (cmpf (F := F) .ogt : (⟨S50000, .f32⟩ : BufTy).Contents (Elt F) → (⟨S50000, .f32⟩ : BufTy).Contents (Elt F) → (⟨S50000, .i1⟩ : BufTy).Contents (Elt F)),
    nullary main_cst_253 (constant S_ .f32 0x3F800000#32),
    TRef.unary (TRef.of (T := ⟨S_, .f32⟩) main_cst_253) (TRef.of (T := ⟨S_, .f32⟩) main_call65_v0) id,
    TRef.unary (TRef.of (T := ⟨S_, .f32⟩) main_call65_v0) (TRef.of (T := ⟨S50000, .f32⟩) main_call65_v1) (broadcastInDim S50000 ![] bcast_S_S50000),
    TRef.ternary (TRef.of (T := ⟨S50000, .i1⟩) main_v809) (TRef.of (T := ⟨S50000, .f32⟩) main_v799) (TRef.of (T := ⟨S50000, .f32⟩) main_call65_v1) (TRef.of (T := ⟨S50000, .f32⟩) main_v810) select,
    nullary main_cst_254 (constant S_ .f32 0xBF000000#32),
    unary main_cst_254 main_v811 (broadcastInDim S50000 ![] bcast_S_S50000 : (⟨S_, .f32⟩ : BufTy).Contents (Elt F) → (⟨S50000, .f32⟩ : BufTy).Contents (Elt F)),
    binary main_v810 main_v811 main_v812 (Host.powf : (⟨S50000, .f32⟩ : BufTy).Contents (Elt F) → (⟨S50000, .f32⟩ : BufTy).Contents (Elt F) → (⟨S50000, .f32⟩ : BufTy).Contents (Elt F)),
    nullary main_cst_255 (constant S_ .f32 0x00000000#32),
    unary main_cst_255 main_v813 (broadcastInDim S50000 ![] bcast_S_S50000 : (⟨S_, .f32⟩ : BufTy).Contents (Elt F) → (⟨S50000, .f32⟩ : BufTy).Contents (Elt F)),
    binary main_v799 main_v813 main_v814 (cmpf (F := F) .ogt : (⟨S50000, .f32⟩ : BufTy).Contents (Elt F) → (⟨S50000, .f32⟩ : BufTy).Contents (Elt F) → (⟨S50000, .i1⟩ : BufTy).Contents (Elt F)),
    nullary main_cst_256 (constant S_ .f32 0x00000000#32),
    TRef.unary (TRef.of (T := ⟨S_, .f32⟩) main_cst_256) (TRef.of (T := ⟨S_, .f32⟩) main_call66_v0) id,
    TRef.unary (TRef.of (T := ⟨S_, .f32⟩) main_call66_v0) (TRef.of (T := ⟨S50000, .f32⟩) main_call66_v1) (broadcastInDim S50000 ![] bcast_S_S50000),
    TRef.ternary (TRef.of (T := ⟨S50000, .i1⟩) main_v814) (TRef.of (T := ⟨S50000, .f32⟩) main_v812) (TRef.of (T := ⟨S50000, .f32⟩) main_call66_v1) (TRef.of (T := ⟨S50000, .f32⟩) main_v815) select,
    unary main_v807 main_v816 (broadcastInDim S50000x1 ![0] bcast_S50000_S50000x1_0 : (⟨S50000, .f32⟩ : BufTy).Contents (Elt F) → (⟨S50000x1, .f32⟩ : BufTy).Contents (Elt F)),
    unary main_v816 main_v817 (broadcastInDim S50000x128 ![0, 1] bcast_S50000x1_S50000x128_0_1 : (⟨S50000x1, .f32⟩ : BufTy).Contents (Elt F) → (⟨S50000x128, .f32⟩ : BufTy).Contents (Elt F)),
    binary main_v471 main_v817 main_v818 (mulf : (⟨S50000x128, .f32⟩ : BufTy).Contents (Elt F) → (⟨S50000x128, .f32⟩ : BufTy).Contents (Elt F) → (⟨S50000x128, .f32⟩ : BufTy).Contents (Elt F)),
    unary main_arg5 main_v819 ((extractStridedSlice S1x128x128 ![6, 0, 0] · slices_S9x128x128_S1x128x128_6_0_0) : (⟨S9x128x128, .f32⟩ : BufTy).Contents (Elt F) → (⟨S1x128x128, .f32⟩ : BufTy).Contents (Elt F)),
    reshape main_v819 main_v820 rfl shapeCasts_S1x128x128_S128x128 ]

set_option maxRecDepth 8192 in
set_option maxHeartbeats 4000000 in
/-- The window is its operations run in order. -/
theorem main_part17_eq (c : Dev nD) : main_part17 (F := F) c = seq ops_part17 := rfl

set_option maxRecDepth 8192 in
/-- Every operation touches TensorCore buffers only. -/
theorem ops_part17_sub : (ops_part17 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub ..⟩

set_option maxRecDepth 8192 in
/-- Every operation determines the contents of what it writes. -/
theorem ops_part17_fresh : ∀ op ∈ (ops_part17 : List (HloOp τ sig (Elt F))), op.fresh = ∅ :=
  List.forall_iff_forall_mem.mp (show (ops_part17 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part17_W : List (Ref sig .tc) := [main_v775, main_v776, main_cst_243, main_v777, main_v778, main_v779, main_v780, main_v781, main_v782, main_v783, main_v784, main_v785, main_v786, main_v787, main_v788, main_v789, main_v790, main_v791, main_v792, main_cst_244, main_v793, main_cst_245, main_v794, main_v795, main_v796, main_cst_246, main_v797, main_v798, main_v799, main_cst_247, main_v800, main_v801, main_cst_248, main_call63_v0, main_call63_v1, main_v802, main_cst_249, main_v803, main_v804, main_cst_250, main_v805, main_v806, main_cst_251, main_call64_v0, main_call64_v1, main_v807, main_cst_252, main_v808, main_v809, main_cst_253, main_call65_v0, main_call65_v1, main_v810, main_cst_254, main_v811, main_v812, main_cst_255, main_v813, main_v814, main_cst_256, main_call66_v0, main_call66_v1, main_v815, main_v816, main_v817, main_v818, main_v819, main_v820]

set_option maxRecDepth 8192 in
/-- Each operation writes one of them. -/
theorem ops_part17_writes : (ops_part17 : List (HloOp τ sig (Elt F))).Forall fun op =>
    op.writes ⊆ (ops_part17_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val17.lean ====
/- The step across window 17 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops17

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step17 {W : Valuation τ sig (Elt F)} {x0 x1 x2 x3 x4 x5 x6 x7 x8 x9 : _}
    (h : Live17 W x0 x1 x2 x3 x4 x5 x6 x7 x8 x9) : Live18 (after ops_part17 W) x0 x1 x2 x3 x4 x5 x6 x7 x8 x9 where
  h_main_arg0 := (after_of_writes_sub ops_part17 W ops_part17_writes (by decide)).trans h.h_main_arg0
  h_main_arg1 := (after_of_writes_sub ops_part17 W ops_part17_writes (by decide)).trans h.h_main_arg1
  h_main_arg2 := (after_of_writes_sub ops_part17 W ops_part17_writes (by decide)).trans h.h_main_arg2
  h_main_arg3 := (after_of_writes_sub ops_part17 W ops_part17_writes (by decide)).trans h.h_main_arg3
  h_main_arg4 := (after_of_writes_sub ops_part17 W ops_part17_writes (by decide)).trans h.h_main_arg4
  h_main_arg5 := (after_of_writes_sub ops_part17 W ops_part17_writes (by decide)).trans h.h_main_arg5
  h_main_arg6 := (after_of_writes_sub ops_part17 W ops_part17_writes (by decide)).trans h.h_main_arg6
  h_main_arg7 := (after_of_writes_sub ops_part17 W ops_part17_writes (by decide)).trans h.h_main_arg7
  h_main_arg8 := (after_of_writes_sub ops_part17 W ops_part17_writes (by decide)).trans h.h_main_arg8
  h_main_arg9 := (after_of_writes_sub ops_part17 W ops_part17_writes (by decide)).trans h.h_main_arg9
  h_main_v472 := (after_of_writes_sub ops_part17 W ops_part17_writes (by decide)).trans h.h_main_v472
  h_main_v473 := (after_of_writes_sub ops_part17 W ops_part17_writes (by decide)).trans h.h_main_v473
  h_main_v580 := (after_of_writes_sub ops_part17 W ops_part17_writes (by decide)).trans h.h_main_v580
  h_main_v736 := (after_of_writes_sub ops_part17 W ops_part17_writes (by decide)).trans h.h_main_v736
  h_main_v788 := by
    simp only [ops_part17]
    after_results_simp
    all_goals (try simp only [h.h_main_arg6, h.h_main_v763, h.h_main_v774, h.h_main_v769, h.h_main_v740, h.h_main_v684])
    all_goals (try simp only [TRef.ofBuf, TRef.toBuf, cast_eq])
    all_goals rfl
  h_main_v790 := by
    simp only [ops_part17]
    after_results_simp
    all_goals (try simp only [h.h_main_arg9])
    all_goals (try simp only [TRef.ofBuf, TRef.toBuf, cast_eq])
    all_goals rfl
  h_main_v792 := by
    simp only [ops_part17]
    after_results_simp
    all_goals (try simp only [h.h_main_arg9])
    all_goals (try simp only [TRef.ofBuf, TRef.toBuf, cast_eq])
    all_goals rfl
  h_main_v815 := by
    simp only [ops_part17]
    after_results_simp
    all_goals (try simp only [h.h_main_arg9])
    all_goals (try simp only [TRef.ofBuf, TRef.toBuf, cast_eq])
    all_goals rfl
  h_main_v818 := by
    simp only [ops_part17]
    after_results_simp
    all_goals (try simp only [h.h_main_arg9, h.h_main_v471])
    all_goals (try simp only [TRef.ofBuf, TRef.toBuf, cast_eq])
    all_goals rfl
  h_main_v820 := by
    simp only [ops_part17]
    after_results_simp
    all_goals (try simp only [h.h_main_arg5])
    all_goals (try simp only [TRef.ofBuf, TRef.toBuf, cast_eq])
    all_goals rfl

end Cert.ReferenceIdeal.RefRun

end
-- ==== Proof.Ref.Ops18.lean ====
/- Operations 1215 … 1280 of the 1414 operations of the reference program's @main: its printed window
   main_part18 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1215 … 1280, in order. -/
abbrev ops_part18 : List (HloOp τ sig (Elt F)) :=
  [ binary main_v818 main_v820 main_v821 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_257 (constantI S_ 32 0#32),
    unary main_c_257 main_v822 (broadcastInDim S400000 ![] bcast_S_S400000 : (⟨S_, .i32⟩ : BufTy).Contents (Elt F) → (⟨S400000, .i32⟩ : BufTy).Contents (Elt F)),
    binary main_v790 main_v822 main_v823 (cmpi .slt : (⟨S400000, .i32⟩ : BufTy).Contents (Elt F) → (⟨S400000, .i32⟩ : BufTy).Contents (Elt F) → (⟨S400000, .i1⟩ : BufTy).Contents (Elt F)),
    nullary main_c_258 (constantI S_ 32 50000#32),
    unary main_c_258 main_v824 (broadcastInDim S400000 ![] bcast_S_S400000 : (⟨S_, .i32⟩ : BufTy).Contents (Elt F) → (⟨S400000, .i32⟩ : BufTy).Contents (Elt F)),
    binary main_v790 main_v824 main_v825 (addi : (⟨S400000, .i32⟩ : BufTy).Contents (Elt F) → (⟨S400000, .i32⟩ : BufTy).Contents (Elt F) → (⟨S400000, .i32⟩ : BufTy).Contents (Elt F)),
    ternary main_v823 main_v825 main_v790 main_v826 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v826 main_v827 (broadcastInDim S400000x1 ![0] bcast_S400000_S400000x1_0 : (⟨S400000, .i32⟩ : BufTy).Contents (Elt F) → (⟨S400000x1, .i32⟩ : BufTy).Contents (Elt F)),
    binary main_v821 main_v827 main_v828 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_259 (constant S_ .f32 0x00000000#32),
    unary main_cst_259 main_v829 (broadcastInDim S50000x128 ![] bcast_S_S50000x128 : (⟨S_, .f32⟩ : BufTy).Contents (Elt F) → (⟨S50000x128, .f32⟩ : BufTy).Contents (Elt F)),
    unary main_v792 main_v830 (broadcastInDim S400000x1 ![0] bcast_S400000_S400000x1_0 : (⟨S400000, .i32⟩ : BufTy).Contents (Elt F) → (⟨S400000x1, .i32⟩ : BufTy).Contents (Elt F)),
    ternary main_v829 main_v830 main_v828 main_v831 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v815 main_v832 (broadcastInDim S50000x1 ![0] bcast_S50000_S50000x1_0 : (⟨S50000, .f32⟩ : BufTy).Contents (Elt F) → (⟨S50000x1, .f32⟩ : BufTy).Contents (Elt F)),
    unary main_v832 main_v833 (broadcastInDim S50000x128 ![0, 1] bcast_S50000x1_S50000x128_0_1 : (⟨S50000x1, .f32⟩ : BufTy).Contents (Elt F) → (⟨S50000x128, .f32⟩ : BufTy).Contents (Elt F)),
    binary main_v831 main_v833 main_v834 (mulf : (⟨S50000x128, .f32⟩ : BufTy).Contents (Elt F) → (⟨S50000x128, .f32⟩ : BufTy).Contents (Elt F) → (⟨S50000x128, .f32⟩ : BufTy).Contents (Elt F)),
    binary main_v788 main_v834 main_v835 (addf : (⟨S50000x128, .f32⟩ : BufTy).Contents (Elt F) → (⟨S50000x128, .f32⟩ : BufTy).Contents (Elt F) → (⟨S50000x128, .f32⟩ : BufTy).Contents (Elt F)),
    unary main_arg6 main_v836 ((extractStridedSlice S1x128 ![6, 0] · slices_S9x128_S1x128_6_0) : (⟨S9x128, .f32⟩ : BufTy).Contents (Elt F) → (⟨S1x128, .f32⟩ : BufTy).Contents (Elt F)),
    reshape main_v836 main_v837 rfl shapeCasts_S1x128_S128,
    unary main_v837 main_v838 (broadcastInDim S1x128 ![1] bcast_S128_S1x128_1 : (⟨S128, .f32⟩ : BufTy).Contents (Elt F) → (⟨S1x128, .f32⟩ : BufTy).Contents (Elt F)),
    unary main_v838 main_v839 (broadcastInDim S50000x128 ![0, 1] bcast_S1x128_S50000x128_0_1 : (⟨S1x128, .f32⟩ : BufTy).Contents (Elt F) → (⟨S50000x128, .f32⟩ : BufTy).Contents (Elt F)),
    binary main_v835 main_v839 main_v840 (addf : (⟨S50000x128, .f32⟩ : BufTy).Contents (Elt F) → (⟨S50000x128, .f32⟩ : BufTy).Contents (Elt F) → (⟨S50000x128, .f32⟩ : BufTy).Contents (Elt F)),
    unary main_arg9 main_v841 ((extractStridedSlice S1x1x400000 ![7, 0, 0] · slices_S9x2x400000_S1x1x400000_7_0_0) : (⟨S9x2x400000, .i32⟩ : BufTy).Contents (Elt F) → (⟨S1x1x400000, .i32⟩ : BufTy).Contents (Elt F)),
    reshape main_v841 main_v842 rfl shapeCasts_S1x1x400000_S400000,
    unary main_arg9 main_v843 ((extractStridedSlice S1x1x400000 ![7, 1, 0] · slices_S9x2x400000_S1x1x400000_7_1_0) : (⟨S9x2x400000, .i32⟩ : BufTy).Contents (Elt F) → (⟨S1x1x400000, .i32⟩ : BufTy).Contents (Elt F)),
    reshape main_v843 main_v844 rfl shapeCasts_S1x1x400000_S400000,
    nullary main_cst_260 (constant S_ .f32 0x3F800000#32),
    unary main_cst_260 main_v845 (broadcastInDim S400000 ![] bcast_S_S400000 : (⟨S_, .f32⟩ : BufTy).Contents (Elt F) → (⟨S400000, .f32⟩ : BufTy).Contents (Elt F)),
    nullary main_cst_261 (constant S_ .f32 0x00000000#32),
    unary main_cst_261 main_v846 (broadcastInDim S50000 ![] bcast_S_S50000 : (⟨S_, .f32⟩ : BufTy).Contents (Elt F) → (⟨S50000, .f32⟩ : BufTy).Contents (Elt F)),
    unary main_v842 main_v847 (broadcastInDim S400000x1 ![0] bcast_S400000_S400000x1_0 : (⟨S400000, .i32⟩ : BufTy).Contents (Elt F) → (⟨S400000x1, .i32⟩ : BufTy).Contents (Elt F)),
    ternary main_v846 main_v847 main_v845 main_v848 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_262 (constant S_ .f32 0x00000000#32),
    unary main_cst_262 main_v849 (broadcastInDim S50000 ![] bcast_S_S50000 : (⟨S_, .f32⟩ : BufTy).Contents (Elt F) → (⟨S50000, .f32⟩ : BufTy).Contents (Elt F)),
    unary main_v844 main_v850 (broadcastInDim S400000x1 ![0] bcast_S400000_S400000x1_0 : (⟨S400000, .i32⟩ : BufTy).Contents (Elt F) → (⟨S400000x1, .i32⟩ : BufTy).Contents (Elt F)),
    ternary main_v849 main_v850 main_v845 main_v851 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_263 (constant S_ .f32 0x00000000#32),
    unary main_cst_263 main_v852 (broadcastInDim S50000 ![] bcast_S_S50000 : (⟨S_, .f32⟩ : BufTy).Contents (Elt F) → (⟨S50000, .f32⟩ : BufTy).Contents (Elt F)),
    binary main_v848 main_v852 main_v853 (cmpf (F := F) .ogt : (⟨S50000, .f32⟩ : BufTy).Contents (Elt F) → (⟨S50000, .f32⟩ : BufTy).Contents (Elt F) → (⟨S50000, .i1⟩ : BufTy).Contents (Elt F)),
    nullary main_cst_264 (constant S_ .f32 0x3F800000#32),
    TRef.unary (TRef.of (T := ⟨S_, .f32⟩) main_cst_264) (TRef.of (T := ⟨S_, .f32⟩) main_call67_v0) id,
    TRef.unary (TRef.of (T := ⟨S_, .f32⟩) main_call67_v0) (TRef.of (T := ⟨S50000, .f32⟩) main_call67_v1) (broadcastInDim S50000 ![] bcast_S_S50000),
    TRef.ternary (TRef.of (T := ⟨S50000, .i1⟩) main_v853) (TRef.of (T := ⟨S50000, .f32⟩) main_v848) (TRef.of (T := ⟨S50000, .f32⟩) main_call67_v1) (TRef.of (T := ⟨S50000, .f32⟩) main_v854) select,
    nullary main_cst_265 (constant S_ .f32 0xBF000000#32),
    unary main_cst_265 main_v855 (broadcastInDim S50000 ![] bcast_S_S50000 : (⟨S_, .f32⟩ : BufTy).Contents (Elt F) → (⟨S50000, .f32⟩ : BufTy).Contents (Elt F)),
    binary main_v854 main_v855 main_v856 (Host.powf : (⟨S50000, .f32⟩ : BufTy).Contents (Elt F) → (⟨S50000, .f32⟩ : BufTy).Contents (Elt F) → (⟨S50000, .f32⟩ : BufTy).Contents (Elt F)),
    nullary main_cst_266 (constant S_ .f32 0x00000000#32),
    unary main_cst_266 main_v857 (broadcastInDim S50000 ![] bcast_S_S50000 : (⟨S_, .f32⟩ : BufTy).Contents (Elt F) → (⟨S50000, .f32⟩ : BufTy).Contents (Elt F)),
    binary main_v848 main_v857 main_v858 (cmpf (F := F) .ogt : (⟨S50000, .f32⟩ : BufTy).Contents (Elt F) → (⟨S50000, .f32⟩ : BufTy).Contents (Elt F) → (⟨S50000, .i1⟩ : BufTy).Contents (Elt F)),
    nullary main_cst_267 (constant S_ .f32 0x00000000#32),
    TRef.unary (TRef.of (T := ⟨S_, .f32⟩) main_cst_267) (TRef.of (T := ⟨S_, .f32⟩) main_call68_v0) id,
    TRef.unary (TRef.of (T := ⟨S_, .f32⟩) main_call68_v0) (TRef.of (T := ⟨S50000, .f32⟩) main_call68_v1) (broadcastInDim S50000 ![] bcast_S_S50000),
    TRef.ternary (TRef.of (T := ⟨S50000, .i1⟩) main_v858) (TRef.of (T := ⟨S50000, .f32⟩) main_v856) (TRef.of (T := ⟨S50000, .f32⟩) main_call68_v1) (TRef.of (T := ⟨S50000, .f32⟩) main_v859) select,
    nullary main_cst_268 (constant S_ .f32 0x00000000#32),
    unary main_cst_268 main_v860 (broadcastInDim S50000 ![] bcast_S_S50000 : (⟨S_, .f32⟩ : BufTy).Contents (Elt F) → (⟨S50000, .f32⟩ : BufTy).Contents (Elt F)),
    binary main_v851 main_v860 main_v861 (cmpf (F := F) .ogt : (⟨S50000, .f32⟩ : BufTy).Contents (Elt F) → (⟨S50000, .f32⟩ : BufTy).Contents (Elt F) → (⟨S50000, .i1⟩ : BufTy).Contents (Elt F)),
    nullary main_cst_269 (constant S_ .f32 0x3F800000#32),
    TRef.unary (TRef.of (T := ⟨S_, .f32⟩) main_cst_269) (TRef.of (T := ⟨S_, .f32⟩) main_call69_v0) id,
    TRef.unary (TRef.of (T := ⟨S_, .f32⟩) main_call69_v0) (TRef.of (T := ⟨S50000, .f32⟩) main_call69_v1) (broadcastInDim S50000 ![] bcast_S_S50000),
    TRef.ternary (TRef.of (T := ⟨S50000, .i1⟩) main_v861) (TRef.of (T := ⟨S50000, .f32⟩) main_v851) (TRef.of (T := ⟨S50000, .f32⟩) main_call69_v1) (TRef.of (T := ⟨S50000, .f32⟩) main_v862) select,
    nullary main_cst_270 (constant S_ .f32 0xBF000000#32),
    unary main_cst_270 main_v863 (broadcastInDim S50000 ![] bcast_S_S50000 : (⟨S_, .f32⟩ : BufTy).Contents (Elt F) → (⟨S50000, .f32⟩ : BufTy).Contents (Elt F)),
    binary main_v862 main_v863 main_v864 (Host.powf : (⟨S50000, .f32⟩ : BufTy).Contents (Elt F) → (⟨S50000, .f32⟩ : BufTy).Contents (Elt F) → (⟨S50000, .f32⟩ : BufTy).Contents (Elt F)),
    nullary main_cst_271 (constant S_ .f32 0x00000000#32),
    unary main_cst_271 main_v865 (broadcastInDim S50000 ![] bcast_S_S50000 : (⟨S_, .f32⟩ : BufTy).Contents (Elt F) → (⟨S50000, .f32⟩ : BufTy).Contents (Elt F)) ]

set_option maxRecDepth 8192 in
set_option maxHeartbeats 4000000 in
/-- The window is its operations run in order. -/
theorem main_part18_eq (c : Dev nD) : main_part18 (F := F) c = seq ops_part18 := rfl

set_option maxRecDepth 8192 in
/-- Every operation touches TensorCore buffers only. -/
theorem ops_part18_sub : (ops_part18 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub ..⟩

set_option maxRecDepth 8192 in
/-- Every operation determines the contents of what it writes. -/
theorem ops_part18_fresh : ∀ op ∈ (ops_part18 : List (HloOp τ sig (Elt F))), op.fresh = ∅ :=
  List.forall_iff_forall_mem.mp (show (ops_part18 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part18_W : List (Ref sig .tc) := [main_v821, main_c_257, main_v822, main_v823, main_c_258, main_v824, main_v825, main_v826, main_v827, main_v828, main_cst_259, main_v829, main_v830, main_v831, main_v832, main_v833, main_v834, main_v835, main_v836, main_v837, main_v838, main_v839, main_v840, main_v841, main_v842, main_v843, main_v844, main_cst_260, main_v845, main_cst_261, main_v846, main_v847, main_v848, main_cst_262, main_v849, main_v850, main_v851, main_cst_263, main_v852, main_v853, main_cst_264, main_call67_v0, main_call67_v1, main_v854, main_cst_265, main_v855, main_v856, main_cst_266, main_v857, main_v858, main_cst_267, main_call68_v0, main_call68_v1, main_v859, main_cst_268, main_v860, main_v861, main_cst_269, main_call69_v0, main_call69_v1, main_v862, main_cst_270, main_v863, main_v864, main_cst_271, main_v865]

set_option maxRecDepth 8192 in
/-- Each operation writes one of them. -/
theorem ops_part18_writes : (ops_part18 : List (HloOp τ sig (Elt F))).Forall fun op =>
    op.writes ⊆ (ops_part18_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val18.lean ====
/- The step across window 18 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops18

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step18 {W : Valuation τ sig (Elt F)} {x0 x1 x2 x3 x4 x5 x6 x7 x8 x9 : _}
    (h : Live18 W x0 x1 x2 x3 x4 x5 x6 x7 x8 x9) : Live19 (after ops_part18 W) x0 x1 x2 x3 x4 x5 x6 x7 x8 x9 where
  h_main_arg0 := (after_of_writes_sub ops_part18 W ops_part18_writes (by decide)).trans h.h_main_arg0
  h_main_arg1 := (after_of_writes_sub ops_part18 W ops_part18_writes (by decide)).trans h.h_main_arg1
  h_main_arg2 := (after_of_writes_sub ops_part18 W ops_part18_writes (by decide)).trans h.h_main_arg2
  h_main_arg3 := (after_of_writes_sub ops_part18 W ops_part18_writes (by decide)).trans h.h_main_arg3
  h_main_arg4 := (after_of_writes_sub ops_part18 W ops_part18_writes (by decide)).trans h.h_main_arg4
  h_main_arg5 := (after_of_writes_sub ops_part18 W ops_part18_writes (by decide)).trans h.h_main_arg5
  h_main_arg6 := (after_of_writes_sub ops_part18 W ops_part18_writes (by decide)).trans h.h_main_arg6
  h_main_arg7 := (after_of_writes_sub ops_part18 W ops_part18_writes (by decide)).trans h.h_main_arg7
  h_main_arg8 := (after_of_writes_sub ops_part18 W ops_part18_writes (by decide)).trans h.h_main_arg8
  h_main_arg9 := (after_of_writes_sub ops_part18 W ops_part18_writes (by decide)).trans h.h_main_arg9
  h_main_v472 := (after_of_writes_sub ops_part18 W ops_part18_writes (by decide)).trans h.h_main_v472
  h_main_v473 := (after_of_writes_sub ops_part18 W ops_part18_writes (by decide)).trans h.h_main_v473
  h_main_v580 := (after_of_writes_sub ops_part18 W ops_part18_writes (by decide)).trans h.h_main_v580
  h_main_v736 := (after_of_writes_sub ops_part18 W ops_part18_writes (by decide)).trans h.h_main_v736
  h_main_v840 := by
    simp only [ops_part18]
    after_results_simp
    all_goals (try simp only [h.h_main_arg6, h.h_main_v815, h.h_main_v790, h.h_main_v820, h.h_main_v818, h.h_main_v792, h.h_main_v788])
    all_goals (try simp only [TRef.ofBuf, TRef.toBuf, cast_eq])
    all_goals rfl
  h_main_v842 := by
    simp only [ops_part18]
    after_results_simp
    all_goals (try simp only [h.h_main_arg9])
    all_goals (try simp only [TRef.ofBuf, TRef.toBuf, cast_eq])
    all_goals rfl
  h_main_v844 := by
    simp only [ops_part18]
    after_results_simp
    all_goals (try simp only [h.h_main_arg9])
    all_goals (try simp only [TRef.ofBuf, TRef.toBuf, cast_eq])
    all_goals rfl
  h_main_v851 := by
    simp only [ops_part18]
    after_results_simp
    all_goals (try simp only [h.h_main_arg9])
    all_goals (try simp only [TRef.ofBuf, TRef.toBuf, cast_eq])
    all_goals rfl
  h_main_v859 := by
    simp only [ops_part18]
    after_results_simp
    all_goals (try simp only [h.h_main_arg9])
    all_goals (try simp only [TRef.ofBuf, TRef.toBuf, cast_eq])
    all_goals rfl
  h_main_v864 := by
    simp only [ops_part18]
    after_results_simp
    all_goals (try simp only [h.h_main_arg9])
    all_goals (try simp only [TRef.ofBuf, TRef.toBuf, cast_eq])
    all_goals rfl
  h_main_v865 := by
    simp only [ops_part18]
    after_results_simp
    skip
    all_goals (try simp only [TRef.ofBuf, TRef.toBuf, cast_eq])
    all_goals rfl

end Cert.ReferenceIdeal.RefRun

end
-- ==== Proof.Ref.Ops19.lean ====
/- Operations 1281 … 1346 of the 1414 operations of the reference program's @main: its printed window
   main_part19 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1281 … 1346, in order. -/
abbrev ops_part19 : List (HloOp τ sig (Elt F)) :=
  [ binary main_v851 main_v865 main_v866 (cmpf (F := F) .ogt : (⟨S50000, .f32⟩ : BufTy).Contents (Elt F) → (⟨S50000, .f32⟩ : BufTy).Contents (Elt F) → (⟨S50000, .i1⟩ : BufTy).Contents (Elt F)),
    nullary main_cst_272 (constant S_ .f32 0x00000000#32),
    TRef.unary (TRef.of (T := ⟨S_, .f32⟩) main_cst_272) (TRef.of (T := ⟨S_, .f32⟩) main_call70_v0) id,
    TRef.unary (TRef.of (T := ⟨S_, .f32⟩) main_call70_v0) (TRef.of (T := ⟨S50000, .f32⟩) main_call70_v1) (broadcastInDim S50000 ![] bcast_S_S50000),
    TRef.ternary (TRef.of (T := ⟨S50000, .i1⟩) main_v866) (TRef.of (T := ⟨S50000, .f32⟩) main_v864) (TRef.of (T := ⟨S50000, .f32⟩) main_call70_v1) (TRef.of (T := ⟨S50000, .f32⟩) main_v867) select,
    unary main_v859 main_v868 (broadcastInDim S50000x1 ![0] bcast_S50000_S50000x1_0 : (⟨S50000, .f32⟩ : BufTy).Contents (Elt F) → (⟨S50000x1, .f32⟩ : BufTy).Contents (Elt F)),
    unary main_v868 main_v869 (broadcastInDim S50000x128 ![0, 1] bcast_S50000x1_S50000x128_0_1 : (⟨S50000x1, .f32⟩ : BufTy).Contents (Elt F) → (⟨S50000x128, .f32⟩ : BufTy).Contents (Elt F)),
    binary main_v473 main_v869 main_v870 (mulf : (⟨S50000x128, .f32⟩ : BufTy).Contents (Elt F) → (⟨S50000x128, .f32⟩ : BufTy).Contents (Elt F) → (⟨S50000x128, .f32⟩ : BufTy).Contents (Elt F)),
    unary main_arg5 main_v871 ((extractStridedSlice S1x128x128 ![7, 0, 0] · slices_S9x128x128_S1x128x128_7_0_0) : (⟨S9x128x128, .f32⟩ : BufTy).Contents (Elt F) → (⟨S1x128x128, .f32⟩ : BufTy).Contents (Elt F)),
    reshape main_v871 main_v872 rfl shapeCasts_S1x128x128_S128x128,
    binary main_v870 main_v872 main_v873 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_273 (constantI S_ 32 0#32),
    unary main_c_273 main_v874 (broadcastInDim S400000 ![] bcast_S_S400000 : (⟨S_, .i32⟩ : BufTy).Contents (Elt F) → (⟨S400000, .i32⟩ : BufTy).Contents (Elt F)),
    binary main_v842 main_v874 main_v875 (cmpi .slt : (⟨S400000, .i32⟩ : BufTy).Contents (Elt F) → (⟨S400000, .i32⟩ : BufTy).Contents (Elt F) → (⟨S400000, .i1⟩ : BufTy).Contents (Elt F)),
    nullary main_c_274 (constantI S_ 32 50000#32),
    unary main_c_274 main_v876 (broadcastInDim S400000 ![] bcast_S_S400000 : (⟨S_, .i32⟩ : BufTy).Contents (Elt F) → (⟨S400000, .i32⟩ : BufTy).Contents (Elt F)),
    binary main_v842 main_v876 main_v877 (addi : (⟨S400000, .i32⟩ : BufTy).Contents (Elt F) → (⟨S400000, .i32⟩ : BufTy).Contents (Elt F) → (⟨S400000, .i32⟩ : BufTy).Contents (Elt F)),
    ternary main_v875 main_v877 main_v842 main_v878 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v878 main_v879 (broadcastInDim S400000x1 ![0] bcast_S400000_S400000x1_0 : (⟨S400000, .i32⟩ : BufTy).Contents (Elt F) → (⟨S400000x1, .i32⟩ : BufTy).Contents (Elt F)),
    binary main_v873 main_v879 main_v880 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_275 (constant S_ .f32 0x00000000#32),
    unary main_cst_275 main_v881 (broadcastInDim S50000x128 ![] bcast_S_S50000x128 : (⟨S_, .f32⟩ : BufTy).Contents (Elt F) → (⟨S50000x128, .f32⟩ : BufTy).Contents (Elt F)),
    unary main_v844 main_v882 (broadcastInDim S400000x1 ![0] bcast_S400000_S400000x1_0 : (⟨S400000, .i32⟩ : BufTy).Contents (Elt F) → (⟨S400000x1, .i32⟩ : BufTy).Contents (Elt F)),
    ternary main_v881 main_v882 main_v880 main_v883 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v867 main_v884 (broadcastInDim S50000x1 ![0] bcast_S50000_S50000x1_0 : (⟨S50000, .f32⟩ : BufTy).Contents (Elt F) → (⟨S50000x1, .f32⟩ : BufTy).Contents (Elt F)),
    unary main_v884 main_v885 (broadcastInDim S50000x128 ![0, 1] bcast_S50000x1_S50000x128_0_1 : (⟨S50000x1, .f32⟩ : BufTy).Contents (Elt F) → (⟨S50000x128, .f32⟩ : BufTy).Contents (Elt F)),
    binary main_v883 main_v885 main_v886 (mulf : (⟨S50000x128, .f32⟩ : BufTy).Contents (Elt F) → (⟨S50000x128, .f32⟩ : BufTy).Contents (Elt F) → (⟨S50000x128, .f32⟩ : BufTy).Contents (Elt F)),
    binary main_v580 main_v886 main_v887 (addf : (⟨S50000x128, .f32⟩ : BufTy).Contents (Elt F) → (⟨S50000x128, .f32⟩ : BufTy).Contents (Elt F) → (⟨S50000x128, .f32⟩ : BufTy).Contents (Elt F)),
    unary main_arg6 main_v888 ((extractStridedSlice S1x128 ![7, 0] · slices_S9x128_S1x128_7_0) : (⟨S9x128, .f32⟩ : BufTy).Contents (Elt F) → (⟨S1x128, .f32⟩ : BufTy).Contents (Elt F)),
    reshape main_v888 main_v889 rfl shapeCasts_S1x128_S128,
    unary main_v889 main_v890 (broadcastInDim S1x128 ![1] bcast_S128_S1x128_1 : (⟨S128, .f32⟩ : BufTy).Contents (Elt F) → (⟨S1x128, .f32⟩ : BufTy).Contents (Elt F)),
    unary main_v890 main_v891 (broadcastInDim S50000x128 ![0, 1] bcast_S1x128_S50000x128_0_1 : (⟨S1x128, .f32⟩ : BufTy).Contents (Elt F) → (⟨S50000x128, .f32⟩ : BufTy).Contents (Elt F)),
    binary main_v887 main_v891 main_v892 (addf : (⟨S50000x128, .f32⟩ : BufTy).Contents (Elt F) → (⟨S50000x128, .f32⟩ : BufTy).Contents (Elt F) → (⟨S50000x128, .f32⟩ : BufTy).Contents (Elt F)),
    unary main_arg9 main_v893 ((extractStridedSlice S1x1x400000 ![8, 0, 0] · slices_S9x2x400000_S1x1x400000_8_0_0) : (⟨S9x2x400000, .i32⟩ : BufTy).Contents (Elt F) → (⟨S1x1x400000, .i32⟩ : BufTy).Contents (Elt F)),
    reshape main_v893 main_v894 rfl shapeCasts_S1x1x400000_S400000,
    unary main_arg9 main_v895 ((extractStridedSlice S1x1x400000 ![8, 1, 0] · slices_S9x2x400000_S1x1x400000_8_1_0) : (⟨S9x2x400000, .i32⟩ : BufTy).Contents (Elt F) → (⟨S1x1x400000, .i32⟩ : BufTy).Contents (Elt F)),
    reshape main_v895 main_v896 rfl shapeCasts_S1x1x400000_S400000,
    nullary main_cst_276 (constant S_ .f32 0x3F800000#32),
    unary main_cst_276 main_v897 (broadcastInDim S400000 ![] bcast_S_S400000 : (⟨S_, .f32⟩ : BufTy).Contents (Elt F) → (⟨S400000, .f32⟩ : BufTy).Contents (Elt F)),
    nullary main_cst_277 (constant S_ .f32 0x00000000#32),
    unary main_cst_277 main_v898 (broadcastInDim S50000 ![] bcast_S_S50000 : (⟨S_, .f32⟩ : BufTy).Contents (Elt F) → (⟨S50000, .f32⟩ : BufTy).Contents (Elt F)),
    unary main_v894 main_v899 (broadcastInDim S400000x1 ![0] bcast_S400000_S400000x1_0 : (⟨S400000, .i32⟩ : BufTy).Contents (Elt F) → (⟨S400000x1, .i32⟩ : BufTy).Contents (Elt F)),
    ternary main_v898 main_v899 main_v897 main_v900 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_278 (constant S_ .f32 0x00000000#32),
    unary main_cst_278 main_v901 (broadcastInDim S50000 ![] bcast_S_S50000 : (⟨S_, .f32⟩ : BufTy).Contents (Elt F) → (⟨S50000, .f32⟩ : BufTy).Contents (Elt F)),
    unary main_v896 main_v902 (broadcastInDim S400000x1 ![0] bcast_S400000_S400000x1_0 : (⟨S400000, .i32⟩ : BufTy).Contents (Elt F) → (⟨S400000x1, .i32⟩ : BufTy).Contents (Elt F)),
    ternary main_v901 main_v902 main_v897 main_v903 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_279 (constant S_ .f32 0x00000000#32),
    unary main_cst_279 main_v904 (broadcastInDim S50000 ![] bcast_S_S50000 : (⟨S_, .f32⟩ : BufTy).Contents (Elt F) → (⟨S50000, .f32⟩ : BufTy).Contents (Elt F)),
    binary main_v900 main_v904 main_v905 (cmpf (F := F) .ogt : (⟨S50000, .f32⟩ : BufTy).Contents (Elt F) → (⟨S50000, .f32⟩ : BufTy).Contents (Elt F) → (⟨S50000, .i1⟩ : BufTy).Contents (Elt F)),
    nullary main_cst_280 (constant S_ .f32 0x3F800000#32),
    TRef.unary (TRef.of (T := ⟨S_, .f32⟩) main_cst_280) (TRef.of (T := ⟨S_, .f32⟩) main_call71_v0) id,
    TRef.unary (TRef.of (T := ⟨S_, .f32⟩) main_call71_v0) (TRef.of (T := ⟨S50000, .f32⟩) main_call71_v1) (broadcastInDim S50000 ![] bcast_S_S50000),
    TRef.ternary (TRef.of (T := ⟨S50000, .i1⟩) main_v905) (TRef.of (T := ⟨S50000, .f32⟩) main_v900) (TRef.of (T := ⟨S50000, .f32⟩) main_call71_v1) (TRef.of (T := ⟨S50000, .f32⟩) main_v906) select,
    nullary main_cst_281 (constant S_ .f32 0xBF000000#32),
    unary main_cst_281 main_v907 (broadcastInDim S50000 ![] bcast_S_S50000 : (⟨S_, .f32⟩ : BufTy).Contents (Elt F) → (⟨S50000, .f32⟩ : BufTy).Contents (Elt F)),
    binary main_v906 main_v907 main_v908 (Host.powf : (⟨S50000, .f32⟩ : BufTy).Contents (Elt F) → (⟨S50000, .f32⟩ : BufTy).Contents (Elt F) → (⟨S50000, .f32⟩ : BufTy).Contents (Elt F)),
    nullary main_cst_282 (constant S_ .f32 0x00000000#32),
    unary main_cst_282 main_v909 (broadcastInDim S50000 ![] bcast_S_S50000 : (⟨S_, .f32⟩ : BufTy).Contents (Elt F) → (⟨S50000, .f32⟩ : BufTy).Contents (Elt F)),
    binary main_v900 main_v909 main_v910 (cmpf (F := F) .ogt : (⟨S50000, .f32⟩ : BufTy).Contents (Elt F) → (⟨S50000, .f32⟩ : BufTy).Contents (Elt F) → (⟨S50000, .i1⟩ : BufTy).Contents (Elt F)),
    nullary main_cst_283 (constant S_ .f32 0x00000000#32),
    TRef.unary (TRef.of (T := ⟨S_, .f32⟩) main_cst_283) (TRef.of (T := ⟨S_, .f32⟩) main_call72_v0) id,
    TRef.unary (TRef.of (T := ⟨S_, .f32⟩) main_call72_v0) (TRef.of (T := ⟨S50000, .f32⟩) main_call72_v1) (broadcastInDim S50000 ![] bcast_S_S50000),
    TRef.ternary (TRef.of (T := ⟨S50000, .i1⟩) main_v910) (TRef.of (T := ⟨S50000, .f32⟩) main_v908) (TRef.of (T := ⟨S50000, .f32⟩) main_call72_v1) (TRef.of (T := ⟨S50000, .f32⟩) main_v911) select,
    nullary main_cst_284 (constant S_ .f32 0x00000000#32),
    unary main_cst_284 main_v912 (broadcastInDim S50000 ![] bcast_S_S50000 : (⟨S_, .f32⟩ : BufTy).Contents (Elt F) → (⟨S50000, .f32⟩ : BufTy).Contents (Elt F)) ]

set_option maxRecDepth 8192 in
set_option maxHeartbeats 4000000 in
/-- The window is its operations run in order. -/
theorem main_part19_eq (c : Dev nD) : main_part19 (F := F) c = seq ops_part19 := rfl

set_option maxRecDepth 8192 in
/-- Every operation touches TensorCore buffers only. -/
theorem ops_part19_sub : (ops_part19 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub ..⟩

set_option maxRecDepth 8192 in
/-- Every operation determines the contents of what it writes. -/
theorem ops_part19_fresh : ∀ op ∈ (ops_part19 : List (HloOp τ sig (Elt F))), op.fresh = ∅ :=
  List.forall_iff_forall_mem.mp (show (ops_part19 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part19_W : List (Ref sig .tc) := [main_v866, main_cst_272, main_call70_v0, main_call70_v1, main_v867, main_v868, main_v869, main_v870, main_v871, main_v872, main_v873, main_c_273, main_v874, main_v875, main_c_274, main_v876, main_v877, main_v878, main_v879, main_v880, main_cst_275, main_v881, main_v882, main_v883, main_v884, main_v885, main_v886, main_v887, main_v888, main_v889, main_v890, main_v891, main_v892, main_v893, main_v894, main_v895, main_v896, main_cst_276, main_v897, main_cst_277, main_v898, main_v899, main_v900, main_cst_278, main_v901, main_v902, main_v903, main_cst_279, main_v904, main_v905, main_cst_280, main_call71_v0, main_call71_v1, main_v906, main_cst_281, main_v907, main_v908, main_cst_282, main_v909, main_v910, main_cst_283, main_call72_v0, main_call72_v1, main_v911, main_cst_284, main_v912]

set_option maxRecDepth 8192 in
/-- Each operation writes one of them. -/
theorem ops_part19_writes : (ops_part19 : List (HloOp τ sig (Elt F))).Forall fun op =>
    op.writes ⊆ (ops_part19_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Val19.lean ====
/- The step across window 19 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops19

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step19 {W : Valuation τ sig (Elt F)} {x0 x1 x2 x3 x4 x5 x6 x7 x8 x9 : _}
    (h : Live19 W x0 x1 x2 x3 x4 x5 x6 x7 x8 x9) : Live20 (after ops_part19 W) x0 x1 x2 x3 x4 x5 x6 x7 x8 x9 where
  h_main_arg0 := (after_of_writes_sub ops_part19 W ops_part19_writes (by decide)).trans h.h_main_arg0
  h_main_arg1 := (after_of_writes_sub ops_part19 W ops_part19_writes (by decide)).trans h.h_main_arg1
  h_main_arg2 := (after_of_writes_sub ops_part19 W ops_part19_writes (by decide)).trans h.h_main_arg2
  h_main_arg3 := (after_of_writes_sub ops_part19 W ops_part19_writes (by decide)).trans h.h_main_arg3
  h_main_arg4 := (after_of_writes_sub ops_part19 W ops_part19_writes (by decide)).trans h.h_main_arg4
  h_main_arg5 := (after_of_writes_sub ops_part19 W ops_part19_writes (by decide)).trans h.h_main_arg5
  h_main_arg6 := (after_of_writes_sub ops_part19 W ops_part19_writes (by decide)).trans h.h_main_arg6
  h_main_arg7 := (after_of_writes_sub ops_part19 W ops_part19_writes (by decide)).trans h.h_main_arg7
  h_main_arg8 := (after_of_writes_sub ops_part19 W ops_part19_writes (by decide)).trans h.h_main_arg8
  h_main_arg9 := (after_of_writes_sub ops_part19 W ops_part19_writes (by decide)).trans h.h_main_arg9
  h_main_v472 := (after_of_writes_sub ops_part19 W ops_part19_writes (by decide)).trans h.h_main_v472
  h_main_v736 := (after_of_writes_sub ops_part19 W ops_part19_writes (by decide)).trans h.h_main_v736
  h_main_v840 := (after_of_writes_sub ops_part19 W ops_part19_writes (by decide)).trans h.h_main_v840
  h_main_v892 := by
    simp only [ops_part19]
    after_results_simp
    all_goals (try simp only [h.h_main_arg6, h.h_main_v864, h.h_main_v865, h.h_main_v851, h.h_main_v842, h.h_main_arg5, h.h_main_v859, h.h_main_v473, h.h_main_v844, h.h_main_v580])
    all_goals (try simp only [TRef.ofBuf, TRef.toBuf, cast_eq])
    all_goals rfl
  h_main_v894 := by
    simp only [ops_part19]
    after_results_simp
    all_goals (try simp only [h.h_main_arg9])
    all_goals (try simp only [TRef.ofBuf, TRef.toBuf, cast_eq])
    all_goals rfl
  h_main_v896 := by
    simp only [ops_part19]
    after_results_simp
    all_goals (try simp only [h.h_main_arg9])
    all_goals (try simp only [TRef.ofBuf, TRef.toBuf, cast_eq])
    all_goals rfl
  h_main_v903 := by
    simp only [ops_part19]
    after_results_simp
    all_goals (try simp only [h.h_main_arg9])
    all_goals (try simp only [TRef.ofBuf, TRef.toBuf, cast_eq])
    all_goals rfl
  h_main_v911 := by
    simp only [ops_part19]
    after_results_simp
    all_goals (try simp only [h.h_main_arg9])
    all_goals (try simp only [TRef.ofBuf, TRef.toBuf, cast_eq])
    all_goals rfl
  h_main_v912 := by
    simp only [ops_part19]
    after_results_simp
    skip
    all_goals (try simp only [TRef.ofBuf, TRef.toBuf, cast_eq])
    all_goals rfl

end Cert.ReferenceIdeal.RefRun

end
-- ==== Proof.Ref.Ops20.lean ====
/- Operations 1347 … 1414 of the 1414 operations of the reference program's @main: its printed window
   main_part20 as a list (a called function's operations in its call's place), the window as that list run in
   order, and of every operation of the list: it touches TensorCore buffers only, it determines what it writes,
   and it writes one buffer of a listed few. -/
import proofs.«151568_j90031104458821_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1347 … 1414, in order. -/
abbrev ops_part20 : List (HloOp τ sig (Elt F)) :=
  [ binary main_v903 main_v912 main_v913 (cmpf (F := F) .ogt : (⟨S50000, .f32⟩ : BufTy).Contents (Elt F) → (⟨S50000, .f32⟩ : BufTy).Contents (Elt F) → (⟨S50000, .i1⟩ : BufTy).Contents (Elt F)),
    nullary main_cst_285 (constant S_ .f32 0x3F800000#32),
    TRef.unary (TRef.of (T := ⟨S_, .f32⟩) main_cst_285) (TRef.of (T := ⟨S_, .f32⟩) main_call73_v0) id,
    TRef.unary (TRef.of (T := ⟨S_, .f32⟩) main_call73_v0) (TRef.of (T := ⟨S50000, .f32⟩) main_call73_v1) (broadcastInDim S50000 ![] bcast_S_S50000),
    TRef.ternary (TRef.of (T := ⟨S50000, .i1⟩) main_v913) (TRef.of (T := ⟨S50000, .f32⟩) main_v903) (TRef.of (T := ⟨S50000, .f32⟩) main_call73_v1) (TRef.of (T := ⟨S50000, .f32⟩) main_v914) select,
    nullary main_cst_286 (constant S_ .f32 0xBF000000#32),
    unary main_cst_286 main_v915 (broadcastInDim S50000 ![] bcast_S_S50000 : (⟨S_, .f32⟩ : BufTy).Contents (Elt F) → (⟨S50000, .f32⟩ : BufTy).Contents (Elt F)),
    binary main_v914 main_v915 main_v916 (Host.powf : (⟨S50000, .f32⟩ : BufTy).Contents (Elt F) → (⟨S50000, .f32⟩ : BufTy).Contents (Elt F) → (⟨S50000, .f32⟩ : BufTy).Contents (Elt F)),
    nullary main_cst_287 (constant S_ .f32 0x00000000#32),
    unary main_cst_287 main_v917 (broadcastInDim S50000 ![] bcast_S_S50000 : (⟨S_, .f32⟩ : BufTy).Contents (Elt F) → (⟨S50000, .f32⟩ : BufTy).Contents (Elt F)),
    binary main_v903 main_v917 main_v918 (cmpf (F := F) .ogt : (⟨S50000, .f32⟩ : BufTy).Contents (Elt F) → (⟨S50000, .f32⟩ : BufTy).Contents (Elt F) → (⟨S50000, .i1⟩ : BufTy).Contents (Elt F)),
    nullary main_cst_288 (constant S_ .f32 0x00000000#32),
    TRef.unary (TRef.of (T := ⟨S_, .f32⟩) main_cst_288) (TRef.of (T := ⟨S_, .f32⟩) main_call74_v0) id,
    TRef.unary (TRef.of (T := ⟨S_, .f32⟩) main_call74_v0) (TRef.of (T := ⟨S50000, .f32⟩) main_call74_v1) (broadcastInDim S50000 ![] bcast_S_S50000),
    TRef.ternary (TRef.of (T := ⟨S50000, .i1⟩) main_v918) (TRef.of (T := ⟨S50000, .f32⟩) main_v916) (TRef.of (T := ⟨S50000, .f32⟩) main_call74_v1) (TRef.of (T := ⟨S50000, .f32⟩) main_v919) select,
    unary main_v911 main_v920 (broadcastInDim S50000x1 ![0] bcast_S50000_S50000x1_0 : (⟨S50000, .f32⟩ : BufTy).Contents (Elt F) → (⟨S50000x1, .f32⟩ : BufTy).Contents (Elt F)),
    unary main_v920 main_v921 (broadcastInDim S50000x128 ![0, 1] bcast_S50000x1_S50000x128_0_1 : (⟨S50000x1, .f32⟩ : BufTy).Contents (Elt F) → (⟨S50000x128, .f32⟩ : BufTy).Contents (Elt F)),
    binary main_v472 main_v921 main_v922 (mulf : (⟨S50000x128, .f32⟩ : BufTy).Contents (Elt F) → (⟨S50000x128, .f32⟩ : BufTy).Contents (Elt F) → (⟨S50000x128, .f32⟩ : BufTy).Contents (Elt F)),
    unary main_arg5 main_v923 ((extractStridedSlice S1x128x128 ![8, 0, 0] · slices_S9x128x128_S1x128x128_8_0_0) : (⟨S9x128x128, .f32⟩ : BufTy).Contents (Elt F) → (⟨S1x128x128, .f32⟩ : BufTy).Contents (Elt F)),
    reshape main_v923 main_v924 rfl shapeCasts_S1x128x128_S128x128,
    binary main_v922 main_v924 main_v925 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_289 (constantI S_ 32 0#32),
    unary main_c_289 main_v926 (broadcastInDim S400000 ![] bcast_S_S400000 : (⟨S_, .i32⟩ : BufTy).Contents (Elt F) → (⟨S400000, .i32⟩ : BufTy).Contents (Elt F)),
    binary main_v894 main_v926 main_v927 (cmpi .slt : (⟨S400000, .i32⟩ : BufTy).Contents (Elt F) → (⟨S400000, .i32⟩ : BufTy).Contents (Elt F) → (⟨S400000, .i1⟩ : BufTy).Contents (Elt F)),
    nullary main_c_290 (constantI S_ 32 50000#32),
    unary main_c_290 main_v928 (broadcastInDim S400000 ![] bcast_S_S400000 : (⟨S_, .i32⟩ : BufTy).Contents (Elt F) → (⟨S400000, .i32⟩ : BufTy).Contents (Elt F)),
    binary main_v894 main_v928 main_v929 (addi : (⟨S400000, .i32⟩ : BufTy).Contents (Elt F) → (⟨S400000, .i32⟩ : BufTy).Contents (Elt F) → (⟨S400000, .i32⟩ : BufTy).Contents (Elt F)),
    ternary main_v927 main_v929 main_v894 main_v930 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v930 main_v931 (broadcastInDim S400000x1 ![0] bcast_S400000_S400000x1_0 : (⟨S400000, .i32⟩ : BufTy).Contents (Elt F) → (⟨S400000x1, .i32⟩ : BufTy).Contents (Elt F)),
    binary main_v925 main_v931 main_v932 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_291 (constant S_ .f32 0x00000000#32),
    unary main_cst_291 main_v933 (broadcastInDim S50000x128 ![] bcast_S_S50000x128 : (⟨S_, .f32⟩ : BufTy).Contents (Elt F) → (⟨S50000x128, .f32⟩ : BufTy).Contents (Elt F)),
    unary main_v896 main_v934 (broadcastInDim S400000x1 ![0] bcast_S400000_S400000x1_0 : (⟨S400000, .i32⟩ : BufTy).Contents (Elt F) → (⟨S400000x1, .i32⟩ : BufTy).Contents (Elt F)),
    ternary main_v933 main_v934 main_v932 main_v935 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    unary main_v919 main_v936 (broadcastInDim S50000x1 ![0] bcast_S50000_S50000x1_0 : (⟨S50000, .f32⟩ : BufTy).Contents (Elt F) → (⟨S50000x1, .f32⟩ : BufTy).Contents (Elt F)),
    unary main_v936 main_v937 (broadcastInDim S50000x128 ![0, 1] bcast_S50000x1_S50000x128_0_1 : (⟨S50000x1, .f32⟩ : BufTy).Contents (Elt F) → (⟨S50000x128, .f32⟩ : BufTy).Contents (Elt F)),
    binary main_v935 main_v937 main_v938 (mulf : (⟨S50000x128, .f32⟩ : BufTy).Contents (Elt F) → (⟨S50000x128, .f32⟩ : BufTy).Contents (Elt F) → (⟨S50000x128, .f32⟩ : BufTy).Contents (Elt F)),
    binary main_v736 main_v938 main_v939 (addf : (⟨S50000x128, .f32⟩ : BufTy).Contents (Elt F) → (⟨S50000x128, .f32⟩ : BufTy).Contents (Elt F) → (⟨S50000x128, .f32⟩ : BufTy).Contents (Elt F)),
    unary main_arg6 main_v940 ((extractStridedSlice S1x128 ![8, 0] · slices_S9x128_S1x128_8_0) : (⟨S9x128, .f32⟩ : BufTy).Contents (Elt F) → (⟨S1x128, .f32⟩ : BufTy).Contents (Elt F)),
    reshape main_v940 main_v941 rfl shapeCasts_S1x128_S128,
    unary main_v941 main_v942 (broadcastInDim S1x128 ![1] bcast_S128_S1x128_1 : (⟨S128, .f32⟩ : BufTy).Contents (Elt F) → (⟨S1x128, .f32⟩ : BufTy).Contents (Elt F)),
    unary main_v942 main_v943 (broadcastInDim S50000x128 ![0, 1] bcast_S1x128_S50000x128_0_1 : (⟨S1x128, .f32⟩ : BufTy).Contents (Elt F) → (⟨S50000x128, .f32⟩ : BufTy).Contents (Elt F)),
    binary main_v939 main_v943 main_v944 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call75_cst) (constant S_ .f32 0x00000000#32),
    TRef.unary (TRef.of (T := ⟨S_, .f32⟩) main_call75_cst) (TRef.of (T := ⟨S50000x128, .f32⟩) main_call75_v0) (broadcastInDim S50000x128 ![] bcast_S_S50000x128),
    TRef.binary (TRef.of (T := ⟨S50000x128, .f32⟩) main_v840) (TRef.of (T := ⟨S50000x128, .f32⟩) main_call75_v0) (TRef.of (T := ⟨S50000x128, .f32⟩) main_v945) maximumf,
    TRef.nullary (TRef.of (T := ⟨S_, .f32⟩) main_call76_cst) (constant S_ .f32 0x00000000#32),
    TRef.unary (TRef.of (T := ⟨S_, .f32⟩) main_call76_cst) (TRef.of (T := ⟨S50000x128, .f32⟩) main_call76_v0) (broadcastInDim S50000x128 ![] bcast_S_S50000x128),
    TRef.binary (TRef.of (T := ⟨S50000x128, .f32⟩) main_v944) (TRef.of (T := ⟨S50000x128, .f32⟩) main_call76_v0) (TRef.of (T := ⟨S50000x128, .f32⟩) main_v946) maximumf,
    TRef.nullary (TRef.of (T := ⟨S_, .f32⟩) main_call77_cst) (constant S_ .f32 0x00000000#32),
    TRef.unary (TRef.of (T := ⟨S_, .f32⟩) main_call77_cst) (TRef.of (T := ⟨S50000x128, .f32⟩) main_call77_v0) (broadcastInDim S50000x128 ![] bcast_S_S50000x128),
    TRef.binary (TRef.of (T := ⟨S50000x128, .f32⟩) main_v892) (TRef.of (T := ⟨S50000x128, .f32⟩) main_call77_v0) (TRef.of (T := ⟨S50000x128, .f32⟩) main_v947) maximumf,
    binary main_v945 main_arg7 main_v948 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg8 main_v949 (broadcastInDim S1x16 ![1] bcast_S16_S1x16_1 : (⟨S16, .f32⟩ : BufTy).Contents (Elt F) → (⟨S1x16, .f32⟩ : BufTy).Contents (Elt F)),
    unary main_v949 main_v950 (broadcastInDim S50000x16 ![0, 1] bcast_S1x16_S50000x16_0_1 : (⟨S1x16, .f32⟩ : BufTy).Contents (Elt F) → (⟨S50000x16, .f32⟩ : BufTy).Contents (Elt F)),
    binary main_v948 main_v950 main_v951 (addf : (⟨S50000x16, .f32⟩ : BufTy).Contents (Elt F) → (⟨S50000x16, .f32⟩ : BufTy).Contents (Elt F) → (⟨S50000x16, .f32⟩ : BufTy).Contents (Elt F)),
    binary main_v946 main_arg7 main_v952 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg8 main_v953 (broadcastInDim S1x16 ![1] bcast_S16_S1x16_1 : (⟨S16, .f32⟩ : BufTy).Contents (Elt F) → (⟨S1x16, .f32⟩ : BufTy).Contents (Elt F)),
    unary main_v953 main_v954 (broadcastInDim S50000x16 ![0, 1] bcast_S1x16_S50000x16_0_1 : (⟨S1x16, .f32⟩ : BufTy).Contents (Elt F) → (⟨S50000x16, .f32⟩ : BufTy).Contents (Elt F)),
    binary main_v952 main_v954 main_v955 (addf : (⟨S50000x16, .f32⟩ : BufTy).Contents (Elt F) → (⟨S50000x16, .f32⟩ : BufTy).Contents (Elt F) → (⟨S50000x16, .f32⟩ : BufTy).Contents (Elt F)),
    binary main_v947 main_arg7 main_v956 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg8 main_v957 (broadcastInDim S1x16 ![1] bcast_S16_S1x16_1 : (⟨S16, .f32⟩ : BufTy).Contents (Elt F) → (⟨S1x16, .f32⟩ : BufTy).Contents (Elt F)),
    unary main_v957 main_v958 (broadcastInDim S50000x16 ![0, 1] bcast_S1x16_S50000x16_0_1 : (⟨S1x16, .f32⟩ : BufTy).Contents (Elt F) → (⟨S50000x16, .f32⟩ : BufTy).Contents (Elt F)),
    binary main_v956 main_v958 main_v959 (addf : (⟨S50000x16, .f32⟩ : BufTy).Contents (Elt F) → (⟨S50000x16, .f32⟩ : BufTy).Contents (Elt F) → (⟨S50000x16, .f32⟩ : BufTy).Contents (Elt F)),
    unary main_v951 main_v960 (broadcastInDim S1x50000x16 ![1, 2] bcast_S50000x16_S1x50000x16_1_2 : (⟨S50000x16, .f32⟩ : BufTy).Contents (Elt F) → (⟨S1x50000x16, .f32⟩ : BufTy).Contents (Elt F)),
    unary main_v955 main_v961 (broadcastInDim S1x50000x16 ![1, 2] bcast_S50000x16_S1x50000x16_1_2 : (⟨S50000x16, .f32⟩ : BufTy).Contents (Elt F) → (⟨S1x50000x16, .f32⟩ : BufTy).Contents (Elt F)),
    unary main_v959 main_v962 (broadcastInDim S1x50000x16 ![1, 2] bcast_S50000x16_S1x50000x16_1_2 : (⟨S50000x16, .f32⟩ : BufTy).Contents (Elt F) → (⟨S1x50000x16, .f32⟩ : BufTy).Contents (Elt F)),
    nary ![main_v960, main_v961, main_v962] main_v963 (fun u => concatenate S3x50000x16 0 [⟨S1x50000x16, u 0⟩, ⟨S1x50000x16, u 1⟩, ⟨S1x50000x16, u 2⟩] concatenates_S1x50000x16_S1x50000x16_S1x50000x16_S3x50000x16_d0) ]

set_option maxRecDepth 8192 in
set_option maxHeartbeats 4000000 in
/-- The window is its operations run in order. -/
theorem main_part20_eq (c : Dev nD) : main_part20 (F := F) c = seq ops_part20 := rfl

set_option maxRecDepth 8192 in
/-- Every operation touches TensorCore buffers only. -/
theorem ops_part20_sub : (ops_part20 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., unary_bufs_sub .., nary_bufs_sub ..⟩

set_option maxRecDepth 8192 in
/-- Every operation determines the contents of what it writes. -/
theorem ops_part20_fresh : ∀ op ∈ (ops_part20 : List (HloOp τ sig (Elt F))), op.fresh = ∅ :=
  List.forall_iff_forall_mem.mp (show (ops_part20 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the operations write, in order. -/
abbrev ops_part20_W : List (Ref sig .tc) := [main_v913, main_cst_285, main_call73_v0, main_call73_v1, main_v914, main_cst_286, main_v915, main_v916, main_cst_287, main_v917, main_v918, main_cst_288, main_call74_v0, main_call74_v1, main_v919, main_v920, main_v921, main_v922, main_v923, main_v924, main_v925, main_c_289, main_v926, main_v927, main_c_290, main_v928, main_v929, main_v930, main_v931, main_v932, main_cst_291, main_v933, main_v934, main_v935, main_v936, main_v937, main_v938, main_v939, main_v940, main_v941, main_v942, main_v943, main_v944, main_call75_cst, main_call75_v0, main_v945, main_call76_cst, main_call76_v0, main_v946, main_call77_cst, main_call77_v0, main_v947, main_v948, main_v949, main_v950, main_v951, main_v952, main_v953, main_v954, main_v955, main_v956, main_v957, main_v958, main_v959, main_v960, main_v961, main_v962, main_v963]

set_option maxRecDepth 8192 in
/-- Each operation writes one of them. -/
theorem ops_part20_writes : (ops_part20 : List (HloOp τ sig (Elt F))).Forall fun op =>
    op.writes ⊆ (ops_part20_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.Ref.Nary3.lean ====
/-
  A host operation over a family of exactly three operand buffers (a three-piece concatenate): what it leaves in its
  result buffer, with each operand's contents read at its own reference rather than under the family's index, so that
  the operands' contents can be rewritten further. The library states this for four operands; this is the same for three.
-/
import Idealize.ShloMosaic.Lib.StableHlo.Run

noncomputable section

namespace Idealize.ShloMosaic.StableHlo

open Idealize.SL Idealize.SL.Sem

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same from what the three operand buffers are known to hold. -/
theorem nary3_result_of
    (f : ((k : Fin 3) → ((![x, a, b] : Fin 3 → Ref sig .tc) k).ty.Contents Val) → y.ty.Contents Val) (hxs hy)
    (F : Valuation τ sig Val)
    {vx : (Proc.devRef (τ := τ) .tc x).ty.Contents Val} {va : (Proc.devRef (τ := τ) .tc a).ty.Contents Val}
    {vb : (Proc.devRef (τ := τ) .tc b).ty.Contents Val}
    (hx : F (Proc.devRef .tc x) = vx) (ha : F (Proc.devRef .tc a) = va) (hb : F (Proc.devRef .tc b) = vb) :
    (nary (τ := τ) ![x, a, b] y f hxs hy).result F (Proc.devRef .tc y)
      = f (Fin.cons vx (Fin.cons va (Fin.cons vb (fun i => i.elim0)))) := by
  subst hx ha hb
  exact nary3_result f hxs hy F

end Idealize.ShloMosaic.StableHlo

end
-- ==== Proof.Ref.Val20.lean ====
/- The step across window 20 of the reference program's @main: from what is known of the buffers before it to
   what is known after it. A buffer the window does not write keeps its contents; a buffer it writes is read off the
   fold of the window's operations, and that composition is the buffer's stage function by unfolding. -/
import proofs.«151568_j90031104458821_2_alg».proof.Proof.Ref.Live
import proofs.«151568_j90031104458821_2_alg».proof.Proof.Ref.Ops20
import proofs.«151568_j90031104458821_2_alg».proof.Proof.Ref.Nary3

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem step20 {W : Valuation τ sig (Elt F)} {x0 x1 x2 x3 x4 x5 x6 x7 x8 x9 : _}
    (h : Live20 W x0 x1 x2 x3 x4 x5 x6 x7 x8 x9) : Live21 (after ops_part20 W) x0 x1 x2 x3 x4 x5 x6 x7 x8 x9 where
  h_main_arg0 := (after_of_writes_sub ops_part20 W ops_part20_writes (by decide)).trans h.h_main_arg0
  h_main_arg1 := (after_of_writes_sub ops_part20 W ops_part20_writes (by decide)).trans h.h_main_arg1
  h_main_arg2 := (after_of_writes_sub ops_part20 W ops_part20_writes (by decide)).trans h.h_main_arg2
  h_main_arg3 := (after_of_writes_sub ops_part20 W ops_part20_writes (by decide)).trans h.h_main_arg3
  h_main_arg4 := (after_of_writes_sub ops_part20 W ops_part20_writes (by decide)).trans h.h_main_arg4
  h_main_arg5 := (after_of_writes_sub ops_part20 W ops_part20_writes (by decide)).trans h.h_main_arg5
  h_main_arg6 := (after_of_writes_sub ops_part20 W ops_part20_writes (by decide)).trans h.h_main_arg6
  h_main_arg7 := (after_of_writes_sub ops_part20 W ops_part20_writes (by decide)).trans h.h_main_arg7
  h_main_arg8 := (after_of_writes_sub ops_part20 W ops_part20_writes (by decide)).trans h.h_main_arg8
  h_main_arg9 := (after_of_writes_sub ops_part20 W ops_part20_writes (by decide)).trans h.h_main_arg9
  h_main_v963 := by
    simp only [ops_part20, after_cons, after_nil]
    refine (nary3_result_of _ _ _ _ (vx := val_main_v960 (F := F) x0 x1 x2 x3 x4 x5 x6 x7 x8 x9) (va := val_main_v961 (F := F) x0 x1 x2 x3 x4 x5 x6 x7 x8 x9) (vb := val_main_v962 (F := F) x0 x1 x2 x3 x4 x5 x6 x7 x8 x9) ?_ ?_ ?_).trans ?_
    · after_results_simp
      all_goals (try simp only [h.h_main_arg8, h.h_main_arg7, h.h_main_v840])
      all_goals (try simp only [TRef.ofBuf, TRef.toBuf, cast_eq])
      all_goals rfl
    · after_results_simp
      all_goals (try simp only [h.h_main_arg8, h.h_main_arg7, h.h_main_arg6, h.h_main_v903, h.h_main_v912, h.h_main_v894, h.h_main_arg5, h.h_main_v911, h.h_main_v472, h.h_main_v896, h.h_main_v736])
      all_goals (try simp only [TRef.ofBuf, TRef.toBuf, cast_eq])
      all_goals rfl
    · after_results_simp
      all_goals (try simp only [h.h_main_arg8, h.h_main_arg7, h.h_main_v892])
      all_goals (try simp only [TRef.ofBuf, TRef.toBuf, cast_eq])
      all_goals rfl
    · rfl

end Cert.ReferenceIdeal.RefRun

end
-- ==== Proof.Ref.Run.lean ====
/-
  The reference program's run. Its @main is 1414 host operations, printed in 21 windows; each window is the list of its
  operations run in order, so @main is the 21 lists joined, run in order. Every operation touches TensorCore buffers only
  and determines what it writes, so every weakly fair execution of @main terminates, and every final state has each
  TensorCore buffer at the fold of the operations' results over that core's launch contents.
-/
import proofs.«151568_j90031104458821_2_alg».proof.Proof.Ref.Ops0
import proofs.«151568_j90031104458821_2_alg».proof.Proof.Ref.Ops1
import proofs.«151568_j90031104458821_2_alg».proof.Proof.Ref.Ops2
import proofs.«151568_j90031104458821_2_alg».proof.Proof.Ref.Ops3
import proofs.«151568_j90031104458821_2_alg».proof.Proof.Ref.Ops4
import proofs.«151568_j90031104458821_2_alg».proof.Proof.Ref.Ops5
import proofs.«151568_j90031104458821_2_alg».proof.Proof.Ref.Ops6
import proofs.«151568_j90031104458821_2_alg».proof.Proof.Ref.Ops7
import proofs.«151568_j90031104458821_2_alg».proof.Proof.Ref.Ops8
import proofs.«151568_j90031104458821_2_alg».proof.Proof.Ref.Ops9
import proofs.«151568_j90031104458821_2_alg».proof.Proof.Ref.Ops10
import proofs.«151568_j90031104458821_2_alg».proof.Proof.Ref.Ops11
import proofs.«151568_j90031104458821_2_alg».proof.Proof.Ref.Ops12
import proofs.«151568_j90031104458821_2_alg».proof.Proof.Ref.Ops13
import proofs.«151568_j90031104458821_2_alg».proof.Proof.Ref.Ops14
import proofs.«151568_j90031104458821_2_alg».proof.Proof.Ref.Ops15
import proofs.«151568_j90031104458821_2_alg».proof.Proof.Ref.Ops16
import proofs.«151568_j90031104458821_2_alg».proof.Proof.Ref.Ops17
import proofs.«151568_j90031104458821_2_alg».proof.Proof.Ref.Ops18
import proofs.«151568_j90031104458821_2_alg».proof.Proof.Ref.Ops19
import proofs.«151568_j90031104458821_2_alg».proof.Proof.Ref.Ops20
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 1414 operations, in order: the 21 windows' lists joined, nested to the right. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20))))))))))))))))))))

/-- What holds of every element of two lists holds of every element of their join. -/
theorem forall_mem_append {α : Type} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

/-- What holds of every operation of each window holds of every operation of @main. -/
theorem forall_mem_ops {p : HloOp τ sig (Elt F) → Prop}
    (h0 : ∀ op ∈ (ops_part0 : List (HloOp τ sig (Elt F))), p op)
    (h1 : ∀ op ∈ (ops_part1 : List (HloOp τ sig (Elt F))), p op)
    (h2 : ∀ op ∈ (ops_part2 : List (HloOp τ sig (Elt F))), p op)
    (h3 : ∀ op ∈ (ops_part3 : List (HloOp τ sig (Elt F))), p op)
    (h4 : ∀ op ∈ (ops_part4 : List (HloOp τ sig (Elt F))), p op)
    (h5 : ∀ op ∈ (ops_part5 : List (HloOp τ sig (Elt F))), p op)
    (h6 : ∀ op ∈ (ops_part6 : List (HloOp τ sig (Elt F))), p op)
    (h7 : ∀ op ∈ (ops_part7 : List (HloOp τ sig (Elt F))), p op)
    (h8 : ∀ op ∈ (ops_part8 : List (HloOp τ sig (Elt F))), p op)
    (h9 : ∀ op ∈ (ops_part9 : List (HloOp τ sig (Elt F))), p op)
    (h10 : ∀ op ∈ (ops_part10 : List (HloOp τ sig (Elt F))), p op)
    (h11 : ∀ op ∈ (ops_part11 : List (HloOp τ sig (Elt F))), p op)
    (h12 : ∀ op ∈ (ops_part12 : List (HloOp τ sig (Elt F))), p op)
    (h13 : ∀ op ∈ (ops_part13 : List (HloOp τ sig (Elt F))), p op)
    (h14 : ∀ op ∈ (ops_part14 : List (HloOp τ sig (Elt F))), p op)
    (h15 : ∀ op ∈ (ops_part15 : List (HloOp τ sig (Elt F))), p op)
    (h16 : ∀ op ∈ (ops_part16 : List (HloOp τ sig (Elt F))), p op)
    (h17 : ∀ op ∈ (ops_part17 : List (HloOp τ sig (Elt F))), p op)
    (h18 : ∀ op ∈ (ops_part18 : List (HloOp τ sig (Elt F))), p op)
    (h19 : ∀ op ∈ (ops_part19 : List (HloOp τ sig (Elt F))), p op)
    (h20 : ∀ op ∈ (ops_part20 : List (HloOp τ sig (Elt F))), p op) :
    ∀ op ∈ (ops : List (HloOp τ sig (Elt F))), p op :=
  forall_mem_append h0 (forall_mem_append h1 (forall_mem_append h2 (forall_mem_append h3 (forall_mem_append h4 (forall_mem_append h5 (forall_mem_append h6 (forall_mem_append h7 (forall_mem_append h8 (forall_mem_append h9 (forall_mem_append h10 (forall_mem_append h11 (forall_mem_append h12 (forall_mem_append h13 (forall_mem_append h14 (forall_mem_append h15 (forall_mem_append h16 (forall_mem_append h17 (forall_mem_append h18 (forall_mem_append h19 (h20))))))))))))))))))))

/-- Two programs that are lists of operations run in order, one after the other, are the joined list run in order. -/
theorem seq_then {Λ : Labels} {P₁ P₂ : Prog (TpuEff nD τ sig (Elt F) Λ .tc) PUnit} {l₁ l₂ : List (HloOp τ sig (Elt F))}
    (h₁ : P₁ = seq l₁) (h₂ : P₂ = seq l₂) : (P₁ >>= fun _ => P₂) = seq (l₁ ++ l₂) := by
  rw [seq_append, h₁, h₂]

/-- @main is its operations run in order: window after window. -/
theorem main_eq (c : Dev nD) : main (F := F) c = seq ops :=
  seq_then (main_part0_eq c) (seq_then (main_part1_eq c) (seq_then (main_part2_eq c) (seq_then (main_part3_eq c) (seq_then (main_part4_eq c) (seq_then (main_part5_eq c) (seq_then (main_part6_eq c) (seq_then (main_part7_eq c) (seq_then (main_part8_eq c) (seq_then (main_part9_eq c) (seq_then (main_part10_eq c) (seq_then (main_part11_eq c) (seq_then (main_part12_eq c) (seq_then (main_part13_eq c) (seq_then (main_part14_eq c) (seq_then (main_part15_eq c) (seq_then (main_part16_eq c) (seq_then (main_part17_eq c) (seq_then (main_part18_eq c) (seq_then (main_part19_eq c) (main_part20_eq c))))))))))))))))))))

theorem scopedRefs_eq : (Finset.univ.filter fun b : Ref sig .tc => b.isScoped) = ∅ := by decide
theorem scopedSems_eq : (Finset.univ.filter fun sm : SemLoc sig => sm.isScoped .tc) = ∅ := by decide

/-- Every operation of @main touches TensorCore buffers only. -/
theorem ops_sub : (ops : List (HloOp τ sig (Elt F))).Forall fun op => op.bufs ⊆ tcRefs τ sig :=
  List.forall_iff_forall_mem.mpr (forall_mem_ops
    (List.forall_iff_forall_mem.mp ops_part0_sub) (List.forall_iff_forall_mem.mp ops_part1_sub) (List.forall_iff_forall_mem.mp ops_part2_sub) (List.forall_iff_forall_mem.mp ops_part3_sub) (List.forall_iff_forall_mem.mp ops_part4_sub) (List.forall_iff_forall_mem.mp ops_part5_sub) (List.forall_iff_forall_mem.mp ops_part6_sub) (List.forall_iff_forall_mem.mp ops_part7_sub) (List.forall_iff_forall_mem.mp ops_part8_sub) (List.forall_iff_forall_mem.mp ops_part9_sub) (List.forall_iff_forall_mem.mp ops_part10_sub) (List.forall_iff_forall_mem.mp ops_part11_sub) (List.forall_iff_forall_mem.mp ops_part12_sub) (List.forall_iff_forall_mem.mp ops_part13_sub) (List.forall_iff_forall_mem.mp ops_part14_sub) (List.forall_iff_forall_mem.mp ops_part15_sub) (List.forall_iff_forall_mem.mp ops_part16_sub) (List.forall_iff_forall_mem.mp ops_part17_sub) (List.forall_iff_forall_mem.mp ops_part18_sub) (List.forall_iff_forall_mem.mp ops_part19_sub) (List.forall_iff_forall_mem.mp ops_part20_sub))

/-- Every operation of @main determines the contents of what it writes. -/
theorem ops_fresh : ∀ op ∈ (ops : List (HloOp τ sig (Elt F))), op.fresh = ∅ :=
  forall_mem_ops ops_part0_fresh ops_part1_fresh ops_part2_fresh ops_part3_fresh ops_part4_fresh ops_part5_fresh ops_part6_fresh ops_part7_fresh ops_part8_fresh ops_part9_fresh ops_part10_fresh ops_part11_fresh ops_part12_fresh ops_part13_fresh ops_part14_fresh ops_part15_fresh ops_part16_fresh ops_part17_fresh ops_part18_fresh ops_part19_fresh ops_part20_fresh

/-- On every device, for any float values, from any memory with zero counters: every weakly fair execution of @main
    terminates, and every final state has each TensorCore buffer at the fold of the 1414 operations' results over the
    core's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.Ref.Value.lean ====
/-
  The reference program's result. From the launch contents, window after window, every buffer a later operation reads
  holds its stage function of the ten arguments; after the last window the result buffer holds the last stage function.
  With the run of @main (every final state has each buffer at the fold of the operations over the launch contents) this
  gives: every weakly fair execution terminates with the result at its stage function of the arguments' launch contents
  and the arguments unchanged.
-/
import proofs.«151568_j90031104458821_2_alg».proof.Proof.Ref.Val0
import proofs.«151568_j90031104458821_2_alg».proof.Proof.Ref.Val1
import proofs.«151568_j90031104458821_2_alg».proof.Proof.Ref.Val2
import proofs.«151568_j90031104458821_2_alg».proof.Proof.Ref.Val3
import proofs.«151568_j90031104458821_2_alg».proof.Proof.Ref.Val4
import proofs.«151568_j90031104458821_2_alg».proof.Proof.Ref.Val5
import proofs.«151568_j90031104458821_2_alg».proof.Proof.Ref.Val6
import proofs.«151568_j90031104458821_2_alg».proof.Proof.Ref.Val7
import proofs.«151568_j90031104458821_2_alg».proof.Proof.Ref.Val8
import proofs.«151568_j90031104458821_2_alg».proof.Proof.Ref.Val9
import proofs.«151568_j90031104458821_2_alg».proof.Proof.Ref.Val10
import proofs.«151568_j90031104458821_2_alg».proof.Proof.Ref.Val11
import proofs.«151568_j90031104458821_2_alg».proof.Proof.Ref.Val12
import proofs.«151568_j90031104458821_2_alg».proof.Proof.Ref.Val13
import proofs.«151568_j90031104458821_2_alg».proof.Proof.Ref.Val14
import proofs.«151568_j90031104458821_2_alg».proof.Proof.Ref.Val15
import proofs.«151568_j90031104458821_2_alg».proof.Proof.Ref.Val16
import proofs.«151568_j90031104458821_2_alg».proof.Proof.Ref.Val17
import proofs.«151568_j90031104458821_2_alg».proof.Proof.Ref.Val18
import proofs.«151568_j90031104458821_2_alg».proof.Proof.Ref.Val19
import proofs.«151568_j90031104458821_2_alg».proof.Proof.Ref.Val20
import proofs.«151568_j90031104458821_2_alg».proof.Proof.Ref.Run

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The fold over two lists joined is the fold over the second from the fold over the first. -/
theorem after_then : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_then l₁ l₂]

/-- The fold over @main's operations is the folds over its windows, one after the other. -/
theorem after_ops (V : Valuation τ sig (Elt F)) :
    after ops V = after ops_part20 (after ops_part19 (after ops_part18 (after ops_part17 (after ops_part16 (after ops_part15 (after ops_part14 (after ops_part13 (after ops_part12 (after ops_part11 (after ops_part10 (after ops_part9 (after ops_part8 (after ops_part7 (after ops_part6 (after ops_part5 (after ops_part4 (after ops_part3 (after ops_part2 (after ops_part1 (after ops_part0 (V))))))))))))))))))))) := by
  simp only [ops, after_then]

/-- At launch each argument holds its launch contents. -/
theorem live0 (m : (ℓ : Loc nD τ sig) → Buf (Elt F) ℓ) (c : Dev nD) :
    Live0 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  ⟨rfl, rfl, rfl, rfl, rfl, rfl, rfl, rfl, rfl, rfl⟩

/-- After all of @main's operations the arguments hold their launch contents and the result its stage function of them. -/
theorem live_end (m : (ℓ : Loc nD τ sig) → Buf (Elt F) ℓ) (c : Dev nD) :
    Live21 (after ops (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_ops]
  exact step20 (step19 (step18 (step17 (step16 (step15 (step14 (step13 (step12 (step11 (step10 (step9 (step8 (step7 (step6 (step5 (step4 (step3 (step2 (step1 (step0 (live0 m c)))))))))))))))))))))

/-- On every device, for any float values, from any memory with zero counters: every weakly fair execution of @main
    terminates with the result at its stage function of the arguments' launch contents, and the arguments unchanged. -/
theorem result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v963) = val_main_v963 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v963).trans (live_end m c).h_main_v963,
      (h c main_arg0).trans (live_end m c).h_main_arg0,
      (h c main_arg1).trans (live_end m c).h_main_arg1,
      (h c main_arg2).trans (live_end m c).h_main_arg2,
      (h c main_arg3).trans (live_end m c).h_main_arg3,
      (h c main_arg4).trans (live_end m c).h_main_arg4,
      (h c main_arg5).trans (live_end m c).h_main_arg5,
      (h c main_arg6).trans (live_end m c).h_main_arg6,
      (h c main_arg7).trans (live_end m c).h_main_arg7,
      (h c main_arg8).trans (live_end m c).h_main_arg8,
      (h c main_arg9).trans (live_end m c).h_main_arg9⟩)
    (run m ρ)

end Cert.ReferenceIdeal.RefRun

end
-- ==== Proof.FrameRef.lean ====
/-
  The reference's frame conjunct of the claim: the idealized reference, at the ideal instance, from any memory with zero
  counters runs to the end on the TensorCores, nothing faulting, with the ten argument arrays as launched. The reference's
  run ends with its result buffer at the value of its arguments and with the arguments unchanged; the frame is the second
  half of that. It holds at any float instance; the precondition on the inputs is not used.
-/
import proofs.«151568_j90031104458821_2_alg».proof.Defs
import proofs.«151568_j90031104458821_2_alg».proof.Proof.Gen.ReferenceIdeal
import proofs.«151568_j90031104458821_2_alg».proof.Proof.Gen.Pre_finite_inputs
import proofs.«151568_j90031104458821_2_alg».proof.Proof.Ref.Value

noncomputable section

namespace Cert.Proof.Frames

open Idealize.ShloMosaic Idealize.SL.Sem

/-- The idealized reference runs and leaves its arguments as launched. -/
theorem frame_ri : Cert.frame_ReferenceIdeal (hReferenceIdeal := Cert.ReferenceIdeal.Gen.facts) (hPre_finite_inputs := Cert.Pre_finite_inputs.Gen.facts) :=
  fun m ρ _ => (θ_run _ _ _).mono (fun _ h c => (h c).2) (Cert.ReferenceIdeal.RefRun.result (F := Ideal) m ρ)

end Cert.Proof.Frames

end
-- ==== Proof.AlgebraicOf.lean ====
/-
  The algebraic claim from its four parts. The idealized kernel and the idealized reference, run from memories that agree
  on the ten arguments, end with equal results and unchanged arguments, given:
  (1) what the kernel's run leaves in its result buffer, element by element, is a number `N c t n q` (node type t, node n,
      class q) — for the network, the kernel's form of it over the launch memory;
  (2) the reference's result as a value of its ten argument arrays, at the kernel memory's arguments, is the same number
      element by element — the reference's form of the network, equal to the kernel's on real entries;
  (3) the reference's run ends with its result buffer at that value of its own arguments, and with the arguments unchanged.
  The kernel's run itself is the run of its three pallas_calls and its host stretches: every unscoped buffer ends at the
  contents the last call leaves, the result buffer among them, and the arguments as launched. The common result is what
  the kernel leaves; the reference's value is moved to the kernel's memory by the agreement on the arguments, and the two
  are compared element by element through `N`.
-/
import proofs.«151568_j90031104458821_2_alg».proof.Defs
import proofs.«151568_j90031104458821_2_alg».proof.Proof.Gen.KernelIdeal
import proofs.«151568_j90031104458821_2_alg».proof.Proof.Gen.ReferenceIdeal
import proofs.«151568_j90031104458821_2_alg».proof.Proof.Gen.Pre_finite_inputs
import proofs.«151568_j90031104458821_2_alg».proof.Proof.KI.Args
import proofs.«151568_j90031104458821_2_alg».proof.Proof.RefReadP
import Idealize.ShloMosaic.Lib.ValueIdx

set_option maxRecDepth 16384

noncomputable section

namespace Cert.Proof.Alg

open Idealize.ShloMosaic Idealize.ShloMosaic.ValueIdx Idealize.ShloMosaic.TcCoe Idealize.SL.Sem

/-- The algebraic claim's conclusion at one pair of memories, from the three parts above. -/
theorem algebraic_of
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (N : Dev Cert.KernelIdeal.nD → Fin 3 → Fin 50000 → Fin 16 → EReal)
    (hK : ∀ (c : Dev Cert.KernelIdeal.nD) (t : Fin 3) (n : Fin 50000) (q : Fin 16),
      (Cert.KernelIdeal.Fr.X2 (F := Ideal) m ρ c (Proc.devRef .tc Cert.KernelIdeal.main_v691) : Cert.KernelIdeal.S3x50000x16.Idx → EReal) (ix3 t n q) = N c t n q)
    (hR : ∀ (c : Dev Cert.KernelIdeal.nD) (t : Fin 3) (n : Fin 50000) (q : Fin 16),
      (Cert.ReferenceIdeal.ReadP.val_main_v963 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) : Cert.ReferenceIdeal.S3x50000x16.Idx → EReal) (ix3 t n q) = N c t n q)
    (hRun : θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v963) = Cert.ReferenceIdeal.ReadP.val_main_v963 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))) :
    ∃ (v0 : (c : Dev Cert.KernelIdeal.nD) → Buf (Elt Ideal) ((c.tc : Thread Cert.KernelIdeal.nD Cert.KernelIdeal.τ).loc Cert.KernelIdeal.main_v691)),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v691) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v963) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) := by
  refine ⟨fun c => Cert.KernelIdeal.Fr.X2 (F := Ideal) m ρ c (Proc.devRef .tc Cert.KernelIdeal.main_v691), ?_, ?_⟩
  · -- the kernel's run: every unscoped buffer ends at the contents the last call leaves
    exact (θ_run _ _ _).mono (fun r h c =>
      ⟨h c _ (Cert.KernelIdeal.Fr.mem_uc Cert.KernelIdeal.main_v691 (by decide)),
       (h c _ (Cert.KernelIdeal.Fr.mem_uc Cert.KernelIdeal.main_arg0 (by decide))).trans (Cert.KernelIdeal.Fr.X2_main_arg0 m ρ c),
       (h c _ (Cert.KernelIdeal.Fr.mem_uc Cert.KernelIdeal.main_arg1 (by decide))).trans (Cert.KernelIdeal.Fr.X2_main_arg1 m ρ c),
       (h c _ (Cert.KernelIdeal.Fr.mem_uc Cert.KernelIdeal.main_arg2 (by decide))).trans (Cert.KernelIdeal.Fr.X2_main_arg2 m ρ c),
       (h c _ (Cert.KernelIdeal.Fr.mem_uc Cert.KernelIdeal.main_arg3 (by decide))).trans (Cert.KernelIdeal.Fr.X2_main_arg3 m ρ c),
       (h c _ (Cert.KernelIdeal.Fr.mem_uc Cert.KernelIdeal.main_arg4 (by decide))).trans (Cert.KernelIdeal.Fr.X2_main_arg4 m ρ c),
       (h c _ (Cert.KernelIdeal.Fr.mem_uc Cert.KernelIdeal.main_arg5 (by decide))).trans (Cert.KernelIdeal.Fr.X2_main_arg5 m ρ c),
       (h c _ (Cert.KernelIdeal.Fr.mem_uc Cert.KernelIdeal.main_arg6 (by decide))).trans (Cert.KernelIdeal.Fr.X2_main_arg6 m ρ c),
       (h c _ (Cert.KernelIdeal.Fr.mem_uc Cert.KernelIdeal.main_arg7 (by decide))).trans (Cert.KernelIdeal.Fr.X2_main_arg7 m ρ c),
       (h c _ (Cert.KernelIdeal.Fr.mem_uc Cert.KernelIdeal.main_arg8 (by decide))).trans (Cert.KernelIdeal.Fr.X2_main_arg8 m ρ c),
       (h c _ (Cert.KernelIdeal.Fr.mem_uc Cert.KernelIdeal.main_arg9 (by decide))).trans (Cert.KernelIdeal.Fr.X2_main_arg9 m ρ c)⟩)
      (Cert.KernelIdeal.Fr.run_all (F := Ideal) m ρ)
  · -- the reference's run: its value at its own arguments is its value at the kernel's, which is the kernel's result
    refine (θ_run _ _ _).mono (fun r h c => ⟨(h c).1.trans ?_, (h c).2⟩) hRun
    obtain ⟨e0, e1, e2, e3, e4, e5, e6, e7, e8, e9⟩ := hagree c
    rw [e0, e1, e2, e3, e4, e5, e6, e7, e8, e9]
    funext i
    obtain ⟨t, n, q, rfl⟩ : ∃ (t : Fin 3) (n : Fin 50000) (q : Fin 16), i = ix3 t n q := ⟨i 0, i 1, i 2, eq_ix3 i⟩
    exact (hR c t n q).trans (hK c t n q).symm

end Cert.Proof.Alg

end
-- ==== Proof.KI.Pay.lean ====
/-
  The two kernel bodies' arithmetic read at one element, at the ideal instance (a float an extended real, every
  operation exact, a change of format the identity).

  The projection body scales row `p` of the aggregate block by that row's norm, contracts it with the relation's
  128 × 128 weight block into a zero accumulator and adds the bias row; the classifier body clamps its block at zero
  from below, contracts it with the 128 × 16 weight matrix into a zero accumulator and adds the bias row.
-/
import proofs.«151568_j90031104458821_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen
open Idealize.ShloMosaic Idealize.ShloMosaic.ValueIdx

/-- The index (0, p, q) of a [1, 5000, 128] block. -/
abbrev i128 (p : Fin 5000) (q : Fin 128) : S1x5000x128.Idx := ix3 (0 : Fin 1) p q
/-- The index (0, p, 0) of a [1, 5000, 1] block. -/
abbrev i1 (p : Fin 5000) : S1x5000x1.Idx := ix3 (0 : Fin 1) p (0 : Fin 1)
/-- The index (0, k, q) of a [1, 128, 128] block. -/
abbrev iw (k : Fin 128) (q : Fin 128) : S1x128x128.Idx := ix3 (0 : Fin 1) k q
/-- The index (0, 0, q) of a [1, 1, 128] block. -/
abbrev ib (q : Fin 128) : S1x1x128.Idx := ix3 (0 : Fin 1) (0 : Fin 1) q
/-- The index (0, p, q) of a [1, 5000, 16] block. -/
abbrev i16 (p : Fin 5000) (q : Fin 16) : S1x5000x16.Idx := ix3 (0 : Fin 1) p q

/-! ## A column broadcast along the rows' features -/

/-- An `[a, 1]` column broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The projection's [5000, 128] × [128, 128] contraction's operand indices -/

/-- The left operand's row is the output's row … -/
theorem lhs_w_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … its column the contraction position … -/
theorem lhs_w_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … the right operand's row the contraction position … -/
theorem rhs_w_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and its column the output's column. -/
theorem rhs_w_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The projection's [5000, 128] × [128, 128] block product into a zero accumulator, at (p, q): the sum over the 128 features k of
    left (p, k) times right (k, q). -/
theorem matmul_w_apply (x : FVec Ideal S5000x128 .bf16) (y : FVec Ideal S128x128 .bf16) (p : Fin 5000) (q : Fin 128) :
    matmul dot_S5000x128_S128x128_S5000x128_1_0_0_1_n_n none x y (constant (F := Ideal) S5000x128 .f32 0x00000000#32) (ix2 p q)
      = ∑ k : Fin 128, x (ix2 p k) * y (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_w_0 _ _
    | ⟨1, _⟩ => exact (lhs_w_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_w_0 _ _).trans hk
    | ⟨1, _⟩ => exact rhs_w_1 _ _)
  rw [el, er]

/-! ## The classifier's [5000, 128] × [128, 16] contraction's operand indices -/

/-- The left operand's row is the output's row … -/
theorem lhs_c_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- … its column the contraction position … -/
theorem lhs_c_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
/-- … the right operand's row the contraction position … -/
theorem rhs_c_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
/-- … and its column the output's column. -/
theorem rhs_c_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The classifier's [5000, 128] × [128, 16] block product into a zero accumulator, at (p, q): the sum over the 128 features k of
    left (p, k) times right (k, q). -/
theorem matmul_c_apply (x : FVec Ideal S5000x128 .bf16) (y : FVec Ideal S128x16 .bf16) (p : Fin 5000) (q : Fin 16) :
    matmul dot_S5000x128_S128x16_S5000x16_1_0_0_1_n_n none x y (constant (F := Ideal) S5000x16 .f32 0x00000000#32) (ix2 p q)
      = ∑ k : Fin 128, x (ix2 p k) * y (ix2 k q) := by
  simp only [matmul]
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k := funext fun a => Fin.ext (by
    match a with
    | ⟨0, _⟩ => exact lhs_c_0 _ _
    | ⟨1, _⟩ => exact (lhs_c_1 _ _).trans hk)
  have er : dot_S5000x128_S128x16_S5000x16_1_0_0_1_n_n.rhsIdx (ix2 p q) ((contrEquiv1 dot_S5000x128_S128x16_S5000x16_1_0_0_1_n_n 128 rfl rfl).symm k) = ix2 k q := funext fun a => Fin.ext (by
    match a with
    | ⟨0, _⟩ => exact (rhs_c_0 _ _).trans hk
    | ⟨1, _⟩ => exact rhs_c_1 _ _)
  rw [el, er]

/-! ## The payloads at an element -/

/-- The projection body's stored value at (0, p, q): the zero accumulator plus the contraction over the 128 features
    of (aggregate × norm) with the weight block, plus the bias. -/
theorem k0_pay1_apply (v0 : Vec Ideal S1x5000x128 .f32) (v2 : Vec Ideal S1x5000x1 .f32) (v7 : Vec Ideal S1x128x128 .f32)
    (v11 : Vec Ideal S1x1x128 .f32) (p : Fin 5000) (q : Fin 128) :
    k0_pay1 (F := Ideal) v0 v2 v7 v11 (i128 p q)
      = ((0 : EReal) + ∑ k : Fin 128, (v0 (i128 p k) * v2 (i1 p)) * v7 (iw k q)) + v11 (ib q) := by
  unfold k0_pay1
  -- the store's outer cast adds the unit axis: read the sum of product and bias at (p, q)
  refine (shapeCast_ab_1ab_apply _ _ (0 : Fin 1) p q).trans ?_
  rw [addf_apply, matmul_w_apply, broadcastTo_1b_ab_apply, shapeCast_1ab_ab_apply, zero_add]
  refine congrArg (· + v11 (ib q)) (Finset.sum_congr rfl fun k _ => ?_)
  -- each factor: the format changes are the identity, the casts drop the unit axis, the norm column is broadcast
  rw [truncf_apply, truncf_apply, mulf_apply, shapeCast_1ab_ab_apply, shapeCast_1ab_ab_apply, broadcastTo_a1_ab_apply,
    shapeCast_1ab_ab_apply]

/-- The same for the second projection call's body (the same arithmetic). -/
theorem k1_pay1_apply (v0 : Vec Ideal S1x5000x128 .f32) (v2 : Vec Ideal S1x5000x1 .f32) (v7 : Vec Ideal S1x128x128 .f32)
    (v11 : Vec Ideal S1x1x128 .f32) (p : Fin 5000) (q : Fin 128) :
    k1_pay1 (F := Ideal) v0 v2 v7 v11 (i128 p q)
      = ((0 : EReal) + ∑ k : Fin 128, (v0 (i128 p k) * v2 (i1 p)) * v7 (iw k q)) + v11 (ib q) := by
  unfold k1_pay1
  -- the store's outer cast adds the unit axis: read the sum of product and bias at (p, q)
  refine (shapeCast_ab_1ab_apply _ _ (0 : Fin 1) p q).trans ?_
  rw [addf_apply, matmul_w_apply, broadcastTo_1b_ab_apply, shapeCast_1ab_ab_apply, zero_add]
  refine congrArg (· + v11 (ib q)) (Finset.sum_congr rfl fun k _ => ?_)
  -- each factor: the format changes are the identity, the casts drop the unit axis, the norm column is broadcast
  rw [truncf_apply, truncf_apply, mulf_apply, shapeCast_1ab_ab_apply, shapeCast_1ab_ab_apply, broadcastTo_a1_ab_apply,
    shapeCast_1ab_ab_apply]

/-- The classifier body's stored value at (0, p, q): the zero accumulator plus the contraction over the 128 features of
    max(h, 0) with the weight matrix, plus the bias. -/
theorem k2_pay1_apply (v0 : Vec Ideal S1x5000x128 .f32) (v5 : Vec Ideal S128x16 .f32) (v8 : Vec Ideal S1x16 .f32)
    (p : Fin 5000) (q : Fin 16) :
    k2_pay1 (F := Ideal) v0 v5 v8 (i16 p q)
      = ((0 : EReal) + ∑ k : Fin 128, max (v0 (i128 p k)) 0 * v5 (ix2 k q)) + v8 (ix2 (0 : Fin 1) q) := by
  unfold k2_pay1
  -- the store's outer cast adds the unit axis: read the sum of product and bias at (p, q)
  refine (shapeCast_ab_1ab_apply _ _ (0 : Fin 1) p q).trans ?_
  rw [addf_apply, matmul_c_apply, broadcastTo_1b_ab_apply, shapeCast_self, zero_add]
  refine congrArg (· + v8 (ix2 (0 : Fin 1) q)) (Finset.sum_congr rfl fun k _ => ?_)
  -- each factor: the format changes are the identity, the cast drops the unit axis, the splat zero is the real 0
  rw [truncf_apply, truncf_apply, maximumf_apply, shapeCast_1ab_ab_apply, broadcast_apply]
  show max (v0 (i128 p k)) (Ideal.ofBits .f32 0x00000000#32) * v5 (ix2 k q) = _
  rw [Ideal.ofBits_zero_f32]

end Cert.KernelIdeal.Pay

end
-- ==== Proof.KI.Val0.lean ====
/-
  Pallas call 0 (the per-relation projection), from blocks to the array. The grid is (relation, node tile), 9 × 10
  points, point t = 10 · relation + tile; at point t the aggregate, norm and output windows stand on rows
  5000 · (t % 10) … 5000 · (t % 10) + 4999 of slab t / 10, the weight and bias windows on slab t / 10 whole. What point t
  writes back is therefore the block at t of ONE function of the four entry arrays — row n of slab r scaled by its
  norm, contracted with slab r of the weights, plus slab r of the bias —, the ninety blocks tile the output array,
  and the array after the run is that function.
-/
import proofs.«151568_j90031104458821_2_alg».proof.Proof.KI.Reg0
import proofs.«151568_j90031104458821_2_alg».proof.Proof.KI.Pay
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

/-- The body's stored value at (0, p, q), with the block indices spelt by their coordinates. -/
theorem pay0_at (v0 : Vec Ideal S1x5000x128 .f32) (v2 : Vec Ideal S1x5000x1 .f32) (v7 : Vec Ideal S1x128x128 .f32)
    (v11 : Vec Ideal S1x1x128 .f32) (p : Fin 5000) (q : Fin 128) :
    k0_pay1 (F := Ideal) v0 v2 v7 v11 (ix3 (0 : Fin 1) p q)
      = ((0 : EReal) + ∑ k : Fin 128, (v0 (ix3 (0 : Fin 1) p k) * v2 (ix3 (0 : Fin 1) p (0 : Fin 1))) * v7 (ix3 (0 : Fin 1) k q))
        + v11 (ix3 (0 : Fin 1) (0 : Fin 1) q) :=
  Pay.k0_pay1_apply v0 v2 v7 v11 p q

/-! ## The projection of whole arrays -/

/-- Row `n` of slab `r` of `a`, scaled by its norm `s`, contracted over the 128 features with slab `r` of the weights `w`
    into a zero accumulator, plus slab `r` of the bias `b`: the element (r, n, q). -/
def projAt0 (a : S9x50000x128.Idx → EReal) (s : S9x50000x1.Idx → EReal) (w : S9x128x128.Idx → EReal) (b : S9x1x128.Idx → EReal)
    (r : Fin 9) (n : Fin 50000) (q : Fin 128) : EReal :=
  ((0 : EReal) + ∑ k : Fin 128, (a (ix3 r n k) * s (ix3 r n (0 : Fin 1))) * w (ix3 r k q)) + b (ix3 r (0 : Fin 1) q)

/-- The same as one array. -/
def proj0 (a : S9x50000x128.Idx → EReal) (s : S9x50000x1.Idx → EReal) (w : S9x128x128.Idx → EReal) (b : S9x1x128.Idx → EReal) :
    S9x50000x128.Idx → EReal :=
  fun i => projAt0 a s w b (i 0) (i 1) (i 2)

/-- At an index whose coordinates are `r`, `n`, `q`. -/
theorem proj0_of_val (a : S9x50000x128.Idx → EReal) (s : S9x50000x1.Idx → EReal) (w : S9x128x128.Idx → EReal) (b : S9x1x128.Idx → EReal)
    (i : S9x50000x128.Idx) (r : Fin 9) (n : Fin 50000) (q : Fin 128) (h0 : (i 0).val = r.val) (h1 : (i 1).val = n.val) (h2 : (i 2).val = q.val) :
    proj0 a s w b i = projAt0 a s w b r n q := by
  have e0 : (i 0 : Fin 9) = r := Fin.ext h0
  have e1 : (i 1 : Fin 50000) = n := Fin.ext h1
  have e2 : (i 2 : Fin 128) = q := Fin.ext h2
  unfold proj0
  rw [e0, e1, e2]

/-! ## The index maps over the grid -/

theorem hzero0 : (![0, 0, 0] : Fin 3 → Nat) = fun _ => 0 := funext fun a => by fin_cases a <;> rfl

/-- The printed index maps, decided over the ninety points: the aggregate, norm and output windows stand on block
    (t / 10, t % 10, 0), the weight and bias windows on block (t / 10, 0, 0). -/
theorem idx0_facts : ∀ t : Fin cfg0.N,
    (win0_4.index t (0 : Fin 3) = t.val / 10 ∧ win0_4.index t (1 : Fin 3) = t.val % 10 ∧ win0_4.index t (2 : Fin 3) = 0)
    ∧ (win0_0.index t (0 : Fin 3) = t.val / 10 ∧ win0_0.index t (1 : Fin 3) = t.val % 10 ∧ win0_0.index t (2 : Fin 3) = 0)
    ∧ (win0_1.index t (0 : Fin 3) = t.val / 10 ∧ win0_1.index t (1 : Fin 3) = t.val % 10 ∧ win0_1.index t (2 : Fin 3) = 0)
    ∧ (win0_2.index t (0 : Fin 3) = t.val / 10 ∧ win0_2.index t (1 : Fin 3) = 0 ∧ win0_2.index t (2 : Fin 3) = 0)
    ∧ (win0_3.index t (0 : Fin 3) = t.val / 10 ∧ win0_3.index t (1 : Fin 3) = 0 ∧ win0_3.index t (2 : Fin 3) = 0) :=
  (by decide +kernel : ∀ t : Fin grid0.N, _)

section Region0
variable (V : (c : Dev nD) → (b : Ref sig .tc) → Buf (Elt Ideal) ((c : Thread nD τ).loc b))

/-- The four arrays the call reads, as it finds them: the aggregate, its rows' norms, the weights and the bias. -/
abbrev arrA0 (c : Dev nD) : S9x50000x128.Idx → EReal := V c main_v435
abbrev arrS0 (c : Dev nD) : S9x50000x1.Idx → EReal := V c main_v436
abbrev arrW0 (c : Dev nD) : S9x128x128.Idx → EReal := V c main_arg3
abbrev arrB0 (c : Dev nD) : S9x1x128.Idx → EReal := V c main_v437

/-! ## Each input block, read at an element -/

/-- The aggregate window's block at point `t`, at (0, p, k): row 5000 · (t % 10) + p of slab t / 10. -/
theorem iblk0_0_at (c : Dev nD) (t : Fin cfg0.N) (p : Fin 5000) (k : Fin 128) (r : Fin 9) (n : Fin 50000)
    (hr : r.val = t.val / 10) (hn : n.val = t.val % 10 * 5000 + p.val) :
    iblk0 V c 0 t (ix3 (0 : Fin 1) p k) = arrA0 V c (ix3 r n k) := by
  obtain ⟨-, ⟨e0, e1, e2⟩, -, -, -⟩ := idx0_facts t
  unfold iblk0
  show arrA0 V c (((cfg0.win 0).blk t).view.emb (ix3 (0 : Fin 1) p k)) = arrA0 V c (ix3 r n k)
  refine congrArg (arrA0 V c) (funext fun a => Fin.ext ?_)
  match a with
  | ⟨0, _⟩ => show win0_0.index t (0 : Fin 3) * 1 + 1 * 0 = r.val; omega
  | ⟨1, _⟩ => show win0_0.index t (1 : Fin 3) * 5000 + 1 * p.val = n.val; omega
  | ⟨2, _⟩ => show win0_0.index t (2 : Fin 3) * 128 + 1 * k.val = k.val; omega

/-- The norm window's block at point `t`, at (0, p, 0): row 5000 · (t % 10) + p of slab t / 10. -/
theorem iblk0_1_at (c : Dev nD) (t : Fin cfg0.N) (p : Fin 5000) (r : Fin 9) (n : Fin 50000)
    (hr : r.val = t.val / 10) (hn : n.val = t.val % 10 * 5000 + p.val) :
    iblk0 V c 1 t (ix3 (0 : Fin 1) p (0 : Fin 1)) = arrS0 V c (ix3 r n (0 : Fin 1)) := by
  obtain ⟨-, -, ⟨e0, e1, e2⟩, -, -⟩ := idx0_facts t
  unfold iblk0
  show arrS0 V c (((cfg0.win 1).blk t).view.emb (ix3 (0 : Fin 1) p (0 : Fin 1))) = arrS0 V c (ix3 r n (0 : Fin 1))
  refine congrArg (arrS0 V c) (funext fun a => Fin.ext ?_)
  match a with
  | ⟨0, _⟩ => show win0_1.index t (0 : Fin 3) * 1 + 1 * 0 = r.val; omega
  | ⟨1, _⟩ => show win0_1.index t (1 : Fin 3) * 5000 + 1 * p.val = n.val; omega
  | ⟨2, _⟩ => show win0_1.index t (2 : Fin 3) * 1 + 1 * 0 = 0; omega

/-- The weight window's block at point `t`, at (0, k, q): slab t / 10, whole. -/
theorem iblk0_2_at (c : Dev nD) (t : Fin cfg0.N) (k : Fin 128) (q : Fin 128) (r : Fin 9) (hr : r.val = t.val / 10) :
    iblk0 V c 2 t (ix3 (0 : Fin 1) k q) = arrW0 V c (ix3 r k q) := by
  obtain ⟨-, -, -, ⟨e0, e1, e2⟩, -⟩ := idx0_facts t
  unfold iblk0
  show arrW0 V c (((cfg0.win 2).blk t).view.emb (ix3 (0 : Fin 1) k q)) = arrW0 V c (ix3 r k q)
  refine congrArg (arrW0 V c) (funext fun a => Fin.ext ?_)
  match a with
  | ⟨0, _⟩ => show win0_2.index t (0 : Fin 3) * 1 + 1 * 0 = r.val; omega
  | ⟨1, _⟩ => show win0_2.index t (1 : Fin 3) * 128 + 1 * k.val = k.val; omega
  | ⟨2, _⟩ => show win0_2.index t (2 : Fin 3) * 128 + 1 * q.val = q.val; omega

/-- The bias window's block at point `t`, at (0, 0, q): slab t / 10, whole. -/
theorem iblk0_3_at (c : Dev nD) (t : Fin cfg0.N) (q : Fin 128) (r : Fin 9) (hr : r.val = t.val / 10) :
    iblk0 V c 3 t (ix3 (0 : Fin 1) (0 : Fin 1) q) = arrB0 V c (ix3 r (0 : Fin 1) q) := by
  obtain ⟨-, -, -, -, ⟨e0, e1, e2⟩⟩ := idx0_facts t
  unfold iblk0
  show arrB0 V c (((cfg0.win 3).blk t).view.emb (ix3 (0 : Fin 1) (0 : Fin 1) q)) = arrB0 V c (ix3 r (0 : Fin 1) q)
  refine congrArg (arrB0 V c) (funext fun a => Fin.ext ?_)
  match a with
  | ⟨0, _⟩ => show win0_3.index t (0 : Fin 3) * 1 + 1 * 0 = r.val; omega
  | ⟨1, _⟩ => show win0_3.index t (1 : Fin 3) * 1 + 1 * 0 = 0; omega
  | ⟨2, _⟩ => show win0_3.index t (2 : Fin 3) * 128 + 1 * q.val = q.val; omega

/-! ## What a point writes back -/

/-- The output window's buffer after the body at point `t`, at (0, p, q): the projection at row 5000 · (t % 10) + p of
    slab t / 10. -/
theorem out0_at (c : Dev nD) (t : Fin cfg0.N) (p : Fin 5000) (q : Fin 128) (r : Fin 9) (n : Fin 50000)
    (hr : r.val = t.val / 10) (hn : n.val = t.val % 10 * 5000 + p.val) :
    out0_4 (iblk0 V c 0 t) (iblk0 V c 1 t) (iblk0 V c 2 t) (iblk0 V c 3 t) (ix3 (0 : Fin 1) p q)
      = projAt0 (arrA0 V c) (arrS0 V c) (arrW0 V c) (arrB0 V c) r n q := by
  unfold out0_4
  rw [View.canon_unit_zero hzero0]
  simp only [View.ld_unit_zero (S := S1x5000x128) hzero0, View.ld_unit_zero (S := S1x5000x1) hzero0,
    View.ld_unit_zero (S := S1x128x128) hzero0, View.ld_unit_zero (S := S1x1x128) hzero0]
  rw [pay0_at, iblk0_1_at V c t p r n hr hn, iblk0_3_at V c t q r hr]
  unfold projAt0
  refine congrArg (fun x => ((0 : EReal) + x) + arrB0 V c (ix3 r (0 : Fin 1) q)) (Finset.sum_congr rfl fun k _ => ?_)
  rw [iblk0_0_at V c t p k r n hr hn, iblk0_2_at V c t k q r hr]

/-- WHAT POINT `t` WRITES BACK is the block at `t` of the projection of the four arrays as the call finds them. -/
theorem flushed0_eq (c : Dev nD) (t : Fin cfg0.N) :
    (dat0 (F := Ideal) V c).flushed 4 t
      = ((cfg0.win 4).blk t).view.read (Elt Ideal) (proj0 (arrA0 V c) (arrS0 V c) (arrW0 V c) (arrB0 V c)) := by
  show (cfg0.win 4).cut (grid0.coords t) ((dat0 V c).after 4 t) = _
  rw [after0_4]
  obtain ⟨⟨e0, e1, e2⟩, -⟩ := idx0_facts t
  have hN : t.val < 90 := t.isLt
  funext j
  obtain ⟨p, q, rfl⟩ : ∃ (p : Fin 5000) (q : Fin 128), j = ix3 (0 : Fin 1) p q :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  show out0_4 (iblk0 V c 0 t) (iblk0 V c 1 t) (iblk0 V c 2 t) (iblk0 V c 3 t) (ix3 (0 : Fin 1) p q)
    = proj0 (arrA0 V c) (arrS0 V c) (arrW0 V c) (arrB0 V c) (((cfg0.win 4).blk t).view.emb (ix3 (0 : Fin 1) p q))
  rw [out0_at V c t p q ⟨t.val / 10, by omega⟩ ⟨t.val % 10 * 5000 + p.val, by omega⟩ rfl rfl]
  refine (proj0_of_val _ _ _ _ _ _ _ _ ?_ ?_ ?_).symm
  · show win0_4.index t (0 : Fin 3) * 1 + 1 * 0 = t.val / 10; omega
  · show win0_4.index t (1 : Fin 3) * 5000 + 1 * p.val = t.val % 10 * 5000 + p.val; omega
  · show win0_4.index t (2 : Fin 3) * 128 + 1 * q.val = q.val; omega

/-! ## The ninety blocks tile the array -/

/-- An index of the array is in point `t`'s block iff each coordinate is in the block's range on its axis. -/
theorem mem_blk0 (t : Fin cfg0.N) (i : S9x50000x128.Idx) :
    i ∈ ((cfg0.win 4).blk t).view.set ↔ ∀ a : Fin 3, win0_4.index t a * S1x5000x128.size a ≤ (i a).val ∧ (i a).val < win0_4.index t a * S1x5000x128.size a + S1x5000x128.size a := by
  show i ∈ ((View.whole main_v438).slice (win0_4.rect t)).set ↔ _
  rw [View.set_slice_whole, Rect.mem_set_unit]
  exact Iff.rfl

/-- Row `n` of slab `r` is in the block of point 10 · r + n / 5000. -/
theorem cover0 (i : S9x50000x128.Idx) : ∃ t : Fin cfg0.N, (cfg0.win 4).flush t = true ∧ i ∈ ((cfg0.win 4).blk t).view.set := by
  have h0 : (i 0).val < 9 := (i 0).isLt
  have h1 : (i 1).val < 50000 := (i 1).isLt
  have h2 : (i 2).val < 128 := (i 2).isLt
  have hN : cfg0.N = 90 := N_0
  let t : Fin cfg0.N := ⟨10 * (i 0).val + (i 1).val / 5000, by rw [hN]; omega⟩
  have ht : t.val = 10 * (i 0).val + (i 1).val / 5000 := rfl
  obtain ⟨⟨e0, e1, e2⟩, -⟩ := idx0_facts t
  refine ⟨t, flush0_4 t, ?_⟩
  rw [mem_blk0]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 5000 ≤ (i 1).val ∧ (i 1).val < win0_4.index t (1 : Fin 3) * 5000 + 5000; omega
  | ⟨2, _⟩ => show win0_4.index t (2 : Fin 3) * 128 ≤ (i 2).val ∧ (i 2).val < win0_4.index t (2 : Fin 3) * 128 + 128; omega

/-! ## The array after the run -/

/-- THE ARRAY after the call: the projection of the four arrays as the call finds them. -/
theorem final0 (c : Dev nD) :
    (dat0 (F := Ideal) V c).arrAt 4 cfg0.N = proj0 (arrA0 V c) (arrS0 V c) (arrW0 V c) (arrB0 V c) :=
  (dat0 (F := Ideal) V c).arrAt_eq_of_cover 4 _ (fun t _ => flushed0_eq V c t) cover0

/-- The same, element by element. -/
theorem final0_apply (c : Dev nD) (r : Fin 9) (n : Fin 50000) (q : Fin 128) :
    (dat0 (F := Ideal) V c).arrAt 4 cfg0.N (ix3 r n q)
      = ((0 : EReal) + ∑ k : Fin 128, (arrA0 V c (ix3 r n k) * arrS0 V c (ix3 r n (0 : Fin 1))) * arrW0 V c (ix3 r k q))
        + arrB0 V c (ix3 r (0 : Fin 1) q) := by
  rw [final0]
  rfl

end Region0

end Cert.KernelIdeal.Val

end
-- ==== Proof.KI.Val1.lean ====
/-
  Pallas call 1 (the per-relation projection), from blocks to the array. The grid is (relation, node tile), 9 × 10
  points, point t = 10 · relation + tile; at point t the aggregate, norm and output windows stand on rows
  5000 · (t % 10) … 5000 · (t % 10) + 4999 of slab t / 10, the weight and bias windows on slab t / 10 whole. What point t
  writes back is therefore the block at t of ONE function of the four entry arrays — row n of slab r scaled by its
  norm, contracted with slab r of the weights, plus slab r of the bias —, the ninety blocks tile the output array,
  and the array after the run is that function.
-/
import proofs.«151568_j90031104458821_2_alg».proof.Proof.KI.Reg1
import proofs.«151568_j90031104458821_2_alg».proof.Proof.KI.Pay
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

/-- The body's stored value at (0, p, q), with the block indices spelt by their coordinates. -/
theorem pay1_at (v0 : Vec Ideal S1x5000x128 .f32) (v2 : Vec Ideal S1x5000x1 .f32) (v7 : Vec Ideal S1x128x128 .f32)
    (v11 : Vec Ideal S1x1x128 .f32) (p : Fin 5000) (q : Fin 128) :
    k1_pay1 (F := Ideal) v0 v2 v7 v11 (ix3 (0 : Fin 1) p q)
      = ((0 : EReal) + ∑ k : Fin 128, (v0 (ix3 (0 : Fin 1) p k) * v2 (ix3 (0 : Fin 1) p (0 : Fin 1))) * v7 (ix3 (0 : Fin 1) k q))
        + v11 (ix3 (0 : Fin 1) (0 : Fin 1) q) :=
  Pay.k1_pay1_apply v0 v2 v7 v11 p q

/-! ## The projection of whole arrays -/

/-- Row `n` of slab `r` of `a`, scaled by its norm `s`, contracted over the 128 features with slab `r` of the weights `w`
    into a zero accumulator, plus slab `r` of the bias `b`: the element (r, n, q). -/
def projAt1 (a : S9x50000x128.Idx → EReal) (s : S9x50000x1.Idx → EReal) (w : S9x128x128.Idx → EReal) (b : S9x1x128.Idx → EReal)
    (r : Fin 9) (n : Fin 50000) (q : Fin 128) : EReal :=
  ((0 : EReal) + ∑ k : Fin 128, (a (ix3 r n k) * s (ix3 r n (0 : Fin 1))) * w (ix3 r k q)) + b (ix3 r (0 : Fin 1) q)

/-- The same as one array. -/
def proj1 (a : S9x50000x128.Idx → EReal) (s : S9x50000x1.Idx → EReal) (w : S9x128x128.Idx → EReal) (b : S9x1x128.Idx → EReal) :
    S9x50000x128.Idx → EReal :=
  fun i => projAt1 a s w b (i 0) (i 1) (i 2)

/-- At an index whose coordinates are `r`, `n`, `q`. -/
theorem proj1_of_val (a : S9x50000x128.Idx → EReal) (s : S9x50000x1.Idx → EReal) (w : S9x128x128.Idx → EReal) (b : S9x1x128.Idx → EReal)
    (i : S9x50000x128.Idx) (r : Fin 9) (n : Fin 50000) (q : Fin 128) (h0 : (i 0).val = r.val) (h1 : (i 1).val = n.val) (h2 : (i 2).val = q.val) :
    proj1 a s w b i = projAt1 a s w b r n q := by
  have e0 : (i 0 : Fin 9) = r := Fin.ext h0
  have e1 : (i 1 : Fin 50000) = n := Fin.ext h1
  have e2 : (i 2 : Fin 128) = q := Fin.ext h2
  unfold proj1
  rw [e0, e1, e2]

/-! ## The index maps over the grid -/

theorem hzero1 : (![0, 0, 0] : Fin 3 → Nat) = fun _ => 0 := funext fun a => by fin_cases a <;> rfl

/-- The printed index maps, decided over the ninety points: the aggregate, norm and output windows stand on block
    (t / 10, t % 10, 0), the weight and bias windows on block (t / 10, 0, 0). -/
theorem idx1_facts : ∀ t : Fin cfg1.N,
    (win1_4.index t (0 : Fin 3) = t.val / 10 ∧ win1_4.index t (1 : Fin 3) = t.val % 10 ∧ win1_4.index t (2 : Fin 3) = 0)
    ∧ (win1_0.index t (0 : Fin 3) = t.val / 10 ∧ win1_0.index t (1 : Fin 3) = t.val % 10 ∧ win1_0.index t (2 : Fin 3) = 0)
    ∧ (win1_1.index t (0 : Fin 3) = t.val / 10 ∧ win1_1.index t (1 : Fin 3) = t.val % 10 ∧ win1_1.index t (2 : Fin 3) = 0)
    ∧ (win1_2.index t (0 : Fin 3) = t.val / 10 ∧ win1_2.index t (1 : Fin 3) = 0 ∧ win1_2.index t (2 : Fin 3) = 0)
    ∧ (win1_3.index t (0 : Fin 3) = t.val / 10 ∧ win1_3.index t (1 : Fin 3) = 0 ∧ win1_3.index t (2 : Fin 3) = 0) :=
  (by decide +kernel : ∀ t : Fin grid1.N, _)

section Region1
variable (V : (c : Dev nD) → (b : Ref sig .tc) → Buf (Elt Ideal) ((c : Thread nD τ).loc b))

/-- The four arrays the call reads, as it finds them: the aggregate, its rows' norms, the weights and the bias. -/
abbrev arrA1 (c : Dev nD) : S9x50000x128.Idx → EReal := V c main_v652
abbrev arrS1 (c : Dev nD) : S9x50000x1.Idx → EReal := V c main_v653
abbrev arrW1 (c : Dev nD) : S9x128x128.Idx → EReal := V c main_arg5
abbrev arrB1 (c : Dev nD) : S9x1x128.Idx → EReal := V c main_v654

/-! ## Each input block, read at an element -/

/-- The aggregate window's block at point `t`, at (0, p, k): row 5000 · (t % 10) + p of slab t / 10. -/
theorem iblk1_0_at (c : Dev nD) (t : Fin cfg1.N) (p : Fin 5000) (k : Fin 128) (r : Fin 9) (n : Fin 50000)
    (hr : r.val = t.val / 10) (hn : n.val = t.val % 10 * 5000 + p.val) :
    iblk1 V c 0 t (ix3 (0 : Fin 1) p k) = arrA1 V c (ix3 r n k) := by
  obtain ⟨-, ⟨e0, e1, e2⟩, -, -, -⟩ := idx1_facts t
  unfold iblk1
  show arrA1 V c (((cfg1.win 0).blk t).view.emb (ix3 (0 : Fin 1) p k)) = arrA1 V c (ix3 r n k)
  refine congrArg (arrA1 V c) (funext fun a => Fin.ext ?_)
  match a with
  | ⟨0, _⟩ => show win1_0.index t (0 : Fin 3) * 1 + 1 * 0 = r.val; omega
  | ⟨1, _⟩ => show win1_0.index t (1 : Fin 3) * 5000 + 1 * p.val = n.val; omega
  | ⟨2, _⟩ => show win1_0.index t (2 : Fin 3) * 128 + 1 * k.val = k.val; omega

/-- The norm window's block at point `t`, at (0, p, 0): row 5000 · (t % 10) + p of slab t / 10. -/
theorem iblk1_1_at (c : Dev nD) (t : Fin cfg1.N) (p : Fin 5000) (r : Fin 9) (n : Fin 50000)
    (hr : r.val = t.val / 10) (hn : n.val = t.val % 10 * 5000 + p.val) :
    iblk1 V c 1 t (ix3 (0 : Fin 1) p (0 : Fin 1)) = arrS1 V c (ix3 r n (0 : Fin 1)) := by
  obtain ⟨-, -, ⟨e0, e1, e2⟩, -, -⟩ := idx1_facts t
  unfold iblk1
  show arrS1 V c (((cfg1.win 1).blk t).view.emb (ix3 (0 : Fin 1) p (0 : Fin 1))) = arrS1 V c (ix3 r n (0 : Fin 1))
  refine congrArg (arrS1 V c) (funext fun a => Fin.ext ?_)
  match a with
  | ⟨0, _⟩ => show win1_1.index t (0 : Fin 3) * 1 + 1 * 0 = r.val; omega
  | ⟨1, _⟩ => show win1_1.index t (1 : Fin 3) * 5000 + 1 * p.val = n.val; omega
  | ⟨2, _⟩ => show win1_1.index t (2 : Fin 3) * 1 + 1 * 0 = 0; omega

/-- The weight window's block at point `t`, at (0, k, q): slab t / 10, whole. -/
theorem iblk1_2_at (c : Dev nD) (t : Fin cfg1.N) (k : Fin 128) (q : Fin 128) (r : Fin 9) (hr : r.val = t.val / 10) :
    iblk1 V c 2 t (ix3 (0 : Fin 1) k q) = arrW1 V c (ix3 r k q) := by
  obtain ⟨-, -, -, ⟨e0, e1, e2⟩, -⟩ := idx1_facts t
  unfold iblk1
  show arrW1 V c (((cfg1.win 2).blk t).view.emb (ix3 (0 : Fin 1) k q)) = arrW1 V c (ix3 r k q)
  refine congrArg (arrW1 V c) (funext fun a => Fin.ext ?_)
  match a with
  | ⟨0, _⟩ => show win1_2.index t (0 : Fin 3) * 1 + 1 * 0 = r.val; omega
  | ⟨1, _⟩ => show win1_2.index t (1 : Fin 3) * 128 + 1 * k.val = k.val; omega
  | ⟨2, _⟩ => show win1_2.index t (2 : Fin 3) * 128 + 1 * q.val = q.val; omega

/-- The bias window's block at point `t`, at (0, 0, q): slab t / 10, whole. -/
theorem iblk1_3_at (c : Dev nD) (t : Fin cfg1.N) (q : Fin 128) (r : Fin 9) (hr : r.val = t.val / 10) :
    iblk1 V c 3 t (ix3 (0 : Fin 1) (0 : Fin 1) q) = arrB1 V c (ix3 r (0 : Fin 1) q) := by
  obtain ⟨-, -, -, -, ⟨e0, e1, e2⟩⟩ := idx1_facts t
  unfold iblk1
  show arrB1 V c (((cfg1.win 3).blk t).view.emb (ix3 (0 : Fin 1) (0 : Fin 1) q)) = arrB1 V c (ix3 r (0 : Fin 1) q)
  refine congrArg (arrB1 V c) (funext fun a => Fin.ext ?_)
  match a with
  | ⟨0, _⟩ => show win1_3.index t (0 : Fin 3) * 1 + 1 * 0 = r.val; omega
  | ⟨1, _⟩ => show win1_3.index t (1 : Fin 3) * 1 + 1 * 0 = 0; omega
  | ⟨2, _⟩ => show win1_3.index t (2 : Fin 3) * 128 + 1 * q.val = q.val; omega

/-! ## What a point writes back -/

/-- The output window's buffer after the body at point `t`, at (0, p, q): the projection at row 5000 · (t % 10) + p of
    slab t / 10. -/
theorem out1_at (c : Dev nD) (t : Fin cfg1.N) (p : Fin 5000) (q : Fin 128) (r : Fin 9) (n : Fin 50000)
    (hr : r.val = t.val / 10) (hn : n.val = t.val % 10 * 5000 + p.val) :
    out1_4 (iblk1 V c 0 t) (iblk1 V c 1 t) (iblk1 V c 2 t) (iblk1 V c 3 t) (ix3 (0 : Fin 1) p q)
      = projAt1 (arrA1 V c) (arrS1 V c) (arrW1 V c) (arrB1 V c) r n q := by
  unfold out1_4
  rw [View.canon_unit_zero hzero1]
  simp only [View.ld_unit_zero (S := S1x5000x128) hzero1, View.ld_unit_zero (S := S1x5000x1) hzero1,
    View.ld_unit_zero (S := S1x128x128) hzero1, View.ld_unit_zero (S := S1x1x128) hzero1]
  rw [pay1_at, iblk1_1_at V c t p r n hr hn, iblk1_3_at V c t q r hr]
  unfold projAt1
  refine congrArg (fun x => ((0 : EReal) + x) + arrB1 V c (ix3 r (0 : Fin 1) q)) (Finset.sum_congr rfl fun k _ => ?_)
  rw [iblk1_0_at V c t p k r n hr hn, iblk1_2_at V c t k q r hr]

/-- WHAT POINT `t` WRITES BACK is the block at `t` of the projection of the four arrays as the call finds them. -/
theorem flushed1_eq (c : Dev nD) (t : Fin cfg1.N) :
    (dat1 (F := Ideal) V c).flushed 4 t
      = ((cfg1.win 4).blk t).view.read (Elt Ideal) (proj1 (arrA1 V c) (arrS1 V c) (arrW1 V c) (arrB1 V c)) := by
  show (cfg1.win 4).cut (grid1.coords t) ((dat1 V c).after 4 t) = _
  rw [after1_4]
  obtain ⟨⟨e0, e1, e2⟩, -⟩ := idx1_facts t
  have hN : t.val < 90 := t.isLt
  funext j
  obtain ⟨p, q, rfl⟩ : ∃ (p : Fin 5000) (q : Fin 128), j = ix3 (0 : Fin 1) p q :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  show out1_4 (iblk1 V c 0 t) (iblk1 V c 1 t) (iblk1 V c 2 t) (iblk1 V c 3 t) (ix3 (0 : Fin 1) p q)
    = proj1 (arrA1 V c) (arrS1 V c) (arrW1 V c) (arrB1 V c) (((cfg1.win 4).blk t).view.emb (ix3 (0 : Fin 1) p q))
  rw [out1_at V c t p q ⟨t.val / 10, by omega⟩ ⟨t.val % 10 * 5000 + p.val, by omega⟩ rfl rfl]
  refine (proj1_of_val _ _ _ _ _ _ _ _ ?_ ?_ ?_).symm
  · show win1_4.index t (0 : Fin 3) * 1 + 1 * 0 = t.val / 10; omega
  · show win1_4.index t (1 : Fin 3) * 5000 + 1 * p.val = t.val % 10 * 5000 + p.val; omega
  · show win1_4.index t (2 : Fin 3) * 128 + 1 * q.val = q.val; omega

/-! ## The ninety blocks tile the array -/

/-- An index of the array is in point `t`'s block iff each coordinate is in the block's range on its axis. -/
theorem mem_blk1 (t : Fin cfg1.N) (i : S9x50000x128.Idx) :
    i ∈ ((cfg1.win 4).blk t).view.set ↔ ∀ a : Fin 3, win1_4.index t a * S1x5000x128.size a ≤ (i a).val ∧ (i a).val < win1_4.index t a * S1x5000x128.size a + S1x5000x128.size a := by
  show i ∈ ((View.whole main_v655).slice (win1_4.rect t)).set ↔ _
  rw [View.set_slice_whole, Rect.mem_set_unit]
  exact Iff.rfl

/-- Row `n` of slab `r` is in the block of point 10 · r + n / 5000. -/
theorem cover1 (i : S9x50000x128.Idx) : ∃ t : Fin cfg1.N, (cfg1.win 4).flush t = true ∧ i ∈ ((cfg1.win 4).blk t).view.set := by
  have h0 : (i 0).val < 9 := (i 0).isLt
  have h1 : (i 1).val < 50000 := (i 1).isLt
  have h2 : (i 2).val < 128 := (i 2).isLt
  have hN : cfg1.N = 90 := N_1
  let t : Fin cfg1.N := ⟨10 * (i 0).val + (i 1).val / 5000, by rw [hN]; omega⟩
  have ht : t.val = 10 * (i 0).val + (i 1).val / 5000 := rfl
  obtain ⟨⟨e0, e1, e2⟩, -⟩ := idx1_facts t
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 5000 ≤ (i 1).val ∧ (i 1).val < win1_4.index t (1 : Fin 3) * 5000 + 5000; omega
  | ⟨2, _⟩ => show win1_4.index t (2 : Fin 3) * 128 ≤ (i 2).val ∧ (i 2).val < win1_4.index t (2 : Fin 3) * 128 + 128; omega

/-! ## The array after the run -/

/-- THE ARRAY after the call: the projection of the four arrays as the call finds them. -/
theorem final1 (c : Dev nD) :
    (dat1 (F := Ideal) V c).arrAt 4 cfg1.N = proj1 (arrA1 V c) (arrS1 V c) (arrW1 V c) (arrB1 V c) :=
  (dat1 (F := Ideal) V c).arrAt_eq_of_cover 4 _ (fun t _ => flushed1_eq V c t) cover1

/-- The same, element by element. -/
theorem final1_apply (c : Dev nD) (r : Fin 9) (n : Fin 50000) (q : Fin 128) :
    (dat1 (F := Ideal) V c).arrAt 4 cfg1.N (ix3 r n q)
      = ((0 : EReal) + ∑ k : Fin 128, (arrA1 V c (ix3 r n k) * arrS1 V c (ix3 r n (0 : Fin 1))) * arrW1 V c (ix3 r k q))
        + arrB1 V c (ix3 r (0 : Fin 1) q) := by
  rw [final1]
  rfl

end Region1

end Cert.KernelIdeal.Val

end
-- ==== Proof.KI.Val2.lean ====
/-
  Pallas call 2 (the classifier), from blocks to the array: what the call leaves in its output array, element by
  element, as one function of the three arrays it reads as it finds them.

  The grid is (node type, node tile), 3 × 10 points, point t = 10 · type + tile. The hidden-state window and the output
  window move together: at point t both sit at block (t / 10, t % 10, 0), 5000 rows of slab t / 10; the weight and bias
  windows are the whole of their arrays at every point. So the block a point writes back is that block of the
  whole-array classifier, and the thirty blocks tile the output array: row n of slab r lies in point 10 r + n / 5000's.
-/
import proofs.«151568_j90031104458821_2_alg».proof.Proof.KI.Reg2
import proofs.«151568_j90031104458821_2_alg».proof.Proof.KI.Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The zero offsets of a rank-3 and of a rank-2 whole-buffer rectangle, as constant functions. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The classifier on whole arrays: at (type, row, class) the zero accumulator plus the contraction over the 128
    features of max(h, 0) at (type, row, ·) with the weight column of the class, plus the class's bias. -/
def classify (h : S3x50000x128.Idx → EReal) (w : S128x16.Idx → EReal) (b : S1x16.Idx → EReal) : S3x50000x16.Idx → EReal :=
  fun i => ((0 : EReal) + ∑ k : Fin 128, max (h (ix3 (i 0 : Fin 3) (i 1 : Fin 50000) k)) 0 * w (ix2 k (i 2 : Fin 16)))
    + b (ix2 (0 : Fin 1) (i 2 : Fin 16))

/-- The four index maps over the grid: the hidden-state and output windows sit at block (t / 10, t % 10, 0), the weight
    and bias windows at block (0, 0). -/
theorem index_facts : ∀ t : Fin cfg2.N,
    win2_0.index t (0 : Fin 3) = t.val / 10 ∧ win2_0.index t (1 : Fin 3) = t.val % 10 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val / 10 ∧ win2_3.index t (1 : Fin 3) = t.val % 10 ∧ win2_3.index t (2 : Fin 3) = 0 :=
  (by decide +kernel : ∀ t : Fin grid2.N, _)

/-- The hidden-state block of point t at (0, p, k) is the array at slab t / 10, row 5000 (t % 10) + p, feature k. -/
theorem hidden_block_apply (c : Dev nD) (t : Fin cfg2.N) (p : Fin 5000) (k : Fin 128) (i : S3x50000x128.Idx)
    (h0 : (i 0).val = t.val / 10) (h1 : (i 1).val = 5000 * (t.val % 10) + p.val) (h2 : (i 2).val = k.val) :
    (iblk2 V c 0 t : Vec Ideal S1x5000x128 .f32) (ix3 (0 : Fin 1) p k) = (V c main_v689 : S3x50000x128.Idx → EReal) i := by
  obtain ⟨e0, e1, e2, -⟩ := index_facts t
  unfold iblk2
  rw [View.read_apply]
  show V c main_v689 _ = V c main_v689 _
  congr 1
  funext a
  apply Fin.ext
  match a with
  | ⟨0, _⟩ => show win2_0.index t (0 : Fin 3) * 1 + 1 * 0 = (i 0).val; omega
  | ⟨1, _⟩ => show win2_0.index t (1 : Fin 3) * 5000 + 1 * p.val = (i 1).val; omega
  | ⟨2, _⟩ => show win2_0.index t (2 : Fin 3) * 128 + 1 * k.val = (i 2).val; omega

/-- The weight block of any point is the weight array. -/
theorem weight_block_apply (c : Dev nD) (t : Fin cfg2.N) (k : Fin 128) (q : Fin 16) :
    (iblk2 V c 1 t : Vec Ideal S128x16 .f32) (ix2 k q) = (V c main_arg7 : S128x16.Idx → EReal) (ix2 k q) := by
  obtain ⟨-, -, -, e0, e1, -⟩ := index_facts t
  unfold iblk2
  rw [View.read_apply]
  show V c main_arg7 _ = V c main_arg7 _
  congr 1
  funext a
  apply Fin.ext
  match a with
  | ⟨0, _⟩ => show win2_1.index t (0 : Fin 2) * 128 + 1 * k.val = k.val; omega
  | ⟨1, _⟩ => show win2_1.index t (1 : Fin 2) * 16 + 1 * q.val = q.val; omega

/-- The bias block of any point is the bias row. -/
theorem bias_block_apply (c : Dev nD) (t : Fin cfg2.N) (q : Fin 16) :
    (iblk2 V c 2 t : Vec Ideal S1x16 .f32) (ix2 (0 : Fin 1) q) = (V c main_v690 : S1x16.Idx → EReal) (ix2 (0 : Fin 1) q) := by
  obtain ⟨-, -, -, -, -, e0, e1, -⟩ := index_facts t
  unfold iblk2
  rw [View.read_apply]
  show V c main_v690 _ = V c main_v690 _
  congr 1
  funext a
  apply Fin.ext
  match a with
  | ⟨0, _⟩ => show win2_2.index t (0 : Fin 2) * 1 + 1 * 0 = 0; omega
  | ⟨1, _⟩ => show win2_2.index t (1 : Fin 2) * 16 + 1 * q.val = q.val; omega

/-- The body's payload over point t's three blocks, at (0, p, q), is the classifier of the arrays at slab t / 10,
    row 5000 (t % 10) + p, class q. -/
theorem payload_block_apply (c : Dev nD) (t : Fin cfg2.N) (p : Fin 5000) (q : Fin 16) (i : S3x50000x16.Idx)
    (h0 : (i 0).val = t.val / 10) (h1 : (i 1).val = 5000 * (t.val % 10) + p.val) (h2 : (i 2).val = q.val) :
    k2_pay1 (F := Ideal) (iblk2 V c 0 t) (iblk2 V c 1 t) (iblk2 V c 2 t) (ix3 (0 : Fin 1) p q)
      = classify (V c main_v689) (V c main_arg7) (V c main_v690) i := by
  refine (Pay.k2_pay1_apply (iblk2 V c 0 t) (iblk2 V c 1 t) (iblk2 V c 2 t) p q).trans ?_
  have hq : (i 2 : Fin 16) = q := Fin.ext h2
  unfold classify
  rw [hq, bias_block_apply V c t q]
  refine congrArg (fun s => ((0 : EReal) + s) + (V c main_v690 : S1x16.Idx → EReal) (ix2 (0 : Fin 1) q))
    (Finset.sum_congr rfl fun k _ => ?_)
  rw [hidden_block_apply V c t p k (ix3 (i 0 : Fin 3) (i 1 : Fin 50000) k) h0 h1 rfl, weight_block_apply V c t k q]

/-- What point t writes back is its block of the classifier of the arrays as the call finds them. -/
theorem written_eq (c : Dev nD) (t : Fin cfg2.N) :
    (dat2 (F := Ideal) V c).flushed 3 t
      = ((cfg2.win 3).blk t).view.read (Elt Ideal) (classify (V c main_v689) (V c main_arg7) (V c main_v690)) := by
  show (cfg2.win 3).cut (grid2.coords t) ((dat2 V c).after 3 t) = _
  rw [after2_3]
  unfold out2_3
  rw [View.canon_unit_zero zeros3]
  simp only [View.ld_unit_zero (S := S1x5000x128) zeros3, View.ld_unit_zero (S := S128x16) zeros2,
    View.ld_unit_zero (S := S1x16) zeros2]
  obtain ⟨-, -, -, -, -, -, -, e0, e1, e2⟩ := index_facts t
  funext j
  have hj0 : (j 0).val < 1 := (j 0).isLt
  have hj1 : (j 1).val < 5000 := (j 1).isLt
  have hj2 : (j 2).val < 16 := (j 2).isLt
  -- the staging buffer's element (0, p, q)
  have hx : (cfg2.win 3).xinj (grid2.coords t) j = ix3 (0 : Fin 1) (⟨(j 1).val, hj1⟩ : Fin 5000) (⟨(j 2).val, hj2⟩ : Fin 16) :=
    funext fun a => Fin.ext (by
      match a with
      | ⟨0, _⟩ => show (j 0).val = 0; omega
      | ⟨1, _⟩ => rfl
      | ⟨2, _⟩ => rfl)
  refine (congrArg (k2_pay1 (F := Ideal) (iblk2 V c 0 t) (iblk2 V c 1 t) (iblk2 V c 2 t)) hx).trans ?_
  rw [View.read_apply]
  refine payload_block_apply V c t ⟨(j 1).val, hj1⟩ ⟨(j 2).val, hj2⟩ (((cfg2.win 3).blk t).view.emb j) ?_ ?_ ?_
  · show win2_3.index t (0 : Fin 3) * 1 + 1 * (j 0).val = t.val / 10; omega
  · show win2_3.index t (1 : Fin 3) * 5000 + 1 * (j 1).val = 5000 * (t.val % 10) + (j 1).val; omega
  · show win2_3.index t (2 : Fin 3) * 16 + 1 * (j 2).val = (j 2).val; omega

/-- An index of the output array is in point t's block iff each coordinate is in the block's range on its axis. -/
theorem mem_block (t : Fin cfg2.N) (i : S3x50000x16.Idx) :
    i ∈ ((cfg2.win 3).blk t).view.set ↔ ∀ a : Fin 3, win2_3.index t a * S1x5000x16.size a ≤ (i a).val
      ∧ (i a).val < win2_3.index t a * S1x5000x16.size a + S1x5000x16.size a := by
  show i ∈ ((View.whole main_v691).slice (win2_3.rect t)).set ↔ _
  rw [View.set_slice_whole, Rect.mem_set_unit]
  exact Iff.rfl

/-- The thirty blocks tile the output array: row n of slab r lies in the block of point 10 r + n / 5000. -/
theorem blocks_cover (i : S3x50000x16.Idx) :
    ∃ t : Fin cfg2.N, (cfg2.win 3).flush t = true ∧ i ∈ ((cfg2.win 3).blk t).view.set := by
  have hi0 : (i 0).val < 3 := (i 0).isLt
  have hi1 : (i 1).val < 50000 := (i 1).isLt
  have hi2 : (i 2).val < 16 := (i 2).isLt
  have hN : cfg2.N = 30 := N_2
  obtain ⟨t, ht⟩ : ∃ t : Fin cfg2.N, t.val = 10 * (i 0).val + (i 1).val / 5000 :=
    ⟨⟨10 * (i 0).val + (i 1).val / 5000, by rw [hN]; omega⟩, rfl⟩
  obtain ⟨-, -, -, -, -, -, -, e0, e1, e2⟩ := index_facts t
  refine ⟨t, flush2_3 t, ?_⟩
  rw [mem_block]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 5000 ≤ (i 1).val ∧ (i 1).val < win2_3.index t (1 : Fin 3) * 5000 + 5000; omega
  | ⟨2, _⟩ => show win2_3.index t (2 : Fin 3) * 16 ≤ (i 2).val ∧ (i 2).val < win2_3.index t (2 : Fin 3) * 16 + 16; omega

/-- The output array after the call is the classifier of the arrays as the call finds them. -/
theorem final2 (c : Dev nD) :
    (dat2 (F := Ideal) V c).arrAt 3 cfg2.N = classify (V c main_v689) (V c main_arg7) (V c main_v690) :=
  (dat2 (F := Ideal) V c).arrAt_eq_of_cover 3 (classify (V c main_v689) (V c main_arg7) (V c main_v690))
    (fun t _ => written_eq V c t) blocks_cover

/-- The output array after the call, element by element: at (type, row, class) the zero accumulator plus the contraction
    over the 128 features of max(h, 0) at (type, row, ·) with the weight column of the class, plus the class's bias. -/
theorem final2_apply (c : Dev nD) (ty : Fin 3) (n : Fin 50000) (q : Fin 16) :
    (dat2 (F := Ideal) V c).arrAt 3 cfg2.N (ix3 ty n q)
      = ((0 : EReal) + ∑ k : Fin 128, max (α := EReal) ((V c main_v689 : S3x50000x128.Idx → EReal) (ix3 ty n k)) 0
            * (V c main_arg7 : S128x16.Idx → EReal) (ix2 k q))
          + (V c main_v690 : S1x16.Idx → EReal) (ix2 (0 : Fin 1) q) := by
  rw [final2]
  rfl

end Cert.KernelIdeal.Val

end
-- ==== Proof.Math.lean ====
/-
  The algebra behind the graph-convolution layer, on the extended reals.

  A relation's messages are aggregated over the edges that land on a node (`rows`), scaled by the node's in-degree
  norm `nd` and projected by the relation's weights `w`. Projecting each message first and aggregating afterwards
  gives the same number as aggregating first and projecting the aggregate, because a finite sum of REAL numbers
  distributes over products and sums exchange; on the extended reals this needs every entry finite, which is what
  `IsR` records and what its closure lemmas carry from the inputs through each operation.
-/
import Mathlib.Data.EReal.Inv
import Mathlib.Algebra.BigOperators.Group.Finset.Basic
import Mathlib.Algebra.BigOperators.Ring.Finset
import Mathlib.Analysis.SpecialFunctions.Pow.Real

namespace Cert.Math

open scoped BigOperators

/-- An extended real that is a real number. -/
def IsR (x : EReal) : Prop := ∃ r : ℝ, x = (r : EReal)

theorem IsR.coe (r : ℝ) : IsR (r : EReal) := ⟨r, rfl⟩
theorem IsR.zero : IsR (0 : EReal) := ⟨0, rfl⟩
theorem IsR.one : IsR (1 : EReal) := ⟨1, rfl⟩
/-- The sum of two reals is the real sum. -/
theorem IsR.add {x y : EReal} (hx : IsR x) (hy : IsR y) : IsR (x + y) := by
  obtain ⟨a, rfl⟩ := hx
  obtain ⟨b, rfl⟩ := hy
  exact ⟨a + b, (EReal.coe_add a b).symm⟩
/-- The product of two reals is the real product. -/
theorem IsR.mul {x y : EReal} (hx : IsR x) (hy : IsR y) : IsR (x * y) := by
  obtain ⟨a, rfl⟩ := hx
  obtain ⟨b, rfl⟩ := hy
  exact ⟨a * b, (EReal.coe_mul a b).symm⟩
/-- The larger of two reals is one of them. -/
theorem IsR.max {x y : EReal} (hx : IsR x) (hy : IsR y) : IsR (max x y) := by
  rcases le_total x y with h | h
  · rw [max_eq_right h]; exact hy
  · rw [max_eq_left h]; exact hx
/-- A finite sum of reals is real: induction on the index set. -/
theorem IsR.sum {ι : Type} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact IsR.add (h a (Finset.mem_insert_self a s)) (ih fun i hi => h i (Finset.mem_insert_of_mem hi))
/-- `|x| < ⊤` says `x` is a real (the form the precondition's finiteness test takes). -/
theorem IsR.of_abs_lt_top {x : EReal} (h : (x.abs : EReal) < ⊤) : IsR x := by
  induction x using EReal.rec with
  | bot => rw [EReal.abs_bot, EReal.coe_ennreal_top] at h; exact absurd h (lt_irrefl _)
  | coe r => exact ⟨r, rfl⟩
  | top => rw [EReal.abs_top, EReal.coe_ennreal_top] at h; exact absurd h (lt_irrefl _)
theorem IsR.ne_top {x : EReal} (h : IsR x) : x ≠ ⊤ := by
  obtain ⟨r, rfl⟩ := h
  exact EReal.coe_ne_top r
theorem IsR.ne_bot {x : EReal} (h : IsR x) : x ≠ ⊥ := by
  obtain ⟨r, rfl⟩ := h
  exact EReal.coe_ne_bot r

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- Aggregate-then-project equals project-then-aggregate: for real messages `g e k`, a real weight column `w k` and a
    real norm `nd`, over any finite edge set `rows` and feature type. The left side is the shape the tiled projection
    computes (a zero accumulator plus the contraction of the scaled aggregate), the right side the shape of the
    reference (the aggregate, from a zero operand, of the projected messages, scaled afterwards). -/
theorem proj_agg {ιE ιK : Type} [Fintype ιK] (rows : Finset ιE) (g : ιE → ιK → EReal) (w : ιK → EReal) (nd : EReal)
    (hg : ∀ e k, IsR (g e k)) (hw : ∀ k, IsR (w k)) (hnd : IsR nd) :
    (0 : EReal) + ∑ k, ((0 + ∑ e ∈ rows, g e k) * nd) * w k = (0 + ∑ e ∈ rows, ∑ k, g e k * w k) * nd := by
  -- name the real numbers behind every entry
  choose g' hg' using hg
  choose w' hw' using hw
  obtain ⟨n, rfl⟩ := hnd
  obtain rfl : g = fun e k => ((g' e k : ℝ) : EReal) := funext fun e => funext fun k => hg' e k
  obtain rfl : w = fun k => ((w' k : ℝ) : EReal) := funext hw'
  -- both sides are coercions of real expressions
  simp only [zero_add, ← EReal.coe_mul, ← coe_sum]
  congr 1
  -- in ℝ: exchange the two sums on the right, then distribute n and w k over the inner sum
  rw [Finset.sum_comm, Finset.sum_mul]
  refine Finset.sum_congr rfl fun k _ => ?_
  rw [← Finset.sum_mul]
  ring

/-- and that common value is a real. -/
theorem proj_agg_isR {ιE ιK : Type} [Fintype ιK] (rows : Finset ιE) (g : ιE → ιK → EReal) (w : ιK → EReal) (nd : EReal)
    (hg : ∀ e k, IsR (g e k)) (hw : ∀ k, IsR (w k)) (hnd : IsR nd) :
    IsR ((0 + ∑ e ∈ rows, ∑ k, g e k * w k) * nd) :=
  IsR.mul (IsR.add IsR.zero (IsR.sum _ _ fun e _ => IsR.sum _ _ fun k _ => IsR.mul (hg e k) (hw k))) hnd

/-- The same with the sum over a FILTERED universe of pairs (edge, feature), the form an accumulating scatter of a
    two-axis update array takes: the update at (e, k') lands on (n, k) exactly when k' = k and e ∈ rows. -/
theorem sum_filter_pairs {ιE ιK : Type} [Fintype ιE] [Fintype ιK] [DecidableEq ιK] (p : ιE → Prop) [DecidablePred p] (k : ιK)
    (f : ιE × ιK → EReal) :
    ∑ j ∈ Finset.univ.filter (fun j : ιE × ιK => p j.1 ∧ j.2 = k), f j = ∑ e ∈ Finset.univ.filter p, f (e, k) := by
  -- write both filters as indicator sums and split the pair sum into an edge sum of feature sums
  rw [Finset.sum_filter, Finset.sum_filter, Fintype.sum_prod_type]
  refine Finset.sum_congr rfl fun e _ => ?_
  -- for a fixed edge only the feature k survives, and only when p e holds
  by_cases hp : p e
  · simp [hp]
  · simp [hp]

end Cert.Math
-- ==== Proof.Spec.lean ====
/-
  The network as numbers. Three node types of 50000 nodes with 128 features; nine relations, relation r from node type
  `srcT r` to node type `dstT r`, each with 400000 edges. For relation r the graph gives: the node `row r e` whose
  (scaled) feature row edge e carries, the set `land r n` of edges arriving at node n, and the two degree norms.

  One layer: for every relation, gather the scaled source rows along the edges, sum them at the destination, scale by
  the destination norm and project by the relation's weights, add the bias; sum the relations arriving at each node
  type. The kernel aggregates the raw rows and projects the aggregate (`relK`, `layerK`); the reference projects the
  rows and aggregates the projections, adding the bias afterwards (`relR`, `layerR`). With real entries they agree.
-/
import proofs.«151568_j90031104458821_2_alg».proof.Proof.Math

noncomputable section

namespace Cert.Spec

open Cert.Math
open scoped BigOperators

/-- A table of node features. -/
abbrev Tab := Fin 50000 → Fin 128 → EReal

/-- The graph of the nine relations, as the two programs read it off the edge array. -/
structure Graph where
  row : Fin 9 → Fin 400000 → Fin 50000
  land : Fin 9 → Fin 50000 → Finset (Fin 400000)
  ns : Fin 9 → Fin 50000 → EReal
  nd : Fin 9 → Fin 50000 → EReal
  ns_isR : ∀ r n, IsR (ns r n)
  nd_isR : ∀ r n, IsR (nd r n)

variable (G : Graph)

/-- The message edge e of relation r carries, feature k: the source row scaled by the source norm. -/
def msg (x : Tab) (r : Fin 9) (e : Fin 400000) (k : Fin 128) : EReal := x (G.row r e) k * G.ns r (G.row r e)

/-- The raw aggregate at node n (an accumulation from a zero operand). -/
def agg (x : Tab) (r : Fin 9) (n : Fin 50000) (k : Fin 128) : EReal := 0 + ∑ e ∈ G.land r n, msg G x r e k

/-- Relation r as the kernel computes it: the scaled aggregate contracted with the weights into a zero accumulator, plus the bias. -/
def relK (x : Tab) (W : Fin 128 → Fin 128 → EReal) (b : Fin 128 → EReal) (r : Fin 9) (n : Fin 50000) (j : Fin 128) : EReal :=
  ((0 : EReal) + ∑ k : Fin 128, (agg G x r n k * G.nd r n) * W k j) + b j

/-- Relation r as the reference computes it, without the bias: the aggregate of the projected messages, scaled. -/
def relR (x : Tab) (W : Fin 128 → Fin 128 → EReal) (r : Fin 9) (n : Fin 50000) (j : Fin 128) : EReal :=
  ((0 : EReal) + ∑ e ∈ G.land r n, ∑ k : Fin 128, msg G x r e k * W k j) * G.nd r n

/-- A layer as the kernel computes it: per destination type, from zero, the relations arriving there in order. -/
def layerK (xs : Fin 3 → Tab) (W : Fin 9 → Fin 128 → Fin 128 → EReal) (b : Fin 9 → Fin 128 → EReal) : Fin 3 → Tab
  | ⟨0, _⟩ => fun n j => ((((0 : EReal) + relK G (xs 1) (W 2) (b 2) 2 n j) + relK G (xs 0) (W 3) (b 3) 3 n j) + relK G (xs 2) (W 5) (b 5) 5 n j) + relK G (xs 0) (W 6) (b 6) 6 n j
  | ⟨1, _⟩ => fun n j => ((0 : EReal) + relK G (xs 2) (W 4) (b 4) 4 n j) + relK G (xs 1) (W 8) (b 8) 8 n j
  | ⟨2, _⟩ => fun n j => (((0 : EReal) + relK G (xs 0) (W 0) (b 0) 0 n j) + relK G (xs 1) (W 1) (b 1) 1 n j) + relK G (xs 2) (W 7) (b 7) 7 n j

/-- A layer as the reference computes it: per destination type, from zero, each arriving relation's scaled aggregate and then its bias. -/
def layerR (xs : Fin 3 → Tab) (W : Fin 9 → Fin 128 → Fin 128 → EReal) (b : Fin 9 → Fin 128 → EReal) : Fin 3 → Tab
  | ⟨0, _⟩ => fun n j => ((((((((0 : EReal) + relR G (xs 1) (W 2) 2 n j) + b 2 j) + relR G (xs 0) (W 3) 3 n j) + b 3 j) + relR G (xs 2) (W 5) 5 n j) + b 5 j) + relR G (xs 0) (W 6) 6 n j) + b 6 j
  | ⟨1, _⟩ => fun n j => ((((0 : EReal) + relR G (xs 2) (W 4) 4 n j) + b 4 j) + relR G (xs 1) (W 8) 8 n j) + b 8 j
  | ⟨2, _⟩ => fun n j => ((((((0 : EReal) + relR G (xs 0) (W 0) 0 n j) + b 0 j) + relR G (xs 1) (W 1) 1 n j) + b 1 j) + relR G (xs 2) (W 7) 7 n j) + b 7 j

theorem msg_isR {x : Tab} (hx : ∀ n k, IsR (x n k)) (r : Fin 9) (e : Fin 400000) (k : Fin 128) : IsR (msg G x r e k) :=
  (hx _ _).mul (G.ns_isR _ _)

/-- One relation: the kernel's projection of the aggregate is the reference's aggregate of the projections, plus the bias. -/
theorem relK_eq {x : Tab} {W : Fin 128 → Fin 128 → EReal} (b : Fin 128 → EReal) (hx : ∀ n k, IsR (x n k)) (hW : ∀ k j, IsR (W k j))
    (r : Fin 9) (n : Fin 50000) (j : Fin 128) : relK G x W b r n j = relR G x W r n j + b j := by
  unfold relK relR agg
  rw [proj_agg (G.land r n) (fun e k => msg G x r e k) (fun k => W k j) (G.nd r n) (fun e k => msg_isR G hx r e k) (fun k => hW k j) (G.nd_isR r n)]

theorem relR_isR {x : Tab} {W : Fin 128 → Fin 128 → EReal} (hx : ∀ n k, IsR (x n k)) (hW : ∀ k j, IsR (W k j))
    (r : Fin 9) (n : Fin 50000) (j : Fin 128) : IsR (relR G x W r n j) :=
  proj_agg_isR (G.land r n) (fun e k => msg G x r e k) (fun k => W k j) (G.nd r n) (fun e k => msg_isR G hx r e k) (fun k => hW k j) (G.nd_isR r n)

/-- The two layers agree on real inputs (sums of extended reals reassociate freely). -/
theorem layer_eq {xs : Fin 3 → Tab} {W : Fin 9 → Fin 128 → Fin 128 → EReal} (b : Fin 9 → Fin 128 → EReal)
    (hx : ∀ t n k, IsR (xs t n k)) (hW : ∀ r k j, IsR (W r k j)) (d : Fin 3) (n : Fin 50000) (j : Fin 128) :
    layerK G xs W b d n j = layerR G xs W b d n j := by
  match d with
  | ⟨0, _⟩ => simp only [layerK, layerR, relK_eq G _ (hx _) (hW _), add_assoc]
  | ⟨1, _⟩ => simp only [layerK, layerR, relK_eq G _ (hx _) (hW _), add_assoc]
  | ⟨2, _⟩ => simp only [layerK, layerR, relK_eq G _ (hx _) (hW _), add_assoc]

/-- and a layer's outputs are real when its inputs, weights and biases are. -/
theorem layerR_isR {xs : Fin 3 → Tab} {W : Fin 9 → Fin 128 → Fin 128 → EReal} {b : Fin 9 → Fin 128 → EReal}
    (hx : ∀ t n k, IsR (xs t n k)) (hW : ∀ r k j, IsR (W r k j)) (hb : ∀ r j, IsR (b r j)) (d : Fin 3) (n : Fin 50000) (j : Fin 128) :
    IsR (layerR G xs W b d n j) := by
  match d with
  | ⟨0, _⟩ => exact ((((((((IsR.zero.add (relR_isR G (hx _) (hW _) _ _ _)).add (hb _ _)).add (relR_isR G (hx _) (hW _) _ _ _)).add (hb _ _)).add (relR_isR G (hx _) (hW _) _ _ _)).add (hb _ _)).add (relR_isR G (hx _) (hW _) _ _ _)).add (hb _ _))
  | ⟨1, _⟩ => exact ((((IsR.zero.add (relR_isR G (hx _) (hW _) _ _ _)).add (hb _ _)).add (relR_isR G (hx _) (hW _) _ _ _)).add (hb _ _))
  | ⟨2, _⟩ => exact ((((((IsR.zero.add (relR_isR G (hx _) (hW _) _ _ _)).add (hb _ _)).add (relR_isR G (hx _) (hW _) _ _ _)).add (hb _ _)).add (relR_isR G (hx _) (hW _) _ _ _)).add (hb _ _))

/-- The activation between the layers and before the classifier. -/
def relu (h : Fin 3 → Tab) : Fin 3 → Tab := fun t n k => max (h t n k) 0

theorem relu_isR {h : Fin 3 → Tab} (hh : ∀ t n k, IsR (h t n k)) (t : Fin 3) (n : Fin 50000) (k : Fin 128) : IsR (relu h t n k) :=
  (hh t n k).max IsR.zero

/-- The classifier on one node: the activated features contracted with the 128 × 16 weights, plus the bias. -/
def cls (h : Fin 3 → Tab) (Wc : Fin 128 → Fin 16 → EReal) (bc : Fin 16 → EReal) (t : Fin 3) (n : Fin 50000) (q : Fin 16) : EReal :=
  (∑ k : Fin 128, max (h t n k) 0 * Wc k q) + bc q

/-- The whole network as the kernel computes it, -/
def netK (xs : Fin 3 → Tab) (W1 : Fin 9 → Fin 128 → Fin 128 → EReal) (b1 : Fin 9 → Fin 128 → EReal)
    (W2 : Fin 9 → Fin 128 → Fin 128 → EReal) (b2 : Fin 9 → Fin 128 → EReal) (Wc : Fin 128 → Fin 16 → EReal) (bc : Fin 16 → EReal) :
    Fin 3 → Fin 50000 → Fin 16 → EReal :=
  cls (layerK G (relu (layerK G xs W1 b1)) W2 b2) Wc bc

/-- and as the reference computes it. -/
def netR (xs : Fin 3 → Tab) (W1 : Fin 9 → Fin 128 → Fin 128 → EReal) (b1 : Fin 9 → Fin 128 → EReal)
    (W2 : Fin 9 → Fin 128 → Fin 128 → EReal) (b2 : Fin 9 → Fin 128 → EReal) (Wc : Fin 128 → Fin 16 → EReal) (bc : Fin 16 → EReal) :
    Fin 3 → Fin 50000 → Fin 16 → EReal :=
  cls (layerR G (relu (layerR G xs W1 b1)) W2 b2) Wc bc

/-- The two networks agree on real inputs. -/
theorem net_eq {xs : Fin 3 → Tab} {W1 W2 : Fin 9 → Fin 128 → Fin 128 → EReal} {b1 b2 : Fin 9 → Fin 128 → EReal}
    (Wc : Fin 128 → Fin 16 → EReal) (bc : Fin 16 → EReal)
    (hx : ∀ t n k, IsR (xs t n k)) (hW1 : ∀ r k j, IsR (W1 r k j)) (hb1 : ∀ r j, IsR (b1 r j)) (hW2 : ∀ r k j, IsR (W2 r k j)) :
    netK G xs W1 b1 W2 b2 Wc bc = netR G xs W1 b1 W2 b2 Wc bc := by
  have h1 : layerK G xs W1 b1 = layerR G xs W1 b1 := funext fun d => funext fun n => funext fun j => layer_eq G b1 hx hW1 d n j
  have hr : ∀ t n k, IsR (relu (layerR G xs W1 b1) t n k) := relu_isR (fun t n k => layerR_isR G hx hW1 hb1 t n k)
  have h2 : layerK G (relu (layerR G xs W1 b1)) W2 b2 = layerR G (relu (layerR G xs W1 b1)) W2 b2 :=
    funext fun d => funext fun n => funext fun j => layer_eq G b2 hr hW2 d n j
  unfold netK netR
  rw [h1, h2]

end Cert.Spec

end
-- ==== Proof.IdxOps.lean ====
/-
  The accumulating scatter and the row gather of a graph layer, read at one element.

  `segment_sum(rows, dst)` prints as an accumulating scatter of the [E, D] update rows into an [N, D] operand along
  axis 0: element (n, k) of the result is the operand's plus the sum of the update elements (e, k) over the edges `e`
  whose index word, read as a signed integer, is `n` (an index outside [0, N) lands nowhere). The degree count is the
  same over a rank-1 operand. `table[idx]` prints as a gather of whole rows: element (e, k) of the result is the
  table's at (row e, k) for a row that depends on the index words and `e` only — never on the table or on `k`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.IdxOps

open Idealize.ShloMosaic Idealize.ShloMosaic.ValueIdx

/-! ## Small facts about axis lists and coordinates -/

/-- An entry of a list known to be a singleton is its one element. -/
theorem getElem_of_eq_singleton {α : Type} {l : List α} {a : α} (hl : l = [a]) (i : Nat) (h : i < l.length) : l[i] = a := by
  have hall : ∀ x ∈ l, x = a := fun x hx => by rw [hl] at hx; exact List.mem_singleton.1 hx
  exact hall _ (List.getElem_mem h)

/-- A coordinate of a rank-2 index at an axis known to be 0 is its first coordinate … -/
theorem val_at0 {n0 n1 : Nat} (j : (⟨2, ![n0, n1]⟩ : Shape).Idx) (a : Fin 2) (ha : a = 0) : (j a).val = (j 0).val := by
  subst ha; rfl
/-- … and at an axis known to be 1 its second. -/
theorem val_at1 {n0 n1 : Nat} (j : (⟨2, ![n0, n1]⟩ : Shape).Idx) (a : Fin 2) (ha : a = 1) : (j a).val = (j 1).val := by
  subst ha; rfl
/-- A rank-1 index has one coordinate, whatever the axis is called. -/
theorem val_at {n0 : Nat} (j : (⟨1, ![n0]⟩ : Shape).Idx) (a : Fin 1) : (j a).val = (j 0).val := by
  have ha : a = 0 := Subsingleton.elim _ _
  subst ha; rfl

/-- Of two axes, the ones outside [1] are [0] … -/
theorem kept2_of_1 : (List.finRange 2).filter (fun a : Fin 2 => a ∉ [(1 : Fin 2)]) = [0] := by decide
/-- … and the ones outside [0] are [1]. -/
theorem kept2_of_0 : (List.finRange 2).filter (fun a : Fin 2 => a ∉ [(0 : Fin 2)]) = [1] := by decide
/-- Of one axis, none is outside [0]. -/
theorem kept1_of_0 : (List.finRange 1).filter (fun a : Fin 1 => a ∉ [(0 : Fin 1)]) = [] := by decide

/-- The edges whose index word (column 0 of the [E, 1] index array), read signed, is the node `n`. -/
def landing {E w : Nat} (idx : IVec ⟨2, ![E, 1]⟩ w) (n : Nat) : Finset (Fin E) :=
  Finset.univ.filter fun e : Fin E => (idx (ix2 e (0 : Fin 1))).toInt = (n : Int)

theorem mem_landing {E w : Nat} (idx : IVec ⟨2, ![E, 1]⟩ w) (n : Nat) (e : Fin E) :
    e ∈ landing idx n ↔ (idx (ix2 e (0 : Fin 1))).toInt = (n : Int) := by
  unfold landing
  rw [Finset.mem_filter]
  exact ⟨fun h => h.2, fun h => ⟨Finset.mem_univ _, h⟩⟩

/-! ## The scatter of rows: where update (e, k') lands -/

section Rows
variable {N E D w : Nat} (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1)
include huw hiw hsd hiv

/-- Axis 0 of the operand is inserted: no window coordinate there. -/
theorem rows_window0 (j : (⟨2, ![E, D]⟩ : Shape).Idx) : d.window j 0 = 0 := by
  unfold ScatterDims.window
  have hk : d.sKept = [1] := by
    show (List.finRange 2).filter (fun a : Fin 2 => a ∉ d.insertedWindowDims) = [1]
    rw [hiw]; exact kept2_of_0
  rw [dif_neg]
  rw [hk]; show (0 : Fin 2) ∉ [(1 : Fin 2)]; decide

/-- Axis 1 of the operand takes the update's window coordinate, its axis 1. -/
theorem rows_window1 (j : (⟨2, ![E, D]⟩ : Shape).Idx) : d.window j 1 = (j 1).val := by
  unfold ScatterDims.window
  have hk : d.sKept = [1] := by
    show (List.finRange 2).filter (fun a : Fin 2 => a ∉ d.insertedWindowDims) = [1]
    rw [hiw]; exact kept2_of_0
  have hm : (1 : Fin 2) ∈ d.sKept := by rw [hk]; exact List.mem_singleton.2 rfl
  rw [dif_pos hm]
  exact val_at1 j _ (getElem_of_eq_singleton huw _ _)

/-- Axis 1 of the operand is not a scattered axis: its window starts at 0. -/
theorem rows_start1 (j : (⟨2, ![E, D]⟩ : Shape).Idx) (idx : IVec ⟨2, ![E, 1]⟩ w) : d.start j idx 1 = 0 := by
  unfold ScatterDims.start
  rw [dif_neg]
  rw [hsd]; show (1 : Fin 2) ∉ [(0 : Fin 2)]; decide

/-- Axis 0 of the operand is the scattered axis: its window starts at the index word of the update's row, read signed. -/
theorem rows_start0 (j : (⟨2, ![E, D]⟩ : Shape).Idx) (idx : IVec ⟨2, ![E, 1]⟩ w) :
    d.start j idx 0 = (idx (ix2 (j 0) (0 : Fin 1))).toInt := by
  unfold ScatterDims.start
  have hm : (0 : Fin 2) ∈ d.scatterDimsToOperandDims := by rw [hsd]; exact List.mem_singleton.2 rfl
  rw [dif_pos hm]
  congr 2
  funext b
  match b with
  | ⟨0, _⟩ =>
    unfold ScatterDims.siIdx
    rw [dif_neg (by rw [hiv]; show ¬ (0 : Nat) = 1; omega)]
    unfold ScatterDims.siCoord
    apply Fin.ext
    simp only [Fin.val_cast]
    have hus : d.uScatter = [0] := by
      show (List.finRange 2).filter (fun a : Fin 2 => a ∉ d.updateWindowDims) = [0]
      rw [huw]; exact kept2_of_1
    exact val_at0 j _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- Update (e, k') lands on operand element (n, k) exactly when row e's index word is n and k' = k. -/
theorem rows_resultIdx (j : (⟨2, ![E, D]⟩ : Shape).Idx) (idx : IVec ⟨2, ![E, 1]⟩ w) (n : Fin N) (k : Fin D) :
    d.resultIdx? j idx = some (ix2 n k) ↔ (idx (ix2 (j 0) (0 : Fin 1))).toInt = (n.val : Int) ∧ (j 1).val = k.val := by
  have h0s := rows_start0 d huw hiw hsd hiv j idx
  have h1s := rows_start1 d huw hiw hsd hiv j idx
  have h0w := rows_window0 d huw hiw hsd hiv j
  have h1w := rows_window1 d huw hiw hsd hiv j
  unfold ScatterDims.resultIdx?
  constructor
  · intro h
    split at h
    · next hc =>
      have hh := Option.some.inj h
      have e0 : (d.start j idx 0 + (d.window j 0 : Int)).toNat = n.val := congrArg (fun f => (f 0).val) hh
      have e1 : (d.start j idx 1 + (d.window j 1 : Int)).toNat = k.val := congrArg (fun f => (f 1).val) hh
      have c0 := (hc 0).1
      rw [h0s, h0w] at e0 c0
      rw [h1s, h1w] at e1
      constructor
      · omega
      · omega
    · exact absurd h (by simp)
  · rintro ⟨hv, hk⟩
    have hn := n.isLt
    have hkk := k.isLt
    have hc : ∀ a, 0 ≤ d.start j idx a + d.window j a ∧ d.start j idx a + d.window j a < (⟨2, ![N, D]⟩ : Shape).size a := by
      intro a
      match a with
      | ⟨0, _⟩ =>
        show 0 ≤ d.start j idx 0 + (d.window j 0 : Int) ∧ d.start j idx 0 + (d.window j 0 : Int) < (N : Int)
        rw [h0s, h0w, hv]; omega
      | ⟨1, _⟩ =>
        show 0 ≤ d.start j idx 1 + (d.window j 1 : Int) ∧ d.start j idx 1 + (d.window j 1 : Int) < (D : Int)
        rw [h1s, h1w, hk]; omega
    rw [dif_pos hc]
    congr 1
    funext a
    match a with
    | ⟨0, _⟩ =>
      apply Fin.ext
      show (d.start j idx 0 + (d.window j 0 : Int)).toNat = n.val
      rw [h0s, h0w, hv]; omega
    | ⟨1, _⟩ =>
      apply Fin.ext
      show (d.start j idx 1 + (d.window j 1 : Int)).toNat = k.val
      rw [h1s, h1w, hk]; omega

end Rows

/-- The accumulating scatter of [E, D] rows into an [N, D] operand along axis 0, at the ideal instance, at (n, k). -/
theorem scatterAdd_rows {N E D w : Nat} (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1)
    (x : FVec Ideal ⟨2, ![N, D]⟩ .f32) (idx : IVec ⟨2, ![E, 1]⟩ w) (upd : FVec Ideal ⟨2, ![E, D]⟩ .f32) (n : Fin N) (k : Fin D) :
    Host.scatterAdd (F := Ideal) d x idx upd (ix2 n k) = x (ix2 n k) + ∑ e ∈ landing idx n.val, upd (ix2 e k) := by
  have key := fun j => rows_resultIdx d huw hiw hsd hiv j idx n k
  show x (ix2 n k) + _ = x (ix2 n k) + _
  congr 1
  have hback : ∀ j : (⟨2, ![E, D]⟩ : Shape).Idx, (j 1).val = k.val → ix2 (j 0) k = j := fun j h1 => by
    funext b; match b with
    | ⟨0, _⟩ => rfl
    | ⟨1, _⟩ => exact Fin.ext h1.symm
  refine Finset.sum_bij' (fun j _ => (j 0 : Fin E)) (fun e _ => ix2 e k) ?_ ?_ ?_ ?_ ?_
  · intro j hj
    exact (mem_landing idx n.val _).2 ((key j).1 (Finset.mem_filter.1 hj).2).1
  · intro e he
    exact Finset.mem_filter.2 ⟨Finset.mem_univ _, (key (ix2 e k)).2 ⟨(mem_landing idx n.val e).1 he, rfl⟩⟩
  · intro j hj
    exact hback j ((key j).1 (Finset.mem_filter.1 hj).2).2
  · intro e he
    rfl
  · intro j hj
    exact congrArg upd (hback j ((key j).1 (Finset.mem_filter.1 hj).2).2).symm

/-! ## The scatter of values into a vector: where update e lands -/

section Vec
variable {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
include huw hiw hsd hiv

/-- The operand's one axis is inserted: no window coordinate. -/
theorem vec_window0 (j : (⟨1, ![E]⟩ : Shape).Idx) : d.window j 0 = 0 := by
  unfold ScatterDims.window
  have hk : d.sKept = [] := by
    show (List.finRange 1).filter (fun a : Fin 1 => a ∉ d.insertedWindowDims) = []
    rw [hiw]; exact kept1_of_0
  rw [dif_neg]
  rw [hk]; exact List.not_mem_nil

/-- The operand's one axis is the scattered axis: the window starts at the update's index word, read signed. -/
theorem vec_start0 (j : (⟨1, ![E]⟩ : Shape).Idx) (idx : IVec ⟨2, ![E, 1]⟩ w) :
    d.start j idx 0 = (idx (ix2 (j 0) (0 : Fin 1))).toInt := by
  unfold ScatterDims.start
  have hm : (0 : Fin 1) ∈ d.scatterDimsToOperandDims := by rw [hsd]; exact List.mem_singleton.2 rfl
  rw [dif_pos hm]
  congr 2
  funext b
  match b with
  | ⟨0, _⟩ =>
    unfold ScatterDims.siIdx
    rw [dif_neg (by rw [hiv]; show ¬ (0 : Nat) = 1; omega)]
    unfold ScatterDims.siCoord
    apply Fin.ext
    simp only [Fin.val_cast]
    exact val_at j _
  | ⟨1, _⟩ =>
    unfold ScatterDims.siIdx
    rw [dif_pos (by rw [hiv])]
    apply Fin.ext
    show List.idxOf (0 : Fin 1) d.scatterDimsToOperandDims = 0
    rw [hsd]; simp

/-- Update e lands on operand element n exactly when e's index word is n. -/
theorem vec_resultIdx (j : (⟨1, ![E]⟩ : Shape).Idx) (idx : IVec ⟨2, ![E, 1]⟩ w) (n : Fin N) :
    d.resultIdx? j idx = some (ix1 n) ↔ (idx (ix2 (j 0) (0 : Fin 1))).toInt = (n.val : Int) := by
  have h0s := vec_start0 d huw hiw hsd hiv j idx
  have h0w := vec_window0 d huw hiw hsd hiv j
  unfold ScatterDims.resultIdx?
  constructor
  · intro h
    split at h
    · next hc =>
      have hh := Option.some.inj h
      have e0 : (d.start j idx 0 + (d.window j 0 : Int)).toNat = n.val := congrArg (fun f => (f 0).val) hh
      have c0 := (hc 0).1
      rw [h0s, h0w] at e0 c0
      omega
    · exact absurd h (by simp)
  · intro hv
    have hn := n.isLt
    have hc : ∀ a, 0 ≤ d.start j idx a + d.window j a ∧ d.start j idx a + d.window j a < (⟨1, ![N]⟩ : Shape).size a := by
      intro a
      match a with
      | ⟨0, _⟩ =>
        show 0 ≤ d.start j idx 0 + (d.window j 0 : Int) ∧ d.start j idx 0 + (d.window j 0 : Int) < (N : Int)
        rw [h0s, h0w, hv]; omega
    rw [dif_pos hc]
    congr 1
    funext a
    match a with
    | ⟨0, _⟩ =>
      apply Fin.ext
      show (d.start j idx 0 + (d.window j 0 : Int)).toNat = n.val
      rw [h0s, h0w, hv]; omega

end Vec

/-- The accumulating scatter of [E] values into an [N] operand, at the ideal instance, at n (the degree count). -/
theorem scatterAdd_vec {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n) = x (ix1 n) + ∑ e ∈ landing idx n.val, upd (ix1 e) := by
  have key := fun j => vec_resultIdx d huw hiw hsd hiv j idx n
  show x (ix1 n) + _ = x (ix1 n) + _
  congr 1
  refine Finset.sum_bij' (fun j _ => (j 0 : Fin E)) (fun e _ => ix1 e) ?_ ?_ ?_ ?_ ?_
  · intro j hj
    exact (mem_landing idx n.val _).2 ((key j).1 (Finset.mem_filter.1 hj).2)
  · intro e he
    exact Finset.mem_filter.2 ⟨Finset.mem_univ _, (key (ix1 e)).2 ((mem_landing idx n.val e).1 he)⟩
  · intro j hj
    exact (eq_ix1 j).symm
  · intro e he
    rfl
  · intro j hj
    exact congrArg upd (eq_ix1 j)

/-! ## The gather of whole rows -/

section Gather
variable {N E D w : Nat} (d : GatherDims ⟨2, ![N, D]⟩ ⟨2, ![E, 1]⟩ ⟨2, ![E, D]⟩)
    (hoff : d.offsetDims = [1]) (hcoll : d.collapsedSliceDims = [0]) (hob : d.operandBatchingDims = [])
    (hsim : d.startIndexMap = [0]) (hivd : d.indexVectorDim = 1)
include hoff hcoll hob hsim hivd

/-- Result element (e, k) reads its start index at the index array's (e, 0): the result's axis 0 is its one batch axis. -/
theorem gather_siIdx (j : (⟨2, ![E, D]⟩ : Shape).Idx) (c : Fin d.startIndexMap.length) :
    d.siIdx j c = ix2 (j 0) (0 : Fin 1) := by
  funext b
  match b with
  | ⟨0, _⟩ =>
    unfold GatherDims.siIdx
    rw [dif_neg (by rw [hivd]; show ¬ (0 : Nat) = 1; omega)]
    unfold GatherDims.siCoord
    apply Fin.ext
    simp only [Fin.val_cast]
    have hbd : d.batchDims = [0] := by
      show (List.finRange 2).filter (fun a : Fin 2 => a ∉ d.offsetDims) = [0]
      rw [hoff]; exact kept2_of_1
    exact val_at0 j _ (getElem_of_eq_singleton hbd _ _)
  | ⟨1, _⟩ =>
    unfold GatherDims.siIdx
    rw [dif_pos (by rw [hivd])]
    apply Fin.ext
    show c.val = 0
    have hl : d.startIndexMap.length = 1 := by rw [hsim]; rfl
    have := c.isLt
    omega

/-- On the table's axis 0 the slice starts at the row's index word, read signed and clamped into the table. -/
theorem gather_start0 (j : (⟨2, ![E, D]⟩ : Shape).Idx) (idx : IVec ⟨2, ![E, 1]⟩ w) :
    d.start j idx 0 = min (idx (ix2 (j 0) (0 : Fin 1))).toInt.toNat (N - d.sliceSizes 0) := by
  unfold GatherDims.start
  have hm : (0 : Fin 2) ∈ d.startIndexMap := by rw [hsim]; exact List.mem_singleton.2 rfl
  rw [dif_pos hm, gather_siIdx d hoff hcoll hob hsim hivd]
  rfl

/-- The table's axis 1 is not start-indexed: the slice starts at 0. -/
theorem gather_start1 (j : (⟨2, ![E, D]⟩ : Shape).Idx) (idx : IVec ⟨2, ![E, 1]⟩ w) : d.start j idx 1 = 0 := by
  unfold GatherDims.start
  rw [dif_neg]
  rw [hsim]; show (1 : Fin 2) ∉ [(0 : Fin 2)]; decide

/-- The table's axis 0 is collapsed: no offset coordinate. -/
theorem gather_offCoord0 (j : (⟨2, ![E, D]⟩ : Shape).Idx) : d.offCoord j 0 = 0 := by
  apply d.offCoord_eq_zero
  rw [GatherDims.mem_sKept, hcoll]
  exact fun h => h.1 (List.mem_singleton.2 rfl)

/-- The table's axis 1 takes the result's offset coordinate, its axis 1. -/
theorem gather_offCoord1 (j : (⟨2, ![E, D]⟩ : Shape).Idx) : d.offCoord j 1 = (j 1).val := by
  unfold GatherDims.offCoord
  have hm : (1 : Fin 2) ∈ d.sKept := by
    rw [GatherDims.mem_sKept, hcoll, hob]
    exact ⟨by show (1 : Fin 2) ∉ [(0 : Fin 2)]; decide, List.not_mem_nil⟩
  rw [dif_pos hm]
  exact val_at1 j _ (getElem_of_eq_singleton hoff _ _)

/-- The table row read for result element j: row j 0's index word, signed and clamped. It does not depend on j 1. -/
theorem gather_operandIdx_val0 (j : (⟨2, ![E, D]⟩ : Shape).Idx) (idx : IVec ⟨2, ![E, 1]⟩ w) :
    (d.operandIdx j idx 0).val = min (idx (ix2 (j 0) (0 : Fin 1))).toInt.toNat (N - d.sliceSizes 0) := by
  have hb : (0 : Fin 2) ∉ d.operandBatchingDims := by rw [hob]; exact List.not_mem_nil
  show d.start j idx 0 + d.batchCoord j 0 + d.offCoord j 0 = _
  rw [gather_start0 d hoff hcoll hob hsim hivd, d.batchCoord_eq_zero j 0 hb, gather_offCoord0 d hoff hcoll hob hsim hivd]
  rfl

/-- The table column read for result element j is j 1. -/
theorem gather_operandIdx_val1 (j : (⟨2, ![E, D]⟩ : Shape).Idx) (idx : IVec ⟨2, ![E, 1]⟩ w) :
    (d.operandIdx j idx 1).val = (j 1).val := by
  have hb : (1 : Fin 2) ∉ d.operandBatchingDims := by rw [hob]; exact List.not_mem_nil
  show d.start j idx 1 + d.batchCoord j 1 + d.offCoord j 1 = _
  rw [gather_start1 d hoff hcoll hob hsim hivd, d.batchCoord_eq_zero j 1 hb, gather_offCoord1 d hoff hcoll hob hsim hivd]
  omega

end Gather

/-- The table row the gather reads for edge `e`: a function of the dimension record, the index words and `e` alone. -/
def gatherRow {N E D w : Nat} (d : GatherDims ⟨2, ![N, D]⟩ ⟨2, ![E, 1]⟩ ⟨2, ![E, D]⟩) (idx : IVec ⟨2, ![E, 1]⟩ w)
    (e : Fin E) (hD : 0 < D) : Fin N :=
  (d.operandIdx (ix2 e (⟨0, hD⟩ : Fin D)) idx) 0

/-- The gather of whole rows (`table[idx]`): element (e, k) is the table's at (gatherRow e, k), for every element type. -/
theorem gather_rows {α : Type} {N E D w : Nat} (d : GatherDims ⟨2, ![N, D]⟩ ⟨2, ![E, 1]⟩ ⟨2, ![E, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![E, 1]⟩ w) (e : Fin E) (k : Fin D) (hD : 0 < D) :
    Host.gather d x idx (ix2 e k) = x (ix2 (gatherRow d idx e hD) k) := by
  unfold Host.gather
  congr 1
  funext a
  match a with
  | ⟨0, _⟩ =>
    apply Fin.ext
    show (d.operandIdx (ix2 e k) idx 0).val = (d.operandIdx (ix2 e (⟨0, hD⟩ : Fin D)) idx 0).val
    rw [gather_operandIdx_val0 d hoff hcoll hob hsim hivd, gather_operandIdx_val0 d hoff hcoll hob hsim hivd]
    rfl
  | ⟨1, _⟩ =>
    apply Fin.ext
    show (d.operandIdx (ix2 e k) idx 1).val = k.val
    rw [gather_operandIdx_val1 d hoff hcoll hob hsim hivd]
    rfl

/-- The row read for edge `e` is `e`'s index word, read signed and clamped into [0, N − 1]. -/
theorem gatherRow_val {N E D w : Nat} (d : GatherDims ⟨2, ![N, D]⟩ ⟨2, ![E, 1]⟩ ⟨2, ![E, D]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (hD : 0 < D) :
    (gatherRow d idx e hD).val = min (idx (ix2 e (0 : Fin 1))).toInt.toNat (N - 1) := by
  have hsl : d.sliceSizes 0 = 1 := d.slice_collapsed 0 (by rw [hcoll]; exact List.mem_singleton.2 rfl)
  show (d.operandIdx (ix2 e (⟨0, hD⟩ : Fin D)) idx 0).val = _
  rw [gather_operandIdx_val0 d hoff hcoll hob hsim hivd, hsl]
  rfl

end Cert.IdxOps

end
-- ==== Proof.Rel.lean ====
/-
  One relation of a graph-convolution layer, over the printed operations: the accumulating scatter along the node axis
  and the row gather. With real entries, aggregating the gathered scaled rows and then projecting the aggregate by the
  relation's weights (after scaling by the destination norm) is projecting every node's scaled row first, gathering and
  aggregating the projected rows, and scaling last.
-/
import proofs.«151568_j90031104458821_2_alg».proof.Proof.Math
import proofs.«151568_j90031104458821_2_alg».proof.Proof.IdxOps

noncomputable section

namespace Cert.Rel

open Idealize.ShloMosaic Idealize.ShloMosaic.ValueIdx Cert.Math Cert.IdxOps

/-! ## Reals through the elementwise operations of the norm -/

/-- A power of a real base to a real exponent is a real (Mathlib's `Real.rpow`, whatever the signs). -/
theorem _root_.Cert.Math.IsR.pow {x y : EReal} (hx : IsR x) (hy : IsR y) : IsR (Ideal.pow x y) := by
  obtain ⟨a, rfl⟩ := hx
  obtain ⟨b, rfl⟩ := hy
  exact ⟨Real.rpow a b, rfl⟩

/-- The host's `power` at the ideal instance is that power. -/
theorem _root_.Cert.Math.IsR.hostPowf {x y : Ideal .f32} (hx : IsR x) (hy : IsR y) :
    IsR (FloatOps.hostPowf (F := Ideal) (φ := .f32) x y) :=
  IsR.pow hx hy

/-- A selection between two reals is a real, whatever the condition bit. -/
theorem _root_.Cert.Math.IsR.select {a b : EReal} (c : BitVec 1) (ha : IsR a) (hb : IsR b) : IsR (Scalar.select c a b) := by
  unfold Scalar.select
  split
  · exact ha
  · exact hb

/-- The f32 word of `0.0` is the real 0 … -/
theorem isR_ofBits_zero_f32 : IsR (Ideal.ofBits .f32 0x00000000#32) := by
  rw [Ideal.ofBits_zero_f32]; exact IsR.zero
/-- … the word of `1.0` is 1 … -/
theorem ofBits_one_f32 : Ideal.ofBits .f32 0x3F800000#32 = 1 := by
  simp [Ideal.ofBits, Ideal.ieee, -EReal.coe_mul]; norm_num
theorem isR_ofBits_one_f32 : IsR (Ideal.ofBits .f32 0x3F800000#32) := by
  rw [ofBits_one_f32]; exact IsR.one
/-- … and the word of `-0.5` is -1/2. -/
theorem ofBits_mhalf_f32 : Ideal.ofBits .f32 0xBF000000#32 = ((-(1 / 2) : ℝ) : EReal) := by
  simp [Ideal.ofBits, Ideal.ieee, -EReal.coe_mul]; norm_num
theorem isR_ofBits_mhalf_f32 : IsR (Ideal.ofBits .f32 0xBF000000#32) := by
  rw [ofBits_mhalf_f32]; exact IsR.coe _

/-! ## One relation -/

/-- The aggregate of the gathered rows at (n, k): the zero operand plus the sum, over the edges landing on `n`, of the
    table's entry at (the edge's source row, k). -/
theorem scatter_gather_apply {N E D w : Nat} (hD : 0 < D)
    (ds : ScatterDims ⟨2, ![N, D]⟩ ⟨2, ![E, 1]⟩ ⟨2, ![E, D]⟩)
    (huw : ds.updateWindowDims = [1]) (hiw : ds.insertedWindowDims = [0]) (hsd : ds.scatterDimsToOperandDims = [0]) (hiv : ds.indexVectorDim = 1)
    (dg : GatherDims ⟨2, ![N, D]⟩ ⟨2, ![E, 1]⟩ ⟨2, ![E, D]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1) (hss : dg.sliceSizes = ![1, D])
    (t : Fin N → Fin D → EReal) (src dst : IVec ⟨2, ![E, 1]⟩ w) (n : Fin N) (k : Fin D) :
    Host.scatterAdd (F := Ideal) (φ := .f32) ds (fun _ => (0 : EReal)) dst (Host.gather dg (fun i => t (i 0) (i 1)) src) (ix2 n k)
      = 0 + ∑ e ∈ landing dst n.val, t (gatherRow dg src e hD) k := by
  rw [scatterAdd_rows ds huw hiw hsd hiv]
  refine congrArg (fun z => (0 : EReal) + z) (Finset.sum_congr rfl fun e _ => ?_)
  exact gather_rows dg hoff hcoll hob hsb hsim hivd hss _ src e k hD

/-- The relation identity at node `n`, output feature `j`. `s n k` is the source table's scaled entry, `W k j` the
    relation's weights, `nd n` the destination norm; `src` / `dst` are the [E, 1] index columns. -/
theorem rel_eq {N E D w : Nat} (hD : 0 < D)
    (ds : ScatterDims ⟨2, ![N, D]⟩ ⟨2, ![E, 1]⟩ ⟨2, ![E, D]⟩)
    (huw : ds.updateWindowDims = [1]) (hiw : ds.insertedWindowDims = [0]) (hsd : ds.scatterDimsToOperandDims = [0]) (hiv : ds.indexVectorDim = 1)
    (dg : GatherDims ⟨2, ![N, D]⟩ ⟨2, ![E, 1]⟩ ⟨2, ![E, D]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1) (hss : dg.sliceSizes = ![1, D])
    (s : Fin N → Fin D → EReal) (nd : Fin N → EReal) (W : Fin D → Fin D → EReal)
    (hs : ∀ n k, IsR (s n k)) (hnd : ∀ n, IsR (nd n)) (hW : ∀ k j, IsR (W k j))
    (src dst : IVec ⟨2, ![E, 1]⟩ w) (n : Fin N) (j : Fin D) :
    (0 : EReal) + ∑ k : Fin D,
        (Host.scatterAdd (F := Ideal) (φ := .f32) ds (fun _ => (0 : EReal)) dst (Host.gather dg (fun i => s (i 0) (i 1)) src) (ix2 n k) * nd n) * W k j
      = Host.scatterAdd (F := Ideal) (φ := .f32) ds (fun _ => (0 : EReal)) dst (Host.gather dg (fun i => ∑ k : Fin D, s (i 0) k * W k (i 1)) src) (ix2 n j) * nd n := by
  -- both aggregates read the SAME source row of every edge landing on n
  have hL := fun k => scatter_gather_apply hD ds huw hiw hsd hiv dg hoff hcoll hob hsb hsim hivd hss s src dst n k
  have hR := scatter_gather_apply hD ds huw hiw hsd hiv dg hoff hcoll hob hsb hsim hivd hss
    (fun r c => ∑ k : Fin D, s r k * W k c) src dst n j
  rw [hR, Finset.sum_congr rfl fun k _ => by rw [hL k]]
  -- what is left is the exchange of the two finite sums of reals
  exact proj_agg (landing dst n.val) (fun e k => s (gatherRow dg src e hD) k) (fun k => W k j) (nd n)
    (fun e k => hs _ k) (fun k => hW k j) (hnd n)

/-- and that value is a real. -/
theorem rel_isR {N E D w : Nat} (hD : 0 < D)
    (ds : ScatterDims ⟨2, ![N, D]⟩ ⟨2, ![E, 1]⟩ ⟨2, ![E, D]⟩)
    (huw : ds.updateWindowDims = [1]) (hiw : ds.insertedWindowDims = [0]) (hsd : ds.scatterDimsToOperandDims = [0]) (hiv : ds.indexVectorDim = 1)
    (dg : GatherDims ⟨2, ![N, D]⟩ ⟨2, ![E, 1]⟩ ⟨2, ![E, D]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1) (hss : dg.sliceSizes = ![1, D])
    (s : Fin N → Fin D → EReal) (nd : Fin N → EReal) (W : Fin D → Fin D → EReal)
    (hs : ∀ n k, IsR (s n k)) (hnd : ∀ n, IsR (nd n)) (hW : ∀ k j, IsR (W k j))
    (src dst : IVec ⟨2, ![E, 1]⟩ w) (n : Fin N) (j : Fin D) :
    IsR (Host.scatterAdd (F := Ideal) (φ := .f32) ds (fun _ => (0 : EReal)) dst (Host.gather dg (fun i => ∑ k : Fin D, s (i 0) k * W k (i 1)) src) (ix2 n j) * nd n) := by
  rw [scatter_gather_apply hD ds huw hiw hsd hiv dg hoff hcoll hob hsb hsim hivd hss
    (fun r c => ∑ k : Fin D, s r k * W k c) src dst n j]
  exact proj_agg_isR (landing dst n.val) (fun e k => s (gatherRow dg src e hD) k) (fun k => W k j) (nd n)
    (fun e k => hs _ k) (fun k => hW k j) (hnd n)

/-! ## The degree norm -/

/-- An accumulating scatter of reals into a real operand entry is a real: a finite sum. -/
theorem scatterAdd_vec_isR {N E w : Nat}
    (dv : ScatterDims ⟨1, ![N]⟩ ⟨2, ![E, 1]⟩ ⟨1, ![E]⟩)
    (huw : dv.updateWindowDims = []) (hiw : dv.insertedWindowDims = [0]) (hsd : dv.scatterDimsToOperandDims = [0]) (hiv : dv.indexVectorDim = 1)
    (x : FVec Ideal ⟨1, ![N]⟩ .f32) (col : IVec ⟨2, ![E, 1]⟩ w) (upd : FVec Ideal ⟨1, ![E]⟩ .f32) (n : Fin N)
    (hx : IsR (x (ix1 n))) (hu : ∀ e : Fin E, IsR (upd (ix1 e))) :
    IsR (Host.scatterAdd (F := Ideal) (φ := .f32) dv x col upd (ix1 n)) := by
  rw [scatterAdd_vec dv huw hiw hsd hiv]
  exact IsR.add hx (IsR.sum _ _ fun e _ => hu e)

/-- The printed norm chain `where(c, where(c', deg, ones) ** mhalfs, zeros)` read at one index is a real as soon as the four
    arrays are real there, whatever the two conditions: both selections choose between reals, and a real power of a real
    is a real. -/
theorem norm_chain_isR {sh : Shape} (c c' : IVec sh 1) (deg ones mhalfs zeros : FVec Ideal sh .f32) (i : sh.Idx)
    (hdeg : IsR (deg i)) (hone : IsR (ones i)) (hmh : IsR (mhalfs i)) (hz : IsR (zeros i)) :
    IsR (select c (Host.powf (select c' deg ones) mhalfs) zeros i) := by
  show IsR (Scalar.select (c i) (FloatOps.hostPowf (Scalar.select (c' i) (deg i) (ones i)) (mhalfs i)) (zeros i))
  exact IsR.select _ (IsR.hostPowf (IsR.select _ hdeg hone) hmh) hz

/-- The degree norm of a node is a real: the degree is a finite count (an accumulating scatter of reals from a real
    operand), the norm is deg^(-1/2) where the degree is positive and 0 where it is not, over the printed operations
    (the comparison against the zero splat, the two selections, the host's power), read at node `n`. -/
theorem degNorm_isR {N E w : Nat}
    (dv : ScatterDims ⟨1, ![N]⟩ ⟨2, ![E, 1]⟩ ⟨1, ![E]⟩)
    (huw : dv.updateWindowDims = []) (hiw : dv.insertedWindowDims = [0]) (hsd : dv.scatterDimsToOperandDims = [0]) (hiv : dv.indexVectorDim = 1)
    (col : IVec ⟨2, ![E, 1]⟩ w) (x0 : FVec Ideal ⟨1, ![N]⟩ .f32) (upd : FVec Ideal ⟨1, ![E]⟩ .f32)
    (zc zc' ones mhalfs zeros : FVec Ideal ⟨1, ![N]⟩ .f32) (n : Fin N)
    (hx0 : IsR (x0 (ix1 n))) (hu : ∀ e : Fin E, IsR (upd (ix1 e)))
    (hone : IsR (ones (ix1 n))) (hmh : IsR (mhalfs (ix1 n))) (hz : IsR (zeros (ix1 n))) :
    IsR (Host.scatterAdd (F := Ideal) (φ := .f32) dv x0 col upd (ix1 n)) ∧
    IsR (select (cmpf .ogt (Host.scatterAdd (F := Ideal) (φ := .f32) dv x0 col upd) zc)
          (Host.powf (select (cmpf .ogt (Host.scatterAdd (F := Ideal) (φ := .f32) dv x0 col upd) zc') (Host.scatterAdd (F := Ideal) (φ := .f32) dv x0 col upd) ones) mhalfs)
          zeros (ix1 n)) := by
  have hdeg := scatterAdd_vec_isR dv huw hiw hsd hiv x0 col upd n hx0 hu
  exact ⟨hdeg, norm_chain_isR _ _ _ ones mhalfs zeros (ix1 n) hdeg hone hmh hz⟩

end Cert.Rel

end
-- ==== Proof.GraphOf.lean ====
/-
  The graph the two programs read off the edge array `edges : i32[9, 2, 400000]` (relation r, a = 0 source / 1
  destination, edge e), as numbers: the [E, 1] index columns, the gather's start indices (a negative index wraps once
  by the node count), the degree of a node as the accumulating scatter counts it, the degree norm as the printed
  chain of comparison, selection and power computes it, and from these the network's graph.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec

noncomputable section

namespace Cert.GraphOf

open Idealize.ShloMosaic Idealize.ShloMosaic.ValueIdx Cert.Math Cert.IdxOps Cert.Rel

/-! ## The index columns -/

/-- The [E, 1] index column of relation `r`, end `a`: element (e, 0) is `edges (r, a, e)`. -/
def colIdx (edges : IVec ⟨3, ![9, 2, 400000]⟩ 32) (r : Fin 9) (a : Fin 2) : IVec ⟨2, ![400000, 1]⟩ 32 :=
  fun i => edges (ix3 r a (⟨(i 0).val, (i 0).isLt⟩ : Fin 400000))

theorem colIdx_apply (edges : IVec ⟨3, ![9, 2, 400000]⟩ 32) (r : Fin 9) (a : Fin 2) (e : Fin 400000) (u : Fin 1) :
    colIdx edges r a (ix2 e u) = edges (ix3 r a e) := rfl

/-- The gather's start indices of relation `r`: the source column with a negative word wrapped once by the node count,
    `x ↦ if x <ₛ 0 then x + 50000 else x`, in the scalar forms the printed compare, add and select read as at one element. -/
def srcIdx (edges : IVec ⟨3, ![9, 2, 400000]⟩ 32) (r : Fin 9) : IVec ⟨2, ![400000, 1]⟩ 32 :=
  fun i => Scalar.select (IntOp.cmpi .slt (colIdx edges r 0 i) 0#32) (IntOp.addi (colIdx edges r 0 i) 50000#32) (colIdx edges r 0 i)

theorem srcIdx_apply (edges : IVec ⟨3, ![9, 2, 400000]⟩ 32) (r : Fin 9) (e : Fin 400000) (u : Fin 1) :
    srcIdx edges r (ix2 e u)
      = Scalar.select (IntOp.cmpi .slt (edges (ix3 r 0 e)) 0#32) (IntOp.addi (edges (ix3 r 0 e)) 50000#32) (edges (ix3 r 0 e)) := rfl

/-! ## The degree and its norm -/

/-- The f32 constants of the norm at the ideal instance: 0, 1 and -1/2. -/
abbrev Z : Ideal .f32 := FloatOps.ofBits (F := Ideal) .f32 0x00000000#32
abbrev ONE : Ideal .f32 := FloatOps.ofBits (F := Ideal) .f32 0x3F800000#32
abbrev MHALF : Ideal .f32 := FloatOps.ofBits (F := Ideal) .f32 0xBF000000#32

theorem Z_isR : IsR Z := isR_ofBits_zero_f32
theorem ONE_isR : IsR ONE := isR_ofBits_one_f32
theorem MHALF_isR : IsR MHALF := isR_ofBits_mhalf_f32

/-- The degree of node `n` along an index column: the zero operand plus one for every edge whose index word is `n`. -/
def degAt (col : IVec ⟨2, ![400000, 1]⟩ 32) (n : Fin 50000) : EReal :=
  Z + ∑ e ∈ landing col n.val, ONE

theorem degAt_isR (col : IVec ⟨2, ![400000, 1]⟩ 32) (n : Fin 50000) : IsR (degAt col n) :=
  IsR.add Z_isR (IsR.sum _ _ fun _ _ => ONE_isR)

/-- The norm of a degree, as printed: `where(deg > 0, where(deg > 0, deg, 1) ** (-1/2), 0)`. -/
def normAt (deg : EReal) : EReal :=
  Scalar.select (FloatOps.cmpf (F := Ideal) (φ := .f32) .ogt deg Z)
    (FloatOps.hostPowf (F := Ideal) (φ := .f32) (Scalar.select (FloatOps.cmpf (F := Ideal) (φ := .f32) .ogt deg Z) deg ONE) MHALF) Z

theorem normAt_isR {deg : EReal} (h : IsR deg) : IsR (normAt deg) :=
  IsR.select _ (IsR.hostPowf (IsR.select _ h ONE_isR) MHALF_isR) Z_isR

/-- The accumulating scatter of the constant 1 along an index column into the constant 0, at node `n`, is the degree. -/
theorem scatterAdd_deg (dv : ScatterDims ⟨1, ![50000]⟩ ⟨2, ![400000, 1]⟩ ⟨1, ![400000]⟩)
    (huw : dv.updateWindowDims = []) (hiw : dv.insertedWindowDims = [0]) (hsd : dv.scatterDimsToOperandDims = [0]) (hiv : dv.indexVectorDim = 1)
    (x : FVec Ideal ⟨1, ![50000]⟩ .f32) (col : IVec ⟨2, ![400000, 1]⟩ 32) (upd : FVec Ideal ⟨1, ![400000]⟩ .f32)
    (hx : ∀ i, x i = Z) (hu : ∀ i, upd i = ONE) (n : Fin 50000) :
    Host.scatterAdd (F := Ideal) (φ := .f32) dv x col upd (ix1 n) = degAt col n := by
  rw [scatterAdd_vec dv huw hiw hsd hiv, hx]
  exact congrArg (fun z => Z + z) (Finset.sum_congr rfl fun e _ => hu _)

/-- The same with the two constants written as constant functions, along a column of the edge array. -/
theorem scatterAdd_colIdx (dv : ScatterDims ⟨1, ![50000]⟩ ⟨2, ![400000, 1]⟩ ⟨1, ![400000]⟩)
    (huw : dv.updateWindowDims = []) (hiw : dv.insertedWindowDims = [0]) (hsd : dv.scatterDimsToOperandDims = [0]) (hiv : dv.indexVectorDim = 1)
    (edges : IVec ⟨3, ![9, 2, 400000]⟩ 32) (r : Fin 9) (a : Fin 2) (n : Fin 50000) :
    Host.scatterAdd (F := Ideal) (φ := .f32) dv (fun _ => Z) (colIdx edges r a) (fun _ => ONE) (ix1 n) = degAt (colIdx edges r a) n :=
  scatterAdd_deg dv huw hiw hsd hiv _ _ _ (fun _ => rfl) (fun _ => rfl) n

/-! ## The graph -/

/-- The graph of the nine relations: edge e of relation r carries the row its wrapped source word names (read signed,
    clamped into the table), arrives at the node its destination word names, and the two norms are those of the
    source-side and destination-side degrees. -/
def graphOf (edges : IVec ⟨3, ![9, 2, 400000]⟩ 32) : Cert.Spec.Graph where
  row r e := ⟨min (srcIdx edges r (ix2 e (0 : Fin 1))).toInt.toNat 49999, Nat.lt_succ_of_le (Nat.min_le_right _ _)⟩
  land r n := landing (colIdx edges r 1) n.val
  ns r n := normAt (degAt (colIdx edges r 0) n)
  nd r n := normAt (degAt (colIdx edges r 1) n)
  ns_isR r n := normAt_isR (degAt_isR _ n)
  nd_isR r n := normAt_isR (degAt_isR _ n)

/-- The row the gather reads for edge `e` through the wrapped source words is the graph's row, for any gather record
    with the printed fields. -/
theorem gatherRow_srcIdx (dg : GatherDims ⟨2, ![50000, 128]⟩ ⟨2, ![400000, 1]⟩ ⟨2, ![400000, 128]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1) (hss : dg.sliceSizes = ![1, 128])
    (edges : IVec ⟨3, ![9, 2, 400000]⟩ 32) (r : Fin 9) (e : Fin 400000) :
    gatherRow dg (srcIdx edges r) e (by decide : 0 < 128) = (graphOf edges).row r e :=
  Fin.ext (gatherRow_val dg hoff hcoll hob hsim hivd (srcIdx edges r) e (by decide : 0 < 128))

end Cert.GraphOf

end
-- ==== Proof.KI.KNet.lean ====
/-
  The kernel side assembled. The three pallas_calls' output arrays, read element by element over the launch memory, are
  the network of Spec.lean: call 0 leaves, for every relation, the kernel's projection of the first layer's aggregate;
  the host adds the relations' slabs per destination node type and clamps at zero; call 1 leaves the second layer's
  projections; the host adds their slabs; call 2 classifies. Each step takes what the host stretch before it computes
  as a hypothesis on the arrays the call finds, and the arguments' buffers are as launched at every boundary.
-/
import proofs.«151568_j90031104458821_2_alg».proof.Proof.KI.Run
import proofs.«151568_j90031104458821_2_alg».proof.Proof.KI.ArgsHost
import proofs.«151568_j90031104458821_2_alg».proof.Proof.KI.Val0
import proofs.«151568_j90031104458821_2_alg».proof.Proof.KI.Val1
import proofs.«151568_j90031104458821_2_alg».proof.Proof.KI.Val2
import proofs.«151568_j90031104458821_2_alg».proof.Proof.Spec
import proofs.«151568_j90031104458821_2_alg».proof.Proof.GraphOf

set_option maxRecDepth 16384

noncomputable section

namespace Cert.KernelIdeal.Net

open Cert.KernelIdeal Cert.KernelIdeal.Gen Cert.KernelIdeal.Fr
open Cert.KernelIdeal.Val
open Idealize.ShloMosaic Idealize.ShloMosaic.ValueIdx Idealize.ShloMosaic.TcCoe Idealize.SL.Sem
open Cert.Spec

/-! ## The network's data, read off the launch memory -/

/-- The node type relation `r` reads its rows from. -/
def srcT : Fin 9 → Fin 3 := ![0, 1, 1, 0, 2, 2, 0, 2, 1]

section Data
variable (m : (ℓ : Loc nD τ sig) → Buf (Elt Ideal) ℓ) (c : Dev nD)

/-- The edge array, and the graph the programs read off it. -/
abbrev edges : IVec ⟨3, ![9, 2, 400000]⟩ 32 := m ((c : Thread nD τ).loc main_arg9)
abbrev G : Graph := Cert.GraphOf.graphOf (edges m c)

/-- The three node types' feature tables. -/
def xs : Fin 3 → Tab
  | ⟨0, _⟩ => fun n k => (m ((c : Thread nD τ).loc main_arg0) : S50000x128.Idx → EReal) (ix2 n k)
  | ⟨1, _⟩ => fun n k => (m ((c : Thread nD τ).loc main_arg1) : S50000x128.Idx → EReal) (ix2 n k)
  | ⟨2, _⟩ => fun n k => (m ((c : Thread nD τ).loc main_arg2) : S50000x128.Idx → EReal) (ix2 n k)

/-- The two layers' weights and biases, per relation, and the classifier's. -/
abbrev W1 (r : Fin 9) (k j : Fin 128) : EReal := (m ((c : Thread nD τ).loc main_arg3) : S9x128x128.Idx → EReal) (ix3 r k j)
abbrev b1 (r : Fin 9) (j : Fin 128) : EReal := (m ((c : Thread nD τ).loc main_arg4) : S9x128.Idx → EReal) (ix2 r j)
abbrev W2 (r : Fin 9) (k j : Fin 128) : EReal := (m ((c : Thread nD τ).loc main_arg5) : S9x128x128.Idx → EReal) (ix3 r k j)
abbrev b2 (r : Fin 9) (j : Fin 128) : EReal := (m ((c : Thread nD τ).loc main_arg6) : S9x128.Idx → EReal) (ix2 r j)
abbrev Wc (k : Fin 128) (q : Fin 16) : EReal := (m ((c : Thread nD τ).loc main_arg7) : S128x16.Idx → EReal) (ix2 k q)
abbrev bc (q : Fin 16) : EReal := (m ((c : Thread nD τ).loc main_arg8) : S16.Idx → EReal) (ix1 q)

end Data

/-! ## The arithmetic of the steps, over abstract arrays -/

/-- One relation: an array that holds the aggregate, one its norm, one the weights, one the bias, projected as the
    body projects them, is the kernel's relation. -/
theorem relK_of (G : Graph) (x : Tab) (Wr : Fin 128 → Fin 128 → EReal) (br : Fin 128 → EReal)
    (A : S9x50000x128.Idx → EReal) (S : S9x50000x1.Idx → EReal) (W : S9x128x128.Idx → EReal) (B : S9x1x128.Idx → EReal)
    (r : Fin 9) (n : Fin 50000) (q : Fin 128)
    (hA : ∀ k, A (ix3 r n k) = agg G x r n k) (hS : S (ix3 r n (0 : Fin 1)) = G.nd r n)
    (hW : ∀ k, W (ix3 r k q) = Wr k q) (hB : B (ix3 r (0 : Fin 1) q) = br q) :
    ((0 : EReal) + ∑ k : Fin 128, (A (ix3 r n k) * S (ix3 r n (0 : Fin 1))) * W (ix3 r k q)) + B (ix3 r (0 : Fin 1) q)
      = relK G x Wr br r n q := by
  unfold relK
  rw [hS, hB]
  exact congrArg (fun s => ((0 : EReal) + s) + br q) (Finset.sum_congr rfl fun k _ => by rw [hA, hW])

/-- The sums the host forms of a nine-slab stack: per destination node type, from zero, the slabs of the relations
    arriving there, in order. -/
def sums (Y : Fin 9 → Tab) : Fin 3 → Tab
  | ⟨0, _⟩ => fun n k => ((((0 : EReal) + Y 2 n k) + Y 3 n k) + Y 5 n k) + Y 6 n k
  | ⟨1, _⟩ => fun n k => ((0 : EReal) + Y 4 n k) + Y 8 n k
  | ⟨2, _⟩ => fun n k => (((0 : EReal) + Y 0 n k) + Y 1 n k) + Y 7 n k

/-- The sums of the nine relations' projections are the kernel's layer. -/
theorem sums_relK (G : Graph) (x : Fin 3 → Tab) (W : Fin 9 → Fin 128 → Fin 128 → EReal) (b : Fin 9 → Fin 128 → EReal) :
    sums (fun r => relK G (x (srcT r)) (W r) (b r) r) = layerK G x W b := by
  funext t
  match t with
  | ⟨0, _⟩ => rfl
  | ⟨1, _⟩ => rfl
  | ⟨2, _⟩ => rfl

section Steps
variable (m : (ℓ : Loc nD τ sig) → Buf (Elt Ideal) ℓ) (ρ : Dev nD → PrngReg) (c : Dev nD)

/-! ## The arguments at the three calls' entries -/

/-- An argument's buffer as call 0 finds it is the launch memory's. -/
theorem V0e_arg {r : Ref sig .tc} (hr : r ∈ argRefs) : V0e m ρ c r = m ((c : Thread nD τ).loc r) :=
  (WA73_arg m ρ c hr).trans rfl

/-- So is it as call 1 finds it, when call 0 does not have it as a window. -/
theorem V1e_arg {r : Ref sig .tc} (hr : r ∈ argRefs) (h0 : ∀ w, Pipeline.arrRef spec0 w ≠ r) :
    V1e m ρ c r = m ((c : Thread nD τ).loc r) :=
  calc V1e m ρ c r
    _ = X0 m ρ c (Proc.devRef .tc r) := WB5_arg (X0 m ρ) c hr
    _ = WA73 m ρ c (Proc.devRef .tc r) := X0_of_ne m ρ c r h0
    _ = m ((c : Thread nD τ).loc r) := V0e_arg m ρ c hr

/-- and as call 2 finds it, when neither call 0 nor call 1 has it as a window. -/
theorem V2e_arg {r : Ref sig .tc} (hr : r ∈ argRefs) (h0 : ∀ w, Pipeline.arrRef spec0 w ≠ r) (h1 : ∀ w, Pipeline.arrRef spec1 w ≠ r) :
    V2e m ρ c r = m ((c : Thread nD τ).loc r) :=
  calc V2e m ρ c r
    _ = X1 m ρ c (Proc.devRef .tc r) := WC1_arg (X1 m ρ) c hr
    _ = WB5 (X0 m ρ) c (Proc.devRef .tc r) := X1_of_ne m ρ c r h1
    _ = m ((c : Thread nD τ).loc r) := V1e_arg m ρ c hr h0

/-- The slabs call 0 leaves, and those call 1 leaves, as tables per relation. -/
def slabs0 : Fin 9 → Tab := fun r n k => (X0 m ρ c (Proc.devRef .tc main_v438) : S9x50000x128.Idx → EReal) (ix3 r n k)
def slabs1 : Fin 9 → Tab := fun r n k => (X1 m ρ c (Proc.devRef .tc main_v655) : S9x50000x128.Idx → EReal) (ix3 r n k)

/-! ## Step 1: call 0's output is the first layer's relations -/

/-- When call 0 finds the first layer's aggregates, the destination norms and the bias rows in its arrays, it leaves
    the kernel's nine relations of the first layer. -/
theorem call0_out
    (hA : ∀ (r : Fin 9) (n : Fin 50000) (k : Fin 128), arrA0 (V0e m ρ) c (ix3 r n k) = agg (G m c) (xs m c (srcT r)) r n k)
    (hS : ∀ (r : Fin 9) (n : Fin 50000), arrS0 (V0e m ρ) c (ix3 r n (0 : Fin 1)) = (G m c).nd r n)
    (hB : ∀ (r : Fin 9) (q : Fin 128), arrB0 (V0e m ρ) c (ix3 r (0 : Fin 1) q) = b1 m c r q)
    (r : Fin 9) (n : Fin 50000) (q : Fin 128) :
    slabs0 m ρ c r n q = relK (G m c) (xs m c (srcT r)) (W1 m c r) (b1 m c r) r n q := by
  have hW : ∀ k : Fin 128, arrW0 (V0e m ρ) c (ix3 r k q) = W1 m c r k q := fun k =>
    congrFun (V0e_arg m ρ c (r := main_arg3) (by decide)) (ix3 r k q)
  unfold slabs0
  rw [show X0 m ρ c (Proc.devRef .tc main_v438) = (dat0 (V0e m ρ) c).arrAt 4 cfg0.N from X0_arr m ρ c 4]
  exact (final0_apply (V0e m ρ) c r n q).trans
    (relK_of (G m c) (xs m c (srcT r)) (W1 m c r) (b1 m c r) _ _ _ _ r n q (hA r n) (hS r n) hW (hB r q))

/-! ## Step 2: the clamped sums of call 0's slabs are the first layer, activated -/

theorem hidden1_eq
    (h0 : ∀ (r : Fin 9) (n : Fin 50000) (q : Fin 128), slabs0 m ρ c r n q = relK (G m c) (xs m c (srcT r)) (W1 m c r) (b1 m c r) r n q) :
    relu (sums (slabs0 m ρ c)) = relu (layerK (G m c) (xs m c) (W1 m c) (b1 m c)) := by
  rw [← sums_relK]
  exact congrArg (fun Y => relu (sums Y)) (funext fun r => funext fun n => funext fun q => h0 r n q)

/-! ## Step 3: call 1's output is the second layer's relations -/

/-- When call 1 finds the aggregates of hidden tables `H`, the destination norms and the bias rows in its arrays, it
    leaves the kernel's nine relations over `H`. -/
theorem call1_out (H : Fin 3 → Tab)
    (hA : ∀ (r : Fin 9) (n : Fin 50000) (k : Fin 128), arrA1 (V1e m ρ) c (ix3 r n k) = agg (G m c) (H (srcT r)) r n k)
    (hS : ∀ (r : Fin 9) (n : Fin 50000), arrS1 (V1e m ρ) c (ix3 r n (0 : Fin 1)) = (G m c).nd r n)
    (hB : ∀ (r : Fin 9) (q : Fin 128), arrB1 (V1e m ρ) c (ix3 r (0 : Fin 1) q) = b2 m c r q)
    (r : Fin 9) (n : Fin 50000) (q : Fin 128) :
    slabs1 m ρ c r n q = relK (G m c) (H (srcT r)) (W2 m c r) (b2 m c r) r n q := by
  have hW : ∀ k : Fin 128, arrW1 (V1e m ρ) c (ix3 r k q) = W2 m c r k q := fun k =>
    congrFun (V1e_arg m ρ c (r := main_arg5) (by decide) (by decide)) (ix3 r k q)
  unfold slabs1
  rw [show X1 m ρ c (Proc.devRef .tc main_v655) = (dat1 (V1e m ρ) c).arrAt 4 cfg1.N from X1_arr m ρ c 4]
  exact (final1_apply (V1e m ρ) c r n q).trans
    (relK_of (G m c) (H (srcT r)) (W2 m c r) (b2 m c r) _ _ _ _ r n q (hA r n) (hS r n) hW (hB r q))

/-! ## Step 4: the sums of call 1's slabs are the second layer -/

theorem hidden2_eq (H : Fin 3 → Tab)
    (h1 : ∀ (r : Fin 9) (n : Fin 50000) (q : Fin 128), slabs1 m ρ c r n q = relK (G m c) (H (srcT r)) (W2 m c r) (b2 m c r) r n q) :
    sums (slabs1 m ρ c) = layerK (G m c) H (W2 m c) (b2 m c) := by
  rw [← sums_relK]
  exact congrArg sums (funext fun r => funext fun n => funext fun q => h1 r n q)

/-! ## Step 5: call 2's output is the network -/

/-- When call 2 finds the second layer's tables and the classifier's bias row in its arrays, it leaves the network. -/
theorem call2_out (H2 : Fin 3 → Tab)
    (hH : ∀ (t : Fin 3) (n : Fin 50000) (k : Fin 128), (V2e m ρ c main_v689 : S3x50000x128.Idx → EReal) (ix3 t n k) = H2 t n k)
    (hb : ∀ q : Fin 16, (V2e m ρ c main_v690 : S1x16.Idx → EReal) (ix2 (0 : Fin 1) q) = bc m c q)
    (t : Fin 3) (n : Fin 50000) (q : Fin 16) :
    (X2 m ρ c (Proc.devRef .tc main_v691) : S3x50000x16.Idx → EReal) (ix3 t n q) = cls H2 (Wc m c) (bc m c) t n q := by
  have hW : ∀ k : Fin 128, (V2e m ρ c main_arg7 : S128x16.Idx → EReal) (ix2 k q) = Wc m c k q := fun k =>
    congrFun (V2e_arg m ρ c (r := main_arg7) (by decide) (by decide) (by decide)) (ix2 k q)
  rw [show X2 m ρ c (Proc.devRef .tc main_v691) = (dat2 (V2e m ρ) c).arrAt 3 cfg2.N from X2_arr m ρ c 3]
  refine (final2_apply (V2e m ρ) c t n q).trans ?_
  unfold cls
  rw [hb, zero_add]
  exact congrArg (fun s => s + bc m c q) (Finset.sum_congr rfl fun k _ => by rw [hH, hW])

/-! ## The chain -/

/-- The three calls in turn: with the host stretches' results as hypotheses on what each call finds — the first layer's
    aggregates, norms and bias rows at call 0; the aggregates of the clamped sums of call 0's slabs, norms and bias rows at
    call 1; the sums of call 1's slabs and the classifier's bias row at call 2 — call 2 leaves the network. -/
theorem net_out
    (hA0 : ∀ (r : Fin 9) (n : Fin 50000) (k : Fin 128), arrA0 (V0e m ρ) c (ix3 r n k) = agg (G m c) (xs m c (srcT r)) r n k)
    (hS0 : ∀ (r : Fin 9) (n : Fin 50000), arrS0 (V0e m ρ) c (ix3 r n (0 : Fin 1)) = (G m c).nd r n)
    (hB0 : ∀ (r : Fin 9) (q : Fin 128), arrB0 (V0e m ρ) c (ix3 r (0 : Fin 1) q) = b1 m c r q)
    (hA1 : ∀ (r : Fin 9) (n : Fin 50000) (k : Fin 128),
      arrA1 (V1e m ρ) c (ix3 r n k) = agg (G m c) (relu (sums (slabs0 m ρ c)) (srcT r)) r n k)
    (hS1 : ∀ (r : Fin 9) (n : Fin 50000), arrS1 (V1e m ρ) c (ix3 r n (0 : Fin 1)) = (G m c).nd r n)
    (hB1 : ∀ (r : Fin 9) (q : Fin 128), arrB1 (V1e m ρ) c (ix3 r (0 : Fin 1) q) = b2 m c r q)
    (hH2 : ∀ (t : Fin 3) (n : Fin 50000) (k : Fin 128),
      (V2e m ρ c main_v689 : S3x50000x128.Idx → EReal) (ix3 t n k) = sums (slabs1 m ρ c) t n k)
    (hb2 : ∀ q : Fin 16, (V2e m ρ c main_v690 : S1x16.Idx → EReal) (ix2 (0 : Fin 1) q) = bc m c q)
    (t : Fin 3) (n : Fin 50000) (q : Fin 16) :
    (X2 m ρ c (Proc.devRef .tc main_v691) : S3x50000x16.Idx → EReal) (ix3 t n q)
      = netK (G m c) (xs m c) (W1 m c) (b1 m c) (W2 m c) (b2 m c) (Wc m c) (bc m c) t n q := by
  have e1 := hidden1_eq m ρ c (call0_out m ρ c hA0 hS0 hB0)
  have e2 := hidden2_eq m ρ c _ (call1_out m ρ c _ hA1 hS1 hB1)
  rw [e1] at e2
  rw [call2_out m ρ c (sums (slabs1 m ρ c)) hH2 hb2 t n q, e2]
  rfl

end Steps

end Cert.KernelIdeal.Net

end
-- ==== Proof.KI.ReadB1.lean ====
/-
  The host operations right after the first projection call: the nine relation slabs of its output summed by
  destination node type, and the relu of each sum.

  The call's output is a [9, 50000, 128] array, one slab per relation. Slab r is taken out by a slice [r : r + 1] and a
  reshape that drops the unit axis; the slabs of the relations that end in one node type are added, in the program's
  order, onto a [50000, 128] array of zeros: slabs 2, 3, 5, 6 for the first sum, 4 and 8 for the second, 0, 1, 7 for
  the third. Each sum then goes through relu, the maximum with a [50000, 128] array of zeros. The long stretch that
  follows (the second layer's aggregation) writes none of the three results.
-/
import proofs.«151568_j90031104458821_2_alg».proof.Proof.KI.Fold
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-! ## The arrays the stretch builds -/

/-- The [50000, 128] array of zeros: the broadcast of the scalar constant zero. -/
abbrev zeroArr : Vec F S50000x128 .f32 :=
  broadcastInDim S50000x128 ![] bcast_S_S50000x128 (constant (F := F) S_ .f32 0x00000000#32)

/-- Slab 0 of a nine-slab array as a [50000, 128] array: the slice [0 : 1] with its unit axis dropped. -/
abbrev slab0 (A : Vec F S9x50000x128 .f32) : Vec F S50000x128 .f32 :=
  shapeCast S50000x128 (extractStridedSlice S1x50000x128 ![0, 0, 0] A slices_S9x50000x128_S1x50000x128_0_0_0)
    shapeCasts_S1x50000x128_S50000x128
/-- Slab 1 of a nine-slab array as a [50000, 128] array: the slice [1 : 2] with its unit axis dropped. -/
abbrev slab1 (A : Vec F S9x50000x128 .f32) : Vec F S50000x128 .f32 :=
  shapeCast S50000x128 (extractStridedSlice S1x50000x128 ![1, 0, 0] A slices_S9x50000x128_S1x50000x128_1_0_0)
    shapeCasts_S1x50000x128_S50000x128
/-- Slab 2 of a nine-slab array as a [50000, 128] array: the slice [2 : 3] with its unit axis dropped. -/
abbrev slab2 (A : Vec F S9x50000x128 .f32) : Vec F S50000x128 .f32 :=
  shapeCast S50000x128 (extractStridedSlice S1x50000x128 ![2, 0, 0] A slices_S9x50000x128_S1x50000x128_2_0_0)
    shapeCasts_S1x50000x128_S50000x128
/-- Slab 3 of a nine-slab array as a [50000, 128] array: the slice [3 : 4] with its unit axis dropped. -/
abbrev slab3 (A : Vec F S9x50000x128 .f32) : Vec F S50000x128 .f32 :=
  shapeCast S50000x128 (extractStridedSlice S1x50000x128 ![3, 0, 0] A slices_S9x50000x128_S1x50000x128_3_0_0)
    shapeCasts_S1x50000x128_S50000x128
/-- Slab 4 of a nine-slab array as a [50000, 128] array: the slice [4 : 5] with its unit axis dropped. -/
abbrev slab4 (A : Vec F S9x50000x128 .f32) : Vec F S50000x128 .f32 :=
  shapeCast S50000x128 (extractStridedSlice S1x50000x128 ![4, 0, 0] A slices_S9x50000x128_S1x50000x128_4_0_0)
    shapeCasts_S1x50000x128_S50000x128
/-- Slab 5 of a nine-slab array as a [50000, 128] array: the slice [5 : 6] with its unit axis dropped. -/
abbrev slab5 (A : Vec F S9x50000x128 .f32) : Vec F S50000x128 .f32 :=
  shapeCast S50000x128 (extractStridedSlice S1x50000x128 ![5, 0, 0] A slices_S9x50000x128_S1x50000x128_5_0_0)
    shapeCasts_S1x50000x128_S50000x128
/-- Slab 6 of a nine-slab array as a [50000, 128] array: the slice [6 : 7] with its unit axis dropped. -/
abbrev slab6 (A : Vec F S9x50000x128 .f32) : Vec F S50000x128 .f32 :=
  shapeCast S50000x128 (extractStridedSlice S1x50000x128 ![6, 0, 0] A slices_S9x50000x128_S1x50000x128_6_0_0)
    shapeCasts_S1x50000x128_S50000x128
/-- Slab 7 of a nine-slab array as a [50000, 128] array: the slice [7 : 8] with its unit axis dropped. -/
abbrev slab7 (A : Vec F S9x50000x128 .f32) : Vec F S50000x128 .f32 :=
  shapeCast S50000x128 (extractStridedSlice S1x50000x128 ![7, 0, 0] A slices_S9x50000x128_S1x50000x128_7_0_0)
    shapeCasts_S1x50000x128_S50000x128
/-- Slab 8 of a nine-slab array as a [50000, 128] array: the slice [8 : 9] with its unit axis dropped. -/
abbrev slab8 (A : Vec F S9x50000x128 .f32) : Vec F S50000x128 .f32 :=
  shapeCast S50000x128 (extractStridedSlice S1x50000x128 ![8, 0, 0] A slices_S9x50000x128_S1x50000x128_8_0_0)
    shapeCasts_S1x50000x128_S50000x128

/-! ## The three sums and their relus, stretch by stretch, from any contents -/

variable (W : Valuation τ sig (Elt F))

set_option maxHeartbeats 4000000 in
/-- The first sum after the slicing-and-adding stretch: zeros plus slabs 2, 3, 5, 6 of the call's output as W holds it. -/
theorem sum462 :
    (StableHlo.after hostOps1 W (Proc.devRef .tc main_v462) : Vec F S50000x128 .f32)
      = addf (addf (addf (addf zeroArr (slab2 (W (Proc.devRef .tc main_v438)))) (slab3 (W (Proc.devRef .tc main_v438))))
          (slab5 (W (Proc.devRef .tc main_v438)))) (slab6 (W (Proc.devRef .tc main_v438))) := by
  after_results_simp
  rfl

set_option maxHeartbeats 4000000 in
/-- The second sum: zeros plus slabs 4 and 8. -/
theorem sum468 :
    (StableHlo.after hostOps1 W (Proc.devRef .tc main_v468) : Vec F S50000x128 .f32)
      = addf (addf zeroArr (slab4 (W (Proc.devRef .tc main_v438)))) (slab8 (W (Proc.devRef .tc main_v438))) := by
  after_results_simp
  rfl

set_option maxHeartbeats 4000000 in
/-- The third sum: zeros plus slabs 0, 1, 7. -/
theorem sum465 :
    (StableHlo.after hostOps1 W (Proc.devRef .tc main_v465) : Vec F S50000x128 .f32)
      = addf (addf (addf zeroArr (slab0 (W (Proc.devRef .tc main_v438)))) (slab1 (W (Proc.devRef .tc main_v438))))
          (slab7 (W (Proc.devRef .tc main_v438))) := by
  after_results_simp
  rfl

/-- The first relu call: the maximum of the first sum with zeros. -/
theorem relu469 :
    (StableHlo.after hostOps1_1 W (Proc.devRef .tc main_v469) : Vec F S50000x128 .f32)
      = maximumf (W (Proc.devRef .tc main_v462) : Vec F S50000x128 .f32) zeroArr := by
  after_results
  rfl
/-- It leaves the other two sums as they were. -/
theorem keep468_1 : StableHlo.after hostOps1_1 W (Proc.devRef .tc main_v468) = W (Proc.devRef .tc main_v468) := by
  after_results
theorem keep465_1 : StableHlo.after hostOps1_1 W (Proc.devRef .tc main_v465) = W (Proc.devRef .tc main_v465) := by
  after_results

/-- The second relu call: the maximum of the second sum with zeros. -/
theorem relu470 :
    (StableHlo.after hostOps1_2 W (Proc.devRef .tc main_v470) : Vec F S50000x128 .f32)
      = maximumf (W (Proc.devRef .tc main_v468) : Vec F S50000x128 .f32) zeroArr := by
  after_results
  rfl
/-- It leaves the first relu's result and the third sum as they were. -/
theorem keep469_2 : StableHlo.after hostOps1_2 W (Proc.devRef .tc main_v469) = W (Proc.devRef .tc main_v469) := by
  after_results
theorem keep465_2 : StableHlo.after hostOps1_2 W (Proc.devRef .tc main_v465) = W (Proc.devRef .tc main_v465) := by
  after_results

/-- The third relu call: the maximum of the third sum with zeros. -/
theorem relu471 :
    (StableHlo.after hostOps1_3 W (Proc.devRef .tc main_v471) : Vec F S50000x128 .f32)
      = maximumf (W (Proc.devRef .tc main_v465) : Vec F S50000x128 .f32) zeroArr := by
  after_results
  rfl
/-- It leaves the first two relus' results as they were. -/
theorem keep469_3 : StableHlo.after hostOps1_3 W (Proc.devRef .tc main_v469) = W (Proc.devRef .tc main_v469) := by
  after_results
theorem keep470_3 : StableHlo.after hostOps1_3 W (Proc.devRef .tc main_v470) = W (Proc.devRef .tc main_v470) := by
  after_results

/-! ## The long stretch after the relus writes none of their results -/

/-- The three relus' result references. -/
abbrev reluRefs : List (Ref sig .tc) := [main_v469, main_v470, main_v471]

/-- The operation writes none of the three. -/
def Keeps (op : HloOp τ sig (Elt F)) : Prop := ∀ r ∈ reluRefs, Proc.devRef (τ := τ) .tc r ∉ op.writes

/-- An operation that writes one reference's buffer, that reference none of the three, keeps them: distinct references
    are distinct buffers. -/
theorem keeps_of_writes {op : HloOp τ sig (Elt F)} {y : Ref sig .tc} (hw : op.writes = {Proc.devRef .tc y}) (hy : y ∉ reluRefs) :
    Keeps op := fun r hr hm => by
  rw [hw, Finset.mem_singleton] at hm
  exact hy (Proc.devRef_injective _ hm ▸ hr)

/-- A line keeps them when its first operation and the rest do. -/
theorem keeps_cons {op : HloOp τ sig (Elt F)} {ops : List (HloOp τ sig (Elt F))} (h : Keeps op) (hs : ops.Forall Keeps) :
    (op :: ops).Forall Keeps :=
  List.forall_iff_forall_mem.mpr fun o ho => by
    rcases List.mem_cons.mp ho with rfl | ho
    · exact h
    · exact List.forall_iff_forall_mem.mp hs o ho

/-- After a line that keeps them, each of the three buffers holds what it held before. -/
theorem after_keeps (ops : List (HloOp τ sig (Elt F))) (h : ops.Forall Keeps) (V : Valuation τ sig (Elt F)) {r : Ref sig .tc}
    (hr : r ∈ reluRefs) : StableHlo.after ops V (Proc.devRef .tc r) = V (Proc.devRef .tc r) :=
  StableHlo.after_of_forall_not_mem ops V fun op hop => List.forall_iff_forall_mem.mp h op hop r hr

set_option maxHeartbeats 4000000 in
/-- Operation by operation down the second layer's aggregation: each writes its one result reference, none of the three. -/
theorem hostOps1_4_keeps : (hostOps1_4 : List (HloOp τ sig (Elt F))).Forall Keeps := by
  repeat (refine keeps_cons (keeps_of_writes rfl (by decide)) ?_)
  exact trivial

/-! ## At the boundaries of the run of stretches, from the contents X the first call leaves -/

variable (X : Dev nD → Valuation τ sig (Elt F))

/-- Before the long stretch: the relu of the first sum, -/
theorem relu469_at4 (c : Dev nD) :
    (WB4 X c (Proc.devRef .tc main_v469) : Vec F S50000x128 .f32)
      = maximumf (addf (addf (addf (addf zeroArr (slab2 (X c (Proc.devRef .tc main_v438)))) (slab3 (X c (Proc.devRef .tc main_v438))))
          (slab5 (X c (Proc.devRef .tc main_v438)))) (slab6 (X c (Proc.devRef .tc main_v438)))) zeroArr :=
  (keep469_3 (WB3 X c)).trans ((keep469_2 (WB2 X c)).trans ((relu469 (WB1 X c)).trans
    (congrArg (fun s : Vec F S50000x128 .f32 => maximumf s zeroArr) (sum462 (X c)))))

/-- of the second, -/
theorem relu470_at4 (c : Dev nD) :
    (WB4 X c (Proc.devRef .tc main_v470) : Vec F S50000x128 .f32)
      = maximumf (addf (addf zeroArr (slab4 (X c (Proc.devRef .tc main_v438)))) (slab8 (X c (Proc.devRef .tc main_v438)))) zeroArr :=
  (keep470_3 (WB3 X c)).trans ((relu470 (WB2 X c)).trans
    (congrArg (fun s : Vec F S50000x128 .f32 => maximumf s zeroArr) ((keep468_1 (WB1 X c)).trans (sum468 (X c)))))

/-- and of the third. -/
theorem relu471_at4 (c : Dev nD) :
    (WB4 X c (Proc.devRef .tc main_v471) : Vec F S50000x128 .f32)
      = maximumf (addf (addf (addf zeroArr (slab0 (X c (Proc.devRef .tc main_v438)))) (slab1 (X c (Proc.devRef .tc main_v438))))
          (slab7 (X c (Proc.devRef .tc main_v438)))) zeroArr :=
  (relu471 (WB3 X c)).trans
    (congrArg (fun s : Vec F S50000x128 .f32 => maximumf s zeroArr)
      ((keep465_2 (WB2 X c)).trans ((keep465_1 (WB1 X c)).trans (sum465 (X c)))))

/-- The long stretch changes none of the three. -/
theorem at5_eq_at4 (c : Dev nD) {r : Ref sig .tc} (hr : r ∈ reluRefs) :
    WB5 X c (Proc.devRef .tc r) = WB4 X c (Proc.devRef .tc r) :=
  after_keeps hostOps1_4 hostOps1_4_keeps (WB4 X c) hr

end Arrays

/-! ## Element by element, at the ideal instance -/

section AtIndex

/-- The array of zeros reads 0 everywhere. -/
theorem zeroArr_apply (i : S50000x128.Idx) : zeroArr (F := Ideal) i = (0 : EReal) := by
  refine (broadcastInDim_apply _ bcast_S_S50000x128 (constant (F := Ideal) S_ .f32 0x00000000#32) i (fun a => a.elim0)
    (fun a => a.elim0)).trans ?_
  rw [constant_apply, Ideal.ofBits_zero_f32]

/-- Slab 0 at (n, k) is the array at (0, n, k). -/
theorem slab0_apply (A : Vec Ideal S9x50000x128 .f32) (n : Fin 50000) (k : Fin 128) :
    slab0 (F := Ideal) A (ix2 n k) = A (ix3 (0 : Fin 9) n k) := by
  refine (shapeCast_1ab_ab_apply _ _ n k).trans ?_
  exact extractStridedSlice_apply ![0, 0, 0] A slices_S9x50000x128_S1x50000x128_0_0_0 (ix3 (0 : Fin 1) n k) (ix3 (0 : Fin 9) n k)
    (fun a => match a with
      | ⟨0, _⟩ => rfl
      | ⟨1, _⟩ => (Nat.zero_add _).symm
      | ⟨2, _⟩ => (Nat.zero_add _).symm)
/-- Slab 1 at (n, k) is the array at (1, n, k). -/
theorem slab1_apply (A : Vec Ideal S9x50000x128 .f32) (n : Fin 50000) (k : Fin 128) :
    slab1 (F := Ideal) A (ix2 n k) = A (ix3 (1 : Fin 9) n k) := by
  refine (shapeCast_1ab_ab_apply _ _ n k).trans ?_
  exact extractStridedSlice_apply ![1, 0, 0] A slices_S9x50000x128_S1x50000x128_1_0_0 (ix3 (0 : Fin 1) n k) (ix3 (1 : Fin 9) n k)
    (fun a => match a with
      | ⟨0, _⟩ => rfl
      | ⟨1, _⟩ => (Nat.zero_add _).symm
      | ⟨2, _⟩ => (Nat.zero_add _).symm)
/-- Slab 2 at (n, k) is the array at (2, n, k). -/
theorem slab2_apply (A : Vec Ideal S9x50000x128 .f32) (n : Fin 50000) (k : Fin 128) :
    slab2 (F := Ideal) A (ix2 n k) = A (ix3 (2 : Fin 9) n k) := by
  refine (shapeCast_1ab_ab_apply _ _ n k).trans ?_
  exact extractStridedSlice_apply ![2, 0, 0] A slices_S9x50000x128_S1x50000x128_2_0_0 (ix3 (0 : Fin 1) n k) (ix3 (2 : Fin 9) n k)
    (fun a => match a with
      | ⟨0, _⟩ => rfl
      | ⟨1, _⟩ => (Nat.zero_add _).symm
      | ⟨2, _⟩ => (Nat.zero_add _).symm)
/-- Slab 3 at (n, k) is the array at (3, n, k). -/
theorem slab3_apply (A : Vec Ideal S9x50000x128 .f32) (n : Fin 50000) (k : Fin 128) :
    slab3 (F := Ideal) A (ix2 n k) = A (ix3 (3 : Fin 9) n k) := by
  refine (shapeCast_1ab_ab_apply _ _ n k).trans ?_
  exact extractStridedSlice_apply ![3, 0, 0] A slices_S9x50000x128_S1x50000x128_3_0_0 (ix3 (0 : Fin 1) n k) (ix3 (3 : Fin 9) n k)
    (fun a => match a with
      | ⟨0, _⟩ => rfl
      | ⟨1, _⟩ => (Nat.zero_add _).symm
      | ⟨2, _⟩ => (Nat.zero_add _).symm)
/-- Slab 4 at (n, k) is the array at (4, n, k). -/
theorem slab4_apply (A : Vec Ideal S9x50000x128 .f32) (n : Fin 50000) (k : Fin 128) :
    slab4 (F := Ideal) A (ix2 n k) = A (ix3 (4 : Fin 9) n k) := by
  refine (shapeCast_1ab_ab_apply _ _ n k).trans ?_
  exact extractStridedSlice_apply ![4, 0, 0] A slices_S9x50000x128_S1x50000x128_4_0_0 (ix3 (0 : Fin 1) n k) (ix3 (4 : Fin 9) n k)
    (fun a => match a with
      | ⟨0, _⟩ => rfl
      | ⟨1, _⟩ => (Nat.zero_add _).symm
      | ⟨2, _⟩ => (Nat.zero_add _).symm)
/-- Slab 5 at (n, k) is the array at (5, n, k). -/
theorem slab5_apply (A : Vec Ideal S9x50000x128 .f32) (n : Fin 50000) (k : Fin 128) :
    slab5 (F := Ideal) A (ix2 n k) = A (ix3 (5 : Fin 9) n k) := by
  refine (shapeCast_1ab_ab_apply _ _ n k).trans ?_
  exact extractStridedSlice_apply ![5, 0, 0] A slices_S9x50000x128_S1x50000x128_5_0_0 (ix3 (0 : Fin 1) n k) (ix3 (5 : Fin 9) n k)
    (fun a => match a with
      | ⟨0, _⟩ => rfl
      | ⟨1, _⟩ => (Nat.zero_add _).symm
      | ⟨2, _⟩ => (Nat.zero_add _).symm)
/-- Slab 6 at (n, k) is the array at (6, n, k). -/
theorem slab6_apply (A : Vec Ideal S9x50000x128 .f32) (n : Fin 50000) (k : Fin 128) :
    slab6 (F := Ideal) A (ix2 n k) = A (ix3 (6 : Fin 9) n k) := by
  refine (shapeCast_1ab_ab_apply _ _ n k).trans ?_
  exact extractStridedSlice_apply ![6, 0, 0] A slices_S9x50000x128_S1x50000x128_6_0_0 (ix3 (0 : Fin 1) n k) (ix3 (6 : Fin 9) n k)
    (fun a => match a with
      | ⟨0, _⟩ => rfl
      | ⟨1, _⟩ => (Nat.zero_add _).symm
      | ⟨2, _⟩ => (Nat.zero_add _).symm)
/-- Slab 7 at (n, k) is the array at (7, n, k). -/
theorem slab7_apply (A : Vec Ideal S9x50000x128 .f32) (n : Fin 50000) (k : Fin 128) :
    slab7 (F := Ideal) A (ix2 n k) = A (ix3 (7 : Fin 9) n k) := by
  refine (shapeCast_1ab_ab_apply _ _ n k).trans ?_
  exact extractStridedSlice_apply ![7, 0, 0] A slices_S9x50000x128_S1x50000x128_7_0_0 (ix3 (0 : Fin 1) n k) (ix3 (7 : Fin 9) n k)
    (fun a => match a with
      | ⟨0, _⟩ => rfl
      | ⟨1, _⟩ => (Nat.zero_add _).symm
      | ⟨2, _⟩ => (Nat.zero_add _).symm)
/-- Slab 8 at (n, k) is the array at (8, n, k). -/
theorem slab8_apply (A : Vec Ideal S9x50000x128 .f32) (n : Fin 50000) (k : Fin 128) :
    slab8 (F := Ideal) A (ix2 n k) = A (ix3 (8 : Fin 9) n k) := by
  refine (shapeCast_1ab_ab_apply _ _ n k).trans ?_
  exact extractStridedSlice_apply ![8, 0, 0] A slices_S9x50000x128_S1x50000x128_8_0_0 (ix3 (0 : Fin 1) n k) (ix3 (8 : Fin 9) n k)
    (fun a => match a with
      | ⟨0, _⟩ => rfl
      | ⟨1, _⟩ => (Nat.zero_add _).symm
      | ⟨2, _⟩ => (Nat.zero_add _).symm)

variable (X : Dev nD → Valuation τ sig (Elt Ideal))

/-- The first call's output as X holds it, at (relation, node, feature). -/
abbrev Y (c : Dev nD) (r : Fin 9) (n : Fin 50000) (k : Fin 128) : EReal :=
  (X c (Proc.devRef .tc main_v438) : S9x50000x128.Idx → EReal) (ix3 r n k)

/-- (B1a) at the boundary before the long stretch. -/
theorem v469_at4_apply (c : Dev nD) (n : Fin 50000) (k : Fin 128) :
    (WB4 X c (Proc.devRef .tc main_v469) : S50000x128.Idx → EReal) (ix2 n k)
      = max (α := EReal) ((((0 + Y X c 2 n k) + Y X c 3 n k) + Y X c 5 n k) + Y X c 6 n k) 0 := by
  rw [relu469_at4 X c, maximumf_apply, addf_apply, addf_apply, addf_apply, addf_apply, zeroArr_apply, slab2_apply, slab3_apply,
    slab5_apply, slab6_apply]

/-- (B1a): the first relu's result after the whole run of stretches. -/
theorem v469_apply (c : Dev nD) (n : Fin 50000) (k : Fin 128) :
    (WB5 X c (Proc.devRef .tc main_v469) : S50000x128.Idx → EReal) (ix2 n k)
      = max (α := EReal) ((((0 + Y X c 2 n k) + Y X c 3 n k) + Y X c 5 n k) + Y X c 6 n k) 0 := by
  rw [at5_eq_at4 X c (r := main_v469) (by decide)]
  exact v469_at4_apply X c n k

/-- (B1c) at the boundary before the long stretch. -/
theorem v471_at4_apply (c : Dev nD) (n : Fin 50000) (k : Fin 128) :
    (WB4 X c (Proc.devRef .tc main_v471) : S50000x128.Idx → EReal) (ix2 n k)
      = max (α := EReal) (((0 + Y X c 0 n k) + Y X c 1 n k) + Y X c 7 n k) 0 := by
  rw [relu471_at4 X c, maximumf_apply, addf_apply, addf_apply, addf_apply, zeroArr_apply, slab0_apply, slab1_apply, slab7_apply]

/-- (B1c): the third relu's result after the whole run of stretches. -/
theorem v471_apply (c : Dev nD) (n : Fin 50000) (k : Fin 128) :
    (WB5 X c (Proc.devRef .tc main_v471) : S50000x128.Idx → EReal) (ix2 n k)
      = max (α := EReal) (((0 + Y X c 0 n k) + Y X c 1 n k) + Y X c 7 n k) 0 := by
  rw [at5_eq_at4 X c (r := main_v471) (by decide)]
  exact v471_at4_apply X c n k

/-- (B1b) at the boundary before the long stretch. -/
theorem v470_at4_apply (c : Dev nD) (n : Fin 50000) (k : Fin 128) :
    (WB4 X c (Proc.devRef .tc main_v470) : S50000x128.Idx → EReal) (ix2 n k)
      = max (α := EReal) ((0 + Y X c 4 n k) + Y X c 8 n k) 0 := by
  rw [relu470_at4 X c, maximumf_apply, addf_apply, addf_apply, zeroArr_apply, slab4_apply, slab8_apply]

/-- (B1b): the second relu's result after the whole run of stretches. -/
theorem v470_apply (c : Dev nD) (n : Fin 50000) (k : Fin 128) :
    (WB5 X c (Proc.devRef .tc main_v470) : S50000x128.Idx → EReal) (ix2 n k)
      = max (α := EReal) ((0 + Y X c 4 n k) + Y X c 8 n k) 0 := by
  rw [at5_eq_at4 X c (r := main_v470) (by decide)]
  exact v470_at4_apply X c n k

end AtIndex

end Cert.KernelIdeal.Rd

end
-- ==== Proof.Concat.lean ====
/-
  A stack of tables read at an index. `concatenate` along axis 0 of pieces whose leading extent is 1 puts piece r at
  row r of the result: element (r, n, …) of the stack is element (0, n, …) of piece r. Stated for nine rows, nine
  tables and three tables, over any element type, with the trailing extents generic.
-/
import Idealize.ShloMosaic.PureOps
import Idealize.ShloMosaic.Lib.ValueIdx
import Idealize.ShloMosaic.Lib.Pipeline.Value

namespace Cert.Concat

open Idealize.ShloMosaic Idealize.ShloMosaic.ValueIdx

variable {α : Type}

/-- 9 [1, m] rows into a [9, m] array along axis 0, the pieces a family `v`: element (r, …) is piece r's at (0, …). -/
theorem concat9_2_fn {m : Nat} (v : Fin 9 → ((⟨2, ![1, m]⟩ : Shape).Idx → α))
    (h : Shape.Concatenates ([(⟨⟨2, ![1, m]⟩, v 0⟩ : (s : Shape) × (s.Idx → α)), ⟨⟨2, ![1, m]⟩, v 1⟩, ⟨⟨2, ![1, m]⟩, v 2⟩, ⟨⟨2, ![1, m]⟩, v 3⟩, ⟨⟨2, ![1, m]⟩, v 4⟩, ⟨⟨2, ![1, m]⟩, v 5⟩, ⟨⟨2, ![1, m]⟩, v 6⟩, ⟨⟨2, ![1, m]⟩, v 7⟩, ⟨⟨2, ![1, m]⟩, v 8⟩].map (·.1)) ⟨2, ![9, m]⟩ 0)
    (r : Fin 9) (n : Fin m) :
    concatenate ⟨2, ![9, m]⟩ 0 [(⟨⟨2, ![1, m]⟩, v 0⟩ : (s : Shape) × (s.Idx → α)), ⟨⟨2, ![1, m]⟩, v 1⟩, ⟨⟨2, ![1, m]⟩, v 2⟩, ⟨⟨2, ![1, m]⟩, v 3⟩, ⟨⟨2, ![1, m]⟩, v 4⟩, ⟨⟨2, ![1, m]⟩, v 5⟩, ⟨⟨2, ![1, m]⟩, v 6⟩, ⟨⟨2, ![1, m]⟩, v 7⟩, ⟨⟨2, ![1, m]⟩, v 8⟩] h (ix2 r n) = v r (ix2 (0 : Fin 1) n) :=
  concatenate_ofFn_unit_apply (t := ⟨2, ![9, m]⟩) (s₁ := ⟨2, ![1, m]⟩) 0 v h rfl rfl (ix2 r n) r rfl (ix2 (0 : Fin 1) n)
    (fun b hb => match b with | ⟨0, _⟩ => absurd rfl hb | ⟨1, _⟩ => rfl)

/-- The same with the 9 pieces named one by one (the form a printed concatenation has): element (r, …) is the r-th
    piece's at (0, …). -/
theorem concat9_2_apply {m : Nat} (v0 v1 v2 v3 v4 v5 v6 v7 v8 : (⟨2, ![1, m]⟩ : Shape).Idx → α)
    (h : Shape.Concatenates ([(⟨⟨2, ![1, m]⟩, v0⟩ : (s : Shape) × (s.Idx → α)), ⟨⟨2, ![1, m]⟩, v1⟩, ⟨⟨2, ![1, m]⟩, v2⟩, ⟨⟨2, ![1, m]⟩, v3⟩, ⟨⟨2, ![1, m]⟩, v4⟩, ⟨⟨2, ![1, m]⟩, v5⟩, ⟨⟨2, ![1, m]⟩, v6⟩, ⟨⟨2, ![1, m]⟩, v7⟩, ⟨⟨2, ![1, m]⟩, v8⟩].map (·.1)) ⟨2, ![9, m]⟩ 0)
    (r : Fin 9) (n : Fin m) :
    concatenate ⟨2, ![9, m]⟩ 0 [(⟨⟨2, ![1, m]⟩, v0⟩ : (s : Shape) × (s.Idx → α)), ⟨⟨2, ![1, m]⟩, v1⟩, ⟨⟨2, ![1, m]⟩, v2⟩, ⟨⟨2, ![1, m]⟩, v3⟩, ⟨⟨2, ![1, m]⟩, v4⟩, ⟨⟨2, ![1, m]⟩, v5⟩, ⟨⟨2, ![1, m]⟩, v6⟩, ⟨⟨2, ![1, m]⟩, v7⟩, ⟨⟨2, ![1, m]⟩, v8⟩] h (ix2 r n) = (![v0, v1, v2, v3, v4, v5, v6, v7, v8] : Fin 9 → ((⟨2, ![1, m]⟩ : Shape).Idx → α)) r (ix2 (0 : Fin 1) n) :=
  concat9_2_fn ![v0, v1, v2, v3, v4, v5, v6, v7, v8] h r n

/-- 9 [1, m, k] tables into a [9, m, k] array along axis 0, the pieces a family `v`: element (r, …) is piece r's at (0, …). -/
theorem concat9_3_fn {m k : Nat} (v : Fin 9 → ((⟨3, ![1, m, k]⟩ : Shape).Idx → α))
    (h : Shape.Concatenates ([(⟨⟨3, ![1, m, k]⟩, v 0⟩ : (s : Shape) × (s.Idx → α)), ⟨⟨3, ![1, m, k]⟩, v 1⟩, ⟨⟨3, ![1, m, k]⟩, v 2⟩, ⟨⟨3, ![1, m, k]⟩, v 3⟩, ⟨⟨3, ![1, m, k]⟩, v 4⟩, ⟨⟨3, ![1, m, k]⟩, v 5⟩, ⟨⟨3, ![1, m, k]⟩, v 6⟩, ⟨⟨3, ![1, m, k]⟩, v 7⟩, ⟨⟨3, ![1, m, k]⟩, v 8⟩].map (·.1)) ⟨3, ![9, m, k]⟩ 0)
    (r : Fin 9) (n : Fin m) (c : Fin k) :
    concatenate ⟨3, ![9, m, k]⟩ 0 [(⟨⟨3, ![1, m, k]⟩, v 0⟩ : (s : Shape) × (s.Idx → α)), ⟨⟨3, ![1, m, k]⟩, v 1⟩, ⟨⟨3, ![1, m, k]⟩, v 2⟩, ⟨⟨3, ![1, m, k]⟩, v 3⟩, ⟨⟨3, ![1, m, k]⟩, v 4⟩, ⟨⟨3, ![1, m, k]⟩, v 5⟩, ⟨⟨3, ![1, m, k]⟩, v 6⟩, ⟨⟨3, ![1, m, k]⟩, v 7⟩, ⟨⟨3, ![1, m, k]⟩, v 8⟩] h (ix3 r n c) = v r (ix3 (0 : Fin 1) n c) :=
  concatenate_ofFn_unit_apply (t := ⟨3, ![9, m, k]⟩) (s₁ := ⟨3, ![1, m, k]⟩) 0 v h rfl rfl (ix3 r n c) r rfl (ix3 (0 : Fin 1) n c)
    (fun b hb => match b with | ⟨0, _⟩ => absurd rfl hb | ⟨1, _⟩ => rfl | ⟨2, _⟩ => rfl)

/-- The same with the 9 pieces named one by one (the form a printed concatenation has): element (r, …) is the r-th
    piece's at (0, …). -/
theorem concat9_3_apply {m k : Nat} (v0 v1 v2 v3 v4 v5 v6 v7 v8 : (⟨3, ![1, m, k]⟩ : Shape).Idx → α)
    (h : Shape.Concatenates ([(⟨⟨3, ![1, m, k]⟩, v0⟩ : (s : Shape) × (s.Idx → α)), ⟨⟨3, ![1, m, k]⟩, v1⟩, ⟨⟨3, ![1, m, k]⟩, v2⟩, ⟨⟨3, ![1, m, k]⟩, v3⟩, ⟨⟨3, ![1, m, k]⟩, v4⟩, ⟨⟨3, ![1, m, k]⟩, v5⟩, ⟨⟨3, ![1, m, k]⟩, v6⟩, ⟨⟨3, ![1, m, k]⟩, v7⟩, ⟨⟨3, ![1, m, k]⟩, v8⟩].map (·.1)) ⟨3, ![9, m, k]⟩ 0)
    (r : Fin 9) (n : Fin m) (c : Fin k) :
    concatenate ⟨3, ![9, m, k]⟩ 0 [(⟨⟨3, ![1, m, k]⟩, v0⟩ : (s : Shape) × (s.Idx → α)), ⟨⟨3, ![1, m, k]⟩, v1⟩, ⟨⟨3, ![1, m, k]⟩, v2⟩, ⟨⟨3, ![1, m, k]⟩, v3⟩, ⟨⟨3, ![1, m, k]⟩, v4⟩, ⟨⟨3, ![1, m, k]⟩, v5⟩, ⟨⟨3, ![1, m, k]⟩, v6⟩, ⟨⟨3, ![1, m, k]⟩, v7⟩, ⟨⟨3, ![1, m, k]⟩, v8⟩] h (ix3 r n c) = (![v0, v1, v2, v3, v4, v5, v6, v7, v8] : Fin 9 → ((⟨3, ![1, m, k]⟩ : Shape).Idx → α)) r (ix3 (0 : Fin 1) n c) :=
  concat9_3_fn ![v0, v1, v2, v3, v4, v5, v6, v7, v8] h r n c

/-- 3 [1, m, k] tables into a [3, m, k] array along axis 0, the pieces a family `v`: element (r, …) is piece r's at (0, …). -/
theorem concat3_3_fn {m k : Nat} (v : Fin 3 → ((⟨3, ![1, m, k]⟩ : Shape).Idx → α))
    (h : Shape.Concatenates ([(⟨⟨3, ![1, m, k]⟩, v 0⟩ : (s : Shape) × (s.Idx → α)), ⟨⟨3, ![1, m, k]⟩, v 1⟩, ⟨⟨3, ![1, m, k]⟩, v 2⟩].map (·.1)) ⟨3, ![3, m, k]⟩ 0)
    (r : Fin 3) (n : Fin m) (c : Fin k) :
    concatenate ⟨3, ![3, m, k]⟩ 0 [(⟨⟨3, ![1, m, k]⟩, v 0⟩ : (s : Shape) × (s.Idx → α)), ⟨⟨3, ![1, m, k]⟩, v 1⟩, ⟨⟨3, ![1, m, k]⟩, v 2⟩] h (ix3 r n c) = v r (ix3 (0 : Fin 1) n c) :=
  concatenate_ofFn_unit_apply (t := ⟨3, ![3, m, k]⟩) (s₁ := ⟨3, ![1, m, k]⟩) 0 v h rfl rfl (ix3 r n c) r rfl (ix3 (0 : Fin 1) n c)
    (fun b hb => match b with | ⟨0, _⟩ => absurd rfl hb | ⟨1, _⟩ => rfl | ⟨2, _⟩ => rfl)

/-- The same with the 3 pieces named one by one (the form a printed concatenation has): element (r, …) is the r-th
    piece's at (0, …). -/
theorem concat3_3_apply {m k : Nat} (v0 v1 v2 : (⟨3, ![1, m, k]⟩ : Shape).Idx → α)
    (h : Shape.Concatenates ([(⟨⟨3, ![1, m, k]⟩, v0⟩ : (s : Shape) × (s.Idx → α)), ⟨⟨3, ![1, m, k]⟩, v1⟩, ⟨⟨3, ![1, m, k]⟩, v2⟩].map (·.1)) ⟨3, ![3, m, k]⟩ 0)
    (r : Fin 3) (n : Fin m) (c : Fin k) :
    concatenate ⟨3, ![3, m, k]⟩ 0 [(⟨⟨3, ![1, m, k]⟩, v0⟩ : (s : Shape) × (s.Idx → α)), ⟨⟨3, ![1, m, k]⟩, v1⟩, ⟨⟨3, ![1, m, k]⟩, v2⟩] h (ix3 r n c) = (![v0, v1, v2] : Fin 3 → ((⟨3, ![1, m, k]⟩ : Shape).Idx → α)) r (ix3 (0 : Fin 1) n c) :=
  concat3_3_fn ![v0, v1, v2] h r n c

end Cert.Concat
-- ==== Proof.KI.ReadC.lean ====
/-
  What the third pallas_call finds in the buffers it reads.

  Between the second call and the third the host adds up slabs of the second call's output, a [9, 50000, 128] stack
  with one slab per relation: per destination node type the slabs of the relations that point at it, starting from a
  table of zeros — (((0 + slab 2) + slab 3) + slab 5) + slab 6, (0 + slab 4) + slab 8 and ((0 + slab 0) + slab 1) + slab 7 —
  and lays the three sums end to end as a [3, 50000, 128] stack; the bias vector of 16 entries becomes a [1, 16] row, and
  the weight matrix is read as it is. Read at an element these are sums of elements of the stack, an entry of the bias
  vector, and the untouched matrix.
-/
import proofs.«151568_j90031104458821_2_alg».proof.Proof.KI.Fold
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«151568_j90031104458821_2_alg».proof.Proof.Concat

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.TcCoe Idealize.ShloMosaic.ValueIdx

/-- The result of an operation over a literal family of three operands (a concatenate of three pieces), with each
    operand's contents at its own reference. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (V : Valuation τ' sig' Val) :
    (nary (τ := τ') ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same with the result reference un-indexed, for one simp pass over a line of operations. -/
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (V : Valuation τ' sig' Val) :
    (nary (τ := τ') ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- Each operation's result at its own reference is its function's value, and at another reference what was there;
    a three-piece concatenate's operands are read at their own references. One simp pass. -/
local macro "results3" : tactic =>
  `(tactic| (simp (disch := decide) only [after_cons, after_nil,
      nullary_result', unary_result', binary_result', reshape_result', nary3_result',
      nullary_result_ne', unary_result_ne', binary_result_ne', reshape_result_ne', nary_result_ne']))

variable {F : FTy → Type} [FloatOps F]

/-- One slab of the nine-slab stack, as a table. -/
def slab (off : Fin 3 → Nat) (h : S9x50000x128.Slices off S1x50000x128)
    (Y : (⟨S9x50000x128, .f32⟩ : BufTy).Contents (Elt F)) : (⟨S50000x128, .f32⟩ : BufTy).Contents (Elt F) :=
  shapeCast S50000x128 (extractStridedSlice S1x50000x128 off Y h) shapeCasts_S1x50000x128_S50000x128

/-- The table of zeros the sums start from. -/
def zeros : (⟨S50000x128, .f32⟩ : BufTy).Contents (Elt F) :=
  broadcastInDim S50000x128 ![] bcast_S_S50000x128 (constant S_ .f32 0x00000000#32)

/-- A table as a one-slab stack. -/
def asSlab (T : (⟨S50000x128, .f32⟩ : BufTy).Contents (Elt F)) : (⟨S1x50000x128, .f32⟩ : BufTy).Contents (Elt F) :=
  broadcastInDim S1x50000x128 ![1, 2] bcast_S50000x128_S1x50000x128_1_2 T

/-- The three sums over the stack `Y`, by destination node type. -/
def sum0 (Y : (⟨S9x50000x128, .f32⟩ : BufTy).Contents (Elt F)) : (⟨S50000x128, .f32⟩ : BufTy).Contents (Elt F) :=
  addf (addf (addf (addf zeros (slab ![2, 0, 0] slices_S9x50000x128_S1x50000x128_2_0_0 Y))
    (slab ![3, 0, 0] slices_S9x50000x128_S1x50000x128_3_0_0 Y))
    (slab ![5, 0, 0] slices_S9x50000x128_S1x50000x128_5_0_0 Y))
    (slab ![6, 0, 0] slices_S9x50000x128_S1x50000x128_6_0_0 Y)
def sum1 (Y : (⟨S9x50000x128, .f32⟩ : BufTy).Contents (Elt F)) : (⟨S50000x128, .f32⟩ : BufTy).Contents (Elt F) :=
  addf (addf zeros (slab ![4, 0, 0] slices_S9x50000x128_S1x50000x128_4_0_0 Y))
    (slab ![8, 0, 0] slices_S9x50000x128_S1x50000x128_8_0_0 Y)
def sum2 (Y : (⟨S9x50000x128, .f32⟩ : BufTy).Contents (Elt F)) : (⟨S50000x128, .f32⟩ : BufTy).Contents (Elt F) :=
  addf (addf (addf zeros (slab ![0, 0, 0] slices_S9x50000x128_S1x50000x128_0_0_0 Y))
    (slab ![1, 0, 0] slices_S9x50000x128_S1x50000x128_1_0_0 Y))
    (slab ![7, 0, 0] slices_S9x50000x128_S1x50000x128_7_0_0 Y)

/-- The three sums laid end to end. -/
def stack3 (Y : (⟨S9x50000x128, .f32⟩ : BufTy).Contents (Elt F)) : (⟨S3x50000x128, .f32⟩ : BufTy).Contents (Elt F) :=
  concatenate S3x50000x128 0 [⟨S1x50000x128, asSlab (sum0 Y)⟩, ⟨S1x50000x128, asSlab (sum1 Y)⟩, ⟨S1x50000x128, asSlab (sum2 Y)⟩]
    concatenates_S1x50000x128_S1x50000x128_S1x50000x128_S3x50000x128_d0

variable (X : Dev nD → Valuation τ sig (Elt F)) (c : Dev nD)

set_option maxHeartbeats 4000000 in
/-- The hidden-state stack the third call reads is the three sums over the second call's output, laid end to end. -/
theorem v689_eq : WC1 X c (Proc.devRef .tc main_v689) = stack3 (X c (Proc.devRef .tc main_v655)) := by
  show StableHlo.after hostOps2 (X c) (Proc.devRef .tc main_v689) = _
  results3
  rfl

set_option maxHeartbeats 4000000 in
/-- The bias row the third call reads is the bias vector with a unit axis in front. -/
theorem v690_eq : WC1 X c (Proc.devRef .tc main_v690)
    = shapeCast S1x16 (X c (Proc.devRef .tc main_arg8)) shapeCasts_S16_S1x16 := by
  show StableHlo.after hostOps2 (X c) (Proc.devRef .tc main_v690) = _
  results3
  rfl

set_option maxHeartbeats 4000000 in
/-- No operation of the stretch writes the classifier's weight matrix. -/
theorem arg7_eq : WC1 X c (Proc.devRef .tc main_arg7) = X c (Proc.devRef .tc main_arg7) := by
  show StableHlo.after hostOps2 (X c) (Proc.devRef .tc main_arg7) = _
  results3

/-! ## Read at an element, at the ideal values -/

section Index

/-- A slab of the stack read at an element: slab r at (n, k) is the stack at (r, n, k). -/
theorem slab_apply (off : Fin 3 → Nat) (h : S9x50000x128.Slices off S1x50000x128) (r : Fin 9)
    (h0 : off 0 = r.val) (h1 : off 1 = 0) (h2 : off 2 = 0)
    (Y : Vec Ideal S9x50000x128 .f32) (n : Fin 50000) (k : Fin 128) :
    slab off h Y (ix2 n k) = Y (ix3 r n k) := by
  unfold slab
  rw [shapeCast_1ab_ab_apply]
  exact extractStridedSlice_apply off Y h _ (ix3 r n k) (fun a => match a with
    | ⟨0, _⟩ => by show r.val = off 0 + 0; omega
    | ⟨1, _⟩ => by show n.val = off 1 + n.val; omega
    | ⟨2, _⟩ => by show k.val = off 2 + k.val; omega)

/-- The table of zeros reads zero everywhere. -/
theorem zeros_apply (n : Fin 50000) (k : Fin 128) : (zeros (F := Ideal)) (ix2 n k) = (0 : EReal) := by
  unfold zeros
  rw [broadcastInDim_scalar_apply, constant_apply, Ideal.ofBits_zero_f32]

/-- A table as a one-slab stack reads the table. -/
theorem asSlab_apply (T : Vec Ideal S50000x128 .f32) (n : Fin 50000) (k : Fin 128) :
    asSlab T (ix3 (0 : Fin 1) n k) = T (ix2 n k) := by
  unfold asSlab
  exact broadcastInDim_apply _ _ T _ (ix2 n k) (fun a => match a with
    | ⟨0, _⟩ => rfl
    | ⟨1, _⟩ => rfl)

variable (Y : Vec Ideal S9x50000x128 .f32) (n : Fin 50000) (k : Fin 128)

theorem sum0_apply : sum0 Y (ix2 n k)
    = ((((0 : EReal) + Y (ix3 (2 : Fin 9) n k)) + Y (ix3 (3 : Fin 9) n k)) + Y (ix3 (5 : Fin 9) n k)) + Y (ix3 (6 : Fin 9) n k) := by
  unfold sum0
  rw [addf_apply, addf_apply, addf_apply, addf_apply, zeros_apply,
    slab_apply _ _ 2 rfl rfl rfl, slab_apply _ _ 3 rfl rfl rfl, slab_apply _ _ 5 rfl rfl rfl, slab_apply _ _ 6 rfl rfl rfl]

theorem sum1_apply : sum1 Y (ix2 n k) = ((0 : EReal) + Y (ix3 (4 : Fin 9) n k)) + Y (ix3 (8 : Fin 9) n k) := by
  unfold sum1
  rw [addf_apply, addf_apply, zeros_apply, slab_apply _ _ 4 rfl rfl rfl, slab_apply _ _ 8 rfl rfl rfl]

theorem sum2_apply : sum2 Y (ix2 n k)
    = (((0 : EReal) + Y (ix3 (0 : Fin 9) n k)) + Y (ix3 (1 : Fin 9) n k)) + Y (ix3 (7 : Fin 9) n k) := by
  unfold sum2
  rw [addf_apply, addf_apply, addf_apply, zeros_apply,
    slab_apply _ _ 0 rfl rfl rfl, slab_apply _ _ 1 rfl rfl rfl, slab_apply _ _ 7 rfl rfl rfl]

/-- The stack of the three sums read at (t, n, k) is sum t at (n, k). -/
theorem stack3_apply0 : stack3 Y (ix3 (0 : Fin 3) n k) = sum0 Y (ix2 n k) := by
  unfold stack3
  rw [Cert.Concat.concat3_3_apply]
  exact asSlab_apply (sum0 Y) n k
theorem stack3_apply1 : stack3 Y (ix3 (1 : Fin 3) n k) = sum1 Y (ix2 n k) := by
  unfold stack3
  rw [Cert.Concat.concat3_3_apply]
  exact asSlab_apply (sum1 Y) n k
theorem stack3_apply2 : stack3 Y (ix3 (2 : Fin 3) n k) = sum2 Y (ix2 n k) := by
  unfold stack3
  rw [Cert.Concat.concat3_3_apply]
  exact asSlab_apply (sum2 Y) n k

end Index

section Deliverable

variable (X : Dev nD → Valuation τ sig (Elt Ideal)) (c : Dev nD) (n : Fin 50000) (k : Fin 128)

/-- The hidden-state stack the third call reads, at (0, n, k): zero plus the second call's output at slabs 2, 3, 5, 6. -/
theorem v689_apply0 :
    (WC1 X c (Proc.devRef .tc main_v689) : S3x50000x128.Idx → EReal) (ix3 (0 : Fin 3) n k)
      = ((((0 : EReal) + (X c (Proc.devRef .tc main_v655) : S9x50000x128.Idx → EReal) (ix3 (2 : Fin 9) n k))
          + (X c (Proc.devRef .tc main_v655) : S9x50000x128.Idx → EReal) (ix3 (3 : Fin 9) n k))
          + (X c (Proc.devRef .tc main_v655) : S9x50000x128.Idx → EReal) (ix3 (5 : Fin 9) n k))
          + (X c (Proc.devRef .tc main_v655) : S9x50000x128.Idx → EReal) (ix3 (6 : Fin 9) n k) := by
  rw [v689_eq, stack3_apply0, sum0_apply]

/-- At (1, n, k): zero plus slabs 4 and 8. -/
theorem v689_apply1 :
    (WC1 X c (Proc.devRef .tc main_v689) : S3x50000x128.Idx → EReal) (ix3 (1 : Fin 3) n k)
      = ((0 : EReal) + (X c (Proc.devRef .tc main_v655) : S9x50000x128.Idx → EReal) (ix3 (4 : Fin 9) n k))
          + (X c (Proc.devRef .tc main_v655) : S9x50000x128.Idx → EReal) (ix3 (8 : Fin 9) n k) := by
  rw [v689_eq, stack3_apply1, sum1_apply]

/-- At (2, n, k): zero plus slabs 0, 1 and 7. -/
theorem v689_apply2 :
    (WC1 X c (Proc.devRef .tc main_v689) : S3x50000x128.Idx → EReal) (ix3 (2 : Fin 3) n k)
      = (((0 : EReal) + (X c (Proc.devRef .tc main_v655) : S9x50000x128.Idx → EReal) (ix3 (0 : Fin 9) n k))
          + (X c (Proc.devRef .tc main_v655) : S9x50000x128.Idx → EReal) (ix3 (1 : Fin 9) n k))
          + (X c (Proc.devRef .tc main_v655) : S9x50000x128.Idx → EReal) (ix3 (7 : Fin 9) n k) := by
  rw [v689_eq, stack3_apply2, sum2_apply]

/-- The bias row at (0, q) is the bias vector at q. -/
theorem v690_apply (q : Fin 16) :
    (WC1 X c (Proc.devRef .tc main_v690) : S1x16.Idx → EReal) (ix2 (0 : Fin 1) q)
      = (X c (Proc.devRef .tc main_arg8) : S16.Idx → EReal) (ix1 q) := by
  rw [v690_eq]
  exact shapeCast_a_1a_apply _ _ _ _

end Deliverable

end Cert.KernelIdeal.Rd

end
-- ==== Proof.KI.KOut.lean ====
/-
  The kernel's result as the network: the chain of the three pallas_calls with the host stretches' results put in.
  Between call 1 and call 2 the host sums call 1's slabs per destination node type and turns the classifier's bias
  vector into a row; between call 0 and call 1 it sums call 0's slabs per destination node type and clamps each sum
  at zero. What remains a hypothesis here is what the stretches before call 0 and the second layer's aggregation
  compute: the aggregates, the destination norms and the bias rows that calls 0 and 1 find in their arrays.
-/
import proofs.«151568_j90031104458821_2_alg».proof.Proof.KI.KNet
import proofs.«151568_j90031104458821_2_alg».proof.Proof.KI.ReadB1
import proofs.«151568_j90031104458821_2_alg».proof.Proof.KI.ReadC

set_option maxRecDepth 16384

noncomputable section

namespace Cert.KernelIdeal.Net

open Cert.KernelIdeal Cert.KernelIdeal.Gen Cert.KernelIdeal.Fr Cert.KernelIdeal.Val
open Idealize.ShloMosaic Idealize.ShloMosaic.ValueIdx Idealize.ShloMosaic.TcCoe Idealize.SL.Sem
open Cert.Spec

variable (m : (ℓ : Loc nD τ sig) → Buf (Elt Ideal) ℓ) (ρ : Dev nD → PrngReg) (c : Dev nD)

/-! ## The arguments at the calls' exits -/

/-- An argument's buffer as call 0 leaves it is the launch memory's, when call 0 does not have it as a window. -/
theorem X0_arg {r : Ref sig .tc} (hr : r ∈ argRefs) (h0 : ∀ w, Pipeline.arrRef spec0 w ≠ r) :
    X0 m ρ c (Proc.devRef .tc r) = m ((c : Thread nD τ).loc r) :=
  (X0_of_ne m ρ c r h0).trans (V0e_arg m ρ c hr)

/-- and as call 1 leaves it, when neither call has it as a window. -/
theorem X1_arg {r : Ref sig .tc} (hr : r ∈ argRefs) (h0 : ∀ w, Pipeline.arrRef spec0 w ≠ r) (h1 : ∀ w, Pipeline.arrRef spec1 w ≠ r) :
    X1 m ρ c (Proc.devRef .tc r) = m ((c : Thread nD τ).loc r) :=
  (X1_of_ne m ρ c r h1).trans (V1e_arg m ρ c hr h0)

/-- The source-side and destination-side norm tables pass through call 0 untouched: no window of it stands on them. -/
theorem X0_v244 : X0 m ρ c (Proc.devRef .tc main_v244) = V0e m ρ c main_v244 := X0_of_ne m ρ c main_v244 (by decide)
theorem X0_v254 : X0 m ρ c (Proc.devRef .tc main_v254) = V0e m ρ c main_v254 := X0_of_ne m ρ c main_v254 (by decide)

/-- A statement about each of the nine relations, from its nine literal instances. -/
theorem forall_rel {P : Fin 9 → Prop} (h0 : P 0) (h1 : P 1) (h2 : P 2) (h3 : P 3) (h4 : P 4) (h5 : P 5) (h6 : P 6) (h7 : P 7) (h8 : P 8) :
    ∀ r, P r
  | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7 | ⟨8, _⟩ => h8

/-! ## Between call 1 and call 2 -/

/-- The hidden-state stack call 2 finds is the sums of call 1's slabs. -/
theorem v689_sums (t : Fin 3) (n : Fin 50000) (k : Fin 128) :
    (V2e m ρ c main_v689 : S3x50000x128.Idx → EReal) (ix3 t n k) = sums (slabs1 m ρ c) t n k := by
  match t with
  | ⟨0, _⟩ => exact Rd.v689_apply0 (X1 m ρ) c n k
  | ⟨1, _⟩ => exact Rd.v689_apply1 (X1 m ρ) c n k
  | ⟨2, _⟩ => exact Rd.v689_apply2 (X1 m ρ) c n k

/-- The bias row call 2 finds is the classifier's bias. -/
theorem v690_bc (q : Fin 16) : (V2e m ρ c main_v690 : S1x16.Idx → EReal) (ix2 (0 : Fin 1) q) = bc m c q :=
  (Rd.v690_apply (X1 m ρ) c q).trans
    (congrFun (X1_arg m ρ c (r := main_arg8) (by decide) (by decide) (by decide)) (ix1 q))

/-! ## Between call 0 and call 1 -/

/-- The three activated tables the host leaves before the second layer's aggregation, and after it, are the clamped
    sums of call 0's slabs. -/
theorem hid_at4 (n : Fin 50000) (k : Fin 128) :
    (WB4 (X0 m ρ) c (Proc.devRef .tc main_v469) : S50000x128.Idx → EReal) (ix2 n k) = relu (sums (slabs0 m ρ c)) 0 n k
    ∧ (WB4 (X0 m ρ) c (Proc.devRef .tc main_v470) : S50000x128.Idx → EReal) (ix2 n k) = relu (sums (slabs0 m ρ c)) 1 n k
    ∧ (WB4 (X0 m ρ) c (Proc.devRef .tc main_v471) : S50000x128.Idx → EReal) (ix2 n k) = relu (sums (slabs0 m ρ c)) 2 n k :=
  ⟨Rd.v469_at4_apply (X0 m ρ) c n k, Rd.v470_at4_apply (X0 m ρ) c n k, Rd.v471_at4_apply (X0 m ρ) c n k⟩

theorem hid_at5 (n : Fin 50000) (k : Fin 128) :
    (V1e m ρ c main_v469 : S50000x128.Idx → EReal) (ix2 n k) = relu (sums (slabs0 m ρ c)) 0 n k
    ∧ (V1e m ρ c main_v470 : S50000x128.Idx → EReal) (ix2 n k) = relu (sums (slabs0 m ρ c)) 1 n k
    ∧ (V1e m ρ c main_v471 : S50000x128.Idx → EReal) (ix2 n k) = relu (sums (slabs0 m ρ c)) 2 n k :=
  ⟨Rd.v469_apply (X0 m ρ) c n k, Rd.v470_apply (X0 m ρ) c n k, Rd.v471_apply (X0 m ρ) c n k⟩

/-! ## The kernel's result -/

/-- Call 2's output array is the network, given what calls 0 and 1 find in their aggregate, norm and bias arrays. -/
theorem kernel_net
    (hA0 : ∀ (r : Fin 9) (n : Fin 50000) (k : Fin 128), arrA0 (V0e m ρ) c (ix3 r n k) = agg (G m c) (xs m c (srcT r)) r n k)
    (hS0 : ∀ (r : Fin 9) (n : Fin 50000), arrS0 (V0e m ρ) c (ix3 r n (0 : Fin 1)) = (G m c).nd r n)
    (hB0 : ∀ (r : Fin 9) (q : Fin 128), arrB0 (V0e m ρ) c (ix3 r (0 : Fin 1) q) = b1 m c r q)
    (hA1 : ∀ (r : Fin 9) (n : Fin 50000) (k : Fin 128),
      arrA1 (V1e m ρ) c (ix3 r n k) = agg (G m c) (relu (sums (slabs0 m ρ c)) (srcT r)) r n k)
    (hS1 : ∀ (r : Fin 9) (n : Fin 50000), arrS1 (V1e m ρ) c (ix3 r n (0 : Fin 1)) = (G m c).nd r n)
    (hB1 : ∀ (r : Fin 9) (q : Fin 128), arrB1 (V1e m ρ) c (ix3 r (0 : Fin 1) q) = b2 m c r q)
    (t : Fin 3) (n : Fin 50000) (q : Fin 16) :
    (X2 m ρ c (Proc.devRef .tc main_v691) : S3x50000x16.Idx → EReal) (ix3 t n q)
      = netK (G m c) (xs m c) (W1 m c) (b1 m c) (W2 m c) (b2 m c) (Wc m c) (bc m c) t n q :=
  net_out m ρ c hA0 hS0 hB0 hA1 hS1 hB1 (v689_sums m ρ c) (v690_bc m ρ c) t n q

end Cert.KernelIdeal.Net

end
-- ==== Proof.Ssa.lean ====
/-
  Single assignment in a line of host operations. A line of StableHLO operations over tensor values writes every
  buffer once. When the references a line writes are known operation by operation (an aligned list), what the line
  leaves at a buffer is the result of the one operation that writes it, read off the FINAL contents of its operands:
  an operand is written before the operation or not at all, so it holds at the end what the operation found. The
  lemmas here give that equation for each builder, for an operation at a literal position of a literal line; the side
  conditions are memberships in short literal lists of references.
-/
import Idealize.ShloMosaic.Lib.StableHlo.Run
import Idealize.ShloMosaic.Lib.Pipeline.Frame

noncomputable section

namespace Cert.Ssa

open Idealize.ShloMosaic Idealize.ShloMosaic.StableHlo Idealize.SL.Sem

variable {τ : Topo} {sig : RefSig} {Val : EltTy → Type}

/-- Operation by operation, the reference the operation writes (every builder writes exactly one). -/
def Aligned (ops : List (HloOp τ sig Val)) (W : List (Ref sig .tc)) : Prop :=
  List.Forall₂ (fun op r => op.writes = {Proc.devRef (τ := τ) .tc r}) ops W

theorem Aligned.nil : Aligned ([] : List (HloOp τ sig Val)) [] := List.Forall₂.nil
theorem Aligned.cons {op : HloOp τ sig Val} {r : Ref sig .tc} {ops : List (HloOp τ sig Val)} {W : List (Ref sig .tc)}
    (h : op.writes = {Proc.devRef (τ := τ) .tc r}) (hs : Aligned ops W) : Aligned (op :: ops) (r :: W) := List.Forall₂.cons h hs

theorem Aligned.append {o₁ o₂ : List (HloOp τ sig Val)} {W₁ W₂ : List (Ref sig .tc)} (h₁ : Aligned o₁ W₁) (h₂ : Aligned o₂ W₂) :
    Aligned (o₁ ++ o₂) (W₁ ++ W₂) := by
  induction h₁ with
  | nil => exact h₂
  | cons h _ ih => exact List.Forall₂.cons h ih

theorem Aligned.drop {ops : List (HloOp τ sig Val)} {W : List (Ref sig .tc)} (h : Aligned ops W) (i : Nat) :
    Aligned (ops.drop i) (W.drop i) := by
  induction i generalizing ops W with
  | zero => simpa using h
  | succ i ih =>
    cases h with
    | nil => simpa using (Aligned.nil (τ := τ) (sig := sig) (Val := Val))
    | cons hd tl => simpa using ih tl

/-- A reference the line does not write keeps its contents. -/
theorem after_keep {ops : List (HloOp τ sig Val)} {W : List (Ref sig .tc)} (h : Aligned ops W) (V : Valuation τ sig Val)
    {r : Ref sig .tc} (hr : r ∉ W) : after ops V (Proc.devRef .tc r) = V (Proc.devRef .tc r) := by
  induction h generalizing V with
  | nil => rfl
  | @cons op y ops W hd _ ih =>
    rw [after_cons, ih _ (fun hm => hr (List.mem_cons_of_mem _ hm))]
    apply HloOp.result_of_not_mem
    rw [hd, Finset.mem_singleton]
    exact devRef_ne_of_ne (fun e => hr (e ▸ List.mem_cons_self))

/-- The line cut at position i. -/
theorem after_split (ops : List (HloOp τ sig Val)) (i : Nat) (V : Valuation τ sig Val) :
    after ops V = after (ops.drop i) (after (ops.take i) V) := by
  rw [← after_append, List.take_append_drop]

/-- With operation i singled out. -/
theorem after_at {ops : List (HloOp τ sig Val)} {i : Nat} {op : HloOp τ sig Val} (hop : ops[i]? = some op) (V : Valuation τ sig Val) :
    after ops V = after (ops.drop (i + 1)) (op.result (after (ops.take i) V)) := by
  have hlt : i < ops.length := by
    rcases Nat.lt_or_ge i ops.length with h | h
    · exact h
    · rw [List.getElem?_eq_none h] at hop; exact absurd hop (by simp)
  have he : ops[i] = op := by rw [List.getElem?_eq_getElem hlt] at hop; exact Option.some.inj hop
  rw [after_split ops i V, List.drop_eq_getElem_cons hlt, after_cons, he]

/-- What the line leaves at a reference not written after position i: what operation i's result holds there. -/
theorem after_eq_result {ops : List (HloOp τ sig Val)} {W : List (Ref sig .tc)} (h : Aligned ops W) {i : Nat} {op : HloOp τ sig Val}
    (hop : ops[i]? = some op) (V : Valuation τ sig Val) {r : Ref sig .tc} (hr : r ∉ W.drop (i + 1)) :
    after ops V (Proc.devRef .tc r) = op.result (after (ops.take i) V) (Proc.devRef .tc r) := by
  rw [after_at hop V, after_keep (h.drop (i + 1)) _ hr]

/-- What the line leaves at a reference not written at or after position i: what the line before i left there. -/
theorem after_eq_before {ops : List (HloOp τ sig Val)} {W : List (Ref sig .tc)} (h : Aligned ops W) (i : Nat)
    (V : Valuation τ sig Val) {r : Ref sig .tc} (hr : r ∉ W.drop i) :
    after ops V (Proc.devRef .tc r) = after (ops.take i) V (Proc.devRef .tc r) := by
  rw [after_split ops i V, after_keep (h.drop i) _ hr]

section Builders

variable {ops : List (HloOp τ sig Val)} {W : List (Ref sig .tc)} (h : Aligned ops W) (i : Nat) (V : Valuation τ sig Val)
include h

theorem ssa_nullary {y : Ref sig .tc} {v : y.ty.Contents Val} {hy}
    (hop : ops[i]? = some (nullary (τ := τ) y v hy)) (hyw : y ∉ W.drop (i + 1)) :
    after ops V (Proc.devRef .tc y) = v := by
  rw [after_eq_result h hop V hyw, nullary_result]

theorem ssa_unary {x y : Ref sig .tc} {f : x.ty.Contents Val → y.ty.Contents Val} {hx hy}
    (hop : ops[i]? = some (unary (τ := τ) x y f hx hy)) (hyw : y ∉ W.drop (i + 1)) (hxw : x ∉ W.drop i) :
    after ops V (Proc.devRef .tc y) = f (after ops V (Proc.devRef .tc x)) := by
  rw [after_eq_result h hop V hyw, unary_result, after_eq_before h i V hxw]

theorem ssa_reshape {x y : Ref sig .tc} {he : x.ty.elt = y.ty.elt} {hn : x.ty.shape.ShapeCasts y.ty.shape} {hx hy}
    (hop : ops[i]? = some (reshape (τ := τ) (Val := Val) x y he hn hx hy)) (hyw : y ∉ W.drop (i + 1)) (hxw : x ∉ W.drop i) :
    after ops V (Proc.devRef .tc y) = fun j => he ▸ shapeCast y.ty.shape (after ops V (Proc.devRef .tc x)) hn j := by
  rw [after_eq_result h hop V hyw, reshape_result, after_eq_before h i V hxw]

theorem ssa_binary {a b y : Ref sig .tc} {f : a.ty.Contents Val → b.ty.Contents Val → y.ty.Contents Val} {ha hb hy}
    (hop : ops[i]? = some (binary (τ := τ) a b y f ha hb hy)) (hyw : y ∉ W.drop (i + 1)) (haw : a ∉ W.drop i) (hbw : b ∉ W.drop i) :
    after ops V (Proc.devRef .tc y) = f (after ops V (Proc.devRef .tc a)) (after ops V (Proc.devRef .tc b)) := by
  rw [after_eq_result h hop V hyw, binary_result, after_eq_before h i V haw, after_eq_before h i V hbw]

theorem ssa_ternary {c a b y : Ref sig .tc} {f : c.ty.Contents Val → a.ty.Contents Val → b.ty.Contents Val → y.ty.Contents Val} {hc ha hb hy}
    (hop : ops[i]? = some (ternary (τ := τ) c a b y f hc ha hb hy)) (hyw : y ∉ W.drop (i + 1))
    (hcw : c ∉ W.drop i) (haw : a ∉ W.drop i) (hbw : b ∉ W.drop i) :
    after ops V (Proc.devRef .tc y)
      = f (after ops V (Proc.devRef .tc c)) (after ops V (Proc.devRef .tc a)) (after ops V (Proc.devRef .tc b)) := by
  rw [after_eq_result h hop V hyw, ternary_result, after_eq_before h i V hcw, after_eq_before h i V haw, after_eq_before h i V hbw]

theorem ssa_nary {n : Nat} {xs : Fin n → Ref sig .tc} {y : Ref sig .tc}
    {f : ((k : Fin n) → (xs k).ty.Contents Val) → y.ty.Contents Val} {hxs hy}
    (hop : ops[i]? = some (nary (τ := τ) xs y f hxs hy)) (hyw : y ∉ W.drop (i + 1)) (hxw : ∀ k, xs k ∉ W.drop i) :
    after ops V (Proc.devRef .tc y) = f (fun k => after ops V (Proc.devRef .tc (xs k))) := by
  rw [after_eq_result h hop V hyw, nary_result]
  congr 1
  funext k
  exact (after_eq_before h i V (hxw k)).symm

end Builders

end Cert.Ssa

end
-- ==== Proof.KI.TabA.lean ====
/-
  @main's host operations before the first pallas_call, as one line. Per stretch, the reference each operation writes;
  the 73 stretches joined; the contents the first pallas_call finds are that line run from the launch memory. Every
  buffer is written once, so at those contents each operation's result is its function of its operands' contents
  there: one equation per operation, by the single-assignment lemmas.
-/
import proofs.«151568_j90031104458821_2_alg».proof.Proof.KI.Fold
import proofs.«151568_j90031104458821_2_alg».proof.Proof.Ssa

set_option maxRecDepth 65536

noncomputable section

namespace Cert.KernelIdeal.Rd

open Cert.KernelIdeal Cert.KernelIdeal.Gen Cert.KernelIdeal.Fr Idealize.ShloMosaic Idealize.ShloMosaic.StableHlo Idealize.SL.Sem Cert

variable {F : FTy → Type} [FloatOps F]

/-- Down a literal line: each operation's writes are its result reference by unfolding the builder. -/
local macro "aligned" : tactic =>
  `(tactic| (repeat (first | exact Ssa.Aligned.nil | refine Ssa.Aligned.cons rfl ?_)))

abbrev wA0 : List (Ref sig .tc) := [main_cst, main_v0, main_v1, main_v2, main_v3, main_v4, main_cst_0, main_v5, main_v6, main_v7, main_cst_1, main_v8, main_v9, main_v10, main_cst_2, main_v11, main_v12, main_cst_3]
theorem alA0 : Ssa.Aligned (hostOps0 : List (HloOp τ sig (Elt F))) wA0 := by aligned
abbrev wA1 : List (Ref sig .tc) := [main_call0_v0, main_call0_v1, main_v13]
theorem alA1 : Ssa.Aligned (hostOps0_1 : List (HloOp τ sig (Elt F))) wA1 := by aligned
abbrev wA2 : List (Ref sig .tc) := [main_cst_4, main_v14, main_v15, main_cst_5, main_v16, main_v17, main_cst_6]
theorem alA2 : Ssa.Aligned (hostOps0_2 : List (HloOp τ sig (Elt F))) wA2 := by aligned
abbrev wA3 : List (Ref sig .tc) := [main_call1_v0, main_call1_v1, main_v18]
theorem alA3 : Ssa.Aligned (hostOps0_3 : List (HloOp τ sig (Elt F))) wA3 := by aligned
abbrev wA4 : List (Ref sig .tc) := [main_cst_7, main_v19, main_v20, main_cst_8]
theorem alA4 : Ssa.Aligned (hostOps0_4 : List (HloOp τ sig (Elt F))) wA4 := by aligned
abbrev wA5 : List (Ref sig .tc) := [main_call2_v0, main_call2_v1, main_v21]
theorem alA5 : Ssa.Aligned (hostOps0_5 : List (HloOp τ sig (Elt F))) wA5 := by aligned
abbrev wA6 : List (Ref sig .tc) := [main_cst_9, main_v22, main_v23, main_cst_10, main_v24, main_v25, main_cst_11]
theorem alA6 : Ssa.Aligned (hostOps0_6 : List (HloOp τ sig (Elt F))) wA6 := by aligned
abbrev wA7 : List (Ref sig .tc) := [main_call3_v0, main_call3_v1, main_v26]
theorem alA7 : Ssa.Aligned (hostOps0_7 : List (HloOp τ sig (Elt F))) wA7 := by aligned
abbrev wA8 : List (Ref sig .tc) := [main_v27, main_v28, main_v29, main_v30, main_cst_12, main_v31, main_v32, main_v33, main_cst_13, main_v34, main_v35, main_v36, main_cst_14, main_v37, main_v38, main_cst_15]
theorem alA8 : Ssa.Aligned (hostOps0_8 : List (HloOp τ sig (Elt F))) wA8 := by aligned
abbrev wA9 : List (Ref sig .tc) := [main_call4_v0, main_call4_v1, main_v39]
theorem alA9 : Ssa.Aligned (hostOps0_9 : List (HloOp τ sig (Elt F))) wA9 := by aligned
abbrev wA10 : List (Ref sig .tc) := [main_cst_16, main_v40, main_v41, main_cst_17, main_v42, main_v43, main_cst_18]
theorem alA10 : Ssa.Aligned (hostOps0_10 : List (HloOp τ sig (Elt F))) wA10 := by aligned
abbrev wA11 : List (Ref sig .tc) := [main_call5_v0, main_call5_v1, main_v44]
theorem alA11 : Ssa.Aligned (hostOps0_11 : List (HloOp τ sig (Elt F))) wA11 := by aligned
abbrev wA12 : List (Ref sig .tc) := [main_cst_19, main_v45, main_v46, main_cst_20]
theorem alA12 : Ssa.Aligned (hostOps0_12 : List (HloOp τ sig (Elt F))) wA12 := by aligned
abbrev wA13 : List (Ref sig .tc) := [main_call6_v0, main_call6_v1, main_v47]
theorem alA13 : Ssa.Aligned (hostOps0_13 : List (HloOp τ sig (Elt F))) wA13 := by aligned
abbrev wA14 : List (Ref sig .tc) := [main_cst_21, main_v48, main_v49, main_cst_22, main_v50, main_v51, main_cst_23]
theorem alA14 : Ssa.Aligned (hostOps0_14 : List (HloOp τ sig (Elt F))) wA14 := by aligned
abbrev wA15 : List (Ref sig .tc) := [main_call7_v0, main_call7_v1, main_v52]
theorem alA15 : Ssa.Aligned (hostOps0_15 : List (HloOp τ sig (Elt F))) wA15 := by aligned
abbrev wA16 : List (Ref sig .tc) := [main_v53, main_v54, main_v55, main_v56, main_cst_24, main_v57, main_v58, main_v59, main_cst_25, main_v60, main_v61, main_v62, main_cst_26, main_v63, main_v64, main_cst_27]
theorem alA16 : Ssa.Aligned (hostOps0_16 : List (HloOp τ sig (Elt F))) wA16 := by aligned
abbrev wA17 : List (Ref sig .tc) := [main_call8_v0, main_call8_v1, main_v65]
theorem alA17 : Ssa.Aligned (hostOps0_17 : List (HloOp τ sig (Elt F))) wA17 := by aligned
abbrev wA18 : List (Ref sig .tc) := [main_cst_28, main_v66, main_v67, main_cst_29, main_v68, main_v69, main_cst_30]
theorem alA18 : Ssa.Aligned (hostOps0_18 : List (HloOp τ sig (Elt F))) wA18 := by aligned
abbrev wA19 : List (Ref sig .tc) := [main_call9_v0, main_call9_v1, main_v70]
theorem alA19 : Ssa.Aligned (hostOps0_19 : List (HloOp τ sig (Elt F))) wA19 := by aligned
abbrev wA20 : List (Ref sig .tc) := [main_cst_31, main_v71, main_v72, main_cst_32]
theorem alA20 : Ssa.Aligned (hostOps0_20 : List (HloOp τ sig (Elt F))) wA20 := by aligned
abbrev wA21 : List (Ref sig .tc) := [main_call10_v0, main_call10_v1, main_v73]
theorem alA21 : Ssa.Aligned (hostOps0_21 : List (HloOp τ sig (Elt F))) wA21 := by aligned
abbrev wA22 : List (Ref sig .tc) := [main_cst_33, main_v74, main_v75, main_cst_34, main_v76, main_v77, main_cst_35]
theorem alA22 : Ssa.Aligned (hostOps0_22 : List (HloOp τ sig (Elt F))) wA22 := by aligned
abbrev wA23 : List (Ref sig .tc) := [main_call11_v0, main_call11_v1, main_v78]
theorem alA23 : Ssa.Aligned (hostOps0_23 : List (HloOp τ sig (Elt F))) wA23 := by aligned
abbrev wA24 : List (Ref sig .tc) := [main_v79, main_v80, main_v81, main_v82, main_cst_36, main_v83, main_v84, main_v85, main_cst_37, main_v86, main_v87, main_v88, main_cst_38, main_v89, main_v90, main_cst_39]
theorem alA24 : Ssa.Aligned (hostOps0_24 : List (HloOp τ sig (Elt F))) wA24 := by aligned
abbrev wA25 : List (Ref sig .tc) := [main_call12_v0, main_call12_v1, main_v91]
theorem alA25 : Ssa.Aligned (hostOps0_25 : List (HloOp τ sig (Elt F))) wA25 := by aligned
abbrev wA26 : List (Ref sig .tc) := [main_cst_40, main_v92, main_v93, main_cst_41, main_v94, main_v95, main_cst_42]
theorem alA26 : Ssa.Aligned (hostOps0_26 : List (HloOp τ sig (Elt F))) wA26 := by aligned
abbrev wA27 : List (Ref sig .tc) := [main_call13_v0, main_call13_v1, main_v96]
theorem alA27 : Ssa.Aligned (hostOps0_27 : List (HloOp τ sig (Elt F))) wA27 := by aligned
abbrev wA28 : List (Ref sig .tc) := [main_cst_43, main_v97, main_v98, main_cst_44]
theorem alA28 : Ssa.Aligned (hostOps0_28 : List (HloOp τ sig (Elt F))) wA28 := by aligned
abbrev wA29 : List (Ref sig .tc) := [main_call14_v0, main_call14_v1, main_v99]
theorem alA29 : Ssa.Aligned (hostOps0_29 : List (HloOp τ sig (Elt F))) wA29 := by aligned
abbrev wA30 : List (Ref sig .tc) := [main_cst_45, main_v100, main_v101, main_cst_46, main_v102, main_v103, main_cst_47]
theorem alA30 : Ssa.Aligned (hostOps0_30 : List (HloOp τ sig (Elt F))) wA30 := by aligned
abbrev wA31 : List (Ref sig .tc) := [main_call15_v0, main_call15_v1, main_v104]
theorem alA31 : Ssa.Aligned (hostOps0_31 : List (HloOp τ sig (Elt F))) wA31 := by aligned
abbrev wA32 : List (Ref sig .tc) := [main_v105, main_v106, main_v107, main_v108, main_cst_48, main_v109, main_v110, main_v111, main_cst_49, main_v112, main_v113, main_v114, main_cst_50, main_v115, main_v116, main_cst_51]
theorem alA32 : Ssa.Aligned (hostOps0_32 : List (HloOp τ sig (Elt F))) wA32 := by aligned
abbrev wA33 : List (Ref sig .tc) := [main_call16_v0, main_call16_v1, main_v117]
theorem alA33 : Ssa.Aligned (hostOps0_33 : List (HloOp τ sig (Elt F))) wA33 := by aligned
abbrev wA34 : List (Ref sig .tc) := [main_cst_52, main_v118, main_v119, main_cst_53, main_v120, main_v121, main_cst_54]
theorem alA34 : Ssa.Aligned (hostOps0_34 : List (HloOp τ sig (Elt F))) wA34 := by aligned
abbrev wA35 : List (Ref sig .tc) := [main_call17_v0, main_call17_v1, main_v122]
theorem alA35 : Ssa.Aligned (hostOps0_35 : List (HloOp τ sig (Elt F))) wA35 := by aligned
abbrev wA36 : List (Ref sig .tc) := [main_cst_55, main_v123, main_v124, main_cst_56]
theorem alA36 : Ssa.Aligned (hostOps0_36 : List (HloOp τ sig (Elt F))) wA36 := by aligned
abbrev wA37 : List (Ref sig .tc) := [main_call18_v0, main_call18_v1, main_v125]
theorem alA37 : Ssa.Aligned (hostOps0_37 : List (HloOp τ sig (Elt F))) wA37 := by aligned
abbrev wA38 : List (Ref sig .tc) := [main_cst_57, main_v126, main_v127, main_cst_58, main_v128, main_v129, main_cst_59]
theorem alA38 : Ssa.Aligned (hostOps0_38 : List (HloOp τ sig (Elt F))) wA38 := by aligned
abbrev wA39 : List (Ref sig .tc) := [main_call19_v0, main_call19_v1, main_v130]
theorem alA39 : Ssa.Aligned (hostOps0_39 : List (HloOp τ sig (Elt F))) wA39 := by aligned
abbrev wA40 : List (Ref sig .tc) := [main_v131, main_v132, main_v133, main_v134, main_cst_60, main_v135, main_v136, main_v137, main_cst_61, main_v138, main_v139, main_v140, main_cst_62, main_v141, main_v142, main_cst_63]
theorem alA40 : Ssa.Aligned (hostOps0_40 : List (HloOp τ sig (Elt F))) wA40 := by aligned
abbrev wA41 : List (Ref sig .tc) := [main_call20_v0, main_call20_v1, main_v143]
theorem alA41 : Ssa.Aligned (hostOps0_41 : List (HloOp τ sig (Elt F))) wA41 := by aligned
abbrev wA42 : List (Ref sig .tc) := [main_cst_64, main_v144, main_v145, main_cst_65, main_v146, main_v147, main_cst_66]
theorem alA42 : Ssa.Aligned (hostOps0_42 : List (HloOp τ sig (Elt F))) wA42 := by aligned
abbrev wA43 : List (Ref sig .tc) := [main_call21_v0, main_call21_v1, main_v148]
theorem alA43 : Ssa.Aligned (hostOps0_43 : List (HloOp τ sig (Elt F))) wA43 := by aligned
abbrev wA44 : List (Ref sig .tc) := [main_cst_67, main_v149, main_v150, main_cst_68]
theorem alA44 : Ssa.Aligned (hostOps0_44 : List (HloOp τ sig (Elt F))) wA44 := by aligned
abbrev wA45 : List (Ref sig .tc) := [main_call22_v0, main_call22_v1, main_v151]
theorem alA45 : Ssa.Aligned (hostOps0_45 : List (HloOp τ sig (Elt F))) wA45 := by aligned
abbrev wA46 : List (Ref sig .tc) := [main_cst_69, main_v152, main_v153, main_cst_70, main_v154, main_v155, main_cst_71]
theorem alA46 : Ssa.Aligned (hostOps0_46 : List (HloOp τ sig (Elt F))) wA46 := by aligned
abbrev wA47 : List (Ref sig .tc) := [main_call23_v0, main_call23_v1, main_v156]
theorem alA47 : Ssa.Aligned (hostOps0_47 : List (HloOp τ sig (Elt F))) wA47 := by aligned
abbrev wA48 : List (Ref sig .tc) := [main_v157, main_v158, main_v159, main_v160, main_cst_72, main_v161, main_v162, main_v163, main_cst_73, main_v164, main_v165, main_v166, main_cst_74, main_v167, main_v168, main_cst_75]
theorem alA48 : Ssa.Aligned (hostOps0_48 : List (HloOp τ sig (Elt F))) wA48 := by aligned
abbrev wA49 : List (Ref sig .tc) := [main_call24_v0, main_call24_v1, main_v169]
theorem alA49 : Ssa.Aligned (hostOps0_49 : List (HloOp τ sig (Elt F))) wA49 := by aligned
abbrev wA50 : List (Ref sig .tc) := [main_cst_76, main_v170, main_v171, main_cst_77, main_v172, main_v173, main_cst_78]
theorem alA50 : Ssa.Aligned (hostOps0_50 : List (HloOp τ sig (Elt F))) wA50 := by aligned
abbrev wA51 : List (Ref sig .tc) := [main_call25_v0, main_call25_v1, main_v174]
theorem alA51 : Ssa.Aligned (hostOps0_51 : List (HloOp τ sig (Elt F))) wA51 := by aligned
abbrev wA52 : List (Ref sig .tc) := [main_cst_79, main_v175, main_v176, main_cst_80]
theorem alA52 : Ssa.Aligned (hostOps0_52 : List (HloOp τ sig (Elt F))) wA52 := by aligned
abbrev wA53 : List (Ref sig .tc) := [main_call26_v0, main_call26_v1, main_v177]
theorem alA53 : Ssa.Aligned (hostOps0_53 : List (HloOp τ sig (Elt F))) wA53 := by aligned
abbrev wA54 : List (Ref sig .tc) := [main_cst_81, main_v178, main_v179, main_cst_82, main_v180, main_v181, main_cst_83]
theorem alA54 : Ssa.Aligned (hostOps0_54 : List (HloOp τ sig (Elt F))) wA54 := by aligned
abbrev wA55 : List (Ref sig .tc) := [main_call27_v0, main_call27_v1, main_v182]
theorem alA55 : Ssa.Aligned (hostOps0_55 : List (HloOp τ sig (Elt F))) wA55 := by aligned
abbrev wA56 : List (Ref sig .tc) := [main_v183, main_v184, main_v185, main_v186, main_cst_84, main_v187, main_v188, main_v189, main_cst_85, main_v190, main_v191, main_v192, main_cst_86, main_v193, main_v194, main_cst_87]
theorem alA56 : Ssa.Aligned (hostOps0_56 : List (HloOp τ sig (Elt F))) wA56 := by aligned
abbrev wA57 : List (Ref sig .tc) := [main_call28_v0, main_call28_v1, main_v195]
theorem alA57 : Ssa.Aligned (hostOps0_57 : List (HloOp τ sig (Elt F))) wA57 := by aligned
abbrev wA58 : List (Ref sig .tc) := [main_cst_88, main_v196, main_v197, main_cst_89, main_v198, main_v199, main_cst_90]
theorem alA58 : Ssa.Aligned (hostOps0_58 : List (HloOp τ sig (Elt F))) wA58 := by aligned
abbrev wA59 : List (Ref sig .tc) := [main_call29_v0, main_call29_v1, main_v200]
theorem alA59 : Ssa.Aligned (hostOps0_59 : List (HloOp τ sig (Elt F))) wA59 := by aligned
abbrev wA60 : List (Ref sig .tc) := [main_cst_91, main_v201, main_v202, main_cst_92]
theorem alA60 : Ssa.Aligned (hostOps0_60 : List (HloOp τ sig (Elt F))) wA60 := by aligned
abbrev wA61 : List (Ref sig .tc) := [main_call30_v0, main_call30_v1, main_v203]
theorem alA61 : Ssa.Aligned (hostOps0_61 : List (HloOp τ sig (Elt F))) wA61 := by aligned
abbrev wA62 : List (Ref sig .tc) := [main_cst_93, main_v204, main_v205, main_cst_94, main_v206, main_v207, main_cst_95]
theorem alA62 : Ssa.Aligned (hostOps0_62 : List (HloOp τ sig (Elt F))) wA62 := by aligned
abbrev wA63 : List (Ref sig .tc) := [main_call31_v0, main_call31_v1, main_v208]
theorem alA63 : Ssa.Aligned (hostOps0_63 : List (HloOp τ sig (Elt F))) wA63 := by aligned
abbrev wA64 : List (Ref sig .tc) := [main_v209, main_v210, main_v211, main_v212, main_cst_96, main_v213, main_v214, main_v215, main_cst_97, main_v216, main_v217, main_v218, main_cst_98, main_v219, main_v220, main_cst_99]
theorem alA64 : Ssa.Aligned (hostOps0_64 : List (HloOp τ sig (Elt F))) wA64 := by aligned
abbrev wA65 : List (Ref sig .tc) := [main_call32_v0, main_call32_v1, main_v221]
theorem alA65 : Ssa.Aligned (hostOps0_65 : List (HloOp τ sig (Elt F))) wA65 := by aligned
abbrev wA66 : List (Ref sig .tc) := [main_cst_100, main_v222, main_v223, main_cst_101, main_v224, main_v225, main_cst_102]
theorem alA66 : Ssa.Aligned (hostOps0_66 : List (HloOp τ sig (Elt F))) wA66 := by aligned
abbrev wA67 : List (Ref sig .tc) := [main_call33_v0, main_call33_v1, main_v226]
theorem alA67 : Ssa.Aligned (hostOps0_67 : List (HloOp τ sig (Elt F))) wA67 := by aligned
abbrev wA68 : List (Ref sig .tc) := [main_cst_103, main_v227, main_v228, main_cst_104]
theorem alA68 : Ssa.Aligned (hostOps0_68 : List (HloOp τ sig (Elt F))) wA68 := by aligned
abbrev wA69 : List (Ref sig .tc) := [main_call34_v0, main_call34_v1, main_v229]
theorem alA69 : Ssa.Aligned (hostOps0_69 : List (HloOp τ sig (Elt F))) wA69 := by aligned
abbrev wA70 : List (Ref sig .tc) := [main_cst_105, main_v230, main_v231, main_cst_106, main_v232, main_v233, main_cst_107]
theorem alA70 : Ssa.Aligned (hostOps0_70 : List (HloOp τ sig (Elt F))) wA70 := by aligned
abbrev wA71 : List (Ref sig .tc) := [main_call35_v0, main_call35_v1, main_v234]
theorem alA71 : Ssa.Aligned (hostOps0_71 : List (HloOp τ sig (Elt F))) wA71 := by aligned
abbrev wA72 : List (Ref sig .tc) := [main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_c, main_v262, main_v263, main_c_108, main_v264, main_v265, main_v266, main_v267, main_v268, main_v269, main_v270, main_cst_109, main_v271, main_v272, main_v273, main_v274, main_v275, main_v276, main_v277, main_v278, main_v279, main_v280, main_c_110, main_v281, main_v282, main_c_111, main_v283, main_v284, main_v285, main_v286, main_v287, main_v288, main_v289, main_cst_112, main_v290, main_v291, main_v292, main_v293, main_v294, main_v295, main_v296, main_v297, main_v298, main_v299, main_c_113, main_v300, main_v301, main_c_114, main_v302, main_v303, main_v304, main_v305, main_v306, main_v307, main_v308, main_cst_115, main_v309, main_v310, main_v311, main_v312, main_v313, main_v314, main_v315, main_v316, main_v317, main_v318, main_c_116, main_v319, main_v320, main_c_117, main_v321, main_v322, main_v323, main_v324, main_v325, main_v326, main_v327, main_cst_118, main_v328, main_v329, main_v330, main_v331, main_v332, main_v333, main_v334, main_v335, main_v336, main_v337, main_c_119, main_v338, main_v339, main_c_120, main_v340, main_v341, main_v342, main_v343, main_v344, main_v345, main_v346, main_cst_121, main_v347, main_v348, main_v349, main_v350, main_v351, main_v352, main_v353, main_v354, main_v355, main_v356, main_c_122, main_v357, main_v358, main_c_123, main_v359, main_v360, main_v361, main_v362, main_v363, main_v364, main_v365, main_cst_124, main_v366, main_v367, main_v368, main_v369, main_v370, main_v371, main_v372, main_v373, main_v374, main_v375, main_c_125, main_v376, main_v377, main_c_126, main_v378, main_v379, main_v380, main_v381, main_v382, main_v383, main_v384, main_cst_127, main_v385, main_v386, main_v387, main_v388, main_v389, main_v390, main_v391, main_v392, main_v393, main_v394, main_c_128, main_v395, main_v396, main_c_129, main_v397, main_v398, main_v399, main_v400, main_v401, main_v402, main_v403, main_cst_130, main_v404, main_v405, main_v406, main_v407, main_v408, main_v409, main_v410, main_v411, main_v412, main_v413, main_c_131, main_v414, main_v415, main_c_132, main_v416, main_v417, main_v418, main_v419, main_v420, main_v421, main_v422, main_cst_133, main_v423, main_v424, main_v425, main_v426, main_v427, main_v428, main_v429, main_v430, main_v431, main_v432, main_v433, main_v434, main_v435, main_v436, main_v437]
theorem alA72 : Ssa.Aligned (hostOps0_72 : List (HloOp τ sig (Elt F))) wA72 := by aligned

/-- The 73 stretches as one line. -/
abbrev opsA : List (HloOp τ sig (Elt F)) := hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22 ++ (hostOps0_23 ++ (hostOps0_24 ++ (hostOps0_25 ++ (hostOps0_26 ++ (hostOps0_27 ++ (hostOps0_28 ++ (hostOps0_29 ++ (hostOps0_30 ++ (hostOps0_31 ++ (hostOps0_32 ++ (hostOps0_33 ++ (hostOps0_34 ++ (hostOps0_35 ++ (hostOps0_36 ++ (hostOps0_37 ++ (hostOps0_38 ++ (hostOps0_39 ++ (hostOps0_40 ++ (hostOps0_41 ++ (hostOps0_42 ++ (hostOps0_43 ++ (hostOps0_44 ++ (hostOps0_45 ++ (hostOps0_46 ++ (hostOps0_47 ++ (hostOps0_48 ++ (hostOps0_49 ++ (hostOps0_50 ++ (hostOps0_51 ++ (hostOps0_52 ++ (hostOps0_53 ++ (hostOps0_54 ++ (hostOps0_55 ++ (hostOps0_56 ++ (hostOps0_57 ++ (hostOps0_58 ++ (hostOps0_59 ++ (hostOps0_60 ++ (hostOps0_61 ++ (hostOps0_62 ++ (hostOps0_63 ++ (hostOps0_64 ++ (hostOps0_65 ++ (hostOps0_66 ++ (hostOps0_67 ++ (hostOps0_68 ++ (hostOps0_69 ++ (hostOps0_70 ++ (hostOps0_71 ++ (hostOps0_72))))))))))))))))))))))))))))))))))))))))))))))))))))))))))))))))))))))))
/-- The references it writes, operation by operation. -/
abbrev wA : List (Ref sig .tc) := wA0 ++ (wA1 ++ (wA2 ++ (wA3 ++ (wA4 ++ (wA5 ++ (wA6 ++ (wA7 ++ (wA8 ++ (wA9 ++ (wA10 ++ (wA11 ++ (wA12 ++ (wA13 ++ (wA14 ++ (wA15 ++ (wA16 ++ (wA17 ++ (wA18 ++ (wA19 ++ (wA20 ++ (wA21 ++ (wA22 ++ (wA23 ++ (wA24 ++ (wA25 ++ (wA26 ++ (wA27 ++ (wA28 ++ (wA29 ++ (wA30 ++ (wA31 ++ (wA32 ++ (wA33 ++ (wA34 ++ (wA35 ++ (wA36 ++ (wA37 ++ (wA38 ++ (wA39 ++ (wA40 ++ (wA41 ++ (wA42 ++ (wA43 ++ (wA44 ++ (wA45 ++ (wA46 ++ (wA47 ++ (wA48 ++ (wA49 ++ (wA50 ++ (wA51 ++ (wA52 ++ (wA53 ++ (wA54 ++ (wA55 ++ (wA56 ++ (wA57 ++ (wA58 ++ (wA59 ++ (wA60 ++ (wA61 ++ (wA62 ++ (wA63 ++ (wA64 ++ (wA65 ++ (wA66 ++ (wA67 ++ (wA68 ++ (wA69 ++ (wA70 ++ (wA71 ++ (wA72))))))))))))))))))))))))))))))))))))))))))))))))))))))))))))))))))))))))
theorem alA : Ssa.Aligned (opsA (F := F)) wA := alA0.append (alA1.append (alA2.append (alA3.append (alA4.append (alA5.append (alA6.append (alA7.append (alA8.append (alA9.append (alA10.append (alA11.append (alA12.append (alA13.append (alA14.append (alA15.append (alA16.append (alA17.append (alA18.append (alA19.append (alA20.append (alA21.append (alA22.append (alA23.append (alA24.append (alA25.append (alA26.append (alA27.append (alA28.append (alA29.append (alA30.append (alA31.append (alA32.append (alA33.append (alA34.append (alA35.append (alA36.append (alA37.append (alA38.append (alA39.append (alA40.append (alA41.append (alA42.append (alA43.append (alA44.append (alA45.append (alA46.append (alA47.append (alA48.append (alA49.append (alA50.append (alA51.append (alA52.append (alA53.append (alA54.append (alA55.append (alA56.append (alA57.append (alA58.append (alA59.append (alA60.append (alA61.append (alA62.append (alA63.append (alA64.append (alA65.append (alA66.append (alA67.append (alA68.append (alA69.append (alA70.append (alA71.append (alA72))))))))))))))))))))))))))))))))))))))))))))))))))))))))))))))))))))))))

variable (m : (ℓ : Loc nD τ sig) → Buf (Elt F) ℓ) (ρ : Dev nD → PrngReg)

/-- The one line run from the launch memory … -/
abbrev XA (c : Dev nD) : Valuation τ sig (Elt F) := StableHlo.after opsA (WA0 m ρ c)
/-- … is what the first pallas_call finds. -/
theorem WA73_eq (c : Dev nD) : WA73 m ρ c = XA m ρ c := by
  simp only [XA, opsA, StableHlo.after_append]

/-- A reference no operation of the line writes holds its launch contents. -/
theorem XA_keep (c : Dev nD) {r : Ref sig .tc} (hr : r ∉ wA) : XA m ρ c (Proc.devRef .tc r) = WA0 m ρ c (Proc.devRef .tc r) :=
  Ssa.after_keep alA _ hr

end Cert.KernelIdeal.Rd

end
-- ==== Proof.KI.TabA1.lean ====
/-
  The single-assignment equations of @main's host operations before the first pallas_call, part 1 of 6: operations 0 to 107 of the one line.
-/
import proofs.«151568_j90031104458821_2_alg».proof.Proof.KI.TabA

set_option maxRecDepth 65536

noncomputable section

namespace Cert.KernelIdeal.Rd

open Cert.KernelIdeal Cert.KernelIdeal.Gen Cert.KernelIdeal.Fr Idealize.ShloMosaic Idealize.ShloMosaic.StableHlo Idealize.SL.Sem Cert

variable {F : FTy → Type} [FloatOps F]
variable (m : (ℓ : Loc nD τ sig) → Buf (Elt F) ℓ) (ρ : Dev nD → PrngReg)

theorem ssa_main_cst (c : Dev nD) : XA m ρ c (Proc.devRef .tc main_cst) = (constant (F := F) S_ .f32 0x3F800000#32) := by
  exact Ssa.ssa_nullary alA 0 _ rfl (by decide +kernel)
theorem ssa_main_v0 (c : Dev nD) : XA m ρ c (Proc.devRef .tc main_v0) = (broadcastInDim S400000 ![] bcast_S_S400000 : (⟨S_, .f32⟩ : BufTy).Contents (Elt F) → (⟨S400000, .f32⟩ : BufTy).Contents (Elt F)) (XA m ρ c (Proc.devRef .tc main_cst)) := by
  exact Ssa.ssa_unary alA 1 _ rfl (by decide +kernel) (by decide +kernel)
theorem ssa_main_v1 (c : Dev nD) : XA m ρ c (Proc.devRef .tc main_v1) = ((extractStridedSlice S1x1x400000 ![0, 0, 0] · slices_S9x2x400000_S1x1x400000_0_0_0) : (⟨S9x2x400000, .i32⟩ : BufTy).Contents (Elt F) → (⟨S1x1x400000, .i32⟩ : BufTy).Contents (Elt F)) (XA m ρ c (Proc.devRef .tc main_arg9)) := by
  exact Ssa.ssa_unary alA 2 _ rfl (by decide +kernel) (by decide +kernel)
theorem ssa_main_v2 (c : Dev nD) : XA m ρ c (Proc.devRef .tc main_v2) = shapeCast S400000 (XA m ρ c (Proc.devRef .tc main_v1)) shapeCasts_S1x1x400000_S400000 := by
  exact Ssa.ssa_reshape (x := main_v1) (y := main_v2) (he := rfl) (hn := shapeCasts_S1x1x400000_S400000) alA 3 _ rfl (by decide +kernel) (by decide +kernel)
theorem ssa_main_v3 (c : Dev nD) : XA m ρ c (Proc.devRef .tc main_v3) = ((extractStridedSlice S1x1x400000 ![0, 1, 0] · slices_S9x2x400000_S1x1x400000_0_1_0) : (⟨S9x2x400000, .i32⟩ : BufTy).Contents (Elt F) → (⟨S1x1x400000, .i32⟩ : BufTy).Contents (Elt F)) (XA m ρ c (Proc.devRef .tc main_arg9)) := by
  exact Ssa.ssa_unary alA 4 _ rfl (by decide +kernel) (by decide +kernel)
theorem ssa_main_v4 (c : Dev nD) : XA m ρ c (Proc.devRef .tc main_v4) = shapeCast S400000 (XA m ρ c (Proc.devRef .tc main_v3)) shapeCasts_S1x1x400000_S400000 := by
  exact Ssa.ssa_reshape (x := main_v3) (y := main_v4) (he := rfl) (hn := shapeCasts_S1x1x400000_S400000) alA 5 _ rfl (by decide +kernel) (by decide +kernel)
theorem ssa_main_cst_0 (c : Dev nD) : XA m ρ c (Proc.devRef .tc main_cst_0) = (constant (F := F) S_ .f32 0x00000000#32) := by
  exact Ssa.ssa_nullary alA 6 _ rfl (by decide +kernel)
theorem ssa_main_v5 (c : Dev nD) : XA m ρ c (Proc.devRef .tc main_v5) = (broadcastInDim S50000 ![] bcast_S_S50000 : (⟨S_, .f32⟩ : BufTy).Contents (Elt F) → (⟨S50000, .f32⟩ : BufTy).Contents (Elt F)) (XA m ρ c (Proc.devRef .tc main_cst_0)) := by
  exact Ssa.ssa_unary alA 7 _ rfl (by decide +kernel) (by decide +kernel)
theorem ssa_main_v6 (c : Dev nD) : XA m ρ c (Proc.devRef .tc main_v6) = (broadcastInDim S400000x1 ![0] bcast_S400000_S400000x1_0 : (⟨S400000, .i32⟩ : BufTy).Contents (Elt F) → (⟨S400000x1, .i32⟩ : BufTy).Contents (Elt F)) (XA m ρ c (Proc.devRef .tc main_v2)) := by
  exact Ssa.ssa_unary alA 8 _ rfl (by decide +kernel) (by decide +kernel)
theorem ssa_main_v7 (c : Dev nD) : XA m ρ c (Proc.devRef .tc main_v7) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v5)) (XA m ρ c (Proc.devRef .tc main_v6)) (XA m ρ c (Proc.devRef .tc main_v0)) := by
  exact Ssa.ssa_ternary alA 9 _ rfl (by decide +kernel) (by decide +kernel) (by decide +kernel) (by decide +kernel)
theorem ssa_main_cst_1 (c : Dev nD) : XA m ρ c (Proc.devRef .tc main_cst_1) = (constant (F := F) S_ .f32 0x00000000#32) := by
  exact Ssa.ssa_nullary alA 10 _ rfl (by decide +kernel)
theorem ssa_main_v8 (c : Dev nD) : XA m ρ c (Proc.devRef .tc main_v8) = (broadcastInDim S50000 ![] bcast_S_S50000 : (⟨S_, .f32⟩ : BufTy).Contents (Elt F) → (⟨S50000, .f32⟩ : BufTy).Contents (Elt F)) (XA m ρ c (Proc.devRef .tc main_cst_1)) := by
  exact Ssa.ssa_unary alA 11 _ rfl (by decide +kernel) (by decide +kernel)
theorem ssa_main_v9 (c : Dev nD) : XA m ρ c (Proc.devRef .tc main_v9) = (broadcastInDim S400000x1 ![0] bcast_S400000_S400000x1_0 : (⟨S400000, .i32⟩ : BufTy).Contents (Elt F) → (⟨S400000x1, .i32⟩ : BufTy).Contents (Elt F)) (XA m ρ c (Proc.devRef .tc main_v4)) := by
  exact Ssa.ssa_unary alA 12 _ rfl (by decide +kernel) (by decide +kernel)
theorem ssa_main_v10 (c : Dev nD) : XA m ρ c (Proc.devRef .tc main_v10) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v8)) (XA m ρ c (Proc.devRef .tc main_v9)) (XA m ρ c (Proc.devRef .tc main_v0)) := by
  exact Ssa.ssa_ternary alA 13 _ rfl (by decide +kernel) (by decide +kernel) (by decide +kernel) (by decide +kernel)
theorem ssa_main_cst_2 (c : Dev nD) : XA m ρ c (Proc.devRef .tc main_cst_2) = (constant (F := F) S_ .f32 0x00000000#32) := by
  exact Ssa.ssa_nullary alA 14 _ rfl (by decide +kernel)
theorem ssa_main_v11 (c : Dev nD) : XA m ρ c (Proc.devRef .tc main_v11) = (broadcastInDim S50000 ![] bcast_S_S50000 : (⟨S_, .f32⟩ : BufTy).Contents (Elt F) → (⟨S50000, .f32⟩ : BufTy).Contents (Elt F)) (XA m ρ c (Proc.devRef .tc main_cst_2)) := by
  exact Ssa.ssa_unary alA 15 _ rfl (by decide +kernel) (by decide +kernel)
theorem ssa_main_v12 (c : Dev nD) : XA m ρ c (Proc.devRef .tc main_v12) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v7)) (XA m ρ c (Proc.devRef .tc main_v11)) := by
  exact Ssa.ssa_binary alA 16 _ rfl (by decide +kernel) (by decide +kernel) (by decide +kernel)
theorem ssa_main_cst_3 (c : Dev nD) : XA m ρ c (Proc.devRef .tc main_cst_3) = (constant (F := F) S_ .f32 0x3F800000#32) := by
  exact Ssa.ssa_nullary alA 17 _ rfl (by decide +kernel)
theorem ssa_main_call0_v0 (c : Dev nD) : XA m ρ c (Proc.devRef .tc main_call0_v0) = (XA m ρ c (Proc.devRef .tc main_cst_3)) := by
  refine (Ssa.ssa_unary alA 18 _ rfl (by decide +kernel) (by decide +kernel)).trans ?_; simp only [StableHlo.TRef.ofBuf, StableHlo.TRef.toBuf, cast_eq, id]
theorem ssa_main_call0_v1 (c : Dev nD) : XA m ρ c (Proc.devRef .tc main_call0_v1) = (broadcastInDim S50000 ![] bcast_S_S50000) (XA m ρ c (Proc.devRef .tc main_call0_v0)) := by
  refine (Ssa.ssa_unary alA 19 _ rfl (by decide +kernel) (by decide +kernel)).trans ?_; simp only [StableHlo.TRef.ofBuf, StableHlo.TRef.toBuf, cast_eq, id]
theorem ssa_main_v13 (c : Dev nD) : XA m ρ c (Proc.devRef .tc main_v13) = select (XA m ρ c (Proc.devRef .tc main_v12)) (XA m ρ c (Proc.devRef .tc main_v7)) (XA m ρ c (Proc.devRef .tc main_call0_v1)) := by
  refine (Ssa.ssa_ternary alA 20 _ rfl (by decide +kernel) (by decide +kernel) (by decide +kernel) (by decide +kernel)).trans ?_; simp only [StableHlo.TRef.ofBuf, StableHlo.TRef.toBuf, cast_eq]
theorem ssa_main_cst_4 (c : Dev nD) : XA m ρ c (Proc.devRef .tc main_cst_4) = (constant (F := F) S_ .f32 0xBF000000#32) := by
  exact Ssa.ssa_nullary alA 21 _ rfl (by decide +kernel)
theorem ssa_main_v14 (c : Dev nD) : XA m ρ c (Proc.devRef .tc main_v14) = (broadcastInDim S50000 ![] bcast_S_S50000 : (⟨S_, .f32⟩ : BufTy).Contents (Elt F) → (⟨S50000, .f32⟩ : BufTy).Contents (Elt F)) (XA m ρ c (Proc.devRef .tc main_cst_4)) := by
  exact Ssa.ssa_unary alA 22 _ rfl (by decide +kernel) (by decide +kernel)
theorem ssa_main_v15 (c : Dev nD) : XA m ρ c (Proc.devRef .tc main_v15) = (Host.powf : (⟨S50000, .f32⟩ : BufTy).Contents (Elt F) → (⟨S50000, .f32⟩ : BufTy).Contents (Elt F) → (⟨S50000, .f32⟩ : BufTy).Contents (Elt F)) (XA m ρ c (Proc.devRef .tc main_v13)) (XA m ρ c (Proc.devRef .tc main_v14)) := by
  exact Ssa.ssa_binary alA 23 _ rfl (by decide +kernel) (by decide +kernel) (by decide +kernel)
theorem ssa_main_cst_5 (c : Dev nD) : XA m ρ c (Proc.devRef .tc main_cst_5) = (constant (F := F) S_ .f32 0x00000000#32) := by
  exact Ssa.ssa_nullary alA 24 _ rfl (by decide +kernel)
theorem ssa_main_v16 (c : Dev nD) : XA m ρ c (Proc.devRef .tc main_v16) = (broadcastInDim S50000 ![] bcast_S_S50000 : (⟨S_, .f32⟩ : BufTy).Contents (Elt F) → (⟨S50000, .f32⟩ : BufTy).Contents (Elt F)) (XA m ρ c (Proc.devRef .tc main_cst_5)) := by
  exact Ssa.ssa_unary alA 25 _ rfl (by decide +kernel) (by decide +kernel)
theorem ssa_main_v17 (c : Dev nD) : XA m ρ c (Proc.devRef .tc main_v17) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v7)) (XA m ρ c (Proc.devRef .tc main_v16)) := by
  exact Ssa.ssa_binary alA 26 _ rfl (by decide +kernel) (by decide +kernel) (by decide +kernel)
theorem ssa_main_cst_6 (c : Dev nD) : XA m ρ c (Proc.devRef .tc main_cst_6) = (constant (F := F) S_ .f32 0x00000000#32) := by
  exact Ssa.ssa_nullary alA 27 _ rfl (by decide +kernel)
theorem ssa_main_call1_v0 (c : Dev nD) : XA m ρ c (Proc.devRef .tc main_call1_v0) = (XA m ρ c (Proc.devRef .tc main_cst_6)) := by
  refine (Ssa.ssa_unary alA 28 _ rfl (by decide +kernel) (by decide +kernel)).trans ?_; simp only [StableHlo.TRef.ofBuf, StableHlo.TRef.toBuf, cast_eq, id]
theorem ssa_main_call1_v1 (c : Dev nD) : XA m ρ c (Proc.devRef .tc main_call1_v1) = (broadcastInDim S50000 ![] bcast_S_S50000) (XA m ρ c (Proc.devRef .tc main_call1_v0)) := by
  refine (Ssa.ssa_unary alA 29 _ rfl (by decide +kernel) (by decide +kernel)).trans ?_; simp only [StableHlo.TRef.ofBuf, StableHlo.TRef.toBuf, cast_eq, id]
theorem ssa_main_v18 (c : Dev nD) : XA m ρ c (Proc.devRef .tc main_v18) = select (XA m ρ c (Proc.devRef .tc main_v17)) (XA m ρ c (Proc.devRef .tc main_v15)) (XA m ρ c (Proc.devRef .tc main_call1_v1)) := by
  refine (Ssa.ssa_ternary alA 30 _ rfl (by decide +kernel) (by decide +kernel) (by decide +kernel) (by decide +kernel)).trans ?_; simp only [StableHlo.TRef.ofBuf, StableHlo.TRef.toBuf, cast_eq]
theorem ssa_main_cst_7 (c : Dev nD) : XA m ρ c (Proc.devRef .tc main_cst_7) = (constant (F := F) S_ .f32 0x00000000#32) := by
  exact Ssa.ssa_nullary alA 31 _ rfl (by decide +kernel)
theorem ssa_main_v19 (c : Dev nD) : XA m ρ c (Proc.devRef .tc main_v19) = (broadcastInDim S50000 ![] bcast_S_S50000 : (⟨S_, .f32⟩ : BufTy).Contents (Elt F) → (⟨S50000, .f32⟩ : BufTy).Contents (Elt F)) (XA m ρ c (Proc.devRef .tc main_cst_7)) := by
  exact Ssa.ssa_unary alA 32 _ rfl (by decide +kernel) (by decide +kernel)
theorem ssa_main_v20 (c : Dev nD) : XA m ρ c (Proc.devRef .tc main_v20) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v10)) (XA m ρ c (Proc.devRef .tc main_v19)) := by
  exact Ssa.ssa_binary alA 33 _ rfl (by decide +kernel) (by decide +kernel) (by decide +kernel)
theorem ssa_main_cst_8 (c : Dev nD) : XA m ρ c (Proc.devRef .tc main_cst_8) = (constant (F := F) S_ .f32 0x3F800000#32) := by
  exact Ssa.ssa_nullary alA 34 _ rfl (by decide +kernel)
theorem ssa_main_call2_v0 (c : Dev nD) : XA m ρ c (Proc.devRef .tc main_call2_v0) = (XA m ρ c (Proc.devRef .tc main_cst_8)) := by
  refine (Ssa.ssa_unary alA 35 _ rfl (by decide +kernel) (by decide +kernel)).trans ?_; simp only [StableHlo.TRef.ofBuf, StableHlo.TRef.toBuf, cast_eq, id]
theorem ssa_main_call2_v1 (c : Dev nD) : XA m ρ c (Proc.devRef .tc main_call2_v1) = (broadcastInDim S50000 ![] bcast_S_S50000) (XA m ρ c (Proc.devRef .tc main_call2_v0)) := by
  refine (Ssa.ssa_unary alA 36 _ rfl (by decide +kernel) (by decide +kernel)).trans ?_; simp only [StableHlo.TRef.ofBuf, StableHlo.TRef.toBuf, cast_eq, id]
theorem ssa_main_v21 (c : Dev nD) : XA m ρ c (Proc.devRef .tc main_v21) = select (XA m ρ c (Proc.devRef .tc main_v20)) (XA m ρ c (Proc.devRef .tc main_v10)) (XA m ρ c (Proc.devRef .tc main_call2_v1)) := by
  refine (Ssa.ssa_ternary alA 37 _ rfl (by decide +kernel) (by decide +kernel) (by decide +kernel) (by decide +kernel)).trans ?_; simp only [StableHlo.TRef.ofBuf, StableHlo.TRef.toBuf, cast_eq]
theorem ssa_main_cst_9 (c : Dev nD) : XA m ρ c (Proc.devRef .tc main_cst_9) = (constant (F := F) S_ .f32 0xBF000000#32) := by
  exact Ssa.ssa_nullary alA 38 _ rfl (by decide +kernel)
theorem ssa_main_v22 (c : Dev nD) : XA m ρ c (Proc.devRef .tc main_v22) = (broadcastInDim S50000 ![] bcast_S_S50000 : (⟨S_, .f32⟩ : BufTy).Contents (Elt F) → (⟨S50000, .f32⟩ : BufTy).Contents (Elt F)) (XA m ρ c (Proc.devRef .tc main_cst_9)) := by
  exact Ssa.ssa_unary alA 39 _ rfl (by decide +kernel) (by decide +kernel)
theorem ssa_main_v23 (c : Dev nD) : XA m ρ c (Proc.devRef .tc main_v23) = (Host.powf : (⟨S50000, .f32⟩ : BufTy).Contents (Elt F) → (⟨S50000, .f32⟩ : BufTy).Contents (Elt F) → (⟨S50000, .f32⟩ : BufTy).Contents (Elt F)) (XA m ρ c (Proc.devRef .tc main_v21)) (XA m ρ c (Proc.devRef .tc main_v22)) := by
  exact Ssa.ssa_binary alA 40 _ rfl (by decide +kernel) (by decide +kernel) (by decide +kernel)
theorem ssa_main_cst_10 (c : Dev nD) : XA m ρ c (Proc.devRef .tc main_cst_10) = (constant (F := F) S_ .f32 0x00000000#32) := by
  exact Ssa.ssa_nullary alA 41 _ rfl (by decide +kernel)
theorem ssa_main_v24 (c : Dev nD) : XA m ρ c (Proc.devRef .tc main_v24) = (broadcastInDim S50000 ![] bcast_S_S50000 : (⟨S_, .f32⟩ : BufTy).Contents (Elt F) → (⟨S50000, .f32⟩ : BufTy).Contents (Elt F)) (XA m ρ c (Proc.devRef .tc main_cst_10)) := by
  exact Ssa.ssa_unary alA 42 _ rfl (by decide +kernel) (by decide +kernel)
theorem ssa_main_v25 (c : Dev nD) : XA m ρ c (Proc.devRef .tc main_v25) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v10)) (XA m ρ c (Proc.devRef .tc main_v24)) := by
  exact Ssa.ssa_binary alA 43 _ rfl (by decide +kernel) (by decide +kernel) (by decide +kernel)
theorem ssa_main_cst_11 (c : Dev nD) : XA m ρ c (Proc.devRef .tc main_cst_11) = (constant (F := F) S_ .f32 0x00000000#32) := by
  exact Ssa.ssa_nullary alA 44 _ rfl (by decide +kernel)
theorem ssa_main_call3_v0 (c : Dev nD) : XA m ρ c (Proc.devRef .tc main_call3_v0) = (XA m ρ c (Proc.devRef .tc main_cst_11)) := by
  refine (Ssa.ssa_unary alA 45 _ rfl (by decide +kernel) (by decide +kernel)).trans ?_; simp only [StableHlo.TRef.ofBuf, StableHlo.TRef.toBuf, cast_eq, id]
theorem ssa_main_call3_v1 (c : Dev nD) : XA m ρ c (Proc.devRef .tc main_call3_v1) = (broadcastInDim S50000 ![] bcast_S_S50000) (XA m ρ c (Proc.devRef .tc main_call3_v0)) := by
  refine (Ssa.ssa_unary alA 46 _ rfl (by decide +kernel) (by decide +kernel)).trans ?_; simp only [StableHlo.TRef.ofBuf, StableHlo.TRef.toBuf, cast_eq, id]
theorem ssa_main_v26 (c : Dev nD) : XA m ρ c (Proc.devRef .tc main_v26) = select (XA m ρ c (Proc.devRef .tc main_v25)) (XA m ρ c (Proc.devRef .tc main_v23)) (XA m ρ c (Proc.devRef .tc main_call3_v1)) := by
  refine (Ssa.ssa_ternary alA 47 _ rfl (by decide +kernel) (by decide +kernel) (by decide +kernel) (by decide +kernel)).trans ?_; simp only [StableHlo.TRef.ofBuf, StableHlo.TRef.toBuf, cast_eq]
theorem ssa_main_v27 (c : Dev nD) : XA m ρ c (Proc.devRef .tc main_v27) = ((extractStridedSlice S1x1x400000 ![1, 0, 0] · slices_S9x2x400000_S1x1x400000_1_0_0) : (⟨S9x2x400000, .i32⟩ : BufTy).Contents (Elt F) → (⟨S1x1x400000, .i32⟩ : BufTy).Contents (Elt F)) (XA m ρ c (Proc.devRef .tc main_arg9)) := by
  exact Ssa.ssa_unary alA 48 _ rfl (by decide +kernel) (by decide +kernel)
theorem ssa_main_v28 (c : Dev nD) : XA m ρ c (Proc.devRef .tc main_v28) = shapeCast S400000 (XA m ρ c (Proc.devRef .tc main_v27)) shapeCasts_S1x1x400000_S400000 := by
  exact Ssa.ssa_reshape (x := main_v27) (y := main_v28) (he := rfl) (hn := shapeCasts_S1x1x400000_S400000) alA 49 _ rfl (by decide +kernel) (by decide +kernel)
theorem ssa_main_v29 (c : Dev nD) : XA m ρ c (Proc.devRef .tc main_v29) = ((extractStridedSlice S1x1x400000 ![1, 1, 0] · slices_S9x2x400000_S1x1x400000_1_1_0) : (⟨S9x2x400000, .i32⟩ : BufTy).Contents (Elt F) → (⟨S1x1x400000, .i32⟩ : BufTy).Contents (Elt F)) (XA m ρ c (Proc.devRef .tc main_arg9)) := by
  exact Ssa.ssa_unary alA 50 _ rfl (by decide +kernel) (by decide +kernel)
theorem ssa_main_v30 (c : Dev nD) : XA m ρ c (Proc.devRef .tc main_v30) = shapeCast S400000 (XA m ρ c (Proc.devRef .tc main_v29)) shapeCasts_S1x1x400000_S400000 := by
  exact Ssa.ssa_reshape (x := main_v29) (y := main_v30) (he := rfl) (hn := shapeCasts_S1x1x400000_S400000) alA 51 _ rfl (by decide +kernel) (by decide +kernel)
theorem ssa_main_cst_12 (c : Dev nD) : XA m ρ c (Proc.devRef .tc main_cst_12) = (constant (F := F) S_ .f32 0x00000000#32) := by
  exact Ssa.ssa_nullary alA 52 _ rfl (by decide +kernel)
theorem ssa_main_v31 (c : Dev nD) : XA m ρ c (Proc.devRef .tc main_v31) = (broadcastInDim S50000 ![] bcast_S_S50000 : (⟨S_, .f32⟩ : BufTy).Contents (Elt F) → (⟨S50000, .f32⟩ : BufTy).Contents (Elt F)) (XA m ρ c (Proc.devRef .tc main_cst_12)) := by
  exact Ssa.ssa_unary alA 53 _ rfl (by decide +kernel) (by decide +kernel)
theorem ssa_main_v32 (c : Dev nD) : XA m ρ c (Proc.devRef .tc main_v32) = (broadcastInDim S400000x1 ![0] bcast_S400000_S400000x1_0 : (⟨S400000, .i32⟩ : BufTy).Contents (Elt F) → (⟨S400000x1, .i32⟩ : BufTy).Contents (Elt F)) (XA m ρ c (Proc.devRef .tc main_v28)) := by
  exact Ssa.ssa_unary alA 54 _ rfl (by decide +kernel) (by decide +kernel)
theorem ssa_main_v33 (c : Dev nD) : XA m ρ c (Proc.devRef .tc main_v33) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v31)) (XA m ρ c (Proc.devRef .tc main_v32)) (XA m ρ c (Proc.devRef .tc main_v0)) := by
  exact Ssa.ssa_ternary alA 55 _ rfl (by decide +kernel) (by decide +kernel) (by decide +kernel) (by decide +kernel)
theorem ssa_main_cst_13 (c : Dev nD) : XA m ρ c (Proc.devRef .tc main_cst_13) = (constant (F := F) S_ .f32 0x00000000#32) := by
  exact Ssa.ssa_nullary alA 56 _ rfl (by decide +kernel)
theorem ssa_main_v34 (c : Dev nD) : XA m ρ c (Proc.devRef .tc main_v34) = (broadcastInDim S50000 ![] bcast_S_S50000 : (⟨S_, .f32⟩ : BufTy).Contents (Elt F) → (⟨S50000, .f32⟩ : BufTy).Contents (Elt F)) (XA m ρ c (Proc.devRef .tc main_cst_13)) := by
  exact Ssa.ssa_unary alA 57 _ rfl (by decide +kernel) (by decide +kernel)
theorem ssa_main_v35 (c : Dev nD) : XA m ρ c (Proc.devRef .tc main_v35) = (broadcastInDim S400000x1 ![0] bcast_S400000_S400000x1_0 : (⟨S400000, .i32⟩ : BufTy).Contents (Elt F) → (⟨S400000x1, .i32⟩ : BufTy).Contents (Elt F)) (XA m ρ c (Proc.devRef .tc main_v30)) := by
  exact Ssa.ssa_unary alA 58 _ rfl (by decide +kernel) (by decide +kernel)
theorem ssa_main_v36 (c : Dev nD) : XA m ρ c (Proc.devRef .tc main_v36) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v34)) (XA m ρ c (Proc.devRef .tc main_v35)) (XA m ρ c (Proc.devRef .tc main_v0)) := by
  exact Ssa.ssa_ternary alA 59 _ rfl (by decide +kernel) (by decide +kernel) (by decide +kernel) (by decide +kernel)
theorem ssa_main_cst_14 (c : Dev nD) : XA m ρ c (Proc.devRef .tc main_cst_14) = (constant (F := F) S_ .f32 0x00000000#32) := by
  exact Ssa.ssa_nullary alA 60 _ rfl (by decide +kernel)
theorem ssa_main_v37 (c : Dev nD) : XA m ρ c (Proc.devRef .tc main_v37) = (broadcastInDim S50000 ![] bcast_S_S50000 : (⟨S_, .f32⟩ : BufTy).Contents (Elt F) → (⟨S50000, .f32⟩ : BufTy).Contents (Elt F)) (XA m ρ c (Proc.devRef .tc main_cst_14)) := by
  exact Ssa.ssa_unary alA 61 _ rfl (by decide +kernel) (by decide +kernel)
theorem ssa_main_v38 (c : Dev nD) : XA m ρ c (Proc.devRef .tc main_v38) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v33)) (XA m ρ c (Proc.devRef .tc main_v37)) := by
  exact Ssa.ssa_binary alA 62 _ rfl (by decide +kernel) (by decide +kernel) (by decide +kernel)
theorem ssa_main_cst_15 (c : Dev nD) : XA m ρ c (Proc.devRef .tc main_cst_15) = (constant (F := F) S_ .f32 0x3F800000#32) := by
  exact Ssa.ssa_nullary alA 63 _ rfl (by decide +kernel)
theorem ssa_main_call4_v0 (c : Dev nD) : XA m ρ c (Proc.devRef .tc main_call4_v0) = (XA m ρ c (Proc.devRef .tc main_cst_15)) := by
  refine (Ssa.ssa_unary alA 64 _ rfl (by decide +kernel) (by decide +kernel)).trans ?_; simp only [StableHlo.TRef.ofBuf, StableHlo.TRef.toBuf, cast_eq, id]
theorem ssa_main_call4_v1 (c : Dev nD) : XA m ρ c (Proc.devRef .tc main_call4_v1) = (broadcastInDim S50000 ![] bcast_S_S50000) (XA m ρ c (Proc.devRef .tc main_call4_v0)) := by
  refine (Ssa.ssa_unary alA 65 _ rfl (by decide +kernel) (by decide +kernel)).trans ?_; simp only [StableHlo.TRef.ofBuf, StableHlo.TRef.toBuf, cast_eq, id]
theorem ssa_main_v39 (c : Dev nD) : XA m ρ c (Proc.devRef .tc main_v39) = select (XA m ρ c (Proc.devRef .tc main_v38)) (XA m ρ c (Proc.devRef .tc main_v33)) (XA m ρ c (Proc.devRef .tc main_call4_v1)) := by
  refine (Ssa.ssa_ternary alA 66 _ rfl (by decide +kernel) (by decide +kernel) (by decide +kernel) (by decide +kernel)).trans ?_; simp only [StableHlo.TRef.ofBuf, StableHlo.TRef.toBuf, cast_eq]
theorem ssa_main_cst_16 (c : Dev nD) : XA m ρ c (Proc.devRef .tc main_cst_16) = (constant (F := F) S_ .f32 0xBF000000#32) := by
  exact Ssa.ssa_nullary alA 67 _ rfl (by decide +kernel)
theorem ssa_main_v40 (c : Dev nD) : XA m ρ c (Proc.devRef .tc main_v40) = (broadcastInDim S50000 ![] bcast_S_S50000 : (⟨S_, .f32⟩ : BufTy).Contents (Elt F) → (⟨S50000, .f32⟩ : BufTy).Contents (Elt F)) (XA m ρ c (Proc.devRef .tc main_cst_16)) := by
  exact Ssa.ssa_unary alA 68 _ rfl (by decide +kernel) (by decide +kernel)
theorem ssa_main_v41 (c : Dev nD) : XA m ρ c (Proc.devRef .tc main_v41) = (Host.powf : (⟨S50000, .f32⟩ : BufTy).Contents (Elt F) → (⟨S50000, .f32⟩ : BufTy).Contents (Elt F) → (⟨S50000, .f32⟩ : BufTy).Contents (Elt F)) (XA m ρ c (Proc.devRef .tc main_v39)) (XA m ρ c (Proc.devRef .tc main_v40)) := by
  exact Ssa.ssa_binary alA 69 _ rfl (by decide +kernel) (by decide +kernel) (by decide +kernel)
theorem ssa_main_cst_17 (c : Dev nD) : XA m ρ c (Proc.devRef .tc main_cst_17) = (constant (F := F) S_ .f32 0x00000000#32) := by
  exact Ssa.ssa_nullary alA 70 _ rfl (by decide +kernel)
theorem ssa_main_v42 (c : Dev nD) : XA m ρ c (Proc.devRef .tc main_v42) = (broadcastInDim S50000 ![] bcast_S_S50000 : (⟨S_, .f32⟩ : BufTy).Contents (Elt F) → (⟨S50000, .f32⟩ : BufTy).Contents (Elt F)) (XA m ρ c (Proc.devRef .tc main_cst_17)) := by
  exact Ssa.ssa_unary alA 71 _ rfl (by decide +kernel) (by decide +kernel)
theorem ssa_main_v43 (c : Dev nD) : XA m ρ c (Proc.devRef .tc main_v43) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v33)) (XA m ρ c (Proc.devRef .tc main_v42)) := by
  exact Ssa.ssa_binary alA 72 _ rfl (by decide +kernel) (by decide +kernel) (by decide +kernel)
theorem ssa_main_cst_18 (c : Dev nD) : XA m ρ c (Proc.devRef .tc main_cst_18) = (constant (F := F) S_ .f32 0x00000000#32) := by
  exact Ssa.ssa_nullary alA 73 _ rfl (by decide +kernel)
theorem ssa_main_call5_v0 (c : Dev nD) : XA m ρ c (Proc.devRef .tc main_call5_v0) = (XA m ρ c (Proc.devRef .tc main_cst_18)) := by
  refine (Ssa.ssa_unary alA 74 _ rfl (by decide +kernel) (by decide +kernel)).trans ?_; simp only [StableHlo.TRef.ofBuf, StableHlo.TRef.toBuf, cast_eq, id]
theorem ssa_main_call5_v1 (c : Dev nD) : XA m ρ c (Proc.devRef .tc main_call5_v1) = (broadcastInDim S50000 ![] bcast_S_S50000) (XA m ρ c (Proc.devRef .tc main_call5_v0)) := by
  refine (Ssa.ssa_unary alA 75 _ rfl (by decide +kernel) (by decide +kernel)).trans ?_; simp only [StableHlo.TRef.ofBuf, StableHlo.TRef.toBuf, cast_eq, id]
theorem ssa_main_v44 (c : Dev nD) : XA m ρ c (Proc.devRef .tc main_v44) = select (XA m ρ c (Proc.devRef .tc main_v43)) (XA m ρ c (Proc.devRef .tc main_v41)) (XA m ρ c (Proc.devRef .tc main_call5_v1)) := by
  refine (Ssa.ssa_ternary alA 76 _ rfl (by decide +kernel) (by decide +kernel) (by decide +kernel) (by decide +kernel)).trans ?_; simp only [StableHlo.TRef.ofBuf, StableHlo.TRef.toBuf, cast_eq]
theorem ssa_main_cst_19 (c : Dev nD) : XA m ρ c (Proc.devRef .tc main_cst_19) = (constant (F := F) S_ .f32 0x00000000#32) := by
  exact Ssa.ssa_nullary alA 77 _ rfl (by decide +kernel)
theorem ssa_main_v45 (c : Dev nD) : XA m ρ c (Proc.devRef .tc main_v45) = (broadcastInDim S50000 ![] bcast_S_S50000 : (⟨S_, .f32⟩ : BufTy).Contents (Elt F) → (⟨S50000, .f32⟩ : BufTy).Contents (Elt F)) (XA m ρ c (Proc.devRef .tc main_cst_19)) := by
  exact Ssa.ssa_unary alA 78 _ rfl (by decide +kernel) (by decide +kernel)
theorem ssa_main_v46 (c : Dev nD) : XA m ρ c (Proc.devRef .tc main_v46) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v36)) (XA m ρ c (Proc.devRef .tc main_v45)) := by
  exact Ssa.ssa_binary alA 79 _ rfl (by decide +kernel) (by decide +kernel) (by decide +kernel)
theorem ssa_main_cst_20 (c : Dev nD) : XA m ρ c (Proc.devRef .tc main_cst_20) = (constant (F := F) S_ .f32 0x3F800000#32) := by
  exact Ssa.ssa_nullary alA 80 _ rfl (by decide +kernel)
theorem ssa_main_call6_v0 (c : Dev nD) : XA m ρ c (Proc.devRef .tc main_call6_v0) = (XA m ρ c (Proc.devRef .tc main_cst_20)) := by
  refine (Ssa.ssa_unary alA 81 _ rfl (by decide +kernel) (by decide +kernel)).trans ?_; simp only [StableHlo.TRef.ofBuf, StableHlo.TRef.toBuf, cast_eq, id]
theorem ssa_main_call6_v1 (c : Dev nD) : XA m ρ c (Proc.devRef .tc main_call6_v1) = (broadcastInDim S50000 ![] bcast_S_S50000) (XA m ρ c (Proc.devRef .tc main_call6_v0)) := by
  refine (Ssa.ssa_unary alA 82 _ rfl (by decide +kernel) (by decide +kernel)).trans ?_; simp only [StableHlo.TRef.ofBuf, StableHlo.TRef.toBuf, cast_eq, id]
theorem ssa_main_v47 (c : Dev nD) : XA m ρ c (Proc.devRef .tc main_v47) = select (XA m ρ c (Proc.devRef .tc main_v46)) (XA m ρ c (Proc.devRef .tc main_v36)) (XA m ρ c (Proc.devRef .tc main_call6_v1)) := by
  refine (Ssa.ssa_ternary alA 83 _ rfl (by decide +kernel) (by decide +kernel) (by decide +kernel) (by decide +kernel)).trans ?_; simp only [StableHlo.TRef.ofBuf, StableHlo.TRef.toBuf, cast_eq]
theorem ssa_main_cst_21 (c : Dev nD) : XA m ρ c (Proc.devRef .tc main_cst_21) = (constant (F := F) S_ .f32 0xBF000000#32) := by
  exact Ssa.ssa_nullary alA 84 _ rfl (by decide +kernel)
theorem ssa_main_v48 (c : Dev nD) : XA m ρ c (Proc.devRef .tc main_v48) = (broadcastInDim S50000 ![] bcast_S_S50000 : (⟨S_, .f32⟩ : BufTy).Contents (Elt F) → (⟨S50000, .f32⟩ : BufTy).Contents (Elt F)) (XA m ρ c (Proc.devRef .tc main_cst_21)) := by
  exact Ssa.ssa_unary alA 85 _ rfl (by decide +kernel) (by decide +kernel)
theorem ssa_main_v49 (c : Dev nD) : XA m ρ c (Proc.devRef .tc main_v49) = (Host.powf : (⟨S50000, .f32⟩ : BufTy).Contents (Elt F) → (⟨S50000, .f32⟩ : BufTy).Contents (Elt F) → (⟨S50000, .f32⟩ : BufTy).Contents (Elt F)) (XA m ρ c (Proc.devRef .tc main_v47)) (XA m ρ c (Proc.devRef .tc main_v48)) := by
  exact Ssa.ssa_binary alA 86 _ rfl (by decide +kernel) (by decide +kernel) (by decide +kernel)
theorem ssa_main_cst_22 (c : Dev nD) : XA m ρ c (Proc.devRef .tc main_cst_22) = (constant (F := F) S_ .f32 0x00000000#32) := by
  exact Ssa.ssa_nullary alA 87 _ rfl (by decide +kernel)
theorem ssa_main_v50 (c : Dev nD) : XA m ρ c (Proc.devRef .tc main_v50) = (broadcastInDim S50000 ![] bcast_S_S50000 : (⟨S_, .f32⟩ : BufTy).Contents (Elt F) → (⟨S50000, .f32⟩ : BufTy).Contents (Elt F)) (XA m ρ c (Proc.devRef .tc main_cst_22)) := by
  exact Ssa.ssa_unary alA 88 _ rfl (by decide +kernel) (by decide +kernel)
theorem ssa_main_v51 (c : Dev nD) : XA m ρ c (Proc.devRef .tc main_v51) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v36)) (XA m ρ c (Proc.devRef .tc main_v50)) := by
  exact Ssa.ssa_binary alA 89 _ rfl (by decide +kernel) (by decide +kernel) (by decide +kernel)
theorem ssa_main_cst_23 (c : Dev nD) : XA m ρ c (Proc.devRef .tc main_cst_23) = (constant (F := F) S_ .f32 0x00000000#32) := by
  exact Ssa.ssa_nullary alA 90 _ rfl (by decide +kernel)
theorem ssa_main_call7_v0 (c : Dev nD) : XA m ρ c (Proc.devRef .tc main_call7_v0) = (XA m ρ c (Proc.devRef .tc main_cst_23)) := by
  refine (Ssa.ssa_unary alA 91 _ rfl (by decide +kernel) (by decide +kernel)).trans ?_; simp only [StableHlo.TRef.ofBuf, StableHlo.TRef.toBuf, cast_eq, id]
theorem ssa_main_call7_v1 (c : Dev nD) : XA m ρ c (Proc.devRef .tc main_call7_v1) = (broadcastInDim S50000 ![] bcast_S_S50000) (XA m ρ c (Proc.devRef .tc main_call7_v0)) := by
  refine (Ssa.ssa_unary alA 92 _ rfl (by decide +kernel) (by decide +kernel)).trans ?_; simp only [StableHlo.TRef.ofBuf, StableHlo.TRef.toBuf, cast_eq, id]
theorem ssa_main_v52 (c : Dev nD) : XA m ρ c (Proc.devRef .tc main_v52) = select (XA m ρ c (Proc.devRef .tc main_v51)) (XA m ρ c (Proc.devRef .tc main_v49)) (XA m ρ c (Proc.devRef .tc main_call7_v1)) := by
  refine (Ssa.ssa_ternary alA 93 _ rfl (by decide +kernel) (by decide +kernel) (by decide +kernel) (by decide +kernel)).trans ?_; simp only [StableHlo.TRef.ofBuf, StableHlo.TRef.toBuf, cast_eq]
theorem ssa_main_v53 (c : Dev nD) : XA m ρ c (Proc.devRef .tc main_v53) = ((extractStridedSlice S1x1x400000 ![2, 0, 0] · slices_S9x2x400000_S1x1x400000_2_0_0) : (⟨S9x2x400000, .i32⟩ : BufTy).Contents (Elt F) → (⟨S1x1x400000, .i32⟩ : BufTy).Contents (Elt F)) (XA m ρ c (Proc.devRef .tc main_arg9)) := by
  exact Ssa.ssa_unary alA 94 _ rfl (by decide +kernel) (by decide +kernel)
theorem ssa_main_v54 (c : Dev nD) : XA m ρ c (Proc.devRef .tc main_v54) = shapeCast S400000 (XA m ρ c (Proc.devRef .tc main_v53)) shapeCasts_S1x1x400000_S400000 := by
  exact Ssa.ssa_reshape (x := main_v53) (y := main_v54) (he := rfl) (hn := shapeCasts_S1x1x400000_S400000) alA 95 _ rfl (by decide +kernel) (by decide +kernel)
theorem ssa_main_v55 (c : Dev nD) : XA m ρ c (Proc.devRef .tc main_v55) = ((extractStridedSlice S1x1x400000 ![2, 1, 0] · slices_S9x2x400000_S1x1x400000_2_1_0) : (⟨S9x2x400000, .i32⟩ : BufTy).Contents (Elt F) → (⟨S1x1x400000, .i32⟩ : BufTy).Contents (Elt F)) (XA m ρ c (Proc.devRef .tc main_arg9)) := by
  exact Ssa.ssa_unary alA 96 _ rfl (by decide +kernel) (by decide +kernel)
theorem ssa_main_v56 (c : Dev nD) : XA m ρ c (Proc.devRef .tc main_v56) = shapeCast S400000 (XA m ρ c (Proc.devRef .tc main_v55)) shapeCasts_S1x1x400000_S400000 := by
  exact Ssa.ssa_reshape (x := main_v55) (y := main_v56) (he := rfl) (hn := shapeCasts_S1x1x400000_S400000) alA 97 _ rfl (by decide +kernel) (by decide +kernel)
theorem ssa_main_cst_24 (c : Dev nD) : XA m ρ c (Proc.devRef .tc main_cst_24) = (constant (F := F) S_ .f32 0x00000000#32) := by
  exact Ssa.ssa_nullary alA 98 _ rfl (by decide +kernel)
theorem ssa_main_v57 (c : Dev nD) : XA m ρ c (Proc.devRef .tc main_v57) = (broadcastInDim S50000 ![] bcast_S_S50000 : (⟨S_, .f32⟩ : BufTy).Contents (Elt F) → (⟨S50000, .f32⟩ : BufTy).Contents (Elt F)) (XA m ρ c (Proc.devRef .tc main_cst_24)) := by
  exact Ssa.ssa_unary alA 99 _ rfl (by decide +kernel) (by decide +kernel)
theorem ssa_main_v58 (c : Dev nD) : XA m ρ c (Proc.devRef .tc main_v58) = (broadcastInDim S400000x1 ![0] bcast_S400000_S400000x1_0 : (⟨S400000, .i32⟩ : BufTy).Contents (Elt F) → (⟨S400000x1, .i32⟩ : BufTy).Contents (Elt F)) (XA m ρ c (Proc.devRef .tc main_v54)) := by
  exact Ssa.ssa_unary alA 100 _ rfl (by decide +kernel) (by decide +kernel)
theorem ssa_main_v59 (c : Dev nD) : XA m ρ c (Proc.devRef .tc main_v59) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v57)) (XA m ρ c (Proc.devRef .tc main_v58)) (XA m ρ c (Proc.devRef .tc main_v0)) := by
  exact Ssa.ssa_ternary alA 101 _ rfl (by decide +kernel) (by decide +kernel) (by decide +kernel) (by decide +kernel)
theorem ssa_main_cst_25 (c : Dev nD) : XA m ρ c (Proc.devRef .tc main_cst_25) = (constant (F := F) S_ .f32 0x00000000#32) := by
  exact Ssa.ssa_nullary alA 102 _ rfl (by decide +kernel)
theorem ssa_main_v60 (c : Dev nD) : XA m ρ c (Proc.devRef .tc main_v60) = (broadcastInDim S50000 ![] bcast_S_S50000 : (⟨S_, .f32⟩ : BufTy).Contents (Elt F) → (⟨S50000, .f32⟩ : BufTy).Contents (Elt F)) (XA m ρ c (Proc.devRef .tc main_cst_25)) := by
  exact Ssa.ssa_unary alA 103 _ rfl (by decide +kernel) (by decide +kernel)
theorem ssa_main_v61 (c : Dev nD) : XA m ρ c (Proc.devRef .tc main_v61) = (broadcastInDim S400000x1 ![0] bcast_S400000_S400000x1_0 : (⟨S400000, .i32⟩ : BufTy).Contents (Elt F) → (⟨S400000x1, .i32⟩ : BufTy).Contents (Elt F)) (XA m ρ c (Proc.devRef .tc main_v56)) := by
  exact Ssa.ssa_unary alA 104 _ rfl (by decide +kernel) (by decide +kernel)
theorem ssa_main_v62 (c : Dev nD) : XA m ρ c (Proc.devRef .tc main_v62) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v60)) (XA m ρ c (Proc.devRef .tc main_v61)) (XA m ρ c (Proc.devRef .tc main_v0)) := by
  exact Ssa.ssa_ternary alA 105 _ rfl (by decide +kernel) (by decide +kernel) (by decide +kernel) (by decide +kernel)
theorem ssa_main_cst_26 (c : Dev nD) : XA m ρ c (Proc.devRef .tc main_cst_26) = (constant (F := F) S_ .f32 0x00000000#32) := by
  exact Ssa.ssa_nullary alA 106 _ rfl (by decide +kernel)
theorem ssa_main_v63 (c : Dev nD) : XA m ρ c (Proc.devRef .tc main_v63) = (broadcastInDim S50000 ![] bcast_S_S50000 : (⟨S_, .f32⟩ : BufTy).Contents (Elt F) → (⟨S50000, .f32⟩ : BufTy).Contents (Elt F)) (XA m ρ c (Proc.devRef .tc main_cst_26)) := by
  exact Ssa.ssa_unary alA 107 _ rfl (by decide +kernel) (by decide +kernel)

end Cert.KernelIdeal.Rd

end
-- ==== Proof.GraphRead.lean ====
/-
  The array-level chains both programs print around the graph, read at one element into the graph's scalars: the index
  column (a slice of the edge array, reshaped to a vector, broadcast to a column), the gather's start indices (a
  negative source word wrapped by the node count), the degree (an accumulating scatter of ones along a column), the
  degree norm (comparison, selection, power) and the norm broadcast across a table's features. Every shape fact is an
  arbitrary hypothesis, so each lemma applies to either program's copy of the operations.
-/
import proofs.«151568_j90031104458821_2_alg».proof.Proof.GraphOf
import proofs.«151568_j90031104458821_2_alg».proof.Proof.IdxOps
import Idealize.ShloMosaic.Lib.ValueIdx
import Idealize.ShloMosaic.Lib.Pipeline.Value

noncomputable section

namespace Cert.GraphRead

open Idealize.ShloMosaic Idealize.ShloMosaic.ValueIdx Cert.Math Cert.IdxOps Cert.GraphOf

/-! ## Small layout readings -/

section Layout
variable {α : Type}

/-- A scalar broadcast to any shape reads the scalar's one element everywhere. -/
theorem bcast_scalar_apply {t : Shape} (hb : (⟨0, ![]⟩ : Shape).BroadcastsInDim t (![] : Fin 0 → Fin t.rank))
    (y : (⟨0, ![]⟩ : Shape).Idx → α) (i : t.Idx) : broadcastInDim t ![] hb y i = y ix0 :=
  broadcastInDim_apply _ hb y i ix0 (fun a => a.elim0)

/-- A vector `[m]` broadcast to a column `[m, 1]` reads, at `(e, u)`, the vector at `e`. -/
theorem bcast_col_apply {m : Nat} (hb : (⟨1, ![m]⟩ : Shape).BroadcastsInDim ⟨2, ![m, 1]⟩ (![0] : Fin 1 → Fin 2))
    (y : (⟨1, ![m]⟩ : Shape).Idx → α) (e : Fin m) (u : Fin 1) :
    broadcastInDim ⟨2, ![m, 1]⟩ ![0] hb y (ix2 e u) = y (ix1 e) :=
  broadcastInDim_apply _ hb y (ix2 e u) (ix1 e) (fun a => match a with
    | ⟨0, _⟩ => by
      show e.val = if m = 1 then 0 else e.val
      split
      · have := e.isLt; omega
      · rfl)

/-- A column `[n, 1]` broadcast along the features to `[n, k]` reads, at `(p, c)`, the column at `(p, 0)`. -/
theorem bcast_feat_apply {n k : Nat} (hb : (⟨2, ![n, 1]⟩ : Shape).BroadcastsInDim ⟨2, ![n, k]⟩ (![0, 1] : Fin 2 → Fin 2))
    (y : (⟨2, ![n, 1]⟩ : Shape).Idx → α) (p : Fin n) (c : Fin k) :
    broadcastInDim ⟨2, ![n, k]⟩ ![0, 1] hb y (ix2 p c) = y (ix2 p (0 : Fin 1)) :=
  broadcastInDim_apply _ hb y (ix2 p c) (ix2 p (0 : Fin 1)) (fun a => match a with
    | ⟨0, _⟩ => by
      show p.val = if n = 1 then 0 else p.val
      split
      · have := p.isLt; omega
      · rfl
    | ⟨1, _⟩ => rfl)

/-- (B) A per-node vector broadcast first to a column and then across the features reads, at `(p, c)`, the vector at `p`. -/
theorem bcast_node_apply {n k : Nat} (h1 : (⟨1, ![n]⟩ : Shape).BroadcastsInDim ⟨2, ![n, 1]⟩ (![0] : Fin 1 → Fin 2))
    (h2 : (⟨2, ![n, 1]⟩ : Shape).BroadcastsInDim ⟨2, ![n, k]⟩ (![0, 1] : Fin 2 → Fin 2))
    (v : (⟨1, ![n]⟩ : Shape).Idx → α) (p : Fin n) (c : Fin k) :
    broadcastInDim ⟨2, ![n, k]⟩ ![0, 1] h2 (broadcastInDim ⟨2, ![n, 1]⟩ ![0] h1 v) (ix2 p c) = v (ix1 p) :=
  (bcast_feat_apply h2 _ p c).trans (bcast_col_apply h1 v p 0)

end Layout

/-- (B) A table scaled by a per-node vector broadcast across the features: at `(p, c)` the entry times the node's value. -/
theorem mulf_bcast_node_apply {n k : Nat} (h1 : (⟨1, ![n]⟩ : Shape).BroadcastsInDim ⟨2, ![n, 1]⟩ (![0] : Fin 1 → Fin 2))
    (h2 : (⟨2, ![n, 1]⟩ : Shape).BroadcastsInDim ⟨2, ![n, k]⟩ (![0, 1] : Fin 2 → Fin 2))
    (x : FVec Ideal ⟨2, ![n, k]⟩ .f32) (v : FVec Ideal ⟨1, ![n]⟩ .f32) (p : Fin n) (c : Fin k) :
    mulf x (broadcastInDim ⟨2, ![n, k]⟩ ![0, 1] h2 (broadcastInDim ⟨2, ![n, 1]⟩ ![0] h1 v)) (ix2 p c) = x (ix2 p c) * v (ix1 p) := by
  rw [mulf_apply, bcast_node_apply h1 h2 v p c]

/-! ## (C) The index column -/

/-- The slice of the edge array at offsets (r, a, 0), reshaped to a vector, reads edge e's word of relation r, end a. -/
theorem col_vec_apply (edges : IVec ⟨3, ![9, 2, 400000]⟩ 32) (off : Fin 3 → Nat) (r : Fin 9) (a : Fin 2)
    (h0 : off 0 = r.val) (h1 : off 1 = a.val) (h2 : off 2 = 0)
    (hs : (⟨3, ![9, 2, 400000]⟩ : Shape).Slices off ⟨3, ![1, 1, 400000]⟩)
    (hc : (⟨3, ![1, 1, 400000]⟩ : Shape).ShapeCasts ⟨1, ![400000]⟩) (e : Fin 400000) :
    shapeCast ⟨1, ![400000]⟩ (extractStridedSlice ⟨3, ![1, 1, 400000]⟩ off edges hs) hc (ix1 e) = edges (ix3 r a e) := by
  refine (shapeCast_apply _ hc (ix1 e) (ix3 (0 : Fin 1) (0 : Fin 1) e) ?_).trans ?_
  · rw [Shape.rowMajor_val_three, Shape.rowMajor_val_one]
    show (0 * 1 + 0) * 400000 + e.val = e.val
    omega
  · exact extractStridedSlice_apply off edges hs _ (ix3 r a e) (fun ax => match ax with
      | ⟨0, _⟩ => by show r.val = off 0 + 0; omega
      | ⟨1, _⟩ => by show a.val = off 1 + 0; omega
      | ⟨2, _⟩ => by show e.val = off 2 + e.val; omega)

/-- The same broadcast to an [E, 1] column is the graph's index column, at an element … -/
theorem col_apply (edges : IVec ⟨3, ![9, 2, 400000]⟩ 32) (off : Fin 3 → Nat) (r : Fin 9) (a : Fin 2)
    (h0 : off 0 = r.val) (h1 : off 1 = a.val) (h2 : off 2 = 0)
    (hs : (⟨3, ![9, 2, 400000]⟩ : Shape).Slices off ⟨3, ![1, 1, 400000]⟩)
    (hc : (⟨3, ![1, 1, 400000]⟩ : Shape).ShapeCasts ⟨1, ![400000]⟩)
    (hb : (⟨1, ![400000]⟩ : Shape).BroadcastsInDim ⟨2, ![400000, 1]⟩ (![0] : Fin 1 → Fin 2)) (e : Fin 400000) (u : Fin 1) :
    broadcastInDim ⟨2, ![400000, 1]⟩ ![0] hb (shapeCast ⟨1, ![400000]⟩ (extractStridedSlice ⟨3, ![1, 1, 400000]⟩ off edges hs) hc) (ix2 e u)
      = colIdx edges r a (ix2 e u) :=
  (bcast_col_apply hb _ e u).trans (col_vec_apply edges off r a h0 h1 h2 hs hc e)

/-- … and as a whole array. -/
theorem col_eq (edges : IVec ⟨3, ![9, 2, 400000]⟩ 32) (off : Fin 3 → Nat) (r : Fin 9) (a : Fin 2)
    (h0 : off 0 = r.val) (h1 : off 1 = a.val) (h2 : off 2 = 0)
    (hs : (⟨3, ![9, 2, 400000]⟩ : Shape).Slices off ⟨3, ![1, 1, 400000]⟩)
    (hc : (⟨3, ![1, 1, 400000]⟩ : Shape).ShapeCasts ⟨1, ![400000]⟩)
    (hb : (⟨1, ![400000]⟩ : Shape).BroadcastsInDim ⟨2, ![400000, 1]⟩ (![0] : Fin 1 → Fin 2)) :
    broadcastInDim ⟨2, ![400000, 1]⟩ ![0] hb (shapeCast ⟨1, ![400000]⟩ (extractStridedSlice ⟨3, ![1, 1, 400000]⟩ off edges hs) hc)
      = colIdx edges r a := by
  funext i
  rw [eq_ix2 i]
  exact col_apply edges off r a h0 h1 h2 hs hc hb _ _

/-! ## (S) The gather's start indices -/

/-- The wrapped source words broadcast to a column are the graph's start indices, at an element … -/
theorem src_apply (edges : IVec ⟨3, ![9, 2, 400000]⟩ 32) (r : Fin 9) (src zeros n50000 : IVec ⟨1, ![400000]⟩ 32)
    (hsrc : ∀ e, src (ix1 e) = edges (ix3 r 0 e)) (hz : ∀ i, zeros i = 0#32) (hn : ∀ i, n50000 i = 50000#32)
    (hb : (⟨1, ![400000]⟩ : Shape).BroadcastsInDim ⟨2, ![400000, 1]⟩ (![0] : Fin 1 → Fin 2)) (e : Fin 400000) (u : Fin 1) :
    broadcastInDim ⟨2, ![400000, 1]⟩ ![0] hb (select (cmpi .slt src zeros) (addi src n50000) src) (ix2 e u)
      = srcIdx edges r (ix2 e u) := by
  refine (bcast_col_apply hb _ e u).trans ?_
  show Scalar.select (IntOp.cmpi .slt (src (ix1 e)) (zeros (ix1 e))) (IntOp.addi (src (ix1 e)) (n50000 (ix1 e))) (src (ix1 e)) = _
  rw [hsrc, hz, hn]
  rfl

/-- … and as a whole array. -/
theorem src_eq (edges : IVec ⟨3, ![9, 2, 400000]⟩ 32) (r : Fin 9) (src zeros n50000 : IVec ⟨1, ![400000]⟩ 32)
    (hsrc : ∀ e, src (ix1 e) = edges (ix3 r 0 e)) (hz : ∀ i, zeros i = 0#32) (hn : ∀ i, n50000 i = 50000#32)
    (hb : (⟨1, ![400000]⟩ : Shape).BroadcastsInDim ⟨2, ![400000, 1]⟩ (![0] : Fin 1 → Fin 2)) :
    broadcastInDim ⟨2, ![400000, 1]⟩ ![0] hb (select (cmpi .slt src zeros) (addi src n50000) src) = srcIdx edges r := by
  funext i
  rw [eq_ix2 i]
  exact src_apply edges r src zeros n50000 hsrc hz hn hb _ _

/-! ## (N) The norm chain -/

/-- The printed `where(deg > 0, where(deg > 0, deg, 1) ** (-1/2), 0)` over arrays, at one index, is the norm of the degree there. -/
theorem norm_apply {sh : Shape} (deg ones mh z1 z2 z3 : FVec Ideal sh .f32) (i : sh.Idx)
    (hone : ones i = ONE) (hmh : mh i = MHALF) (hz1 : z1 i = Z) (hz2 : z2 i = Z) (hz3 : z3 i = Z) :
    select (cmpf (F := Ideal) .ogt deg z1) (Host.powf (select (cmpf (F := Ideal) .ogt deg z2) deg ones) mh) z3 i = normAt (deg i) := by
  show Scalar.select (FloatOps.cmpf (F := Ideal) (φ := .f32) .ogt (deg i) (z1 i))
      (FloatOps.hostPowf (F := Ideal) (φ := .f32) (Scalar.select (FloatOps.cmpf (F := Ideal) (φ := .f32) .ogt (deg i) (z2 i)) (deg i) (ones i)) (mh i)) (z3 i) = _
  rw [hone, hmh, hz1, hz2, hz3]
  rfl

/-! ## (D) The degree -/

/-- The printed count: ones scattered, accumulating, along the index column of relation r, end a, into zeros; at node n. -/
theorem deg_apply (dv : ScatterDims ⟨1, ![50000]⟩ ⟨2, ![400000, 1]⟩ ⟨1, ![400000]⟩)
    (huw : dv.updateWindowDims = []) (hiw : dv.insertedWindowDims = [0]) (hsd : dv.scatterDimsToOperandDims = [0]) (hiv : dv.indexVectorDim = 1)
    (edges : IVec ⟨3, ![9, 2, 400000]⟩ 32) (off : Fin 3 → Nat) (r : Fin 9) (a : Fin 2)
    (h0 : off 0 = r.val) (h1 : off 1 = a.val) (h2 : off 2 = 0)
    (hs : (⟨3, ![9, 2, 400000]⟩ : Shape).Slices off ⟨3, ![1, 1, 400000]⟩)
    (hc : (⟨3, ![1, 1, 400000]⟩ : Shape).ShapeCasts ⟨1, ![400000]⟩)
    (hb : (⟨1, ![400000]⟩ : Shape).BroadcastsInDim ⟨2, ![400000, 1]⟩ (![0] : Fin 1 → Fin 2))
    (x : FVec Ideal ⟨1, ![50000]⟩ .f32) (upd : FVec Ideal ⟨1, ![400000]⟩ .f32) (hx : ∀ i, x i = Z) (hu : ∀ i, upd i = ONE) (n : Fin 50000) :
    Host.scatterAdd (F := Ideal) (φ := .f32) dv x
        (broadcastInDim ⟨2, ![400000, 1]⟩ ![0] hb (shapeCast ⟨1, ![400000]⟩ (extractStridedSlice ⟨3, ![1, 1, 400000]⟩ off edges hs) hc))
        upd (ix1 n)
      = degAt (colIdx edges r a) n := by
  rw [col_eq edges off r a h0 h1 h2 hs hc hb]
  exact scatterAdd_deg dv huw hiw hsd hiv x _ upd hx hu n

end Cert.GraphRead

end
-- ==== Proof.KI.ReadAN0.lean ====
/-
  What the first pallas_call finds on the norm side. Before the call the host computes, for each of the nine relations,
  the two degree norms of every node: the degree is an accumulating scatter of ones along the relation's source (or
  destination) column of the edge array into zeros, and the norm is where(deg > 0, where(deg > 0, deg, 1) ** (-1/2), 0).
  The nine source-side norms are laid end to end as a [9, 50000] array, and so are the nine destination-side norms; the
  latter gets a trailing unit axis, and the first layer's [9, 128] bias array a unit axis in the middle. Read at an
  element: the norms of the graph of the edge array, and the bias array's entries.
-/
import proofs.«151568_j90031104458821_2_alg».proof.Proof.KI.TabA1
import proofs.«151568_j90031104458821_2_alg».proof.Proof.GraphRead

set_option maxRecDepth 65536

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe
open Cert.GraphOf Cert.GraphRead

/-! ## Layout readings -/

section Layout
variable {α : Type}

/-- A vector [m] broadcast to a row [1, m] reads, at (u, n), the vector at n. -/
theorem bcast_row_apply {m : Nat} (hb : (⟨1, ![m]⟩ : Shape).BroadcastsInDim ⟨2, ![1, m]⟩ (![1] : Fin 1 → Fin 2))
    (y : (⟨1, ![m]⟩ : Shape).Idx → α) (u : Fin 1) (n : Fin m) :
    broadcastInDim ⟨2, ![1, m]⟩ ![1] hb y (ix2 u n) = y (ix1 n) :=
  broadcastInDim_apply _ hb y (ix2 u n) (ix1 n) (fun a => match a with
    | ⟨0, _⟩ => by
      show n.val = if m = 1 then 0 else n.val
      split
      · have := n.isLt; omega
      · rfl)

/-- An array [p, q] given a trailing unit axis reads, at (i, j, u), the array at (i, j). -/
theorem bcast_01_apply {p q : Nat} (hb : (⟨2, ![p, q]⟩ : Shape).BroadcastsInDim ⟨3, ![p, q, 1]⟩ (![0, 1] : Fin 2 → Fin 3))
    (y : (⟨2, ![p, q]⟩ : Shape).Idx → α) (i : Fin p) (j : Fin q) (u : Fin 1) :
    broadcastInDim ⟨3, ![p, q, 1]⟩ ![0, 1] hb y (ix3 i j u) = y (ix2 i j) :=
  broadcastInDim_apply _ hb y (ix3 i j u) (ix2 i j) (fun a => match a with
    | ⟨0, _⟩ => by
      show i.val = if p = 1 then 0 else i.val
      split
      · have := i.isLt; omega
      · rfl
    | ⟨1, _⟩ => by
      show j.val = if q = 1 then 0 else j.val
      split
      · have := j.isLt; omega
      · rfl)

/-- An array [p, q] given a unit axis in the middle reads, at (i, u, j), the array at (i, j). -/
theorem bcast_02_apply {p q : Nat} (hb : (⟨2, ![p, q]⟩ : Shape).BroadcastsInDim ⟨3, ![p, 1, q]⟩ (![0, 2] : Fin 2 → Fin 3))
    (y : (⟨2, ![p, q]⟩ : Shape).Idx → α) (i : Fin p) (u : Fin 1) (j : Fin q) :
    broadcastInDim ⟨3, ![p, 1, q]⟩ ![0, 2] hb y (ix3 i u j) = y (ix2 i j) :=
  broadcastInDim_apply _ hb y (ix3 i u j) (ix2 i j) (fun a => match a with
    | ⟨0, _⟩ => by
      show i.val = if p = 1 then 0 else i.val
      split
      · have := i.isLt; omega
      · rfl
    | ⟨1, _⟩ => by
      show j.val = if q = 1 then 0 else j.val
      split
      · have := j.isLt; omega
      · rfl)

end Layout

/-! ## One degree norm from the equations of the operations that compute it -/

/-- The norm of one end of one relation. The operations, in the program's order: the scalar one and its broadcast
    over the edges; the slice of the edge array, its reshape to a vector and its broadcast to a column; a scalar zero
    and its broadcast over the nodes; the accumulating scatter (the degree); then zero, compare, one, select, minus a
    half, power, zero, compare, zero, select. Each is given by its equation; the result at node n is the graph's norm. -/
theorem norm_of_eqs
    (dv : ScatterDims ⟨1, ![50000]⟩ ⟨2, ![400000, 1]⟩ ⟨1, ![400000]⟩)
    (huw : dv.updateWindowDims = []) (hiw : dv.insertedWindowDims = [0]) (hsd : dv.scatterDimsToOperandDims = [0]) (hiv : dv.indexVectorDim = 1)
    (edges : IVec ⟨3, ![9, 2, 400000]⟩ 32) (off : Fin 3 → Nat) (r : Fin 9) (a : Fin 2)
    (h0 : off 0 = r.val) (h1 : off 1 = a.val) (h2 : off 2 = 0)
    (hs : (⟨3, ![9, 2, 400000]⟩ : Shape).Slices off ⟨3, ![1, 1, 400000]⟩)
    (hc : (⟨3, ![1, 1, 400000]⟩ : Shape).ShapeCasts ⟨1, ![400000]⟩)
    (hb : (⟨1, ![400000]⟩ : Shape).BroadcastsInDim ⟨2, ![400000, 1]⟩ (![0] : Fin 1 → Fin 2))
    (hbE : (⟨0, ![]⟩ : Shape).BroadcastsInDim ⟨1, ![400000]⟩ (![] : Fin 0 → Fin 1))
    (hbN : (⟨0, ![]⟩ : Shape).BroadcastsInDim ⟨1, ![50000]⟩ (![] : Fin 0 → Fin 1))
    {one1 : FVec Ideal ⟨0, ![]⟩ .f32} {ones : FVec Ideal ⟨1, ![400000]⟩ .f32}
    {sl : IVec ⟨3, ![1, 1, 400000]⟩ 32} {wv : IVec ⟨1, ![400000]⟩ 32} {col : IVec ⟨2, ![400000, 1]⟩ 32}
    {z0 : FVec Ideal ⟨0, ![]⟩ .f32} {z0N : FVec Ideal ⟨1, ![50000]⟩ .f32} {deg : FVec Ideal ⟨1, ![50000]⟩ .f32}
    {zA : FVec Ideal ⟨0, ![]⟩ .f32} {zAN : FVec Ideal ⟨1, ![50000]⟩ .f32} {gtA : IVec ⟨1, ![50000]⟩ 1}
    {oB oB' : FVec Ideal ⟨0, ![]⟩ .f32} {oBN safe : FVec Ideal ⟨1, ![50000]⟩ .f32}
    {mh : FVec Ideal ⟨0, ![]⟩ .f32} {mhN pw : FVec Ideal ⟨1, ![50000]⟩ .f32}
    {zC : FVec Ideal ⟨0, ![]⟩ .f32} {zCN : FVec Ideal ⟨1, ![50000]⟩ .f32} {gtC : IVec ⟨1, ![50000]⟩ 1}
    {zD zD' : FVec Ideal ⟨0, ![]⟩ .f32} {zDN res : FVec Ideal ⟨1, ![50000]⟩ .f32}
    (e_one1 : one1 = constant (F := Ideal) ⟨0, ![]⟩ .f32 0x3F800000#32)
    (e_ones : ones = broadcastInDim ⟨1, ![400000]⟩ ![] hbE one1)
    (e_sl : sl = extractStridedSlice ⟨3, ![1, 1, 400000]⟩ off edges hs)
    (e_wv : wv = shapeCast ⟨1, ![400000]⟩ sl hc)
    (e_z0 : z0 = constant (F := Ideal) ⟨0, ![]⟩ .f32 0x00000000#32)
    (e_z0N : z0N = broadcastInDim ⟨1, ![50000]⟩ ![] hbN z0)
    (e_col : col = broadcastInDim ⟨2, ![400000, 1]⟩ ![0] hb wv)
    (e_deg : deg = Host.scatterAdd (F := Ideal) (φ := .f32) dv z0N col ones)
    (e_zA : zA = constant (F := Ideal) ⟨0, ![]⟩ .f32 0x00000000#32)
    (e_zAN : zAN = broadcastInDim ⟨1, ![50000]⟩ ![] hbN zA)
    (e_gtA : gtA = cmpf (F := Ideal) .ogt deg zAN)
    (e_oB : oB = constant (F := Ideal) ⟨0, ![]⟩ .f32 0x3F800000#32)
    (e_oB' : oB' = oB)
    (e_oBN : oBN = broadcastInDim ⟨1, ![50000]⟩ ![] hbN oB')
    (e_safe : safe = select gtA deg oBN)
    (e_mh : mh = constant (F := Ideal) ⟨0, ![]⟩ .f32 0xBF000000#32)
    (e_mhN : mhN = broadcastInDim ⟨1, ![50000]⟩ ![] hbN mh)
    (e_pw : pw = Host.powf safe mhN)
    (e_zC : zC = constant (F := Ideal) ⟨0, ![]⟩ .f32 0x00000000#32)
    (e_zCN : zCN = broadcastInDim ⟨1, ![50000]⟩ ![] hbN zC)
    (e_gtC : gtC = cmpf (F := Ideal) .ogt deg zCN)
    (e_zD : zD = constant (F := Ideal) ⟨0, ![]⟩ .f32 0x00000000#32)
    (e_zD' : zD' = zD)
    (e_zDN : zDN = broadcastInDim ⟨1, ![50000]⟩ ![] hbN zD')
    (e_res : res = select gtC pw zDN)
    (n : Fin 50000) :
    res (ix1 n) = normAt (degAt (colIdx edges r a) n) := by
  have hdeg : deg (ix1 n) = degAt (colIdx edges r a) n := by
    rw [e_deg, e_col, e_wv, e_sl]
    exact deg_apply dv huw hiw hsd hiv edges off r a h0 h1 h2 hs hc hb z0N ones
      (fun i => by rw [e_z0N, e_z0, bcast_scalar_apply]; rfl)
      (fun i => by rw [e_ones, e_one1, bcast_scalar_apply]; rfl) n
  rw [e_res, e_gtC, e_pw, e_safe, e_gtA, ← hdeg]
  exact norm_apply deg oBN mhN zCN zAN zDN (ix1 n)
    (by rw [e_oBN, e_oB', e_oB, bcast_scalar_apply]; rfl)
    (by rw [e_mhN, e_mh, bcast_scalar_apply]; rfl)
    (by rw [e_zCN, e_zC, bcast_scalar_apply]; rfl)
    (by rw [e_zAN, e_zA, bcast_scalar_apply]; rfl)
    (by rw [e_zDN, e_zD', e_zD, bcast_scalar_apply]; rfl)

/-- The graph's source-side norm is the norm of the degree along the relation's source column, -/
theorem graph_ns (edges : IVec ⟨3, ![9, 2, 400000]⟩ 32) (r : Fin 9) (n : Fin 50000) :
    (graphOf edges).ns r n = normAt (degAt (colIdx edges r 0) n) := by
  simp only [graphOf]
/-- and its destination-side norm that of the degree along the destination column. -/
theorem graph_nd (edges : IVec ⟨3, ![9, 2, 400000]⟩ 32) (r : Fin 9) (n : Fin 50000) :
    (graphOf edges).nd r n = normAt (degAt (colIdx edges r 1) n) := by
  simp only [graphOf]

/-! ## The edge array, and the relations one by one -/

section Relations

variable (m : (ℓ : Loc nD τ sig) → Buf (Elt Ideal) ℓ) (ρ : Dev nD → PrngReg) (c : Dev nD)

/-- The edge array as the host operations find it and leave it. -/
abbrev edgesA : IVec ⟨3, ![9, 2, 400000]⟩ 32 := XA m ρ c (Proc.devRef .tc main_arg9)

/-- No host operation writes the edge array: it is the launch memory's. -/
theorem edgesA_eq : edgesA m ρ c = m ((c : Thread nD τ).loc main_arg9) :=
  (XA_keep m ρ c (by decide +kernel)).trans rfl

/-! ## Relation 0 -/

/-- The source-side norm of relation 0 at node n. -/
theorem ns0_apply (n : Fin 50000) :
    (XA m ρ c (Proc.devRef .tc main_v18) : S50000.Idx → EReal) (ix1 n) = (graphOf (edgesA m ρ c)).ns (0 : Fin 9) n :=
  (norm_of_eqs scatter_S50000_S400000x1_S400000_n_0_0_1 rfl rfl rfl rfl (edgesA m ρ c) ![0, 0, 0] (0 : Fin 9) (0 : Fin 2) rfl rfl rfl
    slices_S9x2x400000_S1x1x400000_0_0_0 shapeCasts_S1x1x400000_S400000 bcast_S400000_S400000x1_0 bcast_S_S400000 bcast_S_S50000
    (ssa_main_cst m ρ c) (ssa_main_v0 m ρ c) (ssa_main_v1 m ρ c) (ssa_main_v2 m ρ c) (ssa_main_cst_0 m ρ c) (ssa_main_v5 m ρ c)
    (ssa_main_v6 m ρ c) (ssa_main_v7 m ρ c) (ssa_main_cst_2 m ρ c) (ssa_main_v11 m ρ c) (ssa_main_v12 m ρ c) (ssa_main_cst_3 m ρ c)
    (ssa_main_call0_v0 m ρ c) (ssa_main_call0_v1 m ρ c) (ssa_main_v13 m ρ c) (ssa_main_cst_4 m ρ c) (ssa_main_v14 m ρ c)
    (ssa_main_v15 m ρ c) (ssa_main_cst_5 m ρ c) (ssa_main_v16 m ρ c) (ssa_main_v17 m ρ c) (ssa_main_cst_6 m ρ c)
    (ssa_main_call1_v0 m ρ c) (ssa_main_call1_v1 m ρ c) (ssa_main_v18 m ρ c) n).trans (graph_ns (edgesA m ρ c) (0 : Fin 9) n).symm

/-- The destination-side norm of relation 0 at node n. -/
theorem nd0_apply (n : Fin 50000) :
    (XA m ρ c (Proc.devRef .tc main_v26) : S50000.Idx → EReal) (ix1 n) = (graphOf (edgesA m ρ c)).nd (0 : Fin 9) n :=
  (norm_of_eqs scatter_S50000_S400000x1_S400000_n_0_0_1 rfl rfl rfl rfl (edgesA m ρ c) ![0, 1, 0] (0 : Fin 9) (1 : Fin 2) rfl rfl rfl
    slices_S9x2x400000_S1x1x400000_0_1_0 shapeCasts_S1x1x400000_S400000 bcast_S400000_S400000x1_0 bcast_S_S400000 bcast_S_S50000
    (ssa_main_cst m ρ c) (ssa_main_v0 m ρ c) (ssa_main_v3 m ρ c) (ssa_main_v4 m ρ c) (ssa_main_cst_1 m ρ c) (ssa_main_v8 m ρ c)
    (ssa_main_v9 m ρ c) (ssa_main_v10 m ρ c) (ssa_main_cst_7 m ρ c) (ssa_main_v19 m ρ c) (ssa_main_v20 m ρ c) (ssa_main_cst_8 m ρ c)
    (ssa_main_call2_v0 m ρ c) (ssa_main_call2_v1 m ρ c) (ssa_main_v21 m ρ c) (ssa_main_cst_9 m ρ c) (ssa_main_v22 m ρ c)
    (ssa_main_v23 m ρ c) (ssa_main_cst_10 m ρ c) (ssa_main_v24 m ρ c) (ssa_main_v25 m ρ c) (ssa_main_cst_11 m ρ c)
    (ssa_main_call3_v0 m ρ c) (ssa_main_call3_v1 m ρ c) (ssa_main_v26 m ρ c) n).trans (graph_nd (edgesA m ρ c) (0 : Fin 9) n).symm

end Relations

end Cert.KernelIdeal.Rd

end
-- ==== Proof.KI.TabA2.lean ====
/-
  The single-assignment equations of @main's host operations before the first pallas_call, part 2 of 6: operations 108 to 215 of the one line.
-/
import proofs.«151568_j90031104458821_2_alg».proof.Proof.KI.TabA

set_option maxRecDepth 65536

noncomputable section

namespace Cert.KernelIdeal.Rd

open Cert.KernelIdeal Cert.KernelIdeal.Gen Cert.KernelIdeal.Fr Idealize.ShloMosaic Idealize.ShloMosaic.StableHlo Idealize.SL.Sem Cert

variable {F : FTy → Type} [FloatOps F]
variable (m : (ℓ : Loc nD τ sig) → Buf (Elt F) ℓ) (ρ : Dev nD → PrngReg)

theorem ssa_main_v64 (c : Dev nD) : XA m ρ c (Proc.devRef .tc main_v64) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v59)) (XA m ρ c (Proc.devRef .tc main_v63)) := by
  exact Ssa.ssa_binary alA 108 _ rfl (by decide +kernel) (by decide +kernel) (by decide +kernel)
theorem ssa_main_cst_27 (c : Dev nD) : XA m ρ c (Proc.devRef .tc main_cst_27) = (constant (F := F) S_ .f32 0x3F800000#32) := by
  exact Ssa.ssa_nullary alA 109 _ rfl (by decide +kernel)
theorem ssa_main_call8_v0 (c : Dev nD) : XA m ρ c (Proc.devRef .tc main_call8_v0) = (XA m ρ c (Proc.devRef .tc main_cst_27)) := by
  refine (Ssa.ssa_unary alA 110 _ rfl (by decide +kernel) (by decide +kernel)).trans ?_; simp only [StableHlo.TRef.ofBuf, StableHlo.TRef.toBuf, cast_eq, id]
theorem ssa_main_call8_v1 (c : Dev nD) : XA m ρ c (Proc.devRef .tc main_call8_v1) = (broadcastInDim S50000 ![] bcast_S_S50000) (XA m ρ c (Proc.devRef .tc main_call8_v0)) := by
  refine (Ssa.ssa_unary alA 111 _ rfl (by decide +kernel) (by decide +kernel)).trans ?_; simp only [StableHlo.TRef.ofBuf, StableHlo.TRef.toBuf, cast_eq, id]
theorem ssa_main_v65 (c : Dev nD) : XA m ρ c (Proc.devRef .tc main_v65) = select (XA m ρ c (Proc.devRef .tc main_v64)) (XA m ρ c (Proc.devRef .tc main_v59)) (XA m ρ c (Proc.devRef .tc main_call8_v1)) := by
  refine (Ssa.ssa_ternary alA 112 _ rfl (by decide +kernel) (by decide +kernel) (by decide +kernel) (by decide +kernel)).trans ?_; simp only [StableHlo.TRef.ofBuf, StableHlo.TRef.toBuf, cast_eq]
theorem ssa_main_cst_28 (c : Dev nD) : XA m ρ c (Proc.devRef .tc main_cst_28) = (constant (F := F) S_ .f32 0xBF000000#32) := by
  exact Ssa.ssa_nullary alA 113 _ rfl (by decide +kernel)
theorem ssa_main_v66 (c : Dev nD) : XA m ρ c (Proc.devRef .tc main_v66) = (broadcastInDim S50000 ![] bcast_S_S50000 : (⟨S_, .f32⟩ : BufTy).Contents (Elt F) → (⟨S50000, .f32⟩ : BufTy).Contents (Elt F)) (XA m ρ c (Proc.devRef .tc main_cst_28)) := by
  exact Ssa.ssa_unary alA 114 _ rfl (by decide +kernel) (by decide +kernel)
theorem ssa_main_v67 (c : Dev nD) : XA m ρ c (Proc.devRef .tc main_v67) = (Host.powf : (⟨S50000, .f32⟩ : BufTy).Contents (Elt F) → (⟨S50000, .f32⟩ : BufTy).Contents (Elt F) → (⟨S50000, .f32⟩ : BufTy).Contents (Elt F)) (XA m ρ c (Proc.devRef .tc main_v65)) (XA m ρ c (Proc.devRef .tc main_v66)) := by
  exact Ssa.ssa_binary alA 115 _ rfl (by decide +kernel) (by decide +kernel) (by decide +kernel)
theorem ssa_main_cst_29 (c : Dev nD) : XA m ρ c (Proc.devRef .tc main_cst_29) = (constant (F := F) S_ .f32 0x00000000#32) := by
  exact Ssa.ssa_nullary alA 116 _ rfl (by decide +kernel)
theorem ssa_main_v68 (c : Dev nD) : XA m ρ c (Proc.devRef .tc main_v68) = (broadcastInDim S50000 ![] bcast_S_S50000 : (⟨S_, .f32⟩ : BufTy).Contents (Elt F) → (⟨S50000, .f32⟩ : BufTy).Contents (Elt F)) (XA m ρ c (Proc.devRef .tc main_cst_29)) := by
  exact Ssa.ssa_unary alA 117 _ rfl (by decide +kernel) (by decide +kernel)
theorem ssa_main_v69 (c : Dev nD) : XA m ρ c (Proc.devRef .tc main_v69) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v59)) (XA m ρ c (Proc.devRef .tc main_v68)) := by
  exact Ssa.ssa_binary alA 118 _ rfl (by decide +kernel) (by decide +kernel) (by decide +kernel)
theorem ssa_main_cst_30 (c : Dev nD) : XA m ρ c (Proc.devRef .tc main_cst_30) = (constant (F := F) S_ .f32 0x00000000#32) := by
  exact Ssa.ssa_nullary alA 119 _ rfl (by decide +kernel)
theorem ssa_main_call9_v0 (c : Dev nD) : XA m ρ c (Proc.devRef .tc main_call9_v0) = (XA m ρ c (Proc.devRef .tc main_cst_30)) := by
  refine (Ssa.ssa_unary alA 120 _ rfl (by decide +kernel) (by decide +kernel)).trans ?_; simp only [StableHlo.TRef.ofBuf, StableHlo.TRef.toBuf, cast_eq, id]
theorem ssa_main_call9_v1 (c : Dev nD) : XA m ρ c (Proc.devRef .tc main_call9_v1) = (broadcastInDim S50000 ![] bcast_S_S50000) (XA m ρ c (Proc.devRef .tc main_call9_v0)) := by
  refine (Ssa.ssa_unary alA 121 _ rfl (by decide +kernel) (by decide +kernel)).trans ?_; simp only [StableHlo.TRef.ofBuf, StableHlo.TRef.toBuf, cast_eq, id]
theorem ssa_main_v70 (c : Dev nD) : XA m ρ c (Proc.devRef .tc main_v70) = select (XA m ρ c (Proc.devRef .tc main_v69)) (XA m ρ c (Proc.devRef .tc main_v67)) (XA m ρ c (Proc.devRef .tc main_call9_v1)) := by
  refine (Ssa.ssa_ternary alA 122 _ rfl (by decide +kernel) (by decide +kernel) (by decide +kernel) (by decide +kernel)).trans ?_; simp only [StableHlo.TRef.ofBuf, StableHlo.TRef.toBuf, cast_eq]
theorem ssa_main_cst_31 (c : Dev nD) : XA m ρ c (Proc.devRef .tc main_cst_31) = (constant (F := F) S_ .f32 0x00000000#32) := by
  exact Ssa.ssa_nullary alA 123 _ rfl (by decide +kernel)
theorem ssa_main_v71 (c : Dev nD) : XA m ρ c (Proc.devRef .tc main_v71) = (broadcastInDim S50000 ![] bcast_S_S50000 : (⟨S_, .f32⟩ : BufTy).Contents (Elt F) → (⟨S50000, .f32⟩ : BufTy).Contents (Elt F)) (XA m ρ c (Proc.devRef .tc main_cst_31)) := by
  exact Ssa.ssa_unary alA 124 _ rfl (by decide +kernel) (by decide +kernel)
theorem ssa_main_v72 (c : Dev nD) : XA m ρ c (Proc.devRef .tc main_v72) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v62)) (XA m ρ c (Proc.devRef .tc main_v71)) := by
  exact Ssa.ssa_binary alA 125 _ rfl (by decide +kernel) (by decide +kernel) (by decide +kernel)
theorem ssa_main_cst_32 (c : Dev nD) : XA m ρ c (Proc.devRef .tc main_cst_32) = (constant (F := F) S_ .f32 0x3F800000#32) := by
  exact Ssa.ssa_nullary alA 126 _ rfl (by decide +kernel)
theorem ssa_main_call10_v0 (c : Dev nD) : XA m ρ c (Proc.devRef .tc main_call10_v0) = (XA m ρ c (Proc.devRef .tc main_cst_32)) := by
  refine (Ssa.ssa_unary alA 127 _ rfl (by decide +kernel) (by decide +kernel)).trans ?_; simp only [StableHlo.TRef.ofBuf, StableHlo.TRef.toBuf, cast_eq, id]
theorem ssa_main_call10_v1 (c : Dev nD) : XA m ρ c (Proc.devRef .tc main_call10_v1) = (broadcastInDim S50000 ![] bcast_S_S50000) (XA m ρ c (Proc.devRef .tc main_call10_v0)) := by
  refine (Ssa.ssa_unary alA 128 _ rfl (by decide +kernel) (by decide +kernel)).trans ?_; simp only [StableHlo.TRef.ofBuf, StableHlo.TRef.toBuf, cast_eq, id]
theorem ssa_main_v73 (c : Dev nD) : XA m ρ c (Proc.devRef .tc main_v73) = select (XA m ρ c (Proc.devRef .tc main_v72)) (XA m ρ c (Proc.devRef .tc main_v62)) (XA m ρ c (Proc.devRef .tc main_call10_v1)) := by
  refine (Ssa.ssa_ternary alA 129 _ rfl (by decide +kernel) (by decide +kernel) (by decide +kernel) (by decide +kernel)).trans ?_; simp only [StableHlo.TRef.ofBuf, StableHlo.TRef.toBuf, cast_eq]
theorem ssa_main_cst_33 (c : Dev nD) : XA m ρ c (Proc.devRef .tc main_cst_33) = (constant (F := F) S_ .f32 0xBF000000#32) := by
  exact Ssa.ssa_nullary alA 130 _ rfl (by decide +kernel)
theorem ssa_main_v74 (c : Dev nD) : XA m ρ c (Proc.devRef .tc main_v74) = (broadcastInDim S50000 ![] bcast_S_S50000 : (⟨S_, .f32⟩ : BufTy).Contents (Elt F) → (⟨S50000, .f32⟩ : BufTy).Contents (Elt F)) (XA m ρ c (Proc.devRef .tc main_cst_33)) := by
  exact Ssa.ssa_unary alA 131 _ rfl (by decide +kernel) (by decide +kernel)
theorem ssa_main_v75 (c : Dev nD) : XA m ρ c (Proc.devRef .tc main_v75) = (Host.powf : (⟨S50000, .f32⟩ : BufTy).Contents (Elt F) → (⟨S50000, .f32⟩ : BufTy).Contents (Elt F) → (⟨S50000, .f32⟩ : BufTy).Contents (Elt F)) (XA m ρ c (Proc.devRef .tc main_v73)) (XA m ρ c (Proc.devRef .tc main_v74)) := by
  exact Ssa.ssa_binary alA 132 _ rfl (by decide +kernel) (by decide +kernel) (by decide +kernel)
theorem ssa_main_cst_34 (c : Dev nD) : XA m ρ c (Proc.devRef .tc main_cst_34) = (constant (F := F) S_ .f32 0x00000000#32) := by
  exact Ssa.ssa_nullary alA 133 _ rfl (by decide +kernel)
theorem ssa_main_v76 (c : Dev nD) : XA m ρ c (Proc.devRef .tc main_v76) = (broadcastInDim S50000 ![] bcast_S_S50000 : (⟨S_, .f32⟩ : BufTy).Contents (Elt F) → (⟨S50000, .f32⟩ : BufTy).Contents (Elt F)) (XA m ρ c (Proc.devRef .tc main_cst_34)) := by
  exact Ssa.ssa_unary alA 134 _ rfl (by decide +kernel) (by decide +kernel)
theorem ssa_main_v77 (c : Dev nD) : XA m ρ c (Proc.devRef .tc main_v77) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v62)) (XA m ρ c (Proc.devRef .tc main_v76)) := by
  exact Ssa.ssa_binary alA 135 _ rfl (by decide +kernel) (by decide +kernel) (by decide +kernel)
theorem ssa_main_cst_35 (c : Dev nD) : XA m ρ c (Proc.devRef .tc main_cst_35) = (constant (F := F) S_ .f32 0x00000000#32) := by
  exact Ssa.ssa_nullary alA 136 _ rfl (by decide +kernel)
theorem ssa_main_call11_v0 (c : Dev nD) : XA m ρ c (Proc.devRef .tc main_call11_v0) = (XA m ρ c (Proc.devRef .tc main_cst_35)) := by
  refine (Ssa.ssa_unary alA 137 _ rfl (by decide +kernel) (by decide +kernel)).trans ?_; simp only [StableHlo.TRef.ofBuf, StableHlo.TRef.toBuf, cast_eq, id]
theorem ssa_main_call11_v1 (c : Dev nD) : XA m ρ c (Proc.devRef .tc main_call11_v1) = (broadcastInDim S50000 ![] bcast_S_S50000) (XA m ρ c (Proc.devRef .tc main_call11_v0)) := by
  refine (Ssa.ssa_unary alA 138 _ rfl (by decide +kernel) (by decide +kernel)).trans ?_; simp only [StableHlo.TRef.ofBuf, StableHlo.TRef.toBuf, cast_eq, id]
theorem ssa_main_v78 (c : Dev nD) : XA m ρ c (Proc.devRef .tc main_v78) = select (XA m ρ c (Proc.devRef .tc main_v77)) (XA m ρ c (Proc.devRef .tc main_v75)) (XA m ρ c (Proc.devRef .tc main_call11_v1)) := by
  refine (Ssa.ssa_ternary alA 139 _ rfl (by decide +kernel) (by decide +kernel) (by decide +kernel) (by decide +kernel)).trans ?_; simp only [StableHlo.TRef.ofBuf, StableHlo.TRef.toBuf, cast_eq]
theorem ssa_main_v79 (c : Dev nD) : XA m ρ c (Proc.devRef .tc main_v79) = ((extractStridedSlice S1x1x400000 ![3, 0, 0] · slices_S9x2x400000_S1x1x400000_3_0_0) : (⟨S9x2x400000, .i32⟩ : BufTy).Contents (Elt F) → (⟨S1x1x400000, .i32⟩ : BufTy).Contents (Elt F)) (XA m ρ c (Proc.devRef .tc main_arg9)) := by
  exact Ssa.ssa_unary alA 140 _ rfl (by decide +kernel) (by decide +kernel)
theorem ssa_main_v80 (c : Dev nD) : XA m ρ c (Proc.devRef .tc main_v80) = shapeCast S400000 (XA m ρ c (Proc.devRef .tc main_v79)) shapeCasts_S1x1x400000_S400000 := by
  exact Ssa.ssa_reshape (x := main_v79) (y := main_v80) (he := rfl) (hn := shapeCasts_S1x1x400000_S400000) alA 141 _ rfl (by decide +kernel) (by decide +kernel)
theorem ssa_main_v81 (c : Dev nD) : XA m ρ c (Proc.devRef .tc main_v81) = ((extractStridedSlice S1x1x400000 ![3, 1, 0] · slices_S9x2x400000_S1x1x400000_3_1_0) : (⟨S9x2x400000, .i32⟩ : BufTy).Contents (Elt F) → (⟨S1x1x400000, .i32⟩ : BufTy).Contents (Elt F)) (XA m ρ c (Proc.devRef .tc main_arg9)) := by
  exact Ssa.ssa_unary alA 142 _ rfl (by decide +kernel) (by decide +kernel)
theorem ssa_main_v82 (c : Dev nD) : XA m ρ c (Proc.devRef .tc main_v82) = shapeCast S400000 (XA m ρ c (Proc.devRef .tc main_v81)) shapeCasts_S1x1x400000_S400000 := by
  exact Ssa.ssa_reshape (x := main_v81) (y := main_v82) (he := rfl) (hn := shapeCasts_S1x1x400000_S400000) alA 143 _ rfl (by decide +kernel) (by decide +kernel)
theorem ssa_main_cst_36 (c : Dev nD) : XA m ρ c (Proc.devRef .tc main_cst_36) = (constant (F := F) S_ .f32 0x00000000#32) := by
  exact Ssa.ssa_nullary alA 144 _ rfl (by decide +kernel)
theorem ssa_main_v83 (c : Dev nD) : XA m ρ c (Proc.devRef .tc main_v83) = (broadcastInDim S50000 ![] bcast_S_S50000 : (⟨S_, .f32⟩ : BufTy).Contents (Elt F) → (⟨S50000, .f32⟩ : BufTy).Contents (Elt F)) (XA m ρ c (Proc.devRef .tc main_cst_36)) := by
  exact Ssa.ssa_unary alA 145 _ rfl (by decide +kernel) (by decide +kernel)
theorem ssa_main_v84 (c : Dev nD) : XA m ρ c (Proc.devRef .tc main_v84) = (broadcastInDim S400000x1 ![0] bcast_S400000_S400000x1_0 : (⟨S400000, .i32⟩ : BufTy).Contents (Elt F) → (⟨S400000x1, .i32⟩ : BufTy).Contents (Elt F)) (XA m ρ c (Proc.devRef .tc main_v80)) := by
  exact Ssa.ssa_unary alA 146 _ rfl (by decide +kernel) (by decide +kernel)
theorem ssa_main_v85 (c : Dev nD) : XA m ρ c (Proc.devRef .tc main_v85) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v83)) (XA m ρ c (Proc.devRef .tc main_v84)) (XA m ρ c (Proc.devRef .tc main_v0)) := by
  exact Ssa.ssa_ternary alA 147 _ rfl (by decide +kernel) (by decide +kernel) (by decide +kernel) (by decide +kernel)
theorem ssa_main_cst_37 (c : Dev nD) : XA m ρ c (Proc.devRef .tc main_cst_37) = (constant (F := F) S_ .f32 0x00000000#32) := by
  exact Ssa.ssa_nullary alA 148 _ rfl (by decide +kernel)
theorem ssa_main_v86 (c : Dev nD) : XA m ρ c (Proc.devRef .tc main_v86) = (broadcastInDim S50000 ![] bcast_S_S50000 : (⟨S_, .f32⟩ : BufTy).Contents (Elt F) → (⟨S50000, .f32⟩ : BufTy).Contents (Elt F)) (XA m ρ c (Proc.devRef .tc main_cst_37)) := by
  exact Ssa.ssa_unary alA 149 _ rfl (by decide +kernel) (by decide +kernel)
theorem ssa_main_v87 (c : Dev nD) : XA m ρ c (Proc.devRef .tc main_v87) = (broadcastInDim S400000x1 ![0] bcast_S400000_S400000x1_0 : (⟨S400000, .i32⟩ : BufTy).Contents (Elt F) → (⟨S400000x1, .i32⟩ : BufTy).Contents (Elt F)) (XA m ρ c (Proc.devRef .tc main_v82)) := by
  exact Ssa.ssa_unary alA 150 _ rfl (by decide +kernel) (by decide +kernel)
theorem ssa_main_v88 (c : Dev nD) : XA m ρ c (Proc.devRef .tc main_v88) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v86)) (XA m ρ c (Proc.devRef .tc main_v87)) (XA m ρ c (Proc.devRef .tc main_v0)) := by
  exact Ssa.ssa_ternary alA 151 _ rfl (by decide +kernel) (by decide +kernel) (by decide +kernel) (by decide +kernel)
theorem ssa_main_cst_38 (c : Dev nD) : XA m ρ c (Proc.devRef .tc main_cst_38) = (constant (F := F) S_ .f32 0x00000000#32) := by
  exact Ssa.ssa_nullary alA 152 _ rfl (by decide +kernel)
theorem ssa_main_v89 (c : Dev nD) : XA m ρ c (Proc.devRef .tc main_v89) = (broadcastInDim S50000 ![] bcast_S_S50000 : (⟨S_, .f32⟩ : BufTy).Contents (Elt F) → (⟨S50000, .f32⟩ : BufTy).Contents (Elt F)) (XA m ρ c (Proc.devRef .tc main_cst_38)) := by
  exact Ssa.ssa_unary alA 153 _ rfl (by decide +kernel) (by decide +kernel)
theorem ssa_main_v90 (c : Dev nD) : XA m ρ c (Proc.devRef .tc main_v90) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v85)) (XA m ρ c (Proc.devRef .tc main_v89)) := by
  exact Ssa.ssa_binary alA 154 _ rfl (by decide +kernel) (by decide +kernel) (by decide +kernel)
theorem ssa_main_cst_39 (c : Dev nD) : XA m ρ c (Proc.devRef .tc main_cst_39) = (constant (F := F) S_ .f32 0x3F800000#32) := by
  exact Ssa.ssa_nullary alA 155 _ rfl (by decide +kernel)
theorem ssa_main_call12_v0 (c : Dev nD) : XA m ρ c (Proc.devRef .tc main_call12_v0) = (XA m ρ c (Proc.devRef .tc main_cst_39)) := by
  refine (Ssa.ssa_unary alA 156 _ rfl (by decide +kernel) (by decide +kernel)).trans ?_; simp only [StableHlo.TRef.ofBuf, StableHlo.TRef.toBuf, cast_eq, id]
theorem ssa_main_call12_v1 (c : Dev nD) : XA m ρ c (Proc.devRef .tc main_call12_v1) = (broadcastInDim S50000 ![] bcast_S_S50000) (XA m ρ c (Proc.devRef .tc main_call12_v0)) := by
  refine (Ssa.ssa_unary alA 157 _ rfl (by decide +kernel) (by decide +kernel)).trans ?_; simp only [StableHlo.TRef.ofBuf, StableHlo.TRef.toBuf, cast_eq, id]
theorem ssa_main_v91 (c : Dev nD) : XA m ρ c (Proc.devRef .tc main_v91) = select (XA m ρ c (Proc.devRef .tc main_v90)) (XA m ρ c (Proc.devRef .tc main_v85)) (XA m ρ c (Proc.devRef .tc main_call12_v1)) := by
  refine (Ssa.ssa_ternary alA 158 _ rfl (by decide +kernel) (by decide +kernel) (by decide +kernel) (by decide +kernel)).trans ?_; simp only [StableHlo.TRef.ofBuf, StableHlo.TRef.toBuf, cast_eq]
theorem ssa_main_cst_40 (c : Dev nD) : XA m ρ c (Proc.devRef .tc main_cst_40) = (constant (F := F) S_ .f32 0xBF000000#32) := by
  exact Ssa.ssa_nullary alA 159 _ rfl (by decide +kernel)
theorem ssa_main_v92 (c : Dev nD) : XA m ρ c (Proc.devRef .tc main_v92) = (broadcastInDim S50000 ![] bcast_S_S50000 : (⟨S_, .f32⟩ : BufTy).Contents (Elt F) → (⟨S50000, .f32⟩ : BufTy).Contents (Elt F)) (XA m ρ c (Proc.devRef .tc main_cst_40)) := by
  exact Ssa.ssa_unary alA 160 _ rfl (by decide +kernel) (by decide +kernel)
theorem ssa_main_v93 (c : Dev nD) : XA m ρ c (Proc.devRef .tc main_v93) = (Host.powf : (⟨S50000, .f32⟩ : BufTy).Contents (Elt F) → (⟨S50000, .f32⟩ : BufTy).Contents (Elt F) → (⟨S50000, .f32⟩ : BufTy).Contents (Elt F)) (XA m ρ c (Proc.devRef .tc main_v91)) (XA m ρ c (Proc.devRef .tc main_v92)) := by
  exact Ssa.ssa_binary alA 161 _ rfl (by decide +kernel) (by decide +kernel) (by decide +kernel)
theorem ssa_main_cst_41 (c : Dev nD) : XA m ρ c (Proc.devRef .tc main_cst_41) = (constant (F := F) S_ .f32 0x00000000#32) := by
  exact Ssa.ssa_nullary alA 162 _ rfl (by decide +kernel)
theorem ssa_main_v94 (c : Dev nD) : XA m ρ c (Proc.devRef .tc main_v94) = (broadcastInDim S50000 ![] bcast_S_S50000 : (⟨S_, .f32⟩ : BufTy).Contents (Elt F) → (⟨S50000, .f32⟩ : BufTy).Contents (Elt F)) (XA m ρ c (Proc.devRef .tc main_cst_41)) := by
  exact Ssa.ssa_unary alA 163 _ rfl (by decide +kernel) (by decide +kernel)
theorem ssa_main_v95 (c : Dev nD) : XA m ρ c (Proc.devRef .tc main_v95) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v85)) (XA m ρ c (Proc.devRef .tc main_v94)) := by
  exact Ssa.ssa_binary alA 164 _ rfl (by decide +kernel) (by decide +kernel) (by decide +kernel)
theorem ssa_main_cst_42 (c : Dev nD) : XA m ρ c (Proc.devRef .tc main_cst_42) = (constant (F := F) S_ .f32 0x00000000#32) := by
  exact Ssa.ssa_nullary alA 165 _ rfl (by decide +kernel)
theorem ssa_main_call13_v0 (c : Dev nD) : XA m ρ c (Proc.devRef .tc main_call13_v0) = (XA m ρ c (Proc.devRef .tc main_cst_42)) := by
  refine (Ssa.ssa_unary alA 166 _ rfl (by decide +kernel) (by decide +kernel)).trans ?_; simp only [StableHlo.TRef.ofBuf, StableHlo.TRef.toBuf, cast_eq, id]
theorem ssa_main_call13_v1 (c : Dev nD) : XA m ρ c (Proc.devRef .tc main_call13_v1) = (broadcastInDim S50000 ![] bcast_S_S50000) (XA m ρ c (Proc.devRef .tc main_call13_v0)) := by
  refine (Ssa.ssa_unary alA 167 _ rfl (by decide +kernel) (by decide +kernel)).trans ?_; simp only [StableHlo.TRef.ofBuf, StableHlo.TRef.toBuf, cast_eq, id]
theorem ssa_main_v96 (c : Dev nD) : XA m ρ c (Proc.devRef .tc main_v96) = select (XA m ρ c (Proc.devRef .tc main_v95)) (XA m ρ c (Proc.devRef .tc main_v93)) (XA m ρ c (Proc.devRef .tc main_call13_v1)) := by
  refine (Ssa.ssa_ternary alA 168 _ rfl (by decide +kernel) (by decide +kernel) (by decide +kernel) (by decide +kernel)).trans ?_; simp only [StableHlo.TRef.ofBuf, StableHlo.TRef.toBuf, cast_eq]
theorem ssa_main_cst_43 (c : Dev nD) : XA m ρ c (Proc.devRef .tc main_cst_43) = (constant (F := F) S_ .f32 0x00000000#32) := by
  exact Ssa.ssa_nullary alA 169 _ rfl (by decide +kernel)
theorem ssa_main_v97 (c : Dev nD) : XA m ρ c (Proc.devRef .tc main_v97) = (broadcastInDim S50000 ![] bcast_S_S50000 : (⟨S_, .f32⟩ : BufTy).Contents (Elt F) → (⟨S50000, .f32⟩ : BufTy).Contents (Elt F)) (XA m ρ c (Proc.devRef .tc main_cst_43)) := by
  exact Ssa.ssa_unary alA 170 _ rfl (by decide +kernel) (by decide +kernel)
theorem ssa_main_v98 (c : Dev nD) : XA m ρ c (Proc.devRef .tc main_v98) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v88)) (XA m ρ c (Proc.devRef .tc main_v97)) := by
  exact Ssa.ssa_binary alA 171 _ rfl (by decide +kernel) (by decide +kernel) (by decide +kernel)
theorem ssa_main_cst_44 (c : Dev nD) : XA m ρ c (Proc.devRef .tc main_cst_44) = (constant (F := F) S_ .f32 0x3F800000#32) := by
  exact Ssa.ssa_nullary alA 172 _ rfl (by decide +kernel)
theorem ssa_main_call14_v0 (c : Dev nD) : XA m ρ c (Proc.devRef .tc main_call14_v0) = (XA m ρ c (Proc.devRef .tc main_cst_44)) := by
  refine (Ssa.ssa_unary alA 173 _ rfl (by decide +kernel) (by decide +kernel)).trans ?_; simp only [StableHlo.TRef.ofBuf, StableHlo.TRef.toBuf, cast_eq, id]
theorem ssa_main_call14_v1 (c : Dev nD) : XA m ρ c (Proc.devRef .tc main_call14_v1) = (broadcastInDim S50000 ![] bcast_S_S50000) (XA m ρ c (Proc.devRef .tc main_call14_v0)) := by
  refine (Ssa.ssa_unary alA 174 _ rfl (by decide +kernel) (by decide +kernel)).trans ?_; simp only [StableHlo.TRef.ofBuf, StableHlo.TRef.toBuf, cast_eq, id]
theorem ssa_main_v99 (c : Dev nD) : XA m ρ c (Proc.devRef .tc main_v99) = select (XA m ρ c (Proc.devRef .tc main_v98)) (XA m ρ c (Proc.devRef .tc main_v88)) (XA m ρ c (Proc.devRef .tc main_call14_v1)) := by
  refine (Ssa.ssa_ternary alA 175 _ rfl (by decide +kernel) (by decide +kernel) (by decide +kernel) (by decide +kernel)).trans ?_; simp only [StableHlo.TRef.ofBuf, StableHlo.TRef.toBuf, cast_eq]
theorem ssa_main_cst_45 (c : Dev nD) : XA m ρ c (Proc.devRef .tc main_cst_45) = (constant (F := F) S_ .f32 0xBF000000#32) := by
  exact Ssa.ssa_nullary alA 176 _ rfl (by decide +kernel)
theorem ssa_main_v100 (c : Dev nD) : XA m ρ c (Proc.devRef .tc main_v100) = (broadcastInDim S50000 ![] bcast_S_S50000 : (⟨S_, .f32⟩ : BufTy).Contents (Elt F) → (⟨S50000, .f32⟩ : BufTy).Contents (Elt F)) (XA m ρ c (Proc.devRef .tc main_cst_45)) := by
  exact Ssa.ssa_unary alA 177 _ rfl (by decide +kernel) (by decide +kernel)
theorem ssa_main_v101 (c : Dev nD) : XA m ρ c (Proc.devRef .tc main_v101) = (Host.powf : (⟨S50000, .f32⟩ : BufTy).Contents (Elt F) → (⟨S50000, .f32⟩ : BufTy).Contents (Elt F) → (⟨S50000, .f32⟩ : BufTy).Contents (Elt F)) (XA m ρ c (Proc.devRef .tc main_v99)) (XA m ρ c (Proc.devRef .tc main_v100)) := by
  exact Ssa.ssa_binary alA 178 _ rfl (by decide +kernel) (by decide +kernel) (by decide +kernel)
theorem ssa_main_cst_46 (c : Dev nD) : XA m ρ c (Proc.devRef .tc main_cst_46) = (constant (F := F) S_ .f32 0x00000000#32) := by
  exact Ssa.ssa_nullary alA 179 _ rfl (by decide +kernel)
theorem ssa_main_v102 (c : Dev nD) : XA m ρ c (Proc.devRef .tc main_v102) = (broadcastInDim S50000 ![] bcast_S_S50000 : (⟨S_, .f32⟩ : BufTy).Contents (Elt F) → (⟨S50000, .f32⟩ : BufTy).Contents (Elt F)) (XA m ρ c (Proc.devRef .tc main_cst_46)) := by
  exact Ssa.ssa_unary alA 180 _ rfl (by decide +kernel) (by decide +kernel)
theorem ssa_main_v103 (c : Dev nD) : XA m ρ c (Proc.devRef .tc main_v103) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v88)) (XA m ρ c (Proc.devRef .tc main_v102)) := by
  exact Ssa.ssa_binary alA 181 _ rfl (by decide +kernel) (by decide +kernel) (by decide +kernel)
theorem ssa_main_cst_47 (c : Dev nD) : XA m ρ c (Proc.devRef .tc main_cst_47) = (constant (F := F) S_ .f32 0x00000000#32) := by
  exact Ssa.ssa_nullary alA 182 _ rfl (by decide +kernel)
theorem ssa_main_call15_v0 (c : Dev nD) : XA m ρ c (Proc.devRef .tc main_call15_v0) = (XA m ρ c (Proc.devRef .tc main_cst_47)) := by
  refine (Ssa.ssa_unary alA 183 _ rfl (by decide +kernel) (by decide +kernel)).trans ?_; simp only [StableHlo.TRef.ofBuf, StableHlo.TRef.toBuf, cast_eq, id]
theorem ssa_main_call15_v1 (c : Dev nD) : XA m ρ c (Proc.devRef .tc main_call15_v1) = (broadcastInDim S50000 ![] bcast_S_S50000) (XA m ρ c (Proc.devRef .tc main_call15_v0)) := by
  refine (Ssa.ssa_unary alA 184 _ rfl (by decide +kernel) (by decide +kernel)).trans ?_; simp only [StableHlo.TRef.ofBuf, StableHlo.TRef.toBuf, cast_eq, id]
theorem ssa_main_v104 (c : Dev nD) : XA m ρ c (Proc.devRef .tc main_v104) = select (XA m ρ c (Proc.devRef .tc main_v103)) (XA m ρ c (Proc.devRef .tc main_v101)) (XA m ρ c (Proc.devRef .tc main_call15_v1)) := by
  refine (Ssa.ssa_ternary alA 185 _ rfl (by decide +kernel) (by decide +kernel) (by decide +kernel) (by decide +kernel)).trans ?_; simp only [StableHlo.TRef.ofBuf, StableHlo.TRef.toBuf, cast_eq]
theorem ssa_main_v105 (c : Dev nD) : XA m ρ c (Proc.devRef .tc main_v105) = ((extractStridedSlice S1x1x400000 ![4, 0, 0] · slices_S9x2x400000_S1x1x400000_4_0_0) : (⟨S9x2x400000, .i32⟩ : BufTy).Contents (Elt F) → (⟨S1x1x400000, .i32⟩ : BufTy).Contents (Elt F)) (XA m ρ c (Proc.devRef .tc main_arg9)) := by
  exact Ssa.ssa_unary alA 186 _ rfl (by decide +kernel) (by decide +kernel)
theorem ssa_main_v106 (c : Dev nD) : XA m ρ c (Proc.devRef .tc main_v106) = shapeCast S400000 (XA m ρ c (Proc.devRef .tc main_v105)) shapeCasts_S1x1x400000_S400000 := by
  exact Ssa.ssa_reshape (x := main_v105) (y := main_v106) (he := rfl) (hn := shapeCasts_S1x1x400000_S400000) alA 187 _ rfl (by decide +kernel) (by decide +kernel)
theorem ssa_main_v107 (c : Dev nD) : XA m ρ c (Proc.devRef .tc main_v107) = ((extractStridedSlice S1x1x400000 ![4, 1, 0] · slices_S9x2x400000_S1x1x400000_4_1_0) : (⟨S9x2x400000, .i32⟩ : BufTy).Contents (Elt F) → (⟨S1x1x400000, .i32⟩ : BufTy).Contents (Elt F)) (XA m ρ c (Proc.devRef .tc main_arg9)) := by
  exact Ssa.ssa_unary alA 188 _ rfl (by decide +kernel) (by decide +kernel)
theorem ssa_main_v108 (c : Dev nD) : XA m ρ c (Proc.devRef .tc main_v108) = shapeCast S400000 (XA m ρ c (Proc.devRef .tc main_v107)) shapeCasts_S1x1x400000_S400000 := by
  exact Ssa.ssa_reshape (x := main_v107) (y := main_v108) (he := rfl) (hn := shapeCasts_S1x1x400000_S400000) alA 189 _ rfl (by decide +kernel) (by decide +kernel)
theorem ssa_main_cst_48 (c : Dev nD) : XA m ρ c (Proc.devRef .tc main_cst_48) = (constant (F := F) S_ .f32 0x00000000#32) := by
  exact Ssa.ssa_nullary alA 190 _ rfl (by decide +kernel)
theorem ssa_main_v109 (c : Dev nD) : XA m ρ c (Proc.devRef .tc main_v109) = (broadcastInDim S50000 ![] bcast_S_S50000 : (⟨S_, .f32⟩ : BufTy).Contents (Elt F) → (⟨S50000, .f32⟩ : BufTy).Contents (Elt F)) (XA m ρ c (Proc.devRef .tc main_cst_48)) := by
  exact Ssa.ssa_unary alA 191 _ rfl (by decide +kernel) (by decide +kernel)
theorem ssa_main_v110 (c : Dev nD) : XA m ρ c (Proc.devRef .tc main_v110) = (broadcastInDim S400000x1 ![0] bcast_S400000_S400000x1_0 : (⟨S400000, .i32⟩ : BufTy).Contents (Elt F) → (⟨S400000x1, .i32⟩ : BufTy).Contents (Elt F)) (XA m ρ c (Proc.devRef .tc main_v106)) := by
  exact Ssa.ssa_unary alA 192 _ rfl (by decide +kernel) (by decide +kernel)
theorem ssa_main_v111 (c : Dev nD) : XA m ρ c (Proc.devRef .tc main_v111) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v109)) (XA m ρ c (Proc.devRef .tc main_v110)) (XA m ρ c (Proc.devRef .tc main_v0)) := by
  exact Ssa.ssa_ternary alA 193 _ rfl (by decide +kernel) (by decide +kernel) (by decide +kernel) (by decide +kernel)
theorem ssa_main_cst_49 (c : Dev nD) : XA m ρ c (Proc.devRef .tc main_cst_49) = (constant (F := F) S_ .f32 0x00000000#32) := by
  exact Ssa.ssa_nullary alA 194 _ rfl (by decide +kernel)
theorem ssa_main_v112 (c : Dev nD) : XA m ρ c (Proc.devRef .tc main_v112) = (broadcastInDim S50000 ![] bcast_S_S50000 : (⟨S_, .f32⟩ : BufTy).Contents (Elt F) → (⟨S50000, .f32⟩ : BufTy).Contents (Elt F)) (XA m ρ c (Proc.devRef .tc main_cst_49)) := by
  exact Ssa.ssa_unary alA 195 _ rfl (by decide +kernel) (by decide +kernel)
theorem ssa_main_v113 (c : Dev nD) : XA m ρ c (Proc.devRef .tc main_v113) = (broadcastInDim S400000x1 ![0] bcast_S400000_S400000x1_0 : (⟨S400000, .i32⟩ : BufTy).Contents (Elt F) → (⟨S400000x1, .i32⟩ : BufTy).Contents (Elt F)) (XA m ρ c (Proc.devRef .tc main_v108)) := by
  exact Ssa.ssa_unary alA 196 _ rfl (by decide +kernel) (by decide +kernel)
theorem ssa_main_v114 (c : Dev nD) : XA m ρ c (Proc.devRef .tc main_v114) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v112)) (XA m ρ c (Proc.devRef .tc main_v113)) (XA m ρ c (Proc.devRef .tc main_v0)) := by
  exact Ssa.ssa_ternary alA 197 _ rfl (by decide +kernel) (by decide +kernel) (by decide +kernel) (by decide +kernel)
theorem ssa_main_cst_50 (c : Dev nD) : XA m ρ c (Proc.devRef .tc main_cst_50) = (constant (F := F) S_ .f32 0x00000000#32) := by
  exact Ssa.ssa_nullary alA 198 _ rfl (by decide +kernel)
theorem ssa_main_v115 (c : Dev nD) : XA m ρ c (Proc.devRef .tc main_v115) = (broadcastInDim S50000 ![] bcast_S_S50000 : (⟨S_, .f32⟩ : BufTy).Contents (Elt F) → (⟨S50000, .f32⟩ : BufTy).Contents (Elt F)) (XA m ρ c (Proc.devRef .tc main_cst_50)) := by
  exact Ssa.ssa_unary alA 199 _ rfl (by decide +kernel) (by decide +kernel)
theorem ssa_main_v116 (c : Dev nD) : XA m ρ c (Proc.devRef .tc main_v116) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v111)) (XA m ρ c (Proc.devRef .tc main_v115)) := by
  exact Ssa.ssa_binary alA 200 _ rfl (by decide +kernel) (by decide +kernel) (by decide +kernel)
theorem ssa_main_cst_51 (c : Dev nD) : XA m ρ c (Proc.devRef .tc main_cst_51) = (constant (F := F) S_ .f32 0x3F800000#32) := by
  exact Ssa.ssa_nullary alA 201 _ rfl (by decide +kernel)
theorem ssa_main_call16_v0 (c : Dev nD) : XA m ρ c (Proc.devRef .tc main_call16_v0) = (XA m ρ c (Proc.devRef .tc main_cst_51)) := by
  refine (Ssa.ssa_unary alA 202 _ rfl (by decide +kernel) (by decide +kernel)).trans ?_; simp only [StableHlo.TRef.ofBuf, StableHlo.TRef.toBuf, cast_eq, id]
theorem ssa_main_call16_v1 (c : Dev nD) : XA m ρ c (Proc.devRef .tc main_call16_v1) = (broadcastInDim S50000 ![] bcast_S_S50000) (XA m ρ c (Proc.devRef .tc main_call16_v0)) := by
  refine (Ssa.ssa_unary alA 203 _ rfl (by decide +kernel) (by decide +kernel)).trans ?_; simp only [StableHlo.TRef.ofBuf, StableHlo.TRef.toBuf, cast_eq, id]
theorem ssa_main_v117 (c : Dev nD) : XA m ρ c (Proc.devRef .tc main_v117) = select (XA m ρ c (Proc.devRef .tc main_v116)) (XA m ρ c (Proc.devRef .tc main_v111)) (XA m ρ c (Proc.devRef .tc main_call16_v1)) := by
  refine (Ssa.ssa_ternary alA 204 _ rfl (by decide +kernel) (by decide +kernel) (by decide +kernel) (by decide +kernel)).trans ?_; simp only [StableHlo.TRef.ofBuf, StableHlo.TRef.toBuf, cast_eq]
theorem ssa_main_cst_52 (c : Dev nD) : XA m ρ c (Proc.devRef .tc main_cst_52) = (constant (F := F) S_ .f32 0xBF000000#32) := by
  exact Ssa.ssa_nullary alA 205 _ rfl (by decide +kernel)
theorem ssa_main_v118 (c : Dev nD) : XA m ρ c (Proc.devRef .tc main_v118) = (broadcastInDim S50000 ![] bcast_S_S50000 : (⟨S_, .f32⟩ : BufTy).Contents (Elt F) → (⟨S50000, .f32⟩ : BufTy).Contents (Elt F)) (XA m ρ c (Proc.devRef .tc main_cst_52)) := by
  exact Ssa.ssa_unary alA 206 _ rfl (by decide +kernel) (by decide +kernel)
theorem ssa_main_v119 (c : Dev nD) : XA m ρ c (Proc.devRef .tc main_v119) = (Host.powf : (⟨S50000, .f32⟩ : BufTy).Contents (Elt F) → (⟨S50000, .f32⟩ : BufTy).Contents (Elt F) → (⟨S50000, .f32⟩ : BufTy).Contents (Elt F)) (XA m ρ c (Proc.devRef .tc main_v117)) (XA m ρ c (Proc.devRef .tc main_v118)) := by
  exact Ssa.ssa_binary alA 207 _ rfl (by decide +kernel) (by decide +kernel) (by decide +kernel)
theorem ssa_main_cst_53 (c : Dev nD) : XA m ρ c (Proc.devRef .tc main_cst_53) = (constant (F := F) S_ .f32 0x00000000#32) := by
  exact Ssa.ssa_nullary alA 208 _ rfl (by decide +kernel)
theorem ssa_main_v120 (c : Dev nD) : XA m ρ c (Proc.devRef .tc main_v120) = (broadcastInDim S50000 ![] bcast_S_S50000 : (⟨S_, .f32⟩ : BufTy).Contents (Elt F) → (⟨S50000, .f32⟩ : BufTy).Contents (Elt F)) (XA m ρ c (Proc.devRef .tc main_cst_53)) := by
  exact Ssa.ssa_unary alA 209 _ rfl (by decide +kernel) (by decide +kernel)
theorem ssa_main_v121 (c : Dev nD) : XA m ρ c (Proc.devRef .tc main_v121) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v111)) (XA m ρ c (Proc.devRef .tc main_v120)) := by
  exact Ssa.ssa_binary alA 210 _ rfl (by decide +kernel) (by decide +kernel) (by decide +kernel)
theorem ssa_main_cst_54 (c : Dev nD) : XA m ρ c (Proc.devRef .tc main_cst_54) = (constant (F := F) S_ .f32 0x00000000#32) := by
  exact Ssa.ssa_nullary alA 211 _ rfl (by decide +kernel)
theorem ssa_main_call17_v0 (c : Dev nD) : XA m ρ c (Proc.devRef .tc main_call17_v0) = (XA m ρ c (Proc.devRef .tc main_cst_54)) := by
  refine (Ssa.ssa_unary alA 212 _ rfl (by decide +kernel) (by decide +kernel)).trans ?_; simp only [StableHlo.TRef.ofBuf, StableHlo.TRef.toBuf, cast_eq, id]
theorem ssa_main_call17_v1 (c : Dev nD) : XA m ρ c (Proc.devRef .tc main_call17_v1) = (broadcastInDim S50000 ![] bcast_S_S50000) (XA m ρ c (Proc.devRef .tc main_call17_v0)) := by
  refine (Ssa.ssa_unary alA 213 _ rfl (by decide +kernel) (by decide +kernel)).trans ?_; simp only [StableHlo.TRef.ofBuf, StableHlo.TRef.toBuf, cast_eq, id]
theorem ssa_main_v122 (c : Dev nD) : XA m ρ c (Proc.devRef .tc main_v122) = select (XA m ρ c (Proc.devRef .tc main_v121)) (XA m ρ c (Proc.devRef .tc main_v119)) (XA m ρ c (Proc.devRef .tc main_call17_v1)) := by
  refine (Ssa.ssa_ternary alA 214 _ rfl (by decide +kernel) (by decide +kernel) (by decide +kernel) (by decide +kernel)).trans ?_; simp only [StableHlo.TRef.ofBuf, StableHlo.TRef.toBuf, cast_eq]
theorem ssa_main_cst_55 (c : Dev nD) : XA m ρ c (Proc.devRef .tc main_cst_55) = (constant (F := F) S_ .f32 0x00000000#32) := by
  exact Ssa.ssa_nullary alA 215 _ rfl (by decide +kernel)

end Cert.KernelIdeal.Rd

end
-- ==== Proof.KI.TabA3.lean ====
/-
  The single-assignment equations of @main's host operations before the first pallas_call, part 3 of 6: operations 216 to 323 of the one line.
-/
import proofs.«151568_j90031104458821_2_alg».proof.Proof.KI.TabA

set_option maxRecDepth 65536

noncomputable section

namespace Cert.KernelIdeal.Rd

open Cert.KernelIdeal Cert.KernelIdeal.Gen Cert.KernelIdeal.Fr Idealize.ShloMosaic Idealize.ShloMosaic.StableHlo Idealize.SL.Sem Cert

variable {F : FTy → Type} [FloatOps F]
variable (m : (ℓ : Loc nD τ sig) → Buf (Elt F) ℓ) (ρ : Dev nD → PrngReg)

theorem ssa_main_v123 (c : Dev nD) : XA m ρ c (Proc.devRef .tc main_v123) = (broadcastInDim S50000 ![] bcast_S_S50000 : (⟨S_, .f32⟩ : BufTy).Contents (Elt F) → (⟨S50000, .f32⟩ : BufTy).Contents (Elt F)) (XA m ρ c (Proc.devRef .tc main_cst_55)) := by
  exact Ssa.ssa_unary alA 216 _ rfl (by decide +kernel) (by decide +kernel)
theorem ssa_main_v124 (c : Dev nD) : XA m ρ c (Proc.devRef .tc main_v124) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v114)) (XA m ρ c (Proc.devRef .tc main_v123)) := by
  exact Ssa.ssa_binary alA 217 _ rfl (by decide +kernel) (by decide +kernel) (by decide +kernel)
theorem ssa_main_cst_56 (c : Dev nD) : XA m ρ c (Proc.devRef .tc main_cst_56) = (constant (F := F) S_ .f32 0x3F800000#32) := by
  exact Ssa.ssa_nullary alA 218 _ rfl (by decide +kernel)
theorem ssa_main_call18_v0 (c : Dev nD) : XA m ρ c (Proc.devRef .tc main_call18_v0) = (XA m ρ c (Proc.devRef .tc main_cst_56)) := by
  refine (Ssa.ssa_unary alA 219 _ rfl (by decide +kernel) (by decide +kernel)).trans ?_; simp only [StableHlo.TRef.ofBuf, StableHlo.TRef.toBuf, cast_eq, id]
theorem ssa_main_call18_v1 (c : Dev nD) : XA m ρ c (Proc.devRef .tc main_call18_v1) = (broadcastInDim S50000 ![] bcast_S_S50000) (XA m ρ c (Proc.devRef .tc main_call18_v0)) := by
  refine (Ssa.ssa_unary alA 220 _ rfl (by decide +kernel) (by decide +kernel)).trans ?_; simp only [StableHlo.TRef.ofBuf, StableHlo.TRef.toBuf, cast_eq, id]
theorem ssa_main_v125 (c : Dev nD) : XA m ρ c (Proc.devRef .tc main_v125) = select (XA m ρ c (Proc.devRef .tc main_v124)) (XA m ρ c (Proc.devRef .tc main_v114)) (XA m ρ c (Proc.devRef .tc main_call18_v1)) := by
  refine (Ssa.ssa_ternary alA 221 _ rfl (by decide +kernel) (by decide +kernel) (by decide +kernel) (by decide +kernel)).trans ?_; simp only [StableHlo.TRef.ofBuf, StableHlo.TRef.toBuf, cast_eq]
theorem ssa_main_cst_57 (c : Dev nD) : XA m ρ c (Proc.devRef .tc main_cst_57) = (constant (F := F) S_ .f32 0xBF000000#32) := by
  exact Ssa.ssa_nullary alA 222 _ rfl (by decide +kernel)
theorem ssa_main_v126 (c : Dev nD) : XA m ρ c (Proc.devRef .tc main_v126) = (broadcastInDim S50000 ![] bcast_S_S50000 : (⟨S_, .f32⟩ : BufTy).Contents (Elt F) → (⟨S50000, .f32⟩ : BufTy).Contents (Elt F)) (XA m ρ c (Proc.devRef .tc main_cst_57)) := by
  exact Ssa.ssa_unary alA 223 _ rfl (by decide +kernel) (by decide +kernel)
theorem ssa_main_v127 (c : Dev nD) : XA m ρ c (Proc.devRef .tc main_v127) = (Host.powf : (⟨S50000, .f32⟩ : BufTy).Contents (Elt F) → (⟨S50000, .f32⟩ : BufTy).Contents (Elt F) → (⟨S50000, .f32⟩ : BufTy).Contents (Elt F)) (XA m ρ c (Proc.devRef .tc main_v125)) (XA m ρ c (Proc.devRef .tc main_v126)) := by
  exact Ssa.ssa_binary alA 224 _ rfl (by decide +kernel) (by decide +kernel) (by decide +kernel)
theorem ssa_main_cst_58 (c : Dev nD) : XA m ρ c (Proc.devRef .tc main_cst_58) = (constant (F := F) S_ .f32 0x00000000#32) := by
  exact Ssa.ssa_nullary alA 225 _ rfl (by decide +kernel)
theorem ssa_main_v128 (c : Dev nD) : XA m ρ c (Proc.devRef .tc main_v128) = (broadcastInDim S50000 ![] bcast_S_S50000 : (⟨S_, .f32⟩ : BufTy).Contents (Elt F) → (⟨S50000, .f32⟩ : BufTy).Contents (Elt F)) (XA m ρ c (Proc.devRef .tc main_cst_58)) := by
  exact Ssa.ssa_unary alA 226 _ rfl (by decide +kernel) (by decide +kernel)
theorem ssa_main_v129 (c : Dev nD) : XA m ρ c (Proc.devRef .tc main_v129) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v114)) (XA m ρ c (Proc.devRef .tc main_v128)) := by
  exact Ssa.ssa_binary alA 227 _ rfl (by decide +kernel) (by decide +kernel) (by decide +kernel)
theorem ssa_main_cst_59 (c : Dev nD) : XA m ρ c (Proc.devRef .tc main_cst_59) = (constant (F := F) S_ .f32 0x00000000#32) := by
  exact Ssa.ssa_nullary alA 228 _ rfl (by decide +kernel)
theorem ssa_main_call19_v0 (c : Dev nD) : XA m ρ c (Proc.devRef .tc main_call19_v0) = (XA m ρ c (Proc.devRef .tc main_cst_59)) := by
  refine (Ssa.ssa_unary alA 229 _ rfl (by decide +kernel) (by decide +kernel)).trans ?_; simp only [StableHlo.TRef.ofBuf, StableHlo.TRef.toBuf, cast_eq, id]
theorem ssa_main_call19_v1 (c : Dev nD) : XA m ρ c (Proc.devRef .tc main_call19_v1) = (broadcastInDim S50000 ![] bcast_S_S50000) (XA m ρ c (Proc.devRef .tc main_call19_v0)) := by
  refine (Ssa.ssa_unary alA 230 _ rfl (by decide +kernel) (by decide +kernel)).trans ?_; simp only [StableHlo.TRef.ofBuf, StableHlo.TRef.toBuf, cast_eq, id]
theorem ssa_main_v130 (c : Dev nD) : XA m ρ c (Proc.devRef .tc main_v130) = select (XA m ρ c (Proc.devRef .tc main_v129)) (XA m ρ c (Proc.devRef .tc main_v127)) (XA m ρ c (Proc.devRef .tc main_call19_v1)) := by
  refine (Ssa.ssa_ternary alA 231 _ rfl (by decide +kernel) (by decide +kernel) (by decide +kernel) (by decide +kernel)).trans ?_; simp only [StableHlo.TRef.ofBuf, StableHlo.TRef.toBuf, cast_eq]
theorem ssa_main_v131 (c : Dev nD) : XA m ρ c (Proc.devRef .tc main_v131) = ((extractStridedSlice S1x1x400000 ![5, 0, 0] · slices_S9x2x400000_S1x1x400000_5_0_0) : (⟨S9x2x400000, .i32⟩ : BufTy).Contents (Elt F) → (⟨S1x1x400000, .i32⟩ : BufTy).Contents (Elt F)) (XA m ρ c (Proc.devRef .tc main_arg9)) := by
  exact Ssa.ssa_unary alA 232 _ rfl (by decide +kernel) (by decide +kernel)
theorem ssa_main_v132 (c : Dev nD) : XA m ρ c (Proc.devRef .tc main_v132) = shapeCast S400000 (XA m ρ c (Proc.devRef .tc main_v131)) shapeCasts_S1x1x400000_S400000 := by
  exact Ssa.ssa_reshape (x := main_v131) (y := main_v132) (he := rfl) (hn := shapeCasts_S1x1x400000_S400000) alA 233 _ rfl (by decide +kernel) (by decide +kernel)
theorem ssa_main_v133 (c : Dev nD) : XA m ρ c (Proc.devRef .tc main_v133) = ((extractStridedSlice S1x1x400000 ![5, 1, 0] · slices_S9x2x400000_S1x1x400000_5_1_0) : (⟨S9x2x400000, .i32⟩ : BufTy).Contents (Elt F) → (⟨S1x1x400000, .i32⟩ : BufTy).Contents (Elt F)) (XA m ρ c (Proc.devRef .tc main_arg9)) := by
  exact Ssa.ssa_unary alA 234 _ rfl (by decide +kernel) (by decide +kernel)
theorem ssa_main_v134 (c : Dev nD) : XA m ρ c (Proc.devRef .tc main_v134) = shapeCast S400000 (XA m ρ c (Proc.devRef .tc main_v133)) shapeCasts_S1x1x400000_S400000 := by
  exact Ssa.ssa_reshape (x := main_v133) (y := main_v134) (he := rfl) (hn := shapeCasts_S1x1x400000_S400000) alA 235 _ rfl (by decide +kernel) (by decide +kernel)
theorem ssa_main_cst_60 (c : Dev nD) : XA m ρ c (Proc.devRef .tc main_cst_60) = (constant (F := F) S_ .f32 0x00000000#32) := by
  exact Ssa.ssa_nullary alA 236 _ rfl (by decide +kernel)
theorem ssa_main_v135 (c : Dev nD) : XA m ρ c (Proc.devRef .tc main_v135) = (broadcastInDim S50000 ![] bcast_S_S50000 : (⟨S_, .f32⟩ : BufTy).Contents (Elt F) → (⟨S50000, .f32⟩ : BufTy).Contents (Elt F)) (XA m ρ c (Proc.devRef .tc main_cst_60)) := by
  exact Ssa.ssa_unary alA 237 _ rfl (by decide +kernel) (by decide +kernel)
theorem ssa_main_v136 (c : Dev nD) : XA m ρ c (Proc.devRef .tc main_v136) = (broadcastInDim S400000x1 ![0] bcast_S400000_S400000x1_0 : (⟨S400000, .i32⟩ : BufTy).Contents (Elt F) → (⟨S400000x1, .i32⟩ : BufTy).Contents (Elt F)) (XA m ρ c (Proc.devRef .tc main_v132)) := by
  exact Ssa.ssa_unary alA 238 _ rfl (by decide +kernel) (by decide +kernel)
theorem ssa_main_v137 (c : Dev nD) : XA m ρ c (Proc.devRef .tc main_v137) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v135)) (XA m ρ c (Proc.devRef .tc main_v136)) (XA m ρ c (Proc.devRef .tc main_v0)) := by
  exact Ssa.ssa_ternary alA 239 _ rfl (by decide +kernel) (by decide +kernel) (by decide +kernel) (by decide +kernel)
theorem ssa_main_cst_61 (c : Dev nD) : XA m ρ c (Proc.devRef .tc main_cst_61) = (constant (F := F) S_ .f32 0x00000000#32) := by
  exact Ssa.ssa_nullary alA 240 _ rfl (by decide +kernel)
theorem ssa_main_v138 (c : Dev nD) : XA m ρ c (Proc.devRef .tc main_v138) = (broadcastInDim S50000 ![] bcast_S_S50000 : (⟨S_, .f32⟩ : BufTy).Contents (Elt F) → (⟨S50000, .f32⟩ : BufTy).Contents (Elt F)) (XA m ρ c (Proc.devRef .tc main_cst_61)) := by
  exact Ssa.ssa_unary alA 241 _ rfl (by decide +kernel) (by decide +kernel)
theorem ssa_main_v139 (c : Dev nD) : XA m ρ c (Proc.devRef .tc main_v139) = (broadcastInDim S400000x1 ![0] bcast_S400000_S400000x1_0 : (⟨S400000, .i32⟩ : BufTy).Contents (Elt F) → (⟨S400000x1, .i32⟩ : BufTy).Contents (Elt F)) (XA m ρ c (Proc.devRef .tc main_v134)) := by
  exact Ssa.ssa_unary alA 242 _ rfl (by decide +kernel) (by decide +kernel)
theorem ssa_main_v140 (c : Dev nD) : XA m ρ c (Proc.devRef .tc main_v140) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v138)) (XA m ρ c (Proc.devRef .tc main_v139)) (XA m ρ c (Proc.devRef .tc main_v0)) := by
  exact Ssa.ssa_ternary alA 243 _ rfl (by decide +kernel) (by decide +kernel) (by decide +kernel) (by decide +kernel)
theorem ssa_main_cst_62 (c : Dev nD) : XA m ρ c (Proc.devRef .tc main_cst_62) = (constant (F := F) S_ .f32 0x00000000#32) := by
  exact Ssa.ssa_nullary alA 244 _ rfl (by decide +kernel)
theorem ssa_main_v141 (c : Dev nD) : XA m ρ c (Proc.devRef .tc main_v141) = (broadcastInDim S50000 ![] bcast_S_S50000 : (⟨S_, .f32⟩ : BufTy).Contents (Elt F) → (⟨S50000, .f32⟩ : BufTy).Contents (Elt F)) (XA m ρ c (Proc.devRef .tc main_cst_62)) := by
  exact Ssa.ssa_unary alA 245 _ rfl (by decide +kernel) (by decide +kernel)
theorem ssa_main_v142 (c : Dev nD) : XA m ρ c (Proc.devRef .tc main_v142) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v137)) (XA m ρ c (Proc.devRef .tc main_v141)) := by
  exact Ssa.ssa_binary alA 246 _ rfl (by decide +kernel) (by decide +kernel) (by decide +kernel)
theorem ssa_main_cst_63 (c : Dev nD) : XA m ρ c (Proc.devRef .tc main_cst_63) = (constant (F := F) S_ .f32 0x3F800000#32) := by
  exact Ssa.ssa_nullary alA 247 _ rfl (by decide +kernel)
theorem ssa_main_call20_v0 (c : Dev nD) : XA m ρ c (Proc.devRef .tc main_call20_v0) = (XA m ρ c (Proc.devRef .tc main_cst_63)) := by
  refine (Ssa.ssa_unary alA 248 _ rfl (by decide +kernel) (by decide +kernel)).trans ?_; simp only [StableHlo.TRef.ofBuf, StableHlo.TRef.toBuf, cast_eq, id]
theorem ssa_main_call20_v1 (c : Dev nD) : XA m ρ c (Proc.devRef .tc main_call20_v1) = (broadcastInDim S50000 ![] bcast_S_S50000) (XA m ρ c (Proc.devRef .tc main_call20_v0)) := by
  refine (Ssa.ssa_unary alA 249 _ rfl (by decide +kernel) (by decide +kernel)).trans ?_; simp only [StableHlo.TRef.ofBuf, StableHlo.TRef.toBuf, cast_eq, id]
theorem ssa_main_v143 (c : Dev nD) : XA m ρ c (Proc.devRef .tc main_v143) = select (XA m ρ c (Proc.devRef .tc main_v142)) (XA m ρ c (Proc.devRef .tc main_v137)) (XA m ρ c (Proc.devRef .tc main_call20_v1)) := by
  refine (Ssa.ssa_ternary alA 250 _ rfl (by decide +kernel) (by decide +kernel) (by decide +kernel) (by decide +kernel)).trans ?_; simp only [StableHlo.TRef.ofBuf, StableHlo.TRef.toBuf, cast_eq]
theorem ssa_main_cst_64 (c : Dev nD) : XA m ρ c (Proc.devRef .tc main_cst_64) = (constant (F := F) S_ .f32 0xBF000000#32) := by
  exact Ssa.ssa_nullary alA 251 _ rfl (by decide +kernel)
theorem ssa_main_v144 (c : Dev nD) : XA m ρ c (Proc.devRef .tc main_v144) = (broadcastInDim S50000 ![] bcast_S_S50000 : (⟨S_, .f32⟩ : BufTy).Contents (Elt F) → (⟨S50000, .f32⟩ : BufTy).Contents (Elt F)) (XA m ρ c (Proc.devRef .tc main_cst_64)) := by
  exact Ssa.ssa_unary alA 252 _ rfl (by decide +kernel) (by decide +kernel)
theorem ssa_main_v145 (c : Dev nD) : XA m ρ c (Proc.devRef .tc main_v145) = (Host.powf : (⟨S50000, .f32⟩ : BufTy).Contents (Elt F) → (⟨S50000, .f32⟩ : BufTy).Contents (Elt F) → (⟨S50000, .f32⟩ : BufTy).Contents (Elt F)) (XA m ρ c (Proc.devRef .tc main_v143)) (XA m ρ c (Proc.devRef .tc main_v144)) := by
  exact Ssa.ssa_binary alA 253 _ rfl (by decide +kernel) (by decide +kernel) (by decide +kernel)
theorem ssa_main_cst_65 (c : Dev nD) : XA m ρ c (Proc.devRef .tc main_cst_65) = (constant (F := F) S_ .f32 0x00000000#32) := by
  exact Ssa.ssa_nullary alA 254 _ rfl (by decide +kernel)
theorem ssa_main_v146 (c : Dev nD) : XA m ρ c (Proc.devRef .tc main_v146) = (broadcastInDim S50000 ![] bcast_S_S50000 : (⟨S_, .f32⟩ : BufTy).Contents (Elt F) → (⟨S50000, .f32⟩ : BufTy).Contents (Elt F)) (XA m ρ c (Proc.devRef .tc main_cst_65)) := by
  exact Ssa.ssa_unary alA 255 _ rfl (by decide +kernel) (by decide +kernel)
theorem ssa_main_v147 (c : Dev nD) : XA m ρ c (Proc.devRef .tc main_v147) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v137)) (XA m ρ c (Proc.devRef .tc main_v146)) := by
  exact Ssa.ssa_binary alA 256 _ rfl (by decide +kernel) (by decide +kernel) (by decide +kernel)
theorem ssa_main_cst_66 (c : Dev nD) : XA m ρ c (Proc.devRef .tc main_cst_66) = (constant (F := F) S_ .f32 0x00000000#32) := by
  exact Ssa.ssa_nullary alA 257 _ rfl (by decide +kernel)
theorem ssa_main_call21_v0 (c : Dev nD) : XA m ρ c (Proc.devRef .tc main_call21_v0) = (XA m ρ c (Proc.devRef .tc main_cst_66)) := by
  refine (Ssa.ssa_unary alA 258 _ rfl (by decide +kernel) (by decide +kernel)).trans ?_; simp only [StableHlo.TRef.ofBuf, StableHlo.TRef.toBuf, cast_eq, id]
theorem ssa_main_call21_v1 (c : Dev nD) : XA m ρ c (Proc.devRef .tc main_call21_v1) = (broadcastInDim S50000 ![] bcast_S_S50000) (XA m ρ c (Proc.devRef .tc main_call21_v0)) := by
  refine (Ssa.ssa_unary alA 259 _ rfl (by decide +kernel) (by decide +kernel)).trans ?_; simp only [StableHlo.TRef.ofBuf, StableHlo.TRef.toBuf, cast_eq, id]
theorem ssa_main_v148 (c : Dev nD) : XA m ρ c (Proc.devRef .tc main_v148) = select (XA m ρ c (Proc.devRef .tc main_v147)) (XA m ρ c (Proc.devRef .tc main_v145)) (XA m ρ c (Proc.devRef .tc main_call21_v1)) := by
  refine (Ssa.ssa_ternary alA 260 _ rfl (by decide +kernel) (by decide +kernel) (by decide +kernel) (by decide +kernel)).trans ?_; simp only [StableHlo.TRef.ofBuf, StableHlo.TRef.toBuf, cast_eq]
theorem ssa_main_cst_67 (c : Dev nD) : XA m ρ c (Proc.devRef .tc main_cst_67) = (constant (F := F) S_ .f32 0x00000000#32) := by
  exact Ssa.ssa_nullary alA 261 _ rfl (by decide +kernel)
theorem ssa_main_v149 (c : Dev nD) : XA m ρ c (Proc.devRef .tc main_v149) = (broadcastInDim S50000 ![] bcast_S_S50000 : (⟨S_, .f32⟩ : BufTy).Contents (Elt F) → (⟨S50000, .f32⟩ : BufTy).Contents (Elt F)) (XA m ρ c (Proc.devRef .tc main_cst_67)) := by
  exact Ssa.ssa_unary alA 262 _ rfl (by decide +kernel) (by decide +kernel)
theorem ssa_main_v150 (c : Dev nD) : XA m ρ c (Proc.devRef .tc main_v150) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v140)) (XA m ρ c (Proc.devRef .tc main_v149)) := by
  exact Ssa.ssa_binary alA 263 _ rfl (by decide +kernel) (by decide +kernel) (by decide +kernel)
theorem ssa_main_cst_68 (c : Dev nD) : XA m ρ c (Proc.devRef .tc main_cst_68) = (constant (F := F) S_ .f32 0x3F800000#32) := by
  exact Ssa.ssa_nullary alA 264 _ rfl (by decide +kernel)
theorem ssa_main_call22_v0 (c : Dev nD) : XA m ρ c (Proc.devRef .tc main_call22_v0) = (XA m ρ c (Proc.devRef .tc main_cst_68)) := by
  refine (Ssa.ssa_unary alA 265 _ rfl (by decide +kernel) (by decide +kernel)).trans ?_; simp only [StableHlo.TRef.ofBuf, StableHlo.TRef.toBuf, cast_eq, id]
theorem ssa_main_call22_v1 (c : Dev nD) : XA m ρ c (Proc.devRef .tc main_call22_v1) = (broadcastInDim S50000 ![] bcast_S_S50000) (XA m ρ c (Proc.devRef .tc main_call22_v0)) := by
  refine (Ssa.ssa_unary alA 266 _ rfl (by decide +kernel) (by decide +kernel)).trans ?_; simp only [StableHlo.TRef.ofBuf, StableHlo.TRef.toBuf, cast_eq, id]
theorem ssa_main_v151 (c : Dev nD) : XA m ρ c (Proc.devRef .tc main_v151) = select (XA m ρ c (Proc.devRef .tc main_v150)) (XA m ρ c (Proc.devRef .tc main_v140)) (XA m ρ c (Proc.devRef .tc main_call22_v1)) := by
  refine (Ssa.ssa_ternary alA 267 _ rfl (by decide +kernel) (by decide +kernel) (by decide +kernel) (by decide +kernel)).trans ?_; simp only [StableHlo.TRef.ofBuf, StableHlo.TRef.toBuf, cast_eq]
theorem ssa_main_cst_69 (c : Dev nD) : XA m ρ c (Proc.devRef .tc main_cst_69) = (constant (F := F) S_ .f32 0xBF000000#32) := by
  exact Ssa.ssa_nullary alA 268 _ rfl (by decide +kernel)
theorem ssa_main_v152 (c : Dev nD) : XA m ρ c (Proc.devRef .tc main_v152) = (broadcastInDim S50000 ![] bcast_S_S50000 : (⟨S_, .f32⟩ : BufTy).Contents (Elt F) → (⟨S50000, .f32⟩ : BufTy).Contents (Elt F)) (XA m ρ c (Proc.devRef .tc main_cst_69)) := by
  exact Ssa.ssa_unary alA 269 _ rfl (by decide +kernel) (by decide +kernel)
theorem ssa_main_v153 (c : Dev nD) : XA m ρ c (Proc.devRef .tc main_v153) = (Host.powf : (⟨S50000, .f32⟩ : BufTy).Contents (Elt F) → (⟨S50000, .f32⟩ : BufTy).Contents (Elt F) → (⟨S50000, .f32⟩ : BufTy).Contents (Elt F)) (XA m ρ c (Proc.devRef .tc main_v151)) (XA m ρ c (Proc.devRef .tc main_v152)) := by
  exact Ssa.ssa_binary alA 270 _ rfl (by decide +kernel) (by decide +kernel) (by decide +kernel)
theorem ssa_main_cst_70 (c : Dev nD) : XA m ρ c (Proc.devRef .tc main_cst_70) = (constant (F := F) S_ .f32 0x00000000#32) := by
  exact Ssa.ssa_nullary alA 271 _ rfl (by decide +kernel)
theorem ssa_main_v154 (c : Dev nD) : XA m ρ c (Proc.devRef .tc main_v154) = (broadcastInDim S50000 ![] bcast_S_S50000 : (⟨S_, .f32⟩ : BufTy).Contents (Elt F) → (⟨S50000, .f32⟩ : BufTy).Contents (Elt F)) (XA m ρ c (Proc.devRef .tc main_cst_70)) := by
  exact Ssa.ssa_unary alA 272 _ rfl (by decide +kernel) (by decide +kernel)
theorem ssa_main_v155 (c : Dev nD) : XA m ρ c (Proc.devRef .tc main_v155) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v140)) (XA m ρ c (Proc.devRef .tc main_v154)) := by
  exact Ssa.ssa_binary alA 273 _ rfl (by decide +kernel) (by decide +kernel) (by decide +kernel)
theorem ssa_main_cst_71 (c : Dev nD) : XA m ρ c (Proc.devRef .tc main_cst_71) = (constant (F := F) S_ .f32 0x00000000#32) := by
  exact Ssa.ssa_nullary alA 274 _ rfl (by decide +kernel)
theorem ssa_main_call23_v0 (c : Dev nD) : XA m ρ c (Proc.devRef .tc main_call23_v0) = (XA m ρ c (Proc.devRef .tc main_cst_71)) := by
  refine (Ssa.ssa_unary alA 275 _ rfl (by decide +kernel) (by decide +kernel)).trans ?_; simp only [StableHlo.TRef.ofBuf, StableHlo.TRef.toBuf, cast_eq, id]
theorem ssa_main_call23_v1 (c : Dev nD) : XA m ρ c (Proc.devRef .tc main_call23_v1) = (broadcastInDim S50000 ![] bcast_S_S50000) (XA m ρ c (Proc.devRef .tc main_call23_v0)) := by
  refine (Ssa.ssa_unary alA 276 _ rfl (by decide +kernel) (by decide +kernel)).trans ?_; simp only [StableHlo.TRef.ofBuf, StableHlo.TRef.toBuf, cast_eq, id]
theorem ssa_main_v156 (c : Dev nD) : XA m ρ c (Proc.devRef .tc main_v156) = select (XA m ρ c (Proc.devRef .tc main_v155)) (XA m ρ c (Proc.devRef .tc main_v153)) (XA m ρ c (Proc.devRef .tc main_call23_v1)) := by
  refine (Ssa.ssa_ternary alA 277 _ rfl (by decide +kernel) (by decide +kernel) (by decide +kernel) (by decide +kernel)).trans ?_; simp only [StableHlo.TRef.ofBuf, StableHlo.TRef.toBuf, cast_eq]
theorem ssa_main_v157 (c : Dev nD) : XA m ρ c (Proc.devRef .tc main_v157) = ((extractStridedSlice S1x1x400000 ![6, 0, 0] · slices_S9x2x400000_S1x1x400000_6_0_0) : (⟨S9x2x400000, .i32⟩ : BufTy).Contents (Elt F) → (⟨S1x1x400000, .i32⟩ : BufTy).Contents (Elt F)) (XA m ρ c (Proc.devRef .tc main_arg9)) := by
  exact Ssa.ssa_unary alA 278 _ rfl (by decide +kernel) (by decide +kernel)
theorem ssa_main_v158 (c : Dev nD) : XA m ρ c (Proc.devRef .tc main_v158) = shapeCast S400000 (XA m ρ c (Proc.devRef .tc main_v157)) shapeCasts_S1x1x400000_S400000 := by
  exact Ssa.ssa_reshape (x := main_v157) (y := main_v158) (he := rfl) (hn := shapeCasts_S1x1x400000_S400000) alA 279 _ rfl (by decide +kernel) (by decide +kernel)
theorem ssa_main_v159 (c : Dev nD) : XA m ρ c (Proc.devRef .tc main_v159) = ((extractStridedSlice S1x1x400000 ![6, 1, 0] · slices_S9x2x400000_S1x1x400000_6_1_0) : (⟨S9x2x400000, .i32⟩ : BufTy).Contents (Elt F) → (⟨S1x1x400000, .i32⟩ : BufTy).Contents (Elt F)) (XA m ρ c (Proc.devRef .tc main_arg9)) := by
  exact Ssa.ssa_unary alA 280 _ rfl (by decide +kernel) (by decide +kernel)
theorem ssa_main_v160 (c : Dev nD) : XA m ρ c (Proc.devRef .tc main_v160) = shapeCast S400000 (XA m ρ c (Proc.devRef .tc main_v159)) shapeCasts_S1x1x400000_S400000 := by
  exact Ssa.ssa_reshape (x := main_v159) (y := main_v160) (he := rfl) (hn := shapeCasts_S1x1x400000_S400000) alA 281 _ rfl (by decide +kernel) (by decide +kernel)
theorem ssa_main_cst_72 (c : Dev nD) : XA m ρ c (Proc.devRef .tc main_cst_72) = (constant (F := F) S_ .f32 0x00000000#32) := by
  exact Ssa.ssa_nullary alA 282 _ rfl (by decide +kernel)
theorem ssa_main_v161 (c : Dev nD) : XA m ρ c (Proc.devRef .tc main_v161) = (broadcastInDim S50000 ![] bcast_S_S50000 : (⟨S_, .f32⟩ : BufTy).Contents (Elt F) → (⟨S50000, .f32⟩ : BufTy).Contents (Elt F)) (XA m ρ c (Proc.devRef .tc main_cst_72)) := by
  exact Ssa.ssa_unary alA 283 _ rfl (by decide +kernel) (by decide +kernel)
theorem ssa_main_v162 (c : Dev nD) : XA m ρ c (Proc.devRef .tc main_v162) = (broadcastInDim S400000x1 ![0] bcast_S400000_S400000x1_0 : (⟨S400000, .i32⟩ : BufTy).Contents (Elt F) → (⟨S400000x1, .i32⟩ : BufTy).Contents (Elt F)) (XA m ρ c (Proc.devRef .tc main_v158)) := by
  exact Ssa.ssa_unary alA 284 _ rfl (by decide +kernel) (by decide +kernel)
theorem ssa_main_v163 (c : Dev nD) : XA m ρ c (Proc.devRef .tc main_v163) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v161)) (XA m ρ c (Proc.devRef .tc main_v162)) (XA m ρ c (Proc.devRef .tc main_v0)) := by
  exact Ssa.ssa_ternary alA 285 _ rfl (by decide +kernel) (by decide +kernel) (by decide +kernel) (by decide +kernel)
theorem ssa_main_cst_73 (c : Dev nD) : XA m ρ c (Proc.devRef .tc main_cst_73) = (constant (F := F) S_ .f32 0x00000000#32) := by
  exact Ssa.ssa_nullary alA 286 _ rfl (by decide +kernel)
theorem ssa_main_v164 (c : Dev nD) : XA m ρ c (Proc.devRef .tc main_v164) = (broadcastInDim S50000 ![] bcast_S_S50000 : (⟨S_, .f32⟩ : BufTy).Contents (Elt F) → (⟨S50000, .f32⟩ : BufTy).Contents (Elt F)) (XA m ρ c (Proc.devRef .tc main_cst_73)) := by
  exact Ssa.ssa_unary alA 287 _ rfl (by decide +kernel) (by decide +kernel)
theorem ssa_main_v165 (c : Dev nD) : XA m ρ c (Proc.devRef .tc main_v165) = (broadcastInDim S400000x1 ![0] bcast_S400000_S400000x1_0 : (⟨S400000, .i32⟩ : BufTy).Contents (Elt F) → (⟨S400000x1, .i32⟩ : BufTy).Contents (Elt F)) (XA m ρ c (Proc.devRef .tc main_v160)) := by
  exact Ssa.ssa_unary alA 288 _ rfl (by decide +kernel) (by decide +kernel)
theorem ssa_main_v166 (c : Dev nD) : XA m ρ c (Proc.devRef .tc main_v166) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v164)) (XA m ρ c (Proc.devRef .tc main_v165)) (XA m ρ c (Proc.devRef .tc main_v0)) := by
  exact Ssa.ssa_ternary alA 289 _ rfl (by decide +kernel) (by decide +kernel) (by decide +kernel) (by decide +kernel)
theorem ssa_main_cst_74 (c : Dev nD) : XA m ρ c (Proc.devRef .tc main_cst_74) = (constant (F := F) S_ .f32 0x00000000#32) := by
  exact Ssa.ssa_nullary alA 290 _ rfl (by decide +kernel)
theorem ssa_main_v167 (c : Dev nD) : XA m ρ c (Proc.devRef .tc main_v167) = (broadcastInDim S50000 ![] bcast_S_S50000 : (⟨S_, .f32⟩ : BufTy).Contents (Elt F) → (⟨S50000, .f32⟩ : BufTy).Contents (Elt F)) (XA m ρ c (Proc.devRef .tc main_cst_74)) := by
  exact Ssa.ssa_unary alA 291 _ rfl (by decide +kernel) (by decide +kernel)
theorem ssa_main_v168 (c : Dev nD) : XA m ρ c (Proc.devRef .tc main_v168) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v163)) (XA m ρ c (Proc.devRef .tc main_v167)) := by
  exact Ssa.ssa_binary alA 292 _ rfl (by decide +kernel) (by decide +kernel) (by decide +kernel)
theorem ssa_main_cst_75 (c : Dev nD) : XA m ρ c (Proc.devRef .tc main_cst_75) = (constant (F := F) S_ .f32 0x3F800000#32) := by
  exact Ssa.ssa_nullary alA 293 _ rfl (by decide +kernel)
theorem ssa_main_call24_v0 (c : Dev nD) : XA m ρ c (Proc.devRef .tc main_call24_v0) = (XA m ρ c (Proc.devRef .tc main_cst_75)) := by
  refine (Ssa.ssa_unary alA 294 _ rfl (by decide +kernel) (by decide +kernel)).trans ?_; simp only [StableHlo.TRef.ofBuf, StableHlo.TRef.toBuf, cast_eq, id]
theorem ssa_main_call24_v1 (c : Dev nD) : XA m ρ c (Proc.devRef .tc main_call24_v1) = (broadcastInDim S50000 ![] bcast_S_S50000) (XA m ρ c (Proc.devRef .tc main_call24_v0)) := by
  refine (Ssa.ssa_unary alA 295 _ rfl (by decide +kernel) (by decide +kernel)).trans ?_; simp only [StableHlo.TRef.ofBuf, StableHlo.TRef.toBuf, cast_eq, id]
theorem ssa_main_v169 (c : Dev nD) : XA m ρ c (Proc.devRef .tc main_v169) = select (XA m ρ c (Proc.devRef .tc main_v168)) (XA m ρ c (Proc.devRef .tc main_v163)) (XA m ρ c (Proc.devRef .tc main_call24_v1)) := by
  refine (Ssa.ssa_ternary alA 296 _ rfl (by decide +kernel) (by decide +kernel) (by decide +kernel) (by decide +kernel)).trans ?_; simp only [StableHlo.TRef.ofBuf, StableHlo.TRef.toBuf, cast_eq]
theorem ssa_main_cst_76 (c : Dev nD) : XA m ρ c (Proc.devRef .tc main_cst_76) = (constant (F := F) S_ .f32 0xBF000000#32) := by
  exact Ssa.ssa_nullary alA 297 _ rfl (by decide +kernel)
theorem ssa_main_v170 (c : Dev nD) : XA m ρ c (Proc.devRef .tc main_v170) = (broadcastInDim S50000 ![] bcast_S_S50000 : (⟨S_, .f32⟩ : BufTy).Contents (Elt F) → (⟨S50000, .f32⟩ : BufTy).Contents (Elt F)) (XA m ρ c (Proc.devRef .tc main_cst_76)) := by
  exact Ssa.ssa_unary alA 298 _ rfl (by decide +kernel) (by decide +kernel)
theorem ssa_main_v171 (c : Dev nD) : XA m ρ c (Proc.devRef .tc main_v171) = (Host.powf : (⟨S50000, .f32⟩ : BufTy).Contents (Elt F) → (⟨S50000, .f32⟩ : BufTy).Contents (Elt F) → (⟨S50000, .f32⟩ : BufTy).Contents (Elt F)) (XA m ρ c (Proc.devRef .tc main_v169)) (XA m ρ c (Proc.devRef .tc main_v170)) := by
  exact Ssa.ssa_binary alA 299 _ rfl (by decide +kernel) (by decide +kernel) (by decide +kernel)
theorem ssa_main_cst_77 (c : Dev nD) : XA m ρ c (Proc.devRef .tc main_cst_77) = (constant (F := F) S_ .f32 0x00000000#32) := by
  exact Ssa.ssa_nullary alA 300 _ rfl (by decide +kernel)
theorem ssa_main_v172 (c : Dev nD) : XA m ρ c (Proc.devRef .tc main_v172) = (broadcastInDim S50000 ![] bcast_S_S50000 : (⟨S_, .f32⟩ : BufTy).Contents (Elt F) → (⟨S50000, .f32⟩ : BufTy).Contents (Elt F)) (XA m ρ c (Proc.devRef .tc main_cst_77)) := by
  exact Ssa.ssa_unary alA 301 _ rfl (by decide +kernel) (by decide +kernel)
theorem ssa_main_v173 (c : Dev nD) : XA m ρ c (Proc.devRef .tc main_v173) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v163)) (XA m ρ c (Proc.devRef .tc main_v172)) := by
  exact Ssa.ssa_binary alA 302 _ rfl (by decide +kernel) (by decide +kernel) (by decide +kernel)
theorem ssa_main_cst_78 (c : Dev nD) : XA m ρ c (Proc.devRef .tc main_cst_78) = (constant (F := F) S_ .f32 0x00000000#32) := by
  exact Ssa.ssa_nullary alA 303 _ rfl (by decide +kernel)
theorem ssa_main_call25_v0 (c : Dev nD) : XA m ρ c (Proc.devRef .tc main_call25_v0) = (XA m ρ c (Proc.devRef .tc main_cst_78)) := by
  refine (Ssa.ssa_unary alA 304 _ rfl (by decide +kernel) (by decide +kernel)).trans ?_; simp only [StableHlo.TRef.ofBuf, StableHlo.TRef.toBuf, cast_eq, id]
theorem ssa_main_call25_v1 (c : Dev nD) : XA m ρ c (Proc.devRef .tc main_call25_v1) = (broadcastInDim S50000 ![] bcast_S_S50000) (XA m ρ c (Proc.devRef .tc main_call25_v0)) := by
  refine (Ssa.ssa_unary alA 305 _ rfl (by decide +kernel) (by decide +kernel)).trans ?_; simp only [StableHlo.TRef.ofBuf, StableHlo.TRef.toBuf, cast_eq, id]
theorem ssa_main_v174 (c : Dev nD) : XA m ρ c (Proc.devRef .tc main_v174) = select (XA m ρ c (Proc.devRef .tc main_v173)) (XA m ρ c (Proc.devRef .tc main_v171)) (XA m ρ c (Proc.devRef .tc main_call25_v1)) := by
  refine (Ssa.ssa_ternary alA 306 _ rfl (by decide +kernel) (by decide +kernel) (by decide +kernel) (by decide +kernel)).trans ?_; simp only [StableHlo.TRef.ofBuf, StableHlo.TRef.toBuf, cast_eq]
theorem ssa_main_cst_79 (c : Dev nD) : XA m ρ c (Proc.devRef .tc main_cst_79) = (constant (F := F) S_ .f32 0x00000000#32) := by
  exact Ssa.ssa_nullary alA 307 _ rfl (by decide +kernel)
theorem ssa_main_v175 (c : Dev nD) : XA m ρ c (Proc.devRef .tc main_v175) = (broadcastInDim S50000 ![] bcast_S_S50000 : (⟨S_, .f32⟩ : BufTy).Contents (Elt F) → (⟨S50000, .f32⟩ : BufTy).Contents (Elt F)) (XA m ρ c (Proc.devRef .tc main_cst_79)) := by
  exact Ssa.ssa_unary alA 308 _ rfl (by decide +kernel) (by decide +kernel)
theorem ssa_main_v176 (c : Dev nD) : XA m ρ c (Proc.devRef .tc main_v176) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v166)) (XA m ρ c (Proc.devRef .tc main_v175)) := by
  exact Ssa.ssa_binary alA 309 _ rfl (by decide +kernel) (by decide +kernel) (by decide +kernel)
theorem ssa_main_cst_80 (c : Dev nD) : XA m ρ c (Proc.devRef .tc main_cst_80) = (constant (F := F) S_ .f32 0x3F800000#32) := by
  exact Ssa.ssa_nullary alA 310 _ rfl (by decide +kernel)
theorem ssa_main_call26_v0 (c : Dev nD) : XA m ρ c (Proc.devRef .tc main_call26_v0) = (XA m ρ c (Proc.devRef .tc main_cst_80)) := by
  refine (Ssa.ssa_unary alA 311 _ rfl (by decide +kernel) (by decide +kernel)).trans ?_; simp only [StableHlo.TRef.ofBuf, StableHlo.TRef.toBuf, cast_eq, id]
theorem ssa_main_call26_v1 (c : Dev nD) : XA m ρ c (Proc.devRef .tc main_call26_v1) = (broadcastInDim S50000 ![] bcast_S_S50000) (XA m ρ c (Proc.devRef .tc main_call26_v0)) := by
  refine (Ssa.ssa_unary alA 312 _ rfl (by decide +kernel) (by decide +kernel)).trans ?_; simp only [StableHlo.TRef.ofBuf, StableHlo.TRef.toBuf, cast_eq, id]
theorem ssa_main_v177 (c : Dev nD) : XA m ρ c (Proc.devRef .tc main_v177) = select (XA m ρ c (Proc.devRef .tc main_v176)) (XA m ρ c (Proc.devRef .tc main_v166)) (XA m ρ c (Proc.devRef .tc main_call26_v1)) := by
  refine (Ssa.ssa_ternary alA 313 _ rfl (by decide +kernel) (by decide +kernel) (by decide +kernel) (by decide +kernel)).trans ?_; simp only [StableHlo.TRef.ofBuf, StableHlo.TRef.toBuf, cast_eq]
theorem ssa_main_cst_81 (c : Dev nD) : XA m ρ c (Proc.devRef .tc main_cst_81) = (constant (F := F) S_ .f32 0xBF000000#32) := by
  exact Ssa.ssa_nullary alA 314 _ rfl (by decide +kernel)
theorem ssa_main_v178 (c : Dev nD) : XA m ρ c (Proc.devRef .tc main_v178) = (broadcastInDim S50000 ![] bcast_S_S50000 : (⟨S_, .f32⟩ : BufTy).Contents (Elt F) → (⟨S50000, .f32⟩ : BufTy).Contents (Elt F)) (XA m ρ c (Proc.devRef .tc main_cst_81)) := by
  exact Ssa.ssa_unary alA 315 _ rfl (by decide +kernel) (by decide +kernel)
theorem ssa_main_v179 (c : Dev nD) : XA m ρ c (Proc.devRef .tc main_v179) = (Host.powf : (⟨S50000, .f32⟩ : BufTy).Contents (Elt F) → (⟨S50000, .f32⟩ : BufTy).Contents (Elt F) → (⟨S50000, .f32⟩ : BufTy).Contents (Elt F)) (XA m ρ c (Proc.devRef .tc main_v177)) (XA m ρ c (Proc.devRef .tc main_v178)) := by
  exact Ssa.ssa_binary alA 316 _ rfl (by decide +kernel) (by decide +kernel) (by decide +kernel)
theorem ssa_main_cst_82 (c : Dev nD) : XA m ρ c (Proc.devRef .tc main_cst_82) = (constant (F := F) S_ .f32 0x00000000#32) := by
  exact Ssa.ssa_nullary alA 317 _ rfl (by decide +kernel)
theorem ssa_main_v180 (c : Dev nD) : XA m ρ c (Proc.devRef .tc main_v180) = (broadcastInDim S50000 ![] bcast_S_S50000 : (⟨S_, .f32⟩ : BufTy).Contents (Elt F) → (⟨S50000, .f32⟩ : BufTy).Contents (Elt F)) (XA m ρ c (Proc.devRef .tc main_cst_82)) := by
  exact Ssa.ssa_unary alA 318 _ rfl (by decide +kernel) (by decide +kernel)
theorem ssa_main_v181 (c : Dev nD) : XA m ρ c (Proc.devRef .tc main_v181) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v166)) (XA m ρ c (Proc.devRef .tc main_v180)) := by
  exact Ssa.ssa_binary alA 319 _ rfl (by decide +kernel) (by decide +kernel) (by decide +kernel)
theorem ssa_main_cst_83 (c : Dev nD) : XA m ρ c (Proc.devRef .tc main_cst_83) = (constant (F := F) S_ .f32 0x00000000#32) := by
  exact Ssa.ssa_nullary alA 320 _ rfl (by decide +kernel)
theorem ssa_main_call27_v0 (c : Dev nD) : XA m ρ c (Proc.devRef .tc main_call27_v0) = (XA m ρ c (Proc.devRef .tc main_cst_83)) := by
  refine (Ssa.ssa_unary alA 321 _ rfl (by decide +kernel) (by decide +kernel)).trans ?_; simp only [StableHlo.TRef.ofBuf, StableHlo.TRef.toBuf, cast_eq, id]
theorem ssa_main_call27_v1 (c : Dev nD) : XA m ρ c (Proc.devRef .tc main_call27_v1) = (broadcastInDim S50000 ![] bcast_S_S50000) (XA m ρ c (Proc.devRef .tc main_call27_v0)) := by
  refine (Ssa.ssa_unary alA 322 _ rfl (by decide +kernel) (by decide +kernel)).trans ?_; simp only [StableHlo.TRef.ofBuf, StableHlo.TRef.toBuf, cast_eq, id]
theorem ssa_main_v182 (c : Dev nD) : XA m ρ c (Proc.devRef .tc main_v182) = select (XA m ρ c (Proc.devRef .tc main_v181)) (XA m ρ c (Proc.devRef .tc main_v179)) (XA m ρ c (Proc.devRef .tc main_call27_v1)) := by
  refine (Ssa.ssa_ternary alA 323 _ rfl (by decide +kernel) (by decide +kernel) (by decide +kernel) (by decide +kernel)).trans ?_; simp only [StableHlo.TRef.ofBuf, StableHlo.TRef.toBuf, cast_eq]

end Cert.KernelIdeal.Rd

end
-- ==== Proof.KI.TabA4.lean ====
/-
  The single-assignment equations of @main's host operations before the first pallas_call, part 4 of 6: operations 324 to 431 of the one line.
-/
import proofs.«151568_j90031104458821_2_alg».proof.Proof.KI.TabA

set_option maxRecDepth 65536

noncomputable section

namespace Cert.KernelIdeal.Rd

open Cert.KernelIdeal Cert.KernelIdeal.Gen Cert.KernelIdeal.Fr Idealize.ShloMosaic Idealize.ShloMosaic.StableHlo Idealize.SL.Sem Cert

variable {F : FTy → Type} [FloatOps F]
variable (m : (ℓ : Loc nD τ sig) → Buf (Elt F) ℓ) (ρ : Dev nD → PrngReg)

theorem ssa_main_v183 (c : Dev nD) : XA m ρ c (Proc.devRef .tc main_v183) = ((extractStridedSlice S1x1x400000 ![7, 0, 0] · slices_S9x2x400000_S1x1x400000_7_0_0) : (⟨S9x2x400000, .i32⟩ : BufTy).Contents (Elt F) → (⟨S1x1x400000, .i32⟩ : BufTy).Contents (Elt F)) (XA m ρ c (Proc.devRef .tc main_arg9)) := by
  exact Ssa.ssa_unary alA 324 _ rfl (by decide +kernel) (by decide +kernel)
theorem ssa_main_v184 (c : Dev nD) : XA m ρ c (Proc.devRef .tc main_v184) = shapeCast S400000 (XA m ρ c (Proc.devRef .tc main_v183)) shapeCasts_S1x1x400000_S400000 := by
  exact Ssa.ssa_reshape (x := main_v183) (y := main_v184) (he := rfl) (hn := shapeCasts_S1x1x400000_S400000) alA 325 _ rfl (by decide +kernel) (by decide +kernel)
theorem ssa_main_v185 (c : Dev nD) : XA m ρ c (Proc.devRef .tc main_v185) = ((extractStridedSlice S1x1x400000 ![7, 1, 0] · slices_S9x2x400000_S1x1x400000_7_1_0) : (⟨S9x2x400000, .i32⟩ : BufTy).Contents (Elt F) → (⟨S1x1x400000, .i32⟩ : BufTy).Contents (Elt F)) (XA m ρ c (Proc.devRef .tc main_arg9)) := by
  exact Ssa.ssa_unary alA 326 _ rfl (by decide +kernel) (by decide +kernel)
theorem ssa_main_v186 (c : Dev nD) : XA m ρ c (Proc.devRef .tc main_v186) = shapeCast S400000 (XA m ρ c (Proc.devRef .tc main_v185)) shapeCasts_S1x1x400000_S400000 := by
  exact Ssa.ssa_reshape (x := main_v185) (y := main_v186) (he := rfl) (hn := shapeCasts_S1x1x400000_S400000) alA 327 _ rfl (by decide +kernel) (by decide +kernel)
theorem ssa_main_cst_84 (c : Dev nD) : XA m ρ c (Proc.devRef .tc main_cst_84) = (constant (F := F) S_ .f32 0x00000000#32) := by
  exact Ssa.ssa_nullary alA 328 _ rfl (by decide +kernel)
theorem ssa_main_v187 (c : Dev nD) : XA m ρ c (Proc.devRef .tc main_v187) = (broadcastInDim S50000 ![] bcast_S_S50000 : (⟨S_, .f32⟩ : BufTy).Contents (Elt F) → (⟨S50000, .f32⟩ : BufTy).Contents (Elt F)) (XA m ρ c (Proc.devRef .tc main_cst_84)) := by
  exact Ssa.ssa_unary alA 329 _ rfl (by decide +kernel) (by decide +kernel)
theorem ssa_main_v188 (c : Dev nD) : XA m ρ c (Proc.devRef .tc main_v188) = (broadcastInDim S400000x1 ![0] bcast_S400000_S400000x1_0 : (⟨S400000, .i32⟩ : BufTy).Contents (Elt F) → (⟨S400000x1, .i32⟩ : BufTy).Contents (Elt F)) (XA m ρ c (Proc.devRef .tc main_v184)) := by
  exact Ssa.ssa_unary alA 330 _ rfl (by decide +kernel) (by decide +kernel)
theorem ssa_main_v189 (c : Dev nD) : XA m ρ c (Proc.devRef .tc main_v189) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v187)) (XA m ρ c (Proc.devRef .tc main_v188)) (XA m ρ c (Proc.devRef .tc main_v0)) := by
  exact Ssa.ssa_ternary alA 331 _ rfl (by decide +kernel) (by decide +kernel) (by decide +kernel) (by decide +kernel)
theorem ssa_main_cst_85 (c : Dev nD) : XA m ρ c (Proc.devRef .tc main_cst_85) = (constant (F := F) S_ .f32 0x00000000#32) := by
  exact Ssa.ssa_nullary alA 332 _ rfl (by decide +kernel)
theorem ssa_main_v190 (c : Dev nD) : XA m ρ c (Proc.devRef .tc main_v190) = (broadcastInDim S50000 ![] bcast_S_S50000 : (⟨S_, .f32⟩ : BufTy).Contents (Elt F) → (⟨S50000, .f32⟩ : BufTy).Contents (Elt F)) (XA m ρ c (Proc.devRef .tc main_cst_85)) := by
  exact Ssa.ssa_unary alA 333 _ rfl (by decide +kernel) (by decide +kernel)
theorem ssa_main_v191 (c : Dev nD) : XA m ρ c (Proc.devRef .tc main_v191) = (broadcastInDim S400000x1 ![0] bcast_S400000_S400000x1_0 : (⟨S400000, .i32⟩ : BufTy).Contents (Elt F) → (⟨S400000x1, .i32⟩ : BufTy).Contents (Elt F)) (XA m ρ c (Proc.devRef .tc main_v186)) := by
  exact Ssa.ssa_unary alA 334 _ rfl (by decide +kernel) (by decide +kernel)
theorem ssa_main_v192 (c : Dev nD) : XA m ρ c (Proc.devRef .tc main_v192) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v190)) (XA m ρ c (Proc.devRef .tc main_v191)) (XA m ρ c (Proc.devRef .tc main_v0)) := by
  exact Ssa.ssa_ternary alA 335 _ rfl (by decide +kernel) (by decide +kernel) (by decide +kernel) (by decide +kernel)
theorem ssa_main_cst_86 (c : Dev nD) : XA m ρ c (Proc.devRef .tc main_cst_86) = (constant (F := F) S_ .f32 0x00000000#32) := by
  exact Ssa.ssa_nullary alA 336 _ rfl (by decide +kernel)
theorem ssa_main_v193 (c : Dev nD) : XA m ρ c (Proc.devRef .tc main_v193) = (broadcastInDim S50000 ![] bcast_S_S50000 : (⟨S_, .f32⟩ : BufTy).Contents (Elt F) → (⟨S50000, .f32⟩ : BufTy).Contents (Elt F)) (XA m ρ c (Proc.devRef .tc main_cst_86)) := by
  exact Ssa.ssa_unary alA 337 _ rfl (by decide +kernel) (by decide +kernel)
theorem ssa_main_v194 (c : Dev nD) : XA m ρ c (Proc.devRef .tc main_v194) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v189)) (XA m ρ c (Proc.devRef .tc main_v193)) := by
  exact Ssa.ssa_binary alA 338 _ rfl (by decide +kernel) (by decide +kernel) (by decide +kernel)
theorem ssa_main_cst_87 (c : Dev nD) : XA m ρ c (Proc.devRef .tc main_cst_87) = (constant (F := F) S_ .f32 0x3F800000#32) := by
  exact Ssa.ssa_nullary alA 339 _ rfl (by decide +kernel)
theorem ssa_main_call28_v0 (c : Dev nD) : XA m ρ c (Proc.devRef .tc main_call28_v0) = (XA m ρ c (Proc.devRef .tc main_cst_87)) := by
  refine (Ssa.ssa_unary alA 340 _ rfl (by decide +kernel) (by decide +kernel)).trans ?_; simp only [StableHlo.TRef.ofBuf, StableHlo.TRef.toBuf, cast_eq, id]
theorem ssa_main_call28_v1 (c : Dev nD) : XA m ρ c (Proc.devRef .tc main_call28_v1) = (broadcastInDim S50000 ![] bcast_S_S50000) (XA m ρ c (Proc.devRef .tc main_call28_v0)) := by
  refine (Ssa.ssa_unary alA 341 _ rfl (by decide +kernel) (by decide +kernel)).trans ?_; simp only [StableHlo.TRef.ofBuf, StableHlo.TRef.toBuf, cast_eq, id]
theorem ssa_main_v195 (c : Dev nD) : XA m ρ c (Proc.devRef .tc main_v195) = select (XA m ρ c (Proc.devRef .tc main_v194)) (XA m ρ c (Proc.devRef .tc main_v189)) (XA m ρ c (Proc.devRef .tc main_call28_v1)) := by
  refine (Ssa.ssa_ternary alA 342 _ rfl (by decide +kernel) (by decide +kernel) (by decide +kernel) (by decide +kernel)).trans ?_; simp only [StableHlo.TRef.ofBuf, StableHlo.TRef.toBuf, cast_eq]
theorem ssa_main_cst_88 (c : Dev nD) : XA m ρ c (Proc.devRef .tc main_cst_88) = (constant (F := F) S_ .f32 0xBF000000#32) := by
  exact Ssa.ssa_nullary alA 343 _ rfl (by decide +kernel)
theorem ssa_main_v196 (c : Dev nD) : XA m ρ c (Proc.devRef .tc main_v196) = (broadcastInDim S50000 ![] bcast_S_S50000 : (⟨S_, .f32⟩ : BufTy).Contents (Elt F) → (⟨S50000, .f32⟩ : BufTy).Contents (Elt F)) (XA m ρ c (Proc.devRef .tc main_cst_88)) := by
  exact Ssa.ssa_unary alA 344 _ rfl (by decide +kernel) (by decide +kernel)
theorem ssa_main_v197 (c : Dev nD) : XA m ρ c (Proc.devRef .tc main_v197) = (Host.powf : (⟨S50000, .f32⟩ : BufTy).Contents (Elt F) → (⟨S50000, .f32⟩ : BufTy).Contents (Elt F) → (⟨S50000, .f32⟩ : BufTy).Contents (Elt F)) (XA m ρ c (Proc.devRef .tc main_v195)) (XA m ρ c (Proc.devRef .tc main_v196)) := by
  exact Ssa.ssa_binary alA 345 _ rfl (by decide +kernel) (by decide +kernel) (by decide +kernel)
theorem ssa_main_cst_89 (c : Dev nD) : XA m ρ c (Proc.devRef .tc main_cst_89) = (constant (F := F) S_ .f32 0x00000000#32) := by
  exact Ssa.ssa_nullary alA 346 _ rfl (by decide +kernel)
theorem ssa_main_v198 (c : Dev nD) : XA m ρ c (Proc.devRef .tc main_v198) = (broadcastInDim S50000 ![] bcast_S_S50000 : (⟨S_, .f32⟩ : BufTy).Contents (Elt F) → (⟨S50000, .f32⟩ : BufTy).Contents (Elt F)) (XA m ρ c (Proc.devRef .tc main_cst_89)) := by
  exact Ssa.ssa_unary alA 347 _ rfl (by decide +kernel) (by decide +kernel)
theorem ssa_main_v199 (c : Dev nD) : XA m ρ c (Proc.devRef .tc main_v199) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v189)) (XA m ρ c (Proc.devRef .tc main_v198)) := by
  exact Ssa.ssa_binary alA 348 _ rfl (by decide +kernel) (by decide +kernel) (by decide +kernel)
theorem ssa_main_cst_90 (c : Dev nD) : XA m ρ c (Proc.devRef .tc main_cst_90) = (constant (F := F) S_ .f32 0x00000000#32) := by
  exact Ssa.ssa_nullary alA 349 _ rfl (by decide +kernel)
theorem ssa_main_call29_v0 (c : Dev nD) : XA m ρ c (Proc.devRef .tc main_call29_v0) = (XA m ρ c (Proc.devRef .tc main_cst_90)) := by
  refine (Ssa.ssa_unary alA 350 _ rfl (by decide +kernel) (by decide +kernel)).trans ?_; simp only [StableHlo.TRef.ofBuf, StableHlo.TRef.toBuf, cast_eq, id]
theorem ssa_main_call29_v1 (c : Dev nD) : XA m ρ c (Proc.devRef .tc main_call29_v1) = (broadcastInDim S50000 ![] bcast_S_S50000) (XA m ρ c (Proc.devRef .tc main_call29_v0)) := by
  refine (Ssa.ssa_unary alA 351 _ rfl (by decide +kernel) (by decide +kernel)).trans ?_; simp only [StableHlo.TRef.ofBuf, StableHlo.TRef.toBuf, cast_eq, id]
theorem ssa_main_v200 (c : Dev nD) : XA m ρ c (Proc.devRef .tc main_v200) = select (XA m ρ c (Proc.devRef .tc main_v199)) (XA m ρ c (Proc.devRef .tc main_v197)) (XA m ρ c (Proc.devRef .tc main_call29_v1)) := by
  refine (Ssa.ssa_ternary alA 352 _ rfl (by decide +kernel) (by decide +kernel) (by decide +kernel) (by decide +kernel)).trans ?_; simp only [StableHlo.TRef.ofBuf, StableHlo.TRef.toBuf, cast_eq]
theorem ssa_main_cst_91 (c : Dev nD) : XA m ρ c (Proc.devRef .tc main_cst_91) = (constant (F := F) S_ .f32 0x00000000#32) := by
  exact Ssa.ssa_nullary alA 353 _ rfl (by decide +kernel)
theorem ssa_main_v201 (c : Dev nD) : XA m ρ c (Proc.devRef .tc main_v201) = (broadcastInDim S50000 ![] bcast_S_S50000 : (⟨S_, .f32⟩ : BufTy).Contents (Elt F) → (⟨S50000, .f32⟩ : BufTy).Contents (Elt F)) (XA m ρ c (Proc.devRef .tc main_cst_91)) := by
  exact Ssa.ssa_unary alA 354 _ rfl (by decide +kernel) (by decide +kernel)
theorem ssa_main_v202 (c : Dev nD) : XA m ρ c (Proc.devRef .tc main_v202) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v192)) (XA m ρ c (Proc.devRef .tc main_v201)) := by
  exact Ssa.ssa_binary alA 355 _ rfl (by decide +kernel) (by decide +kernel) (by decide +kernel)
theorem ssa_main_cst_92 (c : Dev nD) : XA m ρ c (Proc.devRef .tc main_cst_92) = (constant (F := F) S_ .f32 0x3F800000#32) := by
  exact Ssa.ssa_nullary alA 356 _ rfl (by decide +kernel)
theorem ssa_main_call30_v0 (c : Dev nD) : XA m ρ c (Proc.devRef .tc main_call30_v0) = (XA m ρ c (Proc.devRef .tc main_cst_92)) := by
  refine (Ssa.ssa_unary alA 357 _ rfl (by decide +kernel) (by decide +kernel)).trans ?_; simp only [StableHlo.TRef.ofBuf, StableHlo.TRef.toBuf, cast_eq, id]
theorem ssa_main_call30_v1 (c : Dev nD) : XA m ρ c (Proc.devRef .tc main_call30_v1) = (broadcastInDim S50000 ![] bcast_S_S50000) (XA m ρ c (Proc.devRef .tc main_call30_v0)) := by
  refine (Ssa.ssa_unary alA 358 _ rfl (by decide +kernel) (by decide +kernel)).trans ?_; simp only [StableHlo.TRef.ofBuf, StableHlo.TRef.toBuf, cast_eq, id]
theorem ssa_main_v203 (c : Dev nD) : XA m ρ c (Proc.devRef .tc main_v203) = select (XA m ρ c (Proc.devRef .tc main_v202)) (XA m ρ c (Proc.devRef .tc main_v192)) (XA m ρ c (Proc.devRef .tc main_call30_v1)) := by
  refine (Ssa.ssa_ternary alA 359 _ rfl (by decide +kernel) (by decide +kernel) (by decide +kernel) (by decide +kernel)).trans ?_; simp only [StableHlo.TRef.ofBuf, StableHlo.TRef.toBuf, cast_eq]
theorem ssa_main_cst_93 (c : Dev nD) : XA m ρ c (Proc.devRef .tc main_cst_93) = (constant (F := F) S_ .f32 0xBF000000#32) := by
  exact Ssa.ssa_nullary alA 360 _ rfl (by decide +kernel)
theorem ssa_main_v204 (c : Dev nD) : XA m ρ c (Proc.devRef .tc main_v204) = (broadcastInDim S50000 ![] bcast_S_S50000 : (⟨S_, .f32⟩ : BufTy).Contents (Elt F) → (⟨S50000, .f32⟩ : BufTy).Contents (Elt F)) (XA m ρ c (Proc.devRef .tc main_cst_93)) := by
  exact Ssa.ssa_unary alA 361 _ rfl (by decide +kernel) (by decide +kernel)
theorem ssa_main_v205 (c : Dev nD) : XA m ρ c (Proc.devRef .tc main_v205) = (Host.powf : (⟨S50000, .f32⟩ : BufTy).Contents (Elt F) → (⟨S50000, .f32⟩ : BufTy).Contents (Elt F) → (⟨S50000, .f32⟩ : BufTy).Contents (Elt F)) (XA m ρ c (Proc.devRef .tc main_v203)) (XA m ρ c (Proc.devRef .tc main_v204)) := by
  exact Ssa.ssa_binary alA 362 _ rfl (by decide +kernel) (by decide +kernel) (by decide +kernel)
theorem ssa_main_cst_94 (c : Dev nD) : XA m ρ c (Proc.devRef .tc main_cst_94) = (constant (F := F) S_ .f32 0x00000000#32) := by
  exact Ssa.ssa_nullary alA 363 _ rfl (by decide +kernel)
theorem ssa_main_v206 (c : Dev nD) : XA m ρ c (Proc.devRef .tc main_v206) = (broadcastInDim S50000 ![] bcast_S_S50000 : (⟨S_, .f32⟩ : BufTy).Contents (Elt F) → (⟨S50000, .f32⟩ : BufTy).Contents (Elt F)) (XA m ρ c (Proc.devRef .tc main_cst_94)) := by
  exact Ssa.ssa_unary alA 364 _ rfl (by decide +kernel) (by decide +kernel)
theorem ssa_main_v207 (c : Dev nD) : XA m ρ c (Proc.devRef .tc main_v207) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v192)) (XA m ρ c (Proc.devRef .tc main_v206)) := by
  exact Ssa.ssa_binary alA 365 _ rfl (by decide +kernel) (by decide +kernel) (by decide +kernel)
theorem ssa_main_cst_95 (c : Dev nD) : XA m ρ c (Proc.devRef .tc main_cst_95) = (constant (F := F) S_ .f32 0x00000000#32) := by
  exact Ssa.ssa_nullary alA 366 _ rfl (by decide +kernel)
theorem ssa_main_call31_v0 (c : Dev nD) : XA m ρ c (Proc.devRef .tc main_call31_v0) = (XA m ρ c (Proc.devRef .tc main_cst_95)) := by
  refine (Ssa.ssa_unary alA 367 _ rfl (by decide +kernel) (by decide +kernel)).trans ?_; simp only [StableHlo.TRef.ofBuf, StableHlo.TRef.toBuf, cast_eq, id]
theorem ssa_main_call31_v1 (c : Dev nD) : XA m ρ c (Proc.devRef .tc main_call31_v1) = (broadcastInDim S50000 ![] bcast_S_S50000) (XA m ρ c (Proc.devRef .tc main_call31_v0)) := by
  refine (Ssa.ssa_unary alA 368 _ rfl (by decide +kernel) (by decide +kernel)).trans ?_; simp only [StableHlo.TRef.ofBuf, StableHlo.TRef.toBuf, cast_eq, id]
theorem ssa_main_v208 (c : Dev nD) : XA m ρ c (Proc.devRef .tc main_v208) = select (XA m ρ c (Proc.devRef .tc main_v207)) (XA m ρ c (Proc.devRef .tc main_v205)) (XA m ρ c (Proc.devRef .tc main_call31_v1)) := by
  refine (Ssa.ssa_ternary alA 369 _ rfl (by decide +kernel) (by decide +kernel) (by decide +kernel) (by decide +kernel)).trans ?_; simp only [StableHlo.TRef.ofBuf, StableHlo.TRef.toBuf, cast_eq]
theorem ssa_main_v209 (c : Dev nD) : XA m ρ c (Proc.devRef .tc main_v209) = ((extractStridedSlice S1x1x400000 ![8, 0, 0] · slices_S9x2x400000_S1x1x400000_8_0_0) : (⟨S9x2x400000, .i32⟩ : BufTy).Contents (Elt F) → (⟨S1x1x400000, .i32⟩ : BufTy).Contents (Elt F)) (XA m ρ c (Proc.devRef .tc main_arg9)) := by
  exact Ssa.ssa_unary alA 370 _ rfl (by decide +kernel) (by decide +kernel)
theorem ssa_main_v210 (c : Dev nD) : XA m ρ c (Proc.devRef .tc main_v210) = shapeCast S400000 (XA m ρ c (Proc.devRef .tc main_v209)) shapeCasts_S1x1x400000_S400000 := by
  exact Ssa.ssa_reshape (x := main_v209) (y := main_v210) (he := rfl) (hn := shapeCasts_S1x1x400000_S400000) alA 371 _ rfl (by decide +kernel) (by decide +kernel)
theorem ssa_main_v211 (c : Dev nD) : XA m ρ c (Proc.devRef .tc main_v211) = ((extractStridedSlice S1x1x400000 ![8, 1, 0] · slices_S9x2x400000_S1x1x400000_8_1_0) : (⟨S9x2x400000, .i32⟩ : BufTy).Contents (Elt F) → (⟨S1x1x400000, .i32⟩ : BufTy).Contents (Elt F)) (XA m ρ c (Proc.devRef .tc main_arg9)) := by
  exact Ssa.ssa_unary alA 372 _ rfl (by decide +kernel) (by decide +kernel)
theorem ssa_main_v212 (c : Dev nD) : XA m ρ c (Proc.devRef .tc main_v212) = shapeCast S400000 (XA m ρ c (Proc.devRef .tc main_v211)) shapeCasts_S1x1x400000_S400000 := by
  exact Ssa.ssa_reshape (x := main_v211) (y := main_v212) (he := rfl) (hn := shapeCasts_S1x1x400000_S400000) alA 373 _ rfl (by decide +kernel) (by decide +kernel)
theorem ssa_main_cst_96 (c : Dev nD) : XA m ρ c (Proc.devRef .tc main_cst_96) = (constant (F := F) S_ .f32 0x00000000#32) := by
  exact Ssa.ssa_nullary alA 374 _ rfl (by decide +kernel)
theorem ssa_main_v213 (c : Dev nD) : XA m ρ c (Proc.devRef .tc main_v213) = (broadcastInDim S50000 ![] bcast_S_S50000 : (⟨S_, .f32⟩ : BufTy).Contents (Elt F) → (⟨S50000, .f32⟩ : BufTy).Contents (Elt F)) (XA m ρ c (Proc.devRef .tc main_cst_96)) := by
  exact Ssa.ssa_unary alA 375 _ rfl (by decide +kernel) (by decide +kernel)
theorem ssa_main_v214 (c : Dev nD) : XA m ρ c (Proc.devRef .tc main_v214) = (broadcastInDim S400000x1 ![0] bcast_S400000_S400000x1_0 : (⟨S400000, .i32⟩ : BufTy).Contents (Elt F) → (⟨S400000x1, .i32⟩ : BufTy).Contents (Elt F)) (XA m ρ c (Proc.devRef .tc main_v210)) := by
  exact Ssa.ssa_unary alA 376 _ rfl (by decide +kernel) (by decide +kernel)
theorem ssa_main_v215 (c : Dev nD) : XA m ρ c (Proc.devRef .tc main_v215) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v213)) (XA m ρ c (Proc.devRef .tc main_v214)) (XA m ρ c (Proc.devRef .tc main_v0)) := by
  exact Ssa.ssa_ternary alA 377 _ rfl (by decide +kernel) (by decide +kernel) (by decide +kernel) (by decide +kernel)
theorem ssa_main_cst_97 (c : Dev nD) : XA m ρ c (Proc.devRef .tc main_cst_97) = (constant (F := F) S_ .f32 0x00000000#32) := by
  exact Ssa.ssa_nullary alA 378 _ rfl (by decide +kernel)
theorem ssa_main_v216 (c : Dev nD) : XA m ρ c (Proc.devRef .tc main_v216) = (broadcastInDim S50000 ![] bcast_S_S50000 : (⟨S_, .f32⟩ : BufTy).Contents (Elt F) → (⟨S50000, .f32⟩ : BufTy).Contents (Elt F)) (XA m ρ c (Proc.devRef .tc main_cst_97)) := by
  exact Ssa.ssa_unary alA 379 _ rfl (by decide +kernel) (by decide +kernel)
theorem ssa_main_v217 (c : Dev nD) : XA m ρ c (Proc.devRef .tc main_v217) = (broadcastInDim S400000x1 ![0] bcast_S400000_S400000x1_0 : (⟨S400000, .i32⟩ : BufTy).Contents (Elt F) → (⟨S400000x1, .i32⟩ : BufTy).Contents (Elt F)) (XA m ρ c (Proc.devRef .tc main_v212)) := by
  exact Ssa.ssa_unary alA 380 _ rfl (by decide +kernel) (by decide +kernel)
theorem ssa_main_v218 (c : Dev nD) : XA m ρ c (Proc.devRef .tc main_v218) = ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) (XA m ρ c (Proc.devRef .tc main_v216)) (XA m ρ c (Proc.devRef .tc main_v217)) (XA m ρ c (Proc.devRef .tc main_v0)) := by
  exact Ssa.ssa_ternary alA 381 _ rfl (by decide +kernel) (by decide +kernel) (by decide +kernel) (by decide +kernel)
theorem ssa_main_cst_98 (c : Dev nD) : XA m ρ c (Proc.devRef .tc main_cst_98) = (constant (F := F) S_ .f32 0x00000000#32) := by
  exact Ssa.ssa_nullary alA 382 _ rfl (by decide +kernel)
theorem ssa_main_v219 (c : Dev nD) : XA m ρ c (Proc.devRef .tc main_v219) = (broadcastInDim S50000 ![] bcast_S_S50000 : (⟨S_, .f32⟩ : BufTy).Contents (Elt F) → (⟨S50000, .f32⟩ : BufTy).Contents (Elt F)) (XA m ρ c (Proc.devRef .tc main_cst_98)) := by
  exact Ssa.ssa_unary alA 383 _ rfl (by decide +kernel) (by decide +kernel)
theorem ssa_main_v220 (c : Dev nD) : XA m ρ c (Proc.devRef .tc main_v220) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v215)) (XA m ρ c (Proc.devRef .tc main_v219)) := by
  exact Ssa.ssa_binary alA 384 _ rfl (by decide +kernel) (by decide +kernel) (by decide +kernel)
theorem ssa_main_cst_99 (c : Dev nD) : XA m ρ c (Proc.devRef .tc main_cst_99) = (constant (F := F) S_ .f32 0x3F800000#32) := by
  exact Ssa.ssa_nullary alA 385 _ rfl (by decide +kernel)
theorem ssa_main_call32_v0 (c : Dev nD) : XA m ρ c (Proc.devRef .tc main_call32_v0) = (XA m ρ c (Proc.devRef .tc main_cst_99)) := by
  refine (Ssa.ssa_unary alA 386 _ rfl (by decide +kernel) (by decide +kernel)).trans ?_; simp only [StableHlo.TRef.ofBuf, StableHlo.TRef.toBuf, cast_eq, id]
theorem ssa_main_call32_v1 (c : Dev nD) : XA m ρ c (Proc.devRef .tc main_call32_v1) = (broadcastInDim S50000 ![] bcast_S_S50000) (XA m ρ c (Proc.devRef .tc main_call32_v0)) := by
  refine (Ssa.ssa_unary alA 387 _ rfl (by decide +kernel) (by decide +kernel)).trans ?_; simp only [StableHlo.TRef.ofBuf, StableHlo.TRef.toBuf, cast_eq, id]
theorem ssa_main_v221 (c : Dev nD) : XA m ρ c (Proc.devRef .tc main_v221) = select (XA m ρ c (Proc.devRef .tc main_v220)) (XA m ρ c (Proc.devRef .tc main_v215)) (XA m ρ c (Proc.devRef .tc main_call32_v1)) := by
  refine (Ssa.ssa_ternary alA 388 _ rfl (by decide +kernel) (by decide +kernel) (by decide +kernel) (by decide +kernel)).trans ?_; simp only [StableHlo.TRef.ofBuf, StableHlo.TRef.toBuf, cast_eq]
theorem ssa_main_cst_100 (c : Dev nD) : XA m ρ c (Proc.devRef .tc main_cst_100) = (constant (F := F) S_ .f32 0xBF000000#32) := by
  exact Ssa.ssa_nullary alA 389 _ rfl (by decide +kernel)
theorem ssa_main_v222 (c : Dev nD) : XA m ρ c (Proc.devRef .tc main_v222) = (broadcastInDim S50000 ![] bcast_S_S50000 : (⟨S_, .f32⟩ : BufTy).Contents (Elt F) → (⟨S50000, .f32⟩ : BufTy).Contents (Elt F)) (XA m ρ c (Proc.devRef .tc main_cst_100)) := by
  exact Ssa.ssa_unary alA 390 _ rfl (by decide +kernel) (by decide +kernel)
theorem ssa_main_v223 (c : Dev nD) : XA m ρ c (Proc.devRef .tc main_v223) = (Host.powf : (⟨S50000, .f32⟩ : BufTy).Contents (Elt F) → (⟨S50000, .f32⟩ : BufTy).Contents (Elt F) → (⟨S50000, .f32⟩ : BufTy).Contents (Elt F)) (XA m ρ c (Proc.devRef .tc main_v221)) (XA m ρ c (Proc.devRef .tc main_v222)) := by
  exact Ssa.ssa_binary alA 391 _ rfl (by decide +kernel) (by decide +kernel) (by decide +kernel)
theorem ssa_main_cst_101 (c : Dev nD) : XA m ρ c (Proc.devRef .tc main_cst_101) = (constant (F := F) S_ .f32 0x00000000#32) := by
  exact Ssa.ssa_nullary alA 392 _ rfl (by decide +kernel)
theorem ssa_main_v224 (c : Dev nD) : XA m ρ c (Proc.devRef .tc main_v224) = (broadcastInDim S50000 ![] bcast_S_S50000 : (⟨S_, .f32⟩ : BufTy).Contents (Elt F) → (⟨S50000, .f32⟩ : BufTy).Contents (Elt F)) (XA m ρ c (Proc.devRef .tc main_cst_101)) := by
  exact Ssa.ssa_unary alA 393 _ rfl (by decide +kernel) (by decide +kernel)
theorem ssa_main_v225 (c : Dev nD) : XA m ρ c (Proc.devRef .tc main_v225) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v215)) (XA m ρ c (Proc.devRef .tc main_v224)) := by
  exact Ssa.ssa_binary alA 394 _ rfl (by decide +kernel) (by decide +kernel) (by decide +kernel)
theorem ssa_main_cst_102 (c : Dev nD) : XA m ρ c (Proc.devRef .tc main_cst_102) = (constant (F := F) S_ .f32 0x00000000#32) := by
  exact Ssa.ssa_nullary alA 395 _ rfl (by decide +kernel)
theorem ssa_main_call33_v0 (c : Dev nD) : XA m ρ c (Proc.devRef .tc main_call33_v0) = (XA m ρ c (Proc.devRef .tc main_cst_102)) := by
  refine (Ssa.ssa_unary alA 396 _ rfl (by decide +kernel) (by decide +kernel)).trans ?_; simp only [StableHlo.TRef.ofBuf, StableHlo.TRef.toBuf, cast_eq, id]
theorem ssa_main_call33_v1 (c : Dev nD) : XA m ρ c (Proc.devRef .tc main_call33_v1) = (broadcastInDim S50000 ![] bcast_S_S50000) (XA m ρ c (Proc.devRef .tc main_call33_v0)) := by
  refine (Ssa.ssa_unary alA 397 _ rfl (by decide +kernel) (by decide +kernel)).trans ?_; simp only [StableHlo.TRef.ofBuf, StableHlo.TRef.toBuf, cast_eq, id]
theorem ssa_main_v226 (c : Dev nD) : XA m ρ c (Proc.devRef .tc main_v226) = select (XA m ρ c (Proc.devRef .tc main_v225)) (XA m ρ c (Proc.devRef .tc main_v223)) (XA m ρ c (Proc.devRef .tc main_call33_v1)) := by
  refine (Ssa.ssa_ternary alA 398 _ rfl (by decide +kernel) (by decide +kernel) (by decide +kernel) (by decide +kernel)).trans ?_; simp only [StableHlo.TRef.ofBuf, StableHlo.TRef.toBuf, cast_eq]
theorem ssa_main_cst_103 (c : Dev nD) : XA m ρ c (Proc.devRef .tc main_cst_103) = (constant (F := F) S_ .f32 0x00000000#32) := by
  exact Ssa.ssa_nullary alA 399 _ rfl (by decide +kernel)
theorem ssa_main_v227 (c : Dev nD) : XA m ρ c (Proc.devRef .tc main_v227) = (broadcastInDim S50000 ![] bcast_S_S50000 : (⟨S_, .f32⟩ : BufTy).Contents (Elt F) → (⟨S50000, .f32⟩ : BufTy).Contents (Elt F)) (XA m ρ c (Proc.devRef .tc main_cst_103)) := by
  exact Ssa.ssa_unary alA 400 _ rfl (by decide +kernel) (by decide +kernel)
theorem ssa_main_v228 (c : Dev nD) : XA m ρ c (Proc.devRef .tc main_v228) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v218)) (XA m ρ c (Proc.devRef .tc main_v227)) := by
  exact Ssa.ssa_binary alA 401 _ rfl (by decide +kernel) (by decide +kernel) (by decide +kernel)
theorem ssa_main_cst_104 (c : Dev nD) : XA m ρ c (Proc.devRef .tc main_cst_104) = (constant (F := F) S_ .f32 0x3F800000#32) := by
  exact Ssa.ssa_nullary alA 402 _ rfl (by decide +kernel)
theorem ssa_main_call34_v0 (c : Dev nD) : XA m ρ c (Proc.devRef .tc main_call34_v0) = (XA m ρ c (Proc.devRef .tc main_cst_104)) := by
  refine (Ssa.ssa_unary alA 403 _ rfl (by decide +kernel) (by decide +kernel)).trans ?_; simp only [StableHlo.TRef.ofBuf, StableHlo.TRef.toBuf, cast_eq, id]
theorem ssa_main_call34_v1 (c : Dev nD) : XA m ρ c (Proc.devRef .tc main_call34_v1) = (broadcastInDim S50000 ![] bcast_S_S50000) (XA m ρ c (Proc.devRef .tc main_call34_v0)) := by
  refine (Ssa.ssa_unary alA 404 _ rfl (by decide +kernel) (by decide +kernel)).trans ?_; simp only [StableHlo.TRef.ofBuf, StableHlo.TRef.toBuf, cast_eq, id]
theorem ssa_main_v229 (c : Dev nD) : XA m ρ c (Proc.devRef .tc main_v229) = select (XA m ρ c (Proc.devRef .tc main_v228)) (XA m ρ c (Proc.devRef .tc main_v218)) (XA m ρ c (Proc.devRef .tc main_call34_v1)) := by
  refine (Ssa.ssa_ternary alA 405 _ rfl (by decide +kernel) (by decide +kernel) (by decide +kernel) (by decide +kernel)).trans ?_; simp only [StableHlo.TRef.ofBuf, StableHlo.TRef.toBuf, cast_eq]
theorem ssa_main_cst_105 (c : Dev nD) : XA m ρ c (Proc.devRef .tc main_cst_105) = (constant (F := F) S_ .f32 0xBF000000#32) := by
  exact Ssa.ssa_nullary alA 406 _ rfl (by decide +kernel)
theorem ssa_main_v230 (c : Dev nD) : XA m ρ c (Proc.devRef .tc main_v230) = (broadcastInDim S50000 ![] bcast_S_S50000 : (⟨S_, .f32⟩ : BufTy).Contents (Elt F) → (⟨S50000, .f32⟩ : BufTy).Contents (Elt F)) (XA m ρ c (Proc.devRef .tc main_cst_105)) := by
  exact Ssa.ssa_unary alA 407 _ rfl (by decide +kernel) (by decide +kernel)
theorem ssa_main_v231 (c : Dev nD) : XA m ρ c (Proc.devRef .tc main_v231) = (Host.powf : (⟨S50000, .f32⟩ : BufTy).Contents (Elt F) → (⟨S50000, .f32⟩ : BufTy).Contents (Elt F) → (⟨S50000, .f32⟩ : BufTy).Contents (Elt F)) (XA m ρ c (Proc.devRef .tc main_v229)) (XA m ρ c (Proc.devRef .tc main_v230)) := by
  exact Ssa.ssa_binary alA 408 _ rfl (by decide +kernel) (by decide +kernel) (by decide +kernel)
theorem ssa_main_cst_106 (c : Dev nD) : XA m ρ c (Proc.devRef .tc main_cst_106) = (constant (F := F) S_ .f32 0x00000000#32) := by
  exact Ssa.ssa_nullary alA 409 _ rfl (by decide +kernel)
theorem ssa_main_v232 (c : Dev nD) : XA m ρ c (Proc.devRef .tc main_v232) = (broadcastInDim S50000 ![] bcast_S_S50000 : (⟨S_, .f32⟩ : BufTy).Contents (Elt F) → (⟨S50000, .f32⟩ : BufTy).Contents (Elt F)) (XA m ρ c (Proc.devRef .tc main_cst_106)) := by
  exact Ssa.ssa_unary alA 410 _ rfl (by decide +kernel) (by decide +kernel)
theorem ssa_main_v233 (c : Dev nD) : XA m ρ c (Proc.devRef .tc main_v233) = (cmpf .ogt : (⟨S50000, .f32⟩ : BufTy).Contents (Elt F) → (⟨S50000, .f32⟩ : BufTy).Contents (Elt F) → (⟨S50000, .i1⟩ : BufTy).Contents (Elt F)) (XA m ρ c (Proc.devRef .tc main_v218)) (XA m ρ c (Proc.devRef .tc main_v232)) := by
  exact Ssa.ssa_binary alA 411 _ rfl (by decide +kernel) (by decide +kernel) (by decide +kernel)
theorem ssa_main_cst_107 (c : Dev nD) : XA m ρ c (Proc.devRef .tc main_cst_107) = (constant (F := F) S_ .f32 0x00000000#32) := by
  exact Ssa.ssa_nullary alA 412 _ rfl (by decide +kernel)
theorem ssa_main_call35_v0 (c : Dev nD) : XA m ρ c (Proc.devRef .tc main_call35_v0) = (XA m ρ c (Proc.devRef .tc main_cst_107)) := by
  refine (Ssa.ssa_unary alA 413 _ rfl (by decide +kernel) (by decide +kernel)).trans ?_; simp only [StableHlo.TRef.ofBuf, StableHlo.TRef.toBuf, cast_eq, id]
theorem ssa_main_call35_v1 (c : Dev nD) : XA m ρ c (Proc.devRef .tc main_call35_v1) = (broadcastInDim S50000 ![] bcast_S_S50000) (XA m ρ c (Proc.devRef .tc main_call35_v0)) := by
  refine (Ssa.ssa_unary alA 414 _ rfl (by decide +kernel) (by decide +kernel)).trans ?_; simp only [StableHlo.TRef.ofBuf, StableHlo.TRef.toBuf, cast_eq, id]
theorem ssa_main_v234 (c : Dev nD) : XA m ρ c (Proc.devRef .tc main_v234) = select (XA m ρ c (Proc.devRef .tc main_v233)) (XA m ρ c (Proc.devRef .tc main_v231)) (XA m ρ c (Proc.devRef .tc main_call35_v1)) := by
  refine (Ssa.ssa_ternary alA 415 _ rfl (by decide +kernel) (by decide +kernel) (by decide +kernel) (by decide +kernel)).trans ?_; simp only [StableHlo.TRef.ofBuf, StableHlo.TRef.toBuf, cast_eq]
theorem ssa_main_v235 (c : Dev nD) : XA m ρ c (Proc.devRef .tc main_v235) = (broadcastInDim S1x50000 ![1] bcast_S50000_S1x50000_1 : (⟨S50000, .f32⟩ : BufTy).Contents (Elt F) → (⟨S1x50000, .f32⟩ : BufTy).Contents (Elt F)) (XA m ρ c (Proc.devRef .tc main_v18)) := by
  exact Ssa.ssa_unary alA 416 _ rfl (by decide +kernel) (by decide +kernel)
theorem ssa_main_v236 (c : Dev nD) : XA m ρ c (Proc.devRef .tc main_v236) = (broadcastInDim S1x50000 ![1] bcast_S50000_S1x50000_1 : (⟨S50000, .f32⟩ : BufTy).Contents (Elt F) → (⟨S1x50000, .f32⟩ : BufTy).Contents (Elt F)) (XA m ρ c (Proc.devRef .tc main_v44)) := by
  exact Ssa.ssa_unary alA 417 _ rfl (by decide +kernel) (by decide +kernel)
theorem ssa_main_v237 (c : Dev nD) : XA m ρ c (Proc.devRef .tc main_v237) = (broadcastInDim S1x50000 ![1] bcast_S50000_S1x50000_1 : (⟨S50000, .f32⟩ : BufTy).Contents (Elt F) → (⟨S1x50000, .f32⟩ : BufTy).Contents (Elt F)) (XA m ρ c (Proc.devRef .tc main_v70)) := by
  exact Ssa.ssa_unary alA 418 _ rfl (by decide +kernel) (by decide +kernel)
theorem ssa_main_v238 (c : Dev nD) : XA m ρ c (Proc.devRef .tc main_v238) = (broadcastInDim S1x50000 ![1] bcast_S50000_S1x50000_1 : (⟨S50000, .f32⟩ : BufTy).Contents (Elt F) → (⟨S1x50000, .f32⟩ : BufTy).Contents (Elt F)) (XA m ρ c (Proc.devRef .tc main_v96)) := by
  exact Ssa.ssa_unary alA 419 _ rfl (by decide +kernel) (by decide +kernel)
theorem ssa_main_v239 (c : Dev nD) : XA m ρ c (Proc.devRef .tc main_v239) = (broadcastInDim S1x50000 ![1] bcast_S50000_S1x50000_1 : (⟨S50000, .f32⟩ : BufTy).Contents (Elt F) → (⟨S1x50000, .f32⟩ : BufTy).Contents (Elt F)) (XA m ρ c (Proc.devRef .tc main_v122)) := by
  exact Ssa.ssa_unary alA 420 _ rfl (by decide +kernel) (by decide +kernel)
theorem ssa_main_v240 (c : Dev nD) : XA m ρ c (Proc.devRef .tc main_v240) = (broadcastInDim S1x50000 ![1] bcast_S50000_S1x50000_1 : (⟨S50000, .f32⟩ : BufTy).Contents (Elt F) → (⟨S1x50000, .f32⟩ : BufTy).Contents (Elt F)) (XA m ρ c (Proc.devRef .tc main_v148)) := by
  exact Ssa.ssa_unary alA 421 _ rfl (by decide +kernel) (by decide +kernel)
theorem ssa_main_v241 (c : Dev nD) : XA m ρ c (Proc.devRef .tc main_v241) = (broadcastInDim S1x50000 ![1] bcast_S50000_S1x50000_1 : (⟨S50000, .f32⟩ : BufTy).Contents (Elt F) → (⟨S1x50000, .f32⟩ : BufTy).Contents (Elt F)) (XA m ρ c (Proc.devRef .tc main_v174)) := by
  exact Ssa.ssa_unary alA 422 _ rfl (by decide +kernel) (by decide +kernel)
theorem ssa_main_v242 (c : Dev nD) : XA m ρ c (Proc.devRef .tc main_v242) = (broadcastInDim S1x50000 ![1] bcast_S50000_S1x50000_1 : (⟨S50000, .f32⟩ : BufTy).Contents (Elt F) → (⟨S1x50000, .f32⟩ : BufTy).Contents (Elt F)) (XA m ρ c (Proc.devRef .tc main_v200)) := by
  exact Ssa.ssa_unary alA 423 _ rfl (by decide +kernel) (by decide +kernel)
theorem ssa_main_v243 (c : Dev nD) : XA m ρ c (Proc.devRef .tc main_v243) = (broadcastInDim S1x50000 ![1] bcast_S50000_S1x50000_1 : (⟨S50000, .f32⟩ : BufTy).Contents (Elt F) → (⟨S1x50000, .f32⟩ : BufTy).Contents (Elt F)) (XA m ρ c (Proc.devRef .tc main_v226)) := by
  exact Ssa.ssa_unary alA 424 _ rfl (by decide +kernel) (by decide +kernel)
theorem ssa_main_v244 (c : Dev nD) : XA m ρ c (Proc.devRef .tc main_v244) = concatenate S9x50000 0 [⟨S1x50000, (XA m ρ c (Proc.devRef .tc main_v235))⟩, ⟨S1x50000, (XA m ρ c (Proc.devRef .tc main_v236))⟩, ⟨S1x50000, (XA m ρ c (Proc.devRef .tc main_v237))⟩, ⟨S1x50000, (XA m ρ c (Proc.devRef .tc main_v238))⟩, ⟨S1x50000, (XA m ρ c (Proc.devRef .tc main_v239))⟩, ⟨S1x50000, (XA m ρ c (Proc.devRef .tc main_v240))⟩, ⟨S1x50000, (XA m ρ c (Proc.devRef .tc main_v241))⟩, ⟨S1x50000, (XA m ρ c (Proc.devRef .tc main_v242))⟩, ⟨S1x50000, (XA m ρ c (Proc.devRef .tc main_v243))⟩] concatenates_S1x50000_S1x50000_S1x50000_S1x50000_S1x50000_S1x50000_S1x50000_S1x50000_S1x50000_S9x50000_d0 := by
  exact Ssa.ssa_nary alA 425 _ rfl (by decide +kernel) (by decide +kernel)
theorem ssa_main_v245 (c : Dev nD) : XA m ρ c (Proc.devRef .tc main_v245) = (broadcastInDim S1x50000 ![1] bcast_S50000_S1x50000_1 : (⟨S50000, .f32⟩ : BufTy).Contents (Elt F) → (⟨S1x50000, .f32⟩ : BufTy).Contents (Elt F)) (XA m ρ c (Proc.devRef .tc main_v26)) := by
  exact Ssa.ssa_unary alA 426 _ rfl (by decide +kernel) (by decide +kernel)
theorem ssa_main_v246 (c : Dev nD) : XA m ρ c (Proc.devRef .tc main_v246) = (broadcastInDim S1x50000 ![1] bcast_S50000_S1x50000_1 : (⟨S50000, .f32⟩ : BufTy).Contents (Elt F) → (⟨S1x50000, .f32⟩ : BufTy).Contents (Elt F)) (XA m ρ c (Proc.devRef .tc main_v52)) := by
  exact Ssa.ssa_unary alA 427 _ rfl (by decide +kernel) (by decide +kernel)
theorem ssa_main_v247 (c : Dev nD) : XA m ρ c (Proc.devRef .tc main_v247) = (broadcastInDim S1x50000 ![1] bcast_S50000_S1x50000_1 : (⟨S50000, .f32⟩ : BufTy).Contents (Elt F) → (⟨S1x50000, .f32⟩ : BufTy).Contents (Elt F)) (XA m ρ c (Proc.devRef .tc main_v78)) := by
  exact Ssa.ssa_unary alA 428 _ rfl (by decide +kernel) (by decide +kernel)
theorem ssa_main_v248 (c : Dev nD) : XA m ρ c (Proc.devRef .tc main_v248) = (broadcastInDim S1x50000 ![1] bcast_S50000_S1x50000_1 : (⟨S50000, .f32⟩ : BufTy).Contents (Elt F) → (⟨S1x50000, .f32⟩ : BufTy).Contents (Elt F)) (XA m ρ c (Proc.devRef .tc main_v104)) := by
  exact Ssa.ssa_unary alA 429 _ rfl (by decide +kernel) (by decide +kernel)
theorem ssa_main_v249 (c : Dev nD) : XA m ρ c (Proc.devRef .tc main_v249) = (broadcastInDim S1x50000 ![1] bcast_S50000_S1x50000_1 : (⟨S50000, .f32⟩ : BufTy).Contents (Elt F) → (⟨S1x50000, .f32⟩ : BufTy).Contents (Elt F)) (XA m ρ c (Proc.devRef .tc main_v130)) := by
  exact Ssa.ssa_unary alA 430 _ rfl (by decide +kernel) (by decide +kernel)
theorem ssa_main_v250 (c : Dev nD) : XA m ρ c (Proc.devRef .tc main_v250) = (broadcastInDim S1x50000 ![1] bcast_S50000_S1x50000_1 : (⟨S50000, .f32⟩ : BufTy).Contents (Elt F) → (⟨S1x50000, .f32⟩ : BufTy).Contents (Elt F)) (XA m ρ c (Proc.devRef .tc main_v156)) := by
  exact Ssa.ssa_unary alA 431 _ rfl (by decide +kernel) (by decide +kernel)

end Cert.KernelIdeal.Rd

end
-- ==== Proof.KI.ReadANr.lean ====
/-
  The degree norms of relations 1 to 8 at a node: each relation's operations are relation 0's on its own buffers, along
  its own two columns of the edge array.
-/
import proofs.«151568_j90031104458821_2_alg».proof.Proof.KI.ReadAN0
import proofs.«151568_j90031104458821_2_alg».proof.Proof.KI.TabA2
import proofs.«151568_j90031104458821_2_alg».proof.Proof.KI.TabA3
import proofs.«151568_j90031104458821_2_alg».proof.Proof.KI.TabA4

set_option maxRecDepth 65536

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe
open Cert.GraphOf Cert.GraphRead

variable (m : (ℓ : Loc nD τ sig) → Buf (Elt Ideal) ℓ) (ρ : Dev nD → PrngReg) (c : Dev nD)

/-! ## Relation 1 -/

/-- The source-side norm of relation 1 at node n. -/
theorem ns1_apply (n : Fin 50000) :
    (XA m ρ c (Proc.devRef .tc main_v44) : S50000.Idx → EReal) (ix1 n) = (graphOf (edgesA m ρ c)).ns (1 : Fin 9) n :=
  (norm_of_eqs scatter_S50000_S400000x1_S400000_n_0_0_1 rfl rfl rfl rfl (edgesA m ρ c) ![1, 0, 0] (1 : Fin 9) (0 : Fin 2) rfl rfl rfl
    slices_S9x2x400000_S1x1x400000_1_0_0 shapeCasts_S1x1x400000_S400000 bcast_S400000_S400000x1_0 bcast_S_S400000 bcast_S_S50000
    (ssa_main_cst m ρ c) (ssa_main_v0 m ρ c) (ssa_main_v27 m ρ c) (ssa_main_v28 m ρ c) (ssa_main_cst_12 m ρ c) (ssa_main_v31 m ρ c)
    (ssa_main_v32 m ρ c) (ssa_main_v33 m ρ c) (ssa_main_cst_14 m ρ c) (ssa_main_v37 m ρ c) (ssa_main_v38 m ρ c) (ssa_main_cst_15 m ρ c)
    (ssa_main_call4_v0 m ρ c) (ssa_main_call4_v1 m ρ c) (ssa_main_v39 m ρ c) (ssa_main_cst_16 m ρ c) (ssa_main_v40 m ρ c)
    (ssa_main_v41 m ρ c) (ssa_main_cst_17 m ρ c) (ssa_main_v42 m ρ c) (ssa_main_v43 m ρ c) (ssa_main_cst_18 m ρ c)
    (ssa_main_call5_v0 m ρ c) (ssa_main_call5_v1 m ρ c) (ssa_main_v44 m ρ c) n).trans (graph_ns (edgesA m ρ c) (1 : Fin 9) n).symm

/-- The destination-side norm of relation 1 at node n. -/
theorem nd1_apply (n : Fin 50000) :
    (XA m ρ c (Proc.devRef .tc main_v52) : S50000.Idx → EReal) (ix1 n) = (graphOf (edgesA m ρ c)).nd (1 : Fin 9) n :=
  (norm_of_eqs scatter_S50000_S400000x1_S400000_n_0_0_1 rfl rfl rfl rfl (edgesA m ρ c) ![1, 1, 0] (1 : Fin 9) (1 : Fin 2) rfl rfl rfl
    slices_S9x2x400000_S1x1x400000_1_1_0 shapeCasts_S1x1x400000_S400000 bcast_S400000_S400000x1_0 bcast_S_S400000 bcast_S_S50000
    (ssa_main_cst m ρ c) (ssa_main_v0 m ρ c) (ssa_main_v29 m ρ c) (ssa_main_v30 m ρ c) (ssa_main_cst_13 m ρ c) (ssa_main_v34 m ρ c)
    (ssa_main_v35 m ρ c) (ssa_main_v36 m ρ c) (ssa_main_cst_19 m ρ c) (ssa_main_v45 m ρ c) (ssa_main_v46 m ρ c) (ssa_main_cst_20 m ρ c)
    (ssa_main_call6_v0 m ρ c) (ssa_main_call6_v1 m ρ c) (ssa_main_v47 m ρ c) (ssa_main_cst_21 m ρ c) (ssa_main_v48 m ρ c)
    (ssa_main_v49 m ρ c) (ssa_main_cst_22 m ρ c) (ssa_main_v50 m ρ c) (ssa_main_v51 m ρ c) (ssa_main_cst_23 m ρ c)
    (ssa_main_call7_v0 m ρ c) (ssa_main_call7_v1 m ρ c) (ssa_main_v52 m ρ c) n).trans (graph_nd (edgesA m ρ c) (1 : Fin 9) n).symm

/-! ## Relation 2 -/

/-- The source-side norm of relation 2 at node n. -/
theorem ns2_apply (n : Fin 50000) :
    (XA m ρ c (Proc.devRef .tc main_v70) : S50000.Idx → EReal) (ix1 n) = (graphOf (edgesA m ρ c)).ns (2 : Fin 9) n :=
  (norm_of_eqs scatter_S50000_S400000x1_S400000_n_0_0_1 rfl rfl rfl rfl (edgesA m ρ c) ![2, 0, 0] (2 : Fin 9) (0 : Fin 2) rfl rfl rfl
    slices_S9x2x400000_S1x1x400000_2_0_0 shapeCasts_S1x1x400000_S400000 bcast_S400000_S400000x1_0 bcast_S_S400000 bcast_S_S50000
    (ssa_main_cst m ρ c) (ssa_main_v0 m ρ c) (ssa_main_v53 m ρ c) (ssa_main_v54 m ρ c) (ssa_main_cst_24 m ρ c) (ssa_main_v57 m ρ c)
    (ssa_main_v58 m ρ c) (ssa_main_v59 m ρ c) (ssa_main_cst_26 m ρ c) (ssa_main_v63 m ρ c) (ssa_main_v64 m ρ c) (ssa_main_cst_27 m ρ c)
    (ssa_main_call8_v0 m ρ c) (ssa_main_call8_v1 m ρ c) (ssa_main_v65 m ρ c) (ssa_main_cst_28 m ρ c) (ssa_main_v66 m ρ c)
    (ssa_main_v67 m ρ c) (ssa_main_cst_29 m ρ c) (ssa_main_v68 m ρ c) (ssa_main_v69 m ρ c) (ssa_main_cst_30 m ρ c)
    (ssa_main_call9_v0 m ρ c) (ssa_main_call9_v1 m ρ c) (ssa_main_v70 m ρ c) n).trans (graph_ns (edgesA m ρ c) (2 : Fin 9) n).symm

/-- The destination-side norm of relation 2 at node n. -/
theorem nd2_apply (n : Fin 50000) :
    (XA m ρ c (Proc.devRef .tc main_v78) : S50000.Idx → EReal) (ix1 n) = (graphOf (edgesA m ρ c)).nd (2 : Fin 9) n :=
  (norm_of_eqs scatter_S50000_S400000x1_S400000_n_0_0_1 rfl rfl rfl rfl (edgesA m ρ c) ![2, 1, 0] (2 : Fin 9) (1 : Fin 2) rfl rfl rfl
    slices_S9x2x400000_S1x1x400000_2_1_0 shapeCasts_S1x1x400000_S400000 bcast_S400000_S400000x1_0 bcast_S_S400000 bcast_S_S50000
    (ssa_main_cst m ρ c) (ssa_main_v0 m ρ c) (ssa_main_v55 m ρ c) (ssa_main_v56 m ρ c) (ssa_main_cst_25 m ρ c) (ssa_main_v60 m ρ c)
    (ssa_main_v61 m ρ c) (ssa_main_v62 m ρ c) (ssa_main_cst_31 m ρ c) (ssa_main_v71 m ρ c) (ssa_main_v72 m ρ c) (ssa_main_cst_32 m ρ c)
    (ssa_main_call10_v0 m ρ c) (ssa_main_call10_v1 m ρ c) (ssa_main_v73 m ρ c) (ssa_main_cst_33 m ρ c) (ssa_main_v74 m ρ c)
    (ssa_main_v75 m ρ c) (ssa_main_cst_34 m ρ c) (ssa_main_v76 m ρ c) (ssa_main_v77 m ρ c) (ssa_main_cst_35 m ρ c)
    (ssa_main_call11_v0 m ρ c) (ssa_main_call11_v1 m ρ c) (ssa_main_v78 m ρ c) n).trans (graph_nd (edgesA m ρ c) (2 : Fin 9) n).symm

/-! ## Relation 3 -/

/-- The source-side norm of relation 3 at node n. -/
theorem ns3_apply (n : Fin 50000) :
    (XA m ρ c (Proc.devRef .tc main_v96) : S50000.Idx → EReal) (ix1 n) = (graphOf (edgesA m ρ c)).ns (3 : Fin 9) n :=
  (norm_of_eqs scatter_S50000_S400000x1_S400000_n_0_0_1 rfl rfl rfl rfl (edgesA m ρ c) ![3, 0, 0] (3 : Fin 9) (0 : Fin 2) rfl rfl rfl
    slices_S9x2x400000_S1x1x400000_3_0_0 shapeCasts_S1x1x400000_S400000 bcast_S400000_S400000x1_0 bcast_S_S400000 bcast_S_S50000
    (ssa_main_cst m ρ c) (ssa_main_v0 m ρ c) (ssa_main_v79 m ρ c) (ssa_main_v80 m ρ c) (ssa_main_cst_36 m ρ c) (ssa_main_v83 m ρ c)
    (ssa_main_v84 m ρ c) (ssa_main_v85 m ρ c) (ssa_main_cst_38 m ρ c) (ssa_main_v89 m ρ c) (ssa_main_v90 m ρ c) (ssa_main_cst_39 m ρ c)
    (ssa_main_call12_v0 m ρ c) (ssa_main_call12_v1 m ρ c) (ssa_main_v91 m ρ c) (ssa_main_cst_40 m ρ c) (ssa_main_v92 m ρ c)
    (ssa_main_v93 m ρ c) (ssa_main_cst_41 m ρ c) (ssa_main_v94 m ρ c) (ssa_main_v95 m ρ c) (ssa_main_cst_42 m ρ c)
    (ssa_main_call13_v0 m ρ c) (ssa_main_call13_v1 m ρ c) (ssa_main_v96 m ρ c) n).trans (graph_ns (edgesA m ρ c) (3 : Fin 9) n).symm

/-- The destination-side norm of relation 3 at node n. -/
theorem nd3_apply (n : Fin 50000) :
    (XA m ρ c (Proc.devRef .tc main_v104) : S50000.Idx → EReal) (ix1 n) = (graphOf (edgesA m ρ c)).nd (3 : Fin 9) n :=
  (norm_of_eqs scatter_S50000_S400000x1_S400000_n_0_0_1 rfl rfl rfl rfl (edgesA m ρ c) ![3, 1, 0] (3 : Fin 9) (1 : Fin 2) rfl rfl rfl
    slices_S9x2x400000_S1x1x400000_3_1_0 shapeCasts_S1x1x400000_S400000 bcast_S400000_S400000x1_0 bcast_S_S400000 bcast_S_S50000
    (ssa_main_cst m ρ c) (ssa_main_v0 m ρ c) (ssa_main_v81 m ρ c) (ssa_main_v82 m ρ c) (ssa_main_cst_37 m ρ c) (ssa_main_v86 m ρ c)
    (ssa_main_v87 m ρ c) (ssa_main_v88 m ρ c) (ssa_main_cst_43 m ρ c) (ssa_main_v97 m ρ c) (ssa_main_v98 m ρ c) (ssa_main_cst_44 m ρ c)
    (ssa_main_call14_v0 m ρ c) (ssa_main_call14_v1 m ρ c) (ssa_main_v99 m ρ c) (ssa_main_cst_45 m ρ c) (ssa_main_v100 m ρ c)
    (ssa_main_v101 m ρ c) (ssa_main_cst_46 m ρ c) (ssa_main_v102 m ρ c) (ssa_main_v103 m ρ c) (ssa_main_cst_47 m ρ c)
    (ssa_main_call15_v0 m ρ c) (ssa_main_call15_v1 m ρ c) (ssa_main_v104 m ρ c) n).trans (graph_nd (edgesA m ρ c) (3 : Fin 9) n).symm

/-! ## Relation 4 -/

/-- The source-side norm of relation 4 at node n. -/
theorem ns4_apply (n : Fin 50000) :
    (XA m ρ c (Proc.devRef .tc main_v122) : S50000.Idx → EReal) (ix1 n) = (graphOf (edgesA m ρ c)).ns (4 : Fin 9) n :=
  (norm_of_eqs scatter_S50000_S400000x1_S400000_n_0_0_1 rfl rfl rfl rfl (edgesA m ρ c) ![4, 0, 0] (4 : Fin 9) (0 : Fin 2) rfl rfl rfl
    slices_S9x2x400000_S1x1x400000_4_0_0 shapeCasts_S1x1x400000_S400000 bcast_S400000_S400000x1_0 bcast_S_S400000 bcast_S_S50000
    (ssa_main_cst m ρ c) (ssa_main_v0 m ρ c) (ssa_main_v105 m ρ c) (ssa_main_v106 m ρ c) (ssa_main_cst_48 m ρ c) (ssa_main_v109 m ρ c)
    (ssa_main_v110 m ρ c) (ssa_main_v111 m ρ c) (ssa_main_cst_50 m ρ c) (ssa_main_v115 m ρ c) (ssa_main_v116 m ρ c) (ssa_main_cst_51 m ρ c)
    (ssa_main_call16_v0 m ρ c) (ssa_main_call16_v1 m ρ c) (ssa_main_v117 m ρ c) (ssa_main_cst_52 m ρ c) (ssa_main_v118 m ρ c)
    (ssa_main_v119 m ρ c) (ssa_main_cst_53 m ρ c) (ssa_main_v120 m ρ c) (ssa_main_v121 m ρ c) (ssa_main_cst_54 m ρ c)
    (ssa_main_call17_v0 m ρ c) (ssa_main_call17_v1 m ρ c) (ssa_main_v122 m ρ c) n).trans (graph_ns (edgesA m ρ c) (4 : Fin 9) n).symm

/-- The destination-side norm of relation 4 at node n. -/
theorem nd4_apply (n : Fin 50000) :
    (XA m ρ c (Proc.devRef .tc main_v130) : S50000.Idx → EReal) (ix1 n) = (graphOf (edgesA m ρ c)).nd (4 : Fin 9) n :=
  (norm_of_eqs scatter_S50000_S400000x1_S400000_n_0_0_1 rfl rfl rfl rfl (edgesA m ρ c) ![4, 1, 0] (4 : Fin 9) (1 : Fin 2) rfl rfl rfl
    slices_S9x2x400000_S1x1x400000_4_1_0 shapeCasts_S1x1x400000_S400000 bcast_S400000_S400000x1_0 bcast_S_S400000 bcast_S_S50000
    (ssa_main_cst m ρ c) (ssa_main_v0 m ρ c) (ssa_main_v107 m ρ c) (ssa_main_v108 m ρ c) (ssa_main_cst_49 m ρ c) (ssa_main_v112 m ρ c)
    (ssa_main_v113 m ρ c) (ssa_main_v114 m ρ c) (ssa_main_cst_55 m ρ c) (ssa_main_v123 m ρ c) (ssa_main_v124 m ρ c) (ssa_main_cst_56 m ρ c)
    (ssa_main_call18_v0 m ρ c) (ssa_main_call18_v1 m ρ c) (ssa_main_v125 m ρ c) (ssa_main_cst_57 m ρ c) (ssa_main_v126 m ρ c)
    (ssa_main_v127 m ρ c) (ssa_main_cst_58 m ρ c) (ssa_main_v128 m ρ c) (ssa_main_v129 m ρ c) (ssa_main_cst_59 m ρ c)
    (ssa_main_call19_v0 m ρ c) (ssa_main_call19_v1 m ρ c) (ssa_main_v130 m ρ c) n).trans (graph_nd (edgesA m ρ c) (4 : Fin 9) n).symm

/-! ## Relation 5 -/

/-- The source-side norm of relation 5 at node n. -/
theorem ns5_apply (n : Fin 50000) :
    (XA m ρ c (Proc.devRef .tc main_v148) : S50000.Idx → EReal) (ix1 n) = (graphOf (edgesA m ρ c)).ns (5 : Fin 9) n :=
  (norm_of_eqs scatter_S50000_S400000x1_S400000_n_0_0_1 rfl rfl rfl rfl (edgesA m ρ c) ![5, 0, 0] (5 : Fin 9) (0 : Fin 2) rfl rfl rfl
    slices_S9x2x400000_S1x1x400000_5_0_0 shapeCasts_S1x1x400000_S400000 bcast_S400000_S400000x1_0 bcast_S_S400000 bcast_S_S50000
    (ssa_main_cst m ρ c) (ssa_main_v0 m ρ c) (ssa_main_v131 m ρ c) (ssa_main_v132 m ρ c) (ssa_main_cst_60 m ρ c) (ssa_main_v135 m ρ c)
    (ssa_main_v136 m ρ c) (ssa_main_v137 m ρ c) (ssa_main_cst_62 m ρ c) (ssa_main_v141 m ρ c) (ssa_main_v142 m ρ c) (ssa_main_cst_63 m ρ c)
    (ssa_main_call20_v0 m ρ c) (ssa_main_call20_v1 m ρ c) (ssa_main_v143 m ρ c) (ssa_main_cst_64 m ρ c) (ssa_main_v144 m ρ c)
    (ssa_main_v145 m ρ c) (ssa_main_cst_65 m ρ c) (ssa_main_v146 m ρ c) (ssa_main_v147 m ρ c) (ssa_main_cst_66 m ρ c)
    (ssa_main_call21_v0 m ρ c) (ssa_main_call21_v1 m ρ c) (ssa_main_v148 m ρ c) n).trans (graph_ns (edgesA m ρ c) (5 : Fin 9) n).symm

/-- The destination-side norm of relation 5 at node n. -/
theorem nd5_apply (n : Fin 50000) :
    (XA m ρ c (Proc.devRef .tc main_v156) : S50000.Idx → EReal) (ix1 n) = (graphOf (edgesA m ρ c)).nd (5 : Fin 9) n :=
  (norm_of_eqs scatter_S50000_S400000x1_S400000_n_0_0_1 rfl rfl rfl rfl (edgesA m ρ c) ![5, 1, 0] (5 : Fin 9) (1 : Fin 2) rfl rfl rfl
    slices_S9x2x400000_S1x1x400000_5_1_0 shapeCasts_S1x1x400000_S400000 bcast_S400000_S400000x1_0 bcast_S_S400000 bcast_S_S50000
    (ssa_main_cst m ρ c) (ssa_main_v0 m ρ c) (ssa_main_v133 m ρ c) (ssa_main_v134 m ρ c) (ssa_main_cst_61 m ρ c) (ssa_main_v138 m ρ c)
    (ssa_main_v139 m ρ c) (ssa_main_v140 m ρ c) (ssa_main_cst_67 m ρ c) (ssa_main_v149 m ρ c) (ssa_main_v150 m ρ c) (ssa_main_cst_68 m ρ c)
    (ssa_main_call22_v0 m ρ c) (ssa_main_call22_v1 m ρ c) (ssa_main_v151 m ρ c) (ssa_main_cst_69 m ρ c) (ssa_main_v152 m ρ c)
    (ssa_main_v153 m ρ c) (ssa_main_cst_70 m ρ c) (ssa_main_v154 m ρ c) (ssa_main_v155 m ρ c) (ssa_main_cst_71 m ρ c)
    (ssa_main_call23_v0 m ρ c) (ssa_main_call23_v1 m ρ c) (ssa_main_v156 m ρ c) n).trans (graph_nd (edgesA m ρ c) (5 : Fin 9) n).symm

/-! ## Relation 6 -/

/-- The source-side norm of relation 6 at node n. -/
theorem ns6_apply (n : Fin 50000) :
    (XA m ρ c (Proc.devRef .tc main_v174) : S50000.Idx → EReal) (ix1 n) = (graphOf (edgesA m ρ c)).ns (6 : Fin 9) n :=
  (norm_of_eqs scatter_S50000_S400000x1_S400000_n_0_0_1 rfl rfl rfl rfl (edgesA m ρ c) ![6, 0, 0] (6 : Fin 9) (0 : Fin 2) rfl rfl rfl
    slices_S9x2x400000_S1x1x400000_6_0_0 shapeCasts_S1x1x400000_S400000 bcast_S400000_S400000x1_0 bcast_S_S400000 bcast_S_S50000
    (ssa_main_cst m ρ c) (ssa_main_v0 m ρ c) (ssa_main_v157 m ρ c) (ssa_main_v158 m ρ c) (ssa_main_cst_72 m ρ c) (ssa_main_v161 m ρ c)
    (ssa_main_v162 m ρ c) (ssa_main_v163 m ρ c) (ssa_main_cst_74 m ρ c) (ssa_main_v167 m ρ c) (ssa_main_v168 m ρ c) (ssa_main_cst_75 m ρ c)
    (ssa_main_call24_v0 m ρ c) (ssa_main_call24_v1 m ρ c) (ssa_main_v169 m ρ c) (ssa_main_cst_76 m ρ c) (ssa_main_v170 m ρ c)
    (ssa_main_v171 m ρ c) (ssa_main_cst_77 m ρ c) (ssa_main_v172 m ρ c) (ssa_main_v173 m ρ c) (ssa_main_cst_78 m ρ c)
    (ssa_main_call25_v0 m ρ c) (ssa_main_call25_v1 m ρ c) (ssa_main_v174 m ρ c) n).trans (graph_ns (edgesA m ρ c) (6 : Fin 9) n).symm

/-- The destination-side norm of relation 6 at node n. -/
theorem nd6_apply (n : Fin 50000) :
    (XA m ρ c (Proc.devRef .tc main_v182) : S50000.Idx → EReal) (ix1 n) = (graphOf (edgesA m ρ c)).nd (6 : Fin 9) n :=
  (norm_of_eqs scatter_S50000_S400000x1_S400000_n_0_0_1 rfl rfl rfl rfl (edgesA m ρ c) ![6, 1, 0] (6 : Fin 9) (1 : Fin 2) rfl rfl rfl
    slices_S9x2x400000_S1x1x400000_6_1_0 shapeCasts_S1x1x400000_S400000 bcast_S400000_S400000x1_0 bcast_S_S400000 bcast_S_S50000
    (ssa_main_cst m ρ c) (ssa_main_v0 m ρ c) (ssa_main_v159 m ρ c) (ssa_main_v160 m ρ c) (ssa_main_cst_73 m ρ c) (ssa_main_v164 m ρ c)
    (ssa_main_v165 m ρ c) (ssa_main_v166 m ρ c) (ssa_main_cst_79 m ρ c) (ssa_main_v175 m ρ c) (ssa_main_v176 m ρ c) (ssa_main_cst_80 m ρ c)
    (ssa_main_call26_v0 m ρ c) (ssa_main_call26_v1 m ρ c) (ssa_main_v177 m ρ c) (ssa_main_cst_81 m ρ c) (ssa_main_v178 m ρ c)
    (ssa_main_v179 m ρ c) (ssa_main_cst_82 m ρ c) (ssa_main_v180 m ρ c) (ssa_main_v181 m ρ c) (ssa_main_cst_83 m ρ c)
    (ssa_main_call27_v0 m ρ c) (ssa_main_call27_v1 m ρ c) (ssa_main_v182 m ρ c) n).trans (graph_nd (edgesA m ρ c) (6 : Fin 9) n).symm

/-! ## Relation 7 -/

/-- The source-side norm of relation 7 at node n. -/
theorem ns7_apply (n : Fin 50000) :
    (XA m ρ c (Proc.devRef .tc main_v200) : S50000.Idx → EReal) (ix1 n) = (graphOf (edgesA m ρ c)).ns (7 : Fin 9) n :=
  (norm_of_eqs scatter_S50000_S400000x1_S400000_n_0_0_1 rfl rfl rfl rfl (edgesA m ρ c) ![7, 0, 0] (7 : Fin 9) (0 : Fin 2) rfl rfl rfl
    slices_S9x2x400000_S1x1x400000_7_0_0 shapeCasts_S1x1x400000_S400000 bcast_S400000_S400000x1_0 bcast_S_S400000 bcast_S_S50000
    (ssa_main_cst m ρ c) (ssa_main_v0 m ρ c) (ssa_main_v183 m ρ c) (ssa_main_v184 m ρ c) (ssa_main_cst_84 m ρ c) (ssa_main_v187 m ρ c)
    (ssa_main_v188 m ρ c) (ssa_main_v189 m ρ c) (ssa_main_cst_86 m ρ c) (ssa_main_v193 m ρ c) (ssa_main_v194 m ρ c) (ssa_main_cst_87 m ρ c)
    (ssa_main_call28_v0 m ρ c) (ssa_main_call28_v1 m ρ c) (ssa_main_v195 m ρ c) (ssa_main_cst_88 m ρ c) (ssa_main_v196 m ρ c)
    (ssa_main_v197 m ρ c) (ssa_main_cst_89 m ρ c) (ssa_main_v198 m ρ c) (ssa_main_v199 m ρ c) (ssa_main_cst_90 m ρ c)
    (ssa_main_call29_v0 m ρ c) (ssa_main_call29_v1 m ρ c) (ssa_main_v200 m ρ c) n).trans (graph_ns (edgesA m ρ c) (7 : Fin 9) n).symm

/-- The destination-side norm of relation 7 at node n. -/
theorem nd7_apply (n : Fin 50000) :
    (XA m ρ c (Proc.devRef .tc main_v208) : S50000.Idx → EReal) (ix1 n) = (graphOf (edgesA m ρ c)).nd (7 : Fin 9) n :=
  (norm_of_eqs scatter_S50000_S400000x1_S400000_n_0_0_1 rfl rfl rfl rfl (edgesA m ρ c) ![7, 1, 0] (7 : Fin 9) (1 : Fin 2) rfl rfl rfl
    slices_S9x2x400000_S1x1x400000_7_1_0 shapeCasts_S1x1x400000_S400000 bcast_S400000_S400000x1_0 bcast_S_S400000 bcast_S_S50000
    (ssa_main_cst m ρ c) (ssa_main_v0 m ρ c) (ssa_main_v185 m ρ c) (ssa_main_v186 m ρ c) (ssa_main_cst_85 m ρ c) (ssa_main_v190 m ρ c)
    (ssa_main_v191 m ρ c) (ssa_main_v192 m ρ c) (ssa_main_cst_91 m ρ c) (ssa_main_v201 m ρ c) (ssa_main_v202 m ρ c) (ssa_main_cst_92 m ρ c)
    (ssa_main_call30_v0 m ρ c) (ssa_main_call30_v1 m ρ c) (ssa_main_v203 m ρ c) (ssa_main_cst_93 m ρ c) (ssa_main_v204 m ρ c)
    (ssa_main_v205 m ρ c) (ssa_main_cst_94 m ρ c) (ssa_main_v206 m ρ c) (ssa_main_v207 m ρ c) (ssa_main_cst_95 m ρ c)
    (ssa_main_call31_v0 m ρ c) (ssa_main_call31_v1 m ρ c) (ssa_main_v208 m ρ c) n).trans (graph_nd (edgesA m ρ c) (7 : Fin 9) n).symm

/-! ## Relation 8 -/

/-- The source-side norm of relation 8 at node n. -/
theorem ns8_apply (n : Fin 50000) :
    (XA m ρ c (Proc.devRef .tc main_v226) : S50000.Idx → EReal) (ix1 n) = (graphOf (edgesA m ρ c)).ns (8 : Fin 9) n :=
  (norm_of_eqs scatter_S50000_S400000x1_S400000_n_0_0_1 rfl rfl rfl rfl (edgesA m ρ c) ![8, 0, 0] (8 : Fin 9) (0 : Fin 2) rfl rfl rfl
    slices_S9x2x400000_S1x1x400000_8_0_0 shapeCasts_S1x1x400000_S400000 bcast_S400000_S400000x1_0 bcast_S_S400000 bcast_S_S50000
    (ssa_main_cst m ρ c) (ssa_main_v0 m ρ c) (ssa_main_v209 m ρ c) (ssa_main_v210 m ρ c) (ssa_main_cst_96 m ρ c) (ssa_main_v213 m ρ c)
    (ssa_main_v214 m ρ c) (ssa_main_v215 m ρ c) (ssa_main_cst_98 m ρ c) (ssa_main_v219 m ρ c) (ssa_main_v220 m ρ c) (ssa_main_cst_99 m ρ c)
    (ssa_main_call32_v0 m ρ c) (ssa_main_call32_v1 m ρ c) (ssa_main_v221 m ρ c) (ssa_main_cst_100 m ρ c) (ssa_main_v222 m ρ c)
    (ssa_main_v223 m ρ c) (ssa_main_cst_101 m ρ c) (ssa_main_v224 m ρ c) (ssa_main_v225 m ρ c) (ssa_main_cst_102 m ρ c)
    (ssa_main_call33_v0 m ρ c) (ssa_main_call33_v1 m ρ c) (ssa_main_v226 m ρ c) n).trans (graph_ns (edgesA m ρ c) (8 : Fin 9) n).symm

/-- The destination-side norm of relation 8 at node n. -/
theorem nd8_apply (n : Fin 50000) :
    (XA m ρ c (Proc.devRef .tc main_v234) : S50000.Idx → EReal) (ix1 n) = (graphOf (edgesA m ρ c)).nd (8 : Fin 9) n :=
  (norm_of_eqs scatter_S50000_S400000x1_S400000_n_0_0_1 rfl rfl rfl rfl (edgesA m ρ c) ![8, 1, 0] (8 : Fin 9) (1 : Fin 2) rfl rfl rfl
    slices_S9x2x400000_S1x1x400000_8_1_0 shapeCasts_S1x1x400000_S400000 bcast_S400000_S400000x1_0 bcast_S_S400000 bcast_S_S50000
    (ssa_main_cst m ρ c) (ssa_main_v0 m ρ c) (ssa_main_v211 m ρ c) (ssa_main_v212 m ρ c) (ssa_main_cst_97 m ρ c) (ssa_main_v216 m ρ c)
    (ssa_main_v217 m ρ c) (ssa_main_v218 m ρ c) (ssa_main_cst_103 m ρ c) (ssa_main_v227 m ρ c) (ssa_main_v228 m ρ c) (ssa_main_cst_104 m ρ c)
    (ssa_main_call34_v0 m ρ c) (ssa_main_call34_v1 m ρ c) (ssa_main_v229 m ρ c) (ssa_main_cst_105 m ρ c) (ssa_main_v230 m ρ c)
    (ssa_main_v231 m ρ c) (ssa_main_cst_106 m ρ c) (ssa_main_v232 m ρ c) (ssa_main_v233 m ρ c) (ssa_main_cst_107 m ρ c)
    (ssa_main_call35_v0 m ρ c) (ssa_main_call35_v1 m ρ c) (ssa_main_v234 m ρ c) n).trans (graph_nd (edgesA m ρ c) (8 : Fin 9) n).symm

end Cert.KernelIdeal.Rd

end
-- ==== Proof.KI.TabA5.lean ====
/-
  The single-assignment equations of @main's host operations before the first pallas_call, part 5 of 6: operations 432 to 539 of the one line.
-/
import proofs.«151568_j90031104458821_2_alg».proof.Proof.KI.TabA

set_option maxRecDepth 65536

noncomputable section

namespace Cert.KernelIdeal.Rd

open Cert.KernelIdeal Cert.KernelIdeal.Gen Cert.KernelIdeal.Fr Idealize.ShloMosaic Idealize.ShloMosaic.StableHlo Idealize.SL.Sem Cert

variable {F : FTy → Type} [FloatOps F]
variable (m : (ℓ : Loc nD τ sig) → Buf (Elt F) ℓ) (ρ : Dev nD → PrngReg)

theorem ssa_main_v251 (c : Dev nD) : XA m ρ c (Proc.devRef .tc main_v251) = (broadcastInDim S1x50000 ![1] bcast_S50000_S1x50000_1 : (⟨S50000, .f32⟩ : BufTy).Contents (Elt F) → (⟨S1x50000, .f32⟩ : BufTy).Contents (Elt F)) (XA m ρ c (Proc.devRef .tc main_v182)) := by
  exact Ssa.ssa_unary alA 432 _ rfl (by decide +kernel) (by decide +kernel)
theorem ssa_main_v252 (c : Dev nD) : XA m ρ c (Proc.devRef .tc main_v252) = (broadcastInDim S1x50000 ![1] bcast_S50000_S1x50000_1 : (⟨S50000, .f32⟩ : BufTy).Contents (Elt F) → (⟨S1x50000, .f32⟩ : BufTy).Contents (Elt F)) (XA m ρ c (Proc.devRef .tc main_v208)) := by
  exact Ssa.ssa_unary alA 433 _ rfl (by decide +kernel) (by decide +kernel)
theorem ssa_main_v253 (c : Dev nD) : XA m ρ c (Proc.devRef .tc main_v253) = (broadcastInDim S1x50000 ![1] bcast_S50000_S1x50000_1 : (⟨S50000, .f32⟩ : BufTy).Contents (Elt F) → (⟨S1x50000, .f32⟩ : BufTy).Contents (Elt F)) (XA m ρ c (Proc.devRef .tc main_v234)) := by
  exact Ssa.ssa_unary alA 434 _ rfl (by decide +kernel) (by decide +kernel)
theorem ssa_main_v254 (c : Dev nD) : XA m ρ c (Proc.devRef .tc main_v254) = concatenate S9x50000 0 [⟨S1x50000, (XA m ρ c (Proc.devRef .tc main_v245))⟩, ⟨S1x50000, (XA m ρ c (Proc.devRef .tc main_v246))⟩, ⟨S1x50000, (XA m ρ c (Proc.devRef .tc main_v247))⟩, ⟨S1x50000, (XA m ρ c (Proc.devRef .tc main_v248))⟩, ⟨S1x50000, (XA m ρ c (Proc.devRef .tc main_v249))⟩, ⟨S1x50000, (XA m ρ c (Proc.devRef .tc main_v250))⟩, ⟨S1x50000, (XA m ρ c (Proc.devRef .tc main_v251))⟩, ⟨S1x50000, (XA m ρ c (Proc.devRef .tc main_v252))⟩, ⟨S1x50000, (XA m ρ c (Proc.devRef .tc main_v253))⟩] concatenates_S1x50000_S1x50000_S1x50000_S1x50000_S1x50000_S1x50000_S1x50000_S1x50000_S1x50000_S9x50000_d0 := by
  exact Ssa.ssa_nary alA 435 _ rfl (by decide +kernel) (by decide +kernel)
theorem ssa_main_v255 (c : Dev nD) : XA m ρ c (Proc.devRef .tc main_v255) = ((extractStridedSlice S1x50000 ![0, 0] · slices_S9x50000_S1x50000_0_0) : (⟨S9x50000, .f32⟩ : BufTy).Contents (Elt F) → (⟨S1x50000, .f32⟩ : BufTy).Contents (Elt F)) (XA m ρ c (Proc.devRef .tc main_v244)) := by
  exact Ssa.ssa_unary alA 436 _ rfl (by decide +kernel) (by decide +kernel)
theorem ssa_main_v256 (c : Dev nD) : XA m ρ c (Proc.devRef .tc main_v256) = shapeCast S50000 (XA m ρ c (Proc.devRef .tc main_v255)) shapeCasts_S1x50000_S50000 := by
  exact Ssa.ssa_reshape (x := main_v255) (y := main_v256) (he := rfl) (hn := shapeCasts_S1x50000_S50000) alA 437 _ rfl (by decide +kernel) (by decide +kernel)
theorem ssa_main_v257 (c : Dev nD) : XA m ρ c (Proc.devRef .tc main_v257) = (broadcastInDim S50000x1 ![0] bcast_S50000_S50000x1_0 : (⟨S50000, .f32⟩ : BufTy).Contents (Elt F) → (⟨S50000x1, .f32⟩ : BufTy).Contents (Elt F)) (XA m ρ c (Proc.devRef .tc main_v256)) := by
  exact Ssa.ssa_unary alA 438 _ rfl (by decide +kernel) (by decide +kernel)
theorem ssa_main_v258 (c : Dev nD) : XA m ρ c (Proc.devRef .tc main_v258) = (broadcastInDim S50000x128 ![0, 1] bcast_S50000x1_S50000x128_0_1 : (⟨S50000x1, .f32⟩ : BufTy).Contents (Elt F) → (⟨S50000x128, .f32⟩ : BufTy).Contents (Elt F)) (XA m ρ c (Proc.devRef .tc main_v257)) := by
  exact Ssa.ssa_unary alA 439 _ rfl (by decide +kernel) (by decide +kernel)
theorem ssa_main_v259 (c : Dev nD) : XA m ρ c (Proc.devRef .tc main_v259) = (mulf : (⟨S50000x128, .f32⟩ : BufTy).Contents (Elt F) → (⟨S50000x128, .f32⟩ : BufTy).Contents (Elt F) → (⟨S50000x128, .f32⟩ : BufTy).Contents (Elt F)) (XA m ρ c (Proc.devRef .tc main_arg0)) (XA m ρ c (Proc.devRef .tc main_v258)) := by
  exact Ssa.ssa_binary alA 440 _ rfl (by decide +kernel) (by decide +kernel) (by decide +kernel)
theorem ssa_main_v260 (c : Dev nD) : XA m ρ c (Proc.devRef .tc main_v260) = ((extractStridedSlice S1x1x400000 ![0, 0, 0] · slices_S9x2x400000_S1x1x400000_0_0_0) : (⟨S9x2x400000, .i32⟩ : BufTy).Contents (Elt F) → (⟨S1x1x400000, .i32⟩ : BufTy).Contents (Elt F)) (XA m ρ c (Proc.devRef .tc main_arg9)) := by
  exact Ssa.ssa_unary alA 441 _ rfl (by decide +kernel) (by decide +kernel)
theorem ssa_main_v261 (c : Dev nD) : XA m ρ c (Proc.devRef .tc main_v261) = shapeCast S400000 (XA m ρ c (Proc.devRef .tc main_v260)) shapeCasts_S1x1x400000_S400000 := by
  exact Ssa.ssa_reshape (x := main_v260) (y := main_v261) (he := rfl) (hn := shapeCasts_S1x1x400000_S400000) alA 442 _ rfl (by decide +kernel) (by decide +kernel)
theorem ssa_main_c (c : Dev nD) : XA m ρ c (Proc.devRef .tc main_c) = (constantI S_ 32 0#32) := by
  exact Ssa.ssa_nullary alA 443 _ rfl (by decide +kernel)
theorem ssa_main_v262 (c : Dev nD) : XA m ρ c (Proc.devRef .tc main_v262) = (broadcastInDim S400000 ![] bcast_S_S400000 : (⟨S_, .i32⟩ : BufTy).Contents (Elt F) → (⟨S400000, .i32⟩ : BufTy).Contents (Elt F)) (XA m ρ c (Proc.devRef .tc main_c)) := by
  exact Ssa.ssa_unary alA 444 _ rfl (by decide +kernel) (by decide +kernel)
theorem ssa_main_v263 (c : Dev nD) : XA m ρ c (Proc.devRef .tc main_v263) = (cmpi .slt : (⟨S400000, .i32⟩ : BufTy).Contents (Elt F) → (⟨S400000, .i32⟩ : BufTy).Contents (Elt F) → (⟨S400000, .i1⟩ : BufTy).Contents (Elt F)) (XA m ρ c (Proc.devRef .tc main_v261)) (XA m ρ c (Proc.devRef .tc main_v262)) := by
  exact Ssa.ssa_binary alA 445 _ rfl (by decide +kernel) (by decide +kernel) (by decide +kernel)
theorem ssa_main_c_108 (c : Dev nD) : XA m ρ c (Proc.devRef .tc main_c_108) = (constantI S_ 32 50000#32) := by
  exact Ssa.ssa_nullary alA 446 _ rfl (by decide +kernel)
theorem ssa_main_v264 (c : Dev nD) : XA m ρ c (Proc.devRef .tc main_v264) = (broadcastInDim S400000 ![] bcast_S_S400000 : (⟨S_, .i32⟩ : BufTy).Contents (Elt F) → (⟨S400000, .i32⟩ : BufTy).Contents (Elt F)) (XA m ρ c (Proc.devRef .tc main_c_108)) := by
  exact Ssa.ssa_unary alA 447 _ rfl (by decide +kernel) (by decide +kernel)
theorem ssa_main_v265 (c : Dev nD) : XA m ρ c (Proc.devRef .tc main_v265) = (addi : (⟨S400000, .i32⟩ : BufTy).Contents (Elt F) → (⟨S400000, .i32⟩ : BufTy).Contents (Elt F) → (⟨S400000, .i32⟩ : BufTy).Contents (Elt F)) (XA m ρ c (Proc.devRef .tc main_v261)) (XA m ρ c (Proc.devRef .tc main_v264)) := by
  exact Ssa.ssa_binary alA 448 _ rfl (by decide +kernel) (by decide +kernel) (by decide +kernel)
theorem ssa_main_v266 (c : Dev nD) : XA m ρ c (Proc.devRef .tc main_v266) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (XA m ρ c (Proc.devRef .tc main_v263)) (XA m ρ c (Proc.devRef .tc main_v265)) (XA m ρ c (Proc.devRef .tc main_v261)) := by
  exact Ssa.ssa_ternary alA 449 _ rfl (by decide +kernel) (by decide +kernel) (by decide +kernel) (by decide +kernel)
theorem ssa_main_v267 (c : Dev nD) : XA m ρ c (Proc.devRef .tc main_v267) = (broadcastInDim S400000x1 ![0] bcast_S400000_S400000x1_0 : (⟨S400000, .i32⟩ : BufTy).Contents (Elt F) → (⟨S400000x1, .i32⟩ : BufTy).Contents (Elt F)) (XA m ρ c (Proc.devRef .tc main_v266)) := by
  exact Ssa.ssa_unary alA 450 _ rfl (by decide +kernel) (by decide +kernel)
theorem ssa_main_v268 (c : Dev nD) : XA m ρ c (Proc.devRef .tc main_v268) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (XA m ρ c (Proc.devRef .tc main_v259)) (XA m ρ c (Proc.devRef .tc main_v267)) := by
  exact Ssa.ssa_binary alA 451 _ rfl (by decide +kernel) (by decide +kernel) (by decide +kernel)
theorem ssa_main_v269 (c : Dev nD) : XA m ρ c (Proc.devRef .tc main_v269) = ((extractStridedSlice S1x1x400000 ![0, 1, 0] · slices_S9x2x400000_S1x1x400000_0_1_0) : (⟨S9x2x400000, .i32⟩ : BufTy).Contents (Elt F) → (⟨S1x1x400000, .i32⟩ : BufTy).Contents (Elt F)) (XA m ρ c (Proc.devRef .tc main_arg9)) := by
  exact Ssa.ssa_unary alA 452 _ rfl (by decide +kernel) (by decide +kernel)
theorem ssa_main_v270 (c : Dev nD) : XA m ρ c (Proc.devRef .tc main_v270) = shapeCast S400000 (XA m ρ c (Proc.devRef .tc main_v269)) shapeCasts_S1x1x400000_S400000 := by
  exact Ssa.ssa_reshape (x := main_v269) (y := main_v270) (he := rfl) (hn := shapeCasts_S1x1x400000_S400000) alA 453 _ rfl (by decide +kernel) (by decide +kernel)
theorem ssa_main_cst_109 (c : Dev nD) : XA m ρ c (Proc.devRef .tc main_cst_109) = (constant (F := F) S_ .f32 0x00000000#32) := by
  exact Ssa.ssa_nullary alA 454 _ rfl (by decide +kernel)
theorem ssa_main_v271 (c : Dev nD) : XA m ρ c (Proc.devRef .tc main_v271) = (broadcastInDim S50000x128 ![] bcast_S_S50000x128 : (⟨S_, .f32⟩ : BufTy).Contents (Elt F) → (⟨S50000x128, .f32⟩ : BufTy).Contents (Elt F)) (XA m ρ c (Proc.devRef .tc main_cst_109)) := by
  exact Ssa.ssa_unary alA 455 _ rfl (by decide +kernel) (by decide +kernel)
theorem ssa_main_v272 (c : Dev nD) : XA m ρ c (Proc.devRef .tc main_v272) = (broadcastInDim S400000x1 ![0] bcast_S400000_S400000x1_0 : (⟨S400000, .i32⟩ : BufTy).Contents (Elt F) → (⟨S400000x1, .i32⟩ : BufTy).Contents (Elt F)) (XA m ρ c (Proc.devRef .tc main_v270)) := by
  exact Ssa.ssa_unary alA 456 _ rfl (by decide +kernel) (by decide +kernel)
theorem ssa_main_v273 (c : Dev nD) : XA m ρ c (Proc.devRef .tc main_v273) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (XA m ρ c (Proc.devRef .tc main_v271)) (XA m ρ c (Proc.devRef .tc main_v272)) (XA m ρ c (Proc.devRef .tc main_v268)) := by
  exact Ssa.ssa_ternary alA 457 _ rfl (by decide +kernel) (by decide +kernel) (by decide +kernel) (by decide +kernel)
theorem ssa_main_v274 (c : Dev nD) : XA m ρ c (Proc.devRef .tc main_v274) = ((extractStridedSlice S1x50000 ![1, 0] · slices_S9x50000_S1x50000_1_0) : (⟨S9x50000, .f32⟩ : BufTy).Contents (Elt F) → (⟨S1x50000, .f32⟩ : BufTy).Contents (Elt F)) (XA m ρ c (Proc.devRef .tc main_v244)) := by
  exact Ssa.ssa_unary alA 458 _ rfl (by decide +kernel) (by decide +kernel)
theorem ssa_main_v275 (c : Dev nD) : XA m ρ c (Proc.devRef .tc main_v275) = shapeCast S50000 (XA m ρ c (Proc.devRef .tc main_v274)) shapeCasts_S1x50000_S50000 := by
  exact Ssa.ssa_reshape (x := main_v274) (y := main_v275) (he := rfl) (hn := shapeCasts_S1x50000_S50000) alA 459 _ rfl (by decide +kernel) (by decide +kernel)
theorem ssa_main_v276 (c : Dev nD) : XA m ρ c (Proc.devRef .tc main_v276) = (broadcastInDim S50000x1 ![0] bcast_S50000_S50000x1_0 : (⟨S50000, .f32⟩ : BufTy).Contents (Elt F) → (⟨S50000x1, .f32⟩ : BufTy).Contents (Elt F)) (XA m ρ c (Proc.devRef .tc main_v275)) := by
  exact Ssa.ssa_unary alA 460 _ rfl (by decide +kernel) (by decide +kernel)
theorem ssa_main_v277 (c : Dev nD) : XA m ρ c (Proc.devRef .tc main_v277) = (broadcastInDim S50000x128 ![0, 1] bcast_S50000x1_S50000x128_0_1 : (⟨S50000x1, .f32⟩ : BufTy).Contents (Elt F) → (⟨S50000x128, .f32⟩ : BufTy).Contents (Elt F)) (XA m ρ c (Proc.devRef .tc main_v276)) := by
  exact Ssa.ssa_unary alA 461 _ rfl (by decide +kernel) (by decide +kernel)
theorem ssa_main_v278 (c : Dev nD) : XA m ρ c (Proc.devRef .tc main_v278) = (mulf : (⟨S50000x128, .f32⟩ : BufTy).Contents (Elt F) → (⟨S50000x128, .f32⟩ : BufTy).Contents (Elt F) → (⟨S50000x128, .f32⟩ : BufTy).Contents (Elt F)) (XA m ρ c (Proc.devRef .tc main_arg1)) (XA m ρ c (Proc.devRef .tc main_v277)) := by
  exact Ssa.ssa_binary alA 462 _ rfl (by decide +kernel) (by decide +kernel) (by decide +kernel)
theorem ssa_main_v279 (c : Dev nD) : XA m ρ c (Proc.devRef .tc main_v279) = ((extractStridedSlice S1x1x400000 ![1, 0, 0] · slices_S9x2x400000_S1x1x400000_1_0_0) : (⟨S9x2x400000, .i32⟩ : BufTy).Contents (Elt F) → (⟨S1x1x400000, .i32⟩ : BufTy).Contents (Elt F)) (XA m ρ c (Proc.devRef .tc main_arg9)) := by
  exact Ssa.ssa_unary alA 463 _ rfl (by decide +kernel) (by decide +kernel)
theorem ssa_main_v280 (c : Dev nD) : XA m ρ c (Proc.devRef .tc main_v280) = shapeCast S400000 (XA m ρ c (Proc.devRef .tc main_v279)) shapeCasts_S1x1x400000_S400000 := by
  exact Ssa.ssa_reshape (x := main_v279) (y := main_v280) (he := rfl) (hn := shapeCasts_S1x1x400000_S400000) alA 464 _ rfl (by decide +kernel) (by decide +kernel)
theorem ssa_main_c_110 (c : Dev nD) : XA m ρ c (Proc.devRef .tc main_c_110) = (constantI S_ 32 0#32) := by
  exact Ssa.ssa_nullary alA 465 _ rfl (by decide +kernel)
theorem ssa_main_v281 (c : Dev nD) : XA m ρ c (Proc.devRef .tc main_v281) = (broadcastInDim S400000 ![] bcast_S_S400000 : (⟨S_, .i32⟩ : BufTy).Contents (Elt F) → (⟨S400000, .i32⟩ : BufTy).Contents (Elt F)) (XA m ρ c (Proc.devRef .tc main_c_110)) := by
  exact Ssa.ssa_unary alA 466 _ rfl (by decide +kernel) (by decide +kernel)
theorem ssa_main_v282 (c : Dev nD) : XA m ρ c (Proc.devRef .tc main_v282) = (cmpi .slt : (⟨S400000, .i32⟩ : BufTy).Contents (Elt F) → (⟨S400000, .i32⟩ : BufTy).Contents (Elt F) → (⟨S400000, .i1⟩ : BufTy).Contents (Elt F)) (XA m ρ c (Proc.devRef .tc main_v280)) (XA m ρ c (Proc.devRef .tc main_v281)) := by
  exact Ssa.ssa_binary alA 467 _ rfl (by decide +kernel) (by decide +kernel) (by decide +kernel)
theorem ssa_main_c_111 (c : Dev nD) : XA m ρ c (Proc.devRef .tc main_c_111) = (constantI S_ 32 50000#32) := by
  exact Ssa.ssa_nullary alA 468 _ rfl (by decide +kernel)
theorem ssa_main_v283 (c : Dev nD) : XA m ρ c (Proc.devRef .tc main_v283) = (broadcastInDim S400000 ![] bcast_S_S400000 : (⟨S_, .i32⟩ : BufTy).Contents (Elt F) → (⟨S400000, .i32⟩ : BufTy).Contents (Elt F)) (XA m ρ c (Proc.devRef .tc main_c_111)) := by
  exact Ssa.ssa_unary alA 469 _ rfl (by decide +kernel) (by decide +kernel)
theorem ssa_main_v284 (c : Dev nD) : XA m ρ c (Proc.devRef .tc main_v284) = (addi : (⟨S400000, .i32⟩ : BufTy).Contents (Elt F) → (⟨S400000, .i32⟩ : BufTy).Contents (Elt F) → (⟨S400000, .i32⟩ : BufTy).Contents (Elt F)) (XA m ρ c (Proc.devRef .tc main_v280)) (XA m ρ c (Proc.devRef .tc main_v283)) := by
  exact Ssa.ssa_binary alA 470 _ rfl (by decide +kernel) (by decide +kernel) (by decide +kernel)
theorem ssa_main_v285 (c : Dev nD) : XA m ρ c (Proc.devRef .tc main_v285) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (XA m ρ c (Proc.devRef .tc main_v282)) (XA m ρ c (Proc.devRef .tc main_v284)) (XA m ρ c (Proc.devRef .tc main_v280)) := by
  exact Ssa.ssa_ternary alA 471 _ rfl (by decide +kernel) (by decide +kernel) (by decide +kernel) (by decide +kernel)
theorem ssa_main_v286 (c : Dev nD) : XA m ρ c (Proc.devRef .tc main_v286) = (broadcastInDim S400000x1 ![0] bcast_S400000_S400000x1_0 : (⟨S400000, .i32⟩ : BufTy).Contents (Elt F) → (⟨S400000x1, .i32⟩ : BufTy).Contents (Elt F)) (XA m ρ c (Proc.devRef .tc main_v285)) := by
  exact Ssa.ssa_unary alA 472 _ rfl (by decide +kernel) (by decide +kernel)
theorem ssa_main_v287 (c : Dev nD) : XA m ρ c (Proc.devRef .tc main_v287) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (XA m ρ c (Proc.devRef .tc main_v278)) (XA m ρ c (Proc.devRef .tc main_v286)) := by
  exact Ssa.ssa_binary alA 473 _ rfl (by decide +kernel) (by decide +kernel) (by decide +kernel)
theorem ssa_main_v288 (c : Dev nD) : XA m ρ c (Proc.devRef .tc main_v288) = ((extractStridedSlice S1x1x400000 ![1, 1, 0] · slices_S9x2x400000_S1x1x400000_1_1_0) : (⟨S9x2x400000, .i32⟩ : BufTy).Contents (Elt F) → (⟨S1x1x400000, .i32⟩ : BufTy).Contents (Elt F)) (XA m ρ c (Proc.devRef .tc main_arg9)) := by
  exact Ssa.ssa_unary alA 474 _ rfl (by decide +kernel) (by decide +kernel)
theorem ssa_main_v289 (c : Dev nD) : XA m ρ c (Proc.devRef .tc main_v289) = shapeCast S400000 (XA m ρ c (Proc.devRef .tc main_v288)) shapeCasts_S1x1x400000_S400000 := by
  exact Ssa.ssa_reshape (x := main_v288) (y := main_v289) (he := rfl) (hn := shapeCasts_S1x1x400000_S400000) alA 475 _ rfl (by decide +kernel) (by decide +kernel)
theorem ssa_main_cst_112 (c : Dev nD) : XA m ρ c (Proc.devRef .tc main_cst_112) = (constant (F := F) S_ .f32 0x00000000#32) := by
  exact Ssa.ssa_nullary alA 476 _ rfl (by decide +kernel)
theorem ssa_main_v290 (c : Dev nD) : XA m ρ c (Proc.devRef .tc main_v290) = (broadcastInDim S50000x128 ![] bcast_S_S50000x128 : (⟨S_, .f32⟩ : BufTy).Contents (Elt F) → (⟨S50000x128, .f32⟩ : BufTy).Contents (Elt F)) (XA m ρ c (Proc.devRef .tc main_cst_112)) := by
  exact Ssa.ssa_unary alA 477 _ rfl (by decide +kernel) (by decide +kernel)
theorem ssa_main_v291 (c : Dev nD) : XA m ρ c (Proc.devRef .tc main_v291) = (broadcastInDim S400000x1 ![0] bcast_S400000_S400000x1_0 : (⟨S400000, .i32⟩ : BufTy).Contents (Elt F) → (⟨S400000x1, .i32⟩ : BufTy).Contents (Elt F)) (XA m ρ c (Proc.devRef .tc main_v289)) := by
  exact Ssa.ssa_unary alA 478 _ rfl (by decide +kernel) (by decide +kernel)
theorem ssa_main_v292 (c : Dev nD) : XA m ρ c (Proc.devRef .tc main_v292) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (XA m ρ c (Proc.devRef .tc main_v290)) (XA m ρ c (Proc.devRef .tc main_v291)) (XA m ρ c (Proc.devRef .tc main_v287)) := by
  exact Ssa.ssa_ternary alA 479 _ rfl (by decide +kernel) (by decide +kernel) (by decide +kernel) (by decide +kernel)
theorem ssa_main_v293 (c : Dev nD) : XA m ρ c (Proc.devRef .tc main_v293) = ((extractStridedSlice S1x50000 ![2, 0] · slices_S9x50000_S1x50000_2_0) : (⟨S9x50000, .f32⟩ : BufTy).Contents (Elt F) → (⟨S1x50000, .f32⟩ : BufTy).Contents (Elt F)) (XA m ρ c (Proc.devRef .tc main_v244)) := by
  exact Ssa.ssa_unary alA 480 _ rfl (by decide +kernel) (by decide +kernel)
theorem ssa_main_v294 (c : Dev nD) : XA m ρ c (Proc.devRef .tc main_v294) = shapeCast S50000 (XA m ρ c (Proc.devRef .tc main_v293)) shapeCasts_S1x50000_S50000 := by
  exact Ssa.ssa_reshape (x := main_v293) (y := main_v294) (he := rfl) (hn := shapeCasts_S1x50000_S50000) alA 481 _ rfl (by decide +kernel) (by decide +kernel)
theorem ssa_main_v295 (c : Dev nD) : XA m ρ c (Proc.devRef .tc main_v295) = (broadcastInDim S50000x1 ![0] bcast_S50000_S50000x1_0 : (⟨S50000, .f32⟩ : BufTy).Contents (Elt F) → (⟨S50000x1, .f32⟩ : BufTy).Contents (Elt F)) (XA m ρ c (Proc.devRef .tc main_v294)) := by
  exact Ssa.ssa_unary alA 482 _ rfl (by decide +kernel) (by decide +kernel)
theorem ssa_main_v296 (c : Dev nD) : XA m ρ c (Proc.devRef .tc main_v296) = (broadcastInDim S50000x128 ![0, 1] bcast_S50000x1_S50000x128_0_1 : (⟨S50000x1, .f32⟩ : BufTy).Contents (Elt F) → (⟨S50000x128, .f32⟩ : BufTy).Contents (Elt F)) (XA m ρ c (Proc.devRef .tc main_v295)) := by
  exact Ssa.ssa_unary alA 483 _ rfl (by decide +kernel) (by decide +kernel)
theorem ssa_main_v297 (c : Dev nD) : XA m ρ c (Proc.devRef .tc main_v297) = (mulf : (⟨S50000x128, .f32⟩ : BufTy).Contents (Elt F) → (⟨S50000x128, .f32⟩ : BufTy).Contents (Elt F) → (⟨S50000x128, .f32⟩ : BufTy).Contents (Elt F)) (XA m ρ c (Proc.devRef .tc main_arg1)) (XA m ρ c (Proc.devRef .tc main_v296)) := by
  exact Ssa.ssa_binary alA 484 _ rfl (by decide +kernel) (by decide +kernel) (by decide +kernel)
theorem ssa_main_v298 (c : Dev nD) : XA m ρ c (Proc.devRef .tc main_v298) = ((extractStridedSlice S1x1x400000 ![2, 0, 0] · slices_S9x2x400000_S1x1x400000_2_0_0) : (⟨S9x2x400000, .i32⟩ : BufTy).Contents (Elt F) → (⟨S1x1x400000, .i32⟩ : BufTy).Contents (Elt F)) (XA m ρ c (Proc.devRef .tc main_arg9)) := by
  exact Ssa.ssa_unary alA 485 _ rfl (by decide +kernel) (by decide +kernel)
theorem ssa_main_v299 (c : Dev nD) : XA m ρ c (Proc.devRef .tc main_v299) = shapeCast S400000 (XA m ρ c (Proc.devRef .tc main_v298)) shapeCasts_S1x1x400000_S400000 := by
  exact Ssa.ssa_reshape (x := main_v298) (y := main_v299) (he := rfl) (hn := shapeCasts_S1x1x400000_S400000) alA 486 _ rfl (by decide +kernel) (by decide +kernel)
theorem ssa_main_c_113 (c : Dev nD) : XA m ρ c (Proc.devRef .tc main_c_113) = (constantI S_ 32 0#32) := by
  exact Ssa.ssa_nullary alA 487 _ rfl (by decide +kernel)
theorem ssa_main_v300 (c : Dev nD) : XA m ρ c (Proc.devRef .tc main_v300) = (broadcastInDim S400000 ![] bcast_S_S400000 : (⟨S_, .i32⟩ : BufTy).Contents (Elt F) → (⟨S400000, .i32⟩ : BufTy).Contents (Elt F)) (XA m ρ c (Proc.devRef .tc main_c_113)) := by
  exact Ssa.ssa_unary alA 488 _ rfl (by decide +kernel) (by decide +kernel)
theorem ssa_main_v301 (c : Dev nD) : XA m ρ c (Proc.devRef .tc main_v301) = (cmpi .slt : (⟨S400000, .i32⟩ : BufTy).Contents (Elt F) → (⟨S400000, .i32⟩ : BufTy).Contents (Elt F) → (⟨S400000, .i1⟩ : BufTy).Contents (Elt F)) (XA m ρ c (Proc.devRef .tc main_v299)) (XA m ρ c (Proc.devRef .tc main_v300)) := by
  exact Ssa.ssa_binary alA 489 _ rfl (by decide +kernel) (by decide +kernel) (by decide +kernel)
theorem ssa_main_c_114 (c : Dev nD) : XA m ρ c (Proc.devRef .tc main_c_114) = (constantI S_ 32 50000#32) := by
  exact Ssa.ssa_nullary alA 490 _ rfl (by decide +kernel)
theorem ssa_main_v302 (c : Dev nD) : XA m ρ c (Proc.devRef .tc main_v302) = (broadcastInDim S400000 ![] bcast_S_S400000 : (⟨S_, .i32⟩ : BufTy).Contents (Elt F) → (⟨S400000, .i32⟩ : BufTy).Contents (Elt F)) (XA m ρ c (Proc.devRef .tc main_c_114)) := by
  exact Ssa.ssa_unary alA 491 _ rfl (by decide +kernel) (by decide +kernel)
theorem ssa_main_v303 (c : Dev nD) : XA m ρ c (Proc.devRef .tc main_v303) = (addi : (⟨S400000, .i32⟩ : BufTy).Contents (Elt F) → (⟨S400000, .i32⟩ : BufTy).Contents (Elt F) → (⟨S400000, .i32⟩ : BufTy).Contents (Elt F)) (XA m ρ c (Proc.devRef .tc main_v299)) (XA m ρ c (Proc.devRef .tc main_v302)) := by
  exact Ssa.ssa_binary alA 492 _ rfl (by decide +kernel) (by decide +kernel) (by decide +kernel)
theorem ssa_main_v304 (c : Dev nD) : XA m ρ c (Proc.devRef .tc main_v304) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (XA m ρ c (Proc.devRef .tc main_v301)) (XA m ρ c (Proc.devRef .tc main_v303)) (XA m ρ c (Proc.devRef .tc main_v299)) := by
  exact Ssa.ssa_ternary alA 493 _ rfl (by decide +kernel) (by decide +kernel) (by decide +kernel) (by decide +kernel)
theorem ssa_main_v305 (c : Dev nD) : XA m ρ c (Proc.devRef .tc main_v305) = (broadcastInDim S400000x1 ![0] bcast_S400000_S400000x1_0 : (⟨S400000, .i32⟩ : BufTy).Contents (Elt F) → (⟨S400000x1, .i32⟩ : BufTy).Contents (Elt F)) (XA m ρ c (Proc.devRef .tc main_v304)) := by
  exact Ssa.ssa_unary alA 494 _ rfl (by decide +kernel) (by decide +kernel)
theorem ssa_main_v306 (c : Dev nD) : XA m ρ c (Proc.devRef .tc main_v306) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (XA m ρ c (Proc.devRef .tc main_v297)) (XA m ρ c (Proc.devRef .tc main_v305)) := by
  exact Ssa.ssa_binary alA 495 _ rfl (by decide +kernel) (by decide +kernel) (by decide +kernel)
theorem ssa_main_v307 (c : Dev nD) : XA m ρ c (Proc.devRef .tc main_v307) = ((extractStridedSlice S1x1x400000 ![2, 1, 0] · slices_S9x2x400000_S1x1x400000_2_1_0) : (⟨S9x2x400000, .i32⟩ : BufTy).Contents (Elt F) → (⟨S1x1x400000, .i32⟩ : BufTy).Contents (Elt F)) (XA m ρ c (Proc.devRef .tc main_arg9)) := by
  exact Ssa.ssa_unary alA 496 _ rfl (by decide +kernel) (by decide +kernel)
theorem ssa_main_v308 (c : Dev nD) : XA m ρ c (Proc.devRef .tc main_v308) = shapeCast S400000 (XA m ρ c (Proc.devRef .tc main_v307)) shapeCasts_S1x1x400000_S400000 := by
  exact Ssa.ssa_reshape (x := main_v307) (y := main_v308) (he := rfl) (hn := shapeCasts_S1x1x400000_S400000) alA 497 _ rfl (by decide +kernel) (by decide +kernel)
theorem ssa_main_cst_115 (c : Dev nD) : XA m ρ c (Proc.devRef .tc main_cst_115) = (constant (F := F) S_ .f32 0x00000000#32) := by
  exact Ssa.ssa_nullary alA 498 _ rfl (by decide +kernel)
theorem ssa_main_v309 (c : Dev nD) : XA m ρ c (Proc.devRef .tc main_v309) = (broadcastInDim S50000x128 ![] bcast_S_S50000x128 : (⟨S_, .f32⟩ : BufTy).Contents (Elt F) → (⟨S50000x128, .f32⟩ : BufTy).Contents (Elt F)) (XA m ρ c (Proc.devRef .tc main_cst_115)) := by
  exact Ssa.ssa_unary alA 499 _ rfl (by decide +kernel) (by decide +kernel)
theorem ssa_main_v310 (c : Dev nD) : XA m ρ c (Proc.devRef .tc main_v310) = (broadcastInDim S400000x1 ![0] bcast_S400000_S400000x1_0 : (⟨S400000, .i32⟩ : BufTy).Contents (Elt F) → (⟨S400000x1, .i32⟩ : BufTy).Contents (Elt F)) (XA m ρ c (Proc.devRef .tc main_v308)) := by
  exact Ssa.ssa_unary alA 500 _ rfl (by decide +kernel) (by decide +kernel)
theorem ssa_main_v311 (c : Dev nD) : XA m ρ c (Proc.devRef .tc main_v311) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (XA m ρ c (Proc.devRef .tc main_v309)) (XA m ρ c (Proc.devRef .tc main_v310)) (XA m ρ c (Proc.devRef .tc main_v306)) := by
  exact Ssa.ssa_ternary alA 501 _ rfl (by decide +kernel) (by decide +kernel) (by decide +kernel) (by decide +kernel)
theorem ssa_main_v312 (c : Dev nD) : XA m ρ c (Proc.devRef .tc main_v312) = ((extractStridedSlice S1x50000 ![3, 0] · slices_S9x50000_S1x50000_3_0) : (⟨S9x50000, .f32⟩ : BufTy).Contents (Elt F) → (⟨S1x50000, .f32⟩ : BufTy).Contents (Elt F)) (XA m ρ c (Proc.devRef .tc main_v244)) := by
  exact Ssa.ssa_unary alA 502 _ rfl (by decide +kernel) (by decide +kernel)
theorem ssa_main_v313 (c : Dev nD) : XA m ρ c (Proc.devRef .tc main_v313) = shapeCast S50000 (XA m ρ c (Proc.devRef .tc main_v312)) shapeCasts_S1x50000_S50000 := by
  exact Ssa.ssa_reshape (x := main_v312) (y := main_v313) (he := rfl) (hn := shapeCasts_S1x50000_S50000) alA 503 _ rfl (by decide +kernel) (by decide +kernel)
theorem ssa_main_v314 (c : Dev nD) : XA m ρ c (Proc.devRef .tc main_v314) = (broadcastInDim S50000x1 ![0] bcast_S50000_S50000x1_0 : (⟨S50000, .f32⟩ : BufTy).Contents (Elt F) → (⟨S50000x1, .f32⟩ : BufTy).Contents (Elt F)) (XA m ρ c (Proc.devRef .tc main_v313)) := by
  exact Ssa.ssa_unary alA 504 _ rfl (by decide +kernel) (by decide +kernel)
theorem ssa_main_v315 (c : Dev nD) : XA m ρ c (Proc.devRef .tc main_v315) = (broadcastInDim S50000x128 ![0, 1] bcast_S50000x1_S50000x128_0_1 : (⟨S50000x1, .f32⟩ : BufTy).Contents (Elt F) → (⟨S50000x128, .f32⟩ : BufTy).Contents (Elt F)) (XA m ρ c (Proc.devRef .tc main_v314)) := by
  exact Ssa.ssa_unary alA 505 _ rfl (by decide +kernel) (by decide +kernel)
theorem ssa_main_v316 (c : Dev nD) : XA m ρ c (Proc.devRef .tc main_v316) = (mulf : (⟨S50000x128, .f32⟩ : BufTy).Contents (Elt F) → (⟨S50000x128, .f32⟩ : BufTy).Contents (Elt F) → (⟨S50000x128, .f32⟩ : BufTy).Contents (Elt F)) (XA m ρ c (Proc.devRef .tc main_arg0)) (XA m ρ c (Proc.devRef .tc main_v315)) := by
  exact Ssa.ssa_binary alA 506 _ rfl (by decide +kernel) (by decide +kernel) (by decide +kernel)
theorem ssa_main_v317 (c : Dev nD) : XA m ρ c (Proc.devRef .tc main_v317) = ((extractStridedSlice S1x1x400000 ![3, 0, 0] · slices_S9x2x400000_S1x1x400000_3_0_0) : (⟨S9x2x400000, .i32⟩ : BufTy).Contents (Elt F) → (⟨S1x1x400000, .i32⟩ : BufTy).Contents (Elt F)) (XA m ρ c (Proc.devRef .tc main_arg9)) := by
  exact Ssa.ssa_unary alA 507 _ rfl (by decide +kernel) (by decide +kernel)
theorem ssa_main_v318 (c : Dev nD) : XA m ρ c (Proc.devRef .tc main_v318) = shapeCast S400000 (XA m ρ c (Proc.devRef .tc main_v317)) shapeCasts_S1x1x400000_S400000 := by
  exact Ssa.ssa_reshape (x := main_v317) (y := main_v318) (he := rfl) (hn := shapeCasts_S1x1x400000_S400000) alA 508 _ rfl (by decide +kernel) (by decide +kernel)
theorem ssa_main_c_116 (c : Dev nD) : XA m ρ c (Proc.devRef .tc main_c_116) = (constantI S_ 32 0#32) := by
  exact Ssa.ssa_nullary alA 509 _ rfl (by decide +kernel)
theorem ssa_main_v319 (c : Dev nD) : XA m ρ c (Proc.devRef .tc main_v319) = (broadcastInDim S400000 ![] bcast_S_S400000 : (⟨S_, .i32⟩ : BufTy).Contents (Elt F) → (⟨S400000, .i32⟩ : BufTy).Contents (Elt F)) (XA m ρ c (Proc.devRef .tc main_c_116)) := by
  exact Ssa.ssa_unary alA 510 _ rfl (by decide +kernel) (by decide +kernel)
theorem ssa_main_v320 (c : Dev nD) : XA m ρ c (Proc.devRef .tc main_v320) = (cmpi .slt : (⟨S400000, .i32⟩ : BufTy).Contents (Elt F) → (⟨S400000, .i32⟩ : BufTy).Contents (Elt F) → (⟨S400000, .i1⟩ : BufTy).Contents (Elt F)) (XA m ρ c (Proc.devRef .tc main_v318)) (XA m ρ c (Proc.devRef .tc main_v319)) := by
  exact Ssa.ssa_binary alA 511 _ rfl (by decide +kernel) (by decide +kernel) (by decide +kernel)
theorem ssa_main_c_117 (c : Dev nD) : XA m ρ c (Proc.devRef .tc main_c_117) = (constantI S_ 32 50000#32) := by
  exact Ssa.ssa_nullary alA 512 _ rfl (by decide +kernel)
theorem ssa_main_v321 (c : Dev nD) : XA m ρ c (Proc.devRef .tc main_v321) = (broadcastInDim S400000 ![] bcast_S_S400000 : (⟨S_, .i32⟩ : BufTy).Contents (Elt F) → (⟨S400000, .i32⟩ : BufTy).Contents (Elt F)) (XA m ρ c (Proc.devRef .tc main_c_117)) := by
  exact Ssa.ssa_unary alA 513 _ rfl (by decide +kernel) (by decide +kernel)
theorem ssa_main_v322 (c : Dev nD) : XA m ρ c (Proc.devRef .tc main_v322) = (addi : (⟨S400000, .i32⟩ : BufTy).Contents (Elt F) → (⟨S400000, .i32⟩ : BufTy).Contents (Elt F) → (⟨S400000, .i32⟩ : BufTy).Contents (Elt F)) (XA m ρ c (Proc.devRef .tc main_v318)) (XA m ρ c (Proc.devRef .tc main_v321)) := by
  exact Ssa.ssa_binary alA 514 _ rfl (by decide +kernel) (by decide +kernel) (by decide +kernel)
theorem ssa_main_v323 (c : Dev nD) : XA m ρ c (Proc.devRef .tc main_v323) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (XA m ρ c (Proc.devRef .tc main_v320)) (XA m ρ c (Proc.devRef .tc main_v322)) (XA m ρ c (Proc.devRef .tc main_v318)) := by
  exact Ssa.ssa_ternary alA 515 _ rfl (by decide +kernel) (by decide +kernel) (by decide +kernel) (by decide +kernel)
theorem ssa_main_v324 (c : Dev nD) : XA m ρ c (Proc.devRef .tc main_v324) = (broadcastInDim S400000x1 ![0] bcast_S400000_S400000x1_0 : (⟨S400000, .i32⟩ : BufTy).Contents (Elt F) → (⟨S400000x1, .i32⟩ : BufTy).Contents (Elt F)) (XA m ρ c (Proc.devRef .tc main_v323)) := by
  exact Ssa.ssa_unary alA 516 _ rfl (by decide +kernel) (by decide +kernel)
theorem ssa_main_v325 (c : Dev nD) : XA m ρ c (Proc.devRef .tc main_v325) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (XA m ρ c (Proc.devRef .tc main_v316)) (XA m ρ c (Proc.devRef .tc main_v324)) := by
  exact Ssa.ssa_binary alA 517 _ rfl (by decide +kernel) (by decide +kernel) (by decide +kernel)
theorem ssa_main_v326 (c : Dev nD) : XA m ρ c (Proc.devRef .tc main_v326) = ((extractStridedSlice S1x1x400000 ![3, 1, 0] · slices_S9x2x400000_S1x1x400000_3_1_0) : (⟨S9x2x400000, .i32⟩ : BufTy).Contents (Elt F) → (⟨S1x1x400000, .i32⟩ : BufTy).Contents (Elt F)) (XA m ρ c (Proc.devRef .tc main_arg9)) := by
  exact Ssa.ssa_unary alA 518 _ rfl (by decide +kernel) (by decide +kernel)
theorem ssa_main_v327 (c : Dev nD) : XA m ρ c (Proc.devRef .tc main_v327) = shapeCast S400000 (XA m ρ c (Proc.devRef .tc main_v326)) shapeCasts_S1x1x400000_S400000 := by
  exact Ssa.ssa_reshape (x := main_v326) (y := main_v327) (he := rfl) (hn := shapeCasts_S1x1x400000_S400000) alA 519 _ rfl (by decide +kernel) (by decide +kernel)
theorem ssa_main_cst_118 (c : Dev nD) : XA m ρ c (Proc.devRef .tc main_cst_118) = (constant (F := F) S_ .f32 0x00000000#32) := by
  exact Ssa.ssa_nullary alA 520 _ rfl (by decide +kernel)
theorem ssa_main_v328 (c : Dev nD) : XA m ρ c (Proc.devRef .tc main_v328) = (broadcastInDim S50000x128 ![] bcast_S_S50000x128 : (⟨S_, .f32⟩ : BufTy).Contents (Elt F) → (⟨S50000x128, .f32⟩ : BufTy).Contents (Elt F)) (XA m ρ c (Proc.devRef .tc main_cst_118)) := by
  exact Ssa.ssa_unary alA 521 _ rfl (by decide +kernel) (by decide +kernel)
theorem ssa_main_v329 (c : Dev nD) : XA m ρ c (Proc.devRef .tc main_v329) = (broadcastInDim S400000x1 ![0] bcast_S400000_S400000x1_0 : (⟨S400000, .i32⟩ : BufTy).Contents (Elt F) → (⟨S400000x1, .i32⟩ : BufTy).Contents (Elt F)) (XA m ρ c (Proc.devRef .tc main_v327)) := by
  exact Ssa.ssa_unary alA 522 _ rfl (by decide +kernel) (by decide +kernel)
theorem ssa_main_v330 (c : Dev nD) : XA m ρ c (Proc.devRef .tc main_v330) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (XA m ρ c (Proc.devRef .tc main_v328)) (XA m ρ c (Proc.devRef .tc main_v329)) (XA m ρ c (Proc.devRef .tc main_v325)) := by
  exact Ssa.ssa_ternary alA 523 _ rfl (by decide +kernel) (by decide +kernel) (by decide +kernel) (by decide +kernel)
theorem ssa_main_v331 (c : Dev nD) : XA m ρ c (Proc.devRef .tc main_v331) = ((extractStridedSlice S1x50000 ![4, 0] · slices_S9x50000_S1x50000_4_0) : (⟨S9x50000, .f32⟩ : BufTy).Contents (Elt F) → (⟨S1x50000, .f32⟩ : BufTy).Contents (Elt F)) (XA m ρ c (Proc.devRef .tc main_v244)) := by
  exact Ssa.ssa_unary alA 524 _ rfl (by decide +kernel) (by decide +kernel)
theorem ssa_main_v332 (c : Dev nD) : XA m ρ c (Proc.devRef .tc main_v332) = shapeCast S50000 (XA m ρ c (Proc.devRef .tc main_v331)) shapeCasts_S1x50000_S50000 := by
  exact Ssa.ssa_reshape (x := main_v331) (y := main_v332) (he := rfl) (hn := shapeCasts_S1x50000_S50000) alA 525 _ rfl (by decide +kernel) (by decide +kernel)
theorem ssa_main_v333 (c : Dev nD) : XA m ρ c (Proc.devRef .tc main_v333) = (broadcastInDim S50000x1 ![0] bcast_S50000_S50000x1_0 : (⟨S50000, .f32⟩ : BufTy).Contents (Elt F) → (⟨S50000x1, .f32⟩ : BufTy).Contents (Elt F)) (XA m ρ c (Proc.devRef .tc main_v332)) := by
  exact Ssa.ssa_unary alA 526 _ rfl (by decide +kernel) (by decide +kernel)
theorem ssa_main_v334 (c : Dev nD) : XA m ρ c (Proc.devRef .tc main_v334) = (broadcastInDim S50000x128 ![0, 1] bcast_S50000x1_S50000x128_0_1 : (⟨S50000x1, .f32⟩ : BufTy).Contents (Elt F) → (⟨S50000x128, .f32⟩ : BufTy).Contents (Elt F)) (XA m ρ c (Proc.devRef .tc main_v333)) := by
  exact Ssa.ssa_unary alA 527 _ rfl (by decide +kernel) (by decide +kernel)
theorem ssa_main_v335 (c : Dev nD) : XA m ρ c (Proc.devRef .tc main_v335) = (mulf : (⟨S50000x128, .f32⟩ : BufTy).Contents (Elt F) → (⟨S50000x128, .f32⟩ : BufTy).Contents (Elt F) → (⟨S50000x128, .f32⟩ : BufTy).Contents (Elt F)) (XA m ρ c (Proc.devRef .tc main_arg2)) (XA m ρ c (Proc.devRef .tc main_v334)) := by
  exact Ssa.ssa_binary alA 528 _ rfl (by decide +kernel) (by decide +kernel) (by decide +kernel)
theorem ssa_main_v336 (c : Dev nD) : XA m ρ c (Proc.devRef .tc main_v336) = ((extractStridedSlice S1x1x400000 ![4, 0, 0] · slices_S9x2x400000_S1x1x400000_4_0_0) : (⟨S9x2x400000, .i32⟩ : BufTy).Contents (Elt F) → (⟨S1x1x400000, .i32⟩ : BufTy).Contents (Elt F)) (XA m ρ c (Proc.devRef .tc main_arg9)) := by
  exact Ssa.ssa_unary alA 529 _ rfl (by decide +kernel) (by decide +kernel)
theorem ssa_main_v337 (c : Dev nD) : XA m ρ c (Proc.devRef .tc main_v337) = shapeCast S400000 (XA m ρ c (Proc.devRef .tc main_v336)) shapeCasts_S1x1x400000_S400000 := by
  exact Ssa.ssa_reshape (x := main_v336) (y := main_v337) (he := rfl) (hn := shapeCasts_S1x1x400000_S400000) alA 530 _ rfl (by decide +kernel) (by decide +kernel)
theorem ssa_main_c_119 (c : Dev nD) : XA m ρ c (Proc.devRef .tc main_c_119) = (constantI S_ 32 0#32) := by
  exact Ssa.ssa_nullary alA 531 _ rfl (by decide +kernel)
theorem ssa_main_v338 (c : Dev nD) : XA m ρ c (Proc.devRef .tc main_v338) = (broadcastInDim S400000 ![] bcast_S_S400000 : (⟨S_, .i32⟩ : BufTy).Contents (Elt F) → (⟨S400000, .i32⟩ : BufTy).Contents (Elt F)) (XA m ρ c (Proc.devRef .tc main_c_119)) := by
  exact Ssa.ssa_unary alA 532 _ rfl (by decide +kernel) (by decide +kernel)
theorem ssa_main_v339 (c : Dev nD) : XA m ρ c (Proc.devRef .tc main_v339) = (cmpi .slt : (⟨S400000, .i32⟩ : BufTy).Contents (Elt F) → (⟨S400000, .i32⟩ : BufTy).Contents (Elt F) → (⟨S400000, .i1⟩ : BufTy).Contents (Elt F)) (XA m ρ c (Proc.devRef .tc main_v337)) (XA m ρ c (Proc.devRef .tc main_v338)) := by
  exact Ssa.ssa_binary alA 533 _ rfl (by decide +kernel) (by decide +kernel) (by decide +kernel)
theorem ssa_main_c_120 (c : Dev nD) : XA m ρ c (Proc.devRef .tc main_c_120) = (constantI S_ 32 50000#32) := by
  exact Ssa.ssa_nullary alA 534 _ rfl (by decide +kernel)
theorem ssa_main_v340 (c : Dev nD) : XA m ρ c (Proc.devRef .tc main_v340) = (broadcastInDim S400000 ![] bcast_S_S400000 : (⟨S_, .i32⟩ : BufTy).Contents (Elt F) → (⟨S400000, .i32⟩ : BufTy).Contents (Elt F)) (XA m ρ c (Proc.devRef .tc main_c_120)) := by
  exact Ssa.ssa_unary alA 535 _ rfl (by decide +kernel) (by decide +kernel)
theorem ssa_main_v341 (c : Dev nD) : XA m ρ c (Proc.devRef .tc main_v341) = (addi : (⟨S400000, .i32⟩ : BufTy).Contents (Elt F) → (⟨S400000, .i32⟩ : BufTy).Contents (Elt F) → (⟨S400000, .i32⟩ : BufTy).Contents (Elt F)) (XA m ρ c (Proc.devRef .tc main_v337)) (XA m ρ c (Proc.devRef .tc main_v340)) := by
  exact Ssa.ssa_binary alA 536 _ rfl (by decide +kernel) (by decide +kernel) (by decide +kernel)
theorem ssa_main_v342 (c : Dev nD) : XA m ρ c (Proc.devRef .tc main_v342) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (XA m ρ c (Proc.devRef .tc main_v339)) (XA m ρ c (Proc.devRef .tc main_v341)) (XA m ρ c (Proc.devRef .tc main_v337)) := by
  exact Ssa.ssa_ternary alA 537 _ rfl (by decide +kernel) (by decide +kernel) (by decide +kernel) (by decide +kernel)
theorem ssa_main_v343 (c : Dev nD) : XA m ρ c (Proc.devRef .tc main_v343) = (broadcastInDim S400000x1 ![0] bcast_S400000_S400000x1_0 : (⟨S400000, .i32⟩ : BufTy).Contents (Elt F) → (⟨S400000x1, .i32⟩ : BufTy).Contents (Elt F)) (XA m ρ c (Proc.devRef .tc main_v342)) := by
  exact Ssa.ssa_unary alA 538 _ rfl (by decide +kernel) (by decide +kernel)
theorem ssa_main_v344 (c : Dev nD) : XA m ρ c (Proc.devRef .tc main_v344) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (XA m ρ c (Proc.devRef .tc main_v335)) (XA m ρ c (Proc.devRef .tc main_v343)) := by
  exact Ssa.ssa_binary alA 539 _ rfl (by decide +kernel) (by decide +kernel) (by decide +kernel)

end Cert.KernelIdeal.Rd

end
-- ==== Proof.KI.TabA6.lean ====
/-
  The single-assignment equations of @main's host operations before the first pallas_call, part 6 of 6: operations 540 to 645 of the one line.
-/
import proofs.«151568_j90031104458821_2_alg».proof.Proof.KI.TabA

set_option maxRecDepth 65536

noncomputable section

namespace Cert.KernelIdeal.Rd

open Cert.KernelIdeal Cert.KernelIdeal.Gen Cert.KernelIdeal.Fr Idealize.ShloMosaic Idealize.ShloMosaic.StableHlo Idealize.SL.Sem Cert

variable {F : FTy → Type} [FloatOps F]
variable (m : (ℓ : Loc nD τ sig) → Buf (Elt F) ℓ) (ρ : Dev nD → PrngReg)

theorem ssa_main_v345 (c : Dev nD) : XA m ρ c (Proc.devRef .tc main_v345) = ((extractStridedSlice S1x1x400000 ![4, 1, 0] · slices_S9x2x400000_S1x1x400000_4_1_0) : (⟨S9x2x400000, .i32⟩ : BufTy).Contents (Elt F) → (⟨S1x1x400000, .i32⟩ : BufTy).Contents (Elt F)) (XA m ρ c (Proc.devRef .tc main_arg9)) := by
  exact Ssa.ssa_unary alA 540 _ rfl (by decide +kernel) (by decide +kernel)
theorem ssa_main_v346 (c : Dev nD) : XA m ρ c (Proc.devRef .tc main_v346) = shapeCast S400000 (XA m ρ c (Proc.devRef .tc main_v345)) shapeCasts_S1x1x400000_S400000 := by
  exact Ssa.ssa_reshape (x := main_v345) (y := main_v346) (he := rfl) (hn := shapeCasts_S1x1x400000_S400000) alA 541 _ rfl (by decide +kernel) (by decide +kernel)
theorem ssa_main_cst_121 (c : Dev nD) : XA m ρ c (Proc.devRef .tc main_cst_121) = (constant (F := F) S_ .f32 0x00000000#32) := by
  exact Ssa.ssa_nullary alA 542 _ rfl (by decide +kernel)
theorem ssa_main_v347 (c : Dev nD) : XA m ρ c (Proc.devRef .tc main_v347) = (broadcastInDim S50000x128 ![] bcast_S_S50000x128 : (⟨S_, .f32⟩ : BufTy).Contents (Elt F) → (⟨S50000x128, .f32⟩ : BufTy).Contents (Elt F)) (XA m ρ c (Proc.devRef .tc main_cst_121)) := by
  exact Ssa.ssa_unary alA 543 _ rfl (by decide +kernel) (by decide +kernel)
theorem ssa_main_v348 (c : Dev nD) : XA m ρ c (Proc.devRef .tc main_v348) = (broadcastInDim S400000x1 ![0] bcast_S400000_S400000x1_0 : (⟨S400000, .i32⟩ : BufTy).Contents (Elt F) → (⟨S400000x1, .i32⟩ : BufTy).Contents (Elt F)) (XA m ρ c (Proc.devRef .tc main_v346)) := by
  exact Ssa.ssa_unary alA 544 _ rfl (by decide +kernel) (by decide +kernel)
theorem ssa_main_v349 (c : Dev nD) : XA m ρ c (Proc.devRef .tc main_v349) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (XA m ρ c (Proc.devRef .tc main_v347)) (XA m ρ c (Proc.devRef .tc main_v348)) (XA m ρ c (Proc.devRef .tc main_v344)) := by
  exact Ssa.ssa_ternary alA 545 _ rfl (by decide +kernel) (by decide +kernel) (by decide +kernel) (by decide +kernel)
theorem ssa_main_v350 (c : Dev nD) : XA m ρ c (Proc.devRef .tc main_v350) = ((extractStridedSlice S1x50000 ![5, 0] · slices_S9x50000_S1x50000_5_0) : (⟨S9x50000, .f32⟩ : BufTy).Contents (Elt F) → (⟨S1x50000, .f32⟩ : BufTy).Contents (Elt F)) (XA m ρ c (Proc.devRef .tc main_v244)) := by
  exact Ssa.ssa_unary alA 546 _ rfl (by decide +kernel) (by decide +kernel)
theorem ssa_main_v351 (c : Dev nD) : XA m ρ c (Proc.devRef .tc main_v351) = shapeCast S50000 (XA m ρ c (Proc.devRef .tc main_v350)) shapeCasts_S1x50000_S50000 := by
  exact Ssa.ssa_reshape (x := main_v350) (y := main_v351) (he := rfl) (hn := shapeCasts_S1x50000_S50000) alA 547 _ rfl (by decide +kernel) (by decide +kernel)
theorem ssa_main_v352 (c : Dev nD) : XA m ρ c (Proc.devRef .tc main_v352) = (broadcastInDim S50000x1 ![0] bcast_S50000_S50000x1_0 : (⟨S50000, .f32⟩ : BufTy).Contents (Elt F) → (⟨S50000x1, .f32⟩ : BufTy).Contents (Elt F)) (XA m ρ c (Proc.devRef .tc main_v351)) := by
  exact Ssa.ssa_unary alA 548 _ rfl (by decide +kernel) (by decide +kernel)
theorem ssa_main_v353 (c : Dev nD) : XA m ρ c (Proc.devRef .tc main_v353) = (broadcastInDim S50000x128 ![0, 1] bcast_S50000x1_S50000x128_0_1 : (⟨S50000x1, .f32⟩ : BufTy).Contents (Elt F) → (⟨S50000x128, .f32⟩ : BufTy).Contents (Elt F)) (XA m ρ c (Proc.devRef .tc main_v352)) := by
  exact Ssa.ssa_unary alA 549 _ rfl (by decide +kernel) (by decide +kernel)
theorem ssa_main_v354 (c : Dev nD) : XA m ρ c (Proc.devRef .tc main_v354) = (mulf : (⟨S50000x128, .f32⟩ : BufTy).Contents (Elt F) → (⟨S50000x128, .f32⟩ : BufTy).Contents (Elt F) → (⟨S50000x128, .f32⟩ : BufTy).Contents (Elt F)) (XA m ρ c (Proc.devRef .tc main_arg2)) (XA m ρ c (Proc.devRef .tc main_v353)) := by
  exact Ssa.ssa_binary alA 550 _ rfl (by decide +kernel) (by decide +kernel) (by decide +kernel)
theorem ssa_main_v355 (c : Dev nD) : XA m ρ c (Proc.devRef .tc main_v355) = ((extractStridedSlice S1x1x400000 ![5, 0, 0] · slices_S9x2x400000_S1x1x400000_5_0_0) : (⟨S9x2x400000, .i32⟩ : BufTy).Contents (Elt F) → (⟨S1x1x400000, .i32⟩ : BufTy).Contents (Elt F)) (XA m ρ c (Proc.devRef .tc main_arg9)) := by
  exact Ssa.ssa_unary alA 551 _ rfl (by decide +kernel) (by decide +kernel)
theorem ssa_main_v356 (c : Dev nD) : XA m ρ c (Proc.devRef .tc main_v356) = shapeCast S400000 (XA m ρ c (Proc.devRef .tc main_v355)) shapeCasts_S1x1x400000_S400000 := by
  exact Ssa.ssa_reshape (x := main_v355) (y := main_v356) (he := rfl) (hn := shapeCasts_S1x1x400000_S400000) alA 552 _ rfl (by decide +kernel) (by decide +kernel)
theorem ssa_main_c_122 (c : Dev nD) : XA m ρ c (Proc.devRef .tc main_c_122) = (constantI S_ 32 0#32) := by
  exact Ssa.ssa_nullary alA 553 _ rfl (by decide +kernel)
theorem ssa_main_v357 (c : Dev nD) : XA m ρ c (Proc.devRef .tc main_v357) = (broadcastInDim S400000 ![] bcast_S_S400000 : (⟨S_, .i32⟩ : BufTy).Contents (Elt F) → (⟨S400000, .i32⟩ : BufTy).Contents (Elt F)) (XA m ρ c (Proc.devRef .tc main_c_122)) := by
  exact Ssa.ssa_unary alA 554 _ rfl (by decide +kernel) (by decide +kernel)
theorem ssa_main_v358 (c : Dev nD) : XA m ρ c (Proc.devRef .tc main_v358) = (cmpi .slt : (⟨S400000, .i32⟩ : BufTy).Contents (Elt F) → (⟨S400000, .i32⟩ : BufTy).Contents (Elt F) → (⟨S400000, .i1⟩ : BufTy).Contents (Elt F)) (XA m ρ c (Proc.devRef .tc main_v356)) (XA m ρ c (Proc.devRef .tc main_v357)) := by
  exact Ssa.ssa_binary alA 555 _ rfl (by decide +kernel) (by decide +kernel) (by decide +kernel)
theorem ssa_main_c_123 (c : Dev nD) : XA m ρ c (Proc.devRef .tc main_c_123) = (constantI S_ 32 50000#32) := by
  exact Ssa.ssa_nullary alA 556 _ rfl (by decide +kernel)
theorem ssa_main_v359 (c : Dev nD) : XA m ρ c (Proc.devRef .tc main_v359) = (broadcastInDim S400000 ![] bcast_S_S400000 : (⟨S_, .i32⟩ : BufTy).Contents (Elt F) → (⟨S400000, .i32⟩ : BufTy).Contents (Elt F)) (XA m ρ c (Proc.devRef .tc main_c_123)) := by
  exact Ssa.ssa_unary alA 557 _ rfl (by decide +kernel) (by decide +kernel)
theorem ssa_main_v360 (c : Dev nD) : XA m ρ c (Proc.devRef .tc main_v360) = (addi : (⟨S400000, .i32⟩ : BufTy).Contents (Elt F) → (⟨S400000, .i32⟩ : BufTy).Contents (Elt F) → (⟨S400000, .i32⟩ : BufTy).Contents (Elt F)) (XA m ρ c (Proc.devRef .tc main_v356)) (XA m ρ c (Proc.devRef .tc main_v359)) := by
  exact Ssa.ssa_binary alA 558 _ rfl (by decide +kernel) (by decide +kernel) (by decide +kernel)
theorem ssa_main_v361 (c : Dev nD) : XA m ρ c (Proc.devRef .tc main_v361) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (XA m ρ c (Proc.devRef .tc main_v358)) (XA m ρ c (Proc.devRef .tc main_v360)) (XA m ρ c (Proc.devRef .tc main_v356)) := by
  exact Ssa.ssa_ternary alA 559 _ rfl (by decide +kernel) (by decide +kernel) (by decide +kernel) (by decide +kernel)
theorem ssa_main_v362 (c : Dev nD) : XA m ρ c (Proc.devRef .tc main_v362) = (broadcastInDim S400000x1 ![0] bcast_S400000_S400000x1_0 : (⟨S400000, .i32⟩ : BufTy).Contents (Elt F) → (⟨S400000x1, .i32⟩ : BufTy).Contents (Elt F)) (XA m ρ c (Proc.devRef .tc main_v361)) := by
  exact Ssa.ssa_unary alA 560 _ rfl (by decide +kernel) (by decide +kernel)
theorem ssa_main_v363 (c : Dev nD) : XA m ρ c (Proc.devRef .tc main_v363) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (XA m ρ c (Proc.devRef .tc main_v354)) (XA m ρ c (Proc.devRef .tc main_v362)) := by
  exact Ssa.ssa_binary alA 561 _ rfl (by decide +kernel) (by decide +kernel) (by decide +kernel)
theorem ssa_main_v364 (c : Dev nD) : XA m ρ c (Proc.devRef .tc main_v364) = ((extractStridedSlice S1x1x400000 ![5, 1, 0] · slices_S9x2x400000_S1x1x400000_5_1_0) : (⟨S9x2x400000, .i32⟩ : BufTy).Contents (Elt F) → (⟨S1x1x400000, .i32⟩ : BufTy).Contents (Elt F)) (XA m ρ c (Proc.devRef .tc main_arg9)) := by
  exact Ssa.ssa_unary alA 562 _ rfl (by decide +kernel) (by decide +kernel)
theorem ssa_main_v365 (c : Dev nD) : XA m ρ c (Proc.devRef .tc main_v365) = shapeCast S400000 (XA m ρ c (Proc.devRef .tc main_v364)) shapeCasts_S1x1x400000_S400000 := by
  exact Ssa.ssa_reshape (x := main_v364) (y := main_v365) (he := rfl) (hn := shapeCasts_S1x1x400000_S400000) alA 563 _ rfl (by decide +kernel) (by decide +kernel)
theorem ssa_main_cst_124 (c : Dev nD) : XA m ρ c (Proc.devRef .tc main_cst_124) = (constant (F := F) S_ .f32 0x00000000#32) := by
  exact Ssa.ssa_nullary alA 564 _ rfl (by decide +kernel)
theorem ssa_main_v366 (c : Dev nD) : XA m ρ c (Proc.devRef .tc main_v366) = (broadcastInDim S50000x128 ![] bcast_S_S50000x128 : (⟨S_, .f32⟩ : BufTy).Contents (Elt F) → (⟨S50000x128, .f32⟩ : BufTy).Contents (Elt F)) (XA m ρ c (Proc.devRef .tc main_cst_124)) := by
  exact Ssa.ssa_unary alA 565 _ rfl (by decide +kernel) (by decide +kernel)
theorem ssa_main_v367 (c : Dev nD) : XA m ρ c (Proc.devRef .tc main_v367) = (broadcastInDim S400000x1 ![0] bcast_S400000_S400000x1_0 : (⟨S400000, .i32⟩ : BufTy).Contents (Elt F) → (⟨S400000x1, .i32⟩ : BufTy).Contents (Elt F)) (XA m ρ c (Proc.devRef .tc main_v365)) := by
  exact Ssa.ssa_unary alA 566 _ rfl (by decide +kernel) (by decide +kernel)
theorem ssa_main_v368 (c : Dev nD) : XA m ρ c (Proc.devRef .tc main_v368) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (XA m ρ c (Proc.devRef .tc main_v366)) (XA m ρ c (Proc.devRef .tc main_v367)) (XA m ρ c (Proc.devRef .tc main_v363)) := by
  exact Ssa.ssa_ternary alA 567 _ rfl (by decide +kernel) (by decide +kernel) (by decide +kernel) (by decide +kernel)
theorem ssa_main_v369 (c : Dev nD) : XA m ρ c (Proc.devRef .tc main_v369) = ((extractStridedSlice S1x50000 ![6, 0] · slices_S9x50000_S1x50000_6_0) : (⟨S9x50000, .f32⟩ : BufTy).Contents (Elt F) → (⟨S1x50000, .f32⟩ : BufTy).Contents (Elt F)) (XA m ρ c (Proc.devRef .tc main_v244)) := by
  exact Ssa.ssa_unary alA 568 _ rfl (by decide +kernel) (by decide +kernel)
theorem ssa_main_v370 (c : Dev nD) : XA m ρ c (Proc.devRef .tc main_v370) = shapeCast S50000 (XA m ρ c (Proc.devRef .tc main_v369)) shapeCasts_S1x50000_S50000 := by
  exact Ssa.ssa_reshape (x := main_v369) (y := main_v370) (he := rfl) (hn := shapeCasts_S1x50000_S50000) alA 569 _ rfl (by decide +kernel) (by decide +kernel)
theorem ssa_main_v371 (c : Dev nD) : XA m ρ c (Proc.devRef .tc main_v371) = (broadcastInDim S50000x1 ![0] bcast_S50000_S50000x1_0 : (⟨S50000, .f32⟩ : BufTy).Contents (Elt F) → (⟨S50000x1, .f32⟩ : BufTy).Contents (Elt F)) (XA m ρ c (Proc.devRef .tc main_v370)) := by
  exact Ssa.ssa_unary alA 570 _ rfl (by decide +kernel) (by decide +kernel)
theorem ssa_main_v372 (c : Dev nD) : XA m ρ c (Proc.devRef .tc main_v372) = (broadcastInDim S50000x128 ![0, 1] bcast_S50000x1_S50000x128_0_1 : (⟨S50000x1, .f32⟩ : BufTy).Contents (Elt F) → (⟨S50000x128, .f32⟩ : BufTy).Contents (Elt F)) (XA m ρ c (Proc.devRef .tc main_v371)) := by
  exact Ssa.ssa_unary alA 571 _ rfl (by decide +kernel) (by decide +kernel)
theorem ssa_main_v373 (c : Dev nD) : XA m ρ c (Proc.devRef .tc main_v373) = (mulf : (⟨S50000x128, .f32⟩ : BufTy).Contents (Elt F) → (⟨S50000x128, .f32⟩ : BufTy).Contents (Elt F) → (⟨S50000x128, .f32⟩ : BufTy).Contents (Elt F)) (XA m ρ c (Proc.devRef .tc main_arg0)) (XA m ρ c (Proc.devRef .tc main_v372)) := by
  exact Ssa.ssa_binary alA 572 _ rfl (by decide +kernel) (by decide +kernel) (by decide +kernel)
theorem ssa_main_v374 (c : Dev nD) : XA m ρ c (Proc.devRef .tc main_v374) = ((extractStridedSlice S1x1x400000 ![6, 0, 0] · slices_S9x2x400000_S1x1x400000_6_0_0) : (⟨S9x2x400000, .i32⟩ : BufTy).Contents (Elt F) → (⟨S1x1x400000, .i32⟩ : BufTy).Contents (Elt F)) (XA m ρ c (Proc.devRef .tc main_arg9)) := by
  exact Ssa.ssa_unary alA 573 _ rfl (by decide +kernel) (by decide +kernel)
theorem ssa_main_v375 (c : Dev nD) : XA m ρ c (Proc.devRef .tc main_v375) = shapeCast S400000 (XA m ρ c (Proc.devRef .tc main_v374)) shapeCasts_S1x1x400000_S400000 := by
  exact Ssa.ssa_reshape (x := main_v374) (y := main_v375) (he := rfl) (hn := shapeCasts_S1x1x400000_S400000) alA 574 _ rfl (by decide +kernel) (by decide +kernel)
theorem ssa_main_c_125 (c : Dev nD) : XA m ρ c (Proc.devRef .tc main_c_125) = (constantI S_ 32 0#32) := by
  exact Ssa.ssa_nullary alA 575 _ rfl (by decide +kernel)
theorem ssa_main_v376 (c : Dev nD) : XA m ρ c (Proc.devRef .tc main_v376) = (broadcastInDim S400000 ![] bcast_S_S400000 : (⟨S_, .i32⟩ : BufTy).Contents (Elt F) → (⟨S400000, .i32⟩ : BufTy).Contents (Elt F)) (XA m ρ c (Proc.devRef .tc main_c_125)) := by
  exact Ssa.ssa_unary alA 576 _ rfl (by decide +kernel) (by decide +kernel)
theorem ssa_main_v377 (c : Dev nD) : XA m ρ c (Proc.devRef .tc main_v377) = (cmpi .slt : (⟨S400000, .i32⟩ : BufTy).Contents (Elt F) → (⟨S400000, .i32⟩ : BufTy).Contents (Elt F) → (⟨S400000, .i1⟩ : BufTy).Contents (Elt F)) (XA m ρ c (Proc.devRef .tc main_v375)) (XA m ρ c (Proc.devRef .tc main_v376)) := by
  exact Ssa.ssa_binary alA 577 _ rfl (by decide +kernel) (by decide +kernel) (by decide +kernel)
theorem ssa_main_c_126 (c : Dev nD) : XA m ρ c (Proc.devRef .tc main_c_126) = (constantI S_ 32 50000#32) := by
  exact Ssa.ssa_nullary alA 578 _ rfl (by decide +kernel)
theorem ssa_main_v378 (c : Dev nD) : XA m ρ c (Proc.devRef .tc main_v378) = (broadcastInDim S400000 ![] bcast_S_S400000 : (⟨S_, .i32⟩ : BufTy).Contents (Elt F) → (⟨S400000, .i32⟩ : BufTy).Contents (Elt F)) (XA m ρ c (Proc.devRef .tc main_c_126)) := by
  exact Ssa.ssa_unary alA 579 _ rfl (by decide +kernel) (by decide +kernel)
theorem ssa_main_v379 (c : Dev nD) : XA m ρ c (Proc.devRef .tc main_v379) = (addi : (⟨S400000, .i32⟩ : BufTy).Contents (Elt F) → (⟨S400000, .i32⟩ : BufTy).Contents (Elt F) → (⟨S400000, .i32⟩ : BufTy).Contents (Elt F)) (XA m ρ c (Proc.devRef .tc main_v375)) (XA m ρ c (Proc.devRef .tc main_v378)) := by
  exact Ssa.ssa_binary alA 580 _ rfl (by decide +kernel) (by decide +kernel) (by decide +kernel)
theorem ssa_main_v380 (c : Dev nD) : XA m ρ c (Proc.devRef .tc main_v380) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (XA m ρ c (Proc.devRef .tc main_v377)) (XA m ρ c (Proc.devRef .tc main_v379)) (XA m ρ c (Proc.devRef .tc main_v375)) := by
  exact Ssa.ssa_ternary alA 581 _ rfl (by decide +kernel) (by decide +kernel) (by decide +kernel) (by decide +kernel)
theorem ssa_main_v381 (c : Dev nD) : XA m ρ c (Proc.devRef .tc main_v381) = (broadcastInDim S400000x1 ![0] bcast_S400000_S400000x1_0 : (⟨S400000, .i32⟩ : BufTy).Contents (Elt F) → (⟨S400000x1, .i32⟩ : BufTy).Contents (Elt F)) (XA m ρ c (Proc.devRef .tc main_v380)) := by
  exact Ssa.ssa_unary alA 582 _ rfl (by decide +kernel) (by decide +kernel)
theorem ssa_main_v382 (c : Dev nD) : XA m ρ c (Proc.devRef .tc main_v382) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (XA m ρ c (Proc.devRef .tc main_v373)) (XA m ρ c (Proc.devRef .tc main_v381)) := by
  exact Ssa.ssa_binary alA 583 _ rfl (by decide +kernel) (by decide +kernel) (by decide +kernel)
theorem ssa_main_v383 (c : Dev nD) : XA m ρ c (Proc.devRef .tc main_v383) = ((extractStridedSlice S1x1x400000 ![6, 1, 0] · slices_S9x2x400000_S1x1x400000_6_1_0) : (⟨S9x2x400000, .i32⟩ : BufTy).Contents (Elt F) → (⟨S1x1x400000, .i32⟩ : BufTy).Contents (Elt F)) (XA m ρ c (Proc.devRef .tc main_arg9)) := by
  exact Ssa.ssa_unary alA 584 _ rfl (by decide +kernel) (by decide +kernel)
theorem ssa_main_v384 (c : Dev nD) : XA m ρ c (Proc.devRef .tc main_v384) = shapeCast S400000 (XA m ρ c (Proc.devRef .tc main_v383)) shapeCasts_S1x1x400000_S400000 := by
  exact Ssa.ssa_reshape (x := main_v383) (y := main_v384) (he := rfl) (hn := shapeCasts_S1x1x400000_S400000) alA 585 _ rfl (by decide +kernel) (by decide +kernel)
theorem ssa_main_cst_127 (c : Dev nD) : XA m ρ c (Proc.devRef .tc main_cst_127) = (constant (F := F) S_ .f32 0x00000000#32) := by
  exact Ssa.ssa_nullary alA 586 _ rfl (by decide +kernel)
theorem ssa_main_v385 (c : Dev nD) : XA m ρ c (Proc.devRef .tc main_v385) = (broadcastInDim S50000x128 ![] bcast_S_S50000x128 : (⟨S_, .f32⟩ : BufTy).Contents (Elt F) → (⟨S50000x128, .f32⟩ : BufTy).Contents (Elt F)) (XA m ρ c (Proc.devRef .tc main_cst_127)) := by
  exact Ssa.ssa_unary alA 587 _ rfl (by decide +kernel) (by decide +kernel)
theorem ssa_main_v386 (c : Dev nD) : XA m ρ c (Proc.devRef .tc main_v386) = (broadcastInDim S400000x1 ![0] bcast_S400000_S400000x1_0 : (⟨S400000, .i32⟩ : BufTy).Contents (Elt F) → (⟨S400000x1, .i32⟩ : BufTy).Contents (Elt F)) (XA m ρ c (Proc.devRef .tc main_v384)) := by
  exact Ssa.ssa_unary alA 588 _ rfl (by decide +kernel) (by decide +kernel)
theorem ssa_main_v387 (c : Dev nD) : XA m ρ c (Proc.devRef .tc main_v387) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (XA m ρ c (Proc.devRef .tc main_v385)) (XA m ρ c (Proc.devRef .tc main_v386)) (XA m ρ c (Proc.devRef .tc main_v382)) := by
  exact Ssa.ssa_ternary alA 589 _ rfl (by decide +kernel) (by decide +kernel) (by decide +kernel) (by decide +kernel)
theorem ssa_main_v388 (c : Dev nD) : XA m ρ c (Proc.devRef .tc main_v388) = ((extractStridedSlice S1x50000 ![7, 0] · slices_S9x50000_S1x50000_7_0) : (⟨S9x50000, .f32⟩ : BufTy).Contents (Elt F) → (⟨S1x50000, .f32⟩ : BufTy).Contents (Elt F)) (XA m ρ c (Proc.devRef .tc main_v244)) := by
  exact Ssa.ssa_unary alA 590 _ rfl (by decide +kernel) (by decide +kernel)
theorem ssa_main_v389 (c : Dev nD) : XA m ρ c (Proc.devRef .tc main_v389) = shapeCast S50000 (XA m ρ c (Proc.devRef .tc main_v388)) shapeCasts_S1x50000_S50000 := by
  exact Ssa.ssa_reshape (x := main_v388) (y := main_v389) (he := rfl) (hn := shapeCasts_S1x50000_S50000) alA 591 _ rfl (by decide +kernel) (by decide +kernel)
theorem ssa_main_v390 (c : Dev nD) : XA m ρ c (Proc.devRef .tc main_v390) = (broadcastInDim S50000x1 ![0] bcast_S50000_S50000x1_0 : (⟨S50000, .f32⟩ : BufTy).Contents (Elt F) → (⟨S50000x1, .f32⟩ : BufTy).Contents (Elt F)) (XA m ρ c (Proc.devRef .tc main_v389)) := by
  exact Ssa.ssa_unary alA 592 _ rfl (by decide +kernel) (by decide +kernel)
theorem ssa_main_v391 (c : Dev nD) : XA m ρ c (Proc.devRef .tc main_v391) = (broadcastInDim S50000x128 ![0, 1] bcast_S50000x1_S50000x128_0_1 : (⟨S50000x1, .f32⟩ : BufTy).Contents (Elt F) → (⟨S50000x128, .f32⟩ : BufTy).Contents (Elt F)) (XA m ρ c (Proc.devRef .tc main_v390)) := by
  exact Ssa.ssa_unary alA 593 _ rfl (by decide +kernel) (by decide +kernel)
theorem ssa_main_v392 (c : Dev nD) : XA m ρ c (Proc.devRef .tc main_v392) = (mulf : (⟨S50000x128, .f32⟩ : BufTy).Contents (Elt F) → (⟨S50000x128, .f32⟩ : BufTy).Contents (Elt F) → (⟨S50000x128, .f32⟩ : BufTy).Contents (Elt F)) (XA m ρ c (Proc.devRef .tc main_arg2)) (XA m ρ c (Proc.devRef .tc main_v391)) := by
  exact Ssa.ssa_binary alA 594 _ rfl (by decide +kernel) (by decide +kernel) (by decide +kernel)
theorem ssa_main_v393 (c : Dev nD) : XA m ρ c (Proc.devRef .tc main_v393) = ((extractStridedSlice S1x1x400000 ![7, 0, 0] · slices_S9x2x400000_S1x1x400000_7_0_0) : (⟨S9x2x400000, .i32⟩ : BufTy).Contents (Elt F) → (⟨S1x1x400000, .i32⟩ : BufTy).Contents (Elt F)) (XA m ρ c (Proc.devRef .tc main_arg9)) := by
  exact Ssa.ssa_unary alA 595 _ rfl (by decide +kernel) (by decide +kernel)
theorem ssa_main_v394 (c : Dev nD) : XA m ρ c (Proc.devRef .tc main_v394) = shapeCast S400000 (XA m ρ c (Proc.devRef .tc main_v393)) shapeCasts_S1x1x400000_S400000 := by
  exact Ssa.ssa_reshape (x := main_v393) (y := main_v394) (he := rfl) (hn := shapeCasts_S1x1x400000_S400000) alA 596 _ rfl (by decide +kernel) (by decide +kernel)
theorem ssa_main_c_128 (c : Dev nD) : XA m ρ c (Proc.devRef .tc main_c_128) = (constantI S_ 32 0#32) := by
  exact Ssa.ssa_nullary alA 597 _ rfl (by decide +kernel)
theorem ssa_main_v395 (c : Dev nD) : XA m ρ c (Proc.devRef .tc main_v395) = (broadcastInDim S400000 ![] bcast_S_S400000 : (⟨S_, .i32⟩ : BufTy).Contents (Elt F) → (⟨S400000, .i32⟩ : BufTy).Contents (Elt F)) (XA m ρ c (Proc.devRef .tc main_c_128)) := by
  exact Ssa.ssa_unary alA 598 _ rfl (by decide +kernel) (by decide +kernel)
theorem ssa_main_v396 (c : Dev nD) : XA m ρ c (Proc.devRef .tc main_v396) = (cmpi .slt : (⟨S400000, .i32⟩ : BufTy).Contents (Elt F) → (⟨S400000, .i32⟩ : BufTy).Contents (Elt F) → (⟨S400000, .i1⟩ : BufTy).Contents (Elt F)) (XA m ρ c (Proc.devRef .tc main_v394)) (XA m ρ c (Proc.devRef .tc main_v395)) := by
  exact Ssa.ssa_binary alA 599 _ rfl (by decide +kernel) (by decide +kernel) (by decide +kernel)
theorem ssa_main_c_129 (c : Dev nD) : XA m ρ c (Proc.devRef .tc main_c_129) = (constantI S_ 32 50000#32) := by
  exact Ssa.ssa_nullary alA 600 _ rfl (by decide +kernel)
theorem ssa_main_v397 (c : Dev nD) : XA m ρ c (Proc.devRef .tc main_v397) = (broadcastInDim S400000 ![] bcast_S_S400000 : (⟨S_, .i32⟩ : BufTy).Contents (Elt F) → (⟨S400000, .i32⟩ : BufTy).Contents (Elt F)) (XA m ρ c (Proc.devRef .tc main_c_129)) := by
  exact Ssa.ssa_unary alA 601 _ rfl (by decide +kernel) (by decide +kernel)
theorem ssa_main_v398 (c : Dev nD) : XA m ρ c (Proc.devRef .tc main_v398) = (addi : (⟨S400000, .i32⟩ : BufTy).Contents (Elt F) → (⟨S400000, .i32⟩ : BufTy).Contents (Elt F) → (⟨S400000, .i32⟩ : BufTy).Contents (Elt F)) (XA m ρ c (Proc.devRef .tc main_v394)) (XA m ρ c (Proc.devRef .tc main_v397)) := by
  exact Ssa.ssa_binary alA 602 _ rfl (by decide +kernel) (by decide +kernel) (by decide +kernel)
theorem ssa_main_v399 (c : Dev nD) : XA m ρ c (Proc.devRef .tc main_v399) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (XA m ρ c (Proc.devRef .tc main_v396)) (XA m ρ c (Proc.devRef .tc main_v398)) (XA m ρ c (Proc.devRef .tc main_v394)) := by
  exact Ssa.ssa_ternary alA 603 _ rfl (by decide +kernel) (by decide +kernel) (by decide +kernel) (by decide +kernel)
theorem ssa_main_v400 (c : Dev nD) : XA m ρ c (Proc.devRef .tc main_v400) = (broadcastInDim S400000x1 ![0] bcast_S400000_S400000x1_0 : (⟨S400000, .i32⟩ : BufTy).Contents (Elt F) → (⟨S400000x1, .i32⟩ : BufTy).Contents (Elt F)) (XA m ρ c (Proc.devRef .tc main_v399)) := by
  exact Ssa.ssa_unary alA 604 _ rfl (by decide +kernel) (by decide +kernel)
theorem ssa_main_v401 (c : Dev nD) : XA m ρ c (Proc.devRef .tc main_v401) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (XA m ρ c (Proc.devRef .tc main_v392)) (XA m ρ c (Proc.devRef .tc main_v400)) := by
  exact Ssa.ssa_binary alA 605 _ rfl (by decide +kernel) (by decide +kernel) (by decide +kernel)
theorem ssa_main_v402 (c : Dev nD) : XA m ρ c (Proc.devRef .tc main_v402) = ((extractStridedSlice S1x1x400000 ![7, 1, 0] · slices_S9x2x400000_S1x1x400000_7_1_0) : (⟨S9x2x400000, .i32⟩ : BufTy).Contents (Elt F) → (⟨S1x1x400000, .i32⟩ : BufTy).Contents (Elt F)) (XA m ρ c (Proc.devRef .tc main_arg9)) := by
  exact Ssa.ssa_unary alA 606 _ rfl (by decide +kernel) (by decide +kernel)
theorem ssa_main_v403 (c : Dev nD) : XA m ρ c (Proc.devRef .tc main_v403) = shapeCast S400000 (XA m ρ c (Proc.devRef .tc main_v402)) shapeCasts_S1x1x400000_S400000 := by
  exact Ssa.ssa_reshape (x := main_v402) (y := main_v403) (he := rfl) (hn := shapeCasts_S1x1x400000_S400000) alA 607 _ rfl (by decide +kernel) (by decide +kernel)
theorem ssa_main_cst_130 (c : Dev nD) : XA m ρ c (Proc.devRef .tc main_cst_130) = (constant (F := F) S_ .f32 0x00000000#32) := by
  exact Ssa.ssa_nullary alA 608 _ rfl (by decide +kernel)
theorem ssa_main_v404 (c : Dev nD) : XA m ρ c (Proc.devRef .tc main_v404) = (broadcastInDim S50000x128 ![] bcast_S_S50000x128 : (⟨S_, .f32⟩ : BufTy).Contents (Elt F) → (⟨S50000x128, .f32⟩ : BufTy).Contents (Elt F)) (XA m ρ c (Proc.devRef .tc main_cst_130)) := by
  exact Ssa.ssa_unary alA 609 _ rfl (by decide +kernel) (by decide +kernel)
theorem ssa_main_v405 (c : Dev nD) : XA m ρ c (Proc.devRef .tc main_v405) = (broadcastInDim S400000x1 ![0] bcast_S400000_S400000x1_0 : (⟨S400000, .i32⟩ : BufTy).Contents (Elt F) → (⟨S400000x1, .i32⟩ : BufTy).Contents (Elt F)) (XA m ρ c (Proc.devRef .tc main_v403)) := by
  exact Ssa.ssa_unary alA 610 _ rfl (by decide +kernel) (by decide +kernel)
theorem ssa_main_v406 (c : Dev nD) : XA m ρ c (Proc.devRef .tc main_v406) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (XA m ρ c (Proc.devRef .tc main_v404)) (XA m ρ c (Proc.devRef .tc main_v405)) (XA m ρ c (Proc.devRef .tc main_v401)) := by
  exact Ssa.ssa_ternary alA 611 _ rfl (by decide +kernel) (by decide +kernel) (by decide +kernel) (by decide +kernel)
theorem ssa_main_v407 (c : Dev nD) : XA m ρ c (Proc.devRef .tc main_v407) = ((extractStridedSlice S1x50000 ![8, 0] · slices_S9x50000_S1x50000_8_0) : (⟨S9x50000, .f32⟩ : BufTy).Contents (Elt F) → (⟨S1x50000, .f32⟩ : BufTy).Contents (Elt F)) (XA m ρ c (Proc.devRef .tc main_v244)) := by
  exact Ssa.ssa_unary alA 612 _ rfl (by decide +kernel) (by decide +kernel)
theorem ssa_main_v408 (c : Dev nD) : XA m ρ c (Proc.devRef .tc main_v408) = shapeCast S50000 (XA m ρ c (Proc.devRef .tc main_v407)) shapeCasts_S1x50000_S50000 := by
  exact Ssa.ssa_reshape (x := main_v407) (y := main_v408) (he := rfl) (hn := shapeCasts_S1x50000_S50000) alA 613 _ rfl (by decide +kernel) (by decide +kernel)
theorem ssa_main_v409 (c : Dev nD) : XA m ρ c (Proc.devRef .tc main_v409) = (broadcastInDim S50000x1 ![0] bcast_S50000_S50000x1_0 : (⟨S50000, .f32⟩ : BufTy).Contents (Elt F) → (⟨S50000x1, .f32⟩ : BufTy).Contents (Elt F)) (XA m ρ c (Proc.devRef .tc main_v408)) := by
  exact Ssa.ssa_unary alA 614 _ rfl (by decide +kernel) (by decide +kernel)
theorem ssa_main_v410 (c : Dev nD) : XA m ρ c (Proc.devRef .tc main_v410) = (broadcastInDim S50000x128 ![0, 1] bcast_S50000x1_S50000x128_0_1 : (⟨S50000x1, .f32⟩ : BufTy).Contents (Elt F) → (⟨S50000x128, .f32⟩ : BufTy).Contents (Elt F)) (XA m ρ c (Proc.devRef .tc main_v409)) := by
  exact Ssa.ssa_unary alA 615 _ rfl (by decide +kernel) (by decide +kernel)
theorem ssa_main_v411 (c : Dev nD) : XA m ρ c (Proc.devRef .tc main_v411) = (mulf : (⟨S50000x128, .f32⟩ : BufTy).Contents (Elt F) → (⟨S50000x128, .f32⟩ : BufTy).Contents (Elt F) → (⟨S50000x128, .f32⟩ : BufTy).Contents (Elt F)) (XA m ρ c (Proc.devRef .tc main_arg1)) (XA m ρ c (Proc.devRef .tc main_v410)) := by
  exact Ssa.ssa_binary alA 616 _ rfl (by decide +kernel) (by decide +kernel) (by decide +kernel)
theorem ssa_main_v412 (c : Dev nD) : XA m ρ c (Proc.devRef .tc main_v412) = ((extractStridedSlice S1x1x400000 ![8, 0, 0] · slices_S9x2x400000_S1x1x400000_8_0_0) : (⟨S9x2x400000, .i32⟩ : BufTy).Contents (Elt F) → (⟨S1x1x400000, .i32⟩ : BufTy).Contents (Elt F)) (XA m ρ c (Proc.devRef .tc main_arg9)) := by
  exact Ssa.ssa_unary alA 617 _ rfl (by decide +kernel) (by decide +kernel)
theorem ssa_main_v413 (c : Dev nD) : XA m ρ c (Proc.devRef .tc main_v413) = shapeCast S400000 (XA m ρ c (Proc.devRef .tc main_v412)) shapeCasts_S1x1x400000_S400000 := by
  exact Ssa.ssa_reshape (x := main_v412) (y := main_v413) (he := rfl) (hn := shapeCasts_S1x1x400000_S400000) alA 618 _ rfl (by decide +kernel) (by decide +kernel)
theorem ssa_main_c_131 (c : Dev nD) : XA m ρ c (Proc.devRef .tc main_c_131) = (constantI S_ 32 0#32) := by
  exact Ssa.ssa_nullary alA 619 _ rfl (by decide +kernel)
theorem ssa_main_v414 (c : Dev nD) : XA m ρ c (Proc.devRef .tc main_v414) = (broadcastInDim S400000 ![] bcast_S_S400000 : (⟨S_, .i32⟩ : BufTy).Contents (Elt F) → (⟨S400000, .i32⟩ : BufTy).Contents (Elt F)) (XA m ρ c (Proc.devRef .tc main_c_131)) := by
  exact Ssa.ssa_unary alA 620 _ rfl (by decide +kernel) (by decide +kernel)
theorem ssa_main_v415 (c : Dev nD) : XA m ρ c (Proc.devRef .tc main_v415) = (cmpi .slt : (⟨S400000, .i32⟩ : BufTy).Contents (Elt F) → (⟨S400000, .i32⟩ : BufTy).Contents (Elt F) → (⟨S400000, .i1⟩ : BufTy).Contents (Elt F)) (XA m ρ c (Proc.devRef .tc main_v413)) (XA m ρ c (Proc.devRef .tc main_v414)) := by
  exact Ssa.ssa_binary alA 621 _ rfl (by decide +kernel) (by decide +kernel) (by decide +kernel)
theorem ssa_main_c_132 (c : Dev nD) : XA m ρ c (Proc.devRef .tc main_c_132) = (constantI S_ 32 50000#32) := by
  exact Ssa.ssa_nullary alA 622 _ rfl (by decide +kernel)
theorem ssa_main_v416 (c : Dev nD) : XA m ρ c (Proc.devRef .tc main_v416) = (broadcastInDim S400000 ![] bcast_S_S400000 : (⟨S_, .i32⟩ : BufTy).Contents (Elt F) → (⟨S400000, .i32⟩ : BufTy).Contents (Elt F)) (XA m ρ c (Proc.devRef .tc main_c_132)) := by
  exact Ssa.ssa_unary alA 623 _ rfl (by decide +kernel) (by decide +kernel)
theorem ssa_main_v417 (c : Dev nD) : XA m ρ c (Proc.devRef .tc main_v417) = (addi : (⟨S400000, .i32⟩ : BufTy).Contents (Elt F) → (⟨S400000, .i32⟩ : BufTy).Contents (Elt F) → (⟨S400000, .i32⟩ : BufTy).Contents (Elt F)) (XA m ρ c (Proc.devRef .tc main_v413)) (XA m ρ c (Proc.devRef .tc main_v416)) := by
  exact Ssa.ssa_binary alA 624 _ rfl (by decide +kernel) (by decide +kernel) (by decide +kernel)
theorem ssa_main_v418 (c : Dev nD) : XA m ρ c (Proc.devRef .tc main_v418) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (XA m ρ c (Proc.devRef .tc main_v415)) (XA m ρ c (Proc.devRef .tc main_v417)) (XA m ρ c (Proc.devRef .tc main_v413)) := by
  exact Ssa.ssa_ternary alA 625 _ rfl (by decide +kernel) (by decide +kernel) (by decide +kernel) (by decide +kernel)
theorem ssa_main_v419 (c : Dev nD) : XA m ρ c (Proc.devRef .tc main_v419) = (broadcastInDim S400000x1 ![0] bcast_S400000_S400000x1_0 : (⟨S400000, .i32⟩ : BufTy).Contents (Elt F) → (⟨S400000x1, .i32⟩ : BufTy).Contents (Elt F)) (XA m ρ c (Proc.devRef .tc main_v418)) := by
  exact Ssa.ssa_unary alA 626 _ rfl (by decide +kernel) (by decide +kernel)
theorem ssa_main_v420 (c : Dev nD) : XA m ρ c (Proc.devRef .tc main_v420) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (XA m ρ c (Proc.devRef .tc main_v411)) (XA m ρ c (Proc.devRef .tc main_v419)) := by
  exact Ssa.ssa_binary alA 627 _ rfl (by decide +kernel) (by decide +kernel) (by decide +kernel)
theorem ssa_main_v421 (c : Dev nD) : XA m ρ c (Proc.devRef .tc main_v421) = ((extractStridedSlice S1x1x400000 ![8, 1, 0] · slices_S9x2x400000_S1x1x400000_8_1_0) : (⟨S9x2x400000, .i32⟩ : BufTy).Contents (Elt F) → (⟨S1x1x400000, .i32⟩ : BufTy).Contents (Elt F)) (XA m ρ c (Proc.devRef .tc main_arg9)) := by
  exact Ssa.ssa_unary alA 628 _ rfl (by decide +kernel) (by decide +kernel)
theorem ssa_main_v422 (c : Dev nD) : XA m ρ c (Proc.devRef .tc main_v422) = shapeCast S400000 (XA m ρ c (Proc.devRef .tc main_v421)) shapeCasts_S1x1x400000_S400000 := by
  exact Ssa.ssa_reshape (x := main_v421) (y := main_v422) (he := rfl) (hn := shapeCasts_S1x1x400000_S400000) alA 629 _ rfl (by decide +kernel) (by decide +kernel)
theorem ssa_main_cst_133 (c : Dev nD) : XA m ρ c (Proc.devRef .tc main_cst_133) = (constant (F := F) S_ .f32 0x00000000#32) := by
  exact Ssa.ssa_nullary alA 630 _ rfl (by decide +kernel)
theorem ssa_main_v423 (c : Dev nD) : XA m ρ c (Proc.devRef .tc main_v423) = (broadcastInDim S50000x128 ![] bcast_S_S50000x128 : (⟨S_, .f32⟩ : BufTy).Contents (Elt F) → (⟨S50000x128, .f32⟩ : BufTy).Contents (Elt F)) (XA m ρ c (Proc.devRef .tc main_cst_133)) := by
  exact Ssa.ssa_unary alA 631 _ rfl (by decide +kernel) (by decide +kernel)
theorem ssa_main_v424 (c : Dev nD) : XA m ρ c (Proc.devRef .tc main_v424) = (broadcastInDim S400000x1 ![0] bcast_S400000_S400000x1_0 : (⟨S400000, .i32⟩ : BufTy).Contents (Elt F) → (⟨S400000x1, .i32⟩ : BufTy).Contents (Elt F)) (XA m ρ c (Proc.devRef .tc main_v422)) := by
  exact Ssa.ssa_unary alA 632 _ rfl (by decide +kernel) (by decide +kernel)
theorem ssa_main_v425 (c : Dev nD) : XA m ρ c (Proc.devRef .tc main_v425) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (XA m ρ c (Proc.devRef .tc main_v423)) (XA m ρ c (Proc.devRef .tc main_v424)) (XA m ρ c (Proc.devRef .tc main_v420)) := by
  exact Ssa.ssa_ternary alA 633 _ rfl (by decide +kernel) (by decide +kernel) (by decide +kernel) (by decide +kernel)
theorem ssa_main_v426 (c : Dev nD) : XA m ρ c (Proc.devRef .tc main_v426) = (broadcastInDim S1x50000x128 ![1, 2] bcast_S50000x128_S1x50000x128_1_2 : (⟨S50000x128, .f32⟩ : BufTy).Contents (Elt F) → (⟨S1x50000x128, .f32⟩ : BufTy).Contents (Elt F)) (XA m ρ c (Proc.devRef .tc main_v273)) := by
  exact Ssa.ssa_unary alA 634 _ rfl (by decide +kernel) (by decide +kernel)
theorem ssa_main_v427 (c : Dev nD) : XA m ρ c (Proc.devRef .tc main_v427) = (broadcastInDim S1x50000x128 ![1, 2] bcast_S50000x128_S1x50000x128_1_2 : (⟨S50000x128, .f32⟩ : BufTy).Contents (Elt F) → (⟨S1x50000x128, .f32⟩ : BufTy).Contents (Elt F)) (XA m ρ c (Proc.devRef .tc main_v292)) := by
  exact Ssa.ssa_unary alA 635 _ rfl (by decide +kernel) (by decide +kernel)
theorem ssa_main_v428 (c : Dev nD) : XA m ρ c (Proc.devRef .tc main_v428) = (broadcastInDim S1x50000x128 ![1, 2] bcast_S50000x128_S1x50000x128_1_2 : (⟨S50000x128, .f32⟩ : BufTy).Contents (Elt F) → (⟨S1x50000x128, .f32⟩ : BufTy).Contents (Elt F)) (XA m ρ c (Proc.devRef .tc main_v311)) := by
  exact Ssa.ssa_unary alA 636 _ rfl (by decide +kernel) (by decide +kernel)
theorem ssa_main_v429 (c : Dev nD) : XA m ρ c (Proc.devRef .tc main_v429) = (broadcastInDim S1x50000x128 ![1, 2] bcast_S50000x128_S1x50000x128_1_2 : (⟨S50000x128, .f32⟩ : BufTy).Contents (Elt F) → (⟨S1x50000x128, .f32⟩ : BufTy).Contents (Elt F)) (XA m ρ c (Proc.devRef .tc main_v330)) := by
  exact Ssa.ssa_unary alA 637 _ rfl (by decide +kernel) (by decide +kernel)
theorem ssa_main_v430 (c : Dev nD) : XA m ρ c (Proc.devRef .tc main_v430) = (broadcastInDim S1x50000x128 ![1, 2] bcast_S50000x128_S1x50000x128_1_2 : (⟨S50000x128, .f32⟩ : BufTy).Contents (Elt F) → (⟨S1x50000x128, .f32⟩ : BufTy).Contents (Elt F)) (XA m ρ c (Proc.devRef .tc main_v349)) := by
  exact Ssa.ssa_unary alA 638 _ rfl (by decide +kernel) (by decide +kernel)
theorem ssa_main_v431 (c : Dev nD) : XA m ρ c (Proc.devRef .tc main_v431) = (broadcastInDim S1x50000x128 ![1, 2] bcast_S50000x128_S1x50000x128_1_2 : (⟨S50000x128, .f32⟩ : BufTy).Contents (Elt F) → (⟨S1x50000x128, .f32⟩ : BufTy).Contents (Elt F)) (XA m ρ c (Proc.devRef .tc main_v368)) := by
  exact Ssa.ssa_unary alA 639 _ rfl (by decide +kernel) (by decide +kernel)
theorem ssa_main_v432 (c : Dev nD) : XA m ρ c (Proc.devRef .tc main_v432) = (broadcastInDim S1x50000x128 ![1, 2] bcast_S50000x128_S1x50000x128_1_2 : (⟨S50000x128, .f32⟩ : BufTy).Contents (Elt F) → (⟨S1x50000x128, .f32⟩ : BufTy).Contents (Elt F)) (XA m ρ c (Proc.devRef .tc main_v387)) := by
  exact Ssa.ssa_unary alA 640 _ rfl (by decide +kernel) (by decide +kernel)
theorem ssa_main_v433 (c : Dev nD) : XA m ρ c (Proc.devRef .tc main_v433) = (broadcastInDim S1x50000x128 ![1, 2] bcast_S50000x128_S1x50000x128_1_2 : (⟨S50000x128, .f32⟩ : BufTy).Contents (Elt F) → (⟨S1x50000x128, .f32⟩ : BufTy).Contents (Elt F)) (XA m ρ c (Proc.devRef .tc main_v406)) := by
  exact Ssa.ssa_unary alA 641 _ rfl (by decide +kernel) (by decide +kernel)
theorem ssa_main_v434 (c : Dev nD) : XA m ρ c (Proc.devRef .tc main_v434) = (broadcastInDim S1x50000x128 ![1, 2] bcast_S50000x128_S1x50000x128_1_2 : (⟨S50000x128, .f32⟩ : BufTy).Contents (Elt F) → (⟨S1x50000x128, .f32⟩ : BufTy).Contents (Elt F)) (XA m ρ c (Proc.devRef .tc main_v425)) := by
  exact Ssa.ssa_unary alA 642 _ rfl (by decide +kernel) (by decide +kernel)
theorem ssa_main_v435 (c : Dev nD) : XA m ρ c (Proc.devRef .tc main_v435) = concatenate S9x50000x128 0 [⟨S1x50000x128, (XA m ρ c (Proc.devRef .tc main_v426))⟩, ⟨S1x50000x128, (XA m ρ c (Proc.devRef .tc main_v427))⟩, ⟨S1x50000x128, (XA m ρ c (Proc.devRef .tc main_v428))⟩, ⟨S1x50000x128, (XA m ρ c (Proc.devRef .tc main_v429))⟩, ⟨S1x50000x128, (XA m ρ c (Proc.devRef .tc main_v430))⟩, ⟨S1x50000x128, (XA m ρ c (Proc.devRef .tc main_v431))⟩, ⟨S1x50000x128, (XA m ρ c (Proc.devRef .tc main_v432))⟩, ⟨S1x50000x128, (XA m ρ c (Proc.devRef .tc main_v433))⟩, ⟨S1x50000x128, (XA m ρ c (Proc.devRef .tc main_v434))⟩] concatenates_S1x50000x128_S1x50000x128_S1x50000x128_S1x50000x128_S1x50000x128_S1x50000x128_S1x50000x128_S1x50000x128_S1x50000x128_S9x50000x128_d0 := by
  exact Ssa.ssa_nary alA 643 _ rfl (by decide +kernel) (by decide +kernel)
theorem ssa_main_v436 (c : Dev nD) : XA m ρ c (Proc.devRef .tc main_v436) = (broadcastInDim S9x50000x1 ![0, 1] bcast_S9x50000_S9x50000x1_0_1 : (⟨S9x50000, .f32⟩ : BufTy).Contents (Elt F) → (⟨S9x50000x1, .f32⟩ : BufTy).Contents (Elt F)) (XA m ρ c (Proc.devRef .tc main_v254)) := by
  exact Ssa.ssa_unary alA 644 _ rfl (by decide +kernel) (by decide +kernel)
theorem ssa_main_v437 (c : Dev nD) : XA m ρ c (Proc.devRef .tc main_v437) = (broadcastInDim S9x1x128 ![0, 2] bcast_S9x128_S9x1x128_0_2 : (⟨S9x128, .f32⟩ : BufTy).Contents (Elt F) → (⟨S9x1x128, .f32⟩ : BufTy).Contents (Elt F)) (XA m ρ c (Proc.devRef .tc main_arg4)) := by
  exact Ssa.ssa_unary alA 645 _ rfl (by decide +kernel) (by decide +kernel)

end Cert.KernelIdeal.Rd

end
-- ==== Proof.KI.ReadAN.lean ====
/-
  What the first pallas_call finds on the norm side, array by array. The nine source-side norms laid end to end as a
  [9, 50000] array read, at (r, n), the graph's source-side norm of relation r at node n; the nine destination-side norms
  likewise, and with a trailing unit axis at (r, n, 0); the first layer's bias array with a unit axis in the middle reads,
  at (r, 0, q), the bias of relation r at feature q as the launch memory holds it.
-/
import proofs.«151568_j90031104458821_2_alg».proof.Proof.KI.ReadANr
import proofs.«151568_j90031104458821_2_alg».proof.Proof.KI.TabA5
import proofs.«151568_j90031104458821_2_alg».proof.Proof.KI.TabA6
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe
open Cert.GraphOf Cert.GraphRead

variable (m : (ℓ : Loc nD τ sig) → Buf (Elt Ideal) ℓ) (ρ : Dev nD → PrngReg) (c : Dev nD)

set_option maxHeartbeats 4000000 in
/-- The stack of the source-side norms at (r, n), over the line's own copy of the edge array. -/
theorem v244X_apply (r : Fin 9) (n : Fin 50000) :
    (XA m ρ c (Proc.devRef .tc main_v244) : S9x50000.Idx → EReal) (ix2 r n) = (graphOf (edgesA m ρ c)).ns r n := by
  rw [ssa_main_v244 m ρ c, Cert.Concat.concat9_2_apply]
  fin_cases r
  · show (XA m ρ c (Proc.devRef .tc main_v235) : S1x50000.Idx → EReal) (ix2 (0 : Fin 1) n) = _
    rw [ssa_main_v235 m ρ c, bcast_row_apply]
    exact ns0_apply m ρ c n
  · show (XA m ρ c (Proc.devRef .tc main_v236) : S1x50000.Idx → EReal) (ix2 (0 : Fin 1) n) = _
    rw [ssa_main_v236 m ρ c, bcast_row_apply]
    exact ns1_apply m ρ c n
  · show (XA m ρ c (Proc.devRef .tc main_v237) : S1x50000.Idx → EReal) (ix2 (0 : Fin 1) n) = _
    rw [ssa_main_v237 m ρ c, bcast_row_apply]
    exact ns2_apply m ρ c n
  · show (XA m ρ c (Proc.devRef .tc main_v238) : S1x50000.Idx → EReal) (ix2 (0 : Fin 1) n) = _
    rw [ssa_main_v238 m ρ c, bcast_row_apply]
    exact ns3_apply m ρ c n
  · show (XA m ρ c (Proc.devRef .tc main_v239) : S1x50000.Idx → EReal) (ix2 (0 : Fin 1) n) = _
    rw [ssa_main_v239 m ρ c, bcast_row_apply]
    exact ns4_apply m ρ c n
  · show (XA m ρ c (Proc.devRef .tc main_v240) : S1x50000.Idx → EReal) (ix2 (0 : Fin 1) n) = _
    rw [ssa_main_v240 m ρ c, bcast_row_apply]
    exact ns5_apply m ρ c n
  · show (XA m ρ c (Proc.devRef .tc main_v241) : S1x50000.Idx → EReal) (ix2 (0 : Fin 1) n) = _
    rw [ssa_main_v241 m ρ c, bcast_row_apply]
    exact ns6_apply m ρ c n
  · show (XA m ρ c (Proc.devRef .tc main_v242) : S1x50000.Idx → EReal) (ix2 (0 : Fin 1) n) = _
    rw [ssa_main_v242 m ρ c, bcast_row_apply]
    exact ns7_apply m ρ c n
  · show (XA m ρ c (Proc.devRef .tc main_v243) : S1x50000.Idx → EReal) (ix2 (0 : Fin 1) n) = _
    rw [ssa_main_v243 m ρ c, bcast_row_apply]
    exact ns8_apply m ρ c n

set_option maxHeartbeats 4000000 in
/-- The stack of the destination-side norms at (r, n), over the line's own copy of the edge array. -/
theorem v254X_apply (r : Fin 9) (n : Fin 50000) :
    (XA m ρ c (Proc.devRef .tc main_v254) : S9x50000.Idx → EReal) (ix2 r n) = (graphOf (edgesA m ρ c)).nd r n := by
  rw [ssa_main_v254 m ρ c, Cert.Concat.concat9_2_apply]
  fin_cases r
  · show (XA m ρ c (Proc.devRef .tc main_v245) : S1x50000.Idx → EReal) (ix2 (0 : Fin 1) n) = _
    rw [ssa_main_v245 m ρ c, bcast_row_apply]
    exact nd0_apply m ρ c n
  · show (XA m ρ c (Proc.devRef .tc main_v246) : S1x50000.Idx → EReal) (ix2 (0 : Fin 1) n) = _
    rw [ssa_main_v246 m ρ c, bcast_row_apply]
    exact nd1_apply m ρ c n
  · show (XA m ρ c (Proc.devRef .tc main_v247) : S1x50000.Idx → EReal) (ix2 (0 : Fin 1) n) = _
    rw [ssa_main_v247 m ρ c, bcast_row_apply]
    exact nd2_apply m ρ c n
  · show (XA m ρ c (Proc.devRef .tc main_v248) : S1x50000.Idx → EReal) (ix2 (0 : Fin 1) n) = _
    rw [ssa_main_v248 m ρ c, bcast_row_apply]
    exact nd3_apply m ρ c n
  · show (XA m ρ c (Proc.devRef .tc main_v249) : S1x50000.Idx → EReal) (ix2 (0 : Fin 1) n) = _
    rw [ssa_main_v249 m ρ c, bcast_row_apply]
    exact nd4_apply m ρ c n
  · show (XA m ρ c (Proc.devRef .tc main_v250) : S1x50000.Idx → EReal) (ix2 (0 : Fin 1) n) = _
    rw [ssa_main_v250 m ρ c, bcast_row_apply]
    exact nd5_apply m ρ c n
  · show (XA m ρ c (Proc.devRef .tc main_v251) : S1x50000.Idx → EReal) (ix2 (0 : Fin 1) n) = _
    rw [ssa_main_v251 m ρ c, bcast_row_apply]
    exact nd6_apply m ρ c n
  · show (XA m ρ c (Proc.devRef .tc main_v252) : S1x50000.Idx → EReal) (ix2 (0 : Fin 1) n) = _
    rw [ssa_main_v252 m ρ c, bcast_row_apply]
    exact nd7_apply m ρ c n
  · show (XA m ρ c (Proc.devRef .tc main_v253) : S1x50000.Idx → EReal) (ix2 (0 : Fin 1) n) = _
    rw [ssa_main_v253 m ρ c, bcast_row_apply]
    exact nd8_apply m ρ c n

/-- What the first call finds in the source-side norms' array: at (r, n) the graph's source-side norm. -/
theorem v244_apply (r : Fin 9) (n : Fin 50000) :
    (WA73 m ρ c (Proc.devRef .tc main_v244) : S9x50000.Idx → EReal) (ix2 r n)
      = (graphOf (m ((c : Thread nD τ).loc main_arg9))).ns r n := by
  rw [← edgesA_eq m ρ c, congrFun (WA73_eq m ρ c) (Proc.devRef .tc main_v244)]
  exact v244X_apply m ρ c r n

/-- In the destination-side norms' array: at (r, n) the graph's destination-side norm. -/
theorem v254_apply (r : Fin 9) (n : Fin 50000) :
    (WA73 m ρ c (Proc.devRef .tc main_v254) : S9x50000.Idx → EReal) (ix2 r n)
      = (graphOf (m ((c : Thread nD τ).loc main_arg9))).nd r n := by
  rw [← edgesA_eq m ρ c, congrFun (WA73_eq m ρ c) (Proc.devRef .tc main_v254)]
  exact v254X_apply m ρ c r n

/-- In the destination-side norms' array with its trailing unit axis: at (r, n, 0) the same norm. -/
theorem v436_apply (r : Fin 9) (n : Fin 50000) :
    (WA73 m ρ c (Proc.devRef .tc main_v436) : S9x50000x1.Idx → EReal) (ix3 r n (0 : Fin 1))
      = (graphOf (m ((c : Thread nD τ).loc main_arg9))).nd r n := by
  rw [← edgesA_eq m ρ c, congrFun (WA73_eq m ρ c) (Proc.devRef .tc main_v436), ssa_main_v436 m ρ c, bcast_01_apply]
  exact v254X_apply m ρ c r n

set_option maxHeartbeats 4000000 in
/-- In the bias array with its middle unit axis: at (r, 0, q) the launch memory's bias of relation r at feature q. -/
theorem v437_apply (r : Fin 9) (q : Fin 128) :
    (WA73 m ρ c (Proc.devRef .tc main_v437) : S9x1x128.Idx → EReal) (ix3 r (0 : Fin 1) q)
      = (m ((c : Thread nD τ).loc main_arg4) : S9x128.Idx → EReal) (ix2 r q) := by
  have e : XA m ρ c (Proc.devRef .tc main_arg4) = m ((c : Thread nD τ).loc main_arg4) :=
    (XA_keep m ρ c (r := main_arg4) (by decide +kernel)).trans rfl
  rw [congrFun (WA73_eq m ρ c) (Proc.devRef .tc main_v437), ssa_main_v437 m ρ c, bcast_02_apply, e]

end Cert.KernelIdeal.Rd

end
-- ==== Proof.KI.ReadAx.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.TabA

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.SL Idealize.SL.Sem

variable {F : FTy → Type} [FloatOps F] (m : (ℓ : Loc nD τ sig) → Buf (Elt F) ℓ) (ρ : Dev nD → PrngReg)

/-! ## The arguments hold their launch contents -/

theorem XA_main_arg0 (c : Dev nD) : XA m ρ c (Proc.devRef .tc main_arg0) = m ((c : Thread nD τ).loc main_arg0) :=
  (XA_keep m ρ c (by decide +kernel)).trans rfl
theorem XA_main_arg1 (c : Dev nD) : XA m ρ c (Proc.devRef .tc main_arg1) = m ((c : Thread nD τ).loc main_arg1) :=
  (XA_keep m ρ c (by decide +kernel)).trans rfl
theorem XA_main_arg2 (c : Dev nD) : XA m ρ c (Proc.devRef .tc main_arg2) = m ((c : Thread nD τ).loc main_arg2) :=
  (XA_keep m ρ c (by decide +kernel)).trans rfl
theorem XA_main_arg3 (c : Dev nD) : XA m ρ c (Proc.devRef .tc main_arg3) = m ((c : Thread nD τ).loc main_arg3) :=
  (XA_keep m ρ c (by decide +kernel)).trans rfl
theorem XA_main_arg4 (c : Dev nD) : XA m ρ c (Proc.devRef .tc main_arg4) = m ((c : Thread nD τ).loc main_arg4) :=
  (XA_keep m ρ c (by decide +kernel)).trans rfl
theorem XA_main_arg9 (c : Dev nD) : XA m ρ c (Proc.devRef .tc main_arg9) = m ((c : Thread nD τ).loc main_arg9) :=
  (XA_keep m ρ c (by decide +kernel)).trans rfl

end Cert.KernelIdeal.Rd

end
-- ==== Proof.AggRead.lean ====
/-
  The small layout readings one relation's aggregate and norms meet on their way into the stacked arrays, beside the
  graph's fields unfolded once: a row of a [9, n] array sliced out and reshaped to a vector, a vector laid as a [1, n] row, a
  table laid as a [1, n, k] slab, a [9, n] array given a trailing unit axis, a [9, k] array given a middle unit axis.
-/
import proofs.«151568_j90031104458821_2_alg».proof.Proof.GraphRead

noncomputable section

namespace Cert.AggRead

open Idealize.ShloMosaic Idealize.ShloMosaic.ValueIdx Cert.Math Cert.IdxOps Cert.GraphOf Cert.GraphRead Cert.Rel

/-! ## The graph's fields, unfolded once -/

theorem graphOf_land (edges : IVec ⟨3, ![9, 2, 400000]⟩ 32) (r : Fin 9) (n : Fin 50000) :
    (graphOf edges).land r n = landing (colIdx edges r 1) n.val := by
  simp only [graphOf]
theorem graphOf_ns (edges : IVec ⟨3, ![9, 2, 400000]⟩ 32) (r : Fin 9) (n : Fin 50000) :
    (graphOf edges).ns r n = normAt (degAt (colIdx edges r 0) n) := by
  simp only [graphOf]
theorem graphOf_nd (edges : IVec ⟨3, ![9, 2, 400000]⟩ 32) (r : Fin 9) (n : Fin 50000) :
    (graphOf edges).nd r n = normAt (degAt (colIdx edges r 1) n) := by
  simp only [graphOf]

/-- The f32 word of 0.0 is the extended real 0. -/
theorem Z_eq : (Z : EReal) = 0 := Ideal.ofBits_zero_f32

/-! ## Layout readings -/

section Layout
variable {α : Type}

/-- Row r of a [9, n] array, sliced out at offsets (r, 0) and reshaped to a vector, reads the array at (r, p). -/
theorem row_vec_apply {n : Nat} (y : (⟨2, ![9, n]⟩ : Shape).Idx → α) (off : Fin 2 → Nat) (r : Fin 9)
    (h0 : off 0 = r.val) (h1 : off 1 = 0)
    (hs : (⟨2, ![9, n]⟩ : Shape).Slices off ⟨2, ![1, n]⟩) (hc : (⟨2, ![1, n]⟩ : Shape).ShapeCasts ⟨1, ![n]⟩) (p : Fin n) :
    shapeCast ⟨1, ![n]⟩ (extractStridedSlice ⟨2, ![1, n]⟩ off y hs) hc (ix1 p) = y (ix2 r p) := by
  refine (shapeCast_apply _ hc (ix1 p) (ix2 (0 : Fin 1) p) ?_).trans ?_
  · rw [Shape.rowMajor_val_two, Shape.rowMajor_val_one]
    show 0 * n + p.val = p.val
    omega
  · exact extractStridedSlice_apply off y hs _ (ix2 r p) (fun ax => match ax with
      | ⟨0, _⟩ => by show r.val = off 0 + 0; omega
      | ⟨1, _⟩ => by show p.val = off 1 + p.val; omega)

/-- A vector [n] laid as a [1, n] row reads, at (u, p), the vector at p. -/
theorem bcast_row_apply {n : Nat} (hb : (⟨1, ![n]⟩ : Shape).BroadcastsInDim ⟨2, ![1, n]⟩ (![1] : Fin 1 → Fin 2))
    (y : (⟨1, ![n]⟩ : Shape).Idx → α) (u : Fin 1) (p : Fin n) :
    broadcastInDim ⟨2, ![1, n]⟩ ![1] hb y (ix2 u p) = y (ix1 p) :=
  broadcastInDim_apply _ hb y (ix2 u p) (ix1 p) (fun a => match a with
    | ⟨0, _⟩ => by
      show p.val = if n = 1 then 0 else p.val
      split
      · have := p.isLt; omega
      · rfl)

/-- A table [n, k] laid as a [1, n, k] slab reads, at (u, p, c), the table at (p, c). -/
theorem bcast_slab_apply {n k : Nat} (hb : (⟨2, ![n, k]⟩ : Shape).BroadcastsInDim ⟨3, ![1, n, k]⟩ (![1, 2] : Fin 2 → Fin 3))
    (y : (⟨2, ![n, k]⟩ : Shape).Idx → α) (u : Fin 1) (p : Fin n) (c : Fin k) :
    broadcastInDim ⟨3, ![1, n, k]⟩ ![1, 2] hb y (ix3 u p c) = y (ix2 p c) :=
  broadcastInDim_apply _ hb y (ix3 u p c) (ix2 p c) (fun a => match a with
    | ⟨0, _⟩ => by
      show p.val = if n = 1 then 0 else p.val
      split
      · have := p.isLt; omega
      · rfl
    | ⟨1, _⟩ => by
      show c.val = if k = 1 then 0 else c.val
      split
      · have := c.isLt; omega
      · rfl)

/-- A [9, n] array given a trailing unit axis reads, at (r, p, u), the array at (r, p). -/
theorem bcast_trail_apply {n : Nat} (hb : (⟨2, ![9, n]⟩ : Shape).BroadcastsInDim ⟨3, ![9, n, 1]⟩ (![0, 1] : Fin 2 → Fin 3))
    (y : (⟨2, ![9, n]⟩ : Shape).Idx → α) (r : Fin 9) (p : Fin n) (u : Fin 1) :
    broadcastInDim ⟨3, ![9, n, 1]⟩ ![0, 1] hb y (ix3 r p u) = y (ix2 r p) :=
  broadcastInDim_apply _ hb y (ix3 r p u) (ix2 r p) (fun a => match a with
    | ⟨0, _⟩ => by
      show r.val = if 9 = 1 then 0 else r.val
      rfl
    | ⟨1, _⟩ => by
      show p.val = if n = 1 then 0 else p.val
      split
      · have := p.isLt; omega
      · rfl)

/-- A [9, k] array given a middle unit axis reads, at (r, u, q), the array at (r, q). -/
theorem bcast_mid_apply {k : Nat} (hb : (⟨2, ![9, k]⟩ : Shape).BroadcastsInDim ⟨3, ![9, 1, k]⟩ (![0, 2] : Fin 2 → Fin 3))
    (y : (⟨2, ![9, k]⟩ : Shape).Idx → α) (r : Fin 9) (u : Fin 1) (q : Fin k) :
    broadcastInDim ⟨3, ![9, 1, k]⟩ ![0, 2] hb y (ix3 r u q) = y (ix2 r q) :=
  broadcastInDim_apply _ hb y (ix3 r u q) (ix2 r q) (fun a => match a with
    | ⟨0, _⟩ => by
      show r.val = if 9 = 1 then 0 else r.val
      rfl
    | ⟨1, _⟩ => by
      show q.val = if k = 1 then 0 else q.val
      split
      · have := q.isLt; omega
      · rfl)

end Layout

end Cert.AggRead

end
-- ==== Proof.AggParts.lean ====
/-
  The kernel side's aggregate out of its printed parts: an accumulating scatter along the destination column, into a
  zero operand, of the rows gathered through the wrapped source words from a table that holds the source-scaled
  features, is the network's raw aggregate at every node and feature.
-/
import proofs.«151568_j90031104458821_2_alg».proof.Proof.GraphOf
import proofs.«151568_j90031104458821_2_alg».proof.Proof.Rel
import proofs.«151568_j90031104458821_2_alg».proof.Proof.Spec

noncomputable section

namespace Cert.AggParts

open Idealize.ShloMosaic Idealize.ShloMosaic.ValueIdx Cert.Math Cert.IdxOps Cert.GraphOf

/-- The scatter of the gathered scaled rows is the aggregate. The operand and the table are given pointwise, the two
    index columns up to equality, so that a stage function of the program can stand for each. -/
theorem agg_of_parts (ds : ScatterDims ⟨2, ![50000, 128]⟩ ⟨2, ![400000, 1]⟩ ⟨2, ![400000, 128]⟩)
    (huw : ds.updateWindowDims = [1]) (hiw : ds.insertedWindowDims = [0]) (hsd : ds.scatterDimsToOperandDims = [0]) (hiv : ds.indexVectorDim = 1)
    (dg : GatherDims ⟨2, ![50000, 128]⟩ ⟨2, ![400000, 1]⟩ ⟨2, ![400000, 128]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1) (hss : dg.sliceSizes = ![1, 128])
    (edges : IVec ⟨3, ![9, 2, 400000]⟩ 32) (r : Fin 9) (x : Cert.Spec.Tab)
    (z : FVec Ideal ⟨2, ![50000, 128]⟩ .f32) (dst src : IVec ⟨2, ![400000, 1]⟩ 32) (tab : FVec Ideal ⟨2, ![50000, 128]⟩ .f32)
    (hz : ∀ i, z i = (0 : EReal)) (hdst : dst = colIdx edges r 1) (hsrc : src = srcIdx edges r)
    (htab : ∀ (p : Fin 50000) (k : Fin 128), tab (ix2 p k) = x p k * (graphOf edges).ns r p)
    (n : Fin 50000) (k : Fin 128) :
    Host.scatterAdd (F := Ideal) (φ := .f32) ds z dst (Host.gather dg tab src) (ix2 n k) = Cert.Spec.agg (graphOf edges) x r n k := by
  subst hdst hsrc
  -- the scatter at (n, k): the operand's zero plus the gathered entries (e, k) over the edges landing on n
  rw [scatterAdd_rows ds huw hiw hsd hiv, hz]
  unfold Cert.Spec.agg Cert.Spec.msg
  refine congrArg (fun s => (0 : EReal) + s) (Finset.sum_congr rfl fun e _ => ?_)
  -- the gathered entry: the table's at (the graph's source row of e, k)
  rw [gather_rows dg hoff hcoll hob hsb hsim hivd hss tab (srcIdx edges r) e k (by decide : 0 < 128),
    gatherRow_srcIdx dg hoff hcoll hob hsb hsim hivd hss edges r e, htab]

/-- The same with the operand given as the f32 zero word's value. -/
theorem agg_of_parts_Z (ds : ScatterDims ⟨2, ![50000, 128]⟩ ⟨2, ![400000, 1]⟩ ⟨2, ![400000, 128]⟩)
    (huw : ds.updateWindowDims = [1]) (hiw : ds.insertedWindowDims = [0]) (hsd : ds.scatterDimsToOperandDims = [0]) (hiv : ds.indexVectorDim = 1)
    (dg : GatherDims ⟨2, ![50000, 128]⟩ ⟨2, ![400000, 1]⟩ ⟨2, ![400000, 128]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1) (hss : dg.sliceSizes = ![1, 128])
    (edges : IVec ⟨3, ![9, 2, 400000]⟩ 32) (r : Fin 9) (x : Cert.Spec.Tab)
    (z : FVec Ideal ⟨2, ![50000, 128]⟩ .f32) (dst src : IVec ⟨2, ![400000, 1]⟩ 32) (tab : FVec Ideal ⟨2, ![50000, 128]⟩ .f32)
    (hz : ∀ i, z i = Z) (hdst : dst = colIdx edges r 1) (hsrc : src = srcIdx edges r)
    (htab : ∀ (p : Fin 50000) (k : Fin 128), tab (ix2 p k) = x p k * (graphOf edges).ns r p)
    (n : Fin 50000) (k : Fin 128) :
    Host.scatterAdd (F := Ideal) (φ := .f32) ds z dst (Host.gather dg tab src) (ix2 n k) = Cert.Spec.agg (graphOf edges) x r n k :=
  agg_of_parts ds huw hiw hsd hiv dg hoff hcoll hob hsb hsim hivd hss edges r x z dst src tab
    (fun i => (hz i).trans Ideal.ofBits_zero_f32) hdst hsrc htab n k

end Cert.AggParts

end
-- ==== Proof.KI.ReadA0.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.ReadAx
import proofs.«151568_j90031104458821_2_alg».proof.Proof.KI.TabA4
import proofs.«151568_j90031104458821_2_alg».proof.Proof.KI.TabA5
import proofs.«151568_j90031104458821_2_alg».proof.Proof.KI.TabA6
import proofs.«151568_j90031104458821_2_alg».proof.Proof.AggRead
import proofs.«151568_j90031104458821_2_alg».proof.Proof.AggParts
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.ShloMosaic.ValueIdx Idealize.SL Idealize.SL.Sem
open Cert Cert.Math Cert.IdxOps Cert.GraphOf Cert.GraphRead Cert.AggRead Cert.AggParts

variable (m : (ℓ : Loc nD τ sig) → Buf (Elt Ideal) ℓ) (ρ : Dev nD → PrngReg)

/-! ## Relation 0 -/

theorem z_0 (c : Dev nD) : ∀ i, (XA m ρ c (Proc.devRef .tc main_v271) : S50000x128.Idx → EReal) i = Z := fun i => by rw [ssa_main_v271 m ρ c, ssa_main_cst_109 m ρ c]; exact bcast_scalar_apply _ _ i
theorem dst_0 (c : Dev nD) : (XA m ρ c (Proc.devRef .tc main_v272) : S400000x1.Idx → BitVec 32) = colIdx (XA m ρ c (Proc.devRef .tc main_arg9)) 0 1 := by
  rw [ssa_main_v272 m ρ c, ssa_main_v270 m ρ c, ssa_main_v269 m ρ c]
  exact col_eq _ ![0, 1, 0] 0 1 rfl rfl rfl _ _ _
theorem srcv_0 (c : Dev nD) : ∀ e, (XA m ρ c (Proc.devRef .tc main_v261) : S400000.Idx → BitVec 32) (ix1 e) = (XA m ρ c (Proc.devRef .tc main_arg9) : S9x2x400000.Idx → BitVec 32) (ix3 (0 : Fin 9) (0 : Fin 2) e) := fun e => by
  rw [ssa_main_v261 m ρ c, ssa_main_v260 m ρ c]
  exact col_vec_apply _ ![0, 0, 0] 0 0 rfl rfl rfl _ _ e
theorem zeros_0 (c : Dev nD) : ∀ i, (XA m ρ c (Proc.devRef .tc main_v262) : S400000.Idx → BitVec 32) i = 0#32 := fun i => by rw [ssa_main_v262 m ρ c, ssa_main_c m ρ c]; exact bcast_scalar_apply _ _ i
theorem n5_0 (c : Dev nD) : ∀ i, (XA m ρ c (Proc.devRef .tc main_v264) : S400000.Idx → BitVec 32) i = 50000#32 := fun i => by rw [ssa_main_v264 m ρ c, ssa_main_c_108 m ρ c]; exact bcast_scalar_apply _ _ i
theorem src_0 (c : Dev nD) : (XA m ρ c (Proc.devRef .tc main_v267) : S400000x1.Idx → BitVec 32) = srcIdx (XA m ρ c (Proc.devRef .tc main_arg9)) 0 := by
  rw [ssa_main_v267 m ρ c, ssa_main_v266 m ρ c, ssa_main_v263 m ρ c, ssa_main_v265 m ρ c]
  exact src_eq _ 0 _ _ _ (srcv_0 m ρ c) (zeros_0 m ρ c) (n5_0 m ρ c) _
theorem scale_0 (c : Dev nD) (p : Fin 50000) : (XA m ρ c (Proc.devRef .tc main_v256) : S50000.Idx → EReal) (ix1 p) = (XA m ρ c (Proc.devRef .tc main_v244) : S9x50000.Idx → EReal) (ix2 (0 : Fin 9) p) := by
  rw [ssa_main_v256 m ρ c, ssa_main_v255 m ρ c]
  exact row_vec_apply _ ![0, 0] 0 rfl rfl _ _ p
theorem tab_0 (c : Dev nD) (p : Fin 50000) (q : Fin 128) : (XA m ρ c (Proc.devRef .tc main_v259) : S50000x128.Idx → EReal) (ix2 p q)
    = @HMul.hMul EReal EReal EReal _ ((XA m ρ c (Proc.devRef .tc main_arg0) : S50000x128.Idx → EReal) (ix2 p q)) ((XA m ρ c (Proc.devRef .tc main_v256) : S50000.Idx → EReal) (ix1 p)) := by
  rw [ssa_main_v259 m ρ c, ssa_main_v258 m ρ c, ssa_main_v257 m ρ c]
  exact mulf_bcast_node_apply _ _ _ _ p q
theorem piece_0 (c : Dev nD) (n : Fin 50000) (k : Fin 128) : (XA m ρ c (Proc.devRef .tc main_v435) : S9x50000x128.Idx → EReal) (ix3 (0 : Fin 9) n k) = (XA m ρ c (Proc.devRef .tc main_v273) : S50000x128.Idx → EReal) (ix2 n k) := by
  rw [ssa_main_v435 m ρ c]
  refine (Concat.concat9_3_apply _ _ _ _ _ _ _ _ _ _ (0 : Fin 9) n k).trans ?_
  show (XA m ρ c (Proc.devRef .tc main_v426) : S1x50000x128.Idx → EReal) (ix3 (0 : Fin 1) n k) = _
  rw [ssa_main_v426 m ρ c]
  exact bcast_slab_apply _ _ _ n k
/-- The stacked aggregate at (0, n, k): relation 0's raw aggregate of the table main_arg0. -/
theorem agg_0 (c : Dev nD)
    (hns : ∀ p : Fin 50000, (XA m ρ c (Proc.devRef .tc main_v244) : S9x50000.Idx → EReal) (ix2 (0 : Fin 9) p) = (graphOf (XA m ρ c (Proc.devRef .tc main_arg9))).ns 0 p)
    (n : Fin 50000) (k : Fin 128) :
    (XA m ρ c (Proc.devRef .tc main_v435) : S9x50000x128.Idx → EReal) (ix3 (0 : Fin 9) n k)
      = Cert.Spec.agg (graphOf (XA m ρ c (Proc.devRef .tc main_arg9))) (fun n k => (XA m ρ c (Proc.devRef .tc main_arg0) : S50000x128.Idx → EReal) (ix2 n k)) 0 n k := by
  rw [piece_0 m ρ c n k, ssa_main_v273 m ρ c, ssa_main_v268 m ρ c]
  exact agg_of_parts_Z scatter_S50000x128_S400000x1_S400000x128_1_0_0_1 rfl rfl rfl rfl gather_S50000x128_S400000x1_S400000x128_1_0_n_n_0_1_1128 rfl rfl rfl rfl rfl rfl rfl _ 0 (fun n k => (XA m ρ c (Proc.devRef .tc main_arg0) : S50000x128.Idx → EReal) (ix2 n k)) _ _ _ _
    (z_0 m ρ c) (dst_0 m ρ c) (src_0 m ρ c) (fun p q => (tab_0 m ρ c p q).trans (by rw [scale_0 m ρ c p, hns p])) n k

/-- The same at the contents the first pallas_call finds, over the launch memory. -/
theorem A1_0 (c : Dev nD)
    (hns : ∀ p : Fin 50000, (WA73 m ρ c (Proc.devRef .tc main_v244) : S9x50000.Idx → EReal) (ix2 (0 : Fin 9) p) = (graphOf (m ((c : Thread nD τ).loc main_arg9))).ns 0 p)
    (n : Fin 50000) (k : Fin 128) :
    (WA73 m ρ c (Proc.devRef .tc main_v435) : S9x50000x128.Idx → EReal) (ix3 (0 : Fin 9) n k)
      = Cert.Spec.agg (graphOf (m ((c : Thread nD τ).loc main_arg9))) (fun n k => (m ((c : Thread nD τ).loc main_arg0) : S50000x128.Idx → EReal) (ix2 n k)) 0 n k := by
  rw [WA73_eq m ρ c, ← XA_main_arg9 m ρ c] at hns
  rw [WA73_eq m ρ c, ← XA_main_arg9 m ρ c, ← XA_main_arg0 m ρ c]
  exact agg_0 m ρ c hns n k

end Cert.KernelIdeal.Rd

end
-- ==== Proof.KI.ReadA1.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.ReadAx
import proofs.«151568_j90031104458821_2_alg».proof.Proof.KI.TabA4
import proofs.«151568_j90031104458821_2_alg».proof.Proof.KI.TabA5
import proofs.«151568_j90031104458821_2_alg».proof.Proof.KI.TabA6
import proofs.«151568_j90031104458821_2_alg».proof.Proof.AggRead
import proofs.«151568_j90031104458821_2_alg».proof.Proof.AggParts
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.ShloMosaic.ValueIdx Idealize.SL Idealize.SL.Sem
open Cert Cert.Math Cert.IdxOps Cert.GraphOf Cert.GraphRead Cert.AggRead Cert.AggParts

variable (m : (ℓ : Loc nD τ sig) → Buf (Elt Ideal) ℓ) (ρ : Dev nD → PrngReg)

/-! ## Relation 1 -/

theorem z_1 (c : Dev nD) : ∀ i, (XA m ρ c (Proc.devRef .tc main_v290) : S50000x128.Idx → EReal) i = Z := fun i => by rw [ssa_main_v290 m ρ c, ssa_main_cst_112 m ρ c]; exact bcast_scalar_apply _ _ i
theorem dst_1 (c : Dev nD) : (XA m ρ c (Proc.devRef .tc main_v291) : S400000x1.Idx → BitVec 32) = colIdx (XA m ρ c (Proc.devRef .tc main_arg9)) 1 1 := by
  rw [ssa_main_v291 m ρ c, ssa_main_v289 m ρ c, ssa_main_v288 m ρ c]
  exact col_eq _ ![1, 1, 0] 1 1 rfl rfl rfl _ _ _
theorem srcv_1 (c : Dev nD) : ∀ e, (XA m ρ c (Proc.devRef .tc main_v280) : S400000.Idx → BitVec 32) (ix1 e) = (XA m ρ c (Proc.devRef .tc main_arg9) : S9x2x400000.Idx → BitVec 32) (ix3 (1 : Fin 9) (0 : Fin 2) e) := fun e => by
  rw [ssa_main_v280 m ρ c, ssa_main_v279 m ρ c]
  exact col_vec_apply _ ![1, 0, 0] 1 0 rfl rfl rfl _ _ e
theorem zeros_1 (c : Dev nD) : ∀ i, (XA m ρ c (Proc.devRef .tc main_v281) : S400000.Idx → BitVec 32) i = 0#32 := fun i => by rw [ssa_main_v281 m ρ c, ssa_main_c_110 m ρ c]; exact bcast_scalar_apply _ _ i
theorem n5_1 (c : Dev nD) : ∀ i, (XA m ρ c (Proc.devRef .tc main_v283) : S400000.Idx → BitVec 32) i = 50000#32 := fun i => by rw [ssa_main_v283 m ρ c, ssa_main_c_111 m ρ c]; exact bcast_scalar_apply _ _ i
theorem src_1 (c : Dev nD) : (XA m ρ c (Proc.devRef .tc main_v286) : S400000x1.Idx → BitVec 32) = srcIdx (XA m ρ c (Proc.devRef .tc main_arg9)) 1 := by
  rw [ssa_main_v286 m ρ c, ssa_main_v285 m ρ c, ssa_main_v282 m ρ c, ssa_main_v284 m ρ c]
  exact src_eq _ 1 _ _ _ (srcv_1 m ρ c) (zeros_1 m ρ c) (n5_1 m ρ c) _
theorem scale_1 (c : Dev nD) (p : Fin 50000) : (XA m ρ c (Proc.devRef .tc main_v275) : S50000.Idx → EReal) (ix1 p) = (XA m ρ c (Proc.devRef .tc main_v244) : S9x50000.Idx → EReal) (ix2 (1 : Fin 9) p) := by
  rw [ssa_main_v275 m ρ c, ssa_main_v274 m ρ c]
  exact row_vec_apply _ ![1, 0] 1 rfl rfl _ _ p
theorem tab_1 (c : Dev nD) (p : Fin 50000) (q : Fin 128) : (XA m ρ c (Proc.devRef .tc main_v278) : S50000x128.Idx → EReal) (ix2 p q)
    = @HMul.hMul EReal EReal EReal _ ((XA m ρ c (Proc.devRef .tc main_arg1) : S50000x128.Idx → EReal) (ix2 p q)) ((XA m ρ c (Proc.devRef .tc main_v275) : S50000.Idx → EReal) (ix1 p)) := by
  rw [ssa_main_v278 m ρ c, ssa_main_v277 m ρ c, ssa_main_v276 m ρ c]
  exact mulf_bcast_node_apply _ _ _ _ p q
theorem piece_1 (c : Dev nD) (n : Fin 50000) (k : Fin 128) : (XA m ρ c (Proc.devRef .tc main_v435) : S9x50000x128.Idx → EReal) (ix3 (1 : Fin 9) n k) = (XA m ρ c (Proc.devRef .tc main_v292) : S50000x128.Idx → EReal) (ix2 n k) := by
  rw [ssa_main_v435 m ρ c]
  refine (Concat.concat9_3_apply _ _ _ _ _ _ _ _ _ _ (1 : Fin 9) n k).trans ?_
  show (XA m ρ c (Proc.devRef .tc main_v427) : S1x50000x128.Idx → EReal) (ix3 (0 : Fin 1) n k) = _
  rw [ssa_main_v427 m ρ c]
  exact bcast_slab_apply _ _ _ n k
/-- The stacked aggregate at (1, n, k): relation 1's raw aggregate of the table main_arg1. -/
theorem agg_1 (c : Dev nD)
    (hns : ∀ p : Fin 50000, (XA m ρ c (Proc.devRef .tc main_v244) : S9x50000.Idx → EReal) (ix2 (1 : Fin 9) p) = (graphOf (XA m ρ c (Proc.devRef .tc main_arg9))).ns 1 p)
    (n : Fin 50000) (k : Fin 128) :
    (XA m ρ c (Proc.devRef .tc main_v435) : S9x50000x128.Idx → EReal) (ix3 (1 : Fin 9) n k)
      = Cert.Spec.agg (graphOf (XA m ρ c (Proc.devRef .tc main_arg9))) (fun n k => (XA m ρ c (Proc.devRef .tc main_arg1) : S50000x128.Idx → EReal) (ix2 n k)) 1 n k := by
  rw [piece_1 m ρ c n k, ssa_main_v292 m ρ c, ssa_main_v287 m ρ c]
  exact agg_of_parts_Z scatter_S50000x128_S400000x1_S400000x128_1_0_0_1 rfl rfl rfl rfl gather_S50000x128_S400000x1_S400000x128_1_0_n_n_0_1_1128 rfl rfl rfl rfl rfl rfl rfl _ 1 (fun n k => (XA m ρ c (Proc.devRef .tc main_arg1) : S50000x128.Idx → EReal) (ix2 n k)) _ _ _ _
    (z_1 m ρ c) (dst_1 m ρ c) (src_1 m ρ c) (fun p q => (tab_1 m ρ c p q).trans (by rw [scale_1 m ρ c p, hns p])) n k

/-- The same at the contents the first pallas_call finds, over the launch memory. -/
theorem A1_1 (c : Dev nD)
    (hns : ∀ p : Fin 50000, (WA73 m ρ c (Proc.devRef .tc main_v244) : S9x50000.Idx → EReal) (ix2 (1 : Fin 9) p) = (graphOf (m ((c : Thread nD τ).loc main_arg9))).ns 1 p)
    (n : Fin 50000) (k : Fin 128) :
    (WA73 m ρ c (Proc.devRef .tc main_v435) : S9x50000x128.Idx → EReal) (ix3 (1 : Fin 9) n k)
      = Cert.Spec.agg (graphOf (m ((c : Thread nD τ).loc main_arg9))) (fun n k => (m ((c : Thread nD τ).loc main_arg1) : S50000x128.Idx → EReal) (ix2 n k)) 1 n k := by
  rw [WA73_eq m ρ c, ← XA_main_arg9 m ρ c] at hns
  rw [WA73_eq m ρ c, ← XA_main_arg9 m ρ c, ← XA_main_arg1 m ρ c]
  exact agg_1 m ρ c hns n k

end Cert.KernelIdeal.Rd

end
-- ==== Proof.KI.ReadA2.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.ReadAx
import proofs.«151568_j90031104458821_2_alg».proof.Proof.KI.TabA4
import proofs.«151568_j90031104458821_2_alg».proof.Proof.KI.TabA5
import proofs.«151568_j90031104458821_2_alg».proof.Proof.KI.TabA6
import proofs.«151568_j90031104458821_2_alg».proof.Proof.AggRead
import proofs.«151568_j90031104458821_2_alg».proof.Proof.AggParts
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.ShloMosaic.ValueIdx Idealize.SL Idealize.SL.Sem
open Cert Cert.Math Cert.IdxOps Cert.GraphOf Cert.GraphRead Cert.AggRead Cert.AggParts

variable (m : (ℓ : Loc nD τ sig) → Buf (Elt Ideal) ℓ) (ρ : Dev nD → PrngReg)

/-! ## Relation 2 -/

theorem z_2 (c : Dev nD) : ∀ i, (XA m ρ c (Proc.devRef .tc main_v309) : S50000x128.Idx → EReal) i = Z := fun i => by rw [ssa_main_v309 m ρ c, ssa_main_cst_115 m ρ c]; exact bcast_scalar_apply _ _ i
theorem dst_2 (c : Dev nD) : (XA m ρ c (Proc.devRef .tc main_v310) : S400000x1.Idx → BitVec 32) = colIdx (XA m ρ c (Proc.devRef .tc main_arg9)) 2 1 := by
  rw [ssa_main_v310 m ρ c, ssa_main_v308 m ρ c, ssa_main_v307 m ρ c]
  exact col_eq _ ![2, 1, 0] 2 1 rfl rfl rfl _ _ _
theorem srcv_2 (c : Dev nD) : ∀ e, (XA m ρ c (Proc.devRef .tc main_v299) : S400000.Idx → BitVec 32) (ix1 e) = (XA m ρ c (Proc.devRef .tc main_arg9) : S9x2x400000.Idx → BitVec 32) (ix3 (2 : Fin 9) (0 : Fin 2) e) := fun e => by
  rw [ssa_main_v299 m ρ c, ssa_main_v298 m ρ c]
  exact col_vec_apply _ ![2, 0, 0] 2 0 rfl rfl rfl _ _ e
theorem zeros_2 (c : Dev nD) : ∀ i, (XA m ρ c (Proc.devRef .tc main_v300) : S400000.Idx → BitVec 32) i = 0#32 := fun i => by rw [ssa_main_v300 m ρ c, ssa_main_c_113 m ρ c]; exact bcast_scalar_apply _ _ i
theorem n5_2 (c : Dev nD) : ∀ i, (XA m ρ c (Proc.devRef .tc main_v302) : S400000.Idx → BitVec 32) i = 50000#32 := fun i => by rw [ssa_main_v302 m ρ c, ssa_main_c_114 m ρ c]; exact bcast_scalar_apply _ _ i
theorem src_2 (c : Dev nD) : (XA m ρ c (Proc.devRef .tc main_v305) : S400000x1.Idx → BitVec 32) = srcIdx (XA m ρ c (Proc.devRef .tc main_arg9)) 2 := by
  rw [ssa_main_v305 m ρ c, ssa_main_v304 m ρ c, ssa_main_v301 m ρ c, ssa_main_v303 m ρ c]
  exact src_eq _ 2 _ _ _ (srcv_2 m ρ c) (zeros_2 m ρ c) (n5_2 m ρ c) _
theorem scale_2 (c : Dev nD) (p : Fin 50000) : (XA m ρ c (Proc.devRef .tc main_v294) : S50000.Idx → EReal) (ix1 p) = (XA m ρ c (Proc.devRef .tc main_v244) : S9x50000.Idx → EReal) (ix2 (2 : Fin 9) p) := by
  rw [ssa_main_v294 m ρ c, ssa_main_v293 m ρ c]
  exact row_vec_apply _ ![2, 0] 2 rfl rfl _ _ p
theorem tab_2 (c : Dev nD) (p : Fin 50000) (q : Fin 128) : (XA m ρ c (Proc.devRef .tc main_v297) : S50000x128.Idx → EReal) (ix2 p q)
    = @HMul.hMul EReal EReal EReal _ ((XA m ρ c (Proc.devRef .tc main_arg1) : S50000x128.Idx → EReal) (ix2 p q)) ((XA m ρ c (Proc.devRef .tc main_v294) : S50000.Idx → EReal) (ix1 p)) := by
  rw [ssa_main_v297 m ρ c, ssa_main_v296 m ρ c, ssa_main_v295 m ρ c]
  exact mulf_bcast_node_apply _ _ _ _ p q
theorem piece_2 (c : Dev nD) (n : Fin 50000) (k : Fin 128) : (XA m ρ c (Proc.devRef .tc main_v435) : S9x50000x128.Idx → EReal) (ix3 (2 : Fin 9) n k) = (XA m ρ c (Proc.devRef .tc main_v311) : S50000x128.Idx → EReal) (ix2 n k) := by
  rw [ssa_main_v435 m ρ c]
  refine (Concat.concat9_3_apply _ _ _ _ _ _ _ _ _ _ (2 : Fin 9) n k).trans ?_
  show (XA m ρ c (Proc.devRef .tc main_v428) : S1x50000x128.Idx → EReal) (ix3 (0 : Fin 1) n k) = _
  rw [ssa_main_v428 m ρ c]
  exact bcast_slab_apply _ _ _ n k
/-- The stacked aggregate at (2, n, k): relation 2's raw aggregate of the table main_arg1. -/
theorem agg_2 (c : Dev nD)
    (hns : ∀ p : Fin 50000, (XA m ρ c (Proc.devRef .tc main_v244) : S9x50000.Idx → EReal) (ix2 (2 : Fin 9) p) = (graphOf (XA m ρ c (Proc.devRef .tc main_arg9))).ns 2 p)
    (n : Fin 50000) (k : Fin 128) :
    (XA m ρ c (Proc.devRef .tc main_v435) : S9x50000x128.Idx → EReal) (ix3 (2 : Fin 9) n k)
      = Cert.Spec.agg (graphOf (XA m ρ c (Proc.devRef .tc main_arg9))) (fun n k => (XA m ρ c (Proc.devRef .tc main_arg1) : S50000x128.Idx → EReal) (ix2 n k)) 2 n k := by
  rw [piece_2 m ρ c n k, ssa_main_v311 m ρ c, ssa_main_v306 m ρ c]
  exact agg_of_parts_Z scatter_S50000x128_S400000x1_S400000x128_1_0_0_1 rfl rfl rfl rfl gather_S50000x128_S400000x1_S400000x128_1_0_n_n_0_1_1128 rfl rfl rfl rfl rfl rfl rfl _ 2 (fun n k => (XA m ρ c (Proc.devRef .tc main_arg1) : S50000x128.Idx → EReal) (ix2 n k)) _ _ _ _
    (z_2 m ρ c) (dst_2 m ρ c) (src_2 m ρ c) (fun p q => (tab_2 m ρ c p q).trans (by rw [scale_2 m ρ c p, hns p])) n k

/-- The same at the contents the first pallas_call finds, over the launch memory. -/
theorem A1_2 (c : Dev nD)
    (hns : ∀ p : Fin 50000, (WA73 m ρ c (Proc.devRef .tc main_v244) : S9x50000.Idx → EReal) (ix2 (2 : Fin 9) p) = (graphOf (m ((c : Thread nD τ).loc main_arg9))).ns 2 p)
    (n : Fin 50000) (k : Fin 128) :
    (WA73 m ρ c (Proc.devRef .tc main_v435) : S9x50000x128.Idx → EReal) (ix3 (2 : Fin 9) n k)
      = Cert.Spec.agg (graphOf (m ((c : Thread nD τ).loc main_arg9))) (fun n k => (m ((c : Thread nD τ).loc main_arg1) : S50000x128.Idx → EReal) (ix2 n k)) 2 n k := by
  rw [WA73_eq m ρ c, ← XA_main_arg9 m ρ c] at hns
  rw [WA73_eq m ρ c, ← XA_main_arg9 m ρ c, ← XA_main_arg1 m ρ c]
  exact agg_2 m ρ c hns n k

end Cert.KernelIdeal.Rd

end
-- ==== Proof.KI.ReadA3.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.ReadAx
import proofs.«151568_j90031104458821_2_alg».proof.Proof.KI.TabA4
import proofs.«151568_j90031104458821_2_alg».proof.Proof.KI.TabA5
import proofs.«151568_j90031104458821_2_alg».proof.Proof.KI.TabA6
import proofs.«151568_j90031104458821_2_alg».proof.Proof.AggRead
import proofs.«151568_j90031104458821_2_alg».proof.Proof.AggParts
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.ShloMosaic.ValueIdx Idealize.SL Idealize.SL.Sem
open Cert Cert.Math Cert.IdxOps Cert.GraphOf Cert.GraphRead Cert.AggRead Cert.AggParts

variable (m : (ℓ : Loc nD τ sig) → Buf (Elt Ideal) ℓ) (ρ : Dev nD → PrngReg)

/-! ## Relation 3 -/

theorem z_3 (c : Dev nD) : ∀ i, (XA m ρ c (Proc.devRef .tc main_v328) : S50000x128.Idx → EReal) i = Z := fun i => by rw [ssa_main_v328 m ρ c, ssa_main_cst_118 m ρ c]; exact bcast_scalar_apply _ _ i
theorem dst_3 (c : Dev nD) : (XA m ρ c (Proc.devRef .tc main_v329) : S400000x1.Idx → BitVec 32) = colIdx (XA m ρ c (Proc.devRef .tc main_arg9)) 3 1 := by
  rw [ssa_main_v329 m ρ c, ssa_main_v327 m ρ c, ssa_main_v326 m ρ c]
  exact col_eq _ ![3, 1, 0] 3 1 rfl rfl rfl _ _ _
theorem srcv_3 (c : Dev nD) : ∀ e, (XA m ρ c (Proc.devRef .tc main_v318) : S400000.Idx → BitVec 32) (ix1 e) = (XA m ρ c (Proc.devRef .tc main_arg9) : S9x2x400000.Idx → BitVec 32) (ix3 (3 : Fin 9) (0 : Fin 2) e) := fun e => by
  rw [ssa_main_v318 m ρ c, ssa_main_v317 m ρ c]
  exact col_vec_apply _ ![3, 0, 0] 3 0 rfl rfl rfl _ _ e
theorem zeros_3 (c : Dev nD) : ∀ i, (XA m ρ c (Proc.devRef .tc main_v319) : S400000.Idx → BitVec 32) i = 0#32 := fun i => by rw [ssa_main_v319 m ρ c, ssa_main_c_116 m ρ c]; exact bcast_scalar_apply _ _ i
theorem n5_3 (c : Dev nD) : ∀ i, (XA m ρ c (Proc.devRef .tc main_v321) : S400000.Idx → BitVec 32) i = 50000#32 := fun i => by rw [ssa_main_v321 m ρ c, ssa_main_c_117 m ρ c]; exact bcast_scalar_apply _ _ i
theorem src_3 (c : Dev nD) : (XA m ρ c (Proc.devRef .tc main_v324) : S400000x1.Idx → BitVec 32) = srcIdx (XA m ρ c (Proc.devRef .tc main_arg9)) 3 := by
  rw [ssa_main_v324 m ρ c, ssa_main_v323 m ρ c, ssa_main_v320 m ρ c, ssa_main_v322 m ρ c]
  exact src_eq _ 3 _ _ _ (srcv_3 m ρ c) (zeros_3 m ρ c) (n5_3 m ρ c) _
theorem scale_3 (c : Dev nD) (p : Fin 50000) : (XA m ρ c (Proc.devRef .tc main_v313) : S50000.Idx → EReal) (ix1 p) = (XA m ρ c (Proc.devRef .tc main_v244) : S9x50000.Idx → EReal) (ix2 (3 : Fin 9) p) := by
  rw [ssa_main_v313 m ρ c, ssa_main_v312 m ρ c]
  exact row_vec_apply _ ![3, 0] 3 rfl rfl _ _ p
theorem tab_3 (c : Dev nD) (p : Fin 50000) (q : Fin 128) : (XA m ρ c (Proc.devRef .tc main_v316) : S50000x128.Idx → EReal) (ix2 p q)
    = @HMul.hMul EReal EReal EReal _ ((XA m ρ c (Proc.devRef .tc main_arg0) : S50000x128.Idx → EReal) (ix2 p q)) ((XA m ρ c (Proc.devRef .tc main_v313) : S50000.Idx → EReal) (ix1 p)) := by
  rw [ssa_main_v316 m ρ c, ssa_main_v315 m ρ c, ssa_main_v314 m ρ c]
  exact mulf_bcast_node_apply _ _ _ _ p q
theorem piece_3 (c : Dev nD) (n : Fin 50000) (k : Fin 128) : (XA m ρ c (Proc.devRef .tc main_v435) : S9x50000x128.Idx → EReal) (ix3 (3 : Fin 9) n k) = (XA m ρ c (Proc.devRef .tc main_v330) : S50000x128.Idx → EReal) (ix2 n k) := by
  rw [ssa_main_v435 m ρ c]
  refine (Concat.concat9_3_apply _ _ _ _ _ _ _ _ _ _ (3 : Fin 9) n k).trans ?_
  show (XA m ρ c (Proc.devRef .tc main_v429) : S1x50000x128.Idx → EReal) (ix3 (0 : Fin 1) n k) = _
  rw [ssa_main_v429 m ρ c]
  exact bcast_slab_apply _ _ _ n k
/-- The stacked aggregate at (3, n, k): relation 3's raw aggregate of the table main_arg0. -/
theorem agg_3 (c : Dev nD)
    (hns : ∀ p : Fin 50000, (XA m ρ c (Proc.devRef .tc main_v244) : S9x50000.Idx → EReal) (ix2 (3 : Fin 9) p) = (graphOf (XA m ρ c (Proc.devRef .tc main_arg9))).ns 3 p)
    (n : Fin 50000) (k : Fin 128) :
    (XA m ρ c (Proc.devRef .tc main_v435) : S9x50000x128.Idx → EReal) (ix3 (3 : Fin 9) n k)
      = Cert.Spec.agg (graphOf (XA m ρ c (Proc.devRef .tc main_arg9))) (fun n k => (XA m ρ c (Proc.devRef .tc main_arg0) : S50000x128.Idx → EReal) (ix2 n k)) 3 n k := by
  rw [piece_3 m ρ c n k, ssa_main_v330 m ρ c, ssa_main_v325 m ρ c]
  exact agg_of_parts_Z scatter_S50000x128_S400000x1_S400000x128_1_0_0_1 rfl rfl rfl rfl gather_S50000x128_S400000x1_S400000x128_1_0_n_n_0_1_1128 rfl rfl rfl rfl rfl rfl rfl _ 3 (fun n k => (XA m ρ c (Proc.devRef .tc main_arg0) : S50000x128.Idx → EReal) (ix2 n k)) _ _ _ _
    (z_3 m ρ c) (dst_3 m ρ c) (src_3 m ρ c) (fun p q => (tab_3 m ρ c p q).trans (by rw [scale_3 m ρ c p, hns p])) n k

/-- The same at the contents the first pallas_call finds, over the launch memory. -/
theorem A1_3 (c : Dev nD)
    (hns : ∀ p : Fin 50000, (WA73 m ρ c (Proc.devRef .tc main_v244) : S9x50000.Idx → EReal) (ix2 (3 : Fin 9) p) = (graphOf (m ((c : Thread nD τ).loc main_arg9))).ns 3 p)
    (n : Fin 50000) (k : Fin 128) :
    (WA73 m ρ c (Proc.devRef .tc main_v435) : S9x50000x128.Idx → EReal) (ix3 (3 : Fin 9) n k)
      = Cert.Spec.agg (graphOf (m ((c : Thread nD τ).loc main_arg9))) (fun n k => (m ((c : Thread nD τ).loc main_arg0) : S50000x128.Idx → EReal) (ix2 n k)) 3 n k := by
  rw [WA73_eq m ρ c, ← XA_main_arg9 m ρ c] at hns
  rw [WA73_eq m ρ c, ← XA_main_arg9 m ρ c, ← XA_main_arg0 m ρ c]
  exact agg_3 m ρ c hns n k

end Cert.KernelIdeal.Rd

end
-- ==== Proof.KI.ReadA4.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.ReadAx
import proofs.«151568_j90031104458821_2_alg».proof.Proof.KI.TabA4
import proofs.«151568_j90031104458821_2_alg».proof.Proof.KI.TabA5
import proofs.«151568_j90031104458821_2_alg».proof.Proof.KI.TabA6
import proofs.«151568_j90031104458821_2_alg».proof.Proof.AggRead
import proofs.«151568_j90031104458821_2_alg».proof.Proof.AggParts
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.ShloMosaic.ValueIdx Idealize.SL Idealize.SL.Sem
open Cert Cert.Math Cert.IdxOps Cert.GraphOf Cert.GraphRead Cert.AggRead Cert.AggParts

variable (m : (ℓ : Loc nD τ sig) → Buf (Elt Ideal) ℓ) (ρ : Dev nD → PrngReg)

/-! ## Relation 4 -/

theorem z_4 (c : Dev nD) : ∀ i, (XA m ρ c (Proc.devRef .tc main_v347) : S50000x128.Idx → EReal) i = Z := fun i => by rw [ssa_main_v347 m ρ c, ssa_main_cst_121 m ρ c]; exact bcast_scalar_apply _ _ i
theorem dst_4 (c : Dev nD) : (XA m ρ c (Proc.devRef .tc main_v348) : S400000x1.Idx → BitVec 32) = colIdx (XA m ρ c (Proc.devRef .tc main_arg9)) 4 1 := by
  rw [ssa_main_v348 m ρ c, ssa_main_v346 m ρ c, ssa_main_v345 m ρ c]
  exact col_eq _ ![4, 1, 0] 4 1 rfl rfl rfl _ _ _
theorem srcv_4 (c : Dev nD) : ∀ e, (XA m ρ c (Proc.devRef .tc main_v337) : S400000.Idx → BitVec 32) (ix1 e) = (XA m ρ c (Proc.devRef .tc main_arg9) : S9x2x400000.Idx → BitVec 32) (ix3 (4 : Fin 9) (0 : Fin 2) e) := fun e => by
  rw [ssa_main_v337 m ρ c, ssa_main_v336 m ρ c]
  exact col_vec_apply _ ![4, 0, 0] 4 0 rfl rfl rfl _ _ e
theorem zeros_4 (c : Dev nD) : ∀ i, (XA m ρ c (Proc.devRef .tc main_v338) : S400000.Idx → BitVec 32) i = 0#32 := fun i => by rw [ssa_main_v338 m ρ c, ssa_main_c_119 m ρ c]; exact bcast_scalar_apply _ _ i
theorem n5_4 (c : Dev nD) : ∀ i, (XA m ρ c (Proc.devRef .tc main_v340) : S400000.Idx → BitVec 32) i = 50000#32 := fun i => by rw [ssa_main_v340 m ρ c, ssa_main_c_120 m ρ c]; exact bcast_scalar_apply _ _ i
theorem src_4 (c : Dev nD) : (XA m ρ c (Proc.devRef .tc main_v343) : S400000x1.Idx → BitVec 32) = srcIdx (XA m ρ c (Proc.devRef .tc main_arg9)) 4 := by
  rw [ssa_main_v343 m ρ c, ssa_main_v342 m ρ c, ssa_main_v339 m ρ c, ssa_main_v341 m ρ c]
  exact src_eq _ 4 _ _ _ (srcv_4 m ρ c) (zeros_4 m ρ c) (n5_4 m ρ c) _
theorem scale_4 (c : Dev nD) (p : Fin 50000) : (XA m ρ c (Proc.devRef .tc main_v332) : S50000.Idx → EReal) (ix1 p) = (XA m ρ c (Proc.devRef .tc main_v244) : S9x50000.Idx → EReal) (ix2 (4 : Fin 9) p) := by
  rw [ssa_main_v332 m ρ c, ssa_main_v331 m ρ c]
  exact row_vec_apply _ ![4, 0] 4 rfl rfl _ _ p
theorem tab_4 (c : Dev nD) (p : Fin 50000) (q : Fin 128) : (XA m ρ c (Proc.devRef .tc main_v335) : S50000x128.Idx → EReal) (ix2 p q)
    = @HMul.hMul EReal EReal EReal _ ((XA m ρ c (Proc.devRef .tc main_arg2) : S50000x128.Idx → EReal) (ix2 p q)) ((XA m ρ c (Proc.devRef .tc main_v332) : S50000.Idx → EReal) (ix1 p)) := by
  rw [ssa_main_v335 m ρ c, ssa_main_v334 m ρ c, ssa_main_v333 m ρ c]
  exact mulf_bcast_node_apply _ _ _ _ p q
theorem piece_4 (c : Dev nD) (n : Fin 50000) (k : Fin 128) : (XA m ρ c (Proc.devRef .tc main_v435) : S9x50000x128.Idx → EReal) (ix3 (4 : Fin 9) n k) = (XA m ρ c (Proc.devRef .tc main_v349) : S50000x128.Idx → EReal) (ix2 n k) := by
  rw [ssa_main_v435 m ρ c]
  refine (Concat.concat9_3_apply _ _ _ _ _ _ _ _ _ _ (4 : Fin 9) n k).trans ?_
  show (XA m ρ c (Proc.devRef .tc main_v430) : S1x50000x128.Idx → EReal) (ix3 (0 : Fin 1) n k) = _
  rw [ssa_main_v430 m ρ c]
  exact bcast_slab_apply _ _ _ n k
/-- The stacked aggregate at (4, n, k): relation 4's raw aggregate of the table main_arg2. -/
theorem agg_4 (c : Dev nD)
    (hns : ∀ p : Fin 50000, (XA m ρ c (Proc.devRef .tc main_v244) : S9x50000.Idx → EReal) (ix2 (4 : Fin 9) p) = (graphOf (XA m ρ c (Proc.devRef .tc main_arg9))).ns 4 p)
    (n : Fin 50000) (k : Fin 128) :
    (XA m ρ c (Proc.devRef .tc main_v435) : S9x50000x128.Idx → EReal) (ix3 (4 : Fin 9) n k)
      = Cert.Spec.agg (graphOf (XA m ρ c (Proc.devRef .tc main_arg9))) (fun n k => (XA m ρ c (Proc.devRef .tc main_arg2) : S50000x128.Idx → EReal) (ix2 n k)) 4 n k := by
  rw [piece_4 m ρ c n k, ssa_main_v349 m ρ c, ssa_main_v344 m ρ c]
  exact agg_of_parts_Z scatter_S50000x128_S400000x1_S400000x128_1_0_0_1 rfl rfl rfl rfl gather_S50000x128_S400000x1_S400000x128_1_0_n_n_0_1_1128 rfl rfl rfl rfl rfl rfl rfl _ 4 (fun n k => (XA m ρ c (Proc.devRef .tc main_arg2) : S50000x128.Idx → EReal) (ix2 n k)) _ _ _ _
    (z_4 m ρ c) (dst_4 m ρ c) (src_4 m ρ c) (fun p q => (tab_4 m ρ c p q).trans (by rw [scale_4 m ρ c p, hns p])) n k

/-- The same at the contents the first pallas_call finds, over the launch memory. -/
theorem A1_4 (c : Dev nD)
    (hns : ∀ p : Fin 50000, (WA73 m ρ c (Proc.devRef .tc main_v244) : S9x50000.Idx → EReal) (ix2 (4 : Fin 9) p) = (graphOf (m ((c : Thread nD τ).loc main_arg9))).ns 4 p)
    (n : Fin 50000) (k : Fin 128) :
    (WA73 m ρ c (Proc.devRef .tc main_v435) : S9x50000x128.Idx → EReal) (ix3 (4 : Fin 9) n k)
      = Cert.Spec.agg (graphOf (m ((c : Thread nD τ).loc main_arg9))) (fun n k => (m ((c : Thread nD τ).loc main_arg2) : S50000x128.Idx → EReal) (ix2 n k)) 4 n k := by
  rw [WA73_eq m ρ c, ← XA_main_arg9 m ρ c] at hns
  rw [WA73_eq m ρ c, ← XA_main_arg9 m ρ c, ← XA_main_arg2 m ρ c]
  exact agg_4 m ρ c hns n k

end Cert.KernelIdeal.Rd

end
-- ==== Proof.KI.ReadA5.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.ReadAx
import proofs.«151568_j90031104458821_2_alg».proof.Proof.KI.TabA4
import proofs.«151568_j90031104458821_2_alg».proof.Proof.KI.TabA5
import proofs.«151568_j90031104458821_2_alg».proof.Proof.KI.TabA6
import proofs.«151568_j90031104458821_2_alg».proof.Proof.AggRead
import proofs.«151568_j90031104458821_2_alg».proof.Proof.AggParts
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.ShloMosaic.ValueIdx Idealize.SL Idealize.SL.Sem
open Cert Cert.Math Cert.IdxOps Cert.GraphOf Cert.GraphRead Cert.AggRead Cert.AggParts

variable (m : (ℓ : Loc nD τ sig) → Buf (Elt Ideal) ℓ) (ρ : Dev nD → PrngReg)

/-! ## Relation 5 -/

theorem z_5 (c : Dev nD) : ∀ i, (XA m ρ c (Proc.devRef .tc main_v366) : S50000x128.Idx → EReal) i = Z := fun i => by rw [ssa_main_v366 m ρ c, ssa_main_cst_124 m ρ c]; exact bcast_scalar_apply _ _ i
theorem dst_5 (c : Dev nD) : (XA m ρ c (Proc.devRef .tc main_v367) : S400000x1.Idx → BitVec 32) = colIdx (XA m ρ c (Proc.devRef .tc main_arg9)) 5 1 := by
  rw [ssa_main_v367 m ρ c, ssa_main_v365 m ρ c, ssa_main_v364 m ρ c]
  exact col_eq _ ![5, 1, 0] 5 1 rfl rfl rfl _ _ _
theorem srcv_5 (c : Dev nD) : ∀ e, (XA m ρ c (Proc.devRef .tc main_v356) : S400000.Idx → BitVec 32) (ix1 e) = (XA m ρ c (Proc.devRef .tc main_arg9) : S9x2x400000.Idx → BitVec 32) (ix3 (5 : Fin 9) (0 : Fin 2) e) := fun e => by
  rw [ssa_main_v356 m ρ c, ssa_main_v355 m ρ c]
  exact col_vec_apply _ ![5, 0, 0] 5 0 rfl rfl rfl _ _ e
theorem zeros_5 (c : Dev nD) : ∀ i, (XA m ρ c (Proc.devRef .tc main_v357) : S400000.Idx → BitVec 32) i = 0#32 := fun i => by rw [ssa_main_v357 m ρ c, ssa_main_c_122 m ρ c]; exact bcast_scalar_apply _ _ i
theorem n5_5 (c : Dev nD) : ∀ i, (XA m ρ c (Proc.devRef .tc main_v359) : S400000.Idx → BitVec 32) i = 50000#32 := fun i => by rw [ssa_main_v359 m ρ c, ssa_main_c_123 m ρ c]; exact bcast_scalar_apply _ _ i
theorem src_5 (c : Dev nD) : (XA m ρ c (Proc.devRef .tc main_v362) : S400000x1.Idx → BitVec 32) = srcIdx (XA m ρ c (Proc.devRef .tc main_arg9)) 5 := by
  rw [ssa_main_v362 m ρ c, ssa_main_v361 m ρ c, ssa_main_v358 m ρ c, ssa_main_v360 m ρ c]
  exact src_eq _ 5 _ _ _ (srcv_5 m ρ c) (zeros_5 m ρ c) (n5_5 m ρ c) _
theorem scale_5 (c : Dev nD) (p : Fin 50000) : (XA m ρ c (Proc.devRef .tc main_v351) : S50000.Idx → EReal) (ix1 p) = (XA m ρ c (Proc.devRef .tc main_v244) : S9x50000.Idx → EReal) (ix2 (5 : Fin 9) p) := by
  rw [ssa_main_v351 m ρ c, ssa_main_v350 m ρ c]
  exact row_vec_apply _ ![5, 0] 5 rfl rfl _ _ p
theorem tab_5 (c : Dev nD) (p : Fin 50000) (q : Fin 128) : (XA m ρ c (Proc.devRef .tc main_v354) : S50000x128.Idx → EReal) (ix2 p q)
    = @HMul.hMul EReal EReal EReal _ ((XA m ρ c (Proc.devRef .tc main_arg2) : S50000x128.Idx → EReal) (ix2 p q)) ((XA m ρ c (Proc.devRef .tc main_v351) : S50000.Idx → EReal) (ix1 p)) := by
  rw [ssa_main_v354 m ρ c, ssa_main_v353 m ρ c, ssa_main_v352 m ρ c]
  exact mulf_bcast_node_apply _ _ _ _ p q
theorem piece_5 (c : Dev nD) (n : Fin 50000) (k : Fin 128) : (XA m ρ c (Proc.devRef .tc main_v435) : S9x50000x128.Idx → EReal) (ix3 (5 : Fin 9) n k) = (XA m ρ c (Proc.devRef .tc main_v368) : S50000x128.Idx → EReal) (ix2 n k) := by
  rw [ssa_main_v435 m ρ c]
  refine (Concat.concat9_3_apply _ _ _ _ _ _ _ _ _ _ (5 : Fin 9) n k).trans ?_
  show (XA m ρ c (Proc.devRef .tc main_v431) : S1x50000x128.Idx → EReal) (ix3 (0 : Fin 1) n k) = _
  rw [ssa_main_v431 m ρ c]
  exact bcast_slab_apply _ _ _ n k
/-- The stacked aggregate at (5, n, k): relation 5's raw aggregate of the table main_arg2. -/
theorem agg_5 (c : Dev nD)
    (hns : ∀ p : Fin 50000, (XA m ρ c (Proc.devRef .tc main_v244) : S9x50000.Idx → EReal) (ix2 (5 : Fin 9) p) = (graphOf (XA m ρ c (Proc.devRef .tc main_arg9))).ns 5 p)
    (n : Fin 50000) (k : Fin 128) :
    (XA m ρ c (Proc.devRef .tc main_v435) : S9x50000x128.Idx → EReal) (ix3 (5 : Fin 9) n k)
      = Cert.Spec.agg (graphOf (XA m ρ c (Proc.devRef .tc main_arg9))) (fun n k => (XA m ρ c (Proc.devRef .tc main_arg2) : S50000x128.Idx → EReal) (ix2 n k)) 5 n k := by
  rw [piece_5 m ρ c n k, ssa_main_v368 m ρ c, ssa_main_v363 m ρ c]
  exact agg_of_parts_Z scatter_S50000x128_S400000x1_S400000x128_1_0_0_1 rfl rfl rfl rfl gather_S50000x128_S400000x1_S400000x128_1_0_n_n_0_1_1128 rfl rfl rfl rfl rfl rfl rfl _ 5 (fun n k => (XA m ρ c (Proc.devRef .tc main_arg2) : S50000x128.Idx → EReal) (ix2 n k)) _ _ _ _
    (z_5 m ρ c) (dst_5 m ρ c) (src_5 m ρ c) (fun p q => (tab_5 m ρ c p q).trans (by rw [scale_5 m ρ c p, hns p])) n k

/-- The same at the contents the first pallas_call finds, over the launch memory. -/
theorem A1_5 (c : Dev nD)
    (hns : ∀ p : Fin 50000, (WA73 m ρ c (Proc.devRef .tc main_v244) : S9x50000.Idx → EReal) (ix2 (5 : Fin 9) p) = (graphOf (m ((c : Thread nD τ).loc main_arg9))).ns 5 p)
    (n : Fin 50000) (k : Fin 128) :
    (WA73 m ρ c (Proc.devRef .tc main_v435) : S9x50000x128.Idx → EReal) (ix3 (5 : Fin 9) n k)
      = Cert.Spec.agg (graphOf (m ((c : Thread nD τ).loc main_arg9))) (fun n k => (m ((c : Thread nD τ).loc main_arg2) : S50000x128.Idx → EReal) (ix2 n k)) 5 n k := by
  rw [WA73_eq m ρ c, ← XA_main_arg9 m ρ c] at hns
  rw [WA73_eq m ρ c, ← XA_main_arg9 m ρ c, ← XA_main_arg2 m ρ c]
  exact agg_5 m ρ c hns n k

end Cert.KernelIdeal.Rd

end
-- ==== Proof.KI.ReadA6.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.ReadAx
import proofs.«151568_j90031104458821_2_alg».proof.Proof.KI.TabA4
import proofs.«151568_j90031104458821_2_alg».proof.Proof.KI.TabA5
import proofs.«151568_j90031104458821_2_alg».proof.Proof.KI.TabA6
import proofs.«151568_j90031104458821_2_alg».proof.Proof.AggRead
import proofs.«151568_j90031104458821_2_alg».proof.Proof.AggParts
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.ShloMosaic.ValueIdx Idealize.SL Idealize.SL.Sem
open Cert Cert.Math Cert.IdxOps Cert.GraphOf Cert.GraphRead Cert.AggRead Cert.AggParts

variable (m : (ℓ : Loc nD τ sig) → Buf (Elt Ideal) ℓ) (ρ : Dev nD → PrngReg)

/-! ## Relation 6 -/

theorem z_6 (c : Dev nD) : ∀ i, (XA m ρ c (Proc.devRef .tc main_v385) : S50000x128.Idx → EReal) i = Z := fun i => by rw [ssa_main_v385 m ρ c, ssa_main_cst_127 m ρ c]; exact bcast_scalar_apply _ _ i
theorem dst_6 (c : Dev nD) : (XA m ρ c (Proc.devRef .tc main_v386) : S400000x1.Idx → BitVec 32) = colIdx (XA m ρ c (Proc.devRef .tc main_arg9)) 6 1 := by
  rw [ssa_main_v386 m ρ c, ssa_main_v384 m ρ c, ssa_main_v383 m ρ c]
  exact col_eq _ ![6, 1, 0] 6 1 rfl rfl rfl _ _ _
theorem srcv_6 (c : Dev nD) : ∀ e, (XA m ρ c (Proc.devRef .tc main_v375) : S400000.Idx → BitVec 32) (ix1 e) = (XA m ρ c (Proc.devRef .tc main_arg9) : S9x2x400000.Idx → BitVec 32) (ix3 (6 : Fin 9) (0 : Fin 2) e) := fun e => by
  rw [ssa_main_v375 m ρ c, ssa_main_v374 m ρ c]
  exact col_vec_apply _ ![6, 0, 0] 6 0 rfl rfl rfl _ _ e
theorem zeros_6 (c : Dev nD) : ∀ i, (XA m ρ c (Proc.devRef .tc main_v376) : S400000.Idx → BitVec 32) i = 0#32 := fun i => by rw [ssa_main_v376 m ρ c, ssa_main_c_125 m ρ c]; exact bcast_scalar_apply _ _ i
theorem n5_6 (c : Dev nD) : ∀ i, (XA m ρ c (Proc.devRef .tc main_v378) : S400000.Idx → BitVec 32) i = 50000#32 := fun i => by rw [ssa_main_v378 m ρ c, ssa_main_c_126 m ρ c]; exact bcast_scalar_apply _ _ i
theorem src_6 (c : Dev nD) : (XA m ρ c (Proc.devRef .tc main_v381) : S400000x1.Idx → BitVec 32) = srcIdx (XA m ρ c (Proc.devRef .tc main_arg9)) 6 := by
  rw [ssa_main_v381 m ρ c, ssa_main_v380 m ρ c, ssa_main_v377 m ρ c, ssa_main_v379 m ρ c]
  exact src_eq _ 6 _ _ _ (srcv_6 m ρ c) (zeros_6 m ρ c) (n5_6 m ρ c) _
theorem scale_6 (c : Dev nD) (p : Fin 50000) : (XA m ρ c (Proc.devRef .tc main_v370) : S50000.Idx → EReal) (ix1 p) = (XA m ρ c (Proc.devRef .tc main_v244) : S9x50000.Idx → EReal) (ix2 (6 : Fin 9) p) := by
  rw [ssa_main_v370 m ρ c, ssa_main_v369 m ρ c]
  exact row_vec_apply _ ![6, 0] 6 rfl rfl _ _ p
theorem tab_6 (c : Dev nD) (p : Fin 50000) (q : Fin 128) : (XA m ρ c (Proc.devRef .tc main_v373) : S50000x128.Idx → EReal) (ix2 p q)
    = @HMul.hMul EReal EReal EReal _ ((XA m ρ c (Proc.devRef .tc main_arg0) : S50000x128.Idx → EReal) (ix2 p q)) ((XA m ρ c (Proc.devRef .tc main_v370) : S50000.Idx → EReal) (ix1 p)) := by
  rw [ssa_main_v373 m ρ c, ssa_main_v372 m ρ c, ssa_main_v371 m ρ c]
  exact mulf_bcast_node_apply _ _ _ _ p q
theorem piece_6 (c : Dev nD) (n : Fin 50000) (k : Fin 128) : (XA m ρ c (Proc.devRef .tc main_v435) : S9x50000x128.Idx → EReal) (ix3 (6 : Fin 9) n k) = (XA m ρ c (Proc.devRef .tc main_v387) : S50000x128.Idx → EReal) (ix2 n k) := by
  rw [ssa_main_v435 m ρ c]
  refine (Concat.concat9_3_apply _ _ _ _ _ _ _ _ _ _ (6 : Fin 9) n k).trans ?_
  show (XA m ρ c (Proc.devRef .tc main_v432) : S1x50000x128.Idx → EReal) (ix3 (0 : Fin 1) n k) = _
  rw [ssa_main_v432 m ρ c]
  exact bcast_slab_apply _ _ _ n k
/-- The stacked aggregate at (6, n, k): relation 6's raw aggregate of the table main_arg0. -/
theorem agg_6 (c : Dev nD)
    (hns : ∀ p : Fin 50000, (XA m ρ c (Proc.devRef .tc main_v244) : S9x50000.Idx → EReal) (ix2 (6 : Fin 9) p) = (graphOf (XA m ρ c (Proc.devRef .tc main_arg9))).ns 6 p)
    (n : Fin 50000) (k : Fin 128) :
    (XA m ρ c (Proc.devRef .tc main_v435) : S9x50000x128.Idx → EReal) (ix3 (6 : Fin 9) n k)
      = Cert.Spec.agg (graphOf (XA m ρ c (Proc.devRef .tc main_arg9))) (fun n k => (XA m ρ c (Proc.devRef .tc main_arg0) : S50000x128.Idx → EReal) (ix2 n k)) 6 n k := by
  rw [piece_6 m ρ c n k, ssa_main_v387 m ρ c, ssa_main_v382 m ρ c]
  exact agg_of_parts_Z scatter_S50000x128_S400000x1_S400000x128_1_0_0_1 rfl rfl rfl rfl gather_S50000x128_S400000x1_S400000x128_1_0_n_n_0_1_1128 rfl rfl rfl rfl rfl rfl rfl _ 6 (fun n k => (XA m ρ c (Proc.devRef .tc main_arg0) : S50000x128.Idx → EReal) (ix2 n k)) _ _ _ _
    (z_6 m ρ c) (dst_6 m ρ c) (src_6 m ρ c) (fun p q => (tab_6 m ρ c p q).trans (by rw [scale_6 m ρ c p, hns p])) n k

/-- The same at the contents the first pallas_call finds, over the launch memory. -/
theorem A1_6 (c : Dev nD)
    (hns : ∀ p : Fin 50000, (WA73 m ρ c (Proc.devRef .tc main_v244) : S9x50000.Idx → EReal) (ix2 (6 : Fin 9) p) = (graphOf (m ((c : Thread nD τ).loc main_arg9))).ns 6 p)
    (n : Fin 50000) (k : Fin 128) :
    (WA73 m ρ c (Proc.devRef .tc main_v435) : S9x50000x128.Idx → EReal) (ix3 (6 : Fin 9) n k)
      = Cert.Spec.agg (graphOf (m ((c : Thread nD τ).loc main_arg9))) (fun n k => (m ((c : Thread nD τ).loc main_arg0) : S50000x128.Idx → EReal) (ix2 n k)) 6 n k := by
  rw [WA73_eq m ρ c, ← XA_main_arg9 m ρ c] at hns
  rw [WA73_eq m ρ c, ← XA_main_arg9 m ρ c, ← XA_main_arg0 m ρ c]
  exact agg_6 m ρ c hns n k

end Cert.KernelIdeal.Rd

end
-- ==== Proof.KI.ReadA7.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.ReadAx
import proofs.«151568_j90031104458821_2_alg».proof.Proof.KI.TabA4
import proofs.«151568_j90031104458821_2_alg».proof.Proof.KI.TabA5
import proofs.«151568_j90031104458821_2_alg».proof.Proof.KI.TabA6
import proofs.«151568_j90031104458821_2_alg».proof.Proof.AggRead
import proofs.«151568_j90031104458821_2_alg».proof.Proof.AggParts
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.ShloMosaic.ValueIdx Idealize.SL Idealize.SL.Sem
open Cert Cert.Math Cert.IdxOps Cert.GraphOf Cert.GraphRead Cert.AggRead Cert.AggParts

variable (m : (ℓ : Loc nD τ sig) → Buf (Elt Ideal) ℓ) (ρ : Dev nD → PrngReg)

/-! ## Relation 7 -/

theorem z_7 (c : Dev nD) : ∀ i, (XA m ρ c (Proc.devRef .tc main_v404) : S50000x128.Idx → EReal) i = Z := fun i => by rw [ssa_main_v404 m ρ c, ssa_main_cst_130 m ρ c]; exact bcast_scalar_apply _ _ i
theorem dst_7 (c : Dev nD) : (XA m ρ c (Proc.devRef .tc main_v405) : S400000x1.Idx → BitVec 32) = colIdx (XA m ρ c (Proc.devRef .tc main_arg9)) 7 1 := by
  rw [ssa_main_v405 m ρ c, ssa_main_v403 m ρ c, ssa_main_v402 m ρ c]
  exact col_eq _ ![7, 1, 0] 7 1 rfl rfl rfl _ _ _
theorem srcv_7 (c : Dev nD) : ∀ e, (XA m ρ c (Proc.devRef .tc main_v394) : S400000.Idx → BitVec 32) (ix1 e) = (XA m ρ c (Proc.devRef .tc main_arg9) : S9x2x400000.Idx → BitVec 32) (ix3 (7 : Fin 9) (0 : Fin 2) e) := fun e => by
  rw [ssa_main_v394 m ρ c, ssa_main_v393 m ρ c]
  exact col_vec_apply _ ![7, 0, 0] 7 0 rfl rfl rfl _ _ e
theorem zeros_7 (c : Dev nD) : ∀ i, (XA m ρ c (Proc.devRef .tc main_v395) : S400000.Idx → BitVec 32) i = 0#32 := fun i => by rw [ssa_main_v395 m ρ c, ssa_main_c_128 m ρ c]; exact bcast_scalar_apply _ _ i
theorem n5_7 (c : Dev nD) : ∀ i, (XA m ρ c (Proc.devRef .tc main_v397) : S400000.Idx → BitVec 32) i = 50000#32 := fun i => by rw [ssa_main_v397 m ρ c, ssa_main_c_129 m ρ c]; exact bcast_scalar_apply _ _ i
theorem src_7 (c : Dev nD) : (XA m ρ c (Proc.devRef .tc main_v400) : S400000x1.Idx → BitVec 32) = srcIdx (XA m ρ c (Proc.devRef .tc main_arg9)) 7 := by
  rw [ssa_main_v400 m ρ c, ssa_main_v399 m ρ c, ssa_main_v396 m ρ c, ssa_main_v398 m ρ c]
  exact src_eq _ 7 _ _ _ (srcv_7 m ρ c) (zeros_7 m ρ c) (n5_7 m ρ c) _
theorem scale_7 (c : Dev nD) (p : Fin 50000) : (XA m ρ c (Proc.devRef .tc main_v389) : S50000.Idx → EReal) (ix1 p) = (XA m ρ c (Proc.devRef .tc main_v244) : S9x50000.Idx → EReal) (ix2 (7 : Fin 9) p) := by
  rw [ssa_main_v389 m ρ c, ssa_main_v388 m ρ c]
  exact row_vec_apply _ ![7, 0] 7 rfl rfl _ _ p
theorem tab_7 (c : Dev nD) (p : Fin 50000) (q : Fin 128) : (XA m ρ c (Proc.devRef .tc main_v392) : S50000x128.Idx → EReal) (ix2 p q)
    = @HMul.hMul EReal EReal EReal _ ((XA m ρ c (Proc.devRef .tc main_arg2) : S50000x128.Idx → EReal) (ix2 p q)) ((XA m ρ c (Proc.devRef .tc main_v389) : S50000.Idx → EReal) (ix1 p)) := by
  rw [ssa_main_v392 m ρ c, ssa_main_v391 m ρ c, ssa_main_v390 m ρ c]
  exact mulf_bcast_node_apply _ _ _ _ p q
theorem piece_7 (c : Dev nD) (n : Fin 50000) (k : Fin 128) : (XA m ρ c (Proc.devRef .tc main_v435) : S9x50000x128.Idx → EReal) (ix3 (7 : Fin 9) n k) = (XA m ρ c (Proc.devRef .tc main_v406) : S50000x128.Idx → EReal) (ix2 n k) := by
  rw [ssa_main_v435 m ρ c]
  refine (Concat.concat9_3_apply _ _ _ _ _ _ _ _ _ _ (7 : Fin 9) n k).trans ?_
  show (XA m ρ c (Proc.devRef .tc main_v433) : S1x50000x128.Idx → EReal) (ix3 (0 : Fin 1) n k) = _
  rw [ssa_main_v433 m ρ c]
  exact bcast_slab_apply _ _ _ n k
/-- The stacked aggregate at (7, n, k): relation 7's raw aggregate of the table main_arg2. -/
theorem agg_7 (c : Dev nD)
    (hns : ∀ p : Fin 50000, (XA m ρ c (Proc.devRef .tc main_v244) : S9x50000.Idx → EReal) (ix2 (7 : Fin 9) p) = (graphOf (XA m ρ c (Proc.devRef .tc main_arg9))).ns 7 p)
    (n : Fin 50000) (k : Fin 128) :
    (XA m ρ c (Proc.devRef .tc main_v435) : S9x50000x128.Idx → EReal) (ix3 (7 : Fin 9) n k)
      = Cert.Spec.agg (graphOf (XA m ρ c (Proc.devRef .tc main_arg9))) (fun n k => (XA m ρ c (Proc.devRef .tc main_arg2) : S50000x128.Idx → EReal) (ix2 n k)) 7 n k := by
  rw [piece_7 m ρ c n k, ssa_main_v406 m ρ c, ssa_main_v401 m ρ c]
  exact agg_of_parts_Z scatter_S50000x128_S400000x1_S400000x128_1_0_0_1 rfl rfl rfl rfl gather_S50000x128_S400000x1_S400000x128_1_0_n_n_0_1_1128 rfl rfl rfl rfl rfl rfl rfl _ 7 (fun n k => (XA m ρ c (Proc.devRef .tc main_arg2) : S50000x128.Idx → EReal) (ix2 n k)) _ _ _ _
    (z_7 m ρ c) (dst_7 m ρ c) (src_7 m ρ c) (fun p q => (tab_7 m ρ c p q).trans (by rw [scale_7 m ρ c p, hns p])) n k

/-- The same at the contents the first pallas_call finds, over the launch memory. -/
theorem A1_7 (c : Dev nD)
    (hns : ∀ p : Fin 50000, (WA73 m ρ c (Proc.devRef .tc main_v244) : S9x50000.Idx → EReal) (ix2 (7 : Fin 9) p) = (graphOf (m ((c : Thread nD τ).loc main_arg9))).ns 7 p)
    (n : Fin 50000) (k : Fin 128) :
    (WA73 m ρ c (Proc.devRef .tc main_v435) : S9x50000x128.Idx → EReal) (ix3 (7 : Fin 9) n k)
      = Cert.Spec.agg (graphOf (m ((c : Thread nD τ).loc main_arg9))) (fun n k => (m ((c : Thread nD τ).loc main_arg2) : S50000x128.Idx → EReal) (ix2 n k)) 7 n k := by
  rw [WA73_eq m ρ c, ← XA_main_arg9 m ρ c] at hns
  rw [WA73_eq m ρ c, ← XA_main_arg9 m ρ c, ← XA_main_arg2 m ρ c]
  exact agg_7 m ρ c hns n k

end Cert.KernelIdeal.Rd

end
-- ==== Proof.KI.ReadA8.lean ====
/-
  What the first pallas_call finds in the stacked aggregate main_v435, read at one element (r, n, k): the network's raw
  aggregate of relation r over the graph the edge array defines, given that row r of the stacked source-side norm table
  main_v244 holds the graph's source-side norms. The reading walks the single-assignment equations back from the
  concatenate: the piece is the scatter, along the destination column, of the rows gathered through the wrapped source
  words from the source table scaled by row r of the norm table. (In the shared module: the arguments hold their
  launch contents.)
-/
import proofs.«151568_j90031104458821_2_alg».proof.Proof.KI.ReadAx
import proofs.«151568_j90031104458821_2_alg».proof.Proof.KI.TabA4
import proofs.«151568_j90031104458821_2_alg».proof.Proof.KI.TabA5
import proofs.«151568_j90031104458821_2_alg».proof.Proof.KI.TabA6
import proofs.«151568_j90031104458821_2_alg».proof.Proof.AggRead
import proofs.«151568_j90031104458821_2_alg».proof.Proof.AggParts
import proofs.«151568_j90031104458821_2_alg».proof.Proof.Concat

set_option maxRecDepth 65536

noncomputable section

namespace Cert.KernelIdeal.Rd

open Cert.KernelIdeal Cert.KernelIdeal.Gen Cert.KernelIdeal.Fr Idealize.ShloMosaic Idealize.ShloMosaic.TcCoe Idealize.ShloMosaic.StableHlo Idealize.ShloMosaic.ValueIdx Idealize.SL Idealize.SL.Sem
open Cert Cert.Math Cert.IdxOps Cert.GraphOf Cert.GraphRead Cert.AggRead Cert.AggParts

variable (m : (ℓ : Loc nD τ sig) → Buf (Elt Ideal) ℓ) (ρ : Dev nD → PrngReg)

/-! ## Relation 8 -/

theorem z_8 (c : Dev nD) : ∀ i, (XA m ρ c (Proc.devRef .tc main_v423) : S50000x128.Idx → EReal) i = Z := fun i => by rw [ssa_main_v423 m ρ c, ssa_main_cst_133 m ρ c]; exact bcast_scalar_apply _ _ i
theorem dst_8 (c : Dev nD) : (XA m ρ c (Proc.devRef .tc main_v424) : S400000x1.Idx → BitVec 32) = colIdx (XA m ρ c (Proc.devRef .tc main_arg9)) 8 1 := by
  rw [ssa_main_v424 m ρ c, ssa_main_v422 m ρ c, ssa_main_v421 m ρ c]
  exact col_eq _ ![8, 1, 0] 8 1 rfl rfl rfl _ _ _
theorem srcv_8 (c : Dev nD) : ∀ e, (XA m ρ c (Proc.devRef .tc main_v413) : S400000.Idx → BitVec 32) (ix1 e) = (XA m ρ c (Proc.devRef .tc main_arg9) : S9x2x400000.Idx → BitVec 32) (ix3 (8 : Fin 9) (0 : Fin 2) e) := fun e => by
  rw [ssa_main_v413 m ρ c, ssa_main_v412 m ρ c]
  exact col_vec_apply _ ![8, 0, 0] 8 0 rfl rfl rfl _ _ e
theorem zeros_8 (c : Dev nD) : ∀ i, (XA m ρ c (Proc.devRef .tc main_v414) : S400000.Idx → BitVec 32) i = 0#32 := fun i => by rw [ssa_main_v414 m ρ c, ssa_main_c_131 m ρ c]; exact bcast_scalar_apply _ _ i
theorem n5_8 (c : Dev nD) : ∀ i, (XA m ρ c (Proc.devRef .tc main_v416) : S400000.Idx → BitVec 32) i = 50000#32 := fun i => by rw [ssa_main_v416 m ρ c, ssa_main_c_132 m ρ c]; exact bcast_scalar_apply _ _ i
theorem src_8 (c : Dev nD) : (XA m ρ c (Proc.devRef .tc main_v419) : S400000x1.Idx → BitVec 32) = srcIdx (XA m ρ c (Proc.devRef .tc main_arg9)) 8 := by
  rw [ssa_main_v419 m ρ c, ssa_main_v418 m ρ c, ssa_main_v415 m ρ c, ssa_main_v417 m ρ c]
  exact src_eq _ 8 _ _ _ (srcv_8 m ρ c) (zeros_8 m ρ c) (n5_8 m ρ c) _
theorem scale_8 (c : Dev nD) (p : Fin 50000) : (XA m ρ c (Proc.devRef .tc main_v408) : S50000.Idx → EReal) (ix1 p) = (XA m ρ c (Proc.devRef .tc main_v244) : S9x50000.Idx → EReal) (ix2 (8 : Fin 9) p) := by
  rw [ssa_main_v408 m ρ c, ssa_main_v407 m ρ c]
  exact row_vec_apply _ ![8, 0] 8 rfl rfl _ _ p
theorem tab_8 (c : Dev nD) (p : Fin 50000) (q : Fin 128) : (XA m ρ c (Proc.devRef .tc main_v411) : S50000x128.Idx → EReal) (ix2 p q)
    = @HMul.hMul EReal EReal EReal _ ((XA m ρ c (Proc.devRef .tc main_arg1) : S50000x128.Idx → EReal) (ix2 p q)) ((XA m ρ c (Proc.devRef .tc main_v408) : S50000.Idx → EReal) (ix1 p)) := by
  rw [ssa_main_v411 m ρ c, ssa_main_v410 m ρ c, ssa_main_v409 m ρ c]
  exact mulf_bcast_node_apply _ _ _ _ p q
theorem piece_8 (c : Dev nD) (n : Fin 50000) (k : Fin 128) : (XA m ρ c (Proc.devRef .tc main_v435) : S9x50000x128.Idx → EReal) (ix3 (8 : Fin 9) n k) = (XA m ρ c (Proc.devRef .tc main_v425) : S50000x128.Idx → EReal) (ix2 n k) := by
  rw [ssa_main_v435 m ρ c]
  refine (Concat.concat9_3_apply _ _ _ _ _ _ _ _ _ _ (8 : Fin 9) n k).trans ?_
  show (XA m ρ c (Proc.devRef .tc main_v434) : S1x50000x128.Idx → EReal) (ix3 (0 : Fin 1) n k) = _
  rw [ssa_main_v434 m ρ c]
  exact bcast_slab_apply _ _ _ n k
/-- The stacked aggregate at (8, n, k): relation 8's raw aggregate of the table main_arg1. -/
theorem agg_8 (c : Dev nD)
    (hns : ∀ p : Fin 50000, (XA m ρ c (Proc.devRef .tc main_v244) : S9x50000.Idx → EReal) (ix2 (8 : Fin 9) p) = (graphOf (XA m ρ c (Proc.devRef .tc main_arg9))).ns 8 p)
    (n : Fin 50000) (k : Fin 128) :
    (XA m ρ c (Proc.devRef .tc main_v435) : S9x50000x128.Idx → EReal) (ix3 (8 : Fin 9) n k)
      = Cert.Spec.agg (graphOf (XA m ρ c (Proc.devRef .tc main_arg9))) (fun n k => (XA m ρ c (Proc.devRef .tc main_arg1) : S50000x128.Idx → EReal) (ix2 n k)) 8 n k := by
  rw [piece_8 m ρ c n k, ssa_main_v425 m ρ c, ssa_main_v420 m ρ c]
  exact agg_of_parts_Z scatter_S50000x128_S400000x1_S400000x128_1_0_0_1 rfl rfl rfl rfl gather_S50000x128_S400000x1_S400000x128_1_0_n_n_0_1_1128 rfl rfl rfl rfl rfl rfl rfl _ 8 (fun n k => (XA m ρ c (Proc.devRef .tc main_arg1) : S50000x128.Idx → EReal) (ix2 n k)) _ _ _ _
    (z_8 m ρ c) (dst_8 m ρ c) (src_8 m ρ c) (fun p q => (tab_8 m ρ c p q).trans (by rw [scale_8 m ρ c p, hns p])) n k

/-- The same at the contents the first pallas_call finds, over the launch memory. -/
theorem A1_8 (c : Dev nD)
    (hns : ∀ p : Fin 50000, (WA73 m ρ c (Proc.devRef .tc main_v244) : S9x50000.Idx → EReal) (ix2 (8 : Fin 9) p) = (graphOf (m ((c : Thread nD τ).loc main_arg9))).ns 8 p)
    (n : Fin 50000) (k : Fin 128) :
    (WA73 m ρ c (Proc.devRef .tc main_v435) : S9x50000x128.Idx → EReal) (ix3 (8 : Fin 9) n k)
      = Cert.Spec.agg (graphOf (m ((c : Thread nD τ).loc main_arg9))) (fun n k => (m ((c : Thread nD τ).loc main_arg1) : S50000x128.Idx → EReal) (ix2 n k)) 8 n k := by
  rw [WA73_eq m ρ c, ← XA_main_arg9 m ρ c] at hns
  rw [WA73_eq m ρ c, ← XA_main_arg9 m ρ c, ← XA_main_arg1 m ρ c]
  exact agg_8 m ρ c hns n k

end Cert.KernelIdeal.Rd

end
-- ==== Proof.KI.ReadB2W.lean ====
/-
  The second layer's aggregation stretch writes every buffer once: the reference each of its 210 operations writes, in
  the stretch's order, and the fact that the list is aligned with the stretch operation by operation.
-/
import proofs.«151568_j90031104458821_2_alg».proof.Proof.KI.Fold
import proofs.«151568_j90031104458821_2_alg».proof.Proof.Ssa

set_option maxRecDepth 16384

noncomputable section

namespace Cert.KernelIdeal.Rd

open Cert.KernelIdeal Cert.KernelIdeal.Gen Cert.KernelIdeal.Fr Idealize.ShloMosaic Idealize.ShloMosaic.StableHlo

variable {F : FTy → Type} [FloatOps F]

/-- The references the stretch writes, operation by operation. -/
abbrev written1_4 : List (Ref sig .tc) := [
  main_v472, main_v473, main_v474, main_v475, main_v476, main_v477,
  main_v478, main_c_137, main_v479, main_v480, main_c_138, main_v481,
  main_v482, main_v483, main_v484, main_v485, main_v486, main_v487,
  main_cst_139, main_v488, main_v489, main_v490, main_v491, main_v492,
  main_v493, main_v494, main_v495, main_v496, main_v497, main_c_140,
  main_v498, main_v499, main_c_141, main_v500, main_v501, main_v502,
  main_v503, main_v504, main_v505, main_v506, main_cst_142, main_v507,
  main_v508, main_v509, main_v510, main_v511, main_v512, main_v513,
  main_v514, main_v515, main_v516, main_c_143, main_v517, main_v518,
  main_c_144, main_v519, main_v520, main_v521, main_v522, main_v523,
  main_v524, main_v525, main_cst_145, main_v526, main_v527, main_v528,
  main_v529, main_v530, main_v531, main_v532, main_v533, main_v534,
  main_v535, main_c_146, main_v536, main_v537, main_c_147, main_v538,
  main_v539, main_v540, main_v541, main_v542, main_v543, main_v544,
  main_cst_148, main_v545, main_v546, main_v547, main_v548, main_v549,
  main_v550, main_v551, main_v552, main_v553, main_v554, main_c_149,
  main_v555, main_v556, main_c_150, main_v557, main_v558, main_v559,
  main_v560, main_v561, main_v562, main_v563, main_cst_151, main_v564,
  main_v565, main_v566, main_v567, main_v568, main_v569, main_v570,
  main_v571, main_v572, main_v573, main_c_152, main_v574, main_v575,
  main_c_153, main_v576, main_v577, main_v578, main_v579, main_v580,
  main_v581, main_v582, main_cst_154, main_v583, main_v584, main_v585,
  main_v586, main_v587, main_v588, main_v589, main_v590, main_v591,
  main_v592, main_c_155, main_v593, main_v594, main_c_156, main_v595,
  main_v596, main_v597, main_v598, main_v599, main_v600, main_v601,
  main_cst_157, main_v602, main_v603, main_v604, main_v605, main_v606,
  main_v607, main_v608, main_v609, main_v610, main_v611, main_c_158,
  main_v612, main_v613, main_c_159, main_v614, main_v615, main_v616,
  main_v617, main_v618, main_v619, main_v620, main_cst_160, main_v621,
  main_v622, main_v623, main_v624, main_v625, main_v626, main_v627,
  main_v628, main_v629, main_v630, main_c_161, main_v631, main_v632,
  main_c_162, main_v633, main_v634, main_v635, main_v636, main_v637,
  main_v638, main_v639, main_cst_163, main_v640, main_v641, main_v642,
  main_v643, main_v644, main_v645, main_v646, main_v647, main_v648,
  main_v649, main_v650, main_v651, main_v652, main_v653, main_v654]

set_option maxHeartbeats 4000000 in
/-- Each operation writes exactly the reference listed at its position. -/
theorem hostOps1_4_aligned : Cert.Ssa.Aligned (hostOps1_4 : List (HloOp τ sig (Elt F))) written1_4 := by
  repeat (refine Cert.Ssa.Aligned.cons rfl ?_)
  exact Cert.Ssa.Aligned.nil

end Cert.KernelIdeal.Rd

end
-- ==== Proof.KI.ReadB2.lean ====
/-
  The second layer's aggregation stretch, read. From the three relu'd tables, the source-norm array and the edge array
  the stretch builds, relation by relation, the raw aggregate of the relation: the source type's table scaled by the
  relation's source norms, its rows gathered along the edges' wrapped source words and summed at the destination words
  into zeros. It then stacks the nine aggregates as the slabs of one [9, 50000, 128] array and adds a unit axis to the
  destination norms and to the second layer's biases: the three arrays the second projection call reads.

  Here: the arrays one relation's aggregation builds, as functions of the table, the norm vector and the two word
  vectors; what the stretch leaves at the stacked array in terms of what it leaves at the nine aggregates (every buffer
  is written once, so an operation's result is read off the final contents of its operands); the two broadcasts; that
  the stretches before leave the arrays this one reads as they were; and, at the ideal instance, one relation's
  aggregation at an element as the network's raw aggregate on the graph of the edge array. The nine relations'
  aggregates are read in a module each.
-/
import proofs.«151568_j90031104458821_2_alg».proof.Proof.KI.ReadB2W
import proofs.«151568_j90031104458821_2_alg».proof.Proof.GraphRead
import proofs.«151568_j90031104458821_2_alg».proof.Proof.AggParts
import proofs.«151568_j90031104458821_2_alg».proof.Proof.Concat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-! ## The arrays one relation's aggregation builds -/

/-- The [50000, 128] table of zeros an aggregation starts from. -/
abbrev zeroTab : Vec F S50000x128 .f32 :=
  broadcastInDim S50000x128 ![] bcast_S_S50000x128 (constant (F := F) S_ .f32 0x00000000#32)

/-- A table scaled by a per-node vector: the vector made a column and spread across the features, then the product. -/
abbrev scaled (T : Vec F S50000x128 .f32) (v : Vec F S50000 .f32) : Vec F S50000x128 .f32 :=
  mulf T (broadcastInDim S50000x128 ![0, 1] bcast_S50000x1_S50000x128_0_1 (broadcastInDim S50000x1 ![0] bcast_S50000_S50000x1_0 v))

/-- A vector of edge words as an [E, 1] index column. -/
abbrev col (s : Vec F S400000 .i32) : Vec F S400000x1 .i32 := broadcastInDim S400000x1 ![0] bcast_S400000_S400000x1_0 s

/-- The gather's start indices: a negative source word wrapped once by the node count, as a column. -/
abbrev wrapCol (s : Vec F S400000 .i32) : Vec F S400000x1 .i32 :=
  col (select (cmpi .slt s (broadcastInDim S400000 ![] bcast_S_S400000 (constantI S_ 32 0#32)))
    (addi s (broadcastInDim S400000 ![] bcast_S_S400000 (constantI S_ 32 50000#32))) s)

/-- One relation's aggregation: the scaled table's rows gathered along the wrapped source words and summed at the
    destination words into zeros. -/
abbrev aggArr (T : Vec F S50000x128 .f32) (v : Vec F S50000 .f32) (src dst : Vec F S400000 .i32) : Vec F S50000x128 .f32 :=
  Host.scatterAdd scatter_S50000x128_S400000x1_S400000x128_1_0_0_1 zeroTab (col dst)
    (Host.gather gather_S50000x128_S400000x1_S400000x128_1_0_n_n_0_1_1128 (scaled T v) (wrapCol src))

/-- A [50000, 128] table as the one slab of a [1, 50000, 128] array. -/
abbrev slabOf (T : Vec F S50000x128 .f32) : Vec F S1x50000x128 .f32 :=
  broadcastInDim S1x50000x128 ![1, 2] bcast_S50000x128_S1x50000x128_1_2 T

/-! ## The stretch's last operations, from any contents: the nine aggregates stacked, the two broadcasts -/

variable (W : Valuation τ sig (Elt F))

/-- Each aggregate made a slab: what the stretch leaves at the slab is the broadcast of what it leaves at the aggregate. -/
theorem slab643 : (StableHlo.after hostOps1_4 W (Proc.devRef .tc main_v643) : Vec F S1x50000x128 .f32)
    = slabOf (StableHlo.after hostOps1_4 W (Proc.devRef .tc main_v490)) :=
  Cert.Ssa.ssa_unary hostOps1_4_aligned 198 W (x := main_v490) (y := main_v643) rfl (by decide) (by decide)
theorem slab644 : (StableHlo.after hostOps1_4 W (Proc.devRef .tc main_v644) : Vec F S1x50000x128 .f32)
    = slabOf (StableHlo.after hostOps1_4 W (Proc.devRef .tc main_v509)) :=
  Cert.Ssa.ssa_unary hostOps1_4_aligned 199 W (x := main_v509) (y := main_v644) rfl (by decide) (by decide)
theorem slab645 : (StableHlo.after hostOps1_4 W (Proc.devRef .tc main_v645) : Vec F S1x50000x128 .f32)
    = slabOf (StableHlo.after hostOps1_4 W (Proc.devRef .tc main_v528)) :=
  Cert.Ssa.ssa_unary hostOps1_4_aligned 200 W (x := main_v528) (y := main_v645) rfl (by decide) (by decide)
theorem slab646 : (StableHlo.after hostOps1_4 W (Proc.devRef .tc main_v646) : Vec F S1x50000x128 .f32)
    = slabOf (StableHlo.after hostOps1_4 W (Proc.devRef .tc main_v547)) :=
  Cert.Ssa.ssa_unary hostOps1_4_aligned 201 W (x := main_v547) (y := main_v646) rfl (by decide) (by decide)
theorem slab647 : (StableHlo.after hostOps1_4 W (Proc.devRef .tc main_v647) : Vec F S1x50000x128 .f32)
    = slabOf (StableHlo.after hostOps1_4 W (Proc.devRef .tc main_v566)) :=
  Cert.Ssa.ssa_unary hostOps1_4_aligned 202 W (x := main_v566) (y := main_v647) rfl (by decide) (by decide)
theorem slab648 : (StableHlo.after hostOps1_4 W (Proc.devRef .tc main_v648) : Vec F S1x50000x128 .f32)
    = slabOf (StableHlo.after hostOps1_4 W (Proc.devRef .tc main_v585)) :=
  Cert.Ssa.ssa_unary hostOps1_4_aligned 203 W (x := main_v585) (y := main_v648) rfl (by decide) (by decide)
theorem slab649 : (StableHlo.after hostOps1_4 W (Proc.devRef .tc main_v649) : Vec F S1x50000x128 .f32)
    = slabOf (StableHlo.after hostOps1_4 W (Proc.devRef .tc main_v604)) :=
  Cert.Ssa.ssa_unary hostOps1_4_aligned 204 W (x := main_v604) (y := main_v649) rfl (by decide) (by decide)
theorem slab650 : (StableHlo.after hostOps1_4 W (Proc.devRef .tc main_v650) : Vec F S1x50000x128 .f32)
    = slabOf (StableHlo.after hostOps1_4 W (Proc.devRef .tc main_v623)) :=
  Cert.Ssa.ssa_unary hostOps1_4_aligned 205 W (x := main_v623) (y := main_v650) rfl (by decide) (by decide)
theorem slab651 : (StableHlo.after hostOps1_4 W (Proc.devRef .tc main_v651) : Vec F S1x50000x128 .f32)
    = slabOf (StableHlo.after hostOps1_4 W (Proc.devRef .tc main_v642)) :=
  Cert.Ssa.ssa_unary hostOps1_4_aligned 206 W (x := main_v642) (y := main_v651) rfl (by decide) (by decide)

/-- The stacked array is the concatenation of what the stretch leaves at the nine slabs, -/
theorem v652_parts : (StableHlo.after hostOps1_4 W (Proc.devRef .tc main_v652) : Vec F S9x50000x128 .f32)
    = concatenate S9x50000x128 0 [⟨S1x50000x128, StableHlo.after hostOps1_4 W (Proc.devRef .tc main_v643)⟩,
        ⟨S1x50000x128, StableHlo.after hostOps1_4 W (Proc.devRef .tc main_v644)⟩, ⟨S1x50000x128, StableHlo.after hostOps1_4 W (Proc.devRef .tc main_v645)⟩,
        ⟨S1x50000x128, StableHlo.after hostOps1_4 W (Proc.devRef .tc main_v646)⟩, ⟨S1x50000x128, StableHlo.after hostOps1_4 W (Proc.devRef .tc main_v647)⟩,
        ⟨S1x50000x128, StableHlo.after hostOps1_4 W (Proc.devRef .tc main_v648)⟩, ⟨S1x50000x128, StableHlo.after hostOps1_4 W (Proc.devRef .tc main_v649)⟩,
        ⟨S1x50000x128, StableHlo.after hostOps1_4 W (Proc.devRef .tc main_v650)⟩, ⟨S1x50000x128, StableHlo.after hostOps1_4 W (Proc.devRef .tc main_v651)⟩]
        concatenates_S1x50000x128_S1x50000x128_S1x50000x128_S1x50000x128_S1x50000x128_S1x50000x128_S1x50000x128_S1x50000x128_S1x50000x128_S9x50000x128_d0 :=
  Cert.Ssa.ssa_nary hostOps1_4_aligned 207 W (y := main_v652) rfl (by decide) (by decide)

/-- so the concatenation of the nine aggregates, each as a slab. -/
theorem v652_eq : (StableHlo.after hostOps1_4 W (Proc.devRef .tc main_v652) : Vec F S9x50000x128 .f32)
    = concatenate S9x50000x128 0 [⟨S1x50000x128, slabOf (StableHlo.after hostOps1_4 W (Proc.devRef .tc main_v490))⟩,
        ⟨S1x50000x128, slabOf (StableHlo.after hostOps1_4 W (Proc.devRef .tc main_v509))⟩, ⟨S1x50000x128, slabOf (StableHlo.after hostOps1_4 W (Proc.devRef .tc main_v528))⟩,
        ⟨S1x50000x128, slabOf (StableHlo.after hostOps1_4 W (Proc.devRef .tc main_v547))⟩, ⟨S1x50000x128, slabOf (StableHlo.after hostOps1_4 W (Proc.devRef .tc main_v566))⟩,
        ⟨S1x50000x128, slabOf (StableHlo.after hostOps1_4 W (Proc.devRef .tc main_v585))⟩, ⟨S1x50000x128, slabOf (StableHlo.after hostOps1_4 W (Proc.devRef .tc main_v604))⟩,
        ⟨S1x50000x128, slabOf (StableHlo.after hostOps1_4 W (Proc.devRef .tc main_v623))⟩, ⟨S1x50000x128, slabOf (StableHlo.after hostOps1_4 W (Proc.devRef .tc main_v642))⟩]
        concatenates_S1x50000x128_S1x50000x128_S1x50000x128_S1x50000x128_S1x50000x128_S1x50000x128_S1x50000x128_S1x50000x128_S1x50000x128_S9x50000x128_d0 := by
  rw [v652_parts, slab643, slab644, slab645, slab646, slab647, slab648, slab649, slab650, slab651]

set_option maxHeartbeats 4000000 in
/-- The destination norms with a unit feature axis added, -/
theorem v653_eq : (StableHlo.after hostOps1_4 W (Proc.devRef .tc main_v653) : Vec F S9x50000x1 .f32)
    = broadcastInDim S9x50000x1 ![0, 1] bcast_S9x50000_S9x50000x1_0_1 (W (Proc.devRef .tc main_v254)) := by
  after_results_simp

set_option maxHeartbeats 4000000 in
/-- and the second layer's biases with a unit node axis added. -/
theorem v654_eq : (StableHlo.after hostOps1_4 W (Proc.devRef .tc main_v654) : Vec F S9x1x128 .f32)
    = broadcastInDim S9x1x128 ![0, 2] bcast_S9x128_S9x1x128_0_2 (W (Proc.devRef .tc main_arg6)) := by
  after_results_simp

/-! ## The stretches before it leave the arrays it reads as they were -/

/-- The arrays the stretch reads besides the relu'd tables: the two norm arrays, the second layer's biases, the edges. -/
abbrev inputRefs : List (Ref sig .tc) := [main_v244, main_v254, main_arg6, main_arg9]

/-- The operation writes none of them. -/
def Leaves (op : HloOp τ sig (Elt F)) : Prop := ∀ r ∈ inputRefs, Proc.devRef (τ := τ) .tc r ∉ op.writes

theorem leaves_of_writes {op : HloOp τ sig (Elt F)} {y : Ref sig .tc} (hw : op.writes = {Proc.devRef .tc y}) (hy : y ∉ inputRefs) :
    Leaves op := fun r hr hm => by
  rw [hw, Finset.mem_singleton] at hm
  exact hy (Proc.devRef_injective _ hm ▸ hr)

theorem leaves_cons {op : HloOp τ sig (Elt F)} {ops : List (HloOp τ sig (Elt F))} (h : Leaves op) (hs : ops.Forall Leaves) :
    (op :: ops).Forall Leaves :=
  List.forall_iff_forall_mem.mpr fun o ho => by
    rcases List.mem_cons.mp ho with rfl | ho
    · exact h
    · exact List.forall_iff_forall_mem.mp hs o ho

theorem after_leaves (ops : List (HloOp τ sig (Elt F))) (h : ops.Forall Leaves) (V : Valuation τ sig (Elt F)) {r : Ref sig .tc}
    (hr : r ∈ inputRefs) : StableHlo.after ops V (Proc.devRef .tc r) = V (Proc.devRef .tc r) :=
  StableHlo.after_of_forall_not_mem ops V fun op hop => List.forall_iff_forall_mem.mp h op hop r hr

theorem hostOps1_leaves : (hostOps1 : List (HloOp τ sig (Elt F))).Forall Leaves := by
  repeat (refine leaves_cons (leaves_of_writes rfl (by decide)) ?_)
  exact trivial
theorem hostOps1_1_leaves : (hostOps1_1 : List (HloOp τ sig (Elt F))).Forall Leaves := by
  repeat (refine leaves_cons (leaves_of_writes rfl (by decide)) ?_)
  exact trivial
theorem hostOps1_2_leaves : (hostOps1_2 : List (HloOp τ sig (Elt F))).Forall Leaves := by
  repeat (refine leaves_cons (leaves_of_writes rfl (by decide)) ?_)
  exact trivial
theorem hostOps1_3_leaves : (hostOps1_3 : List (HloOp τ sig (Elt F))).Forall Leaves := by
  repeat (refine leaves_cons (leaves_of_writes rfl (by decide)) ?_)
  exact trivial

variable (X : Dev nD → Valuation τ sig (Elt F))

/-- Before the aggregation stretch each of them holds what the first call left. -/
theorem at4_input (c : Dev nD) {r : Ref sig .tc} (hr : r ∈ inputRefs) :
    WB4 X c (Proc.devRef .tc r) = X c (Proc.devRef .tc r) :=
  (after_leaves hostOps1_3 hostOps1_3_leaves (WB3 X c) hr).trans ((after_leaves hostOps1_2 hostOps1_2_leaves (WB2 X c) hr).trans
    ((after_leaves hostOps1_1 hostOps1_1_leaves (WB1 X c) hr).trans (after_leaves hostOps1 hostOps1_leaves (X c) hr)))

end Arrays

/-! ## Element by element, at the ideal instance -/

section AtIndex
open Cert.GraphOf Cert.GraphRead

/-- The table of zeros reads 0 everywhere. -/
theorem zeroTab_apply (i : S50000x128.Idx) : zeroTab (F := Ideal) i = (0 : EReal) := by
  refine (bcast_scalar_apply bcast_S_S50000x128 (constant (F := Ideal) S_ .f32 0x00000000#32) i).trans ?_
  rw [constant_apply, Ideal.ofBits_zero_f32]

/-- A table as a slab reads the table. -/
theorem slabOf_apply (T : Vec Ideal S50000x128 .f32) (n : Fin 50000) (k : Fin 128) :
    slabOf T (ix3 (0 : Fin 1) n k) = T (ix2 n k) :=
  broadcastInDim_apply _ bcast_S50000x128_S1x50000x128_1_2 T (ix3 (0 : Fin 1) n k) (ix2 n k) (fun a => match a with
    | ⟨0, _⟩ => by show n.val = if (50000 : ℕ) = 1 then 0 else n.val; rw [if_neg (by decide)]
    | ⟨1, _⟩ => by show k.val = if (128 : ℕ) = 1 then 0 else k.val; rw [if_neg (by decide)])

/-- One relation's aggregation at (n, k) is the network's raw aggregate of the table on the graph of the edge array, once
    the two word vectors are the relation's columns of the edge array and the scaling vector its source norms. -/
theorem aggArr_apply (edges : IVec ⟨3, ![9, 2, 400000]⟩ 32) (r : Fin 9) (T : Vec Ideal S50000x128 .f32) (v : Vec Ideal S50000 .f32)
    (src dst : Vec Ideal S400000 .i32)
    (hsrc : ∀ e : Fin 400000, src (ix1 e) = edges (ix3 r (0 : Fin 2) e))
    (hdst : ∀ e : Fin 400000, dst (ix1 e) = edges (ix3 r (1 : Fin 2) e))
    (hv : ∀ p : Fin 50000, v (ix1 p) = (graphOf edges).ns r p) (n : Fin 50000) (k : Fin 128) :
    aggArr T v src dst (ix2 n k) = Cert.Spec.agg (graphOf edges) (fun p k => T (ix2 p k)) r n k := by
  -- the destination column, the wrapped source column and the scaled table, each as the graph's
  have hd : col dst = colIdx edges r 1 := by
    funext i
    rw [eq_ix2 i]
    exact (bcast_col_apply bcast_S400000_S400000x1_0 dst _ _).trans (hdst _)
  have hs : wrapCol src = srcIdx edges r :=
    src_eq edges r src _ _ hsrc (fun i => bcast_scalar_apply bcast_S_S400000 (constantI S_ 32 0#32) i)
      (fun i => bcast_scalar_apply bcast_S_S400000 (constantI S_ 32 50000#32) i) bcast_S400000_S400000x1_0
  have ht : ∀ (p : Fin 50000) (k : Fin 128), scaled T v (ix2 p k) = T (ix2 p k) * (graphOf edges).ns r p := fun p k => by
    refine (mulf_bcast_node_apply bcast_S50000_S50000x1_0 bcast_S50000x1_S50000x128_0_1 T v p k).trans ?_
    rw [hv]
  delta aggArr
  rw [hd, hs]
  exact Cert.AggParts.agg_of_parts scatter_S50000x128_S400000x1_S400000x128_1_0_0_1 rfl rfl rfl rfl
    gather_S50000x128_S400000x1_S400000x128_1_0_n_n_0_1_1128 rfl rfl rfl rfl rfl rfl rfl edges r (fun p k => T (ix2 p k))
    (zeroTab (F := Ideal)) (colIdx edges r 1) (srcIdx edges r) (scaled T v) zeroTab_apply rfl rfl ht n k

variable (X : Dev nD → Valuation τ sig (Elt Ideal))

/-- The edge array as the first call leaves it. -/
abbrev edgesOf (c : Dev nD) : IVec ⟨3, ![9, 2, 400000]⟩ 32 := X c (Proc.devRef .tc main_arg9)

/-- The three relu'd tables before the aggregation stretch, by node type. -/
def H (c : Dev nD) : Fin 3 → Cert.Spec.Tab
  | ⟨0, _⟩ => fun n k => (WB4 X c (Proc.devRef .tc main_v469) : S50000x128.Idx → EReal) (ix2 n k)
  | ⟨1, _⟩ => fun n k => (WB4 X c (Proc.devRef .tc main_v470) : S50000x128.Idx → EReal) (ix2 n k)
  | ⟨2, _⟩ => fun n k => (WB4 X c (Proc.devRef .tc main_v471) : S50000x128.Idx → EReal) (ix2 n k)

theorem H_zero (c : Dev nD) : H X c 0 = fun n k => (WB4 X c (Proc.devRef .tc main_v469) : S50000x128.Idx → EReal) (ix2 n k) := rfl
theorem H_one (c : Dev nD) : H X c 1 = fun n k => (WB4 X c (Proc.devRef .tc main_v470) : S50000x128.Idx → EReal) (ix2 n k) := rfl
theorem H_two (c : Dev nD) : H X c 2 = fun n k => (WB4 X c (Proc.devRef .tc main_v471) : S50000x128.Idx → EReal) (ix2 n k) := rfl

/-- (B2b) The destination norms the second projection call reads: at (r, n, 0) the norm array at (r, n). -/
theorem v653_apply (c : Dev nD) (r : Fin 9) (n : Fin 50000) :
    (WB5 X c (Proc.devRef .tc main_v653) : S9x50000x1.Idx → EReal) (ix3 r n (0 : Fin 1))
      = (X c (Proc.devRef .tc main_v254) : S9x50000.Idx → EReal) (ix2 r n) := by
  show (StableHlo.after hostOps1_4 (WB4 X c) (Proc.devRef .tc main_v653) : S9x50000x1.Idx → EReal) (ix3 r n (0 : Fin 1)) = _
  rw [v653_eq (WB4 X c), at4_input X c (r := main_v254) (by decide)]
  exact broadcastInDim_apply _ bcast_S9x50000_S9x50000x1_0_1 _ (ix3 r n (0 : Fin 1)) (ix2 r n) (fun a => match a with
    | ⟨0, _⟩ => by show r.val = if (9 : ℕ) = 1 then 0 else r.val; rw [if_neg (by decide)]
    | ⟨1, _⟩ => by show n.val = if (50000 : ℕ) = 1 then 0 else n.val; rw [if_neg (by decide)])

/-- (B2c) The biases it reads: at (r, 0, q) the second layer's bias array at (r, q). -/
theorem v654_apply (c : Dev nD) (r : Fin 9) (q : Fin 128) :
    (WB5 X c (Proc.devRef .tc main_v654) : S9x1x128.Idx → EReal) (ix3 r (0 : Fin 1) q)
      = (X c (Proc.devRef .tc main_arg6) : S9x128.Idx → EReal) (ix2 r q) := by
  show (StableHlo.after hostOps1_4 (WB4 X c) (Proc.devRef .tc main_v654) : S9x1x128.Idx → EReal) (ix3 r (0 : Fin 1) q) = _
  rw [v654_eq (WB4 X c), at4_input X c (r := main_arg6) (by decide)]
  exact broadcastInDim_apply _ bcast_S9x128_S9x1x128_0_2 _ (ix3 r (0 : Fin 1) q) (ix2 r q) (fun a => match a with
    | ⟨0, _⟩ => by show r.val = if (9 : ℕ) = 1 then 0 else r.val; rw [if_neg (by decide)]
    | ⟨1, _⟩ => by show q.val = if (128 : ℕ) = 1 then 0 else q.val; rw [if_neg (by decide)])

end AtIndex

end Cert.KernelIdeal.Rd

end
-- ==== Proof.KI.ReadB2R0.lean ====
/-
  The second layer's aggregation stretch, relation 0: what the stretch leaves at the relation's aggregate, from any
  contents, as the aggregation of the relation's source table, row 0 of the source-norm array and the relation's two
  columns of the edge array; and slab 0 of the stacked array the second projection call reads, element by element, as
  the network's raw aggregate of relation 0 on the graph of the edge array.
-/
import proofs.«151568_j90031104458821_2_alg».proof.Proof.KI.ReadB2

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-- Relation 0's source-norm vector: row 0 of the norm array. -/
abbrev nsVec0 (A : Vec F S9x50000 .f32) : Vec F S50000 .f32 :=
  shapeCast S50000 (extractStridedSlice S1x50000 ![0, 0] A slices_S9x50000_S1x50000_0_0) shapeCasts_S1x50000_S50000
/-- Relation 0's source words, -/
abbrev endVec0_0 (E : Vec F S9x2x400000 .i32) : Vec F S400000 .i32 :=
  shapeCast S400000 (extractStridedSlice S1x1x400000 ![0, 0, 0] E slices_S9x2x400000_S1x1x400000_0_0_0) shapeCasts_S1x1x400000_S400000
/-- and its destination words. -/
abbrev endVec0_1 (E : Vec F S9x2x400000 .i32) : Vec F S400000 .i32 :=
  shapeCast S400000 (extractStridedSlice S1x1x400000 ![0, 1, 0] E slices_S9x2x400000_S1x1x400000_0_1_0) shapeCasts_S1x1x400000_S400000

variable (W : Valuation τ sig (Elt F))

set_option maxHeartbeats 40000000 in
/-- Relation 0's aggregate after the stretch, from any contents: the aggregation of the relation's relu'd source table,
    its source norms and its two edge columns as W holds them. -/
theorem agg2_0 :
    (StableHlo.after hostOps1_4 W (Proc.devRef .tc main_v490) : Vec F S50000x128 .f32)
      = aggArr (W (Proc.devRef .tc main_v469)) (nsVec0 (W (Proc.devRef .tc main_v244)))
          (endVec0_0 (W (Proc.devRef .tc main_arg9))) (endVec0_1 (W (Proc.devRef .tc main_arg9))) := by
  after_results_simp
  rfl

end Arrays

section AtIndex
open Cert.GraphOf Cert.GraphRead

/-- Relation 0's source-norm vector at node p is the norm array at (0, p). -/
theorem nsVec0_apply (A : Vec Ideal S9x50000 .f32) (p : Fin 50000) : nsVec0 A (ix1 p) = A (ix2 (0 : Fin 9) p) := by
  refine (shapeCast_1a_a_apply _ _ p).trans ?_
  exact extractStridedSlice_apply ![0, 0] A slices_S9x50000_S1x50000_0_0 (ix2 (0 : Fin 1) p) (ix2 (0 : Fin 9) p)
    (fun a => match a with
      | ⟨0, _⟩ => rfl
      | ⟨1, _⟩ => (Nat.zero_add _).symm)

/-- Its source words at edge e are the edge array at (0, 0, e), -/
theorem endVec0_0_apply (E : Vec Ideal S9x2x400000 .i32) (e : Fin 400000) :
    endVec0_0 E (ix1 e) = E (ix3 (0 : Fin 9) (0 : Fin 2) e) :=
  col_vec_apply E ![0, 0, 0] (0 : Fin 9) (0 : Fin 2) rfl rfl rfl slices_S9x2x400000_S1x1x400000_0_0_0 shapeCasts_S1x1x400000_S400000 e
/-- its destination words the edge array at (0, 1, e). -/
theorem endVec0_1_apply (E : Vec Ideal S9x2x400000 .i32) (e : Fin 400000) :
    endVec0_1 E (ix1 e) = E (ix3 (0 : Fin 9) (1 : Fin 2) e) :=
  col_vec_apply E ![0, 1, 0] (0 : Fin 9) (1 : Fin 2) rfl rfl rfl slices_S9x2x400000_S1x1x400000_0_1_0 shapeCasts_S1x1x400000_S400000 e

variable (X : Dev nD → Valuation τ sig (Elt Ideal))

/-- (B2a) Slab 0 of the stacked aggregates the second projection call reads: the network's raw aggregate of relation 0,
    over its source type's relu'd table, on the graph of the edge array — given that the norm array holds the graph's
    source norms. -/
theorem v652_r0_apply (c : Dev nD)
    (hNS : ∀ (r : Fin 9) (n : Fin 50000),
      (X c (Proc.devRef .tc main_v244) : S9x50000.Idx → EReal) (ix2 r n) = (graphOf (edgesOf X c)).ns r n)
    (n : Fin 50000) (k : Fin 128) :
    (WB5 X c (Proc.devRef .tc main_v652) : S9x50000x128.Idx → EReal) (ix3 (0 : Fin 9) n k)
      = Cert.Spec.agg (graphOf (edgesOf X c)) (H X c (0 : Fin 3)) (0 : Fin 9) n k := by
  show (StableHlo.after hostOps1_4 (WB4 X c) (Proc.devRef .tc main_v652) : S9x50000x128.Idx → EReal) (ix3 (0 : Fin 9) n k) = _
  rw [v652_eq (WB4 X c)]
  refine (Cert.Concat.concat9_3_apply _ _ _ _ _ _ _ _ _ _ (0 : Fin 9) n k).trans ?_
  show slabOf (StableHlo.after hostOps1_4 (WB4 X c) (Proc.devRef .tc main_v490)) (ix3 (0 : Fin 1) n k) = _
  rw [slabOf_apply, agg2_0 (WB4 X c)]
  refine aggArr_apply (edgesOf X c) (0 : Fin 9) (WB4 X c (Proc.devRef .tc main_v469)) _ _ _ (fun e => ?_) (fun e => ?_) (fun p => ?_) n k
  · rw [at4_input X c (r := main_arg9) (by decide)]; exact endVec0_0_apply _ e
  · rw [at4_input X c (r := main_arg9) (by decide)]; exact endVec0_1_apply _ e
  · rw [at4_input X c (r := main_v244) (by decide), nsVec0_apply]; exact hNS (0 : Fin 9) p

end AtIndex

end Cert.KernelIdeal.Rd

end
-- ==== Proof.KI.ReadB2R1.lean ====
/-
  The second layer's aggregation stretch, relation 1: what the stretch leaves at the relation's aggregate, from any
  contents, as the aggregation of the relation's source table, row 1 of the source-norm array and the relation's two
  columns of the edge array; and slab 1 of the stacked array the second projection call reads, element by element, as
  the network's raw aggregate of relation 1 on the graph of the edge array.
-/
import proofs.«151568_j90031104458821_2_alg».proof.Proof.KI.ReadB2

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-- Relation 1's source-norm vector: row 1 of the norm array. -/
abbrev nsVec1 (A : Vec F S9x50000 .f32) : Vec F S50000 .f32 :=
  shapeCast S50000 (extractStridedSlice S1x50000 ![1, 0] A slices_S9x50000_S1x50000_1_0) shapeCasts_S1x50000_S50000
/-- Relation 1's source words, -/
abbrev endVec1_0 (E : Vec F S9x2x400000 .i32) : Vec F S400000 .i32 :=
  shapeCast S400000 (extractStridedSlice S1x1x400000 ![1, 0, 0] E slices_S9x2x400000_S1x1x400000_1_0_0) shapeCasts_S1x1x400000_S400000
/-- and its destination words. -/
abbrev endVec1_1 (E : Vec F S9x2x400000 .i32) : Vec F S400000 .i32 :=
  shapeCast S400000 (extractStridedSlice S1x1x400000 ![1, 1, 0] E slices_S9x2x400000_S1x1x400000_1_1_0) shapeCasts_S1x1x400000_S400000

variable (W : Valuation τ sig (Elt F))

set_option maxHeartbeats 40000000 in
/-- Relation 1's aggregate after the stretch, from any contents: the aggregation of the relation's relu'd source table,
    its source norms and its two edge columns as W holds them. -/
theorem agg2_1 :
    (StableHlo.after hostOps1_4 W (Proc.devRef .tc main_v509) : Vec F S50000x128 .f32)
      = aggArr (W (Proc.devRef .tc main_v470)) (nsVec1 (W (Proc.devRef .tc main_v244)))
          (endVec1_0 (W (Proc.devRef .tc main_arg9))) (endVec1_1 (W (Proc.devRef .tc main_arg9))) := by
  after_results_simp
  rfl

end Arrays

section AtIndex
open Cert.GraphOf Cert.GraphRead

/-- Relation 1's source-norm vector at node p is the norm array at (1, p). -/
theorem nsVec1_apply (A : Vec Ideal S9x50000 .f32) (p : Fin 50000) : nsVec1 A (ix1 p) = A (ix2 (1 : Fin 9) p) := by
  refine (shapeCast_1a_a_apply _ _ p).trans ?_
  exact extractStridedSlice_apply ![1, 0] A slices_S9x50000_S1x50000_1_0 (ix2 (0 : Fin 1) p) (ix2 (1 : Fin 9) p)
    (fun a => match a with
      | ⟨0, _⟩ => rfl
      | ⟨1, _⟩ => (Nat.zero_add _).symm)

/-- Its source words at edge e are the edge array at (1, 0, e), -/
theorem endVec1_0_apply (E : Vec Ideal S9x2x400000 .i32) (e : Fin 400000) :
    endVec1_0 E (ix1 e) = E (ix3 (1 : Fin 9) (0 : Fin 2) e) :=
  col_vec_apply E ![1, 0, 0] (1 : Fin 9) (0 : Fin 2) rfl rfl rfl slices_S9x2x400000_S1x1x400000_1_0_0 shapeCasts_S1x1x400000_S400000 e
/-- its destination words the edge array at (1, 1, e). -/
theorem endVec1_1_apply (E : Vec Ideal S9x2x400000 .i32) (e : Fin 400000) :
    endVec1_1 E (ix1 e) = E (ix3 (1 : Fin 9) (1 : Fin 2) e) :=
  col_vec_apply E ![1, 1, 0] (1 : Fin 9) (1 : Fin 2) rfl rfl rfl slices_S9x2x400000_S1x1x400000_1_1_0 shapeCasts_S1x1x400000_S400000 e

variable (X : Dev nD → Valuation τ sig (Elt Ideal))

/-- (B2a) Slab 1 of the stacked aggregates the second projection call reads: the network's raw aggregate of relation 1,
    over its source type's relu'd table, on the graph of the edge array — given that the norm array holds the graph's
    source norms. -/
theorem v652_r1_apply (c : Dev nD)
    (hNS : ∀ (r : Fin 9) (n : Fin 50000),
      (X c (Proc.devRef .tc main_v244) : S9x50000.Idx → EReal) (ix2 r n) = (graphOf (edgesOf X c)).ns r n)
    (n : Fin 50000) (k : Fin 128) :
    (WB5 X c (Proc.devRef .tc main_v652) : S9x50000x128.Idx → EReal) (ix3 (1 : Fin 9) n k)
      = Cert.Spec.agg (graphOf (edgesOf X c)) (H X c (1 : Fin 3)) (1 : Fin 9) n k := by
  show (StableHlo.after hostOps1_4 (WB4 X c) (Proc.devRef .tc main_v652) : S9x50000x128.Idx → EReal) (ix3 (1 : Fin 9) n k) = _
  rw [v652_eq (WB4 X c)]
  refine (Cert.Concat.concat9_3_apply _ _ _ _ _ _ _ _ _ _ (1 : Fin 9) n k).trans ?_
  show slabOf (StableHlo.after hostOps1_4 (WB4 X c) (Proc.devRef .tc main_v509)) (ix3 (0 : Fin 1) n k) = _
  rw [slabOf_apply, agg2_1 (WB4 X c)]
  refine aggArr_apply (edgesOf X c) (1 : Fin 9) (WB4 X c (Proc.devRef .tc main_v470)) _ _ _ (fun e => ?_) (fun e => ?_) (fun p => ?_) n k
  · rw [at4_input X c (r := main_arg9) (by decide)]; exact endVec1_0_apply _ e
  · rw [at4_input X c (r := main_arg9) (by decide)]; exact endVec1_1_apply _ e
  · rw [at4_input X c (r := main_v244) (by decide), nsVec1_apply]; exact hNS (1 : Fin 9) p

end AtIndex

end Cert.KernelIdeal.Rd

end
-- ==== Proof.KI.ReadB2R2.lean ====
/-
  The second layer's aggregation stretch, relation 2: what the stretch leaves at the relation's aggregate, from any
  contents, as the aggregation of the relation's source table, row 2 of the source-norm array and the relation's two
  columns of the edge array; and slab 2 of the stacked array the second projection call reads, element by element, as
  the network's raw aggregate of relation 2 on the graph of the edge array.
-/
import proofs.«151568_j90031104458821_2_alg».proof.Proof.KI.ReadB2

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-- Relation 2's source-norm vector: row 2 of the norm array. -/
abbrev nsVec2 (A : Vec F S9x50000 .f32) : Vec F S50000 .f32 :=
  shapeCast S50000 (extractStridedSlice S1x50000 ![2, 0] A slices_S9x50000_S1x50000_2_0) shapeCasts_S1x50000_S50000
/-- Relation 2's source words, -/
abbrev endVec2_0 (E : Vec F S9x2x400000 .i32) : Vec F S400000 .i32 :=
  shapeCast S400000 (extractStridedSlice S1x1x400000 ![2, 0, 0] E slices_S9x2x400000_S1x1x400000_2_0_0) shapeCasts_S1x1x400000_S400000
/-- and its destination words. -/
abbrev endVec2_1 (E : Vec F S9x2x400000 .i32) : Vec F S400000 .i32 :=
  shapeCast S400000 (extractStridedSlice S1x1x400000 ![2, 1, 0] E slices_S9x2x400000_S1x1x400000_2_1_0) shapeCasts_S1x1x400000_S400000

variable (W : Valuation τ sig (Elt F))

set_option maxHeartbeats 40000000 in
/-- Relation 2's aggregate after the stretch, from any contents: the aggregation of the relation's relu'd source table,
    its source norms and its two edge columns as W holds them. -/
theorem agg2_2 :
    (StableHlo.after hostOps1_4 W (Proc.devRef .tc main_v528) : Vec F S50000x128 .f32)
      = aggArr (W (Proc.devRef .tc main_v470)) (nsVec2 (W (Proc.devRef .tc main_v244)))
          (endVec2_0 (W (Proc.devRef .tc main_arg9))) (endVec2_1 (W (Proc.devRef .tc main_arg9))) := by
  after_results_simp
  rfl

end Arrays

section AtIndex
open Cert.GraphOf Cert.GraphRead

/-- Relation 2's source-norm vector at node p is the norm array at (2, p). -/
theorem nsVec2_apply (A : Vec Ideal S9x50000 .f32) (p : Fin 50000) : nsVec2 A (ix1 p) = A (ix2 (2 : Fin 9) p) := by
  refine (shapeCast_1a_a_apply _ _ p).trans ?_
  exact extractStridedSlice_apply ![2, 0] A slices_S9x50000_S1x50000_2_0 (ix2 (0 : Fin 1) p) (ix2 (2 : Fin 9) p)
    (fun a => match a with
      | ⟨0, _⟩ => rfl
      | ⟨1, _⟩ => (Nat.zero_add _).symm)

/-- Its source words at edge e are the edge array at (2, 0, e), -/
theorem endVec2_0_apply (E : Vec Ideal S9x2x400000 .i32) (e : Fin 400000) :
    endVec2_0 E (ix1 e) = E (ix3 (2 : Fin 9) (0 : Fin 2) e) :=
  col_vec_apply E ![2, 0, 0] (2 : Fin 9) (0 : Fin 2) rfl rfl rfl slices_S9x2x400000_S1x1x400000_2_0_0 shapeCasts_S1x1x400000_S400000 e
/-- its destination words the edge array at (2, 1, e). -/
theorem endVec2_1_apply (E : Vec Ideal S9x2x400000 .i32) (e : Fin 400000) :
    endVec2_1 E (ix1 e) = E (ix3 (2 : Fin 9) (1 : Fin 2) e) :=
  col_vec_apply E ![2, 1, 0] (2 : Fin 9) (1 : Fin 2) rfl rfl rfl slices_S9x2x400000_S1x1x400000_2_1_0 shapeCasts_S1x1x400000_S400000 e

variable (X : Dev nD → Valuation τ sig (Elt Ideal))

/-- (B2a) Slab 2 of the stacked aggregates the second projection call reads: the network's raw aggregate of relation 2,
    over its source type's relu'd table, on the graph of the edge array — given that the norm array holds the graph's
    source norms. -/
theorem v652_r2_apply (c : Dev nD)
    (hNS : ∀ (r : Fin 9) (n : Fin 50000),
      (X c (Proc.devRef .tc main_v244) : S9x50000.Idx → EReal) (ix2 r n) = (graphOf (edgesOf X c)).ns r n)
    (n : Fin 50000) (k : Fin 128) :
    (WB5 X c (Proc.devRef .tc main_v652) : S9x50000x128.Idx → EReal) (ix3 (2 : Fin 9) n k)
      = Cert.Spec.agg (graphOf (edgesOf X c)) (H X c (1 : Fin 3)) (2 : Fin 9) n k := by
  show (StableHlo.after hostOps1_4 (WB4 X c) (Proc.devRef .tc main_v652) : S9x50000x128.Idx → EReal) (ix3 (2 : Fin 9) n k) = _
  rw [v652_eq (WB4 X c)]
  refine (Cert.Concat.concat9_3_apply _ _ _ _ _ _ _ _ _ _ (2 : Fin 9) n k).trans ?_
  show slabOf (StableHlo.after hostOps1_4 (WB4 X c) (Proc.devRef .tc main_v528)) (ix3 (0 : Fin 1) n k) = _
  rw [slabOf_apply, agg2_2 (WB4 X c)]
  refine aggArr_apply (edgesOf X c) (2 : Fin 9) (WB4 X c (Proc.devRef .tc main_v470)) _ _ _ (fun e => ?_) (fun e => ?_) (fun p => ?_) n k
  · rw [at4_input X c (r := main_arg9) (by decide)]; exact endVec2_0_apply _ e
  · rw [at4_input X c (r := main_arg9) (by decide)]; exact endVec2_1_apply _ e
  · rw [at4_input X c (r := main_v244) (by decide), nsVec2_apply]; exact hNS (2 : Fin 9) p

end AtIndex

end Cert.KernelIdeal.Rd

end
-- ==== Proof.KI.ReadB2R3.lean ====
/-
  The second layer's aggregation stretch, relation 3: what the stretch leaves at the relation's aggregate, from any
  contents, as the aggregation of the relation's source table, row 3 of the source-norm array and the relation's two
  columns of the edge array; and slab 3 of the stacked array the second projection call reads, element by element, as
  the network's raw aggregate of relation 3 on the graph of the edge array.
-/
import proofs.«151568_j90031104458821_2_alg».proof.Proof.KI.ReadB2

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-- Relation 3's source-norm vector: row 3 of the norm array. -/
abbrev nsVec3 (A : Vec F S9x50000 .f32) : Vec F S50000 .f32 :=
  shapeCast S50000 (extractStridedSlice S1x50000 ![3, 0] A slices_S9x50000_S1x50000_3_0) shapeCasts_S1x50000_S50000
/-- Relation 3's source words, -/
abbrev endVec3_0 (E : Vec F S9x2x400000 .i32) : Vec F S400000 .i32 :=
  shapeCast S400000 (extractStridedSlice S1x1x400000 ![3, 0, 0] E slices_S9x2x400000_S1x1x400000_3_0_0) shapeCasts_S1x1x400000_S400000
/-- and its destination words. -/
abbrev endVec3_1 (E : Vec F S9x2x400000 .i32) : Vec F S400000 .i32 :=
  shapeCast S400000 (extractStridedSlice S1x1x400000 ![3, 1, 0] E slices_S9x2x400000_S1x1x400000_3_1_0) shapeCasts_S1x1x400000_S400000

variable (W : Valuation τ sig (Elt F))

set_option maxHeartbeats 40000000 in
/-- Relation 3's aggregate after the stretch, from any contents: the aggregation of the relation's relu'd source table,
    its source norms and its two edge columns as W holds them. -/
theorem agg2_3 :
    (StableHlo.after hostOps1_4 W (Proc.devRef .tc main_v547) : Vec F S50000x128 .f32)
      = aggArr (W (Proc.devRef .tc main_v469)) (nsVec3 (W (Proc.devRef .tc main_v244)))
          (endVec3_0 (W (Proc.devRef .tc main_arg9))) (endVec3_1 (W (Proc.devRef .tc main_arg9))) := by
  after_results_simp
  rfl

end Arrays

section AtIndex
open Cert.GraphOf Cert.GraphRead

/-- Relation 3's source-norm vector at node p is the norm array at (3, p). -/
theorem nsVec3_apply (A : Vec Ideal S9x50000 .f32) (p : Fin 50000) : nsVec3 A (ix1 p) = A (ix2 (3 : Fin 9) p) := by
  refine (shapeCast_1a_a_apply _ _ p).trans ?_
  exact extractStridedSlice_apply ![3, 0] A slices_S9x50000_S1x50000_3_0 (ix2 (0 : Fin 1) p) (ix2 (3 : Fin 9) p)
    (fun a => match a with
      | ⟨0, _⟩ => rfl
      | ⟨1, _⟩ => (Nat.zero_add _).symm)

/-- Its source words at edge e are the edge array at (3, 0, e), -/
theorem endVec3_0_apply (E : Vec Ideal S9x2x400000 .i32) (e : Fin 400000) :
    endVec3_0 E (ix1 e) = E (ix3 (3 : Fin 9) (0 : Fin 2) e) :=
  col_vec_apply E ![3, 0, 0] (3 : Fin 9) (0 : Fin 2) rfl rfl rfl slices_S9x2x400000_S1x1x400000_3_0_0 shapeCasts_S1x1x400000_S400000 e
/-- its destination words the edge array at (3, 1, e). -/
theorem endVec3_1_apply (E : Vec Ideal S9x2x400000 .i32) (e : Fin 400000) :
    endVec3_1 E (ix1 e) = E (ix3 (3 : Fin 9) (1 : Fin 2) e) :=
  col_vec_apply E ![3, 1, 0] (3 : Fin 9) (1 : Fin 2) rfl rfl rfl slices_S9x2x400000_S1x1x400000_3_1_0 shapeCasts_S1x1x400000_S400000 e

variable (X : Dev nD → Valuation τ sig (Elt Ideal))

/-- (B2a) Slab 3 of the stacked aggregates the second projection call reads: the network's raw aggregate of relation 3,
    over its source type's relu'd table, on the graph of the edge array — given that the norm array holds the graph's
    source norms. -/
theorem v652_r3_apply (c : Dev nD)
    (hNS : ∀ (r : Fin 9) (n : Fin 50000),
      (X c (Proc.devRef .tc main_v244) : S9x50000.Idx → EReal) (ix2 r n) = (graphOf (edgesOf X c)).ns r n)
    (n : Fin 50000) (k : Fin 128) :
    (WB5 X c (Proc.devRef .tc main_v652) : S9x50000x128.Idx → EReal) (ix3 (3 : Fin 9) n k)
      = Cert.Spec.agg (graphOf (edgesOf X c)) (H X c (0 : Fin 3)) (3 : Fin 9) n k := by
  show (StableHlo.after hostOps1_4 (WB4 X c) (Proc.devRef .tc main_v652) : S9x50000x128.Idx → EReal) (ix3 (3 : Fin 9) n k) = _
  rw [v652_eq (WB4 X c)]
  refine (Cert.Concat.concat9_3_apply _ _ _ _ _ _ _ _ _ _ (3 : Fin 9) n k).trans ?_
  show slabOf (StableHlo.after hostOps1_4 (WB4 X c) (Proc.devRef .tc main_v547)) (ix3 (0 : Fin 1) n k) = _
  rw [slabOf_apply, agg2_3 (WB4 X c)]
  refine aggArr_apply (edgesOf X c) (3 : Fin 9) (WB4 X c (Proc.devRef .tc main_v469)) _ _ _ (fun e => ?_) (fun e => ?_) (fun p => ?_) n k
  · rw [at4_input X c (r := main_arg9) (by decide)]; exact endVec3_0_apply _ e
  · rw [at4_input X c (r := main_arg9) (by decide)]; exact endVec3_1_apply _ e
  · rw [at4_input X c (r := main_v244) (by decide), nsVec3_apply]; exact hNS (3 : Fin 9) p

end AtIndex

end Cert.KernelIdeal.Rd

end
-- ==== Proof.KI.ReadB2R4.lean ====
/-
  The second layer's aggregation stretch, relation 4: what the stretch leaves at the relation's aggregate, from any
  contents, as the aggregation of the relation's source table, row 4 of the source-norm array and the relation's two
  columns of the edge array; and slab 4 of the stacked array the second projection call reads, element by element, as
  the network's raw aggregate of relation 4 on the graph of the edge array.
-/
import proofs.«151568_j90031104458821_2_alg».proof.Proof.KI.ReadB2

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-- Relation 4's source-norm vector: row 4 of the norm array. -/
abbrev nsVec4 (A : Vec F S9x50000 .f32) : Vec F S50000 .f32 :=
  shapeCast S50000 (extractStridedSlice S1x50000 ![4, 0] A slices_S9x50000_S1x50000_4_0) shapeCasts_S1x50000_S50000
/-- Relation 4's source words, -/
abbrev endVec4_0 (E : Vec F S9x2x400000 .i32) : Vec F S400000 .i32 :=
  shapeCast S400000 (extractStridedSlice S1x1x400000 ![4, 0, 0] E slices_S9x2x400000_S1x1x400000_4_0_0) shapeCasts_S1x1x400000_S400000
/-- and its destination words. -/
abbrev endVec4_1 (E : Vec F S9x2x400000 .i32) : Vec F S400000 .i32 :=
  shapeCast S400000 (extractStridedSlice S1x1x400000 ![4, 1, 0] E slices_S9x2x400000_S1x1x400000_4_1_0) shapeCasts_S1x1x400000_S400000

variable (W : Valuation τ sig (Elt F))

set_option maxHeartbeats 40000000 in
/-- Relation 4's aggregate after the stretch, from any contents: the aggregation of the relation's relu'd source table,
    its source norms and its two edge columns as W holds them. -/
theorem agg2_4 :
    (StableHlo.after hostOps1_4 W (Proc.devRef .tc main_v566) : Vec F S50000x128 .f32)
      = aggArr (W (Proc.devRef .tc main_v471)) (nsVec4 (W (Proc.devRef .tc main_v244)))
          (endVec4_0 (W (Proc.devRef .tc main_arg9))) (endVec4_1 (W (Proc.devRef .tc main_arg9))) := by
  after_results_simp
  rfl

end Arrays

section AtIndex
open Cert.GraphOf Cert.GraphRead

/-- Relation 4's source-norm vector at node p is the norm array at (4, p). -/
theorem nsVec4_apply (A : Vec Ideal S9x50000 .f32) (p : Fin 50000) : nsVec4 A (ix1 p) = A (ix2 (4 : Fin 9) p) := by
  refine (shapeCast_1a_a_apply _ _ p).trans ?_
  exact extractStridedSlice_apply ![4, 0] A slices_S9x50000_S1x50000_4_0 (ix2 (0 : Fin 1) p) (ix2 (4 : Fin 9) p)
    (fun a => match a with
      | ⟨0, _⟩ => rfl
      | ⟨1, _⟩ => (Nat.zero_add _).symm)

/-- Its source words at edge e are the edge array at (4, 0, e), -/
theorem endVec4_0_apply (E : Vec Ideal S9x2x400000 .i32) (e : Fin 400000) :
    endVec4_0 E (ix1 e) = E (ix3 (4 : Fin 9) (0 : Fin 2) e) :=
  col_vec_apply E ![4, 0, 0] (4 : Fin 9) (0 : Fin 2) rfl rfl rfl slices_S9x2x400000_S1x1x400000_4_0_0 shapeCasts_S1x1x400000_S400000 e
/-- its destination words the edge array at (4, 1, e). -/
theorem endVec4_1_apply (E : Vec Ideal S9x2x400000 .i32) (e : Fin 400000) :
    endVec4_1 E (ix1 e) = E (ix3 (4 : Fin 9) (1 : Fin 2) e) :=
  col_vec_apply E ![4, 1, 0] (4 : Fin 9) (1 : Fin 2) rfl rfl rfl slices_S9x2x400000_S1x1x400000_4_1_0 shapeCasts_S1x1x400000_S400000 e

variable (X : Dev nD → Valuation τ sig (Elt Ideal))

/-- (B2a) Slab 4 of the stacked aggregates the second projection call reads: the network's raw aggregate of relation 4,
    over its source type's relu'd table, on the graph of the edge array — given that the norm array holds the graph's
    source norms. -/
theorem v652_r4_apply (c : Dev nD)
    (hNS : ∀ (r : Fin 9) (n : Fin 50000),
      (X c (Proc.devRef .tc main_v244) : S9x50000.Idx → EReal) (ix2 r n) = (graphOf (edgesOf X c)).ns r n)
    (n : Fin 50000) (k : Fin 128) :
    (WB5 X c (Proc.devRef .tc main_v652) : S9x50000x128.Idx → EReal) (ix3 (4 : Fin 9) n k)
      = Cert.Spec.agg (graphOf (edgesOf X c)) (H X c (2 : Fin 3)) (4 : Fin 9) n k := by
  show (StableHlo.after hostOps1_4 (WB4 X c) (Proc.devRef .tc main_v652) : S9x50000x128.Idx → EReal) (ix3 (4 : Fin 9) n k) = _
  rw [v652_eq (WB4 X c)]
  refine (Cert.Concat.concat9_3_apply _ _ _ _ _ _ _ _ _ _ (4 : Fin 9) n k).trans ?_
  show slabOf (StableHlo.after hostOps1_4 (WB4 X c) (Proc.devRef .tc main_v566)) (ix3 (0 : Fin 1) n k) = _
  rw [slabOf_apply, agg2_4 (WB4 X c)]
  refine aggArr_apply (edgesOf X c) (4 : Fin 9) (WB4 X c (Proc.devRef .tc main_v471)) _ _ _ (fun e => ?_) (fun e => ?_) (fun p => ?_) n k
  · rw [at4_input X c (r := main_arg9) (by decide)]; exact endVec4_0_apply _ e
  · rw [at4_input X c (r := main_arg9) (by decide)]; exact endVec4_1_apply _ e
  · rw [at4_input X c (r := main_v244) (by decide), nsVec4_apply]; exact hNS (4 : Fin 9) p

end AtIndex

end Cert.KernelIdeal.Rd

end
-- ==== Proof.KI.ReadB2R5.lean ====
/-
  The second layer's aggregation stretch, relation 5: what the stretch leaves at the relation's aggregate, from any
  contents, as the aggregation of the relation's source table, row 5 of the source-norm array and the relation's two
  columns of the edge array; and slab 5 of the stacked array the second projection call reads, element by element, as
  the network's raw aggregate of relation 5 on the graph of the edge array.
-/
import proofs.«151568_j90031104458821_2_alg».proof.Proof.KI.ReadB2

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-- Relation 5's source-norm vector: row 5 of the norm array. -/
abbrev nsVec5 (A : Vec F S9x50000 .f32) : Vec F S50000 .f32 :=
  shapeCast S50000 (extractStridedSlice S1x50000 ![5, 0] A slices_S9x50000_S1x50000_5_0) shapeCasts_S1x50000_S50000
/-- Relation 5's source words, -/
abbrev endVec5_0 (E : Vec F S9x2x400000 .i32) : Vec F S400000 .i32 :=
  shapeCast S400000 (extractStridedSlice S1x1x400000 ![5, 0, 0] E slices_S9x2x400000_S1x1x400000_5_0_0) shapeCasts_S1x1x400000_S400000
/-- and its destination words. -/
abbrev endVec5_1 (E : Vec F S9x2x400000 .i32) : Vec F S400000 .i32 :=
  shapeCast S400000 (extractStridedSlice S1x1x400000 ![5, 1, 0] E slices_S9x2x400000_S1x1x400000_5_1_0) shapeCasts_S1x1x400000_S400000

variable (W : Valuation τ sig (Elt F))

set_option maxHeartbeats 40000000 in
/-- Relation 5's aggregate after the stretch, from any contents: the aggregation of the relation's relu'd source table,
    its source norms and its two edge columns as W holds them. -/
theorem agg2_5 :
    (StableHlo.after hostOps1_4 W (Proc.devRef .tc main_v585) : Vec F S50000x128 .f32)
      = aggArr (W (Proc.devRef .tc main_v471)) (nsVec5 (W (Proc.devRef .tc main_v244)))
          (endVec5_0 (W (Proc.devRef .tc main_arg9))) (endVec5_1 (W (Proc.devRef .tc main_arg9))) := by
  after_results_simp
  rfl

end Arrays

section AtIndex
open Cert.GraphOf Cert.GraphRead

/-- Relation 5's source-norm vector at node p is the norm array at (5, p). -/
theorem nsVec5_apply (A : Vec Ideal S9x50000 .f32) (p : Fin 50000) : nsVec5 A (ix1 p) = A (ix2 (5 : Fin 9) p) := by
  refine (shapeCast_1a_a_apply _ _ p).trans ?_
  exact extractStridedSlice_apply ![5, 0] A slices_S9x50000_S1x50000_5_0 (ix2 (0 : Fin 1) p) (ix2 (5 : Fin 9) p)
    (fun a => match a with
      | ⟨0, _⟩ => rfl
      | ⟨1, _⟩ => (Nat.zero_add _).symm)

/-- Its source words at edge e are the edge array at (5, 0, e), -/
theorem endVec5_0_apply (E : Vec Ideal S9x2x400000 .i32) (e : Fin 400000) :
    endVec5_0 E (ix1 e) = E (ix3 (5 : Fin 9) (0 : Fin 2) e) :=
  col_vec_apply E ![5, 0, 0] (5 : Fin 9) (0 : Fin 2) rfl rfl rfl slices_S9x2x400000_S1x1x400000_5_0_0 shapeCasts_S1x1x400000_S400000 e
/-- its destination words the edge array at (5, 1, e). -/
theorem endVec5_1_apply (E : Vec Ideal S9x2x400000 .i32) (e : Fin 400000) :
    endVec5_1 E (ix1 e) = E (ix3 (5 : Fin 9) (1 : Fin 2) e) :=
  col_vec_apply E ![5, 1, 0] (5 : Fin 9) (1 : Fin 2) rfl rfl rfl slices_S9x2x400000_S1x1x400000_5_1_0 shapeCasts_S1x1x400000_S400000 e

variable (X : Dev nD → Valuation τ sig (Elt Ideal))

/-- (B2a) Slab 5 of the stacked aggregates the second projection call reads: the network's raw aggregate of relation 5,
    over its source type's relu'd table, on the graph of the edge array — given that the norm array holds the graph's
    source norms. -/
theorem v652_r5_apply (c : Dev nD)
    (hNS : ∀ (r : Fin 9) (n : Fin 50000),
      (X c (Proc.devRef .tc main_v244) : S9x50000.Idx → EReal) (ix2 r n) = (graphOf (edgesOf X c)).ns r n)
    (n : Fin 50000) (k : Fin 128) :
    (WB5 X c (Proc.devRef .tc main_v652) : S9x50000x128.Idx → EReal) (ix3 (5 : Fin 9) n k)
      = Cert.Spec.agg (graphOf (edgesOf X c)) (H X c (2 : Fin 3)) (5 : Fin 9) n k := by
  show (StableHlo.after hostOps1_4 (WB4 X c) (Proc.devRef .tc main_v652) : S9x50000x128.Idx → EReal) (ix3 (5 : Fin 9) n k) = _
  rw [v652_eq (WB4 X c)]
  refine (Cert.Concat.concat9_3_apply _ _ _ _ _ _ _ _ _ _ (5 : Fin 9) n k).trans ?_
  show slabOf (StableHlo.after hostOps1_4 (WB4 X c) (Proc.devRef .tc main_v585)) (ix3 (0 : Fin 1) n k) = _
  rw [slabOf_apply, agg2_5 (WB4 X c)]
  refine aggArr_apply (edgesOf X c) (5 : Fin 9) (WB4 X c (Proc.devRef .tc main_v471)) _ _ _ (fun e => ?_) (fun e => ?_) (fun p => ?_) n k
  · rw [at4_input X c (r := main_arg9) (by decide)]; exact endVec5_0_apply _ e
  · rw [at4_input X c (r := main_arg9) (by decide)]; exact endVec5_1_apply _ e
  · rw [at4_input X c (r := main_v244) (by decide), nsVec5_apply]; exact hNS (5 : Fin 9) p

end AtIndex

end Cert.KernelIdeal.Rd

end
-- ==== Proof.KI.ReadB2R6.lean ====
/-
  The second layer's aggregation stretch, relation 6: what the stretch leaves at the relation's aggregate, from any
  contents, as the aggregation of the relation's source table, row 6 of the source-norm array and the relation's two
  columns of the edge array; and slab 6 of the stacked array the second projection call reads, element by element, as
  the network's raw aggregate of relation 6 on the graph of the edge array.
-/
import proofs.«151568_j90031104458821_2_alg».proof.Proof.KI.ReadB2

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-- Relation 6's source-norm vector: row 6 of the norm array. -/
abbrev nsVec6 (A : Vec F S9x50000 .f32) : Vec F S50000 .f32 :=
  shapeCast S50000 (extractStridedSlice S1x50000 ![6, 0] A slices_S9x50000_S1x50000_6_0) shapeCasts_S1x50000_S50000
/-- Relation 6's source words, -/
abbrev endVec6_0 (E : Vec F S9x2x400000 .i32) : Vec F S400000 .i32 :=
  shapeCast S400000 (extractStridedSlice S1x1x400000 ![6, 0, 0] E slices_S9x2x400000_S1x1x400000_6_0_0) shapeCasts_S1x1x400000_S400000
/-- and its destination words. -/
abbrev endVec6_1 (E : Vec F S9x2x400000 .i32) : Vec F S400000 .i32 :=
  shapeCast S400000 (extractStridedSlice S1x1x400000 ![6, 1, 0] E slices_S9x2x400000_S1x1x400000_6_1_0) shapeCasts_S1x1x400000_S400000

variable (W : Valuation τ sig (Elt F))

set_option maxHeartbeats 40000000 in
/-- Relation 6's aggregate after the stretch, from any contents: the aggregation of the relation's relu'd source table,
    its source norms and its two edge columns as W holds them. -/
theorem agg2_6 :
    (StableHlo.after hostOps1_4 W (Proc.devRef .tc main_v604) : Vec F S50000x128 .f32)
      = aggArr (W (Proc.devRef .tc main_v469)) (nsVec6 (W (Proc.devRef .tc main_v244)))
          (endVec6_0 (W (Proc.devRef .tc main_arg9))) (endVec6_1 (W (Proc.devRef .tc main_arg9))) := by
  after_results_simp
  rfl

end Arrays

section AtIndex
open Cert.GraphOf Cert.GraphRead

/-- Relation 6's source-norm vector at node p is the norm array at (6, p). -/
theorem nsVec6_apply (A : Vec Ideal S9x50000 .f32) (p : Fin 50000) : nsVec6 A (ix1 p) = A (ix2 (6 : Fin 9) p) := by
  refine (shapeCast_1a_a_apply _ _ p).trans ?_
  exact extractStridedSlice_apply ![6, 0] A slices_S9x50000_S1x50000_6_0 (ix2 (0 : Fin 1) p) (ix2 (6 : Fin 9) p)
    (fun a => match a with
      | ⟨0, _⟩ => rfl
      | ⟨1, _⟩ => (Nat.zero_add _).symm)

/-- Its source words at edge e are the edge array at (6, 0, e), -/
theorem endVec6_0_apply (E : Vec Ideal S9x2x400000 .i32) (e : Fin 400000) :
    endVec6_0 E (ix1 e) = E (ix3 (6 : Fin 9) (0 : Fin 2) e) :=
  col_vec_apply E ![6, 0, 0] (6 : Fin 9) (0 : Fin 2) rfl rfl rfl slices_S9x2x400000_S1x1x400000_6_0_0 shapeCasts_S1x1x400000_S400000 e
/-- its destination words the edge array at (6, 1, e). -/
theorem endVec6_1_apply (E : Vec Ideal S9x2x400000 .i32) (e : Fin 400000) :
    endVec6_1 E (ix1 e) = E (ix3 (6 : Fin 9) (1 : Fin 2) e) :=
  col_vec_apply E ![6, 1, 0] (6 : Fin 9) (1 : Fin 2) rfl rfl rfl slices_S9x2x400000_S1x1x400000_6_1_0 shapeCasts_S1x1x400000_S400000 e

variable (X : Dev nD → Valuation τ sig (Elt Ideal))

/-- (B2a) Slab 6 of the stacked aggregates the second projection call reads: the network's raw aggregate of relation 6,
    over its source type's relu'd table, on the graph of the edge array — given that the norm array holds the graph's
    source norms. -/
theorem v652_r6_apply (c : Dev nD)
    (hNS : ∀ (r : Fin 9) (n : Fin 50000),
      (X c (Proc.devRef .tc main_v244) : S9x50000.Idx → EReal) (ix2 r n) = (graphOf (edgesOf X c)).ns r n)
    (n : Fin 50000) (k : Fin 128) :
    (WB5 X c (Proc.devRef .tc main_v652) : S9x50000x128.Idx → EReal) (ix3 (6 : Fin 9) n k)
      = Cert.Spec.agg (graphOf (edgesOf X c)) (H X c (0 : Fin 3)) (6 : Fin 9) n k := by
  show (StableHlo.after hostOps1_4 (WB4 X c) (Proc.devRef .tc main_v652) : S9x50000x128.Idx → EReal) (ix3 (6 : Fin 9) n k) = _
  rw [v652_eq (WB4 X c)]
  refine (Cert.Concat.concat9_3_apply _ _ _ _ _ _ _ _ _ _ (6 : Fin 9) n k).trans ?_
  show slabOf (StableHlo.after hostOps1_4 (WB4 X c) (Proc.devRef .tc main_v604)) (ix3 (0 : Fin 1) n k) = _
  rw [slabOf_apply, agg2_6 (WB4 X c)]
  refine aggArr_apply (edgesOf X c) (6 : Fin 9) (WB4 X c (Proc.devRef .tc main_v469)) _ _ _ (fun e => ?_) (fun e => ?_) (fun p => ?_) n k
  · rw [at4_input X c (r := main_arg9) (by decide)]; exact endVec6_0_apply _ e
  · rw [at4_input X c (r := main_arg9) (by decide)]; exact endVec6_1_apply _ e
  · rw [at4_input X c (r := main_v244) (by decide), nsVec6_apply]; exact hNS (6 : Fin 9) p

end AtIndex

end Cert.KernelIdeal.Rd

end
-- ==== Proof.KI.ReadB2R7.lean ====
/-
  The second layer's aggregation stretch, relation 7: what the stretch leaves at the relation's aggregate, from any
  contents, as the aggregation of the relation's source table, row 7 of the source-norm array and the relation's two
  columns of the edge array; and slab 7 of the stacked array the second projection call reads, element by element, as
  the network's raw aggregate of relation 7 on the graph of the edge array.
-/
import proofs.«151568_j90031104458821_2_alg».proof.Proof.KI.ReadB2

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-- Relation 7's source-norm vector: row 7 of the norm array. -/
abbrev nsVec7 (A : Vec F S9x50000 .f32) : Vec F S50000 .f32 :=
  shapeCast S50000 (extractStridedSlice S1x50000 ![7, 0] A slices_S9x50000_S1x50000_7_0) shapeCasts_S1x50000_S50000
/-- Relation 7's source words, -/
abbrev endVec7_0 (E : Vec F S9x2x400000 .i32) : Vec F S400000 .i32 :=
  shapeCast S400000 (extractStridedSlice S1x1x400000 ![7, 0, 0] E slices_S9x2x400000_S1x1x400000_7_0_0) shapeCasts_S1x1x400000_S400000
/-- and its destination words. -/
abbrev endVec7_1 (E : Vec F S9x2x400000 .i32) : Vec F S400000 .i32 :=
  shapeCast S400000 (extractStridedSlice S1x1x400000 ![7, 1, 0] E slices_S9x2x400000_S1x1x400000_7_1_0) shapeCasts_S1x1x400000_S400000

variable (W : Valuation τ sig (Elt F))

set_option maxHeartbeats 40000000 in
/-- Relation 7's aggregate after the stretch, from any contents: the aggregation of the relation's relu'd source table,
    its source norms and its two edge columns as W holds them. -/
theorem agg2_7 :
    (StableHlo.after hostOps1_4 W (Proc.devRef .tc main_v623) : Vec F S50000x128 .f32)
      = aggArr (W (Proc.devRef .tc main_v471)) (nsVec7 (W (Proc.devRef .tc main_v244)))
          (endVec7_0 (W (Proc.devRef .tc main_arg9))) (endVec7_1 (W (Proc.devRef .tc main_arg9))) := by
  after_results_simp
  rfl

end Arrays

section AtIndex
open Cert.GraphOf Cert.GraphRead

/-- Relation 7's source-norm vector at node p is the norm array at (7, p). -/
theorem nsVec7_apply (A : Vec Ideal S9x50000 .f32) (p : Fin 50000) : nsVec7 A (ix1 p) = A (ix2 (7 : Fin 9) p) := by
  refine (shapeCast_1a_a_apply _ _ p).trans ?_
  exact extractStridedSlice_apply ![7, 0] A slices_S9x50000_S1x50000_7_0 (ix2 (0 : Fin 1) p) (ix2 (7 : Fin 9) p)
    (fun a => match a with
      | ⟨0, _⟩ => rfl
      | ⟨1, _⟩ => (Nat.zero_add _).symm)

/-- Its source words at edge e are the edge array at (7, 0, e), -/
theorem endVec7_0_apply (E : Vec Ideal S9x2x400000 .i32) (e : Fin 400000) :
    endVec7_0 E (ix1 e) = E (ix3 (7 : Fin 9) (0 : Fin 2) e) :=
  col_vec_apply E ![7, 0, 0] (7 : Fin 9) (0 : Fin 2) rfl rfl rfl slices_S9x2x400000_S1x1x400000_7_0_0 shapeCasts_S1x1x400000_S400000 e
/-- its destination words the edge array at (7, 1, e). -/
theorem endVec7_1_apply (E : Vec Ideal S9x2x400000 .i32) (e : Fin 400000) :
    endVec7_1 E (ix1 e) = E (ix3 (7 : Fin 9) (1 : Fin 2) e) :=
  col_vec_apply E ![7, 1, 0] (7 : Fin 9) (1 : Fin 2) rfl rfl rfl slices_S9x2x400000_S1x1x400000_7_1_0 shapeCasts_S1x1x400000_S400000 e

variable (X : Dev nD → Valuation τ sig (Elt Ideal))

/-- (B2a) Slab 7 of the stacked aggregates the second projection call reads: the network's raw aggregate of relation 7,
    over its source type's relu'd table, on the graph of the edge array — given that the norm array holds the graph's
    source norms. -/
theorem v652_r7_apply (c : Dev nD)
    (hNS : ∀ (r : Fin 9) (n : Fin 50000),
      (X c (Proc.devRef .tc main_v244) : S9x50000.Idx → EReal) (ix2 r n) = (graphOf (edgesOf X c)).ns r n)
    (n : Fin 50000) (k : Fin 128) :
    (WB5 X c (Proc.devRef .tc main_v652) : S9x50000x128.Idx → EReal) (ix3 (7 : Fin 9) n k)
      = Cert.Spec.agg (graphOf (edgesOf X c)) (H X c (2 : Fin 3)) (7 : Fin 9) n k := by
  show (StableHlo.after hostOps1_4 (WB4 X c) (Proc.devRef .tc main_v652) : S9x50000x128.Idx → EReal) (ix3 (7 : Fin 9) n k) = _
  rw [v652_eq (WB4 X c)]
  refine (Cert.Concat.concat9_3_apply _ _ _ _ _ _ _ _ _ _ (7 : Fin 9) n k).trans ?_
  show slabOf (StableHlo.after hostOps1_4 (WB4 X c) (Proc.devRef .tc main_v623)) (ix3 (0 : Fin 1) n k) = _
  rw [slabOf_apply, agg2_7 (WB4 X c)]
  refine aggArr_apply (edgesOf X c) (7 : Fin 9) (WB4 X c (Proc.devRef .tc main_v471)) _ _ _ (fun e => ?_) (fun e => ?_) (fun p => ?_) n k
  · rw [at4_input X c (r := main_arg9) (by decide)]; exact endVec7_0_apply _ e
  · rw [at4_input X c (r := main_arg9) (by decide)]; exact endVec7_1_apply _ e
  · rw [at4_input X c (r := main_v244) (by decide), nsVec7_apply]; exact hNS (7 : Fin 9) p

end AtIndex

end Cert.KernelIdeal.Rd

end
-- ==== Proof.KI.ReadB2R8.lean ====
/-
  The second layer's aggregation stretch, relation 8: what the stretch leaves at the relation's aggregate, from any
  contents, as the aggregation of the relation's source table, row 8 of the source-norm array and the relation's two
  columns of the edge array; and slab 8 of the stacked array the second projection call reads, element by element, as
  the network's raw aggregate of relation 8 on the graph of the edge array.
-/
import proofs.«151568_j90031104458821_2_alg».proof.Proof.KI.ReadB2

set_option maxRecDepth 16384

noncomputable section

namespace Cert.KernelIdeal.Rd

open Cert.KernelIdeal Cert.KernelIdeal.Gen Cert.KernelIdeal.Fr Idealize.ShloMosaic Idealize.ShloMosaic.StableHlo
open Idealize.ShloMosaic.ValueIdx Idealize.ShloMosaic.TcCoe

section Arrays
variable {F : FTy → Type} [FloatOps F]

/-- Relation 8's source-norm vector: row 8 of the norm array. -/
abbrev nsVec8 (A : Vec F S9x50000 .f32) : Vec F S50000 .f32 :=
  shapeCast S50000 (extractStridedSlice S1x50000 ![8, 0] A slices_S9x50000_S1x50000_8_0) shapeCasts_S1x50000_S50000
/-- Relation 8's source words, -/
abbrev endVec8_0 (E : Vec F S9x2x400000 .i32) : Vec F S400000 .i32 :=
  shapeCast S400000 (extractStridedSlice S1x1x400000 ![8, 0, 0] E slices_S9x2x400000_S1x1x400000_8_0_0) shapeCasts_S1x1x400000_S400000
/-- and its destination words. -/
abbrev endVec8_1 (E : Vec F S9x2x400000 .i32) : Vec F S400000 .i32 :=
  shapeCast S400000 (extractStridedSlice S1x1x400000 ![8, 1, 0] E slices_S9x2x400000_S1x1x400000_8_1_0) shapeCasts_S1x1x400000_S400000

variable (W : Valuation τ sig (Elt F))

set_option maxHeartbeats 40000000 in
/-- Relation 8's aggregate after the stretch, from any contents: the aggregation of the relation's relu'd source table,
    its source norms and its two edge columns as W holds them. -/
theorem agg2_8 :
    (StableHlo.after hostOps1_4 W (Proc.devRef .tc main_v642) : Vec F S50000x128 .f32)
      = aggArr (W (Proc.devRef .tc main_v470)) (nsVec8 (W (Proc.devRef .tc main_v244)))
          (endVec8_0 (W (Proc.devRef .tc main_arg9))) (endVec8_1 (W (Proc.devRef .tc main_arg9))) := by
  after_results_simp
  rfl

end Arrays

section AtIndex
open Cert.GraphOf Cert.GraphRead

/-- Relation 8's source-norm vector at node p is the norm array at (8, p). -/
theorem nsVec8_apply (A : Vec Ideal S9x50000 .f32) (p : Fin 50000) : nsVec8 A (ix1 p) = A (ix2 (8 : Fin 9) p) := by
  refine (shapeCast_1a_a_apply _ _ p).trans ?_
  exact extractStridedSlice_apply ![8, 0] A slices_S9x50000_S1x50000_8_0 (ix2 (0 : Fin 1) p) (ix2 (8 : Fin 9) p)
    (fun a => match a with
      | ⟨0, _⟩ => rfl
      | ⟨1, _⟩ => (Nat.zero_add _).symm)

/-- Its source words at edge e are the edge array at (8, 0, e), -/
theorem endVec8_0_apply (E : Vec Ideal S9x2x400000 .i32) (e : Fin 400000) :
    endVec8_0 E (ix1 e) = E (ix3 (8 : Fin 9) (0 : Fin 2) e) :=
  col_vec_apply E ![8, 0, 0] (8 : Fin 9) (0 : Fin 2) rfl rfl rfl slices_S9x2x400000_S1x1x400000_8_0_0 shapeCasts_S1x1x400000_S400000 e
/-- its destination words the edge array at (8, 1, e). -/
theorem endVec8_1_apply (E : Vec Ideal S9x2x400000 .i32) (e : Fin 400000) :
    endVec8_1 E (ix1 e) = E (ix3 (8 : Fin 9) (1 : Fin 2) e) :=
  col_vec_apply E ![8, 1, 0] (8 : Fin 9) (1 : Fin 2) rfl rfl rfl slices_S9x2x400000_S1x1x400000_8_1_0 shapeCasts_S1x1x400000_S400000 e

variable (X : Dev nD → Valuation τ sig (Elt Ideal))

/-- (B2a) Slab 8 of the stacked aggregates the second projection call reads: the network's raw aggregate of relation 8,
    over its source type's relu'd table, on the graph of the edge array — given that the norm array holds the graph's
    source norms. -/
theorem v652_r8_apply (c : Dev nD)
    (hNS : ∀ (r : Fin 9) (n : Fin 50000),
      (X c (Proc.devRef .tc main_v244) : S9x50000.Idx → EReal) (ix2 r n) = (graphOf (edgesOf X c)).ns r n)
    (n : Fin 50000) (k : Fin 128) :
    (WB5 X c (Proc.devRef .tc main_v652) : S9x50000x128.Idx → EReal) (ix3 (8 : Fin 9) n k)
      = Cert.Spec.agg (graphOf (edgesOf X c)) (H X c (1 : Fin 3)) (8 : Fin 9) n k := by
  show (StableHlo.after hostOps1_4 (WB4 X c) (Proc.devRef .tc main_v652) : S9x50000x128.Idx → EReal) (ix3 (8 : Fin 9) n k) = _
  rw [v652_eq (WB4 X c)]
  refine (Cert.Concat.concat9_3_apply _ _ _ _ _ _ _ _ _ _ (8 : Fin 9) n k).trans ?_
  show slabOf (StableHlo.after hostOps1_4 (WB4 X c) (Proc.devRef .tc main_v642)) (ix3 (0 : Fin 1) n k) = _
  rw [slabOf_apply, agg2_8 (WB4 X c)]
  refine aggArr_apply (edgesOf X c) (8 : Fin 9) (WB4 X c (Proc.devRef .tc main_v470)) _ _ _ (fun e => ?_) (fun e => ?_) (fun p => ?_) n k
  · rw [at4_input X c (r := main_arg9) (by decide)]; exact endVec8_0_apply _ e
  · rw [at4_input X c (r := main_arg9) (by decide)]; exact endVec8_1_apply _ e
  · rw [at4_input X c (r := main_v244) (by decide), nsVec8_apply]; exact hNS (8 : Fin 9) p

end AtIndex

end Cert.KernelIdeal.Rd

end
-- ==== Proof.KI.KOutA.lean ====
/-
  The kernel's result as the network, outright. What the three pallas_calls find in their arrays is what the host
  stretches before them compute, read off the launch memory: before call 0 the first layer's aggregates over the three
  feature tables, the graph's destination-side norms and the first layer's bias rows; between call 0 and call 1 the
  aggregates over the clamped sums of call 0's slabs, the same norms and the second layer's bias rows (the norm tables,
  the edge array and the bias array pass through call 0 untouched). With these the chain of the three calls ends at the
  network of Spec.lean on the graph of the launch memory's edge array.
-/
import proofs.«151568_j90031104458821_2_alg».proof.Proof.KI.KOut
import proofs.«151568_j90031104458821_2_alg».proof.Proof.KI.ReadAN
import proofs.«151568_j90031104458821_2_alg».proof.Proof.KI.ReadA0
import proofs.«151568_j90031104458821_2_alg».proof.Proof.KI.ReadA1
import proofs.«151568_j90031104458821_2_alg».proof.Proof.KI.ReadA2
import proofs.«151568_j90031104458821_2_alg».proof.Proof.KI.ReadA3
import proofs.«151568_j90031104458821_2_alg».proof.Proof.KI.ReadA4
import proofs.«151568_j90031104458821_2_alg».proof.Proof.KI.ReadA5
import proofs.«151568_j90031104458821_2_alg».proof.Proof.KI.ReadA6
import proofs.«151568_j90031104458821_2_alg».proof.Proof.KI.ReadA7
import proofs.«151568_j90031104458821_2_alg».proof.Proof.KI.ReadA8
import proofs.«151568_j90031104458821_2_alg».proof.Proof.KI.ReadB2R0
import proofs.«151568_j90031104458821_2_alg».proof.Proof.KI.ReadB2R1
import proofs.«151568_j90031104458821_2_alg».proof.Proof.KI.ReadB2R2
import proofs.«151568_j90031104458821_2_alg».proof.Proof.KI.ReadB2R3
import proofs.«151568_j90031104458821_2_alg».proof.Proof.KI.ReadB2R4
import proofs.«151568_j90031104458821_2_alg».proof.Proof.KI.ReadB2R5
import proofs.«151568_j90031104458821_2_alg».proof.Proof.KI.ReadB2R6
import proofs.«151568_j90031104458821_2_alg».proof.Proof.KI.ReadB2R7
import proofs.«151568_j90031104458821_2_alg».proof.Proof.KI.ReadB2R8

set_option maxRecDepth 16384

noncomputable section

namespace Cert.KernelIdeal.Net

open Cert.KernelIdeal Cert.KernelIdeal.Gen Cert.KernelIdeal.Fr Cert.KernelIdeal.Val
open Idealize.ShloMosaic Idealize.ShloMosaic.ValueIdx Idealize.ShloMosaic.TcCoe Idealize.SL.Sem
open Cert.Spec

variable (m : (ℓ : Loc nD τ sig) → Buf (Elt Ideal) ℓ) (ρ : Dev nD → PrngReg) (c : Dev nD)

/-! ## What call 0 finds -/

/-- The norm array call 0 reads holds the graph's destination-side norms. -/
theorem normS0 (r : Fin 9) (n : Fin 50000) : arrS0 (V0e m ρ) c (ix3 r n (0 : Fin 1)) = (G m c).nd r n :=
  Rd.v436_apply m ρ c r n

/-- The bias array call 0 reads holds the first layer's bias rows. -/
theorem biasB0 (r : Fin 9) (q : Fin 128) : arrB0 (V0e m ρ) c (ix3 r (0 : Fin 1) q) = b1 m c r q :=
  Rd.v437_apply m ρ c r q

/-- The aggregate array call 0 reads holds, slab by slab, the first layer's raw aggregates over the relation's source table. -/
theorem aggA0 : ∀ (r : Fin 9) (n : Fin 50000) (k : Fin 128), arrA0 (V0e m ρ) c (ix3 r n k) = agg (G m c) (xs m c (srcT r)) r n k :=
  forall_rel (P := fun r => ∀ (n : Fin 50000) (k : Fin 128), arrA0 (V0e m ρ) c (ix3 r n k) = agg (G m c) (xs m c (srcT r)) r n k)
    (fun n k => Rd.A1_0 m ρ c (fun p => Rd.v244_apply m ρ c 0 p) n k)
    (fun n k => Rd.A1_1 m ρ c (fun p => Rd.v244_apply m ρ c 1 p) n k)
    (fun n k => Rd.A1_2 m ρ c (fun p => Rd.v244_apply m ρ c 2 p) n k)
    (fun n k => Rd.A1_3 m ρ c (fun p => Rd.v244_apply m ρ c 3 p) n k)
    (fun n k => Rd.A1_4 m ρ c (fun p => Rd.v244_apply m ρ c 4 p) n k)
    (fun n k => Rd.A1_5 m ρ c (fun p => Rd.v244_apply m ρ c 5 p) n k)
    (fun n k => Rd.A1_6 m ρ c (fun p => Rd.v244_apply m ρ c 6 p) n k)
    (fun n k => Rd.A1_7 m ρ c (fun p => Rd.v244_apply m ρ c 7 p) n k)
    (fun n k => Rd.A1_8 m ρ c (fun p => Rd.v244_apply m ρ c 8 p) n k)

/-! ## What the stretch between call 0 and call 1 starts from -/

/-- The two norm tables as call 0 leaves them are the graph's. -/
theorem ns_X0 (r : Fin 9) (n : Fin 50000) :
    (X0 m ρ c (Proc.devRef .tc main_v244) : S9x50000.Idx → EReal) (ix2 r n) = (G m c).ns r n :=
  (congrFun (X0_v244 m ρ c) (ix2 r n)).trans (Rd.v244_apply m ρ c r n)
theorem nd_X0 (r : Fin 9) (n : Fin 50000) :
    (X0 m ρ c (Proc.devRef .tc main_v254) : S9x50000.Idx → EReal) (ix2 r n) = (G m c).nd r n :=
  (congrFun (X0_v254 m ρ c) (ix2 r n)).trans (Rd.v254_apply m ρ c r n)

/-- The edge array as call 0 leaves it is the launch memory's, so its graph is the network's. -/
theorem edges_X0 : Rd.edgesOf (X0 m ρ) c = edges m c :=
  X0_arg m ρ c (r := main_arg9) (by decide) (by decide)
theorem graph_X0 : Cert.GraphOf.graphOf (Rd.edgesOf (X0 m ρ) c) = G m c := congrArg Cert.GraphOf.graphOf (edges_X0 m ρ c)

/-- The second layer's bias array as call 0 leaves it is the launch memory's. -/
theorem b2_X0 (r : Fin 9) (q : Fin 128) : (X0 m ρ c (Proc.devRef .tc main_arg6) : S9x128.Idx → EReal) (ix2 r q) = b2 m c r q :=
  congrFun (X0_arg m ρ c (r := main_arg6) (by decide) (by decide)) (ix2 r q)

/-- The three activated tables the second layer aggregates are the clamped sums of call 0's slabs. -/
theorem hid_X0 : Rd.H (X0 m ρ) c = relu (sums (slabs0 m ρ c)) := by
  funext t n k
  match t with
  | ⟨0, _⟩ => exact (hid_at4 m ρ c n k).1
  | ⟨1, _⟩ => exact (hid_at4 m ρ c n k).2.1
  | ⟨2, _⟩ => exact (hid_at4 m ρ c n k).2.2

/-- The source-side norms the aggregation stretch reads are the graph's, in the stretch's own spelling of the graph. -/
theorem hNS_X0 (r : Fin 9) (n : Fin 50000) :
    (X0 m ρ c (Proc.devRef .tc main_v244) : S9x50000.Idx → EReal) (ix2 r n)
      = (Cert.GraphOf.graphOf (Rd.edgesOf (X0 m ρ) c)).ns r n := by
  rw [graph_X0]; exact ns_X0 m ρ c r n

/-! ## What call 1 finds -/

/-- The aggregate array call 1 reads holds, slab by slab, the raw aggregates over the clamped sums of call 0's slabs. -/
theorem aggA1 : ∀ (r : Fin 9) (n : Fin 50000) (k : Fin 128),
    arrA1 (V1e m ρ) c (ix3 r n k) = agg (G m c) (relu (sums (slabs0 m ρ c)) (srcT r)) r n k := by
  have e : ∀ (t : Fin 3) (r : Fin 9) (n : Fin 50000) (k : Fin 128),
      agg (Cert.GraphOf.graphOf (Rd.edgesOf (X0 m ρ) c)) (Rd.H (X0 m ρ) c t) r n k = agg (G m c) (relu (sums (slabs0 m ρ c)) t) r n k := by
    intro t r n k; rw [graph_X0, hid_X0]
  exact forall_rel (P := fun r => ∀ (n : Fin 50000) (k : Fin 128),
      arrA1 (V1e m ρ) c (ix3 r n k) = agg (G m c) (relu (sums (slabs0 m ρ c)) (srcT r)) r n k)
    (fun n k => (Rd.v652_r0_apply (X0 m ρ) c (hNS_X0 m ρ c) n k).trans (e 0 0 n k))
    (fun n k => (Rd.v652_r1_apply (X0 m ρ) c (hNS_X0 m ρ c) n k).trans (e 1 1 n k))
    (fun n k => (Rd.v652_r2_apply (X0 m ρ) c (hNS_X0 m ρ c) n k).trans (e 1 2 n k))
    (fun n k => (Rd.v652_r3_apply (X0 m ρ) c (hNS_X0 m ρ c) n k).trans (e 0 3 n k))
    (fun n k => (Rd.v652_r4_apply (X0 m ρ) c (hNS_X0 m ρ c) n k).trans (e 2 4 n k))
    (fun n k => (Rd.v652_r5_apply (X0 m ρ) c (hNS_X0 m ρ c) n k).trans (e 2 5 n k))
    (fun n k => (Rd.v652_r6_apply (X0 m ρ) c (hNS_X0 m ρ c) n k).trans (e 0 6 n k))
    (fun n k => (Rd.v652_r7_apply (X0 m ρ) c (hNS_X0 m ρ c) n k).trans (e 2 7 n k))
    (fun n k => (Rd.v652_r8_apply (X0 m ρ) c (hNS_X0 m ρ c) n k).trans (e 1 8 n k))

/-- The norm array call 1 reads holds the graph's destination-side norms. -/
theorem normS1 (r : Fin 9) (n : Fin 50000) : arrS1 (V1e m ρ) c (ix3 r n (0 : Fin 1)) = (G m c).nd r n :=
  (Rd.v653_apply (X0 m ρ) c r n).trans (nd_X0 m ρ c r n)

/-- The bias array call 1 reads holds the second layer's bias rows. -/
theorem biasB1 (r : Fin 9) (q : Fin 128) : arrB1 (V1e m ρ) c (ix3 r (0 : Fin 1) q) = b2 m c r q :=
  (Rd.v654_apply (X0 m ρ) c r q).trans (b2_X0 m ρ c r q)

/-! ## The kernel's result -/

/-- Call 2's output array, element by element, is the network over the launch memory. -/
theorem kernel_net' (t : Fin 3) (n : Fin 50000) (q : Fin 16) :
    (X2 m ρ c (Proc.devRef .tc main_v691) : S3x50000x16.Idx → EReal) (ix3 t n q)
      = netK (G m c) (xs m c) (W1 m c) (b1 m c) (W2 m c) (b2 m c) (Wc m c) (bc m c) t n q :=
  kernel_net m ρ c (aggA0 m ρ c) (normS0 m ρ c) (biasB0 m ρ c) (aggA1 m ρ c) (normS1 m ρ c) (biasB1 m ρ c) t n q

end Cert.KernelIdeal.Net

end
-- ==== Proof.RV.L1Core.lean ====
/-
  The reference side of one relation, from its parts. The reference projects every node's scaled row by the relation's
  weights (`projRow`), gathers the projected rows along the edges' wrapped source words, sums them at the destination
  words into a zero table and scales by the destination norm. Read at (n, j) that is `Spec.relR` on the graph of the
  edge array: the landing set of the destination column is the graph's, and the row the gather reads is the graph's.
-/
import proofs.«151568_j90031104458821_2_alg».proof.Proof.RefReadP
import proofs.«151568_j90031104458821_2_alg».proof.Proof.GraphOf

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-- The three node tables as index-level tables. -/
def tabs (x0 x1 x2 : FVec Ideal ⟨2, ![50000, 128]⟩ .f32) : Fin 3 → Tab
  | ⟨0, _⟩ => fun n k => x0 (ix2 n k)
  | ⟨1, _⟩ => fun n k => x1 (ix2 n k)
  | ⟨2, _⟩ => fun n k => x2 (ix2 n k)

/-- The nine relations' weights, -/
def wts (w : FVec Ideal ⟨3, ![9, 128, 128]⟩ .f32) : Fin 9 → Fin 128 → Fin 128 → EReal := fun r k j => w (ix3 r k j)

/-- and their biases. -/
def bias (b : FVec Ideal ⟨2, ![9, 128]⟩ .f32) : Fin 9 → Fin 128 → EReal := fun r j => b (ix2 r j)

theorem tabs_zero (x0 x1 x2 : FVec Ideal ⟨2, ![50000, 128]⟩ .f32) : tabs x0 x1 x2 0 = fun n k => x0 (ix2 n k) := rfl
theorem tabs_one (x0 x1 x2 : FVec Ideal ⟨2, ![50000, 128]⟩ .f32) : tabs x0 x1 x2 1 = fun n k => x1 (ix2 n k) := rfl
theorem tabs_two (x0 x1 x2 : FVec Ideal ⟨2, ![50000, 128]⟩ .f32) : tabs x0 x1 x2 2 = fun n k => x2 (ix2 n k) := rfl
theorem wts_apply (w : FVec Ideal ⟨3, ![9, 128, 128]⟩ .f32) (r : Fin 9) : wts w r = fun k j => w (ix3 r k j) := rfl
theorem bias_apply (b : FVec Ideal ⟨2, ![9, 128]⟩ .f32) (r : Fin 9) (j : Fin 128) : bias b r j = b (ix2 r j) := rfl

/-- Node n's row scaled by its source norm and projected by the relation's weights, output feature j. -/
def projRow (G : Graph) (x : Tab) (W : Fin 128 → Fin 128 → EReal) (r : Fin 9) (n : Fin 50000) (j : Fin 128) : EReal :=
  ∑ k : Fin 128, (x n k * G.ns r n) * W k j

/-- The graph's source norm is the norm of the degree along the source column, -/
theorem l1_graphOf_ns (edges : IVec ⟨3, ![9, 2, 400000]⟩ 32) (r : Fin 9) (n : Fin 50000) :
    (graphOf edges).ns r n = normAt (degAt (colIdx edges r 0) n) := by
  simp only [graphOf]

/-- and its destination norm that of the degree along the destination column. -/
theorem l1_graphOf_nd (edges : IVec ⟨3, ![9, 2, 400000]⟩ 32) (r : Fin 9) (n : Fin 50000) :
    (graphOf edges).nd r n = normAt (degAt (colIdx edges r 1) n) := by
  simp only [graphOf]

/-- The scatter of the gathered projected rows, scaled by the destination norm, is the relation. The four operands are
    given up to equality so that a stage function of the program can stand for each. -/
theorem relR_of_parts (edges : IVec ⟨3, ![9, 2, 400000]⟩ 32) (r : Fin 9) (x : Tab) (W : Fin 128 → Fin 128 → EReal)
    (z : FVec Ideal ⟨2, ![50000, 128]⟩ .f32) (dst src : IVec ⟨2, ![400000, 1]⟩ 32) (tab : FVec Ideal ⟨2, ![50000, 128]⟩ .f32)
    (hz : z = fun _ => (0 : EReal)) (hdst : dst = colIdx edges r 1) (hsrc : src = srcIdx edges r)
    (htab : tab = fun i => projRow (graphOf edges) x W r (i 0) (i 1))
    (n : Fin 50000) (j : Fin 128) :
    Host.scatterAdd (F := Ideal) (φ := .f32) scatter_S50000x128_S400000x1_S400000x128_1_0_0_1 z dst
        (Host.gather gather_S50000x128_S400000x1_S400000x128_1_0_n_n_0_1_1128 tab src) (ix2 n j) * (graphOf edges).nd r n
      = Spec.relR (graphOf edges) x W r n j := by
  subst hz hdst hsrc htab
  rw [scatter_gather_apply (by decide : 0 < 128) scatter_S50000x128_S400000x1_S400000x128_1_0_0_1 rfl rfl rfl rfl
    gather_S50000x128_S400000x1_S400000x128_1_0_n_n_0_1_1128 rfl rfl rfl rfl rfl rfl rfl (projRow (graphOf edges) x W r)]
  unfold Spec.relR Spec.msg
  refine congrArg (fun s => ((0 : EReal) + s) * (graphOf edges).nd r n) ?_
  refine Finset.sum_congr rfl fun e _ => ?_
  rw [gatherRow_srcIdx gather_S50000x128_S400000x1_S400000x128_1_0_n_n_0_1_1128 rfl rfl rfl rfl rfl rfl rfl edges r e]
  rfl

end Cert.ReferenceIdeal.RV

end
-- ==== Proof.RV.L1R0.lean ====
/-
  Layer 1 of the reference, relation 0, read at an index: the index columns, the two degree counts and their norms,
  the projected table, and the product stage as the specification's relation on the graph of the edge array.
-/
import proofs.«151568_j90031104458821_2_alg».proof.Proof.RV.L1Core

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## Layer 1, relation 0 (node type 0 to node type 2) -/

/-- The source column read at edge e is the edge array's source word of edge e in this relation's slab. -/
theorem l1r0_v4_at (x9 : (⟨S9x2x400000, .i32⟩ : BufTy).Contents (Elt Ideal)) (e : Fin 400000) :
    val_main_v4 (F := Ideal) x9 (ix1 e) = x9 (ix3 (0 : Fin 9) (0 : Fin 2) e) := by
  rw [val_main_v4_apply, val_main_v3_apply]
  refine congrArg x9 (funext fun a => ?_)
  match a with
  | ⟨0, _⟩ => rfl
  | ⟨1, _⟩ => rfl
  | ⟨2, _⟩ => exact Fin.ext (Nat.mod_eq_of_lt e.isLt)

/-- The destination column read at edge e is the destination word of edge e. -/
theorem l1r0_v6_at (x9 : (⟨S9x2x400000, .i32⟩ : BufTy).Contents (Elt Ideal)) (e : Fin 400000) :
    val_main_v6 (F := Ideal) x9 (ix1 e) = x9 (ix3 (0 : Fin 9) (1 : Fin 2) e) := by
  rw [val_main_v6_apply, val_main_v5_apply]
  refine congrArg x9 (funext fun a => ?_)
  match a with
  | ⟨0, _⟩ => rfl
  | ⟨1, _⟩ => rfl
  | ⟨2, _⟩ => exact Fin.ext (Nat.mod_eq_of_lt e.isLt)

/-- The [E, 1] source column of the out-degree count, -/
theorem l1r0_v9_eq (x9 : (⟨S9x2x400000, .i32⟩ : BufTy).Contents (Elt Ideal)) : val_main_v9 (F := Ideal) x9 = colIdx x9 (0 : Fin 9) 0 := by
  funext i
  obtain ⟨e, u, rfl⟩ : ∃ (e : Fin 400000) (u : Fin 1), i = ix2 e u := ⟨i 0, i 1, eq_ix2 i⟩
  have hi : idx_main_v9 (ix2 e u) = ix1 e := funext fun a => match a with | ⟨0, _⟩ => rfl
  rw [colIdx_apply, val_main_v9_apply, hi, l1r0_v4_at]

/-- the [E, 1] destination column of the in-degree count, -/
theorem l1r0_v12_eq (x9 : (⟨S9x2x400000, .i32⟩ : BufTy).Contents (Elt Ideal)) : val_main_v12 (F := Ideal) x9 = colIdx x9 (0 : Fin 9) 1 := by
  funext i
  obtain ⟨e, u, rfl⟩ : ∃ (e : Fin 400000) (u : Fin 1), i = ix2 e u := ⟨i 0, i 1, eq_ix2 i⟩
  have hi : idx_main_v12 (ix2 e u) = ix1 e := funext fun a => match a with | ⟨0, _⟩ => rfl
  rw [colIdx_apply, val_main_v12_apply, hi, l1r0_v6_at]

/-- and the [E, 1] destination column of the aggregation. -/
theorem l1r0_v44_eq (x9 : (⟨S9x2x400000, .i32⟩ : BufTy).Contents (Elt Ideal)) : val_main_v44 (F := Ideal) x9 = colIdx x9 (0 : Fin 9) 1 := by
  funext i
  obtain ⟨e, u, rfl⟩ : ∃ (e : Fin 400000) (u : Fin 1), i = ix2 e u := ⟨i 0, i 1, eq_ix2 i⟩
  have hi : idx_main_v44 (ix2 e u) = ix1 e := funext fun a => match a with | ⟨0, _⟩ => rfl
  rw [colIdx_apply, val_main_v44_apply, hi, l1r0_v6_at]

/-- The gather's start indices: the source words, a negative one wrapped once. -/
theorem l1r0_v41_eq (x9 : (⟨S9x2x400000, .i32⟩ : BufTy).Contents (Elt Ideal)) : val_main_v41 (F := Ideal) x9 = srcIdx x9 (0 : Fin 9) := by
  funext i
  obtain ⟨e, u, rfl⟩ : ∃ (e : Fin 400000) (u : Fin 1), i = ix2 e u := ⟨i 0, i 1, eq_ix2 i⟩
  have hi : idx_main_v41 (ix2 e u) = ix1 e := funext fun a => match a with | ⟨0, _⟩ => rfl
  rw [srcIdx_apply, val_main_v41_apply, hi, val_main_v40_apply, val_main_v37_apply, val_main_v39_apply, val_main_v36_apply,
    val_main_v38_apply, val_main_c_apply, val_main_c_15_apply, l1r0_v4_at]

/-- The out-degree of node n. -/
theorem l1r0_v10_at (x9 : (⟨S9x2x400000, .i32⟩ : BufTy).Contents (Elt Ideal)) (n : Fin 50000) :
    val_main_v10 (F := Ideal) x9 (ix1 n) = degAt (colIdx x9 (0 : Fin 9) 0) n := by
  unfold val_main_v10
  rw [l1r0_v9_eq]
  exact scatterAdd_deg scatter_S50000_S400000x1_S400000_n_0_0_1 rfl rfl rfl rfl _ _ _
    (fun i => by rw [val_main_v8_apply, val_main_cst_3_apply]) (fun i => by rw [val_main_v7_apply, val_main_cst_2_apply]) n

/-- The in-degree of node n. -/
theorem l1r0_v13_at (x9 : (⟨S9x2x400000, .i32⟩ : BufTy).Contents (Elt Ideal)) (n : Fin 50000) :
    val_main_v13 (F := Ideal) x9 (ix1 n) = degAt (colIdx x9 (0 : Fin 9) 1) n := by
  unfold val_main_v13
  rw [l1r0_v12_eq]
  exact scatterAdd_deg scatter_S50000_S400000x1_S400000_n_0_0_1 rfl rfl rfl rfl _ _ _
    (fun i => by rw [val_main_v11_apply, val_main_cst_4_apply]) (fun i => by rw [val_main_v7_apply, val_main_cst_2_apply]) n

/-- The source norm of node n: the printed comparison, selections and power at the out-degree. -/
theorem l1r0_v21_at (x9 : (⟨S9x2x400000, .i32⟩ : BufTy).Contents (Elt Ideal)) (n : Fin 50000) :
    val_main_v21 (F := Ideal) x9 (ix1 n) = (graphOf x9).ns (0 : Fin 9) n := by
  rw [l1_graphOf_ns]
  unfold normAt
  rw [val_main_v21_apply, val_main_v20_apply, val_main_v18_apply, val_main_v16_apply, val_main_v15_apply, l1r0_v10_at,
    val_main_v19_apply, val_main_cst_8_apply, val_main_v17_apply, val_main_cst_7_apply, val_main_v14_apply, val_main_cst_5_apply,
    val_main_call0_v1_apply, val_main_call0_v0_apply, val_main_cst_6_apply, val_main_call1_v1_apply, val_main_call1_v0_apply,
    val_main_cst_9_apply]

/-- The destination norm of node n: the same chain at the in-degree. -/
theorem l1r0_v29_at (x9 : (⟨S9x2x400000, .i32⟩ : BufTy).Contents (Elt Ideal)) (n : Fin 50000) :
    val_main_v29 (F := Ideal) x9 (ix1 n) = (graphOf x9).nd (0 : Fin 9) n := by
  rw [l1_graphOf_nd]
  unfold normAt
  rw [val_main_v29_apply, val_main_v28_apply, val_main_v26_apply, val_main_v24_apply, val_main_v23_apply, l1r0_v13_at,
    val_main_v27_apply, val_main_cst_13_apply, val_main_v25_apply, val_main_cst_12_apply, val_main_v22_apply, val_main_cst_10_apply,
    val_main_call2_v1_apply, val_main_call2_v0_apply, val_main_cst_11_apply, val_main_call3_v1_apply, val_main_call3_v0_apply,
    val_main_cst_14_apply]

/-- The relation's weights read at (k, j): this relation's slab of the weight array. -/
theorem l1r0_v34_at (x3 : (⟨S9x128x128, .f32⟩ : BufTy).Contents (Elt Ideal)) (k j : Fin 128) :
    val_main_v34 (F := Ideal) x3 (ix2 k j) = x3 (ix3 (0 : Fin 9) k j) := by
  rw [val_main_v34_apply, val_main_v33_apply]
  refine congrArg x3 (funext fun a => ?_)
  have hk : k.val < 128 := k.isLt
  have hj : j.val < 128 := j.isLt
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

/-- The projected table: node n's scaled row contracted with the weights. -/
theorem l1r0_v35_at (x0 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v35 (F := Ideal) x0 x3 x9 (ix2 n j)
      = projRow (graphOf x9) (fun n k => x0 (ix2 n k)) (fun k j => x3 (ix3 (0 : Fin 9) k j)) (0 : Fin 9) n j := by
  unfold projRow
  rw [val_main_v35_apply]
  refine Finset.sum_congr rfl fun k _ => ?_
  have hl : lidx_main_v35 (ix2 n j) k = ix2 n k := funext fun a => match a with | ⟨0, _⟩ => rfl | ⟨1, _⟩ => rfl
  have hr : ridx_main_v35 (ix2 n j) k = ix2 k j := funext fun a => match a with | ⟨0, _⟩ => rfl | ⟨1, _⟩ => rfl
  have hi : idx_main_v30 (idx_main_v31 (ix2 n k)) = ix1 n := funext fun a => match a with | ⟨0, _⟩ => rfl
  rw [hl, hr, val_main_v32_apply, val_main_v31_apply, val_main_v30_apply, hi, l1r0_v21_at, l1r0_v34_at]
  rfl

theorem l1r0_v35_eq (x0 : (⟨S50000x128, .f32⟩ : BufTy).Contents (Elt Ideal)) (x3 : (⟨S9x128x128, .f32⟩ : BufTy).Contents (Elt Ideal)) (x9 : (⟨S9x2x400000, .i32⟩ : BufTy).Contents (Elt Ideal)) :
    val_main_v35 (F := Ideal) x0 x3 x9
      = fun i => projRow (graphOf x9) (fun n k => x0 (ix2 n k)) (fun k j => x3 (ix3 (0 : Fin 9) k j)) (0 : Fin 9) (i 0) (i 1) := by
  funext i
  obtain ⟨n, j, rfl⟩ : ∃ (n : Fin 50000) (j : Fin 128), i = ix2 n j := ⟨i 0, i 1, eq_ix2 i⟩
  exact l1r0_v35_at x0 x3 x9 n j

/-- The zero table the aggregation starts from. -/
theorem l1r0_v43_eq : val_main_v43 (F := Ideal) = fun _ => (0 : EReal) := by
  funext i
  rw [val_main_v43_apply, val_main_cst_16_apply]
  exact Ideal.ofBits_zero_f32

/-- (H1) The relation's product stage at (n, j) is the specification's relation 0 on the graph of the edge array. -/
theorem l1r0_rel (x0 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v48 (F := Ideal) x0 x3 x9 (ix2 n j)
      = Spec.relR (graphOf x9) (fun n k => x0 (ix2 n k)) (fun k j => x3 (ix3 (0 : Fin 9) k j)) (0 : Fin 9) n j := by
  have hi : idx_main_v46 (idx_main_v47 (ix2 n j)) = ix1 n := funext fun a => match a with | ⟨0, _⟩ => rfl
  rw [val_main_v48_apply, val_main_v47_apply, val_main_v46_apply, hi, l1r0_v29_at]
  unfold val_main_v45 val_main_v42
  exact relR_of_parts x9 (0 : Fin 9) _ _ _ _ _ _ l1r0_v43_eq (l1r0_v44_eq x9) (l1r0_v41_eq x9) (l1r0_v35_eq x0 x3 x9) n j

/-- The relation's bias broadcast at (n, j) is this relation's entry j of the bias array. -/
theorem l1r0_bias (x4 : (⟨S9x128, .f32⟩ : BufTy).Contents (Elt Ideal)) (n : Fin 50000) (j : Fin 128) :
    val_main_v53 (F := Ideal) x4 (ix2 n j) = x4 (ix2 (0 : Fin 9) j) := by
  rw [val_main_v53_apply, val_main_v52_apply, val_main_v51_apply, val_main_v50_apply]
  refine congrArg x4 (funext fun a => ?_)
  match a with
  | ⟨0, _⟩ => rfl
  | ⟨1, _⟩ => exact Fin.ext (Nat.mod_eq_of_lt j.isLt)

end Cert.ReferenceIdeal.RV

end
-- ==== Proof.RV.L1R1.lean ====
/-
  Layer 1 of the reference, relation 1, read at an index: the index columns, the two degree counts and their norms,
  the projected table, and the product stage as the specification's relation on the graph of the edge array.
-/
import proofs.«151568_j90031104458821_2_alg».proof.Proof.RV.L1Core

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## Layer 1, relation 1 (node type 1 to node type 2) -/

/-- The source column read at edge e is the edge array's source word of edge e in this relation's slab. -/
theorem l1r1_v4_at (x9 : (⟨S9x2x400000, .i32⟩ : BufTy).Contents (Elt Ideal)) (e : Fin 400000) :
    val_main_v56 (F := Ideal) x9 (ix1 e) = x9 (ix3 (1 : Fin 9) (0 : Fin 2) e) := by
  rw [val_main_v56_apply, val_main_v55_apply]
  refine congrArg x9 (funext fun a => ?_)
  match a with
  | ⟨0, _⟩ => rfl
  | ⟨1, _⟩ => rfl
  | ⟨2, _⟩ => exact Fin.ext (Nat.mod_eq_of_lt e.isLt)

/-- The destination column read at edge e is the destination word of edge e. -/
theorem l1r1_v6_at (x9 : (⟨S9x2x400000, .i32⟩ : BufTy).Contents (Elt Ideal)) (e : Fin 400000) :
    val_main_v58 (F := Ideal) x9 (ix1 e) = x9 (ix3 (1 : Fin 9) (1 : Fin 2) e) := by
  rw [val_main_v58_apply, val_main_v57_apply]
  refine congrArg x9 (funext fun a => ?_)
  match a with
  | ⟨0, _⟩ => rfl
  | ⟨1, _⟩ => rfl
  | ⟨2, _⟩ => exact Fin.ext (Nat.mod_eq_of_lt e.isLt)

/-- The [E, 1] source column of the out-degree count, -/
theorem l1r1_v9_eq (x9 : (⟨S9x2x400000, .i32⟩ : BufTy).Contents (Elt Ideal)) : val_main_v61 (F := Ideal) x9 = colIdx x9 (1 : Fin 9) 0 := by
  funext i
  obtain ⟨e, u, rfl⟩ : ∃ (e : Fin 400000) (u : Fin 1), i = ix2 e u := ⟨i 0, i 1, eq_ix2 i⟩
  have hi : idx_main_v61 (ix2 e u) = ix1 e := funext fun a => match a with | ⟨0, _⟩ => rfl
  rw [colIdx_apply, val_main_v61_apply, hi, l1r1_v4_at]

/-- the [E, 1] destination column of the in-degree count, -/
theorem l1r1_v12_eq (x9 : (⟨S9x2x400000, .i32⟩ : BufTy).Contents (Elt Ideal)) : val_main_v64 (F := Ideal) x9 = colIdx x9 (1 : Fin 9) 1 := by
  funext i
  obtain ⟨e, u, rfl⟩ : ∃ (e : Fin 400000) (u : Fin 1), i = ix2 e u := ⟨i 0, i 1, eq_ix2 i⟩
  have hi : idx_main_v64 (ix2 e u) = ix1 e := funext fun a => match a with | ⟨0, _⟩ => rfl
  rw [colIdx_apply, val_main_v64_apply, hi, l1r1_v6_at]

/-- and the [E, 1] destination column of the aggregation. -/
theorem l1r1_v44_eq (x9 : (⟨S9x2x400000, .i32⟩ : BufTy).Contents (Elt Ideal)) : val_main_v96 (F := Ideal) x9 = colIdx x9 (1 : Fin 9) 1 := by
  funext i
  obtain ⟨e, u, rfl⟩ : ∃ (e : Fin 400000) (u : Fin 1), i = ix2 e u := ⟨i 0, i 1, eq_ix2 i⟩
  have hi : idx_main_v96 (ix2 e u) = ix1 e := funext fun a => match a with | ⟨0, _⟩ => rfl
  rw [colIdx_apply, val_main_v96_apply, hi, l1r1_v6_at]

/-- The gather's start indices: the source words, a negative one wrapped once. -/
theorem l1r1_v41_eq (x9 : (⟨S9x2x400000, .i32⟩ : BufTy).Contents (Elt Ideal)) : val_main_v93 (F := Ideal) x9 = srcIdx x9 (1 : Fin 9) := by
  funext i
  obtain ⟨e, u, rfl⟩ : ∃ (e : Fin 400000) (u : Fin 1), i = ix2 e u := ⟨i 0, i 1, eq_ix2 i⟩
  have hi : idx_main_v93 (ix2 e u) = ix1 e := funext fun a => match a with | ⟨0, _⟩ => rfl
  rw [srcIdx_apply, val_main_v93_apply, hi, val_main_v92_apply, val_main_v89_apply, val_main_v91_apply, val_main_v88_apply,
    val_main_v90_apply, val_main_c_30_apply, val_main_c_31_apply, l1r1_v4_at]

/-- The out-degree of node n. -/
theorem l1r1_v10_at (x9 : (⟨S9x2x400000, .i32⟩ : BufTy).Contents (Elt Ideal)) (n : Fin 50000) :
    val_main_v62 (F := Ideal) x9 (ix1 n) = degAt (colIdx x9 (1 : Fin 9) 0) n := by
  unfold val_main_v62
  rw [l1r1_v9_eq]
  exact scatterAdd_deg scatter_S50000_S400000x1_S400000_n_0_0_1 rfl rfl rfl rfl _ _ _
    (fun i => by rw [val_main_v60_apply, val_main_cst_18_apply]) (fun i => by rw [val_main_v59_apply, val_main_cst_17_apply]) n

/-- The in-degree of node n. -/
theorem l1r1_v13_at (x9 : (⟨S9x2x400000, .i32⟩ : BufTy).Contents (Elt Ideal)) (n : Fin 50000) :
    val_main_v65 (F := Ideal) x9 (ix1 n) = degAt (colIdx x9 (1 : Fin 9) 1) n := by
  unfold val_main_v65
  rw [l1r1_v12_eq]
  exact scatterAdd_deg scatter_S50000_S400000x1_S400000_n_0_0_1 rfl rfl rfl rfl _ _ _
    (fun i => by rw [val_main_v63_apply, val_main_cst_19_apply]) (fun i => by rw [val_main_v59_apply, val_main_cst_17_apply]) n

/-- The source norm of node n: the printed comparison, selections and power at the out-degree. -/
theorem l1r1_v21_at (x9 : (⟨S9x2x400000, .i32⟩ : BufTy).Contents (Elt Ideal)) (n : Fin 50000) :
    val_main_v73 (F := Ideal) x9 (ix1 n) = (graphOf x9).ns (1 : Fin 9) n := by
  rw [l1_graphOf_ns]
  unfold normAt
  rw [val_main_v73_apply, val_main_v72_apply, val_main_v70_apply, val_main_v68_apply, val_main_v67_apply, l1r1_v10_at,
    val_main_v71_apply, val_main_cst_23_apply, val_main_v69_apply, val_main_cst_22_apply, val_main_v66_apply, val_main_cst_20_apply,
    val_main_call4_v1_apply, val_main_call4_v0_apply, val_main_cst_21_apply, val_main_call5_v1_apply, val_main_call5_v0_apply,
    val_main_cst_24_apply]

/-- The destination norm of node n: the same chain at the in-degree. -/
theorem l1r1_v29_at (x9 : (⟨S9x2x400000, .i32⟩ : BufTy).Contents (Elt Ideal)) (n : Fin 50000) :
    val_main_v81 (F := Ideal) x9 (ix1 n) = (graphOf x9).nd (1 : Fin 9) n := by
  rw [l1_graphOf_nd]
  unfold normAt
  rw [val_main_v81_apply, val_main_v80_apply, val_main_v78_apply, val_main_v76_apply, val_main_v75_apply, l1r1_v13_at,
    val_main_v79_apply, val_main_cst_28_apply, val_main_v77_apply, val_main_cst_27_apply, val_main_v74_apply, val_main_cst_25_apply,
    val_main_call6_v1_apply, val_main_call6_v0_apply, val_main_cst_26_apply, val_main_call7_v1_apply, val_main_call7_v0_apply,
    val_main_cst_29_apply]

/-- The relation's weights read at (k, j): this relation's slab of the weight array. -/
theorem l1r1_v34_at (x3 : (⟨S9x128x128, .f32⟩ : BufTy).Contents (Elt Ideal)) (k j : Fin 128) :
    val_main_v86 (F := Ideal) x3 (ix2 k j) = x3 (ix3 (1 : Fin 9) k j) := by
  rw [val_main_v86_apply, val_main_v85_apply]
  refine congrArg x3 (funext fun a => ?_)
  have hk : k.val < 128 := k.isLt
  have hj : j.val < 128 := j.isLt
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

/-- The projected table: node n's scaled row contracted with the weights. -/
theorem l1r1_v35_at (x1 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v87 (F := Ideal) x1 x3 x9 (ix2 n j)
      = projRow (graphOf x9) (fun n k => x1 (ix2 n k)) (fun k j => x3 (ix3 (1 : Fin 9) k j)) (1 : Fin 9) n j := by
  unfold projRow
  rw [val_main_v87_apply]
  refine Finset.sum_congr rfl fun k _ => ?_
  have hl : lidx_main_v87 (ix2 n j) k = ix2 n k := funext fun a => match a with | ⟨0, _⟩ => rfl | ⟨1, _⟩ => rfl
  have hr : ridx_main_v87 (ix2 n j) k = ix2 k j := funext fun a => match a with | ⟨0, _⟩ => rfl | ⟨1, _⟩ => rfl
  have hi : idx_main_v82 (idx_main_v83 (ix2 n k)) = ix1 n := funext fun a => match a with | ⟨0, _⟩ => rfl
  rw [hl, hr, val_main_v84_apply, val_main_v83_apply, val_main_v82_apply, hi, l1r1_v21_at, l1r1_v34_at]
  rfl

theorem l1r1_v35_eq (x1 : (⟨S50000x128, .f32⟩ : BufTy).Contents (Elt Ideal)) (x3 : (⟨S9x128x128, .f32⟩ : BufTy).Contents (Elt Ideal)) (x9 : (⟨S9x2x400000, .i32⟩ : BufTy).Contents (Elt Ideal)) :
    val_main_v87 (F := Ideal) x1 x3 x9
      = fun i => projRow (graphOf x9) (fun n k => x1 (ix2 n k)) (fun k j => x3 (ix3 (1 : Fin 9) k j)) (1 : Fin 9) (i 0) (i 1) := by
  funext i
  obtain ⟨n, j, rfl⟩ : ∃ (n : Fin 50000) (j : Fin 128), i = ix2 n j := ⟨i 0, i 1, eq_ix2 i⟩
  exact l1r1_v35_at x1 x3 x9 n j

/-- The zero table the aggregation starts from. -/
theorem l1r1_v43_eq : val_main_v95 (F := Ideal) = fun _ => (0 : EReal) := by
  funext i
  rw [val_main_v95_apply, val_main_cst_32_apply]
  exact Ideal.ofBits_zero_f32

/-- (H1) The relation's product stage at (n, j) is the specification's relation 1 on the graph of the edge array. -/
theorem l1r1_rel (x1 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v100 (F := Ideal) x1 x3 x9 (ix2 n j)
      = Spec.relR (graphOf x9) (fun n k => x1 (ix2 n k)) (fun k j => x3 (ix3 (1 : Fin 9) k j)) (1 : Fin 9) n j := by
  have hi : idx_main_v98 (idx_main_v99 (ix2 n j)) = ix1 n := funext fun a => match a with | ⟨0, _⟩ => rfl
  rw [val_main_v100_apply, val_main_v99_apply, val_main_v98_apply, hi, l1r1_v29_at]
  unfold val_main_v97 val_main_v94
  exact relR_of_parts x9 (1 : Fin 9) _ _ _ _ _ _ l1r1_v43_eq (l1r1_v44_eq x9) (l1r1_v41_eq x9) (l1r1_v35_eq x1 x3 x9) n j

/-- The relation's bias broadcast at (n, j) is this relation's entry j of the bias array. -/
theorem l1r1_bias (x4 : (⟨S9x128, .f32⟩ : BufTy).Contents (Elt Ideal)) (n : Fin 50000) (j : Fin 128) :
    val_main_v105 (F := Ideal) x4 (ix2 n j) = x4 (ix2 (1 : Fin 9) j) := by
  rw [val_main_v105_apply, val_main_v104_apply, val_main_v103_apply, val_main_v102_apply]
  refine congrArg x4 (funext fun a => ?_)
  match a with
  | ⟨0, _⟩ => rfl
  | ⟨1, _⟩ => exact Fin.ext (Nat.mod_eq_of_lt j.isLt)

end Cert.ReferenceIdeal.RV

end
-- ==== Proof.RV.L1R2.lean ====
/-
  Layer 1 of the reference, relation 2, read at an index: the index columns, the two degree counts and their norms,
  the projected table, and the product stage as the specification's relation on the graph of the edge array.
-/
import proofs.«151568_j90031104458821_2_alg».proof.Proof.RV.L1Core

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## Layer 1, relation 2 (node type 1 to node type 0) -/

/-- The source column read at edge e is the edge array's source word of edge e in this relation's slab. -/
theorem l1r2_v4_at (x9 : (⟨S9x2x400000, .i32⟩ : BufTy).Contents (Elt Ideal)) (e : Fin 400000) :
    val_main_v108 (F := Ideal) x9 (ix1 e) = x9 (ix3 (2 : Fin 9) (0 : Fin 2) e) := by
  rw [val_main_v108_apply, val_main_v107_apply]
  refine congrArg x9 (funext fun a => ?_)
  match a with
  | ⟨0, _⟩ => rfl
  | ⟨1, _⟩ => rfl
  | ⟨2, _⟩ => exact Fin.ext (Nat.mod_eq_of_lt e.isLt)

/-- The destination column read at edge e is the destination word of edge e. -/
theorem l1r2_v6_at (x9 : (⟨S9x2x400000, .i32⟩ : BufTy).Contents (Elt Ideal)) (e : Fin 400000) :
    val_main_v110 (F := Ideal) x9 (ix1 e) = x9 (ix3 (2 : Fin 9) (1 : Fin 2) e) := by
  rw [val_main_v110_apply, val_main_v109_apply]
  refine congrArg x9 (funext fun a => ?_)
  match a with
  | ⟨0, _⟩ => rfl
  | ⟨1, _⟩ => rfl
  | ⟨2, _⟩ => exact Fin.ext (Nat.mod_eq_of_lt e.isLt)

/-- The [E, 1] source column of the out-degree count, -/
theorem l1r2_v9_eq (x9 : (⟨S9x2x400000, .i32⟩ : BufTy).Contents (Elt Ideal)) : val_main_v113 (F := Ideal) x9 = colIdx x9 (2 : Fin 9) 0 := by
  funext i
  obtain ⟨e, u, rfl⟩ : ∃ (e : Fin 400000) (u : Fin 1), i = ix2 e u := ⟨i 0, i 1, eq_ix2 i⟩
  have hi : idx_main_v113 (ix2 e u) = ix1 e := funext fun a => match a with | ⟨0, _⟩ => rfl
  rw [colIdx_apply, val_main_v113_apply, hi, l1r2_v4_at]

/-- the [E, 1] destination column of the in-degree count, -/
theorem l1r2_v12_eq (x9 : (⟨S9x2x400000, .i32⟩ : BufTy).Contents (Elt Ideal)) : val_main_v116 (F := Ideal) x9 = colIdx x9 (2 : Fin 9) 1 := by
  funext i
  obtain ⟨e, u, rfl⟩ : ∃ (e : Fin 400000) (u : Fin 1), i = ix2 e u := ⟨i 0, i 1, eq_ix2 i⟩
  have hi : idx_main_v116 (ix2 e u) = ix1 e := funext fun a => match a with | ⟨0, _⟩ => rfl
  rw [colIdx_apply, val_main_v116_apply, hi, l1r2_v6_at]

/-- and the [E, 1] destination column of the aggregation. -/
theorem l1r2_v44_eq (x9 : (⟨S9x2x400000, .i32⟩ : BufTy).Contents (Elt Ideal)) : val_main_v148 (F := Ideal) x9 = colIdx x9 (2 : Fin 9) 1 := by
  funext i
  obtain ⟨e, u, rfl⟩ : ∃ (e : Fin 400000) (u : Fin 1), i = ix2 e u := ⟨i 0, i 1, eq_ix2 i⟩
  have hi : idx_main_v148 (ix2 e u) = ix1 e := funext fun a => match a with | ⟨0, _⟩ => rfl
  rw [colIdx_apply, val_main_v148_apply, hi, l1r2_v6_at]

/-- The gather's start indices: the source words, a negative one wrapped once. -/
theorem l1r2_v41_eq (x9 : (⟨S9x2x400000, .i32⟩ : BufTy).Contents (Elt Ideal)) : val_main_v145 (F := Ideal) x9 = srcIdx x9 (2 : Fin 9) := by
  funext i
  obtain ⟨e, u, rfl⟩ : ∃ (e : Fin 400000) (u : Fin 1), i = ix2 e u := ⟨i 0, i 1, eq_ix2 i⟩
  have hi : idx_main_v145 (ix2 e u) = ix1 e := funext fun a => match a with | ⟨0, _⟩ => rfl
  rw [srcIdx_apply, val_main_v145_apply, hi, val_main_v144_apply, val_main_v141_apply, val_main_v143_apply, val_main_v140_apply,
    val_main_v142_apply, val_main_c_46_apply, val_main_c_47_apply, l1r2_v4_at]

/-- The out-degree of node n. -/
theorem l1r2_v10_at (x9 : (⟨S9x2x400000, .i32⟩ : BufTy).Contents (Elt Ideal)) (n : Fin 50000) :
    val_main_v114 (F := Ideal) x9 (ix1 n) = degAt (colIdx x9 (2 : Fin 9) 0) n := by
  unfold val_main_v114
  rw [l1r2_v9_eq]
  exact scatterAdd_deg scatter_S50000_S400000x1_S400000_n_0_0_1 rfl rfl rfl rfl _ _ _
    (fun i => by rw [val_main_v112_apply, val_main_cst_34_apply]) (fun i => by rw [val_main_v111_apply, val_main_cst_33_apply]) n

/-- The in-degree of node n. -/
theorem l1r2_v13_at (x9 : (⟨S9x2x400000, .i32⟩ : BufTy).Contents (Elt Ideal)) (n : Fin 50000) :
    val_main_v117 (F := Ideal) x9 (ix1 n) = degAt (colIdx x9 (2 : Fin 9) 1) n := by
  unfold val_main_v117
  rw [l1r2_v12_eq]
  exact scatterAdd_deg scatter_S50000_S400000x1_S400000_n_0_0_1 rfl rfl rfl rfl _ _ _
    (fun i => by rw [val_main_v115_apply, val_main_cst_35_apply]) (fun i => by rw [val_main_v111_apply, val_main_cst_33_apply]) n

/-- The source norm of node n: the printed comparison, selections and power at the out-degree. -/
theorem l1r2_v21_at (x9 : (⟨S9x2x400000, .i32⟩ : BufTy).Contents (Elt Ideal)) (n : Fin 50000) :
    val_main_v125 (F := Ideal) x9 (ix1 n) = (graphOf x9).ns (2 : Fin 9) n := by
  rw [l1_graphOf_ns]
  unfold normAt
  rw [val_main_v125_apply, val_main_v124_apply, val_main_v122_apply, val_main_v120_apply, val_main_v119_apply, l1r2_v10_at,
    val_main_v123_apply, val_main_cst_39_apply, val_main_v121_apply, val_main_cst_38_apply, val_main_v118_apply, val_main_cst_36_apply,
    val_main_call8_v1_apply, val_main_call8_v0_apply, val_main_cst_37_apply, val_main_call9_v1_apply, val_main_call9_v0_apply,
    val_main_cst_40_apply]

/-- The destination norm of node n: the same chain at the in-degree. -/
theorem l1r2_v29_at (x9 : (⟨S9x2x400000, .i32⟩ : BufTy).Contents (Elt Ideal)) (n : Fin 50000) :
    val_main_v133 (F := Ideal) x9 (ix1 n) = (graphOf x9).nd (2 : Fin 9) n := by
  rw [l1_graphOf_nd]
  unfold normAt
  rw [val_main_v133_apply, val_main_v132_apply, val_main_v130_apply, val_main_v128_apply, val_main_v127_apply, l1r2_v13_at,
    val_main_v131_apply, val_main_cst_44_apply, val_main_v129_apply, val_main_cst_43_apply, val_main_v126_apply, val_main_cst_41_apply,
    val_main_call10_v1_apply, val_main_call10_v0_apply, val_main_cst_42_apply, val_main_call11_v1_apply, val_main_call11_v0_apply,
    val_main_cst_45_apply]

/-- The relation's weights read at (k, j): this relation's slab of the weight array. -/
theorem l1r2_v34_at (x3 : (⟨S9x128x128, .f32⟩ : BufTy).Contents (Elt Ideal)) (k j : Fin 128) :
    val_main_v138 (F := Ideal) x3 (ix2 k j) = x3 (ix3 (2 : Fin 9) k j) := by
  rw [val_main_v138_apply, val_main_v137_apply]
  refine congrArg x3 (funext fun a => ?_)
  have hk : k.val < 128 := k.isLt
  have hj : j.val < 128 := j.isLt
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

/-- The projected table: node n's scaled row contracted with the weights. -/
theorem l1r2_v35_at (x1 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v139 (F := Ideal) x1 x3 x9 (ix2 n j)
      = projRow (graphOf x9) (fun n k => x1 (ix2 n k)) (fun k j => x3 (ix3 (2 : Fin 9) k j)) (2 : Fin 9) n j := by
  unfold projRow
  rw [val_main_v139_apply]
  refine Finset.sum_congr rfl fun k _ => ?_
  have hl : lidx_main_v139 (ix2 n j) k = ix2 n k := funext fun a => match a with | ⟨0, _⟩ => rfl | ⟨1, _⟩ => rfl
  have hr : ridx_main_v139 (ix2 n j) k = ix2 k j := funext fun a => match a with | ⟨0, _⟩ => rfl | ⟨1, _⟩ => rfl
  have hi : idx_main_v134 (idx_main_v135 (ix2 n k)) = ix1 n := funext fun a => match a with | ⟨0, _⟩ => rfl
  rw [hl, hr, val_main_v136_apply, val_main_v135_apply, val_main_v134_apply, hi, l1r2_v21_at, l1r2_v34_at]
  rfl

theorem l1r2_v35_eq (x1 : (⟨S50000x128, .f32⟩ : BufTy).Contents (Elt Ideal)) (x3 : (⟨S9x128x128, .f32⟩ : BufTy).Contents (Elt Ideal)) (x9 : (⟨S9x2x400000, .i32⟩ : BufTy).Contents (Elt Ideal)) :
    val_main_v139 (F := Ideal) x1 x3 x9
      = fun i => projRow (graphOf x9) (fun n k => x1 (ix2 n k)) (fun k j => x3 (ix3 (2 : Fin 9) k j)) (2 : Fin 9) (i 0) (i 1) := by
  funext i
  obtain ⟨n, j, rfl⟩ : ∃ (n : Fin 50000) (j : Fin 128), i = ix2 n j := ⟨i 0, i 1, eq_ix2 i⟩
  exact l1r2_v35_at x1 x3 x9 n j

/-- The zero table the aggregation starts from. -/
theorem l1r2_v43_eq : val_main_v147 (F := Ideal) = fun _ => (0 : EReal) := by
  funext i
  rw [val_main_v147_apply, val_main_cst_48_apply]
  exact Ideal.ofBits_zero_f32

/-- (H1) The relation's product stage at (n, j) is the specification's relation 2 on the graph of the edge array. -/
theorem l1r2_rel (x1 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v152 (F := Ideal) x1 x3 x9 (ix2 n j)
      = Spec.relR (graphOf x9) (fun n k => x1 (ix2 n k)) (fun k j => x3 (ix3 (2 : Fin 9) k j)) (2 : Fin 9) n j := by
  have hi : idx_main_v150 (idx_main_v151 (ix2 n j)) = ix1 n := funext fun a => match a with | ⟨0, _⟩ => rfl
  rw [val_main_v152_apply, val_main_v151_apply, val_main_v150_apply, hi, l1r2_v29_at]
  unfold val_main_v149 val_main_v146
  exact relR_of_parts x9 (2 : Fin 9) _ _ _ _ _ _ l1r2_v43_eq (l1r2_v44_eq x9) (l1r2_v41_eq x9) (l1r2_v35_eq x1 x3 x9) n j

/-- The relation's bias broadcast at (n, j) is this relation's entry j of the bias array. -/
theorem l1r2_bias (x4 : (⟨S9x128, .f32⟩ : BufTy).Contents (Elt Ideal)) (n : Fin 50000) (j : Fin 128) :
    val_main_v157 (F := Ideal) x4 (ix2 n j) = x4 (ix2 (2 : Fin 9) j) := by
  rw [val_main_v157_apply, val_main_v156_apply, val_main_v155_apply, val_main_v154_apply]
  refine congrArg x4 (funext fun a => ?_)
  match a with
  | ⟨0, _⟩ => rfl
  | ⟨1, _⟩ => exact Fin.ext (Nat.mod_eq_of_lt j.isLt)

end Cert.ReferenceIdeal.RV

end
-- ==== Proof.RV.L1R3.lean ====
/-
  Layer 1 of the reference, relation 3, read at an index: the index columns, the two degree counts and their norms,
  the projected table, and the product stage as the specification's relation on the graph of the edge array.
-/
import proofs.«151568_j90031104458821_2_alg».proof.Proof.RV.L1Core

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## Layer 1, relation 3 (node type 0 to node type 0) -/

/-- The source column read at edge e is the edge array's source word of edge e in this relation's slab. -/
theorem l1r3_v4_at (x9 : (⟨S9x2x400000, .i32⟩ : BufTy).Contents (Elt Ideal)) (e : Fin 400000) :
    val_main_v160 (F := Ideal) x9 (ix1 e) = x9 (ix3 (3 : Fin 9) (0 : Fin 2) e) := by
  rw [val_main_v160_apply, val_main_v159_apply]
  refine congrArg x9 (funext fun a => ?_)
  match a with
  | ⟨0, _⟩ => rfl
  | ⟨1, _⟩ => rfl
  | ⟨2, _⟩ => exact Fin.ext (Nat.mod_eq_of_lt e.isLt)

/-- The destination column read at edge e is the destination word of edge e. -/
theorem l1r3_v6_at (x9 : (⟨S9x2x400000, .i32⟩ : BufTy).Contents (Elt Ideal)) (e : Fin 400000) :
    val_main_v162 (F := Ideal) x9 (ix1 e) = x9 (ix3 (3 : Fin 9) (1 : Fin 2) e) := by
  rw [val_main_v162_apply, val_main_v161_apply]
  refine congrArg x9 (funext fun a => ?_)
  match a with
  | ⟨0, _⟩ => rfl
  | ⟨1, _⟩ => rfl
  | ⟨2, _⟩ => exact Fin.ext (Nat.mod_eq_of_lt e.isLt)

/-- The [E, 1] source column of the out-degree count, -/
theorem l1r3_v9_eq (x9 : (⟨S9x2x400000, .i32⟩ : BufTy).Contents (Elt Ideal)) : val_main_v165 (F := Ideal) x9 = colIdx x9 (3 : Fin 9) 0 := by
  funext i
  obtain ⟨e, u, rfl⟩ : ∃ (e : Fin 400000) (u : Fin 1), i = ix2 e u := ⟨i 0, i 1, eq_ix2 i⟩
  have hi : idx_main_v165 (ix2 e u) = ix1 e := funext fun a => match a with | ⟨0, _⟩ => rfl
  rw [colIdx_apply, val_main_v165_apply, hi, l1r3_v4_at]

/-- the [E, 1] destination column of the in-degree count, -/
theorem l1r3_v12_eq (x9 : (⟨S9x2x400000, .i32⟩ : BufTy).Contents (Elt Ideal)) : val_main_v168 (F := Ideal) x9 = colIdx x9 (3 : Fin 9) 1 := by
  funext i
  obtain ⟨e, u, rfl⟩ : ∃ (e : Fin 400000) (u : Fin 1), i = ix2 e u := ⟨i 0, i 1, eq_ix2 i⟩
  have hi : idx_main_v168 (ix2 e u) = ix1 e := funext fun a => match a with | ⟨0, _⟩ => rfl
  rw [colIdx_apply, val_main_v168_apply, hi, l1r3_v6_at]

/-- and the [E, 1] destination column of the aggregation. -/
theorem l1r3_v44_eq (x9 : (⟨S9x2x400000, .i32⟩ : BufTy).Contents (Elt Ideal)) : val_main_v200 (F := Ideal) x9 = colIdx x9 (3 : Fin 9) 1 := by
  funext i
  obtain ⟨e, u, rfl⟩ : ∃ (e : Fin 400000) (u : Fin 1), i = ix2 e u := ⟨i 0, i 1, eq_ix2 i⟩
  have hi : idx_main_v200 (ix2 e u) = ix1 e := funext fun a => match a with | ⟨0, _⟩ => rfl
  rw [colIdx_apply, val_main_v200_apply, hi, l1r3_v6_at]

/-- The gather's start indices: the source words, a negative one wrapped once. -/
theorem l1r3_v41_eq (x9 : (⟨S9x2x400000, .i32⟩ : BufTy).Contents (Elt Ideal)) : val_main_v197 (F := Ideal) x9 = srcIdx x9 (3 : Fin 9) := by
  funext i
  obtain ⟨e, u, rfl⟩ : ∃ (e : Fin 400000) (u : Fin 1), i = ix2 e u := ⟨i 0, i 1, eq_ix2 i⟩
  have hi : idx_main_v197 (ix2 e u) = ix1 e := funext fun a => match a with | ⟨0, _⟩ => rfl
  rw [srcIdx_apply, val_main_v197_apply, hi, val_main_v196_apply, val_main_v193_apply, val_main_v195_apply, val_main_v192_apply,
    val_main_v194_apply, val_main_c_62_apply, val_main_c_63_apply, l1r3_v4_at]

/-- The out-degree of node n. -/
theorem l1r3_v10_at (x9 : (⟨S9x2x400000, .i32⟩ : BufTy).Contents (Elt Ideal)) (n : Fin 50000) :
    val_main_v166 (F := Ideal) x9 (ix1 n) = degAt (colIdx x9 (3 : Fin 9) 0) n := by
  unfold val_main_v166
  rw [l1r3_v9_eq]
  exact scatterAdd_deg scatter_S50000_S400000x1_S400000_n_0_0_1 rfl rfl rfl rfl _ _ _
    (fun i => by rw [val_main_v164_apply, val_main_cst_50_apply]) (fun i => by rw [val_main_v163_apply, val_main_cst_49_apply]) n

/-- The in-degree of node n. -/
theorem l1r3_v13_at (x9 : (⟨S9x2x400000, .i32⟩ : BufTy).Contents (Elt Ideal)) (n : Fin 50000) :
    val_main_v169 (F := Ideal) x9 (ix1 n) = degAt (colIdx x9 (3 : Fin 9) 1) n := by
  unfold val_main_v169
  rw [l1r3_v12_eq]
  exact scatterAdd_deg scatter_S50000_S400000x1_S400000_n_0_0_1 rfl rfl rfl rfl _ _ _
    (fun i => by rw [val_main_v167_apply, val_main_cst_51_apply]) (fun i => by rw [val_main_v163_apply, val_main_cst_49_apply]) n

/-- The source norm of node n: the printed comparison, selections and power at the out-degree. -/
theorem l1r3_v21_at (x9 : (⟨S9x2x400000, .i32⟩ : BufTy).Contents (Elt Ideal)) (n : Fin 50000) :
    val_main_v177 (F := Ideal) x9 (ix1 n) = (graphOf x9).ns (3 : Fin 9) n := by
  rw [l1_graphOf_ns]
  unfold normAt
  rw [val_main_v177_apply, val_main_v176_apply, val_main_v174_apply, val_main_v172_apply, val_main_v171_apply, l1r3_v10_at,
    val_main_v175_apply, val_main_cst_55_apply, val_main_v173_apply, val_main_cst_54_apply, val_main_v170_apply, val_main_cst_52_apply,
    val_main_call12_v1_apply, val_main_call12_v0_apply, val_main_cst_53_apply, val_main_call13_v1_apply, val_main_call13_v0_apply,
    val_main_cst_56_apply]

/-- The destination norm of node n: the same chain at the in-degree. -/
theorem l1r3_v29_at (x9 : (⟨S9x2x400000, .i32⟩ : BufTy).Contents (Elt Ideal)) (n : Fin 50000) :
    val_main_v185 (F := Ideal) x9 (ix1 n) = (graphOf x9).nd (3 : Fin 9) n := by
  rw [l1_graphOf_nd]
  unfold normAt
  rw [val_main_v185_apply, val_main_v184_apply, val_main_v182_apply, val_main_v180_apply, val_main_v179_apply, l1r3_v13_at,
    val_main_v183_apply, val_main_cst_60_apply, val_main_v181_apply, val_main_cst_59_apply, val_main_v178_apply, val_main_cst_57_apply,
    val_main_call14_v1_apply, val_main_call14_v0_apply, val_main_cst_58_apply, val_main_call15_v1_apply, val_main_call15_v0_apply,
    val_main_cst_61_apply]

/-- The relation's weights read at (k, j): this relation's slab of the weight array. -/
theorem l1r3_v34_at (x3 : (⟨S9x128x128, .f32⟩ : BufTy).Contents (Elt Ideal)) (k j : Fin 128) :
    val_main_v190 (F := Ideal) x3 (ix2 k j) = x3 (ix3 (3 : Fin 9) k j) := by
  rw [val_main_v190_apply, val_main_v189_apply]
  refine congrArg x3 (funext fun a => ?_)
  have hk : k.val < 128 := k.isLt
  have hj : j.val < 128 := j.isLt
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

/-- The projected table: node n's scaled row contracted with the weights. -/
theorem l1r3_v35_at (x0 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v191 (F := Ideal) x0 x3 x9 (ix2 n j)
      = projRow (graphOf x9) (fun n k => x0 (ix2 n k)) (fun k j => x3 (ix3 (3 : Fin 9) k j)) (3 : Fin 9) n j := by
  unfold projRow
  rw [val_main_v191_apply]
  refine Finset.sum_congr rfl fun k _ => ?_
  have hl : lidx_main_v191 (ix2 n j) k = ix2 n k := funext fun a => match a with | ⟨0, _⟩ => rfl | ⟨1, _⟩ => rfl
  have hr : ridx_main_v191 (ix2 n j) k = ix2 k j := funext fun a => match a with | ⟨0, _⟩ => rfl | ⟨1, _⟩ => rfl
  have hi : idx_main_v186 (idx_main_v187 (ix2 n k)) = ix1 n := funext fun a => match a with | ⟨0, _⟩ => rfl
  rw [hl, hr, val_main_v188_apply, val_main_v187_apply, val_main_v186_apply, hi, l1r3_v21_at, l1r3_v34_at]
  rfl

theorem l1r3_v35_eq (x0 : (⟨S50000x128, .f32⟩ : BufTy).Contents (Elt Ideal)) (x3 : (⟨S9x128x128, .f32⟩ : BufTy).Contents (Elt Ideal)) (x9 : (⟨S9x2x400000, .i32⟩ : BufTy).Contents (Elt Ideal)) :
    val_main_v191 (F := Ideal) x0 x3 x9
      = fun i => projRow (graphOf x9) (fun n k => x0 (ix2 n k)) (fun k j => x3 (ix3 (3 : Fin 9) k j)) (3 : Fin 9) (i 0) (i 1) := by
  funext i
  obtain ⟨n, j, rfl⟩ : ∃ (n : Fin 50000) (j : Fin 128), i = ix2 n j := ⟨i 0, i 1, eq_ix2 i⟩
  exact l1r3_v35_at x0 x3 x9 n j

/-- The zero table the aggregation starts from. -/
theorem l1r3_v43_eq : val_main_v199 (F := Ideal) = fun _ => (0 : EReal) := by
  funext i
  rw [val_main_v199_apply, val_main_cst_64_apply]
  exact Ideal.ofBits_zero_f32

/-- (H1) The relation's product stage at (n, j) is the specification's relation 3 on the graph of the edge array. -/
theorem l1r3_rel (x0 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v204 (F := Ideal) x0 x3 x9 (ix2 n j)
      = Spec.relR (graphOf x9) (fun n k => x0 (ix2 n k)) (fun k j => x3 (ix3 (3 : Fin 9) k j)) (3 : Fin 9) n j := by
  have hi : idx_main_v202 (idx_main_v203 (ix2 n j)) = ix1 n := funext fun a => match a with | ⟨0, _⟩ => rfl
  rw [val_main_v204_apply, val_main_v203_apply, val_main_v202_apply, hi, l1r3_v29_at]
  unfold val_main_v201 val_main_v198
  exact relR_of_parts x9 (3 : Fin 9) _ _ _ _ _ _ l1r3_v43_eq (l1r3_v44_eq x9) (l1r3_v41_eq x9) (l1r3_v35_eq x0 x3 x9) n j

/-- The relation's bias broadcast at (n, j) is this relation's entry j of the bias array. -/
theorem l1r3_bias (x4 : (⟨S9x128, .f32⟩ : BufTy).Contents (Elt Ideal)) (n : Fin 50000) (j : Fin 128) :
    val_main_v209 (F := Ideal) x4 (ix2 n j) = x4 (ix2 (3 : Fin 9) j) := by
  rw [val_main_v209_apply, val_main_v208_apply, val_main_v207_apply, val_main_v206_apply]
  refine congrArg x4 (funext fun a => ?_)
  match a with
  | ⟨0, _⟩ => rfl
  | ⟨1, _⟩ => exact Fin.ext (Nat.mod_eq_of_lt j.isLt)

end Cert.ReferenceIdeal.RV

end
-- ==== Proof.RV.L1R4.lean ====
/-
  Layer 1 of the reference, relation 4, read at an index: the index columns, the two degree counts and their norms,
  the projected table, and the product stage as the specification's relation on the graph of the edge array.
-/
import proofs.«151568_j90031104458821_2_alg».proof.Proof.RV.L1Core

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## Layer 1, relation 4 (node type 2 to node type 1) -/

/-- The source column read at edge e is the edge array's source word of edge e in this relation's slab. -/
theorem l1r4_v4_at (x9 : (⟨S9x2x400000, .i32⟩ : BufTy).Contents (Elt Ideal)) (e : Fin 400000) :
    val_main_v212 (F := Ideal) x9 (ix1 e) = x9 (ix3 (4 : Fin 9) (0 : Fin 2) e) := by
  rw [val_main_v212_apply, val_main_v211_apply]
  refine congrArg x9 (funext fun a => ?_)
  match a with
  | ⟨0, _⟩ => rfl
  | ⟨1, _⟩ => rfl
  | ⟨2, _⟩ => exact Fin.ext (Nat.mod_eq_of_lt e.isLt)

/-- The destination column read at edge e is the destination word of edge e. -/
theorem l1r4_v6_at (x9 : (⟨S9x2x400000, .i32⟩ : BufTy).Contents (Elt Ideal)) (e : Fin 400000) :
    val_main_v214 (F := Ideal) x9 (ix1 e) = x9 (ix3 (4 : Fin 9) (1 : Fin 2) e) := by
  rw [val_main_v214_apply, val_main_v213_apply]
  refine congrArg x9 (funext fun a => ?_)
  match a with
  | ⟨0, _⟩ => rfl
  | ⟨1, _⟩ => rfl
  | ⟨2, _⟩ => exact Fin.ext (Nat.mod_eq_of_lt e.isLt)

/-- The [E, 1] source column of the out-degree count, -/
theorem l1r4_v9_eq (x9 : (⟨S9x2x400000, .i32⟩ : BufTy).Contents (Elt Ideal)) : val_main_v217 (F := Ideal) x9 = colIdx x9 (4 : Fin 9) 0 := by
  funext i
  obtain ⟨e, u, rfl⟩ : ∃ (e : Fin 400000) (u : Fin 1), i = ix2 e u := ⟨i 0, i 1, eq_ix2 i⟩
  have hi : idx_main_v217 (ix2 e u) = ix1 e := funext fun a => match a with | ⟨0, _⟩ => rfl
  rw [colIdx_apply, val_main_v217_apply, hi, l1r4_v4_at]

/-- the [E, 1] destination column of the in-degree count, -/
theorem l1r4_v12_eq (x9 : (⟨S9x2x400000, .i32⟩ : BufTy).Contents (Elt Ideal)) : val_main_v220 (F := Ideal) x9 = colIdx x9 (4 : Fin 9) 1 := by
  funext i
  obtain ⟨e, u, rfl⟩ : ∃ (e : Fin 400000) (u : Fin 1), i = ix2 e u := ⟨i 0, i 1, eq_ix2 i⟩
  have hi : idx_main_v220 (ix2 e u) = ix1 e := funext fun a => match a with | ⟨0, _⟩ => rfl
  rw [colIdx_apply, val_main_v220_apply, hi, l1r4_v6_at]

/-- and the [E, 1] destination column of the aggregation. -/
theorem l1r4_v44_eq (x9 : (⟨S9x2x400000, .i32⟩ : BufTy).Contents (Elt Ideal)) : val_main_v252 (F := Ideal) x9 = colIdx x9 (4 : Fin 9) 1 := by
  funext i
  obtain ⟨e, u, rfl⟩ : ∃ (e : Fin 400000) (u : Fin 1), i = ix2 e u := ⟨i 0, i 1, eq_ix2 i⟩
  have hi : idx_main_v252 (ix2 e u) = ix1 e := funext fun a => match a with | ⟨0, _⟩ => rfl
  rw [colIdx_apply, val_main_v252_apply, hi, l1r4_v6_at]

/-- The gather's start indices: the source words, a negative one wrapped once. -/
theorem l1r4_v41_eq (x9 : (⟨S9x2x400000, .i32⟩ : BufTy).Contents (Elt Ideal)) : val_main_v249 (F := Ideal) x9 = srcIdx x9 (4 : Fin 9) := by
  funext i
  obtain ⟨e, u, rfl⟩ : ∃ (e : Fin 400000) (u : Fin 1), i = ix2 e u := ⟨i 0, i 1, eq_ix2 i⟩
  have hi : idx_main_v249 (ix2 e u) = ix1 e := funext fun a => match a with | ⟨0, _⟩ => rfl
  rw [srcIdx_apply, val_main_v249_apply, hi, val_main_v248_apply, val_main_v245_apply, val_main_v247_apply, val_main_v244_apply,
    val_main_v246_apply, val_main_c_78_apply, val_main_c_79_apply, l1r4_v4_at]

/-- The out-degree of node n. -/
theorem l1r4_v10_at (x9 : (⟨S9x2x400000, .i32⟩ : BufTy).Contents (Elt Ideal)) (n : Fin 50000) :
    val_main_v218 (F := Ideal) x9 (ix1 n) = degAt (colIdx x9 (4 : Fin 9) 0) n := by
  unfold val_main_v218
  rw [l1r4_v9_eq]
  exact scatterAdd_deg scatter_S50000_S400000x1_S400000_n_0_0_1 rfl rfl rfl rfl _ _ _
    (fun i => by rw [val_main_v216_apply, val_main_cst_66_apply]) (fun i => by rw [val_main_v215_apply, val_main_cst_65_apply]) n

/-- The in-degree of node n. -/
theorem l1r4_v13_at (x9 : (⟨S9x2x400000, .i32⟩ : BufTy).Contents (Elt Ideal)) (n : Fin 50000) :
    val_main_v221 (F := Ideal) x9 (ix1 n) = degAt (colIdx x9 (4 : Fin 9) 1) n := by
  unfold val_main_v221
  rw [l1r4_v12_eq]
  exact scatterAdd_deg scatter_S50000_S400000x1_S400000_n_0_0_1 rfl rfl rfl rfl _ _ _
    (fun i => by rw [val_main_v219_apply, val_main_cst_67_apply]) (fun i => by rw [val_main_v215_apply, val_main_cst_65_apply]) n

/-- The source norm of node n: the printed comparison, selections and power at the out-degree. -/
theorem l1r4_v21_at (x9 : (⟨S9x2x400000, .i32⟩ : BufTy).Contents (Elt Ideal)) (n : Fin 50000) :
    val_main_v229 (F := Ideal) x9 (ix1 n) = (graphOf x9).ns (4 : Fin 9) n := by
  rw [l1_graphOf_ns]
  unfold normAt
  rw [val_main_v229_apply, val_main_v228_apply, val_main_v226_apply, val_main_v224_apply, val_main_v223_apply, l1r4_v10_at,
    val_main_v227_apply, val_main_cst_71_apply, val_main_v225_apply, val_main_cst_70_apply, val_main_v222_apply, val_main_cst_68_apply,
    val_main_call16_v1_apply, val_main_call16_v0_apply, val_main_cst_69_apply, val_main_call17_v1_apply, val_main_call17_v0_apply,
    val_main_cst_72_apply]

/-- The destination norm of node n: the same chain at the in-degree. -/
theorem l1r4_v29_at (x9 : (⟨S9x2x400000, .i32⟩ : BufTy).Contents (Elt Ideal)) (n : Fin 50000) :
    val_main_v237 (F := Ideal) x9 (ix1 n) = (graphOf x9).nd (4 : Fin 9) n := by
  rw [l1_graphOf_nd]
  unfold normAt
  rw [val_main_v237_apply, val_main_v236_apply, val_main_v234_apply, val_main_v232_apply, val_main_v231_apply, l1r4_v13_at,
    val_main_v235_apply, val_main_cst_76_apply, val_main_v233_apply, val_main_cst_75_apply, val_main_v230_apply, val_main_cst_73_apply,
    val_main_call18_v1_apply, val_main_call18_v0_apply, val_main_cst_74_apply, val_main_call19_v1_apply, val_main_call19_v0_apply,
    val_main_cst_77_apply]

/-- The relation's weights read at (k, j): this relation's slab of the weight array. -/
theorem l1r4_v34_at (x3 : (⟨S9x128x128, .f32⟩ : BufTy).Contents (Elt Ideal)) (k j : Fin 128) :
    val_main_v242 (F := Ideal) x3 (ix2 k j) = x3 (ix3 (4 : Fin 9) k j) := by
  rw [val_main_v242_apply, val_main_v241_apply]
  refine congrArg x3 (funext fun a => ?_)
  have hk : k.val < 128 := k.isLt
  have hj : j.val < 128 := j.isLt
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

/-- The projected table: node n's scaled row contracted with the weights. -/
theorem l1r4_v35_at (x2 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v243 (F := Ideal) x2 x3 x9 (ix2 n j)
      = projRow (graphOf x9) (fun n k => x2 (ix2 n k)) (fun k j => x3 (ix3 (4 : Fin 9) k j)) (4 : Fin 9) n j := by
  unfold projRow
  rw [val_main_v243_apply]
  refine Finset.sum_congr rfl fun k _ => ?_
  have hl : lidx_main_v243 (ix2 n j) k = ix2 n k := funext fun a => match a with | ⟨0, _⟩ => rfl | ⟨1, _⟩ => rfl
  have hr : ridx_main_v243 (ix2 n j) k = ix2 k j := funext fun a => match a with | ⟨0, _⟩ => rfl | ⟨1, _⟩ => rfl
  have hi : idx_main_v238 (idx_main_v239 (ix2 n k)) = ix1 n := funext fun a => match a with | ⟨0, _⟩ => rfl
  rw [hl, hr, val_main_v240_apply, val_main_v239_apply, val_main_v238_apply, hi, l1r4_v21_at, l1r4_v34_at]
  rfl

theorem l1r4_v35_eq (x2 : (⟨S50000x128, .f32⟩ : BufTy).Contents (Elt Ideal)) (x3 : (⟨S9x128x128, .f32⟩ : BufTy).Contents (Elt Ideal)) (x9 : (⟨S9x2x400000, .i32⟩ : BufTy).Contents (Elt Ideal)) :
    val_main_v243 (F := Ideal) x2 x3 x9
      = fun i => projRow (graphOf x9) (fun n k => x2 (ix2 n k)) (fun k j => x3 (ix3 (4 : Fin 9) k j)) (4 : Fin 9) (i 0) (i 1) := by
  funext i
  obtain ⟨n, j, rfl⟩ : ∃ (n : Fin 50000) (j : Fin 128), i = ix2 n j := ⟨i 0, i 1, eq_ix2 i⟩
  exact l1r4_v35_at x2 x3 x9 n j

/-- The zero table the aggregation starts from. -/
theorem l1r4_v43_eq : val_main_v251 (F := Ideal) = fun _ => (0 : EReal) := by
  funext i
  rw [val_main_v251_apply, val_main_cst_80_apply]
  exact Ideal.ofBits_zero_f32

/-- (H1) The relation's product stage at (n, j) is the specification's relation 4 on the graph of the edge array. -/
theorem l1r4_rel (x2 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v256 (F := Ideal) x2 x3 x9 (ix2 n j)
      = Spec.relR (graphOf x9) (fun n k => x2 (ix2 n k)) (fun k j => x3 (ix3 (4 : Fin 9) k j)) (4 : Fin 9) n j := by
  have hi : idx_main_v254 (idx_main_v255 (ix2 n j)) = ix1 n := funext fun a => match a with | ⟨0, _⟩ => rfl
  rw [val_main_v256_apply, val_main_v255_apply, val_main_v254_apply, hi, l1r4_v29_at]
  unfold val_main_v253 val_main_v250
  exact relR_of_parts x9 (4 : Fin 9) _ _ _ _ _ _ l1r4_v43_eq (l1r4_v44_eq x9) (l1r4_v41_eq x9) (l1r4_v35_eq x2 x3 x9) n j

/-- The relation's bias broadcast at (n, j) is this relation's entry j of the bias array. -/
theorem l1r4_bias (x4 : (⟨S9x128, .f32⟩ : BufTy).Contents (Elt Ideal)) (n : Fin 50000) (j : Fin 128) :
    val_main_v261 (F := Ideal) x4 (ix2 n j) = x4 (ix2 (4 : Fin 9) j) := by
  rw [val_main_v261_apply, val_main_v260_apply, val_main_v259_apply, val_main_v258_apply]
  refine congrArg x4 (funext fun a => ?_)
  match a with
  | ⟨0, _⟩ => rfl
  | ⟨1, _⟩ => exact Fin.ext (Nat.mod_eq_of_lt j.isLt)

end Cert.ReferenceIdeal.RV

end
-- ==== Proof.RV.L1R5.lean ====
/-
  Layer 1 of the reference, relation 5, read at an index: the index columns, the two degree counts and their norms,
  the projected table, and the product stage as the specification's relation on the graph of the edge array.
-/
import proofs.«151568_j90031104458821_2_alg».proof.Proof.RV.L1Core

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## Layer 1, relation 5 (node type 2 to node type 0) -/

/-- The source column read at edge e is the edge array's source word of edge e in this relation's slab. -/
theorem l1r5_v4_at (x9 : (⟨S9x2x400000, .i32⟩ : BufTy).Contents (Elt Ideal)) (e : Fin 400000) :
    val_main_v264 (F := Ideal) x9 (ix1 e) = x9 (ix3 (5 : Fin 9) (0 : Fin 2) e) := by
  rw [val_main_v264_apply, val_main_v263_apply]
  refine congrArg x9 (funext fun a => ?_)
  match a with
  | ⟨0, _⟩ => rfl
  | ⟨1, _⟩ => rfl
  | ⟨2, _⟩ => exact Fin.ext (Nat.mod_eq_of_lt e.isLt)

/-- The destination column read at edge e is the destination word of edge e. -/
theorem l1r5_v6_at (x9 : (⟨S9x2x400000, .i32⟩ : BufTy).Contents (Elt Ideal)) (e : Fin 400000) :
    val_main_v266 (F := Ideal) x9 (ix1 e) = x9 (ix3 (5 : Fin 9) (1 : Fin 2) e) := by
  rw [val_main_v266_apply, val_main_v265_apply]
  refine congrArg x9 (funext fun a => ?_)
  match a with
  | ⟨0, _⟩ => rfl
  | ⟨1, _⟩ => rfl
  | ⟨2, _⟩ => exact Fin.ext (Nat.mod_eq_of_lt e.isLt)

/-- The [E, 1] source column of the out-degree count, -/
theorem l1r5_v9_eq (x9 : (⟨S9x2x400000, .i32⟩ : BufTy).Contents (Elt Ideal)) : val_main_v269 (F := Ideal) x9 = colIdx x9 (5 : Fin 9) 0 := by
  funext i
  obtain ⟨e, u, rfl⟩ : ∃ (e : Fin 400000) (u : Fin 1), i = ix2 e u := ⟨i 0, i 1, eq_ix2 i⟩
  have hi : idx_main_v269 (ix2 e u) = ix1 e := funext fun a => match a with | ⟨0, _⟩ => rfl
  rw [colIdx_apply, val_main_v269_apply, hi, l1r5_v4_at]

/-- the [E, 1] destination column of the in-degree count, -/
theorem l1r5_v12_eq (x9 : (⟨S9x2x400000, .i32⟩ : BufTy).Contents (Elt Ideal)) : val_main_v272 (F := Ideal) x9 = colIdx x9 (5 : Fin 9) 1 := by
  funext i
  obtain ⟨e, u, rfl⟩ : ∃ (e : Fin 400000) (u : Fin 1), i = ix2 e u := ⟨i 0, i 1, eq_ix2 i⟩
  have hi : idx_main_v272 (ix2 e u) = ix1 e := funext fun a => match a with | ⟨0, _⟩ => rfl
  rw [colIdx_apply, val_main_v272_apply, hi, l1r5_v6_at]

/-- and the [E, 1] destination column of the aggregation. -/
theorem l1r5_v44_eq (x9 : (⟨S9x2x400000, .i32⟩ : BufTy).Contents (Elt Ideal)) : val_main_v304 (F := Ideal) x9 = colIdx x9 (5 : Fin 9) 1 := by
  funext i
  obtain ⟨e, u, rfl⟩ : ∃ (e : Fin 400000) (u : Fin 1), i = ix2 e u := ⟨i 0, i 1, eq_ix2 i⟩
  have hi : idx_main_v304 (ix2 e u) = ix1 e := funext fun a => match a with | ⟨0, _⟩ => rfl
  rw [colIdx_apply, val_main_v304_apply, hi, l1r5_v6_at]

/-- The gather's start indices: the source words, a negative one wrapped once. -/
theorem l1r5_v41_eq (x9 : (⟨S9x2x400000, .i32⟩ : BufTy).Contents (Elt Ideal)) : val_main_v301 (F := Ideal) x9 = srcIdx x9 (5 : Fin 9) := by
  funext i
  obtain ⟨e, u, rfl⟩ : ∃ (e : Fin 400000) (u : Fin 1), i = ix2 e u := ⟨i 0, i 1, eq_ix2 i⟩
  have hi : idx_main_v301 (ix2 e u) = ix1 e := funext fun a => match a with | ⟨0, _⟩ => rfl
  rw [srcIdx_apply, val_main_v301_apply, hi, val_main_v300_apply, val_main_v297_apply, val_main_v299_apply, val_main_v296_apply,
    val_main_v298_apply, val_main_c_94_apply, val_main_c_95_apply, l1r5_v4_at]

/-- The out-degree of node n. -/
theorem l1r5_v10_at (x9 : (⟨S9x2x400000, .i32⟩ : BufTy).Contents (Elt Ideal)) (n : Fin 50000) :
    val_main_v270 (F := Ideal) x9 (ix1 n) = degAt (colIdx x9 (5 : Fin 9) 0) n := by
  unfold val_main_v270
  rw [l1r5_v9_eq]
  exact scatterAdd_deg scatter_S50000_S400000x1_S400000_n_0_0_1 rfl rfl rfl rfl _ _ _
    (fun i => by rw [val_main_v268_apply, val_main_cst_82_apply]) (fun i => by rw [val_main_v267_apply, val_main_cst_81_apply]) n

/-- The in-degree of node n. -/
theorem l1r5_v13_at (x9 : (⟨S9x2x400000, .i32⟩ : BufTy).Contents (Elt Ideal)) (n : Fin 50000) :
    val_main_v273 (F := Ideal) x9 (ix1 n) = degAt (colIdx x9 (5 : Fin 9) 1) n := by
  unfold val_main_v273
  rw [l1r5_v12_eq]
  exact scatterAdd_deg scatter_S50000_S400000x1_S400000_n_0_0_1 rfl rfl rfl rfl _ _ _
    (fun i => by rw [val_main_v271_apply, val_main_cst_83_apply]) (fun i => by rw [val_main_v267_apply, val_main_cst_81_apply]) n

/-- The source norm of node n: the printed comparison, selections and power at the out-degree. -/
theorem l1r5_v21_at (x9 : (⟨S9x2x400000, .i32⟩ : BufTy).Contents (Elt Ideal)) (n : Fin 50000) :
    val_main_v281 (F := Ideal) x9 (ix1 n) = (graphOf x9).ns (5 : Fin 9) n := by
  rw [l1_graphOf_ns]
  unfold normAt
  rw [val_main_v281_apply, val_main_v280_apply, val_main_v278_apply, val_main_v276_apply, val_main_v275_apply, l1r5_v10_at,
    val_main_v279_apply, val_main_cst_87_apply, val_main_v277_apply, val_main_cst_86_apply, val_main_v274_apply, val_main_cst_84_apply,
    val_main_call20_v1_apply, val_main_call20_v0_apply, val_main_cst_85_apply, val_main_call21_v1_apply, val_main_call21_v0_apply,
    val_main_cst_88_apply]

/-- The destination norm of node n: the same chain at the in-degree. -/
theorem l1r5_v29_at (x9 : (⟨S9x2x400000, .i32⟩ : BufTy).Contents (Elt Ideal)) (n : Fin 50000) :
    val_main_v289 (F := Ideal) x9 (ix1 n) = (graphOf x9).nd (5 : Fin 9) n := by
  rw [l1_graphOf_nd]
  unfold normAt
  rw [val_main_v289_apply, val_main_v288_apply, val_main_v286_apply, val_main_v284_apply, val_main_v283_apply, l1r5_v13_at,
    val_main_v287_apply, val_main_cst_92_apply, val_main_v285_apply, val_main_cst_91_apply, val_main_v282_apply, val_main_cst_89_apply,
    val_main_call22_v1_apply, val_main_call22_v0_apply, val_main_cst_90_apply, val_main_call23_v1_apply, val_main_call23_v0_apply,
    val_main_cst_93_apply]

/-- The relation's weights read at (k, j): this relation's slab of the weight array. -/
theorem l1r5_v34_at (x3 : (⟨S9x128x128, .f32⟩ : BufTy).Contents (Elt Ideal)) (k j : Fin 128) :
    val_main_v294 (F := Ideal) x3 (ix2 k j) = x3 (ix3 (5 : Fin 9) k j) := by
  rw [val_main_v294_apply, val_main_v293_apply]
  refine congrArg x3 (funext fun a => ?_)
  have hk : k.val < 128 := k.isLt
  have hj : j.val < 128 := j.isLt
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

/-- The projected table: node n's scaled row contracted with the weights. -/
theorem l1r5_v35_at (x2 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v295 (F := Ideal) x2 x3 x9 (ix2 n j)
      = projRow (graphOf x9) (fun n k => x2 (ix2 n k)) (fun k j => x3 (ix3 (5 : Fin 9) k j)) (5 : Fin 9) n j := by
  unfold projRow
  rw [val_main_v295_apply]
  refine Finset.sum_congr rfl fun k _ => ?_
  have hl : lidx_main_v295 (ix2 n j) k = ix2 n k := funext fun a => match a with | ⟨0, _⟩ => rfl | ⟨1, _⟩ => rfl
  have hr : ridx_main_v295 (ix2 n j) k = ix2 k j := funext fun a => match a with | ⟨0, _⟩ => rfl | ⟨1, _⟩ => rfl
  have hi : idx_main_v290 (idx_main_v291 (ix2 n k)) = ix1 n := funext fun a => match a with | ⟨0, _⟩ => rfl
  rw [hl, hr, val_main_v292_apply, val_main_v291_apply, val_main_v290_apply, hi, l1r5_v21_at, l1r5_v34_at]
  rfl

theorem l1r5_v35_eq (x2 : (⟨S50000x128, .f32⟩ : BufTy).Contents (Elt Ideal)) (x3 : (⟨S9x128x128, .f32⟩ : BufTy).Contents (Elt Ideal)) (x9 : (⟨S9x2x400000, .i32⟩ : BufTy).Contents (Elt Ideal)) :
    val_main_v295 (F := Ideal) x2 x3 x9
      = fun i => projRow (graphOf x9) (fun n k => x2 (ix2 n k)) (fun k j => x3 (ix3 (5 : Fin 9) k j)) (5 : Fin 9) (i 0) (i 1) := by
  funext i
  obtain ⟨n, j, rfl⟩ : ∃ (n : Fin 50000) (j : Fin 128), i = ix2 n j := ⟨i 0, i 1, eq_ix2 i⟩
  exact l1r5_v35_at x2 x3 x9 n j

/-- The zero table the aggregation starts from. -/
theorem l1r5_v43_eq : val_main_v303 (F := Ideal) = fun _ => (0 : EReal) := by
  funext i
  rw [val_main_v303_apply, val_main_cst_96_apply]
  exact Ideal.ofBits_zero_f32

/-- (H1) The relation's product stage at (n, j) is the specification's relation 5 on the graph of the edge array. -/
theorem l1r5_rel (x2 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v308 (F := Ideal) x2 x3 x9 (ix2 n j)
      = Spec.relR (graphOf x9) (fun n k => x2 (ix2 n k)) (fun k j => x3 (ix3 (5 : Fin 9) k j)) (5 : Fin 9) n j := by
  have hi : idx_main_v306 (idx_main_v307 (ix2 n j)) = ix1 n := funext fun a => match a with | ⟨0, _⟩ => rfl
  rw [val_main_v308_apply, val_main_v307_apply, val_main_v306_apply, hi, l1r5_v29_at]
  unfold val_main_v305 val_main_v302
  exact relR_of_parts x9 (5 : Fin 9) _ _ _ _ _ _ l1r5_v43_eq (l1r5_v44_eq x9) (l1r5_v41_eq x9) (l1r5_v35_eq x2 x3 x9) n j

/-- The relation's bias broadcast at (n, j) is this relation's entry j of the bias array. -/
theorem l1r5_bias (x4 : (⟨S9x128, .f32⟩ : BufTy).Contents (Elt Ideal)) (n : Fin 50000) (j : Fin 128) :
    val_main_v313 (F := Ideal) x4 (ix2 n j) = x4 (ix2 (5 : Fin 9) j) := by
  rw [val_main_v313_apply, val_main_v312_apply, val_main_v311_apply, val_main_v310_apply]
  refine congrArg x4 (funext fun a => ?_)
  match a with
  | ⟨0, _⟩ => rfl
  | ⟨1, _⟩ => exact Fin.ext (Nat.mod_eq_of_lt j.isLt)

end Cert.ReferenceIdeal.RV

end
-- ==== Proof.RV.L1R6.lean ====
/-
  Layer 1 of the reference, relation 6, read at an index: the index columns, the two degree counts and their norms,
  the projected table, and the product stage as the specification's relation on the graph of the edge array.
-/
import proofs.«151568_j90031104458821_2_alg».proof.Proof.RV.L1Core

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## Layer 1, relation 6 (node type 0 to node type 0) -/

/-- The source column read at edge e is the edge array's source word of edge e in this relation's slab. -/
theorem l1r6_v4_at (x9 : (⟨S9x2x400000, .i32⟩ : BufTy).Contents (Elt Ideal)) (e : Fin 400000) :
    val_main_v316 (F := Ideal) x9 (ix1 e) = x9 (ix3 (6 : Fin 9) (0 : Fin 2) e) := by
  rw [val_main_v316_apply, val_main_v315_apply]
  refine congrArg x9 (funext fun a => ?_)
  match a with
  | ⟨0, _⟩ => rfl
  | ⟨1, _⟩ => rfl
  | ⟨2, _⟩ => exact Fin.ext (Nat.mod_eq_of_lt e.isLt)

/-- The destination column read at edge e is the destination word of edge e. -/
theorem l1r6_v6_at (x9 : (⟨S9x2x400000, .i32⟩ : BufTy).Contents (Elt Ideal)) (e : Fin 400000) :
    val_main_v318 (F := Ideal) x9 (ix1 e) = x9 (ix3 (6 : Fin 9) (1 : Fin 2) e) := by
  rw [val_main_v318_apply, val_main_v317_apply]
  refine congrArg x9 (funext fun a => ?_)
  match a with
  | ⟨0, _⟩ => rfl
  | ⟨1, _⟩ => rfl
  | ⟨2, _⟩ => exact Fin.ext (Nat.mod_eq_of_lt e.isLt)

/-- The [E, 1] source column of the out-degree count, -/
theorem l1r6_v9_eq (x9 : (⟨S9x2x400000, .i32⟩ : BufTy).Contents (Elt Ideal)) : val_main_v321 (F := Ideal) x9 = colIdx x9 (6 : Fin 9) 0 := by
  funext i
  obtain ⟨e, u, rfl⟩ : ∃ (e : Fin 400000) (u : Fin 1), i = ix2 e u := ⟨i 0, i 1, eq_ix2 i⟩
  have hi : idx_main_v321 (ix2 e u) = ix1 e := funext fun a => match a with | ⟨0, _⟩ => rfl
  rw [colIdx_apply, val_main_v321_apply, hi, l1r6_v4_at]

/-- the [E, 1] destination column of the in-degree count, -/
theorem l1r6_v12_eq (x9 : (⟨S9x2x400000, .i32⟩ : BufTy).Contents (Elt Ideal)) : val_main_v324 (F := Ideal) x9 = colIdx x9 (6 : Fin 9) 1 := by
  funext i
  obtain ⟨e, u, rfl⟩ : ∃ (e : Fin 400000) (u : Fin 1), i = ix2 e u := ⟨i 0, i 1, eq_ix2 i⟩
  have hi : idx_main_v324 (ix2 e u) = ix1 e := funext fun a => match a with | ⟨0, _⟩ => rfl
  rw [colIdx_apply, val_main_v324_apply, hi, l1r6_v6_at]

/-- and the [E, 1] destination column of the aggregation. -/
theorem l1r6_v44_eq (x9 : (⟨S9x2x400000, .i32⟩ : BufTy).Contents (Elt Ideal)) : val_main_v356 (F := Ideal) x9 = colIdx x9 (6 : Fin 9) 1 := by
  funext i
  obtain ⟨e, u, rfl⟩ : ∃ (e : Fin 400000) (u : Fin 1), i = ix2 e u := ⟨i 0, i 1, eq_ix2 i⟩
  have hi : idx_main_v356 (ix2 e u) = ix1 e := funext fun a => match a with | ⟨0, _⟩ => rfl
  rw [colIdx_apply, val_main_v356_apply, hi, l1r6_v6_at]

/-- The gather's start indices: the source words, a negative one wrapped once. -/
theorem l1r6_v41_eq (x9 : (⟨S9x2x400000, .i32⟩ : BufTy).Contents (Elt Ideal)) : val_main_v353 (F := Ideal) x9 = srcIdx x9 (6 : Fin 9) := by
  funext i
  obtain ⟨e, u, rfl⟩ : ∃ (e : Fin 400000) (u : Fin 1), i = ix2 e u := ⟨i 0, i 1, eq_ix2 i⟩
  have hi : idx_main_v353 (ix2 e u) = ix1 e := funext fun a => match a with | ⟨0, _⟩ => rfl
  rw [srcIdx_apply, val_main_v353_apply, hi, val_main_v352_apply, val_main_v349_apply, val_main_v351_apply, val_main_v348_apply,
    val_main_v350_apply, val_main_c_110_apply, val_main_c_111_apply, l1r6_v4_at]

/-- The out-degree of node n. -/
theorem l1r6_v10_at (x9 : (⟨S9x2x400000, .i32⟩ : BufTy).Contents (Elt Ideal)) (n : Fin 50000) :
    val_main_v322 (F := Ideal) x9 (ix1 n) = degAt (colIdx x9 (6 : Fin 9) 0) n := by
  unfold val_main_v322
  rw [l1r6_v9_eq]
  exact scatterAdd_deg scatter_S50000_S400000x1_S400000_n_0_0_1 rfl rfl rfl rfl _ _ _
    (fun i => by rw [val_main_v320_apply, val_main_cst_98_apply]) (fun i => by rw [val_main_v319_apply, val_main_cst_97_apply]) n

/-- The in-degree of node n. -/
theorem l1r6_v13_at (x9 : (⟨S9x2x400000, .i32⟩ : BufTy).Contents (Elt Ideal)) (n : Fin 50000) :
    val_main_v325 (F := Ideal) x9 (ix1 n) = degAt (colIdx x9 (6 : Fin 9) 1) n := by
  unfold val_main_v325
  rw [l1r6_v12_eq]
  exact scatterAdd_deg scatter_S50000_S400000x1_S400000_n_0_0_1 rfl rfl rfl rfl _ _ _
    (fun i => by rw [val_main_v323_apply, val_main_cst_99_apply]) (fun i => by rw [val_main_v319_apply, val_main_cst_97_apply]) n

/-- The source norm of node n: the printed comparison, selections and power at the out-degree. -/
theorem l1r6_v21_at (x9 : (⟨S9x2x400000, .i32⟩ : BufTy).Contents (Elt Ideal)) (n : Fin 50000) :
    val_main_v333 (F := Ideal) x9 (ix1 n) = (graphOf x9).ns (6 : Fin 9) n := by
  rw [l1_graphOf_ns]
  unfold normAt
  rw [val_main_v333_apply, val_main_v332_apply, val_main_v330_apply, val_main_v328_apply, val_main_v327_apply, l1r6_v10_at,
    val_main_v331_apply, val_main_cst_103_apply, val_main_v329_apply, val_main_cst_102_apply, val_main_v326_apply, val_main_cst_100_apply,
    val_main_call24_v1_apply, val_main_call24_v0_apply, val_main_cst_101_apply, val_main_call25_v1_apply, val_main_call25_v0_apply,
    val_main_cst_104_apply]

/-- The destination norm of node n: the same chain at the in-degree. -/
theorem l1r6_v29_at (x9 : (⟨S9x2x400000, .i32⟩ : BufTy).Contents (Elt Ideal)) (n : Fin 50000) :
    val_main_v341 (F := Ideal) x9 (ix1 n) = (graphOf x9).nd (6 : Fin 9) n := by
  rw [l1_graphOf_nd]
  unfold normAt
  rw [val_main_v341_apply, val_main_v340_apply, val_main_v338_apply, val_main_v336_apply, val_main_v335_apply, l1r6_v13_at,
    val_main_v339_apply, val_main_cst_108_apply, val_main_v337_apply, val_main_cst_107_apply, val_main_v334_apply, val_main_cst_105_apply,
    val_main_call26_v1_apply, val_main_call26_v0_apply, val_main_cst_106_apply, val_main_call27_v1_apply, val_main_call27_v0_apply,
    val_main_cst_109_apply]

/-- The relation's weights read at (k, j): this relation's slab of the weight array. -/
theorem l1r6_v34_at (x3 : (⟨S9x128x128, .f32⟩ : BufTy).Contents (Elt Ideal)) (k j : Fin 128) :
    val_main_v346 (F := Ideal) x3 (ix2 k j) = x3 (ix3 (6 : Fin 9) k j) := by
  rw [val_main_v346_apply, val_main_v345_apply]
  refine congrArg x3 (funext fun a => ?_)
  have hk : k.val < 128 := k.isLt
  have hj : j.val < 128 := j.isLt
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

/-- The projected table: node n's scaled row contracted with the weights. -/
theorem l1r6_v35_at (x0 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v347 (F := Ideal) x0 x3 x9 (ix2 n j)
      = projRow (graphOf x9) (fun n k => x0 (ix2 n k)) (fun k j => x3 (ix3 (6 : Fin 9) k j)) (6 : Fin 9) n j := by
  unfold projRow
  rw [val_main_v347_apply]
  refine Finset.sum_congr rfl fun k _ => ?_
  have hl : lidx_main_v347 (ix2 n j) k = ix2 n k := funext fun a => match a with | ⟨0, _⟩ => rfl | ⟨1, _⟩ => rfl
  have hr : ridx_main_v347 (ix2 n j) k = ix2 k j := funext fun a => match a with | ⟨0, _⟩ => rfl | ⟨1, _⟩ => rfl
  have hi : idx_main_v342 (idx_main_v343 (ix2 n k)) = ix1 n := funext fun a => match a with | ⟨0, _⟩ => rfl
  rw [hl, hr, val_main_v344_apply, val_main_v343_apply, val_main_v342_apply, hi, l1r6_v21_at, l1r6_v34_at]
  rfl

theorem l1r6_v35_eq (x0 : (⟨S50000x128, .f32⟩ : BufTy).Contents (Elt Ideal)) (x3 : (⟨S9x128x128, .f32⟩ : BufTy).Contents (Elt Ideal)) (x9 : (⟨S9x2x400000, .i32⟩ : BufTy).Contents (Elt Ideal)) :
    val_main_v347 (F := Ideal) x0 x3 x9
      = fun i => projRow (graphOf x9) (fun n k => x0 (ix2 n k)) (fun k j => x3 (ix3 (6 : Fin 9) k j)) (6 : Fin 9) (i 0) (i 1) := by
  funext i
  obtain ⟨n, j, rfl⟩ : ∃ (n : Fin 50000) (j : Fin 128), i = ix2 n j := ⟨i 0, i 1, eq_ix2 i⟩
  exact l1r6_v35_at x0 x3 x9 n j

/-- The zero table the aggregation starts from. -/
theorem l1r6_v43_eq : val_main_v355 (F := Ideal) = fun _ => (0 : EReal) := by
  funext i
  rw [val_main_v355_apply, val_main_cst_112_apply]
  exact Ideal.ofBits_zero_f32

/-- (H1) The relation's product stage at (n, j) is the specification's relation 6 on the graph of the edge array. -/
theorem l1r6_rel (x0 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v360 (F := Ideal) x0 x3 x9 (ix2 n j)
      = Spec.relR (graphOf x9) (fun n k => x0 (ix2 n k)) (fun k j => x3 (ix3 (6 : Fin 9) k j)) (6 : Fin 9) n j := by
  have hi : idx_main_v358 (idx_main_v359 (ix2 n j)) = ix1 n := funext fun a => match a with | ⟨0, _⟩ => rfl
  rw [val_main_v360_apply, val_main_v359_apply, val_main_v358_apply, hi, l1r6_v29_at]
  unfold val_main_v357 val_main_v354
  exact relR_of_parts x9 (6 : Fin 9) _ _ _ _ _ _ l1r6_v43_eq (l1r6_v44_eq x9) (l1r6_v41_eq x9) (l1r6_v35_eq x0 x3 x9) n j

/-- The relation's bias broadcast at (n, j) is this relation's entry j of the bias array. -/
theorem l1r6_bias (x4 : (⟨S9x128, .f32⟩ : BufTy).Contents (Elt Ideal)) (n : Fin 50000) (j : Fin 128) :
    val_main_v365 (F := Ideal) x4 (ix2 n j) = x4 (ix2 (6 : Fin 9) j) := by
  rw [val_main_v365_apply, val_main_v364_apply, val_main_v363_apply, val_main_v362_apply]
  refine congrArg x4 (funext fun a => ?_)
  match a with
  | ⟨0, _⟩ => rfl
  | ⟨1, _⟩ => exact Fin.ext (Nat.mod_eq_of_lt j.isLt)

end Cert.ReferenceIdeal.RV

end
-- ==== Proof.RV.L1R7.lean ====
/-
  Layer 1 of the reference, relation 7, read at an index: the index columns, the two degree counts and their norms,
  the projected table, and the product stage as the specification's relation on the graph of the edge array.
-/
import proofs.«151568_j90031104458821_2_alg».proof.Proof.RV.L1Core

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## Layer 1, relation 7 (node type 2 to node type 2) -/

/-- The source column read at edge e is the edge array's source word of edge e in this relation's slab. -/
theorem l1r7_v4_at (x9 : (⟨S9x2x400000, .i32⟩ : BufTy).Contents (Elt Ideal)) (e : Fin 400000) :
    val_main_v368 (F := Ideal) x9 (ix1 e) = x9 (ix3 (7 : Fin 9) (0 : Fin 2) e) := by
  rw [val_main_v368_apply, val_main_v367_apply]
  refine congrArg x9 (funext fun a => ?_)
  match a with
  | ⟨0, _⟩ => rfl
  | ⟨1, _⟩ => rfl
  | ⟨2, _⟩ => exact Fin.ext (Nat.mod_eq_of_lt e.isLt)

/-- The destination column read at edge e is the destination word of edge e. -/
theorem l1r7_v6_at (x9 : (⟨S9x2x400000, .i32⟩ : BufTy).Contents (Elt Ideal)) (e : Fin 400000) :
    val_main_v370 (F := Ideal) x9 (ix1 e) = x9 (ix3 (7 : Fin 9) (1 : Fin 2) e) := by
  rw [val_main_v370_apply, val_main_v369_apply]
  refine congrArg x9 (funext fun a => ?_)
  match a with
  | ⟨0, _⟩ => rfl
  | ⟨1, _⟩ => rfl
  | ⟨2, _⟩ => exact Fin.ext (Nat.mod_eq_of_lt e.isLt)

/-- The [E, 1] source column of the out-degree count, -/
theorem l1r7_v9_eq (x9 : (⟨S9x2x400000, .i32⟩ : BufTy).Contents (Elt Ideal)) : val_main_v373 (F := Ideal) x9 = colIdx x9 (7 : Fin 9) 0 := by
  funext i
  obtain ⟨e, u, rfl⟩ : ∃ (e : Fin 400000) (u : Fin 1), i = ix2 e u := ⟨i 0, i 1, eq_ix2 i⟩
  have hi : idx_main_v373 (ix2 e u) = ix1 e := funext fun a => match a with | ⟨0, _⟩ => rfl
  rw [colIdx_apply, val_main_v373_apply, hi, l1r7_v4_at]

/-- the [E, 1] destination column of the in-degree count, -/
theorem l1r7_v12_eq (x9 : (⟨S9x2x400000, .i32⟩ : BufTy).Contents (Elt Ideal)) : val_main_v376 (F := Ideal) x9 = colIdx x9 (7 : Fin 9) 1 := by
  funext i
  obtain ⟨e, u, rfl⟩ : ∃ (e : Fin 400000) (u : Fin 1), i = ix2 e u := ⟨i 0, i 1, eq_ix2 i⟩
  have hi : idx_main_v376 (ix2 e u) = ix1 e := funext fun a => match a with | ⟨0, _⟩ => rfl
  rw [colIdx_apply, val_main_v376_apply, hi, l1r7_v6_at]

/-- and the [E, 1] destination column of the aggregation. -/
theorem l1r7_v44_eq (x9 : (⟨S9x2x400000, .i32⟩ : BufTy).Contents (Elt Ideal)) : val_main_v408 (F := Ideal) x9 = colIdx x9 (7 : Fin 9) 1 := by
  funext i
  obtain ⟨e, u, rfl⟩ : ∃ (e : Fin 400000) (u : Fin 1), i = ix2 e u := ⟨i 0, i 1, eq_ix2 i⟩
  have hi : idx_main_v408 (ix2 e u) = ix1 e := funext fun a => match a with | ⟨0, _⟩ => rfl
  rw [colIdx_apply, val_main_v408_apply, hi, l1r7_v6_at]

/-- The gather's start indices: the source words, a negative one wrapped once. -/
theorem l1r7_v41_eq (x9 : (⟨S9x2x400000, .i32⟩ : BufTy).Contents (Elt Ideal)) : val_main_v405 (F := Ideal) x9 = srcIdx x9 (7 : Fin 9) := by
  funext i
  obtain ⟨e, u, rfl⟩ : ∃ (e : Fin 400000) (u : Fin 1), i = ix2 e u := ⟨i 0, i 1, eq_ix2 i⟩
  have hi : idx_main_v405 (ix2 e u) = ix1 e := funext fun a => match a with | ⟨0, _⟩ => rfl
  rw [srcIdx_apply, val_main_v405_apply, hi, val_main_v404_apply, val_main_v401_apply, val_main_v403_apply, val_main_v400_apply,
    val_main_v402_apply, val_main_c_126_apply, val_main_c_127_apply, l1r7_v4_at]

/-- The out-degree of node n. -/
theorem l1r7_v10_at (x9 : (⟨S9x2x400000, .i32⟩ : BufTy).Contents (Elt Ideal)) (n : Fin 50000) :
    val_main_v374 (F := Ideal) x9 (ix1 n) = degAt (colIdx x9 (7 : Fin 9) 0) n := by
  unfold val_main_v374
  rw [l1r7_v9_eq]
  exact scatterAdd_deg scatter_S50000_S400000x1_S400000_n_0_0_1 rfl rfl rfl rfl _ _ _
    (fun i => by rw [val_main_v372_apply, val_main_cst_114_apply]) (fun i => by rw [val_main_v371_apply, val_main_cst_113_apply]) n

/-- The in-degree of node n. -/
theorem l1r7_v13_at (x9 : (⟨S9x2x400000, .i32⟩ : BufTy).Contents (Elt Ideal)) (n : Fin 50000) :
    val_main_v377 (F := Ideal) x9 (ix1 n) = degAt (colIdx x9 (7 : Fin 9) 1) n := by
  unfold val_main_v377
  rw [l1r7_v12_eq]
  exact scatterAdd_deg scatter_S50000_S400000x1_S400000_n_0_0_1 rfl rfl rfl rfl _ _ _
    (fun i => by rw [val_main_v375_apply, val_main_cst_115_apply]) (fun i => by rw [val_main_v371_apply, val_main_cst_113_apply]) n

/-- The source norm of node n: the printed comparison, selections and power at the out-degree. -/
theorem l1r7_v21_at (x9 : (⟨S9x2x400000, .i32⟩ : BufTy).Contents (Elt Ideal)) (n : Fin 50000) :
    val_main_v385 (F := Ideal) x9 (ix1 n) = (graphOf x9).ns (7 : Fin 9) n := by
  rw [l1_graphOf_ns]
  unfold normAt
  rw [val_main_v385_apply, val_main_v384_apply, val_main_v382_apply, val_main_v380_apply, val_main_v379_apply, l1r7_v10_at,
    val_main_v383_apply, val_main_cst_119_apply, val_main_v381_apply, val_main_cst_118_apply, val_main_v378_apply, val_main_cst_116_apply,
    val_main_call28_v1_apply, val_main_call28_v0_apply, val_main_cst_117_apply, val_main_call29_v1_apply, val_main_call29_v0_apply,
    val_main_cst_120_apply]

/-- The destination norm of node n: the same chain at the in-degree. -/
theorem l1r7_v29_at (x9 : (⟨S9x2x400000, .i32⟩ : BufTy).Contents (Elt Ideal)) (n : Fin 50000) :
    val_main_v393 (F := Ideal) x9 (ix1 n) = (graphOf x9).nd (7 : Fin 9) n := by
  rw [l1_graphOf_nd]
  unfold normAt
  rw [val_main_v393_apply, val_main_v392_apply, val_main_v390_apply, val_main_v388_apply, val_main_v387_apply, l1r7_v13_at,
    val_main_v391_apply, val_main_cst_124_apply, val_main_v389_apply, val_main_cst_123_apply, val_main_v386_apply, val_main_cst_121_apply,
    val_main_call30_v1_apply, val_main_call30_v0_apply, val_main_cst_122_apply, val_main_call31_v1_apply, val_main_call31_v0_apply,
    val_main_cst_125_apply]

/-- The relation's weights read at (k, j): this relation's slab of the weight array. -/
theorem l1r7_v34_at (x3 : (⟨S9x128x128, .f32⟩ : BufTy).Contents (Elt Ideal)) (k j : Fin 128) :
    val_main_v398 (F := Ideal) x3 (ix2 k j) = x3 (ix3 (7 : Fin 9) k j) := by
  rw [val_main_v398_apply, val_main_v397_apply]
  refine congrArg x3 (funext fun a => ?_)
  have hk : k.val < 128 := k.isLt
  have hj : j.val < 128 := j.isLt
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

/-- The projected table: node n's scaled row contracted with the weights. -/
theorem l1r7_v35_at (x2 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v399 (F := Ideal) x2 x3 x9 (ix2 n j)
      = projRow (graphOf x9) (fun n k => x2 (ix2 n k)) (fun k j => x3 (ix3 (7 : Fin 9) k j)) (7 : Fin 9) n j := by
  unfold projRow
  rw [val_main_v399_apply]
  refine Finset.sum_congr rfl fun k _ => ?_
  have hl : lidx_main_v399 (ix2 n j) k = ix2 n k := funext fun a => match a with | ⟨0, _⟩ => rfl | ⟨1, _⟩ => rfl
  have hr : ridx_main_v399 (ix2 n j) k = ix2 k j := funext fun a => match a with | ⟨0, _⟩ => rfl | ⟨1, _⟩ => rfl
  have hi : idx_main_v394 (idx_main_v395 (ix2 n k)) = ix1 n := funext fun a => match a with | ⟨0, _⟩ => rfl
  rw [hl, hr, val_main_v396_apply, val_main_v395_apply, val_main_v394_apply, hi, l1r7_v21_at, l1r7_v34_at]
  rfl

theorem l1r7_v35_eq (x2 : (⟨S50000x128, .f32⟩ : BufTy).Contents (Elt Ideal)) (x3 : (⟨S9x128x128, .f32⟩ : BufTy).Contents (Elt Ideal)) (x9 : (⟨S9x2x400000, .i32⟩ : BufTy).Contents (Elt Ideal)) :
    val_main_v399 (F := Ideal) x2 x3 x9
      = fun i => projRow (graphOf x9) (fun n k => x2 (ix2 n k)) (fun k j => x3 (ix3 (7 : Fin 9) k j)) (7 : Fin 9) (i 0) (i 1) := by
  funext i
  obtain ⟨n, j, rfl⟩ : ∃ (n : Fin 50000) (j : Fin 128), i = ix2 n j := ⟨i 0, i 1, eq_ix2 i⟩
  exact l1r7_v35_at x2 x3 x9 n j

/-- The zero table the aggregation starts from. -/
theorem l1r7_v43_eq : val_main_v407 (F := Ideal) = fun _ => (0 : EReal) := by
  funext i
  rw [val_main_v407_apply, val_main_cst_128_apply]
  exact Ideal.ofBits_zero_f32

/-- (H1) The relation's product stage at (n, j) is the specification's relation 7 on the graph of the edge array. -/
theorem l1r7_rel (x2 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v412 (F := Ideal) x2 x3 x9 (ix2 n j)
      = Spec.relR (graphOf x9) (fun n k => x2 (ix2 n k)) (fun k j => x3 (ix3 (7 : Fin 9) k j)) (7 : Fin 9) n j := by
  have hi : idx_main_v410 (idx_main_v411 (ix2 n j)) = ix1 n := funext fun a => match a with | ⟨0, _⟩ => rfl
  rw [val_main_v412_apply, val_main_v411_apply, val_main_v410_apply, hi, l1r7_v29_at]
  unfold val_main_v409 val_main_v406
  exact relR_of_parts x9 (7 : Fin 9) _ _ _ _ _ _ l1r7_v43_eq (l1r7_v44_eq x9) (l1r7_v41_eq x9) (l1r7_v35_eq x2 x3 x9) n j

/-- The relation's bias broadcast at (n, j) is this relation's entry j of the bias array. -/
theorem l1r7_bias (x4 : (⟨S9x128, .f32⟩ : BufTy).Contents (Elt Ideal)) (n : Fin 50000) (j : Fin 128) :
    val_main_v417 (F := Ideal) x4 (ix2 n j) = x4 (ix2 (7 : Fin 9) j) := by
  rw [val_main_v417_apply, val_main_v416_apply, val_main_v415_apply, val_main_v414_apply]
  refine congrArg x4 (funext fun a => ?_)
  match a with
  | ⟨0, _⟩ => rfl
  | ⟨1, _⟩ => exact Fin.ext (Nat.mod_eq_of_lt j.isLt)

end Cert.ReferenceIdeal.RV

end
-- ==== Proof.RV.L1R8.lean ====
/-
  Layer 1 of the reference, relation 8, read at an index: the index columns, the two degree counts and their norms,
  the projected table, and the product stage as the specification's relation on the graph of the edge array.
-/
import proofs.«151568_j90031104458821_2_alg».proof.Proof.RV.L1Core

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## Layer 1, relation 8 (node type 1 to node type 1) -/

/-- The source column read at edge e is the edge array's source word of edge e in this relation's slab. -/
theorem l1r8_v4_at (x9 : (⟨S9x2x400000, .i32⟩ : BufTy).Contents (Elt Ideal)) (e : Fin 400000) :
    val_main_v420 (F := Ideal) x9 (ix1 e) = x9 (ix3 (8 : Fin 9) (0 : Fin 2) e) := by
  rw [val_main_v420_apply, val_main_v419_apply]
  refine congrArg x9 (funext fun a => ?_)
  match a with
  | ⟨0, _⟩ => rfl
  | ⟨1, _⟩ => rfl
  | ⟨2, _⟩ => exact Fin.ext (Nat.mod_eq_of_lt e.isLt)

/-- The destination column read at edge e is the destination word of edge e. -/
theorem l1r8_v6_at (x9 : (⟨S9x2x400000, .i32⟩ : BufTy).Contents (Elt Ideal)) (e : Fin 400000) :
    val_main_v422 (F := Ideal) x9 (ix1 e) = x9 (ix3 (8 : Fin 9) (1 : Fin 2) e) := by
  rw [val_main_v422_apply, val_main_v421_apply]
  refine congrArg x9 (funext fun a => ?_)
  match a with
  | ⟨0, _⟩ => rfl
  | ⟨1, _⟩ => rfl
  | ⟨2, _⟩ => exact Fin.ext (Nat.mod_eq_of_lt e.isLt)

/-- The [E, 1] source column of the out-degree count, -/
theorem l1r8_v9_eq (x9 : (⟨S9x2x400000, .i32⟩ : BufTy).Contents (Elt Ideal)) : val_main_v425 (F := Ideal) x9 = colIdx x9 (8 : Fin 9) 0 := by
  funext i
  obtain ⟨e, u, rfl⟩ : ∃ (e : Fin 400000) (u : Fin 1), i = ix2 e u := ⟨i 0, i 1, eq_ix2 i⟩
  have hi : idx_main_v425 (ix2 e u) = ix1 e := funext fun a => match a with | ⟨0, _⟩ => rfl
  rw [colIdx_apply, val_main_v425_apply, hi, l1r8_v4_at]

/-- the [E, 1] destination column of the in-degree count, -/
theorem l1r8_v12_eq (x9 : (⟨S9x2x400000, .i32⟩ : BufTy).Contents (Elt Ideal)) : val_main_v428 (F := Ideal) x9 = colIdx x9 (8 : Fin 9) 1 := by
  funext i
  obtain ⟨e, u, rfl⟩ : ∃ (e : Fin 400000) (u : Fin 1), i = ix2 e u := ⟨i 0, i 1, eq_ix2 i⟩
  have hi : idx_main_v428 (ix2 e u) = ix1 e := funext fun a => match a with | ⟨0, _⟩ => rfl
  rw [colIdx_apply, val_main_v428_apply, hi, l1r8_v6_at]

/-- and the [E, 1] destination column of the aggregation. -/
theorem l1r8_v44_eq (x9 : (⟨S9x2x400000, .i32⟩ : BufTy).Contents (Elt Ideal)) : val_main_v460 (F := Ideal) x9 = colIdx x9 (8 : Fin 9) 1 := by
  funext i
  obtain ⟨e, u, rfl⟩ : ∃ (e : Fin 400000) (u : Fin 1), i = ix2 e u := ⟨i 0, i 1, eq_ix2 i⟩
  have hi : idx_main_v460 (ix2 e u) = ix1 e := funext fun a => match a with | ⟨0, _⟩ => rfl
  rw [colIdx_apply, val_main_v460_apply, hi, l1r8_v6_at]

/-- The gather's start indices: the source words, a negative one wrapped once. -/
theorem l1r8_v41_eq (x9 : (⟨S9x2x400000, .i32⟩ : BufTy).Contents (Elt Ideal)) : val_main_v457 (F := Ideal) x9 = srcIdx x9 (8 : Fin 9) := by
  funext i
  obtain ⟨e, u, rfl⟩ : ∃ (e : Fin 400000) (u : Fin 1), i = ix2 e u := ⟨i 0, i 1, eq_ix2 i⟩
  have hi : idx_main_v457 (ix2 e u) = ix1 e := funext fun a => match a with | ⟨0, _⟩ => rfl
  rw [srcIdx_apply, val_main_v457_apply, hi, val_main_v456_apply, val_main_v453_apply, val_main_v455_apply, val_main_v452_apply,
    val_main_v454_apply, val_main_c_142_apply, val_main_c_143_apply, l1r8_v4_at]

/-- The out-degree of node n. -/
theorem l1r8_v10_at (x9 : (⟨S9x2x400000, .i32⟩ : BufTy).Contents (Elt Ideal)) (n : Fin 50000) :
    val_main_v426 (F := Ideal) x9 (ix1 n) = degAt (colIdx x9 (8 : Fin 9) 0) n := by
  unfold val_main_v426
  rw [l1r8_v9_eq]
  exact scatterAdd_deg scatter_S50000_S400000x1_S400000_n_0_0_1 rfl rfl rfl rfl _ _ _
    (fun i => by rw [val_main_v424_apply, val_main_cst_130_apply]) (fun i => by rw [val_main_v423_apply, val_main_cst_129_apply]) n

/-- The in-degree of node n. -/
theorem l1r8_v13_at (x9 : (⟨S9x2x400000, .i32⟩ : BufTy).Contents (Elt Ideal)) (n : Fin 50000) :
    val_main_v429 (F := Ideal) x9 (ix1 n) = degAt (colIdx x9 (8 : Fin 9) 1) n := by
  unfold val_main_v429
  rw [l1r8_v12_eq]
  exact scatterAdd_deg scatter_S50000_S400000x1_S400000_n_0_0_1 rfl rfl rfl rfl _ _ _
    (fun i => by rw [val_main_v427_apply, val_main_cst_131_apply]) (fun i => by rw [val_main_v423_apply, val_main_cst_129_apply]) n

/-- The source norm of node n: the printed comparison, selections and power at the out-degree. -/
theorem l1r8_v21_at (x9 : (⟨S9x2x400000, .i32⟩ : BufTy).Contents (Elt Ideal)) (n : Fin 50000) :
    val_main_v437 (F := Ideal) x9 (ix1 n) = (graphOf x9).ns (8 : Fin 9) n := by
  rw [l1_graphOf_ns]
  unfold normAt
  rw [val_main_v437_apply, val_main_v436_apply, val_main_v434_apply, val_main_v432_apply, val_main_v431_apply, l1r8_v10_at,
    val_main_v435_apply, val_main_cst_135_apply, val_main_v433_apply, val_main_cst_134_apply, val_main_v430_apply, val_main_cst_132_apply,
    val_main_call32_v1_apply, val_main_call32_v0_apply, val_main_cst_133_apply, val_main_call33_v1_apply, val_main_call33_v0_apply,
    val_main_cst_136_apply]

/-- The destination norm of node n: the same chain at the in-degree. -/
theorem l1r8_v29_at (x9 : (⟨S9x2x400000, .i32⟩ : BufTy).Contents (Elt Ideal)) (n : Fin 50000) :
    val_main_v445 (F := Ideal) x9 (ix1 n) = (graphOf x9).nd (8 : Fin 9) n := by
  rw [l1_graphOf_nd]
  unfold normAt
  rw [val_main_v445_apply, val_main_v444_apply, val_main_v442_apply, val_main_v440_apply, val_main_v439_apply, l1r8_v13_at,
    val_main_v443_apply, val_main_cst_140_apply, val_main_v441_apply, val_main_cst_139_apply, val_main_v438_apply, val_main_cst_137_apply,
    val_main_call34_v1_apply, val_main_call34_v0_apply, val_main_cst_138_apply, val_main_call35_v1_apply, val_main_call35_v0_apply,
    val_main_cst_141_apply]

/-- The relation's weights read at (k, j): this relation's slab of the weight array. -/
theorem l1r8_v34_at (x3 : (⟨S9x128x128, .f32⟩ : BufTy).Contents (Elt Ideal)) (k j : Fin 128) :
    val_main_v450 (F := Ideal) x3 (ix2 k j) = x3 (ix3 (8 : Fin 9) k j) := by
  rw [val_main_v450_apply, val_main_v449_apply]
  refine congrArg x3 (funext fun a => ?_)
  have hk : k.val < 128 := k.isLt
  have hj : j.val < 128 := j.isLt
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

/-- The projected table: node n's scaled row contracted with the weights. -/
theorem l1r8_v35_at (x1 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v451 (F := Ideal) x1 x3 x9 (ix2 n j)
      = projRow (graphOf x9) (fun n k => x1 (ix2 n k)) (fun k j => x3 (ix3 (8 : Fin 9) k j)) (8 : Fin 9) n j := by
  unfold projRow
  rw [val_main_v451_apply]
  refine Finset.sum_congr rfl fun k _ => ?_
  have hl : lidx_main_v451 (ix2 n j) k = ix2 n k := funext fun a => match a with | ⟨0, _⟩ => rfl | ⟨1, _⟩ => rfl
  have hr : ridx_main_v451 (ix2 n j) k = ix2 k j := funext fun a => match a with | ⟨0, _⟩ => rfl | ⟨1, _⟩ => rfl
  have hi : idx_main_v446 (idx_main_v447 (ix2 n k)) = ix1 n := funext fun a => match a with | ⟨0, _⟩ => rfl
  rw [hl, hr, val_main_v448_apply, val_main_v447_apply, val_main_v446_apply, hi, l1r8_v21_at, l1r8_v34_at]
  rfl

theorem l1r8_v35_eq (x1 : (⟨S50000x128, .f32⟩ : BufTy).Contents (Elt Ideal)) (x3 : (⟨S9x128x128, .f32⟩ : BufTy).Contents (Elt Ideal)) (x9 : (⟨S9x2x400000, .i32⟩ : BufTy).Contents (Elt Ideal)) :
    val_main_v451 (F := Ideal) x1 x3 x9
      = fun i => projRow (graphOf x9) (fun n k => x1 (ix2 n k)) (fun k j => x3 (ix3 (8 : Fin 9) k j)) (8 : Fin 9) (i 0) (i 1) := by
  funext i
  obtain ⟨n, j, rfl⟩ : ∃ (n : Fin 50000) (j : Fin 128), i = ix2 n j := ⟨i 0, i 1, eq_ix2 i⟩
  exact l1r8_v35_at x1 x3 x9 n j

/-- The zero table the aggregation starts from. -/
theorem l1r8_v43_eq : val_main_v459 (F := Ideal) = fun _ => (0 : EReal) := by
  funext i
  rw [val_main_v459_apply, val_main_cst_144_apply]
  exact Ideal.ofBits_zero_f32

/-- (H1) The relation's product stage at (n, j) is the specification's relation 8 on the graph of the edge array. -/
theorem l1r8_rel (x1 : (⟨S50000x128, .f32⟩ : BufTy).Contents (Elt Ideal)) (x3 : (⟨S9x128x128, .f32⟩ : BufTy).Contents (Elt Ideal)) (x9 : (⟨S9x2x400000, .i32⟩ : BufTy).Contents (Elt Ideal)) (n : Fin 50000) (j : Fin 128) :
    val_main_v464 (F := Ideal) x1 x3 x9 (ix2 n j)
      = Spec.relR (graphOf x9) (fun n k => x1 (ix2 n k)) (fun k j => x3 (ix3 (8 : Fin 9) k j)) (8 : Fin 9) n j := by
  have hi : idx_main_v462 (idx_main_v463 (ix2 n j)) = ix1 n := funext fun a => match a with | ⟨0, _⟩ => rfl
  rw [val_main_v464_apply, val_main_v463_apply, val_main_v462_apply, hi, l1r8_v29_at]
  unfold val_main_v461 val_main_v458
  exact relR_of_parts x9 (8 : Fin 9) _ _ _ _ _ _ l1r8_v43_eq (l1r8_v44_eq x9) (l1r8_v41_eq x9) (l1r8_v35_eq x1 x3 x9) n j

/-- The relation's bias broadcast at (n, j) is this relation's entry j of the bias array. -/
theorem l1r8_bias (x4 : (⟨S9x128, .f32⟩ : BufTy).Contents (Elt Ideal)) (n : Fin 50000) (j : Fin 128) :
    val_main_v469 (F := Ideal) x4 (ix2 n j) = x4 (ix2 (8 : Fin 9) j) := by
  rw [val_main_v469_apply, val_main_v468_apply, val_main_v467_apply, val_main_v466_apply]
  refine congrArg x4 (funext fun a => ?_)
  match a with
  | ⟨0, _⟩ => rfl
  | ⟨1, _⟩ => exact Fin.ext (Nat.mod_eq_of_lt j.isLt)

end Cert.ReferenceIdeal.RV

end
-- ==== Proof.RV.L1Sum.lean ====
/-
  Layer 1 of the reference, the sums: each node type's table is the zero table plus, in relation order, every relation
  arriving at that type followed by its bias — the specification's `layerR` on the graph of the edge array, read at (n, j).
-/
import proofs.«151568_j90031104458821_2_alg».proof.Proof.RV.L1R0
import proofs.«151568_j90031104458821_2_alg».proof.Proof.RV.L1R1
import proofs.«151568_j90031104458821_2_alg».proof.Proof.RV.L1R2
import proofs.«151568_j90031104458821_2_alg».proof.Proof.RV.L1R3
import proofs.«151568_j90031104458821_2_alg».proof.Proof.RV.L1R4
import proofs.«151568_j90031104458821_2_alg».proof.Proof.RV.L1R5
import proofs.«151568_j90031104458821_2_alg».proof.Proof.RV.L1R6
import proofs.«151568_j90031104458821_2_alg».proof.Proof.RV.L1R7
import proofs.«151568_j90031104458821_2_alg».proof.Proof.RV.L1R8

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## The three zero tables the sums start from -/

theorem l1_v0_at (i : S50000x128.Idx) : val_main_v0 (F := Ideal) i = 0 := by
  rw [val_main_v0_apply, val_main_cst_apply]
  exact Ideal.ofBits_zero_f32

theorem l1_v1_at (i : S50000x128.Idx) : val_main_v1 (F := Ideal) i = 0 := by
  rw [val_main_v1_apply, val_main_cst_0_apply]
  exact Ideal.ofBits_zero_f32

theorem l1_v2_at (i : S50000x128.Idx) : val_main_v2 (F := Ideal) i = 0 := by
  rw [val_main_v2_apply, val_main_cst_1_apply]
  exact Ideal.ofBits_zero_f32

/-! ## (H2) The sums -/

/-- Node type 0 receives relations 2, 3, 5, 6. -/
theorem l1_sum0 (x0 : (⟨S50000x128, .f32⟩ : BufTy).Contents (Elt Ideal)) (x1 : (⟨S50000x128, .f32⟩ : BufTy).Contents (Elt Ideal)) (x2 : (⟨S50000x128, .f32⟩ : BufTy).Contents (Elt Ideal)) (x3 : (⟨S9x128x128, .f32⟩ : BufTy).Contents (Elt Ideal)) (x4 : (⟨S9x128, .f32⟩ : BufTy).Contents (Elt Ideal)) (x9 : (⟨S9x2x400000, .i32⟩ : BufTy).Contents (Elt Ideal)) (n : Fin 50000) (j : Fin 128) :
    val_main_v366 (F := Ideal) x0 x1 x2 x3 x4 x9 (ix2 n j)
      = Spec.layerR (graphOf x9) (tabs x0 x1 x2) (wts x3) (bias x4) 0 n j := by
  show _ = Spec.layerR (graphOf x9) (tabs x0 x1 x2) (wts x3) (bias x4) ⟨0, by decide⟩ n j
  rw [val_main_v366_apply, val_main_v361_apply, val_main_v314_apply, val_main_v309_apply, val_main_v210_apply, val_main_v205_apply,
    val_main_v158_apply, val_main_v153_apply, l1_v0_at,
    l1r2_rel, l1r2_bias, l1r3_rel, l1r3_bias, l1r5_rel, l1r5_bias, l1r6_rel, l1r6_bias]
  simp only [Spec.layerR, Ideal.addf_def, tabs_zero, tabs_one, tabs_two, wts_apply, bias_apply]

/-- Node type 1 receives relations 4, 8. -/
theorem l1_sum1 (x0 : (⟨S50000x128, .f32⟩ : BufTy).Contents (Elt Ideal)) (x1 : (⟨S50000x128, .f32⟩ : BufTy).Contents (Elt Ideal)) (x2 : (⟨S50000x128, .f32⟩ : BufTy).Contents (Elt Ideal)) (x3 : (⟨S9x128x128, .f32⟩ : BufTy).Contents (Elt Ideal)) (x4 : (⟨S9x128, .f32⟩ : BufTy).Contents (Elt Ideal)) (x9 : (⟨S9x2x400000, .i32⟩ : BufTy).Contents (Elt Ideal)) (n : Fin 50000) (j : Fin 128) :
    val_main_v470 (F := Ideal) x1 x2 x3 x4 x9 (ix2 n j)
      = Spec.layerR (graphOf x9) (tabs x0 x1 x2) (wts x3) (bias x4) 1 n j := by
  show _ = Spec.layerR (graphOf x9) (tabs x0 x1 x2) (wts x3) (bias x4) ⟨1, by decide⟩ n j
  rw [val_main_v470_apply, val_main_v465_apply, val_main_v262_apply, val_main_v257_apply, l1_v1_at,
    l1r4_rel, l1r4_bias, l1r8_rel, l1r8_bias]
  simp only [Spec.layerR, Ideal.addf_def, tabs_zero, tabs_one, tabs_two, wts_apply, bias_apply]

/-- Node type 2 receives relations 0, 1, 7. -/
theorem l1_sum2 (x0 : (⟨S50000x128, .f32⟩ : BufTy).Contents (Elt Ideal)) (x1 : (⟨S50000x128, .f32⟩ : BufTy).Contents (Elt Ideal)) (x2 : (⟨S50000x128, .f32⟩ : BufTy).Contents (Elt Ideal)) (x3 : (⟨S9x128x128, .f32⟩ : BufTy).Contents (Elt Ideal)) (x4 : (⟨S9x128, .f32⟩ : BufTy).Contents (Elt Ideal)) (x9 : (⟨S9x2x400000, .i32⟩ : BufTy).Contents (Elt Ideal)) (n : Fin 50000) (j : Fin 128) :
    val_main_v418 (F := Ideal) x0 x1 x2 x3 x4 x9 (ix2 n j)
      = Spec.layerR (graphOf x9) (tabs x0 x1 x2) (wts x3) (bias x4) 2 n j := by
  show _ = Spec.layerR (graphOf x9) (tabs x0 x1 x2) (wts x3) (bias x4) ⟨2, by decide⟩ n j
  rw [val_main_v418_apply, val_main_v413_apply, val_main_v106_apply, val_main_v101_apply, val_main_v54_apply, val_main_v49_apply,
    l1_v2_at, l1r0_rel, l1r0_bias, l1r1_rel, l1r1_bias, l1r7_rel, l1r7_bias]
  simp only [Spec.layerR, Ideal.addf_def, tabs_zero, tabs_one, tabs_two, wts_apply, bias_apply]

end Cert.ReferenceIdeal.RV

end
-- ==== Proof.RV.L2Lib.lean ====
/-
  One relation of a layer of the reference, over the arrays its operations produce.

  The reference scales the source table by the source norm, projects every node's row by the relation's weights,
  gathers the projected rows along the edges, sums them at the destination nodes and scales by the destination norm.
  Read at one element this is `Spec.relR` over the graph of the edge array, as soon as the projected table, the zero
  operand and the two index columns are what they should be element by element. The degree norm is the printed chain
  of comparison, selection and power over the degree.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf

noncomputable section

namespace Cert.ReferenceIdeal.RV

open Idealize.ShloMosaic Idealize.ShloMosaic.ValueIdx Cert.Math Cert.IdxOps Cert.Spec Cert.GraphOf
open scoped BigOperators

/-- The zero constant of the norm is the number 0. -/
theorem Z_eq : (Z : EReal) = 0 := Ideal.ofBits_zero_f32

/-- The source norm of the graph of the edge array, by its definition. -/
theorem graphOf_ns (edges : IVec ⟨3, ![9, 2, 400000]⟩ 32) (r : Fin 9) (n : Fin 50000) :
    (graphOf edges).ns r n = normAt (degAt (colIdx edges r 0) n) := by
  simp only [graphOf]

/-- The destination norm of the graph of the edge array, by its definition. -/
theorem graphOf_nd (edges : IVec ⟨3, ![9, 2, 400000]⟩ 32) (r : Fin 9) (n : Fin 50000) :
    (graphOf edges).nd r n = normAt (degAt (colIdx edges r 1) n) := by
  simp only [graphOf]

/-- A relation's scaled aggregate: the accumulating scatter, along the destination column into a zero operand, of the
    rows gathered along the wrapped source column from the projected table, times the destination norm. -/
theorem relR_of_stages (edges : IVec ⟨3, ![9, 2, 400000]⟩ 32) (r : Fin 9)
    (ds : ScatterDims ⟨2, ![50000, 128]⟩ ⟨2, ![400000, 1]⟩ ⟨2, ![400000, 128]⟩)
    (huw : ds.updateWindowDims = [1]) (hiw : ds.insertedWindowDims = [0]) (hsd : ds.scatterDimsToOperandDims = [0]) (hiv : ds.indexVectorDim = 1)
    (dg : GatherDims ⟨2, ![50000, 128]⟩ ⟨2, ![400000, 1]⟩ ⟨2, ![400000, 128]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1) (hss : dg.sliceSizes = ![1, 128])
    (x : Tab) (W : Fin 128 → Fin 128 → EReal)
    (zero proj : FVec Ideal ⟨2, ![50000, 128]⟩ .f32) (src dst : IVec ⟨2, ![400000, 1]⟩ 32)
    (hzero : ∀ i, zero i = (0 : EReal))
    (hproj : ∀ m c, proj (ix2 m c) = ∑ k : Fin 128, (x m k * (graphOf edges).ns r m) * W k c)
    (hsrc : src = srcIdx edges r) (hdst : dst = colIdx edges r 1)
    (n : Fin 50000) (j : Fin 128) :
    Host.scatterAdd (F := Ideal) (φ := .f32) ds zero dst (Host.gather dg proj src) (ix2 n j) * (graphOf edges).nd r n
      = relR (graphOf edges) x W r n j := by
  subst hsrc hdst
  rw [scatterAdd_rows ds huw hiw hsd hiv, hzero]
  unfold relR
  refine congrArg (fun z => ((0 : EReal) + z) * (graphOf edges).nd r n) (Finset.sum_congr rfl fun e _ => ?_)
  rw [gather_rows dg hoff hcoll hob hsb hsim hivd hss _ _ e j (by decide : 0 < 128), hproj,
    gatherRow_srcIdx dg hoff hcoll hob hsb hsim hivd hss edges r e]
  rfl

/-- The printed norm chain over a degree, read at one node, is the norm of the degree. -/
theorem norm_of_stages (deg z1 z2 one mh zz d : EReal)
    (hdeg : deg = d) (h1 : z1 = Z) (h2 : z2 = Z) (ho : one = ONE) (hm : mh = MHALF) (hz : zz = Z) :
    Scalar.select (FloatOps.cmpf (F := Ideal) (φ := .f32) .ogt deg z2)
      (FloatOps.hostPowf (F := Ideal) (φ := .f32) (Scalar.select (FloatOps.cmpf (F := Ideal) (φ := .f32) .ogt deg z1) deg one) mh) zz
      = normAt d := by
  subst hdeg h1 h2 ho hm hz
  rfl

end Cert.ReferenceIdeal.RV

end
-- ==== Proof.RV.L2R0.lean ====
/-
  Layer 2 of the reference, relation 0, read at one element.

  The relation's block of operations: the two index columns cut from the edge array, the two degree counts and their
  norms, the source table (the activated layer-1 sum of the source type) scaled by the source norm and projected by the
  relation's weights, the projected rows gathered along the edges and summed at the destination, scaled by the
  destination norm, added to the running sum of the destination type, and the bias added. Each stage is read from the
  stages before it; together they give `Spec.relR` over the graph of the edge array, plus the accumulation.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf
import proofs.«151568_j90031104458821_2_alg».proof.Proof.RefReadP
import proofs.«151568_j90031104458821_2_alg».proof.Proof.RV.L2Lib

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The constant arrays of the block, at any float family -/

section Consts
variable {F : FTy → Type} [FloatOps F]

theorem l2r0_k482 (i : S50000.Idx) : val_main_v482 (F := F) i = FloatOps.ofBits .f32 0x00000000#32 := (val_main_v482_apply i).trans rfl
theorem l2r0_k485 (i : S50000.Idx) : val_main_v485 (F := F) i = FloatOps.ofBits .f32 0x00000000#32 := (val_main_v485_apply i).trans rfl
theorem l2r0_k481 (i : S400000.Idx) : val_main_v481 (F := F) i = FloatOps.ofBits .f32 0x3F800000#32 := (val_main_v481_apply i).trans rfl
theorem l2r0_k488 (i : S50000.Idx) : val_main_v488 (F := F) i = FloatOps.ofBits .f32 0x00000000#32 := (val_main_v488_apply i).trans rfl
theorem l2r0_k493 (i : S50000.Idx) : val_main_v493 (F := F) i = FloatOps.ofBits .f32 0x00000000#32 := (val_main_v493_apply i).trans rfl
theorem l2r0_k491 (i : S50000.Idx) : val_main_v491 (F := F) i = FloatOps.ofBits .f32 0xBF000000#32 := (val_main_v491_apply i).trans rfl
theorem l2r0_k496 (i : S50000.Idx) : val_main_v496 (F := F) i = FloatOps.ofBits .f32 0x00000000#32 := (val_main_v496_apply i).trans rfl
theorem l2r0_k501 (i : S50000.Idx) : val_main_v501 (F := F) i = FloatOps.ofBits .f32 0x00000000#32 := (val_main_v501_apply i).trans rfl
theorem l2r0_k499 (i : S50000.Idx) : val_main_v499 (F := F) i = FloatOps.ofBits .f32 0xBF000000#32 := (val_main_v499_apply i).trans rfl
theorem l2r0_w39 (i : S50000.Idx) : val_main_call39_v1 (F := F) i = FloatOps.ofBits .f32 0x3F800000#32 := (val_main_call39_v1_apply i).trans rfl
theorem l2r0_w40 (i : S50000.Idx) : val_main_call40_v1 (F := F) i = FloatOps.ofBits .f32 0x00000000#32 := (val_main_call40_v1_apply i).trans rfl
theorem l2r0_w41 (i : S50000.Idx) : val_main_call41_v1 (F := F) i = FloatOps.ofBits .f32 0x3F800000#32 := (val_main_call41_v1_apply i).trans rfl
theorem l2r0_w42 (i : S50000.Idx) : val_main_call42_v1 (F := F) i = FloatOps.ofBits .f32 0x00000000#32 := (val_main_call42_v1_apply i).trans rfl
theorem l2r0_k517 (i : S50000x128.Idx) : val_main_v517 (F := F) i = FloatOps.ofBits .f32 0x00000000#32 := (val_main_v517_apply i).trans rfl

end Consts

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The index columns -/

/-- The source words of the relation: a row of the edge array. -/
theorem l2r0_col0 (e : S400000.Idx) :
    val_main_v478 (F := Ideal) x9 e = x9 (ix3 (0 : Fin 9) (0 : Fin 2) (⟨(e 0).val, (e 0).isLt⟩ : Fin 400000)) := by
  rw [val_main_v478_apply, val_main_v477_apply]
  refine congrArg x9 (funext fun a => ?_)
  match a with
  | ⟨0, _⟩ => rfl
  | ⟨1, _⟩ => rfl
  | ⟨2, _⟩ => exact Fin.ext (Nat.mod_eq_of_lt (e 0).isLt)

/-- The destination words of the relation: the next row of the edge array. -/
theorem l2r0_col1 (e : S400000.Idx) :
    val_main_v480 (F := Ideal) x9 e = x9 (ix3 (0 : Fin 9) (1 : Fin 2) (⟨(e 0).val, (e 0).isLt⟩ : Fin 400000)) := by
  rw [val_main_v480_apply, val_main_v479_apply]
  refine congrArg x9 (funext fun a => ?_)
  match a with
  | ⟨0, _⟩ => rfl
  | ⟨1, _⟩ => rfl
  | ⟨2, _⟩ => exact Fin.ext (Nat.mod_eq_of_lt (e 0).isLt)

/-- The index column of the out-degree count is the source column. -/
theorem l2r0_c0 : val_main_v483 (F := Ideal) x9 = colIdx x9 (0 : Fin 9) 0 :=
  funext fun i => (val_main_v483_apply x9 i).trans (l2r0_col0 x0 x1 x2 x3 x4 x5 x6 x9 _)

/-- The index column of the in-degree count is the destination column. -/
theorem l2r0_c1 : val_main_v486 (F := Ideal) x9 = colIdx x9 (0 : Fin 9) 1 :=
  funext fun i => (val_main_v486_apply x9 i).trans (l2r0_col1 x0 x1 x2 x3 x4 x5 x6 x9 _)

/-- The index column of the aggregation is the destination column. -/
theorem l2r0_dst : val_main_v518 (F := Ideal) x9 = colIdx x9 (0 : Fin 9) 1 :=
  funext fun i => (val_main_v518_apply x9 i).trans (l2r0_col1 x0 x1 x2 x3 x4 x5 x6 x9 _)

/-- The start indices of the gather are the source column, a negative word wrapped once. -/
theorem l2r0_src : val_main_v515 (F := Ideal) x9 = srcIdx x9 (0 : Fin 9) :=
  funext fun i => by
    rw [val_main_v515_apply, val_main_v514_apply, val_main_v511_apply, val_main_v513_apply, l2r0_col0 x0 x1 x2 x3 x4 x5 x6 x9]
    rfl

/-! ## The two norms -/

/-- The source norm of node m. -/
theorem l2r0_ns (m : Fin 50000) : val_main_v495 (F := Ideal) x9 (ix1 m) = (graphOf x9).ns (0 : Fin 9) m := by
  have hdeg : val_main_v484 (F := Ideal) x9 (ix1 m) = degAt (colIdx x9 (0 : Fin 9) 0) m := by
    unfold val_main_v484
    rw [l2r0_c0 x0 x1 x2 x3 x4 x5 x6 x9]
    exact scatterAdd_deg _ rfl rfl rfl rfl _ _ _ (fun i => l2r0_k482 i) (fun i => l2r0_k481 i) m
  rw [graphOf_ns, val_main_v495_apply, val_main_v494_apply, val_main_v492_apply, val_main_v490_apply, val_main_v489_apply]
  exact norm_of_stages _ _ _ _ _ _ _ hdeg (l2r0_k488 _) (l2r0_k493 _) (l2r0_w39 _) (l2r0_k491 _) (l2r0_w40 _)

/-- The destination norm of node n. -/
theorem l2r0_nd (n : Fin 50000) : val_main_v503 (F := Ideal) x9 (ix1 n) = (graphOf x9).nd (0 : Fin 9) n := by
  have hdeg : val_main_v487 (F := Ideal) x9 (ix1 n) = degAt (colIdx x9 (0 : Fin 9) 1) n := by
    unfold val_main_v487
    rw [l2r0_c1 x0 x1 x2 x3 x4 x5 x6 x9]
    exact scatterAdd_deg _ rfl rfl rfl rfl _ _ _ (fun i => l2r0_k485 i) (fun i => l2r0_k481 i) n
  rw [graphOf_nd, val_main_v503_apply, val_main_v502_apply, val_main_v500_apply, val_main_v498_apply, val_main_v497_apply]
  exact norm_of_stages _ _ _ _ _ _ _ hdeg (l2r0_k496 _) (l2r0_k501 _) (l2r0_w41 _) (l2r0_k499 _) (l2r0_w42 _)

/-! ## The weights and the bias -/

/-- The relation's weight matrix: its slice of the layer's weights. -/
theorem l2r0_W (k c : Fin 128) : val_main_v508 (F := Ideal) x5 (ix2 k c) = x5 (ix3 (0 : Fin 9) k c) := by
  rw [val_main_v508_apply, val_main_v507_apply]
  refine congrArg x5 (funext fun a => ?_)
  match a with
  | ⟨0, _⟩ => rfl
  | ⟨1, _⟩ => exact Fin.ext (by show (k.val * 128 + c.val) / 128 % 128 = k.val; have := k.isLt; have := c.isLt; omega)
  | ⟨2, _⟩ => exact Fin.ext (by show (k.val * 128 + c.val) % 128 = c.val; have := c.isLt; omega)

/-- The relation's bias row, broadcast over the nodes: its row of the layer's biases. -/
theorem l2r0_b (n : Fin 50000) (c : Fin 128) : val_main_v527 (F := Ideal) x6 (ix2 n c) = x6 (ix2 (0 : Fin 9) c) := by
  rw [val_main_v527_apply, val_main_v526_apply, val_main_v525_apply, val_main_v524_apply]
  refine congrArg x6 (funext fun a => ?_)
  match a with
  | ⟨0, _⟩ => rfl
  | ⟨1, _⟩ => exact Fin.ext (Nat.mod_eq_of_lt c.isLt)

/-! ## The projected table, the scaled aggregate, the accumulation -/

/-- Node m's scaled source row projected by the relation's weights. -/
theorem l2r0_proj (m : Fin 50000) (c : Fin 128) :
    val_main_v509 (F := Ideal) x0 x1 x2 x3 x4 x5 x9 (ix2 m c)
      = ∑ k : Fin 128, (val_main_v471 (F := Ideal) x0 x1 x2 x3 x4 x9 (ix2 m k) * (graphOf x9).ns (0 : Fin 9) m) * x5 (ix3 (0 : Fin 9) k c) := by
  rw [val_main_v509_apply]
  refine Finset.sum_congr rfl fun k _ => ?_
  have hl : lidx_main_v509 (ix2 m c) k = ix2 m k := by
    funext a
    match a with
    | ⟨0, _⟩ => rfl
    | ⟨1, _⟩ => rfl
  have hr : ridx_main_v509 (ix2 m c) k = ix2 k c := by
    funext a
    match a with
    | ⟨0, _⟩ => rfl
    | ⟨1, _⟩ => rfl
  have hi : idx_main_v504 (idx_main_v505 (ix2 m k)) = ix1 m := by
    funext a
    match a with
    | ⟨0, _⟩ => rfl
  rw [hl, hr, l2r0_W x0 x1 x2 x3 x4 x5 x6 x9, val_main_v506_apply, val_main_v505_apply, val_main_v504_apply, hi, l2r0_ns x0 x1 x2 x3 x4 x5 x6 x9]
  rfl

/-- The relation's scaled aggregate at (n, j). -/
theorem l2r0_prod (n : Fin 50000) (j : Fin 128) :
    val_main_v522 (F := Ideal) x0 x1 x2 x3 x4 x5 x9 (ix2 n j)
      = relR (graphOf x9) (fun m k => val_main_v471 (F := Ideal) x0 x1 x2 x3 x4 x9 (ix2 m k)) (fun k c => x5 (ix3 (0 : Fin 9) k c)) (0 : Fin 9) n j := by
  have hi : idx_main_v520 (idx_main_v521 (ix2 n j)) = ix1 n := by
    funext a
    match a with
    | ⟨0, _⟩ => rfl
  rw [val_main_v522_apply, val_main_v521_apply, val_main_v520_apply, hi, l2r0_nd x0 x1 x2 x3 x4 x5 x6 x9]
  unfold val_main_v519 val_main_v516
  exact relR_of_stages x9 (0 : Fin 9) _ rfl rfl rfl rfl _ rfl rfl rfl rfl rfl rfl rfl _ _ _ _ _ _
    (fun i => (l2r0_k517 i).trans Z_eq)
    (fun m c => l2r0_proj x0 x1 x2 x3 x4 x5 x6 x9 m c)
    (l2r0_src x0 x1 x2 x3 x4 x5 x6 x9) (l2r0_dst x0 x1 x2 x3 x4 x5 x6 x9) n j

/-- The running sum of the destination type after this relation: the sum before, the scaled aggregate, the bias. -/
theorem l2r0_acc (n : Fin 50000) (j : Fin 128) :
    val_main_v528 (F := Ideal) x0 x1 x2 x3 x4 x5 x6 x9 (ix2 n j)
      = (val_main_v476 (F := Ideal) (ix2 n j)
          + relR (graphOf x9) (fun m k => val_main_v471 (F := Ideal) x0 x1 x2 x3 x4 x9 (ix2 m k)) (fun k c => x5 (ix3 (0 : Fin 9) k c)) (0 : Fin 9) n j)
        + x6 (ix2 (0 : Fin 9) j) := by
  rw [val_main_v528_apply, val_main_v523_apply, l2r0_prod x0 x1 x2 x3 x4 x5 x6 x9, l2r0_b x0 x1 x2 x3 x4 x5 x6 x9]
  rfl

end Cert.ReferenceIdeal.RV

end
-- ==== Proof.RV.L2R1.lean ====
/-
  Layer 2 of the reference, relation 1, read at one element.

  The relation's block of operations: the two index columns cut from the edge array, the two degree counts and their
  norms, the source table (the activated layer-1 sum of the source type) scaled by the source norm and projected by the
  relation's weights, the projected rows gathered along the edges and summed at the destination, scaled by the
  destination norm, added to the running sum of the destination type, and the bias added. Each stage is read from the
  stages before it; together they give `Spec.relR` over the graph of the edge array, plus the accumulation.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf
import proofs.«151568_j90031104458821_2_alg».proof.Proof.RefReadP
import proofs.«151568_j90031104458821_2_alg».proof.Proof.RV.L2Lib

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The constant arrays of the block, at any float family -/

section Consts
variable {F : FTy → Type} [FloatOps F]

theorem l2r1_k534 (i : S50000.Idx) : val_main_v534 (F := F) i = FloatOps.ofBits .f32 0x00000000#32 := (val_main_v534_apply i).trans rfl
theorem l2r1_k537 (i : S50000.Idx) : val_main_v537 (F := F) i = FloatOps.ofBits .f32 0x00000000#32 := (val_main_v537_apply i).trans rfl
theorem l2r1_k533 (i : S400000.Idx) : val_main_v533 (F := F) i = FloatOps.ofBits .f32 0x3F800000#32 := (val_main_v533_apply i).trans rfl
theorem l2r1_k540 (i : S50000.Idx) : val_main_v540 (F := F) i = FloatOps.ofBits .f32 0x00000000#32 := (val_main_v540_apply i).trans rfl
theorem l2r1_k545 (i : S50000.Idx) : val_main_v545 (F := F) i = FloatOps.ofBits .f32 0x00000000#32 := (val_main_v545_apply i).trans rfl
theorem l2r1_k543 (i : S50000.Idx) : val_main_v543 (F := F) i = FloatOps.ofBits .f32 0xBF000000#32 := (val_main_v543_apply i).trans rfl
theorem l2r1_k548 (i : S50000.Idx) : val_main_v548 (F := F) i = FloatOps.ofBits .f32 0x00000000#32 := (val_main_v548_apply i).trans rfl
theorem l2r1_k553 (i : S50000.Idx) : val_main_v553 (F := F) i = FloatOps.ofBits .f32 0x00000000#32 := (val_main_v553_apply i).trans rfl
theorem l2r1_k551 (i : S50000.Idx) : val_main_v551 (F := F) i = FloatOps.ofBits .f32 0xBF000000#32 := (val_main_v551_apply i).trans rfl
theorem l2r1_w43 (i : S50000.Idx) : val_main_call43_v1 (F := F) i = FloatOps.ofBits .f32 0x3F800000#32 := (val_main_call43_v1_apply i).trans rfl
theorem l2r1_w44 (i : S50000.Idx) : val_main_call44_v1 (F := F) i = FloatOps.ofBits .f32 0x00000000#32 := (val_main_call44_v1_apply i).trans rfl
theorem l2r1_w45 (i : S50000.Idx) : val_main_call45_v1 (F := F) i = FloatOps.ofBits .f32 0x3F800000#32 := (val_main_call45_v1_apply i).trans rfl
theorem l2r1_w46 (i : S50000.Idx) : val_main_call46_v1 (F := F) i = FloatOps.ofBits .f32 0x00000000#32 := (val_main_call46_v1_apply i).trans rfl
theorem l2r1_k569 (i : S50000x128.Idx) : val_main_v569 (F := F) i = FloatOps.ofBits .f32 0x00000000#32 := (val_main_v569_apply i).trans rfl

end Consts

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The index columns -/

/-- The source words of the relation: a row of the edge array. -/
theorem l2r1_col0 (e : S400000.Idx) :
    val_main_v530 (F := Ideal) x9 e = x9 (ix3 (1 : Fin 9) (0 : Fin 2) (⟨(e 0).val, (e 0).isLt⟩ : Fin 400000)) := by
  rw [val_main_v530_apply, val_main_v529_apply]
  refine congrArg x9 (funext fun a => ?_)
  match a with
  | ⟨0, _⟩ => rfl
  | ⟨1, _⟩ => rfl
  | ⟨2, _⟩ => exact Fin.ext (Nat.mod_eq_of_lt (e 0).isLt)

/-- The destination words of the relation: the next row of the edge array. -/
theorem l2r1_col1 (e : S400000.Idx) :
    val_main_v532 (F := Ideal) x9 e = x9 (ix3 (1 : Fin 9) (1 : Fin 2) (⟨(e 0).val, (e 0).isLt⟩ : Fin 400000)) := by
  rw [val_main_v532_apply, val_main_v531_apply]
  refine congrArg x9 (funext fun a => ?_)
  match a with
  | ⟨0, _⟩ => rfl
  | ⟨1, _⟩ => rfl
  | ⟨2, _⟩ => exact Fin.ext (Nat.mod_eq_of_lt (e 0).isLt)

/-- The index column of the out-degree count is the source column. -/
theorem l2r1_c0 : val_main_v535 (F := Ideal) x9 = colIdx x9 (1 : Fin 9) 0 :=
  funext fun i => (val_main_v535_apply x9 i).trans (l2r1_col0 x0 x1 x2 x3 x4 x5 x6 x9 _)

/-- The index column of the in-degree count is the destination column. -/
theorem l2r1_c1 : val_main_v538 (F := Ideal) x9 = colIdx x9 (1 : Fin 9) 1 :=
  funext fun i => (val_main_v538_apply x9 i).trans (l2r1_col1 x0 x1 x2 x3 x4 x5 x6 x9 _)

/-- The index column of the aggregation is the destination column. -/
theorem l2r1_dst : val_main_v570 (F := Ideal) x9 = colIdx x9 (1 : Fin 9) 1 :=
  funext fun i => (val_main_v570_apply x9 i).trans (l2r1_col1 x0 x1 x2 x3 x4 x5 x6 x9 _)

/-- The start indices of the gather are the source column, a negative word wrapped once. -/
theorem l2r1_src : val_main_v567 (F := Ideal) x9 = srcIdx x9 (1 : Fin 9) :=
  funext fun i => by
    rw [val_main_v567_apply, val_main_v566_apply, val_main_v563_apply, val_main_v565_apply, l2r1_col0 x0 x1 x2 x3 x4 x5 x6 x9]
    rfl

/-! ## The two norms -/

/-- The source norm of node m. -/
theorem l2r1_ns (m : Fin 50000) : val_main_v547 (F := Ideal) x9 (ix1 m) = (graphOf x9).ns (1 : Fin 9) m := by
  have hdeg : val_main_v536 (F := Ideal) x9 (ix1 m) = degAt (colIdx x9 (1 : Fin 9) 0) m := by
    unfold val_main_v536
    rw [l2r1_c0 x0 x1 x2 x3 x4 x5 x6 x9]
    exact scatterAdd_deg _ rfl rfl rfl rfl _ _ _ (fun i => l2r1_k534 i) (fun i => l2r1_k533 i) m
  rw [graphOf_ns, val_main_v547_apply, val_main_v546_apply, val_main_v544_apply, val_main_v542_apply, val_main_v541_apply]
  exact norm_of_stages _ _ _ _ _ _ _ hdeg (l2r1_k540 _) (l2r1_k545 _) (l2r1_w43 _) (l2r1_k543 _) (l2r1_w44 _)

/-- The destination norm of node n. -/
theorem l2r1_nd (n : Fin 50000) : val_main_v555 (F := Ideal) x9 (ix1 n) = (graphOf x9).nd (1 : Fin 9) n := by
  have hdeg : val_main_v539 (F := Ideal) x9 (ix1 n) = degAt (colIdx x9 (1 : Fin 9) 1) n := by
    unfold val_main_v539
    rw [l2r1_c1 x0 x1 x2 x3 x4 x5 x6 x9]
    exact scatterAdd_deg _ rfl rfl rfl rfl _ _ _ (fun i => l2r1_k537 i) (fun i => l2r1_k533 i) n
  rw [graphOf_nd, val_main_v555_apply, val_main_v554_apply, val_main_v552_apply, val_main_v550_apply, val_main_v549_apply]
  exact norm_of_stages _ _ _ _ _ _ _ hdeg (l2r1_k548 _) (l2r1_k553 _) (l2r1_w45 _) (l2r1_k551 _) (l2r1_w46 _)

/-! ## The weights and the bias -/

/-- The relation's weight matrix: its slice of the layer's weights. -/
theorem l2r1_W (k c : Fin 128) : val_main_v560 (F := Ideal) x5 (ix2 k c) = x5 (ix3 (1 : Fin 9) k c) := by
  rw [val_main_v560_apply, val_main_v559_apply]
  refine congrArg x5 (funext fun a => ?_)
  match a with
  | ⟨0, _⟩ => rfl
  | ⟨1, _⟩ => exact Fin.ext (by show (k.val * 128 + c.val) / 128 % 128 = k.val; have := k.isLt; have := c.isLt; omega)
  | ⟨2, _⟩ => exact Fin.ext (by show (k.val * 128 + c.val) % 128 = c.val; have := c.isLt; omega)

/-- The relation's bias row, broadcast over the nodes: its row of the layer's biases. -/
theorem l2r1_b (n : Fin 50000) (c : Fin 128) : val_main_v579 (F := Ideal) x6 (ix2 n c) = x6 (ix2 (1 : Fin 9) c) := by
  rw [val_main_v579_apply, val_main_v578_apply, val_main_v577_apply, val_main_v576_apply]
  refine congrArg x6 (funext fun a => ?_)
  match a with
  | ⟨0, _⟩ => rfl
  | ⟨1, _⟩ => exact Fin.ext (Nat.mod_eq_of_lt c.isLt)

/-! ## The projected table, the scaled aggregate, the accumulation -/

/-- Node m's scaled source row projected by the relation's weights. -/
theorem l2r1_proj (m : Fin 50000) (c : Fin 128) :
    val_main_v561 (F := Ideal) x1 x2 x3 x4 x5 x9 (ix2 m c)
      = ∑ k : Fin 128, (val_main_v472 (F := Ideal) x1 x2 x3 x4 x9 (ix2 m k) * (graphOf x9).ns (1 : Fin 9) m) * x5 (ix3 (1 : Fin 9) k c) := by
  rw [val_main_v561_apply]
  refine Finset.sum_congr rfl fun k _ => ?_
  have hl : lidx_main_v561 (ix2 m c) k = ix2 m k := by
    funext a
    match a with
    | ⟨0, _⟩ => rfl
    | ⟨1, _⟩ => rfl
  have hr : ridx_main_v561 (ix2 m c) k = ix2 k c := by
    funext a
    match a with
    | ⟨0, _⟩ => rfl
    | ⟨1, _⟩ => rfl
  have hi : idx_main_v556 (idx_main_v557 (ix2 m k)) = ix1 m := by
    funext a
    match a with
    | ⟨0, _⟩ => rfl
  rw [hl, hr, l2r1_W x0 x1 x2 x3 x4 x5 x6 x9, val_main_v558_apply, val_main_v557_apply, val_main_v556_apply, hi, l2r1_ns x0 x1 x2 x3 x4 x5 x6 x9]
  rfl

/-- The relation's scaled aggregate at (n, j). -/
theorem l2r1_prod (n : Fin 50000) (j : Fin 128) :
    val_main_v574 (F := Ideal) x1 x2 x3 x4 x5 x9 (ix2 n j)
      = relR (graphOf x9) (fun m k => val_main_v472 (F := Ideal) x1 x2 x3 x4 x9 (ix2 m k)) (fun k c => x5 (ix3 (1 : Fin 9) k c)) (1 : Fin 9) n j := by
  have hi : idx_main_v572 (idx_main_v573 (ix2 n j)) = ix1 n := by
    funext a
    match a with
    | ⟨0, _⟩ => rfl
  rw [val_main_v574_apply, val_main_v573_apply, val_main_v572_apply, hi, l2r1_nd x0 x1 x2 x3 x4 x5 x6 x9]
  unfold val_main_v571 val_main_v568
  exact relR_of_stages x9 (1 : Fin 9) _ rfl rfl rfl rfl _ rfl rfl rfl rfl rfl rfl rfl _ _ _ _ _ _
    (fun i => (l2r1_k569 i).trans Z_eq)
    (fun m c => l2r1_proj x0 x1 x2 x3 x4 x5 x6 x9 m c)
    (l2r1_src x0 x1 x2 x3 x4 x5 x6 x9) (l2r1_dst x0 x1 x2 x3 x4 x5 x6 x9) n j

/-- The running sum of the destination type after this relation: the sum before, the scaled aggregate, the bias. -/
theorem l2r1_acc (n : Fin 50000) (j : Fin 128) :
    val_main_v580 (F := Ideal) x0 x1 x2 x3 x4 x5 x6 x9 (ix2 n j)
      = (val_main_v528 (F := Ideal) x0 x1 x2 x3 x4 x5 x6 x9 (ix2 n j)
          + relR (graphOf x9) (fun m k => val_main_v472 (F := Ideal) x1 x2 x3 x4 x9 (ix2 m k)) (fun k c => x5 (ix3 (1 : Fin 9) k c)) (1 : Fin 9) n j)
        + x6 (ix2 (1 : Fin 9) j) := by
  rw [val_main_v580_apply, val_main_v575_apply, l2r1_prod x0 x1 x2 x3 x4 x5 x6 x9, l2r1_b x0 x1 x2 x3 x4 x5 x6 x9]
  rfl

end Cert.ReferenceIdeal.RV

end
-- ==== Proof.RV.L2R2.lean ====
/-
  Layer 2 of the reference, relation 2, read at one element.

  The relation's block of operations: the two index columns cut from the edge array, the two degree counts and their
  norms, the source table (the activated layer-1 sum of the source type) scaled by the source norm and projected by the
  relation's weights, the projected rows gathered along the edges and summed at the destination, scaled by the
  destination norm, added to the running sum of the destination type, and the bias added. Each stage is read from the
  stages before it; together they give `Spec.relR` over the graph of the edge array, plus the accumulation.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf
import proofs.«151568_j90031104458821_2_alg».proof.Proof.RefReadP
import proofs.«151568_j90031104458821_2_alg».proof.Proof.RV.L2Lib

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The constant arrays of the block, at any float family -/

section Consts
variable {F : FTy → Type} [FloatOps F]

theorem l2r2_k586 (i : S50000.Idx) : val_main_v586 (F := F) i = FloatOps.ofBits .f32 0x00000000#32 := (val_main_v586_apply i).trans rfl
theorem l2r2_k589 (i : S50000.Idx) : val_main_v589 (F := F) i = FloatOps.ofBits .f32 0x00000000#32 := (val_main_v589_apply i).trans rfl
theorem l2r2_k585 (i : S400000.Idx) : val_main_v585 (F := F) i = FloatOps.ofBits .f32 0x3F800000#32 := (val_main_v585_apply i).trans rfl
theorem l2r2_k592 (i : S50000.Idx) : val_main_v592 (F := F) i = FloatOps.ofBits .f32 0x00000000#32 := (val_main_v592_apply i).trans rfl
theorem l2r2_k597 (i : S50000.Idx) : val_main_v597 (F := F) i = FloatOps.ofBits .f32 0x00000000#32 := (val_main_v597_apply i).trans rfl
theorem l2r2_k595 (i : S50000.Idx) : val_main_v595 (F := F) i = FloatOps.ofBits .f32 0xBF000000#32 := (val_main_v595_apply i).trans rfl
theorem l2r2_k600 (i : S50000.Idx) : val_main_v600 (F := F) i = FloatOps.ofBits .f32 0x00000000#32 := (val_main_v600_apply i).trans rfl
theorem l2r2_k605 (i : S50000.Idx) : val_main_v605 (F := F) i = FloatOps.ofBits .f32 0x00000000#32 := (val_main_v605_apply i).trans rfl
theorem l2r2_k603 (i : S50000.Idx) : val_main_v603 (F := F) i = FloatOps.ofBits .f32 0xBF000000#32 := (val_main_v603_apply i).trans rfl
theorem l2r2_w47 (i : S50000.Idx) : val_main_call47_v1 (F := F) i = FloatOps.ofBits .f32 0x3F800000#32 := (val_main_call47_v1_apply i).trans rfl
theorem l2r2_w48 (i : S50000.Idx) : val_main_call48_v1 (F := F) i = FloatOps.ofBits .f32 0x00000000#32 := (val_main_call48_v1_apply i).trans rfl
theorem l2r2_w49 (i : S50000.Idx) : val_main_call49_v1 (F := F) i = FloatOps.ofBits .f32 0x3F800000#32 := (val_main_call49_v1_apply i).trans rfl
theorem l2r2_w50 (i : S50000.Idx) : val_main_call50_v1 (F := F) i = FloatOps.ofBits .f32 0x00000000#32 := (val_main_call50_v1_apply i).trans rfl
theorem l2r2_k621 (i : S50000x128.Idx) : val_main_v621 (F := F) i = FloatOps.ofBits .f32 0x00000000#32 := (val_main_v621_apply i).trans rfl

end Consts

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The index columns -/

/-- The source words of the relation: a row of the edge array. -/
theorem l2r2_col0 (e : S400000.Idx) :
    val_main_v582 (F := Ideal) x9 e = x9 (ix3 (2 : Fin 9) (0 : Fin 2) (⟨(e 0).val, (e 0).isLt⟩ : Fin 400000)) := by
  rw [val_main_v582_apply, val_main_v581_apply]
  refine congrArg x9 (funext fun a => ?_)
  match a with
  | ⟨0, _⟩ => rfl
  | ⟨1, _⟩ => rfl
  | ⟨2, _⟩ => exact Fin.ext (Nat.mod_eq_of_lt (e 0).isLt)

/-- The destination words of the relation: the next row of the edge array. -/
theorem l2r2_col1 (e : S400000.Idx) :
    val_main_v584 (F := Ideal) x9 e = x9 (ix3 (2 : Fin 9) (1 : Fin 2) (⟨(e 0).val, (e 0).isLt⟩ : Fin 400000)) := by
  rw [val_main_v584_apply, val_main_v583_apply]
  refine congrArg x9 (funext fun a => ?_)
  match a with
  | ⟨0, _⟩ => rfl
  | ⟨1, _⟩ => rfl
  | ⟨2, _⟩ => exact Fin.ext (Nat.mod_eq_of_lt (e 0).isLt)

/-- The index column of the out-degree count is the source column. -/
theorem l2r2_c0 : val_main_v587 (F := Ideal) x9 = colIdx x9 (2 : Fin 9) 0 :=
  funext fun i => (val_main_v587_apply x9 i).trans (l2r2_col0 x0 x1 x2 x3 x4 x5 x6 x9 _)

/-- The index column of the in-degree count is the destination column. -/
theorem l2r2_c1 : val_main_v590 (F := Ideal) x9 = colIdx x9 (2 : Fin 9) 1 :=
  funext fun i => (val_main_v590_apply x9 i).trans (l2r2_col1 x0 x1 x2 x3 x4 x5 x6 x9 _)

/-- The index column of the aggregation is the destination column. -/
theorem l2r2_dst : val_main_v622 (F := Ideal) x9 = colIdx x9 (2 : Fin 9) 1 :=
  funext fun i => (val_main_v622_apply x9 i).trans (l2r2_col1 x0 x1 x2 x3 x4 x5 x6 x9 _)

/-- The start indices of the gather are the source column, a negative word wrapped once. -/
theorem l2r2_src : val_main_v619 (F := Ideal) x9 = srcIdx x9 (2 : Fin 9) :=
  funext fun i => by
    rw [val_main_v619_apply, val_main_v618_apply, val_main_v615_apply, val_main_v617_apply, l2r2_col0 x0 x1 x2 x3 x4 x5 x6 x9]
    rfl

/-! ## The two norms -/

/-- The source norm of node m. -/
theorem l2r2_ns (m : Fin 50000) : val_main_v599 (F := Ideal) x9 (ix1 m) = (graphOf x9).ns (2 : Fin 9) m := by
  have hdeg : val_main_v588 (F := Ideal) x9 (ix1 m) = degAt (colIdx x9 (2 : Fin 9) 0) m := by
    unfold val_main_v588
    rw [l2r2_c0 x0 x1 x2 x3 x4 x5 x6 x9]
    exact scatterAdd_deg _ rfl rfl rfl rfl _ _ _ (fun i => l2r2_k586 i) (fun i => l2r2_k585 i) m
  rw [graphOf_ns, val_main_v599_apply, val_main_v598_apply, val_main_v596_apply, val_main_v594_apply, val_main_v593_apply]
  exact norm_of_stages _ _ _ _ _ _ _ hdeg (l2r2_k592 _) (l2r2_k597 _) (l2r2_w47 _) (l2r2_k595 _) (l2r2_w48 _)

/-- The destination norm of node n. -/
theorem l2r2_nd (n : Fin 50000) : val_main_v607 (F := Ideal) x9 (ix1 n) = (graphOf x9).nd (2 : Fin 9) n := by
  have hdeg : val_main_v591 (F := Ideal) x9 (ix1 n) = degAt (colIdx x9 (2 : Fin 9) 1) n := by
    unfold val_main_v591
    rw [l2r2_c1 x0 x1 x2 x3 x4 x5 x6 x9]
    exact scatterAdd_deg _ rfl rfl rfl rfl _ _ _ (fun i => l2r2_k589 i) (fun i => l2r2_k585 i) n
  rw [graphOf_nd, val_main_v607_apply, val_main_v606_apply, val_main_v604_apply, val_main_v602_apply, val_main_v601_apply]
  exact norm_of_stages _ _ _ _ _ _ _ hdeg (l2r2_k600 _) (l2r2_k605 _) (l2r2_w49 _) (l2r2_k603 _) (l2r2_w50 _)

/-! ## The weights and the bias -/

/-- The relation's weight matrix: its slice of the layer's weights. -/
theorem l2r2_W (k c : Fin 128) : val_main_v612 (F := Ideal) x5 (ix2 k c) = x5 (ix3 (2 : Fin 9) k c) := by
  rw [val_main_v612_apply, val_main_v611_apply]
  refine congrArg x5 (funext fun a => ?_)
  match a with
  | ⟨0, _⟩ => rfl
  | ⟨1, _⟩ => exact Fin.ext (by show (k.val * 128 + c.val) / 128 % 128 = k.val; have := k.isLt; have := c.isLt; omega)
  | ⟨2, _⟩ => exact Fin.ext (by show (k.val * 128 + c.val) % 128 = c.val; have := c.isLt; omega)

/-- The relation's bias row, broadcast over the nodes: its row of the layer's biases. -/
theorem l2r2_b (n : Fin 50000) (c : Fin 128) : val_main_v631 (F := Ideal) x6 (ix2 n c) = x6 (ix2 (2 : Fin 9) c) := by
  rw [val_main_v631_apply, val_main_v630_apply, val_main_v629_apply, val_main_v628_apply]
  refine congrArg x6 (funext fun a => ?_)
  match a with
  | ⟨0, _⟩ => rfl
  | ⟨1, _⟩ => exact Fin.ext (Nat.mod_eq_of_lt c.isLt)

/-! ## The projected table, the scaled aggregate, the accumulation -/

/-- Node m's scaled source row projected by the relation's weights. -/
theorem l2r2_proj (m : Fin 50000) (c : Fin 128) :
    val_main_v613 (F := Ideal) x1 x2 x3 x4 x5 x9 (ix2 m c)
      = ∑ k : Fin 128, (val_main_v472 (F := Ideal) x1 x2 x3 x4 x9 (ix2 m k) * (graphOf x9).ns (2 : Fin 9) m) * x5 (ix3 (2 : Fin 9) k c) := by
  rw [val_main_v613_apply]
  refine Finset.sum_congr rfl fun k _ => ?_
  have hl : lidx_main_v613 (ix2 m c) k = ix2 m k := by
    funext a
    match a with
    | ⟨0, _⟩ => rfl
    | ⟨1, _⟩ => rfl
  have hr : ridx_main_v613 (ix2 m c) k = ix2 k c := by
    funext a
    match a with
    | ⟨0, _⟩ => rfl
    | ⟨1, _⟩ => rfl
  have hi : idx_main_v608 (idx_main_v609 (ix2 m k)) = ix1 m := by
    funext a
    match a with
    | ⟨0, _⟩ => rfl
  rw [hl, hr, l2r2_W x0 x1 x2 x3 x4 x5 x6 x9, val_main_v610_apply, val_main_v609_apply, val_main_v608_apply, hi, l2r2_ns x0 x1 x2 x3 x4 x5 x6 x9]
  rfl

/-- The relation's scaled aggregate at (n, j). -/
theorem l2r2_prod (n : Fin 50000) (j : Fin 128) :
    val_main_v626 (F := Ideal) x1 x2 x3 x4 x5 x9 (ix2 n j)
      = relR (graphOf x9) (fun m k => val_main_v472 (F := Ideal) x1 x2 x3 x4 x9 (ix2 m k)) (fun k c => x5 (ix3 (2 : Fin 9) k c)) (2 : Fin 9) n j := by
  have hi : idx_main_v624 (idx_main_v625 (ix2 n j)) = ix1 n := by
    funext a
    match a with
    | ⟨0, _⟩ => rfl
  rw [val_main_v626_apply, val_main_v625_apply, val_main_v624_apply, hi, l2r2_nd x0 x1 x2 x3 x4 x5 x6 x9]
  unfold val_main_v623 val_main_v620
  exact relR_of_stages x9 (2 : Fin 9) _ rfl rfl rfl rfl _ rfl rfl rfl rfl rfl rfl rfl _ _ _ _ _ _
    (fun i => (l2r2_k621 i).trans Z_eq)
    (fun m c => l2r2_proj x0 x1 x2 x3 x4 x5 x6 x9 m c)
    (l2r2_src x0 x1 x2 x3 x4 x5 x6 x9) (l2r2_dst x0 x1 x2 x3 x4 x5 x6 x9) n j

/-- The running sum of the destination type after this relation: the sum before, the scaled aggregate, the bias. -/
theorem l2r2_acc (n : Fin 50000) (j : Fin 128) :
    val_main_v632 (F := Ideal) x1 x2 x3 x4 x5 x6 x9 (ix2 n j)
      = (val_main_v474 (F := Ideal) (ix2 n j)
          + relR (graphOf x9) (fun m k => val_main_v472 (F := Ideal) x1 x2 x3 x4 x9 (ix2 m k)) (fun k c => x5 (ix3 (2 : Fin 9) k c)) (2 : Fin 9) n j)
        + x6 (ix2 (2 : Fin 9) j) := by
  rw [val_main_v632_apply, val_main_v627_apply, l2r2_prod x0 x1 x2 x3 x4 x5 x6 x9, l2r2_b x0 x1 x2 x3 x4 x5 x6 x9]
  rfl

end Cert.ReferenceIdeal.RV

end
-- ==== Proof.RV.L2R3.lean ====
/-
  Layer 2 of the reference, relation 3, read at one element.

  The relation's block of operations: the two index columns cut from the edge array, the two degree counts and their
  norms, the source table (the activated layer-1 sum of the source type) scaled by the source norm and projected by the
  relation's weights, the projected rows gathered along the edges and summed at the destination, scaled by the
  destination norm, added to the running sum of the destination type, and the bias added. Each stage is read from the
  stages before it; together they give `Spec.relR` over the graph of the edge array, plus the accumulation.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf
import proofs.«151568_j90031104458821_2_alg».proof.Proof.RefReadP
import proofs.«151568_j90031104458821_2_alg».proof.Proof.RV.L2Lib

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The constant arrays of the block, at any float family -/

section Consts
variable {F : FTy → Type} [FloatOps F]

theorem l2r3_k638 (i : S50000.Idx) : val_main_v638 (F := F) i = FloatOps.ofBits .f32 0x00000000#32 := (val_main_v638_apply i).trans rfl
theorem l2r3_k641 (i : S50000.Idx) : val_main_v641 (F := F) i = FloatOps.ofBits .f32 0x00000000#32 := (val_main_v641_apply i).trans rfl
theorem l2r3_k637 (i : S400000.Idx) : val_main_v637 (F := F) i = FloatOps.ofBits .f32 0x3F800000#32 := (val_main_v637_apply i).trans rfl
theorem l2r3_k644 (i : S50000.Idx) : val_main_v644 (F := F) i = FloatOps.ofBits .f32 0x00000000#32 := (val_main_v644_apply i).trans rfl
theorem l2r3_k649 (i : S50000.Idx) : val_main_v649 (F := F) i = FloatOps.ofBits .f32 0x00000000#32 := (val_main_v649_apply i).trans rfl
theorem l2r3_k647 (i : S50000.Idx) : val_main_v647 (F := F) i = FloatOps.ofBits .f32 0xBF000000#32 := (val_main_v647_apply i).trans rfl
theorem l2r3_k652 (i : S50000.Idx) : val_main_v652 (F := F) i = FloatOps.ofBits .f32 0x00000000#32 := (val_main_v652_apply i).trans rfl
theorem l2r3_k657 (i : S50000.Idx) : val_main_v657 (F := F) i = FloatOps.ofBits .f32 0x00000000#32 := (val_main_v657_apply i).trans rfl
theorem l2r3_k655 (i : S50000.Idx) : val_main_v655 (F := F) i = FloatOps.ofBits .f32 0xBF000000#32 := (val_main_v655_apply i).trans rfl
theorem l2r3_w51 (i : S50000.Idx) : val_main_call51_v1 (F := F) i = FloatOps.ofBits .f32 0x3F800000#32 := (val_main_call51_v1_apply i).trans rfl
theorem l2r3_w52 (i : S50000.Idx) : val_main_call52_v1 (F := F) i = FloatOps.ofBits .f32 0x00000000#32 := (val_main_call52_v1_apply i).trans rfl
theorem l2r3_w53 (i : S50000.Idx) : val_main_call53_v1 (F := F) i = FloatOps.ofBits .f32 0x3F800000#32 := (val_main_call53_v1_apply i).trans rfl
theorem l2r3_w54 (i : S50000.Idx) : val_main_call54_v1 (F := F) i = FloatOps.ofBits .f32 0x00000000#32 := (val_main_call54_v1_apply i).trans rfl
theorem l2r3_k673 (i : S50000x128.Idx) : val_main_v673 (F := F) i = FloatOps.ofBits .f32 0x00000000#32 := (val_main_v673_apply i).trans rfl

end Consts

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The index columns -/

/-- The source words of the relation: a row of the edge array. -/
theorem l2r3_col0 (e : S400000.Idx) :
    val_main_v634 (F := Ideal) x9 e = x9 (ix3 (3 : Fin 9) (0 : Fin 2) (⟨(e 0).val, (e 0).isLt⟩ : Fin 400000)) := by
  rw [val_main_v634_apply, val_main_v633_apply]
  refine congrArg x9 (funext fun a => ?_)
  match a with
  | ⟨0, _⟩ => rfl
  | ⟨1, _⟩ => rfl
  | ⟨2, _⟩ => exact Fin.ext (Nat.mod_eq_of_lt (e 0).isLt)

/-- The destination words of the relation: the next row of the edge array. -/
theorem l2r3_col1 (e : S400000.Idx) :
    val_main_v636 (F := Ideal) x9 e = x9 (ix3 (3 : Fin 9) (1 : Fin 2) (⟨(e 0).val, (e 0).isLt⟩ : Fin 400000)) := by
  rw [val_main_v636_apply, val_main_v635_apply]
  refine congrArg x9 (funext fun a => ?_)
  match a with
  | ⟨0, _⟩ => rfl
  | ⟨1, _⟩ => rfl
  | ⟨2, _⟩ => exact Fin.ext (Nat.mod_eq_of_lt (e 0).isLt)

/-- The index column of the out-degree count is the source column. -/
theorem l2r3_c0 : val_main_v639 (F := Ideal) x9 = colIdx x9 (3 : Fin 9) 0 :=
  funext fun i => (val_main_v639_apply x9 i).trans (l2r3_col0 x0 x1 x2 x3 x4 x5 x6 x9 _)

/-- The index column of the in-degree count is the destination column. -/
theorem l2r3_c1 : val_main_v642 (F := Ideal) x9 = colIdx x9 (3 : Fin 9) 1 :=
  funext fun i => (val_main_v642_apply x9 i).trans (l2r3_col1 x0 x1 x2 x3 x4 x5 x6 x9 _)

/-- The index column of the aggregation is the destination column. -/
theorem l2r3_dst : val_main_v674 (F := Ideal) x9 = colIdx x9 (3 : Fin 9) 1 :=
  funext fun i => (val_main_v674_apply x9 i).trans (l2r3_col1 x0 x1 x2 x3 x4 x5 x6 x9 _)

/-- The start indices of the gather are the source column, a negative word wrapped once. -/
theorem l2r3_src : val_main_v671 (F := Ideal) x9 = srcIdx x9 (3 : Fin 9) :=
  funext fun i => by
    rw [val_main_v671_apply, val_main_v670_apply, val_main_v667_apply, val_main_v669_apply, l2r3_col0 x0 x1 x2 x3 x4 x5 x6 x9]
    rfl

/-! ## The two norms -/

/-- The source norm of node m. -/
theorem l2r3_ns (m : Fin 50000) : val_main_v651 (F := Ideal) x9 (ix1 m) = (graphOf x9).ns (3 : Fin 9) m := by
  have hdeg : val_main_v640 (F := Ideal) x9 (ix1 m) = degAt (colIdx x9 (3 : Fin 9) 0) m := by
    unfold val_main_v640
    rw [l2r3_c0 x0 x1 x2 x3 x4 x5 x6 x9]
    exact scatterAdd_deg _ rfl rfl rfl rfl _ _ _ (fun i => l2r3_k638 i) (fun i => l2r3_k637 i) m
  rw [graphOf_ns, val_main_v651_apply, val_main_v650_apply, val_main_v648_apply, val_main_v646_apply, val_main_v645_apply]
  exact norm_of_stages _ _ _ _ _ _ _ hdeg (l2r3_k644 _) (l2r3_k649 _) (l2r3_w51 _) (l2r3_k647 _) (l2r3_w52 _)

/-- The destination norm of node n. -/
theorem l2r3_nd (n : Fin 50000) : val_main_v659 (F := Ideal) x9 (ix1 n) = (graphOf x9).nd (3 : Fin 9) n := by
  have hdeg : val_main_v643 (F := Ideal) x9 (ix1 n) = degAt (colIdx x9 (3 : Fin 9) 1) n := by
    unfold val_main_v643
    rw [l2r3_c1 x0 x1 x2 x3 x4 x5 x6 x9]
    exact scatterAdd_deg _ rfl rfl rfl rfl _ _ _ (fun i => l2r3_k641 i) (fun i => l2r3_k637 i) n
  rw [graphOf_nd, val_main_v659_apply, val_main_v658_apply, val_main_v656_apply, val_main_v654_apply, val_main_v653_apply]
  exact norm_of_stages _ _ _ _ _ _ _ hdeg (l2r3_k652 _) (l2r3_k657 _) (l2r3_w53 _) (l2r3_k655 _) (l2r3_w54 _)

/-! ## The weights and the bias -/

/-- The relation's weight matrix: its slice of the layer's weights. -/
theorem l2r3_W (k c : Fin 128) : val_main_v664 (F := Ideal) x5 (ix2 k c) = x5 (ix3 (3 : Fin 9) k c) := by
  rw [val_main_v664_apply, val_main_v663_apply]
  refine congrArg x5 (funext fun a => ?_)
  match a with
  | ⟨0, _⟩ => rfl
  | ⟨1, _⟩ => exact Fin.ext (by show (k.val * 128 + c.val) / 128 % 128 = k.val; have := k.isLt; have := c.isLt; omega)
  | ⟨2, _⟩ => exact Fin.ext (by show (k.val * 128 + c.val) % 128 = c.val; have := c.isLt; omega)

/-- The relation's bias row, broadcast over the nodes: its row of the layer's biases. -/
theorem l2r3_b (n : Fin 50000) (c : Fin 128) : val_main_v683 (F := Ideal) x6 (ix2 n c) = x6 (ix2 (3 : Fin 9) c) := by
  rw [val_main_v683_apply, val_main_v682_apply, val_main_v681_apply, val_main_v680_apply]
  refine congrArg x6 (funext fun a => ?_)
  match a with
  | ⟨0, _⟩ => rfl
  | ⟨1, _⟩ => exact Fin.ext (Nat.mod_eq_of_lt c.isLt)

/-! ## The projected table, the scaled aggregate, the accumulation -/

/-- Node m's scaled source row projected by the relation's weights. -/
theorem l2r3_proj (m : Fin 50000) (c : Fin 128) :
    val_main_v665 (F := Ideal) x0 x1 x2 x3 x4 x5 x9 (ix2 m c)
      = ∑ k : Fin 128, (val_main_v471 (F := Ideal) x0 x1 x2 x3 x4 x9 (ix2 m k) * (graphOf x9).ns (3 : Fin 9) m) * x5 (ix3 (3 : Fin 9) k c) := by
  rw [val_main_v665_apply]
  refine Finset.sum_congr rfl fun k _ => ?_
  have hl : lidx_main_v665 (ix2 m c) k = ix2 m k := by
    funext a
    match a with
    | ⟨0, _⟩ => rfl
    | ⟨1, _⟩ => rfl
  have hr : ridx_main_v665 (ix2 m c) k = ix2 k c := by
    funext a
    match a with
    | ⟨0, _⟩ => rfl
    | ⟨1, _⟩ => rfl
  have hi : idx_main_v660 (idx_main_v661 (ix2 m k)) = ix1 m := by
    funext a
    match a with
    | ⟨0, _⟩ => rfl
  rw [hl, hr, l2r3_W x0 x1 x2 x3 x4 x5 x6 x9, val_main_v662_apply, val_main_v661_apply, val_main_v660_apply, hi, l2r3_ns x0 x1 x2 x3 x4 x5 x6 x9]
  rfl

/-- The relation's scaled aggregate at (n, j). -/
theorem l2r3_prod (n : Fin 50000) (j : Fin 128) :
    val_main_v678 (F := Ideal) x0 x1 x2 x3 x4 x5 x9 (ix2 n j)
      = relR (graphOf x9) (fun m k => val_main_v471 (F := Ideal) x0 x1 x2 x3 x4 x9 (ix2 m k)) (fun k c => x5 (ix3 (3 : Fin 9) k c)) (3 : Fin 9) n j := by
  have hi : idx_main_v676 (idx_main_v677 (ix2 n j)) = ix1 n := by
    funext a
    match a with
    | ⟨0, _⟩ => rfl
  rw [val_main_v678_apply, val_main_v677_apply, val_main_v676_apply, hi, l2r3_nd x0 x1 x2 x3 x4 x5 x6 x9]
  unfold val_main_v675 val_main_v672
  exact relR_of_stages x9 (3 : Fin 9) _ rfl rfl rfl rfl _ rfl rfl rfl rfl rfl rfl rfl _ _ _ _ _ _
    (fun i => (l2r3_k673 i).trans Z_eq)
    (fun m c => l2r3_proj x0 x1 x2 x3 x4 x5 x6 x9 m c)
    (l2r3_src x0 x1 x2 x3 x4 x5 x6 x9) (l2r3_dst x0 x1 x2 x3 x4 x5 x6 x9) n j

/-- The running sum of the destination type after this relation: the sum before, the scaled aggregate, the bias. -/
theorem l2r3_acc (n : Fin 50000) (j : Fin 128) :
    val_main_v684 (F := Ideal) x0 x1 x2 x3 x4 x5 x6 x9 (ix2 n j)
      = (val_main_v632 (F := Ideal) x1 x2 x3 x4 x5 x6 x9 (ix2 n j)
          + relR (graphOf x9) (fun m k => val_main_v471 (F := Ideal) x0 x1 x2 x3 x4 x9 (ix2 m k)) (fun k c => x5 (ix3 (3 : Fin 9) k c)) (3 : Fin 9) n j)
        + x6 (ix2 (3 : Fin 9) j) := by
  rw [val_main_v684_apply, val_main_v679_apply, l2r3_prod x0 x1 x2 x3 x4 x5 x6 x9, l2r3_b x0 x1 x2 x3 x4 x5 x6 x9]
  rfl

end Cert.ReferenceIdeal.RV

end
-- ==== Proof.RV.L2R4.lean ====
/-
  Layer 2 of the reference, relation 4, read at one element.

  The relation's block of operations: the two index columns cut from the edge array, the two degree counts and their
  norms, the source table (the activated layer-1 sum of the source type) scaled by the source norm and projected by the
  relation's weights, the projected rows gathered along the edges and summed at the destination, scaled by the
  destination norm, added to the running sum of the destination type, and the bias added. Each stage is read from the
  stages before it; together they give `Spec.relR` over the graph of the edge array, plus the accumulation.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf
import proofs.«151568_j90031104458821_2_alg».proof.Proof.RefReadP
import proofs.«151568_j90031104458821_2_alg».proof.Proof.RV.L2Lib

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The constant arrays of the block, at any float family -/

section Consts
variable {F : FTy → Type} [FloatOps F]

theorem l2r4_k690 (i : S50000.Idx) : val_main_v690 (F := F) i = FloatOps.ofBits .f32 0x00000000#32 := (val_main_v690_apply i).trans rfl
theorem l2r4_k693 (i : S50000.Idx) : val_main_v693 (F := F) i = FloatOps.ofBits .f32 0x00000000#32 := (val_main_v693_apply i).trans rfl
theorem l2r4_k689 (i : S400000.Idx) : val_main_v689 (F := F) i = FloatOps.ofBits .f32 0x3F800000#32 := (val_main_v689_apply i).trans rfl
theorem l2r4_k696 (i : S50000.Idx) : val_main_v696 (F := F) i = FloatOps.ofBits .f32 0x00000000#32 := (val_main_v696_apply i).trans rfl
theorem l2r4_k701 (i : S50000.Idx) : val_main_v701 (F := F) i = FloatOps.ofBits .f32 0x00000000#32 := (val_main_v701_apply i).trans rfl
theorem l2r4_k699 (i : S50000.Idx) : val_main_v699 (F := F) i = FloatOps.ofBits .f32 0xBF000000#32 := (val_main_v699_apply i).trans rfl
theorem l2r4_k704 (i : S50000.Idx) : val_main_v704 (F := F) i = FloatOps.ofBits .f32 0x00000000#32 := (val_main_v704_apply i).trans rfl
theorem l2r4_k709 (i : S50000.Idx) : val_main_v709 (F := F) i = FloatOps.ofBits .f32 0x00000000#32 := (val_main_v709_apply i).trans rfl
theorem l2r4_k707 (i : S50000.Idx) : val_main_v707 (F := F) i = FloatOps.ofBits .f32 0xBF000000#32 := (val_main_v707_apply i).trans rfl
theorem l2r4_w55 (i : S50000.Idx) : val_main_call55_v1 (F := F) i = FloatOps.ofBits .f32 0x3F800000#32 := (val_main_call55_v1_apply i).trans rfl
theorem l2r4_w56 (i : S50000.Idx) : val_main_call56_v1 (F := F) i = FloatOps.ofBits .f32 0x00000000#32 := (val_main_call56_v1_apply i).trans rfl
theorem l2r4_w57 (i : S50000.Idx) : val_main_call57_v1 (F := F) i = FloatOps.ofBits .f32 0x3F800000#32 := (val_main_call57_v1_apply i).trans rfl
theorem l2r4_w58 (i : S50000.Idx) : val_main_call58_v1 (F := F) i = FloatOps.ofBits .f32 0x00000000#32 := (val_main_call58_v1_apply i).trans rfl
theorem l2r4_k725 (i : S50000x128.Idx) : val_main_v725 (F := F) i = FloatOps.ofBits .f32 0x00000000#32 := (val_main_v725_apply i).trans rfl

end Consts

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The index columns -/

/-- The source words of the relation: a row of the edge array. -/
theorem l2r4_col0 (e : S400000.Idx) :
    val_main_v686 (F := Ideal) x9 e = x9 (ix3 (4 : Fin 9) (0 : Fin 2) (⟨(e 0).val, (e 0).isLt⟩ : Fin 400000)) := by
  rw [val_main_v686_apply, val_main_v685_apply]
  refine congrArg x9 (funext fun a => ?_)
  match a with
  | ⟨0, _⟩ => rfl
  | ⟨1, _⟩ => rfl
  | ⟨2, _⟩ => exact Fin.ext (Nat.mod_eq_of_lt (e 0).isLt)

/-- The destination words of the relation: the next row of the edge array. -/
theorem l2r4_col1 (e : S400000.Idx) :
    val_main_v688 (F := Ideal) x9 e = x9 (ix3 (4 : Fin 9) (1 : Fin 2) (⟨(e 0).val, (e 0).isLt⟩ : Fin 400000)) := by
  rw [val_main_v688_apply, val_main_v687_apply]
  refine congrArg x9 (funext fun a => ?_)
  match a with
  | ⟨0, _⟩ => rfl
  | ⟨1, _⟩ => rfl
  | ⟨2, _⟩ => exact Fin.ext (Nat.mod_eq_of_lt (e 0).isLt)

/-- The index column of the out-degree count is the source column. -/
theorem l2r4_c0 : val_main_v691 (F := Ideal) x9 = colIdx x9 (4 : Fin 9) 0 :=
  funext fun i => (val_main_v691_apply x9 i).trans (l2r4_col0 x0 x1 x2 x3 x4 x5 x6 x9 _)

/-- The index column of the in-degree count is the destination column. -/
theorem l2r4_c1 : val_main_v694 (F := Ideal) x9 = colIdx x9 (4 : Fin 9) 1 :=
  funext fun i => (val_main_v694_apply x9 i).trans (l2r4_col1 x0 x1 x2 x3 x4 x5 x6 x9 _)

/-- The index column of the aggregation is the destination column. -/
theorem l2r4_dst : val_main_v726 (F := Ideal) x9 = colIdx x9 (4 : Fin 9) 1 :=
  funext fun i => (val_main_v726_apply x9 i).trans (l2r4_col1 x0 x1 x2 x3 x4 x5 x6 x9 _)

/-- The start indices of the gather are the source column, a negative word wrapped once. -/
theorem l2r4_src : val_main_v723 (F := Ideal) x9 = srcIdx x9 (4 : Fin 9) :=
  funext fun i => by
    rw [val_main_v723_apply, val_main_v722_apply, val_main_v719_apply, val_main_v721_apply, l2r4_col0 x0 x1 x2 x3 x4 x5 x6 x9]
    rfl

/-! ## The two norms -/

/-- The source norm of node m. -/
theorem l2r4_ns (m : Fin 50000) : val_main_v703 (F := Ideal) x9 (ix1 m) = (graphOf x9).ns (4 : Fin 9) m := by
  have hdeg : val_main_v692 (F := Ideal) x9 (ix1 m) = degAt (colIdx x9 (4 : Fin 9) 0) m := by
    unfold val_main_v692
    rw [l2r4_c0 x0 x1 x2 x3 x4 x5 x6 x9]
    exact scatterAdd_deg _ rfl rfl rfl rfl _ _ _ (fun i => l2r4_k690 i) (fun i => l2r4_k689 i) m
  rw [graphOf_ns, val_main_v703_apply, val_main_v702_apply, val_main_v700_apply, val_main_v698_apply, val_main_v697_apply]
  exact norm_of_stages _ _ _ _ _ _ _ hdeg (l2r4_k696 _) (l2r4_k701 _) (l2r4_w55 _) (l2r4_k699 _) (l2r4_w56 _)

/-- The destination norm of node n. -/
theorem l2r4_nd (n : Fin 50000) : val_main_v711 (F := Ideal) x9 (ix1 n) = (graphOf x9).nd (4 : Fin 9) n := by
  have hdeg : val_main_v695 (F := Ideal) x9 (ix1 n) = degAt (colIdx x9 (4 : Fin 9) 1) n := by
    unfold val_main_v695
    rw [l2r4_c1 x0 x1 x2 x3 x4 x5 x6 x9]
    exact scatterAdd_deg _ rfl rfl rfl rfl _ _ _ (fun i => l2r4_k693 i) (fun i => l2r4_k689 i) n
  rw [graphOf_nd, val_main_v711_apply, val_main_v710_apply, val_main_v708_apply, val_main_v706_apply, val_main_v705_apply]
  exact norm_of_stages _ _ _ _ _ _ _ hdeg (l2r4_k704 _) (l2r4_k709 _) (l2r4_w57 _) (l2r4_k707 _) (l2r4_w58 _)

/-! ## The weights and the bias -/

/-- The relation's weight matrix: its slice of the layer's weights. -/
theorem l2r4_W (k c : Fin 128) : val_main_v716 (F := Ideal) x5 (ix2 k c) = x5 (ix3 (4 : Fin 9) k c) := by
  rw [val_main_v716_apply, val_main_v715_apply]
  refine congrArg x5 (funext fun a => ?_)
  match a with
  | ⟨0, _⟩ => rfl
  | ⟨1, _⟩ => exact Fin.ext (by show (k.val * 128 + c.val) / 128 % 128 = k.val; have := k.isLt; have := c.isLt; omega)
  | ⟨2, _⟩ => exact Fin.ext (by show (k.val * 128 + c.val) % 128 = c.val; have := c.isLt; omega)

/-- The relation's bias row, broadcast over the nodes: its row of the layer's biases. -/
theorem l2r4_b (n : Fin 50000) (c : Fin 128) : val_main_v735 (F := Ideal) x6 (ix2 n c) = x6 (ix2 (4 : Fin 9) c) := by
  rw [val_main_v735_apply, val_main_v734_apply, val_main_v733_apply, val_main_v732_apply]
  refine congrArg x6 (funext fun a => ?_)
  match a with
  | ⟨0, _⟩ => rfl
  | ⟨1, _⟩ => exact Fin.ext (Nat.mod_eq_of_lt c.isLt)

/-! ## The projected table, the scaled aggregate, the accumulation -/

/-- Node m's scaled source row projected by the relation's weights. -/
theorem l2r4_proj (m : Fin 50000) (c : Fin 128) :
    val_main_v717 (F := Ideal) x0 x1 x2 x3 x4 x5 x9 (ix2 m c)
      = ∑ k : Fin 128, (val_main_v473 (F := Ideal) x0 x1 x2 x3 x4 x9 (ix2 m k) * (graphOf x9).ns (4 : Fin 9) m) * x5 (ix3 (4 : Fin 9) k c) := by
  rw [val_main_v717_apply]
  refine Finset.sum_congr rfl fun k _ => ?_
  have hl : lidx_main_v717 (ix2 m c) k = ix2 m k := by
    funext a
    match a with
    | ⟨0, _⟩ => rfl
    | ⟨1, _⟩ => rfl
  have hr : ridx_main_v717 (ix2 m c) k = ix2 k c := by
    funext a
    match a with
    | ⟨0, _⟩ => rfl
    | ⟨1, _⟩ => rfl
  have hi : idx_main_v712 (idx_main_v713 (ix2 m k)) = ix1 m := by
    funext a
    match a with
    | ⟨0, _⟩ => rfl
  rw [hl, hr, l2r4_W x0 x1 x2 x3 x4 x5 x6 x9, val_main_v714_apply, val_main_v713_apply, val_main_v712_apply, hi, l2r4_ns x0 x1 x2 x3 x4 x5 x6 x9]
  rfl

/-- The relation's scaled aggregate at (n, j). -/
theorem l2r4_prod (n : Fin 50000) (j : Fin 128) :
    val_main_v730 (F := Ideal) x0 x1 x2 x3 x4 x5 x9 (ix2 n j)
      = relR (graphOf x9) (fun m k => val_main_v473 (F := Ideal) x0 x1 x2 x3 x4 x9 (ix2 m k)) (fun k c => x5 (ix3 (4 : Fin 9) k c)) (4 : Fin 9) n j := by
  have hi : idx_main_v728 (idx_main_v729 (ix2 n j)) = ix1 n := by
    funext a
    match a with
    | ⟨0, _⟩ => rfl
  rw [val_main_v730_apply, val_main_v729_apply, val_main_v728_apply, hi, l2r4_nd x0 x1 x2 x3 x4 x5 x6 x9]
  unfold val_main_v727 val_main_v724
  exact relR_of_stages x9 (4 : Fin 9) _ rfl rfl rfl rfl _ rfl rfl rfl rfl rfl rfl rfl _ _ _ _ _ _
    (fun i => (l2r4_k725 i).trans Z_eq)
    (fun m c => l2r4_proj x0 x1 x2 x3 x4 x5 x6 x9 m c)
    (l2r4_src x0 x1 x2 x3 x4 x5 x6 x9) (l2r4_dst x0 x1 x2 x3 x4 x5 x6 x9) n j

/-- The running sum of the destination type after this relation: the sum before, the scaled aggregate, the bias. -/
theorem l2r4_acc (n : Fin 50000) (j : Fin 128) :
    val_main_v736 (F := Ideal) x0 x1 x2 x3 x4 x5 x6 x9 (ix2 n j)
      = (val_main_v475 (F := Ideal) (ix2 n j)
          + relR (graphOf x9) (fun m k => val_main_v473 (F := Ideal) x0 x1 x2 x3 x4 x9 (ix2 m k)) (fun k c => x5 (ix3 (4 : Fin 9) k c)) (4 : Fin 9) n j)
        + x6 (ix2 (4 : Fin 9) j) := by
  rw [val_main_v736_apply, val_main_v731_apply, l2r4_prod x0 x1 x2 x3 x4 x5 x6 x9, l2r4_b x0 x1 x2 x3 x4 x5 x6 x9]
  rfl

end Cert.ReferenceIdeal.RV

end
-- ==== Proof.RV.L2R5.lean ====
/-
  Layer 2 of the reference, relation 5, read at one element.

  The relation's block of operations: the two index columns cut from the edge array, the two degree counts and their
  norms, the source table (the activated layer-1 sum of the source type) scaled by the source norm and projected by the
  relation's weights, the projected rows gathered along the edges and summed at the destination, scaled by the
  destination norm, added to the running sum of the destination type, and the bias added. Each stage is read from the
  stages before it; together they give `Spec.relR` over the graph of the edge array, plus the accumulation.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf
import proofs.«151568_j90031104458821_2_alg».proof.Proof.RefReadP
import proofs.«151568_j90031104458821_2_alg».proof.Proof.RV.L2Lib

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The constant arrays of the block, at any float family -/

section Consts
variable {F : FTy → Type} [FloatOps F]

theorem l2r5_k742 (i : S50000.Idx) : val_main_v742 (F := F) i = FloatOps.ofBits .f32 0x00000000#32 := (val_main_v742_apply i).trans rfl
theorem l2r5_k745 (i : S50000.Idx) : val_main_v745 (F := F) i = FloatOps.ofBits .f32 0x00000000#32 := (val_main_v745_apply i).trans rfl
theorem l2r5_k741 (i : S400000.Idx) : val_main_v741 (F := F) i = FloatOps.ofBits .f32 0x3F800000#32 := (val_main_v741_apply i).trans rfl
theorem l2r5_k748 (i : S50000.Idx) : val_main_v748 (F := F) i = FloatOps.ofBits .f32 0x00000000#32 := (val_main_v748_apply i).trans rfl
theorem l2r5_k753 (i : S50000.Idx) : val_main_v753 (F := F) i = FloatOps.ofBits .f32 0x00000000#32 := (val_main_v753_apply i).trans rfl
theorem l2r5_k751 (i : S50000.Idx) : val_main_v751 (F := F) i = FloatOps.ofBits .f32 0xBF000000#32 := (val_main_v751_apply i).trans rfl
theorem l2r5_k756 (i : S50000.Idx) : val_main_v756 (F := F) i = FloatOps.ofBits .f32 0x00000000#32 := (val_main_v756_apply i).trans rfl
theorem l2r5_k761 (i : S50000.Idx) : val_main_v761 (F := F) i = FloatOps.ofBits .f32 0x00000000#32 := (val_main_v761_apply i).trans rfl
theorem l2r5_k759 (i : S50000.Idx) : val_main_v759 (F := F) i = FloatOps.ofBits .f32 0xBF000000#32 := (val_main_v759_apply i).trans rfl
theorem l2r5_w59 (i : S50000.Idx) : val_main_call59_v1 (F := F) i = FloatOps.ofBits .f32 0x3F800000#32 := (val_main_call59_v1_apply i).trans rfl
theorem l2r5_w60 (i : S50000.Idx) : val_main_call60_v1 (F := F) i = FloatOps.ofBits .f32 0x00000000#32 := (val_main_call60_v1_apply i).trans rfl
theorem l2r5_w61 (i : S50000.Idx) : val_main_call61_v1 (F := F) i = FloatOps.ofBits .f32 0x3F800000#32 := (val_main_call61_v1_apply i).trans rfl
theorem l2r5_w62 (i : S50000.Idx) : val_main_call62_v1 (F := F) i = FloatOps.ofBits .f32 0x00000000#32 := (val_main_call62_v1_apply i).trans rfl
theorem l2r5_k777 (i : S50000x128.Idx) : val_main_v777 (F := F) i = FloatOps.ofBits .f32 0x00000000#32 := (val_main_v777_apply i).trans rfl

end Consts

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The index columns -/

/-- The source words of the relation: a row of the edge array. -/
theorem l2r5_col0 (e : S400000.Idx) :
    val_main_v738 (F := Ideal) x9 e = x9 (ix3 (5 : Fin 9) (0 : Fin 2) (⟨(e 0).val, (e 0).isLt⟩ : Fin 400000)) := by
  rw [val_main_v738_apply, val_main_v737_apply]
  refine congrArg x9 (funext fun a => ?_)
  match a with
  | ⟨0, _⟩ => rfl
  | ⟨1, _⟩ => rfl
  | ⟨2, _⟩ => exact Fin.ext (Nat.mod_eq_of_lt (e 0).isLt)

/-- The destination words of the relation: the next row of the edge array. -/
theorem l2r5_col1 (e : S400000.Idx) :
    val_main_v740 (F := Ideal) x9 e = x9 (ix3 (5 : Fin 9) (1 : Fin 2) (⟨(e 0).val, (e 0).isLt⟩ : Fin 400000)) := by
  rw [val_main_v740_apply, val_main_v739_apply]
  refine congrArg x9 (funext fun a => ?_)
  match a with
  | ⟨0, _⟩ => rfl
  | ⟨1, _⟩ => rfl
  | ⟨2, _⟩ => exact Fin.ext (Nat.mod_eq_of_lt (e 0).isLt)

/-- The index column of the out-degree count is the source column. -/
theorem l2r5_c0 : val_main_v743 (F := Ideal) x9 = colIdx x9 (5 : Fin 9) 0 :=
  funext fun i => (val_main_v743_apply x9 i).trans (l2r5_col0 x0 x1 x2 x3 x4 x5 x6 x9 _)

/-- The index column of the in-degree count is the destination column. -/
theorem l2r5_c1 : val_main_v746 (F := Ideal) x9 = colIdx x9 (5 : Fin 9) 1 :=
  funext fun i => (val_main_v746_apply x9 i).trans (l2r5_col1 x0 x1 x2 x3 x4 x5 x6 x9 _)

/-- The index column of the aggregation is the destination column. -/
theorem l2r5_dst : val_main_v778 (F := Ideal) x9 = colIdx x9 (5 : Fin 9) 1 :=
  funext fun i => (val_main_v778_apply x9 i).trans (l2r5_col1 x0 x1 x2 x3 x4 x5 x6 x9 _)

/-- The start indices of the gather are the source column, a negative word wrapped once. -/
theorem l2r5_src : val_main_v775 (F := Ideal) x9 = srcIdx x9 (5 : Fin 9) :=
  funext fun i => by
    rw [val_main_v775_apply, val_main_v774_apply, val_main_v771_apply, val_main_v773_apply, l2r5_col0 x0 x1 x2 x3 x4 x5 x6 x9]
    rfl

/-! ## The two norms -/

/-- The source norm of node m. -/
theorem l2r5_ns (m : Fin 50000) : val_main_v755 (F := Ideal) x9 (ix1 m) = (graphOf x9).ns (5 : Fin 9) m := by
  have hdeg : val_main_v744 (F := Ideal) x9 (ix1 m) = degAt (colIdx x9 (5 : Fin 9) 0) m := by
    unfold val_main_v744
    rw [l2r5_c0 x0 x1 x2 x3 x4 x5 x6 x9]
    exact scatterAdd_deg _ rfl rfl rfl rfl _ _ _ (fun i => l2r5_k742 i) (fun i => l2r5_k741 i) m
  rw [graphOf_ns, val_main_v755_apply, val_main_v754_apply, val_main_v752_apply, val_main_v750_apply, val_main_v749_apply]
  exact norm_of_stages _ _ _ _ _ _ _ hdeg (l2r5_k748 _) (l2r5_k753 _) (l2r5_w59 _) (l2r5_k751 _) (l2r5_w60 _)

/-- The destination norm of node n. -/
theorem l2r5_nd (n : Fin 50000) : val_main_v763 (F := Ideal) x9 (ix1 n) = (graphOf x9).nd (5 : Fin 9) n := by
  have hdeg : val_main_v747 (F := Ideal) x9 (ix1 n) = degAt (colIdx x9 (5 : Fin 9) 1) n := by
    unfold val_main_v747
    rw [l2r5_c1 x0 x1 x2 x3 x4 x5 x6 x9]
    exact scatterAdd_deg _ rfl rfl rfl rfl _ _ _ (fun i => l2r5_k745 i) (fun i => l2r5_k741 i) n
  rw [graphOf_nd, val_main_v763_apply, val_main_v762_apply, val_main_v760_apply, val_main_v758_apply, val_main_v757_apply]
  exact norm_of_stages _ _ _ _ _ _ _ hdeg (l2r5_k756 _) (l2r5_k761 _) (l2r5_w61 _) (l2r5_k759 _) (l2r5_w62 _)

/-! ## The weights and the bias -/

/-- The relation's weight matrix: its slice of the layer's weights. -/
theorem l2r5_W (k c : Fin 128) : val_main_v768 (F := Ideal) x5 (ix2 k c) = x5 (ix3 (5 : Fin 9) k c) := by
  rw [val_main_v768_apply, val_main_v767_apply]
  refine congrArg x5 (funext fun a => ?_)
  match a with
  | ⟨0, _⟩ => rfl
  | ⟨1, _⟩ => exact Fin.ext (by show (k.val * 128 + c.val) / 128 % 128 = k.val; have := k.isLt; have := c.isLt; omega)
  | ⟨2, _⟩ => exact Fin.ext (by show (k.val * 128 + c.val) % 128 = c.val; have := c.isLt; omega)

/-- The relation's bias row, broadcast over the nodes: its row of the layer's biases. -/
theorem l2r5_b (n : Fin 50000) (c : Fin 128) : val_main_v787 (F := Ideal) x6 (ix2 n c) = x6 (ix2 (5 : Fin 9) c) := by
  rw [val_main_v787_apply, val_main_v786_apply, val_main_v785_apply, val_main_v784_apply]
  refine congrArg x6 (funext fun a => ?_)
  match a with
  | ⟨0, _⟩ => rfl
  | ⟨1, _⟩ => exact Fin.ext (Nat.mod_eq_of_lt c.isLt)

/-! ## The projected table, the scaled aggregate, the accumulation -/

/-- Node m's scaled source row projected by the relation's weights. -/
theorem l2r5_proj (m : Fin 50000) (c : Fin 128) :
    val_main_v769 (F := Ideal) x0 x1 x2 x3 x4 x5 x9 (ix2 m c)
      = ∑ k : Fin 128, (val_main_v473 (F := Ideal) x0 x1 x2 x3 x4 x9 (ix2 m k) * (graphOf x9).ns (5 : Fin 9) m) * x5 (ix3 (5 : Fin 9) k c) := by
  rw [val_main_v769_apply]
  refine Finset.sum_congr rfl fun k _ => ?_
  have hl : lidx_main_v769 (ix2 m c) k = ix2 m k := by
    funext a
    match a with
    | ⟨0, _⟩ => rfl
    | ⟨1, _⟩ => rfl
  have hr : ridx_main_v769 (ix2 m c) k = ix2 k c := by
    funext a
    match a with
    | ⟨0, _⟩ => rfl
    | ⟨1, _⟩ => rfl
  have hi : idx_main_v764 (idx_main_v765 (ix2 m k)) = ix1 m := by
    funext a
    match a with
    | ⟨0, _⟩ => rfl
  rw [hl, hr, l2r5_W x0 x1 x2 x3 x4 x5 x6 x9, val_main_v766_apply, val_main_v765_apply, val_main_v764_apply, hi, l2r5_ns x0 x1 x2 x3 x4 x5 x6 x9]
  rfl

/-- The relation's scaled aggregate at (n, j). -/
theorem l2r5_prod (n : Fin 50000) (j : Fin 128) :
    val_main_v782 (F := Ideal) x0 x1 x2 x3 x4 x5 x9 (ix2 n j)
      = relR (graphOf x9) (fun m k => val_main_v473 (F := Ideal) x0 x1 x2 x3 x4 x9 (ix2 m k)) (fun k c => x5 (ix3 (5 : Fin 9) k c)) (5 : Fin 9) n j := by
  have hi : idx_main_v780 (idx_main_v781 (ix2 n j)) = ix1 n := by
    funext a
    match a with
    | ⟨0, _⟩ => rfl
  rw [val_main_v782_apply, val_main_v781_apply, val_main_v780_apply, hi, l2r5_nd x0 x1 x2 x3 x4 x5 x6 x9]
  unfold val_main_v779 val_main_v776
  exact relR_of_stages x9 (5 : Fin 9) _ rfl rfl rfl rfl _ rfl rfl rfl rfl rfl rfl rfl _ _ _ _ _ _
    (fun i => (l2r5_k777 i).trans Z_eq)
    (fun m c => l2r5_proj x0 x1 x2 x3 x4 x5 x6 x9 m c)
    (l2r5_src x0 x1 x2 x3 x4 x5 x6 x9) (l2r5_dst x0 x1 x2 x3 x4 x5 x6 x9) n j

/-- The running sum of the destination type after this relation: the sum before, the scaled aggregate, the bias. -/
theorem l2r5_acc (n : Fin 50000) (j : Fin 128) :
    val_main_v788 (F := Ideal) x0 x1 x2 x3 x4 x5 x6 x9 (ix2 n j)
      = (val_main_v684 (F := Ideal) x0 x1 x2 x3 x4 x5 x6 x9 (ix2 n j)
          + relR (graphOf x9) (fun m k => val_main_v473 (F := Ideal) x0 x1 x2 x3 x4 x9 (ix2 m k)) (fun k c => x5 (ix3 (5 : Fin 9) k c)) (5 : Fin 9) n j)
        + x6 (ix2 (5 : Fin 9) j) := by
  rw [val_main_v788_apply, val_main_v783_apply, l2r5_prod x0 x1 x2 x3 x4 x5 x6 x9, l2r5_b x0 x1 x2 x3 x4 x5 x6 x9]
  rfl

end Cert.ReferenceIdeal.RV

end
-- ==== Proof.RV.L2R6.lean ====
/-
  Layer 2 of the reference, relation 6, read at one element.

  The relation's block of operations: the two index columns cut from the edge array, the two degree counts and their
  norms, the source table (the activated layer-1 sum of the source type) scaled by the source norm and projected by the
  relation's weights, the projected rows gathered along the edges and summed at the destination, scaled by the
  destination norm, added to the running sum of the destination type, and the bias added. Each stage is read from the
  stages before it; together they give `Spec.relR` over the graph of the edge array, plus the accumulation.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf
import proofs.«151568_j90031104458821_2_alg».proof.Proof.RefReadP
import proofs.«151568_j90031104458821_2_alg».proof.Proof.RV.L2Lib

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The constant arrays of the block, at any float family -/

section Consts
variable {F : FTy → Type} [FloatOps F]

theorem l2r6_k794 (i : S50000.Idx) : val_main_v794 (F := F) i = FloatOps.ofBits .f32 0x00000000#32 := (val_main_v794_apply i).trans rfl
theorem l2r6_k797 (i : S50000.Idx) : val_main_v797 (F := F) i = FloatOps.ofBits .f32 0x00000000#32 := (val_main_v797_apply i).trans rfl
theorem l2r6_k793 (i : S400000.Idx) : val_main_v793 (F := F) i = FloatOps.ofBits .f32 0x3F800000#32 := (val_main_v793_apply i).trans rfl
theorem l2r6_k800 (i : S50000.Idx) : val_main_v800 (F := F) i = FloatOps.ofBits .f32 0x00000000#32 := (val_main_v800_apply i).trans rfl
theorem l2r6_k805 (i : S50000.Idx) : val_main_v805 (F := F) i = FloatOps.ofBits .f32 0x00000000#32 := (val_main_v805_apply i).trans rfl
theorem l2r6_k803 (i : S50000.Idx) : val_main_v803 (F := F) i = FloatOps.ofBits .f32 0xBF000000#32 := (val_main_v803_apply i).trans rfl
theorem l2r6_k808 (i : S50000.Idx) : val_main_v808 (F := F) i = FloatOps.ofBits .f32 0x00000000#32 := (val_main_v808_apply i).trans rfl
theorem l2r6_k813 (i : S50000.Idx) : val_main_v813 (F := F) i = FloatOps.ofBits .f32 0x00000000#32 := (val_main_v813_apply i).trans rfl
theorem l2r6_k811 (i : S50000.Idx) : val_main_v811 (F := F) i = FloatOps.ofBits .f32 0xBF000000#32 := (val_main_v811_apply i).trans rfl
theorem l2r6_w63 (i : S50000.Idx) : val_main_call63_v1 (F := F) i = FloatOps.ofBits .f32 0x3F800000#32 := (val_main_call63_v1_apply i).trans rfl
theorem l2r6_w64 (i : S50000.Idx) : val_main_call64_v1 (F := F) i = FloatOps.ofBits .f32 0x00000000#32 := (val_main_call64_v1_apply i).trans rfl
theorem l2r6_w65 (i : S50000.Idx) : val_main_call65_v1 (F := F) i = FloatOps.ofBits .f32 0x3F800000#32 := (val_main_call65_v1_apply i).trans rfl
theorem l2r6_w66 (i : S50000.Idx) : val_main_call66_v1 (F := F) i = FloatOps.ofBits .f32 0x00000000#32 := (val_main_call66_v1_apply i).trans rfl
theorem l2r6_k829 (i : S50000x128.Idx) : val_main_v829 (F := F) i = FloatOps.ofBits .f32 0x00000000#32 := (val_main_v829_apply i).trans rfl

end Consts

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The index columns -/

/-- The source words of the relation: a row of the edge array. -/
theorem l2r6_col0 (e : S400000.Idx) :
    val_main_v790 (F := Ideal) x9 e = x9 (ix3 (6 : Fin 9) (0 : Fin 2) (⟨(e 0).val, (e 0).isLt⟩ : Fin 400000)) := by
  rw [val_main_v790_apply, val_main_v789_apply]
  refine congrArg x9 (funext fun a => ?_)
  match a with
  | ⟨0, _⟩ => rfl
  | ⟨1, _⟩ => rfl
  | ⟨2, _⟩ => exact Fin.ext (Nat.mod_eq_of_lt (e 0).isLt)

/-- The destination words of the relation: the next row of the edge array. -/
theorem l2r6_col1 (e : S400000.Idx) :
    val_main_v792 (F := Ideal) x9 e = x9 (ix3 (6 : Fin 9) (1 : Fin 2) (⟨(e 0).val, (e 0).isLt⟩ : Fin 400000)) := by
  rw [val_main_v792_apply, val_main_v791_apply]
  refine congrArg x9 (funext fun a => ?_)
  match a with
  | ⟨0, _⟩ => rfl
  | ⟨1, _⟩ => rfl
  | ⟨2, _⟩ => exact Fin.ext (Nat.mod_eq_of_lt (e 0).isLt)

/-- The index column of the out-degree count is the source column. -/
theorem l2r6_c0 : val_main_v795 (F := Ideal) x9 = colIdx x9 (6 : Fin 9) 0 :=
  funext fun i => (val_main_v795_apply x9 i).trans (l2r6_col0 x0 x1 x2 x3 x4 x5 x6 x9 _)

/-- The index column of the in-degree count is the destination column. -/
theorem l2r6_c1 : val_main_v798 (F := Ideal) x9 = colIdx x9 (6 : Fin 9) 1 :=
  funext fun i => (val_main_v798_apply x9 i).trans (l2r6_col1 x0 x1 x2 x3 x4 x5 x6 x9 _)

/-- The index column of the aggregation is the destination column. -/
theorem l2r6_dst : val_main_v830 (F := Ideal) x9 = colIdx x9 (6 : Fin 9) 1 :=
  funext fun i => (val_main_v830_apply x9 i).trans (l2r6_col1 x0 x1 x2 x3 x4 x5 x6 x9 _)

/-- The start indices of the gather are the source column, a negative word wrapped once. -/
theorem l2r6_src : val_main_v827 (F := Ideal) x9 = srcIdx x9 (6 : Fin 9) :=
  funext fun i => by
    rw [val_main_v827_apply, val_main_v826_apply, val_main_v823_apply, val_main_v825_apply, l2r6_col0 x0 x1 x2 x3 x4 x5 x6 x9]
    rfl

/-! ## The two norms -/

/-- The source norm of node m. -/
theorem l2r6_ns (m : Fin 50000) : val_main_v807 (F := Ideal) x9 (ix1 m) = (graphOf x9).ns (6 : Fin 9) m := by
  have hdeg : val_main_v796 (F := Ideal) x9 (ix1 m) = degAt (colIdx x9 (6 : Fin 9) 0) m := by
    unfold val_main_v796
    rw [l2r6_c0 x0 x1 x2 x3 x4 x5 x6 x9]
    exact scatterAdd_deg _ rfl rfl rfl rfl _ _ _ (fun i => l2r6_k794 i) (fun i => l2r6_k793 i) m
  rw [graphOf_ns, val_main_v807_apply, val_main_v806_apply, val_main_v804_apply, val_main_v802_apply, val_main_v801_apply]
  exact norm_of_stages _ _ _ _ _ _ _ hdeg (l2r6_k800 _) (l2r6_k805 _) (l2r6_w63 _) (l2r6_k803 _) (l2r6_w64 _)

/-- The destination norm of node n. -/
theorem l2r6_nd (n : Fin 50000) : val_main_v815 (F := Ideal) x9 (ix1 n) = (graphOf x9).nd (6 : Fin 9) n := by
  have hdeg : val_main_v799 (F := Ideal) x9 (ix1 n) = degAt (colIdx x9 (6 : Fin 9) 1) n := by
    unfold val_main_v799
    rw [l2r6_c1 x0 x1 x2 x3 x4 x5 x6 x9]
    exact scatterAdd_deg _ rfl rfl rfl rfl _ _ _ (fun i => l2r6_k797 i) (fun i => l2r6_k793 i) n
  rw [graphOf_nd, val_main_v815_apply, val_main_v814_apply, val_main_v812_apply, val_main_v810_apply, val_main_v809_apply]
  exact norm_of_stages _ _ _ _ _ _ _ hdeg (l2r6_k808 _) (l2r6_k813 _) (l2r6_w65 _) (l2r6_k811 _) (l2r6_w66 _)

/-! ## The weights and the bias -/

/-- The relation's weight matrix: its slice of the layer's weights. -/
theorem l2r6_W (k c : Fin 128) : val_main_v820 (F := Ideal) x5 (ix2 k c) = x5 (ix3 (6 : Fin 9) k c) := by
  rw [val_main_v820_apply, val_main_v819_apply]
  refine congrArg x5 (funext fun a => ?_)
  match a with
  | ⟨0, _⟩ => rfl
  | ⟨1, _⟩ => exact Fin.ext (by show (k.val * 128 + c.val) / 128 % 128 = k.val; have := k.isLt; have := c.isLt; omega)
  | ⟨2, _⟩ => exact Fin.ext (by show (k.val * 128 + c.val) % 128 = c.val; have := c.isLt; omega)

/-- The relation's bias row, broadcast over the nodes: its row of the layer's biases. -/
theorem l2r6_b (n : Fin 50000) (c : Fin 128) : val_main_v839 (F := Ideal) x6 (ix2 n c) = x6 (ix2 (6 : Fin 9) c) := by
  rw [val_main_v839_apply, val_main_v838_apply, val_main_v837_apply, val_main_v836_apply]
  refine congrArg x6 (funext fun a => ?_)
  match a with
  | ⟨0, _⟩ => rfl
  | ⟨1, _⟩ => exact Fin.ext (Nat.mod_eq_of_lt c.isLt)

/-! ## The projected table, the scaled aggregate, the accumulation -/

/-- Node m's scaled source row projected by the relation's weights. -/
theorem l2r6_proj (m : Fin 50000) (c : Fin 128) :
    val_main_v821 (F := Ideal) x0 x1 x2 x3 x4 x5 x9 (ix2 m c)
      = ∑ k : Fin 128, (val_main_v471 (F := Ideal) x0 x1 x2 x3 x4 x9 (ix2 m k) * (graphOf x9).ns (6 : Fin 9) m) * x5 (ix3 (6 : Fin 9) k c) := by
  rw [val_main_v821_apply]
  refine Finset.sum_congr rfl fun k _ => ?_
  have hl : lidx_main_v821 (ix2 m c) k = ix2 m k := by
    funext a
    match a with
    | ⟨0, _⟩ => rfl
    | ⟨1, _⟩ => rfl
  have hr : ridx_main_v821 (ix2 m c) k = ix2 k c := by
    funext a
    match a with
    | ⟨0, _⟩ => rfl
    | ⟨1, _⟩ => rfl
  have hi : idx_main_v816 (idx_main_v817 (ix2 m k)) = ix1 m := by
    funext a
    match a with
    | ⟨0, _⟩ => rfl
  rw [hl, hr, l2r6_W x0 x1 x2 x3 x4 x5 x6 x9, val_main_v818_apply, val_main_v817_apply, val_main_v816_apply, hi, l2r6_ns x0 x1 x2 x3 x4 x5 x6 x9]
  rfl

/-- The relation's scaled aggregate at (n, j). -/
theorem l2r6_prod (n : Fin 50000) (j : Fin 128) :
    val_main_v834 (F := Ideal) x0 x1 x2 x3 x4 x5 x9 (ix2 n j)
      = relR (graphOf x9) (fun m k => val_main_v471 (F := Ideal) x0 x1 x2 x3 x4 x9 (ix2 m k)) (fun k c => x5 (ix3 (6 : Fin 9) k c)) (6 : Fin 9) n j := by
  have hi : idx_main_v832 (idx_main_v833 (ix2 n j)) = ix1 n := by
    funext a
    match a with
    | ⟨0, _⟩ => rfl
  rw [val_main_v834_apply, val_main_v833_apply, val_main_v832_apply, hi, l2r6_nd x0 x1 x2 x3 x4 x5 x6 x9]
  unfold val_main_v831 val_main_v828
  exact relR_of_stages x9 (6 : Fin 9) _ rfl rfl rfl rfl _ rfl rfl rfl rfl rfl rfl rfl _ _ _ _ _ _
    (fun i => (l2r6_k829 i).trans Z_eq)
    (fun m c => l2r6_proj x0 x1 x2 x3 x4 x5 x6 x9 m c)
    (l2r6_src x0 x1 x2 x3 x4 x5 x6 x9) (l2r6_dst x0 x1 x2 x3 x4 x5 x6 x9) n j

/-- The running sum of the destination type after this relation: the sum before, the scaled aggregate, the bias. -/
theorem l2r6_acc (n : Fin 50000) (j : Fin 128) :
    val_main_v840 (F := Ideal) x0 x1 x2 x3 x4 x5 x6 x9 (ix2 n j)
      = (val_main_v788 (F := Ideal) x0 x1 x2 x3 x4 x5 x6 x9 (ix2 n j)
          + relR (graphOf x9) (fun m k => val_main_v471 (F := Ideal) x0 x1 x2 x3 x4 x9 (ix2 m k)) (fun k c => x5 (ix3 (6 : Fin 9) k c)) (6 : Fin 9) n j)
        + x6 (ix2 (6 : Fin 9) j) := by
  rw [val_main_v840_apply, val_main_v835_apply, l2r6_prod x0 x1 x2 x3 x4 x5 x6 x9, l2r6_b x0 x1 x2 x3 x4 x5 x6 x9]
  rfl

end Cert.ReferenceIdeal.RV

end
-- ==== Proof.RV.L2R7.lean ====
/-
  Layer 2 of the reference, relation 7, read at one element.

  The relation's block of operations: the two index columns cut from the edge array, the two degree counts and their
  norms, the source table (the activated layer-1 sum of the source type) scaled by the source norm and projected by the
  relation's weights, the projected rows gathered along the edges and summed at the destination, scaled by the
  destination norm, added to the running sum of the destination type, and the bias added. Each stage is read from the
  stages before it; together they give `Spec.relR` over the graph of the edge array, plus the accumulation.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf
import proofs.«151568_j90031104458821_2_alg».proof.Proof.RefReadP
import proofs.«151568_j90031104458821_2_alg».proof.Proof.RV.L2Lib

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The constant arrays of the block, at any float family -/

section Consts
variable {F : FTy → Type} [FloatOps F]

theorem l2r7_k846 (i : S50000.Idx) : val_main_v846 (F := F) i = FloatOps.ofBits .f32 0x00000000#32 := (val_main_v846_apply i).trans rfl
theorem l2r7_k849 (i : S50000.Idx) : val_main_v849 (F := F) i = FloatOps.ofBits .f32 0x00000000#32 := (val_main_v849_apply i).trans rfl
theorem l2r7_k845 (i : S400000.Idx) : val_main_v845 (F := F) i = FloatOps.ofBits .f32 0x3F800000#32 := (val_main_v845_apply i).trans rfl
theorem l2r7_k852 (i : S50000.Idx) : val_main_v852 (F := F) i = FloatOps.ofBits .f32 0x00000000#32 := (val_main_v852_apply i).trans rfl
theorem l2r7_k857 (i : S50000.Idx) : val_main_v857 (F := F) i = FloatOps.ofBits .f32 0x00000000#32 := (val_main_v857_apply i).trans rfl
theorem l2r7_k855 (i : S50000.Idx) : val_main_v855 (F := F) i = FloatOps.ofBits .f32 0xBF000000#32 := (val_main_v855_apply i).trans rfl
theorem l2r7_k860 (i : S50000.Idx) : val_main_v860 (F := F) i = FloatOps.ofBits .f32 0x00000000#32 := (val_main_v860_apply i).trans rfl
theorem l2r7_k865 (i : S50000.Idx) : val_main_v865 (F := F) i = FloatOps.ofBits .f32 0x00000000#32 := (val_main_v865_apply i).trans rfl
theorem l2r7_k863 (i : S50000.Idx) : val_main_v863 (F := F) i = FloatOps.ofBits .f32 0xBF000000#32 := (val_main_v863_apply i).trans rfl
theorem l2r7_w67 (i : S50000.Idx) : val_main_call67_v1 (F := F) i = FloatOps.ofBits .f32 0x3F800000#32 := (val_main_call67_v1_apply i).trans rfl
theorem l2r7_w68 (i : S50000.Idx) : val_main_call68_v1 (F := F) i = FloatOps.ofBits .f32 0x00000000#32 := (val_main_call68_v1_apply i).trans rfl
theorem l2r7_w69 (i : S50000.Idx) : val_main_call69_v1 (F := F) i = FloatOps.ofBits .f32 0x3F800000#32 := (val_main_call69_v1_apply i).trans rfl
theorem l2r7_w70 (i : S50000.Idx) : val_main_call70_v1 (F := F) i = FloatOps.ofBits .f32 0x00000000#32 := (val_main_call70_v1_apply i).trans rfl
theorem l2r7_k881 (i : S50000x128.Idx) : val_main_v881 (F := F) i = FloatOps.ofBits .f32 0x00000000#32 := (val_main_v881_apply i).trans rfl

end Consts

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The index columns -/

/-- The source words of the relation: a row of the edge array. -/
theorem l2r7_col0 (e : S400000.Idx) :
    val_main_v842 (F := Ideal) x9 e = x9 (ix3 (7 : Fin 9) (0 : Fin 2) (⟨(e 0).val, (e 0).isLt⟩ : Fin 400000)) := by
  rw [val_main_v842_apply, val_main_v841_apply]
  refine congrArg x9 (funext fun a => ?_)
  match a with
  | ⟨0, _⟩ => rfl
  | ⟨1, _⟩ => rfl
  | ⟨2, _⟩ => exact Fin.ext (Nat.mod_eq_of_lt (e 0).isLt)

/-- The destination words of the relation: the next row of the edge array. -/
theorem l2r7_col1 (e : S400000.Idx) :
    val_main_v844 (F := Ideal) x9 e = x9 (ix3 (7 : Fin 9) (1 : Fin 2) (⟨(e 0).val, (e 0).isLt⟩ : Fin 400000)) := by
  rw [val_main_v844_apply, val_main_v843_apply]
  refine congrArg x9 (funext fun a => ?_)
  match a with
  | ⟨0, _⟩ => rfl
  | ⟨1, _⟩ => rfl
  | ⟨2, _⟩ => exact Fin.ext (Nat.mod_eq_of_lt (e 0).isLt)

/-- The index column of the out-degree count is the source column. -/
theorem l2r7_c0 : val_main_v847 (F := Ideal) x9 = colIdx x9 (7 : Fin 9) 0 :=
  funext fun i => (val_main_v847_apply x9 i).trans (l2r7_col0 x0 x1 x2 x3 x4 x5 x6 x9 _)

/-- The index column of the in-degree count is the destination column. -/
theorem l2r7_c1 : val_main_v850 (F := Ideal) x9 = colIdx x9 (7 : Fin 9) 1 :=
  funext fun i => (val_main_v850_apply x9 i).trans (l2r7_col1 x0 x1 x2 x3 x4 x5 x6 x9 _)

/-- The index column of the aggregation is the destination column. -/
theorem l2r7_dst : val_main_v882 (F := Ideal) x9 = colIdx x9 (7 : Fin 9) 1 :=
  funext fun i => (val_main_v882_apply x9 i).trans (l2r7_col1 x0 x1 x2 x3 x4 x5 x6 x9 _)

/-- The start indices of the gather are the source column, a negative word wrapped once. -/
theorem l2r7_src : val_main_v879 (F := Ideal) x9 = srcIdx x9 (7 : Fin 9) :=
  funext fun i => by
    rw [val_main_v879_apply, val_main_v878_apply, val_main_v875_apply, val_main_v877_apply, l2r7_col0 x0 x1 x2 x3 x4 x5 x6 x9]
    rfl

/-! ## The two norms -/

/-- The source norm of node m. -/
theorem l2r7_ns (m : Fin 50000) : val_main_v859 (F := Ideal) x9 (ix1 m) = (graphOf x9).ns (7 : Fin 9) m := by
  have hdeg : val_main_v848 (F := Ideal) x9 (ix1 m) = degAt (colIdx x9 (7 : Fin 9) 0) m := by
    unfold val_main_v848
    rw [l2r7_c0 x0 x1 x2 x3 x4 x5 x6 x9]
    exact scatterAdd_deg _ rfl rfl rfl rfl _ _ _ (fun i => l2r7_k846 i) (fun i => l2r7_k845 i) m
  rw [graphOf_ns, val_main_v859_apply, val_main_v858_apply, val_main_v856_apply, val_main_v854_apply, val_main_v853_apply]
  exact norm_of_stages _ _ _ _ _ _ _ hdeg (l2r7_k852 _) (l2r7_k857 _) (l2r7_w67 _) (l2r7_k855 _) (l2r7_w68 _)

/-- The destination norm of node n. -/
theorem l2r7_nd (n : Fin 50000) : val_main_v867 (F := Ideal) x9 (ix1 n) = (graphOf x9).nd (7 : Fin 9) n := by
  have hdeg : val_main_v851 (F := Ideal) x9 (ix1 n) = degAt (colIdx x9 (7 : Fin 9) 1) n := by
    unfold val_main_v851
    rw [l2r7_c1 x0 x1 x2 x3 x4 x5 x6 x9]
    exact scatterAdd_deg _ rfl rfl rfl rfl _ _ _ (fun i => l2r7_k849 i) (fun i => l2r7_k845 i) n
  rw [graphOf_nd, val_main_v867_apply, val_main_v866_apply, val_main_v864_apply, val_main_v862_apply, val_main_v861_apply]
  exact norm_of_stages _ _ _ _ _ _ _ hdeg (l2r7_k860 _) (l2r7_k865 _) (l2r7_w69 _) (l2r7_k863 _) (l2r7_w70 _)

/-! ## The weights and the bias -/

/-- The relation's weight matrix: its slice of the layer's weights. -/
theorem l2r7_W (k c : Fin 128) : val_main_v872 (F := Ideal) x5 (ix2 k c) = x5 (ix3 (7 : Fin 9) k c) := by
  rw [val_main_v872_apply, val_main_v871_apply]
  refine congrArg x5 (funext fun a => ?_)
  match a with
  | ⟨0, _⟩ => rfl
  | ⟨1, _⟩ => exact Fin.ext (by show (k.val * 128 + c.val) / 128 % 128 = k.val; have := k.isLt; have := c.isLt; omega)
  | ⟨2, _⟩ => exact Fin.ext (by show (k.val * 128 + c.val) % 128 = c.val; have := c.isLt; omega)

/-- The relation's bias row, broadcast over the nodes: its row of the layer's biases. -/
theorem l2r7_b (n : Fin 50000) (c : Fin 128) : val_main_v891 (F := Ideal) x6 (ix2 n c) = x6 (ix2 (7 : Fin 9) c) := by
  rw [val_main_v891_apply, val_main_v890_apply, val_main_v889_apply, val_main_v888_apply]
  refine congrArg x6 (funext fun a => ?_)
  match a with
  | ⟨0, _⟩ => rfl
  | ⟨1, _⟩ => exact Fin.ext (Nat.mod_eq_of_lt c.isLt)

/-! ## The projected table, the scaled aggregate, the accumulation -/

/-- Node m's scaled source row projected by the relation's weights. -/
theorem l2r7_proj (m : Fin 50000) (c : Fin 128) :
    val_main_v873 (F := Ideal) x0 x1 x2 x3 x4 x5 x9 (ix2 m c)
      = ∑ k : Fin 128, (val_main_v473 (F := Ideal) x0 x1 x2 x3 x4 x9 (ix2 m k) * (graphOf x9).ns (7 : Fin 9) m) * x5 (ix3 (7 : Fin 9) k c) := by
  rw [val_main_v873_apply]
  refine Finset.sum_congr rfl fun k _ => ?_
  have hl : lidx_main_v873 (ix2 m c) k = ix2 m k := by
    funext a
    match a with
    | ⟨0, _⟩ => rfl
    | ⟨1, _⟩ => rfl
  have hr : ridx_main_v873 (ix2 m c) k = ix2 k c := by
    funext a
    match a with
    | ⟨0, _⟩ => rfl
    | ⟨1, _⟩ => rfl
  have hi : idx_main_v868 (idx_main_v869 (ix2 m k)) = ix1 m := by
    funext a
    match a with
    | ⟨0, _⟩ => rfl
  rw [hl, hr, l2r7_W x0 x1 x2 x3 x4 x5 x6 x9, val_main_v870_apply, val_main_v869_apply, val_main_v868_apply, hi, l2r7_ns x0 x1 x2 x3 x4 x5 x6 x9]
  rfl

/-- The relation's scaled aggregate at (n, j). -/
theorem l2r7_prod (n : Fin 50000) (j : Fin 128) :
    val_main_v886 (F := Ideal) x0 x1 x2 x3 x4 x5 x9 (ix2 n j)
      = relR (graphOf x9) (fun m k => val_main_v473 (F := Ideal) x0 x1 x2 x3 x4 x9 (ix2 m k)) (fun k c => x5 (ix3 (7 : Fin 9) k c)) (7 : Fin 9) n j := by
  have hi : idx_main_v884 (idx_main_v885 (ix2 n j)) = ix1 n := by
    funext a
    match a with
    | ⟨0, _⟩ => rfl
  rw [val_main_v886_apply, val_main_v885_apply, val_main_v884_apply, hi, l2r7_nd x0 x1 x2 x3 x4 x5 x6 x9]
  unfold val_main_v883 val_main_v880
  exact relR_of_stages x9 (7 : Fin 9) _ rfl rfl rfl rfl _ rfl rfl rfl rfl rfl rfl rfl _ _ _ _ _ _
    (fun i => (l2r7_k881 i).trans Z_eq)
    (fun m c => l2r7_proj x0 x1 x2 x3 x4 x5 x6 x9 m c)
    (l2r7_src x0 x1 x2 x3 x4 x5 x6 x9) (l2r7_dst x0 x1 x2 x3 x4 x5 x6 x9) n j

/-- The running sum of the destination type after this relation: the sum before, the scaled aggregate, the bias. -/
theorem l2r7_acc (n : Fin 50000) (j : Fin 128) :
    val_main_v892 (F := Ideal) x0 x1 x2 x3 x4 x5 x6 x9 (ix2 n j)
      = (val_main_v580 (F := Ideal) x0 x1 x2 x3 x4 x5 x6 x9 (ix2 n j)
          + relR (graphOf x9) (fun m k => val_main_v473 (F := Ideal) x0 x1 x2 x3 x4 x9 (ix2 m k)) (fun k c => x5 (ix3 (7 : Fin 9) k c)) (7 : Fin 9) n j)
        + x6 (ix2 (7 : Fin 9) j) := by
  rw [val_main_v892_apply, val_main_v887_apply, l2r7_prod x0 x1 x2 x3 x4 x5 x6 x9, l2r7_b x0 x1 x2 x3 x4 x5 x6 x9]
  rfl

end Cert.ReferenceIdeal.RV

end
-- ==== Proof.RV.L2R8.lean ====
/-
  Layer 2 of the reference, relation 8, read at one element.

  The relation's block of operations: the two index columns cut from the edge array, the two degree counts and their
  norms, the source table (the activated layer-1 sum of the source type) scaled by the source norm and projected by the
  relation's weights, the projected rows gathered along the edges and summed at the destination, scaled by the
  destination norm, added to the running sum of the destination type, and the bias added. Each stage is read from the
  stages before it; together they give `Spec.relR` over the graph of the edge array, plus the accumulation.
-/
import proofs.«151568_j90031104458821_2_alg».proof.Proof.Math
import proofs.«151568_j90031104458821_2_alg».proof.Proof.IdxOps
import proofs.«151568_j90031104458821_2_alg».proof.Proof.Rel
import proofs.«151568_j90031104458821_2_alg».proof.Proof.Spec
import proofs.«151568_j90031104458821_2_alg».proof.Proof.GraphOf
import proofs.«151568_j90031104458821_2_alg».proof.Proof.RefReadP
import proofs.«151568_j90031104458821_2_alg».proof.Proof.RV.L2Lib

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The constant arrays of the block, at any float family -/

section Consts
variable {F : FTy → Type} [FloatOps F]

theorem l2r8_k898 (i : S50000.Idx) : val_main_v898 (F := F) i = FloatOps.ofBits .f32 0x00000000#32 := (val_main_v898_apply i).trans rfl
theorem l2r8_k901 (i : S50000.Idx) : val_main_v901 (F := F) i = FloatOps.ofBits .f32 0x00000000#32 := (val_main_v901_apply i).trans rfl
theorem l2r8_k897 (i : S400000.Idx) : val_main_v897 (F := F) i = FloatOps.ofBits .f32 0x3F800000#32 := (val_main_v897_apply i).trans rfl
theorem l2r8_k904 (i : S50000.Idx) : val_main_v904 (F := F) i = FloatOps.ofBits .f32 0x00000000#32 := (val_main_v904_apply i).trans rfl
theorem l2r8_k909 (i : S50000.Idx) : val_main_v909 (F := F) i = FloatOps.ofBits .f32 0x00000000#32 := (val_main_v909_apply i).trans rfl
theorem l2r8_k907 (i : S50000.Idx) : val_main_v907 (F := F) i = FloatOps.ofBits .f32 0xBF000000#32 := (val_main_v907_apply i).trans rfl
theorem l2r8_k912 (i : S50000.Idx) : val_main_v912 (F := F) i = FloatOps.ofBits .f32 0x00000000#32 := (val_main_v912_apply i).trans rfl
theorem l2r8_k917 (i : S50000.Idx) : val_main_v917 (F := F) i = FloatOps.ofBits .f32 0x00000000#32 := (val_main_v917_apply i).trans rfl
theorem l2r8_k915 (i : S50000.Idx) : val_main_v915 (F := F) i = FloatOps.ofBits .f32 0xBF000000#32 := (val_main_v915_apply i).trans rfl
theorem l2r8_w71 (i : S50000.Idx) : val_main_call71_v1 (F := F) i = FloatOps.ofBits .f32 0x3F800000#32 := (val_main_call71_v1_apply i).trans rfl
theorem l2r8_w72 (i : S50000.Idx) : val_main_call72_v1 (F := F) i = FloatOps.ofBits .f32 0x00000000#32 := (val_main_call72_v1_apply i).trans rfl
theorem l2r8_w73 (i : S50000.Idx) : val_main_call73_v1 (F := F) i = FloatOps.ofBits .f32 0x3F800000#32 := (val_main_call73_v1_apply i).trans rfl
theorem l2r8_w74 (i : S50000.Idx) : val_main_call74_v1 (F := F) i = FloatOps.ofBits .f32 0x00000000#32 := (val_main_call74_v1_apply i).trans rfl
theorem l2r8_k933 (i : S50000x128.Idx) : val_main_v933 (F := F) i = FloatOps.ofBits .f32 0x00000000#32 := (val_main_v933_apply i).trans rfl

end Consts

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The index columns -/

/-- The source words of the relation: a row of the edge array. -/
theorem l2r8_col0 (e : S400000.Idx) :
    val_main_v894 (F := Ideal) x9 e = x9 (ix3 (8 : Fin 9) (0 : Fin 2) (⟨(e 0).val, (e 0).isLt⟩ : Fin 400000)) := by
  rw [val_main_v894_apply, val_main_v893_apply]
  refine congrArg x9 (funext fun a => ?_)
  match a with
  | ⟨0, _⟩ => rfl
  | ⟨1, _⟩ => rfl
  | ⟨2, _⟩ => exact Fin.ext (Nat.mod_eq_of_lt (e 0).isLt)

/-- The destination words of the relation: the next row of the edge array. -/
theorem l2r8_col1 (e : S400000.Idx) :
    val_main_v896 (F := Ideal) x9 e = x9 (ix3 (8 : Fin 9) (1 : Fin 2) (⟨(e 0).val, (e 0).isLt⟩ : Fin 400000)) := by
  rw [val_main_v896_apply, val_main_v895_apply]
  refine congrArg x9 (funext fun a => ?_)
  match a with
  | ⟨0, _⟩ => rfl
  | ⟨1, _⟩ => rfl
  | ⟨2, _⟩ => exact Fin.ext (Nat.mod_eq_of_lt (e 0).isLt)

/-- The index column of the out-degree count is the source column. -/
theorem l2r8_c0 : val_main_v899 (F := Ideal) x9 = colIdx x9 (8 : Fin 9) 0 :=
  funext fun i => (val_main_v899_apply x9 i).trans (l2r8_col0 x0 x1 x2 x3 x4 x5 x6 x9 _)

/-- The index column of the in-degree count is the destination column. -/
theorem l2r8_c1 : val_main_v902 (F := Ideal) x9 = colIdx x9 (8 : Fin 9) 1 :=
  funext fun i => (val_main_v902_apply x9 i).trans (l2r8_col1 x0 x1 x2 x3 x4 x5 x6 x9 _)

/-- The index column of the aggregation is the destination column. -/
theorem l2r8_dst : val_main_v934 (F := Ideal) x9 = colIdx x9 (8 : Fin 9) 1 :=
  funext fun i => (val_main_v934_apply x9 i).trans (l2r8_col1 x0 x1 x2 x3 x4 x5 x6 x9 _)

/-- The start indices of the gather are the source column, a negative word wrapped once. -/
theorem l2r8_src : val_main_v931 (F := Ideal) x9 = srcIdx x9 (8 : Fin 9) :=
  funext fun i => by
    rw [val_main_v931_apply, val_main_v930_apply, val_main_v927_apply, val_main_v929_apply, l2r8_col0 x0 x1 x2 x3 x4 x5 x6 x9]
    rfl

/-! ## The two norms -/

/-- The source norm of node m. -/
theorem l2r8_ns (m : Fin 50000) : val_main_v911 (F := Ideal) x9 (ix1 m) = (graphOf x9).ns (8 : Fin 9) m := by
  have hdeg : val_main_v900 (F := Ideal) x9 (ix1 m) = degAt (colIdx x9 (8 : Fin 9) 0) m := by
    unfold val_main_v900
    rw [l2r8_c0 x0 x1 x2 x3 x4 x5 x6 x9]
    exact scatterAdd_deg _ rfl rfl rfl rfl _ _ _ (fun i => l2r8_k898 i) (fun i => l2r8_k897 i) m
  rw [graphOf_ns, val_main_v911_apply, val_main_v910_apply, val_main_v908_apply, val_main_v906_apply, val_main_v905_apply]
  exact norm_of_stages _ _ _ _ _ _ _ hdeg (l2r8_k904 _) (l2r8_k909 _) (l2r8_w71 _) (l2r8_k907 _) (l2r8_w72 _)

/-- The destination norm of node n. -/
theorem l2r8_nd (n : Fin 50000) : val_main_v919 (F := Ideal) x9 (ix1 n) = (graphOf x9).nd (8 : Fin 9) n := by
  have hdeg : val_main_v903 (F := Ideal) x9 (ix1 n) = degAt (colIdx x9 (8 : Fin 9) 1) n := by
    unfold val_main_v903
    rw [l2r8_c1 x0 x1 x2 x3 x4 x5 x6 x9]
    exact scatterAdd_deg _ rfl rfl rfl rfl _ _ _ (fun i => l2r8_k901 i) (fun i => l2r8_k897 i) n
  rw [graphOf_nd, val_main_v919_apply, val_main_v918_apply, val_main_v916_apply, val_main_v914_apply, val_main_v913_apply]
  exact norm_of_stages _ _ _ _ _ _ _ hdeg (l2r8_k912 _) (l2r8_k917 _) (l2r8_w73 _) (l2r8_k915 _) (l2r8_w74 _)

/-! ## The weights and the bias -/

/-- The relation's weight matrix: its slice of the layer's weights. -/
theorem l2r8_W (k c : Fin 128) : val_main_v924 (F := Ideal) x5 (ix2 k c) = x5 (ix3 (8 : Fin 9) k c) := by
  rw [val_main_v924_apply, val_main_v923_apply]
  refine congrArg x5 (funext fun a => ?_)
  match a with
  | ⟨0, _⟩ => rfl
  | ⟨1, _⟩ => exact Fin.ext (by show (k.val * 128 + c.val) / 128 % 128 = k.val; have := k.isLt; have := c.isLt; omega)
  | ⟨2, _⟩ => exact Fin.ext (by show (k.val * 128 + c.val) % 128 = c.val; have := c.isLt; omega)

/-- The relation's bias row, broadcast over the nodes: its row of the layer's biases. -/
theorem l2r8_b (n : Fin 50000) (c : Fin 128) : val_main_v943 (F := Ideal) x6 (ix2 n c) = x6 (ix2 (8 : Fin 9) c) := by
  rw [val_main_v943_apply, val_main_v942_apply, val_main_v941_apply, val_main_v940_apply]
  refine congrArg x6 (funext fun a => ?_)
  match a with
  | ⟨0, _⟩ => rfl
  | ⟨1, _⟩ => exact Fin.ext (Nat.mod_eq_of_lt c.isLt)

/-! ## The projected table, the scaled aggregate, the accumulation -/

/-- Node m's scaled source row projected by the relation's weights. -/
theorem l2r8_proj (m : Fin 50000) (c : Fin 128) :
    val_main_v925 (F := Ideal) x1 x2 x3 x4 x5 x9 (ix2 m c)
      = ∑ k : Fin 128, (val_main_v472 (F := Ideal) x1 x2 x3 x4 x9 (ix2 m k) * (graphOf x9).ns (8 : Fin 9) m) * x5 (ix3 (8 : Fin 9) k c) := by
  rw [val_main_v925_apply]
  refine Finset.sum_congr rfl fun k _ => ?_
  have hl : lidx_main_v925 (ix2 m c) k = ix2 m k := by
    funext a
    match a with
    | ⟨0, _⟩ => rfl
    | ⟨1, _⟩ => rfl
  have hr : ridx_main_v925 (ix2 m c) k = ix2 k c := by
    funext a
    match a with
    | ⟨0, _⟩ => rfl
    | ⟨1, _⟩ => rfl
  have hi : idx_main_v920 (idx_main_v921 (ix2 m k)) = ix1 m := by
    funext a
    match a with
    | ⟨0, _⟩ => rfl
  rw [hl, hr, l2r8_W x0 x1 x2 x3 x4 x5 x6 x9, val_main_v922_apply, val_main_v921_apply, val_main_v920_apply, hi, l2r8_ns x0 x1 x2 x3 x4 x5 x6 x9]
  rfl

/-- The relation's scaled aggregate at (n, j). -/
theorem l2r8_prod (n : Fin 50000) (j : Fin 128) :
    val_main_v938 (F := Ideal) x1 x2 x3 x4 x5 x9 (ix2 n j)
      = relR (graphOf x9) (fun m k => val_main_v472 (F := Ideal) x1 x2 x3 x4 x9 (ix2 m k)) (fun k c => x5 (ix3 (8 : Fin 9) k c)) (8 : Fin 9) n j := by
  have hi : idx_main_v936 (idx_main_v937 (ix2 n j)) = ix1 n := by
    funext a
    match a with
    | ⟨0, _⟩ => rfl
  rw [val_main_v938_apply, val_main_v937_apply, val_main_v936_apply, hi, l2r8_nd x0 x1 x2 x3 x4 x5 x6 x9]
  unfold val_main_v935 val_main_v932
  exact relR_of_stages x9 (8 : Fin 9) _ rfl rfl rfl rfl _ rfl rfl rfl rfl rfl rfl rfl _ _ _ _ _ _
    (fun i => (l2r8_k933 i).trans Z_eq)
    (fun m c => l2r8_proj x0 x1 x2 x3 x4 x5 x6 x9 m c)
    (l2r8_src x0 x1 x2 x3 x4 x5 x6 x9) (l2r8_dst x0 x1 x2 x3 x4 x5 x6 x9) n j

/-- The running sum of the destination type after this relation: the sum before, the scaled aggregate, the bias. -/
theorem l2r8_acc (n : Fin 50000) (j : Fin 128) :
    val_main_v944 (F := Ideal) x0 x1 x2 x3 x4 x5 x6 x9 (ix2 n j)
      = (val_main_v736 (F := Ideal) x0 x1 x2 x3 x4 x5 x6 x9 (ix2 n j)
          + relR (graphOf x9) (fun m k => val_main_v472 (F := Ideal) x1 x2 x3 x4 x9 (ix2 m k)) (fun k c => x5 (ix3 (8 : Fin 9) k c)) (8 : Fin 9) n j)
        + x6 (ix2 (8 : Fin 9) j) := by
  rw [val_main_v944_apply, val_main_v939_apply, l2r8_prod x0 x1 x2 x3 x4 x5 x6 x9, l2r8_b x0 x1 x2 x3 x4 x5 x6 x9]
  rfl

end Cert.ReferenceIdeal.RV

end
-- ==== Proof.RV.L2Sum.lean ====
/-
  Layer 2 of the reference, the sums.

  Each node type's layer-2 table is the zero table plus, in relation order, every relation arriving at that type
  followed by its bias: the specification's `layerR` on the graph of the edge array, over the activated layer-1 sums,
  read at (n, j).
-/
import proofs.«151568_j90031104458821_2_alg».proof.Proof.RV.L1Core
import proofs.«151568_j90031104458821_2_alg».proof.Proof.RV.L2Lib
import proofs.«151568_j90031104458821_2_alg».proof.Proof.RV.L2R0
import proofs.«151568_j90031104458821_2_alg».proof.Proof.RV.L2R1
import proofs.«151568_j90031104458821_2_alg».proof.Proof.RV.L2R2
import proofs.«151568_j90031104458821_2_alg».proof.Proof.RV.L2R3
import proofs.«151568_j90031104458821_2_alg».proof.Proof.RV.L2R4
import proofs.«151568_j90031104458821_2_alg».proof.Proof.RV.L2R5
import proofs.«151568_j90031104458821_2_alg».proof.Proof.RV.L2R6
import proofs.«151568_j90031104458821_2_alg».proof.Proof.RV.L2R7
import proofs.«151568_j90031104458821_2_alg».proof.Proof.RV.L2R8

noncomputable section

namespace Cert.ReferenceIdeal.RV

open Cert.ReferenceIdeal Cert.ReferenceIdeal.ReadP Idealize.ShloMosaic Idealize.ShloMosaic.ValueIdx Cert.Math Cert.IdxOps Cert.Spec Cert.GraphOf
open scoped BigOperators

/-! ## The three zero tables the sums start from, at any float family -/

section Consts
variable {F : FTy → Type} [FloatOps F]

theorem l2_k474 (i : S50000x128.Idx) : val_main_v474 (F := F) i = FloatOps.ofBits .f32 0x00000000#32 := (val_main_v474_apply i).trans rfl
theorem l2_k475 (i : S50000x128.Idx) : val_main_v475 (F := F) i = FloatOps.ofBits .f32 0x00000000#32 := (val_main_v475_apply i).trans rfl
theorem l2_k476 (i : S50000x128.Idx) : val_main_v476 (F := F) i = FloatOps.ofBits .f32 0x00000000#32 := (val_main_v476_apply i).trans rfl

end Consts

/-- At the extended reals the three zero tables hold the number 0. -/
theorem l2_z474 (i : S50000x128.Idx) : val_main_v474 (F := Ideal) i = (0 : EReal) := (l2_k474 i).trans Z_eq
theorem l2_z475 (i : S50000x128.Idx) : val_main_v475 (F := Ideal) i = (0 : EReal) := (l2_k475 i).trans Z_eq
theorem l2_z476 (i : S50000x128.Idx) : val_main_v476 (F := Ideal) i = (0 : EReal) := (l2_k476 i).trans Z_eq

variable (x0 x1 x2 : (⟨S50000x128, .f32⟩ : BufTy).Contents (Elt Ideal)) (x3 : (⟨S9x128x128, .f32⟩ : BufTy).Contents (Elt Ideal))
  (x4 : (⟨S9x128, .f32⟩ : BufTy).Contents (Elt Ideal)) (x5 : (⟨S9x128x128, .f32⟩ : BufTy).Contents (Elt Ideal))
  (x6 : (⟨S9x128, .f32⟩ : BufTy).Contents (Elt Ideal)) (x9 : (⟨S9x2x400000, .i32⟩ : BufTy).Contents (Elt Ideal))
include x0 x1 x2 x3 x4 x5 x6 x9

/-! ## The sums -/

/-- Node type 0 receives relations 2, 3, 5, 6. -/
theorem l2_sum0 (n : Fin 50000) (j : Fin 128) :
    val_main_v840 (F := Ideal) x0 x1 x2 x3 x4 x5 x6 x9 (ix2 n j)
      = layerR (graphOf x9) (tabs (val_main_v471 (F := Ideal) x0 x1 x2 x3 x4 x9) (val_main_v472 (F := Ideal) x1 x2 x3 x4 x9) (val_main_v473 (F := Ideal) x0 x1 x2 x3 x4 x9)) (wts x5) (bias x6) 0 n j := by
  show _ = layerR (graphOf x9) (tabs (val_main_v471 (F := Ideal) x0 x1 x2 x3 x4 x9) (val_main_v472 (F := Ideal) x1 x2 x3 x4 x9) (val_main_v473 (F := Ideal) x0 x1 x2 x3 x4 x9)) (wts x5) (bias x6) ⟨0, by decide⟩ n j
  rw [l2r6_acc x0 x1 x2 x3 x4 x5 x6 x9, l2r5_acc x0 x1 x2 x3 x4 x5 x6 x9, l2r3_acc x0 x1 x2 x3 x4 x5 x6 x9, l2r2_acc x0 x1 x2 x3 x4 x5 x6 x9, l2_z474]
  simp only [layerR, tabs_zero, tabs_one, tabs_two, wts_apply, bias_apply]

/-- Node type 1 receives relations 4, 8. -/
theorem l2_sum1 (n : Fin 50000) (j : Fin 128) :
    val_main_v944 (F := Ideal) x0 x1 x2 x3 x4 x5 x6 x9 (ix2 n j)
      = layerR (graphOf x9) (tabs (val_main_v471 (F := Ideal) x0 x1 x2 x3 x4 x9) (val_main_v472 (F := Ideal) x1 x2 x3 x4 x9) (val_main_v473 (F := Ideal) x0 x1 x2 x3 x4 x9)) (wts x5) (bias x6) 1 n j := by
  show _ = layerR (graphOf x9) (tabs (val_main_v471 (F := Ideal) x0 x1 x2 x3 x4 x9) (val_main_v472 (F := Ideal) x1 x2 x3 x4 x9) (val_main_v473 (F := Ideal) x0 x1 x2 x3 x4 x9)) (wts x5) (bias x6) ⟨1, by decide⟩ n j
  rw [l2r8_acc x0 x1 x2 x3 x4 x5 x6 x9, l2r4_acc x0 x1 x2 x3 x4 x5 x6 x9, l2_z475]
  simp only [layerR, tabs_zero, tabs_one, tabs_two, wts_apply, bias_apply]

/-- Node type 2 receives relations 0, 1, 7. -/
theorem l2_sum2 (n : Fin 50000) (j : Fin 128) :
    val_main_v892 (F := Ideal) x0 x1 x2 x3 x4 x5 x6 x9 (ix2 n j)
      = layerR (graphOf x9) (tabs (val_main_v471 (F := Ideal) x0 x1 x2 x3 x4 x9) (val_main_v472 (F := Ideal) x1 x2 x3 x4 x9) (val_main_v473 (F := Ideal) x0 x1 x2 x3 x4 x9)) (wts x5) (bias x6) 2 n j := by
  show _ = layerR (graphOf x9) (tabs (val_main_v471 (F := Ideal) x0 x1 x2 x3 x4 x9) (val_main_v472 (F := Ideal) x1 x2 x3 x4 x9) (val_main_v473 (F := Ideal) x0 x1 x2 x3 x4 x9)) (wts x5) (bias x6) ⟨2, by decide⟩ n j
  rw [l2r7_acc x0 x1 x2 x3 x4 x5 x6 x9, l2r1_acc x0 x1 x2 x3 x4 x5 x6 x9, l2r0_acc x0 x1 x2 x3 x4 x5 x6 x9, l2_z476]
  simp only [layerR, tabs_zero, tabs_one, tabs_two, wts_apply, bias_apply]

end Cert.ReferenceIdeal.RV

end
-- ==== Proof.RV.OutH.lean ====
/-
  The activations and the output of the reference, read at an index. Each of the six activation stages is the larger
  of its operand and 0. The output stacks three tables, one per node type: the activated second-layer sum of the type
  contracted with the classifier's 128 × 16 weights, plus the classifier's bias — the specification's `cls` on the
  three second-layer sums.
-/
import proofs.«151568_j90031104458821_2_alg».proof.Proof.RV.L1Core
import proofs.«151568_j90031104458821_2_alg».proof.Proof.Concat

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-! ## The six activation stages -/

/-- The activated layer-1 table of node type 0. -/
theorem outh_relu471 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal)) (x9 : (⟨S9x2x400000, .i32⟩ : BufTy).Contents (Elt Ideal)) (n : Fin 50000) (k : Fin 128) :
    val_main_v471 (F := Ideal) x0 x1 x2 x3 x4 x9 (ix2 n k) = max (val_main_v366 (F := Ideal) x0 x1 x2 x3 x4 x9 (ix2 n k)) 0 := by
  rw [val_main_v471_apply, val_main_call36_v0_apply, val_main_call36_cst_apply, Ideal.maximumf_def, Ideal.ofBits_def,
    Ideal.ofBits_zero_f32]

/-- The activated layer-1 table of node type 1. -/
theorem outh_relu472 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal)) (x9 : (⟨S9x2x400000, .i32⟩ : BufTy).Contents (Elt Ideal)) (n : Fin 50000) (k : Fin 128) :
    val_main_v472 (F := Ideal) x1 x2 x3 x4 x9 (ix2 n k) = max (val_main_v470 (F := Ideal) x1 x2 x3 x4 x9 (ix2 n k)) 0 := by
  rw [val_main_v472_apply, val_main_call37_v0_apply, val_main_call37_cst_apply, Ideal.maximumf_def, Ideal.ofBits_def,
    Ideal.ofBits_zero_f32]

/-- The activated layer-1 table of node type 2. -/
theorem outh_relu473 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal)) (x9 : (⟨S9x2x400000, .i32⟩ : BufTy).Contents (Elt Ideal)) (n : Fin 50000) (k : Fin 128) :
    val_main_v473 (F := Ideal) x0 x1 x2 x3 x4 x9 (ix2 n k) = max (val_main_v418 (F := Ideal) x0 x1 x2 x3 x4 x9 (ix2 n k)) 0 := by
  rw [val_main_v473_apply, val_main_call38_v0_apply, val_main_call38_cst_apply, Ideal.maximumf_def, Ideal.ofBits_def,
    Ideal.ofBits_zero_f32]

/-- The activated layer-2 table of node type 0. -/
theorem outh_relu945 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal)) (x9 : (⟨S9x2x400000, .i32⟩ : BufTy).Contents (Elt Ideal)) (n : Fin 50000) (k : Fin 128) :
    val_main_v945 (F := Ideal) x0 x1 x2 x3 x4 x5 x6 x9 (ix2 n k) = max (val_main_v840 (F := Ideal) x0 x1 x2 x3 x4 x5 x6 x9 (ix2 n k)) 0 := by
  rw [val_main_v945_apply, val_main_call75_v0_apply, val_main_call75_cst_apply, Ideal.maximumf_def, Ideal.ofBits_def,
    Ideal.ofBits_zero_f32]

/-- The activated layer-2 table of node type 1. -/
theorem outh_relu946 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal)) (x9 : (⟨S9x2x400000, .i32⟩ : BufTy).Contents (Elt Ideal)) (n : Fin 50000) (k : Fin 128) :
    val_main_v946 (F := Ideal) x0 x1 x2 x3 x4 x5 x6 x9 (ix2 n k) = max (val_main_v944 (F := Ideal) x0 x1 x2 x3 x4 x5 x6 x9 (ix2 n k)) 0 := by
  rw [val_main_v946_apply, val_main_call76_v0_apply, val_main_call76_cst_apply, Ideal.maximumf_def, Ideal.ofBits_def,
    Ideal.ofBits_zero_f32]

/-- The activated layer-2 table of node type 2. -/
theorem outh_relu947 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal)) (x9 : (⟨S9x2x400000, .i32⟩ : BufTy).Contents (Elt Ideal)) (n : Fin 50000) (k : Fin 128) :
    val_main_v947 (F := Ideal) x0 x1 x2 x3 x4 x5 x6 x9 (ix2 n k) = max (val_main_v892 (F := Ideal) x0 x1 x2 x3 x4 x5 x6 x9 (ix2 n k)) 0 := by
  rw [val_main_v947_apply, val_main_call77_v0_apply, val_main_call77_cst_apply, Ideal.maximumf_def, Ideal.ofBits_def,
    Ideal.ofBits_zero_f32]

/-! ## The three output pieces -/

/-- Node type 0's output piece at (0, n, q): the activated second-layer sum of node n contracted with the classifier's
    weights, plus the classifier's bias. -/
theorem outh_piece0 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal))
    (x7 : (⟨S128x16, .f32⟩ : BufTy).Contents (Elt Ideal)) (x8 : (⟨S16, .f32⟩ : BufTy).Contents (Elt Ideal))
    (x9 : (⟨S9x2x400000, .i32⟩ : BufTy).Contents (Elt Ideal))
    (n : Fin 50000) (q : Fin 16) :
    val_main_v960 (F := Ideal) x0 x1 x2 x3 x4 x5 x6 x7 x8 x9 (ix3 (0 : Fin 1) n q)
      = (∑ k : Fin 128, max (val_main_v840 (F := Ideal) x0 x1 x2 x3 x4 x5 x6 x9 (ix2 n k)) 0 * x7 (ix2 k q)) + x8 (ix1 q) := by
  have hi : idx_main_v960 (ix3 (0 : Fin 1) n q) = ix2 n q := funext fun a => match a with | ⟨0, _⟩ => rfl | ⟨1, _⟩ => rfl
  have hb : idx_main_v949 (idx_main_v950 (ix2 n q)) = ix1 q := funext fun a => match a with | ⟨0, _⟩ => rfl
  rw [val_main_v960_apply, hi, val_main_v951_apply, val_main_v950_apply, val_main_v949_apply, hb, val_main_v948_apply, Ideal.addf_def]
  refine congrArg (fun s => s + x8 (ix1 q)) (Finset.sum_congr rfl fun k _ => ?_)
  have hl : lidx_main_v948 (ix2 n q) k = ix2 n k := funext fun a => match a with | ⟨0, _⟩ => rfl | ⟨1, _⟩ => rfl
  have hr : ridx_main_v948 (ix2 n q) k = ix2 k q := funext fun a => match a with | ⟨0, _⟩ => rfl | ⟨1, _⟩ => rfl
  rw [hl, hr, outh_relu945]

/-- Node type 1's output piece at (0, n, q): the activated second-layer sum of node n contracted with the classifier's
    weights, plus the classifier's bias. -/
theorem outh_piece1 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal))
    (x7 : (⟨S128x16, .f32⟩ : BufTy).Contents (Elt Ideal)) (x8 : (⟨S16, .f32⟩ : BufTy).Contents (Elt Ideal))
    (x9 : (⟨S9x2x400000, .i32⟩ : BufTy).Contents (Elt Ideal))
    (n : Fin 50000) (q : Fin 16) :
    val_main_v961 (F := Ideal) x0 x1 x2 x3 x4 x5 x6 x7 x8 x9 (ix3 (0 : Fin 1) n q)
      = (∑ k : Fin 128, max (val_main_v944 (F := Ideal) x0 x1 x2 x3 x4 x5 x6 x9 (ix2 n k)) 0 * x7 (ix2 k q)) + x8 (ix1 q) := by
  have hi : idx_main_v961 (ix3 (0 : Fin 1) n q) = ix2 n q := funext fun a => match a with | ⟨0, _⟩ => rfl | ⟨1, _⟩ => rfl
  have hb : idx_main_v953 (idx_main_v954 (ix2 n q)) = ix1 q := funext fun a => match a with | ⟨0, _⟩ => rfl
  rw [val_main_v961_apply, hi, val_main_v955_apply, val_main_v954_apply, val_main_v953_apply, hb, val_main_v952_apply, Ideal.addf_def]
  refine congrArg (fun s => s + x8 (ix1 q)) (Finset.sum_congr rfl fun k _ => ?_)
  have hl : lidx_main_v952 (ix2 n q) k = ix2 n k := funext fun a => match a with | ⟨0, _⟩ => rfl | ⟨1, _⟩ => rfl
  have hr : ridx_main_v952 (ix2 n q) k = ix2 k q := funext fun a => match a with | ⟨0, _⟩ => rfl | ⟨1, _⟩ => rfl
  rw [hl, hr, outh_relu946]

/-- Node type 2's output piece at (0, n, q): the activated second-layer sum of node n contracted with the classifier's
    weights, plus the classifier's bias. -/
theorem outh_piece2 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal))
    (x7 : (⟨S128x16, .f32⟩ : BufTy).Contents (Elt Ideal)) (x8 : (⟨S16, .f32⟩ : BufTy).Contents (Elt Ideal))
    (x9 : (⟨S9x2x400000, .i32⟩ : BufTy).Contents (Elt Ideal))
    (n : Fin 50000) (q : Fin 16) :
    val_main_v962 (F := Ideal) x0 x1 x2 x3 x4 x5 x6 x7 x8 x9 (ix3 (0 : Fin 1) n q)
      = (∑ k : Fin 128, max (val_main_v892 (F := Ideal) x0 x1 x2 x3 x4 x5 x6 x9 (ix2 n k)) 0 * x7 (ix2 k q)) + x8 (ix1 q) := by
  have hi : idx_main_v962 (ix3 (0 : Fin 1) n q) = ix2 n q := funext fun a => match a with | ⟨0, _⟩ => rfl | ⟨1, _⟩ => rfl
  have hb : idx_main_v957 (idx_main_v958 (ix2 n q)) = ix1 q := funext fun a => match a with | ⟨0, _⟩ => rfl
  rw [val_main_v962_apply, hi, val_main_v959_apply, val_main_v958_apply, val_main_v957_apply, hb, val_main_v956_apply, Ideal.addf_def]
  refine congrArg (fun s => s + x8 (ix1 q)) (Finset.sum_congr rfl fun k _ => ?_)
  have hl : lidx_main_v956 (ix2 n q) k = ix2 n k := funext fun a => match a with | ⟨0, _⟩ => rfl | ⟨1, _⟩ => rfl
  have hr : ridx_main_v956 (ix2 n q) k = ix2 k q := funext fun a => match a with | ⟨0, _⟩ => rfl | ⟨1, _⟩ => rfl
  rw [hl, hr, outh_relu947]

/-! ## The output: the three pieces stacked along the type axis -/

theorem outh_out0 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal))
    (x7 : (⟨S128x16, .f32⟩ : BufTy).Contents (Elt Ideal)) (x8 : (⟨S16, .f32⟩ : BufTy).Contents (Elt Ideal))
    (x9 : (⟨S9x2x400000, .i32⟩ : BufTy).Contents (Elt Ideal))
    (n : Fin 50000) (q : Fin 16) :
    val_main_v963 (F := Ideal) x0 x1 x2 x3 x4 x5 x6 x7 x8 x9 (ix3 (0 : Fin 3) n q)
      = Spec.cls (tabs (val_main_v840 (F := Ideal) x0 x1 x2 x3 x4 x5 x6 x9) (val_main_v944 (F := Ideal) x0 x1 x2 x3 x4 x5 x6 x9) (val_main_v892 (F := Ideal) x0 x1 x2 x3 x4 x5 x6 x9))
          (fun k q => x7 (ix2 k q)) (fun q => x8 (ix1 q)) (0 : Fin 3) n q := by
  unfold val_main_v963
  refine (Cert.Concat.concat3_3_apply _ _ _ _ (0 : Fin 3) n q).trans ?_
  show val_main_v960 (F := Ideal) x0 x1 x2 x3 x4 x5 x6 x7 x8 x9 (ix3 (0 : Fin 1) n q) = _
  rw [outh_piece0]
  simp only [Spec.cls, tabs_zero]

theorem outh_out1 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal))
    (x7 : (⟨S128x16, .f32⟩ : BufTy).Contents (Elt Ideal)) (x8 : (⟨S16, .f32⟩ : BufTy).Contents (Elt Ideal))
    (x9 : (⟨S9x2x400000, .i32⟩ : BufTy).Contents (Elt Ideal))
    (n : Fin 50000) (q : Fin 16) :
    val_main_v963 (F := Ideal) x0 x1 x2 x3 x4 x5 x6 x7 x8 x9 (ix3 (1 : Fin 3) n q)
      = Spec.cls (tabs (val_main_v840 (F := Ideal) x0 x1 x2 x3 x4 x5 x6 x9) (val_main_v944 (F := Ideal) x0 x1 x2 x3 x4 x5 x6 x9) (val_main_v892 (F := Ideal) x0 x1 x2 x3 x4 x5 x6 x9))
          (fun k q => x7 (ix2 k q)) (fun q => x8 (ix1 q)) (1 : Fin 3) n q := by
  unfold val_main_v963
  refine (Cert.Concat.concat3_3_apply _ _ _ _ (1 : Fin 3) n q).trans ?_
  show val_main_v961 (F := Ideal) x0 x1 x2 x3 x4 x5 x6 x7 x8 x9 (ix3 (0 : Fin 1) n q) = _
  rw [outh_piece1]
  simp only [Spec.cls, tabs_one]

theorem outh_out2 (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal))
    (x7 : (⟨S128x16, .f32⟩ : BufTy).Contents (Elt Ideal)) (x8 : (⟨S16, .f32⟩ : BufTy).Contents (Elt Ideal))
    (x9 : (⟨S9x2x400000, .i32⟩ : BufTy).Contents (Elt Ideal))
    (n : Fin 50000) (q : Fin 16) :
    val_main_v963 (F := Ideal) x0 x1 x2 x3 x4 x5 x6 x7 x8 x9 (ix3 (2 : Fin 3) n q)
      = Spec.cls (tabs (val_main_v840 (F := Ideal) x0 x1 x2 x3 x4 x5 x6 x9) (val_main_v944 (F := Ideal) x0 x1 x2 x3 x4 x5 x6 x9) (val_main_v892 (F := Ideal) x0 x1 x2 x3 x4 x5 x6 x9))
          (fun k q => x7 (ix2 k q)) (fun q => x8 (ix1 q)) (2 : Fin 3) n q := by
  unfold val_main_v963
  refine (Cert.Concat.concat3_3_apply _ _ _ _ (2 : Fin 3) n q).trans ?_
  show val_main_v962 (F := Ideal) x0 x1 x2 x3 x4 x5 x6 x7 x8 x9 (ix3 (0 : Fin 1) n q) = _
  rw [outh_piece2]
  simp only [Spec.cls, tabs_two]

/-- The output element (t, n, q) is the classifier on the three second-layer sums. -/
theorem outh_out (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal))
    (x7 : (⟨S128x16, .f32⟩ : BufTy).Contents (Elt Ideal)) (x8 : (⟨S16, .f32⟩ : BufTy).Contents (Elt Ideal))
    (x9 : (⟨S9x2x400000, .i32⟩ : BufTy).Contents (Elt Ideal))
    (t : Fin 3) (n : Fin 50000) (q : Fin 16) :
    val_main_v963 (F := Ideal) x0 x1 x2 x3 x4 x5 x6 x7 x8 x9 (ix3 t n q)
      = Spec.cls (tabs (val_main_v840 (F := Ideal) x0 x1 x2 x3 x4 x5 x6 x9) (val_main_v944 (F := Ideal) x0 x1 x2 x3 x4 x5 x6 x9) (val_main_v892 (F := Ideal) x0 x1 x2 x3 x4 x5 x6 x9))
          (fun k q => x7 (ix2 k q)) (fun q => x8 (ix1 q)) t n q := by
  match t with
  | ⟨0, _⟩ => exact outh_out0 x0 x1 x2 x3 x4 x5 x6 x7 x8 x9 n q
  | ⟨1, _⟩ => exact outh_out1 x0 x1 x2 x3 x4 x5 x6 x7 x8 x9 n q
  | ⟨2, _⟩ => exact outh_out2 x0 x1 x2 x3 x4 x5 x6 x7 x8 x9 n q

end Cert.ReferenceIdeal.RV

end
-- ==== Proof.RV.Net.lean ====
/-
  The reference's whole network, read at one output element: the three layer-1 sums are the specification's first
  layer on the graph of the edge array; activated, they are the tables the second layer runs on; the second layer's
  sums, activated and contracted with the classifier's weights plus its bias, are the output. Composed, the output
  element (t, n, q) is the specification's network `Spec.netR`.
-/
import proofs.«151568_j90031104458821_2_alg».proof.Proof.RV.L1Sum
import proofs.«151568_j90031104458821_2_alg».proof.Proof.RV.L2Sum
import proofs.«151568_j90031104458821_2_alg».proof.Proof.RV.OutH

noncomputable section

namespace Cert.ReferenceIdeal.RV

open Cert.ReferenceIdeal Cert.ReferenceIdeal.ReadP Idealize.ShloMosaic Idealize.ShloMosaic.ValueIdx Cert.Math Cert.IdxOps Cert.Rel Cert.Spec Cert.GraphOf
open scoped BigOperators

/-- The network from its four parts, over any graph: first-layer sums `s1`, their activation `a1`, second-layer sums
    `s2` on the activated tables, and the classifier's output `out` on the second-layer sums. -/
theorem net_of_parts (G : Graph) (xs : Fin 3 → Tab)
    (W1 : Fin 9 → Fin 128 → Fin 128 → EReal) (b1 : Fin 9 → Fin 128 → EReal)
    (W2 : Fin 9 → Fin 128 → Fin 128 → EReal) (b2 : Fin 9 → Fin 128 → EReal)
    (Wc : Fin 128 → Fin 16 → EReal) (bc : Fin 16 → EReal)
    (s1 a1 s2 : Fin 3 → Tab) (out : Fin 3 → Fin 50000 → Fin 16 → EReal)
    (h1 : ∀ t n j, s1 t n j = Spec.layerR G xs W1 b1 t n j)
    (ha : ∀ t n k, a1 t n k = max (s1 t n k) 0)
    (h2 : ∀ t n j, s2 t n j = Spec.layerR G a1 W2 b2 t n j)
    (ho : ∀ t n q, out t n q = Spec.cls s2 Wc bc t n q)
    (t : Fin 3) (n : Fin 50000) (q : Fin 16) :
    out t n q = Spec.netR G xs W1 b1 W2 b2 Wc bc t n q := by
  have e1 : s1 = Spec.layerR G xs W1 b1 := funext fun t => funext fun n => funext fun j => h1 t n j
  have ea : a1 = Spec.relu (Spec.layerR G xs W1 b1) := funext fun t => funext fun n => funext fun k => by
    rw [ha, e1]
    rfl
  have e2 : s2 = Spec.layerR G (Spec.relu (Spec.layerR G xs W1 b1)) W2 b2 :=
    funext fun t => funext fun n => funext fun j => by rw [h2, ea]
  rw [ho, e2]
  rfl

/-- The three layer-1 sums of the program, as tables, are the specification's first layer. -/
theorem l1_sums (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal)) (x9 : (⟨S9x2x400000, .i32⟩ : BufTy).Contents (Elt Ideal))
    (t : Fin 3) (n : Fin 50000) (j : Fin 128) :
    tabs (val_main_v366 (F := Ideal) x0 x1 x2 x3 x4 x9) (val_main_v470 (F := Ideal) x1 x2 x3 x4 x9) (val_main_v418 (F := Ideal) x0 x1 x2 x3 x4 x9) t n j
      = Spec.layerR (graphOf x9) (tabs x0 x1 x2) (wts x3) (bias x4) t n j := by
  match t with
  | ⟨0, _⟩ => exact l1_sum0 x0 x1 x2 x3 x4 x9 n j
  | ⟨1, _⟩ => exact l1_sum1 x0 x1 x2 x3 x4 x9 n j
  | ⟨2, _⟩ => exact l1_sum2 x0 x1 x2 x3 x4 x9 n j

/-- The whole network, given the activated tables `A1` (the activation of the layer-1 sums), the second-layer sums `S2`
    on them, and the output as the classifier on `S2`. -/
theorem ref_net_of (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal))
    (x7 : (⟨S128x16, .f32⟩ : BufTy).Contents (Elt Ideal)) (x8 : (⟨S16, .f32⟩ : BufTy).Contents (Elt Ideal))
    (x9 : (⟨S9x2x400000, .i32⟩ : BufTy).Contents (Elt Ideal))
    (A1 S2 : Fin 3 → Tab)
    (hA1 : ∀ t n k, A1 t n k
      = max (tabs (val_main_v366 (F := Ideal) x0 x1 x2 x3 x4 x9) (val_main_v470 (F := Ideal) x1 x2 x3 x4 x9) (val_main_v418 (F := Ideal) x0 x1 x2 x3 x4 x9) t n k) 0)
    (hS2 : ∀ t n j, S2 t n j = Spec.layerR (graphOf x9) A1 (wts x5) (bias x6) t n j)
    (hO : ∀ t n q, val_main_v963 (F := Ideal) x0 x1 x2 x3 x4 x5 x6 x7 x8 x9 (ix3 t n q)
      = Spec.cls S2 (fun k q => x7 (ix2 k q)) (fun q => x8 (ix1 q)) t n q)
    (t : Fin 3) (n : Fin 50000) (q : Fin 16) :
    val_main_v963 (F := Ideal) x0 x1 x2 x3 x4 x5 x6 x7 x8 x9 (ix3 t n q)
      = Spec.netR (graphOf x9) (tabs x0 x1 x2) (wts x3) (bias x4) (wts x5) (bias x6) (fun k q => x7 (ix2 k q)) (fun q => x8 (ix1 q)) t n q :=
  net_of_parts (graphOf x9) (tabs x0 x1 x2) (wts x3) (bias x4) (wts x5) (bias x6) (fun k q => x7 (ix2 k q)) (fun q => x8 (ix1 q))
    (tabs (val_main_v366 (F := Ideal) x0 x1 x2 x3 x4 x9) (val_main_v470 (F := Ideal) x1 x2 x3 x4 x9) (val_main_v418 (F := Ideal) x0 x1 x2 x3 x4 x9))
    A1 S2 (fun t n q => val_main_v963 (F := Ideal) x0 x1 x2 x3 x4 x5 x6 x7 x8 x9 (ix3 t n q))
    (l1_sums x0 x1 x2 x3 x4 x9) hA1 hS2 hO t n q

/-- The reference's output element (t, n, q) is the specification's network on the graph of the edge array. -/
theorem ref_net (x0 : (⟨S50000x128, .f32⟩ : BufTy).Contents (Elt Ideal)) (x1 : (⟨S50000x128, .f32⟩ : BufTy).Contents (Elt Ideal)) (x2 : (⟨S50000x128, .f32⟩ : BufTy).Contents (Elt Ideal))
    (x3 : (⟨S9x128x128, .f32⟩ : BufTy).Contents (Elt Ideal)) (x4 : (⟨S9x128, .f32⟩ : BufTy).Contents (Elt Ideal))
    (x5 : (⟨S9x128x128, .f32⟩ : BufTy).Contents (Elt Ideal)) (x6 : (⟨S9x128, .f32⟩ : BufTy).Contents (Elt Ideal))
    (x7 : (⟨S128x16, .f32⟩ : BufTy).Contents (Elt Ideal)) (x8 : (⟨S16, .f32⟩ : BufTy).Contents (Elt Ideal))
    (x9 : (⟨S9x2x400000, .i32⟩ : BufTy).Contents (Elt Ideal))
    (t : Fin 3) (n : Fin 50000) (q : Fin 16) :
    val_main_v963 (F := Ideal) x0 x1 x2 x3 x4 x5 x6 x7 x8 x9 (ix3 t n q)
      = Spec.netR (graphOf x9) (tabs x0 x1 x2) (wts x3) (bias x4) (wts x5) (bias x6) (fun k q => x7 (ix2 k q)) (fun q => x8 (ix1 q)) t n q :=
  ref_net_of x0 x1 x2 x3 x4 x5 x6 x7 x8 x9
    (tabs (val_main_v471 (F := Ideal) x0 x1 x2 x3 x4 x9) (val_main_v472 (F := Ideal) x1 x2 x3 x4 x9) (val_main_v473 (F := Ideal) x0 x1 x2 x3 x4 x9))
    (tabs (val_main_v840 (F := Ideal) x0 x1 x2 x3 x4 x5 x6 x9) (val_main_v944 (F := Ideal) x0 x1 x2 x3 x4 x5 x6 x9) (val_main_v892 (F := Ideal) x0 x1 x2 x3 x4 x5 x6 x9))
    (fun t n k => by
      match t with
      | ⟨0, _⟩ => first | (simp only [tabs]; exact outh_relu471 x0 x1 x2 x3 x4 x9 n k) | exact outh_relu471 x0 x1 x2 x3 x4 x9 n k
      | ⟨1, _⟩ => first | (simp only [tabs]; exact outh_relu472 x0 x1 x2 x3 x4 x9 n k) | exact outh_relu472 x0 x1 x2 x3 x4 x9 n k
      | ⟨2, _⟩ => first | (simp only [tabs]; exact outh_relu473 x0 x1 x2 x3 x4 x9 n k) | exact outh_relu473 x0 x1 x2 x3 x4 x9 n k)
    (fun t n j => by
      match t with
      | ⟨0, _⟩ => first | (simp only [tabs]; exact l2_sum0 x0 x1 x2 x3 x4 x5 x6 x9 n j) | exact l2_sum0 x0 x1 x2 x3 x4 x5 x6 x9 n j
      | ⟨1, _⟩ => first | (simp only [tabs]; exact l2_sum1 x0 x1 x2 x3 x4 x5 x6 x9 n j) | exact l2_sum1 x0 x1 x2 x3 x4 x5 x6 x9 n j
      | ⟨2, _⟩ => first | (simp only [tabs]; exact l2_sum2 x0 x1 x2 x3 x4 x5 x6 x9 n j) | exact l2_sum2 x0 x1 x2 x3 x4 x5 x6 x9 n j)
    (outh_out x0 x1 x2 x3 x4 x5 x6 x7 x8 x9) t n q

end Cert.ReferenceIdeal.RV

end
-- ==== Proof.PreReal.lean ====
/-
  From the printed precondition to real entries. The precondition is the conjunction, over the nine float inputs, of
  `all(|x| < +∞)`: a comparison of the absolute value against the word of +∞, reduced by `and` over every axis. At the
  ideal instance an entry whose absolute value is below +∞ is neither infinity, that is, a real number.
-/
import proofs.«151568_j90031104458821_2_alg».proof.Pre_finite_inputs
import proofs.«151568_j90031104458821_2_alg».proof.Proof.Math
import Idealize.ShloMosaic.Lib.ReduceAll
import Idealize.ShloMosaic.Lib.ValueIdx
import Idealize.ShloMosaic.PureOps.Ideal

noncomputable section

namespace Cert.PreReal

open Idealize.ShloMosaic Cert.Math Cert.Pre_finite_inputs

/-- The scalar shape has one index. -/
instance : Subsingleton S_.Idx := ⟨fun a b => funext fun d => d.elim0⟩

/-- An extended real whose absolute value `max x (-x)` is below +∞ is a real: both infinities have absolute value +∞. -/
theorem isR_of_max_neg_lt_top {x : EReal} (h : max x (-x) < ⊤) : IsR x := by
  induction x using EReal.rec with
  | bot => simp at h
  | coe r => exact ⟨r, rfl⟩
  | top => simp at h

/-- One entry that passes the printed test `|x| < +∞` (the comparison against the broadcast word of +∞) is a real. -/
theorem isR_of_test {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    IsR (x i) := by
  have htop : Ideal.ofBits .f32 0x7F800000#32 = ⊤ := by simp [Ideal.ofBits, Ideal.ieee]
  have h' : Ideal.cmp .olt (max (x i : EReal) (-(x i : EReal))) (Ideal.ofBits .f32 0x7F800000#32) = 1#1 := h
  rw [htop] at h'
  by_cases hlt : max (x i : EReal) (-(x i : EReal)) < ⊤
  · exact isR_of_max_neg_lt_top hlt
  · simp [Ideal.cmp, hlt] at h'

/-- A whole array that passes `all(|x| < +∞)` has only real entries. -/
theorem isR_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ValueIdx.ix0 = 1#1) (i : s.Idx) : IsR (x i) :=
  isR_of_test x hb i (Host.reduce_andi_all _ _ hr hu ValueIdx.ix0 e i)

/-- Under the precondition every entry of every float input is a real number. -/
theorem inputs_real [Facts] (x0 x1 x2 : FVec Ideal S50000x128 .f32) (x3 : FVec Ideal S9x128x128 .f32) (x4 : FVec Ideal S9x128 .f32)
    (x5 : FVec Ideal S9x128x128 .f32) (x6 : FVec Ideal S9x128 .f32) (x7 : FVec Ideal S128x16 .f32) (x8 : FVec Ideal S16 .f32)
    (x9 : IVec S9x2x400000 32)
    (h : fn (F := Ideal) x0 x1 x2 x3 x4 x5 x6 x7 x8 x9 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i))
      ∧ (∀ i, IsR (x6 i)) ∧ (∀ i, IsR (x7 i)) ∧ (∀ i, IsR (x8 i)) := by
  have h0 := congrFun h ValueIdx.ix0
  dsimp only [fn, fn_part1, fn_part2] at h0
  -- the result is the left-nested conjunction of the nine tests
  obtain ⟨h8, e8⟩ := IntOp.andi_eq_one.1 h0
  obtain ⟨h7, e7⟩ := IntOp.andi_eq_one.1 h8
  obtain ⟨h6, e6⟩ := IntOp.andi_eq_one.1 h7
  obtain ⟨h5, e5⟩ := IntOp.andi_eq_one.1 h6
  obtain ⟨h4, e4⟩ := IntOp.andi_eq_one.1 h5
  obtain ⟨h3, e3⟩ := IntOp.andi_eq_one.1 h4
  obtain ⟨h2, e2⟩ := IntOp.andi_eq_one.1 h3
  obtain ⟨e0, e1⟩ := IntOp.andi_eq_one.1 h2
  exact ⟨isR_of_all x0 _ _ _ e0, isR_of_all x1 _ _ _ e1, isR_of_all x2 _ _ _ e2, isR_of_all x3 _ _ _ e3, isR_of_all x4 _ _ _ e4,
    isR_of_all x5 _ _ _ e5, isR_of_all x6 _ _ _ e6, isR_of_all x7 _ _ _ e7, isR_of_all x8 _ _ _ e8⟩

end Cert.PreReal

end
-- ==== Proof.Glue.lean ====
/-
  Between the two sides. The kernel side reads the network's data off the launch memory at the kernel's argument
  locations; the reference side reads it off its argument values. At one memory these are the same tables, the
  precondition makes every float entry a real number, and on real entries the two networks agree.
-/
import proofs.«151568_j90031104458821_2_alg».proof.Proof.KI.KNet
import proofs.«151568_j90031104458821_2_alg».proof.Proof.RV.L1Core
import proofs.«151568_j90031104458821_2_alg».proof.Proof.PreReal
import proofs.«151568_j90031104458821_2_alg».proof.Proof.Spec
import proofs.«151568_j90031104458821_2_alg».proof.Defs
import proofs.«151568_j90031104458821_2_alg».proof.Proof.Gen.Pre_finite_inputs

noncomputable section

namespace Cert.Proof.Glue

open Idealize.ShloMosaic Idealize.ShloMosaic.ValueIdx Idealize.SL.Sem Cert.Math Cert.Spec Cert.GraphOf

section
variable (m : (ℓ : Loc Cert.KernelIdeal.nD Cert.KernelIdeal.τ Cert.KernelIdeal.sig) → Buf (Elt Ideal) ℓ) (c : Dev Cert.KernelIdeal.nD)

/-! ## The ten argument arrays of core `c` in the memory `m` -/

abbrev a0 : FVec Ideal ⟨2, ![50000, 128]⟩ .f32 := m ((c.tc : Thread Cert.KernelIdeal.nD Cert.KernelIdeal.τ).loc Cert.KernelIdeal.main_arg0)
abbrev a1 : FVec Ideal ⟨2, ![50000, 128]⟩ .f32 := m ((c.tc : Thread Cert.KernelIdeal.nD Cert.KernelIdeal.τ).loc Cert.KernelIdeal.main_arg1)
abbrev a2 : FVec Ideal ⟨2, ![50000, 128]⟩ .f32 := m ((c.tc : Thread Cert.KernelIdeal.nD Cert.KernelIdeal.τ).loc Cert.KernelIdeal.main_arg2)
abbrev a3 : FVec Ideal ⟨3, ![9, 128, 128]⟩ .f32 := m ((c.tc : Thread Cert.KernelIdeal.nD Cert.KernelIdeal.τ).loc Cert.KernelIdeal.main_arg3)
abbrev a4 : FVec Ideal ⟨2, ![9, 128]⟩ .f32 := m ((c.tc : Thread Cert.KernelIdeal.nD Cert.KernelIdeal.τ).loc Cert.KernelIdeal.main_arg4)
abbrev a5 : FVec Ideal ⟨3, ![9, 128, 128]⟩ .f32 := m ((c.tc : Thread Cert.KernelIdeal.nD Cert.KernelIdeal.τ).loc Cert.KernelIdeal.main_arg5)
abbrev a6 : FVec Ideal ⟨2, ![9, 128]⟩ .f32 := m ((c.tc : Thread Cert.KernelIdeal.nD Cert.KernelIdeal.τ).loc Cert.KernelIdeal.main_arg6)
abbrev a7 : FVec Ideal ⟨2, ![128, 16]⟩ .f32 := m ((c.tc : Thread Cert.KernelIdeal.nD Cert.KernelIdeal.τ).loc Cert.KernelIdeal.main_arg7)
abbrev a8 : FVec Ideal ⟨1, ![16]⟩ .f32 := m ((c.tc : Thread Cert.KernelIdeal.nD Cert.KernelIdeal.τ).loc Cert.KernelIdeal.main_arg8)
abbrev a9 : IVec ⟨3, ![9, 2, 400000]⟩ 32 := m ((c.tc : Thread Cert.KernelIdeal.nD Cert.KernelIdeal.τ).loc Cert.KernelIdeal.main_arg9)

/-! ## (1) The kernel side's data are the reference side's tables of the same arrays -/

theorem xs_eq : KernelIdeal.Net.xs m c = ReferenceIdeal.RV.tabs (a0 m c) (a1 m c) (a2 m c) := by
  funext t
  match t with
  | ⟨0, _⟩ => rfl
  | ⟨1, _⟩ => rfl
  | ⟨2, _⟩ => rfl
theorem W1_eq : KernelIdeal.Net.W1 m c = ReferenceIdeal.RV.wts (a3 m c) := rfl
theorem b1_eq : KernelIdeal.Net.b1 m c = ReferenceIdeal.RV.bias (a4 m c) := rfl
theorem W2_eq : KernelIdeal.Net.W2 m c = ReferenceIdeal.RV.wts (a5 m c) := rfl
theorem b2_eq : KernelIdeal.Net.b2 m c = ReferenceIdeal.RV.bias (a6 m c) := rfl
theorem Wc_eq : KernelIdeal.Net.Wc m c = fun k q => a7 m c (ix2 k q) := rfl
theorem bc_eq : KernelIdeal.Net.bc m c = fun q => a8 m c (ix1 q) := rfl
theorem G_eq : KernelIdeal.Net.G m c = graphOf (a9 m c) := rfl

/-! ## (2) Under the precondition the float data are real -/

theorem inputs_isR (hpre : Cert.Pre_KernelIdeal (hPre_finite_inputs := Cert.Pre_finite_inputs.Gen.facts) m) :
    (∀ t n k, IsR (KernelIdeal.Net.xs m c t n k)) ∧ (∀ r k j, IsR (KernelIdeal.Net.W1 m c r k j)) ∧ (∀ r j, IsR (KernelIdeal.Net.b1 m c r j))
      ∧ (∀ r k j, IsR (KernelIdeal.Net.W2 m c r k j)) := by
  obtain ⟨h0, h1, h2, h3, h4, h5, -, -, -⟩ :=
    @Cert.PreReal.inputs_real Cert.Pre_finite_inputs.Gen.facts (a0 m c) (a1 m c) (a2 m c) (a3 m c) (a4 m c) (a5 m c) (a6 m c)
      (a7 m c) (a8 m c) (a9 m c) (hpre c)
  refine ⟨fun t n k => ?_, fun r k j => h3 _, fun r j => h4 _, fun r k j => h5 _⟩
  match t with
  | ⟨0, _⟩ => exact h0 _
  | ⟨1, _⟩ => exact h1 _
  | ⟨2, _⟩ => exact h2 _

/-! ## (3) So the kernel's network over the launch memory is the reference's network over the argument arrays -/

theorem netK_eq_netR (hpre : Cert.Pre_KernelIdeal (hPre_finite_inputs := Cert.Pre_finite_inputs.Gen.facts) m) :
    Spec.netK (KernelIdeal.Net.G m c) (KernelIdeal.Net.xs m c) (KernelIdeal.Net.W1 m c) (KernelIdeal.Net.b1 m c) (KernelIdeal.Net.W2 m c) (KernelIdeal.Net.b2 m c) (KernelIdeal.Net.Wc m c) (KernelIdeal.Net.bc m c)
      = Spec.netR (graphOf (a9 m c)) (ReferenceIdeal.RV.tabs (a0 m c) (a1 m c) (a2 m c)) (ReferenceIdeal.RV.wts (a3 m c)) (ReferenceIdeal.RV.bias (a4 m c)) (ReferenceIdeal.RV.wts (a5 m c))
          (ReferenceIdeal.RV.bias (a6 m c)) (fun k q => a7 m c (ix2 k q)) (fun q => a8 m c (ix1 q)) := by
  obtain ⟨hx, hW1, hb1, hW2⟩ := inputs_isR m c hpre
  rw [Spec.net_eq (KernelIdeal.Net.G m c) (KernelIdeal.Net.Wc m c) (KernelIdeal.Net.bc m c) hx hW1 hb1 hW2, xs_eq]
  rfl

end

end Cert.Proof.Glue

end
-- ==== Proof.Algebraic.lean ====
/-
  The algebraic claim: the idealized kernel and the idealized reference, at the ideal instance (floats extended reals,
  operations exact), from memories that agree on the ten arguments and satisfy the precondition (every float input
  finite), both run, end with equal results and unchanged arguments.

  The common number is the network of the specification in the kernel's form over the launch memory: three node types,
  nine relations, two layers (per relation: gather the scaled source rows along the edges, sum at the destination, scale,
  project by the relation's weights, add its bias; sum the relations arriving at a node type), an activation between the
  layers and before the classifier. The kernel's result buffer holds it element by element. The reference's result, as a
  value of its ten argument arrays, is the same network in the reference's form (it projects the rows before it
  aggregates them and adds the biases afterwards); on real entries the two forms agree, and the precondition makes every
  float entry real. The reference's run ends at that value of its arguments.
-/
import proofs.«151568_j90031104458821_2_alg».proof.Proof.AlgebraicOf
import proofs.«151568_j90031104458821_2_alg».proof.Proof.KI.KOutA
import proofs.«151568_j90031104458821_2_alg».proof.Proof.RV.Net
import proofs.«151568_j90031104458821_2_alg».proof.Proof.Glue
import proofs.«151568_j90031104458821_2_alg».proof.Proof.Ref.Value

set_option maxRecDepth 16384

noncomputable section

namespace Cert.Proof.Alg

open Idealize.ShloMosaic Idealize.ShloMosaic.ValueIdx Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' hpre hagree =>
    algebraic_of m ρ m' ρ' hagree
      (fun c => Cert.Spec.netK (Cert.KernelIdeal.Net.G m c) (Cert.KernelIdeal.Net.xs m c) (Cert.KernelIdeal.Net.W1 m c) (Cert.KernelIdeal.Net.b1 m c)
        (Cert.KernelIdeal.Net.W2 m c) (Cert.KernelIdeal.Net.b2 m c) (Cert.KernelIdeal.Net.Wc m c) (Cert.KernelIdeal.Net.bc m c))
      (fun c t n q => Cert.KernelIdeal.Net.kernel_net' m ρ c t n q)
      (fun c t n q => (Cert.ReferenceIdeal.RV.ref_net _ _ _ _ _ _ _ _ _ _ t n q).trans
        (congrFun (congrFun (congrFun (Cert.Proof.Glue.netK_eq_netR m c hpre) t) n) q).symm)
      (Cert.ReferenceIdeal.RefRun.result m' ρ')

end Cert.Proof.Alg

end
-- ==== Proof.lean ====
/-
  The certificate of the heterogeneous graph network: a kernel of three pallas_calls (the two layers' per-relation
  projections and the classifier) among 79 stretches of host operations, its idealization, and the idealized reference.

  Frames. Each of the three programs, from any memory with zero counters, runs to the end on the TensorCores, nothing
  faulting, and leaves its ten argument arrays as launched. For the kernel (at both instances, one text): the run is the
  sequence of host stretches and pallas_calls; no host operation writes an argument, a pallas_call changes only its output
  array, and an argument is at most an input window of a call; so the contents the last call leaves, read at an argument,
  walk back to the launch memory. For the reference: its operations write result buffers only, none of them an argument's.

  The idealization rewrote no operation: the idealized kernel is the kernel's own text read at the ideal instance.

  Values. At the ideal instance the kernel's result buffer holds, element by element, the network of the specification
  in the kernel's form (aggregate the scaled source rows, then project the aggregate and add the bias); the reference's
  result, as a value of its arguments, is the network in the reference's form (project the rows, aggregate the
  projections, add the biases afterwards). Under the precondition every float input is finite, so every entry is a real
  number, and on real entries the two forms agree (finite sums of reals reassociate and distribute). Hence from
  memories that agree on the arguments the two programs end with equal results.
-/
import proofs.«151568_j90031104458821_2_alg».proof.Defs
import proofs.«151568_j90031104458821_2_alg».proof.Proof.Gen.Kernel
import proofs.«151568_j90031104458821_2_alg».proof.Proof.Gen.KernelIdeal
import proofs.«151568_j90031104458821_2_alg».proof.Proof.Gen.ReferenceIdeal
import proofs.«151568_j90031104458821_2_alg».proof.Proof.Gen.Pre_finite_inputs
import proofs.«151568_j90031104458821_2_alg».proof.Proof.Frames
import proofs.«151568_j90031104458821_2_alg».proof.Proof.FrameRef
import proofs.«151568_j90031104458821_2_alg».proof.Proof.Algebraic

noncomputable section

namespace Cert.Proof

theorem claim : Cert.Claim := ⟨Cert.Kernel.Gen.facts, Cert.KernelIdeal.Gen.facts, Cert.ReferenceIdeal.Gen.facts, Cert.Pre_finite_inputs.Gen.facts,
  Frames.frame_k, Frames.frame_ki, Frames.frame_ri, trivial, Alg.algebraic⟩

end Cert.Proof

end
